-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1000000 : Shape := ⟨1, ![1000000]⟩
abbrev S1x256 : Shape := ⟨2, ![1, 256]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_
  bcast_S_S1000000 : S_.BroadcastsInDim S1000000 (![] : Fin 0 → Fin S1000000.rank)
  reducesTo_S1000000_S_d0 : S1000000.ReducesTo [0] S_

variable [Facts]

def fn_part1 {F : FTy → Type} [FloatOps F] (main_arg1 : IVec S1000000 32) (main_arg2 : IVec S1000000 32) (main_v13 : IVec S_ 1) (main_v15 : IVec S1000000 1) (main_c_5 : IVec S_ 32) : IVec S_ 1 :=
  let main_v16 : IVec S1000000 32 := broadcastInDim S1000000 ![] bcast_S_S1000000 main_c_5
  let main_v17 : IVec S1000000 1 := cmpi .slt main_arg1 main_v16
  let main_v18 : IVec S1000000 1 := andi main_v15 main_v17
  let main_c_6 : IVec S_ 1 := constantI S_ 1 1#1
  let main_v19 : IVec S_ 1 := (fun x v => Host.reduce IntOp.andi x v reducesTo_S1000000_S_d0 h_S_) main_v18 main_c_6
  let main_v20 : IVec S_ 1 := andi main_v13 main_v19
  let main_c_7 : IVec S_ 32 := constantI S_ 32 0#32
  let main_v21 : IVec S1000000 32 := broadcastInDim S1000000 ![] bcast_S_S1000000 main_c_7
  let main_v22 : IVec S1000000 1 := cmpi .sge main_arg2 main_v21
  let main_c_8 : IVec S_ 32 := constantI S_ 32 100000#32
  let main_v23 : IVec S1000000 32 := broadcastInDim S1000000 ![] bcast_S_S1000000 main_c_8
  let main_v24 : IVec S1000000 1 := cmpi .slt main_arg2 main_v23
  let main_v25 : IVec S1000000 1 := andi main_v22 main_v24
  let main_c_9 : IVec S_ 1 := constantI S_ 1 1#1
  let main_v26 : IVec S_ 1 := (fun x v => Host.reduce IntOp.andi x v reducesTo_S1000000_S_d0 h_S_) main_v25 main_c_9
  let main_v27 : IVec S_ 1 := andi main_v20 main_v26
  main_v27

def fn {F : FTy → Type} [FloatOps F] (main_arg0 : FVec F S100000x128 .f32) (main_arg1 : IVec S1000000 32) (main_arg2 : IVec S1000000 32) (main_arg3 : FVec F S1x256 .f32) (main_arg4 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1x256 .f32 := Host.absf main_arg3
  let main_cst_0 : FVec F S_ .f32 := constant S_ .f32 0x7F800000#32
  let main_v5 : FVec F S1x256 .f32 := broadcastInDim S1x256 ![] bcast_S_S1x256 main_cst_0
  let main_v6 : IVec S1x256 1 := cmpf .olt main_v4 main_v5
  let main_c_1 : IVec S_ 1 := constantI S_ 1 1#1
  let main_v7 : IVec S_ 1 := (fun x v => Host.reduce IntOp.andi x v reducesTo_S1x256_S_d0_1 h_S_) main_v6 main_c_1
  let main_v8 : IVec S_ 1 := andi main_v3 main_v7
  let main_v9 : FVec F S1 .f32 := Host.absf main_arg4
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_c_4 : IVec S_ 32 := constantI S_ 32 0#32
  let main_v14 : IVec S1000000 32 := broadcastInDim S1000000 ![] bcast_S_S1000000 main_c_4
  let main_v15 : IVec S1000000 1 := cmpi .sge main_arg1 main_v14
  let main_c_5 : IVec S_ 32 := constantI S_ 32 100000#32
  fn_part1 (F := F) main_arg1 main_arg2 main_v13 main_v15 main_c_5
-- ==== Kernel.lean ====
abbrev S100000x128 : Shape := ⟨2, ![100000, 128]⟩
abbrev S1000000 : Shape := ⟨1, ![1000000]⟩
abbrev S1x256 : Shape := ⟨2, ![1, 256]⟩
abbrev S1 : Shape := ⟨1, ![1]⟩
abbrev S1x1 : Shape := ⟨2, ![1, 1]⟩
abbrev S100000x1x128 : Shape := ⟨3, ![100000, 1, 128]⟩
abbrev S62500 : Shape := ⟨1, ![62500]⟩
abbrev S62500x1x1 : Shape := ⟨3, ![62500, 1, 1]⟩
abbrev S1x1x128 : Shape := ⟨3, ![1, 1, 128]⟩
abbrev S1x1x1 : Shape := ⟨3, ![1, 1, 1]⟩
abbrev S1x128 : Shape := ⟨2, ![1, 128]⟩
abbrev S1000000x1 : Shape := ⟨2, ![1000000, 1]⟩

abbrev nBuf : Space → Nat
  | .hbm => 41
  | .vmem => 128
  | .smem => 32
  | _ => 0

abbrev bufTy : (tb : Table) → Fin (tcTables nBuf tb) → BufTy
  | .hbm, ⟨0, _⟩ => ⟨S100000x128, .f32⟩
  | .hbm, ⟨1, _⟩ => ⟨S1000000, .i32⟩
  | .hbm, ⟨2, _⟩ => ⟨S1000000, .i32⟩
  | .hbm, ⟨3, _⟩ => ⟨S1x256, .f32⟩
  | .hbm, ⟨4, _⟩ => ⟨S1, .f32⟩
  | .hbm, ⟨5, _⟩ => ⟨S1x1, .f32⟩
  | .hbm, ⟨6, _⟩ => ⟨S100000x1x128, .f32⟩
  | .hbm, ⟨7, _⟩ => ⟨S62500x1x1, .f32⟩
  | .hbm, ⟨8, _⟩ => ⟨S62500, .f32⟩
  | .hbm, ⟨9, _⟩ => ⟨S62500x1x1, .f32⟩
  | .hbm, ⟨10, _⟩ => ⟨S62500, .f32⟩
  | .hbm, ⟨11, _⟩ => ⟨S62500x1x1, .f32⟩
  | .hbm, ⟨12, _⟩ => ⟨S62500, .f32⟩
  | .hbm, ⟨13, _⟩ => ⟨S62500x1x1, .f32⟩
  | .hbm, ⟨14, _⟩ => ⟨S62500, .f32⟩
  | .hbm, ⟨15, _⟩ => ⟨S62500x1x1, .f32⟩
  | .hbm, ⟨16, _⟩ => ⟨S62500, .f32⟩
  | .hbm, ⟨17, _⟩ => ⟨S62500x1x1, .f32⟩
  | .hbm, ⟨18, _⟩ => ⟨S62500, .f32⟩
  | .hbm, ⟨19, _⟩ => ⟨S62500x1x1, .f32⟩
  | .hbm, ⟨20, _⟩ => ⟨S62500, .f32⟩
  | .hbm, ⟨21, _⟩ => ⟨S62500x1x1, .f32⟩
  | .hbm, ⟨22, _⟩ => ⟨S62500, .f32⟩
  | .hbm, ⟨23, _⟩ => ⟨S62500x1x1, .f32⟩
  | .hbm, ⟨24, _⟩ => ⟨S62500, .f32⟩
  | .hbm, ⟨25, _⟩ => ⟨S62500x1x1, .f32⟩
  | .hbm, ⟨26, _⟩ => ⟨S62500, .f32⟩
  | .hbm, ⟨27, _⟩ => ⟨S62500x1x1, .f32⟩
  | .hbm, ⟨28, _⟩ => ⟨S62500, .f32⟩
  | .hbm, ⟨29, _⟩ => ⟨S62500x1x1, .f32⟩
  | .hbm, ⟨30, _⟩ => ⟨S62500, .f32⟩
  | .hbm, ⟨31, _⟩ => ⟨S62500x1x1, .f32⟩
  | .hbm, ⟨32, _⟩ => ⟨S62500, .f32⟩
  | .hbm, ⟨33, _⟩ => ⟨S62500x1x1, .f32⟩
  | .hbm, ⟨34, _⟩ => ⟨S62500, .f32⟩
  | .hbm, ⟨35, _⟩ => ⟨S62500x1x1, .f32⟩
  | .hbm, ⟨36, _⟩ => ⟨S62500, .f32⟩
  | .hbm, ⟨37, _⟩ => ⟨S62500x1x1, .f32⟩
  | .hbm, ⟨38, _⟩ => ⟨S62500, .f32⟩
  | .hbm, ⟨39, _⟩ => ⟨S1000000, .f32⟩
  | .hbm, ⟨40, _⟩ => ⟨S1000000x1, .f32⟩
  | .local _ .vmem, ⟨0, _⟩ => ⟨S1x1x128, .f32⟩
  | .local _ .vmem, ⟨1, _⟩ => ⟨S1x1x128, .f32⟩
  | .local _ .vmem, ⟨2, _⟩ => ⟨S1x1x128, .f32⟩
  | .local _ .vmem, ⟨3, _⟩ => ⟨S1x1x128, .f32⟩
  | .local _ .vmem, ⟨4, _⟩ => ⟨S1x256, .f32⟩
  | .local _ .vmem, ⟨5, _⟩ => ⟨S1x1, .f32⟩
  | .local _ .vmem, ⟨6, _⟩ => ⟨S1x1x1, .f32⟩
  | .local _ .vmem, ⟨7, _⟩ => ⟨S1x1x1, .f32⟩
  | .local _ .vmem, ⟨8, _⟩ => ⟨S1x1x128, .f32⟩
  | .local _ .vmem, ⟨9, _⟩ => ⟨S1x1x128, .f32⟩
  | .local _ .vmem, ⟨10, _⟩ => ⟨S1x1x128, .f32⟩
  | .local _ .vmem, ⟨11, _⟩ => ⟨S1x1x128, .f32⟩
  | .local _ .vmem, ⟨12, _⟩ => ⟨S1x256, .f32⟩
  | .local _ .vmem, ⟨13, _⟩ => ⟨S1x1, .f32⟩
  | .local _ .vmem, ⟨14, _⟩ => ⟨S1x1x1, .f32⟩
  | .local _ .vmem, ⟨15, _⟩ => ⟨S1x1x1, .f32⟩
  | .local _ .vmem, ⟨16, _⟩ => ⟨S1x1x128, .f32⟩
  | .local _ .vmem, ⟨17, _⟩ => ⟨S1x1x128, .f32⟩
  | .local _ .vmem, ⟨18, _⟩ => ⟨S1x1x128, .f32⟩
  | .local _ .vmem, ⟨19, _⟩ => ⟨S1x1x128, .f32⟩
  | .local _ .vmem, ⟨20, _⟩ => ⟨S1x256, .f32⟩
  | .local _ .vmem, ⟨21, _⟩ => ⟨S1x1, .f32⟩
  | .local _ .vmem, ⟨22, _⟩ => ⟨S1x1x1, .f32⟩
  | .local _ .vmem, ⟨23, _⟩ => ⟨S1x1x1, .f32⟩
  | .local _ .vmem, ⟨24, _⟩ => ⟨S1x1x128, .f32⟩
  | .local _ .vmem, ⟨25, _⟩ => ⟨S1x1x128, .f32⟩
  | .local _ .vmem, ⟨26, _⟩ => ⟨S1x1x128, .f32⟩
  | .local _ .vmem, ⟨27, _⟩ => ⟨S1x1x128, .f32⟩
  | .local _ .vmem, ⟨28, _⟩ => ⟨S1x256, .f32⟩
  | .local _ .vmem, ⟨29, _⟩ => ⟨S1x1, .f32⟩
  | .local _ .vmem, ⟨30, _⟩ => ⟨S1x1x1, .f32⟩
  | .local _ .vmem, ⟨31, _⟩ => ⟨S1x1x1, .f32⟩
  | .local _ .vmem, ⟨32, _⟩ => ⟨S1x1x128, .f32⟩
  | .local _ .vmem, ⟨33, _⟩ => ⟨S1x1x128, .f32⟩
  | .local _ .vmem, ⟨34, _⟩ => ⟨S1x1x128, .f32⟩
  | .local _ .vmem, ⟨35, _⟩ => ⟨S1x1x128, .f32⟩
  | .local _ .vmem, ⟨36, _⟩ => ⟨S1x256, .f32⟩
  | .local _ .vmem, ⟨37, _⟩ => ⟨S1x1, .f32⟩
  | .local _ .vmem, ⟨38, _⟩ => ⟨S1x1x1, .f32⟩
  | .local _ .vmem, ⟨39, _⟩ => ⟨S1x1x1, .f32⟩
  | .local _ .vmem, ⟨40, _⟩ => ⟨S1x1x128, .f32⟩
  | .local _ .vmem, ⟨41, _⟩ => ⟨S1x1x128, .f32⟩
  | .local _ .vmem, ⟨42, _⟩ => ⟨S1x1x128, .f32⟩
  | .local _ .vmem, ⟨43, _⟩ => ⟨S1x1x128, .f32⟩
  | .local _ .vmem, ⟨44, _⟩ => ⟨S1x256, .f32⟩
  | .local _ .vmem, ⟨45, _⟩ => ⟨S1x1, .f32⟩
  | .local _ .vmem, ⟨46, _⟩ => ⟨S1x1x1, .f32⟩
  | .local _ .vmem, ⟨47, _⟩ => ⟨S1x1x1, .f32⟩
  | .local _ .vmem, ⟨48, _⟩ => ⟨S1x1x128, .f32⟩
  | .local _ .vmem, ⟨49, _⟩ => ⟨S1x1x128, .f32⟩
  | .local _ .vmem, ⟨50, _⟩ => ⟨S1x1x128, .f32⟩
  | .local _ .vmem, ⟨51, _⟩ => ⟨S1x1x128, .f32⟩
  | .local _ .vmem, ⟨52, _⟩ => ⟨S1x256, .f32⟩
  | .local _ .vmem, ⟨53, _⟩ => ⟨S1x1, .f32⟩
  | .local _ .vmem, ⟨54, _⟩ => ⟨S1x1x1, .f32⟩
  | .local _ .vmem, ⟨55, _⟩ => ⟨S1x1x1, .f32⟩
  | .local _ .vmem, ⟨56, _⟩ => ⟨S1x1x128, .f32⟩
  | .local _ .vmem, ⟨57, _⟩ => ⟨S1x1x128, .f32⟩
  | .local _ .vmem, ⟨58, _⟩ => ⟨S1x1x128, .f32⟩
  | .local _ .vmem, ⟨59, _⟩ => ⟨S1x1x128, .f32⟩
  | .local _ .vmem, ⟨60, _⟩ => ⟨S1x256, .f32⟩
  | .local _ .vmem, ⟨61, _⟩ => ⟨S1x1, .f32⟩
  | .local _ .vmem, ⟨62, _⟩ => ⟨S1x1x1, .f32⟩
  | .local _ .vmem, ⟨63, _⟩ => ⟨S1x1x1, .f32⟩
  | .local _ .vmem, ⟨64, _⟩ => ⟨S1x1x128, .f32⟩
  | .local _ .vmem, ⟨65, _⟩ => ⟨S1x1x128, .f32⟩
  | .local _ .vmem, ⟨66, _⟩ => ⟨S1x1x128, .f32⟩
  | .local _ .vmem, ⟨67, _⟩ => ⟨S1x1x128, .f32⟩
  | .local _ .vmem, ⟨68, _⟩ => ⟨S1x256, .f32⟩
  | .local _ .vmem, ⟨69, _⟩ => ⟨S1x1, .f32⟩
  | .local _ .vmem, ⟨70, _⟩ => ⟨S1x1x1, .f32⟩
  | .local _ .vmem, ⟨71, _⟩ => ⟨S1x1x1, .f32⟩
  | .local _ .vmem, ⟨72, _⟩ => ⟨S1x1x128, .f32⟩
  | .local _ .vmem, ⟨73, _⟩ => ⟨S1x1x128, .f32⟩
  | .local _ .vmem, ⟨74, _⟩ => ⟨S1x1x128, .f32⟩
  | .local _ .vmem, ⟨75, _⟩ => ⟨S1x1x128, .f32⟩
  | .local _ .vmem, ⟨76, _⟩ => ⟨S1x256, .f32⟩
  | .local _ .vmem, ⟨77, _⟩ => ⟨S1x1, .f32⟩
  | .local _ .vmem, ⟨78, _⟩ => ⟨S1x1x1, .f32⟩
  | .local _ .vmem, ⟨79, _⟩ => ⟨S1x1x1, .f32⟩
  | .local _ .vmem, ⟨80, _⟩ => ⟨S1x1x128, .f32⟩
  | .local _ .vmem, ⟨81, _⟩ => ⟨S1x1x128, .f32⟩
  | .local _ .vmem, ⟨82, _⟩ => ⟨S1x1x128, .f32⟩
  | .local _ .vmem, ⟨83, _⟩ => ⟨S1x1x128, .f32⟩
  | .local _ .vmem, ⟨84, _⟩ => ⟨S1x256, .f32⟩
  | .local _ .vmem, ⟨85, _⟩ => ⟨S1x1, .f32⟩
  | .local _ .vmem, ⟨86, _⟩ => ⟨S1x1x1, .f32⟩
  | .local _ .vmem, ⟨87, _⟩ => ⟨S1x1x1, .f32⟩
  | .local _ .vmem, ⟨88, _⟩ => ⟨S1x1x128, .f32⟩
  | .local _ .vmem, ⟨89, _⟩ => ⟨S1x1x128, .f32⟩
  | .local _ .vmem, ⟨90, _⟩ => ⟨S1x1x128, .f32⟩
  | .local _ .vmem, ⟨91, _⟩ => ⟨S1x1x128, .f32⟩
  | .local _ .vmem, ⟨92, _⟩ => ⟨S1x256, .f32⟩
  | .local _ .vmem, ⟨93, _⟩ => ⟨S1x1, .f32⟩
  | .local _ .vmem, ⟨94, _⟩ => ⟨S1x1x1, .f32⟩
  | .local _ .vmem, ⟨95, _⟩ => ⟨S1x1x1, .f32⟩
  | .local _ .vmem, ⟨96, _⟩ => ⟨S1x1x128, .f32⟩
  | .local _ .vmem, ⟨97, _⟩ => ⟨S1x1x128, .f32⟩
  | .local _ .vmem, ⟨98, _⟩ => ⟨S1x1x128, .f32⟩
  | .local _ .vmem, ⟨99, _⟩ => ⟨S1x1x128, .f32⟩
  | .local _ .vmem, ⟨100, _⟩ => ⟨S1x256, .f32⟩
  | .local _ .vmem, ⟨101, _⟩ => ⟨S1x1, .f32⟩
  | .local _ .vmem, ⟨102, _⟩ => ⟨S1x1x1, .f32⟩
  | .local _ .vmem, ⟨103, _⟩ => ⟨S1x1x1, .f32⟩
  | .local _ .vmem, ⟨104, _⟩ => ⟨S1x1x128, .f32⟩
  | .local _ .vmem, ⟨105, _⟩ => ⟨S1x1x128, .f32⟩
  | .local _ .vmem, ⟨106, _⟩ => ⟨S1x1x128, .f32⟩
  | .local _ .vmem, ⟨107, _⟩ => ⟨S1x1x128, .f32⟩
  | .local _ .vmem, ⟨108, _⟩ => ⟨S1x256, .f32⟩
  | .local _ .vmem, ⟨109, _⟩ => ⟨S1x1, .f32⟩
  | .local _ .vmem, ⟨110, _⟩ => ⟨S1x1x1, .f32⟩
  | .local _ .vmem, ⟨111, _⟩ => ⟨S1x1x1, .f32⟩
  | .local _ .vmem, ⟨112, _⟩ => ⟨S1x1x128, .f32⟩
  | .local _ .vmem, ⟨113, _⟩ => ⟨S1x1x128, .f32⟩
  | .local _ .vmem, ⟨114, _⟩ => ⟨S1x1x128, .f32⟩
  | .local _ .vmem, ⟨115, _⟩ => ⟨S1x1x128, .f32⟩
  | .local _ .vmem, ⟨116, _⟩ => ⟨S1x256, .f32⟩
  | .local _ .vmem, ⟨117, _⟩ => ⟨S1x1, .f32⟩
  | .local _ .vmem, ⟨118, _⟩ => ⟨S1x1x1, .f32⟩
  | .local _ .vmem, ⟨119, _⟩ => ⟨S1x1x1, .f32⟩
  | .local _ .vmem, ⟨120, _⟩ => ⟨S1x1x128, .f32⟩
  | .local _ .vmem, ⟨121, _⟩ => ⟨S1x1x128, .f32⟩
  | .local _ .vmem, ⟨122, _⟩ => ⟨S1x1x128, .f32⟩
  | .local _ .vmem, ⟨123, _⟩ => ⟨S1x1x128, .f32⟩
  | .local _ .vmem, ⟨124, _⟩ => ⟨S1x256, .f32⟩
  | .local _ .vmem, ⟨125, _⟩ => ⟨S1x1, .f32⟩
  | .local _ .vmem, ⟨126, _⟩ => ⟨S1x1x1, .f32⟩
  | .local _ .vmem, ⟨127, _⟩ => ⟨S1x1x1, .f32⟩
  | .local _ .smem, ⟨0, _⟩ => ⟨S62500, .i32⟩
  | .local _ .smem, ⟨1, _⟩ => ⟨S62500, .i32⟩
  | .local _ .smem, ⟨2, _⟩ => ⟨S62500, .i32⟩
  | .local _ .smem, ⟨3, _⟩ => ⟨S62500, .i32⟩
  | .local _ .smem, ⟨4, _⟩ => ⟨S62500, .i32⟩
  | .local _ .smem, ⟨5, _⟩ => ⟨S62500, .i32⟩
  | .local _ .smem, ⟨6, _⟩ => ⟨S62500, .i32⟩
  | .local _ .smem, ⟨7, _⟩ => ⟨S62500, .i32⟩
  | .local _ .smem, ⟨8, _⟩ => ⟨S62500, .i32⟩
  | .local _ .smem, ⟨9, _⟩ => ⟨S62500, .i32⟩
  | .local _ .smem, ⟨10, _⟩ => ⟨S62500, .i32⟩
  | .local _ .smem, ⟨11, _⟩ => ⟨S62500, .i32⟩
  | .local _ .smem, ⟨12, _⟩ => ⟨S62500, .i32⟩
  | .local _ .smem, ⟨13, _⟩ => ⟨S62500, .i32⟩
  | .local _ .smem, ⟨14, _⟩ => ⟨S62500, .i32⟩
  | .local _ .smem, ⟨15, _⟩ => ⟨S62500, .i32⟩
  | .local _ .smem, ⟨16, _⟩ => ⟨S62500, .i32⟩
  | .local _ .smem, ⟨17, _⟩ => ⟨S62500, .i32⟩
  | .local _ .smem, ⟨18, _⟩ => ⟨S62500, .i32⟩
  | .local _ .smem, ⟨19, _⟩ => ⟨S62500, .i32⟩
  | .local _ .smem, ⟨20, _⟩ => ⟨S62500, .i32⟩
  | .local _ .smem, ⟨21, _⟩ => ⟨S62500, .i32⟩
  | .local _ .smem, ⟨22, _⟩ => ⟨S62500, .i32⟩
  | .local _ .smem, ⟨23, _⟩ => ⟨S62500, .i32⟩
  | .local _ .smem, ⟨24, _⟩ => ⟨S62500, .i32⟩
  | .local _ .smem, ⟨25, _⟩ => ⟨S62500, .i32⟩
  | .local _ .smem, ⟨26, _⟩ => ⟨S62500, .i32⟩
  | .local _ .smem, ⟨27, _⟩ => ⟨S62500, .i32⟩
  | .local _ .smem, ⟨28, _⟩ => ⟨S62500, .i32⟩
  | .local _ .smem, ⟨29, _⟩ => ⟨S62500, .i32⟩
  | .local _ .smem, ⟨30, _⟩ => ⟨S62500, .i32⟩
  | .local _ .smem, ⟨31, _⟩ => ⟨S62500, .i32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | .vmem, ⟨119, _⟩ => true
  | .vmem, ⟨120, _⟩ => true
  | .vmem, ⟨121, _⟩ => true
  | .vmem, ⟨122, _⟩ => true
  | .vmem, ⟨123, _⟩ => true
  | .vmem, ⟨124, _⟩ => true
  | .vmem, ⟨125, _⟩ => true
  | .vmem, ⟨126, _⟩ => true
  | .vmem, ⟨127, _⟩ => true
  | _, _ => false

abbrev semScoped : Fin 0 → Bool
  | ⟨_, h⟩ => absurd h (Nat.not_lt_zero _)

abbrev dmaSemScoped : Fin 128 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | ⟨125, _⟩ => true
  | ⟨126, _⟩ => true
  | ⟨127, _⟩ => true
  | _ => false

abbrev sig : RefSig :=
  ofTc nBuf bufTy 0 128 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v4 : Ref sig .tc := ⟨.hbm, 7, rfl⟩
abbrev main_v5 : Ref sig .tc := ⟨.hbm, 8, rfl⟩
abbrev main_v8 : Ref sig .tc := ⟨.hbm, 9, rfl⟩
abbrev main_v9 : Ref sig .tc := ⟨.hbm, 10, rfl⟩
abbrev main_v12 : Ref sig .tc := ⟨.hbm, 11, rfl⟩
abbrev main_v13 : Ref sig .tc := ⟨.hbm, 12, rfl⟩
abbrev main_v16 : Ref sig .tc := ⟨.hbm, 13, rfl⟩
abbrev main_v17 : Ref sig .tc := ⟨.hbm, 14, rfl⟩
abbrev main_v20 : Ref sig .tc := ⟨.hbm, 15, rfl⟩
abbrev main_v21 : Ref sig .tc := ⟨.hbm, 16, rfl⟩
abbrev main_v24 : Ref sig .tc := ⟨.hbm, 17, rfl⟩
abbrev main_v25 : Ref sig .tc := ⟨.hbm, 18, rfl⟩
abbrev main_v28 : Ref sig .tc := ⟨.hbm, 19, rfl⟩
abbrev main_v29 : Ref sig .tc := ⟨.hbm, 20, rfl⟩
abbrev main_v32 : Ref sig .tc := ⟨.hbm, 21, rfl⟩
abbrev main_v33 : Ref sig .tc := ⟨.hbm, 22, rfl⟩
abbrev main_v36 : Ref sig .tc := ⟨.hbm, 23, rfl⟩
abbrev main_v37 : Ref sig .tc := ⟨.hbm, 24, rfl⟩
abbrev main_v40 : Ref sig .tc := ⟨.hbm, 25, rfl⟩
abbrev main_v41 : Ref sig .tc := ⟨.hbm, 26, rfl⟩
abbrev main_v44 : Ref sig .tc := ⟨.hbm, 27, rfl⟩
abbrev main_v45 : Ref sig .tc := ⟨.hbm, 28, rfl⟩
abbrev main_v48 : Ref sig .tc := ⟨.hbm, 29, rfl⟩
abbrev main_v49 : Ref sig .tc := ⟨.hbm, 30, rfl⟩
abbrev main_v52 : Ref sig .tc := ⟨.hbm, 31, rfl⟩
abbrev main_v53 : Ref sig .tc := ⟨.hbm, 32, rfl⟩
abbrev main_v56 : Ref sig .tc := ⟨.hbm, 33, rfl⟩
abbrev main_v57 : Ref sig .tc := ⟨.hbm, 34, rfl⟩
abbrev main_v60 : Ref sig .tc := ⟨.hbm, 35, rfl⟩
abbrev main_v61 : Ref sig .tc := ⟨.hbm, 36, rfl⟩
abbrev main_v64 : Ref sig .tc := ⟨.hbm, 37, rfl⟩
abbrev main_v65 : Ref sig .tc := ⟨.hbm, 38, rfl⟩
abbrev main_v66 : Ref sig .tc := ⟨.hbm, 39, rfl⟩
abbrev main_v67 : Ref sig .tc := ⟨.hbm, 40, rfl⟩
abbrev main_v2 : Ref sig .tc := ⟨.smem, 0, rfl⟩
abbrev main_v3 : Ref sig .tc := ⟨.smem, 1, rfl⟩
abbrev main_v6 : Ref sig .tc := ⟨.smem, 2, rfl⟩
abbrev main_v7 : Ref sig .tc := ⟨.smem, 3, rfl⟩
abbrev main_v10 : Ref sig .tc := ⟨.smem, 4, rfl⟩
abbrev main_v11 : Ref sig .tc := ⟨.smem, 5, rfl⟩
abbrev main_v14 : Ref sig .tc := ⟨.smem, 6, rfl⟩
abbrev main_v15 : Ref sig .tc := ⟨.smem, 7, rfl⟩
abbrev main_v18 : Ref sig .tc := ⟨.smem, 8, rfl⟩
abbrev main_v19 : Ref sig .tc := ⟨.smem, 9, rfl⟩
abbrev main_v22 : Ref sig .tc := ⟨.smem, 10, rfl⟩
abbrev main_v23 : Ref sig .tc := ⟨.smem, 11, rfl⟩
abbrev main_v26 : Ref sig .tc := ⟨.smem, 12, rfl⟩
abbrev main_v27 : Ref sig .tc := ⟨.smem, 13, rfl⟩
abbrev main_v30 : Ref sig .tc := ⟨.smem, 14, rfl⟩
abbrev main_v31 : Ref sig .tc := ⟨.smem, 15, rfl⟩
abbrev main_v34 : Ref sig .tc := ⟨.smem, 16, rfl⟩
abbrev main_v35 : Ref sig .tc := ⟨.smem, 17, rfl⟩
abbrev main_v38 : Ref sig .tc := ⟨.smem, 18, rfl⟩
abbrev main_v39 : Ref sig .tc := ⟨.smem, 19, rfl⟩
abbrev main_v42 : Ref sig .tc := ⟨.smem, 20, rfl⟩
abbrev main_v43 : Ref sig .tc := ⟨.smem, 21, rfl⟩
abbrev main_v46 : Ref sig .tc := ⟨.smem, 22, rfl⟩
abbrev main_v47 : Ref sig .tc := ⟨.smem, 23, rfl⟩
abbrev main_v50 : Ref sig .tc := ⟨.smem, 24, rfl⟩
abbrev main_v51 : Ref sig .tc := ⟨.smem, 25, rfl⟩
abbrev main_v54 : Ref sig .tc := ⟨.smem, 26, rfl⟩
abbrev main_v55 : Ref sig .tc := ⟨.smem, 27, rfl⟩
abbrev main_v58 : Ref sig .tc := ⟨.smem, 28, rfl⟩
abbrev main_v59 : Ref sig .tc := ⟨.smem, 29, rfl⟩
abbrev main_v62 : Ref sig .tc := ⟨.smem, 30, rfl⟩
abbrev main_v63 : Ref sig .tc := ⟨.smem, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg4_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg1_1 : Ref sig .tc := ⟨.vmem, 43, rfl⟩
abbrev cc5_stg2_0 : Ref sig .tc := ⟨.vmem, 44, rfl⟩
abbrev cc5_stg3_0 : Ref sig .tc := ⟨.vmem, 45, rfl⟩
abbrev cc5_stg4_0 : Ref sig .tc := ⟨.vmem, 46, rfl⟩
abbrev cc5_stg4_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg1_1 : Ref sig .tc := ⟨.vmem, 51, rfl⟩
abbrev cc6_stg2_0 : Ref sig .tc := ⟨.vmem, 52, rfl⟩
abbrev cc6_stg3_0 : Ref sig .tc := ⟨.vmem, 53, rfl⟩
abbrev cc6_stg4_0 : Ref sig .tc := ⟨.vmem, 54, rfl⟩
abbrev cc6_stg4_1 : Ref sig .tc := ⟨.vmem, 55, rfl⟩
abbrev cc7_stg0_0 : Ref sig .tc := ⟨.vmem, 56, rfl⟩
abbrev cc7_stg0_1 : Ref sig .tc := ⟨.vmem, 57, rfl⟩
abbrev cc7_stg1_0 : Ref sig .tc := ⟨.vmem, 58, rfl⟩
abbrev cc7_stg1_1 : Ref sig .tc := ⟨.vmem, 59, rfl⟩
abbrev cc7_stg2_0 : Ref sig .tc := ⟨.vmem, 60, rfl⟩
abbrev cc7_stg3_0 : Ref sig .tc := ⟨.vmem, 61, rfl⟩
abbrev cc7_stg4_0 : Ref sig .tc := ⟨.vmem, 62, rfl⟩
abbrev cc7_stg4_1 : Ref sig .tc := ⟨.vmem, 63, rfl⟩
abbrev cc8_stg0_0 : Ref sig .tc := ⟨.vmem, 64, rfl⟩
abbrev cc8_stg0_1 : Ref sig .tc := ⟨.vmem, 65, rfl⟩
abbrev cc8_stg1_0 : Ref sig .tc := ⟨.vmem, 66, rfl⟩
abbrev cc8_stg1_1 : Ref sig .tc := ⟨.vmem, 67, rfl⟩
abbrev cc8_stg2_0 : Ref sig .tc := ⟨.vmem, 68, rfl⟩
abbrev cc8_stg3_0 : Ref sig .tc := ⟨.vmem, 69, rfl⟩
abbrev cc8_stg4_0 : Ref sig .tc := ⟨.vmem, 70, rfl⟩
abbrev cc8_stg4_1 : Ref sig .tc := ⟨.vmem, 71, rfl⟩
abbrev cc9_stg0_0 : Ref sig .tc := ⟨.vmem, 72, rfl⟩
abbrev cc9_stg0_1 : Ref sig .tc := ⟨.vmem, 73, rfl⟩
abbrev cc9_stg1_0 : Ref sig .tc := ⟨.vmem, 74, rfl⟩
abbrev cc9_stg1_1 : Ref sig .tc := ⟨.vmem, 75, rfl⟩
abbrev cc9_stg2_0 : Ref sig .tc := ⟨.vmem, 76, rfl⟩
abbrev cc9_stg3_0 : Ref sig .tc := ⟨.vmem, 77, rfl⟩
abbrev cc9_stg4_0 : Ref sig .tc := ⟨.vmem, 78, rfl⟩
abbrev cc9_stg4_1 : Ref sig .tc := ⟨.vmem, 79, rfl⟩
abbrev cc10_stg0_0 : Ref sig .tc := ⟨.vmem, 80, rfl⟩
abbrev cc10_stg0_1 : Ref sig .tc := ⟨.vmem, 81, rfl⟩
abbrev cc10_stg1_0 : Ref sig .tc := ⟨.vmem, 82, rfl⟩
abbrev cc10_stg1_1 : Ref sig .tc := ⟨.vmem, 83, rfl⟩
abbrev cc10_stg2_0 : Ref sig .tc := ⟨.vmem, 84, rfl⟩
abbrev cc10_stg3_0 : Ref sig .tc := ⟨.vmem, 85, rfl⟩
abbrev cc10_stg4_0 : Ref sig .tc := ⟨.vmem, 86, rfl⟩
abbrev cc10_stg4_1 : Ref sig .tc := ⟨.vmem, 87, rfl⟩
abbrev cc11_stg0_0 : Ref sig .tc := ⟨.vmem, 88, rfl⟩
abbrev cc11_stg0_1 : Ref sig .tc := ⟨.vmem, 89, rfl⟩
abbrev cc11_stg1_0 : Ref sig .tc := ⟨.vmem, 90, rfl⟩
abbrev cc11_stg1_1 : Ref sig .tc := ⟨.vmem, 91, rfl⟩
abbrev cc11_stg2_0 : Ref sig .tc := ⟨.vmem, 92, rfl⟩
abbrev cc11_stg3_0 : Ref sig .tc := ⟨.vmem, 93, rfl⟩
abbrev cc11_stg4_0 : Ref sig .tc := ⟨.vmem, 94, rfl⟩
abbrev cc11_stg4_1 : Ref sig .tc := ⟨.vmem, 95, rfl⟩
abbrev cc12_stg0_0 : Ref sig .tc := ⟨.vmem, 96, rfl⟩
abbrev cc12_stg0_1 : Ref sig .tc := ⟨.vmem, 97, rfl⟩
abbrev cc12_stg1_0 : Ref sig .tc := ⟨.vmem, 98, rfl⟩
abbrev cc12_stg1_1 : Ref sig .tc := ⟨.vmem, 99, rfl⟩
abbrev cc12_stg2_0 : Ref sig .tc := ⟨.vmem, 100, rfl⟩
abbrev cc12_stg3_0 : Ref sig .tc := ⟨.vmem, 101, rfl⟩
abbrev cc12_stg4_0 : Ref sig .tc := ⟨.vmem, 102, rfl⟩
abbrev cc12_stg4_1 : Ref sig .tc := ⟨.vmem, 103, rfl⟩
abbrev cc13_stg0_0 : Ref sig .tc := ⟨.vmem, 104, rfl⟩
abbrev cc13_stg0_1 : Ref sig .tc := ⟨.vmem, 105, rfl⟩
abbrev cc13_stg1_0 : Ref sig .tc := ⟨.vmem, 106, rfl⟩
abbrev cc13_stg1_1 : Ref sig .tc := ⟨.vmem, 107, rfl⟩
abbrev cc13_stg2_0 : Ref sig .tc := ⟨.vmem, 108, rfl⟩
abbrev cc13_stg3_0 : Ref sig .tc := ⟨.vmem, 109, rfl⟩
abbrev cc13_stg4_0 : Ref sig .tc := ⟨.vmem, 110, rfl⟩
abbrev cc13_stg4_1 : Ref sig .tc := ⟨.vmem, 111, rfl⟩
abbrev cc14_stg0_0 : Ref sig .tc := ⟨.vmem, 112, rfl⟩
abbrev cc14_stg0_1 : Ref sig .tc := ⟨.vmem, 113, rfl⟩
abbrev cc14_stg1_0 : Ref sig .tc := ⟨.vmem, 114, rfl⟩
abbrev cc14_stg1_1 : Ref sig .tc := ⟨.vmem, 115, rfl⟩
abbrev cc14_stg2_0 : Ref sig .tc := ⟨.vmem, 116, rfl⟩
abbrev cc14_stg3_0 : Ref sig .tc := ⟨.vmem, 117, rfl⟩
abbrev cc14_stg4_0 : Ref sig .tc := ⟨.vmem, 118, rfl⟩
abbrev cc14_stg4_1 : Ref sig .tc := ⟨.vmem, 119, rfl⟩
abbrev cc15_stg0_0 : Ref sig .tc := ⟨.vmem, 120, rfl⟩
abbrev cc15_stg0_1 : Ref sig .tc := ⟨.vmem, 121, rfl⟩
abbrev cc15_stg1_0 : Ref sig .tc := ⟨.vmem, 122, rfl⟩
abbrev cc15_stg1_1 : Ref sig .tc := ⟨.vmem, 123, rfl⟩
abbrev cc15_stg2_0 : Ref sig .tc := ⟨.vmem, 124, rfl⟩
abbrev cc15_stg3_0 : Ref sig .tc := ⟨.vmem, 125, rfl⟩
abbrev cc15_stg4_0 : Ref sig .tc := ⟨.vmem, 126, rfl⟩
abbrev cc15_stg4_1 : Ref sig .tc := ⟨.vmem, 127, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem4_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem3_0 : DmaSem sig := 37
abbrev cc4_sem4_0 : DmaSem sig := 38
abbrev cc4_sem4_1 : DmaSem sig := 39
abbrev cc5_sem0_0 : DmaSem sig := 40
abbrev cc5_sem0_1 : DmaSem sig := 41
abbrev cc5_sem1_0 : DmaSem sig := 42
abbrev cc5_sem1_1 : DmaSem sig := 43
abbrev cc5_sem2_0 : DmaSem sig := 44
abbrev cc5_sem3_0 : DmaSem sig := 45
abbrev cc5_sem4_0 : DmaSem sig := 46
abbrev cc5_sem4_1 : DmaSem sig := 47
abbrev cc6_sem0_0 : DmaSem sig := 48
abbrev cc6_sem0_1 : DmaSem sig := 49
abbrev cc6_sem1_0 : DmaSem sig := 50
abbrev cc6_sem1_1 : DmaSem sig := 51
abbrev cc6_sem2_0 : DmaSem sig := 52
abbrev cc6_sem3_0 : DmaSem sig := 53
abbrev cc6_sem4_0 : DmaSem sig := 54
abbrev cc6_sem4_1 : DmaSem sig := 55
abbrev cc7_sem0_0 : DmaSem sig := 56
abbrev cc7_sem0_1 : DmaSem sig := 57
abbrev cc7_sem1_0 : DmaSem sig := 58
abbrev cc7_sem1_1 : DmaSem sig := 59
abbrev cc7_sem2_0 : DmaSem sig := 60
abbrev cc7_sem3_0 : DmaSem sig := 61
abbrev cc7_sem4_0 : DmaSem sig := 62
abbrev cc7_sem4_1 : DmaSem sig := 63
abbrev cc8_sem0_0 : DmaSem sig := 64
abbrev cc8_sem0_1 : DmaSem sig := 65
abbrev cc8_sem1_0 : DmaSem sig := 66
abbrev cc8_sem1_1 : DmaSem sig := 67
abbrev cc8_sem2_0 : DmaSem sig := 68
abbrev cc8_sem3_0 : DmaSem sig := 69
abbrev cc8_sem4_0 : DmaSem sig := 70
abbrev cc8_sem4_1 : DmaSem sig := 71
abbrev cc9_sem0_0 : DmaSem sig := 72
abbrev cc9_sem0_1 : DmaSem sig := 73
abbrev cc9_sem1_0 : DmaSem sig := 74
abbrev cc9_sem1_1 : DmaSem sig := 75
abbrev cc9_sem2_0 : DmaSem sig := 76
abbrev cc9_sem3_0 : DmaSem sig := 77
abbrev cc9_sem4_0 : DmaSem sig := 78
abbrev cc9_sem4_1 : DmaSem sig := 79
abbrev cc10_sem0_0 : DmaSem sig := 80
abbrev cc10_sem0_1 : DmaSem sig := 81
abbrev cc10_sem1_0 : DmaSem sig := 82
abbrev cc10_sem1_1 : DmaSem sig := 83
abbrev cc10_sem2_0 : DmaSem sig := 84
abbrev cc10_sem3_0 : DmaSem sig := 85
abbrev cc10_sem4_0 : DmaSem sig := 86
abbrev cc10_sem4_1 : DmaSem sig := 87
abbrev cc11_sem0_0 : DmaSem sig := 88
abbrev cc11_sem0_1 : DmaSem sig := 89
abbrev cc11_sem1_0 : DmaSem sig := 90
abbrev cc11_sem1_1 : DmaSem sig := 91
abbrev cc11_sem2_0 : DmaSem sig := 92
abbrev cc11_sem3_0 : DmaSem sig := 93
abbrev cc11_sem4_0 : DmaSem sig := 94
abbrev cc11_sem4_1 : DmaSem sig := 95
abbrev cc12_sem0_0 : DmaSem sig := 96
abbrev cc12_sem0_1 : DmaSem sig := 97
abbrev cc12_sem1_0 : DmaSem sig := 98
abbrev cc12_sem1_1 : DmaSem sig := 99
abbrev cc12_sem2_0 : DmaSem sig := 100
abbrev cc12_sem3_0 : DmaSem sig := 101
abbrev cc12_sem4_0 : DmaSem sig := 102
abbrev cc12_sem4_1 : DmaSem sig := 103
abbrev cc13_sem0_0 : DmaSem sig := 104
abbrev cc13_sem0_1 : DmaSem sig := 105
abbrev cc13_sem1_0 : DmaSem sig := 106
abbrev cc13_sem1_1 : DmaSem sig := 107
abbrev cc13_sem2_0 : DmaSem sig := 108
abbrev cc13_sem3_0 : DmaSem sig := 109
abbrev cc13_sem4_0 : DmaSem sig := 110
abbrev cc13_sem4_1 : DmaSem sig := 111
abbrev cc14_sem0_0 : DmaSem sig := 112
abbrev cc14_sem0_1 : DmaSem sig := 113
abbrev cc14_sem1_0 : DmaSem sig := 114
abbrev cc14_sem1_1 : DmaSem sig := 115
abbrev cc14_sem2_0 : DmaSem sig := 116
abbrev cc14_sem3_0 : DmaSem sig := 117
abbrev cc14_sem4_0 : DmaSem sig := 118
abbrev cc14_sem4_1 : DmaSem sig := 119
abbrev cc15_sem0_0 : DmaSem sig := 120
abbrev cc15_sem0_1 : DmaSem sig := 121
abbrev cc15_sem1_0 : DmaSem sig := 122
abbrev cc15_sem1_1 : DmaSem sig := 123
abbrev cc15_sem2_0 : DmaSem sig := 124
abbrev cc15_sem3_0 : DmaSem sig := 125
abbrev cc15_sem4_0 : DmaSem sig := 126
abbrev cc15_sem4_1 : DmaSem sig := 127

abbrev nD : Nat := 1
abbrev τ : Topo := Topo.v7x

variable {F : FTy → Type} [FloatOps F]

abbrev grid0 : Pipeline.Grid := ⟨1, ![62500], ![false]⟩

abbrev pre0 : Pipeline.Prefetch sig := ⟨2, ![main_v2.idx, main_v3.idx], fun | 0 => main_v2.names | 1 => main_v3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S62500.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S62500) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (k0_off1_inb : ∀ i : grid0.Coords, ∀ a, (k0_off1 i) a + S1.size a ≤ S62500.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S62500) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![62500], ![false]⟩

abbrev pre1 : Pipeline.Prefetch sig := ⟨2, ![main_v6.idx, main_v7.idx], fun | 0 => main_v6.names | 1 => main_v7.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def cc1_transform_0 (k1_off1_inb : ∀ i : grid1.Coords, ∀ a, (k1_off1 i) a + S1.size a ≤ S62500.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S62500) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_1 (k1_off1_inb : ∀ i : grid1.Coords, ∀ a, (k1_off1 i) a + S1.size a ≤ S62500.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 1 (Rect.unit (s := S62500) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x1x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![62500], ![false]⟩

abbrev pre2 : Pipeline.Prefetch sig := ⟨2, ![main_v10.idx, main_v11.idx], fun | 0 => main_v10.names | 1 => main_v11.names | ⟨_ + 2, h⟩ => absurd h (Nat.not_lt.2 (Nat.le_add_left _ _)), fun | 0 => rfl | 1 => rfl | ⟨_ + 2, h⟩ => absurd h (Nat.not_lt.2 (Nat.le_add_left _ _))⟩

def k2_off1 (i : grid2.Coords) : Fin 1 → Nat :=
  let arg0 : BitVec 32 := BitVec.ofNat 32 (i 0).val
  let v0 : Index := Scalar.indexCast arg0
  ![v0.toNat]
def cc2_transform_0 (k2_off1_inb : ∀ i : grid2.Coords, ∀ a, (k2_off1 i) a + S1.size a ≤ S62500.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 0 (Rect.unit (s := S62500) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

def cc2_transform_1 (k2_off1_inb : ∀ i : grid2.Coords, ∀ a, (k2_off1 i) a + S1.size a ≤ S62500.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 1 (Rect.unit (s := S62500) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x1x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1x1x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![62500], ![false]⟩

abbrev pre3 : Pipeline.Prefetch sig := ⟨2, ![main_v14.idx, main_v15.idx], fun | 0 => main_v14.names | 1 => main_v15.names | ⟨_ + 2, h⟩ => absurd h (Nat.not_lt.2 (Nat.le_add_left _ _)), fun | 0 => rfl | 1 => rfl | ⟨_ + 2, h⟩ => absurd h (Nat.not_lt.2 (Nat.le_add_left _ _))⟩

def k3_off1 (i : grid3.Coords) : Fin 1 → Nat :=
  let arg0 : BitVec 32 := BitVec.ofNat 32 (i 0).val
  let v0 : Index := Scalar.indexCast arg0
  ![v0.toNat]
def cc3_transform_0 (k3_off1_inb : ∀ i : grid3.Coords, ∀ a, (k3_off1 i) a + S1.size a ≤ S62500.size a) (numel1_S1 : S1.numel = 1) (pf : pre3.Contents (Elt F)) (i : grid3.Coords) : Fin 3 → Nat :=
  let arg0 : BitVec 32 := BitVec.ofNat 32 (i 0).val
  let v0 : Index := Scalar.indexCast arg0
  let v1 : BitVec 32 := pf.at 0 (Rect.unit (s := S62500) ![v0.toNat] S1.size (k3_off1_inb i)) numel1_S1
  let c0_i32 : BitVec 32 := 0#32
  let c0_i32_0 : BitVec 32 := 0#32
  let c0_i32_1 : BitVec 32 := 0#32
  ![v1.toNat, c0_i32.toNat, c0_i32_0.toNat]

def cc3_transform_1 (k3_off1_inb : ∀ i : grid3.Coords, ∀ a, (k3_off1 i) a + S1.size a ≤ S62500.size a) (numel1_S1 : S1.numel = 1) (pf : pre3.Contents (Elt F)) (i : grid3.Coords) : Fin 3 → Nat :=
  let arg0 : BitVec 32 := BitVec.ofNat 32 (i 0).val
  let v0 : Index := Scalar.indexCast arg0
  let v1 : BitVec 32 := pf.at 1 (Rect.unit (s := S62500) ![v0.toNat] S1.size (k3_off1_inb i)) numel1_S1
  let c0_i32 : BitVec 32 := 0#32
  let c0_i32_0 : BitVec 32 := 0#32
  let c0_i32_1 : BitVec 32 := 0#32
  ![v1.toNat, c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x1x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x1x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S1x1x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![62500], ![false]⟩

abbrev pre4 : Pipeline.Prefetch sig := ⟨2, ![main_v18.idx, main_v19.idx], fun | 0 => main_v18.names | 1 => main_v19.names | ⟨_ + 2, h⟩ => absurd h (Nat.not_lt.2 (Nat.le_add_left _ _)), fun | 0 => rfl | 1 => rfl | ⟨_ + 2, h⟩ => absurd h (Nat.not_lt.2 (Nat.le_add_left _ _))⟩

def k4_off1 (i : grid4.Coords) : Fin 1 → Nat :=
  let arg0 : BitVec 32 := BitVec.ofNat 32 (i 0).val
  let v0 : Index := Scalar.indexCast arg0
  ![v0.toNat]
def cc4_transform_0 (k4_off1_inb : ∀ i : grid4.Coords, ∀ a, (k4_off1 i) a + S1.size a ≤ S62500.size a) (numel1_S1 : S1.numel = 1) (pf : pre4.Contents (Elt F)) (i : grid4.Coords) : Fin 3 → Nat :=
  let arg0 : BitVec 32 := BitVec.ofNat 32 (i 0).val
  let v0 : Index := Scalar.indexCast arg0
  let v1 : BitVec 32 := pf.at 0 (Rect.unit (s := S62500) ![v0.toNat] S1.size (k4_off1_inb i)) numel1_S1
  let c0_i32 : BitVec 32 := 0#32
  let c0_i32_0 : BitVec 32 := 0#32
  let c0_i32_1 : BitVec 32 := 0#32
  ![v1.toNat, c0_i32.toNat, c0_i32_0.toNat]

def cc4_transform_1 (k4_off1_inb : ∀ i : grid4.Coords, ∀ a, (k4_off1 i) a + S1.size a ≤ S62500.size a) (numel1_S1 : S1.numel = 1) (pf : pre4.Contents (Elt F)) (i : grid4.Coords) : Fin 3 → Nat :=
  let arg0 : BitVec 32 := BitVec.ofNat 32 (i 0).val
  let v0 : Index := Scalar.indexCast arg0
  let v1 : BitVec 32 := pf.at 1 (Rect.unit (s := S62500) ![v0.toNat] S1.size (k4_off1_inb i)) numel1_S1
  let c0_i32 : BitVec 32 := 0#32
  let c0_i32_0 : BitVec 32 := 0#32
  let c0_i32_1 : BitVec 32 := 0#32
  ![v1.toNat, c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x1x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1x1x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S1x1x1 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![62500], ![false]⟩

abbrev pre5 : Pipeline.Prefetch sig := ⟨2, ![main_v22.idx, main_v23.idx], fun | 0 => main_v22.names | 1 => main_v23.names | ⟨_ + 2, h⟩ => absurd h (Nat.not_lt.2 (Nat.le_add_left _ _)), fun | 0 => rfl | 1 => rfl | ⟨_ + 2, h⟩ => absurd h (Nat.not_lt.2 (Nat.le_add_left _ _))⟩

def k5_off1 (i : grid5.Coords) : Fin 1 → Nat :=
  let arg0 : BitVec 32 := BitVec.ofNat 32 (i 0).val
  let v0 : Index := Scalar.indexCast arg0
  ![v0.toNat]
def cc5_transform_0 (k5_off1_inb : ∀ i : grid5.Coords, ∀ a, (k5_off1 i) a + S1.size a ≤ S62500.size a) (numel1_S1 : S1.numel = 1) (pf : pre5.Contents (Elt F)) (i : grid5.Coords) : Fin 3 → Nat :=
  let arg0 : BitVec 32 := BitVec.ofNat 32 (i 0).val
  let v0 : Index := Scalar.indexCast arg0
  let v1 : BitVec 32 := pf.at 0 (Rect.unit (s := S62500) ![v0.toNat] S1.size (k5_off1_inb i)) numel1_S1
  let c0_i32 : BitVec 32 := 0#32
  let c0_i32_0 : BitVec 32 := 0#32
  let c0_i32_1 : BitVec 32 := 0#32
  ![v1.toNat, c0_i32.toNat, c0_i32_0.toNat]

def cc5_transform_1 (k5_off1_inb : ∀ i : grid5.Coords, ∀ a, (k5_off1 i) a + S1.size a ≤ S62500.size a) (numel1_S1 : S1.numel = 1) (pf : pre5.Contents (Elt F)) (i : grid5.Coords) : Fin 3 → Nat :=
  let arg0 : BitVec 32 := BitVec.ofNat 32 (i 0).val
  let v0 : Index := Scalar.indexCast arg0
  let v1 : BitVec 32 := pf.at 1 (Rect.unit (s := S62500) ![v0.toNat] S1.size (k5_off1_inb i)) numel1_S1
  let c0_i32 : BitVec 32 := 0#32
  let c0_i32_0 : BitVec 32 := 0#32
  let c0_i32_1 : BitVec 32 := 0#32
  ![v1.toNat, c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S1x1x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1x1x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S1x1x1 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![62500], ![false]⟩

abbrev pre6 : Pipeline.Prefetch sig := ⟨2, ![main_v26.idx, main_v27.idx], fun | 0 => main_v26.names | 1 => main_v27.names | ⟨_ + 2, h⟩ => absurd h (Nat.not_lt.2 (Nat.le_add_left _ _)), fun | 0 => rfl | 1 => rfl | ⟨_ + 2, h⟩ => absurd h (Nat.not_lt.2 (Nat.le_add_left _ _))⟩

def k6_off1 (i : grid6.Coords) : Fin 1 → Nat :=
  let arg0 : BitVec 32 := BitVec.ofNat 32 (i 0).val
  let v0 : Index := Scalar.indexCast arg0
  ![v0.toNat]
def cc6_transform_0 (k6_off1_inb : ∀ i : grid6.Coords, ∀ a, (k6_off1 i) a + S1.size a ≤ S62500.size a) (numel1_S1 : S1.numel = 1) (pf : pre6.Contents (Elt F)) (i : grid6.Coords) : Fin 3 → Nat :=
  let arg0 : BitVec 32 := BitVec.ofNat 32 (i 0).val
  let v0 : Index := Scalar.indexCast arg0
  let v1 : BitVec 32 := pf.at 0 (Rect.unit (s := S62500) ![v0.toNat] S1.size (k6_off1_inb i)) numel1_S1
  let c0_i32 : BitVec 32 := 0#32
  let c0_i32_0 : BitVec 32 := 0#32
  let c0_i32_1 : BitVec 32 := 0#32
  ![v1.toNat, c0_i32.toNat, c0_i32_0.toNat]

def cc6_transform_1 (k6_off1_inb : ∀ i : grid6.Coords, ∀ a, (k6_off1 i) a + S1.size a ≤ S62500.size a) (numel1_S1 : S1.numel = 1) (pf : pre6.Contents (Elt F)) (i : grid6.Coords) : Fin 3 → Nat :=
  let arg0 : BitVec 32 := BitVec.ofNat 32 (i 0).val
  let v0 : Index := Scalar.indexCast arg0
  let v1 : BitVec 32 := pf.at 1 (Rect.unit (s := S62500) ![v0.toNat] S1.size (k6_off1_inb i)) numel1_S1
  let c0_i32 : BitVec 32 := 0#32
  let c0_i32_0 : BitVec 32 := 0#32
  let c0_i32_1 : BitVec 32 := 0#32
  ![v1.toNat, c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S1x1x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1x1x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S1x1x1 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![62500], ![false]⟩

abbrev pre7 : Pipeline.Prefetch sig := ⟨2, ![main_v30.idx, main_v31.idx], fun | 0 => main_v30.names | 1 => main_v31.names | ⟨_ + 2, h⟩ => absurd h (Nat.not_lt.2 (Nat.le_add_left _ _)), fun | 0 => rfl | 1 => rfl | ⟨_ + 2, h⟩ => absurd h (Nat.not_lt.2 (Nat.le_add_left _ _))⟩

def k7_off1 (i : grid7.Coords) : Fin 1 → Nat :=
  let arg0 : BitVec 32 := BitVec.ofNat 32 (i 0).val
  let v0 : Index := Scalar.indexCast arg0
  ![v0.toNat]
def cc7_transform_0 (k7_off1_inb : ∀ i : grid7.Coords, ∀ a, (k7_off1 i) a + S1.size a ≤ S62500.size a) (numel1_S1 : S1.numel = 1) (pf : pre7.Contents (Elt F)) (i : grid7.Coords) : Fin 3 → Nat :=
  let arg0 : BitVec 32 := BitVec.ofNat 32 (i 0).val
  let v0 : Index := Scalar.indexCast arg0
  let v1 : BitVec 32 := pf.at 0 (Rect.unit (s := S62500) ![v0.toNat] S1.size (k7_off1_inb i)) numel1_S1
  let c0_i32 : BitVec 32 := 0#32
  let c0_i32_0 : BitVec 32 := 0#32
  let c0_i32_1 : BitVec 32 := 0#32
  ![v1.toNat, c0_i32.toNat, c0_i32_0.toNat]

def cc7_transform_1 (k7_off1_inb : ∀ i : grid7.Coords, ∀ a, (k7_off1 i) a + S1.size a ≤ S62500.size a) (numel1_S1 : S1.numel = 1) (pf : pre7.Contents (Elt F)) (i : grid7.Coords) : Fin 3 → Nat :=
  let arg0 : BitVec 32 := BitVec.ofNat 32 (i 0).val
  let v0 : Index := Scalar.indexCast arg0
  let v1 : BitVec 32 := pf.at 1 (Rect.unit (s := S62500) ![v0.toNat] S1.size (k7_off1_inb i)) numel1_S1
  let c0_i32 : BitVec 32 := 0#32
  let c0_i32_0 : BitVec 32 := 0#32
  let c0_i32_1 : BitVec 32 := 0#32
  ![v1.toNat, c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage7_0 : Fin 2 → Memref sig .tc .vmem S1x1x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S1x1x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x1 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S1x1x1 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![62500], ![false]⟩

abbrev pre8 : Pipeline.Prefetch sig := ⟨2, ![main_v34.idx, main_v35.idx], fun | 0 => main_v34.names | 1 => main_v35.names | ⟨_ + 2, h⟩ => absurd h (Nat.not_lt.2 (Nat.le_add_left _ _)), fun | 0 => rfl | 1 => rfl | ⟨_ + 2, h⟩ => absurd h (Nat.not_lt.2 (Nat.le_add_left _ _))⟩

def k8_off1 (i : grid8.Coords) : Fin 1 → Nat :=
  let arg0 : BitVec 32 := BitVec.ofNat 32 (i 0).val
  let v0 : Index := Scalar.indexCast arg0
  ![v0.toNat]
def cc8_transform_0 (k8_off1_inb : ∀ i : grid8.Coords, ∀ a, (k8_off1 i) a + S1.size a ≤ S62500.size a) (numel1_S1 : S1.numel = 1) (pf : pre8.Contents (Elt F)) (i : grid8.Coords) : Fin 3 → Nat :=
  let arg0 : BitVec 32 := BitVec.ofNat 32 (i 0).val
  let v0 : Index := Scalar.indexCast arg0
  let v1 : BitVec 32 := pf.at 0 (Rect.unit (s := S62500) ![v0.toNat] S1.size (k8_off1_inb i)) numel1_S1
  let c0_i32 : BitVec 32 := 0#32
  let c0_i32_0 : BitVec 32 := 0#32
  let c0_i32_1 : BitVec 32 := 0#32
  ![v1.toNat, c0_i32.toNat, c0_i32_0.toNat]

def cc8_transform_1 (k8_off1_inb : ∀ i : grid8.Coords, ∀ a, (k8_off1 i) a + S1.size a ≤ S62500.size a) (numel1_S1 : S1.numel = 1) (pf : pre8.Contents (Elt F)) (i : grid8.Coords) : Fin 3 → Nat :=
  let arg0 : BitVec 32 := BitVec.ofNat 32 (i 0).val
  let v0 : Index := Scalar.indexCast arg0
  let v1 : BitVec 32 := pf.at 1 (Rect.unit (s := S62500) ![v0.toNat] S1.size (k8_off1_inb i)) numel1_S1
  let c0_i32 : BitVec 32 := 0#32
  let c0_i32_0 : BitVec 32 := 0#32
  let c0_i32_1 : BitVec 32 := 0#32
  ![v1.toNat, c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage8_0 : Fin 2 → Memref sig .tc .vmem S1x1x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S1x1x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S1x256 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x1 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S1x1x1 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev grid9 : Pipeline.Grid := ⟨1, ![62500], ![false]⟩

abbrev pre9 : Pipeline.Prefetch sig := ⟨2, ![main_v38.idx, main_v39.idx], fun | 0 => main_v38.names | 1 => main_v39.names | ⟨_ + 2, h⟩ => absurd h (Nat.not_lt.2 (Nat.le_add_left _ _)), fun | 0 => rfl | 1 => rfl | ⟨_ + 2, h⟩ => absurd h (Nat.not_lt.2 (Nat.le_add_left _ _))⟩

def k9_off1 (i : grid9.Coords) : Fin 1 → Nat :=
  let arg0 : BitVec 32 := BitVec.ofNat 32 (i 0).val
  let v0 : Index := Scalar.indexCast arg0
  ![v0.toNat]
def cc9_transform_0 (k9_off1_inb : ∀ i : grid9.Coords, ∀ a, (k9_off1 i) a + S1.size a ≤ S62500.size a) (numel1_S1 : S1.numel = 1) (pf : pre9.Contents (Elt F)) (i : grid9.Coords) : Fin 3 → Nat :=
  let arg0 : BitVec 32 := BitVec.ofNat 32 (i 0).val
  let v0 : Index := Scalar.indexCast arg0
  let v1 : BitVec 32 := pf.at 0 (Rect.unit (s := S62500) ![v0.toNat] S1.size (k9_off1_inb i)) numel1_S1
  let c0_i32 : BitVec 32 := 0#32
  let c0_i32_0 : BitVec 32 := 0#32
  let c0_i32_1 : BitVec 32 := 0#32
  ![v1.toNat, c0_i32.toNat, c0_i32_0.toNat]

def cc9_transform_1 (k9_off1_inb : ∀ i : grid9.Coords, ∀ a, (k9_off1 i) a + S1.size a ≤ S62500.size a) (numel1_S1 : S1.numel = 1) (pf : pre9.Contents (Elt F)) (i : grid9.Coords) : Fin 3 → Nat :=
  let arg0 : BitVec 32 := BitVec.ofNat 32 (i 0).val
  let v0 : Index := Scalar.indexCast arg0
  let v1 : BitVec 32 := pf.at 1 (Rect.unit (s := S62500) ![v0.toNat] S1.size (k9_off1_inb i)) numel1_S1
  let c0_i32 : BitVec 32 := 0#32
  let c0_i32_0 : BitVec 32 := 0#32
  let c0_i32_1 : BitVec 32 := 0#32
  ![v1.toNat, c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage9_0 : Fin 2 → Memref sig .tc .vmem S1x1x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S1x1x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S1x256 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x1 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S1x1x1 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev grid10 : Pipeline.Grid := ⟨1, ![62500], ![false]⟩

abbrev pre10 : Pipeline.Prefetch sig := ⟨2, ![main_v42.idx, main_v43.idx], fun | 0 => main_v42.names | 1 => main_v43.names | ⟨_ + 2, h⟩ => absurd h (Nat.not_lt.2 (Nat.le_add_left _ _)), fun | 0 => rfl | 1 => rfl | ⟨_ + 2, h⟩ => absurd h (Nat.not_lt.2 (Nat.le_add_left _ _))⟩

def k10_off1 (i : grid10.Coords) : Fin 1 → Nat :=
  let arg0 : BitVec 32 := BitVec.ofNat 32 (i 0).val
  let v0 : Index := Scalar.indexCast arg0
  ![v0.toNat]
def cc10_transform_0 (k10_off1_inb : ∀ i : grid10.Coords, ∀ a, (k10_off1 i) a + S1.size a ≤ S62500.size a) (numel1_S1 : S1.numel = 1) (pf : pre10.Contents (Elt F)) (i : grid10.Coords) : Fin 3 → Nat :=
  let arg0 : BitVec 32 := BitVec.ofNat 32 (i 0).val
  let v0 : Index := Scalar.indexCast arg0
  let v1 : BitVec 32 := pf.at 0 (Rect.unit (s := S62500) ![v0.toNat] S1.size (k10_off1_inb i)) numel1_S1
  let c0_i32 : BitVec 32 := 0#32
  let c0_i32_0 : BitVec 32 := 0#32
  let c0_i32_1 : BitVec 32 := 0#32
  ![v1.toNat, c0_i32.toNat, c0_i32_0.toNat]

def cc10_transform_1 (k10_off1_inb : ∀ i : grid10.Coords, ∀ a, (k10_off1 i) a + S1.size a ≤ S62500.size a) (numel1_S1 : S1.numel = 1) (pf : pre10.Contents (Elt F)) (i : grid10.Coords) : Fin 3 → Nat :=
  let arg0 : BitVec 32 := BitVec.ofNat 32 (i 0).val
  let v0 : Index := Scalar.indexCast arg0
  let v1 : BitVec 32 := pf.at 1 (Rect.unit (s := S62500) ![v0.toNat] S1.size (k10_off1_inb i)) numel1_S1
  let c0_i32 : BitVec 32 := 0#32
  let c0_i32_0 : BitVec 32 := 0#32
  let c0_i32_1 : BitVec 32 := 0#32
  ![v1.toNat, c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage10_0 : Fin 2 → Memref sig .tc .vmem S1x1x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S1x1x128 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S1x256 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x1 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 2 → Memref sig .tc .vmem S1x1x1 .f32 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true]

abbrev grid11 : Pipeline.Grid := ⟨1, ![62500], ![false]⟩

abbrev pre11 : Pipeline.Prefetch sig := ⟨2, ![main_v46.idx, main_v47.idx], fun | 0 => main_v46.names | 1 => main_v47.names | ⟨_ + 2, h⟩ => absurd h (Nat.not_lt.2 (Nat.le_add_left _ _)), fun | 0 => rfl | 1 => rfl | ⟨_ + 2, h⟩ => absurd h (Nat.not_lt.2 (Nat.le_add_left _ _))⟩

def k11_off1 (i : grid11.Coords) : Fin 1 → Nat :=
  let arg0 : BitVec 32 := BitVec.ofNat 32 (i 0).val
  let v0 : Index := Scalar.indexCast arg0
  ![v0.toNat]
def cc11_transform_0 (k11_off1_inb : ∀ i : grid11.Coords, ∀ a, (k11_off1 i) a + S1.size a ≤ S62500.size a) (numel1_S1 : S1.numel = 1) (pf : pre11.Contents (Elt F)) (i : grid11.Coords) : Fin 3 → Nat :=
  let arg0 : BitVec 32 := BitVec.ofNat 32 (i 0).val
  let v0 : Index := Scalar.indexCast arg0
  let v1 : BitVec 32 := pf.at 0 (Rect.unit (s := S62500) ![v0.toNat] S1.size (k11_off1_inb i)) numel1_S1
  let c0_i32 : BitVec 32 := 0#32
  let c0_i32_0 : BitVec 32 := 0#32
  let c0_i32_1 : BitVec 32 := 0#32
  ![v1.toNat, c0_i32.toNat, c0_i32_0.toNat]

def cc11_transform_1 (k11_off1_inb : ∀ i : grid11.Coords, ∀ a, (k11_off1 i) a + S1.size a ≤ S62500.size a) (numel1_S1 : S1.numel = 1) (pf : pre11.Contents (Elt F)) (i : grid11.Coords) : Fin 3 → Nat :=
  let arg0 : BitVec 32 := BitVec.ofNat 32 (i 0).val
  let v0 : Index := Scalar.indexCast arg0
  let v1 : BitVec 32 := pf.at 1 (Rect.unit (s := S62500) ![v0.toNat] S1.size (k11_off1_inb i)) numel1_S1
  let c0_i32 : BitVec 32 := 0#32
  let c0_i32_0 : BitVec 32 := 0#32
  let c0_i32_1 : BitVec 32 := 0#32
  ![v1.toNat, c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage11_0 : Fin 2 → Memref sig .tc .vmem S1x1x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S1x1x128 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S1x256 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x1 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 2 → Memref sig .tc .vmem S1x1x1 .f32 := fun | 0 => Memref.whole cc11_stg4_0 | 1 => Memref.whole cc11_stg4_1 | ⟨_ + 2, h⟩ => absurd h (Nat.not_lt.2 (Nat.le_add_left _ _))
abbrev sem11_4 : Fin 2 → DmaSem sig := fun | 0 => cc11_sem4_0 | 1 => cc11_sem4_1 | ⟨_ + 2, h⟩ => absurd h (Nat.not_lt.2 (Nat.le_add_left _ _))
abbrev reads11_4 : Fin grid11.rank → Bool := ![true]

abbrev grid12 : Pipeline.Grid := ⟨1, ![62500], ![false]⟩

abbrev pre12 : Pipeline.Prefetch sig := ⟨2, ![main_v50.idx, main_v51.idx], fun | 0 => main_v50.names | 1 => main_v51.names | ⟨_ + 2, h⟩ => absurd h (Nat.not_lt.2 (Nat.le_add_left _ _)), fun | 0 => rfl | 1 => rfl | ⟨_ + 2, h⟩ => absurd h (Nat.not_lt.2 (Nat.le_add_left _ _))⟩

def k12_off1 (i : grid12.Coords) : Fin 1 → Nat :=
  let arg0 : BitVec 32 := BitVec.ofNat 32 (i 0).val
  let v0 : Index := Scalar.indexCast arg0
  ![v0.toNat]
def cc12_transform_0 (k12_off1_inb : ∀ i : grid12.Coords, ∀ a, (k12_off1 i) a + S1.size a ≤ S62500.size a) (numel1_S1 : S1.numel = 1) (pf : pre12.Contents (Elt F)) (i : grid12.Coords) : Fin 3 → Nat :=
  let arg0 : BitVec 32 := BitVec.ofNat 32 (i 0).val
  let v0 : Index := Scalar.indexCast arg0
  let v1 : BitVec 32 := pf.at 0 (Rect.unit (s := S62500) ![v0.toNat] S1.size (k12_off1_inb i)) numel1_S1
  let c0_i32 : BitVec 32 := 0#32
  let c0_i32_0 : BitVec 32 := 0#32
  let c0_i32_1 : BitVec 32 := 0#32
  ![v1.toNat, c0_i32.toNat, c0_i32_0.toNat]

def cc12_transform_1 (k12_off1_inb : ∀ i : grid12.Coords, ∀ a, (k12_off1 i) a + S1.size a ≤ S62500.size a) (numel1_S1 : S1.numel = 1) (pf : pre12.Contents (Elt F)) (i : grid12.Coords) : Fin 3 → Nat :=
  let arg0 : BitVec 32 := BitVec.ofNat 32 (i 0).val
  let v0 : Index := Scalar.indexCast arg0
  let v1 : BitVec 32 := pf.at 1 (Rect.unit (s := S62500) ![v0.toNat] S1.size (k12_off1_inb i)) numel1_S1
  let c0_i32 : BitVec 32 := 0#32
  let c0_i32_0 : BitVec 32 := 0#32
  let c0_i32_1 : BitVec 32 := 0#32
  ![v1.toNat, c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage12_0 : Fin 2 → Memref sig .tc .vmem S1x1x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S1x1x128 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 1 → Memref sig .tc .vmem S1x256 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S1x1 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 2 → Memref sig .tc .vmem S1x1x1 .f32 := fun | 0 => Memref.whole cc12_stg4_0 | 1 => Memref.whole cc12_stg4_1 | ⟨_ + 2, h⟩ => absurd h (Nat.not_lt.2 (Nat.le_add_left _ _))
abbrev sem12_4 : Fin 2 → DmaSem sig := fun | 0 => cc12_sem4_0 | 1 => cc12_sem4_1 | ⟨_ + 2, h⟩ => absurd h (Nat.not_lt.2 (Nat.le_add_left _ _))
abbrev reads12_4 : Fin grid12.rank → Bool := ![true]

abbrev grid13 : Pipeline.Grid := ⟨1, ![62500], ![false]⟩

abbrev pre13 : Pipeline.Prefetch sig := ⟨2, ![main_v54.idx, main_v55.idx], fun | 0 => main_v54.names | 1 => main_v55.names | ⟨_ + 2, h⟩ => absurd h (Nat.not_lt.2 (Nat.le_add_left _ _)), fun | 0 => rfl | 1 => rfl | ⟨_ + 2, h⟩ => absurd h (Nat.not_lt.2 (Nat.le_add_left _ _))⟩

def k13_off1 (i : grid13.Coords) : Fin 1 → Nat :=
  let arg0 : BitVec 32 := BitVec.ofNat 32 (i 0).val
  let v0 : Index := Scalar.indexCast arg0
  ![v0.toNat]
def cc13_transform_0 (k13_off1_inb : ∀ i : grid13.Coords, ∀ a, (k13_off1 i) a + S1.size a ≤ S62500.size a) (numel1_S1 : S1.numel = 1) (pf : pre13.Contents (Elt F)) (i : grid13.Coords) : Fin 3 → Nat :=
  let arg0 : BitVec 32 := BitVec.ofNat 32 (i 0).val
  let v0 : Index := Scalar.indexCast arg0
  let v1 : BitVec 32 := pf.at 0 (Rect.unit (s := S62500) ![v0.toNat] S1.size (k13_off1_inb i)) numel1_S1
  let c0_i32 : BitVec 32 := 0#32
  let c0_i32_0 : BitVec 32 := 0#32
  let c0_i32_1 : BitVec 32 := 0#32
  ![v1.toNat, c0_i32.toNat, c0_i32_0.toNat]

def cc13_transform_1 (k13_off1_inb : ∀ i : grid13.Coords, ∀ a, (k13_off1 i) a + S1.size a ≤ S62500.size a) (numel1_S1 : S1.numel = 1) (pf : pre13.Contents (Elt F)) (i : grid13.Coords) : Fin 3 → Nat :=
  let arg0 : BitVec 32 := BitVec.ofNat 32 (i 0).val
  let v0 : Index := Scalar.indexCast arg0
  let v1 : BitVec 32 := pf.at 1 (Rect.unit (s := S62500) ![v0.toNat] S1.size (k13_off1_inb i)) numel1_S1
  let c0_i32 : BitVec 32 := 0#32
  let c0_i32_0 : BitVec 32 := 0#32
  let c0_i32_1 : BitVec 32 := 0#32
  ![v1.toNat, c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage13_0 : Fin 2 → Memref sig .tc .vmem S1x1x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S1x1x128 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 1 → Memref sig .tc .vmem S1x256 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S1x1 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 2 → Memref sig .tc .vmem S1x1x1 .f32 := fun | 0 => Memref.whole cc13_stg4_0 | 1 => Memref.whole cc13_stg4_1 | ⟨_ + 2, h⟩ => absurd h (Nat.not_lt.2 (Nat.le_add_left _ _))
abbrev sem13_4 : Fin 2 → DmaSem sig := fun | 0 => cc13_sem4_0 | 1 => cc13_sem4_1 | ⟨_ + 2, h⟩ => absurd h (Nat.not_lt.2 (Nat.le_add_left _ _))
abbrev reads13_4 : Fin grid13.rank → Bool := ![true]

abbrev grid14 : Pipeline.Grid := ⟨1, ![62500], ![false]⟩

abbrev pre14 : Pipeline.Prefetch sig := ⟨2, ![main_v58.idx, main_v59.idx], fun | 0 => main_v58.names | 1 => main_v59.names | ⟨_ + 2, h⟩ => absurd h (Nat.not_lt.2 (Nat.le_add_left _ _)), fun | 0 => rfl | 1 => rfl | ⟨_ + 2, h⟩ => absurd h (Nat.not_lt.2 (Nat.le_add_left _ _))⟩

def k14_off1 (i : grid14.Coords) : Fin 1 → Nat :=
  let arg0 : BitVec 32 := BitVec.ofNat 32 (i 0).val
  let v0 : Index := Scalar.indexCast arg0
  ![v0.toNat]
def cc14_transform_0 (k14_off1_inb : ∀ i : grid14.Coords, ∀ a, (k14_off1 i) a + S1.size a ≤ S62500.size a) (numel1_S1 : S1.numel = 1) (pf : pre14.Contents (Elt F)) (i : grid14.Coords) : Fin 3 → Nat :=
  let arg0 : BitVec 32 := BitVec.ofNat 32 (i 0).val
  let v0 : Index := Scalar.indexCast arg0
  let v1 : BitVec 32 := pf.at 0 (Rect.unit (s := S62500) ![v0.toNat] S1.size (k14_off1_inb i)) numel1_S1
  let c0_i32 : BitVec 32 := 0#32
  let c0_i32_0 : BitVec 32 := 0#32
  let c0_i32_1 : BitVec 32 := 0#32
  ![v1.toNat, c0_i32.toNat, c0_i32_0.toNat]

def cc14_transform_1 (k14_off1_inb : ∀ i : grid14.Coords, ∀ a, (k14_off1 i) a + S1.size a ≤ S62500.size a) (numel1_S1 : S1.numel = 1) (pf : pre14.Contents (Elt F)) (i : grid14.Coords) : Fin 3 → Nat :=
  let arg0 : BitVec 32 := BitVec.ofNat 32 (i 0).val
  let v0 : Index := Scalar.indexCast arg0
  let v1 : BitVec 32 := pf.at 1 (Rect.unit (s := S62500) ![v0.toNat] S1.size (k14_off1_inb i)) numel1_S1
  let c0_i32 : BitVec 32 := 0#32
  let c0_i32_0 : BitVec 32 := 0#32
  let c0_i32_1 : BitVec 32 := 0#32
  ![v1.toNat, c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage14_0 : Fin 2 → Memref sig .tc .vmem S1x1x128 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 2 → Memref sig .tc .vmem S1x1x128 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true]

abbrev stage14_2 : Fin 1 → Memref sig .tc .vmem S1x256 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S1x1 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 2 → Memref sig .tc .vmem S1x1x1 .f32 := fun | 0 => Memref.whole cc14_stg4_0 | 1 => Memref.whole cc14_stg4_1 | ⟨_ + 2, h⟩ => absurd h (Nat.not_lt.2 (Nat.le_add_left _ _))
abbrev sem14_4 : Fin 2 → DmaSem sig := fun | 0 => cc14_sem4_0 | 1 => cc14_sem4_1 | ⟨_ + 2, h⟩ => absurd h (Nat.not_lt.2 (Nat.le_add_left _ _))
abbrev reads14_4 : Fin grid14.rank → Bool := ![true]

abbrev grid15 : Pipeline.Grid := ⟨1, ![62500], ![false]⟩

abbrev pre15 : Pipeline.Prefetch sig := ⟨2, ![main_v62.idx, main_v63.idx], fun | 0 => main_v62.names | 1 => main_v63.names | ⟨_ + 2, h⟩ => absurd h (Nat.not_lt.2 (Nat.le_add_left _ _)), fun | 0 => rfl | 1 => rfl | ⟨_ + 2, h⟩ => absurd h (Nat.not_lt.2 (Nat.le_add_left _ _))⟩

def k15_off1 (i : grid15.Coords) : Fin 1 → Nat :=
  let arg0 : BitVec 32 := BitVec.ofNat 32 (i 0).val
  let v0 : Index := Scalar.indexCast arg0
  ![v0.toNat]
def cc15_transform_0 (k15_off1_inb : ∀ i : grid15.Coords, ∀ a, (k15_off1 i) a + S1.size a ≤ S62500.size a) (numel1_S1 : S1.numel = 1) (pf : pre15.Contents (Elt F)) (i : grid15.Coords) : Fin 3 → Nat :=
  let arg0 : BitVec 32 := BitVec.ofNat 32 (i 0).val
  let v0 : Index := Scalar.indexCast arg0
  let v1 : BitVec 32 := pf.at 0 (Rect.unit (s := S62500) ![v0.toNat] S1.size (k15_off1_inb i)) numel1_S1
  let c0_i32 : BitVec 32 := 0#32
  let c0_i32_0 : BitVec 32 := 0#32
  let c0_i32_1 : BitVec 32 := 0#32
  ![v1.toNat, c0_i32.toNat, c0_i32_0.toNat]

def cc15_transform_1 (k15_off1_inb : ∀ i : grid15.Coords, ∀ a, (k15_off1 i) a + S1.size a ≤ S62500.size a) (numel1_S1 : S1.numel = 1) (pf : pre15.Contents (Elt F)) (i : grid15.Coords) : Fin 3 → Nat :=
  let arg0 : BitVec 32 := BitVec.ofNat 32 (i 0).val
  let v0 : Index := Scalar.indexCast arg0
  let v1 : BitVec 32 := pf.at 1 (Rect.unit (s := S62500) ![v0.toNat] S1.size (k15_off1_inb i)) numel1_S1
  let c0_i32 : BitVec 32 := 0#32
  let c0_i32_0 : BitVec 32 := 0#32
  let c0_i32_1 : BitVec 32 := 0#32
  ![v1.toNat, c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_4 (i : grid15.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage15_0 : Fin 2 → Memref sig .tc .vmem S1x1x128 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 2 → Memref sig .tc .vmem S1x1x128 .f32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true]

abbrev stage15_2 : Fin 1 → Memref sig .tc .vmem S1x256 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 1 → Memref sig .tc .vmem S1x1 .f32 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![false]

abbrev stage15_4 : Fin 2 → Memref sig .tc .vmem S1x1x1 .f32 := fun | 0 => Memref.whole cc15_stg4_0 | 1 => Memref.whole cc15_stg4_1 | ⟨_ + 2, h⟩ => absurd h (Nat.not_lt.2 (Nat.le_add_left _ _))
abbrev sem15_4 : Fin 2 → DmaSem sig := fun | 0 => cc15_sem4_0 | 1 => cc15_sem4_1 | ⟨_ + 2, h⟩ => absurd h (Nat.not_lt.2 (Nat.le_add_left _ _))
abbrev reads15_4 : Fin grid15.rank → Bool := ![true]

class Facts₀ : Prop where
  shapeCasts_S1_S1x1 : S1.ShapeCasts S1x1
  shapeCasts_S100000x128_S100000x1x128 : S100000x128.ShapeCasts S100000x1x128
  slices_S1000000_S62500_0 : S1000000.Slices ![0] S62500
  numel1_S1 : S1.numel = 1
  inb_S1x256_S1x128_0_0 : ∀ a, (![0, 0] : Fin 2 → Nat) a + S1x128.size a ≤ S1x256.size a
  h_S1x128 : 0 < S1x128.numel
  inb_S1x256_S1x128_0_128 : ∀ a, (![0, 128] : Fin 2 → Nat) a + S1x128.size a ≤ S1x256.size a
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  reduces_S1x128_S1 : S1x128.Reduces [1] S1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  shapeCasts_S62500x1x1_S62500 : S62500x1x1.ShapeCasts S62500
  slices_S1000000_S62500_62500 : S1000000.Slices ![62500] S62500
  slices_S1000000_S62500_125000 : S1000000.Slices ![125000] S62500
  slices_S1000000_S62500_187500 : S1000000.Slices ![187500] S62500
  slices_S1000000_S62500_250000 : S1000000.Slices ![250000] S62500
  slices_S1000000_S62500_312500 : S1000000.Slices ![312500] S62500
  slices_S1000000_S62500_375000 : S1000000.Slices ![375000] S62500
  slices_S1000000_S62500_437500 : S1000000.Slices ![437500] S62500
  slices_S1000000_S62500_500000 : S1000000.Slices ![500000] S62500
  slices_S1000000_S62500_562500 : S1000000.Slices ![562500] S62500
  slices_S1000000_S62500_625000 : S1000000.Slices ![625000] S62500
  slices_S1000000_S62500_687500 : S1000000.Slices ![687500] S62500
  slices_S1000000_S62500_750000 : S1000000.Slices ![750000] S62500
  slices_S1000000_S62500_812500 : S1000000.Slices ![812500] S62500
  slices_S1000000_S62500_875000 : S1000000.Slices ![875000] S62500
  slices_S1000000_S62500_937500 : S1000000.Slices ![937500] S62500
  concatenates_S62500_S62500_S62500_S62500_S62500_S62500_S62500_S62500_S62500_S62500_S62500_S62500_S62500_S62500_S62500_S62500_S1000000_d0 : Shape.Concatenates [S62500, S62500, S62500, S62500, S62500, S62500, S62500, S62500, S62500, S62500, S62500, S62500, S62500, S62500, S62500, S62500] S1000000 0
  shapeCasts_S1000000_S1000000x1 : S1000000.ShapeCasts S1000000x1
  hrank0 : 0 < grid0.rank
  k0_off1_inb : ∀ i : grid0.Coords, ∀ a, (k0_off1 i) a + S1.size a ≤ S62500.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S62500x1x1.size a
  hwx0_4 : ∀ i : grid0.Coords, EltTy.bits .f32 = 32 ∨ (Rect.block (s := S62500x1x1) S1x1x1.size (cc0_transform_4 i) (hinb0_4 i)).WholeWords (EltTy.packing .f32)
  hrank1 : 0 < grid1.rank
  k1_off1_inb : ∀ i : grid1.Coords, ∀ a, (k1_off1 i) a + S1.size a ≤ S62500.size a
  hstage1_0 : ∀ j, (stage1_0 j).IsWhole
  nbuf1_0 : grid1.bufCount reads1_0 false = 2
  hreads1_0 : ∀ {F : FTy → Type} [FloatOps F] (pf : pre1.Contents (Elt F)) (i i' : grid1.Coords), (∀ a, reads1_0 a = true → i a = i' a) → cc1_transform_0 k1_off1_inb numel1_S1 pf i = cc1_transform_0 k1_off1_inb numel1_S1 pf i'
  hstage1_1 : ∀ j, (stage1_1 j).IsWhole
  nbuf1_1 : grid1.bufCount reads1_1 false = 2
  hreads1_1 : ∀ {F : FTy → Type} [FloatOps F] (pf : pre1.Contents (Elt F)) (i i' : grid1.Coords), (∀ a, reads1_1 a = true → i a = i' a) → cc1_transform_1 k1_off1_inb numel1_S1 pf i = cc1_transform_1 k1_off1_inb numel1_S1 pf i'
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x1.size a ≤ S62500x1x1.size a
  hwx1_4 : ∀ i : grid1.Coords, EltTy.bits .f32 = 32 ∨ (Rect.block (s := S62500x1x1) S1x1x1.size (cc1_transform_4 i) (hinb1_4 i)).WholeWords (EltTy.packing .f32)
  hrank2 : 0 < grid2.rank
  k2_off1_inb : ∀ i : grid2.Coords, ∀ a, (k2_off1 i) a + S1.size a ≤ S62500.size a
  hstage2_0 : ∀ j, (stage2_0 j).IsWhole
  nbuf2_0 : grid2.bufCount reads2_0 false = 2
  hreads2_0 : ∀ {F : FTy → Type} [FloatOps F] (pf : pre2.Contents (Elt F)) (i i' : grid2.Coords), (∀ a, reads2_0 a = true → i a = i' a) → cc2_transform_0 k2_off1_inb numel1_S1 pf i = cc2_transform_0 k2_off1_inb numel1_S1 pf i'
  hstage2_1 : ∀ j, (stage2_1 j).IsWhole
  nbuf2_1 : grid2.bufCount reads2_1 false = 2
  hreads2_1 : ∀ {F : FTy → Type} [FloatOps F] (pf : pre2.Contents (Elt F)) (i i' : grid2.Coords), (∀ a, reads2_1 a = true → i a = i' a) → cc2_transform_1 k2_off1_inb numel1_S1 pf i = cc2_transform_1 k2_off1_inb numel1_S1 pf i'
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1x1.size a ≤ S62500x1x1.size a
  hwx2_4 : ∀ i : grid2.Coords, EltTy.bits .f32 = 32 ∨ (Rect.block (s := S62500x1x1) S1x1x1.size (cc2_transform_4 i) (hinb2_4 i)).WholeWords (EltTy.packing .f32)
  hrank3 : 0 < grid3.rank
  k3_off1_inb : ∀ i : grid3.Coords, ∀ a, (k3_off1 i) a + S1.size a ≤ S62500.size a
  hstage3_0 : ∀ j, (stage3_0 j).IsWhole
  nbuf3_0 : grid3.bufCount reads3_0 false = 2
  hreads3_0 : ∀ {F : FTy → Type} [FloatOps F] (pf : pre3.Contents (Elt F)) (i i' : grid3.Coords), (∀ a, reads3_0 a = true → i a = i' a) → cc3_transform_0 k3_off1_inb numel1_S1 pf i = cc3_transform_0 k3_off1_inb numel1_S1 pf i'
  hstage3_1 : ∀ j, (stage3_1 j).IsWhole
  nbuf3_1 : grid3.bufCount reads3_1 false = 2
  hreads3_1 : ∀ {F : FTy → Type} [FloatOps F] (pf : pre3.Contents (Elt F)) (i i' : grid3.Coords), (∀ a, reads3_1 a = true → i a = i' a) → cc3_transform_1 k3_off1_inb numel1_S1 pf i = cc3_transform_1 k3_off1_inb numel1_S1 pf i'
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x1.size a ≤ S1x1.size a
  hwx3_3 : ∀ i : grid3.Coords, EltTy.bits .f32 = 32 ∨ (Rect.block (s := S1x1) S1x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x1x1.size a ≤ S62500x1x1.size a
  hwx3_4 : ∀ i : grid3.Coords, EltTy.bits .f32 = 32 ∨ (Rect.block (s := S62500x1x1) S1x1x1.size (cc3_transform_4 i) (hinb3_4 i)).WholeWords (EltTy.packing .f32)
  hrank4 : 0 < grid4.rank
  k4_off1_inb : ∀ i : grid4.Coords, ∀ a, (k4_off1 i) a + S1.size a ≤ S62500.size a
  hstage4_0 : ∀ j, (stage4_0 j).IsWhole
  nbuf4_0 : grid4.bufCount reads4_0 false = 2
  hreads4_0 : ∀ {F : FTy → Type} [FloatOps F] (pf : pre4.Contents (Elt F)) (i i' : grid4.Coords), (∀ a, reads4_0 a = true → i a = i' a) → cc4_transform_0 k4_off1_inb numel1_S1 pf i = cc4_transform_0 k4_off1_inb numel1_S1 pf i'
  hstage4_1 : ∀ j, (stage4_1 j).IsWhole
  nbuf4_1 : grid4.bufCount reads4_1 false = 2
  hreads4_1 : ∀ {F : FTy → Type} [FloatOps F] (pf : pre4.Contents (Elt F)) (i i' : grid4.Coords), (∀ a, reads4_1 a = true → i a = i' a) → cc4_transform_1 k4_off1_inb numel1_S1 pf i = cc4_transform_1 k4_off1_inb numel1_S1 pf i'
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x1.size a ≤ S1x1.size a
  hwx4_3 : ∀ i : grid4.Coords, EltTy.bits .f32 = 32 ∨ (Rect.block (s := S1x1) S1x1.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1x1x1.size a ≤ S62500x1x1.size a
  hwx4_4 : ∀ i : grid4.Coords, EltTy.bits .f32 = 32 ∨ (Rect.block (s := S62500x1x1) S1x1x1.size (cc4_transform_4 i) (hinb4_4 i)).WholeWords (EltTy.packing .f32)
  hrank5 : 0 < grid5.rank
  k5_off1_inb : ∀ i : grid5.Coords, ∀ a, (k5_off1 i) a + S1.size a ≤ S62500.size a
  hstage5_0 : ∀ j, (stage5_0 j).IsWhole
  nbuf5_0 : grid5.bufCount reads5_0 false = 2
  hreads5_0 : ∀ {F : FTy → Type} [FloatOps F] (pf : pre5.Contents (Elt F)) (i i' : grid5.Coords), (∀ a, reads5_0 a = true → i a = i' a) → cc5_transform_0 k5_off1_inb numel1_S1 pf i = cc5_transform_0 k5_off1_inb numel1_S1 pf i'
  hstage5_1 : ∀ j, (stage5_1 j).IsWhole
  nbuf5_1 : grid5.bufCount reads5_1 false = 2
  hreads5_1 : ∀ {F : FTy → Type} [FloatOps F] (pf : pre5.Contents (Elt F)) (i i' : grid5.Coords), (∀ a, reads5_1 a = true → i a = i' a) → cc5_transform_1 k5_off1_inb numel1_S1 pf i = cc5_transform_1 k5_off1_inb numel1_S1 pf i'
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x1.size a ≤ S1x1.size a
  hwx5_3 : ∀ i : grid5.Coords, EltTy.bits .f32 = 32 ∨ (Rect.block (s := S1x1) S1x1.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S1x1x1.size a ≤ S62500x1x1.size a
  hwx5_4 : ∀ i : grid5.Coords, EltTy.bits .f32 = 32 ∨ (Rect.block (s := S62500x1x1) S1x1x1.size (cc5_transform_4 i) (hinb5_4 i)).WholeWords (EltTy.packing .f32)
  hrank6 : 0 < grid6.rank
  k6_off1_inb : ∀ i : grid6.Coords, ∀ a, (k6_off1 i) a + S1.size a ≤ S62500.size a
  hstage6_0 : ∀ j, (stage6_0 j).IsWhole
  nbuf6_0 : grid6.bufCount reads6_0 false = 2
  hreads6_0 : ∀ {F : FTy → Type} [FloatOps F] (pf : pre6.Contents (Elt F)) (i i' : grid6.Coords), (∀ a, reads6_0 a = true → i a = i' a) → cc6_transform_0 k6_off1_inb numel1_S1 pf i = cc6_transform_0 k6_off1_inb numel1_S1 pf i'
  hstage6_1 : ∀ j, (stage6_1 j).IsWhole
  nbuf6_1 : grid6.bufCount reads6_1 false = 2
  hreads6_1 : ∀ {F : FTy → Type} [FloatOps F] (pf : pre6.Contents (Elt F)) (i i' : grid6.Coords), (∀ a, reads6_1 a = true → i a = i' a) → cc6_transform_1 k6_off1_inb numel1_S1 pf i = cc6_transform_1 k6_off1_inb numel1_S1 pf i'
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x256.size a ≤ S1x256.size a
  hwx6_2 : ∀ i : grid6.Coords, EltTy.bits .f32 = 32 ∨ (Rect.block (s := S1x256) S1x256.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x1.size a ≤ S1x1.size a
  hwx6_3 : ∀ i : grid6.Coords, EltTy.bits .f32 = 32 ∨ (Rect.block (s := S1x1) S1x1.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S1x1x1.size a ≤ S62500x1x1.size a
  hwx6_4 : ∀ i : grid6.Coords, EltTy.bits .f32 = 32 ∨ (Rect.block (s := S62500x1x1) S1x1x1.size (cc6_transform_4 i) (hinb6_4 i)).WholeWords (EltTy.packing .f32)
  hrank7 : 0 < grid7.rank
  k7_off1_inb : ∀ i : grid7.Coords, ∀ a, (k7_off1 i) a + S1.size a ≤ S62500.size a
  hstage7_0 : ∀ j, (stage7_0 j).IsWhole
  nbuf7_0 : grid7.bufCount reads7_0 false = 2
  hreads7_0 : ∀ {F : FTy → Type} [FloatOps F] (pf : pre7.Contents (Elt F)) (i i' : grid7.Coords), (∀ a, reads7_0 a = true → i a = i' a) → cc7_transform_0 k7_off1_inb numel1_S1 pf i = cc7_transform_0 k7_off1_inb numel1_S1 pf i'
  hstage7_1 : ∀ j, (stage7_1 j).IsWhole
  nbuf7_1 : grid7.bufCount reads7_1 false = 2
  hreads7_1 : ∀ {F : FTy → Type} [FloatOps F] (pf : pre7.Contents (Elt F)) (i i' : grid7.Coords), (∀ a, reads7_1 a = true → i a = i' a) → cc7_transform_1 k7_off1_inb numel1_S1 pf i = cc7_transform_1 k7_off1_inb numel1_S1 pf i'
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x256.size a ≤ S1x256.size a
  hwx7_2 : ∀ i : grid7.Coords, EltTy.bits .f32 = 32 ∨ (Rect.block (s := S1x256) S1x256.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x1.size a ≤ S1x1.size a
  hwx7_3 : ∀ i : grid7.Coords, EltTy.bits .f32 = 32 ∨ (Rect.block (s := S1x1) S1x1.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S1x1x1.size a ≤ S62500x1x1.size a
  hwx7_4 : ∀ i : grid7.Coords, EltTy.bits .f32 = 32 ∨ (Rect.block (s := S62500x1x1) S1x1x1.size (cc7_transform_4 i) (hinb7_4 i)).WholeWords (EltTy.packing .f32)
  hrank8 : 0 < grid8.rank
  k8_off1_inb : ∀ i : grid8.Coords, ∀ a, (k8_off1 i) a + S1.size a ≤ S62500.size a
  hstage8_0 : ∀ j, (stage8_0 j).IsWhole
  nbuf8_0 : grid8.bufCount reads8_0 false = 2
  hreads8_0 : ∀ {F : FTy → Type} [FloatOps F] (pf : pre8.Contents (Elt F)) (i i' : grid8.Coords), (∀ a, reads8_0 a = true → i a = i' a) → cc8_transform_0 k8_off1_inb numel1_S1 pf i = cc8_transform_0 k8_off1_inb numel1_S1 pf i'
  hstage8_1 : ∀ j, (stage8_1 j).IsWhole
  nbuf8_1 : grid8.bufCount reads8_1 false = 2
  hreads8_1 : ∀ {F : FTy → Type} [FloatOps F] (pf : pre8.Contents (Elt F)) (i i' : grid8.Coords), (∀ a, reads8_1 a = true → i a = i' a) → cc8_transform_1 k8_off1_inb numel1_S1 pf i = cc8_transform_1 k8_off1_inb numel1_S1 pf i'
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x256.size a ≤ S1x256.size a
  hwx8_2 : ∀ i : grid8.Coords, EltTy.bits .f32 = 32 ∨ (Rect.block (s := S1x256) S1x256.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x1.size a ≤ S1x1.size a
  hwx8_3 : ∀ i : grid8.Coords, EltTy.bits .f32 = 32 ∨ (Rect.block (s := S1x1) S1x1.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S1x1x1.size a ≤ S62500x1x1.size a
  hwx8_4 : ∀ i : grid8.Coords, EltTy.bits .f32 = 32 ∨ (Rect.block (s := S62500x1x1) S1x1x1.size (cc8_transform_4 i) (hinb8_4 i)).WholeWords (EltTy.packing .f32)
  hrank9 : 0 < grid9.rank
  k9_off1_inb : ∀ i : grid9.Coords, ∀ a, (k9_off1 i) a + S1.size a ≤ S62500.size a
  hstage9_0 : ∀ j, (stage9_0 j).IsWhole
  nbuf9_0 : grid9.bufCount reads9_0 false = 2
  hreads9_0 : ∀ {F : FTy → Type} [FloatOps F] (pf : pre9.Contents (Elt F)) (i i' : grid9.Coords), (∀ a, reads9_0 a = true → i a = i' a) → cc9_transform_0 k9_off1_inb numel1_S1 pf i = cc9_transform_0 k9_off1_inb numel1_S1 pf i'
  hstage9_1 : ∀ j, (stage9_1 j).IsWhole
  nbuf9_1 : grid9.bufCount reads9_1 false = 2
  hreads9_1 : ∀ {F : FTy → Type} [FloatOps F] (pf : pre9.Contents (Elt F)) (i i' : grid9.Coords), (∀ a, reads9_1 a = true → i a = i' a) → cc9_transform_1 k9_off1_inb numel1_S1 pf i = cc9_transform_1 k9_off1_inb numel1_S1 pf i'
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x256.size a ≤ S1x256.size a
  hwx9_2 : ∀ i : grid9.Coords, EltTy.bits .f32 = 32 ∨ (Rect.block (s := S1x256) S1x256.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x1.size a ≤ S1x1.size a
  hwx9_3 : ∀ i : grid9.Coords, EltTy.bits .f32 = 32 ∨ (Rect.block (s := S1x1) S1x1.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S1x1x1.size a ≤ S62500x1x1.size a
  hwx9_4 : ∀ i : grid9.Coords, EltTy.bits .f32 = 32 ∨ (Rect.block (s := S62500x1x1) S1x1x1.size (cc9_transform_4 i) (hinb9_4 i)).WholeWords (EltTy.packing .f32)
  hrank10 : 0 < grid10.rank
  k10_off1_inb : ∀ i : grid10.Coords, ∀ a, (k10_off1 i) a + S1.size a ≤ S62500.size a
  hstage10_0 : ∀ j, (stage10_0 j).IsWhole
  nbuf10_0 : grid10.bufCount reads10_0 false = 2
  hreads10_0 : ∀ {F : FTy → Type} [FloatOps F] (pf : pre10.Contents (Elt F)) (i i' : grid10.Coords), (∀ a, reads10_0 a = true → i a = i' a) → cc10_transform_0 k10_off1_inb numel1_S1 pf i = cc10_transform_0 k10_off1_inb numel1_S1 pf i'
  hstage10_1 : ∀ j, (stage10_1 j).IsWhole
  nbuf10_1 : grid10.bufCount reads10_1 false = 2
  hreads10_1 : ∀ {F : FTy → Type} [FloatOps F] (pf : pre10.Contents (Elt F)) (i i' : grid10.Coords), (∀ a, reads10_1 a = true → i a = i' a) → cc10_transform_1 k10_off1_inb numel1_S1 pf i = cc10_transform_1 k10_off1_inb numel1_S1 pf i'
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x256.size a ≤ S1x256.size a
  hwx10_2 : ∀ i : grid10.Coords, EltTy.bits .f32 = 32 ∨ (Rect.block (s := S1x256) S1x256.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x1.size a ≤ S1x1.size a
  hwx10_3 : ∀ i : grid10.Coords, EltTy.bits .f32 = 32 ∨ (Rect.block (s := S1x1) S1x1.size (cc10_transform_3 i) (hinb10_3 i)).WholeWords (EltTy.packing .f32)
  hstage10_4 : ∀ j, (stage10_4 j).IsWhole
  nbuf10_4 : grid10.bufCount reads10_4 false = 2
  hreads10_4 : ∀ i i' : grid10.Coords, (∀ a, reads10_4 a = true → i a = i' a) → cc10_transform_4 i = cc10_transform_4 i'
  hinb10_4 : ∀ (i : grid10.Coords) a, (cc10_transform_4 i a + 1) * S1x1x1.size a ≤ S62500x1x1.size a
  hwx10_4 : ∀ i : grid10.Coords, EltTy.bits .f32 = 32 ∨ (Rect.block (s := S62500x1x1) S1x1x1.size (cc10_transform_4 i) (hinb10_4 i)).WholeWords (EltTy.packing .f32)
  hrank11 : 0 < grid11.rank
  k11_off1_inb : ∀ i : grid11.Coords, ∀ a, (k11_off1 i) a + S1.size a ≤ S62500.size a
  hstage11_0 : ∀ j, (stage11_0 j).IsWhole
  nbuf11_0 : grid11.bufCount reads11_0 false = 2
  hreads11_0 : ∀ {F : FTy → Type} [FloatOps F] (pf : pre11.Contents (Elt F)) (i i' : grid11.Coords), (∀ a, reads11_0 a = true → i a = i' a) → cc11_transform_0 k11_off1_inb numel1_S1 pf i = cc11_transform_0 k11_off1_inb numel1_S1 pf i'
  hstage11_1 : ∀ j, (stage11_1 j).IsWhole
  nbuf11_1 : grid11.bufCount reads11_1 false = 2
  hreads11_1 : ∀ {F : FTy → Type} [FloatOps F] (pf : pre11.Contents (Elt F)) (i i' : grid11.Coords), (∀ a, reads11_1 a = true → i a = i' a) → cc11_transform_1 k11_off1_inb numel1_S1 pf i = cc11_transform_1 k11_off1_inb numel1_S1 pf i'
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x256.size a ≤ S1x256.size a
  hwx11_2 : ∀ i : grid11.Coords, EltTy.bits .f32 = 32 ∨ (Rect.block (s := S1x256) S1x256.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x1.size a ≤ S1x1.size a
  hwx11_3 : ∀ i : grid11.Coords, EltTy.bits .f32 = 32 ∨ (Rect.block (s := S1x1) S1x1.size (cc11_transform_3 i) (hinb11_3 i)).WholeWords (EltTy.packing .f32)
  hstage11_4 : ∀ j, (stage11_4 j).IsWhole
  nbuf11_4 : grid11.bufCount reads11_4 false = 2
  hreads11_4 : ∀ i i' : grid11.Coords, (∀ a, reads11_4 a = true → i a = i' a) → cc11_transform_4 i = cc11_transform_4 i'
  hinb11_4 : ∀ (i : grid11.Coords) a, (cc11_transform_4 i a + 1) * S1x1x1.size a ≤ S62500x1x1.size a
  hwx11_4 : ∀ i : grid11.Coords, EltTy.bits .f32 = 32 ∨ (Rect.block (s := S62500x1x1) S1x1x1.size (cc11_transform_4 i) (hinb11_4 i)).WholeWords (EltTy.packing .f32)
  hrank12 : 0 < grid12.rank
  k12_off1_inb : ∀ i : grid12.Coords, ∀ a, (k12_off1 i) a + S1.size a ≤ S62500.size a
  hstage12_0 : ∀ j, (stage12_0 j).IsWhole
  nbuf12_0 : grid12.bufCount reads12_0 false = 2
  hreads12_0 : ∀ {F : FTy → Type} [FloatOps F] (pf : pre12.Contents (Elt F)) (i i' : grid12.Coords), (∀ a, reads12_0 a = true → i a = i' a) → cc12_transform_0 k12_off1_inb numel1_S1 pf i = cc12_transform_0 k12_off1_inb numel1_S1 pf i'
  hstage12_1 : ∀ j, (stage12_1 j).IsWhole
  nbuf12_1 : grid12.bufCount reads12_1 false = 2
  hreads12_1 : ∀ {F : FTy → Type} [FloatOps F] (pf : pre12.Contents (Elt F)) (i i' : grid12.Coords), (∀ a, reads12_1 a = true → i a = i' a) → cc12_transform_1 k12_off1_inb numel1_S1 pf i = cc12_transform_1 k12_off1_inb numel1_S1 pf i'
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x256.size a ≤ S1x256.size a
  hwx12_2 : ∀ i : grid12.Coords, EltTy.bits .f32 = 32 ∨ (Rect.block (s := S1x256) S1x256.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x1.size a ≤ S1x1.size a
  hwx12_3 : ∀ i : grid12.Coords, EltTy.bits .f32 = 32 ∨ (Rect.block (s := S1x1) S1x1.size (cc12_transform_3 i) (hinb12_3 i)).WholeWords (EltTy.packing .f32)
  hstage12_4 : ∀ j, (stage12_4 j).IsWhole
  nbuf12_4 : grid12.bufCount reads12_4 false = 2
  hreads12_4 : ∀ i i' : grid12.Coords, (∀ a, reads12_4 a = true → i a = i' a) → cc12_transform_4 i = cc12_transform_4 i'
  hinb12_4 : ∀ (i : grid12.Coords) a, (cc12_transform_4 i a + 1) * S1x1x1.size a ≤ S62500x1x1.size a
  hwx12_4 : ∀ i : grid12.Coords, EltTy.bits .f32 = 32 ∨ (Rect.block (s := S62500x1x1) S1x1x1.size (cc12_transform_4 i) (hinb12_4 i)).WholeWords (EltTy.packing .f32)
  hrank13 : 0 < grid13.rank
  k13_off1_inb : ∀ i : grid13.Coords, ∀ a, (k13_off1 i) a + S1.size a ≤ S62500.size a
  hstage13_0 : ∀ j, (stage13_0 j).IsWhole
  nbuf13_0 : grid13.bufCount reads13_0 false = 2
  hreads13_0 : ∀ {F : FTy → Type} [FloatOps F] (pf : pre13.Contents (Elt F)) (i i' : grid13.Coords), (∀ a, reads13_0 a = true → i a = i' a) → cc13_transform_0 k13_off1_inb numel1_S1 pf i = cc13_transform_0 k13_off1_inb numel1_S1 pf i'
  hstage13_1 : ∀ j, (stage13_1 j).IsWhole
  nbuf13_1 : grid13.bufCount reads13_1 false = 2
  hreads13_1 : ∀ {F : FTy → Type} [FloatOps F] (pf : pre13.Contents (Elt F)) (i i' : grid13.Coords), (∀ a, reads13_1 a = true → i a = i' a) → cc13_transform_1 k13_off1_inb numel1_S1 pf i = cc13_transform_1 k13_off1_inb numel1_S1 pf i'
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x256.size a ≤ S1x256.size a
  hwx13_2 : ∀ i : grid13.Coords, EltTy.bits .f32 = 32 ∨ (Rect.block (s := S1x256) S1x256.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S1x1.size a ≤ S1x1.size a
  hwx13_3 : ∀ i : grid13.Coords, EltTy.bits .f32 = 32 ∨ (Rect.block (s := S1x1) S1x1.size (cc13_transform_3 i) (hinb13_3 i)).WholeWords (EltTy.packing .f32)
  hstage13_4 : ∀ j, (stage13_4 j).IsWhole
  nbuf13_4 : grid13.bufCount reads13_4 false = 2
  hreads13_4 : ∀ i i' : grid13.Coords, (∀ a, reads13_4 a = true → i a = i' a) → cc13_transform_4 i = cc13_transform_4 i'
  hinb13_4 : ∀ (i : grid13.Coords) a, (cc13_transform_4 i a + 1) * S1x1x1.size a ≤ S62500x1x1.size a
  hwx13_4 : ∀ i : grid13.Coords, EltTy.bits .f32 = 32 ∨ (Rect.block (s := S62500x1x1) S1x1x1.size (cc13_transform_4 i) (hinb13_4 i)).WholeWords (EltTy.packing .f32)
  hrank14 : 0 < grid14.rank
  k14_off1_inb : ∀ i : grid14.Coords, ∀ a, (k14_off1 i) a + S1.size a ≤ S62500.size a
  hstage14_0 : ∀ j, (stage14_0 j).IsWhole
  nbuf14_0 : grid14.bufCount reads14_0 false = 2
  hreads14_0 : ∀ {F : FTy → Type} [FloatOps F] (pf : pre14.Contents (Elt F)) (i i' : grid14.Coords), (∀ a, reads14_0 a = true → i a = i' a) → cc14_transform_0 k14_off1_inb numel1_S1 pf i = cc14_transform_0 k14_off1_inb numel1_S1 pf i'
  hstage14_1 : ∀ j, (stage14_1 j).IsWhole
  nbuf14_1 : grid14.bufCount reads14_1 false = 2
  hreads14_1 : ∀ {F : FTy → Type} [FloatOps F] (pf : pre14.Contents (Elt F)) (i i' : grid14.Coords), (∀ a, reads14_1 a = true → i a = i' a) → cc14_transform_1 k14_off1_inb numel1_S1 pf i = cc14_transform_1 k14_off1_inb numel1_S1 pf i'
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x256.size a ≤ S1x256.size a
  hwx14_2 : ∀ i : grid14.Coords, EltTy.bits .f32 = 32 ∨ (Rect.block (s := S1x256) S1x256.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S1x1.size a ≤ S1x1.size a
  hwx14_3 : ∀ i : grid14.Coords, EltTy.bits .f32 = 32 ∨ (Rect.block (s := S1x1) S1x1.size (cc14_transform_3 i) (hinb14_3 i)).WholeWords (EltTy.packing .f32)
  hstage14_4 : ∀ j, (stage14_4 j).IsWhole
  nbuf14_4 : grid14.bufCount reads14_4 false = 2
  hreads14_4 : ∀ i i' : grid14.Coords, (∀ a, reads14_4 a = true → i a = i' a) → cc14_transform_4 i = cc14_transform_4 i'
  hinb14_4 : ∀ (i : grid14.Coords) a, (cc14_transform_4 i a + 1) * S1x1x1.size a ≤ S62500x1x1.size a
  hwx14_4 : ∀ i : grid14.Coords, EltTy.bits .f32 = 32 ∨ (Rect.block (s := S62500x1x1) S1x1x1.size (cc14_transform_4 i) (hinb14_4 i)).WholeWords (EltTy.packing .f32)
  hrank15 : 0 < grid15.rank
  k15_off1_inb : ∀ i : grid15.Coords, ∀ a, (k15_off1 i) a + S1.size a ≤ S62500.size a
  hstage15_0 : ∀ j, (stage15_0 j).IsWhole
  nbuf15_0 : grid15.bufCount reads15_0 false = 2
  hreads15_0 : ∀ {F : FTy → Type} [FloatOps F] (pf : pre15.Contents (Elt F)) (i i' : grid15.Coords), (∀ a, reads15_0 a = true → i a = i' a) → cc15_transform_0 k15_off1_inb numel1_S1 pf i = cc15_transform_0 k15_off1_inb numel1_S1 pf i'
  hstage15_1 : ∀ j, (stage15_1 j).IsWhole
  nbuf15_1 : grid15.bufCount reads15_1 false = 2
  hreads15_1 : ∀ {F : FTy → Type} [FloatOps F] (pf : pre15.Contents (Elt F)) (i i' : grid15.Coords), (∀ a, reads15_1 a = true → i a = i' a) → cc15_transform_1 k15_off1_inb numel1_S1 pf i = cc15_transform_1 k15_off1_inb numel1_S1 pf i'
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S1x256.size a ≤ S1x256.size a
  hwx15_2 : ∀ i : grid15.Coords, EltTy.bits .f32 = 32 ∨ (Rect.block (s := S1x256) S1x256.size (cc15_transform_2 i) (hinb15_2 i)).WholeWords (EltTy.packing .f32)
  hstage15_3 : ∀ j, (stage15_3 j).IsWhole
  nbuf15_3 : grid15.bufCount reads15_3 true = 1
  hreads15_3 : ∀ i i' : grid15.Coords, (∀ a, reads15_3 a = true → i a = i' a) → cc15_transform_3 i = cc15_transform_3 i'
  hinb15_3 : ∀ (i : grid15.Coords) a, (cc15_transform_3 i a + 1) * S1x1.size a ≤ S1x1.size a
  hwx15_3 : ∀ i : grid15.Coords, EltTy.bits .f32 = 32 ∨ (Rect.block (s := S1x1) S1x1.size (cc15_transform_3 i) (hinb15_3 i)).WholeWords (EltTy.packing .f32)
  hstage15_4 : ∀ j, (stage15_4 j).IsWhole
  nbuf15_4 : grid15.bufCount reads15_4 false = 2
  hreads15_4 : ∀ i i' : grid15.Coords, (∀ a, reads15_4 a = true → i a = i' a) → cc15_transform_4 i = cc15_transform_4 i'
  hinb15_4 : ∀ (i : grid15.Coords) a, (cc15_transform_4 i a + 1) * S1x1x1.size a ≤ S62500x1x1.size a
  hwx15_4 : ∀ i : grid15.Coords, EltTy.bits .f32 = 32 ∨ (Rect.block (s := S62500x1x1) S1x1x1.size (cc15_transform_4 i) (hinb15_4 i)).WholeWords (EltTy.packing .f32)

variable [Facts₀]

abbrev spec0_0 : Pipeline.WinSpec sig grid0.rank :=
  Pipeline.WinSpec.ofSpec (Memref.whole main_v1) S1x1x128.size reads0_0 false false 2 stage0_0 sem0_0 nbuf0_0 hstage0_0

abbrev spec0_1 : Pipeline.WinSpec sig grid0.rank :=
  Pipeline.WinSpec.ofSpec (Memref.whole main_v1) S1x1x128.size reads0_1 false false 2 stage0_1 sem0_1 nbuf0_1 hstage0_1

abbrev spec0_2 : Pipeline.WinSpec sig grid0.rank :=
  Pipeline.WinSpec.ofSpec (Memref.whole main_arg3) S1x256.size reads0_2 false true 1 stage0_2 sem0_2 nbuf0_2 hstage0_2

abbrev spec0_3 : Pipeline.WinSpec sig grid0.rank :=
  Pipeline.WinSpec.ofSpec (Memref.whole main_v0) S1x1.size reads0_3 false true 1 stage0_3 sem0_3 nbuf0_3 hstage0_3

abbrev spec0_4 : Pipeline.WinSpec sig grid0.rank :=
  Pipeline.WinSpec.ofSpec (Memref.whole main_v4) S1x1x1.size reads0_4 true false 2 stage0_4 sem0_4 nbuf0_4 hstage0_4

abbrev spec0 : Fin 5 → Pipeline.WinSpec sig grid0.rank := fun | 0 => spec0_0 | 1 => spec0_1 | 2 => spec0_2 | 3 => spec0_3 | 4 => spec0_4 | ⟨_ + 5, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | ⟨_ + 5, h⟩ => absurd h (Nat.not_lt.2 (Nat.le_add_left _ _))
abbrev ix0 (pf : pre0.Contents (Elt F)) : (w : Fin 5) → grid0.Coords → Fin (spec0 w).shape.rank → Nat := fun | 0 => cc0_transform_0 k0_off1_inb numel1_S1 pf | 1 => cc0_transform_1 k0_off1_inb numel1_S1 pf | 2 => cc0_transform_2 | 3 => cc0_transform_3 | 4 => cc0_transform_4 | ⟨_ + 5, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 | 3 => hreads0_3 | 4 => hreads0_4 | ⟨_ + 5, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x1x128.size a ≤ S100000x1x128.size a), EltTy.bits .f32 = 32 ∨ (Rect.block (s := S100000x1x128) S1x1x128.size (cc0_transform_0 k0_off1_inb numel1_S1 pf i) h).WholeWords (EltTy.packing .f32)) ∧
  (∀ i : grid0.Coords, ∃ h : (∀ a, (cc0_transform_1 k0_off1_inb numel1_S1 pf i a + 1) * S1x1x128.size a ≤ S100000x1x128.size a), EltTy.bits .f32 = 32 ∨ (Rect.block (s := S100000x1x128) S1x1x128.size (cc0_transform_1 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2 i).elim fun h _ => h a | 2 => hinb0_2 | 3 => hinb0_3 | 4 => hinb0_4 | ⟨_ + 5, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2 i).elim fun _ h => h | 2 => hwx0_2 | 3 => hwx0_3 | 4 => hwx0_4 | ⟨_ + 5, h⟩ => absurd h (Nat.not_lt.2 (Nat.le_add_left _ _))
abbrev spec1_0 : Pipeline.WinSpec sig grid1.rank :=
  Pipeline.WinSpec.ofSpec (Memref.whole main_v1) S1x1x128.size reads1_0 false false 2 stage1_0 sem1_0 nbuf1_0 hstage1_0

abbrev spec1_1 : Pipeline.WinSpec sig grid1.rank :=
  Pipeline.WinSpec.ofSpec (Memref.whole main_v1) S1x1x128.size reads1_1 false false 2 stage1_1 sem1_1 nbuf1_1 hstage1_1

abbrev spec1_2 : Pipeline.WinSpec sig grid1.rank :=
  Pipeline.WinSpec.ofSpec (Memref.whole main_arg3) S1x256.size reads1_2 false true 1 stage1_2 sem1_2 nbuf1_2 hstage1_2

abbrev spec1_3 : Pipeline.WinSpec sig grid1.rank :=
  Pipeline.WinSpec.ofSpec (Memref.whole main_v0) S1x1.size reads1_3 false true 1 stage1_3 sem1_3 nbuf1_3 hstage1_3

abbrev spec1_4 : Pipeline.WinSpec sig grid1.rank :=
  Pipeline.WinSpec.ofSpec (Memref.whole main_v8) S1x1x1.size reads1_4 true false 2 stage1_4 sem1_4 nbuf1_4 hstage1_4

abbrev spec1 : Fin 5 → Pipeline.WinSpec sig grid1.rank := fun | 0 => spec1_0 | 1 => spec1_1 | 2 => spec1_2 | 3 => spec1_3 | 4 => spec1_4 | ⟨_ + 5, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | 3 => nbuf1_3 | 4 => nbuf1_4 | ⟨_ + 5, h⟩ => absurd h (Nat.not_lt.2 (Nat.le_add_left _ _))
abbrev ix1 (pf : pre1.Contents (Elt F)) : (w : Fin 5) → grid1.Coords → Fin (spec1 w).shape.rank → Nat := fun | 0 => cc1_transform_0 k1_off1_inb numel1_S1 pf | 1 => cc1_transform_1 k1_off1_inb numel1_S1 pf | 2 => cc1_transform_2 | 3 => cc1_transform_3 | 4 => cc1_transform_4 | ⟨_ + 5, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 pf | 1 => hreads1_1 pf | 2 => hreads1_2 | 3 => hreads1_3 | 4 => hreads1_4 | ⟨_ + 5, h⟩ => absurd h (Nat.not_lt.2 (Nat.le_add_left _ _))
def ok1 (pf : pre1.Contents (Elt F)) : Prop :=
  (∀ i : grid1.Coords, ∃ h : (∀ a, (cc1_transform_0 k1_off1_inb numel1_S1 pf i a + 1) * S1x1x128.size a ≤ S100000x1x128.size a), EltTy.bits .f32 = 32 ∨ (Rect.block (s := S100000x1x128) S1x1x128.size (cc1_transform_0 k1_off1_inb numel1_S1 pf i) h).WholeWords (EltTy.packing .f32)) ∧
  (∀ i : grid1.Coords, ∃ h : (∀ a, (cc1_transform_1 k1_off1_inb numel1_S1 pf i a + 1) * S1x1x128.size a ≤ S100000x1x128.size a), EltTy.bits .f32 = 32 ∨ (Rect.block (s := S100000x1x128) S1x1x128.size (cc1_transform_1 k1_off1_inb numel1_S1 pf i) h).WholeWords (EltTy.packing .f32))
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun pf hok => fun | 0 => fun i a => (hok.1 i).elim fun h _ => h a | 1 => fun i a => (hok.2 i).elim fun h _ => h a | 2 => hinb1_2 | 3 => hinb1_3 | 4 => hinb1_4 | ⟨_ + 5, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun pf hok => fun | 0 => fun i => (hok.1 i).elim fun _ h => h | 1 => fun i => (hok.2 i).elim fun _ h => h | 2 => hwx1_2 | 3 => hwx1_3 | 4 => hwx1_4 | ⟨_ + 5, h⟩ => absurd h (Nat.not_lt.2 (Nat.le_add_left _ _))
abbrev spec2_0 : Pipeline.WinSpec sig grid2.rank :=
  Pipeline.WinSpec.ofSpec (Memref.whole main_v1) S1x1x128.size reads2_0 false false 2 stage2_0 sem2_0 nbuf2_0 hstage2_0

abbrev spec2_1 : Pipeline.WinSpec sig grid2.rank :=
  Pipeline.WinSpec.ofSpec (Memref.whole main_v1) S1x1x128.size reads2_1 false false 2 stage2_1 sem2_1 nbuf2_1 hstage2_1

abbrev spec2_2 : Pipeline.WinSpec sig grid2.rank :=
  Pipeline.WinSpec.ofSpec (Memref.whole main_arg3) S1x256.size reads2_2 false true 1 stage2_2 sem2_2 nbuf2_2 hstage2_2

abbrev spec2_3 : Pipeline.WinSpec sig grid2.rank :=
  Pipeline.WinSpec.ofSpec (Memref.whole main_v0) S1x1.size reads2_3 false true 1 stage2_3 sem2_3 nbuf2_3 hstage2_3

abbrev spec2_4 : Pipeline.WinSpec sig grid2.rank :=
  Pipeline.WinSpec.ofSpec (Memref.whole main_v12) S1x1x1.size reads2_4 true false 2 stage2_4 sem2_4 nbuf2_4 hstage2_4

abbrev spec2 : Fin 5 → Pipeline.WinSpec sig grid2.rank := fun | 0 => spec2_0 | 1 => spec2_1 | 2 => spec2_2 | 3 => spec2_3 | 4 => spec2_4 | ⟨_ + 5, h⟩ => absurd h (Nat.not_lt.2 (Nat.le_add_left _ _))
theorem hcount2 : ∀ w, grid2.bufCount (spec2 w).reads (spec2 w).sync = (spec2 w).nbuf := fun | 0 => nbuf2_0 | 1 => nbuf2_1 | 2 => nbuf2_2 | 3 => nbuf2_3 | 4 => nbuf2_4 | ⟨_ + 5, h⟩ => absurd h (Nat.not_lt.2 (Nat.le_add_left _ _))
abbrev ix2 (pf : pre2.Contents (Elt F)) : (w : Fin 5) → grid2.Coords → Fin (spec2 w).shape.rank → Nat := fun | 0 => cc2_transform_0 k2_off1_inb numel1_S1 pf | 1 => cc2_transform_1 k2_off1_inb numel1_S1 pf | 2 => cc2_transform_2 | 3 => cc2_transform_3 | 4 => cc2_transform_4 | ⟨_ + 5, h⟩ => absurd h (Nat.not_lt.2 (Nat.le_add_left _ _))
theorem hreads2 : ∀ (pf : pre2.Contents (Elt F)) w (i i' : grid2.Coords), (∀ a, (spec2 w).reads a = true → i a = i' a) → ix2 pf w i = ix2 pf w i' := fun pf => fun | 0 => hreads2_0 pf | 1 => hreads2_1 pf | 2 => hreads2_2 | 3 => hreads2_3 | 4 => hreads2_4 | ⟨_ + 5, h⟩ => absurd h (Nat.not_lt.2 (Nat.le_add_left _ _))
def ok2 (pf : pre2.Contents (Elt F)) : Prop :=
  (∀ i : grid2.Coords, ∃ h : (∀ a, (cc2_transform_0 k2_off1_inb numel1_S1 pf i a + 1) * S1x1x128.size a ≤ S100000x1x128.size a), EltTy.bits .f32 = 32 ∨ (Rect.block (s := S100000x1x128) S1x1x128.size (cc2_transform_0 k2_off1_inb numel1_S1 pf i) h).WholeWords (EltTy.packing .f32)) ∧
  (∀ i : grid2.Coords, ∃ h : (∀ a, (cc2_transform_1 k2_off1_inb numel1_S1 pf i a + 1) * S1x1x128.size a ≤ S100000x1x128.size a), EltTy.bits .f32 = 32 ∨ (Rect.block (s := S100000x1x128) S1x1x128.size (cc2_transform_1 k2_off1_inb numel1_S1 pf i) h).WholeWords (EltTy.packing .f32))
instance (pf : pre2.Contents (Elt F)) : Decidable (ok2 pf) := decidable_of_iff' _ (Iff.of_eq (ok2.eq_1 pf))
theorem hinb2 : ∀ (pf : pre2.Contents (Elt F)), ok2 pf → ∀ w (i : grid2.Coords) a, (ix2 pf w i a + 1) * (spec2 w).size a ≤ (spec2 w).shape.size a :=
  fun pf hok => fun | 0 => fun i a => (hok.1 i).elim fun h _ => h a | 1 => fun i a => (hok.2 i).elim fun h _ => h a | 2 => hinb2_2 | 3 => hinb2_3 | 4 => hinb2_4 | ⟨_ + 5, h⟩ => absurd h (Nat.not_lt.2 (Nat.le_add_left _ _))
theorem hwx2 : ∀ (pf : pre2.Contents (Elt F)) (hok : ok2 pf) w (i : grid2.Coords), (spec2 w).elt.bits = 32 ∨ (Rect.block (spec2 w).size (ix2 pf w i) (hinb2 pf hok w i)).WholeWords (spec2 w).elt.packing :=
  fun pf hok => fun | 0 => fun i => (hok.1 i).elim fun _ h => h | 1 => fun i => (hok.2 i).elim fun _ h => h | 2 => hwx2_2 | 3 => hwx2_3 | 4 => hwx2_4 | ⟨_ + 5, h⟩ => absurd h (Nat.not_lt.2 (Nat.le_add_left _ _))
abbrev spec3_0 : Pipeline.WinSpec sig grid3.rank :=
  Pipeline.WinSpec.ofSpec (Memref.whole main_v1) S1x1x128.size reads3_0 false false 2 stage3_0 sem3_0 nbuf3_0 hstage3_0

abbrev spec3_1 : Pipeline.WinSpec sig grid3.rank :=
  Pipeline.WinSpec.ofSpec (Memref.whole main_v1) S1x1x128.size reads3_1 false false 2 stage3_1 sem3_1 nbuf3_1 hstage3_1

abbrev spec3_2 : Pipeline.WinSpec sig grid3.rank :=
  Pipeline.WinSpec.ofSpec (Memref.whole main_arg3) S1x256.size reads3_2 false true 1 stage3_2 sem3_2 nbuf3_2 hstage3_2

abbrev spec3_3 : Pipeline.WinSpec sig grid3.rank :=
  Pipeline.WinSpec.ofSpec (Memref.whole main_v0) S1x1.size reads3_3 false true 1 stage3_3 sem3_3 nbuf3_3 hstage3_3

abbrev spec3_4 : Pipeline.WinSpec sig grid3.rank :=
  Pipeline.WinSpec.ofSpec (Memref.whole main_v16) S1x1x1.size reads3_4 true false 2 stage3_4 sem3_4 nbuf3_4 hstage3_4

abbrev spec3 : Fin 5 → Pipeline.WinSpec sig grid3.rank := fun | 0 => spec3_0 | 1 => spec3_1 | 2 => spec3_2 | 3 => spec3_3 | 4 => spec3_4 | ⟨_ + 5, h⟩ => absurd h (Nat.not_lt.2 (Nat.le_add_left _ _))
theorem hcount3 : ∀ w, grid3.bufCount (spec3 w).reads (spec3 w).sync = (spec3 w).nbuf := fun | 0 => nbuf3_0 | 1 => nbuf3_1 | 2 => nbuf3_2 | 3 => nbuf3_3 | 4 => nbuf3_4 | ⟨_ + 5, h⟩ => absurd h (Nat.not_lt.2 (Nat.le_add_left _ _))
abbrev ix3 (pf : pre3.Contents (Elt F)) : (w : Fin 5) → grid3.Coords → Fin (spec3 w).shape.rank → Nat := fun | 0 => cc3_transform_0 k3_off1_inb numel1_S1 pf | 1 => cc3_transform_1 k3_off1_inb numel1_S1 pf | 2 => cc3_transform_2 | 3 => cc3_transform_3 | 4 => cc3_transform_4 | ⟨_ + 5, h⟩ => absurd h (Nat.not_lt.2 (Nat.le_add_left _ _))
theorem hreads3 : ∀ (pf : pre3.Contents (Elt F)) w (i i' : grid3.Coords), (∀ a, (spec3 w).reads a = true → i a = i' a) → ix3 pf w i = ix3 pf w i' := fun pf => fun | 0 => hreads3_0 pf | 1 => hreads3_1 pf | 2 => hreads3_2 | 3 => hreads3_3 | 4 => hreads3_4 | ⟨_ + 5, h⟩ => absurd h (Nat.not_lt.2 (Nat.le_add_left _ _))
def ok3 (pf : pre3.Contents (Elt F)) : Prop :=
  (∀ i : grid3.Coords, ∃ h : (∀ a, (cc3_transform_0 k3_off1_inb numel1_S1 pf i a + 1) * S1x1x128.size a ≤ S100000x1x128.size a), EltTy.bits .f32 = 32 ∨ (Rect.block (s := S100000x1x128) S1x1x128.size (cc3_transform_0 k3_off1_inb numel1_S1 pf i) h).WholeWords (EltTy.packing .f32)) ∧
  (∀ i : grid3.Coords, ∃ h : (∀ a, (cc3_transform_1 k3_off1_inb numel1_S1 pf i a + 1) * S1x1x128.size a ≤ S100000x1x128.size a), EltTy.bits .f32 = 32 ∨ (Rect.block (s := S100000x1x128) S1x1x128.size (cc3_transform_1 k3_off1_inb numel1_S1 pf i) h).WholeWords (EltTy.packing .f32))
instance (pf : pre3.Contents (Elt F)) : Decidable (ok3 pf) := decidable_of_iff' _ (Iff.of_eq (ok3.eq_1 pf))
theorem hinb3 : ∀ (pf : pre3.Contents (Elt F)), ok3 pf → ∀ w (i : grid3.Coords) a, (ix3 pf w i a + 1) * (spec3 w).size a ≤ (spec3 w).shape.size a :=
  fun pf hok => fun | 0 => fun i a => (hok.1 i).elim fun h _ => h a | 1 => fun i a => (hok.2 i).elim fun h _ => h a | 2 => hinb3_2 | 3 => hinb3_3 | 4 => hinb3_4 | ⟨_ + 5, h⟩ => absurd h (Nat.not_lt.2 (Nat.le_add_left _ _))
theorem hwx3 : ∀ (pf : pre3.Contents (Elt F)) (hok : ok3 pf) w (i : grid3.Coords), (spec3 w).elt.bits = 32 ∨ (Rect.block (spec3 w).size (ix3 pf w i) (hinb3 pf hok w i)).WholeWords (spec3 w).elt.packing :=
  fun pf hok => fun | 0 => fun i => (hok.1 i).elim fun _ h => h | 1 => fun i => (hok.2 i).elim fun _ h => h | 2 => hwx3_2 | 3 => hwx3_3 | 4 => hwx3_4 | ⟨_ + 5, h⟩ => absurd h (Nat.not_lt.2 (Nat.le_add_left _ _))
abbrev spec4_0 : Pipeline.WinSpec sig grid4.rank :=
  Pipeline.WinSpec.ofSpec (Memref.whole main_v1) S1x1x128.size reads4_0 false false 2 stage4_0 sem4_0 nbuf4_0 hstage4_0

abbrev spec4_1 : Pipeline.WinSpec sig grid4.rank :=
  Pipeline.WinSpec.ofSpec (Memref.whole main_v1) S1x1x128.size reads4_1 false false 2 stage4_1 sem4_1 nbuf4_1 hstage4_1

abbrev spec4_2 : Pipeline.WinSpec sig grid4.rank :=
  Pipeline.WinSpec.ofSpec (Memref.whole main_arg3) S1x256.size reads4_2 false true 1 stage4_2 sem4_2 nbuf4_2 hstage4_2

abbrev spec4_3 : Pipeline.WinSpec sig grid4.rank :=
  Pipeline.WinSpec.ofSpec (Memref.whole main_v0) S1x1.size reads4_3 false true 1 stage4_3 sem4_3 nbuf4_3 hstage4_3

abbrev spec4_4 : Pipeline.WinSpec sig grid4.rank :=
  Pipeline.WinSpec.ofSpec (Memref.whole main_v20) S1x1x1.size reads4_4 true false 2 stage4_4 sem4_4 nbuf4_4 hstage4_4

abbrev spec4 : Fin 5 → Pipeline.WinSpec sig grid4.rank := fun | 0 => spec4_0 | 1 => spec4_1 | 2 => spec4_2 | 3 => spec4_3 | 4 => spec4_4 | ⟨_ + 5, h⟩ => absurd h (Nat.not_lt.2 (Nat.le_add_left _ _))
theorem hcount4 : ∀ w, grid4.bufCount (spec4 w).reads (spec4 w).sync = (spec4 w).nbuf := fun | 0 => nbuf4_0 | 1 => nbuf4_1 | 2 => nbuf4_2 | 3 => nbuf4_3 | 4 => nbuf4_4 | ⟨_ + 5, h⟩ => absurd h (Nat.not_lt.2 (Nat.le_add_left _ _))
abbrev ix4 (pf : pre4.Contents (Elt F)) : (w : Fin 5) → grid4.Coords → Fin (spec4 w).shape.rank → Nat := fun | 0 => cc4_transform_0 k4_off1_inb numel1_S1 pf | 1 => cc4_transform_1 k4_off1_inb numel1_S1 pf | 2 => cc4_transform_2 | 3 => cc4_transform_3 | 4 => cc4_transform_4 | ⟨_ + 5, h⟩ => absurd h (Nat.not_lt.2 (Nat.le_add_left _ _))
theorem hreads4 : ∀ (pf : pre4.Contents (Elt F)) w (i i' : grid4.Coords), (∀ a, (spec4 w).reads a = true → i a = i' a) → ix4 pf w i = ix4 pf w i' := fun pf => fun | 0 => hreads4_0 pf | 1 => hreads4_1 pf | 2 => hreads4_2 | 3 => hreads4_3 | 4 => hreads4_4 | ⟨_ + 5, h⟩ => absurd h (Nat.not_lt.2 (Nat.le_add_left _ _))
def ok4 (pf : pre4.Contents (Elt F)) : Prop :=
  (∀ i : grid4.Coords, ∃ h : (∀ a, (cc4_transform_0 k4_off1_inb numel1_S1 pf i a + 1) * S1x1x128.size a ≤ S100000x1x128.size a), EltTy.bits .f32 = 32 ∨ (Rect.block (s := S100000x1x128) S1x1x128.size (cc4_transform_0 k4_off1_inb numel1_S1 pf i) h).WholeWords (EltTy.packing .f32)) ∧
  (∀ i : grid4.Coords, ∃ h : (∀ a, (cc4_transform_1 k4_off1_inb numel1_S1 pf i a + 1) * S1x1x128.size a ≤ S100000x1x128.size a), EltTy.bits .f32 = 32 ∨ (Rect.block (s := S100000x1x128) S1x1x128.size (cc4_transform_1 k4_off1_inb numel1_S1 pf i) h).WholeWords (EltTy.packing .f32))
instance (pf : pre4.Contents (Elt F)) : Decidable (ok4 pf) := decidable_of_iff' _ (Iff.of_eq (ok4.eq_1 pf))
theorem hinb4 : ∀ (pf : pre4.Contents (Elt F)), ok4 pf → ∀ w (i : grid4.Coords) a, (ix4 pf w i a + 1) * (spec4 w).size a ≤ (spec4 w).shape.size a :=
  fun pf hok => fun | 0 => fun i a => (hok.1 i).elim fun h _ => h a | 1 => fun i a => (hok.2 i).elim fun h _ => h a | 2 => hinb4_2 | 3 => hinb4_3 | 4 => hinb4_4 | ⟨_ + 5, h⟩ => absurd h (Nat.not_lt.2 (Nat.le_add_left _ _))
theorem hwx4 : ∀ (pf : pre4.Contents (Elt F)) (hok : ok4 pf) w (i : grid4.Coords), (spec4 w).elt.bits = 32 ∨ (Rect.block (spec4 w).size (ix4 pf w i) (hinb4 pf hok w i)).WholeWords (spec4 w).elt.packing :=
  fun pf hok => fun | 0 => fun i => (hok.1 i).elim fun _ h => h | 1 => fun i => (hok.2 i).elim fun _ h => h | 2 => hwx4_2 | 3 => hwx4_3 | 4 => hwx4_4 | ⟨_ + 5, h⟩ => absurd h (Nat.not_lt.2 (Nat.le_add_left _ _))
abbrev spec5_0 : Pipeline.WinSpec sig grid5.rank :=
  Pipeline.WinSpec.ofSpec (Memref.whole main_v1) S1x1x128.size reads5_0 false false 2 stage5_0 sem5_0 nbuf5_0 hstage5_0

abbrev spec5_1 : Pipeline.WinSpec sig grid5.rank :=
  Pipeline.WinSpec.ofSpec (Memref.whole main_v1) S1x1x128.size reads5_1 false false 2 stage5_1 sem5_1 nbuf5_1 hstage5_1

abbrev spec5_2 : Pipeline.WinSpec sig grid5.rank :=
  Pipeline.WinSpec.ofSpec (Memref.whole main_arg3) S1x256.size reads5_2 false true 1 stage5_2 sem5_2 nbuf5_2 hstage5_2

abbrev spec5_3 : Pipeline.WinSpec sig grid5.rank :=
  Pipeline.WinSpec.ofSpec (Memref.whole main_v0) S1x1.size reads5_3 false true 1 stage5_3 sem5_3 nbuf5_3 hstage5_3

abbrev spec5_4 : Pipeline.WinSpec sig grid5.rank :=
  Pipeline.WinSpec.ofSpec (Memref.whole main_v24) S1x1x1.size reads5_4 true false 2 stage5_4 sem5_4 nbuf5_4 hstage5_4

abbrev spec5 : Fin 5 → Pipeline.WinSpec sig grid5.rank := fun | 0 => spec5_0 | 1 => spec5_1 | 2 => spec5_2 | 3 => spec5_3 | 4 => spec5_4 | ⟨_ + 5, h⟩ => absurd h (Nat.not_lt.2 (Nat.le_add_left _ _))
theorem hcount5 : ∀ w, grid5.bufCount (spec5 w).reads (spec5 w).sync = (spec5 w).nbuf := fun | 0 => nbuf5_0 | 1 => nbuf5_1 | 2 => nbuf5_2 | 3 => nbuf5_3 | 4 => nbuf5_4 | ⟨_ + 5, h⟩ => absurd h (Nat.not_lt.2 (Nat.le_add_left _ _))
abbrev ix5 (pf : pre5.Contents (Elt F)) : (w : Fin 5) → grid5.Coords → Fin (spec5 w).shape.rank → Nat := fun | 0 => cc5_transform_0 k5_off1_inb numel1_S1 pf | 1 => cc5_transform_1 k5_off1_inb numel1_S1 pf | 2 => cc5_transform_2 | 3 => cc5_transform_3 | 4 => cc5_transform_4 | ⟨_ + 5, h⟩ => absurd h (Nat.not_lt.2 (Nat.le_add_left _ _))
theorem hreads5 : ∀ (pf : pre5.Contents (Elt F)) w (i i' : grid5.Coords), (∀ a, (spec5 w).reads a = true → i a = i' a) → ix5 pf w i = ix5 pf w i' := fun pf => fun | 0 => hreads5_0 pf | 1 => hreads5_1 pf | 2 => hreads5_2 | 3 => hreads5_3 | 4 => hreads5_4 | ⟨_ + 5, h⟩ => absurd h (Nat.not_lt.2 (Nat.le_add_left _ _))
def ok5 (pf : pre5.Contents (Elt F)) : Prop :=
  (∀ i : grid5.Coords, ∃ h : (∀ a, (cc5_transform_0 k5_off1_inb numel1_S1 pf i a + 1) * S1x1x128.size a ≤ S100000x1x128.size a), EltTy.bits .f32 = 32 ∨ (Rect.block (s := S100000x1x128) S1x1x128.size (cc5_transform_0 k5_off1_inb numel1_S1 pf i) h).WholeWords (EltTy.packing .f32)) ∧
  (∀ i : grid5.Coords, ∃ h : (∀ a, (cc5_transform_1 k5_off1_inb numel1_S1 pf i a + 1) * S1x1x128.size a ≤ S100000x1x128.size a), EltTy.bits .f32 = 32 ∨ (Rect.block (s := S100000x1x128) S1x1x128.size (cc5_transform_1 k5_off1_inb numel1_S1 pf i) h).WholeWords (EltTy.packing .f32))
instance (pf : pre5.Contents (Elt F)) : Decidable (ok5 pf) := decidable_of_iff' _ (Iff.of_eq (ok5.eq_1 pf))
theorem hinb5 : ∀ (pf : pre5.Contents (Elt F)), ok5 pf → ∀ w (i : grid5.Coords) a, (ix5 pf w i a + 1) * (spec5 w).size a ≤ (spec5 w).shape.size a :=
  fun pf hok => fun | 0 => fun i a => (hok.1 i).elim fun h _ => h a | 1 => fun i a => (hok.2 i).elim fun h _ => h a | 2 => hinb5_2 | 3 => hinb5_3 | 4 => hinb5_4 | ⟨_ + 5, h⟩ => absurd h (Nat.not_lt.2 (Nat.le_add_left _ _))
theorem hwx5 : ∀ (pf : pre5.Contents (Elt F)) (hok : ok5 pf) w (i : grid5.Coords), (spec5 w).elt.bits = 32 ∨ (Rect.block (spec5 w).size (ix5 pf w i) (hinb5 pf hok w i)).WholeWords (spec5 w).elt.packing :=
  fun pf hok => fun | 0 => fun i => (hok.1 i).elim fun _ h => h | 1 => fun i => (hok.2 i).elim fun _ h => h | 2 => hwx5_2 | 3 => hwx5_3 | 4 => hwx5_4 | ⟨_ + 5, h⟩ => absurd h (Nat.not_lt.2 (Nat.le_add_left _ _))
abbrev spec6_0 : Pipeline.WinSpec sig grid6.rank :=
  Pipeline.WinSpec.ofSpec (Memref.whole main_v1) S1x1x128.size reads6_0 false false 2 stage6_0 sem6_0 nbuf6_0 hstage6_0

abbrev spec6_1 : Pipeline.WinSpec sig grid6.rank :=
  Pipeline.WinSpec.ofSpec (Memref.whole main_v1) S1x1x128.size reads6_1 false false 2 stage6_1 sem6_1 nbuf6_1 hstage6_1

abbrev spec6_2 : Pipeline.WinSpec sig grid6.rank :=
  Pipeline.WinSpec.ofSpec (Memref.whole main_arg3) S1x256.size reads6_2 false true 1 stage6_2 sem6_2 nbuf6_2 hstage6_2

abbrev spec6_3 : Pipeline.WinSpec sig grid6.rank :=
  Pipeline.WinSpec.ofSpec (Memref.whole main_v0) S1x1.size reads6_3 false true 1 stage6_3 sem6_3 nbuf6_3 hstage6_3

abbrev spec6_4 : Pipeline.WinSpec sig grid6.rank :=
  Pipeline.WinSpec.ofSpec (Memref.whole main_v28) S1x1x1.size reads6_4 true false 2 stage6_4 sem6_4 nbuf6_4 hstage6_4

abbrev spec6 : Fin 5 → Pipeline.WinSpec sig grid6.rank := fun | 0 => spec6_0 | 1 => spec6_1 | 2 => spec6_2 | 3 => spec6_3 | 4 => spec6_4 | ⟨_ + 5, h⟩ => absurd h (Nat.not_lt.2 (Nat.le_add_left _ _))
theorem hcount6 : ∀ w, grid6.bufCount (spec6 w).reads (spec6 w).sync = (spec6 w).nbuf := fun | 0 => nbuf6_0 | 1 => nbuf6_1 | 2 => nbuf6_2 | 3 => nbuf6_3 | 4 => nbuf6_4 | ⟨_ + 5, h⟩ => absurd h (Nat.not_lt.2 (Nat.le_add_left _ _))
abbrev ix6 (pf : pre6.Contents (Elt F)) : (w : Fin 5) → grid6.Coords → Fin (spec6 w).shape.rank → Nat := fun | 0 => cc6_transform_0 k6_off1_inb numel1_S1 pf | 1 => cc6_transform_1 k6_off1_inb numel1_S1 pf | 2 => cc6_transform_2 | 3 => cc6_transform_3 | 4 => cc6_transform_4 | ⟨_ + 5, h⟩ => absurd h (Nat.not_lt.2 (Nat.le_add_left _ _))
theorem hreads6 : ∀ (pf : pre6.Contents (Elt F)) w (i i' : grid6.Coords), (∀ a, (spec6 w).reads a = true → i a = i' a) → ix6 pf w i = ix6 pf w i' := fun pf => fun | 0 => hreads6_0 pf | 1 => hreads6_1 pf | 2 => hreads6_2 | 3 => hreads6_3 | 4 => hreads6_4 | ⟨_ + 5, h⟩ => absurd h (Nat.not_lt.2 (Nat.le_add_left _ _))
def ok6 (pf : pre6.Contents (Elt F)) : Prop :=
  (∀ i : grid6.Coords, ∃ h : (∀ a, (cc6_transform_0 k6_off1_inb numel1_S1 pf i a + 1) * S1x1x128.size a ≤ S100000x1x128.size a), EltTy.bits .f32 = 32 ∨ (Rect.block (s := S100000x1x128) S1x1x128.size (cc6_transform_0 k6_off1_inb numel1_S1 pf i) h).WholeWords (EltTy.packing .f32)) ∧
  (∀ i : grid6.Coords, ∃ h : (∀ a, (cc6_transform_1 k6_off1_inb numel1_S1 pf i a + 1) * S1x1x128.size a ≤ S100000x1x128.size a), EltTy.bits .f32 = 32 ∨ (Rect.block (s := S100000x1x128) S1x1x128.size (cc6_transform_1 k6_off1_inb numel1_S1 pf i) h).WholeWords (EltTy.packing .f32))
instance (pf : pre6.Contents (Elt F)) : Decidable (ok6 pf) := decidable_of_iff' _ (Iff.of_eq (ok6.eq_1 pf))
theorem hinb6 : ∀ (pf : pre6.Contents (Elt F)), ok6 pf → ∀ w (i : grid6.Coords) a, (ix6 pf w i a + 1) * (spec6 w).size a ≤ (spec6 w).shape.size a :=
  fun pf hok => fun | 0 => fun i a => (hok.1 i).elim fun h _ => h a | 1 => fun i a => (hok.2 i).elim fun h _ => h a | 2 => hinb6_2 | 3 => hinb6_3 | 4 => hinb6_4 | ⟨_ + 5, h⟩ => absurd h (Nat.not_lt.2 (Nat.le_add_left _ _))
theorem hwx6 : ∀ (pf : pre6.Contents (Elt F)) (hok : ok6 pf) w (i : grid6.Coords), (spec6 w).elt.bits = 32 ∨ (Rect.block (spec6 w).size (ix6 pf w i) (hinb6 pf hok w i)).WholeWords (spec6 w).elt.packing :=
  fun pf hok => fun | 0 => fun i => (hok.1 i).elim fun _ h => h | 1 => fun i => (hok.2 i).elim fun _ h => h | 2 => hwx6_2 | 3 => hwx6_3 | 4 => hwx6_4 | ⟨_ + 5, h⟩ => absurd h (Nat.not_lt.2 (Nat.le_add_left _ _))
abbrev spec7_0 : Pipeline.WinSpec sig grid7.rank :=
  Pipeline.WinSpec.ofSpec (Memref.whole main_v1) S1x1x128.size reads7_0 false false 2 stage7_0 sem7_0 nbuf7_0 hstage7_0

abbrev spec7_1 : Pipeline.WinSpec sig grid7.rank :=
  Pipeline.WinSpec.ofSpec (Memref.whole main_v1) S1x1x128.size reads7_1 false false 2 stage7_1 sem7_1 nbuf7_1 hstage7_1

abbrev spec7_2 : Pipeline.WinSpec sig grid7.rank :=
  Pipeline.WinSpec.ofSpec (Memref.whole main_arg3) S1x256.size reads7_2 false true 1 stage7_2 sem7_2 nbuf7_2 hstage7_2

abbrev spec7_3 : Pipeline.WinSpec sig grid7.rank :=
  Pipeline.WinSpec.ofSpec (Memref.whole main_v0) S1x1.size reads7_3 false true 1 stage7_3 sem7_3 nbuf7_3 hstage7_3

abbrev spec7_4 : Pipeline.WinSpec sig grid7.rank :=
  Pipeline.WinSpec.ofSpec (Memref.whole main_v32) S1x1x1.size reads7_4 true false 2 stage7_4 sem7_4 nbuf7_4 hstage7_4

abbrev spec7 : Fin 5 → Pipeline.WinSpec sig grid7.rank := fun | 0 => spec7_0 | 1 => spec7_1 | 2 => spec7_2 | 3 => spec7_3 | 4 => spec7_4 | ⟨_ + 5, h⟩ => absurd h (Nat.not_lt.2 (Nat.le_add_left _ _))
theorem hcount7 : ∀ w, grid7.bufCount (spec7 w).reads (spec7 w).sync = (spec7 w).nbuf := fun | 0 => nbuf7_0 | 1 => nbuf7_1 | 2 => nbuf7_2 | 3 => nbuf7_3 | 4 => nbuf7_4 | ⟨_ + 5, h⟩ => absurd h (Nat.not_lt.2 (Nat.le_add_left _ _))
abbrev ix7 (pf : pre7.Contents (Elt F)) : (w : Fin 5) → grid7.Coords → Fin (spec7 w).shape.rank → Nat := fun | 0 => cc7_transform_0 k7_off1_inb numel1_S1 pf | 1 => cc7_transform_1 k7_off1_inb numel1_S1 pf | 2 => cc7_transform_2 | 3 => cc7_transform_3 | 4 => cc7_transform_4 | ⟨_ + 5, h⟩ => absurd h (Nat.not_lt.2 (Nat.le_add_left _ _))
theorem hreads7 : ∀ (pf : pre7.Contents (Elt F)) w (i i' : grid7.Coords), (∀ a, (spec7 w).reads a = true → i a = i' a) → ix7 pf w i = ix7 pf w i' := fun pf => fun | 0 => hreads7_0 pf | 1 => hreads7_1 pf | 2 => hreads7_2 | 3 => hreads7_3 | 4 => hreads7_4 | ⟨_ + 5, h⟩ => absurd h (Nat.not_lt.2 (Nat.le_add_left _ _))
def ok7 (pf : pre7.Contents (Elt F)) : Prop :=
  (∀ i : grid7.Coords, ∃ h : (∀ a, (cc7_transform_0 k7_off1_inb numel1_S1 pf i a + 1) * S1x1x128.size a ≤ S100000x1x128.size a), EltTy.bits .f32 = 32 ∨ (Rect.block (s := S100000x1x128) S1x1x128.size (cc7_transform_0 k7_off1_inb numel1_S1 pf i) h).WholeWords (EltTy.packing .f32)) ∧
  (∀ i : grid7.Coords, ∃ h : (∀ a, (cc7_transform_1 k7_off1_inb numel1_S1 pf i a + 1) * S1x1x128.size a ≤ S100000x1x128.size a), EltTy.bits .f32 = 32 ∨ (Rect.block (s := S100000x1x128) S1x1x128.size (cc7_transform_1 k7_off1_inb numel1_S1 pf i) h).WholeWords (EltTy.packing .f32))
instance (pf : pre7.Contents (Elt F)) : Decidable (ok7 pf) := decidable_of_iff' _ (Iff.of_eq (ok7.eq_1 pf))
theorem hinb7 : ∀ (pf : pre7.Contents (Elt F)), ok7 pf → ∀ w (i : grid7.Coords) a, (ix7 pf w i a + 1) * (spec7 w).size a ≤ (spec7 w).shape.size a :=
  fun pf hok => fun | 0 => fun i a => (hok.1 i).elim fun h _ => h a | 1 => fun i a => (hok.2 i).elim fun h _ => h a | 2 => hinb7_2 | 3 => hinb7_3 | 4 => hinb7_4 | ⟨_ + 5, h⟩ => absurd h (Nat.not_lt.2 (Nat.le_add_left _ _))
theorem hwx7 : ∀ (pf : pre7.Contents (Elt F)) (hok : ok7 pf) w (i : grid7.Coords), (spec7 w).elt.bits = 32 ∨ (Rect.block (spec7 w).size (ix7 pf w i) (hinb7 pf hok w i)).WholeWords (spec7 w).elt.packing :=
  fun pf hok => fun | 0 => fun i => (hok.1 i).elim fun _ h => h | 1 => fun i => (hok.2 i).elim fun _ h => h | 2 => hwx7_2 | 3 => hwx7_3 | 4 => hwx7_4 | ⟨_ + 5, h⟩ => absurd h (Nat.not_lt.2 (Nat.le_add_left _ _))
abbrev spec8_0 : Pipeline.WinSpec sig grid8.rank :=
  Pipeline.WinSpec.ofSpec (Memref.whole main_v1) S1x1x128.size reads8_0 false false 2 stage8_0 sem8_0 nbuf8_0 hstage8_0

abbrev spec8_1 : Pipeline.WinSpec sig grid8.rank :=
  Pipeline.WinSpec.ofSpec (Memref.whole main_v1) S1x1x128.size reads8_1 false false 2 stage8_1 sem8_1 nbuf8_1 hstage8_1

abbrev spec8_2 : Pipeline.WinSpec sig grid8.rank :=
  Pipeline.WinSpec.ofSpec (Memref.whole main_arg3) S1x256.size reads8_2 false true 1 stage8_2 sem8_2 nbuf8_2 hstage8_2

abbrev spec8_3 : Pipeline.WinSpec sig grid8.rank :=
  Pipeline.WinSpec.ofSpec (Memref.whole main_v0) S1x1.size reads8_3 false true 1 stage8_3 sem8_3 nbuf8_3 hstage8_3

abbrev spec8_4 : Pipeline.WinSpec sig grid8.rank :=
  Pipeline.WinSpec.ofSpec (Memref.whole main_v36) S1x1x1.size reads8_4 true false 2 stage8_4 sem8_4 nbuf8_4 hstage8_4

abbrev spec8 : Fin 5 → Pipeline.WinSpec sig grid8.rank := fun | 0 => spec8_0 | 1 => spec8_1 | 2 => spec8_2 | 3 => spec8_3 | 4 => spec8_4 | ⟨_ + 5, h⟩ => absurd h (Nat.not_lt.2 (Nat.le_add_left _ _))
theorem hcount8 : ∀ w, grid8.bufCount (spec8 w).reads (spec8 w).sync = (spec8 w).nbuf := fun | 0 => nbuf8_0 | 1 => nbuf8_1 | 2 => nbuf8_2 | 3 => nbuf8_3 | 4 => nbuf8_4 | ⟨_ + 5, h⟩ => absurd h (Nat.not_lt.2 (Nat.le_add_left _ _))
abbrev ix8 (pf : pre8.Contents (Elt F)) : (w : Fin 5) → grid8.Coords → Fin (spec8 w).shape.rank → Nat := fun | 0 => cc8_transform_0 k8_off1_inb numel1_S1 pf | 1 => cc8_transform_1 k8_off1_inb numel1_S1 pf | 2 => cc8_transform_2 | 3 => cc8_transform_3 | 4 => cc8_transform_4 | ⟨_ + 5, h⟩ => absurd h (Nat.not_lt.2 (Nat.le_add_left _ _))
theorem hreads8 : ∀ (pf : pre8.Contents (Elt F)) w (i i' : grid8.Coords), (∀ a, (spec8 w).reads a = true → i a = i' a) → ix8 pf w i = ix8 pf w i' := fun pf => fun | 0 => hreads8_0 pf | 1 => hreads8_1 pf | 2 => hreads8_2 | 3 => hreads8_3 | 4 => hreads8_4 | ⟨_ + 5, h⟩ => absurd h (Nat.not_lt.2 (Nat.le_add_left _ _))
def ok8 (pf : pre8.Contents (Elt F)) : Prop :=
  (∀ i : grid8.Coords, ∃ h : (∀ a, (cc8_transform_0 k8_off1_inb numel1_S1 pf i a + 1) * S1x1x128.size a ≤ S100000x1x128.size a), EltTy.bits .f32 = 32 ∨ (Rect.block (s := S100000x1x128) S1x1x128.size (cc8_transform_0 k8_off1_inb numel1_S1 pf i) h).WholeWords (EltTy.packing .f32)) ∧
  (∀ i : grid8.Coords, ∃ h : (∀ a, (cc8_transform_1 k8_off1_inb numel1_S1 pf i a + 1) * S1x1x128.size a ≤ S100000x1x128.size a), EltTy.bits .f32 = 32 ∨ (Rect.block (s := S100000x1x128) S1x1x128.size (cc8_transform_1 k8_off1_inb numel1_S1 pf i) h).WholeWords (EltTy.packing .f32))
instance (pf : pre8.Contents (Elt F)) : Decidable (ok8 pf) := decidable_of_iff' _ (Iff.of_eq (ok8.eq_1 pf))
theorem hinb8 : ∀ (pf : pre8.Contents (Elt F)), ok8 pf → ∀ w (i : grid8.Coords) a, (ix8 pf w i a + 1) * (spec8 w).size a ≤ (spec8 w).shape.size a :=
  fun pf hok => fun | 0 => fun i a => (hok.1 i).elim fun h _ => h a | 1 => fun i a => (hok.2 i).elim fun h _ => h a | 2 => hinb8_2 | 3 => hinb8_3 | 4 => hinb8_4 | ⟨_ + 5, h⟩ => absurd h (Nat.not_lt.2 (Nat.le_add_left _ _))
theorem hwx8 : ∀ (pf : pre8.Contents (Elt F)) (hok : ok8 pf) w (i : grid8.Coords), (spec8 w).elt.bits = 32 ∨ (Rect.block (spec8 w).size (ix8 pf w i) (hinb8 pf hok w i)).WholeWords (spec8 w).elt.packing :=
  fun pf hok => fun | 0 => fun i => (hok.1 i).elim fun _ h => h | 1 => fun i => (hok.2 i).elim fun _ h => h | 2 => hwx8_2 | 3 => hwx8_3 | 4 => hwx8_4 | ⟨_ + 5, h⟩ => absurd h (Nat.not_lt.2 (Nat.le_add_left _ _))
abbrev spec9_0 : Pipeline.WinSpec sig grid9.rank :=
  Pipeline.WinSpec.ofSpec (Memref.whole main_v1) S1x1x128.size reads9_0 false false 2 stage9_0 sem9_0 nbuf9_0 hstage9_0

abbrev spec9_1 : Pipeline.WinSpec sig grid9.rank :=
  Pipeline.WinSpec.ofSpec (Memref.whole main_v1) S1x1x128.size reads9_1 false false 2 stage9_1 sem9_1 nbuf9_1 hstage9_1

abbrev spec9_2 : Pipeline.WinSpec sig grid9.rank :=
  Pipeline.WinSpec.ofSpec (Memref.whole main_arg3) S1x256.size reads9_2 false true 1 stage9_2 sem9_2 nbuf9_2 hstage9_2

abbrev spec9_3 : Pipeline.WinSpec sig grid9.rank :=
  Pipeline.WinSpec.ofSpec (Memref.whole main_v0) S1x1.size reads9_3 false true 1 stage9_3 sem9_3 nbuf9_3 hstage9_3

abbrev spec9_4 : Pipeline.WinSpec sig grid9.rank :=
  Pipeline.WinSpec.ofSpec (Memref.whole main_v40) S1x1x1.size reads9_4 true false 2 stage9_4 sem9_4 nbuf9_4 hstage9_4

abbrev spec9 : Fin 5 → Pipeline.WinSpec sig grid9.rank := fun | 0 => spec9_0 | 1 => spec9_1 | 2 => spec9_2 | 3 => spec9_3 | 4 => spec9_4 | ⟨_ + 5, h⟩ => absurd h (Nat.not_lt.2 (Nat.le_add_left _ _))
theorem hcount9 : ∀ w, grid9.bufCount (spec9 w).reads (spec9 w).sync = (spec9 w).nbuf := fun | 0 => nbuf9_0 | 1 => nbuf9_1 | 2 => nbuf9_2 | 3 => nbuf9_3 | 4 => nbuf9_4 | ⟨_ + 5, h⟩ => absurd h (Nat.not_lt.2 (Nat.le_add_left _ _))
abbrev ix9 (pf : pre9.Contents (Elt F)) : (w : Fin 5) → grid9.Coords → Fin (spec9 w).shape.rank → Nat := fun | 0 => cc9_transform_0 k9_off1_inb numel1_S1 pf | 1 => cc9_transform_1 k9_off1_inb numel1_S1 pf | 2 => cc9_transform_2 | 3 => cc9_transform_3 | 4 => cc9_transform_4 | ⟨_ + 5, h⟩ => absurd h (Nat.not_lt.2 (Nat.le_add_left _ _))
theorem hreads9 : ∀ (pf : pre9.Contents (Elt F)) w (i i' : grid9.Coords), (∀ a, (spec9 w).reads a = true → i a = i' a) → ix9 pf w i = ix9 pf w i' := fun pf => fun | 0 => hreads9_0 pf | 1 => hreads9_1 pf | 2 => hreads9_2 | 3 => hreads9_3 | 4 => hreads9_4 | ⟨_ + 5, h⟩ => absurd h (Nat.not_lt.2 (Nat.le_add_left _ _))
def ok9 (pf : pre9.Contents (Elt F)) : Prop :=
  (∀ i : grid9.Coords, ∃ h : (∀ a, (cc9_transform_0 k9_off1_inb numel1_S1 pf i a + 1) * S1x1x128.size a ≤ S100000x1x128.size a), EltTy.bits .f32 = 32 ∨ (Rect.block (s := S100000x1x128) S1x1x128.size (cc9_transform_0 k9_off1_inb numel1_S1 pf i) h).WholeWords (EltTy.packing .f32)) ∧
  (∀ i : grid9.Coords, ∃ h : (∀ a, (cc9_transform_1 k9_off1_inb numel1_S1 pf i a + 1) * S1x1x128.size a ≤ S100000x1x128.size a), EltTy.bits .f32 = 32 ∨ (Rect.block (s := S100000x1x128) S1x1x128.size (cc9_transform_1 k9_off1_inb numel1_S1 pf i) h).WholeWords (EltTy.packing .f32))
instance (pf : pre9.Contents (Elt F)) : Decidable (ok9 pf) := decidable_of_iff' _ (Iff.of_eq (ok9.eq_1 pf))
theorem hinb9 : ∀ (pf : pre9.Contents (Elt F)), ok9 pf → ∀ w (i : grid9.Coords) a, (ix9 pf w i a + 1) * (spec9 w).size a ≤ (spec9 w).shape.size a :=
  fun pf hok => fun | 0 => fun i a => (hok.1 i).elim fun h _ => h a | 1 => fun i a => (hok.2 i).elim fun h _ => h a | 2 => hinb9_2 | 3 => hinb9_3 | 4 => hinb9_4 | ⟨_ + 5, h⟩ => absurd h (Nat.not_lt.2 (Nat.le_add_left _ _))
theorem hwx9 : ∀ (pf : pre9.Contents (Elt F)) (hok : ok9 pf) w (i : grid9.Coords), (spec9 w).elt.bits = 32 ∨ (Rect.block (spec9 w).size (ix9 pf w i) (hinb9 pf hok w i)).WholeWords (spec9 w).elt.packing :=
  fun pf hok => fun | 0 => fun i => (hok.1 i).elim fun _ h => h | 1 => fun i => (hok.2 i).elim fun _ h => h | 2 => hwx9_2 | 3 => hwx9_3 | 4 => hwx9_4 | ⟨_ + 5, h⟩ => absurd h (Nat.not_lt.2 (Nat.le_add_left _ _))
abbrev spec10_0 : Pipeline.WinSpec sig grid10.rank :=
  Pipeline.WinSpec.ofSpec (Memref.whole main_v1) S1x1x128.size reads10_0 false false 2 stage10_0 sem10_0 nbuf10_0 hstage10_0

abbrev spec10_1 : Pipeline.WinSpec sig grid10.rank :=
  Pipeline.WinSpec.ofSpec (Memref.whole main_v1) S1x1x128.size reads10_1 false false 2 stage10_1 sem10_1 nbuf10_1 hstage10_1

abbrev spec10_2 : Pipeline.WinSpec sig grid10.rank :=
  Pipeline.WinSpec.ofSpec (Memref.whole main_arg3) S1x256.size reads10_2 false true 1 stage10_2 sem10_2 nbuf10_2 hstage10_2

abbrev spec10_3 : Pipeline.WinSpec sig grid10.rank :=
  Pipeline.WinSpec.ofSpec (Memref.whole main_v0) S1x1.size reads10_3 false true 1 stage10_3 sem10_3 nbuf10_3 hstage10_3

abbrev spec10_4 : Pipeline.WinSpec sig grid10.rank :=
  Pipeline.WinSpec.ofSpec (Memref.whole main_v44) S1x1x1.size reads10_4 true false 2 stage10_4 sem10_4 nbuf10_4 hstage10_4

abbrev spec10 : Fin 5 → Pipeline.WinSpec sig grid10.rank := fun | 0 => spec10_0 | 1 => spec10_1 | 2 => spec10_2 | 3 => spec10_3 | 4 => spec10_4 | ⟨_ + 5, h⟩ => absurd h (Nat.not_lt.2 (Nat.le_add_left _ _))
theorem hcount10 : ∀ w, grid10.bufCount (spec10 w).reads (spec10 w).sync = (spec10 w).nbuf := fun | 0 => nbuf10_0 | 1 => nbuf10_1 | 2 => nbuf10_2 | 3 => nbuf10_3 | 4 => nbuf10_4 | ⟨_ + 5, h⟩ => absurd h (Nat.not_lt.2 (Nat.le_add_left _ _))
abbrev ix10 (pf : pre10.Contents (Elt F)) : (w : Fin 5) → grid10.Coords → Fin (spec10 w).shape.rank → Nat := fun | 0 => cc10_transform_0 k10_off1_inb numel1_S1 pf | 1 => cc10_transform_1 k10_off1_inb numel1_S1 pf | 2 => cc10_transform_2 | 3 => cc10_transform_3 | 4 => cc10_transform_4 | ⟨_ + 5, h⟩ => absurd h (Nat.not_lt.2 (Nat.le_add_left _ _))
theorem hreads10 : ∀ (pf : pre10.Contents (Elt F)) w (i i' : grid10.Coords), (∀ a, (spec10 w).reads a = true → i a = i' a) → ix10 pf w i = ix10 pf w i' := fun pf => fun | 0 => hreads10_0 pf | 1 => hreads10_1 pf | 2 => hreads10_2 | 3 => hreads10_3 | 4 => hreads10_4 | ⟨_ + 5, h⟩ => absurd h (Nat.not_lt.2 (Nat.le_add_left _ _))
def ok10 (pf : pre10.Contents (Elt F)) : Prop :=
  (∀ i : grid10.Coords, ∃ h : (∀ a, (cc10_transform_0 k10_off1_inb numel1_S1 pf i a + 1) * S1x1x128.size a ≤ S100000x1x128.size a), EltTy.bits .f32 = 32 ∨ (Rect.block (s := S100000x1x128) S1x1x128.size (cc10_transform_0 k10_off1_inb numel1_S1 pf i) h).WholeWords (EltTy.packing .f32)) ∧
  (∀ i : grid10.Coords, ∃ h : (∀ a, (cc10_transform_1 k10_off1_inb numel1_S1 pf i a + 1) * S1x1x128.size a ≤ S100000x1x128.size a), EltTy.bits .f32 = 32 ∨ (Rect.block (s := S100000x1x128) S1x1x128.size (cc10_transform_1 k10_off1_inb numel1_S1 pf i) h).WholeWords (EltTy.packing .f32))
instance (pf : pre10.Contents (Elt F)) : Decidable (ok10 pf) := decidable_of_iff' _ (Iff.of_eq (ok10.eq_1 pf))
theorem hinb10 : ∀ (pf : pre10.Contents (Elt F)), ok10 pf → ∀ w (i : grid10.Coords) a, (ix10 pf w i a + 1) * (spec10 w).size a ≤ (spec10 w).shape.size a :=
  fun pf hok => fun | 0 => fun i a => (hok.1 i).elim fun h _ => h a | 1 => fun i a => (hok.2 i).elim fun h _ => h a | 2 => hinb10_2 | 3 => hinb10_3 | 4 => hinb10_4 | ⟨_ + 5, h⟩ => absurd h (Nat.not_lt.2 (Nat.le_add_left _ _))
theorem hwx10 : ∀ (pf : pre10.Contents (Elt F)) (hok : ok10 pf) w (i : grid10.Coords), (spec10 w).elt.bits = 32 ∨ (Rect.block (spec10 w).size (ix10 pf w i) (hinb10 pf hok w i)).WholeWords (spec10 w).elt.packing :=
  fun pf hok => fun | 0 => fun i => (hok.1 i).elim fun _ h => h | 1 => fun i => (hok.2 i).elim fun _ h => h | 2 => hwx10_2 | 3 => hwx10_3 | 4 => hwx10_4 | ⟨_ + 5, h⟩ => absurd h (Nat.not_lt.2 (Nat.le_add_left _ _))
abbrev spec11_0 : Pipeline.WinSpec sig grid11.rank :=
  Pipeline.WinSpec.ofSpec (Memref.whole main_v1) S1x1x128.size reads11_0 false false 2 stage11_0 sem11_0 nbuf11_0 hstage11_0

abbrev spec11_1 : Pipeline.WinSpec sig grid11.rank :=
  Pipeline.WinSpec.ofSpec (Memref.whole main_v1) S1x1x128.size reads11_1 false false 2 stage11_1 sem11_1 nbuf11_1 hstage11_1

abbrev spec11_2 : Pipeline.WinSpec sig grid11.rank :=
  Pipeline.WinSpec.ofSpec (Memref.whole main_arg3) S1x256.size reads11_2 false true 1 stage11_2 sem11_2 nbuf11_2 hstage11_2

abbrev spec11_3 : Pipeline.WinSpec sig grid11.rank :=
  Pipeline.WinSpec.ofSpec (Memref.whole main_v0) S1x1.size reads11_3 false true 1 stage11_3 sem11_3 nbuf11_3 hstage11_3

abbrev spec11_4 : Pipeline.WinSpec sig grid11.rank :=
  Pipeline.WinSpec.ofSpec (Memref.whole main_v48) S1x1x1.size reads11_4 true false 2 stage11_4 sem11_4 nbuf11_4 hstage11_4

abbrev spec11 : Fin 5 → Pipeline.WinSpec sig grid11.rank := fun | 0 => spec11_0 | 1 => spec11_1 | 2 => spec11_2 | 3 => spec11_3 | 4 => spec11_4 | ⟨_ + 5, h⟩ => absurd h (Nat.not_lt.2 (Nat.le_add_left _ _))
theorem hcount11 : ∀ w, grid11.bufCount (spec11 w).reads (spec11 w).sync = (spec11 w).nbuf := fun | 0 => nbuf11_0 | 1 => nbuf11_1 | 2 => nbuf11_2 | 3 => nbuf11_3 | 4 => nbuf11_4 | ⟨_ + 5, h⟩ => absurd h (Nat.not_lt.2 (Nat.le_add_left _ _))
abbrev ix11 (pf : pre11.Contents (Elt F)) : (w : Fin 5) → grid11.Coords → Fin (spec11 w).shape.rank → Nat := fun | 0 => cc11_transform_0 k11_off1_inb numel1_S1 pf | 1 => cc11_transform_1 k11_off1_inb numel1_S1 pf | 2 => cc11_transform_2 | 3 => cc11_transform_3 | 4 => cc11_transform_4 | ⟨_ + 5, h⟩ => absurd h (Nat.not_lt.2 (Nat.le_add_left _ _))
theorem hreads11 : ∀ (pf : pre11.Contents (Elt F)) w (i i' : grid11.Coords), (∀ a, (spec11 w).reads a = true → i a = i' a) → ix11 pf w i = ix11 pf w i' := fun pf => fun | 0 => hreads11_0 pf | 1 => hreads11_1 pf | 2 => hreads11_2 | 3 => hreads11_3 | 4 => hreads11_4 | ⟨_ + 5, h⟩ => absurd h (Nat.not_lt.2 (Nat.le_add_left _ _))
def ok11 (pf : pre11.Contents (Elt F)) : Prop :=
  (∀ i : grid11.Coords, ∃ h : (∀ a, (cc11_transform_0 k11_off1_inb numel1_S1 pf i a + 1) * S1x1x128.size a ≤ S100000x1x128.size a), EltTy.bits .f32 = 32 ∨ (Rect.block (s := S100000x1x128) S1x1x128.size (cc11_transform_0 k11_off1_inb numel1_S1 pf i) h).WholeWords (EltTy.packing .f32)) ∧
  (∀ i : grid11.Coords, ∃ h : (∀ a, (cc11_transform_1 k11_off1_inb numel1_S1 pf i a + 1) * S1x1x128.size a ≤ S100000x1x128.size a), EltTy.bits .f32 = 32 ∨ (Rect.block (s := S100000x1x128) S1x1x128.size (cc11_transform_1 k11_off1_inb numel1_S1 pf i) h).WholeWords (EltTy.packing .f32))
instance (pf : pre11.Contents (Elt F)) : Decidable (ok11 pf) := decidable_of_iff' _ (Iff.of_eq (ok11.eq_1 pf))
theorem hinb11 : ∀ (pf : pre11.Contents (Elt F)), ok11 pf → ∀ w (i : grid11.Coords) a, (ix11 pf w i a + 1) * (spec11 w).size a ≤ (spec11 w).shape.size a :=
  fun pf hok => fun | 0 => fun i a => (hok.1 i).elim fun h _ => h a | 1 => fun i a => (hok.2 i).elim fun h _ => h a | 2 => hinb11_2 | 3 => hinb11_3 | 4 => hinb11_4 | ⟨_ + 5, h⟩ => absurd h (Nat.not_lt.2 (Nat.le_add_left _ _))
theorem hwx11 : ∀ (pf : pre11.Contents (Elt F)) (hok : ok11 pf) w (i : grid11.Coords), (spec11 w).elt.bits = 32 ∨ (Rect.block (spec11 w).size (ix11 pf w i) (hinb11 pf hok w i)).WholeWords (spec11 w).elt.packing :=
  fun pf hok => fun | 0 => fun i => (hok.1 i).elim fun _ h => h | 1 => fun i => (hok.2 i).elim fun _ h => h | 2 => hwx11_2 | 3 => hwx11_3 | 4 => hwx11_4 | ⟨_ + 5, h⟩ => absurd h (Nat.not_lt.2 (Nat.le_add_left _ _))
abbrev spec12_0 : Pipeline.WinSpec sig grid12.rank :=
  Pipeline.WinSpec.ofSpec (Memref.whole main_v1) S1x1x128.size reads12_0 false false 2 stage12_0 sem12_0 nbuf12_0 hstage12_0

abbrev spec12_1 : Pipeline.WinSpec sig grid12.rank :=
  Pipeline.WinSpec.ofSpec (Memref.whole main_v1) S1x1x128.size reads12_1 false false 2 stage12_1 sem12_1 nbuf12_1 hstage12_1

abbrev spec12_2 : Pipeline.WinSpec sig grid12.rank :=
  Pipeline.WinSpec.ofSpec (Memref.whole main_arg3) S1x256.size reads12_2 false true 1 stage12_2 sem12_2 nbuf12_2 hstage12_2

abbrev spec12_3 : Pipeline.WinSpec sig grid12.rank :=
  Pipeline.WinSpec.ofSpec (Memref.whole main_v0) S1x1.size reads12_3 false true 1 stage12_3 sem12_3 nbuf12_3 hstage12_3

abbrev spec12_4 : Pipeline.WinSpec sig grid12.rank :=
  Pipeline.WinSpec.ofSpec (Memref.whole main_v52) S1x1x1.size reads12_4 true false 2 stage12_4 sem12_4 nbuf12_4 hstage12_4

abbrev spec12 : Fin 5 → Pipeline.WinSpec sig grid12.rank := fun | 0 => spec12_0 | 1 => spec12_1 | 2 => spec12_2 | 3 => spec12_3 | 4 => spec12_4 | ⟨_ + 5, h⟩ => absurd h (Nat.not_lt.2 (Nat.le_add_left _ _))
theorem hcount12 : ∀ w, grid12.bufCount (spec12 w).reads (spec12 w).sync = (spec12 w).nbuf := fun | 0 => nbuf12_0 | 1 => nbuf12_1 | 2 => nbuf12_2 | 3 => nbuf12_3 | 4 => nbuf12_4 | ⟨_ + 5, h⟩ => absurd h (Nat.not_lt.2 (Nat.le_add_left _ _))
abbrev ix12 (pf : pre12.Contents (Elt F)) : (w : Fin 5) → grid12.Coords → Fin (spec12 w).shape.rank → Nat := fun | 0 => cc12_transform_0 k12_off1_inb numel1_S1 pf | 1 => cc12_transform_1 k12_off1_inb numel1_S1 pf | 2 => cc12_transform_2 | 3 => cc12_transform_3 | 4 => cc12_transform_4 | ⟨_ + 5, h⟩ => absurd h (Nat.not_lt.2 (Nat.le_add_left _ _))
theorem hreads12 : ∀ (pf : pre12.Contents (Elt F)) w (i i' : grid12.Coords), (∀ a, (spec12 w).reads a = true → i a = i' a) → ix12 pf w i = ix12 pf w i' := fun pf => fun | 0 => hreads12_0 pf | 1 => hreads12_1 pf | 2 => hreads12_2 | 3 => hreads12_3 | 4 => hreads12_4 | ⟨_ + 5, h⟩ => absurd h (Nat.not_lt.2 (Nat.le_add_left _ _))
def ok12 (pf : pre12.Contents (Elt F)) : Prop :=
  (∀ i : grid12.Coords, ∃ h : (∀ a, (cc12_transform_0 k12_off1_inb numel1_S1 pf i a + 1) * S1x1x128.size a ≤ S100000x1x128.size a), EltTy.bits .f32 = 32 ∨ (Rect.block (s := S100000x1x128) S1x1x128.size (cc12_transform_0 k12_off1_inb numel1_S1 pf i) h).WholeWords (EltTy.packing .f32)) ∧
  (∀ i : grid12.Coords, ∃ h : (∀ a, (cc12_transform_1 k12_off1_inb numel1_S1 pf i a + 1) * S1x1x128.size a ≤ S100000x1x128.size a), EltTy.bits .f32 = 32 ∨ (Rect.block (s := S100000x1x128) S1x1x128.size (cc12_transform_1 k12_off1_inb numel1_S1 pf i) h).WholeWords (EltTy.packing .f32))
instance (pf : pre12.Contents (Elt F)) : Decidable (ok12 pf) := decidable_of_iff' _ (Iff.of_eq (ok12.eq_1 pf))
theorem hinb12 : ∀ (pf : pre12.Contents (Elt F)), ok12 pf → ∀ w (i : grid12.Coords) a, (ix12 pf w i a + 1) * (spec12 w).size a ≤ (spec12 w).shape.size a :=
  fun pf hok => fun | 0 => fun i a => (hok.1 i).elim fun h _ => h a | 1 => fun i a => (hok.2 i).elim fun h _ => h a | 2 => hinb12_2 | 3 => hinb12_3 | 4 => hinb12_4 | ⟨_ + 5, h⟩ => absurd h (Nat.not_lt.2 (Nat.le_add_left _ _))
theorem hwx12 : ∀ (pf : pre12.Contents (Elt F)) (hok : ok12 pf) w (i : grid12.Coords), (spec12 w).elt.bits = 32 ∨ (Rect.block (spec12 w).size (ix12 pf w i) (hinb12 pf hok w i)).WholeWords (spec12 w).elt.packing :=
  fun pf hok => fun | 0 => fun i => (hok.1 i).elim fun _ h => h | 1 => fun i => (hok.2 i).elim fun _ h => h | 2 => hwx12_2 | 3 => hwx12_3 | 4 => hwx12_4 | ⟨_ + 5, h⟩ => absurd h (Nat.not_lt.2 (Nat.le_add_left _ _))
abbrev spec13_0 : Pipeline.WinSpec sig grid13.rank :=
  Pipeline.WinSpec.ofSpec (Memref.whole main_v1) S1x1x128.size reads13_0 false false 2 stage13_0 sem13_0 nbuf13_0 hstage13_0

abbrev spec13_1 : Pipeline.WinSpec sig grid13.rank :=
  Pipeline.WinSpec.ofSpec (Memref.whole main_v1) S1x1x128.size reads13_1 false false 2 stage13_1 sem13_1 nbuf13_1 hstage13_1

abbrev spec13_2 : Pipeline.WinSpec sig grid13.rank :=
  Pipeline.WinSpec.ofSpec (Memref.whole main_arg3) S1x256.size reads13_2 false true 1 stage13_2 sem13_2 nbuf13_2 hstage13_2

abbrev spec13_3 : Pipeline.WinSpec sig grid13.rank :=
  Pipeline.WinSpec.ofSpec (Memref.whole main_v0) S1x1.size reads13_3 false true 1 stage13_3 sem13_3 nbuf13_3 hstage13_3

abbrev spec13_4 : Pipeline.WinSpec sig grid13.rank :=
  Pipeline.WinSpec.ofSpec (Memref.whole main_v56) S1x1x1.size reads13_4 true false 2 stage13_4 sem13_4 nbuf13_4 hstage13_4

abbrev spec13 : Fin 5 → Pipeline.WinSpec sig grid13.rank := fun | 0 => spec13_0 | 1 => spec13_1 | 2 => spec13_2 | 3 => spec13_3 | 4 => spec13_4 | ⟨_ + 5, h⟩ => absurd h (Nat.not_lt.2 (Nat.le_add_left _ _))
theorem hcount13 : ∀ w, grid13.bufCount (spec13 w).reads (spec13 w).sync = (spec13 w).nbuf := fun | 0 => nbuf13_0 | 1 => nbuf13_1 | 2 => nbuf13_2 | 3 => nbuf13_3 | 4 => nbuf13_4 | ⟨_ + 5, h⟩ => absurd h (Nat.not_lt.2 (Nat.le_add_left _ _))
abbrev ix13 (pf : pre13.Contents (Elt F)) : (w : Fin 5) → grid13.Coords → Fin (spec13 w).shape.rank → Nat := fun | 0 => cc13_transform_0 k13_off1_inb numel1_S1 pf | 1 => cc13_transform_1 k13_off1_inb numel1_S1 pf | 2 => cc13_transform_2 | 3 => cc13_transform_3 | 4 => cc13_transform_4 | ⟨_ + 5, h⟩ => absurd h (Nat.not_lt.2 (Nat.le_add_left _ _))
theorem hreads13 : ∀ (pf : pre13.Contents (Elt F)) w (i i' : grid13.Coords), (∀ a, (spec13 w).reads a = true → i a = i' a) → ix13 pf w i = ix13 pf w i' := fun pf => fun | 0 => hreads13_0 pf | 1 => hreads13_1 pf | 2 => hreads13_2 | 3 => hreads13_3 | 4 => hreads13_4 | ⟨_ + 5, h⟩ => absurd h (Nat.not_lt.2 (Nat.le_add_left _ _))
def ok13 (pf : pre13.Contents (Elt F)) : Prop :=
  (∀ i : grid13.Coords, ∃ h : (∀ a, (cc13_transform_0 k13_off1_inb numel1_S1 pf i a + 1) * S1x1x128.size a ≤ S100000x1x128.size a), EltTy.bits .f32 = 32 ∨ (Rect.block (s := S100000x1x128) S1x1x128.size (cc13_transform_0 k13_off1_inb numel1_S1 pf i) h).WholeWords (EltTy.packing .f32)) ∧
  (∀ i : grid13.Coords, ∃ h : (∀ a, (cc13_transform_1 k13_off1_inb numel1_S1 pf i a + 1) * S1x1x128.size a ≤ S100000x1x128.size a), EltTy.bits .f32 = 32 ∨ (Rect.block (s := S100000x1x128) S1x1x128.size (cc13_transform_1 k13_off1_inb numel1_S1 pf i) h).WholeWords (EltTy.packing .f32))
instance (pf : pre13.Contents (Elt F)) : Decidable (ok13 pf) := decidable_of_iff' _ (Iff.of_eq (ok13.eq_1 pf))
theorem hinb13 : ∀ (pf : pre13.Contents (Elt F)), ok13 pf → ∀ w (i : grid13.Coords) a, (ix13 pf w i a + 1) * (spec13 w).size a ≤ (spec13 w).shape.size a :=
  fun pf hok => fun | 0 => fun i a => (hok.1 i).elim fun h _ => h a | 1 => fun i a => (hok.2 i).elim fun h _ => h a | 2 => hinb13_2 | 3 => hinb13_3 | 4 => hinb13_4 | ⟨_ + 5, h⟩ => absurd h (Nat.not_lt.2 (Nat.le_add_left _ _))
theorem hwx13 : ∀ (pf : pre13.Contents (Elt F)) (hok : ok13 pf) w (i : grid13.Coords), (spec13 w).elt.bits = 32 ∨ (Rect.block (spec13 w).size (ix13 pf w i) (hinb13 pf hok w i)).WholeWords (spec13 w).elt.packing :=
  fun pf hok => fun | 0 => fun i => (hok.1 i).elim fun _ h => h | 1 => fun i => (hok.2 i).elim fun _ h => h | 2 => hwx13_2 | 3 => hwx13_3 | 4 => hwx13_4 | ⟨_ + 5, h⟩ => absurd h (Nat.not_lt.2 (Nat.le_add_left _ _))
abbrev spec14_0 : Pipeline.WinSpec sig grid14.rank :=
  Pipeline.WinSpec.ofSpec (Memref.whole main_v1) S1x1x128.size reads14_0 false false 2 stage14_0 sem14_0 nbuf14_0 hstage14_0

abbrev spec14_1 : Pipeline.WinSpec sig grid14.rank :=
  Pipeline.WinSpec.ofSpec (Memref.whole main_v1) S1x1x128.size reads14_1 false false 2 stage14_1 sem14_1 nbuf14_1 hstage14_1

abbrev spec14_2 : Pipeline.WinSpec sig grid14.rank :=
  Pipeline.WinSpec.ofSpec (Memref.whole main_arg3) S1x256.size reads14_2 false true 1 stage14_2 sem14_2 nbuf14_2 hstage14_2

abbrev spec14_3 : Pipeline.WinSpec sig grid14.rank :=
  Pipeline.WinSpec.ofSpec (Memref.whole main_v0) S1x1.size reads14_3 false true 1 stage14_3 sem14_3 nbuf14_3 hstage14_3

abbrev spec14_4 : Pipeline.WinSpec sig grid14.rank :=
  Pipeline.WinSpec.ofSpec (Memref.whole main_v60) S1x1x1.size reads14_4 true false 2 stage14_4 sem14_4 nbuf14_4 hstage14_4

abbrev spec14 : Fin 5 → Pipeline.WinSpec sig grid14.rank := fun | 0 => spec14_0 | 1 => spec14_1 | 2 => spec14_2 | 3 => spec14_3 | 4 => spec14_4 | ⟨_ + 5, h⟩ => absurd h (Nat.not_lt.2 (Nat.le_add_left _ _))
theorem hcount14 : ∀ w, grid14.bufCount (spec14 w).reads (spec14 w).sync = (spec14 w).nbuf := fun | 0 => nbuf14_0 | 1 => nbuf14_1 | 2 => nbuf14_2 | 3 => nbuf14_3 | 4 => nbuf14_4 | ⟨_ + 5, h⟩ => absurd h (Nat.not_lt.2 (Nat.le_add_left _ _))
abbrev ix14 (pf : pre14.Contents (Elt F)) : (w : Fin 5) → grid14.Coords → Fin (spec14 w).shape.rank → Nat := fun | 0 => cc14_transform_0 k14_off1_inb numel1_S1 pf | 1 => cc14_transform_1 k14_off1_inb numel1_S1 pf | 2 => cc14_transform_2 | 3 => cc14_transform_3 | 4 => cc14_transform_4 | ⟨_ + 5, h⟩ => absurd h (Nat.not_lt.2 (Nat.le_add_left _ _))
theorem hreads14 : ∀ (pf : pre14.Contents (Elt F)) w (i i' : grid14.Coords), (∀ a, (spec14 w).reads a = true → i a = i' a) → ix14 pf w i = ix14 pf w i' := fun pf => fun | 0 => hreads14_0 pf | 1 => hreads14_1 pf | 2 => hreads14_2 | 3 => hreads14_3 | 4 => hreads14_4 | ⟨_ + 5, h⟩ => absurd h (Nat.not_lt.2 (Nat.le_add_left _ _))
def ok14 (pf : pre14.Contents (Elt F)) : Prop :=
  (∀ i : grid14.Coords, ∃ h : (∀ a, (cc14_transform_0 k14_off1_inb numel1_S1 pf i a + 1) * S1x1x128.size a ≤ S100000x1x128.size a), EltTy.bits .f32 = 32 ∨ (Rect.block (s := S100000x1x128) S1x1x128.size (cc14_transform_0 k14_off1_inb numel1_S1 pf i) h).WholeWords (EltTy.packing .f32)) ∧
  (∀ i : grid14.Coords, ∃ h : (∀ a, (cc14_transform_1 k14_off1_inb numel1_S1 pf i a + 1) * S1x1x128.size a ≤ S100000x1x128.size a), EltTy.bits .f32 = 32 ∨ (Rect.block (s := S100000x1x128) S1x1x128.size (cc14_transform_1 k14_off1_inb numel1_S1 pf i) h).WholeWords (EltTy.packing .f32))
instance (pf : pre14.Contents (Elt F)) : Decidable (ok14 pf) := decidable_of_iff' _ (Iff.of_eq (ok14.eq_1 pf))
theorem hinb14 : ∀ (pf : pre14.Contents (Elt F)), ok14 pf → ∀ w (i : grid14.Coords) a, (ix14 pf w i a + 1) * (spec14 w).size a ≤ (spec14 w).shape.size a :=
  fun pf hok => fun | 0 => fun i a => (hok.1 i).elim fun h _ => h a | 1 => fun i a => (hok.2 i).elim fun h _ => h a | 2 => hinb14_2 | 3 => hinb14_3 | 4 => hinb14_4 | ⟨_ + 5, h⟩ => absurd h (Nat.not_lt.2 (Nat.le_add_left _ _))
theorem hwx14 : ∀ (pf : pre14.Contents (Elt F)) (hok : ok14 pf) w (i : grid14.Coords), (spec14 w).elt.bits = 32 ∨ (Rect.block (spec14 w).size (ix14 pf w i) (hinb14 pf hok w i)).WholeWords (spec14 w).elt.packing :=
  fun pf hok => fun | 0 => fun i => (hok.1 i).elim fun _ h => h | 1 => fun i => (hok.2 i).elim fun _ h => h | 2 => hwx14_2 | 3 => hwx14_3 | 4 => hwx14_4 | ⟨_ + 5, h⟩ => absurd h (Nat.not_lt.2 (Nat.le_add_left _ _))
abbrev spec15_0 : Pipeline.WinSpec sig grid15.rank :=
  Pipeline.WinSpec.ofSpec (Memref.whole main_v1) S1x1x128.size reads15_0 false false 2 stage15_0 sem15_0 nbuf15_0 hstage15_0

abbrev spec15_1 : Pipeline.WinSpec sig grid15.rank :=
  Pipeline.WinSpec.ofSpec (Memref.whole main_v1) S1x1x128.size reads15_1 false false 2 stage15_1 sem15_1 nbuf15_1 hstage15_1

abbrev spec15_2 : Pipeline.WinSpec sig grid15.rank :=
  Pipeline.WinSpec.ofSpec (Memref.whole main_arg3) S1x256.size reads15_2 false true 1 stage15_2 sem15_2 nbuf15_2 hstage15_2

abbrev spec15_3 : Pipeline.WinSpec sig grid15.rank :=
  Pipeline.WinSpec.ofSpec (Memref.whole main_v0) S1x1.size reads15_3 false true 1 stage15_3 sem15_3 nbuf15_3 hstage15_3

abbrev spec15_4 : Pipeline.WinSpec sig grid15.rank :=
  Pipeline.WinSpec.ofSpec (Memref.whole main_v64) S1x1x1.size reads15_4 true false 2 stage15_4 sem15_4 nbuf15_4 hstage15_4

abbrev spec15 : Fin 5 → Pipeline.WinSpec sig grid15.rank := fun | 0 => spec15_0 | 1 => spec15_1 | 2 => spec15_2 | 3 => spec15_3 | 4 => spec15_4 | ⟨_ + 5, h⟩ => absurd h (Nat.not_lt.2 (Nat.le_add_left _ _))
theorem hcount15 : ∀ w, grid15.bufCount (spec15 w).reads (spec15 w).sync = (spec15 w).nbuf := fun | 0 => nbuf15_0 | 1 => nbuf15_1 | 2 => nbuf15_2 | 3 => nbuf15_3 | 4 => nbuf15_4 | ⟨_ + 5, h⟩ => absurd h (Nat.not_lt.2 (Nat.le_add_left _ _))
abbrev ix15 (pf : pre15.Contents (Elt F)) : (w : Fin 5) → grid15.Coords → Fin (spec15 w).shape.rank → Nat := fun | 0 => cc15_transform_0 k15_off1_inb numel1_S1 pf | 1 => cc15_transform_1 k15_off1_inb numel1_S1 pf | 2 => cc15_transform_2 | 3 => cc15_transform_3 | 4 => cc15_transform_4 | ⟨_ + 5, h⟩ => absurd h (Nat.not_lt.2 (Nat.le_add_left _ _))
theorem hreads15 : ∀ (pf : pre15.Contents (Elt F)) w (i i' : grid15.Coords), (∀ a, (spec15 w).reads a = true → i a = i' a) → ix15 pf w i = ix15 pf w i' := fun pf => fun | 0 => hreads15_0 pf | 1 => hreads15_1 pf | 2 => hreads15_2 | 3 => hreads15_3 | 4 => hreads15_4 | ⟨_ + 5, h⟩ => absurd h (Nat.not_lt.2 (Nat.le_add_left _ _))
def ok15 (pf : pre15.Contents (Elt F)) : Prop :=
  (∀ i : grid15.Coords, ∃ h : (∀ a, (cc15_transform_0 k15_off1_inb numel1_S1 pf i a + 1) * S1x1x128.size a ≤ S100000x1x128.size a), EltTy.bits .f32 = 32 ∨ (Rect.block (s := S100000x1x128) S1x1x128.size (cc15_transform_0 k15_off1_inb numel1_S1 pf i) h).WholeWords (EltTy.packing .f32)) ∧
  (∀ i : grid15.Coords, ∃ h : (∀ a, (cc15_transform_1 k15_off1_inb numel1_S1 pf i a + 1) * S1x1x128.size a ≤ S100000x1x128.size a), EltTy.bits .f32 = 32 ∨ (Rect.block (s := S100000x1x128) S1x1x128.size (cc15_transform_1 k15_off1_inb numel1_S1 pf i) h).WholeWords (EltTy.packing .f32))
instance (pf : pre15.Contents (Elt F)) : Decidable (ok15 pf) := decidable_of_iff' _ (Iff.of_eq (ok15.eq_1 pf))
theorem hinb15 : ∀ (pf : pre15.Contents (Elt F)), ok15 pf → ∀ w (i : grid15.Coords) a, (ix15 pf w i a + 1) * (spec15 w).size a ≤ (spec15 w).shape.size a :=
  fun pf hok => fun | 0 => fun i a => (hok.1 i).elim fun h _ => h a | 1 => fun i a => (hok.2 i).elim fun h _ => h a | 2 => hinb15_2 | 3 => hinb15_3 | 4 => hinb15_4 | ⟨_ + 5, h⟩ => absurd h (Nat.not_lt.2 (Nat.le_add_left _ _))
theorem hwx15 : ∀ (pf : pre15.Contents (Elt F)) (hok : ok15 pf) w (i : grid15.Coords), (spec15 w).elt.bits = 32 ∨ (Rect.block (spec15 w).size (ix15 pf w i) (hinb15 pf hok w i)).WholeWords (spec15 w).elt.packing :=
  fun pf hok => fun | 0 => fun i => (hok.1 i).elim fun _ h => h | 1 => fun i => (hok.2 i).elim fun _ h => h | 2 => hwx15_2 | 3 => hwx15_3 | 4 => hwx15_4 | ⟨_ + 5, h⟩ => absurd h (Nat.not_lt.2 (Nat.le_add_left _ _))

class Facts : Prop extends Facts₀ where
  harr0 : ∀ w, (spec0 w).arr.IsWhole
  harr1 : ∀ w, (spec1 w).arr.IsWhole
  harr2 : ∀ w, (spec2 w).arr.IsWhole
  harr3 : ∀ w, (spec3 w).arr.IsWhole
  harr4 : ∀ w, (spec4 w).arr.IsWhole
  harr5 : ∀ w, (spec5 w).arr.IsWhole
  harr6 : ∀ w, (spec6 w).arr.IsWhole
  harr7 : ∀ w, (spec7 w).arr.IsWhole
  harr8 : ∀ w, (spec8 w).arr.IsWhole
  harr9 : ∀ w, (spec9 w).arr.IsWhole
  harr10 : ∀ w, (spec10 w).arr.IsWhole
  harr11 : ∀ w, (spec11 w).arr.IsWhole
  harr12 : ∀ w, (spec12 w).arr.IsWhole
  harr13 : ∀ w, (spec13 w).arr.IsWhole
  harr14 : ∀ w, (spec14 w).arr.IsWhole
  harr15 : ∀ w, (spec15 w).arr.IsWhole

variable [Facts]
-- ==== ReferenceIdeal.lean ====
abbrev S100000x128 : Shape := ⟨2, ![100000, 128]⟩
abbrev S1000000 : Shape := ⟨1, ![1000000]⟩
abbrev S1x256 : Shape := ⟨2, ![1, 256]⟩
abbrev S1 : Shape := ⟨1, ![1]⟩
abbrev S_ : Shape := ⟨0, ![]⟩
abbrev S1000000x1 : Shape := ⟨2, ![1000000, 1]⟩
abbrev S1000000x128 : Shape := ⟨2, ![1000000, 128]⟩
abbrev S1000000x256 : Shape := ⟨2, ![1000000, 256]⟩
abbrev S256x1 : Shape := ⟨2, ![256, 1]⟩
abbrev S1x1 : Shape := ⟨2, ![1, 1]⟩

abbrev nBuf : Space → Nat
  | .hbm => 29
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1000000, .i32⟩
  | .hbm, ⟨2, _⟩ => ⟨S1000000, .i32⟩
  | .hbm, ⟨3, _⟩ => ⟨S1x256, .f32⟩
  | .hbm, ⟨4, _⟩ => ⟨S1, .f32⟩
  | .hbm, ⟨5, _⟩ => ⟨S_, .i32⟩
  | .hbm, ⟨6, _⟩ => ⟨S1000000, .i32⟩
  | .hbm, ⟨7, _⟩ => ⟨S1000000, .i1⟩
  | .hbm, ⟨8, _⟩ => ⟨S_, .i32⟩
  | .hbm, ⟨9, _⟩ => ⟨S1000000, .i32⟩
  | .hbm, ⟨10, _⟩ => ⟨S1000000, .i32⟩
  | .hbm, ⟨11, _⟩ => ⟨S1000000, .i32⟩
  | .hbm, ⟨12, _⟩ => ⟨S1000000x1, .i32⟩
  | .hbm, ⟨13, _⟩ => ⟨S1000000x128, .f32⟩
  | .hbm, ⟨14, _⟩ => ⟨S_, .i32⟩
  | .hbm, ⟨15, _⟩ => ⟨S1000000, .i32⟩
  | .hbm, ⟨16, _⟩ => ⟨S1000000, .i1⟩
  | .hbm, ⟨17, _⟩ => ⟨S_, .i32⟩
  | .hbm, ⟨18, _⟩ => ⟨S1000000, .i32⟩
  | .hbm, ⟨19, _⟩ => ⟨S1000000, .i32⟩
  | .hbm, ⟨20, _⟩ => ⟨S1000000, .i32⟩
  | .hbm, ⟨21, _⟩ => ⟨S1000000x1, .i32⟩
  | .hbm, ⟨22, _⟩ => ⟨S1000000x128, .f32⟩
  | .hbm, ⟨23, _⟩ => ⟨S1000000x256, .f32⟩
  | .hbm, ⟨24, _⟩ => ⟨S256x1, .f32⟩
  | .hbm, ⟨25, _⟩ => ⟨S1000000x1, .f32⟩
  | .hbm, ⟨26, _⟩ => ⟨S1x1, .f32⟩
  | .hbm, ⟨27, _⟩ => ⟨S1000000x1, .f32⟩
  | .hbm, ⟨28, _⟩ => ⟨S1000000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x128_S1000000x128_S1000000x256_d1 : Shape.Concatenates [S1000000x128, S1000000x128] S1000000x256 1
  transposes_S1x256_S256x1_1_0 : S1x256.Transposes [1, 0] S256x1
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  gather_S100000x128_S1000000x1_S1000000x128_1_0_n_n_0_1_1128_wf : GatherDims.WF S100000x128 S1000000x1 S1000000x128 [1] [0] [] [0] [] 1 ![1, 128]
  dot_S1000000x256_S256x1_S1000000x1_1_0_0_1_n_n_wf : DotDims.WF S1000000x256 S256x1 S1000000x1 [1] [0] [0] [1] [] []

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def dot_S1000000x256_S256x1_S1000000x1_1_0_0_1_n_n : DotDims S1000000x256 S256x1 S1000000x1 where
  lhsContracting := [1]
  rhsContracting := [0]
  lhsNonContracting := [0]
  rhsNonContracting := [1]
  lhsBatch := []
  rhsBatch := []
  wf := dot_S1000000x256_S256x1_S1000000x1_1_0_0_1_n_n_wf

class Facts : Prop extends Facts₀ where

variable [Facts]
-- ==== Proof.KBody0.lean ====
/-
  One edge's score as the kernel body computes it, and the body's triple.

  The body reads the two gathered rows (one row of the node features for the edge's source node, one for its
  destination node), the 256 weights and the bias from its staging buffers, and writes the single score
  `(∑ row_s · W[0:128]) + (∑ row_d · W[128:256]) + b` to its one-element output buffer. `out0` is what the output
  buffer holds afterwards as a function of the four input buffers; `sound_kernel0` says the body, run on whole
  staging buffers holding those contents, ends with the inputs as they were and the output at `out0` of them.
-/
import proofs.«405368_j31662498906597_2_alg».proof.Proof.LaunchKernel
import proofs.«405368_j31662498906597_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The first 128 weights, the last 128 weights, a whole gathered row, the bias, the score's cell: the rectangles the
    body loads and stores through. -/
abbrev rW0 : Rect S1x256 := Rect.unit (s := S1x256) ![0, 0] S1x128.size inb_S1x256_S1x128_0_0
abbrev rW1 : Rect S1x256 := Rect.unit (s := S1x256) ![0, 128] S1x128.size inb_S1x256_S1x128_0_128
abbrev rH : Rect S1x1x128 := Rect.unit (s := S1x1x128) ![0, 0, 0] S1x1x128.size inb_S1x1x128_S1x1x128_0_0_0
abbrev rB : Rect S1x1 := Rect.unit (s := S1x1) ![0, 0] S1x1.size inb_S1x1_S1x1_0_0
abbrev rO : Rect S1x1x1 := Rect.unit (s := S1x1x1) ![0, 0, 0] S1x1x1.size inb_S1x1x1_S1x1x1_0_0_0

/-- The output buffer after the body, from the four input buffers (source row, destination row, weights, bias): its
    one store, of the score. -/
def out0 (x0 x1 : Vec F S1x1x128 .f32) (x2 : Vec F S1x256 .f32) (x3 : Vec F S1x1 .f32) : Vec F S1x1x1 .f32 :=
  View.canon [⟨rO, k0_pay1 (View.ld x2 rW0) (View.ld x2 rW1) (View.ld x0 rH) (View.ld x1 rH) (View.ld x3 rB)⟩]

/-- The one store covers the one-element buffer. -/
theorem cover0 (p0 : Vec F S1x1x1 .f32) (y : S1x1x1.Idx) :
    ∃ pc ∈ ([⟨rO, p0⟩] : List (View.Piece (Elt F) S1x1x1 .f32)), y ∈ pc.1.set :=
  View.cover_of_tiled [⟨rO, p0⟩] S1x1x1.size (by rfl) y

set_option maxHeartbeats 1000000 in
/-- The body on whole staging buffers: the inputs at `x0 … x3`, the output at anything; it ends with the inputs as
    they were and the output at `out0` of them. The two index tables are not touched. -/
theorem sound_kernel0 (c : Dev nD) (E : Set ℕ) (i : grid0.Coords)
    (arg1 : Memref sig .tc .smem S62500 .i32) (harg1 : arg1.IsWhole) (arg2 : Memref sig .tc .smem S62500 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x256 .f32) (harg5 : arg5.IsWhole) (arg6 : Memref sig .tc .vmem S1x1 .f32) (harg6 : arg6.IsWhole)
    (arg7 : Memref sig .tc .vmem S1x1x1 .f32) (harg7 : arg7.IsWhole)
    (x0 x1 : Vec F S1x1x128 .f32) (x2 : Vec F S1x256 .f32) (x3 : Vec F S1x1 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ (∃ d, owns (c : Thread nD τ) arg7 fullShare d)
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare (out0 x0 x1 x2 x3)) -∗ K ⟨⟩))
      ⊢ wp frame (wpE (defs₀ (F := F)) Variants.none c none) E
          (cc0__gather_score_kernel i arg1 harg1 arg2 harg2 arg3 harg3 arg4 harg4 arg5 harg5 arg6 harg6 arg7 harg7) K := by
  -- the printed body is its skeleton of six loads and one store over the payload
  simp only [cc0__gather_score_kernel_eq_skeleton]; unfold cc0__gather_score_kernel_skel
  -- each input's ownership is some contents with the given read; the output's is any contents
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  -- the loads leave every buffer as it was (the value loaded from the output buffer is not used); the store
  -- overwrites the output buffer's one cell with the payload of the five input loads
  sl_exec
  sl_step
  iapply Hk
  -- the four inputs come back at the contents they had
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  -- the output: old contents overwritten by one store that covers the buffer read back as that store alone
  iexists _; isplitr
  swap; · iexact H4
  ipureintro
  exact View.read_writes_eq_canon _ _ _ (cover0 _)

end Cert.Kernel.Hand

end
-- ==== Proof.KDat0.lean ====
/-
  Region 0 of the edge scorer: the pipeline's proof data and the body obligation.

  The region has 62500 grid points, one per edge of its chunk. At point `t` the pipeline stages five blocks: row
  `src t` of the node features (window 0) and row `dst t` (window 1) — both windows read the ONE feature array,
  their block indices taken from the two prefetched index tables —, the 256 weights (window 2), the bias
  (window 3), and the one-element block `t` of the output (window 4). The body leaves every input block as it
  found it and the output block at the edge's score (`out0` of the four input blocks). The two input windows
  on the shared feature array hold it at the two halves of the full share; the tables ride in the invariant,
  whole, untouched (the body never reads them); nothing is owed to other cores.
-/
import proofs.«405368_j31662498906597_2_alg».proof.Proof.KBody0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffers' contents when the region is entered, per core, and the tables' admissible contents: parameters
variable (V : (c : Dev nD) → (b : Ref sig .tc) → Buf (Elt F) ((c : Thread nD τ).loc b)) (a : (pcfg0 (F := F)).Adm)

/-- Window `w`'s block at point `t`, read off its array as the region finds it. -/
def iblk0 (c : Dev nD) (w : Fin (cfg0 a).W) (t : Fin (cfg0 a).N) :
    (((cfg0 a).win w).xblock ((cfg0 a).grid.coords t)).Idx → Elt F ((cfg0 a).win w).elt :=
  (((cfg0 a).win w).blk t).view.read (Elt F) (V c (Pipeline.arrRef spec0 w))

/-- The current staging memref of each window at point `t`. -/
abbrev st0_0 (t : Fin (cfg0 a).N) := ((cfg0 a).win 0).stage ((cfg0 a).slots t 0)
abbrev st0_1 (t : Fin (cfg0 a).N) := ((cfg0 a).win 1).stage ((cfg0 a).slots t 1)
abbrev st0_2 (t : Fin (cfg0 a).N) := ((cfg0 a).win 2).stage ((cfg0 a).slots t 2)
abbrev st0_3 (t : Fin (cfg0 a).N) := ((cfg0 a).win 3).stage ((cfg0 a).slots t 3)
abbrev st0_4 (t : Fin (cfg0 a).N) := ((cfg0 a).win 4).stage ((cfg0 a).slots t 4)

/-- The kernel body at point `t`, on what the pipeline calls it with. -/
abbrev bodyAt0 (t : Fin (cfg0 a).N) : Prog (TpuEff nD τ sig (Elt F) Λ₀ .tc) PUnit :=
  cc0__gather_score_kernel (grid0.coords t) (Memref.whole main_v2) (Memref.isWhole_whole _) (Memref.whole main_v3) (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))
    (spec0_3.stage ((cfg0 a).slots t 3)) (hstage0_3 (((cfg0 a).slots t 3).cast nbuf0_3))
    (spec0_4.stage ((cfg0 a).slots t 4)) (hstage0_4 (((cfg0 a).slots t 4).cast nbuf0_4))

/-- The proof data of pipeline 0 on core `c`. -/
def dat0 (c : Dev nD) : Dat τ (Elt F) Unit ℕ (UR sig nD τ) ℕ (cfg0 a) c where
  A w := V c (Pipeline.arrRef spec0 w)
  after w t := match w with
    | ⟨0, _⟩ => iblk0 V a c 0 t
    | ⟨1, _⟩ => iblk0 V a c 1 t
    | ⟨2, _⟩ => iblk0 V a c 2 t
    | ⟨3, _⟩ => iblk0 V a c 3 t
    | ⟨4, _⟩ => out0 (iblk0 V a c 0 t) (iblk0 V a c 1 t) (iblk0 V a c 2 t) (iblk0 V a c 3 t)
  Φ _ := iprop(Pipeline.ΦA spec0 c ∗ Pipeline.prefHeld (Ix := Unit) (Name := ℕ) (U := UR sig nD τ) (Lvl := ℕ) pre0 c (fun _ => fullShare) a.1)
  q w := match w with
    | ⟨0, _⟩ => fullShare.left
    | ⟨1, _⟩ => fullShare.right
    | _ => fullShare
  owed _ := 0

theorem A_eq0 (c : Dev nD) (w : Fin (cfg0 a).W) : (dat0 V a c).A w = V c (Pipeline.arrRef spec0 w) := by
  dsimp only [dat0]

theorem after0_0 (c : Dev nD) (t : Fin (cfg0 a).N) : (dat0 V a c).after 0 t = iblk0 V a c 0 t := by dsimp only [dat0]; try rfl
theorem after0_1 (c : Dev nD) (t : Fin (cfg0 a).N) : (dat0 V a c).after 1 t = iblk0 V a c 1 t := by dsimp only [dat0]; try rfl
theorem after0_2 (c : Dev nD) (t : Fin (cfg0 a).N) : (dat0 V a c).after 2 t = iblk0 V a c 2 t := by dsimp only [dat0]; try rfl
theorem after0_3 (c : Dev nD) (t : Fin (cfg0 a).N) : (dat0 V a c).after 3 t = iblk0 V a c 3 t := by dsimp only [dat0]; try rfl
theorem after0_4 (c : Dev nD) (t : Fin (cfg0 a).N) :
    (dat0 V a c).after 4 t = out0 (iblk0 V a c 0 t) (iblk0 V a c 1 t) (iblk0 V a c 2 t) (iblk0 V a c 3 t) := by dsimp only [dat0]; try rfl

/-- An input window's current staging buffer holds its block at every point, fetched there or not: unfetched, the
    block index has not moved. -/
theorem before0_0 (c : Dev nD) (t : Fin (cfg0 a).N) (d) : (dat0 V a c).before 0 t d = iblk0 V a c 0 t :=
  ((dat0 V a c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin (cfg0 a).N) (d) : (dat0 V a c).before 1 t d = iblk0 V a c 1 t :=
  ((dat0 V a c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin (cfg0 a).N) (d) : (dat0 V a c).before 2 t d = iblk0 V a c 2 t :=
  ((dat0 V a c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin (cfg0 a).N) (d) : (dat0 V a c).before 3 t d = iblk0 V a c 3 t :=
  ((dat0 V a c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-- What the body is called with at point `t`, the windows one by one, -/
def bodyPre0 (c : Dev nD) (t : Fin (cfg0 a).N) : sProp 𝕄 :=
  iprop((dat0 V a c).Φ t.castSucc ∗ (dat0 V a c).owesAt () t.castSucc
    ∗ (∃ d, owns (c : Thread nD τ) (st0_0 a t) fullShare ((dat0 V a c).before 0 t d))
    ∗ (∃ d, owns (c : Thread nD τ) (st0_1 a t) fullShare ((dat0 V a c).before 1 t d))
    ∗ (∃ d, owns (c : Thread nD τ) (st0_2 a t) fullShare ((dat0 V a c).before 2 t d))
    ∗ (∃ d, owns (c : Thread nD τ) (st0_3 a t) fullShare ((dat0 V a c).before 3 t d))
    ∗ (∃ d, owns (c : Thread nD τ) (st0_4 a t) fullShare ((dat0 V a c).before 4 t d)))

/-- and what it returns. -/
def bodyPost0 (c : Dev nD) (t : Fin (cfg0 a).N) : sProp 𝕄 :=
  iprop((dat0 V a c).Φ t.succ ∗ (dat0 V a c).owesAt () t.succ
    ∗ owns (c : Thread nD τ) (st0_0 a t) fullShare ((dat0 V a c).after 0 t)
    ∗ owns (c : Thread nD τ) (st0_1 a t) fullShare ((dat0 V a c).after 1 t)
    ∗ owns (c : Thread nD τ) (st0_2 a t) fullShare ((dat0 V a c).after 2 t)
    ∗ owns (c : Thread nD τ) (st0_3 a t) fullShare ((dat0 V a c).after 3 t)
    ∗ owns (c : Thread nD τ) (st0_4 a t) fullShare ((dat0 V a c).after 4 t))

/-- The body at any point: the inputs' buffers hold their blocks, so the body's triple applies; the invariant and the
    core's dues pass through unread. -/
theorem sound_body0 (c : Dev nD) (t : Fin (cfg0 a).N) :
    bodyPre0 V a c t ⊢ wp frame (wpE (defs₀ (F := F)) Variants.none c none) Set.univ (bodyAt0 a t) (fun _ => bodyPost0 V a c t) := by
  unfold bodyPre0 bodyPost0 bodyAt0
  simp only [before0_0, before0_1, before0_2, before0_3]
  rw [show (dat0 V a c).Φ t.succ = (dat0 V a c).Φ t.castSucc from rfl,
    show (dat0 V a c).owesAt () t.succ = (dat0 V a c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ _ _ _ _ (iblk0 V a c 0 t) (iblk0 V a c 1 t) (iblk0 V a c 2 t) (iblk0 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V a c) (defs₀ (F := F)) Variants.none () Set.univ := fun t => by
  rw [bigSep_W0, bigSep_W0]
  exact sound_body0 V a c t

end Cert.Kernel.Hand

end
-- ==== Proof.KBody1.lean ====
/-
  One edge's score as the kernel body computes it, and the body's triple.

  The body reads the two gathered rows (one row of the node features for the edge's source node, one for its
  destination node), the 256 weights and the bias from its staging buffers, and writes the single score
  `(∑ row_s · W[0:128]) + (∑ row_d · W[128:256]) + b` to its one-element output buffer. `out1` is what the output
  buffer holds afterwards as a function of the four input buffers; `sound_kernel1` says the body, run on whole
  staging buffers holding those contents, ends with the inputs as they were and the output at `out1` of them.
-/
import proofs.«405368_j31662498906597_2_alg».proof.Proof.LaunchKernel
import proofs.«405368_j31662498906597_2_alg».proof.Proof.Gen.Kernel.Skeleton
import proofs.«405368_j31662498906597_2_alg».proof.Proof.KBody0
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The output buffer after the body, from the four input buffers (source row, destination row, weights, bias): its
    one store, of the score. -/
def out1 (x0 x1 : Vec F S1x1x128 .f32) (x2 : Vec F S1x256 .f32) (x3 : Vec F S1x1 .f32) : Vec F S1x1x1 .f32 :=
  View.canon [⟨rO, k1_pay1 (View.ld x2 rW0) (View.ld x2 rW1) (View.ld x0 rH) (View.ld x1 rH) (View.ld x3 rB)⟩]

/-- The one store covers the one-element buffer. -/
theorem cover1 (p0 : Vec F S1x1x1 .f32) (y : S1x1x1.Idx) :
    ∃ pc ∈ ([⟨rO, p0⟩] : List (View.Piece (Elt F) S1x1x1 .f32)), y ∈ pc.1.set :=
  View.cover_of_tiled [⟨rO, p0⟩] S1x1x1.size (by rfl) y

set_option maxHeartbeats 1000000 in
/-- The body on whole staging buffers: the inputs at `x0 … x3`, the output at anything; it ends with the inputs as
    they were and the output at `out1` of them. The two index tables are not touched. -/
theorem sound_kernel1 (c : Dev nD) (E : Set ℕ) (i : grid1.Coords)
    (arg1 : Memref sig .tc .smem S62500 .i32) (harg1 : arg1.IsWhole) (arg2 : Memref sig .tc .smem S62500 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x256 .f32) (harg5 : arg5.IsWhole) (arg6 : Memref sig .tc .vmem S1x1 .f32) (harg6 : arg6.IsWhole)
    (arg7 : Memref sig .tc .vmem S1x1x1 .f32) (harg7 : arg7.IsWhole)
    (x0 x1 : Vec F S1x1x128 .f32) (x2 : Vec F S1x256 .f32) (x3 : Vec F S1x1 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ (∃ d, owns (c : Thread nD τ) arg7 fullShare d)
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare (out1 x0 x1 x2 x3)) -∗ K ⟨⟩))
      ⊢ wp frame (wpE (defs₀ (F := F)) Variants.none c none) E
          (cc1__gather_score_kernel i arg1 harg1 arg2 harg2 arg3 harg3 arg4 harg4 arg5 harg5 arg6 harg6 arg7 harg7) K := by
  -- the printed body is its skeleton of six loads and one store over the payload
  simp only [cc1__gather_score_kernel_eq_skeleton]; unfold cc1__gather_score_kernel_skel
  -- each input's ownership is some contents with the given read; the output's is any contents
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  -- the loads leave every buffer as it was (the value loaded from the output buffer is not used); the store
  -- overwrites the output buffer's one cell with the payload of the five input loads
  sl_exec
  sl_step
  iapply Hk
  -- the four inputs come back at the contents they had
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  -- the output: old contents overwritten by one store that covers the buffer read back as that store alone
  iexists _; isplitr
  swap; · iexact H4
  ipureintro
  exact View.read_writes_eq_canon _ _ _ (cover1 _)

end Cert.Kernel.Hand

end
-- ==== Proof.KDat1.lean ====
/-
  Region 1 of the edge scorer: the pipeline's proof data and the body obligation.

  The region has 62500 grid points, one per edge of its chunk. At point `t` the pipeline stages five blocks: row
  `src t` of the node features (window 0) and row `dst t` (window 1) — both windows read the ONE feature array,
  their block indices taken from the two prefetched index tables —, the 256 weights (window 2), the bias
  (window 3), and the one-element block `t` of the output (window 4). The body leaves every input block as it
  found it and the output block at the edge's score (`out1` of the four input blocks). The two input windows
  on the shared feature array hold it at the two halves of the full share; the tables ride in the invariant,
  whole, untouched (the body never reads them); nothing is owed to other cores.
-/
import proofs.«405368_j31662498906597_2_alg».proof.Proof.KBody1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffers' contents when the region is entered, per core, and the tables' admissible contents: parameters
variable (V : (c : Dev nD) → (b : Ref sig .tc) → Buf (Elt F) ((c : Thread nD τ).loc b)) (a : (pcfg1 (F := F)).Adm)

/-- Window `w`'s block at point `t`, read off its array as the region finds it. -/
def iblk1 (c : Dev nD) (w : Fin (cfg1 a).W) (t : Fin (cfg1 a).N) :
    (((cfg1 a).win w).xblock ((cfg1 a).grid.coords t)).Idx → Elt F ((cfg1 a).win w).elt :=
  (((cfg1 a).win w).blk t).view.read (Elt F) (V c (Pipeline.arrRef spec1 w))

/-- The current staging memref of each window at point `t`. -/
abbrev st1_0 (t : Fin (cfg1 a).N) := ((cfg1 a).win 0).stage ((cfg1 a).slots t 0)
abbrev st1_1 (t : Fin (cfg1 a).N) := ((cfg1 a).win 1).stage ((cfg1 a).slots t 1)
abbrev st1_2 (t : Fin (cfg1 a).N) := ((cfg1 a).win 2).stage ((cfg1 a).slots t 2)
abbrev st1_3 (t : Fin (cfg1 a).N) := ((cfg1 a).win 3).stage ((cfg1 a).slots t 3)
abbrev st1_4 (t : Fin (cfg1 a).N) := ((cfg1 a).win 4).stage ((cfg1 a).slots t 4)

/-- The kernel body at point `t`, on what the pipeline calls it with. -/
abbrev bodyAt1 (t : Fin (cfg1 a).N) : Prog (TpuEff nD τ sig (Elt F) Λ₀ .tc) PUnit :=
  cc1__gather_score_kernel (grid1.coords t) (Memref.whole main_v6) (Memref.isWhole_whole _) (Memref.whole main_v7) (Memref.isWhole_whole _)
    (spec1_0.stage ((cfg1 a).slots t 0)) (hstage1_0 (((cfg1 a).slots t 0).cast nbuf1_0))
    (spec1_1.stage ((cfg1 a).slots t 1)) (hstage1_1 (((cfg1 a).slots t 1).cast nbuf1_1))
    (spec1_2.stage ((cfg1 a).slots t 2)) (hstage1_2 (((cfg1 a).slots t 2).cast nbuf1_2))
    (spec1_3.stage ((cfg1 a).slots t 3)) (hstage1_3 (((cfg1 a).slots t 3).cast nbuf1_3))
    (spec1_4.stage ((cfg1 a).slots t 4)) (hstage1_4 (((cfg1 a).slots t 4).cast nbuf1_4))

/-- The proof data of pipeline 1 on core `c`. -/
def dat1 (c : Dev nD) : Dat τ (Elt F) Unit ℕ (UR sig nD τ) ℕ (cfg1 a) c where
  A w := V c (Pipeline.arrRef spec1 w)
  after w t := match w with
    | ⟨0, _⟩ => iblk1 V a c 0 t
    | ⟨1, _⟩ => iblk1 V a c 1 t
    | ⟨2, _⟩ => iblk1 V a c 2 t
    | ⟨3, _⟩ => iblk1 V a c 3 t
    | ⟨4, _⟩ => out1 (iblk1 V a c 0 t) (iblk1 V a c 1 t) (iblk1 V a c 2 t) (iblk1 V a c 3 t)
  Φ _ := iprop(Pipeline.ΦA spec1 c ∗ Pipeline.prefHeld (Ix := Unit) (Name := ℕ) (U := UR sig nD τ) (Lvl := ℕ) pre1 c (fun _ => fullShare) a.1)
  q w := match w with
    | ⟨0, _⟩ => fullShare.left
    | ⟨1, _⟩ => fullShare.right
    | _ => fullShare
  owed _ := 0

theorem A_eq1 (c : Dev nD) (w : Fin (cfg1 a).W) : (dat1 V a c).A w = V c (Pipeline.arrRef spec1 w) := by
  dsimp only [dat1]

theorem after1_0 (c : Dev nD) (t : Fin (cfg1 a).N) : (dat1 V a c).after 0 t = iblk1 V a c 0 t := by dsimp only [dat1]; try rfl
theorem after1_1 (c : Dev nD) (t : Fin (cfg1 a).N) : (dat1 V a c).after 1 t = iblk1 V a c 1 t := by dsimp only [dat1]; try rfl
theorem after1_2 (c : Dev nD) (t : Fin (cfg1 a).N) : (dat1 V a c).after 2 t = iblk1 V a c 2 t := by dsimp only [dat1]; try rfl
theorem after1_3 (c : Dev nD) (t : Fin (cfg1 a).N) : (dat1 V a c).after 3 t = iblk1 V a c 3 t := by dsimp only [dat1]; try rfl
theorem after1_4 (c : Dev nD) (t : Fin (cfg1 a).N) :
    (dat1 V a c).after 4 t = out1 (iblk1 V a c 0 t) (iblk1 V a c 1 t) (iblk1 V a c 2 t) (iblk1 V a c 3 t) := by dsimp only [dat1]; try rfl

/-- An input window's current staging buffer holds its block at every point, fetched there or not: unfetched, the
    block index has not moved. -/
theorem before1_0 (c : Dev nD) (t : Fin (cfg1 a).N) (d) : (dat1 V a c).before 0 t d = iblk1 V a c 0 t :=
  ((dat1 V a c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin (cfg1 a).N) (d) : (dat1 V a c).before 1 t d = iblk1 V a c 1 t :=
  ((dat1 V a c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin (cfg1 a).N) (d) : (dat1 V a c).before 2 t d = iblk1 V a c 2 t :=
  ((dat1 V a c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin (cfg1 a).N) (d) : (dat1 V a c).before 3 t d = iblk1 V a c 3 t :=
  ((dat1 V a c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- What the body is called with at point `t`, the windows one by one, -/
def bodyPre1 (c : Dev nD) (t : Fin (cfg1 a).N) : sProp 𝕄 :=
  iprop((dat1 V a c).Φ t.castSucc ∗ (dat1 V a c).owesAt () t.castSucc
    ∗ (∃ d, owns (c : Thread nD τ) (st1_0 a t) fullShare ((dat1 V a c).before 0 t d))
    ∗ (∃ d, owns (c : Thread nD τ) (st1_1 a t) fullShare ((dat1 V a c).before 1 t d))
    ∗ (∃ d, owns (c : Thread nD τ) (st1_2 a t) fullShare ((dat1 V a c).before 2 t d))
    ∗ (∃ d, owns (c : Thread nD τ) (st1_3 a t) fullShare ((dat1 V a c).before 3 t d))
    ∗ (∃ d, owns (c : Thread nD τ) (st1_4 a t) fullShare ((dat1 V a c).before 4 t d)))

/-- and what it returns. -/
def bodyPost1 (c : Dev nD) (t : Fin (cfg1 a).N) : sProp 𝕄 :=
  iprop((dat1 V a c).Φ t.succ ∗ (dat1 V a c).owesAt () t.succ
    ∗ owns (c : Thread nD τ) (st1_0 a t) fullShare ((dat1 V a c).after 0 t)
    ∗ owns (c : Thread nD τ) (st1_1 a t) fullShare ((dat1 V a c).after 1 t)
    ∗ owns (c : Thread nD τ) (st1_2 a t) fullShare ((dat1 V a c).after 2 t)
    ∗ owns (c : Thread nD τ) (st1_3 a t) fullShare ((dat1 V a c).after 3 t)
    ∗ owns (c : Thread nD τ) (st1_4 a t) fullShare ((dat1 V a c).after 4 t))

/-- The body at any point: the inputs' buffers hold their blocks, so the body's triple applies; the invariant and the
    core's dues pass through unread. -/
theorem sound_body1 (c : Dev nD) (t : Fin (cfg1 a).N) :
    bodyPre1 V a c t ⊢ wp frame (wpE (defs₀ (F := F)) Variants.none c none) Set.univ (bodyAt1 a t) (fun _ => bodyPost1 V a c t) := by
  unfold bodyPre1 bodyPost1 bodyAt1
  simp only [before1_0, before1_1, before1_2, before1_3]
  rw [show (dat1 V a c).Φ t.succ = (dat1 V a c).Φ t.castSucc from rfl,
    show (dat1 V a c).owesAt () t.succ = (dat1 V a c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ _ _ _ _ (iblk1 V a c 0 t) (iblk1 V a c 1 t) (iblk1 V a c 2 t) (iblk1 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V a c) (defs₀ (F := F)) Variants.none () Set.univ := fun t => by
  rw [bigSep_W1, bigSep_W1]
  exact sound_body1 V a c t

end Cert.Kernel.Hand

end
-- ==== Proof.KBody2.lean ====
/-
  One edge's score as the kernel body computes it, and the body's triple.

  The body reads the two gathered rows (one row of the node features for the edge's source node, one for its
  destination node), the 256 weights and the bias from its staging buffers, and writes the single score
  `(∑ row_s · W[0:128]) + (∑ row_d · W[128:256]) + b` to its one-element output buffer. `out2` is what the output
  buffer holds afterwards as a function of the four input buffers; `sound_kernel2` says the body, run on whole
  staging buffers holding those contents, ends with the inputs as they were and the output at `out2` of them.
-/
import proofs.«405368_j31662498906597_2_alg».proof.Proof.LaunchKernel
import proofs.«405368_j31662498906597_2_alg».proof.Proof.Gen.Kernel.Skeleton
import proofs.«405368_j31662498906597_2_alg».proof.Proof.KBody0
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The output buffer after the body, from the four input buffers (source row, destination row, weights, bias): its
    one store, of the score. -/
def out2 (x0 x1 : Vec F S1x1x128 .f32) (x2 : Vec F S1x256 .f32) (x3 : Vec F S1x1 .f32) : Vec F S1x1x1 .f32 :=
  View.canon [⟨rO, k2_pay1 (View.ld x2 rW0) (View.ld x2 rW1) (View.ld x0 rH) (View.ld x1 rH) (View.ld x3 rB)⟩]

/-- The one store covers the one-element buffer. -/
theorem cover2 (p0 : Vec F S1x1x1 .f32) (y : S1x1x1.Idx) :
    ∃ pc ∈ ([⟨rO, p0⟩] : List (View.Piece (Elt F) S1x1x1 .f32)), y ∈ pc.1.set :=
  View.cover_of_tiled [⟨rO, p0⟩] S1x1x1.size (by rfl) y

set_option maxHeartbeats 1000000 in
/-- The body on whole staging buffers: the inputs at `x0 … x3`, the output at anything; it ends with the inputs as
    they were and the output at `out2` of them. The two index tables are not touched. -/
theorem sound_kernel2 (c : Dev nD) (E : Set ℕ) (i : grid2.Coords)
    (arg1 : Memref sig .tc .smem S62500 .i32) (harg1 : arg1.IsWhole) (arg2 : Memref sig .tc .smem S62500 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x256 .f32) (harg5 : arg5.IsWhole) (arg6 : Memref sig .tc .vmem S1x1 .f32) (harg6 : arg6.IsWhole)
    (arg7 : Memref sig .tc .vmem S1x1x1 .f32) (harg7 : arg7.IsWhole)
    (x0 x1 : Vec F S1x1x128 .f32) (x2 : Vec F S1x256 .f32) (x3 : Vec F S1x1 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ (∃ d, owns (c : Thread nD τ) arg7 fullShare d)
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare (out2 x0 x1 x2 x3)) -∗ K ⟨⟩))
      ⊢ wp frame (wpE (defs₀ (F := F)) Variants.none c none) E
          (cc2__gather_score_kernel i arg1 harg1 arg2 harg2 arg3 harg3 arg4 harg4 arg5 harg5 arg6 harg6 arg7 harg7) K := by
  -- the printed body is its skeleton of six loads and one store over the payload
  simp only [cc2__gather_score_kernel_eq_skeleton]; unfold cc2__gather_score_kernel_skel
  -- each input's ownership is some contents with the given read; the output's is any contents
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  -- the loads leave every buffer as it was (the value loaded from the output buffer is not used); the store
  -- overwrites the output buffer's one cell with the payload of the five input loads
  sl_exec
  sl_step
  iapply Hk
  -- the four inputs come back at the contents they had
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  -- the output: old contents overwritten by one store that covers the buffer read back as that store alone
  iexists _; isplitr
  swap; · iexact H4
  ipureintro
  exact View.read_writes_eq_canon _ _ _ (cover2 _)

end Cert.Kernel.Hand

end
-- ==== Proof.KDat2.lean ====
/-
  Region 2 of the edge scorer: the pipeline's proof data and the body obligation.

  The region has 62500 grid points, one per edge of its chunk. At point `t` the pipeline stages five blocks: row
  `src t` of the node features (window 0) and row `dst t` (window 1) — both windows read the ONE feature array,
  their block indices taken from the two prefetched index tables —, the 256 weights (window 2), the bias
  (window 3), and the one-element block `t` of the output (window 4). The body leaves every input block as it
  found it and the output block at the edge's score (`out2` of the four input blocks). The two input windows
  on the shared feature array hold it at the two halves of the full share; the tables ride in the invariant,
  whole, untouched (the body never reads them); nothing is owed to other cores.
-/
import proofs.«405368_j31662498906597_2_alg».proof.Proof.KBody2

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffers' contents when the region is entered, per core, and the tables' admissible contents: parameters
variable (V : (c : Dev nD) → (b : Ref sig .tc) → Buf (Elt F) ((c : Thread nD τ).loc b)) (a : (pcfg2 (F := F)).Adm)

/-- Window `w`'s block at point `t`, read off its array as the region finds it. -/
def iblk2 (c : Dev nD) (w : Fin (cfg2 a).W) (t : Fin (cfg2 a).N) :
    (((cfg2 a).win w).xblock ((cfg2 a).grid.coords t)).Idx → Elt F ((cfg2 a).win w).elt :=
  (((cfg2 a).win w).blk t).view.read (Elt F) (V c (Pipeline.arrRef spec2 w))

/-- The current staging memref of each window at point `t`. -/
abbrev st2_0 (t : Fin (cfg2 a).N) := ((cfg2 a).win 0).stage ((cfg2 a).slots t 0)
abbrev st2_1 (t : Fin (cfg2 a).N) := ((cfg2 a).win 1).stage ((cfg2 a).slots t 1)
abbrev st2_2 (t : Fin (cfg2 a).N) := ((cfg2 a).win 2).stage ((cfg2 a).slots t 2)
abbrev st2_3 (t : Fin (cfg2 a).N) := ((cfg2 a).win 3).stage ((cfg2 a).slots t 3)
abbrev st2_4 (t : Fin (cfg2 a).N) := ((cfg2 a).win 4).stage ((cfg2 a).slots t 4)

/-- The kernel body at point `t`, on what the pipeline calls it with. -/
abbrev bodyAt2 (t : Fin (cfg2 a).N) : Prog (TpuEff nD τ sig (Elt F) Λ₀ .tc) PUnit :=
  cc2__gather_score_kernel (grid2.coords t) (Memref.whole main_v10) (Memref.isWhole_whole _) (Memref.whole main_v11) (Memref.isWhole_whole _)
    (spec2_0.stage ((cfg2 a).slots t 0)) (hstage2_0 (((cfg2 a).slots t 0).cast nbuf2_0))
    (spec2_1.stage ((cfg2 a).slots t 1)) (hstage2_1 (((cfg2 a).slots t 1).cast nbuf2_1))
    (spec2_2.stage ((cfg2 a).slots t 2)) (hstage2_2 (((cfg2 a).slots t 2).cast nbuf2_2))
    (spec2_3.stage ((cfg2 a).slots t 3)) (hstage2_3 (((cfg2 a).slots t 3).cast nbuf2_3))
    (spec2_4.stage ((cfg2 a).slots t 4)) (hstage2_4 (((cfg2 a).slots t 4).cast nbuf2_4))

/-- The proof data of pipeline 2 on core `c`. -/
def dat2 (c : Dev nD) : Dat τ (Elt F) Unit ℕ (UR sig nD τ) ℕ (cfg2 a) c where
  A w := V c (Pipeline.arrRef spec2 w)
  after w t := match w with
    | ⟨0, _⟩ => iblk2 V a c 0 t
    | ⟨1, _⟩ => iblk2 V a c 1 t
    | ⟨2, _⟩ => iblk2 V a c 2 t
    | ⟨3, _⟩ => iblk2 V a c 3 t
    | ⟨4, _⟩ => out2 (iblk2 V a c 0 t) (iblk2 V a c 1 t) (iblk2 V a c 2 t) (iblk2 V a c 3 t)
  Φ _ := iprop(Pipeline.ΦA spec2 c ∗ Pipeline.prefHeld (Ix := Unit) (Name := ℕ) (U := UR sig nD τ) (Lvl := ℕ) pre2 c (fun _ => fullShare) a.1)
  q w := match w with
    | ⟨0, _⟩ => fullShare.left
    | ⟨1, _⟩ => fullShare.right
    | _ => fullShare
  owed _ := 0

theorem A_eq2 (c : Dev nD) (w : Fin (cfg2 a).W) : (dat2 V a c).A w = V c (Pipeline.arrRef spec2 w) := by
  dsimp only [dat2]

theorem after2_0 (c : Dev nD) (t : Fin (cfg2 a).N) : (dat2 V a c).after 0 t = iblk2 V a c 0 t := by dsimp only [dat2]; try rfl
theorem after2_1 (c : Dev nD) (t : Fin (cfg2 a).N) : (dat2 V a c).after 1 t = iblk2 V a c 1 t := by dsimp only [dat2]; try rfl
theorem after2_2 (c : Dev nD) (t : Fin (cfg2 a).N) : (dat2 V a c).after 2 t = iblk2 V a c 2 t := by dsimp only [dat2]; try rfl
theorem after2_3 (c : Dev nD) (t : Fin (cfg2 a).N) : (dat2 V a c).after 3 t = iblk2 V a c 3 t := by dsimp only [dat2]; try rfl
theorem after2_4 (c : Dev nD) (t : Fin (cfg2 a).N) :
    (dat2 V a c).after 4 t = out2 (iblk2 V a c 0 t) (iblk2 V a c 1 t) (iblk2 V a c 2 t) (iblk2 V a c 3 t) := by dsimp only [dat2]; try rfl

/-- An input window's current staging buffer holds its block at every point, fetched there or not: unfetched, the
    block index has not moved. -/
theorem before2_0 (c : Dev nD) (t : Fin (cfg2 a).N) (d) : (dat2 V a c).before 0 t d = iblk2 V a c 0 t :=
  ((dat2 V a c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin (cfg2 a).N) (d) : (dat2 V a c).before 1 t d = iblk2 V a c 1 t :=
  ((dat2 V a c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin (cfg2 a).N) (d) : (dat2 V a c).before 2 t d = iblk2 V a c 2 t :=
  ((dat2 V a c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin (cfg2 a).N) (d) : (dat2 V a c).before 3 t d = iblk2 V a c 3 t :=
  ((dat2 V a c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)

/-- What the body is called with at point `t`, the windows one by one, -/
def bodyPre2 (c : Dev nD) (t : Fin (cfg2 a).N) : sProp 𝕄 :=
  iprop((dat2 V a c).Φ t.castSucc ∗ (dat2 V a c).owesAt () t.castSucc
    ∗ (∃ d, owns (c : Thread nD τ) (st2_0 a t) fullShare ((dat2 V a c).before 0 t d))
    ∗ (∃ d, owns (c : Thread nD τ) (st2_1 a t) fullShare ((dat2 V a c).before 1 t d))
    ∗ (∃ d, owns (c : Thread nD τ) (st2_2 a t) fullShare ((dat2 V a c).before 2 t d))
    ∗ (∃ d, owns (c : Thread nD τ) (st2_3 a t) fullShare ((dat2 V a c).before 3 t d))
    ∗ (∃ d, owns (c : Thread nD τ) (st2_4 a t) fullShare ((dat2 V a c).before 4 t d)))

/-- and what it returns. -/
def bodyPost2 (c : Dev nD) (t : Fin (cfg2 a).N) : sProp 𝕄 :=
  iprop((dat2 V a c).Φ t.succ ∗ (dat2 V a c).owesAt () t.succ
    ∗ owns (c : Thread nD τ) (st2_0 a t) fullShare ((dat2 V a c).after 0 t)
    ∗ owns (c : Thread nD τ) (st2_1 a t) fullShare ((dat2 V a c).after 1 t)
    ∗ owns (c : Thread nD τ) (st2_2 a t) fullShare ((dat2 V a c).after 2 t)
    ∗ owns (c : Thread nD τ) (st2_3 a t) fullShare ((dat2 V a c).after 3 t)
    ∗ owns (c : Thread nD τ) (st2_4 a t) fullShare ((dat2 V a c).after 4 t))

/-- The body at any point: the inputs' buffers hold their blocks, so the body's triple applies; the invariant and the
    core's dues pass through unread. -/
theorem sound_body2 (c : Dev nD) (t : Fin (cfg2 a).N) :
    bodyPre2 V a c t ⊢ wp frame (wpE (defs₀ (F := F)) Variants.none c none) Set.univ (bodyAt2 a t) (fun _ => bodyPost2 V a c t) := by
  unfold bodyPre2 bodyPost2 bodyAt2
  simp only [before2_0, before2_1, before2_2, before2_3]
  rw [show (dat2 V a c).Φ t.succ = (dat2 V a c).Φ t.castSucc from rfl,
    show (dat2 V a c).owesAt () t.succ = (dat2 V a c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ _ _ _ _ (iblk2 V a c 0 t) (iblk2 V a c 1 t) (iblk2 V a c 2 t) (iblk2 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V a c) (defs₀ (F := F)) Variants.none () Set.univ := fun t => by
  rw [bigSep_W2, bigSep_W2]
  exact sound_body2 V a c t

end Cert.Kernel.Hand

end
-- ==== Proof.KBody3.lean ====
/-
  One edge's score as the kernel body computes it, and the body's triple.

  The body reads the two gathered rows (one row of the node features for the edge's source node, one for its
  destination node), the 256 weights and the bias from its staging buffers, and writes the single score
  `(∑ row_s · W[0:128]) + (∑ row_d · W[128:256]) + b` to its one-element output buffer. `out3` is what the output
  buffer holds afterwards as a function of the four input buffers; `sound_kernel3` says the body, run on whole
  staging buffers holding those contents, ends with the inputs as they were and the output at `out3` of them.
-/
import proofs.«405368_j31662498906597_2_alg».proof.Proof.LaunchKernel
import proofs.«405368_j31662498906597_2_alg».proof.Proof.Gen.Kernel.Skeleton
import proofs.«405368_j31662498906597_2_alg».proof.Proof.KBody0
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The output buffer after the body, from the four input buffers (source row, destination row, weights, bias): its
    one store, of the score. -/
def out3 (x0 x1 : Vec F S1x1x128 .f32) (x2 : Vec F S1x256 .f32) (x3 : Vec F S1x1 .f32) : Vec F S1x1x1 .f32 :=
  View.canon [⟨rO, k3_pay1 (View.ld x2 rW0) (View.ld x2 rW1) (View.ld x0 rH) (View.ld x1 rH) (View.ld x3 rB)⟩]

/-- The one store covers the one-element buffer. -/
theorem cover3 (p0 : Vec F S1x1x1 .f32) (y : S1x1x1.Idx) :
    ∃ pc ∈ ([⟨rO, p0⟩] : List (View.Piece (Elt F) S1x1x1 .f32)), y ∈ pc.1.set :=
  View.cover_of_tiled [⟨rO, p0⟩] S1x1x1.size (by rfl) y

set_option maxHeartbeats 1000000 in
/-- The body on whole staging buffers: the inputs at `x0 … x3`, the output at anything; it ends with the inputs as
    they were and the output at `out3` of them. The two index tables are not touched. -/
theorem sound_kernel3 (c : Dev nD) (E : Set ℕ) (i : grid3.Coords)
    (arg1 : Memref sig .tc .smem S62500 .i32) (harg1 : arg1.IsWhole) (arg2 : Memref sig .tc .smem S62500 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x256 .f32) (harg5 : arg5.IsWhole) (arg6 : Memref sig .tc .vmem S1x1 .f32) (harg6 : arg6.IsWhole)
    (arg7 : Memref sig .tc .vmem S1x1x1 .f32) (harg7 : arg7.IsWhole)
    (x0 x1 : Vec F S1x1x128 .f32) (x2 : Vec F S1x256 .f32) (x3 : Vec F S1x1 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ (∃ d, owns (c : Thread nD τ) arg7 fullShare d)
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare (out3 x0 x1 x2 x3)) -∗ K ⟨⟩))
      ⊢ wp frame (wpE (defs₀ (F := F)) Variants.none c none) E
          (cc3__gather_score_kernel i arg1 harg1 arg2 harg2 arg3 harg3 arg4 harg4 arg5 harg5 arg6 harg6 arg7 harg7) K := by
  -- the printed body is its skeleton of six loads and one store over the payload
  simp only [cc3__gather_score_kernel_eq_skeleton]; unfold cc3__gather_score_kernel_skel
  -- each input's ownership is some contents with the given read; the output's is any contents
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  -- the loads leave every buffer as it was (the value loaded from the output buffer is not used); the store
  -- overwrites the output buffer's one cell with the payload of the five input loads
  sl_exec
  sl_step
  iapply Hk
  -- the four inputs come back at the contents they had
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  -- the output: old contents overwritten by one store that covers the buffer read back as that store alone
  iexists _; isplitr
  swap; · iexact H4
  ipureintro
  exact View.read_writes_eq_canon _ _ _ (cover3 _)

end Cert.Kernel.Hand

end
-- ==== Proof.KDat3.lean ====
/-
  Region 3 of the edge scorer: the pipeline's proof data and the body obligation.

  The region has 62500 grid points, one per edge of its chunk. At point `t` the pipeline stages five blocks: row
  `src t` of the node features (window 0) and row `dst t` (window 1) — both windows read the ONE feature array,
  their block indices taken from the two prefetched index tables —, the 256 weights (window 2), the bias
  (window 3), and the one-element block `t` of the output (window 4). The body leaves every input block as it
  found it and the output block at the edge's score (`out3` of the four input blocks). The two input windows
  on the shared feature array hold it at the two halves of the full share; the tables ride in the invariant,
  whole, untouched (the body never reads them); nothing is owed to other cores.
-/
import proofs.«405368_j31662498906597_2_alg».proof.Proof.KBody3

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffers' contents when the region is entered, per core, and the tables' admissible contents: parameters
variable (V : (c : Dev nD) → (b : Ref sig .tc) → Buf (Elt F) ((c : Thread nD τ).loc b)) (a : (pcfg3 (F := F)).Adm)

/-- Window `w`'s block at point `t`, read off its array as the region finds it. -/
def iblk3 (c : Dev nD) (w : Fin (cfg3 a).W) (t : Fin (cfg3 a).N) :
    (((cfg3 a).win w).xblock ((cfg3 a).grid.coords t)).Idx → Elt F ((cfg3 a).win w).elt :=
  (((cfg3 a).win w).blk t).view.read (Elt F) (V c (Pipeline.arrRef spec3 w))

/-- The current staging memref of each window at point `t`. -/
abbrev st3_0 (t : Fin (cfg3 a).N) := ((cfg3 a).win 0).stage ((cfg3 a).slots t 0)
abbrev st3_1 (t : Fin (cfg3 a).N) := ((cfg3 a).win 1).stage ((cfg3 a).slots t 1)
abbrev st3_2 (t : Fin (cfg3 a).N) := ((cfg3 a).win 2).stage ((cfg3 a).slots t 2)
abbrev st3_3 (t : Fin (cfg3 a).N) := ((cfg3 a).win 3).stage ((cfg3 a).slots t 3)
abbrev st3_4 (t : Fin (cfg3 a).N) := ((cfg3 a).win 4).stage ((cfg3 a).slots t 4)

/-- The kernel body at point `t`, on what the pipeline calls it with. -/
abbrev bodyAt3 (t : Fin (cfg3 a).N) : Prog (TpuEff nD τ sig (Elt F) Λ₀ .tc) PUnit :=
  cc3__gather_score_kernel (grid3.coords t) (Memref.whole main_v14) (Memref.isWhole_whole _) (Memref.whole main_v15) (Memref.isWhole_whole _)
    (spec3_0.stage ((cfg3 a).slots t 0)) (hstage3_0 (((cfg3 a).slots t 0).cast nbuf3_0))
    (spec3_1.stage ((cfg3 a).slots t 1)) (hstage3_1 (((cfg3 a).slots t 1).cast nbuf3_1))
    (spec3_2.stage ((cfg3 a).slots t 2)) (hstage3_2 (((cfg3 a).slots t 2).cast nbuf3_2))
    (spec3_3.stage ((cfg3 a).slots t 3)) (hstage3_3 (((cfg3 a).slots t 3).cast nbuf3_3))
    (spec3_4.stage ((cfg3 a).slots t 4)) (hstage3_4 (((cfg3 a).slots t 4).cast nbuf3_4))

/-- The proof data of pipeline 3 on core `c`. -/
def dat3 (c : Dev nD) : Dat τ (Elt F) Unit ℕ (UR sig nD τ) ℕ (cfg3 a) c where
  A w := V c (Pipeline.arrRef spec3 w)
  after w t := match w with
    | ⟨0, _⟩ => iblk3 V a c 0 t
    | ⟨1, _⟩ => iblk3 V a c 1 t
    | ⟨2, _⟩ => iblk3 V a c 2 t
    | ⟨3, _⟩ => iblk3 V a c 3 t
    | ⟨4, _⟩ => out3 (iblk3 V a c 0 t) (iblk3 V a c 1 t) (iblk3 V a c 2 t) (iblk3 V a c 3 t)
  Φ _ := iprop(Pipeline.ΦA spec3 c ∗ Pipeline.prefHeld (Ix := Unit) (Name := ℕ) (U := UR sig nD τ) (Lvl := ℕ) pre3 c (fun _ => fullShare) a.1)
  q w := match w with
    | ⟨0, _⟩ => fullShare.left
    | ⟨1, _⟩ => fullShare.right
    | _ => fullShare
  owed _ := 0

theorem A_eq3 (c : Dev nD) (w : Fin (cfg3 a).W) : (dat3 V a c).A w = V c (Pipeline.arrRef spec3 w) := by
  dsimp only [dat3]

theorem after3_0 (c : Dev nD) (t : Fin (cfg3 a).N) : (dat3 V a c).after 0 t = iblk3 V a c 0 t := by dsimp only [dat3]; try rfl
theorem after3_1 (c : Dev nD) (t : Fin (cfg3 a).N) : (dat3 V a c).after 1 t = iblk3 V a c 1 t := by dsimp only [dat3]; try rfl
theorem after3_2 (c : Dev nD) (t : Fin (cfg3 a).N) : (dat3 V a c).after 2 t = iblk3 V a c 2 t := by dsimp only [dat3]; try rfl
theorem after3_3 (c : Dev nD) (t : Fin (cfg3 a).N) : (dat3 V a c).after 3 t = iblk3 V a c 3 t := by dsimp only [dat3]; try rfl
theorem after3_4 (c : Dev nD) (t : Fin (cfg3 a).N) :
    (dat3 V a c).after 4 t = out3 (iblk3 V a c 0 t) (iblk3 V a c 1 t) (iblk3 V a c 2 t) (iblk3 V a c 3 t) := by dsimp only [dat3]; try rfl

/-- An input window's current staging buffer holds its block at every point, fetched there or not: unfetched, the
    block index has not moved. -/
theorem before3_0 (c : Dev nD) (t : Fin (cfg3 a).N) (d) : (dat3 V a c).before 0 t d = iblk3 V a c 0 t :=
  ((dat3 V a c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)
theorem before3_1 (c : Dev nD) (t : Fin (cfg3 a).N) (d) : (dat3 V a c).before 1 t d = iblk3 V a c 1 t :=
  ((dat3 V a c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)
theorem before3_2 (c : Dev nD) (t : Fin (cfg3 a).N) (d) : (dat3 V a c).before 2 t d = iblk3 V a c 2 t :=
  ((dat3 V a c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)
theorem before3_3 (c : Dev nD) (t : Fin (cfg3 a).N) (d) : (dat3 V a c).before 3 t d = iblk3 V a c 3 t :=
  ((dat3 V a c).before_in_eq_fetched 3 rfl (fun _ => rfl) (fun _ _ _ => rfl)
    (fun t => by rw [after3_3]; unfold Dat.blockOf iblk3; rw [A_eq3]; try rfl) t d).trans
    (by unfold Dat.fetched Dat.blockOf iblk3; rw [A_eq3]; try rfl)

/-- What the body is called with at point `t`, the windows one by one, -/
def bodyPre3 (c : Dev nD) (t : Fin (cfg3 a).N) : sProp 𝕄 :=
  iprop((dat3 V a c).Φ t.castSucc ∗ (dat3 V a c).owesAt () t.castSucc
    ∗ (∃ d, owns (c : Thread nD τ) (st3_0 a t) fullShare ((dat3 V a c).before 0 t d))
    ∗ (∃ d, owns (c : Thread nD τ) (st3_1 a t) fullShare ((dat3 V a c).before 1 t d))
    ∗ (∃ d, owns (c : Thread nD τ) (st3_2 a t) fullShare ((dat3 V a c).before 2 t d))
    ∗ (∃ d, owns (c : Thread nD τ) (st3_3 a t) fullShare ((dat3 V a c).before 3 t d))
    ∗ (∃ d, owns (c : Thread nD τ) (st3_4 a t) fullShare ((dat3 V a c).before 4 t d)))

/-- and what it returns. -/
def bodyPost3 (c : Dev nD) (t : Fin (cfg3 a).N) : sProp 𝕄 :=
  iprop((dat3 V a c).Φ t.succ ∗ (dat3 V a c).owesAt () t.succ
    ∗ owns (c : Thread nD τ) (st3_0 a t) fullShare ((dat3 V a c).after 0 t)
    ∗ owns (c : Thread nD τ) (st3_1 a t) fullShare ((dat3 V a c).after 1 t)
    ∗ owns (c : Thread nD τ) (st3_2 a t) fullShare ((dat3 V a c).after 2 t)
    ∗ owns (c : Thread nD τ) (st3_3 a t) fullShare ((dat3 V a c).after 3 t)
    ∗ owns (c : Thread nD τ) (st3_4 a t) fullShare ((dat3 V a c).after 4 t))

/-- The body at any point: the inputs' buffers hold their blocks, so the body's triple applies; the invariant and the
    core's dues pass through unread. -/
theorem sound_body3 (c : Dev nD) (t : Fin (cfg3 a).N) :
    bodyPre3 V a c t ⊢ wp frame (wpE (defs₀ (F := F)) Variants.none c none) Set.univ (bodyAt3 a t) (fun _ => bodyPost3 V a c t) := by
  unfold bodyPre3 bodyPost3 bodyAt3
  simp only [before3_0, before3_1, before3_2, before3_3]
  rw [show (dat3 V a c).Φ t.succ = (dat3 V a c).Φ t.castSucc from rfl,
    show (dat3 V a c).owesAt () t.succ = (dat3 V a c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ _ _ _ _ (iblk3 V a c 0 t) (iblk3 V a c 1 t) (iblk3 V a c 2 t) (iblk3 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V a c) (defs₀ (F := F)) Variants.none () Set.univ := fun t => by
  rw [bigSep_W3, bigSep_W3]
  exact sound_body3 V a c t

end Cert.Kernel.Hand

end
-- ==== Proof.KBody4.lean ====
/-
  One edge's score as the kernel body computes it, and the body's triple.

  The body reads the two gathered rows (one row of the node features for the edge's source node, one for its
  destination node), the 256 weights and the bias from its staging buffers, and writes the single score
  `(∑ row_s · W[0:128]) + (∑ row_d · W[128:256]) + b` to its one-element output buffer. `out4` is what the output
  buffer holds afterwards as a function of the four input buffers; `sound_kernel4` says the body, run on whole
  staging buffers holding those contents, ends with the inputs as they were and the output at `out4` of them.
-/
import proofs.«405368_j31662498906597_2_alg».proof.Proof.LaunchKernel
import proofs.«405368_j31662498906597_2_alg».proof.Proof.Gen.Kernel.Skeleton
import proofs.«405368_j31662498906597_2_alg».proof.Proof.KBody0
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The output buffer after the body, from the four input buffers (source row, destination row, weights, bias): its
    one store, of the score. -/
def out4 (x0 x1 : Vec F S1x1x128 .f32) (x2 : Vec F S1x256 .f32) (x3 : Vec F S1x1 .f32) : Vec F S1x1x1 .f32 :=
  View.canon [⟨rO, k4_pay1 (View.ld x2 rW0) (View.ld x2 rW1) (View.ld x0 rH) (View.ld x1 rH) (View.ld x3 rB)⟩]

/-- The one store covers the one-element buffer. -/
theorem cover4 (p0 : Vec F S1x1x1 .f32) (y : S1x1x1.Idx) :
    ∃ pc ∈ ([⟨rO, p0⟩] : List (View.Piece (Elt F) S1x1x1 .f32)), y ∈ pc.1.set :=
  View.cover_of_tiled [⟨rO, p0⟩] S1x1x1.size (by rfl) y

set_option maxHeartbeats 1000000 in
/-- The body on whole staging buffers: the inputs at `x0 … x3`, the output at anything; it ends with the inputs as
    they were and the output at `out4` of them. The two index tables are not touched. -/
theorem sound_kernel4 (c : Dev nD) (E : Set ℕ) (i : grid4.Coords)
    (arg1 : Memref sig .tc .smem S62500 .i32) (harg1 : arg1.IsWhole) (arg2 : Memref sig .tc .smem S62500 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x256 .f32) (harg5 : arg5.IsWhole) (arg6 : Memref sig .tc .vmem S1x1 .f32) (harg6 : arg6.IsWhole)
    (arg7 : Memref sig .tc .vmem S1x1x1 .f32) (harg7 : arg7.IsWhole)
    (x0 x1 : Vec F S1x1x128 .f32) (x2 : Vec F S1x256 .f32) (x3 : Vec F S1x1 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ (∃ d, owns (c : Thread nD τ) arg7 fullShare d)
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare (out4 x0 x1 x2 x3)) -∗ K ⟨⟩))
      ⊢ wp frame (wpE (defs₀ (F := F)) Variants.none c none) E
          (cc4__gather_score_kernel i arg1 harg1 arg2 harg2 arg3 harg3 arg4 harg4 arg5 harg5 arg6 harg6 arg7 harg7) K := by
  -- the printed body is its skeleton of six loads and one store over the payload
  simp only [cc4__gather_score_kernel_eq_skeleton]; unfold cc4__gather_score_kernel_skel
  -- each input's ownership is some contents with the given read; the output's is any contents
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  -- the loads leave every buffer as it was (the value loaded from the output buffer is not used); the store
  -- overwrites the output buffer's one cell with the payload of the five input loads
  sl_exec
  sl_step
  iapply Hk
  -- the four inputs come back at the contents they had
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  -- the output: old contents overwritten by one store that covers the buffer read back as that store alone
  iexists _; isplitr
  swap; · iexact H4
  ipureintro
  exact View.read_writes_eq_canon _ _ _ (cover4 _)

end Cert.Kernel.Hand

end
-- ==== Proof.KDat4.lean ====
/-
  Region 4 of the edge scorer: the pipeline's proof data and the body obligation.

  The region has 62500 grid points, one per edge of its chunk. At point `t` the pipeline stages five blocks: row
  `src t` of the node features (window 0) and row `dst t` (window 1) — both windows read the ONE feature array,
  their block indices taken from the two prefetched index tables —, the 256 weights (window 2), the bias
  (window 3), and the one-element block `t` of the output (window 4). The body leaves every input block as it
  found it and the output block at the edge's score (`out4` of the four input blocks). The two input windows
  on the shared feature array hold it at the two halves of the full share; the tables ride in the invariant,
  whole, untouched (the body never reads them); nothing is owed to other cores.
-/
import proofs.«405368_j31662498906597_2_alg».proof.Proof.KBody4

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffers' contents when the region is entered, per core, and the tables' admissible contents: parameters
variable (V : (c : Dev nD) → (b : Ref sig .tc) → Buf (Elt F) ((c : Thread nD τ).loc b)) (a : (pcfg4 (F := F)).Adm)

/-- Window `w`'s block at point `t`, read off its array as the region finds it. -/
def iblk4 (c : Dev nD) (w : Fin (cfg4 a).W) (t : Fin (cfg4 a).N) :
    (((cfg4 a).win w).xblock ((cfg4 a).grid.coords t)).Idx → Elt F ((cfg4 a).win w).elt :=
  (((cfg4 a).win w).blk t).view.read (Elt F) (V c (Pipeline.arrRef spec4 w))

/-- The current staging memref of each window at point `t`. -/
abbrev st4_0 (t : Fin (cfg4 a).N) := ((cfg4 a).win 0).stage ((cfg4 a).slots t 0)
abbrev st4_1 (t : Fin (cfg4 a).N) := ((cfg4 a).win 1).stage ((cfg4 a).slots t 1)
abbrev st4_2 (t : Fin (cfg4 a).N) := ((cfg4 a).win 2).stage ((cfg4 a).slots t 2)
abbrev st4_3 (t : Fin (cfg4 a).N) := ((cfg4 a).win 3).stage ((cfg4 a).slots t 3)
abbrev st4_4 (t : Fin (cfg4 a).N) := ((cfg4 a).win 4).stage ((cfg4 a).slots t 4)

/-- The kernel body at point `t`, on what the pipeline calls it with. -/
abbrev bodyAt4 (t : Fin (cfg4 a).N) : Prog (TpuEff nD τ sig (Elt F) Λ₀ .tc) PUnit :=
  cc4__gather_score_kernel (grid4.coords t) (Memref.whole main_v18) (Memref.isWhole_whole _) (Memref.whole main_v19) (Memref.isWhole_whole _)
    (spec4_0.stage ((cfg4 a).slots t 0)) (hstage4_0 (((cfg4 a).slots t 0).cast nbuf4_0))
    (spec4_1.stage ((cfg4 a).slots t 1)) (hstage4_1 (((cfg4 a).slots t 1).cast nbuf4_1))
    (spec4_2.stage ((cfg4 a).slots t 2)) (hstage4_2 (((cfg4 a).slots t 2).cast nbuf4_2))
    (spec4_3.stage ((cfg4 a).slots t 3)) (hstage4_3 (((cfg4 a).slots t 3).cast nbuf4_3))
    (spec4_4.stage ((cfg4 a).slots t 4)) (hstage4_4 (((cfg4 a).slots t 4).cast nbuf4_4))

/-- The proof data of pipeline 4 on core `c`. -/
def dat4 (c : Dev nD) : Dat τ (Elt F) Unit ℕ (UR sig nD τ) ℕ (cfg4 a) c where
  A w := V c (Pipeline.arrRef spec4 w)
  after w t := match w with
    | ⟨0, _⟩ => iblk4 V a c 0 t
    | ⟨1, _⟩ => iblk4 V a c 1 t
    | ⟨2, _⟩ => iblk4 V a c 2 t
    | ⟨3, _⟩ => iblk4 V a c 3 t
    | ⟨4, _⟩ => out4 (iblk4 V a c 0 t) (iblk4 V a c 1 t) (iblk4 V a c 2 t) (iblk4 V a c 3 t)
  Φ _ := iprop(Pipeline.ΦA spec4 c ∗ Pipeline.prefHeld (Ix := Unit) (Name := ℕ) (U := UR sig nD τ) (Lvl := ℕ) pre4 c (fun _ => fullShare) a.1)
  q w := match w with
    | ⟨0, _⟩ => fullShare.left
    | ⟨1, _⟩ => fullShare.right
    | _ => fullShare
  owed _ := 0

theorem A_eq4 (c : Dev nD) (w : Fin (cfg4 a).W) : (dat4 V a c).A w = V c (Pipeline.arrRef spec4 w) := by
  dsimp only [dat4]

theorem after4_0 (c : Dev nD) (t : Fin (cfg4 a).N) : (dat4 V a c).after 0 t = iblk4 V a c 0 t := by dsimp only [dat4]; try rfl
theorem after4_1 (c : Dev nD) (t : Fin (cfg4 a).N) : (dat4 V a c).after 1 t = iblk4 V a c 1 t := by dsimp only [dat4]; try rfl
theorem after4_2 (c : Dev nD) (t : Fin (cfg4 a).N) : (dat4 V a c).after 2 t = iblk4 V a c 2 t := by dsimp only [dat4]; try rfl
theorem after4_3 (c : Dev nD) (t : Fin (cfg4 a).N) : (dat4 V a c).after 3 t = iblk4 V a c 3 t := by dsimp only [dat4]; try rfl
theorem after4_4 (c : Dev nD) (t : Fin (cfg4 a).N) :
    (dat4 V a c).after 4 t = out4 (iblk4 V a c 0 t) (iblk4 V a c 1 t) (iblk4 V a c 2 t) (iblk4 V a c 3 t) := by dsimp only [dat4]; try rfl

/-- An input window's current staging buffer holds its block at every point, fetched there or not: unfetched, the
    block index has not moved. -/
theorem before4_0 (c : Dev nD) (t : Fin (cfg4 a).N) (d) : (dat4 V a c).before 0 t d = iblk4 V a c 0 t :=
  ((dat4 V a c).before_in_eq_fetched 0 rfl (fun _ => rfl) (fun _ _ _ => rfl)
    (fun t => by rw [after4_0]; unfold Dat.blockOf iblk4; rw [A_eq4]; try rfl) t d).trans
    (by unfold Dat.fetched Dat.blockOf iblk4; rw [A_eq4]; try rfl)
theorem before4_1 (c : Dev nD) (t : Fin (cfg4 a).N) (d) : (dat4 V a c).before 1 t d = iblk4 V a c 1 t :=
  ((dat4 V a c).before_in_eq_fetched 1 rfl (fun _ => rfl) (fun _ _ _ => rfl)
    (fun t => by rw [after4_1]; unfold Dat.blockOf iblk4; rw [A_eq4]; try rfl) t d).trans
    (by unfold Dat.fetched Dat.blockOf iblk4; rw [A_eq4]; try rfl)
theorem before4_2 (c : Dev nD) (t : Fin (cfg4 a).N) (d) : (dat4 V a c).before 2 t d = iblk4 V a c 2 t :=
  ((dat4 V a c).before_in_eq_fetched 2 rfl (fun _ => rfl) (fun _ _ _ => rfl)
    (fun t => by rw [after4_2]; unfold Dat.blockOf iblk4; rw [A_eq4]; try rfl) t d).trans
    (by unfold Dat.fetched Dat.blockOf iblk4; rw [A_eq4]; try rfl)
theorem before4_3 (c : Dev nD) (t : Fin (cfg4 a).N) (d) : (dat4 V a c).before 3 t d = iblk4 V a c 3 t :=
  ((dat4 V a c).before_in_eq_fetched 3 rfl (fun _ => rfl) (fun _ _ _ => rfl)
    (fun t => by rw [after4_3]; unfold Dat.blockOf iblk4; rw [A_eq4]; try rfl) t d).trans
    (by unfold Dat.fetched Dat.blockOf iblk4; rw [A_eq4]; try rfl)

/-- What the body is called with at point `t`, the windows one by one, -/
def bodyPre4 (c : Dev nD) (t : Fin (cfg4 a).N) : sProp 𝕄 :=
  iprop((dat4 V a c).Φ t.castSucc ∗ (dat4 V a c).owesAt () t.castSucc
    ∗ (∃ d, owns (c : Thread nD τ) (st4_0 a t) fullShare ((dat4 V a c).before 0 t d))
    ∗ (∃ d, owns (c : Thread nD τ) (st4_1 a t) fullShare ((dat4 V a c).before 1 t d))
    ∗ (∃ d, owns (c : Thread nD τ) (st4_2 a t) fullShare ((dat4 V a c).before 2 t d))
    ∗ (∃ d, owns (c : Thread nD τ) (st4_3 a t) fullShare ((dat4 V a c).before 3 t d))
    ∗ (∃ d, owns (c : Thread nD τ) (st4_4 a t) fullShare ((dat4 V a c).before 4 t d)))

/-- and what it returns. -/
def bodyPost4 (c : Dev nD) (t : Fin (cfg4 a).N) : sProp 𝕄 :=
  iprop((dat4 V a c).Φ t.succ ∗ (dat4 V a c).owesAt () t.succ
    ∗ owns (c : Thread nD τ) (st4_0 a t) fullShare ((dat4 V a c).after 0 t)
    ∗ owns (c : Thread nD τ) (st4_1 a t) fullShare ((dat4 V a c).after 1 t)
    ∗ owns (c : Thread nD τ) (st4_2 a t) fullShare ((dat4 V a c).after 2 t)
    ∗ owns (c : Thread nD τ) (st4_3 a t) fullShare ((dat4 V a c).after 3 t)
    ∗ owns (c : Thread nD τ) (st4_4 a t) fullShare ((dat4 V a c).after 4 t))

/-- The body at any point: the inputs' buffers hold their blocks, so the body's triple applies; the invariant and the
    core's dues pass through unread. -/
theorem sound_body4 (c : Dev nD) (t : Fin (cfg4 a).N) :
    bodyPre4 V a c t ⊢ wp frame (wpE (defs₀ (F := F)) Variants.none c none) Set.univ (bodyAt4 a t) (fun _ => bodyPost4 V a c t) := by
  unfold bodyPre4 bodyPost4 bodyAt4
  simp only [before4_0, before4_1, before4_2, before4_3]
  rw [show (dat4 V a c).Φ t.succ = (dat4 V a c).Φ t.castSucc from rfl,
    show (dat4 V a c).owesAt () t.succ = (dat4 V a c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ _ _ _ _ (iblk4 V a c 0 t) (iblk4 V a c 1 t) (iblk4 V a c 2 t) (iblk4 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation4 (c : Dev nD) : BodyObligation (dat4 (F := F) V a c) (defs₀ (F := F)) Variants.none () Set.univ := fun t => by
  rw [bigSep_W4, bigSep_W4]
  exact sound_body4 V a c t

end Cert.Kernel.Hand

end
-- ==== Proof.KBody5.lean ====
/-
  One edge's score as the kernel body computes it, and the body's triple.

  The body reads the two gathered rows (one row of the node features for the edge's source node, one for its
  destination node), the 256 weights and the bias from its staging buffers, and writes the single score
  `(∑ row_s · W[0:128]) + (∑ row_d · W[128:256]) + b` to its one-element output buffer. `out5` is what the output
  buffer holds afterwards as a function of the four input buffers; `sound_kernel5` says the body, run on whole
  staging buffers holding those contents, ends with the inputs as they were and the output at `out5` of them.
-/
import proofs.«405368_j31662498906597_2_alg».proof.Proof.LaunchKernel
import proofs.«405368_j31662498906597_2_alg».proof.Proof.Gen.Kernel.Skeleton
import proofs.«405368_j31662498906597_2_alg».proof.Proof.KBody0
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The output buffer after the body, from the four input buffers (source row, destination row, weights, bias): its
    one store, of the score. -/
def out5 (x0 x1 : Vec F S1x1x128 .f32) (x2 : Vec F S1x256 .f32) (x3 : Vec F S1x1 .f32) : Vec F S1x1x1 .f32 :=
  View.canon [⟨rO, k5_pay1 (View.ld x2 rW0) (View.ld x2 rW1) (View.ld x0 rH) (View.ld x1 rH) (View.ld x3 rB)⟩]

/-- The one store covers the one-element buffer. -/
theorem cover5 (p0 : Vec F S1x1x1 .f32) (y : S1x1x1.Idx) :
    ∃ pc ∈ ([⟨rO, p0⟩] : List (View.Piece (Elt F) S1x1x1 .f32)), y ∈ pc.1.set :=
  View.cover_of_tiled [⟨rO, p0⟩] S1x1x1.size (by rfl) y

set_option maxHeartbeats 1000000 in
/-- The body on whole staging buffers: the inputs at `x0 … x3`, the output at anything; it ends with the inputs as
    they were and the output at `out5` of them. The two index tables are not touched. -/
theorem sound_kernel5 (c : Dev nD) (E : Set ℕ) (i : grid5.Coords)
    (arg1 : Memref sig .tc .smem S62500 .i32) (harg1 : arg1.IsWhole) (arg2 : Memref sig .tc .smem S62500 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x256 .f32) (harg5 : arg5.IsWhole) (arg6 : Memref sig .tc .vmem S1x1 .f32) (harg6 : arg6.IsWhole)
    (arg7 : Memref sig .tc .vmem S1x1x1 .f32) (harg7 : arg7.IsWhole)
    (x0 x1 : Vec F S1x1x128 .f32) (x2 : Vec F S1x256 .f32) (x3 : Vec F S1x1 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ (∃ d, owns (c : Thread nD τ) arg7 fullShare d)
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare (out5 x0 x1 x2 x3)) -∗ K ⟨⟩))
      ⊢ wp frame (wpE (defs₀ (F := F)) Variants.none c none) E
          (cc5__gather_score_kernel i arg1 harg1 arg2 harg2 arg3 harg3 arg4 harg4 arg5 harg5 arg6 harg6 arg7 harg7) K := by
  -- the printed body is its skeleton of six loads and one store over the payload
  simp only [cc5__gather_score_kernel_eq_skeleton]; unfold cc5__gather_score_kernel_skel
  -- each input's ownership is some contents with the given read; the output's is any contents
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  -- the loads leave every buffer as it was (the value loaded from the output buffer is not used); the store
  -- overwrites the output buffer's one cell with the payload of the five input loads
  sl_exec
  sl_step
  iapply Hk
  -- the four inputs come back at the contents they had
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  -- the output: old contents overwritten by one store that covers the buffer read back as that store alone
  iexists _; isplitr
  swap; · iexact H4
  ipureintro
  exact View.read_writes_eq_canon _ _ _ (cover5 _)

end Cert.Kernel.Hand

end
-- ==== Proof.KDat5.lean ====
/-
  Region 5 of the edge scorer: the pipeline's proof data and the body obligation.

  The region has 62500 grid points, one per edge of its chunk. At point `t` the pipeline stages five blocks: row
  `src t` of the node features (window 0) and row `dst t` (window 1) — both windows read the ONE feature array,
  their block indices taken from the two prefetched index tables —, the 256 weights (window 2), the bias
  (window 3), and the one-element block `t` of the output (window 4). The body leaves every input block as it
  found it and the output block at the edge's score (`out5` of the four input blocks). The two input windows
  on the shared feature array hold it at the two halves of the full share; the tables ride in the invariant,
  whole, untouched (the body never reads them); nothing is owed to other cores.
-/
import proofs.«405368_j31662498906597_2_alg».proof.Proof.KBody5

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffers' contents when the region is entered, per core, and the tables' admissible contents: parameters
variable (V : (c : Dev nD) → (b : Ref sig .tc) → Buf (Elt F) ((c : Thread nD τ).loc b)) (a : (pcfg5 (F := F)).Adm)

/-- Window `w`'s block at point `t`, read off its array as the region finds it. -/
def iblk5 (c : Dev nD) (w : Fin (cfg5 a).W) (t : Fin (cfg5 a).N) :
    (((cfg5 a).win w).xblock ((cfg5 a).grid.coords t)).Idx → Elt F ((cfg5 a).win w).elt :=
  (((cfg5 a).win w).blk t).view.read (Elt F) (V c (Pipeline.arrRef spec5 w))

/-- The current staging memref of each window at point `t`. -/
abbrev st5_0 (t : Fin (cfg5 a).N) := ((cfg5 a).win 0).stage ((cfg5 a).slots t 0)
abbrev st5_1 (t : Fin (cfg5 a).N) := ((cfg5 a).win 1).stage ((cfg5 a).slots t 1)
abbrev st5_2 (t : Fin (cfg5 a).N) := ((cfg5 a).win 2).stage ((cfg5 a).slots t 2)
abbrev st5_3 (t : Fin (cfg5 a).N) := ((cfg5 a).win 3).stage ((cfg5 a).slots t 3)
abbrev st5_4 (t : Fin (cfg5 a).N) := ((cfg5 a).win 4).stage ((cfg5 a).slots t 4)

/-- The kernel body at point `t`, on what the pipeline calls it with. -/
abbrev bodyAt5 (t : Fin (cfg5 a).N) : Prog (TpuEff nD τ sig (Elt F) Λ₀ .tc) PUnit :=
  cc5__gather_score_kernel (grid5.coords t) (Memref.whole main_v22) (Memref.isWhole_whole _) (Memref.whole main_v23) (Memref.isWhole_whole _)
    (spec5_0.stage ((cfg5 a).slots t 0)) (hstage5_0 (((cfg5 a).slots t 0).cast nbuf5_0))
    (spec5_1.stage ((cfg5 a).slots t 1)) (hstage5_1 (((cfg5 a).slots t 1).cast nbuf5_1))
    (spec5_2.stage ((cfg5 a).slots t 2)) (hstage5_2 (((cfg5 a).slots t 2).cast nbuf5_2))
    (spec5_3.stage ((cfg5 a).slots t 3)) (hstage5_3 (((cfg5 a).slots t 3).cast nbuf5_3))
    (spec5_4.stage ((cfg5 a).slots t 4)) (hstage5_4 (((cfg5 a).slots t 4).cast nbuf5_4))

/-- The proof data of pipeline 5 on core `c`. -/
def dat5 (c : Dev nD) : Dat τ (Elt F) Unit ℕ (UR sig nD τ) ℕ (cfg5 a) c where
  A w := V c (Pipeline.arrRef spec5 w)
  after w t := match w with
    | ⟨0, _⟩ => iblk5 V a c 0 t
    | ⟨1, _⟩ => iblk5 V a c 1 t
    | ⟨2, _⟩ => iblk5 V a c 2 t
    | ⟨3, _⟩ => iblk5 V a c 3 t
    | ⟨4, _⟩ => out5 (iblk5 V a c 0 t) (iblk5 V a c 1 t) (iblk5 V a c 2 t) (iblk5 V a c 3 t)
  Φ _ := iprop(Pipeline.ΦA spec5 c ∗ Pipeline.prefHeld (Ix := Unit) (Name := ℕ) (U := UR sig nD τ) (Lvl := ℕ) pre5 c (fun _ => fullShare) a.1)
  q w := match w with
    | ⟨0, _⟩ => fullShare.left
    | ⟨1, _⟩ => fullShare.right
    | _ => fullShare
  owed _ := 0

theorem A_eq5 (c : Dev nD) (w : Fin (cfg5 a).W) : (dat5 V a c).A w = V c (Pipeline.arrRef spec5 w) := by
  dsimp only [dat5]

theorem after5_0 (c : Dev nD) (t : Fin (cfg5 a).N) : (dat5 V a c).after 0 t = iblk5 V a c 0 t := by dsimp only [dat5]; try rfl
theorem after5_1 (c : Dev nD) (t : Fin (cfg5 a).N) : (dat5 V a c).after 1 t = iblk5 V a c 1 t := by dsimp only [dat5]; try rfl
theorem after5_2 (c : Dev nD) (t : Fin (cfg5 a).N) : (dat5 V a c).after 2 t = iblk5 V a c 2 t := by dsimp only [dat5]; try rfl
theorem after5_3 (c : Dev nD) (t : Fin (cfg5 a).N) : (dat5 V a c).after 3 t = iblk5 V a c 3 t := by dsimp only [dat5]; try rfl
theorem after5_4 (c : Dev nD) (t : Fin (cfg5 a).N) :
    (dat5 V a c).after 4 t = out5 (iblk5 V a c 0 t) (iblk5 V a c 1 t) (iblk5 V a c 2 t) (iblk5 V a c 3 t) := by dsimp only [dat5]; try rfl

/-- An input window's current staging buffer holds its block at every point, fetched there or not: unfetched, the
    block index has not moved. -/
theorem before5_0 (c : Dev nD) (t : Fin (cfg5 a).N) (d) : (dat5 V a c).before 0 t d = iblk5 V a c 0 t :=
  ((dat5 V a c).before_in_eq_fetched 0 rfl (fun _ => rfl) (fun _ _ _ => rfl)
    (fun t => by rw [after5_0]; unfold Dat.blockOf iblk5; rw [A_eq5]; try rfl) t d).trans
    (by unfold Dat.fetched Dat.blockOf iblk5; rw [A_eq5]; try rfl)
theorem before5_1 (c : Dev nD) (t : Fin (cfg5 a).N) (d) : (dat5 V a c).before 1 t d = iblk5 V a c 1 t :=
  ((dat5 V a c).before_in_eq_fetched 1 rfl (fun _ => rfl) (fun _ _ _ => rfl)
    (fun t => by rw [after5_1]; unfold Dat.blockOf iblk5; rw [A_eq5]; try rfl) t d).trans
    (by unfold Dat.fetched Dat.blockOf iblk5; rw [A_eq5]; try rfl)
theorem before5_2 (c : Dev nD) (t : Fin (cfg5 a).N) (d) : (dat5 V a c).before 2 t d = iblk5 V a c 2 t :=
  ((dat5 V a c).before_in_eq_fetched 2 rfl (fun _ => rfl) (fun _ _ _ => rfl)
    (fun t => by rw [after5_2]; unfold Dat.blockOf iblk5; rw [A_eq5]; try rfl) t d).trans
    (by unfold Dat.fetched Dat.blockOf iblk5; rw [A_eq5]; try rfl)
theorem before5_3 (c : Dev nD) (t : Fin (cfg5 a).N) (d) : (dat5 V a c).before 3 t d = iblk5 V a c 3 t :=
  ((dat5 V a c).before_in_eq_fetched 3 rfl (fun _ => rfl) (fun _ _ _ => rfl)
    (fun t => by rw [after5_3]; unfold Dat.blockOf iblk5; rw [A_eq5]; try rfl) t d).trans
    (by unfold Dat.fetched Dat.blockOf iblk5; rw [A_eq5]; try rfl)

/-- What the body is called with at point `t`, the windows one by one, -/
def bodyPre5 (c : Dev nD) (t : Fin (cfg5 a).N) : sProp 𝕄 :=
  iprop((dat5 V a c).Φ t.castSucc ∗ (dat5 V a c).owesAt () t.castSucc
    ∗ (∃ d, owns (c : Thread nD τ) (st5_0 a t) fullShare ((dat5 V a c).before 0 t d))
    ∗ (∃ d, owns (c : Thread nD τ) (st5_1 a t) fullShare ((dat5 V a c).before 1 t d))
    ∗ (∃ d, owns (c : Thread nD τ) (st5_2 a t) fullShare ((dat5 V a c).before 2 t d))
    ∗ (∃ d, owns (c : Thread nD τ) (st5_3 a t) fullShare ((dat5 V a c).before 3 t d))
    ∗ (∃ d, owns (c : Thread nD τ) (st5_4 a t) fullShare ((dat5 V a c).before 4 t d)))

/-- and what it returns. -/
def bodyPost5 (c : Dev nD) (t : Fin (cfg5 a).N) : sProp 𝕄 :=
  iprop((dat5 V a c).Φ t.succ ∗ (dat5 V a c).owesAt () t.succ
    ∗ owns (c : Thread nD τ) (st5_0 a t) fullShare ((dat5 V a c).after 0 t)
    ∗ owns (c : Thread nD τ) (st5_1 a t) fullShare ((dat5 V a c).after 1 t)
    ∗ owns (c : Thread nD τ) (st5_2 a t) fullShare ((dat5 V a c).after 2 t)
    ∗ owns (c : Thread nD τ) (st5_3 a t) fullShare ((dat5 V a c).after 3 t)
    ∗ owns (c : Thread nD τ) (st5_4 a t) fullShare ((dat5 V a c).after 4 t))

/-- The body at any point: the inputs' buffers hold their blocks, so the body's triple applies; the invariant and the
    core's dues pass through unread. -/
theorem sound_body5 (c : Dev nD) (t : Fin (cfg5 a).N) :
    bodyPre5 V a c t ⊢ wp frame (wpE (defs₀ (F := F)) Variants.none c none) Set.univ (bodyAt5 a t) (fun _ => bodyPost5 V a c t) := by
  unfold bodyPre5 bodyPost5 bodyAt5
  simp only [before5_0, before5_1, before5_2, before5_3]
  rw [show (dat5 V a c).Φ t.succ = (dat5 V a c).Φ t.castSucc from rfl,
    show (dat5 V a c).owesAt () t.succ = (dat5 V a c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ _ _ _ _ _ _ _ _ _ _ _ _ _ _ _ (iblk5 V a c 0 t) (iblk5 V a c 1 t) (iblk5 V a c 2 t) (iblk5 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation5 (c : Dev nD) : BodyObligation (dat5 (F := F) V a c) (defs₀ (F := F)) Variants.none () Set.univ := fun t => by
  rw [bigSep_W5, bigSep_W5]
  exact sound_body5 V a c t

end Cert.Kernel.Hand

end
-- ==== Proof.KBody6.lean ====
/-
  One edge's score as the kernel body computes it, and the body's triple.

  The body reads the two gathered rows (one row of the node features for the edge's source node, one for its
  destination node), the 256 weights and the bias from its staging buffers, and writes the single score
  `(∑ row_s · W[0:128]) + (∑ row_d · W[128:256]) + b` to its one-element output buffer. `out6` is what the output
  buffer holds afterwards as a function of the four input buffers; `sound_kernel6` says the body, run on whole
  staging buffers holding those contents, ends with the inputs as they were and the output at `out6` of them.
-/
import proofs.«405368_j31662498906597_2_alg».proof.Proof.LaunchKernel
import proofs.«405368_j31662498906597_2_alg».proof.Proof.Gen.Kernel.Skeleton
import proofs.«405368_j31662498906597_2_alg».proof.Proof.KBody0
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The output buffer after the body, from the four input buffers (source row, destination row, weights, bias): its
    one store, of the score. -/
def out6 (x0 x1 : Vec F S1x1x128 .f32) (x2 : Vec F S1x256 .f32) (x3 : Vec F S1x1 .f32) : Vec F S1x1x1 .f32 :=
  View.canon [⟨rO, k6_pay1 (View.ld x2 rW0) (View.ld x2 rW1) (View.ld x0 rH) (View.ld x1 rH) (View.ld x3 rB)⟩]

/-- The one store covers the one-element buffer. -/
theorem cover6 (p0 : Vec F S1x1x1 .f32) (y : S1x1x1.Idx) :
    ∃ pc ∈ ([⟨rO, p0⟩] : List (View.Piece (Elt F) S1x1x1 .f32)), y ∈ pc.1.set :=
  View.cover_of_tiled [⟨rO, p0⟩] S1x1x1.size (by rfl) y

set_option maxHeartbeats 1000000 in
/-- The body on whole staging buffers: the inputs at `x0 … x3`, the output at anything; it ends with the inputs as
    they were and the output at `out6` of them. The two index tables are not touched. -/
theorem sound_kernel6 (c : Dev nD) (E : Set ℕ) (i : grid6.Coords)
    (arg1 : Memref sig .tc .smem S62500 .i32) (harg1 : arg1.IsWhole) (arg2 : Memref sig .tc .smem S62500 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x256 .f32) (harg5 : arg5.IsWhole) (arg6 : Memref sig .tc .vmem S1x1 .f32) (harg6 : arg6.IsWhole)
    (arg7 : Memref sig .tc .vmem S1x1x1 .f32) (harg7 : arg7.IsWhole)
    (x0 x1 : Vec F S1x1x128 .f32) (x2 : Vec F S1x256 .f32) (x3 : Vec F S1x1 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ (∃ d, owns (c : Thread nD τ) arg7 fullShare d)
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare (out6 x0 x1 x2 x3)) -∗ K ⟨⟩))
      ⊢ wp frame (wpE (defs₀ (F := F)) Variants.none c none) E
          (cc6__gather_score_kernel i arg1 harg1 arg2 harg2 arg3 harg3 arg4 harg4 arg5 harg5 arg6 harg6 arg7 harg7) K := by
  -- the printed body is its skeleton of six loads and one store over the payload
  simp only [cc6__gather_score_kernel_eq_skeleton]; unfold cc6__gather_score_kernel_skel
  -- each input's ownership is some contents with the given read; the output's is any contents
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  -- the loads leave every buffer as it was (the value loaded from the output buffer is not used); the store
  -- overwrites the output buffer's one cell with the payload of the five input loads
  sl_exec
  sl_step
  iapply Hk
  -- the four inputs come back at the contents they had
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  -- the output: old contents overwritten by one store that covers the buffer read back as that store alone
  iexists _; isplitr
  swap; · iexact H4
  ipureintro
  exact View.read_writes_eq_canon _ _ _ (cover6 _)

end Cert.Kernel.Hand

end
-- ==== Proof.KDat6.lean ====
/-
  Region 6 of the edge scorer: the pipeline's proof data and the body obligation.

  The region has 62500 grid points, one per edge of its chunk. At point `t` the pipeline stages five blocks: row
  `src t` of the node features (window 0) and row `dst t` (window 1) — both windows read the ONE feature array,
  their block indices taken from the two prefetched index tables —, the 256 weights (window 2), the bias
  (window 3), and the one-element block `t` of the output (window 4). The body leaves every input block as it
  found it and the output block at the edge's score (`out6` of the four input blocks). The two input windows
  on the shared feature array hold it at the two halves of the full share; the tables ride in the invariant,
  whole, untouched (the body never reads them); nothing is owed to other cores.
-/
import proofs.«405368_j31662498906597_2_alg».proof.Proof.KBody6

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffers' contents when the region is entered, per core, and the tables' admissible contents: parameters
variable (V : (c : Dev nD) → (b : Ref sig .tc) → Buf (Elt F) ((c : Thread nD τ).loc b)) (a : (pcfg6 (F := F)).Adm)

/-- Window `w`'s block at point `t`, read off its array as the region finds it. -/
def iblk6 (c : Dev nD) (w : Fin (cfg6 a).W) (t : Fin (cfg6 a).N) :
    (((cfg6 a).win w).xblock ((cfg6 a).grid.coords t)).Idx → Elt F ((cfg6 a).win w).elt :=
  (((cfg6 a).win w).blk t).view.read (Elt F) (V c (Pipeline.arrRef spec6 w))

/-- The current staging memref of each window at point `t`. -/
abbrev st6_0 (t : Fin (cfg6 a).N) := ((cfg6 a).win 0).stage ((cfg6 a).slots t 0)
abbrev st6_1 (t : Fin (cfg6 a).N) := ((cfg6 a).win 1).stage ((cfg6 a).slots t 1)
abbrev st6_2 (t : Fin (cfg6 a).N) := ((cfg6 a).win 2).stage ((cfg6 a).slots t 2)
abbrev st6_3 (t : Fin (cfg6 a).N) := ((cfg6 a).win 3).stage ((cfg6 a).slots t 3)
abbrev st6_4 (t : Fin (cfg6 a).N) := ((cfg6 a).win 4).stage ((cfg6 a).slots t 4)

/-- The kernel body at point `t`, on what the pipeline calls it with. -/
abbrev bodyAt6 (t : Fin (cfg6 a).N) : Prog (TpuEff nD τ sig (Elt F) Λ₀ .tc) PUnit :=
  cc6__gather_score_kernel (grid6.coords t) (Memref.whole main_v26) (Memref.isWhole_whole _) (Memref.whole main_v27) (Memref.isWhole_whole _)
    (spec6_0.stage ((cfg6 a).slots t 0)) (hstage6_0 (((cfg6 a).slots t 0).cast nbuf6_0))
    (spec6_1.stage ((cfg6 a).slots t 1)) (hstage6_1 (((cfg6 a).slots t 1).cast nbuf6_1))
    (spec6_2.stage ((cfg6 a).slots t 2)) (hstage6_2 (((cfg6 a).slots t 2).cast nbuf6_2))
    (spec6_3.stage ((cfg6 a).slots t 3)) (hstage6_3 (((cfg6 a).slots t 3).cast nbuf6_3))
    (spec6_4.stage ((cfg6 a).slots t 4)) (hstage6_4 (((cfg6 a).slots t 4).cast nbuf6_4))

/-- The proof data of pipeline 6 on core `c`. -/
def dat6 (c : Dev nD) : Dat τ (Elt F) Unit ℕ (UR sig nD τ) ℕ (cfg6 a) c where
  A w := V c (Pipeline.arrRef spec6 w)
  after w t := match w with
    | ⟨0, _⟩ => iblk6 V a c 0 t
    | ⟨1, _⟩ => iblk6 V a c 1 t
    | ⟨2, _⟩ => iblk6 V a c 2 t
    | ⟨3, _⟩ => iblk6 V a c 3 t
    | ⟨4, _⟩ => out6 (iblk6 V a c 0 t) (iblk6 V a c 1 t) (iblk6 V a c 2 t) (iblk6 V a c 3 t)
  Φ _ := iprop(Pipeline.ΦA spec6 c ∗ Pipeline.prefHeld (Ix := Unit) (Name := ℕ) (U := UR sig nD τ) (Lvl := ℕ) pre6 c (fun _ => fullShare) a.1)
  q w := match w with
    | ⟨0, _⟩ => fullShare.left
    | ⟨1, _⟩ => fullShare.right
    | _ => fullShare
  owed _ := 0

theorem A_eq6 (c : Dev nD) (w : Fin (cfg6 a).W) : (dat6 V a c).A w = V c (Pipeline.arrRef spec6 w) := by
  dsimp only [dat6]

theorem after6_0 (c : Dev nD) (t : Fin (cfg6 a).N) : (dat6 V a c).after 0 t = iblk6 V a c 0 t := by dsimp only [dat6]; try rfl
theorem after6_1 (c : Dev nD) (t : Fin (cfg6 a).N) : (dat6 V a c).after 1 t = iblk6 V a c 1 t := by dsimp only [dat6]; try rfl
theorem after6_2 (c : Dev nD) (t : Fin (cfg6 a).N) : (dat6 V a c).after 2 t = iblk6 V a c 2 t := by dsimp only [dat6]; try rfl
theorem after6_3 (c : Dev nD) (t : Fin (cfg6 a).N) : (dat6 V a c).after 3 t = iblk6 V a c 3 t := by dsimp only [dat6]; try rfl
theorem after6_4 (c : Dev nD) (t : Fin (cfg6 a).N) :
    (dat6 V a c).after 4 t = out6 (iblk6 V a c 0 t) (iblk6 V a c 1 t) (iblk6 V a c 2 t) (iblk6 V a c 3 t) := by dsimp only [dat6]; try rfl

/-- An input window's current staging buffer holds its block at every point, fetched there or not: unfetched, the
    block index has not moved. -/
theorem before6_0 (c : Dev nD) (t : Fin (cfg6 a).N) (d) : (dat6 V a c).before 0 t d = iblk6 V a c 0 t :=
  ((dat6 V a c).before_in_eq_fetched 0 rfl (fun _ => rfl) (fun _ _ _ => rfl)
    (fun t => by rw [after6_0]; unfold Dat.blockOf iblk6; rw [A_eq6]; try rfl) t d).trans
    (by unfold Dat.fetched Dat.blockOf iblk6; rw [A_eq6]; try rfl)
theorem before6_1 (c : Dev nD) (t : Fin (cfg6 a).N) (d) : (dat6 V a c).before 1 t d = iblk6 V a c 1 t :=
  ((dat6 V a c).before_in_eq_fetched 1 rfl (fun _ => rfl) (fun _ _ _ => rfl)
    (fun t => by rw [after6_1]; unfold Dat.blockOf iblk6; rw [A_eq6]; try rfl) t d).trans
    (by unfold Dat.fetched Dat.blockOf iblk6; rw [A_eq6]; try rfl)
theorem before6_2 (c : Dev nD) (t : Fin (cfg6 a).N) (d) : (dat6 V a c).before 2 t d = iblk6 V a c 2 t :=
  ((dat6 V a c).before_in_eq_fetched 2 rfl (fun _ => rfl) (fun _ _ _ => rfl)
    (fun t => by rw [after6_2]; unfold Dat.blockOf iblk6; rw [A_eq6]; try rfl) t d).trans
    (by unfold Dat.fetched Dat.blockOf iblk6; rw [A_eq6]; try rfl)
theorem before6_3 (c : Dev nD) (t : Fin (cfg6 a).N) (d) : (dat6 V a c).before 3 t d = iblk6 V a c 3 t :=
  ((dat6 V a c).before_in_eq_fetched 3 rfl (fun _ => rfl) (fun _ _ _ => rfl)
    (fun t => by rw [after6_3]; unfold Dat.blockOf iblk6; rw [A_eq6]; try rfl) t d).trans
    (by unfold Dat.fetched Dat.blockOf iblk6; rw [A_eq6]; try rfl)

/-- What the body is called with at point `t`, the windows one by one, -/
def bodyPre6 (c : Dev nD) (t : Fin (cfg6 a).N) : sProp 𝕄 :=
  iprop((dat6 V a c).Φ t.castSucc ∗ (dat6 V a c).owesAt () t.castSucc
    ∗ (∃ d, owns (c : Thread nD τ) (st6_0 a t) fullShare ((dat6 V a c).before 0 t d))
    ∗ (∃ d, owns (c : Thread nD τ) (st6_1 a t) fullShare ((dat6 V a c).before 1 t d))
    ∗ (∃ d, owns (c : Thread nD τ) (st6_2 a t) fullShare ((dat6 V a c).before 2 t d))
    ∗ (∃ d, owns (c : Thread nD τ) (st6_3 a t) fullShare ((dat6 V a c).before 3 t d))
    ∗ (∃ d, owns (c : Thread nD τ) (st6_4 a t) fullShare ((dat6 V a c).before 4 t d)))

/-- and what it returns. -/
def bodyPost6 (c : Dev nD) (t : Fin (cfg6 a).N) : sProp 𝕄 :=
  iprop((dat6 V a c).Φ t.succ ∗ (dat6 V a c).owesAt () t.succ
    ∗ owns (c : Thread nD τ) (st6_0 a t) fullShare ((dat6 V a c).after 0 t)
    ∗ owns (c : Thread nD τ) (st6_1 a t) fullShare ((dat6 V a c).after 1 t)
    ∗ owns (c : Thread nD τ) (st6_2 a t) fullShare ((dat6 V a c).after 2 t)
    ∗ owns (c : Thread nD τ) (st6_3 a t) fullShare ((dat6 V a c).after 3 t)
    ∗ owns (c : Thread nD τ) (st6_4 a t) fullShare ((dat6 V a c).after 4 t))

/-- The body at any point: the inputs' buffers hold their blocks, so the body's triple applies; the invariant and the
    core's dues pass through unread. -/
theorem sound_body6 (c : Dev nD) (t : Fin (cfg6 a).N) :
    bodyPre6 V a c t ⊢ wp frame (wpE (defs₀ (F := F)) Variants.none c none) Set.univ (bodyAt6 a t) (fun _ => bodyPost6 V a c t) := by
  unfold bodyPre6 bodyPost6 bodyAt6
  simp only [before6_0, before6_1, before6_2, before6_3]
  rw [show (dat6 V a c).Φ t.succ = (dat6 V a c).Φ t.castSucc from rfl,
    show (dat6 V a c).owesAt () t.succ = (dat6 V a c).owesAt () t.castSucc from rfl,
    after6_0, after6_1, after6_2, after6_3, after6_4]
  iintro ⟨HΦ, Ho, ⟨%d0, H0⟩, ⟨%d1, H1⟩, ⟨%d2, H2⟩, ⟨%d3, H3⟩, ⟨%d4, H4⟩⟩
  iapply (sound_kernel6 c Set.univ _ _ _ _ _ _ _ _ _ _ _ _ _ _ _ (iblk6 V a c 0 t) (iblk6 V a c 1 t) (iblk6 V a c 2 t) (iblk6 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation6 (c : Dev nD) : BodyObligation (dat6 (F := F) V a c) (defs₀ (F := F)) Variants.none () Set.univ := fun t => by
  rw [bigSep_W6, bigSep_W6]
  exact sound_body6 V a c t

end Cert.Kernel.Hand

end
-- ==== Proof.KBody7.lean ====
/-
  One edge's score as the kernel body computes it, and the body's triple.

  The body reads the two gathered rows (one row of the node features for the edge's source node, one for its
  destination node), the 256 weights and the bias from its staging buffers, and writes the single score
  `(∑ row_s · W[0:128]) + (∑ row_d · W[128:256]) + b` to its one-element output buffer. `out7` is what the output
  buffer holds afterwards as a function of the four input buffers; `sound_kernel7` says the body, run on whole
  staging buffers holding those contents, ends with the inputs as they were and the output at `out7` of them.
-/
import proofs.«405368_j31662498906597_2_alg».proof.Proof.LaunchKernel
import proofs.«405368_j31662498906597_2_alg».proof.Proof.Gen.Kernel.Skeleton
import proofs.«405368_j31662498906597_2_alg».proof.Proof.KBody0
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The output buffer after the body, from the four input buffers (source row, destination row, weights, bias): its
    one store, of the score. -/
def out7 (x0 x1 : Vec F S1x1x128 .f32) (x2 : Vec F S1x256 .f32) (x3 : Vec F S1x1 .f32) : Vec F S1x1x1 .f32 :=
  View.canon [⟨rO, k7_pay1 (View.ld x2 rW0) (View.ld x2 rW1) (View.ld x0 rH) (View.ld x1 rH) (View.ld x3 rB)⟩]

/-- The one store covers the one-element buffer. -/
theorem cover7 (p0 : Vec F S1x1x1 .f32) (y : S1x1x1.Idx) :
    ∃ pc ∈ ([⟨rO, p0⟩] : List (View.Piece (Elt F) S1x1x1 .f32)), y ∈ pc.1.set :=
  View.cover_of_tiled [⟨rO, p0⟩] S1x1x1.size (by rfl) y

set_option maxHeartbeats 1000000 in
/-- The body on whole staging buffers: the inputs at `x0 … x3`, the output at anything; it ends with the inputs as
    they were and the output at `out7` of them. The two index tables are not touched. -/
theorem sound_kernel7 (c : Dev nD) (E : Set ℕ) (i : grid7.Coords)
    (arg1 : Memref sig .tc .smem S62500 .i32) (harg1 : arg1.IsWhole) (arg2 : Memref sig .tc .smem S62500 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x256 .f32) (harg5 : arg5.IsWhole) (arg6 : Memref sig .tc .vmem S1x1 .f32) (harg6 : arg6.IsWhole)
    (arg7 : Memref sig .tc .vmem S1x1x1 .f32) (harg7 : arg7.IsWhole)
    (x0 x1 : Vec F S1x1x128 .f32) (x2 : Vec F S1x256 .f32) (x3 : Vec F S1x1 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ (∃ d, owns (c : Thread nD τ) arg7 fullShare d)
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare (out7 x0 x1 x2 x3)) -∗ K ⟨⟩))
      ⊢ wp frame (wpE (defs₀ (F := F)) Variants.none c none) E
          (cc7__gather_score_kernel i arg1 harg1 arg2 harg2 arg3 harg3 arg4 harg4 arg5 harg5 arg6 harg6 arg7 harg7) K := by
  -- the printed body is its skeleton of six loads and one store over the payload
  simp only [cc7__gather_score_kernel_eq_skeleton]; unfold cc7__gather_score_kernel_skel
  -- each input's ownership is some contents with the given read; the output's is any contents
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  -- the loads leave every buffer as it was (the value loaded from the output buffer is not used); the store
  -- overwrites the output buffer's one cell with the payload of the five input loads
  sl_exec
  sl_step
  iapply Hk
  -- the four inputs come back at the contents they had
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  -- the output: old contents overwritten by one store that covers the buffer read back as that store alone
  iexists _; isplitr
  swap; · iexact H4
  ipureintro
  exact View.read_writes_eq_canon _ _ _ (cover7 _)

end Cert.Kernel.Hand

end
-- ==== Proof.KDat7.lean ====
/-
  Region 7 of the edge scorer: the pipeline's proof data and the body obligation.

  The region has 62500 grid points, one per edge of its chunk. At point `t` the pipeline stages five blocks: row
  `src t` of the node features (window 0) and row `dst t` (window 1) — both windows read the ONE feature array,
  their block indices taken from the two prefetched index tables —, the 256 weights (window 2), the bias
  (window 3), and the one-element block `t` of the output (window 4). The body leaves every input block as it
  found it and the output block at the edge's score (`out7` of the four input blocks). The two input windows
  on the shared feature array hold it at the two halves of the full share; the tables ride in the invariant,
  whole, untouched (the body never reads them); nothing is owed to other cores.
-/
import proofs.«405368_j31662498906597_2_alg».proof.Proof.KBody7

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffers' contents when the region is entered, per core, and the tables' admissible contents: parameters
variable (V : (c : Dev nD) → (b : Ref sig .tc) → Buf (Elt F) ((c : Thread nD τ).loc b)) (a : (pcfg7 (F := F)).Adm)

/-- Window `w`'s block at point `t`, read off its array as the region finds it. -/
def iblk7 (c : Dev nD) (w : Fin (cfg7 a).W) (t : Fin (cfg7 a).N) :
    (((cfg7 a).win w).xblock ((cfg7 a).grid.coords t)).Idx → Elt F ((cfg7 a).win w).elt :=
  (((cfg7 a).win w).blk t).view.read (Elt F) (V c (Pipeline.arrRef spec7 w))

/-- The current staging memref of each window at point `t`. -/
abbrev st7_0 (t : Fin (cfg7 a).N) := ((cfg7 a).win 0).stage ((cfg7 a).slots t 0)
abbrev st7_1 (t : Fin (cfg7 a).N) := ((cfg7 a).win 1).stage ((cfg7 a).slots t 1)
abbrev st7_2 (t : Fin (cfg7 a).N) := ((cfg7 a).win 2).stage ((cfg7 a).slots t 2)
abbrev st7_3 (t : Fin (cfg7 a).N) := ((cfg7 a).win 3).stage ((cfg7 a).slots t 3)
abbrev st7_4 (t : Fin (cfg7 a).N) := ((cfg7 a).win 4).stage ((cfg7 a).slots t 4)

/-- The kernel body at point `t`, on what the pipeline calls it with. -/
abbrev bodyAt7 (t : Fin (cfg7 a).N) : Prog (TpuEff nD τ sig (Elt F) Λ₀ .tc) PUnit :=
  cc7__gather_score_kernel (grid7.coords t) (Memref.whole main_v30) (Memref.isWhole_whole _) (Memref.whole main_v31) (Memref.isWhole_whole _)
    (spec7_0.stage ((cfg7 a).slots t 0)) (hstage7_0 (((cfg7 a).slots t 0).cast nbuf7_0))
    (spec7_1.stage ((cfg7 a).slots t 1)) (hstage7_1 (((cfg7 a).slots t 1).cast nbuf7_1))
    (spec7_2.stage ((cfg7 a).slots t 2)) (hstage7_2 (((cfg7 a).slots t 2).cast nbuf7_2))
    (spec7_3.stage ((cfg7 a).slots t 3)) (hstage7_3 (((cfg7 a).slots t 3).cast nbuf7_3))
    (spec7_4.stage ((cfg7 a).slots t 4)) (hstage7_4 (((cfg7 a).slots t 4).cast nbuf7_4))

/-- The proof data of pipeline 7 on core `c`. -/
def dat7 (c : Dev nD) : Dat τ (Elt F) Unit ℕ (UR sig nD τ) ℕ (cfg7 a) c where
  A w := V c (Pipeline.arrRef spec7 w)
  after w t := match w with
    | ⟨0, _⟩ => iblk7 V a c 0 t
    | ⟨1, _⟩ => iblk7 V a c 1 t
    | ⟨2, _⟩ => iblk7 V a c 2 t
    | ⟨3, _⟩ => iblk7 V a c 3 t
    | ⟨4, _⟩ => out7 (iblk7 V a c 0 t) (iblk7 V a c 1 t) (iblk7 V a c 2 t) (iblk7 V a c 3 t)
  Φ _ := iprop(Pipeline.ΦA spec7 c ∗ Pipeline.prefHeld (Ix := Unit) (Name := ℕ) (U := UR sig nD τ) (Lvl := ℕ) pre7 c (fun _ => fullShare) a.1)
  q w := match w with
    | ⟨0, _⟩ => fullShare.left
    | ⟨1, _⟩ => fullShare.right
    | _ => fullShare
  owed _ := 0

theorem A_eq7 (c : Dev nD) (w : Fin (cfg7 a).W) : (dat7 V a c).A w = V c (Pipeline.arrRef spec7 w) := by
  dsimp only [dat7]

theorem after7_0 (c : Dev nD) (t : Fin (cfg7 a).N) : (dat7 V a c).after 0 t = iblk7 V a c 0 t := by dsimp only [dat7]; try rfl
theorem after7_1 (c : Dev nD) (t : Fin (cfg7 a).N) : (dat7 V a c).after 1 t = iblk7 V a c 1 t := by dsimp only [dat7]; try rfl
theorem after7_2 (c : Dev nD) (t : Fin (cfg7 a).N) : (dat7 V a c).after 2 t = iblk7 V a c 2 t := by dsimp only [dat7]; try rfl
theorem after7_3 (c : Dev nD) (t : Fin (cfg7 a).N) : (dat7 V a c).after 3 t = iblk7 V a c 3 t := by dsimp only [dat7]; try rfl
theorem after7_4 (c : Dev nD) (t : Fin (cfg7 a).N) :
    (dat7 V a c).after 4 t = out7 (iblk7 V a c 0 t) (iblk7 V a c 1 t) (iblk7 V a c 2 t) (iblk7 V a c 3 t) := by dsimp only [dat7]; try rfl

/-- An input window's current staging buffer holds its block at every point, fetched there or not: unfetched, the
    block index has not moved. -/
theorem before7_0 (c : Dev nD) (t : Fin (cfg7 a).N) (d) : (dat7 V a c).before 0 t d = iblk7 V a c 0 t :=
  ((dat7 V a c).before_in_eq_fetched 0 rfl (fun _ => rfl) (fun _ _ _ => rfl)
    (fun t => by rw [after7_0]; unfold Dat.blockOf iblk7; rw [A_eq7]; try rfl) t d).trans
    (by unfold Dat.fetched Dat.blockOf iblk7; rw [A_eq7]; try rfl)
theorem before7_1 (c : Dev nD) (t : Fin (cfg7 a).N) (d) : (dat7 V a c).before 1 t d = iblk7 V a c 1 t :=
  ((dat7 V a c).before_in_eq_fetched 1 rfl (fun _ => rfl) (fun _ _ _ => rfl)
    (fun t => by rw [after7_1]; unfold Dat.blockOf iblk7; rw [A_eq7]; try rfl) t d).trans
    (by unfold Dat.fetched Dat.blockOf iblk7; rw [A_eq7]; try rfl)
theorem before7_2 (c : Dev nD) (t : Fin (cfg7 a).N) (d) : (dat7 V a c).before 2 t d = iblk7 V a c 2 t :=
  ((dat7 V a c).before_in_eq_fetched 2 rfl (fun _ => rfl) (fun _ _ _ => rfl)
    (fun t => by rw [after7_2]; unfold Dat.blockOf iblk7; rw [A_eq7]; try rfl) t d).trans
    (by unfold Dat.fetched Dat.blockOf iblk7; rw [A_eq7]; try rfl)
theorem before7_3 (c : Dev nD) (t : Fin (cfg7 a).N) (d) : (dat7 V a c).before 3 t d = iblk7 V a c 3 t :=
  ((dat7 V a c).before_in_eq_fetched 3 rfl (fun _ => rfl) (fun _ _ _ => rfl)
    (fun t => by rw [after7_3]; unfold Dat.blockOf iblk7; rw [A_eq7]; try rfl) t d).trans
    (by unfold Dat.fetched Dat.blockOf iblk7; rw [A_eq7]; try rfl)

/-- What the body is called with at point `t`, the windows one by one, -/
def bodyPre7 (c : Dev nD) (t : Fin (cfg7 a).N) : sProp 𝕄 :=
  iprop((dat7 V a c).Φ t.castSucc ∗ (dat7 V a c).owesAt () t.castSucc
    ∗ (∃ d, owns (c : Thread nD τ) (st7_0 a t) fullShare ((dat7 V a c).before 0 t d))
    ∗ (∃ d, owns (c : Thread nD τ) (st7_1 a t) fullShare ((dat7 V a c).before 1 t d))
    ∗ (∃ d, owns (c : Thread nD τ) (st7_2 a t) fullShare ((dat7 V a c).before 2 t d))
    ∗ (∃ d, owns (c : Thread nD τ) (st7_3 a t) fullShare ((dat7 V a c).before 3 t d))
    ∗ (∃ d, owns (c : Thread nD τ) (st7_4 a t) fullShare ((dat7 V a c).before 4 t d)))

/-- and what it returns. -/
def bodyPost7 (c : Dev nD) (t : Fin (cfg7 a).N) : sProp 𝕄 :=
  iprop((dat7 V a c).Φ t.succ ∗ (dat7 V a c).owesAt () t.succ
    ∗ owns (c : Thread nD τ) (st7_0 a t) fullShare ((dat7 V a c).after 0 t)
    ∗ owns (c : Thread nD τ) (st7_1 a t) fullShare ((dat7 V a c).after 1 t)
    ∗ owns (c : Thread nD τ) (st7_2 a t) fullShare ((dat7 V a c).after 2 t)
    ∗ owns (c : Thread nD τ) (st7_3 a t) fullShare ((dat7 V a c).after 3 t)
    ∗ owns (c : Thread nD τ) (st7_4 a t) fullShare ((dat7 V a c).after 4 t))

/-- The body at any point: the inputs' buffers hold their blocks, so the body's triple applies; the invariant and the
    core's dues pass through unread. -/
theorem sound_body7 (c : Dev nD) (t : Fin (cfg7 a).N) :
    bodyPre7 V a c t ⊢ wp frame (wpE (defs₀ (F := F)) Variants.none c none) Set.univ (bodyAt7 a t) (fun _ => bodyPost7 V a c t) := by
  unfold bodyPre7 bodyPost7 bodyAt7
  simp only [before7_0, before7_1, before7_2, before7_3]
  rw [show (dat7 V a c).Φ t.succ = (dat7 V a c).Φ t.castSucc from rfl,
    show (dat7 V a c).owesAt () t.succ = (dat7 V a c).owesAt () t.castSucc from rfl,
    after7_0, after7_1, after7_2, after7_3, after7_4]
  iintro ⟨HΦ, Ho, ⟨%d0, H0⟩, ⟨%d1, H1⟩, ⟨%d2, H2⟩, ⟨%d3, H3⟩, ⟨%d4, H4⟩⟩
  iapply (sound_kernel7 c Set.univ _ _ _ _ _ _ _ _ _ _ _ _ _ _ _ (iblk7 V a c 0 t) (iblk7 V a c 1 t) (iblk7 V a c 2 t) (iblk7 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation7 (c : Dev nD) : BodyObligation (dat7 (F := F) V a c) (defs₀ (F := F)) Variants.none () Set.univ := fun t => by
  rw [bigSep_W7, bigSep_W7]
  exact sound_body7 V a c t

end Cert.Kernel.Hand

end
-- ==== Proof.KBody8.lean ====
/-
  One edge's score as the kernel body computes it, and the body's triple.

  The body reads the two gathered rows (one row of the node features for the edge's source node, one for its
  destination node), the 256 weights and the bias from its staging buffers, and writes the single score
  `(∑ row_s · W[0:128]) + (∑ row_d · W[128:256]) + b` to its one-element output buffer. `out8` is what the output
  buffer holds afterwards as a function of the four input buffers; `sound_kernel8` says the body, run on whole
  staging buffers holding those contents, ends with the inputs as they were and the output at `out8` of them.
-/
import proofs.«405368_j31662498906597_2_alg».proof.Proof.LaunchKernel
import proofs.«405368_j31662498906597_2_alg».proof.Proof.Gen.Kernel.Skeleton
import proofs.«405368_j31662498906597_2_alg».proof.Proof.KBody0
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The output buffer after the body, from the four input buffers (source row, destination row, weights, bias): its
    one store, of the score. -/
def out8 (x0 x1 : Vec F S1x1x128 .f32) (x2 : Vec F S1x256 .f32) (x3 : Vec F S1x1 .f32) : Vec F S1x1x1 .f32 :=
  View.canon [⟨rO, k8_pay1 (View.ld x2 rW0) (View.ld x2 rW1) (View.ld x0 rH) (View.ld x1 rH) (View.ld x3 rB)⟩]

/-- The one store covers the one-element buffer. -/
theorem cover8 (p0 : Vec F S1x1x1 .f32) (y : S1x1x1.Idx) :
    ∃ pc ∈ ([⟨rO, p0⟩] : List (View.Piece (Elt F) S1x1x1 .f32)), y ∈ pc.1.set :=
  View.cover_of_tiled [⟨rO, p0⟩] S1x1x1.size (by rfl) y

set_option maxHeartbeats 1000000 in
/-- The body on whole staging buffers: the inputs at `x0 … x3`, the output at anything; it ends with the inputs as
    they were and the output at `out8` of them. The two index tables are not touched. -/
theorem sound_kernel8 (c : Dev nD) (E : Set ℕ) (i : grid8.Coords)
    (arg1 : Memref sig .tc .smem S62500 .i32) (harg1 : arg1.IsWhole) (arg2 : Memref sig .tc .smem S62500 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x256 .f32) (harg5 : arg5.IsWhole) (arg6 : Memref sig .tc .vmem S1x1 .f32) (harg6 : arg6.IsWhole)
    (arg7 : Memref sig .tc .vmem S1x1x1 .f32) (harg7 : arg7.IsWhole)
    (x0 x1 : Vec F S1x1x128 .f32) (x2 : Vec F S1x256 .f32) (x3 : Vec F S1x1 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ (∃ d, owns (c : Thread nD τ) arg7 fullShare d)
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare (out8 x0 x1 x2 x3)) -∗ K ⟨⟩))
      ⊢ wp frame (wpE (defs₀ (F := F)) Variants.none c none) E
          (cc8__gather_score_kernel i arg1 harg1 arg2 harg2 arg3 harg3 arg4 harg4 arg5 harg5 arg6 harg6 arg7 harg7) K := by
  -- the printed body is its skeleton of six loads and one store over the payload
  simp only [cc8__gather_score_kernel_eq_skeleton]; unfold cc8__gather_score_kernel_skel
  -- each input's ownership is some contents with the given read; the output's is any contents
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  -- the loads leave every buffer as it was (the value loaded from the output buffer is not used); the store
  -- overwrites the output buffer's one cell with the payload of the five input loads
  sl_exec
  sl_step
  iapply Hk
  -- the four inputs come back at the contents they had
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  -- the output: old contents overwritten by one store that covers the buffer read back as that store alone
  iexists _; isplitr
  swap; · iexact H4
  ipureintro
  exact View.read_writes_eq_canon _ _ _ (cover8 _)

end Cert.Kernel.Hand

end
-- ==== Proof.KDat8.lean ====
/-
  Region 8 of the edge scorer: the pipeline's proof data and the body obligation.

  The region has 62500 grid points, one per edge of its chunk. At point `t` the pipeline stages five blocks: row
  `src t` of the node features (window 0) and row `dst t` (window 1) — both windows read the ONE feature array,
  their block indices taken from the two prefetched index tables —, the 256 weights (window 2), the bias
  (window 3), and the one-element block `t` of the output (window 4). The body leaves every input block as it
  found it and the output block at the edge's score (`out8` of the four input blocks). The two input windows
  on the shared feature array hold it at the two halves of the full share; the tables ride in the invariant,
  whole, untouched (the body never reads them); nothing is owed to other cores.
-/
import proofs.«405368_j31662498906597_2_alg».proof.Proof.KBody8

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffers' contents when the region is entered, per core, and the tables' admissible contents: parameters
variable (V : (c : Dev nD) → (b : Ref sig .tc) → Buf (Elt F) ((c : Thread nD τ).loc b)) (a : (pcfg8 (F := F)).Adm)

/-- Window `w`'s block at point `t`, read off its array as the region finds it. -/
def iblk8 (c : Dev nD) (w : Fin (cfg8 a).W) (t : Fin (cfg8 a).N) :
    (((cfg8 a).win w).xblock ((cfg8 a).grid.coords t)).Idx → Elt F ((cfg8 a).win w).elt :=
  (((cfg8 a).win w).blk t).view.read (Elt F) (V c (Pipeline.arrRef spec8 w))

/-- The current staging memref of each window at point `t`. -/
abbrev st8_0 (t : Fin (cfg8 a).N) := ((cfg8 a).win 0).stage ((cfg8 a).slots t 0)
abbrev st8_1 (t : Fin (cfg8 a).N) := ((cfg8 a).win 1).stage ((cfg8 a).slots t 1)
abbrev st8_2 (t : Fin (cfg8 a).N) := ((cfg8 a).win 2).stage ((cfg8 a).slots t 2)
abbrev st8_3 (t : Fin (cfg8 a).N) := ((cfg8 a).win 3).stage ((cfg8 a).slots t 3)
abbrev st8_4 (t : Fin (cfg8 a).N) := ((cfg8 a).win 4).stage ((cfg8 a).slots t 4)

/-- The kernel body at point `t`, on what the pipeline calls it with. -/
abbrev bodyAt8 (t : Fin (cfg8 a).N) : Prog (TpuEff nD τ sig (Elt F) Λ₀ .tc) PUnit :=
  cc8__gather_score_kernel (grid8.coords t) (Memref.whole main_v34) (Memref.isWhole_whole _) (Memref.whole main_v35) (Memref.isWhole_whole _)
    (spec8_0.stage ((cfg8 a).slots t 0)) (hstage8_0 (((cfg8 a).slots t 0).cast nbuf8_0))
    (spec8_1.stage ((cfg8 a).slots t 1)) (hstage8_1 (((cfg8 a).slots t 1).cast nbuf8_1))
    (spec8_2.stage ((cfg8 a).slots t 2)) (hstage8_2 (((cfg8 a).slots t 2).cast nbuf8_2))
    (spec8_3.stage ((cfg8 a).slots t 3)) (hstage8_3 (((cfg8 a).slots t 3).cast nbuf8_3))
    (spec8_4.stage ((cfg8 a).slots t 4)) (hstage8_4 (((cfg8 a).slots t 4).cast nbuf8_4))

/-- The proof data of pipeline 8 on core `c`. -/
def dat8 (c : Dev nD) : Dat τ (Elt F) Unit ℕ (UR sig nD τ) ℕ (cfg8 a) c where
  A w := V c (Pipeline.arrRef spec8 w)
  after w t := match w with
    | ⟨0, _⟩ => iblk8 V a c 0 t
    | ⟨1, _⟩ => iblk8 V a c 1 t
    | ⟨2, _⟩ => iblk8 V a c 2 t
    | ⟨3, _⟩ => iblk8 V a c 3 t
    | ⟨4, _⟩ => out8 (iblk8 V a c 0 t) (iblk8 V a c 1 t) (iblk8 V a c 2 t) (iblk8 V a c 3 t)
  Φ _ := iprop(Pipeline.ΦA spec8 c ∗ Pipeline.prefHeld (Ix := Unit) (Name := ℕ) (U := UR sig nD τ) (Lvl := ℕ) pre8 c (fun _ => fullShare) a.1)
  q w := match w with
    | ⟨0, _⟩ => fullShare.left
    | ⟨1, _⟩ => fullShare.right
    | _ => fullShare
  owed _ := 0

theorem A_eq8 (c : Dev nD) (w : Fin (cfg8 a).W) : (dat8 V a c).A w = V c (Pipeline.arrRef spec8 w) := by
  dsimp only [dat8]

theorem after8_0 (c : Dev nD) (t : Fin (cfg8 a).N) : (dat8 V a c).after 0 t = iblk8 V a c 0 t := by dsimp only [dat8]; try rfl
theorem after8_1 (c : Dev nD) (t : Fin (cfg8 a).N) : (dat8 V a c).after 1 t = iblk8 V a c 1 t := by dsimp only [dat8]; try rfl
theorem after8_2 (c : Dev nD) (t : Fin (cfg8 a).N) : (dat8 V a c).after 2 t = iblk8 V a c 2 t := by dsimp only [dat8]; try rfl
theorem after8_3 (c : Dev nD) (t : Fin (cfg8 a).N) : (dat8 V a c).after 3 t = iblk8 V a c 3 t := by dsimp only [dat8]; try rfl
theorem after8_4 (c : Dev nD) (t : Fin (cfg8 a).N) :
    (dat8 V a c).after 4 t = out8 (iblk8 V a c 0 t) (iblk8 V a c 1 t) (iblk8 V a c 2 t) (iblk8 V a c 3 t) := by dsimp only [dat8]; try rfl

/-- An input window's current staging buffer holds its block at every point, fetched there or not: unfetched, the
    block index has not moved. -/
theorem before8_0 (c : Dev nD) (t : Fin (cfg8 a).N) (d) : (dat8 V a c).before 0 t d = iblk8 V a c 0 t :=
  ((dat8 V a c).before_in_eq_fetched 0 rfl (fun _ => rfl) (fun _ _ _ => rfl)
    (fun t => by rw [after8_0]; unfold Dat.blockOf iblk8; rw [A_eq8]; try rfl) t d).trans
    (by unfold Dat.fetched Dat.blockOf iblk8; rw [A_eq8]; try rfl)
theorem before8_1 (c : Dev nD) (t : Fin (cfg8 a).N) (d) : (dat8 V a c).before 1 t d = iblk8 V a c 1 t :=
  ((dat8 V a c).before_in_eq_fetched 1 rfl (fun _ => rfl) (fun _ _ _ => rfl)
    (fun t => by rw [after8_1]; unfold Dat.blockOf iblk8; rw [A_eq8]; try rfl) t d).trans
    (by unfold Dat.fetched Dat.blockOf iblk8; rw [A_eq8]; try rfl)
theorem before8_2 (c : Dev nD) (t : Fin (cfg8 a).N) (d) : (dat8 V a c).before 2 t d = iblk8 V a c 2 t :=
  ((dat8 V a c).before_in_eq_fetched 2 rfl (fun _ => rfl) (fun _ _ _ => rfl)
    (fun t => by rw [after8_2]; unfold Dat.blockOf iblk8; rw [A_eq8]; try rfl) t d).trans
    (by unfold Dat.fetched Dat.blockOf iblk8; rw [A_eq8]; try rfl)
theorem before8_3 (c : Dev nD) (t : Fin (cfg8 a).N) (d) : (dat8 V a c).before 3 t d = iblk8 V a c 3 t :=
  ((dat8 V a c).before_in_eq_fetched 3 rfl (fun _ => rfl) (fun _ _ _ => rfl)
    (fun t => by rw [after8_3]; unfold Dat.blockOf iblk8; rw [A_eq8]; try rfl) t d).trans
    (by unfold Dat.fetched Dat.blockOf iblk8; rw [A_eq8]; try rfl)

/-- What the body is called with at point `t`, the windows one by one, -/
def bodyPre8 (c : Dev nD) (t : Fin (cfg8 a).N) : sProp 𝕄 :=
  iprop((dat8 V a c).Φ t.castSucc ∗ (dat8 V a c).owesAt () t.castSucc
    ∗ (∃ d, owns (c : Thread nD τ) (st8_0 a t) fullShare ((dat8 V a c).before 0 t d))
    ∗ (∃ d, owns (c : Thread nD τ) (st8_1 a t) fullShare ((dat8 V a c).before 1 t d))
    ∗ (∃ d, owns (c : Thread nD τ) (st8_2 a t) fullShare ((dat8 V a c).before 2 t d))
    ∗ (∃ d, owns (c : Thread nD τ) (st8_3 a t) fullShare ((dat8 V a c).before 3 t d))
    ∗ (∃ d, owns (c : Thread nD τ) (st8_4 a t) fullShare ((dat8 V a c).before 4 t d)))

/-- and what it returns. -/
def bodyPost8 (c : Dev nD) (t : Fin (cfg8 a).N) : sProp 𝕄 :=
  iprop((dat8 V a c).Φ t.succ ∗ (dat8 V a c).owesAt () t.succ
    ∗ owns (c : Thread nD τ) (st8_0 a t) fullShare ((dat8 V a c).after 0 t)
    ∗ owns (c : Thread nD τ) (st8_1 a t) fullShare ((dat8 V a c).after 1 t)
    ∗ owns (c : Thread nD τ) (st8_2 a t) fullShare ((dat8 V a c).after 2 t)
    ∗ owns (c : Thread nD τ) (st8_3 a t) fullShare ((dat8 V a c).after 3 t)
    ∗ owns (c : Thread nD τ) (st8_4 a t) fullShare ((dat8 V a c).after 4 t))

/-- The body at any point: the inputs' buffers hold their blocks, so the body's triple applies; the invariant and the
    core's dues pass through unread. -/
theorem sound_body8 (c : Dev nD) (t : Fin (cfg8 a).N) :
    bodyPre8 V a c t ⊢ wp frame (wpE (defs₀ (F := F)) Variants.none c none) Set.univ (bodyAt8 a t) (fun _ => bodyPost8 V a c t) := by
  unfold bodyPre8 bodyPost8 bodyAt8
  simp only [before8_0, before8_1, before8_2, before8_3]
  rw [show (dat8 V a c).Φ t.succ = (dat8 V a c).Φ t.castSucc from rfl,
    show (dat8 V a c).owesAt () t.succ = (dat8 V a c).owesAt () t.castSucc from rfl,
    after8_0, after8_1, after8_2, after8_3, after8_4]
  iintro ⟨HΦ, Ho, ⟨%d0, H0⟩, ⟨%d1, H1⟩, ⟨%d2, H2⟩, ⟨%d3, H3⟩, ⟨%d4, H4⟩⟩
  iapply (sound_kernel8 c Set.univ _ _ _ _ _ _ _ _ _ _ _ _ _ _ _ (iblk8 V a c 0 t) (iblk8 V a c 1 t) (iblk8 V a c 2 t) (iblk8 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation8 (c : Dev nD) : BodyObligation (dat8 (F := F) V a c) (defs₀ (F := F)) Variants.none () Set.univ := fun t => by
  rw [bigSep_W8, bigSep_W8]
  exact sound_body8 V a c t

end Cert.Kernel.Hand

end
-- ==== Proof.KBody9.lean ====
/-
  One edge's score as the kernel body computes it, and the body's triple.

  The body reads the two gathered rows (one row of the node features for the edge's source node, one for its
  destination node), the 256 weights and the bias from its staging buffers, and writes the single score
  `(∑ row_s · W[0:128]) + (∑ row_d · W[128:256]) + b` to its one-element output buffer. `out9` is what the output
  buffer holds afterwards as a function of the four input buffers; `sound_kernel9` says the body, run on whole
  staging buffers holding those contents, ends with the inputs as they were and the output at `out9` of them.
-/
import proofs.«405368_j31662498906597_2_alg».proof.Proof.LaunchKernel
import proofs.«405368_j31662498906597_2_alg».proof.Proof.Gen.Kernel.Skeleton
import proofs.«405368_j31662498906597_2_alg».proof.Proof.KBody0
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The output buffer after the body, from the four input buffers (source row, destination row, weights, bias): its
    one store, of the score. -/
def out9 (x0 x1 : Vec F S1x1x128 .f32) (x2 : Vec F S1x256 .f32) (x3 : Vec F S1x1 .f32) : Vec F S1x1x1 .f32 :=
  View.canon [⟨rO, k9_pay1 (View.ld x2 rW0) (View.ld x2 rW1) (View.ld x0 rH) (View.ld x1 rH) (View.ld x3 rB)⟩]

/-- The one store covers the one-element buffer. -/
theorem cover9 (p0 : Vec F S1x1x1 .f32) (y : S1x1x1.Idx) :
    ∃ pc ∈ ([⟨rO, p0⟩] : List (View.Piece (Elt F) S1x1x1 .f32)), y ∈ pc.1.set :=
  View.cover_of_tiled [⟨rO, p0⟩] S1x1x1.size (by rfl) y

set_option maxHeartbeats 1000000 in
/-- The body on whole staging buffers: the inputs at `x0 … x3`, the output at anything; it ends with the inputs as
    they were and the output at `out9` of them. The two index tables are not touched. -/
theorem sound_kernel9 (c : Dev nD) (E : Set ℕ) (i : grid9.Coords)
    (arg1 : Memref sig .tc .smem S62500 .i32) (harg1 : arg1.IsWhole) (arg2 : Memref sig .tc .smem S62500 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x256 .f32) (harg5 : arg5.IsWhole) (arg6 : Memref sig .tc .vmem S1x1 .f32) (harg6 : arg6.IsWhole)
    (arg7 : Memref sig .tc .vmem S1x1x1 .f32) (harg7 : arg7.IsWhole)
    (x0 x1 : Vec F S1x1x128 .f32) (x2 : Vec F S1x256 .f32) (x3 : Vec F S1x1 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ (∃ d, owns (c : Thread nD τ) arg7 fullShare d)
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare (out9 x0 x1 x2 x3)) -∗ K ⟨⟩))
      ⊢ wp frame (wpE (defs₀ (F := F)) Variants.none c none) E
          (cc9__gather_score_kernel i arg1 harg1 arg2 harg2 arg3 harg3 arg4 harg4 arg5 harg5 arg6 harg6 arg7 harg7) K := by
  -- the printed body is its skeleton of six loads and one store over the payload
  simp only [cc9__gather_score_kernel_eq_skeleton]; unfold cc9__gather_score_kernel_skel
  -- each input's ownership is some contents with the given read; the output's is any contents
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  -- the loads leave every buffer as it was (the value loaded from the output buffer is not used); the store
  -- overwrites the output buffer's one cell with the payload of the five input loads
  sl_exec
  sl_step
  iapply Hk
  -- the four inputs come back at the contents they had
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  -- the output: old contents overwritten by one store that covers the buffer read back as that store alone
  iexists _; isplitr
  swap; · iexact H4
  ipureintro
  exact View.read_writes_eq_canon _ _ _ (cover9 _)

end Cert.Kernel.Hand

end
-- ==== Proof.KDat9.lean ====
/-
  Region 9 of the edge scorer: the pipeline's proof data and the body obligation.

  The region has 62500 grid points, one per edge of its chunk. At point `t` the pipeline stages five blocks: row
  `src t` of the node features (window 0) and row `dst t` (window 1) — both windows read the ONE feature array,
  their block indices taken from the two prefetched index tables —, the 256 weights (window 2), the bias
  (window 3), and the one-element block `t` of the output (window 4). The body leaves every input block as it
  found it and the output block at the edge's score (`out9` of the four input blocks). The two input windows
  on the shared feature array hold it at the two halves of the full share; the tables ride in the invariant,
  whole, untouched (the body never reads them); nothing is owed to other cores.
-/
import proofs.«405368_j31662498906597_2_alg».proof.Proof.KBody9

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffers' contents when the region is entered, per core, and the tables' admissible contents: parameters
variable (V : (c : Dev nD) → (b : Ref sig .tc) → Buf (Elt F) ((c : Thread nD τ).loc b)) (a : (pcfg9 (F := F)).Adm)

/-- Window `w`'s block at point `t`, read off its array as the region finds it. -/
def iblk9 (c : Dev nD) (w : Fin (cfg9 a).W) (t : Fin (cfg9 a).N) :
    (((cfg9 a).win w).xblock ((cfg9 a).grid.coords t)).Idx → Elt F ((cfg9 a).win w).elt :=
  (((cfg9 a).win w).blk t).view.read (Elt F) (V c (Pipeline.arrRef spec9 w))

/-- The current staging memref of each window at point `t`. -/
abbrev st9_0 (t : Fin (cfg9 a).N) := ((cfg9 a).win 0).stage ((cfg9 a).slots t 0)
abbrev st9_1 (t : Fin (cfg9 a).N) := ((cfg9 a).win 1).stage ((cfg9 a).slots t 1)
abbrev st9_2 (t : Fin (cfg9 a).N) := ((cfg9 a).win 2).stage ((cfg9 a).slots t 2)
abbrev st9_3 (t : Fin (cfg9 a).N) := ((cfg9 a).win 3).stage ((cfg9 a).slots t 3)
abbrev st9_4 (t : Fin (cfg9 a).N) := ((cfg9 a).win 4).stage ((cfg9 a).slots t 4)

/-- The kernel body at point `t`, on what the pipeline calls it with. -/
abbrev bodyAt9 (t : Fin (cfg9 a).N) : Prog (TpuEff nD τ sig (Elt F) Λ₀ .tc) PUnit :=
  cc9__gather_score_kernel (grid9.coords t) (Memref.whole main_v38) (Memref.isWhole_whole _) (Memref.whole main_v39) (Memref.isWhole_whole _)
    (spec9_0.stage ((cfg9 a).slots t 0)) (hstage9_0 (((cfg9 a).slots t 0).cast nbuf9_0))
    (spec9_1.stage ((cfg9 a).slots t 1)) (hstage9_1 (((cfg9 a).slots t 1).cast nbuf9_1))
    (spec9_2.stage ((cfg9 a).slots t 2)) (hstage9_2 (((cfg9 a).slots t 2).cast nbuf9_2))
    (spec9_3.stage ((cfg9 a).slots t 3)) (hstage9_3 (((cfg9 a).slots t 3).cast nbuf9_3))
    (spec9_4.stage ((cfg9 a).slots t 4)) (hstage9_4 (((cfg9 a).slots t 4).cast nbuf9_4))

/-- The proof data of pipeline 9 on core `c`. -/
def dat9 (c : Dev nD) : Dat τ (Elt F) Unit ℕ (UR sig nD τ) ℕ (cfg9 a) c where
  A w := V c (Pipeline.arrRef spec9 w)
  after w t := match w with
    | ⟨0, _⟩ => iblk9 V a c 0 t
    | ⟨1, _⟩ => iblk9 V a c 1 t
    | ⟨2, _⟩ => iblk9 V a c 2 t
    | ⟨3, _⟩ => iblk9 V a c 3 t
    | ⟨4, _⟩ => out9 (iblk9 V a c 0 t) (iblk9 V a c 1 t) (iblk9 V a c 2 t) (iblk9 V a c 3 t)
  Φ _ := iprop(Pipeline.ΦA spec9 c ∗ Pipeline.prefHeld (Ix := Unit) (Name := ℕ) (U := UR sig nD τ) (Lvl := ℕ) pre9 c (fun _ => fullShare) a.1)
  q w := match w with
    | ⟨0, _⟩ => fullShare.left
    | ⟨1, _⟩ => fullShare.right
    | _ => fullShare
  owed _ := 0

theorem A_eq9 (c : Dev nD) (w : Fin (cfg9 a).W) : (dat9 V a c).A w = V c (Pipeline.arrRef spec9 w) := by
  dsimp only [dat9]

theorem after9_0 (c : Dev nD) (t : Fin (cfg9 a).N) : (dat9 V a c).after 0 t = iblk9 V a c 0 t := by dsimp only [dat9]; try rfl
theorem after9_1 (c : Dev nD) (t : Fin (cfg9 a).N) : (dat9 V a c).after 1 t = iblk9 V a c 1 t := by dsimp only [dat9]; try rfl
theorem after9_2 (c : Dev nD) (t : Fin (cfg9 a).N) : (dat9 V a c).after 2 t = iblk9 V a c 2 t := by dsimp only [dat9]; try rfl
theorem after9_3 (c : Dev nD) (t : Fin (cfg9 a).N) : (dat9 V a c).after 3 t = iblk9 V a c 3 t := by dsimp only [dat9]; try rfl
theorem after9_4 (c : Dev nD) (t : Fin (cfg9 a).N) :
    (dat9 V a c).after 4 t = out9 (iblk9 V a c 0 t) (iblk9 V a c 1 t) (iblk9 V a c 2 t) (iblk9 V a c 3 t) := by dsimp only [dat9]; try rfl

/-- An input window's current staging buffer holds its block at every point, fetched there or not: unfetched, the
    block index has not moved. -/
theorem before9_0 (c : Dev nD) (t : Fin (cfg9 a).N) (d) : (dat9 V a c).before 0 t d = iblk9 V a c 0 t :=
  ((dat9 V a c).before_in_eq_fetched 0 rfl (fun _ => rfl) (fun _ _ _ => rfl)
    (fun t => by rw [after9_0]; unfold Dat.blockOf iblk9; rw [A_eq9]; try rfl) t d).trans
    (by unfold Dat.fetched Dat.blockOf iblk9; rw [A_eq9]; try rfl)
theorem before9_1 (c : Dev nD) (t : Fin (cfg9 a).N) (d) : (dat9 V a c).before 1 t d = iblk9 V a c 1 t :=
  ((dat9 V a c).before_in_eq_fetched 1 rfl (fun _ => rfl) (fun _ _ _ => rfl)
    (fun t => by rw [after9_1]; unfold Dat.blockOf iblk9; rw [A_eq9]; try rfl) t d).trans
    (by unfold Dat.fetched Dat.blockOf iblk9; rw [A_eq9]; try rfl)
theorem before9_2 (c : Dev nD) (t : Fin (cfg9 a).N) (d) : (dat9 V a c).before 2 t d = iblk9 V a c 2 t :=
  ((dat9 V a c).before_in_eq_fetched 2 rfl (fun _ => rfl) (fun _ _ _ => rfl)
    (fun t => by rw [after9_2]; unfold Dat.blockOf iblk9; rw [A_eq9]; try rfl) t d).trans
    (by unfold Dat.fetched Dat.blockOf iblk9; rw [A_eq9]; try rfl)
theorem before9_3 (c : Dev nD) (t : Fin (cfg9 a).N) (d) : (dat9 V a c).before 3 t d = iblk9 V a c 3 t :=
  ((dat9 V a c).before_in_eq_fetched 3 rfl (fun _ => rfl) (fun _ _ _ => rfl)
    (fun t => by rw [after9_3]; unfold Dat.blockOf iblk9; rw [A_eq9]; try rfl) t d).trans
    (by unfold Dat.fetched Dat.blockOf iblk9; rw [A_eq9]; try rfl)

/-- What the body is called with at point `t`, the windows one by one, -/
def bodyPre9 (c : Dev nD) (t : Fin (cfg9 a).N) : sProp 𝕄 :=
  iprop((dat9 V a c).Φ t.castSucc ∗ (dat9 V a c).owesAt () t.castSucc
    ∗ (∃ d, owns (c : Thread nD τ) (st9_0 a t) fullShare ((dat9 V a c).before 0 t d))
    ∗ (∃ d, owns (c : Thread nD τ) (st9_1 a t) fullShare ((dat9 V a c).before 1 t d))
    ∗ (∃ d, owns (c : Thread nD τ) (st9_2 a t) fullShare ((dat9 V a c).before 2 t d))
    ∗ (∃ d, owns (c : Thread nD τ) (st9_3 a t) fullShare ((dat9 V a c).before 3 t d))
    ∗ (∃ d, owns (c : Thread nD τ) (st9_4 a t) fullShare ((dat9 V a c).before 4 t d)))

/-- and what it returns. -/
def bodyPost9 (c : Dev nD) (t : Fin (cfg9 a).N) : sProp 𝕄 :=
  iprop((dat9 V a c).Φ t.succ ∗ (dat9 V a c).owesAt () t.succ
    ∗ owns (c : Thread nD τ) (st9_0 a t) fullShare ((dat9 V a c).after 0 t)
    ∗ owns (c : Thread nD τ) (st9_1 a t) fullShare ((dat9 V a c).after 1 t)
    ∗ owns (c : Thread nD τ) (st9_2 a t) fullShare ((dat9 V a c).after 2 t)
    ∗ owns (c : Thread nD τ) (st9_3 a t) fullShare ((dat9 V a c).after 3 t)
    ∗ owns (c : Thread nD τ) (st9_4 a t) fullShare ((dat9 V a c).after 4 t))

/-- The body at any point: the inputs' buffers hold their blocks, so the body's triple applies; the invariant and the
    core's dues pass through unread. -/
theorem sound_body9 (c : Dev nD) (t : Fin (cfg9 a).N) :
    bodyPre9 V a c t ⊢ wp frame (wpE (defs₀ (F := F)) Variants.none c none) Set.univ (bodyAt9 a t) (fun _ => bodyPost9 V a c t) := by
  unfold bodyPre9 bodyPost9 bodyAt9
  simp only [before9_0, before9_1, before9_2, before9_3]
  rw [show (dat9 V a c).Φ t.succ = (dat9 V a c).Φ t.castSucc from rfl,
    show (dat9 V a c).owesAt () t.succ = (dat9 V a c).owesAt () t.castSucc from rfl,
    after9_0, after9_1, after9_2, after9_3, after9_4]
  iintro ⟨HΦ, Ho, ⟨%d0, H0⟩, ⟨%d1, H1⟩, ⟨%d2, H2⟩, ⟨%d3, H3⟩, ⟨%d4, H4⟩⟩
  iapply (sound_kernel9 c Set.univ _ _ _ _ _ _ _ _ _ _ _ _ _ _ _ (iblk9 V a c 0 t) (iblk9 V a c 1 t) (iblk9 V a c 2 t) (iblk9 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation9 (c : Dev nD) : BodyObligation (dat9 (F := F) V a c) (defs₀ (F := F)) Variants.none () Set.univ := fun t => by
  rw [bigSep_W9, bigSep_W9]
  exact sound_body9 V a c t

end Cert.Kernel.Hand

end
-- ==== Proof.KBody10.lean ====
/-
  One edge's score as the kernel body computes it, and the body's triple.

  The body reads the two gathered rows (one row of the node features for the edge's source node, one for its
  destination node), the 256 weights and the bias from its staging buffers, and writes the single score
  `(∑ row_s · W[0:128]) + (∑ row_d · W[128:256]) + b` to its one-element output buffer. `out10` is what the output
  buffer holds afterwards as a function of the four input buffers; `sound_kernel10` says the body, run on whole
  staging buffers holding those contents, ends with the inputs as they were and the output at `out10` of them.
-/
import proofs.«405368_j31662498906597_2_alg».proof.Proof.LaunchKernel
import proofs.«405368_j31662498906597_2_alg».proof.Proof.Gen.Kernel.Skeleton
import proofs.«405368_j31662498906597_2_alg».proof.Proof.KBody0
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The output buffer after the body, from the four input buffers (source row, destination row, weights, bias): its
    one store, of the score. -/
def out10 (x0 x1 : Vec F S1x1x128 .f32) (x2 : Vec F S1x256 .f32) (x3 : Vec F S1x1 .f32) : Vec F S1x1x1 .f32 :=
  View.canon [⟨rO, k10_pay1 (View.ld x2 rW0) (View.ld x2 rW1) (View.ld x0 rH) (View.ld x1 rH) (View.ld x3 rB)⟩]

/-- The one store covers the one-element buffer. -/
theorem cover10 (p0 : Vec F S1x1x1 .f32) (y : S1x1x1.Idx) :
    ∃ pc ∈ ([⟨rO, p0⟩] : List (View.Piece (Elt F) S1x1x1 .f32)), y ∈ pc.1.set :=
  View.cover_of_tiled [⟨rO, p0⟩] S1x1x1.size (by rfl) y

set_option maxHeartbeats 1000000 in
/-- The body on whole staging buffers: the inputs at `x0 … x3`, the output at anything; it ends with the inputs as
    they were and the output at `out10` of them. The two index tables are not touched. -/
theorem sound_kernel10 (c : Dev nD) (E : Set ℕ) (i : grid10.Coords)
    (arg1 : Memref sig .tc .smem S62500 .i32) (harg1 : arg1.IsWhole) (arg2 : Memref sig .tc .smem S62500 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x256 .f32) (harg5 : arg5.IsWhole) (arg6 : Memref sig .tc .vmem S1x1 .f32) (harg6 : arg6.IsWhole)
    (arg7 : Memref sig .tc .vmem S1x1x1 .f32) (harg7 : arg7.IsWhole)
    (x0 x1 : Vec F S1x1x128 .f32) (x2 : Vec F S1x256 .f32) (x3 : Vec F S1x1 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ (∃ d, owns (c : Thread nD τ) arg7 fullShare d)
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare (out10 x0 x1 x2 x3)) -∗ K ⟨⟩))
      ⊢ wp frame (wpE (defs₀ (F := F)) Variants.none c none) E
          (cc10__gather_score_kernel i arg1 harg1 arg2 harg2 arg3 harg3 arg4 harg4 arg5 harg5 arg6 harg6 arg7 harg7) K := by
  -- the printed body is its skeleton of six loads and one store over the payload
  simp only [cc10__gather_score_kernel_eq_skeleton]; unfold cc10__gather_score_kernel_skel
  -- each input's ownership is some contents with the given read; the output's is any contents
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  -- the loads leave every buffer as it was (the value loaded from the output buffer is not used); the store
  -- overwrites the output buffer's one cell with the payload of the five input loads
  sl_exec
  sl_step
  iapply Hk
  -- the four inputs come back at the contents they had
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  -- the output: old contents overwritten by one store that covers the buffer read back as that store alone
  iexists _; isplitr
  swap; · iexact H4
  ipureintro
  exact View.read_writes_eq_canon _ _ _ (cover10 _)

end Cert.Kernel.Hand

end
-- ==== Proof.KDat10.lean ====
/-
  Region 10 of the edge scorer: the pipeline's proof data and the body obligation.

  The region has 62500 grid points, one per edge of its chunk. At point `t` the pipeline stages five blocks: row
  `src t` of the node features (window 0) and row `dst t` (window 1) — both windows read the ONE feature array,
  their block indices taken from the two prefetched index tables —, the 256 weights (window 2), the bias
  (window 3), and the one-element block `t` of the output (window 4). The body leaves every input block as it
  found it and the output block at the edge's score (`out10` of the four input blocks). The two input windows
  on the shared feature array hold it at the two halves of the full share; the tables ride in the invariant,
  whole, untouched (the body never reads them); nothing is owed to other cores.
-/
import proofs.«405368_j31662498906597_2_alg».proof.Proof.KBody10

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffers' contents when the region is entered, per core, and the tables' admissible contents: parameters
variable (V : (c : Dev nD) → (b : Ref sig .tc) → Buf (Elt F) ((c : Thread nD τ).loc b)) (a : (pcfg10 (F := F)).Adm)

/-- Window `w`'s block at point `t`, read off its array as the region finds it. -/
def iblk10 (c : Dev nD) (w : Fin (cfg10 a).W) (t : Fin (cfg10 a).N) :
    (((cfg10 a).win w).xblock ((cfg10 a).grid.coords t)).Idx → Elt F ((cfg10 a).win w).elt :=
  (((cfg10 a).win w).blk t).view.read (Elt F) (V c (Pipeline.arrRef spec10 w))

/-- The current staging memref of each window at point `t`. -/
abbrev st10_0 (t : Fin (cfg10 a).N) := ((cfg10 a).win 0).stage ((cfg10 a).slots t 0)
abbrev st10_1 (t : Fin (cfg10 a).N) := ((cfg10 a).win 1).stage ((cfg10 a).slots t 1)
abbrev st10_2 (t : Fin (cfg10 a).N) := ((cfg10 a).win 2).stage ((cfg10 a).slots t 2)
abbrev st10_3 (t : Fin (cfg10 a).N) := ((cfg10 a).win 3).stage ((cfg10 a).slots t 3)
abbrev st10_4 (t : Fin (cfg10 a).N) := ((cfg10 a).win 4).stage ((cfg10 a).slots t 4)

/-- The kernel body at point `t`, on what the pipeline calls it with. -/
abbrev bodyAt10 (t : Fin (cfg10 a).N) : Prog (TpuEff nD τ sig (Elt F) Λ₀ .tc) PUnit :=
  cc10__gather_score_kernel (grid10.coords t) (Memref.whole main_v42) (Memref.isWhole_whole _) (Memref.whole main_v43) (Memref.isWhole_whole _)
    (spec10_0.stage ((cfg10 a).slots t 0)) (hstage10_0 (((cfg10 a).slots t 0).cast nbuf10_0))
    (spec10_1.stage ((cfg10 a).slots t 1)) (hstage10_1 (((cfg10 a).slots t 1).cast nbuf10_1))
    (spec10_2.stage ((cfg10 a).slots t 2)) (hstage10_2 (((cfg10 a).slots t 2).cast nbuf10_2))
    (spec10_3.stage ((cfg10 a).slots t 3)) (hstage10_3 (((cfg10 a).slots t 3).cast nbuf10_3))
    (spec10_4.stage ((cfg10 a).slots t 4)) (hstage10_4 (((cfg10 a).slots t 4).cast nbuf10_4))

/-- The proof data of pipeline 10 on core `c`. -/
def dat10 (c : Dev nD) : Dat τ (Elt F) Unit ℕ (UR sig nD τ) ℕ (cfg10 a) c where
  A w := V c (Pipeline.arrRef spec10 w)
  after w t := match w with
    | ⟨0, _⟩ => iblk10 V a c 0 t
    | ⟨1, _⟩ => iblk10 V a c 1 t
    | ⟨2, _⟩ => iblk10 V a c 2 t
    | ⟨3, _⟩ => iblk10 V a c 3 t
    | ⟨4, _⟩ => out10 (iblk10 V a c 0 t) (iblk10 V a c 1 t) (iblk10 V a c 2 t) (iblk10 V a c 3 t)
  Φ _ := iprop(Pipeline.ΦA spec10 c ∗ Pipeline.prefHeld (Ix := Unit) (Name := ℕ) (U := UR sig nD τ) (Lvl := ℕ) pre10 c (fun _ => fullShare) a.1)
  q w := match w with
    | ⟨0, _⟩ => fullShare.left
    | ⟨1, _⟩ => fullShare.right
    | _ => fullShare
  owed _ := 0

theorem A_eq10 (c : Dev nD) (w : Fin (cfg10 a).W) : (dat10 V a c).A w = V c (Pipeline.arrRef spec10 w) := by
  dsimp only [dat10]

theorem after10_0 (c : Dev nD) (t : Fin (cfg10 a).N) : (dat10 V a c).after 0 t = iblk10 V a c 0 t := by dsimp only [dat10]; try rfl
theorem after10_1 (c : Dev nD) (t : Fin (cfg10 a).N) : (dat10 V a c).after 1 t = iblk10 V a c 1 t := by dsimp only [dat10]; try rfl
theorem after10_2 (c : Dev nD) (t : Fin (cfg10 a).N) : (dat10 V a c).after 2 t = iblk10 V a c 2 t := by dsimp only [dat10]; try rfl
theorem after10_3 (c : Dev nD) (t : Fin (cfg10 a).N) : (dat10 V a c).after 3 t = iblk10 V a c 3 t := by dsimp only [dat10]; try rfl
theorem after10_4 (c : Dev nD) (t : Fin (cfg10 a).N) :
    (dat10 V a c).after 4 t = out10 (iblk10 V a c 0 t) (iblk10 V a c 1 t) (iblk10 V a c 2 t) (iblk10 V a c 3 t) := by dsimp only [dat10]; try rfl

/-- An input window's current staging buffer holds its block at every point, fetched there or not: unfetched, the
    block index has not moved. -/
theorem before10_0 (c : Dev nD) (t : Fin (cfg10 a).N) (d) : (dat10 V a c).before 0 t d = iblk10 V a c 0 t :=
  ((dat10 V a c).before_in_eq_fetched 0 rfl (fun _ => rfl) (fun _ _ _ => rfl)
    (fun t => by rw [after10_0]; unfold Dat.blockOf iblk10; rw [A_eq10]; try rfl) t d).trans
    (by unfold Dat.fetched Dat.blockOf iblk10; rw [A_eq10]; try rfl)
theorem before10_1 (c : Dev nD) (t : Fin (cfg10 a).N) (d) : (dat10 V a c).before 1 t d = iblk10 V a c 1 t :=
  ((dat10 V a c).before_in_eq_fetched 1 rfl (fun _ => rfl) (fun _ _ _ => rfl)
    (fun t => by rw [after10_1]; unfold Dat.blockOf iblk10; rw [A_eq10]; try rfl) t d).trans
    (by unfold Dat.fetched Dat.blockOf iblk10; rw [A_eq10]; try rfl)
theorem before10_2 (c : Dev nD) (t : Fin (cfg10 a).N) (d) : (dat10 V a c).before 2 t d = iblk10 V a c 2 t :=
  ((dat10 V a c).before_in_eq_fetched 2 rfl (fun _ => rfl) (fun _ _ _ => rfl)
    (fun t => by rw [after10_2]; unfold Dat.blockOf iblk10; rw [A_eq10]; try rfl) t d).trans
    (by unfold Dat.fetched Dat.blockOf iblk10; rw [A_eq10]; try rfl)
theorem before10_3 (c : Dev nD) (t : Fin (cfg10 a).N) (d) : (dat10 V a c).before 3 t d = iblk10 V a c 3 t :=
  ((dat10 V a c).before_in_eq_fetched 3 rfl (fun _ => rfl) (fun _ _ _ => rfl)
    (fun t => by rw [after10_3]; unfold Dat.blockOf iblk10; rw [A_eq10]; try rfl) t d).trans
    (by unfold Dat.fetched Dat.blockOf iblk10; rw [A_eq10]; try rfl)

/-- What the body is called with at point `t`, the windows one by one, -/
def bodyPre10 (c : Dev nD) (t : Fin (cfg10 a).N) : sProp 𝕄 :=
  iprop((dat10 V a c).Φ t.castSucc ∗ (dat10 V a c).owesAt () t.castSucc
    ∗ (∃ d, owns (c : Thread nD τ) (st10_0 a t) fullShare ((dat10 V a c).before 0 t d))
    ∗ (∃ d, owns (c : Thread nD τ) (st10_1 a t) fullShare ((dat10 V a c).before 1 t d))
    ∗ (∃ d, owns (c : Thread nD τ) (st10_2 a t) fullShare ((dat10 V a c).before 2 t d))
    ∗ (∃ d, owns (c : Thread nD τ) (st10_3 a t) fullShare ((dat10 V a c).before 3 t d))
    ∗ (∃ d, owns (c : Thread nD τ) (st10_4 a t) fullShare ((dat10 V a c).before 4 t d)))

/-- and what it returns. -/
def bodyPost10 (c : Dev nD) (t : Fin (cfg10 a).N) : sProp 𝕄 :=
  iprop((dat10 V a c).Φ t.succ ∗ (dat10 V a c).owesAt () t.succ
    ∗ owns (c : Thread nD τ) (st10_0 a t) fullShare ((dat10 V a c).after 0 t)
    ∗ owns (c : Thread nD τ) (st10_1 a t) fullShare ((dat10 V a c).after 1 t)
    ∗ owns (c : Thread nD τ) (st10_2 a t) fullShare ((dat10 V a c).after 2 t)
    ∗ owns (c : Thread nD τ) (st10_3 a t) fullShare ((dat10 V a c).after 3 t)
    ∗ owns (c : Thread nD τ) (st10_4 a t) fullShare ((dat10 V a c).after 4 t))

/-- The body at any point: the inputs' buffers hold their blocks, so the body's triple applies; the invariant and the
    core's dues pass through unread. -/
theorem sound_body10 (c : Dev nD) (t : Fin (cfg10 a).N) :
    bodyPre10 V a c t ⊢ wp frame (wpE (defs₀ (F := F)) Variants.none c none) Set.univ (bodyAt10 a t) (fun _ => bodyPost10 V a c t) := by
  unfold bodyPre10 bodyPost10 bodyAt10
  simp only [before10_0, before10_1, before10_2, before10_3]
  rw [show (dat10 V a c).Φ t.succ = (dat10 V a c).Φ t.castSucc from rfl,
    show (dat10 V a c).owesAt () t.succ = (dat10 V a c).owesAt () t.castSucc from rfl,
    after10_0, after10_1, after10_2, after10_3, after10_4]
  iintro ⟨HΦ, Ho, ⟨%d0, H0⟩, ⟨%d1, H1⟩, ⟨%d2, H2⟩, ⟨%d3, H3⟩, ⟨%d4, H4⟩⟩
  iapply (sound_kernel10 c Set.univ _ _ _ _ _ _ _ _ _ _ _ _ _ _ _ (iblk10 V a c 0 t) (iblk10 V a c 1 t) (iblk10 V a c 2 t) (iblk10 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation10 (c : Dev nD) : BodyObligation (dat10 (F := F) V a c) (defs₀ (F := F)) Variants.none () Set.univ := fun t => by
  rw [bigSep_W10, bigSep_W10]
  exact sound_body10 V a c t

end Cert.Kernel.Hand

end
-- ==== Proof.KBody11.lean ====
/-
  One edge's score as the kernel body computes it, and the body's triple.

  The body reads the two gathered rows (one row of the node features for the edge's source node, one for its
  destination node), the 256 weights and the bias from its staging buffers, and writes the single score
  `(∑ row_s · W[0:128]) + (∑ row_d · W[128:256]) + b` to its one-element output buffer. `out11` is what the output
  buffer holds afterwards as a function of the four input buffers; `sound_kernel11` says the body, run on whole
  staging buffers holding those contents, ends with the inputs as they were and the output at `out11` of them.
-/
import proofs.«405368_j31662498906597_2_alg».proof.Proof.LaunchKernel
import proofs.«405368_j31662498906597_2_alg».proof.Proof.Gen.Kernel.Skeleton
import proofs.«405368_j31662498906597_2_alg».proof.Proof.KBody0
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The output buffer after the body, from the four input buffers (source row, destination row, weights, bias): its
    one store, of the score. -/
def out11 (x0 x1 : Vec F S1x1x128 .f32) (x2 : Vec F S1x256 .f32) (x3 : Vec F S1x1 .f32) : Vec F S1x1x1 .f32 :=
  View.canon [⟨rO, k11_pay1 (View.ld x2 rW0) (View.ld x2 rW1) (View.ld x0 rH) (View.ld x1 rH) (View.ld x3 rB)⟩]

/-- The one store covers the one-element buffer. -/
theorem cover11 (p0 : Vec F S1x1x1 .f32) (y : S1x1x1.Idx) :
    ∃ pc ∈ ([⟨rO, p0⟩] : List (View.Piece (Elt F) S1x1x1 .f32)), y ∈ pc.1.set :=
  View.cover_of_tiled [⟨rO, p0⟩] S1x1x1.size (by rfl) y

set_option maxHeartbeats 1000000 in
/-- The body on whole staging buffers: the inputs at `x0 … x3`, the output at anything; it ends with the inputs as
    they were and the output at `out11` of them. The two index tables are not touched. -/
theorem sound_kernel11 (c : Dev nD) (E : Set ℕ) (i : grid11.Coords)
    (arg1 : Memref sig .tc .smem S62500 .i32) (harg1 : arg1.IsWhole) (arg2 : Memref sig .tc .smem S62500 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x256 .f32) (harg5 : arg5.IsWhole) (arg6 : Memref sig .tc .vmem S1x1 .f32) (harg6 : arg6.IsWhole)
    (arg7 : Memref sig .tc .vmem S1x1x1 .f32) (harg7 : arg7.IsWhole)
    (x0 x1 : Vec F S1x1x128 .f32) (x2 : Vec F S1x256 .f32) (x3 : Vec F S1x1 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ (∃ d, owns (c : Thread nD τ) arg7 fullShare d)
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare (out11 x0 x1 x2 x3)) -∗ K ⟨⟩))
      ⊢ wp frame (wpE (defs₀ (F := F)) Variants.none c none) E
          (cc11__gather_score_kernel i arg1 harg1 arg2 harg2 arg3 harg3 arg4 harg4 arg5 harg5 arg6 harg6 arg7 harg7) K := by
  -- the printed body is its skeleton of six loads and one store over the payload
  simp only [cc11__gather_score_kernel_eq_skeleton]; unfold cc11__gather_score_kernel_skel
  -- each input's ownership is some contents with the given read; the output's is any contents
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  -- the loads leave every buffer as it was (the value loaded from the output buffer is not used); the store
  -- overwrites the output buffer's one cell with the payload of the five input loads
  sl_exec
  sl_step
  iapply Hk
  -- the four inputs come back at the contents they had
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  -- the output: old contents overwritten by one store that covers the buffer read back as that store alone
  iexists _; isplitr
  swap; · iexact H4
  ipureintro
  exact View.read_writes_eq_canon _ _ _ (cover11 _)

end Cert.Kernel.Hand

end
-- ==== Proof.KDat11.lean ====
/-
  Region 11 of the edge scorer: the pipeline's proof data and the body obligation.

  The region has 62500 grid points, one per edge of its chunk. At point `t` the pipeline stages five blocks: row
  `src t` of the node features (window 0) and row `dst t` (window 1) — both windows read the ONE feature array,
  their block indices taken from the two prefetched index tables —, the 256 weights (window 2), the bias
  (window 3), and the one-element block `t` of the output (window 4). The body leaves every input block as it
  found it and the output block at the edge's score (`out11` of the four input blocks). The two input windows
  on the shared feature array hold it at the two halves of the full share; the tables ride in the invariant,
  whole, untouched (the body never reads them); nothing is owed to other cores.
-/
import proofs.«405368_j31662498906597_2_alg».proof.Proof.KBody11

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffers' contents when the region is entered, per core, and the tables' admissible contents: parameters
variable (V : (c : Dev nD) → (b : Ref sig .tc) → Buf (Elt F) ((c : Thread nD τ).loc b)) (a : (pcfg11 (F := F)).Adm)

/-- Window `w`'s block at point `t`, read off its array as the region finds it. -/
def iblk11 (c : Dev nD) (w : Fin (cfg11 a).W) (t : Fin (cfg11 a).N) :
    (((cfg11 a).win w).xblock ((cfg11 a).grid.coords t)).Idx → Elt F ((cfg11 a).win w).elt :=
  (((cfg11 a).win w).blk t).view.read (Elt F) (V c (Pipeline.arrRef spec11 w))

/-- The current staging memref of each window at point `t`. -/
abbrev st11_0 (t : Fin (cfg11 a).N) := ((cfg11 a).win 0).stage ((cfg11 a).slots t 0)
abbrev st11_1 (t : Fin (cfg11 a).N) := ((cfg11 a).win 1).stage ((cfg11 a).slots t 1)
abbrev st11_2 (t : Fin (cfg11 a).N) := ((cfg11 a).win 2).stage ((cfg11 a).slots t 2)
abbrev st11_3 (t : Fin (cfg11 a).N) := ((cfg11 a).win 3).stage ((cfg11 a).slots t 3)
abbrev st11_4 (t : Fin (cfg11 a).N) := ((cfg11 a).win 4).stage ((cfg11 a).slots t 4)

/-- The kernel body at point `t`, on what the pipeline calls it with. -/
abbrev bodyAt11 (t : Fin (cfg11 a).N) : Prog (TpuEff nD τ sig (Elt F) Λ₀ .tc) PUnit :=
  cc11__gather_score_kernel (grid11.coords t) (Memref.whole main_v46) (Memref.isWhole_whole _) (Memref.whole main_v47) (Memref.isWhole_whole _)
    (spec11_0.stage ((cfg11 a).slots t 0)) (hstage11_0 (((cfg11 a).slots t 0).cast nbuf11_0))
    (spec11_1.stage ((cfg11 a).slots t 1)) (hstage11_1 (((cfg11 a).slots t 1).cast nbuf11_1))
    (spec11_2.stage ((cfg11 a).slots t 2)) (hstage11_2 (((cfg11 a).slots t 2).cast nbuf11_2))
    (spec11_3.stage ((cfg11 a).slots t 3)) (hstage11_3 (((cfg11 a).slots t 3).cast nbuf11_3))
    (spec11_4.stage ((cfg11 a).slots t 4)) (hstage11_4 (((cfg11 a).slots t 4).cast nbuf11_4))

/-- The proof data of pipeline 11 on core `c`. -/
def dat11 (c : Dev nD) : Dat τ (Elt F) Unit ℕ (UR sig nD τ) ℕ (cfg11 a) c where
  A w := V c (Pipeline.arrRef spec11 w)
  after w t := match w with
    | ⟨0, _⟩ => iblk11 V a c 0 t
    | ⟨1, _⟩ => iblk11 V a c 1 t
    | ⟨2, _⟩ => iblk11 V a c 2 t
    | ⟨3, _⟩ => iblk11 V a c 3 t
    | ⟨4, _⟩ => out11 (iblk11 V a c 0 t) (iblk11 V a c 1 t) (iblk11 V a c 2 t) (iblk11 V a c 3 t)
  Φ _ := iprop(Pipeline.ΦA spec11 c ∗ Pipeline.prefHeld (Ix := Unit) (Name := ℕ) (U := UR sig nD τ) (Lvl := ℕ) pre11 c (fun _ => fullShare) a.1)
  q w := match w with
    | ⟨0, _⟩ => fullShare.left
    | ⟨1, _⟩ => fullShare.right
    | _ => fullShare
  owed _ := 0

theorem A_eq11 (c : Dev nD) (w : Fin (cfg11 a).W) : (dat11 V a c).A w = V c (Pipeline.arrRef spec11 w) := by
  dsimp only [dat11]

theorem after11_0 (c : Dev nD) (t : Fin (cfg11 a).N) : (dat11 V a c).after 0 t = iblk11 V a c 0 t := by dsimp only [dat11]; try rfl
theorem after11_1 (c : Dev nD) (t : Fin (cfg11 a).N) : (dat11 V a c).after 1 t = iblk11 V a c 1 t := by dsimp only [dat11]; try rfl
theorem after11_2 (c : Dev nD) (t : Fin (cfg11 a).N) : (dat11 V a c).after 2 t = iblk11 V a c 2 t := by dsimp only [dat11]; try rfl
theorem after11_3 (c : Dev nD) (t : Fin (cfg11 a).N) : (dat11 V a c).after 3 t = iblk11 V a c 3 t := by dsimp only [dat11]; try rfl
theorem after11_4 (c : Dev nD) (t : Fin (cfg11 a).N) :
    (dat11 V a c).after 4 t = out11 (iblk11 V a c 0 t) (iblk11 V a c 1 t) (iblk11 V a c 2 t) (iblk11 V a c 3 t) := by dsimp only [dat11]; try rfl

/-- An input window's current staging buffer holds its block at every point, fetched there or not: unfetched, the
    block index has not moved. -/
theorem before11_0 (c : Dev nD) (t : Fin (cfg11 a).N) (d) : (dat11 V a c).before 0 t d = iblk11 V a c 0 t :=
  ((dat11 V a c).before_in_eq_fetched 0 rfl (fun _ => rfl) (fun _ _ _ => rfl)
    (fun t => by rw [after11_0]; unfold Dat.blockOf iblk11; rw [A_eq11]; try rfl) t d).trans
    (by unfold Dat.fetched Dat.blockOf iblk11; rw [A_eq11]; try rfl)
theorem before11_1 (c : Dev nD) (t : Fin (cfg11 a).N) (d) : (dat11 V a c).before 1 t d = iblk11 V a c 1 t :=
  ((dat11 V a c).before_in_eq_fetched 1 rfl (fun _ => rfl) (fun _ _ _ => rfl)
    (fun t => by rw [after11_1]; unfold Dat.blockOf iblk11; rw [A_eq11]; try rfl) t d).trans
    (by unfold Dat.fetched Dat.blockOf iblk11; rw [A_eq11]; try rfl)
theorem before11_2 (c : Dev nD) (t : Fin (cfg11 a).N) (d) : (dat11 V a c).before 2 t d = iblk11 V a c 2 t :=
  ((dat11 V a c).before_in_eq_fetched 2 rfl (fun _ => rfl) (fun _ _ _ => rfl)
    (fun t => by rw [after11_2]; unfold Dat.blockOf iblk11; rw [A_eq11]; try rfl) t d).trans
    (by unfold Dat.fetched Dat.blockOf iblk11; rw [A_eq11]; try rfl)
theorem before11_3 (c : Dev nD) (t : Fin (cfg11 a).N) (d) : (dat11 V a c).before 3 t d = iblk11 V a c 3 t :=
  ((dat11 V a c).before_in_eq_fetched 3 rfl (fun _ => rfl) (fun _ _ _ => rfl)
    (fun t => by rw [after11_3]; unfold Dat.blockOf iblk11; rw [A_eq11]; try rfl) t d).trans
    (by unfold Dat.fetched Dat.blockOf iblk11; rw [A_eq11]; try rfl)

/-- What the body is called with at point `t`, the windows one by one, -/
def bodyPre11 (c : Dev nD) (t : Fin (cfg11 a).N) : sProp 𝕄 :=
  iprop((dat11 V a c).Φ t.castSucc ∗ (dat11 V a c).owesAt () t.castSucc
    ∗ (∃ d, owns (c : Thread nD τ) (st11_0 a t) fullShare ((dat11 V a c).before 0 t d))
    ∗ (∃ d, owns (c : Thread nD τ) (st11_1 a t) fullShare ((dat11 V a c).before 1 t d))
    ∗ (∃ d, owns (c : Thread nD τ) (st11_2 a t) fullShare ((dat11 V a c).before 2 t d))
    ∗ (∃ d, owns (c : Thread nD τ) (st11_3 a t) fullShare ((dat11 V a c).before 3 t d))
    ∗ (∃ d, owns (c : Thread nD τ) (st11_4 a t) fullShare ((dat11 V a c).before 4 t d)))

/-- and what it returns. -/
def bodyPost11 (c : Dev nD) (t : Fin (cfg11 a).N) : sProp 𝕄 :=
  iprop((dat11 V a c).Φ t.succ ∗ (dat11 V a c).owesAt () t.succ
    ∗ owns (c : Thread nD τ) (st11_0 a t) fullShare ((dat11 V a c).after 0 t)
    ∗ owns (c : Thread nD τ) (st11_1 a t) fullShare ((dat11 V a c).after 1 t)
    ∗ owns (c : Thread nD τ) (st11_2 a t) fullShare ((dat11 V a c).after 2 t)
    ∗ owns (c : Thread nD τ) (st11_3 a t) fullShare ((dat11 V a c).after 3 t)
    ∗ owns (c : Thread nD τ) (st11_4 a t) fullShare ((dat11 V a c).after 4 t))

/-- The body at any point: the inputs' buffers hold their blocks, so the body's triple applies; the invariant and the
    core's dues pass through unread. -/
theorem sound_body11 (c : Dev nD) (t : Fin (cfg11 a).N) :
    bodyPre11 V a c t ⊢ wp frame (wpE (defs₀ (F := F)) Variants.none c none) Set.univ (bodyAt11 a t) (fun _ => bodyPost11 V a c t) := by
  unfold bodyPre11 bodyPost11 bodyAt11
  simp only [before11_0, before11_1, before11_2, before11_3]
  rw [show (dat11 V a c).Φ t.succ = (dat11 V a c).Φ t.castSucc from rfl,
    show (dat11 V a c).owesAt () t.succ = (dat11 V a c).owesAt () t.castSucc from rfl,
    after11_0, after11_1, after11_2, after11_3, after11_4]
  iintro ⟨HΦ, Ho, ⟨%d0, H0⟩, ⟨%d1, H1⟩, ⟨%d2, H2⟩, ⟨%d3, H3⟩, ⟨%d4, H4⟩⟩
  iapply (sound_kernel11 c Set.univ _ _ _ _ _ _ _ _ _ _ _ _ _ _ _ (iblk11 V a c 0 t) (iblk11 V a c 1 t) (iblk11 V a c 2 t) (iblk11 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation11 (c : Dev nD) : BodyObligation (dat11 (F := F) V a c) (defs₀ (F := F)) Variants.none () Set.univ := fun t => by
  rw [bigSep_W11, bigSep_W11]
  exact sound_body11 V a c t

end Cert.Kernel.Hand

end
-- ==== Proof.KBody12.lean ====
/-
  One edge's score as the kernel body computes it, and the body's triple.

  The body reads the two gathered rows (one row of the node features for the edge's source node, one for its
  destination node), the 256 weights and the bias from its staging buffers, and writes the single score
  `(∑ row_s · W[0:128]) + (∑ row_d · W[128:256]) + b` to its one-element output buffer. `out12` is what the output
  buffer holds afterwards as a function of the four input buffers; `sound_kernel12` says the body, run on whole
  staging buffers holding those contents, ends with the inputs as they were and the output at `out12` of them.
-/
import proofs.«405368_j31662498906597_2_alg».proof.Proof.LaunchKernel
import proofs.«405368_j31662498906597_2_alg».proof.Proof.Gen.Kernel.Skeleton
import proofs.«405368_j31662498906597_2_alg».proof.Proof.KBody0
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The output buffer after the body, from the four input buffers (source row, destination row, weights, bias): its
    one store, of the score. -/
def out12 (x0 x1 : Vec F S1x1x128 .f32) (x2 : Vec F S1x256 .f32) (x3 : Vec F S1x1 .f32) : Vec F S1x1x1 .f32 :=
  View.canon [⟨rO, k12_pay1 (View.ld x2 rW0) (View.ld x2 rW1) (View.ld x0 rH) (View.ld x1 rH) (View.ld x3 rB)⟩]

/-- The one store covers the one-element buffer. -/
theorem cover12 (p0 : Vec F S1x1x1 .f32) (y : S1x1x1.Idx) :
    ∃ pc ∈ ([⟨rO, p0⟩] : List (View.Piece (Elt F) S1x1x1 .f32)), y ∈ pc.1.set :=
  View.cover_of_tiled [⟨rO, p0⟩] S1x1x1.size (by rfl) y

set_option maxHeartbeats 1000000 in
/-- The body on whole staging buffers: the inputs at `x0 … x3`, the output at anything; it ends with the inputs as
    they were and the output at `out12` of them. The two index tables are not touched. -/
theorem sound_kernel12 (c : Dev nD) (E : Set ℕ) (i : grid12.Coords)
    (arg1 : Memref sig .tc .smem S62500 .i32) (harg1 : arg1.IsWhole) (arg2 : Memref sig .tc .smem S62500 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x256 .f32) (harg5 : arg5.IsWhole) (arg6 : Memref sig .tc .vmem S1x1 .f32) (harg6 : arg6.IsWhole)
    (arg7 : Memref sig .tc .vmem S1x1x1 .f32) (harg7 : arg7.IsWhole)
    (x0 x1 : Vec F S1x1x128 .f32) (x2 : Vec F S1x256 .f32) (x3 : Vec F S1x1 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ (∃ d, owns (c : Thread nD τ) arg7 fullShare d)
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare (out12 x0 x1 x2 x3)) -∗ K ⟨⟩))
      ⊢ wp frame (wpE (defs₀ (F := F)) Variants.none c none) E
          (cc12__gather_score_kernel i arg1 harg1 arg2 harg2 arg3 harg3 arg4 harg4 arg5 harg5 arg6 harg6 arg7 harg7) K := by
  -- the printed body is its skeleton of six loads and one store over the payload
  simp only [cc12__gather_score_kernel_eq_skeleton]; unfold cc12__gather_score_kernel_skel
  -- each input's ownership is some contents with the given read; the output's is any contents
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  -- the loads leave every buffer as it was (the value loaded from the output buffer is not used); the store
  -- overwrites the output buffer's one cell with the payload of the five input loads
  sl_exec
  sl_step
  iapply Hk
  -- the four inputs come back at the contents they had
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  -- the output: old contents overwritten by one store that covers the buffer read back as that store alone
  iexists _; isplitr
  swap; · iexact H4
  ipureintro
  exact View.read_writes_eq_canon _ _ _ (cover12 _)

end Cert.Kernel.Hand

end
-- ==== Proof.KDat12.lean ====
/-
  Region 12 of the edge scorer: the pipeline's proof data and the body obligation.

  The region has 62500 grid points, one per edge of its chunk. At point `t` the pipeline stages five blocks: row
  `src t` of the node features (window 0) and row `dst t` (window 1) — both windows read the ONE feature array,
  their block indices taken from the two prefetched index tables —, the 256 weights (window 2), the bias
  (window 3), and the one-element block `t` of the output (window 4). The body leaves every input block as it
  found it and the output block at the edge's score (`out12` of the four input blocks). The two input windows
  on the shared feature array hold it at the two halves of the full share; the tables ride in the invariant,
  whole, untouched (the body never reads them); nothing is owed to other cores.
-/
import proofs.«405368_j31662498906597_2_alg».proof.Proof.KBody12

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffers' contents when the region is entered, per core, and the tables' admissible contents: parameters
variable (V : (c : Dev nD) → (b : Ref sig .tc) → Buf (Elt F) ((c : Thread nD τ).loc b)) (a : (pcfg12 (F := F)).Adm)

/-- Window `w`'s block at point `t`, read off its array as the region finds it. -/
def iblk12 (c : Dev nD) (w : Fin (cfg12 a).W) (t : Fin (cfg12 a).N) :
    (((cfg12 a).win w).xblock ((cfg12 a).grid.coords t)).Idx → Elt F ((cfg12 a).win w).elt :=
  (((cfg12 a).win w).blk t).view.read (Elt F) (V c (Pipeline.arrRef spec12 w))

/-- The current staging memref of each window at point `t`. -/
abbrev st12_0 (t : Fin (cfg12 a).N) := ((cfg12 a).win 0).stage ((cfg12 a).slots t 0)
abbrev st12_1 (t : Fin (cfg12 a).N) := ((cfg12 a).win 1).stage ((cfg12 a).slots t 1)
abbrev st12_2 (t : Fin (cfg12 a).N) := ((cfg12 a).win 2).stage ((cfg12 a).slots t 2)
abbrev st12_3 (t : Fin (cfg12 a).N) := ((cfg12 a).win 3).stage ((cfg12 a).slots t 3)
abbrev st12_4 (t : Fin (cfg12 a).N) := ((cfg12 a).win 4).stage ((cfg12 a).slots t 4)

/-- The kernel body at point `t`, on what the pipeline calls it with. -/
abbrev bodyAt12 (t : Fin (cfg12 a).N) : Prog (TpuEff nD τ sig (Elt F) Λ₀ .tc) PUnit :=
  cc12__gather_score_kernel (grid12.coords t) (Memref.whole main_v50) (Memref.isWhole_whole _) (Memref.whole main_v51) (Memref.isWhole_whole _)
    (spec12_0.stage ((cfg12 a).slots t 0)) (hstage12_0 (((cfg12 a).slots t 0).cast nbuf12_0))
    (spec12_1.stage ((cfg12 a).slots t 1)) (hstage12_1 (((cfg12 a).slots t 1).cast nbuf12_1))
    (spec12_2.stage ((cfg12 a).slots t 2)) (hstage12_2 (((cfg12 a).slots t 2).cast nbuf12_2))
    (spec12_3.stage ((cfg12 a).slots t 3)) (hstage12_3 (((cfg12 a).slots t 3).cast nbuf12_3))
    (spec12_4.stage ((cfg12 a).slots t 4)) (hstage12_4 (((cfg12 a).slots t 4).cast nbuf12_4))

/-- The proof data of pipeline 12 on core `c`. -/
def dat12 (c : Dev nD) : Dat τ (Elt F) Unit ℕ (UR sig nD τ) ℕ (cfg12 a) c where
  A w := V c (Pipeline.arrRef spec12 w)
  after w t := match w with
    | ⟨0, _⟩ => iblk12 V a c 0 t
    | ⟨1, _⟩ => iblk12 V a c 1 t
    | ⟨2, _⟩ => iblk12 V a c 2 t
    | ⟨3, _⟩ => iblk12 V a c 3 t
    | ⟨4, _⟩ => out12 (iblk12 V a c 0 t) (iblk12 V a c 1 t) (iblk12 V a c 2 t) (iblk12 V a c 3 t)
  Φ _ := iprop(Pipeline.ΦA spec12 c ∗ Pipeline.prefHeld (Ix := Unit) (Name := ℕ) (U := UR sig nD τ) (Lvl := ℕ) pre12 c (fun _ => fullShare) a.1)
  q w := match w with
    | ⟨0, _⟩ => fullShare.left
    | ⟨1, _⟩ => fullShare.right
    | _ => fullShare
  owed _ := 0

theorem A_eq12 (c : Dev nD) (w : Fin (cfg12 a).W) : (dat12 V a c).A w = V c (Pipeline.arrRef spec12 w) := by
  dsimp only [dat12]

theorem after12_0 (c : Dev nD) (t : Fin (cfg12 a).N) : (dat12 V a c).after 0 t = iblk12 V a c 0 t := by dsimp only [dat12]; try rfl
theorem after12_1 (c : Dev nD) (t : Fin (cfg12 a).N) : (dat12 V a c).after 1 t = iblk12 V a c 1 t := by dsimp only [dat12]; try rfl
theorem after12_2 (c : Dev nD) (t : Fin (cfg12 a).N) : (dat12 V a c).after 2 t = iblk12 V a c 2 t := by dsimp only [dat12]; try rfl
theorem after12_3 (c : Dev nD) (t : Fin (cfg12 a).N) : (dat12 V a c).after 3 t = iblk12 V a c 3 t := by dsimp only [dat12]; try rfl
theorem after12_4 (c : Dev nD) (t : Fin (cfg12 a).N) :
    (dat12 V a c).after 4 t = out12 (iblk12 V a c 0 t) (iblk12 V a c 1 t) (iblk12 V a c 2 t) (iblk12 V a c 3 t) := by dsimp only [dat12]; try rfl

/-- An input window's current staging buffer holds its block at every point, fetched there or not: unfetched, the
    block index has not moved. -/
theorem before12_0 (c : Dev nD) (t : Fin (cfg12 a).N) (d) : (dat12 V a c).before 0 t d = iblk12 V a c 0 t :=
  ((dat12 V a c).before_in_eq_fetched 0 rfl (fun _ => rfl) (fun _ _ _ => rfl)
    (fun t => by rw [after12_0]; unfold Dat.blockOf iblk12; rw [A_eq12]; try rfl) t d).trans
    (by unfold Dat.fetched Dat.blockOf iblk12; rw [A_eq12]; try rfl)
theorem before12_1 (c : Dev nD) (t : Fin (cfg12 a).N) (d) : (dat12 V a c).before 1 t d = iblk12 V a c 1 t :=
  ((dat12 V a c).before_in_eq_fetched 1 rfl (fun _ => rfl) (fun _ _ _ => rfl)
    (fun t => by rw [after12_1]; unfold Dat.blockOf iblk12; rw [A_eq12]; try rfl) t d).trans
    (by unfold Dat.fetched Dat.blockOf iblk12; rw [A_eq12]; try rfl)
theorem before12_2 (c : Dev nD) (t : Fin (cfg12 a).N) (d) : (dat12 V a c).before 2 t d = iblk12 V a c 2 t :=
  ((dat12 V a c).before_in_eq_fetched 2 rfl (fun _ => rfl) (fun _ _ _ => rfl)
    (fun t => by rw [after12_2]; unfold Dat.blockOf iblk12; rw [A_eq12]; try rfl) t d).trans
    (by unfold Dat.fetched Dat.blockOf iblk12; rw [A_eq12]; try rfl)
theorem before12_3 (c : Dev nD) (t : Fin (cfg12 a).N) (d) : (dat12 V a c).before 3 t d = iblk12 V a c 3 t :=
  ((dat12 V a c).before_in_eq_fetched 3 rfl (fun _ => rfl) (fun _ _ _ => rfl)
    (fun t => by rw [after12_3]; unfold Dat.blockOf iblk12; rw [A_eq12]; try rfl) t d).trans
    (by unfold Dat.fetched Dat.blockOf iblk12; rw [A_eq12]; try rfl)

/-- What the body is called with at point `t`, the windows one by one, -/
def bodyPre12 (c : Dev nD) (t : Fin (cfg12 a).N) : sProp 𝕄 :=
  iprop((dat12 V a c).Φ t.castSucc ∗ (dat12 V a c).owesAt () t.castSucc
    ∗ (∃ d, owns (c : Thread nD τ) (st12_0 a t) fullShare ((dat12 V a c).before 0 t d))
    ∗ (∃ d, owns (c : Thread nD τ) (st12_1 a t) fullShare ((dat12 V a c).before 1 t d))
    ∗ (∃ d, owns (c : Thread nD τ) (st12_2 a t) fullShare ((dat12 V a c).before 2 t d))
    ∗ (∃ d, owns (c : Thread nD τ) (st12_3 a t) fullShare ((dat12 V a c).before 3 t d))
    ∗ (∃ d, owns (c : Thread nD τ) (st12_4 a t) fullShare ((dat12 V a c).before 4 t d)))

/-- and what it returns. -/
def bodyPost12 (c : Dev nD) (t : Fin (cfg12 a).N) : sProp 𝕄 :=
  iprop((dat12 V a c).Φ t.succ ∗ (dat12 V a c).owesAt () t.succ
    ∗ owns (c : Thread nD τ) (st12_0 a t) fullShare ((dat12 V a c).after 0 t)
    ∗ owns (c : Thread nD τ) (st12_1 a t) fullShare ((dat12 V a c).after 1 t)
    ∗ owns (c : Thread nD τ) (st12_2 a t) fullShare ((dat12 V a c).after 2 t)
    ∗ owns (c : Thread nD τ) (st12_3 a t) fullShare ((dat12 V a c).after 3 t)
    ∗ owns (c : Thread nD τ) (st12_4 a t) fullShare ((dat12 V a c).after 4 t))

/-- The body at any point: the inputs' buffers hold their blocks, so the body's triple applies; the invariant and the
    core's dues pass through unread. -/
theorem sound_body12 (c : Dev nD) (t : Fin (cfg12 a).N) :
    bodyPre12 V a c t ⊢ wp frame (wpE (defs₀ (F := F)) Variants.none c none) Set.univ (bodyAt12 a t) (fun _ => bodyPost12 V a c t) := by
  unfold bodyPre12 bodyPost12 bodyAt12
  simp only [before12_0, before12_1, before12_2, before12_3]
  rw [show (dat12 V a c).Φ t.succ = (dat12 V a c).Φ t.castSucc from rfl,
    show (dat12 V a c).owesAt () t.succ = (dat12 V a c).owesAt () t.castSucc from rfl,
    after12_0, after12_1, after12_2, after12_3, after12_4]
  iintro ⟨HΦ, Ho, ⟨%d0, H0⟩, ⟨%d1, H1⟩, ⟨%d2, H2⟩, ⟨%d3, H3⟩, ⟨%d4, H4⟩⟩
  iapply (sound_kernel12 c Set.univ _ _ _ _ _ _ _ _ _ _ _ _ _ _ _ (iblk12 V a c 0 t) (iblk12 V a c 1 t) (iblk12 V a c 2 t) (iblk12 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation12 (c : Dev nD) : BodyObligation (dat12 (F := F) V a c) (defs₀ (F := F)) Variants.none () Set.univ := fun t => by
  rw [bigSep_W12, bigSep_W12]
  exact sound_body12 V a c t

end Cert.Kernel.Hand

end
-- ==== Proof.KBody13.lean ====
/-
  One edge's score as the kernel body computes it, and the body's triple.

  The body reads the two gathered rows (one row of the node features for the edge's source node, one for its
  destination node), the 256 weights and the bias from its staging buffers, and writes the single score
  `(∑ row_s · W[0:128]) + (∑ row_d · W[128:256]) + b` to its one-element output buffer. `out13` is what the output
  buffer holds afterwards as a function of the four input buffers; `sound_kernel13` says the body, run on whole
  staging buffers holding those contents, ends with the inputs as they were and the output at `out13` of them.
-/
import proofs.«405368_j31662498906597_2_alg».proof.Proof.LaunchKernel
import proofs.«405368_j31662498906597_2_alg».proof.Proof.Gen.Kernel.Skeleton
import proofs.«405368_j31662498906597_2_alg».proof.Proof.KBody0
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The output buffer after the body, from the four input buffers (source row, destination row, weights, bias): its
    one store, of the score. -/
def out13 (x0 x1 : Vec F S1x1x128 .f32) (x2 : Vec F S1x256 .f32) (x3 : Vec F S1x1 .f32) : Vec F S1x1x1 .f32 :=
  View.canon [⟨rO, k13_pay1 (View.ld x2 rW0) (View.ld x2 rW1) (View.ld x0 rH) (View.ld x1 rH) (View.ld x3 rB)⟩]

/-- The one store covers the one-element buffer. -/
theorem cover13 (p0 : Vec F S1x1x1 .f32) (y : S1x1x1.Idx) :
    ∃ pc ∈ ([⟨rO, p0⟩] : List (View.Piece (Elt F) S1x1x1 .f32)), y ∈ pc.1.set :=
  View.cover_of_tiled [⟨rO, p0⟩] S1x1x1.size (by rfl) y

set_option maxHeartbeats 1000000 in
/-- The body on whole staging buffers: the inputs at `x0 … x3`, the output at anything; it ends with the inputs as
    they were and the output at `out13` of them. The two index tables are not touched. -/
theorem sound_kernel13 (c : Dev nD) (E : Set ℕ) (i : grid13.Coords)
    (arg1 : Memref sig .tc .smem S62500 .i32) (harg1 : arg1.IsWhole) (arg2 : Memref sig .tc .smem S62500 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x256 .f32) (harg5 : arg5.IsWhole) (arg6 : Memref sig .tc .vmem S1x1 .f32) (harg6 : arg6.IsWhole)
    (arg7 : Memref sig .tc .vmem S1x1x1 .f32) (harg7 : arg7.IsWhole)
    (x0 x1 : Vec F S1x1x128 .f32) (x2 : Vec F S1x256 .f32) (x3 : Vec F S1x1 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ (∃ d, owns (c : Thread nD τ) arg7 fullShare d)
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare (out13 x0 x1 x2 x3)) -∗ K ⟨⟩))
      ⊢ wp frame (wpE (defs₀ (F := F)) Variants.none c none) E
          (cc13__gather_score_kernel i arg1 harg1 arg2 harg2 arg3 harg3 arg4 harg4 arg5 harg5 arg6 harg6 arg7 harg7) K := by
  -- the printed body is its skeleton of six loads and one store over the payload
  simp only [cc13__gather_score_kernel_eq_skeleton]; unfold cc13__gather_score_kernel_skel
  -- each input's ownership is some contents with the given read; the output's is any contents
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  -- the loads leave every buffer as it was (the value loaded from the output buffer is not used); the store
  -- overwrites the output buffer's one cell with the payload of the five input loads
  sl_exec
  sl_step
  iapply Hk
  -- the four inputs come back at the contents they had
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  -- the output: old contents overwritten by one store that covers the buffer read back as that store alone
  iexists _; isplitr
  swap; · iexact H4
  ipureintro
  exact View.read_writes_eq_canon _ _ _ (cover13 _)

end Cert.Kernel.Hand

end
-- ==== Proof.KDat13.lean ====
/-
  Region 13 of the edge scorer: the pipeline's proof data and the body obligation.

  The region has 62500 grid points, one per edge of its chunk. At point `t` the pipeline stages five blocks: row
  `src t` of the node features (window 0) and row `dst t` (window 1) — both windows read the ONE feature array,
  their block indices taken from the two prefetched index tables —, the 256 weights (window 2), the bias
  (window 3), and the one-element block `t` of the output (window 4). The body leaves every input block as it
  found it and the output block at the edge's score (`out13` of the four input blocks). The two input windows
  on the shared feature array hold it at the two halves of the full share; the tables ride in the invariant,
  whole, untouched (the body never reads them); nothing is owed to other cores.
-/
import proofs.«405368_j31662498906597_2_alg».proof.Proof.KBody13

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffers' contents when the region is entered, per core, and the tables' admissible contents: parameters
variable (V : (c : Dev nD) → (b : Ref sig .tc) → Buf (Elt F) ((c : Thread nD τ).loc b)) (a : (pcfg13 (F := F)).Adm)

/-- Window `w`'s block at point `t`, read off its array as the region finds it. -/
def iblk13 (c : Dev nD) (w : Fin (cfg13 a).W) (t : Fin (cfg13 a).N) :
    (((cfg13 a).win w).xblock ((cfg13 a).grid.coords t)).Idx → Elt F ((cfg13 a).win w).elt :=
  (((cfg13 a).win w).blk t).view.read (Elt F) (V c (Pipeline.arrRef spec13 w))

/-- The current staging memref of each window at point `t`. -/
abbrev st13_0 (t : Fin (cfg13 a).N) := ((cfg13 a).win 0).stage ((cfg13 a).slots t 0)
abbrev st13_1 (t : Fin (cfg13 a).N) := ((cfg13 a).win 1).stage ((cfg13 a).slots t 1)
abbrev st13_2 (t : Fin (cfg13 a).N) := ((cfg13 a).win 2).stage ((cfg13 a).slots t 2)
abbrev st13_3 (t : Fin (cfg13 a).N) := ((cfg13 a).win 3).stage ((cfg13 a).slots t 3)
abbrev st13_4 (t : Fin (cfg13 a).N) := ((cfg13 a).win 4).stage ((cfg13 a).slots t 4)

/-- The kernel body at point `t`, on what the pipeline calls it with. -/
abbrev bodyAt13 (t : Fin (cfg13 a).N) : Prog (TpuEff nD τ sig (Elt F) Λ₀ .tc) PUnit :=
  cc13__gather_score_kernel (grid13.coords t) (Memref.whole main_v54) (Memref.isWhole_whole _) (Memref.whole main_v55) (Memref.isWhole_whole _)
    (spec13_0.stage ((cfg13 a).slots t 0)) (hstage13_0 (((cfg13 a).slots t 0).cast nbuf13_0))
    (spec13_1.stage ((cfg13 a).slots t 1)) (hstage13_1 (((cfg13 a).slots t 1).cast nbuf13_1))
    (spec13_2.stage ((cfg13 a).slots t 2)) (hstage13_2 (((cfg13 a).slots t 2).cast nbuf13_2))
    (spec13_3.stage ((cfg13 a).slots t 3)) (hstage13_3 (((cfg13 a).slots t 3).cast nbuf13_3))
    (spec13_4.stage ((cfg13 a).slots t 4)) (hstage13_4 (((cfg13 a).slots t 4).cast nbuf13_4))

/-- The proof data of pipeline 13 on core `c`. -/
def dat13 (c : Dev nD) : Dat τ (Elt F) Unit ℕ (UR sig nD τ) ℕ (cfg13 a) c where
  A w := V c (Pipeline.arrRef spec13 w)
  after w t := match w with
    | ⟨0, _⟩ => iblk13 V a c 0 t
    | ⟨1, _⟩ => iblk13 V a c 1 t
    | ⟨2, _⟩ => iblk13 V a c 2 t
    | ⟨3, _⟩ => iblk13 V a c 3 t
    | ⟨4, _⟩ => out13 (iblk13 V a c 0 t) (iblk13 V a c 1 t) (iblk13 V a c 2 t) (iblk13 V a c 3 t)
  Φ _ := iprop(Pipeline.ΦA spec13 c ∗ Pipeline.prefHeld (Ix := Unit) (Name := ℕ) (U := UR sig nD τ) (Lvl := ℕ) pre13 c (fun _ => fullShare) a.1)
  q w := match w with
    | ⟨0, _⟩ => fullShare.left
    | ⟨1, _⟩ => fullShare.right
    | _ => fullShare
  owed _ := 0

theorem A_eq13 (c : Dev nD) (w : Fin (cfg13 a).W) : (dat13 V a c).A w = V c (Pipeline.arrRef spec13 w) := by
  dsimp only [dat13]

theorem after13_0 (c : Dev nD) (t : Fin (cfg13 a).N) : (dat13 V a c).after 0 t = iblk13 V a c 0 t := by dsimp only [dat13]; try rfl
theorem after13_1 (c : Dev nD) (t : Fin (cfg13 a).N) : (dat13 V a c).after 1 t = iblk13 V a c 1 t := by dsimp only [dat13]; try rfl
theorem after13_2 (c : Dev nD) (t : Fin (cfg13 a).N) : (dat13 V a c).after 2 t = iblk13 V a c 2 t := by dsimp only [dat13]; try rfl
theorem after13_3 (c : Dev nD) (t : Fin (cfg13 a).N) : (dat13 V a c).after 3 t = iblk13 V a c 3 t := by dsimp only [dat13]; try rfl
theorem after13_4 (c : Dev nD) (t : Fin (cfg13 a).N) :
    (dat13 V a c).after 4 t = out13 (iblk13 V a c 0 t) (iblk13 V a c 1 t) (iblk13 V a c 2 t) (iblk13 V a c 3 t) := by dsimp only [dat13]; try rfl

/-- An input window's current staging buffer holds its block at every point, fetched there or not: unfetched, the
    block index has not moved. -/
theorem before13_0 (c : Dev nD) (t : Fin (cfg13 a).N) (d) : (dat13 V a c).before 0 t d = iblk13 V a c 0 t :=
  ((dat13 V a c).before_in_eq_fetched 0 rfl (fun _ => rfl) (fun _ _ _ => rfl)
    (fun t => by rw [after13_0]; unfold Dat.blockOf iblk13; rw [A_eq13]; try rfl) t d).trans
    (by unfold Dat.fetched Dat.blockOf iblk13; rw [A_eq13]; try rfl)
theorem before13_1 (c : Dev nD) (t : Fin (cfg13 a).N) (d) : (dat13 V a c).before 1 t d = iblk13 V a c 1 t :=
  ((dat13 V a c).before_in_eq_fetched 1 rfl (fun _ => rfl) (fun _ _ _ => rfl)
    (fun t => by rw [after13_1]; unfold Dat.blockOf iblk13; rw [A_eq13]; try rfl) t d).trans
    (by unfold Dat.fetched Dat.blockOf iblk13; rw [A_eq13]; try rfl)
theorem before13_2 (c : Dev nD) (t : Fin (cfg13 a).N) (d) : (dat13 V a c).before 2 t d = iblk13 V a c 2 t :=
  ((dat13 V a c).before_in_eq_fetched 2 rfl (fun _ => rfl) (fun _ _ _ => rfl)
    (fun t => by rw [after13_2]; unfold Dat.blockOf iblk13; rw [A_eq13]; try rfl) t d).trans
    (by unfold Dat.fetched Dat.blockOf iblk13; rw [A_eq13]; try rfl)
theorem before13_3 (c : Dev nD) (t : Fin (cfg13 a).N) (d) : (dat13 V a c).before 3 t d = iblk13 V a c 3 t :=
  ((dat13 V a c).before_in_eq_fetched 3 rfl (fun _ => rfl) (fun _ _ _ => rfl)
    (fun t => by rw [after13_3]; unfold Dat.blockOf iblk13; rw [A_eq13]; try rfl) t d).trans
    (by unfold Dat.fetched Dat.blockOf iblk13; rw [A_eq13]; try rfl)

/-- What the body is called with at point `t`, the windows one by one, -/
def bodyPre13 (c : Dev nD) (t : Fin (cfg13 a).N) : sProp 𝕄 :=
  iprop((dat13 V a c).Φ t.castSucc ∗ (dat13 V a c).owesAt () t.castSucc
    ∗ (∃ d, owns (c : Thread nD τ) (st13_0 a t) fullShare ((dat13 V a c).before 0 t d))
    ∗ (∃ d, owns (c : Thread nD τ) (st13_1 a t) fullShare ((dat13 V a c).before 1 t d))
    ∗ (∃ d, owns (c : Thread nD τ) (st13_2 a t) fullShare ((dat13 V a c).before 2 t d))
    ∗ (∃ d, owns (c : Thread nD τ) (st13_3 a t) fullShare ((dat13 V a c).before 3 t d))
    ∗ (∃ d, owns (c : Thread nD τ) (st13_4 a t) fullShare ((dat13 V a c).before 4 t d)))

/-- and what it returns. -/
def bodyPost13 (c : Dev nD) (t : Fin (cfg13 a).N) : sProp 𝕄 :=
  iprop((dat13 V a c).Φ t.succ ∗ (dat13 V a c).owesAt () t.succ
    ∗ owns (c : Thread nD τ) (st13_0 a t) fullShare ((dat13 V a c).after 0 t)
    ∗ owns (c : Thread nD τ) (st13_1 a t) fullShare ((dat13 V a c).after 1 t)
    ∗ owns (c : Thread nD τ) (st13_2 a t) fullShare ((dat13 V a c).after 2 t)
    ∗ owns (c : Thread nD τ) (st13_3 a t) fullShare ((dat13 V a c).after 3 t)
    ∗ owns (c : Thread nD τ) (st13_4 a t) fullShare ((dat13 V a c).after 4 t))

/-- The body at any point: the inputs' buffers hold their blocks, so the body's triple applies; the invariant and the
    core's dues pass through unread. -/
theorem sound_body13 (c : Dev nD) (t : Fin (cfg13 a).N) :
    bodyPre13 V a c t ⊢ wp frame (wpE (defs₀ (F := F)) Variants.none c none) Set.univ (bodyAt13 a t) (fun _ => bodyPost13 V a c t) := by
  unfold bodyPre13 bodyPost13 bodyAt13
  simp only [before13_0, before13_1, before13_2, before13_3]
  rw [show (dat13 V a c).Φ t.succ = (dat13 V a c).Φ t.castSucc from rfl,
    show (dat13 V a c).owesAt () t.succ = (dat13 V a c).owesAt () t.castSucc from rfl,
    after13_0, after13_1, after13_2, after13_3, after13_4]
  iintro ⟨HΦ, Ho, ⟨%d0, H0⟩, ⟨%d1, H1⟩, ⟨%d2, H2⟩, ⟨%d3, H3⟩, ⟨%d4, H4⟩⟩
  iapply (sound_kernel13 c Set.univ _ _ _ _ _ _ _ _ _ _ _ _ _ _ _ (iblk13 V a c 0 t) (iblk13 V a c 1 t) (iblk13 V a c 2 t) (iblk13 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation13 (c : Dev nD) : BodyObligation (dat13 (F := F) V a c) (defs₀ (F := F)) Variants.none () Set.univ := fun t => by
  rw [bigSep_W13, bigSep_W13]
  exact sound_body13 V a c t

end Cert.Kernel.Hand

end
-- ==== Proof.KBody14.lean ====
/-
  One edge's score as the kernel body computes it, and the body's triple.

  The body reads the two gathered rows (one row of the node features for the edge's source node, one for its
  destination node), the 256 weights and the bias from its staging buffers, and writes the single score
  `(∑ row_s · W[0:128]) + (∑ row_d · W[128:256]) + b` to its one-element output buffer. `out14` is what the output
  buffer holds afterwards as a function of the four input buffers; `sound_kernel14` says the body, run on whole
  staging buffers holding those contents, ends with the inputs as they were and the output at `out14` of them.
-/
import proofs.«405368_j31662498906597_2_alg».proof.Proof.LaunchKernel
import proofs.«405368_j31662498906597_2_alg».proof.Proof.Gen.Kernel.Skeleton
import proofs.«405368_j31662498906597_2_alg».proof.Proof.KBody0
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The output buffer after the body, from the four input buffers (source row, destination row, weights, bias): its
    one store, of the score. -/
def out14 (x0 x1 : Vec F S1x1x128 .f32) (x2 : Vec F S1x256 .f32) (x3 : Vec F S1x1 .f32) : Vec F S1x1x1 .f32 :=
  View.canon [⟨rO, k14_pay1 (View.ld x2 rW0) (View.ld x2 rW1) (View.ld x0 rH) (View.ld x1 rH) (View.ld x3 rB)⟩]

/-- The one store covers the one-element buffer. -/
theorem cover14 (p0 : Vec F S1x1x1 .f32) (y : S1x1x1.Idx) :
    ∃ pc ∈ ([⟨rO, p0⟩] : List (View.Piece (Elt F) S1x1x1 .f32)), y ∈ pc.1.set :=
  View.cover_of_tiled [⟨rO, p0⟩] S1x1x1.size (by rfl) y

set_option maxHeartbeats 1000000 in
/-- The body on whole staging buffers: the inputs at `x0 … x3`, the output at anything; it ends with the inputs as
    they were and the output at `out14` of them. The two index tables are not touched. -/
theorem sound_kernel14 (c : Dev nD) (E : Set ℕ) (i : grid14.Coords)
    (arg1 : Memref sig .tc .smem S62500 .i32) (harg1 : arg1.IsWhole) (arg2 : Memref sig .tc .smem S62500 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x256 .f32) (harg5 : arg5.IsWhole) (arg6 : Memref sig .tc .vmem S1x1 .f32) (harg6 : arg6.IsWhole)
    (arg7 : Memref sig .tc .vmem S1x1x1 .f32) (harg7 : arg7.IsWhole)
    (x0 x1 : Vec F S1x1x128 .f32) (x2 : Vec F S1x256 .f32) (x3 : Vec F S1x1 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ (∃ d, owns (c : Thread nD τ) arg7 fullShare d)
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare (out14 x0 x1 x2 x3)) -∗ K ⟨⟩))
      ⊢ wp frame (wpE (defs₀ (F := F)) Variants.none c none) E
          (cc14__gather_score_kernel i arg1 harg1 arg2 harg2 arg3 harg3 arg4 harg4 arg5 harg5 arg6 harg6 arg7 harg7) K := by
  -- the printed body is its skeleton of six loads and one store over the payload
  simp only [cc14__gather_score_kernel_eq_skeleton]; unfold cc14__gather_score_kernel_skel
  -- each input's ownership is some contents with the given read; the output's is any contents
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  -- the loads leave every buffer as it was (the value loaded from the output buffer is not used); the store
  -- overwrites the output buffer's one cell with the payload of the five input loads
  sl_exec
  sl_step
  iapply Hk
  -- the four inputs come back at the contents they had
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  -- the output: old contents overwritten by one store that covers the buffer read back as that store alone
  iexists _; isplitr
  swap; · iexact H4
  ipureintro
  exact View.read_writes_eq_canon _ _ _ (cover14 _)

end Cert.Kernel.Hand

end
-- ==== Proof.KDat14.lean ====
/-
  Region 14 of the edge scorer: the pipeline's proof data and the body obligation.

  The region has 62500 grid points, one per edge of its chunk. At point `t` the pipeline stages five blocks: row
  `src t` of the node features (window 0) and row `dst t` (window 1) — both windows read the ONE feature array,
  their block indices taken from the two prefetched index tables —, the 256 weights (window 2), the bias
  (window 3), and the one-element block `t` of the output (window 4). The body leaves every input block as it
  found it and the output block at the edge's score (`out14` of the four input blocks). The two input windows
  on the shared feature array hold it at the two halves of the full share; the tables ride in the invariant,
  whole, untouched (the body never reads them); nothing is owed to other cores.
-/
import proofs.«405368_j31662498906597_2_alg».proof.Proof.KBody14

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffers' contents when the region is entered, per core, and the tables' admissible contents: parameters
variable (V : (c : Dev nD) → (b : Ref sig .tc) → Buf (Elt F) ((c : Thread nD τ).loc b)) (a : (pcfg14 (F := F)).Adm)

/-- Window `w`'s block at point `t`, read off its array as the region finds it. -/
def iblk14 (c : Dev nD) (w : Fin (cfg14 a).W) (t : Fin (cfg14 a).N) :
    (((cfg14 a).win w).xblock ((cfg14 a).grid.coords t)).Idx → Elt F ((cfg14 a).win w).elt :=
  (((cfg14 a).win w).blk t).view.read (Elt F) (V c (Pipeline.arrRef spec14 w))

/-- The current staging memref of each window at point `t`. -/
abbrev st14_0 (t : Fin (cfg14 a).N) := ((cfg14 a).win 0).stage ((cfg14 a).slots t 0)
abbrev st14_1 (t : Fin (cfg14 a).N) := ((cfg14 a).win 1).stage ((cfg14 a).slots t 1)
abbrev st14_2 (t : Fin (cfg14 a).N) := ((cfg14 a).win 2).stage ((cfg14 a).slots t 2)
abbrev st14_3 (t : Fin (cfg14 a).N) := ((cfg14 a).win 3).stage ((cfg14 a).slots t 3)
abbrev st14_4 (t : Fin (cfg14 a).N) := ((cfg14 a).win 4).stage ((cfg14 a).slots t 4)

/-- The kernel body at point `t`, on what the pipeline calls it with. -/
abbrev bodyAt14 (t : Fin (cfg14 a).N) : Prog (TpuEff nD τ sig (Elt F) Λ₀ .tc) PUnit :=
  cc14__gather_score_kernel (grid14.coords t) (Memref.whole main_v58) (Memref.isWhole_whole _) (Memref.whole main_v59) (Memref.isWhole_whole _)
    (spec14_0.stage ((cfg14 a).slots t 0)) (hstage14_0 (((cfg14 a).slots t 0).cast nbuf14_0))
    (spec14_1.stage ((cfg14 a).slots t 1)) (hstage14_1 (((cfg14 a).slots t 1).cast nbuf14_1))
    (spec14_2.stage ((cfg14 a).slots t 2)) (hstage14_2 (((cfg14 a).slots t 2).cast nbuf14_2))
    (spec14_3.stage ((cfg14 a).slots t 3)) (hstage14_3 (((cfg14 a).slots t 3).cast nbuf14_3))
    (spec14_4.stage ((cfg14 a).slots t 4)) (hstage14_4 (((cfg14 a).slots t 4).cast nbuf14_4))

/-- The proof data of pipeline 14 on core `c`. -/
def dat14 (c : Dev nD) : Dat τ (Elt F) Unit ℕ (UR sig nD τ) ℕ (cfg14 a) c where
  A w := V c (Pipeline.arrRef spec14 w)
  after w t := match w with
    | ⟨0, _⟩ => iblk14 V a c 0 t
    | ⟨1, _⟩ => iblk14 V a c 1 t
    | ⟨2, _⟩ => iblk14 V a c 2 t
    | ⟨3, _⟩ => iblk14 V a c 3 t
    | ⟨4, _⟩ => out14 (iblk14 V a c 0 t) (iblk14 V a c 1 t) (iblk14 V a c 2 t) (iblk14 V a c 3 t)
  Φ _ := iprop(Pipeline.ΦA spec14 c ∗ Pipeline.prefHeld (Ix := Unit) (Name := ℕ) (U := UR sig nD τ) (Lvl := ℕ) pre14 c (fun _ => fullShare) a.1)
  q w := match w with
    | ⟨0, _⟩ => fullShare.left
    | ⟨1, _⟩ => fullShare.right
    | _ => fullShare
  owed _ := 0

theorem A_eq14 (c : Dev nD) (w : Fin (cfg14 a).W) : (dat14 V a c).A w = V c (Pipeline.arrRef spec14 w) := by
  dsimp only [dat14]

theorem after14_0 (c : Dev nD) (t : Fin (cfg14 a).N) : (dat14 V a c).after 0 t = iblk14 V a c 0 t := by dsimp only [dat14]; try rfl
theorem after14_1 (c : Dev nD) (t : Fin (cfg14 a).N) : (dat14 V a c).after 1 t = iblk14 V a c 1 t := by dsimp only [dat14]; try rfl
theorem after14_2 (c : Dev nD) (t : Fin (cfg14 a).N) : (dat14 V a c).after 2 t = iblk14 V a c 2 t := by dsimp only [dat14]; try rfl
theorem after14_3 (c : Dev nD) (t : Fin (cfg14 a).N) : (dat14 V a c).after 3 t = iblk14 V a c 3 t := by dsimp only [dat14]; try rfl
theorem after14_4 (c : Dev nD) (t : Fin (cfg14 a).N) :
    (dat14 V a c).after 4 t = out14 (iblk14 V a c 0 t) (iblk14 V a c 1 t) (iblk14 V a c 2 t) (iblk14 V a c 3 t) := by dsimp only [dat14]; try rfl

/-- An input window's current staging buffer holds its block at every point, fetched there or not: unfetched, the
    block index has not moved. -/
theorem before14_0 (c : Dev nD) (t : Fin (cfg14 a).N) (d) : (dat14 V a c).before 0 t d = iblk14 V a c 0 t :=
  ((dat14 V a c).before_in_eq_fetched 0 rfl (fun _ => rfl) (fun _ _ _ => rfl)
    (fun t => by rw [after14_0]; unfold Dat.blockOf iblk14; rw [A_eq14]; try rfl) t d).trans
    (by unfold Dat.fetched Dat.blockOf iblk14; rw [A_eq14]; try rfl)
theorem before14_1 (c : Dev nD) (t : Fin (cfg14 a).N) (d) : (dat14 V a c).before 1 t d = iblk14 V a c 1 t :=
  ((dat14 V a c).before_in_eq_fetched 1 rfl (fun _ => rfl) (fun _ _ _ => rfl)
    (fun t => by rw [after14_1]; unfold Dat.blockOf iblk14; rw [A_eq14]; try rfl) t d).trans
    (by unfold Dat.fetched Dat.blockOf iblk14; rw [A_eq14]; try rfl)
theorem before14_2 (c : Dev nD) (t : Fin (cfg14 a).N) (d) : (dat14 V a c).before 2 t d = iblk14 V a c 2 t :=
  ((dat14 V a c).before_in_eq_fetched 2 rfl (fun _ => rfl) (fun _ _ _ => rfl)
    (fun t => by rw [after14_2]; unfold Dat.blockOf iblk14; rw [A_eq14]; try rfl) t d).trans
    (by unfold Dat.fetched Dat.blockOf iblk14; rw [A_eq14]; try rfl)
theorem before14_3 (c : Dev nD) (t : Fin (cfg14 a).N) (d) : (dat14 V a c).before 3 t d = iblk14 V a c 3 t :=
  ((dat14 V a c).before_in_eq_fetched 3 rfl (fun _ => rfl) (fun _ _ _ => rfl)
    (fun t => by rw [after14_3]; unfold Dat.blockOf iblk14; rw [A_eq14]; try rfl) t d).trans
    (by unfold Dat.fetched Dat.blockOf iblk14; rw [A_eq14]; try rfl)

/-- What the body is called with at point `t`, the windows one by one, -/
def bodyPre14 (c : Dev nD) (t : Fin (cfg14 a).N) : sProp 𝕄 :=
  iprop((dat14 V a c).Φ t.castSucc ∗ (dat14 V a c).owesAt () t.castSucc
    ∗ (∃ d, owns (c : Thread nD τ) (st14_0 a t) fullShare ((dat14 V a c).before 0 t d))
    ∗ (∃ d, owns (c : Thread nD τ) (st14_1 a t) fullShare ((dat14 V a c).before 1 t d))
    ∗ (∃ d, owns (c : Thread nD τ) (st14_2 a t) fullShare ((dat14 V a c).before 2 t d))
    ∗ (∃ d, owns (c : Thread nD τ) (st14_3 a t) fullShare ((dat14 V a c).before 3 t d))
    ∗ (∃ d, owns (c : Thread nD τ) (st14_4 a t) fullShare ((dat14 V a c).before 4 t d)))

/-- and what it returns. -/
def bodyPost14 (c : Dev nD) (t : Fin (cfg14 a).N) : sProp 𝕄 :=
  iprop((dat14 V a c).Φ t.succ ∗ (dat14 V a c).owesAt () t.succ
    ∗ owns (c : Thread nD τ) (st14_0 a t) fullShare ((dat14 V a c).after 0 t)
    ∗ owns (c : Thread nD τ) (st14_1 a t) fullShare ((dat14 V a c).after 1 t)
    ∗ owns (c : Thread nD τ) (st14_2 a t) fullShare ((dat14 V a c).after 2 t)
    ∗ owns (c : Thread nD τ) (st14_3 a t) fullShare ((dat14 V a c).after 3 t)
    ∗ owns (c : Thread nD τ) (st14_4 a t) fullShare ((dat14 V a c).after 4 t))

/-- The body at any point: the inputs' buffers hold their blocks, so the body's triple applies; the invariant and the
    core's dues pass through unread. -/
theorem sound_body14 (c : Dev nD) (t : Fin (cfg14 a).N) :
    bodyPre14 V a c t ⊢ wp frame (wpE (defs₀ (F := F)) Variants.none c none) Set.univ (bodyAt14 a t) (fun _ => bodyPost14 V a c t) := by
  unfold bodyPre14 bodyPost14 bodyAt14
  simp only [before14_0, before14_1, before14_2, before14_3]
  rw [show (dat14 V a c).Φ t.succ = (dat14 V a c).Φ t.castSucc from rfl,
    show (dat14 V a c).owesAt () t.succ = (dat14 V a c).owesAt () t.castSucc from rfl,
    after14_0, after14_1, after14_2, after14_3, after14_4]
  iintro ⟨HΦ, Ho, ⟨%d0, H0⟩, ⟨%d1, H1⟩, ⟨%d2, H2⟩, ⟨%d3, H3⟩, ⟨%d4, H4⟩⟩
  iapply (sound_kernel14 c Set.univ _ _ _ _ _ _ _ _ _ _ _ _ _ _ _ (iblk14 V a c 0 t) (iblk14 V a c 1 t) (iblk14 V a c 2 t) (iblk14 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation14 (c : Dev nD) : BodyObligation (dat14 (F := F) V a c) (defs₀ (F := F)) Variants.none () Set.univ := fun t => by
  rw [bigSep_W14, bigSep_W14]
  exact sound_body14 V a c t

end Cert.Kernel.Hand

end
-- ==== Proof.KBody15.lean ====
/-
  One edge's score as the kernel body computes it, and the body's triple.

  The body reads the two gathered rows (one row of the node features for the edge's source node, one for its
  destination node), the 256 weights and the bias from its staging buffers, and writes the single score
  `(∑ row_s · W[0:128]) + (∑ row_d · W[128:256]) + b` to its one-element output buffer. `out15` is what the output
  buffer holds afterwards as a function of the four input buffers; `sound_kernel15` says the body, run on whole
  staging buffers holding those contents, ends with the inputs as they were and the output at `out15` of them.
-/
import proofs.«405368_j31662498906597_2_alg».proof.Proof.LaunchKernel
import proofs.«405368_j31662498906597_2_alg».proof.Proof.Gen.Kernel.Skeleton
import proofs.«405368_j31662498906597_2_alg».proof.Proof.KBody0
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The output buffer after the body, from the four input buffers (source row, destination row, weights, bias): its
    one store, of the score. -/
def out15 (x0 x1 : Vec F S1x1x128 .f32) (x2 : Vec F S1x256 .f32) (x3 : Vec F S1x1 .f32) : Vec F S1x1x1 .f32 :=
  View.canon [⟨rO, k15_pay1 (View.ld x2 rW0) (View.ld x2 rW1) (View.ld x0 rH) (View.ld x1 rH) (View.ld x3 rB)⟩]

/-- The one store covers the one-element buffer. -/
theorem cover15 (p0 : Vec F S1x1x1 .f32) (y : S1x1x1.Idx) :
    ∃ pc ∈ ([⟨rO, p0⟩] : List (View.Piece (Elt F) S1x1x1 .f32)), y ∈ pc.1.set :=
  View.cover_of_tiled [⟨rO, p0⟩] S1x1x1.size (by rfl) y

set_option maxHeartbeats 1000000 in
/-- The body on whole staging buffers: the inputs at `x0 … x3`, the output at anything; it ends with the inputs as
    they were and the output at `out15` of them. The two index tables are not touched. -/
theorem sound_kernel15 (c : Dev nD) (E : Set ℕ) (i : grid15.Coords)
    (arg1 : Memref sig .tc .smem S62500 .i32) (harg1 : arg1.IsWhole) (arg2 : Memref sig .tc .smem S62500 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x256 .f32) (harg5 : arg5.IsWhole) (arg6 : Memref sig .tc .vmem S1x1 .f32) (harg6 : arg6.IsWhole)
    (arg7 : Memref sig .tc .vmem S1x1x1 .f32) (harg7 : arg7.IsWhole)
    (x0 x1 : Vec F S1x1x128 .f32) (x2 : Vec F S1x256 .f32) (x3 : Vec F S1x1 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ (∃ d, owns (c : Thread nD τ) arg7 fullShare d)
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare (out15 x0 x1 x2 x3)) -∗ K ⟨⟩))
      ⊢ wp frame (wpE (defs₀ (F := F)) Variants.none c none) E
          (cc15__gather_score_kernel i arg1 harg1 arg2 harg2 arg3 harg3 arg4 harg4 arg5 harg5 arg6 harg6 arg7 harg7) K := by
  -- the printed body is its skeleton of six loads and one store over the payload
  simp only [cc15__gather_score_kernel_eq_skeleton]; unfold cc15__gather_score_kernel_skel
  -- each input's ownership is some contents with the given read; the output's is any contents
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  -- the loads leave every buffer as it was (the value loaded from the output buffer is not used); the store
  -- overwrites the output buffer's one cell with the payload of the five input loads
  sl_exec
  sl_step
  iapply Hk
  -- the four inputs come back at the contents they had
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  -- the output: old contents overwritten by one store that covers the buffer read back as that store alone
  iexists _; isplitr
  swap; · iexact H4
  ipureintro
  exact View.read_writes_eq_canon _ _ _ (cover15 _)

end Cert.Kernel.Hand

end
-- ==== Proof.KDat15.lean ====
/-
  Region 15 of the edge scorer: the pipeline's proof data and the body obligation.

  The region has 62500 grid points, one per edge of its chunk. At point `t` the pipeline stages five blocks: row
  `src t` of the node features (window 0) and row `dst t` (window 1) — both windows read the ONE feature array,
  their block indices taken from the two prefetched index tables —, the 256 weights (window 2), the bias
  (window 3), and the one-element block `t` of the output (window 4). The body leaves every input block as it
  found it and the output block at the edge's score (`out15` of the four input blocks). The two input windows
  on the shared feature array hold it at the two halves of the full share; the tables ride in the invariant,
  whole, untouched (the body never reads them); nothing is owed to other cores.
-/
import proofs.«405368_j31662498906597_2_alg».proof.Proof.KBody15

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffers' contents when the region is entered, per core, and the tables' admissible contents: parameters
variable (V : (c : Dev nD) → (b : Ref sig .tc) → Buf (Elt F) ((c : Thread nD τ).loc b)) (a : (pcfg15 (F := F)).Adm)

/-- Window `w`'s block at point `t`, read off its array as the region finds it. -/
def iblk15 (c : Dev nD) (w : Fin (cfg15 a).W) (t : Fin (cfg15 a).N) :
    (((cfg15 a).win w).xblock ((cfg15 a).grid.coords t)).Idx → Elt F ((cfg15 a).win w).elt :=
  (((cfg15 a).win w).blk t).view.read (Elt F) (V c (Pipeline.arrRef spec15 w))

/-- The current staging memref of each window at point `t`. -/
abbrev st15_0 (t : Fin (cfg15 a).N) := ((cfg15 a).win 0).stage ((cfg15 a).slots t 0)
abbrev st15_1 (t : Fin (cfg15 a).N) := ((cfg15 a).win 1).stage ((cfg15 a).slots t 1)
abbrev st15_2 (t : Fin (cfg15 a).N) := ((cfg15 a).win 2).stage ((cfg15 a).slots t 2)
abbrev st15_3 (t : Fin (cfg15 a).N) := ((cfg15 a).win 3).stage ((cfg15 a).slots t 3)
abbrev st15_4 (t : Fin (cfg15 a).N) := ((cfg15 a).win 4).stage ((cfg15 a).slots t 4)

/-- The kernel body at point `t`, on what the pipeline calls it with. -/
abbrev bodyAt15 (t : Fin (cfg15 a).N) : Prog (TpuEff nD τ sig (Elt F) Λ₀ .tc) PUnit :=
  cc15__gather_score_kernel (grid15.coords t) (Memref.whole main_v62) (Memref.isWhole_whole _) (Memref.whole main_v63) (Memref.isWhole_whole _)
    (spec15_0.stage ((cfg15 a).slots t 0)) (hstage15_0 (((cfg15 a).slots t 0).cast nbuf15_0))
    (spec15_1.stage ((cfg15 a).slots t 1)) (hstage15_1 (((cfg15 a).slots t 1).cast nbuf15_1))
    (spec15_2.stage ((cfg15 a).slots t 2)) (hstage15_2 (((cfg15 a).slots t 2).cast nbuf15_2))
    (spec15_3.stage ((cfg15 a).slots t 3)) (hstage15_3 (((cfg15 a).slots t 3).cast nbuf15_3))
    (spec15_4.stage ((cfg15 a).slots t 4)) (hstage15_4 (((cfg15 a).slots t 4).cast nbuf15_4))

/-- The proof data of pipeline 15 on core `c`. -/
def dat15 (c : Dev nD) : Dat τ (Elt F) Unit ℕ (UR sig nD τ) ℕ (cfg15 a) c where
  A w := V c (Pipeline.arrRef spec15 w)
  after w t := match w with
    | ⟨0, _⟩ => iblk15 V a c 0 t
    | ⟨1, _⟩ => iblk15 V a c 1 t
    | ⟨2, _⟩ => iblk15 V a c 2 t
    | ⟨3, _⟩ => iblk15 V a c 3 t
    | ⟨4, _⟩ => out15 (iblk15 V a c 0 t) (iblk15 V a c 1 t) (iblk15 V a c 2 t) (iblk15 V a c 3 t)
  Φ _ := iprop(Pipeline.ΦA spec15 c ∗ Pipeline.prefHeld (Ix := Unit) (Name := ℕ) (U := UR sig nD τ) (Lvl := ℕ) pre15 c (fun _ => fullShare) a.1)
  q w := match w with
    | ⟨0, _⟩ => fullShare.left
    | ⟨1, _⟩ => fullShare.right
    | _ => fullShare
  owed _ := 0

theorem A_eq15 (c : Dev nD) (w : Fin (cfg15 a).W) : (dat15 V a c).A w = V c (Pipeline.arrRef spec15 w) := by
  dsimp only [dat15]

theorem after15_0 (c : Dev nD) (t : Fin (cfg15 a).N) : (dat15 V a c).after 0 t = iblk15 V a c 0 t := by dsimp only [dat15]; try rfl
theorem after15_1 (c : Dev nD) (t : Fin (cfg15 a).N) : (dat15 V a c).after 1 t = iblk15 V a c 1 t := by dsimp only [dat15]; try rfl
theorem after15_2 (c : Dev nD) (t : Fin (cfg15 a).N) : (dat15 V a c).after 2 t = iblk15 V a c 2 t := by dsimp only [dat15]; try rfl
theorem after15_3 (c : Dev nD) (t : Fin (cfg15 a).N) : (dat15 V a c).after 3 t = iblk15 V a c 3 t := by dsimp only [dat15]; try rfl
theorem after15_4 (c : Dev nD) (t : Fin (cfg15 a).N) :
    (dat15 V a c).after 4 t = out15 (iblk15 V a c 0 t) (iblk15 V a c 1 t) (iblk15 V a c 2 t) (iblk15 V a c 3 t) := by dsimp only [dat15]; try rfl

/-- An input window's current staging buffer holds its block at every point, fetched there or not: unfetched, the
    block index has not moved. -/
theorem before15_0 (c : Dev nD) (t : Fin (cfg15 a).N) (d) : (dat15 V a c).before 0 t d = iblk15 V a c 0 t :=
  ((dat15 V a c).before_in_eq_fetched 0 rfl (fun _ => rfl) (fun _ _ _ => rfl)
    (fun t => by rw [after15_0]; unfold Dat.blockOf iblk15; rw [A_eq15]; try rfl) t d).trans
    (by unfold Dat.fetched Dat.blockOf iblk15; rw [A_eq15]; try rfl)
theorem before15_1 (c : Dev nD) (t : Fin (cfg15 a).N) (d) : (dat15 V a c).before 1 t d = iblk15 V a c 1 t :=
  ((dat15 V a c).before_in_eq_fetched 1 rfl (fun _ => rfl) (fun _ _ _ => rfl)
    (fun t => by rw [after15_1]; unfold Dat.blockOf iblk15; rw [A_eq15]; try rfl) t d).trans
    (by unfold Dat.fetched Dat.blockOf iblk15; rw [A_eq15]; try rfl)
theorem before15_2 (c : Dev nD) (t : Fin (cfg15 a).N) (d) : (dat15 V a c).before 2 t d = iblk15 V a c 2 t :=
  ((dat15 V a c).before_in_eq_fetched 2 rfl (fun _ => rfl) (fun _ _ _ => rfl)
    (fun t => by rw [after15_2]; unfold Dat.blockOf iblk15; rw [A_eq15]; try rfl) t d).trans
    (by unfold Dat.fetched Dat.blockOf iblk15; rw [A_eq15]; try rfl)
theorem before15_3 (c : Dev nD) (t : Fin (cfg15 a).N) (d) : (dat15 V a c).before 3 t d = iblk15 V a c 3 t :=
  ((dat15 V a c).before_in_eq_fetched 3 rfl (fun _ => rfl) (fun _ _ _ => rfl)
    (fun t => by rw [after15_3]; unfold Dat.blockOf iblk15; rw [A_eq15]; try rfl) t d).trans
    (by unfold Dat.fetched Dat.blockOf iblk15; rw [A_eq15]; try rfl)

/-- What the body is called with at point `t`, the windows one by one, -/
def bodyPre15 (c : Dev nD) (t : Fin (cfg15 a).N) : sProp 𝕄 :=
  iprop((dat15 V a c).Φ t.castSucc ∗ (dat15 V a c).owesAt () t.castSucc
    ∗ (∃ d, owns (c : Thread nD τ) (st15_0 a t) fullShare ((dat15 V a c).before 0 t d))
    ∗ (∃ d, owns (c : Thread nD τ) (st15_1 a t) fullShare ((dat15 V a c).before 1 t d))
    ∗ (∃ d, owns (c : Thread nD τ) (st15_2 a t) fullShare ((dat15 V a c).before 2 t d))
    ∗ (∃ d, owns (c : Thread nD τ) (st15_3 a t) fullShare ((dat15 V a c).before 3 t d))
    ∗ (∃ d, owns (c : Thread nD τ) (st15_4 a t) fullShare ((dat15 V a c).before 4 t d)))

/-- and what it returns. -/
def bodyPost15 (c : Dev nD) (t : Fin (cfg15 a).N) : sProp 𝕄 :=
  iprop((dat15 V a c).Φ t.succ ∗ (dat15 V a c).owesAt () t.succ
    ∗ owns (c : Thread nD τ) (st15_0 a t) fullShare ((dat15 V a c).after 0 t)
    ∗ owns (c : Thread nD τ) (st15_1 a t) fullShare ((dat15 V a c).after 1 t)
    ∗ owns (c : Thread nD τ) (st15_2 a t) fullShare ((dat15 V a c).after 2 t)
    ∗ owns (c : Thread nD τ) (st15_3 a t) fullShare ((dat15 V a c).after 3 t)
    ∗ owns (c : Thread nD τ) (st15_4 a t) fullShare ((dat15 V a c).after 4 t))

/-- The body at any point: the inputs' buffers hold their blocks, so the body's triple applies; the invariant and the
    core's dues pass through unread. -/
theorem sound_body15 (c : Dev nD) (t : Fin (cfg15 a).N) :
    bodyPre15 V a c t ⊢ wp frame (wpE (defs₀ (F := F)) Variants.none c none) Set.univ (bodyAt15 a t) (fun _ => bodyPost15 V a c t) := by
  unfold bodyPre15 bodyPost15 bodyAt15
  simp only [before15_0, before15_1, before15_2, before15_3]
  rw [show (dat15 V a c).Φ t.succ = (dat15 V a c).Φ t.castSucc from rfl,
    show (dat15 V a c).owesAt () t.succ = (dat15 V a c).owesAt () t.castSucc from rfl,
    after15_0, after15_1, after15_2, after15_3, after15_4]
  iintro ⟨HΦ, Ho, ⟨%d0, H0⟩, ⟨%d1, H1⟩, ⟨%d2, H2⟩, ⟨%d3, H3⟩, ⟨%d4, H4⟩⟩
  iapply (sound_kernel15 c Set.univ _ _ _ _ _ _ _ _ _ _ _ _ _ _ _ (iblk15 V a c 0 t) (iblk15 V a c 1 t) (iblk15 V a c 2 t) (iblk15 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation15 (c : Dev nD) : BodyObligation (dat15 (F := F) V a c) (defs₀ (F := F)) Variants.none () Set.univ := fun t => by
  rw [bigSep_W15, bigSep_W15]
  exact sound_body15 V a c t

end Cert.Kernel.Hand

end
-- ==== Proof.KFamily.lean ====
/-
  The sixteen regions as one family.

  Region `k` is entered with the buffers at `Ve k`: what the host operations before it leave, none of which depends on
  what an earlier region wrote (the feature rows, the weights, the bias and the k-th slices of the two index inputs are
  functions of the launch memory alone), so it is stated with the earlier regions' outputs left as launched. `tbl k`
  are the two index tables region `k` is handed, `Oks` says every table-indexed block lies inside the feature array,
  `pdats` is every pipeline's proof data, `chunk k` what region `k` leaves in its output array, and `outsR` collects the
  sixteen outputs as the contents the regions leave.
-/
import proofs.«405368_j31662498906597_2_alg».proof.Proof.KDat0
import proofs.«405368_j31662498906597_2_alg».proof.Proof.KDat1
import proofs.«405368_j31662498906597_2_alg».proof.Proof.KDat2
import proofs.«405368_j31662498906597_2_alg».proof.Proof.KDat3
import proofs.«405368_j31662498906597_2_alg».proof.Proof.KDat4
import proofs.«405368_j31662498906597_2_alg».proof.Proof.KDat5
import proofs.«405368_j31662498906597_2_alg».proof.Proof.KDat6
import proofs.«405368_j31662498906597_2_alg».proof.Proof.KDat7
import proofs.«405368_j31662498906597_2_alg».proof.Proof.KDat8
import proofs.«405368_j31662498906597_2_alg».proof.Proof.KDat9
import proofs.«405368_j31662498906597_2_alg».proof.Proof.KDat10
import proofs.«405368_j31662498906597_2_alg».proof.Proof.KDat11
import proofs.«405368_j31662498906597_2_alg».proof.Proof.KDat12
import proofs.«405368_j31662498906597_2_alg».proof.Proof.KDat13
import proofs.«405368_j31662498906597_2_alg».proof.Proof.KDat14
import proofs.«405368_j31662498906597_2_alg».proof.Proof.KDat15
import proofs.«405368_j31662498906597_2_alg».proof.Proof.RegionsKernel

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The regions' outputs left as launched: the stand-in under which the entry contents are stated. -/
noncomputable abbrev outsL : Outs (F := F) := fun _ r c => m ((c : Thread nD τ).loc r)

/-- The buffers as region 0 finds them. -/
noncomputable abbrev Ve0 (c : Dev nD) (b : Ref sig .tc) : Buf (Elt F) ((c : Thread nD τ).loc b) := V1 m c b
/-- The buffers as region 1 finds them. -/
noncomputable abbrev Ve1 (c : Dev nD) (b : Ref sig .tc) : Buf (Elt F) ((c : Thread nD τ).loc b) := V3 m (outsL m) c b
/-- The buffers as region 2 finds them. -/
noncomputable abbrev Ve2 (c : Dev nD) (b : Ref sig .tc) : Buf (Elt F) ((c : Thread nD τ).loc b) := V5 m (outsL m) c b
/-- The buffers as region 3 finds them. -/
noncomputable abbrev Ve3 (c : Dev nD) (b : Ref sig .tc) : Buf (Elt F) ((c : Thread nD τ).loc b) := V7 m (outsL m) c b
/-- The buffers as region 4 finds them. -/
noncomputable abbrev Ve4 (c : Dev nD) (b : Ref sig .tc) : Buf (Elt F) ((c : Thread nD τ).loc b) := V9 m (outsL m) c b
/-- The buffers as region 5 finds them. -/
noncomputable abbrev Ve5 (c : Dev nD) (b : Ref sig .tc) : Buf (Elt F) ((c : Thread nD τ).loc b) := V11 m (outsL m) c b
/-- The buffers as region 6 finds them. -/
noncomputable abbrev Ve6 (c : Dev nD) (b : Ref sig .tc) : Buf (Elt F) ((c : Thread nD τ).loc b) := V13 m (outsL m) c b
/-- The buffers as region 7 finds them. -/
noncomputable abbrev Ve7 (c : Dev nD) (b : Ref sig .tc) : Buf (Elt F) ((c : Thread nD τ).loc b) := V15 m (outsL m) c b
/-- The buffers as region 8 finds them. -/
noncomputable abbrev Ve8 (c : Dev nD) (b : Ref sig .tc) : Buf (Elt F) ((c : Thread nD τ).loc b) := V17 m (outsL m) c b
/-- The buffers as region 9 finds them. -/
noncomputable abbrev Ve9 (c : Dev nD) (b : Ref sig .tc) : Buf (Elt F) ((c : Thread nD τ).loc b) := V19 m (outsL m) c b
/-- The buffers as region 10 finds them. -/
noncomputable abbrev Ve10 (c : Dev nD) (b : Ref sig .tc) : Buf (Elt F) ((c : Thread nD τ).loc b) := V21 m (outsL m) c b
/-- The buffers as region 11 finds them. -/
noncomputable abbrev Ve11 (c : Dev nD) (b : Ref sig .tc) : Buf (Elt F) ((c : Thread nD τ).loc b) := V23 m (outsL m) c b
/-- The buffers as region 12 finds them. -/
noncomputable abbrev Ve12 (c : Dev nD) (b : Ref sig .tc) : Buf (Elt F) ((c : Thread nD τ).loc b) := V25 m (outsL m) c b
/-- The buffers as region 13 finds them. -/
noncomputable abbrev Ve13 (c : Dev nD) (b : Ref sig .tc) : Buf (Elt F) ((c : Thread nD τ).loc b) := V27 m (outsL m) c b
/-- The buffers as region 14 finds them. -/
noncomputable abbrev Ve14 (c : Dev nD) (b : Ref sig .tc) : Buf (Elt F) ((c : Thread nD τ).loc b) := V29 m (outsL m) c b
/-- The buffers as region 15 finds them. -/
noncomputable abbrev Ve15 (c : Dev nD) (b : Ref sig .tc) : Buf (Elt F) ((c : Thread nD τ).loc b) := V31 m (outsL m) c b
/-- Region 0's two index tables (the program runs on one device). -/
noncomputable def tbl0 : pre0.Contents (Elt F) := fun j => Ve0 m (0 : Dev nD) (pre0.ref j)
/-- Region 1's two index tables (the program runs on one device). -/
noncomputable def tbl1 : pre1.Contents (Elt F) := fun j => Ve1 m (0 : Dev nD) (pre1.ref j)
/-- Region 2's two index tables (the program runs on one device). -/
noncomputable def tbl2 : pre2.Contents (Elt F) := fun j => Ve2 m (0 : Dev nD) (pre2.ref j)
/-- Region 3's two index tables (the program runs on one device). -/
noncomputable def tbl3 : pre3.Contents (Elt F) := fun j => Ve3 m (0 : Dev nD) (pre3.ref j)
/-- Region 4's two index tables (the program runs on one device). -/
noncomputable def tbl4 : pre4.Contents (Elt F) := fun j => Ve4 m (0 : Dev nD) (pre4.ref j)
/-- Region 5's two index tables (the program runs on one device). -/
noncomputable def tbl5 : pre5.Contents (Elt F) := fun j => Ve5 m (0 : Dev nD) (pre5.ref j)
/-- Region 6's two index tables (the program runs on one device). -/
noncomputable def tbl6 : pre6.Contents (Elt F) := fun j => Ve6 m (0 : Dev nD) (pre6.ref j)
/-- Region 7's two index tables (the program runs on one device). -/
noncomputable def tbl7 : pre7.Contents (Elt F) := fun j => Ve7 m (0 : Dev nD) (pre7.ref j)
/-- Region 8's two index tables (the program runs on one device). -/
noncomputable def tbl8 : pre8.Contents (Elt F) := fun j => Ve8 m (0 : Dev nD) (pre8.ref j)
/-- Region 9's two index tables (the program runs on one device). -/
noncomputable def tbl9 : pre9.Contents (Elt F) := fun j => Ve9 m (0 : Dev nD) (pre9.ref j)
/-- Region 10's two index tables (the program runs on one device). -/
noncomputable def tbl10 : pre10.Contents (Elt F) := fun j => Ve10 m (0 : Dev nD) (pre10.ref j)
/-- Region 11's two index tables (the program runs on one device). -/
noncomputable def tbl11 : pre11.Contents (Elt F) := fun j => Ve11 m (0 : Dev nD) (pre11.ref j)
/-- Region 12's two index tables (the program runs on one device). -/
noncomputable def tbl12 : pre12.Contents (Elt F) := fun j => Ve12 m (0 : Dev nD) (pre12.ref j)
/-- Region 13's two index tables (the program runs on one device). -/
noncomputable def tbl13 : pre13.Contents (Elt F) := fun j => Ve13 m (0 : Dev nD) (pre13.ref j)
/-- Region 14's two index tables (the program runs on one device). -/
noncomputable def tbl14 : pre14.Contents (Elt F) := fun j => Ve14 m (0 : Dev nD) (pre14.ref j)
/-- Region 15's two index tables (the program runs on one device). -/
noncomputable def tbl15 : pre15.Contents (Elt F) := fun j => Ve15 m (0 : Dev nD) (pre15.ref j)
/-- Every table-indexed block lies inside the feature array, in every region. -/
structure Oks : Prop where
  h0 : ok0 (F := F) (tbl0 m)
  h1 : ok1 (F := F) (tbl1 m)
  h2 : ok2 (F := F) (tbl2 m)
  h3 : ok3 (F := F) (tbl3 m)
  h4 : ok4 (F := F) (tbl4 m)
  h5 : ok5 (F := F) (tbl5 m)
  h6 : ok6 (F := F) (tbl6 m)
  h7 : ok7 (F := F) (tbl7 m)
  h8 : ok8 (F := F) (tbl8 m)
  h9 : ok9 (F := F) (tbl9 m)
  h10 : ok10 (F := F) (tbl10 m)
  h11 : ok11 (F := F) (tbl11 m)
  h12 : ok12 (F := F) (tbl12 m)
  h13 : ok13 (F := F) (tbl13 m)
  h14 : ok14 (F := F) (tbl14 m)
  h15 : ok15 (F := F) (tbl15 m)

variable (hO : Oks m)

/-- The tables as admissible contents, region by region. -/
noncomputable def adm : (p : Fin 16) → (pcfgs (F := F) p).Adm
  | ⟨0, _⟩ => ⟨tbl0 m, hO.h0⟩
  | ⟨1, _⟩ => ⟨tbl1 m, hO.h1⟩
  | ⟨2, _⟩ => ⟨tbl2 m, hO.h2⟩
  | ⟨3, _⟩ => ⟨tbl3 m, hO.h3⟩
  | ⟨4, _⟩ => ⟨tbl4 m, hO.h4⟩
  | ⟨5, _⟩ => ⟨tbl5 m, hO.h5⟩
  | ⟨6, _⟩ => ⟨tbl6 m, hO.h6⟩
  | ⟨7, _⟩ => ⟨tbl7 m, hO.h7⟩
  | ⟨8, _⟩ => ⟨tbl8 m, hO.h8⟩
  | ⟨9, _⟩ => ⟨tbl9 m, hO.h9⟩
  | ⟨10, _⟩ => ⟨tbl10 m, hO.h10⟩
  | ⟨11, _⟩ => ⟨tbl11 m, hO.h11⟩
  | ⟨12, _⟩ => ⟨tbl12 m, hO.h12⟩
  | ⟨13, _⟩ => ⟨tbl13 m, hO.h13⟩
  | ⟨14, _⟩ => ⟨tbl14 m, hO.h14⟩
  | ⟨15, _⟩ => ⟨tbl15 m, hO.h15⟩
  | ⟨_ + 16, h⟩ => absurd h (Nat.not_lt.2 (Nat.le_add_left _ _))
/-- Every pipeline's proof data, each at its region's entry contents. -/
noncomputable def pdats : (p : Fin 16) → (c : Dev nD) → Dat τ (Elt F) Unit ℕ (UR sig nD τ) ℕ (Pipeline.pin (pcfgs (F := F)) (adm m hO) p) c
  | ⟨0, _⟩ => fun c => dat0 (Ve0 m) ⟨tbl0 m, hO.h0⟩ c
  | ⟨1, _⟩ => fun c => dat1 (Ve1 m) ⟨tbl1 m, hO.h1⟩ c
  | ⟨2, _⟩ => fun c => dat2 (Ve2 m) ⟨tbl2 m, hO.h2⟩ c
  | ⟨3, _⟩ => fun c => dat3 (Ve3 m) ⟨tbl3 m, hO.h3⟩ c
  | ⟨4, _⟩ => fun c => dat4 (Ve4 m) ⟨tbl4 m, hO.h4⟩ c
  | ⟨5, _⟩ => fun c => dat5 (Ve5 m) ⟨tbl5 m, hO.h5⟩ c
  | ⟨6, _⟩ => fun c => dat6 (Ve6 m) ⟨tbl6 m, hO.h6⟩ c
  | ⟨7, _⟩ => fun c => dat7 (Ve7 m) ⟨tbl7 m, hO.h7⟩ c
  | ⟨8, _⟩ => fun c => dat8 (Ve8 m) ⟨tbl8 m, hO.h8⟩ c
  | ⟨9, _⟩ => fun c => dat9 (Ve9 m) ⟨tbl9 m, hO.h9⟩ c
  | ⟨10, _⟩ => fun c => dat10 (Ve10 m) ⟨tbl10 m, hO.h10⟩ c
  | ⟨11, _⟩ => fun c => dat11 (Ve11 m) ⟨tbl11 m, hO.h11⟩ c
  | ⟨12, _⟩ => fun c => dat12 (Ve12 m) ⟨tbl12 m, hO.h12⟩ c
  | ⟨13, _⟩ => fun c => dat13 (Ve13 m) ⟨tbl13 m, hO.h13⟩ c
  | ⟨14, _⟩ => fun c => dat14 (Ve14 m) ⟨tbl14 m, hO.h14⟩ c
  | ⟨15, _⟩ => fun c => dat15 (Ve15 m) ⟨tbl15 m, hO.h15⟩ c
  | ⟨_ + 16, h⟩ => absurd h (Nat.not_lt.2 (Nat.le_add_left _ _))
/-- What region 0 leaves in its output array. -/
noncomputable def chunk0 (c : Dev nD) : Buf (Elt F) ((c : Thread nD τ).loc main_v4) := (dat0 (Ve0 m) ⟨tbl0 m, hO.h0⟩ c).arrAt 4 (cfg0 ⟨tbl0 m, hO.h0⟩).N
/-- What region 1 leaves in its output array. -/
noncomputable def chunk1 (c : Dev nD) : Buf (Elt F) ((c : Thread nD τ).loc main_v8) := (dat1 (Ve1 m) ⟨tbl1 m, hO.h1⟩ c).arrAt 4 (cfg1 ⟨tbl1 m, hO.h1⟩).N
/-- What region 2 leaves in its output array. -/
noncomputable def chunk2 (c : Dev nD) : Buf (Elt F) ((c : Thread nD τ).loc main_v12) := (dat2 (Ve2 m) ⟨tbl2 m, hO.h2⟩ c).arrAt 4 (cfg2 ⟨tbl2 m, hO.h2⟩).N
/-- What region 3 leaves in its output array. -/
noncomputable def chunk3 (c : Dev nD) : Buf (Elt F) ((c : Thread nD τ).loc main_v16) := (dat3 (Ve3 m) ⟨tbl3 m, hO.h3⟩ c).arrAt 4 (cfg3 ⟨tbl3 m, hO.h3⟩).N
/-- What region 4 leaves in its output array. -/
noncomputable def chunk4 (c : Dev nD) : Buf (Elt F) ((c : Thread nD τ).loc main_v20) := (dat4 (Ve4 m) ⟨tbl4 m, hO.h4⟩ c).arrAt 4 (cfg4 ⟨tbl4 m, hO.h4⟩).N
/-- What region 5 leaves in its output array. -/
noncomputable def chunk5 (c : Dev nD) : Buf (Elt F) ((c : Thread nD τ).loc main_v24) := (dat5 (Ve5 m) ⟨tbl5 m, hO.h5⟩ c).arrAt 4 (cfg5 ⟨tbl5 m, hO.h5⟩).N
/-- What region 6 leaves in its output array. -/
noncomputable def chunk6 (c : Dev nD) : Buf (Elt F) ((c : Thread nD τ).loc main_v28) := (dat6 (Ve6 m) ⟨tbl6 m, hO.h6⟩ c).arrAt 4 (cfg6 ⟨tbl6 m, hO.h6⟩).N
/-- What region 7 leaves in its output array. -/
noncomputable def chunk7 (c : Dev nD) : Buf (Elt F) ((c : Thread nD τ).loc main_v32) := (dat7 (Ve7 m) ⟨tbl7 m, hO.h7⟩ c).arrAt 4 (cfg7 ⟨tbl7 m, hO.h7⟩).N
/-- What region 8 leaves in its output array. -/
noncomputable def chunk8 (c : Dev nD) : Buf (Elt F) ((c : Thread nD τ).loc main_v36) := (dat8 (Ve8 m) ⟨tbl8 m, hO.h8⟩ c).arrAt 4 (cfg8 ⟨tbl8 m, hO.h8⟩).N
/-- What region 9 leaves in its output array. -/
noncomputable def chunk9 (c : Dev nD) : Buf (Elt F) ((c : Thread nD τ).loc main_v40) := (dat9 (Ve9 m) ⟨tbl9 m, hO.h9⟩ c).arrAt 4 (cfg9 ⟨tbl9 m, hO.h9⟩).N
/-- What region 10 leaves in its output array. -/
noncomputable def chunk10 (c : Dev nD) : Buf (Elt F) ((c : Thread nD τ).loc main_v44) := (dat10 (Ve10 m) ⟨tbl10 m, hO.h10⟩ c).arrAt 4 (cfg10 ⟨tbl10 m, hO.h10⟩).N
/-- What region 11 leaves in its output array. -/
noncomputable def chunk11 (c : Dev nD) : Buf (Elt F) ((c : Thread nD τ).loc main_v48) := (dat11 (Ve11 m) ⟨tbl11 m, hO.h11⟩ c).arrAt 4 (cfg11 ⟨tbl11 m, hO.h11⟩).N
/-- What region 12 leaves in its output array. -/
noncomputable def chunk12 (c : Dev nD) : Buf (Elt F) ((c : Thread nD τ).loc main_v52) := (dat12 (Ve12 m) ⟨tbl12 m, hO.h12⟩ c).arrAt 4 (cfg12 ⟨tbl12 m, hO.h12⟩).N
/-- What region 13 leaves in its output array. -/
noncomputable def chunk13 (c : Dev nD) : Buf (Elt F) ((c : Thread nD τ).loc main_v56) := (dat13 (Ve13 m) ⟨tbl13 m, hO.h13⟩ c).arrAt 4 (cfg13 ⟨tbl13 m, hO.h13⟩).N
/-- What region 14 leaves in its output array. -/
noncomputable def chunk14 (c : Dev nD) : Buf (Elt F) ((c : Thread nD τ).loc main_v60) := (dat14 (Ve14 m) ⟨tbl14 m, hO.h14⟩ c).arrAt 4 (cfg14 ⟨tbl14 m, hO.h14⟩).N
/-- What region 15 leaves in its output array. -/
noncomputable def chunk15 (c : Dev nD) : Buf (Elt F) ((c : Thread nD τ).loc main_v64) := (dat15 (Ve15 m) ⟨tbl15 m, hO.h15⟩ c).arrAt 4 (cfg15 ⟨tbl15 m, hO.h15⟩).N
/-- The contents the regions leave: region k's output array at `chunk k`, everything else as launched. -/
noncomputable def outsR : Outs (F := F) := fun J r c => match J with
  | 2 => Function.update (fun r => m ((c : Thread nD τ).loc r)) main_v4 (chunk0 m hO c) r
  | 4 => Function.update (fun r => m ((c : Thread nD τ).loc r)) main_v8 (chunk1 m hO c) r
  | 6 => Function.update (fun r => m ((c : Thread nD τ).loc r)) main_v12 (chunk2 m hO c) r
  | 8 => Function.update (fun r => m ((c : Thread nD τ).loc r)) main_v16 (chunk3 m hO c) r
  | 10 => Function.update (fun r => m ((c : Thread nD τ).loc r)) main_v20 (chunk4 m hO c) r
  | 12 => Function.update (fun r => m ((c : Thread nD τ).loc r)) main_v24 (chunk5 m hO c) r
  | 14 => Function.update (fun r => m ((c : Thread nD τ).loc r)) main_v28 (chunk6 m hO c) r
  | 16 => Function.update (fun r => m ((c : Thread nD τ).loc r)) main_v32 (chunk7 m hO c) r
  | 18 => Function.update (fun r => m ((c : Thread nD τ).loc r)) main_v36 (chunk8 m hO c) r
  | 20 => Function.update (fun r => m ((c : Thread nD τ).loc r)) main_v40 (chunk9 m hO c) r
  | 22 => Function.update (fun r => m ((c : Thread nD τ).loc r)) main_v44 (chunk10 m hO c) r
  | 24 => Function.update (fun r => m ((c : Thread nD τ).loc r)) main_v48 (chunk11 m hO c) r
  | 26 => Function.update (fun r => m ((c : Thread nD τ).loc r)) main_v52 (chunk12 m hO c) r
  | 28 => Function.update (fun r => m ((c : Thread nD τ).loc r)) main_v56 (chunk13 m hO c) r
  | 30 => Function.update (fun r => m ((c : Thread nD τ).loc r)) main_v60 (chunk14 m hO c) r
  | 32 => Function.update (fun r => m ((c : Thread nD τ).loc r)) main_v64 (chunk15 m hO c) r
  | _ => m ((c : Thread nD τ).loc r)
theorem outsR_0 (c : Dev nD) : outsR m hO 2 main_v4 c = chunk0 m hO c := by
  show Function.update (fun r : Ref sig .tc => m ((c : Thread nD τ).loc r)) main_v4 (chunk0 m hO c) main_v4 = _
  exact Function.update_self _ _ _
theorem outsR_1 (c : Dev nD) : outsR m hO 4 main_v8 c = chunk1 m hO c := by
  show Function.update (fun r : Ref sig .tc => m ((c : Thread nD τ).loc r)) main_v8 (chunk1 m hO c) main_v8 = _
  exact Function.update_self _ _ _
theorem outsR_2 (c : Dev nD) : outsR m hO 6 main_v12 c = chunk2 m hO c := by
  show Function.update (fun r : Ref sig .tc => m ((c : Thread nD τ).loc r)) main_v12 (chunk2 m hO c) main_v12 = _
  exact Function.update_self _ _ _
theorem outsR_3 (c : Dev nD) : outsR m hO 8 main_v16 c = chunk3 m hO c := by
  show Function.update (fun r : Ref sig .tc => m ((c : Thread nD τ).loc r)) main_v16 (chunk3 m hO c) main_v16 = _
  exact Function.update_self _ _ _
theorem outsR_4 (c : Dev nD) : outsR m hO 10 main_v20 c = chunk4 m hO c := by
  show Function.update (fun r : Ref sig .tc => m ((c : Thread nD τ).loc r)) main_v20 (chunk4 m hO c) main_v20 = _
  exact Function.update_self _ _ _
theorem outsR_5 (c : Dev nD) : outsR m hO 12 main_v24 c = chunk5 m hO c := by
  show Function.update (fun r : Ref sig .tc => m ((c : Thread nD τ).loc r)) main_v24 (chunk5 m hO c) main_v24 = _
  exact Function.update_self _ _ _
theorem outsR_6 (c : Dev nD) : outsR m hO 14 main_v28 c = chunk6 m hO c := by
  show Function.update (fun r : Ref sig .tc => m ((c : Thread nD τ).loc r)) main_v28 (chunk6 m hO c) main_v28 = _
  exact Function.update_self _ _ _
theorem outsR_7 (c : Dev nD) : outsR m hO 16 main_v32 c = chunk7 m hO c := by
  show Function.update (fun r : Ref sig .tc => m ((c : Thread nD τ).loc r)) main_v32 (chunk7 m hO c) main_v32 = _
  exact Function.update_self _ _ _
theorem outsR_8 (c : Dev nD) : outsR m hO 18 main_v36 c = chunk8 m hO c := by
  show Function.update (fun r : Ref sig .tc => m ((c : Thread nD τ).loc r)) main_v36 (chunk8 m hO c) main_v36 = _
  exact Function.update_self _ _ _
theorem outsR_9 (c : Dev nD) : outsR m hO 20 main_v40 c = chunk9 m hO c := by
  show Function.update (fun r : Ref sig .tc => m ((c : Thread nD τ).loc r)) main_v40 (chunk9 m hO c) main_v40 = _
  exact Function.update_self _ _ _
theorem outsR_10 (c : Dev nD) : outsR m hO 22 main_v44 c = chunk10 m hO c := by
  show Function.update (fun r : Ref sig .tc => m ((c : Thread nD τ).loc r)) main_v44 (chunk10 m hO c) main_v44 = _
  exact Function.update_self _ _ _
theorem outsR_11 (c : Dev nD) : outsR m hO 24 main_v48 c = chunk11 m hO c := by
  show Function.update (fun r : Ref sig .tc => m ((c : Thread nD τ).loc r)) main_v48 (chunk11 m hO c) main_v48 = _
  exact Function.update_self _ _ _
theorem outsR_12 (c : Dev nD) : outsR m hO 26 main_v52 c = chunk12 m hO c := by
  show Function.update (fun r : Ref sig .tc => m ((c : Thread nD τ).loc r)) main_v52 (chunk12 m hO c) main_v52 = _
  exact Function.update_self _ _ _
theorem outsR_13 (c : Dev nD) : outsR m hO 28 main_v56 c = chunk13 m hO c := by
  show Function.update (fun r : Ref sig .tc => m ((c : Thread nD τ).loc r)) main_v56 (chunk13 m hO c) main_v56 = _
  exact Function.update_self _ _ _
theorem outsR_14 (c : Dev nD) : outsR m hO 30 main_v60 c = chunk14 m hO c := by
  show Function.update (fun r : Ref sig .tc => m ((c : Thread nD τ).loc r)) main_v60 (chunk14 m hO c) main_v60 = _
  exact Function.update_self _ _ _
theorem outsR_15 (c : Dev nD) : outsR m hO 32 main_v64 c = chunk15 m hO c := by
  show Function.update (fun r : Ref sig .tc => m ((c : Thread nD τ).loc r)) main_v64 (chunk15 m hO c) main_v64 = _
  exact Function.update_self _ _ _

/-- No variant, no level: no core owes another anything. -/
abbrev 𝒱₀ : Variants := Variants.none
abbrev L : GSem nD τ sig → Finset Unit := fun _ => ∅
abbrev lv : GSem nD τ sig → Unit → ℕ := fun _ _ => 0
/-- What rides beside the buffers between items: the generator register at some state, and nothing owed. -/
abbrev Rst (c : Dev nD) : sProp 𝕄 := iprop((∃ r, prngReg c r) ∗ ∃ W, owes (c : Thread nD τ) (0 : CellTallies nD τ sig Unit) W)

end Cert.Kernel.Hand

end
-- ==== Proof.KHostEntry.lean ====
/- What each kernel region of @main finds in the TensorCore's buffers when it starts. Between the regions the host
   only reshapes what a region wrote and cuts the next slices out of the two index inputs, so the arrays region k reads
   (the features h, the bias b, the weights W, its two index tables, and the array it is about to write) are functions
   of the launch memory alone: they are the same whatever the earlier regions left in their outputs. The two tables
   region k is handed are the slices of length 62500 at offset 62500·k of the two index inputs. Regions 0 and 1 are
   here; the other regions' statements have the same shape, one host stretch and one region further along each. -/
import proofs.«405368_j31662498906597_2_alg».proof.Proof.RegionsKernel
import Idealize.ShloMosaic.Lib.StableHlo.Run

set_option maxRecDepth 1316

noncomputable section

namespace Cert.Kernel.Hand

open Cert.Kernel Cert.Kernel.Gen Idealize.ShloMosaic Idealize.ShloMosaic.TcCoe

variable {F : FTy → Type} [FloatOps F] (m : (ℓ : Loc nD τ sig) → Buf (Elt F) ℓ)

/-! ## Region 0: after the first host stretch -/

/-- The first host stretch writes `main_v0 … main_v3` only: the weights are as launched. -/
theorem W_at1 (c : Dev nD) : V1 m c main_arg3 = m ((c : Thread nD τ).loc main_arg3) :=
  (V1_of m c main_arg3 (by decide)).trans rfl
/-- … and so is the first index input. -/
theorem a1_at1 (c : Dev nD) : V1 m c main_arg1 = m ((c : Thread nD τ).loc main_arg1) :=
  (V1_of m c main_arg1 (by decide)).trans rfl
/-- … and the second. -/
theorem a2_at1 (c : Dev nD) : V1 m c main_arg2 = m ((c : Thread nD τ).loc main_arg2) :=
  (V1_of m c main_arg2 (by decide)).trans rfl

/-- Region 0's first table is the slice at offset 0 of the first index input. -/
theorem tbl0_src (c : Dev nD) :
    V1 m c main_v2 = (extractStridedSlice S62500 ![0] (m ((c : Thread nD τ).loc main_arg1)) slices_S1000000_S62500_0 : (⟨S62500, .i32⟩ : BufTy).Contents (Elt F)) := by
  show StableHlo.after hostOps0 (V0 m c) (Proc.devRef .tc main_v2) = _
  after_results
/-- Region 0's second table is the slice at offset 0 of the second index input. -/
theorem tbl0_dst (c : Dev nD) :
    V1 m c main_v3 = (extractStridedSlice S62500 ![0] (m ((c : Thread nD τ).loc main_arg2)) slices_S1000000_S62500_0 : (⟨S62500, .i32⟩ : BufTy).Contents (Elt F)) := by
  show StableHlo.after hostOps0 (V0 m c) (Proc.devRef .tc main_v3) = _
  after_results

/-! ## Region 1: after region 0 (which may change `main_v4` only) and the second host stretch (which writes
`main_v5`, `main_v6`, `main_v7`) -/

variable (outs outs' : Outs (F := F))

/-- Region 0 leaves the features where the first host stretch put them. -/
theorem h_at2 (c : Dev nD) : V2 m outs c main_v1 = V1 m c main_v1 := V2_of m outs c main_v1 (by decide)
theorem b_at2 (c : Dev nD) : V2 m outs c main_v0 = V1 m c main_v0 := V2_of m outs c main_v0 (by decide)
theorem W_at2 (c : Dev nD) : V2 m outs c main_arg3 = m ((c : Thread nD τ).loc main_arg3) :=
  (V2_of m outs c main_arg3 (by decide)).trans (W_at1 m c)
theorem a1_at2 (c : Dev nD) : V2 m outs c main_arg1 = m ((c : Thread nD τ).loc main_arg1) :=
  (V2_of m outs c main_arg1 (by decide)).trans (a1_at1 m c)
theorem a2_at2 (c : Dev nD) : V2 m outs c main_arg2 = m ((c : Thread nD τ).loc main_arg2) :=
  (V2_of m outs c main_arg2 (by decide)).trans (a2_at1 m c)

/-- … and so does the second host stretch. -/
theorem h_at3 (c : Dev nD) : V3 m outs c main_v1 = V1 m c main_v1 :=
  (V3_of m outs c main_v1 (by decide)).trans (h_at2 m outs c)
theorem b_at3 (c : Dev nD) : V3 m outs c main_v0 = V1 m c main_v0 :=
  (V3_of m outs c main_v0 (by decide)).trans (b_at2 m outs c)
theorem W_at3 (c : Dev nD) : V3 m outs c main_arg3 = m ((c : Thread nD τ).loc main_arg3) :=
  (V3_of m outs c main_arg3 (by decide)).trans (W_at2 m outs c)
theorem a1_at3 (c : Dev nD) : V3 m outs c main_arg1 = m ((c : Thread nD τ).loc main_arg1) :=
  (V3_of m outs c main_arg1 (by decide)).trans (a1_at2 m outs c)
theorem a2_at3 (c : Dev nD) : V3 m outs c main_arg2 = m ((c : Thread nD τ).loc main_arg2) :=
  (V3_of m outs c main_arg2 (by decide)).trans (a2_at2 m outs c)

/-- Region 1's first table is the slice at offset 62500 of the first index input: the second host stretch cuts it
    out of `main_arg1`, which region 0 did not touch. -/
theorem tbl1_src (c : Dev nD) :
    V3 m outs c main_v6 = (extractStridedSlice S62500 ![62500] (m ((c : Thread nD τ).loc main_arg1)) slices_S1000000_S62500_62500 : (⟨S62500, .i32⟩ : BufTy).Contents (Elt F)) := by
  have e : V3 m outs c main_v6 = (extractStridedSlice S62500 ![62500] (V2 m outs c main_arg1) slices_S1000000_S62500_62500 : (⟨S62500, .i32⟩ : BufTy).Contents (Elt F)) := by
    show StableHlo.after hostOps1 (V2 m outs c) (Proc.devRef .tc main_v6) = _
    after_results
  rw [e, a1_at2 m outs c]
/-- Region 1's second table is the slice at offset 62500 of the second index input. -/
theorem tbl1_dst (c : Dev nD) :
    V3 m outs c main_v7 = (extractStridedSlice S62500 ![62500] (m ((c : Thread nD τ).loc main_arg2)) slices_S1000000_S62500_62500 : (⟨S62500, .i32⟩ : BufTy).Contents (Elt F)) := by
  have e : V3 m outs c main_v7 = (extractStridedSlice S62500 ![62500] (V2 m outs c main_arg2) slices_S1000000_S62500_62500 : (⟨S62500, .i32⟩ : BufTy).Contents (Elt F)) := by
    show StableHlo.after hostOps1 (V2 m outs c) (Proc.devRef .tc main_v7) = _
    after_results
  rw [e, a2_at2 m outs c]

/-- Nothing before region 1 writes the array region 1 is about to write: it is as launched. -/
theorem launched1 (c : Dev nD) : V3 m outs c main_v8 = m ((c : Thread nD τ).loc main_v8) :=
  (V3_of m outs c main_v8 (by decide)).trans <| (V2_of m outs c main_v8 (by decide)).trans <|
    (V1_of m c main_v8 (by decide)).trans rfl

/-- What region 1 finds does not depend on what region 0 wrote. -/
theorem indep1_h (c : Dev nD) : V3 m outs c main_v1 = V3 m outs' c main_v1 :=
  (h_at3 m outs c).trans (h_at3 m outs' c).symm
theorem indep1_b (c : Dev nD) : V3 m outs c main_v0 = V3 m outs' c main_v0 :=
  (b_at3 m outs c).trans (b_at3 m outs' c).symm
theorem indep1_W (c : Dev nD) : V3 m outs c main_arg3 = V3 m outs' c main_arg3 :=
  (W_at3 m outs c).trans (W_at3 m outs' c).symm
theorem indep1_src (c : Dev nD) : V3 m outs c main_v6 = V3 m outs' c main_v6 :=
  (tbl1_src m outs c).trans (tbl1_src m outs' c).symm
theorem indep1_dst (c : Dev nD) : V3 m outs c main_v7 = V3 m outs' c main_v7 :=
  (tbl1_dst m outs c).trans (tbl1_dst m outs' c).symm
theorem indep1_out (c : Dev nD) : V3 m outs c main_v8 = V3 m outs' c main_v8 :=
  (launched1 m outs c).trans (launched1 m outs' c).symm

end Cert.Kernel.Hand
-- ==== Proof.KHostEntryGen.lean ====
/- What regions 2 … 15 of @main find in the TensorCore's buffers when they start: the same statements as for
   regions 0 and 1, each one host stretch and one region further along. For region k the valuation is V(2k+1);
   the features, the bias, the weights and the two index inputs are carried unchanged through every item; the
   two tables are the slices at offset 62500·k that host stretch k cuts out of the index inputs; the array the
   region writes has not been written yet. Hence none of the six depends on what earlier regions wrote. -/
import proofs.«405368_j31662498906597_2_alg».proof.Proof.KHostEntry
import Idealize.ShloMosaic.Lib.StableHlo.Run

set_option maxRecDepth 1316

noncomputable section

namespace Cert.Kernel.Hand

open Cert.Kernel Cert.Kernel.Gen Idealize.ShloMosaic Idealize.ShloMosaic.TcCoe

variable {F : FTy → Type} [FloatOps F] (m : (ℓ : Loc nD τ sig) → Buf (Elt F) ℓ)
variable (outs outs' : Outs (F := F))

/-! ## Region 2: after region 1 (which may change `main_v8` only) and host stretch 2 (which writes
`main_v9`, `main_v10`, `main_v11`) -/

theorem h_at4 (c : Dev nD) : V4 m outs c main_v1 = V1 m c main_v1 :=
  (V4_of m outs c main_v1 (by decide)).trans (h_at3 m outs c)
theorem b_at4 (c : Dev nD) : V4 m outs c main_v0 = V1 m c main_v0 :=
  (V4_of m outs c main_v0 (by decide)).trans (b_at3 m outs c)
theorem W_at4 (c : Dev nD) : V4 m outs c main_arg3 = m ((c : Thread nD τ).loc main_arg3) :=
  (V4_of m outs c main_arg3 (by decide)).trans (W_at3 m outs c)
theorem a1_at4 (c : Dev nD) : V4 m outs c main_arg1 = m ((c : Thread nD τ).loc main_arg1) :=
  (V4_of m outs c main_arg1 (by decide)).trans (a1_at3 m outs c)
theorem a2_at4 (c : Dev nD) : V4 m outs c main_arg2 = m ((c : Thread nD τ).loc main_arg2) :=
  (V4_of m outs c main_arg2 (by decide)).trans (a2_at3 m outs c)
theorem h_at5 (c : Dev nD) : V5 m outs c main_v1 = V1 m c main_v1 :=
  (V5_of m outs c main_v1 (by decide)).trans (h_at4 m outs c)
theorem b_at5 (c : Dev nD) : V5 m outs c main_v0 = V1 m c main_v0 :=
  (V5_of m outs c main_v0 (by decide)).trans (b_at4 m outs c)
theorem W_at5 (c : Dev nD) : V5 m outs c main_arg3 = m ((c : Thread nD τ).loc main_arg3) :=
  (V5_of m outs c main_arg3 (by decide)).trans (W_at4 m outs c)
theorem a1_at5 (c : Dev nD) : V5 m outs c main_arg1 = m ((c : Thread nD τ).loc main_arg1) :=
  (V5_of m outs c main_arg1 (by decide)).trans (a1_at4 m outs c)
theorem a2_at5 (c : Dev nD) : V5 m outs c main_arg2 = m ((c : Thread nD τ).loc main_arg2) :=
  (V5_of m outs c main_arg2 (by decide)).trans (a2_at4 m outs c)
/-- Region 2's table `main_v10` is the slice at offset 125000 of `main_arg1`. -/
theorem tbl2_src (c : Dev nD) :
    V5 m outs c main_v10 = (extractStridedSlice S62500 ![125000] (m ((c : Thread nD τ).loc main_arg1)) slices_S1000000_S62500_125000 : (⟨S62500, .i32⟩ : BufTy).Contents (Elt F)) := by
  have e : V5 m outs c main_v10 = (extractStridedSlice S62500 ![125000] (V4 m outs c main_arg1) slices_S1000000_S62500_125000 : (⟨S62500, .i32⟩ : BufTy).Contents (Elt F)) := by
    show StableHlo.after hostOps2 (V4 m outs c) (Proc.devRef .tc main_v10) = _
    after_results
  rw [e, a1_at4 m outs c]
/-- Region 2's table `main_v11` is the slice at offset 125000 of `main_arg2`. -/
theorem tbl2_dst (c : Dev nD) :
    V5 m outs c main_v11 = (extractStridedSlice S62500 ![125000] (m ((c : Thread nD τ).loc main_arg2)) slices_S1000000_S62500_125000 : (⟨S62500, .i32⟩ : BufTy).Contents (Elt F)) := by
  have e : V5 m outs c main_v11 = (extractStridedSlice S62500 ![125000] (V4 m outs c main_arg2) slices_S1000000_S62500_125000 : (⟨S62500, .i32⟩ : BufTy).Contents (Elt F)) := by
    show StableHlo.after hostOps2 (V4 m outs c) (Proc.devRef .tc main_v11) = _
    after_results
  rw [e, a2_at4 m outs c]
/-- Nothing before region 2 writes `main_v12`: it is as launched. -/
theorem launched2 (c : Dev nD) : V5 m outs c main_v12 = m ((c : Thread nD τ).loc main_v12) :=
  (V5_of m outs c main_v12 (by decide)).trans <|
    (V4_of m outs c main_v12 (by decide)).trans <|
    (V3_of m outs c main_v12 (by decide)).trans <|
    (V2_of m outs c main_v12 (by decide)).trans <|
    (V1_of m c main_v12 (by decide)).trans rfl
/-- What region 2 finds does not depend on what the earlier regions wrote. -/
theorem indep2_h (c : Dev nD) : V5 m outs c main_v1 = V5 m outs' c main_v1 :=
  (h_at5 m outs c).trans (h_at5 m outs' c).symm
theorem indep2_b (c : Dev nD) : V5 m outs c main_v0 = V5 m outs' c main_v0 :=
  (b_at5 m outs c).trans (b_at5 m outs' c).symm
theorem indep2_W (c : Dev nD) : V5 m outs c main_arg3 = V5 m outs' c main_arg3 :=
  (W_at5 m outs c).trans (W_at5 m outs' c).symm
theorem indep2_src (c : Dev nD) : V5 m outs c main_v10 = V5 m outs' c main_v10 :=
  (tbl2_src m outs c).trans (tbl2_src m outs' c).symm
theorem indep2_dst (c : Dev nD) : V5 m outs c main_v11 = V5 m outs' c main_v11 :=
  (tbl2_dst m outs c).trans (tbl2_dst m outs' c).symm
theorem indep2_out (c : Dev nD) : V5 m outs c main_v12 = V5 m outs' c main_v12 :=
  (launched2 m outs c).trans (launched2 m outs' c).symm

/-! ## Region 3: after region 2 (which may change `main_v12` only) and host stretch 3 (which writes
`main_v13`, `main_v14`, `main_v15`) -/

theorem h_at6 (c : Dev nD) : V6 m outs c main_v1 = V1 m c main_v1 :=
  (V6_of m outs c main_v1 (by decide)).trans (h_at5 m outs c)
theorem b_at6 (c : Dev nD) : V6 m outs c main_v0 = V1 m c main_v0 :=
  (V6_of m outs c main_v0 (by decide)).trans (b_at5 m outs c)
theorem W_at6 (c : Dev nD) : V6 m outs c main_arg3 = m ((c : Thread nD τ).loc main_arg3) :=
  (V6_of m outs c main_arg3 (by decide)).trans (W_at5 m outs c)
theorem a1_at6 (c : Dev nD) : V6 m outs c main_arg1 = m ((c : Thread nD τ).loc main_arg1) :=
  (V6_of m outs c main_arg1 (by decide)).trans (a1_at5 m outs c)
theorem a2_at6 (c : Dev nD) : V6 m outs c main_arg2 = m ((c : Thread nD τ).loc main_arg2) :=
  (V6_of m outs c main_arg2 (by decide)).trans (a2_at5 m outs c)
theorem h_at7 (c : Dev nD) : V7 m outs c main_v1 = V1 m c main_v1 :=
  (V7_of m outs c main_v1 (by decide)).trans (h_at6 m outs c)
theorem b_at7 (c : Dev nD) : V7 m outs c main_v0 = V1 m c main_v0 :=
  (V7_of m outs c main_v0 (by decide)).trans (b_at6 m outs c)
theorem W_at7 (c : Dev nD) : V7 m outs c main_arg3 = m ((c : Thread nD τ).loc main_arg3) :=
  (V7_of m outs c main_arg3 (by decide)).trans (W_at6 m outs c)
theorem a1_at7 (c : Dev nD) : V7 m outs c main_arg1 = m ((c : Thread nD τ).loc main_arg1) :=
  (V7_of m outs c main_arg1 (by decide)).trans (a1_at6 m outs c)
theorem a2_at7 (c : Dev nD) : V7 m outs c main_arg2 = m ((c : Thread nD τ).loc main_arg2) :=
  (V7_of m outs c main_arg2 (by decide)).trans (a2_at6 m outs c)
/-- Region 3's table `main_v14` is the slice at offset 187500 of `main_arg1`. -/
theorem tbl3_src (c : Dev nD) :
    V7 m outs c main_v14 = (extractStridedSlice S62500 ![187500] (m ((c : Thread nD τ).loc main_arg1)) slices_S1000000_S62500_187500 : (⟨S62500, .i32⟩ : BufTy).Contents (Elt F)) := by
  have e : V7 m outs c main_v14 = (extractStridedSlice S62500 ![187500] (V6 m outs c main_arg1) slices_S1000000_S62500_187500 : (⟨S62500, .i32⟩ : BufTy).Contents (Elt F)) := by
    show StableHlo.after hostOps3 (V6 m outs c) (Proc.devRef .tc main_v14) = _
    after_results
  rw [e, a1_at6 m outs c]
/-- Region 3's table `main_v15` is the slice at offset 187500 of `main_arg2`. -/
theorem tbl3_dst (c : Dev nD) :
    V7 m outs c main_v15 = (extractStridedSlice S62500 ![187500] (m ((c : Thread nD τ).loc main_arg2)) slices_S1000000_S62500_187500 : (⟨S62500, .i32⟩ : BufTy).Contents (Elt F)) := by
  have e : V7 m outs c main_v15 = (extractStridedSlice S62500 ![187500] (V6 m outs c main_arg2) slices_S1000000_S62500_187500 : (⟨S62500, .i32⟩ : BufTy).Contents (Elt F)) := by
    show StableHlo.after hostOps3 (V6 m outs c) (Proc.devRef .tc main_v15) = _
    after_results
  rw [e, a2_at6 m outs c]
/-- Nothing before region 3 writes `main_v16`: it is as launched. -/
theorem launched3 (c : Dev nD) : V7 m outs c main_v16 = m ((c : Thread nD τ).loc main_v16) :=
  (V7_of m outs c main_v16 (by decide)).trans <|
    (V6_of m outs c main_v16 (by decide)).trans <|
    (V5_of m outs c main_v16 (by decide)).trans <|
    (V4_of m outs c main_v16 (by decide)).trans <|
    (V3_of m outs c main_v16 (by decide)).trans <|
    (V2_of m outs c main_v16 (by decide)).trans <|
    (V1_of m c main_v16 (by decide)).trans rfl
/-- What region 3 finds does not depend on what the earlier regions wrote. -/
theorem indep3_h (c : Dev nD) : V7 m outs c main_v1 = V7 m outs' c main_v1 :=
  (h_at7 m outs c).trans (h_at7 m outs' c).symm
theorem indep3_b (c : Dev nD) : V7 m outs c main_v0 = V7 m outs' c main_v0 :=
  (b_at7 m outs c).trans (b_at7 m outs' c).symm
theorem indep3_W (c : Dev nD) : V7 m outs c main_arg3 = V7 m outs' c main_arg3 :=
  (W_at7 m outs c).trans (W_at7 m outs' c).symm
theorem indep3_src (c : Dev nD) : V7 m outs c main_v14 = V7 m outs' c main_v14 :=
  (tbl3_src m outs c).trans (tbl3_src m outs' c).symm
theorem indep3_dst (c : Dev nD) : V7 m outs c main_v15 = V7 m outs' c main_v15 :=
  (tbl3_dst m outs c).trans (tbl3_dst m outs' c).symm
theorem indep3_out (c : Dev nD) : V7 m outs c main_v16 = V7 m outs' c main_v16 :=
  (launched3 m outs c).trans (launched3 m outs' c).symm

/-! ## Region 4: after region 3 (which may change `main_v16` only) and host stretch 4 (which writes
`main_v17`, `main_v18`, `main_v19`) -/

theorem h_at8 (c : Dev nD) : V8 m outs c main_v1 = V1 m c main_v1 :=
  (V8_of m outs c main_v1 (by decide)).trans (h_at7 m outs c)
theorem b_at8 (c : Dev nD) : V8 m outs c main_v0 = V1 m c main_v0 :=
  (V8_of m outs c main_v0 (by decide)).trans (b_at7 m outs c)
theorem W_at8 (c : Dev nD) : V8 m outs c main_arg3 = m ((c : Thread nD τ).loc main_arg3) :=
  (V8_of m outs c main_arg3 (by decide)).trans (W_at7 m outs c)
theorem a1_at8 (c : Dev nD) : V8 m outs c main_arg1 = m ((c : Thread nD τ).loc main_arg1) :=
  (V8_of m outs c main_arg1 (by decide)).trans (a1_at7 m outs c)
theorem a2_at8 (c : Dev nD) : V8 m outs c main_arg2 = m ((c : Thread nD τ).loc main_arg2) :=
  (V8_of m outs c main_arg2 (by decide)).trans (a2_at7 m outs c)
theorem h_at9 (c : Dev nD) : V9 m outs c main_v1 = V1 m c main_v1 :=
  (V9_of m outs c main_v1 (by decide)).trans (h_at8 m outs c)
theorem b_at9 (c : Dev nD) : V9 m outs c main_v0 = V1 m c main_v0 :=
  (V9_of m outs c main_v0 (by decide)).trans (b_at8 m outs c)
theorem W_at9 (c : Dev nD) : V9 m outs c main_arg3 = m ((c : Thread nD τ).loc main_arg3) :=
  (V9_of m outs c main_arg3 (by decide)).trans (W_at8 m outs c)
theorem a1_at9 (c : Dev nD) : V9 m outs c main_arg1 = m ((c : Thread nD τ).loc main_arg1) :=
  (V9_of m outs c main_arg1 (by decide)).trans (a1_at8 m outs c)
theorem a2_at9 (c : Dev nD) : V9 m outs c main_arg2 = m ((c : Thread nD τ).loc main_arg2) :=
  (V9_of m outs c main_arg2 (by decide)).trans (a2_at8 m outs c)
/-- Region 4's table `main_v18` is the slice at offset 250000 of `main_arg1`. -/
theorem tbl4_src (c : Dev nD) :
    V9 m outs c main_v18 = (extractStridedSlice S62500 ![250000] (m ((c : Thread nD τ).loc main_arg1)) slices_S1000000_S62500_250000 : (⟨S62500, .i32⟩ : BufTy).Contents (Elt F)) := by
  have e : V9 m outs c main_v18 = (extractStridedSlice S62500 ![250000] (V8 m outs c main_arg1) slices_S1000000_S62500_250000 : (⟨S62500, .i32⟩ : BufTy).Contents (Elt F)) := by
    show StableHlo.after hostOps4 (V8 m outs c) (Proc.devRef .tc main_v18) = _
    after_results
  rw [e, a1_at8 m outs c]
/-- Region 4's table `main_v19` is the slice at offset 250000 of `main_arg2`. -/
theorem tbl4_dst (c : Dev nD) :
    V9 m outs c main_v19 = (extractStridedSlice S62500 ![250000] (m ((c : Thread nD τ).loc main_arg2)) slices_S1000000_S62500_250000 : (⟨S62500, .i32⟩ : BufTy).Contents (Elt F)) := by
  have e : V9 m outs c main_v19 = (extractStridedSlice S62500 ![250000] (V8 m outs c main_arg2) slices_S1000000_S62500_250000 : (⟨S62500, .i32⟩ : BufTy).Contents (Elt F)) := by
    show StableHlo.after hostOps4 (V8 m outs c) (Proc.devRef .tc main_v19) = _
    after_results
  rw [e, a2_at8 m outs c]
/-- Nothing before region 4 writes `main_v20`: it is as launched. -/
theorem launched4 (c : Dev nD) : V9 m outs c main_v20 = m ((c : Thread nD τ).loc main_v20) :=
  (V9_of m outs c main_v20 (by decide)).trans <|
    (V8_of m outs c main_v20 (by decide)).trans <|
    (V7_of m outs c main_v20 (by decide)).trans <|
    (V6_of m outs c main_v20 (by decide)).trans <|
    (V5_of m outs c main_v20 (by decide)).trans <|
    (V4_of m outs c main_v20 (by decide)).trans <|
    (V3_of m outs c main_v20 (by decide)).trans <|
    (V2_of m outs c main_v20 (by decide)).trans <|
    (V1_of m c main_v20 (by decide)).trans rfl
/-- What region 4 finds does not depend on what the earlier regions wrote. -/
theorem indep4_h (c : Dev nD) : V9 m outs c main_v1 = V9 m outs' c main_v1 :=
  (h_at9 m outs c).trans (h_at9 m outs' c).symm
theorem indep4_b (c : Dev nD) : V9 m outs c main_v0 = V9 m outs' c main_v0 :=
  (b_at9 m outs c).trans (b_at9 m outs' c).symm
theorem indep4_W (c : Dev nD) : V9 m outs c main_arg3 = V9 m outs' c main_arg3 :=
  (W_at9 m outs c).trans (W_at9 m outs' c).symm
theorem indep4_src (c : Dev nD) : V9 m outs c main_v18 = V9 m outs' c main_v18 :=
  (tbl4_src m outs c).trans (tbl4_src m outs' c).symm
theorem indep4_dst (c : Dev nD) : V9 m outs c main_v19 = V9 m outs' c main_v19 :=
  (tbl4_dst m outs c).trans (tbl4_dst m outs' c).symm
theorem indep4_out (c : Dev nD) : V9 m outs c main_v20 = V9 m outs' c main_v20 :=
  (launched4 m outs c).trans (launched4 m outs' c).symm

/-! ## Region 5: after region 4 (which may change `main_v20` only) and host stretch 5 (which writes
`main_v21`, `main_v22`, `main_v23`) -/

theorem h_at10 (c : Dev nD) : V10 m outs c main_v1 = V1 m c main_v1 :=
  (V10_of m outs c main_v1 (by decide)).trans (h_at9 m outs c)
theorem b_at10 (c : Dev nD) : V10 m outs c main_v0 = V1 m c main_v0 :=
  (V10_of m outs c main_v0 (by decide)).trans (b_at9 m outs c)
theorem W_at10 (c : Dev nD) : V10 m outs c main_arg3 = m ((c : Thread nD τ).loc main_arg3) :=
  (V10_of m outs c main_arg3 (by decide)).trans (W_at9 m outs c)
theorem a1_at10 (c : Dev nD) : V10 m outs c main_arg1 = m ((c : Thread nD τ).loc main_arg1) :=
  (V10_of m outs c main_arg1 (by decide)).trans (a1_at9 m outs c)
theorem a2_at10 (c : Dev nD) : V10 m outs c main_arg2 = m ((c : Thread nD τ).loc main_arg2) :=
  (V10_of m outs c main_arg2 (by decide)).trans (a2_at9 m outs c)
theorem h_at11 (c : Dev nD) : V11 m outs c main_v1 = V1 m c main_v1 :=
  (V11_of m outs c main_v1 (by decide)).trans (h_at10 m outs c)
theorem b_at11 (c : Dev nD) : V11 m outs c main_v0 = V1 m c main_v0 :=
  (V11_of m outs c main_v0 (by decide)).trans (b_at10 m outs c)
theorem W_at11 (c : Dev nD) : V11 m outs c main_arg3 = m ((c : Thread nD τ).loc main_arg3) :=
  (V11_of m outs c main_arg3 (by decide)).trans (W_at10 m outs c)
theorem a1_at11 (c : Dev nD) : V11 m outs c main_arg1 = m ((c : Thread nD τ).loc main_arg1) :=
  (V11_of m outs c main_arg1 (by decide)).trans (a1_at10 m outs c)
theorem a2_at11 (c : Dev nD) : V11 m outs c main_arg2 = m ((c : Thread nD τ).loc main_arg2) :=
  (V11_of m outs c main_arg2 (by decide)).trans (a2_at10 m outs c)
/-- Region 5's table `main_v22` is the slice at offset 312500 of `main_arg1`. -/
theorem tbl5_src (c : Dev nD) :
    V11 m outs c main_v22 = (extractStridedSlice S62500 ![312500] (m ((c : Thread nD τ).loc main_arg1)) slices_S1000000_S62500_312500 : (⟨S62500, .i32⟩ : BufTy).Contents (Elt F)) := by
  have e : V11 m outs c main_v22 = (extractStridedSlice S62500 ![312500] (V10 m outs c main_arg1) slices_S1000000_S62500_312500 : (⟨S62500, .i32⟩ : BufTy).Contents (Elt F)) := by
    show StableHlo.after hostOps5 (V10 m outs c) (Proc.devRef .tc main_v22) = _
    after_results
  rw [e, a1_at10 m outs c]
/-- Region 5's table `main_v23` is the slice at offset 312500 of `main_arg2`. -/
theorem tbl5_dst (c : Dev nD) :
    V11 m outs c main_v23 = (extractStridedSlice S62500 ![312500] (m ((c : Thread nD τ).loc main_arg2)) slices_S1000000_S62500_312500 : (⟨S62500, .i32⟩ : BufTy).Contents (Elt F)) := by
  have e : V11 m outs c main_v23 = (extractStridedSlice S62500 ![312500] (V10 m outs c main_arg2) slices_S1000000_S62500_312500 : (⟨S62500, .i32⟩ : BufTy).Contents (Elt F)) := by
    show StableHlo.after hostOps5 (V10 m outs c) (Proc.devRef .tc main_v23) = _
    after_results
  rw [e, a2_at10 m outs c]
/-- Nothing before region 5 writes `main_v24`: it is as launched. -/
theorem launched5 (c : Dev nD) : V11 m outs c main_v24 = m ((c : Thread nD τ).loc main_v24) :=
  (V11_of m outs c main_v24 (by decide)).trans <|
    (V10_of m outs c main_v24 (by decide)).trans <|
    (V9_of m outs c main_v24 (by decide)).trans <|
    (V8_of m outs c main_v24 (by decide)).trans <|
    (V7_of m outs c main_v24 (by decide)).trans <|
    (V6_of m outs c main_v24 (by decide)).trans <|
    (V5_of m outs c main_v24 (by decide)).trans <|
    (V4_of m outs c main_v24 (by decide)).trans <|
    (V3_of m outs c main_v24 (by decide)).trans <|
    (V2_of m outs c main_v24 (by decide)).trans <|
    (V1_of m c main_v24 (by decide)).trans rfl
/-- What region 5 finds does not depend on what the earlier regions wrote. -/
theorem indep5_h (c : Dev nD) : V11 m outs c main_v1 = V11 m outs' c main_v1 :=
  (h_at11 m outs c).trans (h_at11 m outs' c).symm
theorem indep5_b (c : Dev nD) : V11 m outs c main_v0 = V11 m outs' c main_v0 :=
  (b_at11 m outs c).trans (b_at11 m outs' c).symm
theorem indep5_W (c : Dev nD) : V11 m outs c main_arg3 = V11 m outs' c main_arg3 :=
  (W_at11 m outs c).trans (W_at11 m outs' c).symm
theorem indep5_src (c : Dev nD) : V11 m outs c main_v22 = V11 m outs' c main_v22 :=
  (tbl5_src m outs c).trans (tbl5_src m outs' c).symm
theorem indep5_dst (c : Dev nD) : V11 m outs c main_v23 = V11 m outs' c main_v23 :=
  (tbl5_dst m outs c).trans (tbl5_dst m outs' c).symm
theorem indep5_out (c : Dev nD) : V11 m outs c main_v24 = V11 m outs' c main_v24 :=
  (launched5 m outs c).trans (launched5 m outs' c).symm

/-! ## Region 6: after region 5 (which may change `main_v24` only) and host stretch 6 (which writes
`main_v25`, `main_v26`, `main_v27`) -/

theorem h_at12 (c : Dev nD) : V12 m outs c main_v1 = V1 m c main_v1 :=
  (V12_of m outs c main_v1 (by decide)).trans (h_at11 m outs c)
theorem b_at12 (c : Dev nD) : V12 m outs c main_v0 = V1 m c main_v0 :=
  (V12_of m outs c main_v0 (by decide)).trans (b_at11 m outs c)
theorem W_at12 (c : Dev nD) : V12 m outs c main_arg3 = m ((c : Thread nD τ).loc main_arg3) :=
  (V12_of m outs c main_arg3 (by decide)).trans (W_at11 m outs c)
theorem a1_at12 (c : Dev nD) : V12 m outs c main_arg1 = m ((c : Thread nD τ).loc main_arg1) :=
  (V12_of m outs c main_arg1 (by decide)).trans (a1_at11 m outs c)
theorem a2_at12 (c : Dev nD) : V12 m outs c main_arg2 = m ((c : Thread nD τ).loc main_arg2) :=
  (V12_of m outs c main_arg2 (by decide)).trans (a2_at11 m outs c)
theorem h_at13 (c : Dev nD) : V13 m outs c main_v1 = V1 m c main_v1 :=
  (V13_of m outs c main_v1 (by decide)).trans (h_at12 m outs c)
theorem b_at13 (c : Dev nD) : V13 m outs c main_v0 = V1 m c main_v0 :=
  (V13_of m outs c main_v0 (by decide)).trans (b_at12 m outs c)
theorem W_at13 (c : Dev nD) : V13 m outs c main_arg3 = m ((c : Thread nD τ).loc main_arg3) :=
  (V13_of m outs c main_arg3 (by decide)).trans (W_at12 m outs c)
theorem a1_at13 (c : Dev nD) : V13 m outs c main_arg1 = m ((c : Thread nD τ).loc main_arg1) :=
  (V13_of m outs c main_arg1 (by decide)).trans (a1_at12 m outs c)
theorem a2_at13 (c : Dev nD) : V13 m outs c main_arg2 = m ((c : Thread nD τ).loc main_arg2) :=
  (V13_of m outs c main_arg2 (by decide)).trans (a2_at12 m outs c)
/-- Region 6's table `main_v26` is the slice at offset 375000 of `main_arg1`. -/
theorem tbl6_src (c : Dev nD) :
    V13 m outs c main_v26 = (extractStridedSlice S62500 ![375000] (m ((c : Thread nD τ).loc main_arg1)) slices_S1000000_S62500_375000 : (⟨S62500, .i32⟩ : BufTy).Contents (Elt F)) := by
  have e : V13 m outs c main_v26 = (extractStridedSlice S62500 ![375000] (V12 m outs c main_arg1) slices_S1000000_S62500_375000 : (⟨S62500, .i32⟩ : BufTy).Contents (Elt F)) := by
    show StableHlo.after hostOps6 (V12 m outs c) (Proc.devRef .tc main_v26) = _
    after_results
  rw [e, a1_at12 m outs c]
/-- Region 6's table `main_v27` is the slice at offset 375000 of `main_arg2`. -/
theorem tbl6_dst (c : Dev nD) :
    V13 m outs c main_v27 = (extractStridedSlice S62500 ![375000] (m ((c : Thread nD τ).loc main_arg2)) slices_S1000000_S62500_375000 : (⟨S62500, .i32⟩ : BufTy).Contents (Elt F)) := by
  have e : V13 m outs c main_v27 = (extractStridedSlice S62500 ![375000] (V12 m outs c main_arg2) slices_S1000000_S62500_375000 : (⟨S62500, .i32⟩ : BufTy).Contents (Elt F)) := by
    show StableHlo.after hostOps6 (V12 m outs c) (Proc.devRef .tc main_v27) = _
    after_results
  rw [e, a2_at12 m outs c]
/-- Nothing before region 6 writes `main_v28`: it is as launched. -/
theorem launched6 (c : Dev nD) : V13 m outs c main_v28 = m ((c : Thread nD τ).loc main_v28) :=
  (V13_of m outs c main_v28 (by decide)).trans <|
    (V12_of m outs c main_v28 (by decide)).trans <|
    (V11_of m outs c main_v28 (by decide)).trans <|
    (V10_of m outs c main_v28 (by decide)).trans <|
    (V9_of m outs c main_v28 (by decide)).trans <|
    (V8_of m outs c main_v28 (by decide)).trans <|
    (V7_of m outs c main_v28 (by decide)).trans <|
    (V6_of m outs c main_v28 (by decide)).trans <|
    (V5_of m outs c main_v28 (by decide)).trans <|
    (V4_of m outs c main_v28 (by decide)).trans <|
    (V3_of m outs c main_v28 (by decide)).trans <|
    (V2_of m outs c main_v28 (by decide)).trans <|
    (V1_of m c main_v28 (by decide)).trans rfl
/-- What region 6 finds does not depend on what the earlier regions wrote. -/
theorem indep6_h (c : Dev nD) : V13 m outs c main_v1 = V13 m outs' c main_v1 :=
  (h_at13 m outs c).trans (h_at13 m outs' c).symm
theorem indep6_b (c : Dev nD) : V13 m outs c main_v0 = V13 m outs' c main_v0 :=
  (b_at13 m outs c).trans (b_at13 m outs' c).symm
theorem indep6_W (c : Dev nD) : V13 m outs c main_arg3 = V13 m outs' c main_arg3 :=
  (W_at13 m outs c).trans (W_at13 m outs' c).symm
theorem indep6_src (c : Dev nD) : V13 m outs c main_v26 = V13 m outs' c main_v26 :=
  (tbl6_src m outs c).trans (tbl6_src m outs' c).symm
theorem indep6_dst (c : Dev nD) : V13 m outs c main_v27 = V13 m outs' c main_v27 :=
  (tbl6_dst m outs c).trans (tbl6_dst m outs' c).symm
theorem indep6_out (c : Dev nD) : V13 m outs c main_v28 = V13 m outs' c main_v28 :=
  (launched6 m outs c).trans (launched6 m outs' c).symm

/-! ## Region 7: after region 6 (which may change `main_v28` only) and host stretch 7 (which writes
`main_v29`, `main_v30`, `main_v31`) -/

theorem h_at14 (c : Dev nD) : V14 m outs c main_v1 = V1 m c main_v1 :=
  (V14_of m outs c main_v1 (by decide)).trans (h_at13 m outs c)
theorem b_at14 (c : Dev nD) : V14 m outs c main_v0 = V1 m c main_v0 :=
  (V14_of m outs c main_v0 (by decide)).trans (b_at13 m outs c)
theorem W_at14 (c : Dev nD) : V14 m outs c main_arg3 = m ((c : Thread nD τ).loc main_arg3) :=
  (V14_of m outs c main_arg3 (by decide)).trans (W_at13 m outs c)
theorem a1_at14 (c : Dev nD) : V14 m outs c main_arg1 = m ((c : Thread nD τ).loc main_arg1) :=
  (V14_of m outs c main_arg1 (by decide)).trans (a1_at13 m outs c)
theorem a2_at14 (c : Dev nD) : V14 m outs c main_arg2 = m ((c : Thread nD τ).loc main_arg2) :=
  (V14_of m outs c main_arg2 (by decide)).trans (a2_at13 m outs c)
theorem h_at15 (c : Dev nD) : V15 m outs c main_v1 = V1 m c main_v1 :=
  (V15_of m outs c main_v1 (by decide)).trans (h_at14 m outs c)
theorem b_at15 (c : Dev nD) : V15 m outs c main_v0 = V1 m c main_v0 :=
  (V15_of m outs c main_v0 (by decide)).trans (b_at14 m outs c)
theorem W_at15 (c : Dev nD) : V15 m outs c main_arg3 = m ((c : Thread nD τ).loc main_arg3) :=
  (V15_of m outs c main_arg3 (by decide)).trans (W_at14 m outs c)
theorem a1_at15 (c : Dev nD) : V15 m outs c main_arg1 = m ((c : Thread nD τ).loc main_arg1) :=
  (V15_of m outs c main_arg1 (by decide)).trans (a1_at14 m outs c)
theorem a2_at15 (c : Dev nD) : V15 m outs c main_arg2 = m ((c : Thread nD τ).loc main_arg2) :=
  (V15_of m outs c main_arg2 (by decide)).trans (a2_at14 m outs c)
/-- Region 7's table `main_v30` is the slice at offset 437500 of `main_arg1`. -/
theorem tbl7_src (c : Dev nD) :
    V15 m outs c main_v30 = (extractStridedSlice S62500 ![437500] (m ((c : Thread nD τ).loc main_arg1)) slices_S1000000_S62500_437500 : (⟨S62500, .i32⟩ : BufTy).Contents (Elt F)) := by
  have e : V15 m outs c main_v30 = (extractStridedSlice S62500 ![437500] (V14 m outs c main_arg1) slices_S1000000_S62500_437500 : (⟨S62500, .i32⟩ : BufTy).Contents (Elt F)) := by
    show StableHlo.after hostOps7 (V14 m outs c) (Proc.devRef .tc main_v30) = _
    after_results
  rw [e, a1_at14 m outs c]
/-- Region 7's table `main_v31` is the slice at offset 437500 of `main_arg2`. -/
theorem tbl7_dst (c : Dev nD) :
    V15 m outs c main_v31 = (extractStridedSlice S62500 ![437500] (m ((c : Thread nD τ).loc main_arg2)) slices_S1000000_S62500_437500 : (⟨S62500, .i32⟩ : BufTy).Contents (Elt F)) := by
  have e : V15 m outs c main_v31 = (extractStridedSlice S62500 ![437500] (V14 m outs c main_arg2) slices_S1000000_S62500_437500 : (⟨S62500, .i32⟩ : BufTy).Contents (Elt F)) := by
    show StableHlo.after hostOps7 (V14 m outs c) (Proc.devRef .tc main_v31) = _
    after_results
  rw [e, a2_at14 m outs c]
/-- Nothing before region 7 writes `main_v32`: it is as launched. -/
theorem launched7 (c : Dev nD) : V15 m outs c main_v32 = m ((c : Thread nD τ).loc main_v32) :=
  (V15_of m outs c main_v32 (by decide)).trans <|
    (V14_of m outs c main_v32 (by decide)).trans <|
    (V13_of m outs c main_v32 (by decide)).trans <|
    (V12_of m outs c main_v32 (by decide)).trans <|
    (V11_of m outs c main_v32 (by decide)).trans <|
    (V10_of m outs c main_v32 (by decide)).trans <|
    (V9_of m outs c main_v32 (by decide)).trans <|
    (V8_of m outs c main_v32 (by decide)).trans <|
    (V7_of m outs c main_v32 (by decide)).trans <|
    (V6_of m outs c main_v32 (by decide)).trans <|
    (V5_of m outs c main_v32 (by decide)).trans <|
    (V4_of m outs c main_v32 (by decide)).trans <|
    (V3_of m outs c main_v32 (by decide)).trans <|
    (V2_of m outs c main_v32 (by decide)).trans <|
    (V1_of m c main_v32 (by decide)).trans rfl
/-- What region 7 finds does not depend on what the earlier regions wrote. -/
theorem indep7_h (c : Dev nD) : V15 m outs c main_v1 = V15 m outs' c main_v1 :=
  (h_at15 m outs c).trans (h_at15 m outs' c).symm
theorem indep7_b (c : Dev nD) : V15 m outs c main_v0 = V15 m outs' c main_v0 :=
  (b_at15 m outs c).trans (b_at15 m outs' c).symm
theorem indep7_W (c : Dev nD) : V15 m outs c main_arg3 = V15 m outs' c main_arg3 :=
  (W_at15 m outs c).trans (W_at15 m outs' c).symm
theorem indep7_src (c : Dev nD) : V15 m outs c main_v30 = V15 m outs' c main_v30 :=
  (tbl7_src m outs c).trans (tbl7_src m outs' c).symm
theorem indep7_dst (c : Dev nD) : V15 m outs c main_v31 = V15 m outs' c main_v31 :=
  (tbl7_dst m outs c).trans (tbl7_dst m outs' c).symm
theorem indep7_out (c : Dev nD) : V15 m outs c main_v32 = V15 m outs' c main_v32 :=
  (launched7 m outs c).trans (launched7 m outs' c).symm

/-! ## Region 8: after region 7 (which may change `main_v32` only) and host stretch 8 (which writes
`main_v33`, `main_v34`, `main_v35`) -/

theorem h_at16 (c : Dev nD) : V16 m outs c main_v1 = V1 m c main_v1 :=
  (V16_of m outs c main_v1 (by decide)).trans (h_at15 m outs c)
theorem b_at16 (c : Dev nD) : V16 m outs c main_v0 = V1 m c main_v0 :=
  (V16_of m outs c main_v0 (by decide)).trans (b_at15 m outs c)
theorem W_at16 (c : Dev nD) : V16 m outs c main_arg3 = m ((c : Thread nD τ).loc main_arg3) :=
  (V16_of m outs c main_arg3 (by decide)).trans (W_at15 m outs c)
theorem a1_at16 (c : Dev nD) : V16 m outs c main_arg1 = m ((c : Thread nD τ).loc main_arg1) :=
  (V16_of m outs c main_arg1 (by decide)).trans (a1_at15 m outs c)
theorem a2_at16 (c : Dev nD) : V16 m outs c main_arg2 = m ((c : Thread nD τ).loc main_arg2) :=
  (V16_of m outs c main_arg2 (by decide)).trans (a2_at15 m outs c)
theorem h_at17 (c : Dev nD) : V17 m outs c main_v1 = V1 m c main_v1 :=
  (V17_of m outs c main_v1 (by decide)).trans (h_at16 m outs c)
theorem b_at17 (c : Dev nD) : V17 m outs c main_v0 = V1 m c main_v0 :=
  (V17_of m outs c main_v0 (by decide)).trans (b_at16 m outs c)
theorem W_at17 (c : Dev nD) : V17 m outs c main_arg3 = m ((c : Thread nD τ).loc main_arg3) :=
  (V17_of m outs c main_arg3 (by decide)).trans (W_at16 m outs c)
theorem a1_at17 (c : Dev nD) : V17 m outs c main_arg1 = m ((c : Thread nD τ).loc main_arg1) :=
  (V17_of m outs c main_arg1 (by decide)).trans (a1_at16 m outs c)
theorem a2_at17 (c : Dev nD) : V17 m outs c main_arg2 = m ((c : Thread nD τ).loc main_arg2) :=
  (V17_of m outs c main_arg2 (by decide)).trans (a2_at16 m outs c)
/-- Region 8's table `main_v34` is the slice at offset 500000 of `main_arg1`. -/
theorem tbl8_src (c : Dev nD) :
    V17 m outs c main_v34 = (extractStridedSlice S62500 ![500000] (m ((c : Thread nD τ).loc main_arg1)) slices_S1000000_S62500_500000 : (⟨S62500, .i32⟩ : BufTy).Contents (Elt F)) := by
  have e : V17 m outs c main_v34 = (extractStridedSlice S62500 ![500000] (V16 m outs c main_arg1) slices_S1000000_S62500_500000 : (⟨S62500, .i32⟩ : BufTy).Contents (Elt F)) := by
    show StableHlo.after hostOps8 (V16 m outs c) (Proc.devRef .tc main_v34) = _
    after_results
  rw [e, a1_at16 m outs c]
/-- Region 8's table `main_v35` is the slice at offset 500000 of `main_arg2`. -/
theorem tbl8_dst (c : Dev nD) :
    V17 m outs c main_v35 = (extractStridedSlice S62500 ![500000] (m ((c : Thread nD τ).loc main_arg2)) slices_S1000000_S62500_500000 : (⟨S62500, .i32⟩ : BufTy).Contents (Elt F)) := by
  have e : V17 m outs c main_v35 = (extractStridedSlice S62500 ![500000] (V16 m outs c main_arg2) slices_S1000000_S62500_500000 : (⟨S62500, .i32⟩ : BufTy).Contents (Elt F)) := by
    show StableHlo.after hostOps8 (V16 m outs c) (Proc.devRef .tc main_v35) = _
    after_results
  rw [e, a2_at16 m outs c]
/-- Nothing before region 8 writes `main_v36`: it is as launched. -/
theorem launched8 (c : Dev nD) : V17 m outs c main_v36 = m ((c : Thread nD τ).loc main_v36) :=
  (V17_of m outs c main_v36 (by decide)).trans <|
    (V16_of m outs c main_v36 (by decide)).trans <|
    (V15_of m outs c main_v36 (by decide)).trans <|
    (V14_of m outs c main_v36 (by decide)).trans <|
    (V13_of m outs c main_v36 (by decide)).trans <|
    (V12_of m outs c main_v36 (by decide)).trans <|
    (V11_of m outs c main_v36 (by decide)).trans <|
    (V10_of m outs c main_v36 (by decide)).trans <|
    (V9_of m outs c main_v36 (by decide)).trans <|
    (V8_of m outs c main_v36 (by decide)).trans <|
    (V7_of m outs c main_v36 (by decide)).trans <|
    (V6_of m outs c main_v36 (by decide)).trans <|
    (V5_of m outs c main_v36 (by decide)).trans <|
    (V4_of m outs c main_v36 (by decide)).trans <|
    (V3_of m outs c main_v36 (by decide)).trans <|
    (V2_of m outs c main_v36 (by decide)).trans <|
    (V1_of m c main_v36 (by decide)).trans rfl
/-- What region 8 finds does not depend on what the earlier regions wrote. -/
theorem indep8_h (c : Dev nD) : V17 m outs c main_v1 = V17 m outs' c main_v1 :=
  (h_at17 m outs c).trans (h_at17 m outs' c).symm
theorem indep8_b (c : Dev nD) : V17 m outs c main_v0 = V17 m outs' c main_v0 :=
  (b_at17 m outs c).trans (b_at17 m outs' c).symm
theorem indep8_W (c : Dev nD) : V17 m outs c main_arg3 = V17 m outs' c main_arg3 :=
  (W_at17 m outs c).trans (W_at17 m outs' c).symm
theorem indep8_src (c : Dev nD) : V17 m outs c main_v34 = V17 m outs' c main_v34 :=
  (tbl8_src m outs c).trans (tbl8_src m outs' c).symm
theorem indep8_dst (c : Dev nD) : V17 m outs c main_v35 = V17 m outs' c main_v35 :=
  (tbl8_dst m outs c).trans (tbl8_dst m outs' c).symm
theorem indep8_out (c : Dev nD) : V17 m outs c main_v36 = V17 m outs' c main_v36 :=
  (launched8 m outs c).trans (launched8 m outs' c).symm

/-! ## Region 9: after region 8 (which may change `main_v36` only) and host stretch 9 (which writes
`main_v37`, `main_v38`, `main_v39`) -/

theorem h_at18 (c : Dev nD) : V18 m outs c main_v1 = V1 m c main_v1 :=
  (V18_of m outs c main_v1 (by decide)).trans (h_at17 m outs c)
theorem b_at18 (c : Dev nD) : V18 m outs c main_v0 = V1 m c main_v0 :=
  (V18_of m outs c main_v0 (by decide)).trans (b_at17 m outs c)
theorem W_at18 (c : Dev nD) : V18 m outs c main_arg3 = m ((c : Thread nD τ).loc main_arg3) :=
  (V18_of m outs c main_arg3 (by decide)).trans (W_at17 m outs c)
theorem a1_at18 (c : Dev nD) : V18 m outs c main_arg1 = m ((c : Thread nD τ).loc main_arg1) :=
  (V18_of m outs c main_arg1 (by decide)).trans (a1_at17 m outs c)
theorem a2_at18 (c : Dev nD) : V18 m outs c main_arg2 = m ((c : Thread nD τ).loc main_arg2) :=
  (V18_of m outs c main_arg2 (by decide)).trans (a2_at17 m outs c)
theorem h_at19 (c : Dev nD) : V19 m outs c main_v1 = V1 m c main_v1 :=
  (V19_of m outs c main_v1 (by decide)).trans (h_at18 m outs c)
theorem b_at19 (c : Dev nD) : V19 m outs c main_v0 = V1 m c main_v0 :=
  (V19_of m outs c main_v0 (by decide)).trans (b_at18 m outs c)
theorem W_at19 (c : Dev nD) : V19 m outs c main_arg3 = m ((c : Thread nD τ).loc main_arg3) :=
  (V19_of m outs c main_arg3 (by decide)).trans (W_at18 m outs c)
theorem a1_at19 (c : Dev nD) : V19 m outs c main_arg1 = m ((c : Thread nD τ).loc main_arg1) :=
  (V19_of m outs c main_arg1 (by decide)).trans (a1_at18 m outs c)
theorem a2_at19 (c : Dev nD) : V19 m outs c main_arg2 = m ((c : Thread nD τ).loc main_arg2) :=
  (V19_of m outs c main_arg2 (by decide)).trans (a2_at18 m outs c)
/-- Region 9's table `main_v38` is the slice at offset 562500 of `main_arg1`. -/
theorem tbl9_src (c : Dev nD) :
    V19 m outs c main_v38 = (extractStridedSlice S62500 ![562500] (m ((c : Thread nD τ).loc main_arg1)) slices_S1000000_S62500_562500 : (⟨S62500, .i32⟩ : BufTy).Contents (Elt F)) := by
  have e : V19 m outs c main_v38 = (extractStridedSlice S62500 ![562500] (V18 m outs c main_arg1) slices_S1000000_S62500_562500 : (⟨S62500, .i32⟩ : BufTy).Contents (Elt F)) := by
    show StableHlo.after hostOps9 (V18 m outs c) (Proc.devRef .tc main_v38) = _
    after_results
  rw [e, a1_at18 m outs c]
/-- Region 9's table `main_v39` is the slice at offset 562500 of `main_arg2`. -/
theorem tbl9_dst (c : Dev nD) :
    V19 m outs c main_v39 = (extractStridedSlice S62500 ![562500] (m ((c : Thread nD τ).loc main_arg2)) slices_S1000000_S62500_562500 : (⟨S62500, .i32⟩ : BufTy).Contents (Elt F)) := by
  have e : V19 m outs c main_v39 = (extractStridedSlice S62500 ![562500] (V18 m outs c main_arg2) slices_S1000000_S62500_562500 : (⟨S62500, .i32⟩ : BufTy).Contents (Elt F)) := by
    show StableHlo.after hostOps9 (V18 m outs c) (Proc.devRef .tc main_v39) = _
    after_results
  rw [e, a2_at18 m outs c]
/-- Nothing before region 9 writes `main_v40`: it is as launched. -/
theorem launched9 (c : Dev nD) : V19 m outs c main_v40 = m ((c : Thread nD τ).loc main_v40) :=
  (V19_of m outs c main_v40 (by decide)).trans <|
    (V18_of m outs c main_v40 (by decide)).trans <|
    (V17_of m outs c main_v40 (by decide)).trans <|
    (V16_of m outs c main_v40 (by decide)).trans <|
    (V15_of m outs c main_v40 (by decide)).trans <|
    (V14_of m outs c main_v40 (by decide)).trans <|
    (V13_of m outs c main_v40 (by decide)).trans <|
    (V12_of m outs c main_v40 (by decide)).trans <|
    (V11_of m outs c main_v40 (by decide)).trans <|
    (V10_of m outs c main_v40 (by decide)).trans <|
    (V9_of m outs c main_v40 (by decide)).trans <|
    (V8_of m outs c main_v40 (by decide)).trans <|
    (V7_of m outs c main_v40 (by decide)).trans <|
    (V6_of m outs c main_v40 (by decide)).trans <|
    (V5_of m outs c main_v40 (by decide)).trans <|
    (V4_of m outs c main_v40 (by decide)).trans <|
    (V3_of m outs c main_v40 (by decide)).trans <|
    (V2_of m outs c main_v40 (by decide)).trans <|
    (V1_of m c main_v40 (by decide)).trans rfl
/-- What region 9 finds does not depend on what the earlier regions wrote. -/
theorem indep9_h (c : Dev nD) : V19 m outs c main_v1 = V19 m outs' c main_v1 :=
  (h_at19 m outs c).trans (h_at19 m outs' c).symm
theorem indep9_b (c : Dev nD) : V19 m outs c main_v0 = V19 m outs' c main_v0 :=
  (b_at19 m outs c).trans (b_at19 m outs' c).symm
theorem indep9_W (c : Dev nD) : V19 m outs c main_arg3 = V19 m outs' c main_arg3 :=
  (W_at19 m outs c).trans (W_at19 m outs' c).symm
theorem indep9_src (c : Dev nD) : V19 m outs c main_v38 = V19 m outs' c main_v38 :=
  (tbl9_src m outs c).trans (tbl9_src m outs' c).symm
theorem indep9_dst (c : Dev nD) : V19 m outs c main_v39 = V19 m outs' c main_v39 :=
  (tbl9_dst m outs c).trans (tbl9_dst m outs' c).symm
theorem indep9_out (c : Dev nD) : V19 m outs c main_v40 = V19 m outs' c main_v40 :=
  (launched9 m outs c).trans (launched9 m outs' c).symm

/-! ## Region 10: after region 9 (which may change `main_v40` only) and host stretch 10 (which writes
`main_v41`, `main_v42`, `main_v43`) -/

theorem h_at20 (c : Dev nD) : V20 m outs c main_v1 = V1 m c main_v1 :=
  (V20_of m outs c main_v1 (by decide)).trans (h_at19 m outs c)
theorem b_at20 (c : Dev nD) : V20 m outs c main_v0 = V1 m c main_v0 :=
  (V20_of m outs c main_v0 (by decide)).trans (b_at19 m outs c)
theorem W_at20 (c : Dev nD) : V20 m outs c main_arg3 = m ((c : Thread nD τ).loc main_arg3) :=
  (V20_of m outs c main_arg3 (by decide)).trans (W_at19 m outs c)
theorem a1_at20 (c : Dev nD) : V20 m outs c main_arg1 = m ((c : Thread nD τ).loc main_arg1) :=
  (V20_of m outs c main_arg1 (by decide)).trans (a1_at19 m outs c)
theorem a2_at20 (c : Dev nD) : V20 m outs c main_arg2 = m ((c : Thread nD τ).loc main_arg2) :=
  (V20_of m outs c main_arg2 (by decide)).trans (a2_at19 m outs c)
theorem h_at21 (c : Dev nD) : V21 m outs c main_v1 = V1 m c main_v1 :=
  (V21_of m outs c main_v1 (by decide)).trans (h_at20 m outs c)
theorem b_at21 (c : Dev nD) : V21 m outs c main_v0 = V1 m c main_v0 :=
  (V21_of m outs c main_v0 (by decide)).trans (b_at20 m outs c)
theorem W_at21 (c : Dev nD) : V21 m outs c main_arg3 = m ((c : Thread nD τ).loc main_arg3) :=
  (V21_of m outs c main_arg3 (by decide)).trans (W_at20 m outs c)
theorem a1_at21 (c : Dev nD) : V21 m outs c main_arg1 = m ((c : Thread nD τ).loc main_arg1) :=
  (V21_of m outs c main_arg1 (by decide)).trans (a1_at20 m outs c)
theorem a2_at21 (c : Dev nD) : V21 m outs c main_arg2 = m ((c : Thread nD τ).loc main_arg2) :=
  (V21_of m outs c main_arg2 (by decide)).trans (a2_at20 m outs c)
/-- Region 10's table `main_v42` is the slice at offset 625000 of `main_arg1`. -/
theorem tbl10_src (c : Dev nD) :
    V21 m outs c main_v42 = (extractStridedSlice S62500 ![625000] (m ((c : Thread nD τ).loc main_arg1)) slices_S1000000_S62500_625000 : (⟨S62500, .i32⟩ : BufTy).Contents (Elt F)) := by
  have e : V21 m outs c main_v42 = (extractStridedSlice S62500 ![625000] (V20 m outs c main_arg1) slices_S1000000_S62500_625000 : (⟨S62500, .i32⟩ : BufTy).Contents (Elt F)) := by
    show StableHlo.after hostOps10 (V20 m outs c) (Proc.devRef .tc main_v42) = _
    after_results
  rw [e, a1_at20 m outs c]
/-- Region 10's table `main_v43` is the slice at offset 625000 of `main_arg2`. -/
theorem tbl10_dst (c : Dev nD) :
    V21 m outs c main_v43 = (extractStridedSlice S62500 ![625000] (m ((c : Thread nD τ).loc main_arg2)) slices_S1000000_S62500_625000 : (⟨S62500, .i32⟩ : BufTy).Contents (Elt F)) := by
  have e : V21 m outs c main_v43 = (extractStridedSlice S62500 ![625000] (V20 m outs c main_arg2) slices_S1000000_S62500_625000 : (⟨S62500, .i32⟩ : BufTy).Contents (Elt F)) := by
    show StableHlo.after hostOps10 (V20 m outs c) (Proc.devRef .tc main_v43) = _
    after_results
  rw [e, a2_at20 m outs c]
/-- Nothing before region 10 writes `main_v44`: it is as launched. -/
theorem launched10 (c : Dev nD) : V21 m outs c main_v44 = m ((c : Thread nD τ).loc main_v44) :=
  (V21_of m outs c main_v44 (by decide)).trans <|
    (V20_of m outs c main_v44 (by decide)).trans <|
    (V19_of m outs c main_v44 (by decide)).trans <|
    (V18_of m outs c main_v44 (by decide)).trans <|
    (V17_of m outs c main_v44 (by decide)).trans <|
    (V16_of m outs c main_v44 (by decide)).trans <|
    (V15_of m outs c main_v44 (by decide)).trans <|
    (V14_of m outs c main_v44 (by decide)).trans <|
    (V13_of m outs c main_v44 (by decide)).trans <|
    (V12_of m outs c main_v44 (by decide)).trans <|
    (V11_of m outs c main_v44 (by decide)).trans <|
    (V10_of m outs c main_v44 (by decide)).trans <|
    (V9_of m outs c main_v44 (by decide)).trans <|
    (V8_of m outs c main_v44 (by decide)).trans <|
    (V7_of m outs c main_v44 (by decide)).trans <|
    (V6_of m outs c main_v44 (by decide)).trans <|
    (V5_of m outs c main_v44 (by decide)).trans <|
    (V4_of m outs c main_v44 (by decide)).trans <|
    (V3_of m outs c main_v44 (by decide)).trans <|
    (V2_of m outs c main_v44 (by decide)).trans <|
    (V1_of m c main_v44 (by decide)).trans rfl
/-- What region 10 finds does not depend on what the earlier regions wrote. -/
theorem indep10_h (c : Dev nD) : V21 m outs c main_v1 = V21 m outs' c main_v1 :=
  (h_at21 m outs c).trans (h_at21 m outs' c).symm
theorem indep10_b (c : Dev nD) : V21 m outs c main_v0 = V21 m outs' c main_v0 :=
  (b_at21 m outs c).trans (b_at21 m outs' c).symm
theorem indep10_W (c : Dev nD) : V21 m outs c main_arg3 = V21 m outs' c main_arg3 :=
  (W_at21 m outs c).trans (W_at21 m outs' c).symm
theorem indep10_src (c : Dev nD) : V21 m outs c main_v42 = V21 m outs' c main_v42 :=
  (tbl10_src m outs c).trans (tbl10_src m outs' c).symm
theorem indep10_dst (c : Dev nD) : V21 m outs c main_v43 = V21 m outs' c main_v43 :=
  (tbl10_dst m outs c).trans (tbl10_dst m outs' c).symm
theorem indep10_out (c : Dev nD) : V21 m outs c main_v44 = V21 m outs' c main_v44 :=
  (launched10 m outs c).trans (launched10 m outs' c).symm

/-! ## Region 11: after region 10 (which may change `main_v44` only) and host stretch 11 (which writes
`main_v45`, `main_v46`, `main_v47`) -/

theorem h_at22 (c : Dev nD) : V22 m outs c main_v1 = V1 m c main_v1 :=
  (V22_of m outs c main_v1 (by decide)).trans (h_at21 m outs c)
theorem b_at22 (c : Dev nD) : V22 m outs c main_v0 = V1 m c main_v0 :=
  (V22_of m outs c main_v0 (by decide)).trans (b_at21 m outs c)
theorem W_at22 (c : Dev nD) : V22 m outs c main_arg3 = m ((c : Thread nD τ).loc main_arg3) :=
  (V22_of m outs c main_arg3 (by decide)).trans (W_at21 m outs c)
theorem a1_at22 (c : Dev nD) : V22 m outs c main_arg1 = m ((c : Thread nD τ).loc main_arg1) :=
  (V22_of m outs c main_arg1 (by decide)).trans (a1_at21 m outs c)
theorem a2_at22 (c : Dev nD) : V22 m outs c main_arg2 = m ((c : Thread nD τ).loc main_arg2) :=
  (V22_of m outs c main_arg2 (by decide)).trans (a2_at21 m outs c)
theorem h_at23 (c : Dev nD) : V23 m outs c main_v1 = V1 m c main_v1 :=
  (V23_of m outs c main_v1 (by decide)).trans (h_at22 m outs c)
theorem b_at23 (c : Dev nD) : V23 m outs c main_v0 = V1 m c main_v0 :=
  (V23_of m outs c main_v0 (by decide)).trans (b_at22 m outs c)
theorem W_at23 (c : Dev nD) : V23 m outs c main_arg3 = m ((c : Thread nD τ).loc main_arg3) :=
  (V23_of m outs c main_arg3 (by decide)).trans (W_at22 m outs c)
theorem a1_at23 (c : Dev nD) : V23 m outs c main_arg1 = m ((c : Thread nD τ).loc main_arg1) :=
  (V23_of m outs c main_arg1 (by decide)).trans (a1_at22 m outs c)
theorem a2_at23 (c : Dev nD) : V23 m outs c main_arg2 = m ((c : Thread nD τ).loc main_arg2) :=
  (V23_of m outs c main_arg2 (by decide)).trans (a2_at22 m outs c)
/-- Region 11's table `main_v46` is the slice at offset 687500 of `main_arg1`. -/
theorem tbl11_src (c : Dev nD) :
    V23 m outs c main_v46 = (extractStridedSlice S62500 ![687500] (m ((c : Thread nD τ).loc main_arg1)) slices_S1000000_S62500_687500 : (⟨S62500, .i32⟩ : BufTy).Contents (Elt F)) := by
  have e : V23 m outs c main_v46 = (extractStridedSlice S62500 ![687500] (V22 m outs c main_arg1) slices_S1000000_S62500_687500 : (⟨S62500, .i32⟩ : BufTy).Contents (Elt F)) := by
    show StableHlo.after hostOps11 (V22 m outs c) (Proc.devRef .tc main_v46) = _
    after_results
  rw [e, a1_at22 m outs c]
/-- Region 11's table `main_v47` is the slice at offset 687500 of `main_arg2`. -/
theorem tbl11_dst (c : Dev nD) :
    V23 m outs c main_v47 = (extractStridedSlice S62500 ![687500] (m ((c : Thread nD τ).loc main_arg2)) slices_S1000000_S62500_687500 : (⟨S62500, .i32⟩ : BufTy).Contents (Elt F)) := by
  have e : V23 m outs c main_v47 = (extractStridedSlice S62500 ![687500] (V22 m outs c main_arg2) slices_S1000000_S62500_687500 : (⟨S62500, .i32⟩ : BufTy).Contents (Elt F)) := by
    show StableHlo.after hostOps11 (V22 m outs c) (Proc.devRef .tc main_v47) = _
    after_results
  rw [e, a2_at22 m outs c]
/-- Nothing before region 11 writes `main_v48`: it is as launched. -/
theorem launched11 (c : Dev nD) : V23 m outs c main_v48 = m ((c : Thread nD τ).loc main_v48) :=
  (V23_of m outs c main_v48 (by decide)).trans <|
    (V22_of m outs c main_v48 (by decide)).trans <|
    (V21_of m outs c main_v48 (by decide)).trans <|
    (V20_of m outs c main_v48 (by decide)).trans <|
    (V19_of m outs c main_v48 (by decide)).trans <|
    (V18_of m outs c main_v48 (by decide)).trans <|
    (V17_of m outs c main_v48 (by decide)).trans <|
    (V16_of m outs c main_v48 (by decide)).trans <|
    (V15_of m outs c main_v48 (by decide)).trans <|
    (V14_of m outs c main_v48 (by decide)).trans <|
    (V13_of m outs c main_v48 (by decide)).trans <|
    (V12_of m outs c main_v48 (by decide)).trans <|
    (V11_of m outs c main_v48 (by decide)).trans <|
    (V10_of m outs c main_v48 (by decide)).trans <|
    (V9_of m outs c main_v48 (by decide)).trans <|
    (V8_of m outs c main_v48 (by decide)).trans <|
    (V7_of m outs c main_v48 (by decide)).trans <|
    (V6_of m outs c main_v48 (by decide)).trans <|
    (V5_of m outs c main_v48 (by decide)).trans <|
    (V4_of m outs c main_v48 (by decide)).trans <|
    (V3_of m outs c main_v48 (by decide)).trans <|
    (V2_of m outs c main_v48 (by decide)).trans <|
    (V1_of m c main_v48 (by decide)).trans rfl
/-- What region 11 finds does not depend on what the earlier regions wrote. -/
theorem indep11_h (c : Dev nD) : V23 m outs c main_v1 = V23 m outs' c main_v1 :=
  (h_at23 m outs c).trans (h_at23 m outs' c).symm
theorem indep11_b (c : Dev nD) : V23 m outs c main_v0 = V23 m outs' c main_v0 :=
  (b_at23 m outs c).trans (b_at23 m outs' c).symm
theorem indep11_W (c : Dev nD) : V23 m outs c main_arg3 = V23 m outs' c main_arg3 :=
  (W_at23 m outs c).trans (W_at23 m outs' c).symm
theorem indep11_src (c : Dev nD) : V23 m outs c main_v46 = V23 m outs' c main_v46 :=
  (tbl11_src m outs c).trans (tbl11_src m outs' c).symm
theorem indep11_dst (c : Dev nD) : V23 m outs c main_v47 = V23 m outs' c main_v47 :=
  (tbl11_dst m outs c).trans (tbl11_dst m outs' c).symm
theorem indep11_out (c : Dev nD) : V23 m outs c main_v48 = V23 m outs' c main_v48 :=
  (launched11 m outs c).trans (launched11 m outs' c).symm

/-! ## Region 12: after region 11 (which may change `main_v48` only) and host stretch 12 (which writes
`main_v49`, `main_v50`, `main_v51`) -/

theorem h_at24 (c : Dev nD) : V24 m outs c main_v1 = V1 m c main_v1 :=
  (V24_of m outs c main_v1 (by decide)).trans (h_at23 m outs c)
theorem b_at24 (c : Dev nD) : V24 m outs c main_v0 = V1 m c main_v0 :=
  (V24_of m outs c main_v0 (by decide)).trans (b_at23 m outs c)
theorem W_at24 (c : Dev nD) : V24 m outs c main_arg3 = m ((c : Thread nD τ).loc main_arg3) :=
  (V24_of m outs c main_arg3 (by decide)).trans (W_at23 m outs c)
theorem a1_at24 (c : Dev nD) : V24 m outs c main_arg1 = m ((c : Thread nD τ).loc main_arg1) :=
  (V24_of m outs c main_arg1 (by decide)).trans (a1_at23 m outs c)
theorem a2_at24 (c : Dev nD) : V24 m outs c main_arg2 = m ((c : Thread nD τ).loc main_arg2) :=
  (V24_of m outs c main_arg2 (by decide)).trans (a2_at23 m outs c)
theorem h_at25 (c : Dev nD) : V25 m outs c main_v1 = V1 m c main_v1 :=
  (V25_of m outs c main_v1 (by decide)).trans (h_at24 m outs c)
theorem b_at25 (c : Dev nD) : V25 m outs c main_v0 = V1 m c main_v0 :=
  (V25_of m outs c main_v0 (by decide)).trans (b_at24 m outs c)
theorem W_at25 (c : Dev nD) : V25 m outs c main_arg3 = m ((c : Thread nD τ).loc main_arg3) :=
  (V25_of m outs c main_arg3 (by decide)).trans (W_at24 m outs c)
theorem a1_at25 (c : Dev nD) : V25 m outs c main_arg1 = m ((c : Thread nD τ).loc main_arg1) :=
  (V25_of m outs c main_arg1 (by decide)).trans (a1_at24 m outs c)
theorem a2_at25 (c : Dev nD) : V25 m outs c main_arg2 = m ((c : Thread nD τ).loc main_arg2) :=
  (V25_of m outs c main_arg2 (by decide)).trans (a2_at24 m outs c)
/-- Region 12's table `main_v50` is the slice at offset 750000 of `main_arg1`. -/
theorem tbl12_src (c : Dev nD) :
    V25 m outs c main_v50 = (extractStridedSlice S62500 ![750000] (m ((c : Thread nD τ).loc main_arg1)) slices_S1000000_S62500_750000 : (⟨S62500, .i32⟩ : BufTy).Contents (Elt F)) := by
  have e : V25 m outs c main_v50 = (extractStridedSlice S62500 ![750000] (V24 m outs c main_arg1) slices_S1000000_S62500_750000 : (⟨S62500, .i32⟩ : BufTy).Contents (Elt F)) := by
    show StableHlo.after hostOps12 (V24 m outs c) (Proc.devRef .tc main_v50) = _
    after_results
  rw [e, a1_at24 m outs c]
/-- Region 12's table `main_v51` is the slice at offset 750000 of `main_arg2`. -/
theorem tbl12_dst (c : Dev nD) :
    V25 m outs c main_v51 = (extractStridedSlice S62500 ![750000] (m ((c : Thread nD τ).loc main_arg2)) slices_S1000000_S62500_750000 : (⟨S62500, .i32⟩ : BufTy).Contents (Elt F)) := by
  have e : V25 m outs c main_v51 = (extractStridedSlice S62500 ![750000] (V24 m outs c main_arg2) slices_S1000000_S62500_750000 : (⟨S62500, .i32⟩ : BufTy).Contents (Elt F)) := by
    show StableHlo.after hostOps12 (V24 m outs c) (Proc.devRef .tc main_v51) = _
    after_results
  rw [e, a2_at24 m outs c]
/-- Nothing before region 12 writes `main_v52`: it is as launched. -/
theorem launched12 (c : Dev nD) : V25 m outs c main_v52 = m ((c : Thread nD τ).loc main_v52) :=
  (V25_of m outs c main_v52 (by decide)).trans <|
    (V24_of m outs c main_v52 (by decide)).trans <|
    (V23_of m outs c main_v52 (by decide)).trans <|
    (V22_of m outs c main_v52 (by decide)).trans <|
    (V21_of m outs c main_v52 (by decide)).trans <|
    (V20_of m outs c main_v52 (by decide)).trans <|
    (V19_of m outs c main_v52 (by decide)).trans <|
    (V18_of m outs c main_v52 (by decide)).trans <|
    (V17_of m outs c main_v52 (by decide)).trans <|
    (V16_of m outs c main_v52 (by decide)).trans <|
    (V15_of m outs c main_v52 (by decide)).trans <|
    (V14_of m outs c main_v52 (by decide)).trans <|
    (V13_of m outs c main_v52 (by decide)).trans <|
    (V12_of m outs c main_v52 (by decide)).trans <|
    (V11_of m outs c main_v52 (by decide)).trans <|
    (V10_of m outs c main_v52 (by decide)).trans <|
    (V9_of m outs c main_v52 (by decide)).trans <|
    (V8_of m outs c main_v52 (by decide)).trans <|
    (V7_of m outs c main_v52 (by decide)).trans <|
    (V6_of m outs c main_v52 (by decide)).trans <|
    (V5_of m outs c main_v52 (by decide)).trans <|
    (V4_of m outs c main_v52 (by decide)).trans <|
    (V3_of m outs c main_v52 (by decide)).trans <|
    (V2_of m outs c main_v52 (by decide)).trans <|
    (V1_of m c main_v52 (by decide)).trans rfl
/-- What region 12 finds does not depend on what the earlier regions wrote. -/
theorem indep12_h (c : Dev nD) : V25 m outs c main_v1 = V25 m outs' c main_v1 :=
  (h_at25 m outs c).trans (h_at25 m outs' c).symm
theorem indep12_b (c : Dev nD) : V25 m outs c main_v0 = V25 m outs' c main_v0 :=
  (b_at25 m outs c).trans (b_at25 m outs' c).symm
theorem indep12_W (c : Dev nD) : V25 m outs c main_arg3 = V25 m outs' c main_arg3 :=
  (W_at25 m outs c).trans (W_at25 m outs' c).symm
theorem indep12_src (c : Dev nD) : V25 m outs c main_v50 = V25 m outs' c main_v50 :=
  (tbl12_src m outs c).trans (tbl12_src m outs' c).symm
theorem indep12_dst (c : Dev nD) : V25 m outs c main_v51 = V25 m outs' c main_v51 :=
  (tbl12_dst m outs c).trans (tbl12_dst m outs' c).symm
theorem indep12_out (c : Dev nD) : V25 m outs c main_v52 = V25 m outs' c main_v52 :=
  (launched12 m outs c).trans (launched12 m outs' c).symm

/-! ## Region 13: after region 12 (which may change `main_v52` only) and host stretch 13 (which writes
`main_v53`, `main_v54`, `main_v55`) -/

theorem h_at26 (c : Dev nD) : V26 m outs c main_v1 = V1 m c main_v1 :=
  (V26_of m outs c main_v1 (by decide)).trans (h_at25 m outs c)
theorem b_at26 (c : Dev nD) : V26 m outs c main_v0 = V1 m c main_v0 :=
  (V26_of m outs c main_v0 (by decide)).trans (b_at25 m outs c)
theorem W_at26 (c : Dev nD) : V26 m outs c main_arg3 = m ((c : Thread nD τ).loc main_arg3) :=
  (V26_of m outs c main_arg3 (by decide)).trans (W_at25 m outs c)
theorem a1_at26 (c : Dev nD) : V26 m outs c main_arg1 = m ((c : Thread nD τ).loc main_arg1) :=
  (V26_of m outs c main_arg1 (by decide)).trans (a1_at25 m outs c)
theorem a2_at26 (c : Dev nD) : V26 m outs c main_arg2 = m ((c : Thread nD τ).loc main_arg2) :=
  (V26_of m outs c main_arg2 (by decide)).trans (a2_at25 m outs c)
theorem h_at27 (c : Dev nD) : V27 m outs c main_v1 = V1 m c main_v1 :=
  (V27_of m outs c main_v1 (by decide)).trans (h_at26 m outs c)
theorem b_at27 (c : Dev nD) : V27 m outs c main_v0 = V1 m c main_v0 :=
  (V27_of m outs c main_v0 (by decide)).trans (b_at26 m outs c)
theorem W_at27 (c : Dev nD) : V27 m outs c main_arg3 = m ((c : Thread nD τ).loc main_arg3) :=
  (V27_of m outs c main_arg3 (by decide)).trans (W_at26 m outs c)
theorem a1_at27 (c : Dev nD) : V27 m outs c main_arg1 = m ((c : Thread nD τ).loc main_arg1) :=
  (V27_of m outs c main_arg1 (by decide)).trans (a1_at26 m outs c)
theorem a2_at27 (c : Dev nD) : V27 m outs c main_arg2 = m ((c : Thread nD τ).loc main_arg2) :=
  (V27_of m outs c main_arg2 (by decide)).trans (a2_at26 m outs c)
/-- Region 13's table `main_v54` is the slice at offset 812500 of `main_arg1`. -/
theorem tbl13_src (c : Dev nD) :
    V27 m outs c main_v54 = (extractStridedSlice S62500 ![812500] (m ((c : Thread nD τ).loc main_arg1)) slices_S1000000_S62500_812500 : (⟨S62500, .i32⟩ : BufTy).Contents (Elt F)) := by
  have e : V27 m outs c main_v54 = (extractStridedSlice S62500 ![812500] (V26 m outs c main_arg1) slices_S1000000_S62500_812500 : (⟨S62500, .i32⟩ : BufTy).Contents (Elt F)) := by
    show StableHlo.after hostOps13 (V26 m outs c) (Proc.devRef .tc main_v54) = _
    after_results
  rw [e, a1_at26 m outs c]
/-- Region 13's table `main_v55` is the slice at offset 812500 of `main_arg2`. -/
theorem tbl13_dst (c : Dev nD) :
    V27 m outs c main_v55 = (extractStridedSlice S62500 ![812500] (m ((c : Thread nD τ).loc main_arg2)) slices_S1000000_S62500_812500 : (⟨S62500, .i32⟩ : BufTy).Contents (Elt F)) := by
  have e : V27 m outs c main_v55 = (extractStridedSlice S62500 ![812500] (V26 m outs c main_arg2) slices_S1000000_S62500_812500 : (⟨S62500, .i32⟩ : BufTy).Contents (Elt F)) := by
    show StableHlo.after hostOps13 (V26 m outs c) (Proc.devRef .tc main_v55) = _
    after_results
  rw [e, a2_at26 m outs c]
/-- Nothing before region 13 writes `main_v56`: it is as launched. -/
theorem launched13 (c : Dev nD) : V27 m outs c main_v56 = m ((c : Thread nD τ).loc main_v56) :=
  (V27_of m outs c main_v56 (by decide)).trans <|
    (V26_of m outs c main_v56 (by decide)).trans <|
    (V25_of m outs c main_v56 (by decide)).trans <|
    (V24_of m outs c main_v56 (by decide)).trans <|
    (V23_of m outs c main_v56 (by decide)).trans <|
    (V22_of m outs c main_v56 (by decide)).trans <|
    (V21_of m outs c main_v56 (by decide)).trans <|
    (V20_of m outs c main_v56 (by decide)).trans <|
    (V19_of m outs c main_v56 (by decide)).trans <|
    (V18_of m outs c main_v56 (by decide)).trans <|
    (V17_of m outs c main_v56 (by decide)).trans <|
    (V16_of m outs c main_v56 (by decide)).trans <|
    (V15_of m outs c main_v56 (by decide)).trans <|
    (V14_of m outs c main_v56 (by decide)).trans <|
    (V13_of m outs c main_v56 (by decide)).trans <|
    (V12_of m outs c main_v56 (by decide)).trans <|
    (V11_of m outs c main_v56 (by decide)).trans <|
    (V10_of m outs c main_v56 (by decide)).trans <|
    (V9_of m outs c main_v56 (by decide)).trans <|
    (V8_of m outs c main_v56 (by decide)).trans <|
    (V7_of m outs c main_v56 (by decide)).trans <|
    (V6_of m outs c main_v56 (by decide)).trans <|
    (V5_of m outs c main_v56 (by decide)).trans <|
    (V4_of m outs c main_v56 (by decide)).trans <|
    (V3_of m outs c main_v56 (by decide)).trans <|
    (V2_of m outs c main_v56 (by decide)).trans <|
    (V1_of m c main_v56 (by decide)).trans rfl
/-- What region 13 finds does not depend on what the earlier regions wrote. -/
theorem indep13_h (c : Dev nD) : V27 m outs c main_v1 = V27 m outs' c main_v1 :=
  (h_at27 m outs c).trans (h_at27 m outs' c).symm
theorem indep13_b (c : Dev nD) : V27 m outs c main_v0 = V27 m outs' c main_v0 :=
  (b_at27 m outs c).trans (b_at27 m outs' c).symm
theorem indep13_W (c : Dev nD) : V27 m outs c main_arg3 = V27 m outs' c main_arg3 :=
  (W_at27 m outs c).trans (W_at27 m outs' c).symm
theorem indep13_src (c : Dev nD) : V27 m outs c main_v54 = V27 m outs' c main_v54 :=
  (tbl13_src m outs c).trans (tbl13_src m outs' c).symm
theorem indep13_dst (c : Dev nD) : V27 m outs c main_v55 = V27 m outs' c main_v55 :=
  (tbl13_dst m outs c).trans (tbl13_dst m outs' c).symm
theorem indep13_out (c : Dev nD) : V27 m outs c main_v56 = V27 m outs' c main_v56 :=
  (launched13 m outs c).trans (launched13 m outs' c).symm

/-! ## Region 14: after region 13 (which may change `main_v56` only) and host stretch 14 (which writes
`main_v57`, `main_v58`, `main_v59`) -/

theorem h_at28 (c : Dev nD) : V28 m outs c main_v1 = V1 m c main_v1 :=
  (V28_of m outs c main_v1 (by decide)).trans (h_at27 m outs c)
theorem b_at28 (c : Dev nD) : V28 m outs c main_v0 = V1 m c main_v0 :=
  (V28_of m outs c main_v0 (by decide)).trans (b_at27 m outs c)
theorem W_at28 (c : Dev nD) : V28 m outs c main_arg3 = m ((c : Thread nD τ).loc main_arg3) :=
  (V28_of m outs c main_arg3 (by decide)).trans (W_at27 m outs c)
theorem a1_at28 (c : Dev nD) : V28 m outs c main_arg1 = m ((c : Thread nD τ).loc main_arg1) :=
  (V28_of m outs c main_arg1 (by decide)).trans (a1_at27 m outs c)
theorem a2_at28 (c : Dev nD) : V28 m outs c main_arg2 = m ((c : Thread nD τ).loc main_arg2) :=
  (V28_of m outs c main_arg2 (by decide)).trans (a2_at27 m outs c)
theorem h_at29 (c : Dev nD) : V29 m outs c main_v1 = V1 m c main_v1 :=
  (V29_of m outs c main_v1 (by decide)).trans (h_at28 m outs c)
theorem b_at29 (c : Dev nD) : V29 m outs c main_v0 = V1 m c main_v0 :=
  (V29_of m outs c main_v0 (by decide)).trans (b_at28 m outs c)
theorem W_at29 (c : Dev nD) : V29 m outs c main_arg3 = m ((c : Thread nD τ).loc main_arg3) :=
  (V29_of m outs c main_arg3 (by decide)).trans (W_at28 m outs c)
theorem a1_at29 (c : Dev nD) : V29 m outs c main_arg1 = m ((c : Thread nD τ).loc main_arg1) :=
  (V29_of m outs c main_arg1 (by decide)).trans (a1_at28 m outs c)
theorem a2_at29 (c : Dev nD) : V29 m outs c main_arg2 = m ((c : Thread nD τ).loc main_arg2) :=
  (V29_of m outs c main_arg2 (by decide)).trans (a2_at28 m outs c)
/-- Region 14's table `main_v58` is the slice at offset 875000 of `main_arg1`. -/
theorem tbl14_src (c : Dev nD) :
    V29 m outs c main_v58 = (extractStridedSlice S62500 ![875000] (m ((c : Thread nD τ).loc main_arg1)) slices_S1000000_S62500_875000 : (⟨S62500, .i32⟩ : BufTy).Contents (Elt F)) := by
  have e : V29 m outs c main_v58 = (extractStridedSlice S62500 ![875000] (V28 m outs c main_arg1) slices_S1000000_S62500_875000 : (⟨S62500, .i32⟩ : BufTy).Contents (Elt F)) := by
    show StableHlo.after hostOps14 (V28 m outs c) (Proc.devRef .tc main_v58) = _
    after_results
  rw [e, a1_at28 m outs c]
/-- Region 14's table `main_v59` is the slice at offset 875000 of `main_arg2`. -/
theorem tbl14_dst (c : Dev nD) :
    V29 m outs c main_v59 = (extractStridedSlice S62500 ![875000] (m ((c : Thread nD τ).loc main_arg2)) slices_S1000000_S62500_875000 : (⟨S62500, .i32⟩ : BufTy).Contents (Elt F)) := by
  have e : V29 m outs c main_v59 = (extractStridedSlice S62500 ![875000] (V28 m outs c main_arg2) slices_S1000000_S62500_875000 : (⟨S62500, .i32⟩ : BufTy).Contents (Elt F)) := by
    show StableHlo.after hostOps14 (V28 m outs c) (Proc.devRef .tc main_v59) = _
    after_results
  rw [e, a2_at28 m outs c]
/-- Nothing before region 14 writes `main_v60`: it is as launched. -/
theorem launched14 (c : Dev nD) : V29 m outs c main_v60 = m ((c : Thread nD τ).loc main_v60) :=
  (V29_of m outs c main_v60 (by decide)).trans <|
    (V28_of m outs c main_v60 (by decide)).trans <|
    (V27_of m outs c main_v60 (by decide)).trans <|
    (V26_of m outs c main_v60 (by decide)).trans <|
    (V25_of m outs c main_v60 (by decide)).trans <|
    (V24_of m outs c main_v60 (by decide)).trans <|
    (V23_of m outs c main_v60 (by decide)).trans <|
    (V22_of m outs c main_v60 (by decide)).trans <|
    (V21_of m outs c main_v60 (by decide)).trans <|
    (V20_of m outs c main_v60 (by decide)).trans <|
    (V19_of m outs c main_v60 (by decide)).trans <|
    (V18_of m outs c main_v60 (by decide)).trans <|
    (V17_of m outs c main_v60 (by decide)).trans <|
    (V16_of m outs c main_v60 (by decide)).trans <|
    (V15_of m outs c main_v60 (by decide)).trans <|
    (V14_of m outs c main_v60 (by decide)).trans <|
    (V13_of m outs c main_v60 (by decide)).trans <|
    (V12_of m outs c main_v60 (by decide)).trans <|
    (V11_of m outs c main_v60 (by decide)).trans <|
    (V10_of m outs c main_v60 (by decide)).trans <|
    (V9_of m outs c main_v60 (by decide)).trans <|
    (V8_of m outs c main_v60 (by decide)).trans <|
    (V7_of m outs c main_v60 (by decide)).trans <|
    (V6_of m outs c main_v60 (by decide)).trans <|
    (V5_of m outs c main_v60 (by decide)).trans <|
    (V4_of m outs c main_v60 (by decide)).trans <|
    (V3_of m outs c main_v60 (by decide)).trans <|
    (V2_of m outs c main_v60 (by decide)).trans <|
    (V1_of m c main_v60 (by decide)).trans rfl
/-- What region 14 finds does not depend on what the earlier regions wrote. -/
theorem indep14_h (c : Dev nD) : V29 m outs c main_v1 = V29 m outs' c main_v1 :=
  (h_at29 m outs c).trans (h_at29 m outs' c).symm
theorem indep14_b (c : Dev nD) : V29 m outs c main_v0 = V29 m outs' c main_v0 :=
  (b_at29 m outs c).trans (b_at29 m outs' c).symm
theorem indep14_W (c : Dev nD) : V29 m outs c main_arg3 = V29 m outs' c main_arg3 :=
  (W_at29 m outs c).trans (W_at29 m outs' c).symm
theorem indep14_src (c : Dev nD) : V29 m outs c main_v58 = V29 m outs' c main_v58 :=
  (tbl14_src m outs c).trans (tbl14_src m outs' c).symm
theorem indep14_dst (c : Dev nD) : V29 m outs c main_v59 = V29 m outs' c main_v59 :=
  (tbl14_dst m outs c).trans (tbl14_dst m outs' c).symm
theorem indep14_out (c : Dev nD) : V29 m outs c main_v60 = V29 m outs' c main_v60 :=
  (launched14 m outs c).trans (launched14 m outs' c).symm

/-! ## Region 15: after region 14 (which may change `main_v60` only) and host stretch 15 (which writes
`main_v61`, `main_v62`, `main_v63`) -/

theorem h_at30 (c : Dev nD) : V30 m outs c main_v1 = V1 m c main_v1 :=
  (V30_of m outs c main_v1 (by decide)).trans (h_at29 m outs c)
theorem b_at30 (c : Dev nD) : V30 m outs c main_v0 = V1 m c main_v0 :=
  (V30_of m outs c main_v0 (by decide)).trans (b_at29 m outs c)
theorem W_at30 (c : Dev nD) : V30 m outs c main_arg3 = m ((c : Thread nD τ).loc main_arg3) :=
  (V30_of m outs c main_arg3 (by decide)).trans (W_at29 m outs c)
theorem a1_at30 (c : Dev nD) : V30 m outs c main_arg1 = m ((c : Thread nD τ).loc main_arg1) :=
  (V30_of m outs c main_arg1 (by decide)).trans (a1_at29 m outs c)
theorem a2_at30 (c : Dev nD) : V30 m outs c main_arg2 = m ((c : Thread nD τ).loc main_arg2) :=
  (V30_of m outs c main_arg2 (by decide)).trans (a2_at29 m outs c)
theorem h_at31 (c : Dev nD) : V31 m outs c main_v1 = V1 m c main_v1 :=
  (V31_of m outs c main_v1 (by decide)).trans (h_at30 m outs c)
theorem b_at31 (c : Dev nD) : V31 m outs c main_v0 = V1 m c main_v0 :=
  (V31_of m outs c main_v0 (by decide)).trans (b_at30 m outs c)
theorem W_at31 (c : Dev nD) : V31 m outs c main_arg3 = m ((c : Thread nD τ).loc main_arg3) :=
  (V31_of m outs c main_arg3 (by decide)).trans (W_at30 m outs c)
theorem a1_at31 (c : Dev nD) : V31 m outs c main_arg1 = m ((c : Thread nD τ).loc main_arg1) :=
  (V31_of m outs c main_arg1 (by decide)).trans (a1_at30 m outs c)
theorem a2_at31 (c : Dev nD) : V31 m outs c main_arg2 = m ((c : Thread nD τ).loc main_arg2) :=
  (V31_of m outs c main_arg2 (by decide)).trans (a2_at30 m outs c)
/-- Region 15's table `main_v62` is the slice at offset 937500 of `main_arg1`. -/
theorem tbl15_src (c : Dev nD) :
    V31 m outs c main_v62 = (extractStridedSlice S62500 ![937500] (m ((c : Thread nD τ).loc main_arg1)) slices_S1000000_S62500_937500 : (⟨S62500, .i32⟩ : BufTy).Contents (Elt F)) := by
  have e : V31 m outs c main_v62 = (extractStridedSlice S62500 ![937500] (V30 m outs c main_arg1) slices_S1000000_S62500_937500 : (⟨S62500, .i32⟩ : BufTy).Contents (Elt F)) := by
    show StableHlo.after hostOps15 (V30 m outs c) (Proc.devRef .tc main_v62) = _
    after_results
  rw [e, a1_at30 m outs c]
/-- Region 15's table `main_v63` is the slice at offset 937500 of `main_arg2`. -/
theorem tbl15_dst (c : Dev nD) :
    V31 m outs c main_v63 = (extractStridedSlice S62500 ![937500] (m ((c : Thread nD τ).loc main_arg2)) slices_S1000000_S62500_937500 : (⟨S62500, .i32⟩ : BufTy).Contents (Elt F)) := by
  have e : V31 m outs c main_v63 = (extractStridedSlice S62500 ![937500] (V30 m outs c main_arg2) slices_S1000000_S62500_937500 : (⟨S62500, .i32⟩ : BufTy).Contents (Elt F)) := by
    show StableHlo.after hostOps15 (V30 m outs c) (Proc.devRef .tc main_v63) = _
    after_results
  rw [e, a2_at30 m outs c]
/-- Nothing before region 15 writes `main_v64`: it is as launched. -/
theorem launched15 (c : Dev nD) : V31 m outs c main_v64 = m ((c : Thread nD τ).loc main_v64) :=
  (V31_of m outs c main_v64 (by decide)).trans <|
    (V30_of m outs c main_v64 (by decide)).trans <|
    (V29_of m outs c main_v64 (by decide)).trans <|
    (V28_of m outs c main_v64 (by decide)).trans <|
    (V27_of m outs c main_v64 (by decide)).trans <|
    (V26_of m outs c main_v64 (by decide)).trans <|
    (V25_of m outs c main_v64 (by decide)).trans <|
    (V24_of m outs c main_v64 (by decide)).trans <|
    (V23_of m outs c main_v64 (by decide)).trans <|
    (V22_of m outs c main_v64 (by decide)).trans <|
    (V21_of m outs c main_v64 (by decide)).trans <|
    (V20_of m outs c main_v64 (by decide)).trans <|
    (V19_of m outs c main_v64 (by decide)).trans <|
    (V18_of m outs c main_v64 (by decide)).trans <|
    (V17_of m outs c main_v64 (by decide)).trans <|
    (V16_of m outs c main_v64 (by decide)).trans <|
    (V15_of m outs c main_v64 (by decide)).trans <|
    (V14_of m outs c main_v64 (by decide)).trans <|
    (V13_of m outs c main_v64 (by decide)).trans <|
    (V12_of m outs c main_v64 (by decide)).trans <|
    (V11_of m outs c main_v64 (by decide)).trans <|
    (V10_of m outs c main_v64 (by decide)).trans <|
    (V9_of m outs c main_v64 (by decide)).trans <|
    (V8_of m outs c main_v64 (by decide)).trans <|
    (V7_of m outs c main_v64 (by decide)).trans <|
    (V6_of m outs c main_v64 (by decide)).trans <|
    (V5_of m outs c main_v64 (by decide)).trans <|
    (V4_of m outs c main_v64 (by decide)).trans <|
    (V3_of m outs c main_v64 (by decide)).trans <|
    (V2_of m outs c main_v64 (by decide)).trans <|
    (V1_of m c main_v64 (by decide)).trans rfl
/-- What region 15 finds does not depend on what the earlier regions wrote. -/
theorem indep15_h (c : Dev nD) : V31 m outs c main_v1 = V31 m outs' c main_v1 :=
  (h_at31 m outs c).trans (h_at31 m outs' c).symm
theorem indep15_b (c : Dev nD) : V31 m outs c main_v0 = V31 m outs' c main_v0 :=
  (b_at31 m outs c).trans (b_at31 m outs' c).symm
theorem indep15_W (c : Dev nD) : V31 m outs c main_arg3 = V31 m outs' c main_arg3 :=
  (W_at31 m outs c).trans (W_at31 m outs' c).symm
theorem indep15_src (c : Dev nD) : V31 m outs c main_v62 = V31 m outs' c main_v62 :=
  (tbl15_src m outs c).trans (tbl15_src m outs' c).symm
theorem indep15_dst (c : Dev nD) : V31 m outs c main_v63 = V31 m outs' c main_v63 :=
  (tbl15_dst m outs c).trans (tbl15_dst m outs' c).symm
theorem indep15_out (c : Dev nD) : V31 m outs c main_v64 = V31 m outs' c main_v64 :=
  (launched15 m outs c).trans (launched15 m outs' c).symm

end Cert.Kernel.Hand
-- ==== Proof.KReg0.lean ====
/-
  Region 0 of the edge scorer as a segment of the program's run.

  The region is entered with every unscoped buffer held whole at the contents the host operations before it leave,
  beside the generator register and nothing owed. Of those buffers the pipeline takes the four arrays its five windows
  read and write — the feature rows (read by two windows, each at one half of the full share), the weights, the
  bias and the output chunk — and the two index tables; the other unscoped buffers bypass the region. At the exit the
  feature rows' two halves rejoin, the inputs are as they were, the output array holds the region's chunk, and
  the whole is the next boundary's contents.
-/
import proofs.«405368_j31662498906597_2_alg».proof.Proof.KFamily
import proofs.«405368_j31662498906597_2_alg».proof.Proof.KHostEntry
import proofs.«405368_j31662498906597_2_alg».proof.Proof.KHostEntryGen
import Idealize.ShloMosaic.Lib.Pipeline.RegionsLoop

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The six unscoped buffers region 0 touches: the feature rows, the weights, the bias, its output chunk and its two
    index tables. -/
abbrev arrs0 : Finset (Ref sig .tc) := insert main_v1 (insert main_arg3 (insert main_v0 (insert main_v4 (insert main_v2 {main_v3}))))

theorem arrs0_sub : arrs0 ⊆ Finset.univ.filter fun b : Ref sig .tc => ¬ b.isScoped := by decide

/-- The unscoped buffers region 0 does not touch, held whole at `V`. -/
def rest0 (c : Dev nD) (V : (b : Ref sig .tc) → Buf (Elt F) ((c.tc : Thread nD τ).loc b)) : sProp 𝕄 :=
  bigSep ((Finset.univ.filter fun b : Ref sig .tc => ¬ b.isScoped) \ arrs0) fun b => ((c.tc : Thread nD τ).loc b) ↦{fullShare} V b

/-- The six touched buffers one by one, and the rest. -/
theorem ub_split0 (c : Dev nD) (V : (b : Ref sig .tc) → Buf (Elt F) ((c.tc : Thread nD τ).loc b)) :
    (unscopedBufs (Ix := Unit) (Name := ℕ) (U := UR sig nD τ) (Lvl := ℕ) c V : sProp 𝕄)
      = iprop(iprop((((c.tc : Thread nD τ).loc main_v1) ↦{fullShare} V main_v1) ∗ (((c.tc : Thread nD τ).loc main_arg3) ↦{fullShare} V main_arg3)
          ∗ (((c.tc : Thread nD τ).loc main_v0) ↦{fullShare} V main_v0) ∗ (((c.tc : Thread nD τ).loc main_v4) ↦{fullShare} V main_v4)
          ∗ (((c.tc : Thread nD τ).loc main_v2) ↦{fullShare} V main_v2) ∗ (((c.tc : Thread nD τ).loc main_v3) ↦{fullShare} V main_v3)) ∗ rest0 c V) := by
  unfold unscopedBufs rest0
  rw [BI.bigSep_sdiff_split arrs0_sub]
  refine congrArg (fun X => iprop(X ∗ _)) ?_
  show bigSep (insert main_v1 (insert main_arg3 (insert main_v0 (insert main_v4 (insert main_v2 {main_v3}))))) _ = _
  rw [BI.bigSep_insert (by decide), BI.bigSep_insert (by decide), BI.bigSep_insert (by decide), BI.bigSep_insert (by decide),
    BI.bigSep_insert (by decide), BI.bigSep_singleton]
  rfl

/-- A product over two tables, written out. -/
theorem two_tables0 (Φ : Fin 2 → sProp 𝕄) : bigSep Finset.univ Φ = iprop(Φ 0 ∗ Φ 1) := BI.bigSep_fin_two Φ

/-- The five windows' arrays and the two tables, by name. -/
theorem arrRef0_0 : Pipeline.arrRef spec0 (0 : Fin 5) = main_v1 := rfl
theorem arrRef0_1 : Pipeline.arrRef spec0 (1 : Fin 5) = main_v1 := rfl
theorem arrRef0_2 : Pipeline.arrRef spec0 (2 : Fin 5) = main_arg3 := rfl
theorem arrRef0_3 : Pipeline.arrRef spec0 (3 : Fin 5) = main_v0 := rfl
theorem arrRef0_4 : Pipeline.arrRef spec0 (4 : Fin 5) = main_v4 := rfl
theorem preRef0_0 : pre0.ref (0 : Fin 2) = main_v2 := rfl
theorem preRef0_1 : pre0.ref (1 : Fin 2) = main_v3 := rfl

set_option maxHeartbeats 1600000 in
/-- A core's unscoped buffers held whole at `V` ARE the pipeline's arrays at `V`'s contents of them (the feature rows'
    full share dealt as its two halves to the two windows that read them), the two tables at `V`'s contents of
    them, and the rest. Both directions: the region's entry and its exit. -/
theorem bufs0 (a : (pcfg0 (F := F)).Adm) (c : Dev nD) (dat : Dat τ (Elt F) Unit ℕ (UR sig nD τ) ℕ (cfg0 a) c)
    (hq0 : dat.q 0 = fullShare.left) (hq1 : dat.q 1 = fullShare.right) (hq2 : dat.q 2 = fullShare) (hq3 : dat.q 3 = fullShare)
    (V : (b : Ref sig .tc) → Buf (Elt F) ((c.tc : Thread nD τ).loc b))
    (G : (w : Fin (cfg0 a).W) → Buf (Elt F) (((cfg0 a).win w).arr.view.loc (c.tc : Thread nD τ)))
    (hG : G = fun w => V (Pipeline.arrRef spec0 w))
    (T : pre0.Contents (Elt F)) (hT : T = fun k => V (pre0.ref k)) :
    (unscopedBufs (Ix := Unit) (Name := ℕ) (U := UR sig nD τ) (Lvl := ℕ) c V : sProp 𝕄)
      ⊣⊢ iprop(dat.arrays G ∗ Pipeline.prefHeld (Ix := Unit) (Name := ℕ) (U := UR sig nD τ) (Lvl := ℕ) pre0 c (fun _ => fullShare) T ∗ rest0 c V) := by
  subst hG hT
  have harr : ∀ w, (((cfg0 a).spec w).arr).IsWhole := arr_whole0
  have hA : dat.arrays (fun w => V (Pipeline.arrRef spec0 w))
      = bigSep Finset.univ fun w : Fin 5 => (((c.tc : Thread nD τ).loc (Pipeline.arrRef spec0 w)) ↦{dat.share w} V (Pipeline.arrRef spec0 w) : sProp 𝕄) := by
    unfold Dat.arrays
    exact BI.bigSep_congr fun w _ => by rw [(harr w).set_eq_univ]
  have s0 : dat.share 0 = fullShare.left := by unfold Dat.share; rw [show ((cfg0 a).win 0).isOut = false from rfl]; exact hq0
  have s1 : dat.share 1 = fullShare.right := by unfold Dat.share; rw [show ((cfg0 a).win 1).isOut = false from rfl]; exact hq1
  have s2 : dat.share 2 = fullShare := by unfold Dat.share; rw [show ((cfg0 a).win 2).isOut = false from rfl]; exact hq2
  have s3 : dat.share 3 = fullShare := by unfold Dat.share; rw [show ((cfg0 a).win 3).isOut = false from rfl]; exact hq3
  have s4 : dat.share 4 = fullShare := by unfold Dat.share; rw [show ((cfg0 a).win 4).isOut = true from rfl]; rfl
  rw [ub_split0, hA, bigSep_W0, s0, s1, s2, s3, s4]
  unfold Pipeline.prefHeld
  rw [two_tables0]
  simp only [arrRef0_0, arrRef0_1, arrRef0_2, arrRef0_3, arrRef0_4, preRef0_0, preRef0_1]
  constructor
  · iintro ⟨⟨H1, HW, HB, HO, HS, HD⟩, Hr⟩
    ihave H1' := (pointsTo_share (PosShare.mem_left_op_right fullShare)).1 $$ H1
    icases H1' with ⟨H1a, H1b⟩
    isplitl [H1a H1b HW HB HO]
    · isplitl [H1a]; · iexact H1a
      isplitl [H1b]; · iexact H1b
      isplitl [HW]; · iexact HW
      isplitl [HB]; · iexact HB
      iexact HO
    isplitl [HS HD]
    · isplitl [HS]; · iexact HS
      iexact HD
    iexact Hr
  · iintro ⟨⟨H1a, H1b, HW, HB, HO⟩, ⟨HS, HD⟩, Hr⟩
    ihave H1 := (pointsTo_share (PosShare.mem_left_op_right fullShare)).2 $$ [H1a H1b]
    · isplitl [H1a]; · iexact H1a
      iexact H1b
    isplitr [Hr]
    · isplitl [H1]; · iexact H1
      isplitl [HW]; · iexact HW
      isplitl [HB]; · iexact HB
      isplitl [HO]; · iexact HO
      isplitl [HS]; · iexact HS
      iexact HD
    iexact Hr

set_option maxHeartbeats 1600000 in
/-- ENTRY, everything a variable: for any proof data `dat` whose arrays are `Vd`'s contents (`hA`) and any tables `T`
    that are `Vd`'s contents (`hT`), whenever the boundary contents `Vx` agree with `Vd` at the six touched buffers, the
    unscoped buffers at `Vx` are the pipeline's arrays at their entry contents, the two tables, and the rest. -/
theorem entry0 (a : (pcfg0 (F := F)).Adm) (c : Dev nD) (dat : Dat τ (Elt F) Unit ℕ (UR sig nD τ) ℕ (cfg0 a) c)
    (hq0 : dat.q 0 = fullShare.left) (hq1 : dat.q 1 = fullShare.right) (hq2 : dat.q 2 = fullShare) (hq3 : dat.q 3 = fullShare)
    (Vd Vx : (b : Ref sig .tc) → Buf (Elt F) ((c.tc : Thread nD τ).loc b))
    (hA : ∀ w, dat.A w = Vd (Pipeline.arrRef spec0 w))
    (e_h : Vd main_v1 = Vx main_v1) (e_W : Vd main_arg3 = Vx main_arg3) (e_b : Vd main_v0 = Vx main_v0) (e_out : Vd main_v4 = Vx main_v4)
    (T : pre0.Contents (Elt F)) (hT : ∀ j, T j = Vd (pre0.ref j)) (e_src : Vd main_v2 = Vx main_v2) (e_dst : Vd main_v3 = Vx main_v3) :
    (unscopedBufs (Ix := Unit) (Name := ℕ) (U := UR sig nD τ) (Lvl := ℕ) c Vx : sProp 𝕄)
      ⊢ iprop(dat.arrays (dat.arrAt · 0)
          ∗ Pipeline.prefHeld (Ix := Unit) (Name := ℕ) (U := UR sig nD τ) (Lvl := ℕ) pre0 c (fun _ => fullShare) T ∗ rest0 c Vx) :=
  (bufs0 a c dat hq0 hq1 hq2 hq3 Vx (fun w => dat.arrAt w 0)
    (funext fun w => match w with
      | ⟨0, h⟩ => by show dat.arrAt ⟨0, h⟩ 0 = Vx main_v1; exact (hA ⟨0, h⟩).trans e_h
      | ⟨1, h⟩ => by show dat.arrAt ⟨1, h⟩ 0 = Vx main_v1; exact (hA ⟨1, h⟩).trans e_h
      | ⟨2, h⟩ => by show dat.arrAt ⟨2, h⟩ 0 = Vx main_arg3; exact (hA ⟨2, h⟩).trans e_W
      | ⟨3, h⟩ => by show dat.arrAt ⟨3, h⟩ 0 = Vx main_v0; exact (hA ⟨3, h⟩).trans e_b
      | ⟨4, h⟩ => by show dat.arrAt ⟨4, h⟩ 0 = Vx main_v4; exact (hA ⟨4, h⟩).trans e_out)
    T (funext fun j => match j with
      | ⟨0, h⟩ => by show T ⟨0, h⟩ = Vx main_v2; exact (hT ⟨0, h⟩).trans e_src
      | ⟨1, h⟩ => by show T ⟨1, h⟩ = Vx main_v3; exact (hT ⟨1, h⟩).trans e_dst)).1

set_option maxHeartbeats 1600000 in
/-- EXIT, everything a variable: the inputs' arrays end as they began, the output array at what the last write-backs
    leave (`x_out`); whenever `Vx` holds those contents at the six touched buffers, the pipeline's arrays at their final
    contents, the two tables and the rest at `Vx` are the unscoped buffers at `Vx`. -/
theorem exit0 (a : (pcfg0 (F := F)).Adm) (c : Dev nD) (dat : Dat τ (Elt F) Unit ℕ (UR sig nD τ) ℕ (cfg0 a) c) (N : Nat)
    (hq0 : dat.q 0 = fullShare.left) (hq1 : dat.q 1 = fullShare.right) (hq2 : dat.q 2 = fullShare) (hq3 : dat.q 3 = fullShare)
    (Vd Vx : (b : Ref sig .tc) → Buf (Elt F) ((c.tc : Thread nD τ).loc b))
    (hA : ∀ w, dat.A w = Vd (Pipeline.arrRef spec0 w))
    (x_h : Vd main_v1 = Vx main_v1) (x_W : Vd main_arg3 = Vx main_arg3) (x_b : Vd main_v0 = Vx main_v0) (x_out : dat.arrAt 4 N = Vx main_v4)
    (T : pre0.Contents (Elt F)) (hT : ∀ j, T j = Vd (pre0.ref j)) (x_src : Vd main_v2 = Vx main_v2) (x_dst : Vd main_v3 = Vx main_v3) :
    iprop(dat.arrays (dat.arrAt · N)
        ∗ Pipeline.prefHeld (Ix := Unit) (Name := ℕ) (U := UR sig nD τ) (Lvl := ℕ) pre0 c (fun _ => fullShare) T ∗ rest0 c Vx)
      ⊢ (unscopedBufs (Ix := Unit) (Name := ℕ) (U := UR sig nD τ) (Lvl := ℕ) c Vx : sProp 𝕄) :=
  (bufs0 a c dat hq0 hq1 hq2 hq3 Vx (fun w => dat.arrAt w N)
    (funext fun w => match w with
      | ⟨0, h⟩ => by show dat.arrAt ⟨0, h⟩ N = Vx main_v1; exact (dat.arrAt_in ⟨0, h⟩ rfl N).trans ((hA ⟨0, h⟩).trans x_h)
      | ⟨1, h⟩ => by show dat.arrAt ⟨1, h⟩ N = Vx main_v1; exact (dat.arrAt_in ⟨1, h⟩ rfl N).trans ((hA ⟨1, h⟩).trans x_h)
      | ⟨2, h⟩ => by show dat.arrAt ⟨2, h⟩ N = Vx main_arg3; exact (dat.arrAt_in ⟨2, h⟩ rfl N).trans ((hA ⟨2, h⟩).trans x_W)
      | ⟨3, h⟩ => by show dat.arrAt ⟨3, h⟩ N = Vx main_v0; exact (dat.arrAt_in ⟨3, h⟩ rfl N).trans ((hA ⟨3, h⟩).trans x_b)
      | ⟨4, h⟩ => by show dat.arrAt ⟨4, h⟩ N = Vx main_v4; exact x_out)
    T (funext fun j => match j with
      | ⟨0, h⟩ => by show T ⟨0, h⟩ = Vx main_v2; exact (hT ⟨0, h⟩).trans x_src
      | ⟨1, h⟩ => by show T ⟨1, h⟩ = Vx main_v3; exact (hT ⟨1, h⟩).trans x_dst)).2

variable (m : (ℓ : Loc nD τ sig) → Buf (Elt F) ℓ) (hO : Oks m)

/-! ## What the region finds and leaves, buffer by buffer -/

include hO

theorem fin0_h (c : Dev nD) : Ve0 m c main_v1 = V1 m c main_v1 := by first | exact indep0_h m (outsL m) (outsR m hO) c | rfl
theorem fin0_W (c : Dev nD) : Ve0 m c main_arg3 = V1 m c main_arg3 := by first | exact indep0_W m (outsL m) (outsR m hO) c | rfl
theorem fin0_b (c : Dev nD) : Ve0 m c main_v0 = V1 m c main_v0 := by first | exact indep0_b m (outsL m) (outsR m hO) c | rfl
theorem fin0_out (c : Dev nD) : Ve0 m c main_v4 = V1 m c main_v4 := by first | exact indep0_out m (outsL m) (outsR m hO) c | rfl
theorem fin0_src (c : Dev nD) : Ve0 m c main_v2 = V1 m c main_v2 := by first | exact indep0_src m (outsL m) (outsR m hO) c | rfl
theorem fin0_dst (c : Dev nD) : Ve0 m c main_v3 = V1 m c main_v3 := by first | exact indep0_dst m (outsL m) (outsR m hO) c | rfl

/-- What the region leaves in the buffers it touches: the inputs and the tables as they were, the output array at the
    region's chunk. -/
theorem lv0_h (c : Dev nD) : V2 m (outsR m hO) c main_v1 = V1 m c main_v1 := V2_of m (outsR m hO) c main_v1 (by decide)
theorem lv0_W (c : Dev nD) : V2 m (outsR m hO) c main_arg3 = V1 m c main_arg3 := V2_of m (outsR m hO) c main_arg3 (by decide)
theorem lv0_b (c : Dev nD) : V2 m (outsR m hO) c main_v0 = V1 m c main_v0 := V2_of m (outsR m hO) c main_v0 (by decide)
theorem lv0_src (c : Dev nD) : V2 m (outsR m hO) c main_v2 = V1 m c main_v2 := V2_of m (outsR m hO) c main_v2 (by decide)
theorem lv0_dst (c : Dev nD) : V2 m (outsR m hO) c main_v3 = V1 m c main_v3 := V2_of m (outsR m hO) c main_v3 (by decide)
theorem lv0_out (c : Dev nD) : V2 m (outsR m hO) c main_v4 = chunk0 m hO c :=
  (Function.update_self _ _ _).trans (outsR_0 m hO c)

/-- The buffers the region does not touch pass it by unchanged. -/
theorem rest0_eq (c : Dev nD) : (rest0 c (fun b => V1 m c b) : sProp 𝕄) = rest0 c (fun b => V2 m (outsR m hO) c b) := by
  unfold rest0
  exact BI.bigSep_congr fun b hb => by
    dsimp only
    rw [V2_of m (outsR m hO) c b (fun h => (Finset.mem_sdiff.mp hb).2 (by rw [List.mem_singleton.mp h]; decide))]

set_option maxHeartbeats 1600000 in
set_option backward.isDefEq.respectTransparency.types false in
/-- REGION 0 over the boundary states. -/
def reg0 : Pipeline.RegionSeg (pcfgs (F := F)) (adm m hO) (pdats m hO) () defs₀ 𝒱₀ L lv (0 : Fin 16) where
  win := winFacts₀0
  block_pos := block_pos0
  stage_whole := stage_whole0
  K := PEmpty
  osem k := k.elim
  ho := Pipeline.OwnSemFacts.none _
  hbody c := (body_obligation0 (Ve0 m) ⟨tbl0 m, hO.h0⟩ c).loose
  hwaits := Pipeline.hwaits_of_owed_zero _ _ _ _ L lv (0 : Fin 16) fun _ _ => rfl
  pre c := iprop(StableHlo.held (c : Thread nD τ) (Pipeline.ucRefs τ sig) (V1 m c) ∗ Rst c)
  post c := iprop(StableHlo.held (c : Thread nD τ) (Pipeline.ucRefs τ sig) (V2 m (outsR m hO) c) ∗ Rst c)
  X c := iprop(∃ r, prngReg c r)
  Y c := iprop((∃ r, prngReg c r) ∗ Pipeline.prefHeld (Ix := Unit) (Name := ℕ) (U := UR sig nD τ) (Lvl := ℕ) pre0 c (fun _ => fullShare) (tbl0 m))
  Z c := rest0 c (fun b => V1 m c b)
  hentry c := by
    obtain rfl : c = 0 := Subsingleton.elim _ _
    have hb := entry0 (adm m hO (0 : Fin 16)) 0 (pdats m hO (0 : Fin 16) 0) rfl rfl rfl rfl (Ve0 m 0) (fun b => V1 m 0 b) (fun w => rfl)
      (fin0_h m hO 0) (fin0_W m hO 0) (fin0_b m hO 0) (fin0_out m hO 0) (tbl0 m) (fun j => rfl) (fin0_src m hO 0) (fin0_dst m hO 0)
    rw [Pipeline.unscopedBufs_held] at hb
    iintro ⟨⟨Hub, Hp, HO⟩, -, -⟩
    ihave H := hb $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO (0 : Fin 16) c).Φ 0 = iprop(Pipeline.ΦA spec0 c ∗ Pipeline.prefHeld (Ix := Unit) (Name := ℕ) (U := UR sig nD τ) (Lvl := ℕ) pre0 c (fun _ => fullShare) (tbl0 m)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m hO (0 : Fin 16) c).Φ (Fin.last _) = iprop(Pipeline.ΦA spec0 c ∗ Pipeline.prefHeld (Ix := Unit) (Name := ℕ) (U := UR sig nD τ) (Lvl := ℕ) pre0 c (fun _ => fullShare) (tbl0 m)) from rfl]
    unfold Pipeline.ΦA
    iintro ⟨⟨Hr, Hp⟩, Ht⟩
    isplitl [Hp Ht]
    · isplitl [Hp]; · iexact Hp
      iexact Ht
    isplitr; · iempintro
    iexact Hr
  hexit c := by
    obtain rfl : c = 0 := Subsingleton.elim _ _
    have hb := exit0 (adm m hO (0 : Fin 16)) 0 (pdats m hO (0 : Fin 16) 0) (Pipeline.pin (pcfgs (F := F)) (adm m hO) (0 : Fin 16)).N rfl rfl rfl rfl
      (Ve0 m 0) (fun b => V2 m (outsR m hO) 0 b) (fun w => rfl)
      ((fin0_h m hO 0).trans (lv0_h m hO 0).symm) ((fin0_W m hO 0).trans (lv0_W m hO 0).symm) ((fin0_b m hO 0).trans (lv0_b m hO 0).symm)
      (lv0_out m hO 0).symm (tbl0 m) (fun j => rfl) ((fin0_src m hO 0).trans (lv0_src m hO 0).symm) ((fin0_dst m hO 0).trans (lv0_dst m hO 0).symm)
    rw [Pipeline.unscopedBufs_held, ← rest0_eq m hO 0] at hb
    iintro ⟨Ha, HO, ⟨Hp, Ht⟩, Hrest⟩
    imodintro
    isplitl [Ha Ht Hrest]
    · iapply hb
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Cert.Kernel.Hand

end
-- ==== Proof.KReg1.lean ====
/-
  Region 1 of the edge scorer as a segment of the program's run.

  The region is entered with every unscoped buffer held whole at the contents the host operations before it leave,
  beside the generator register and nothing owed. Of those buffers the pipeline takes the four arrays its five windows
  read and write — the feature rows (read by two windows, each at one half of the full share), the weights, the
  bias and the output chunk — and the two index tables; the other unscoped buffers bypass the region. At the exit the
  feature rows' two halves rejoin, the inputs are as they were, the output array holds the region's chunk, and
  the whole is the next boundary's contents.
-/
import proofs.«405368_j31662498906597_2_alg».proof.Proof.KFamily
import proofs.«405368_j31662498906597_2_alg».proof.Proof.KHostEntry
import proofs.«405368_j31662498906597_2_alg».proof.Proof.KHostEntryGen
import Idealize.ShloMosaic.Lib.Pipeline.RegionsLoop

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The six unscoped buffers region 1 touches: the feature rows, the weights, the bias, its output chunk and its two
    index tables. -/
abbrev arrs1 : Finset (Ref sig .tc) := insert main_v1 (insert main_arg3 (insert main_v0 (insert main_v8 (insert main_v6 {main_v7}))))

theorem arrs1_sub : arrs1 ⊆ Finset.univ.filter fun b : Ref sig .tc => ¬ b.isScoped := by decide

/-- The unscoped buffers region 1 does not touch, held whole at `V`. -/
def rest1 (c : Dev nD) (V : (b : Ref sig .tc) → Buf (Elt F) ((c.tc : Thread nD τ).loc b)) : sProp 𝕄 :=
  bigSep ((Finset.univ.filter fun b : Ref sig .tc => ¬ b.isScoped) \ arrs1) fun b => ((c.tc : Thread nD τ).loc b) ↦{fullShare} V b

/-- The six touched buffers one by one, and the rest. -/
theorem ub_split1 (c : Dev nD) (V : (b : Ref sig .tc) → Buf (Elt F) ((c.tc : Thread nD τ).loc b)) :
    (unscopedBufs (Ix := Unit) (Name := ℕ) (U := UR sig nD τ) (Lvl := ℕ) c V : sProp 𝕄)
      = iprop(iprop((((c.tc : Thread nD τ).loc main_v1) ↦{fullShare} V main_v1) ∗ (((c.tc : Thread nD τ).loc main_arg3) ↦{fullShare} V main_arg3)
          ∗ (((c.tc : Thread nD τ).loc main_v0) ↦{fullShare} V main_v0) ∗ (((c.tc : Thread nD τ).loc main_v8) ↦{fullShare} V main_v8)
          ∗ (((c.tc : Thread nD τ).loc main_v6) ↦{fullShare} V main_v6) ∗ (((c.tc : Thread nD τ).loc main_v7) ↦{fullShare} V main_v7)) ∗ rest1 c V) := by
  unfold unscopedBufs rest1
  rw [BI.bigSep_sdiff_split arrs1_sub]
  refine congrArg (fun X => iprop(X ∗ _)) ?_
  show bigSep (insert main_v1 (insert main_arg3 (insert main_v0 (insert main_v8 (insert main_v6 {main_v7}))))) _ = _
  rw [BI.bigSep_insert (by decide), BI.bigSep_insert (by decide), BI.bigSep_insert (by decide), BI.bigSep_insert (by decide),
    BI.bigSep_insert (by decide), BI.bigSep_singleton]
  rfl

/-- A product over two tables, written out. -/
theorem two_tables1 (Φ : Fin 2 → sProp 𝕄) : bigSep Finset.univ Φ = iprop(Φ 0 ∗ Φ 1) := BI.bigSep_fin_two Φ

/-- The five windows' arrays and the two tables, by name. -/
theorem arrRef1_0 : Pipeline.arrRef spec1 (0 : Fin 5) = main_v1 := rfl
theorem arrRef1_1 : Pipeline.arrRef spec1 (1 : Fin 5) = main_v1 := rfl
theorem arrRef1_2 : Pipeline.arrRef spec1 (2 : Fin 5) = main_arg3 := rfl
theorem arrRef1_3 : Pipeline.arrRef spec1 (3 : Fin 5) = main_v0 := rfl
theorem arrRef1_4 : Pipeline.arrRef spec1 (4 : Fin 5) = main_v8 := rfl
theorem preRef1_0 : pre1.ref (0 : Fin 2) = main_v6 := rfl
theorem preRef1_1 : pre1.ref (1 : Fin 2) = main_v7 := rfl

set_option maxHeartbeats 1600000 in
/-- A core's unscoped buffers held whole at `V` ARE the pipeline's arrays at `V`'s contents of them (the feature rows'
    full share dealt as its two halves to the two windows that read them), the two tables at `V`'s contents of
    them, and the rest. Both directions: the region's entry and its exit. -/
theorem bufs1 (a : (pcfg1 (F := F)).Adm) (c : Dev nD) (dat : Dat τ (Elt F) Unit ℕ (UR sig nD τ) ℕ (cfg1 a) c)
    (hq0 : dat.q 0 = fullShare.left) (hq1 : dat.q 1 = fullShare.right) (hq2 : dat.q 2 = fullShare) (hq3 : dat.q 3 = fullShare)
    (V : (b : Ref sig .tc) → Buf (Elt F) ((c.tc : Thread nD τ).loc b))
    (G : (w : Fin (cfg1 a).W) → Buf (Elt F) (((cfg1 a).win w).arr.view.loc (c.tc : Thread nD τ)))
    (hG : G = fun w => V (Pipeline.arrRef spec1 w))
    (T : pre1.Contents (Elt F)) (hT : T = fun k => V (pre1.ref k)) :
    (unscopedBufs (Ix := Unit) (Name := ℕ) (U := UR sig nD τ) (Lvl := ℕ) c V : sProp 𝕄)
      ⊣⊢ iprop(dat.arrays G ∗ Pipeline.prefHeld (Ix := Unit) (Name := ℕ) (U := UR sig nD τ) (Lvl := ℕ) pre1 c (fun _ => fullShare) T ∗ rest1 c V) := by
  subst hG hT
  have harr : ∀ w, (((cfg1 a).spec w).arr).IsWhole := arr_whole1
  have hA : dat.arrays (fun w => V (Pipeline.arrRef spec1 w))
      = bigSep Finset.univ fun w : Fin 5 => (((c.tc : Thread nD τ).loc (Pipeline.arrRef spec1 w)) ↦{dat.share w} V (Pipeline.arrRef spec1 w) : sProp 𝕄) := by
    unfold Dat.arrays
    exact BI.bigSep_congr fun w _ => by rw [(harr w).set_eq_univ]
  have s0 : dat.share 0 = fullShare.left := by unfold Dat.share; rw [show ((cfg1 a).win 0).isOut = false from rfl]; exact hq0
  have s1 : dat.share 1 = fullShare.right := by unfold Dat.share; rw [show ((cfg1 a).win 1).isOut = false from rfl]; exact hq1
  have s2 : dat.share 2 = fullShare := by unfold Dat.share; rw [show ((cfg1 a).win 2).isOut = false from rfl]; exact hq2
  have s3 : dat.share 3 = fullShare := by unfold Dat.share; rw [show ((cfg1 a).win 3).isOut = false from rfl]; exact hq3
  have s4 : dat.share 4 = fullShare := by unfold Dat.share; rw [show ((cfg1 a).win 4).isOut = true from rfl]; rfl
  rw [ub_split1, hA, bigSep_W1, s0, s1, s2, s3, s4]
  unfold Pipeline.prefHeld
  rw [two_tables1]
  simp only [arrRef1_0, arrRef1_1, arrRef1_2, arrRef1_3, arrRef1_4, preRef1_0, preRef1_1]
  constructor
  · iintro ⟨⟨H1, HW, HB, HO, HS, HD⟩, Hr⟩
    ihave H1' := (pointsTo_share (PosShare.mem_left_op_right fullShare)).1 $$ H1
    icases H1' with ⟨H1a, H1b⟩
    isplitl [H1a H1b HW HB HO]
    · isplitl [H1a]; · iexact H1a
      isplitl [H1b]; · iexact H1b
      isplitl [HW]; · iexact HW
      isplitl [HB]; · iexact HB
      iexact HO
    isplitl [HS HD]
    · isplitl [HS]; · iexact HS
      iexact HD
    iexact Hr
  · iintro ⟨⟨H1a, H1b, HW, HB, HO⟩, ⟨HS, HD⟩, Hr⟩
    ihave H1 := (pointsTo_share (PosShare.mem_left_op_right fullShare)).2 $$ [H1a H1b]
    · isplitl [H1a]; · iexact H1a
      iexact H1b
    isplitr [Hr]
    · isplitl [H1]; · iexact H1
      isplitl [HW]; · iexact HW
      isplitl [HB]; · iexact HB
      isplitl [HO]; · iexact HO
      isplitl [HS]; · iexact HS
      iexact HD
    iexact Hr

set_option maxHeartbeats 1600000 in
/-- ENTRY, everything a variable: for any proof data `dat` whose arrays are `Vd`'s contents (`hA`) and any tables `T`
    that are `Vd`'s contents (`hT`), whenever the boundary contents `Vx` agree with `Vd` at the six touched buffers, the
    unscoped buffers at `Vx` are the pipeline's arrays at their entry contents, the two tables, and the rest. -/
theorem entry1 (a : (pcfg1 (F := F)).Adm) (c : Dev nD) (dat : Dat τ (Elt F) Unit ℕ (UR sig nD τ) ℕ (cfg1 a) c)
    (hq0 : dat.q 0 = fullShare.left) (hq1 : dat.q 1 = fullShare.right) (hq2 : dat.q 2 = fullShare) (hq3 : dat.q 3 = fullShare)
    (Vd Vx : (b : Ref sig .tc) → Buf (Elt F) ((c.tc : Thread nD τ).loc b))
    (hA : ∀ w, dat.A w = Vd (Pipeline.arrRef spec1 w))
    (e_h : Vd main_v1 = Vx main_v1) (e_W : Vd main_arg3 = Vx main_arg3) (e_b : Vd main_v0 = Vx main_v0) (e_out : Vd main_v8 = Vx main_v8)
    (T : pre1.Contents (Elt F)) (hT : ∀ j, T j = Vd (pre1.ref j)) (e_src : Vd main_v6 = Vx main_v6) (e_dst : Vd main_v7 = Vx main_v7) :
    (unscopedBufs (Ix := Unit) (Name := ℕ) (U := UR sig nD τ) (Lvl := ℕ) c Vx : sProp 𝕄)
      ⊢ iprop(dat.arrays (dat.arrAt · 0)
          ∗ Pipeline.prefHeld (Ix := Unit) (Name := ℕ) (U := UR sig nD τ) (Lvl := ℕ) pre1 c (fun _ => fullShare) T ∗ rest1 c Vx) :=
  (bufs1 a c dat hq0 hq1 hq2 hq3 Vx (fun w => dat.arrAt w 0)
    (funext fun w => match w with
      | ⟨0, h⟩ => by show dat.arrAt ⟨0, h⟩ 0 = Vx main_v1; exact (hA ⟨0, h⟩).trans e_h
      | ⟨1, h⟩ => by show dat.arrAt ⟨1, h⟩ 0 = Vx main_v1; exact (hA ⟨1, h⟩).trans e_h
      | ⟨2, h⟩ => by show dat.arrAt ⟨2, h⟩ 0 = Vx main_arg3; exact (hA ⟨2, h⟩).trans e_W
      | ⟨3, h⟩ => by show dat.arrAt ⟨3, h⟩ 0 = Vx main_v0; exact (hA ⟨3, h⟩).trans e_b
      | ⟨4, h⟩ => by show dat.arrAt ⟨4, h⟩ 0 = Vx main_v8; exact (hA ⟨4, h⟩).trans e_out)
    T (funext fun j => match j with
      | ⟨0, h⟩ => by show T ⟨0, h⟩ = Vx main_v6; exact (hT ⟨0, h⟩).trans e_src
      | ⟨1, h⟩ => by show T ⟨1, h⟩ = Vx main_v7; exact (hT ⟨1, h⟩).trans e_dst)).1

set_option maxHeartbeats 1600000 in
/-- EXIT, everything a variable: the inputs' arrays end as they began, the output array at what the last write-backs
    leave (`x_out`); whenever `Vx` holds those contents at the six touched buffers, the pipeline's arrays at their final
    contents, the two tables and the rest at `Vx` are the unscoped buffers at `Vx`. -/
theorem exit1 (a : (pcfg1 (F := F)).Adm) (c : Dev nD) (dat : Dat τ (Elt F) Unit ℕ (UR sig nD τ) ℕ (cfg1 a) c) (N : Nat)
    (hq0 : dat.q 0 = fullShare.left) (hq1 : dat.q 1 = fullShare.right) (hq2 : dat.q 2 = fullShare) (hq3 : dat.q 3 = fullShare)
    (Vd Vx : (b : Ref sig .tc) → Buf (Elt F) ((c.tc : Thread nD τ).loc b))
    (hA : ∀ w, dat.A w = Vd (Pipeline.arrRef spec1 w))
    (x_h : Vd main_v1 = Vx main_v1) (x_W : Vd main_arg3 = Vx main_arg3) (x_b : Vd main_v0 = Vx main_v0) (x_out : dat.arrAt 4 N = Vx main_v8)
    (T : pre1.Contents (Elt F)) (hT : ∀ j, T j = Vd (pre1.ref j)) (x_src : Vd main_v6 = Vx main_v6) (x_dst : Vd main_v7 = Vx main_v7) :
    iprop(dat.arrays (dat.arrAt · N)
        ∗ Pipeline.prefHeld (Ix := Unit) (Name := ℕ) (U := UR sig nD τ) (Lvl := ℕ) pre1 c (fun _ => fullShare) T ∗ rest1 c Vx)
      ⊢ (unscopedBufs (Ix := Unit) (Name := ℕ) (U := UR sig nD τ) (Lvl := ℕ) c Vx : sProp 𝕄) :=
  (bufs1 a c dat hq0 hq1 hq2 hq3 Vx (fun w => dat.arrAt w N)
    (funext fun w => match w with
      | ⟨0, h⟩ => by show dat.arrAt ⟨0, h⟩ N = Vx main_v1; exact (dat.arrAt_in ⟨0, h⟩ rfl N).trans ((hA ⟨0, h⟩).trans x_h)
      | ⟨1, h⟩ => by show dat.arrAt ⟨1, h⟩ N = Vx main_v1; exact (dat.arrAt_in ⟨1, h⟩ rfl N).trans ((hA ⟨1, h⟩).trans x_h)
      | ⟨2, h⟩ => by show dat.arrAt ⟨2, h⟩ N = Vx main_arg3; exact (dat.arrAt_in ⟨2, h⟩ rfl N).trans ((hA ⟨2, h⟩).trans x_W)
      | ⟨3, h⟩ => by show dat.arrAt ⟨3, h⟩ N = Vx main_v0; exact (dat.arrAt_in ⟨3, h⟩ rfl N).trans ((hA ⟨3, h⟩).trans x_b)
      | ⟨4, h⟩ => by show dat.arrAt ⟨4, h⟩ N = Vx main_v8; exact x_out)
    T (funext fun j => match j with
      | ⟨0, h⟩ => by show T ⟨0, h⟩ = Vx main_v6; exact (hT ⟨0, h⟩).trans x_src
      | ⟨1, h⟩ => by show T ⟨1, h⟩ = Vx main_v7; exact (hT ⟨1, h⟩).trans x_dst)).2

variable (m : (ℓ : Loc nD τ sig) → Buf (Elt F) ℓ) (hO : Oks m)

/-! ## What the region finds and leaves, buffer by buffer -/

include hO

theorem fin1_h (c : Dev nD) : Ve1 m c main_v1 = V3 m (outsR m hO) c main_v1 := by first | exact indep1_h m (outsL m) (outsR m hO) c | rfl
theorem fin1_W (c : Dev nD) : Ve1 m c main_arg3 = V3 m (outsR m hO) c main_arg3 := by first | exact indep1_W m (outsL m) (outsR m hO) c | rfl
theorem fin1_b (c : Dev nD) : Ve1 m c main_v0 = V3 m (outsR m hO) c main_v0 := by first | exact indep1_b m (outsL m) (outsR m hO) c | rfl
theorem fin1_out (c : Dev nD) : Ve1 m c main_v8 = V3 m (outsR m hO) c main_v8 := by first | exact indep1_out m (outsL m) (outsR m hO) c | rfl
theorem fin1_src (c : Dev nD) : Ve1 m c main_v6 = V3 m (outsR m hO) c main_v6 := by first | exact indep1_src m (outsL m) (outsR m hO) c | rfl
theorem fin1_dst (c : Dev nD) : Ve1 m c main_v7 = V3 m (outsR m hO) c main_v7 := by first | exact indep1_dst m (outsL m) (outsR m hO) c | rfl

/-- What the region leaves in the buffers it touches: the inputs and the tables as they were, the output array at the
    region's chunk. -/
theorem lv1_h (c : Dev nD) : V4 m (outsR m hO) c main_v1 = V3 m (outsR m hO) c main_v1 := V4_of m (outsR m hO) c main_v1 (by decide)
theorem lv1_W (c : Dev nD) : V4 m (outsR m hO) c main_arg3 = V3 m (outsR m hO) c main_arg3 := V4_of m (outsR m hO) c main_arg3 (by decide)
theorem lv1_b (c : Dev nD) : V4 m (outsR m hO) c main_v0 = V3 m (outsR m hO) c main_v0 := V4_of m (outsR m hO) c main_v0 (by decide)
theorem lv1_src (c : Dev nD) : V4 m (outsR m hO) c main_v6 = V3 m (outsR m hO) c main_v6 := V4_of m (outsR m hO) c main_v6 (by decide)
theorem lv1_dst (c : Dev nD) : V4 m (outsR m hO) c main_v7 = V3 m (outsR m hO) c main_v7 := V4_of m (outsR m hO) c main_v7 (by decide)
theorem lv1_out (c : Dev nD) : V4 m (outsR m hO) c main_v8 = chunk1 m hO c :=
  (Function.update_self _ _ _).trans (outsR_1 m hO c)

/-- The buffers the region does not touch pass it by unchanged. -/
theorem rest1_eq (c : Dev nD) : (rest1 c (fun b => V3 m (outsR m hO) c b) : sProp 𝕄) = rest1 c (fun b => V4 m (outsR m hO) c b) := by
  unfold rest1
  exact BI.bigSep_congr fun b hb => by
    dsimp only
    rw [V4_of m (outsR m hO) c b (fun h => (Finset.mem_sdiff.mp hb).2 (by rw [List.mem_singleton.mp h]; decide))]

set_option maxHeartbeats 1600000 in
set_option backward.isDefEq.respectTransparency.types false in
/-- REGION 0 over the boundary states. -/
def reg1 : Pipeline.RegionSeg (pcfgs (F := F)) (adm m hO) (pdats m hO) () defs₀ 𝒱₀ L lv (1 : Fin 16) where
  win := winFacts₀1
  block_pos := block_pos1
  stage_whole := stage_whole1
  K := PEmpty
  osem k := k.elim
  ho := Pipeline.OwnSemFacts.none _
  hbody c := (body_obligation1 (Ve1 m) ⟨tbl1 m, hO.h1⟩ c).loose
  hwaits := Pipeline.hwaits_of_owed_zero _ _ _ _ L lv (1 : Fin 16) fun _ _ => rfl
  pre c := iprop(StableHlo.held (c : Thread nD τ) (Pipeline.ucRefs τ sig) (V3 m (outsR m hO) c) ∗ Rst c)
  post c := iprop(StableHlo.held (c : Thread nD τ) (Pipeline.ucRefs τ sig) (V4 m (outsR m hO) c) ∗ Rst c)
  X c := iprop(∃ r, prngReg c r)
  Y c := iprop((∃ r, prngReg c r) ∗ Pipeline.prefHeld (Ix := Unit) (Name := ℕ) (U := UR sig nD τ) (Lvl := ℕ) pre1 c (fun _ => fullShare) (tbl1 m))
  Z c := rest1 c (fun b => V3 m (outsR m hO) c b)
  hentry c := by
    obtain rfl : c = 0 := Subsingleton.elim _ _
    have hb := entry1 (adm m hO (1 : Fin 16)) 0 (pdats m hO (1 : Fin 16) 0) rfl rfl rfl rfl (Ve1 m 0) (fun b => V3 m (outsR m hO) 0 b) (fun w => rfl)
      (fin1_h m hO 0) (fin1_W m hO 0) (fin1_b m hO 0) (fin1_out m hO 0) (tbl1 m) (fun j => rfl) (fin1_src m hO 0) (fin1_dst m hO 0)
    rw [Pipeline.unscopedBufs_held] at hb
    iintro ⟨⟨Hub, Hp, HO⟩, -, -⟩
    ihave H := hb $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO (1 : Fin 16) c).Φ 0 = iprop(Pipeline.ΦA spec1 c ∗ Pipeline.prefHeld (Ix := Unit) (Name := ℕ) (U := UR sig nD τ) (Lvl := ℕ) pre1 c (fun _ => fullShare) (tbl1 m)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m hO (1 : Fin 16) c).Φ (Fin.last _) = iprop(Pipeline.ΦA spec1 c ∗ Pipeline.prefHeld (Ix := Unit) (Name := ℕ) (U := UR sig nD τ) (Lvl := ℕ) pre1 c (fun _ => fullShare) (tbl1 m)) from rfl]
    unfold Pipeline.ΦA
    iintro ⟨⟨Hr, Hp⟩, Ht⟩
    isplitl [Hp Ht]
    · isplitl [Hp]; · iexact Hp
      iexact Ht
    isplitr; · iempintro
    iexact Hr
  hexit c := by
    obtain rfl : c = 0 := Subsingleton.elim _ _
    have hb := exit1 (adm m hO (1 : Fin 16)) 0 (pdats m hO (1 : Fin 16) 0) (Pipeline.pin (pcfgs (F := F)) (adm m hO) (1 : Fin 16)).N rfl rfl rfl rfl
      (Ve1 m 0) (fun b => V4 m (outsR m hO) 0 b) (fun w => rfl)
      ((fin1_h m hO 0).trans (lv1_h m hO 0).symm) ((fin1_W m hO 0).trans (lv1_W m hO 0).symm) ((fin1_b m hO 0).trans (lv1_b m hO 0).symm)
      (lv1_out m hO 0).symm (tbl1 m) (fun j => rfl) ((fin1_src m hO 0).trans (lv1_src m hO 0).symm) ((fin1_dst m hO 0).trans (lv1_dst m hO 0).symm)
    rw [Pipeline.unscopedBufs_held, ← rest1_eq m hO 0] at hb
    iintro ⟨Ha, HO, ⟨Hp, Ht⟩, Hrest⟩
    imodintro
    isplitl [Ha Ht Hrest]
    · iapply hb
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Cert.Kernel.Hand

end
-- ==== Proof.KReg2.lean ====
/-
  Region 2 of the edge scorer as a segment of the program's run.

  The region is entered with every unscoped buffer held whole at the contents the host operations before it leave,
  beside the generator register and nothing owed. Of those buffers the pipeline takes the four arrays its five windows
  read and write — the feature rows (read by two windows, each at one half of the full share), the weights, the
  bias and the output chunk — and the two index tables; the other unscoped buffers bypass the region. At the exit the
  feature rows' two halves rejoin, the inputs are as they were, the output array holds the region's chunk, and
  the whole is the next boundary's contents.
-/
import proofs.«405368_j31662498906597_2_alg».proof.Proof.KFamily
import proofs.«405368_j31662498906597_2_alg».proof.Proof.KHostEntry
import proofs.«405368_j31662498906597_2_alg».proof.Proof.KHostEntryGen
import Idealize.ShloMosaic.Lib.Pipeline.RegionsLoop

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The six unscoped buffers region 2 touches: the feature rows, the weights, the bias, its output chunk and its two
    index tables. -/
abbrev arrs2 : Finset (Ref sig .tc) := insert main_v1 (insert main_arg3 (insert main_v0 (insert main_v12 (insert main_v10 {main_v11}))))

theorem arrs2_sub : arrs2 ⊆ Finset.univ.filter fun b : Ref sig .tc => ¬ b.isScoped := by decide

/-- The unscoped buffers region 2 does not touch, held whole at `V`. -/
def rest2 (c : Dev nD) (V : (b : Ref sig .tc) → Buf (Elt F) ((c.tc : Thread nD τ).loc b)) : sProp 𝕄 :=
  bigSep ((Finset.univ.filter fun b : Ref sig .tc => ¬ b.isScoped) \ arrs2) fun b => ((c.tc : Thread nD τ).loc b) ↦{fullShare} V b

/-- The six touched buffers one by one, and the rest. -/
theorem ub_split2 (c : Dev nD) (V : (b : Ref sig .tc) → Buf (Elt F) ((c.tc : Thread nD τ).loc b)) :
    (unscopedBufs (Ix := Unit) (Name := ℕ) (U := UR sig nD τ) (Lvl := ℕ) c V : sProp 𝕄)
      = iprop(iprop((((c.tc : Thread nD τ).loc main_v1) ↦{fullShare} V main_v1) ∗ (((c.tc : Thread nD τ).loc main_arg3) ↦{fullShare} V main_arg3)
          ∗ (((c.tc : Thread nD τ).loc main_v0) ↦{fullShare} V main_v0) ∗ (((c.tc : Thread nD τ).loc main_v12) ↦{fullShare} V main_v12)
          ∗ (((c.tc : Thread nD τ).loc main_v10) ↦{fullShare} V main_v10) ∗ (((c.tc : Thread nD τ).loc main_v11) ↦{fullShare} V main_v11)) ∗ rest2 c V) := by
  unfold unscopedBufs rest2
  rw [BI.bigSep_sdiff_split arrs2_sub]
  refine congrArg (fun X => iprop(X ∗ _)) ?_
  show bigSep (insert main_v1 (insert main_arg3 (insert main_v0 (insert main_v12 (insert main_v10 {main_v11}))))) _ = _
  rw [BI.bigSep_insert (by decide), BI.bigSep_insert (by decide), BI.bigSep_insert (by decide), BI.bigSep_insert (by decide),
    BI.bigSep_insert (by decide), BI.bigSep_singleton]
  rfl

/-- A product over two tables, written out. -/
theorem two_tables2 (Φ : Fin 2 → sProp 𝕄) : bigSep Finset.univ Φ = iprop(Φ 0 ∗ Φ 1) := BI.bigSep_fin_two Φ

/-- The five windows' arrays and the two tables, by name. -/
theorem arrRef2_0 : Pipeline.arrRef spec2 (0 : Fin 5) = main_v1 := rfl
theorem arrRef2_1 : Pipeline.arrRef spec2 (1 : Fin 5) = main_v1 := rfl
theorem arrRef2_2 : Pipeline.arrRef spec2 (2 : Fin 5) = main_arg3 := rfl
theorem arrRef2_3 : Pipeline.arrRef spec2 (3 : Fin 5) = main_v0 := rfl
theorem arrRef2_4 : Pipeline.arrRef spec2 (4 : Fin 5) = main_v12 := rfl
theorem preRef2_0 : pre2.ref (0 : Fin 2) = main_v10 := rfl
theorem preRef2_1 : pre2.ref (1 : Fin 2) = main_v11 := rfl

set_option maxHeartbeats 1600000 in
/-- A core's unscoped buffers held whole at `V` ARE the pipeline's arrays at `V`'s contents of them (the feature rows'
    full share dealt as its two halves to the two windows that read them), the two tables at `V`'s contents of
    them, and the rest. Both directions: the region's entry and its exit. -/
theorem bufs2 (a : (pcfg2 (F := F)).Adm) (c : Dev nD) (dat : Dat τ (Elt F) Unit ℕ (UR sig nD τ) ℕ (cfg2 a) c)
    (hq0 : dat.q 0 = fullShare.left) (hq1 : dat.q 1 = fullShare.right) (hq2 : dat.q 2 = fullShare) (hq3 : dat.q 3 = fullShare)
    (V : (b : Ref sig .tc) → Buf (Elt F) ((c.tc : Thread nD τ).loc b))
    (G : (w : Fin (cfg2 a).W) → Buf (Elt F) (((cfg2 a).win w).arr.view.loc (c.tc : Thread nD τ)))
    (hG : G = fun w => V (Pipeline.arrRef spec2 w))
    (T : pre2.Contents (Elt F)) (hT : T = fun k => V (pre2.ref k)) :
    (unscopedBufs (Ix := Unit) (Name := ℕ) (U := UR sig nD τ) (Lvl := ℕ) c V : sProp 𝕄)
      ⊣⊢ iprop(dat.arrays G ∗ Pipeline.prefHeld (Ix := Unit) (Name := ℕ) (U := UR sig nD τ) (Lvl := ℕ) pre2 c (fun _ => fullShare) T ∗ rest2 c V) := by
  subst hG hT
  have harr : ∀ w, (((cfg2 a).spec w).arr).IsWhole := arr_whole2
  have hA : dat.arrays (fun w => V (Pipeline.arrRef spec2 w))
      = bigSep Finset.univ fun w : Fin 5 => (((c.tc : Thread nD τ).loc (Pipeline.arrRef spec2 w)) ↦{dat.share w} V (Pipeline.arrRef spec2 w) : sProp 𝕄) := by
    unfold Dat.arrays
    exact BI.bigSep_congr fun w _ => by rw [(harr w).set_eq_univ]
  have s0 : dat.share 0 = fullShare.left := by unfold Dat.share; rw [show ((cfg2 a).win 0).isOut = false from rfl]; exact hq0
  have s1 : dat.share 1 = fullShare.right := by unfold Dat.share; rw [show ((cfg2 a).win 1).isOut = false from rfl]; exact hq1
  have s2 : dat.share 2 = fullShare := by unfold Dat.share; rw [show ((cfg2 a).win 2).isOut = false from rfl]; exact hq2
  have s3 : dat.share 3 = fullShare := by unfold Dat.share; rw [show ((cfg2 a).win 3).isOut = false from rfl]; exact hq3
  have s4 : dat.share 4 = fullShare := by unfold Dat.share; rw [show ((cfg2 a).win 4).isOut = true from rfl]; rfl
  rw [ub_split2, hA, bigSep_W2, s0, s1, s2, s3, s4]
  unfold Pipeline.prefHeld
  rw [two_tables2]
  simp only [arrRef2_0, arrRef2_1, arrRef2_2, arrRef2_3, arrRef2_4, preRef2_0, preRef2_1]
  constructor
  · iintro ⟨⟨H1, HW, HB, HO, HS, HD⟩, Hr⟩
    ihave H1' := (pointsTo_share (PosShare.mem_left_op_right fullShare)).1 $$ H1
    icases H1' with ⟨H1a, H1b⟩
    isplitl [H1a H1b HW HB HO]
    · isplitl [H1a]; · iexact H1a
      isplitl [H1b]; · iexact H1b
      isplitl [HW]; · iexact HW
      isplitl [HB]; · iexact HB
      iexact HO
    isplitl [HS HD]
    · isplitl [HS]; · iexact HS
      iexact HD
    iexact Hr
  · iintro ⟨⟨H1a, H1b, HW, HB, HO⟩, ⟨HS, HD⟩, Hr⟩
    ihave H1 := (pointsTo_share (PosShare.mem_left_op_right fullShare)).2 $$ [H1a H1b]
    · isplitl [H1a]; · iexact H1a
      iexact H1b
    isplitr [Hr]
    · isplitl [H1]; · iexact H1
      isplitl [HW]; · iexact HW
      isplitl [HB]; · iexact HB
      isplitl [HO]; · iexact HO
      isplitl [HS]; · iexact HS
      iexact HD
    iexact Hr

set_option maxHeartbeats 1600000 in
/-- ENTRY, everything a variable: for any proof data `dat` whose arrays are `Vd`'s contents (`hA`) and any tables `T`
    that are `Vd`'s contents (`hT`), whenever the boundary contents `Vx` agree with `Vd` at the six touched buffers, the
    unscoped buffers at `Vx` are the pipeline's arrays at their entry contents, the two tables, and the rest. -/
theorem entry2 (a : (pcfg2 (F := F)).Adm) (c : Dev nD) (dat : Dat τ (Elt F) Unit ℕ (UR sig nD τ) ℕ (cfg2 a) c)
    (hq0 : dat.q 0 = fullShare.left) (hq1 : dat.q 1 = fullShare.right) (hq2 : dat.q 2 = fullShare) (hq3 : dat.q 3 = fullShare)
    (Vd Vx : (b : Ref sig .tc) → Buf (Elt F) ((c.tc : Thread nD τ).loc b))
    (hA : ∀ w, dat.A w = Vd (Pipeline.arrRef spec2 w))
    (e_h : Vd main_v1 = Vx main_v1) (e_W : Vd main_arg3 = Vx main_arg3) (e_b : Vd main_v0 = Vx main_v0) (e_out : Vd main_v12 = Vx main_v12)
    (T : pre2.Contents (Elt F)) (hT : ∀ j, T j = Vd (pre2.ref j)) (e_src : Vd main_v10 = Vx main_v10) (e_dst : Vd main_v11 = Vx main_v11) :
    (unscopedBufs (Ix := Unit) (Name := ℕ) (U := UR sig nD τ) (Lvl := ℕ) c Vx : sProp 𝕄)
      ⊢ iprop(dat.arrays (dat.arrAt · 0)
          ∗ Pipeline.prefHeld (Ix := Unit) (Name := ℕ) (U := UR sig nD τ) (Lvl := ℕ) pre2 c (fun _ => fullShare) T ∗ rest2 c Vx) :=
  (bufs2 a c dat hq0 hq1 hq2 hq3 Vx (fun w => dat.arrAt w 0)
    (funext fun w => match w with
      | ⟨0, h⟩ => by show dat.arrAt ⟨0, h⟩ 0 = Vx main_v1; exact (hA ⟨0, h⟩).trans e_h
      | ⟨1, h⟩ => by show dat.arrAt ⟨1, h⟩ 0 = Vx main_v1; exact (hA ⟨1, h⟩).trans e_h
      | ⟨2, h⟩ => by show dat.arrAt ⟨2, h⟩ 0 = Vx main_arg3; exact (hA ⟨2, h⟩).trans e_W
      | ⟨3, h⟩ => by show dat.arrAt ⟨3, h⟩ 0 = Vx main_v0; exact (hA ⟨3, h⟩).trans e_b
      | ⟨4, h⟩ => by show dat.arrAt ⟨4, h⟩ 0 = Vx main_v12; exact (hA ⟨4, h⟩).trans e_out)
    T (funext fun j => match j with
      | ⟨0, h⟩ => by show T ⟨0, h⟩ = Vx main_v10; exact (hT ⟨0, h⟩).trans e_src
      | ⟨1, h⟩ => by show T ⟨1, h⟩ = Vx main_v11; exact (hT ⟨1, h⟩).trans e_dst)).1

set_option maxHeartbeats 1600000 in
/-- EXIT, everything a variable: the inputs' arrays end as they began, the output array at what the last write-backs
    leave (`x_out`); whenever `Vx` holds those contents at the six touched buffers, the pipeline's arrays at their final
    contents, the two tables and the rest at `Vx` are the unscoped buffers at `Vx`. -/
theorem exit2 (a : (pcfg2 (F := F)).Adm) (c : Dev nD) (dat : Dat τ (Elt F) Unit ℕ (UR sig nD τ) ℕ (cfg2 a) c) (N : Nat)
    (hq0 : dat.q 0 = fullShare.left) (hq1 : dat.q 1 = fullShare.right) (hq2 : dat.q 2 = fullShare) (hq3 : dat.q 3 = fullShare)
    (Vd Vx : (b : Ref sig .tc) → Buf (Elt F) ((c.tc : Thread nD τ).loc b))
    (hA : ∀ w, dat.A w = Vd (Pipeline.arrRef spec2 w))
    (x_h : Vd main_v1 = Vx main_v1) (x_W : Vd main_arg3 = Vx main_arg3) (x_b : Vd main_v0 = Vx main_v0) (x_out : dat.arrAt 4 N = Vx main_v12)
    (T : pre2.Contents (Elt F)) (hT : ∀ j, T j = Vd (pre2.ref j)) (x_src : Vd main_v10 = Vx main_v10) (x_dst : Vd main_v11 = Vx main_v11) :
    iprop(dat.arrays (dat.arrAt · N)
        ∗ Pipeline.prefHeld (Ix := Unit) (Name := ℕ) (U := UR sig nD τ) (Lvl := ℕ) pre2 c (fun _ => fullShare) T ∗ rest2 c Vx)
      ⊢ (unscopedBufs (Ix := Unit) (Name := ℕ) (U := UR sig nD τ) (Lvl := ℕ) c Vx : sProp 𝕄) :=
  (bufs2 a c dat hq0 hq1 hq2 hq3 Vx (fun w => dat.arrAt w N)
    (funext fun w => match w with
      | ⟨0, h⟩ => by show dat.arrAt ⟨0, h⟩ N = Vx main_v1; exact (dat.arrAt_in ⟨0, h⟩ rfl N).trans ((hA ⟨0, h⟩).trans x_h)
      | ⟨1, h⟩ => by show dat.arrAt ⟨1, h⟩ N = Vx main_v1; exact (dat.arrAt_in ⟨1, h⟩ rfl N).trans ((hA ⟨1, h⟩).trans x_h)
      | ⟨2, h⟩ => by show dat.arrAt ⟨2, h⟩ N = Vx main_arg3; exact (dat.arrAt_in ⟨2, h⟩ rfl N).trans ((hA ⟨2, h⟩).trans x_W)
      | ⟨3, h⟩ => by show dat.arrAt ⟨3, h⟩ N = Vx main_v0; exact (dat.arrAt_in ⟨3, h⟩ rfl N).trans ((hA ⟨3, h⟩).trans x_b)
      | ⟨4, h⟩ => by show dat.arrAt ⟨4, h⟩ N = Vx main_v12; exact x_out)
    T (funext fun j => match j with
      | ⟨0, h⟩ => by show T ⟨0, h⟩ = Vx main_v10; exact (hT ⟨0, h⟩).trans x_src
      | ⟨1, h⟩ => by show T ⟨1, h⟩ = Vx main_v11; exact (hT ⟨1, h⟩).trans x_dst)).2

variable (m : (ℓ : Loc nD τ sig) → Buf (Elt F) ℓ) (hO : Oks m)

/-! ## What the region finds and leaves, buffer by buffer -/

include hO

theorem fin2_h (c : Dev nD) : Ve2 m c main_v1 = V5 m (outsR m hO) c main_v1 := by first | exact indep2_h m (outsL m) (outsR m hO) c | rfl
theorem fin2_W (c : Dev nD) : Ve2 m c main_arg3 = V5 m (outsR m hO) c main_arg3 := by first | exact indep2_W m (outsL m) (outsR m hO) c | rfl
theorem fin2_b (c : Dev nD) : Ve2 m c main_v0 = V5 m (outsR m hO) c main_v0 := by first | exact indep2_b m (outsL m) (outsR m hO) c | rfl
theorem fin2_out (c : Dev nD) : Ve2 m c main_v12 = V5 m (outsR m hO) c main_v12 := by first | exact indep2_out m (outsL m) (outsR m hO) c | rfl
theorem fin2_src (c : Dev nD) : Ve2 m c main_v10 = V5 m (outsR m hO) c main_v10 := by first | exact indep2_src m (outsL m) (outsR m hO) c | rfl
theorem fin2_dst (c : Dev nD) : Ve2 m c main_v11 = V5 m (outsR m hO) c main_v11 := by first | exact indep2_dst m (outsL m) (outsR m hO) c | rfl

/-- What the region leaves in the buffers it touches: the inputs and the tables as they were, the output array at the
    region's chunk. -/
theorem lv2_h (c : Dev nD) : V6 m (outsR m hO) c main_v1 = V5 m (outsR m hO) c main_v1 := V6_of m (outsR m hO) c main_v1 (by decide)
theorem lv2_W (c : Dev nD) : V6 m (outsR m hO) c main_arg3 = V5 m (outsR m hO) c main_arg3 := V6_of m (outsR m hO) c main_arg3 (by decide)
theorem lv2_b (c : Dev nD) : V6 m (outsR m hO) c main_v0 = V5 m (outsR m hO) c main_v0 := V6_of m (outsR m hO) c main_v0 (by decide)
theorem lv2_src (c : Dev nD) : V6 m (outsR m hO) c main_v10 = V5 m (outsR m hO) c main_v10 := V6_of m (outsR m hO) c main_v10 (by decide)
theorem lv2_dst (c : Dev nD) : V6 m (outsR m hO) c main_v11 = V5 m (outsR m hO) c main_v11 := V6_of m (outsR m hO) c main_v11 (by decide)
theorem lv2_out (c : Dev nD) : V6 m (outsR m hO) c main_v12 = chunk2 m hO c :=
  (Function.update_self _ _ _).trans (outsR_2 m hO c)

/-- The buffers the region does not touch pass it by unchanged. -/
theorem rest2_eq (c : Dev nD) : (rest2 c (fun b => V5 m (outsR m hO) c b) : sProp 𝕄) = rest2 c (fun b => V6 m (outsR m hO) c b) := by
  unfold rest2
  exact BI.bigSep_congr fun b hb => by
    dsimp only
    rw [V6_of m (outsR m hO) c b (fun h => (Finset.mem_sdiff.mp hb).2 (by rw [List.mem_singleton.mp h]; decide))]

set_option maxHeartbeats 1600000 in
set_option backward.isDefEq.respectTransparency.types false in
/-- REGION 0 over the boundary states. -/
def reg2 : Pipeline.RegionSeg (pcfgs (F := F)) (adm m hO) (pdats m hO) () defs₀ 𝒱₀ L lv (2 : Fin 16) where
  win := winFacts₀2
  block_pos := block_pos2
  stage_whole := stage_whole2
  K := PEmpty
  osem k := k.elim
  ho := Pipeline.OwnSemFacts.none _
  hbody c := (body_obligation2 (Ve2 m) ⟨tbl2 m, hO.h2⟩ c).loose
  hwaits := Pipeline.hwaits_of_owed_zero _ _ _ _ L lv (2 : Fin 16) fun _ _ => rfl
  pre c := iprop(StableHlo.held (c : Thread nD τ) (Pipeline.ucRefs τ sig) (V5 m (outsR m hO) c) ∗ Rst c)
  post c := iprop(StableHlo.held (c : Thread nD τ) (Pipeline.ucRefs τ sig) (V6 m (outsR m hO) c) ∗ Rst c)
  X c := iprop(∃ r, prngReg c r)
  Y c := iprop((∃ r, prngReg c r) ∗ Pipeline.prefHeld (Ix := Unit) (Name := ℕ) (U := UR sig nD τ) (Lvl := ℕ) pre2 c (fun _ => fullShare) (tbl2 m))
  Z c := rest2 c (fun b => V5 m (outsR m hO) c b)
  hentry c := by
    obtain rfl : c = 0 := Subsingleton.elim _ _
    have hb := entry2 (adm m hO (2 : Fin 16)) 0 (pdats m hO (2 : Fin 16) 0) rfl rfl rfl rfl (Ve2 m 0) (fun b => V5 m (outsR m hO) 0 b) (fun w => rfl)
      (fin2_h m hO 0) (fin2_W m hO 0) (fin2_b m hO 0) (fin2_out m hO 0) (tbl2 m) (fun j => rfl) (fin2_src m hO 0) (fin2_dst m hO 0)
    rw [Pipeline.unscopedBufs_held] at hb
    iintro ⟨⟨Hub, Hp, HO⟩, -, -⟩
    ihave H := hb $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO (2 : Fin 16) c).Φ 0 = iprop(Pipeline.ΦA spec2 c ∗ Pipeline.prefHeld (Ix := Unit) (Name := ℕ) (U := UR sig nD τ) (Lvl := ℕ) pre2 c (fun _ => fullShare) (tbl2 m)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m hO (2 : Fin 16) c).Φ (Fin.last _) = iprop(Pipeline.ΦA spec2 c ∗ Pipeline.prefHeld (Ix := Unit) (Name := ℕ) (U := UR sig nD τ) (Lvl := ℕ) pre2 c (fun _ => fullShare) (tbl2 m)) from rfl]
    unfold Pipeline.ΦA
    iintro ⟨⟨Hr, Hp⟩, Ht⟩
    isplitl [Hp Ht]
    · isplitl [Hp]; · iexact Hp
      iexact Ht
    isplitr; · iempintro
    iexact Hr
  hexit c := by
    obtain rfl : c = 0 := Subsingleton.elim _ _
    have hb := exit2 (adm m hO (2 : Fin 16)) 0 (pdats m hO (2 : Fin 16) 0) (Pipeline.pin (pcfgs (F := F)) (adm m hO) (2 : Fin 16)).N rfl rfl rfl rfl
      (Ve2 m 0) (fun b => V6 m (outsR m hO) 0 b) (fun w => rfl)
      ((fin2_h m hO 0).trans (lv2_h m hO 0).symm) ((fin2_W m hO 0).trans (lv2_W m hO 0).symm) ((fin2_b m hO 0).trans (lv2_b m hO 0).symm)
      (lv2_out m hO 0).symm (tbl2 m) (fun j => rfl) ((fin2_src m hO 0).trans (lv2_src m hO 0).symm) ((fin2_dst m hO 0).trans (lv2_dst m hO 0).symm)
    rw [Pipeline.unscopedBufs_held, ← rest2_eq m hO 0] at hb
    iintro ⟨Ha, HO, ⟨Hp, Ht⟩, Hrest⟩
    imodintro
    isplitl [Ha Ht Hrest]
    · iapply hb
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Cert.Kernel.Hand

end
-- ==== Proof.KReg3.lean ====
/-
  Region 3 of the edge scorer as a segment of the program's run.

  The region is entered with every unscoped buffer held whole at the contents the host operations before it leave,
  beside the generator register and nothing owed. Of those buffers the pipeline takes the four arrays its five windows
  read and write — the feature rows (read by two windows, each at one half of the full share), the weights, the
  bias and the output chunk — and the two index tables; the other unscoped buffers bypass the region. At the exit the
  feature rows' two halves rejoin, the inputs are as they were, the output array holds the region's chunk, and
  the whole is the next boundary's contents.
-/
import proofs.«405368_j31662498906597_2_alg».proof.Proof.KFamily
import proofs.«405368_j31662498906597_2_alg».proof.Proof.KHostEntry
import proofs.«405368_j31662498906597_2_alg».proof.Proof.KHostEntryGen
import Idealize.ShloMosaic.Lib.Pipeline.RegionsLoop

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The six unscoped buffers region 3 touches: the feature rows, the weights, the bias, its output chunk and its two
    index tables. -/
abbrev arrs3 : Finset (Ref sig .tc) := insert main_v1 (insert main_arg3 (insert main_v0 (insert main_v16 (insert main_v14 {main_v15}))))

theorem arrs3_sub : arrs3 ⊆ Finset.univ.filter fun b : Ref sig .tc => ¬ b.isScoped := by decide

/-- The unscoped buffers region 3 does not touch, held whole at `V`. -/
def rest3 (c : Dev nD) (V : (b : Ref sig .tc) → Buf (Elt F) ((c.tc : Thread nD τ).loc b)) : sProp 𝕄 :=
  bigSep ((Finset.univ.filter fun b : Ref sig .tc => ¬ b.isScoped) \ arrs3) fun b => ((c.tc : Thread nD τ).loc b) ↦{fullShare} V b

/-- The six touched buffers one by one, and the rest. -/
theorem ub_split3 (c : Dev nD) (V : (b : Ref sig .tc) → Buf (Elt F) ((c.tc : Thread nD τ).loc b)) :
    (unscopedBufs (Ix := Unit) (Name := ℕ) (U := UR sig nD τ) (Lvl := ℕ) c V : sProp 𝕄)
      = iprop(iprop((((c.tc : Thread nD τ).loc main_v1) ↦{fullShare} V main_v1) ∗ (((c.tc : Thread nD τ).loc main_arg3) ↦{fullShare} V main_arg3)
          ∗ (((c.tc : Thread nD τ).loc main_v0) ↦{fullShare} V main_v0) ∗ (((c.tc : Thread nD τ).loc main_v16) ↦{fullShare} V main_v16)
          ∗ (((c.tc : Thread nD τ).loc main_v14) ↦{fullShare} V main_v14) ∗ (((c.tc : Thread nD τ).loc main_v15) ↦{fullShare} V main_v15)) ∗ rest3 c V) := by
  unfold unscopedBufs rest3
  rw [BI.bigSep_sdiff_split arrs3_sub]
  refine congrArg (fun X => iprop(X ∗ _)) ?_
  show bigSep (insert main_v1 (insert main_arg3 (insert main_v0 (insert main_v16 (insert main_v14 {main_v15}))))) _ = _
  rw [BI.bigSep_insert (by decide), BI.bigSep_insert (by decide), BI.bigSep_insert (by decide), BI.bigSep_insert (by decide),
    BI.bigSep_insert (by decide), BI.bigSep_singleton]
  rfl

/-- A product over two tables, written out. -/
theorem two_tables3 (Φ : Fin 2 → sProp 𝕄) : bigSep Finset.univ Φ = iprop(Φ 0 ∗ Φ 1) := BI.bigSep_fin_two Φ

/-- The five windows' arrays and the two tables, by name. -/
theorem arrRef3_0 : Pipeline.arrRef spec3 (0 : Fin 5) = main_v1 := rfl
theorem arrRef3_1 : Pipeline.arrRef spec3 (1 : Fin 5) = main_v1 := rfl
theorem arrRef3_2 : Pipeline.arrRef spec3 (2 : Fin 5) = main_arg3 := rfl
theorem arrRef3_3 : Pipeline.arrRef spec3 (3 : Fin 5) = main_v0 := rfl
theorem arrRef3_4 : Pipeline.arrRef spec3 (4 : Fin 5) = main_v16 := rfl
theorem preRef3_0 : pre3.ref (0 : Fin 2) = main_v14 := rfl
theorem preRef3_1 : pre3.ref (1 : Fin 2) = main_v15 := rfl

set_option maxHeartbeats 1600000 in
/-- A core's unscoped buffers held whole at `V` ARE the pipeline's arrays at `V`'s contents of them (the feature rows'
    full share dealt as its two halves to the two windows that read them), the two tables at `V`'s contents of
    them, and the rest. Both directions: the region's entry and its exit. -/
theorem bufs3 (a : (pcfg3 (F := F)).Adm) (c : Dev nD) (dat : Dat τ (Elt F) Unit ℕ (UR sig nD τ) ℕ (cfg3 a) c)
    (hq0 : dat.q 0 = fullShare.left) (hq1 : dat.q 1 = fullShare.right) (hq2 : dat.q 2 = fullShare) (hq3 : dat.q 3 = fullShare)
    (V : (b : Ref sig .tc) → Buf (Elt F) ((c.tc : Thread nD τ).loc b))
    (G : (w : Fin (cfg3 a).W) → Buf (Elt F) (((cfg3 a).win w).arr.view.loc (c.tc : Thread nD τ)))
    (hG : G = fun w => V (Pipeline.arrRef spec3 w))
    (T : pre3.Contents (Elt F)) (hT : T = fun k => V (pre3.ref k)) :
    (unscopedBufs (Ix := Unit) (Name := ℕ) (U := UR sig nD τ) (Lvl := ℕ) c V : sProp 𝕄)
      ⊣⊢ iprop(dat.arrays G ∗ Pipeline.prefHeld (Ix := Unit) (Name := ℕ) (U := UR sig nD τ) (Lvl := ℕ) pre3 c (fun _ => fullShare) T ∗ rest3 c V) := by
  subst hG hT
  have harr : ∀ w, (((cfg3 a).spec w).arr).IsWhole := arr_whole3
  have hA : dat.arrays (fun w => V (Pipeline.arrRef spec3 w))
      = bigSep Finset.univ fun w : Fin 5 => (((c.tc : Thread nD τ).loc (Pipeline.arrRef spec3 w)) ↦{dat.share w} V (Pipeline.arrRef spec3 w) : sProp 𝕄) := by
    unfold Dat.arrays
    exact BI.bigSep_congr fun w _ => by rw [(harr w).set_eq_univ]
  have s0 : dat.share 0 = fullShare.left := by unfold Dat.share; rw [show ((cfg3 a).win 0).isOut = false from rfl]; exact hq0
  have s1 : dat.share 1 = fullShare.right := by unfold Dat.share; rw [show ((cfg3 a).win 1).isOut = false from rfl]; exact hq1
  have s2 : dat.share 2 = fullShare := by unfold Dat.share; rw [show ((cfg3 a).win 2).isOut = false from rfl]; exact hq2
  have s3 : dat.share 3 = fullShare := by unfold Dat.share; rw [show ((cfg3 a).win 3).isOut = false from rfl]; exact hq3
  have s4 : dat.share 4 = fullShare := by unfold Dat.share; rw [show ((cfg3 a).win 4).isOut = true from rfl]; rfl
  rw [ub_split3, hA, bigSep_W3, s0, s1, s2, s3, s4]
  unfold Pipeline.prefHeld
  rw [two_tables3]
  simp only [arrRef3_0, arrRef3_1, arrRef3_2, arrRef3_3, arrRef3_4, preRef3_0, preRef3_1]
  constructor
  · iintro ⟨⟨H1, HW, HB, HO, HS, HD⟩, Hr⟩
    ihave H1' := (pointsTo_share (PosShare.mem_left_op_right fullShare)).1 $$ H1
    icases H1' with ⟨H1a, H1b⟩
    isplitl [H1a H1b HW HB HO]
    · isplitl [H1a]; · iexact H1a
      isplitl [H1b]; · iexact H1b
      isplitl [HW]; · iexact HW
      isplitl [HB]; · iexact HB
      iexact HO
    isplitl [HS HD]
    · isplitl [HS]; · iexact HS
      iexact HD
    iexact Hr
  · iintro ⟨⟨H1a, H1b, HW, HB, HO⟩, ⟨HS, HD⟩, Hr⟩
    ihave H1 := (pointsTo_share (PosShare.mem_left_op_right fullShare)).2 $$ [H1a H1b]
    · isplitl [H1a]; · iexact H1a
      iexact H1b
    isplitr [Hr]
    · isplitl [H1]; · iexact H1
      isplitl [HW]; · iexact HW
      isplitl [HB]; · iexact HB
      isplitl [HO]; · iexact HO
      isplitl [HS]; · iexact HS
      iexact HD
    iexact Hr

set_option maxHeartbeats 1600000 in
/-- ENTRY, everything a variable: for any proof data `dat` whose arrays are `Vd`'s contents (`hA`) and any tables `T`
    that are `Vd`'s contents (`hT`), whenever the boundary contents `Vx` agree with `Vd` at the six touched buffers, the
    unscoped buffers at `Vx` are the pipeline's arrays at their entry contents, the two tables, and the rest. -/
theorem entry3 (a : (pcfg3 (F := F)).Adm) (c : Dev nD) (dat : Dat τ (Elt F) Unit ℕ (UR sig nD τ) ℕ (cfg3 a) c)
    (hq0 : dat.q 0 = fullShare.left) (hq1 : dat.q 1 = fullShare.right) (hq2 : dat.q 2 = fullShare) (hq3 : dat.q 3 = fullShare)
    (Vd Vx : (b : Ref sig .tc) → Buf (Elt F) ((c.tc : Thread nD τ).loc b))
    (hA : ∀ w, dat.A w = Vd (Pipeline.arrRef spec3 w))
    (e_h : Vd main_v1 = Vx main_v1) (e_W : Vd main_arg3 = Vx main_arg3) (e_b : Vd main_v0 = Vx main_v0) (e_out : Vd main_v16 = Vx main_v16)
    (T : pre3.Contents (Elt F)) (hT : ∀ j, T j = Vd (pre3.ref j)) (e_src : Vd main_v14 = Vx main_v14) (e_dst : Vd main_v15 = Vx main_v15) :
    (unscopedBufs (Ix := Unit) (Name := ℕ) (U := UR sig nD τ) (Lvl := ℕ) c Vx : sProp 𝕄)
      ⊢ iprop(dat.arrays (dat.arrAt · 0)
          ∗ Pipeline.prefHeld (Ix := Unit) (Name := ℕ) (U := UR sig nD τ) (Lvl := ℕ) pre3 c (fun _ => fullShare) T ∗ rest3 c Vx) :=
  (bufs3 a c dat hq0 hq1 hq2 hq3 Vx (fun w => dat.arrAt w 0)
    (funext fun w => match w with
      | ⟨0, h⟩ => by show dat.arrAt ⟨0, h⟩ 0 = Vx main_v1; exact (hA ⟨0, h⟩).trans e_h
      | ⟨1, h⟩ => by show dat.arrAt ⟨1, h⟩ 0 = Vx main_v1; exact (hA ⟨1, h⟩).trans e_h
      | ⟨2, h⟩ => by show dat.arrAt ⟨2, h⟩ 0 = Vx main_arg3; exact (hA ⟨2, h⟩).trans e_W
      | ⟨3, h⟩ => by show dat.arrAt ⟨3, h⟩ 0 = Vx main_v0; exact (hA ⟨3, h⟩).trans e_b
      | ⟨4, h⟩ => by show dat.arrAt ⟨4, h⟩ 0 = Vx main_v16; exact (hA ⟨4, h⟩).trans e_out)
    T (funext fun j => match j with
      | ⟨0, h⟩ => by show T ⟨0, h⟩ = Vx main_v14; exact (hT ⟨0, h⟩).trans e_src
      | ⟨1, h⟩ => by show T ⟨1, h⟩ = Vx main_v15; exact (hT ⟨1, h⟩).trans e_dst)).1

set_option maxHeartbeats 1600000 in
/-- EXIT, everything a variable: the inputs' arrays end as they began, the output array at what the last write-backs
    leave (`x_out`); whenever `Vx` holds those contents at the six touched buffers, the pipeline's arrays at their final
    contents, the two tables and the rest at `Vx` are the unscoped buffers at `Vx`. -/
theorem exit3 (a : (pcfg3 (F := F)).Adm) (c : Dev nD) (dat : Dat τ (Elt F) Unit ℕ (UR sig nD τ) ℕ (cfg3 a) c) (N : Nat)
    (hq0 : dat.q 0 = fullShare.left) (hq1 : dat.q 1 = fullShare.right) (hq2 : dat.q 2 = fullShare) (hq3 : dat.q 3 = fullShare)
    (Vd Vx : (b : Ref sig .tc) → Buf (Elt F) ((c.tc : Thread nD τ).loc b))
    (hA : ∀ w, dat.A w = Vd (Pipeline.arrRef spec3 w))
    (x_h : Vd main_v1 = Vx main_v1) (x_W : Vd main_arg3 = Vx main_arg3) (x_b : Vd main_v0 = Vx main_v0) (x_out : dat.arrAt 4 N = Vx main_v16)
    (T : pre3.Contents (Elt F)) (hT : ∀ j, T j = Vd (pre3.ref j)) (x_src : Vd main_v14 = Vx main_v14) (x_dst : Vd main_v15 = Vx main_v15) :
    iprop(dat.arrays (dat.arrAt · N)
        ∗ Pipeline.prefHeld (Ix := Unit) (Name := ℕ) (U := UR sig nD τ) (Lvl := ℕ) pre3 c (fun _ => fullShare) T ∗ rest3 c Vx)
      ⊢ (unscopedBufs (Ix := Unit) (Name := ℕ) (U := UR sig nD τ) (Lvl := ℕ) c Vx : sProp 𝕄) :=
  (bufs3 a c dat hq0 hq1 hq2 hq3 Vx (fun w => dat.arrAt w N)
    (funext fun w => match w with
      | ⟨0, h⟩ => by show dat.arrAt ⟨0, h⟩ N = Vx main_v1; exact (dat.arrAt_in ⟨0, h⟩ rfl N).trans ((hA ⟨0, h⟩).trans x_h)
      | ⟨1, h⟩ => by show dat.arrAt ⟨1, h⟩ N = Vx main_v1; exact (dat.arrAt_in ⟨1, h⟩ rfl N).trans ((hA ⟨1, h⟩).trans x_h)
      | ⟨2, h⟩ => by show dat.arrAt ⟨2, h⟩ N = Vx main_arg3; exact (dat.arrAt_in ⟨2, h⟩ rfl N).trans ((hA ⟨2, h⟩).trans x_W)
      | ⟨3, h⟩ => by show dat.arrAt ⟨3, h⟩ N = Vx main_v0; exact (dat.arrAt_in ⟨3, h⟩ rfl N).trans ((hA ⟨3, h⟩).trans x_b)
      | ⟨4, h⟩ => by show dat.arrAt ⟨4, h⟩ N = Vx main_v16; exact x_out)
    T (funext fun j => match j with
      | ⟨0, h⟩ => by show T ⟨0, h⟩ = Vx main_v14; exact (hT ⟨0, h⟩).trans x_src
      | ⟨1, h⟩ => by show T ⟨1, h⟩ = Vx main_v15; exact (hT ⟨1, h⟩).trans x_dst)).2

variable (m : (ℓ : Loc nD τ sig) → Buf (Elt F) ℓ) (hO : Oks m)

/-! ## What the region finds and leaves, buffer by buffer -/

include hO

theorem fin3_h (c : Dev nD) : Ve3 m c main_v1 = V7 m (outsR m hO) c main_v1 := by first | exact indep3_h m (outsL m) (outsR m hO) c | rfl
theorem fin3_W (c : Dev nD) : Ve3 m c main_arg3 = V7 m (outsR m hO) c main_arg3 := by first | exact indep3_W m (outsL m) (outsR m hO) c | rfl
theorem fin3_b (c : Dev nD) : Ve3 m c main_v0 = V7 m (outsR m hO) c main_v0 := by first | exact indep3_b m (outsL m) (outsR m hO) c | rfl
theorem fin3_out (c : Dev nD) : Ve3 m c main_v16 = V7 m (outsR m hO) c main_v16 := by first | exact indep3_out m (outsL m) (outsR m hO) c | rfl
theorem fin3_src (c : Dev nD) : Ve3 m c main_v14 = V7 m (outsR m hO) c main_v14 := by first | exact indep3_src m (outsL m) (outsR m hO) c | rfl
theorem fin3_dst (c : Dev nD) : Ve3 m c main_v15 = V7 m (outsR m hO) c main_v15 := by first | exact indep3_dst m (outsL m) (outsR m hO) c | rfl

/-- What the region leaves in the buffers it touches: the inputs and the tables as they were, the output array at the
    region's chunk. -/
theorem lv3_h (c : Dev nD) : V8 m (outsR m hO) c main_v1 = V7 m (outsR m hO) c main_v1 := V8_of m (outsR m hO) c main_v1 (by decide)
theorem lv3_W (c : Dev nD) : V8 m (outsR m hO) c main_arg3 = V7 m (outsR m hO) c main_arg3 := V8_of m (outsR m hO) c main_arg3 (by decide)
theorem lv3_b (c : Dev nD) : V8 m (outsR m hO) c main_v0 = V7 m (outsR m hO) c main_v0 := V8_of m (outsR m hO) c main_v0 (by decide)
theorem lv3_src (c : Dev nD) : V8 m (outsR m hO) c main_v14 = V7 m (outsR m hO) c main_v14 := V8_of m (outsR m hO) c main_v14 (by decide)
theorem lv3_dst (c : Dev nD) : V8 m (outsR m hO) c main_v15 = V7 m (outsR m hO) c main_v15 := V8_of m (outsR m hO) c main_v15 (by decide)
theorem lv3_out (c : Dev nD) : V8 m (outsR m hO) c main_v16 = chunk3 m hO c :=
  (Function.update_self _ _ _).trans (outsR_3 m hO c)

/-- The buffers the region does not touch pass it by unchanged. -/
theorem rest3_eq (c : Dev nD) : (rest3 c (fun b => V7 m (outsR m hO) c b) : sProp 𝕄) = rest3 c (fun b => V8 m (outsR m hO) c b) := by
  unfold rest3
  exact BI.bigSep_congr fun b hb => by
    dsimp only
    rw [V8_of m (outsR m hO) c b (fun h => (Finset.mem_sdiff.mp hb).2 (by rw [List.mem_singleton.mp h]; decide))]

set_option maxHeartbeats 1600000 in
set_option backward.isDefEq.respectTransparency.types false in
/-- REGION 0 over the boundary states. -/
def reg3 : Pipeline.RegionSeg (pcfgs (F := F)) (adm m hO) (pdats m hO) () defs₀ 𝒱₀ L lv (3 : Fin 16) where
  win := winFacts₀3
  block_pos := block_pos3
  stage_whole := stage_whole3
  K := PEmpty
  osem k := k.elim
  ho := Pipeline.OwnSemFacts.none _
  hbody c := (body_obligation3 (Ve3 m) ⟨tbl3 m, hO.h3⟩ c).loose
  hwaits := Pipeline.hwaits_of_owed_zero _ _ _ _ L lv (3 : Fin 16) fun _ _ => rfl
  pre c := iprop(StableHlo.held (c : Thread nD τ) (Pipeline.ucRefs τ sig) (V7 m (outsR m hO) c) ∗ Rst c)
  post c := iprop(StableHlo.held (c : Thread nD τ) (Pipeline.ucRefs τ sig) (V8 m (outsR m hO) c) ∗ Rst c)
  X c := iprop(∃ r, prngReg c r)
  Y c := iprop((∃ r, prngReg c r) ∗ Pipeline.prefHeld (Ix := Unit) (Name := ℕ) (U := UR sig nD τ) (Lvl := ℕ) pre3 c (fun _ => fullShare) (tbl3 m))
  Z c := rest3 c (fun b => V7 m (outsR m hO) c b)
  hentry c := by
    obtain rfl : c = 0 := Subsingleton.elim _ _
    have hb := entry3 (adm m hO (3 : Fin 16)) 0 (pdats m hO (3 : Fin 16) 0) rfl rfl rfl rfl (Ve3 m 0) (fun b => V7 m (outsR m hO) 0 b) (fun w => rfl)
      (fin3_h m hO 0) (fin3_W m hO 0) (fin3_b m hO 0) (fin3_out m hO 0) (tbl3 m) (fun j => rfl) (fin3_src m hO 0) (fin3_dst m hO 0)
    rw [Pipeline.unscopedBufs_held] at hb
    iintro ⟨⟨Hub, Hp, HO⟩, -, -⟩
    ihave H := hb $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO (3 : Fin 16) c).Φ 0 = iprop(Pipeline.ΦA spec3 c ∗ Pipeline.prefHeld (Ix := Unit) (Name := ℕ) (U := UR sig nD τ) (Lvl := ℕ) pre3 c (fun _ => fullShare) (tbl3 m)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m hO (3 : Fin 16) c).Φ (Fin.last _) = iprop(Pipeline.ΦA spec3 c ∗ Pipeline.prefHeld (Ix := Unit) (Name := ℕ) (U := UR sig nD τ) (Lvl := ℕ) pre3 c (fun _ => fullShare) (tbl3 m)) from rfl]
    unfold Pipeline.ΦA
    iintro ⟨⟨Hr, Hp⟩, Ht⟩
    isplitl [Hp Ht]
    · isplitl [Hp]; · iexact Hp
      iexact Ht
    isplitr; · iempintro
    iexact Hr
  hexit c := by
    obtain rfl : c = 0 := Subsingleton.elim _ _
    have hb := exit3 (adm m hO (3 : Fin 16)) 0 (pdats m hO (3 : Fin 16) 0) (Pipeline.pin (pcfgs (F := F)) (adm m hO) (3 : Fin 16)).N rfl rfl rfl rfl
      (Ve3 m 0) (fun b => V8 m (outsR m hO) 0 b) (fun w => rfl)
      ((fin3_h m hO 0).trans (lv3_h m hO 0).symm) ((fin3_W m hO 0).trans (lv3_W m hO 0).symm) ((fin3_b m hO 0).trans (lv3_b m hO 0).symm)
      (lv3_out m hO 0).symm (tbl3 m) (fun j => rfl) ((fin3_src m hO 0).trans (lv3_src m hO 0).symm) ((fin3_dst m hO 0).trans (lv3_dst m hO 0).symm)
    rw [Pipeline.unscopedBufs_held, ← rest3_eq m hO 0] at hb
    iintro ⟨Ha, HO, ⟨Hp, Ht⟩, Hrest⟩
    imodintro
    isplitl [Ha Ht Hrest]
    · iapply hb
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Cert.Kernel.Hand

end
-- ==== Proof.KReg4.lean ====
/-
  Region 4 of the edge scorer as a segment of the program's run.

  The region is entered with every unscoped buffer held whole at the contents the host operations before it leave,
  beside the generator register and nothing owed. Of those buffers the pipeline takes the four arrays its five windows
  read and write — the feature rows (read by two windows, each at one half of the full share), the weights, the
  bias and the output chunk — and the two index tables; the other unscoped buffers bypass the region. At the exit the
  feature rows' two halves rejoin, the inputs are as they were, the output array holds the region's chunk, and
  the whole is the next boundary's contents.
-/
import proofs.«405368_j31662498906597_2_alg».proof.Proof.KFamily
import proofs.«405368_j31662498906597_2_alg».proof.Proof.KHostEntry
import proofs.«405368_j31662498906597_2_alg».proof.Proof.KHostEntryGen
import Idealize.ShloMosaic.Lib.Pipeline.RegionsLoop

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The six unscoped buffers region 4 touches: the feature rows, the weights, the bias, its output chunk and its two
    index tables. -/
abbrev arrs4 : Finset (Ref sig .tc) := insert main_v1 (insert main_arg3 (insert main_v0 (insert main_v20 (insert main_v18 {main_v19}))))

theorem arrs4_sub : arrs4 ⊆ Finset.univ.filter fun b : Ref sig .tc => ¬ b.isScoped := by decide

/-- The unscoped buffers region 4 does not touch, held whole at `V`. -/
def rest4 (c : Dev nD) (V : (b : Ref sig .tc) → Buf (Elt F) ((c.tc : Thread nD τ).loc b)) : sProp 𝕄 :=
  bigSep ((Finset.univ.filter fun b : Ref sig .tc => ¬ b.isScoped) \ arrs4) fun b => ((c.tc : Thread nD τ).loc b) ↦{fullShare} V b

/-- The six touched buffers one by one, and the rest. -/
theorem ub_split4 (c : Dev nD) (V : (b : Ref sig .tc) → Buf (Elt F) ((c.tc : Thread nD τ).loc b)) :
    (unscopedBufs (Ix := Unit) (Name := ℕ) (U := UR sig nD τ) (Lvl := ℕ) c V : sProp 𝕄)
      = iprop(iprop((((c.tc : Thread nD τ).loc main_v1) ↦{fullShare} V main_v1) ∗ (((c.tc : Thread nD τ).loc main_arg3) ↦{fullShare} V main_arg3)
          ∗ (((c.tc : Thread nD τ).loc main_v0) ↦{fullShare} V main_v0) ∗ (((c.tc : Thread nD τ).loc main_v20) ↦{fullShare} V main_v20)
          ∗ (((c.tc : Thread nD τ).loc main_v18) ↦{fullShare} V main_v18) ∗ (((c.tc : Thread nD τ).loc main_v19) ↦{fullShare} V main_v19)) ∗ rest4 c V) := by
  unfold unscopedBufs rest4
  rw [BI.bigSep_sdiff_split arrs4_sub]
  refine congrArg (fun X => iprop(X ∗ _)) ?_
  show bigSep (insert main_v1 (insert main_arg3 (insert main_v0 (insert main_v20 (insert main_v18 {main_v19}))))) _ = _
  rw [BI.bigSep_insert (by decide), BI.bigSep_insert (by decide), BI.bigSep_insert (by decide), BI.bigSep_insert (by decide),
    BI.bigSep_insert (by decide), BI.bigSep_singleton]
  rfl

/-- A product over two tables, written out. -/
theorem two_tables4 (Φ : Fin 2 → sProp 𝕄) : bigSep Finset.univ Φ = iprop(Φ 0 ∗ Φ 1) := BI.bigSep_fin_two Φ

/-- The five windows' arrays and the two tables, by name. -/
theorem arrRef4_0 : Pipeline.arrRef spec4 (0 : Fin 5) = main_v1 := rfl
theorem arrRef4_1 : Pipeline.arrRef spec4 (1 : Fin 5) = main_v1 := rfl
theorem arrRef4_2 : Pipeline.arrRef spec4 (2 : Fin 5) = main_arg3 := rfl
theorem arrRef4_3 : Pipeline.arrRef spec4 (3 : Fin 5) = main_v0 := rfl
theorem arrRef4_4 : Pipeline.arrRef spec4 (4 : Fin 5) = main_v20 := rfl
theorem preRef4_0 : pre4.ref (0 : Fin 2) = main_v18 := rfl
theorem preRef4_1 : pre4.ref (1 : Fin 2) = main_v19 := rfl

set_option maxHeartbeats 1600000 in
/-- A core's unscoped buffers held whole at `V` ARE the pipeline's arrays at `V`'s contents of them (the feature rows'
    full share dealt as its two halves to the two windows that read them), the two tables at `V`'s contents of
    them, and the rest. Both directions: the region's entry and its exit. -/
theorem bufs4 (a : (pcfg4 (F := F)).Adm) (c : Dev nD) (dat : Dat τ (Elt F) Unit ℕ (UR sig nD τ) ℕ (cfg4 a) c)
    (hq0 : dat.q 0 = fullShare.left) (hq1 : dat.q 1 = fullShare.right) (hq2 : dat.q 2 = fullShare) (hq3 : dat.q 3 = fullShare)
    (V : (b : Ref sig .tc) → Buf (Elt F) ((c.tc : Thread nD τ).loc b))
    (G : (w : Fin (cfg4 a).W) → Buf (Elt F) (((cfg4 a).win w).arr.view.loc (c.tc : Thread nD τ)))
    (hG : G = fun w => V (Pipeline.arrRef spec4 w))
    (T : pre4.Contents (Elt F)) (hT : T = fun k => V (pre4.ref k)) :
    (unscopedBufs (Ix := Unit) (Name := ℕ) (U := UR sig nD τ) (Lvl := ℕ) c V : sProp 𝕄)
      ⊣⊢ iprop(dat.arrays G ∗ Pipeline.prefHeld (Ix := Unit) (Name := ℕ) (U := UR sig nD τ) (Lvl := ℕ) pre4 c (fun _ => fullShare) T ∗ rest4 c V) := by
  subst hG hT
  have harr : ∀ w, (((cfg4 a).spec w).arr).IsWhole := arr_whole4
  have hA : dat.arrays (fun w => V (Pipeline.arrRef spec4 w))
      = bigSep Finset.univ fun w : Fin 5 => (((c.tc : Thread nD τ).loc (Pipeline.arrRef spec4 w)) ↦{dat.share w} V (Pipeline.arrRef spec4 w) : sProp 𝕄) := by
    unfold Dat.arrays
    exact BI.bigSep_congr fun w _ => by rw [(harr w).set_eq_univ]
  have s0 : dat.share 0 = fullShare.left := by unfold Dat.share; rw [show ((cfg4 a).win 0).isOut = false from rfl]; exact hq0
  have s1 : dat.share 1 = fullShare.right := by unfold Dat.share; rw [show ((cfg4 a).win 1).isOut = false from rfl]; exact hq1
  have s2 : dat.share 2 = fullShare := by unfold Dat.share; rw [show ((cfg4 a).win 2).isOut = false from rfl]; exact hq2
  have s3 : dat.share 3 = fullShare := by unfold Dat.share; rw [show ((cfg4 a).win 3).isOut = false from rfl]; exact hq3
  have s4 : dat.share 4 = fullShare := by unfold Dat.share; rw [show ((cfg4 a).win 4).isOut = true from rfl]; rfl
  rw [ub_split4, hA, bigSep_W4, s0, s1, s2, s3, s4]
  unfold Pipeline.prefHeld
  rw [two_tables4]
  simp only [arrRef4_0, arrRef4_1, arrRef4_2, arrRef4_3, arrRef4_4, preRef4_0, preRef4_1]
  constructor
  · iintro ⟨⟨H1, HW, HB, HO, HS, HD⟩, Hr⟩
    ihave H1' := (pointsTo_share (PosShare.mem_left_op_right fullShare)).1 $$ H1
    icases H1' with ⟨H1a, H1b⟩
    isplitl [H1a H1b HW HB HO]
    · isplitl [H1a]; · iexact H1a
      isplitl [H1b]; · iexact H1b
      isplitl [HW]; · iexact HW
      isplitl [HB]; · iexact HB
      iexact HO
    isplitl [HS HD]
    · isplitl [HS]; · iexact HS
      iexact HD
    iexact Hr
  · iintro ⟨⟨H1a, H1b, HW, HB, HO⟩, ⟨HS, HD⟩, Hr⟩
    ihave H1 := (pointsTo_share (PosShare.mem_left_op_right fullShare)).2 $$ [H1a H1b]
    · isplitl [H1a]; · iexact H1a
      iexact H1b
    isplitr [Hr]
    · isplitl [H1]; · iexact H1
      isplitl [HW]; · iexact HW
      isplitl [HB]; · iexact HB
      isplitl [HO]; · iexact HO
      isplitl [HS]; · iexact HS
      iexact HD
    iexact Hr

set_option maxHeartbeats 1600000 in
/-- ENTRY, everything a variable: for any proof data `dat` whose arrays are `Vd`'s contents (`hA`) and any tables `T`
    that are `Vd`'s contents (`hT`), whenever the boundary contents `Vx` agree with `Vd` at the six touched buffers, the
    unscoped buffers at `Vx` are the pipeline's arrays at their entry contents, the two tables, and the rest. -/
theorem entry4 (a : (pcfg4 (F := F)).Adm) (c : Dev nD) (dat : Dat τ (Elt F) Unit ℕ (UR sig nD τ) ℕ (cfg4 a) c)
    (hq0 : dat.q 0 = fullShare.left) (hq1 : dat.q 1 = fullShare.right) (hq2 : dat.q 2 = fullShare) (hq3 : dat.q 3 = fullShare)
    (Vd Vx : (b : Ref sig .tc) → Buf (Elt F) ((c.tc : Thread nD τ).loc b))
    (hA : ∀ w, dat.A w = Vd (Pipeline.arrRef spec4 w))
    (e_h : Vd main_v1 = Vx main_v1) (e_W : Vd main_arg3 = Vx main_arg3) (e_b : Vd main_v0 = Vx main_v0) (e_out : Vd main_v20 = Vx main_v20)
    (T : pre4.Contents (Elt F)) (hT : ∀ j, T j = Vd (pre4.ref j)) (e_src : Vd main_v18 = Vx main_v18) (e_dst : Vd main_v19 = Vx main_v19) :
    (unscopedBufs (Ix := Unit) (Name := ℕ) (U := UR sig nD τ) (Lvl := ℕ) c Vx : sProp 𝕄)
      ⊢ iprop(dat.arrays (dat.arrAt · 0)
          ∗ Pipeline.prefHeld (Ix := Unit) (Name := ℕ) (U := UR sig nD τ) (Lvl := ℕ) pre4 c (fun _ => fullShare) T ∗ rest4 c Vx) :=
  (bufs4 a c dat hq0 hq1 hq2 hq3 Vx (fun w => dat.arrAt w 0)
    (funext fun w => match w with
      | ⟨0, h⟩ => by show dat.arrAt ⟨0, h⟩ 0 = Vx main_v1; exact (hA ⟨0, h⟩).trans e_h
      | ⟨1, h⟩ => by show dat.arrAt ⟨1, h⟩ 0 = Vx main_v1; exact (hA ⟨1, h⟩).trans e_h
      | ⟨2, h⟩ => by show dat.arrAt ⟨2, h⟩ 0 = Vx main_arg3; exact (hA ⟨2, h⟩).trans e_W
      | ⟨3, h⟩ => by show dat.arrAt ⟨3, h⟩ 0 = Vx main_v0; exact (hA ⟨3, h⟩).trans e_b
      | ⟨4, h⟩ => by show dat.arrAt ⟨4, h⟩ 0 = Vx main_v20; exact (hA ⟨4, h⟩).trans e_out)
    T (funext fun j => match j with
      | ⟨0, h⟩ => by show T ⟨0, h⟩ = Vx main_v18; exact (hT ⟨0, h⟩).trans e_src
      | ⟨1, h⟩ => by show T ⟨1, h⟩ = Vx main_v19; exact (hT ⟨1, h⟩).trans e_dst)).1

set_option maxHeartbeats 1600000 in
/-- EXIT, everything a variable: the inputs' arrays end as they began, the output array at what the last write-backs
    leave (`x_out`); whenever `Vx` holds those contents at the six touched buffers, the pipeline's arrays at their final
    contents, the two tables and the rest at `Vx` are the unscoped buffers at `Vx`. -/
theorem exit4 (a : (pcfg4 (F := F)).Adm) (c : Dev nD) (dat : Dat τ (Elt F) Unit ℕ (UR sig nD τ) ℕ (cfg4 a) c) (N : Nat)
    (hq0 : dat.q 0 = fullShare.left) (hq1 : dat.q 1 = fullShare.right) (hq2 : dat.q 2 = fullShare) (hq3 : dat.q 3 = fullShare)
    (Vd Vx : (b : Ref sig .tc) → Buf (Elt F) ((c.tc : Thread nD τ).loc b))
    (hA : ∀ w, dat.A w = Vd (Pipeline.arrRef spec4 w))
    (x_h : Vd main_v1 = Vx main_v1) (x_W : Vd main_arg3 = Vx main_arg3) (x_b : Vd main_v0 = Vx main_v0) (x_out : dat.arrAt 4 N = Vx main_v20)
    (T : pre4.Contents (Elt F)) (hT : ∀ j, T j = Vd (pre4.ref j)) (x_src : Vd main_v18 = Vx main_v18) (x_dst : Vd main_v19 = Vx main_v19) :
    iprop(dat.arrays (dat.arrAt · N)
        ∗ Pipeline.prefHeld (Ix := Unit) (Name := ℕ) (U := UR sig nD τ) (Lvl := ℕ) pre4 c (fun _ => fullShare) T ∗ rest4 c Vx)
      ⊢ (unscopedBufs (Ix := Unit) (Name := ℕ) (U := UR sig nD τ) (Lvl := ℕ) c Vx : sProp 𝕄) :=
  (bufs4 a c dat hq0 hq1 hq2 hq3 Vx (fun w => dat.arrAt w N)
    (funext fun w => match w with
      | ⟨0, h⟩ => by show dat.arrAt ⟨0, h⟩ N = Vx main_v1; exact (dat.arrAt_in ⟨0, h⟩ rfl N).trans ((hA ⟨0, h⟩).trans x_h)
      | ⟨1, h⟩ => by show dat.arrAt ⟨1, h⟩ N = Vx main_v1; exact (dat.arrAt_in ⟨1, h⟩ rfl N).trans ((hA ⟨1, h⟩).trans x_h)
      | ⟨2, h⟩ => by show dat.arrAt ⟨2, h⟩ N = Vx main_arg3; exact (dat.arrAt_in ⟨2, h⟩ rfl N).trans ((hA ⟨2, h⟩).trans x_W)
      | ⟨3, h⟩ => by show dat.arrAt ⟨3, h⟩ N = Vx main_v0; exact (dat.arrAt_in ⟨3, h⟩ rfl N).trans ((hA ⟨3, h⟩).trans x_b)
      | ⟨4, h⟩ => by show dat.arrAt ⟨4, h⟩ N = Vx main_v20; exact x_out)
    T (funext fun j => match j with
      | ⟨0, h⟩ => by show T ⟨0, h⟩ = Vx main_v18; exact (hT ⟨0, h⟩).trans x_src
      | ⟨1, h⟩ => by show T ⟨1, h⟩ = Vx main_v19; exact (hT ⟨1, h⟩).trans x_dst)).2

variable (m : (ℓ : Loc nD τ sig) → Buf (Elt F) ℓ) (hO : Oks m)

/-! ## What the region finds and leaves, buffer by buffer -/

include hO

theorem fin4_h (c : Dev nD) : Ve4 m c main_v1 = V9 m (outsR m hO) c main_v1 := by first | exact indep4_h m (outsL m) (outsR m hO) c | rfl
theorem fin4_W (c : Dev nD) : Ve4 m c main_arg3 = V9 m (outsR m hO) c main_arg3 := by first | exact indep4_W m (outsL m) (outsR m hO) c | rfl
theorem fin4_b (c : Dev nD) : Ve4 m c main_v0 = V9 m (outsR m hO) c main_v0 := by first | exact indep4_b m (outsL m) (outsR m hO) c | rfl
theorem fin4_out (c : Dev nD) : Ve4 m c main_v20 = V9 m (outsR m hO) c main_v20 := by first | exact indep4_out m (outsL m) (outsR m hO) c | rfl
theorem fin4_src (c : Dev nD) : Ve4 m c main_v18 = V9 m (outsR m hO) c main_v18 := by first | exact indep4_src m (outsL m) (outsR m hO) c | rfl
theorem fin4_dst (c : Dev nD) : Ve4 m c main_v19 = V9 m (outsR m hO) c main_v19 := by first | exact indep4_dst m (outsL m) (outsR m hO) c | rfl

/-- What the region leaves in the buffers it touches: the inputs and the tables as they were, the output array at the
    region's chunk. -/
theorem lv4_h (c : Dev nD) : V10 m (outsR m hO) c main_v1 = V9 m (outsR m hO) c main_v1 := V10_of m (outsR m hO) c main_v1 (by decide)
theorem lv4_W (c : Dev nD) : V10 m (outsR m hO) c main_arg3 = V9 m (outsR m hO) c main_arg3 := V10_of m (outsR m hO) c main_arg3 (by decide)
theorem lv4_b (c : Dev nD) : V10 m (outsR m hO) c main_v0 = V9 m (outsR m hO) c main_v0 := V10_of m (outsR m hO) c main_v0 (by decide)
theorem lv4_src (c : Dev nD) : V10 m (outsR m hO) c main_v18 = V9 m (outsR m hO) c main_v18 := V10_of m (outsR m hO) c main_v18 (by decide)
theorem lv4_dst (c : Dev nD) : V10 m (outsR m hO) c main_v19 = V9 m (outsR m hO) c main_v19 := V10_of m (outsR m hO) c main_v19 (by decide)
theorem lv4_out (c : Dev nD) : V10 m (outsR m hO) c main_v20 = chunk4 m hO c :=
  (Function.update_self _ _ _).trans (outsR_4 m hO c)

/-- The buffers the region does not touch pass it by unchanged. -/
theorem rest4_eq (c : Dev nD) : (rest4 c (fun b => V9 m (outsR m hO) c b) : sProp 𝕄) = rest4 c (fun b => V10 m (outsR m hO) c b) := by
  unfold rest4
  exact BI.bigSep_congr fun b hb => by
    dsimp only
    rw [V10_of m (outsR m hO) c b (fun h => (Finset.mem_sdiff.mp hb).2 (by rw [List.mem_singleton.mp h]; decide))]

set_option maxHeartbeats 1600000 in
set_option backward.isDefEq.respectTransparency.types false in
/-- REGION 0 over the boundary states. -/
def reg4 : Pipeline.RegionSeg (pcfgs (F := F)) (adm m hO) (pdats m hO) () defs₀ 𝒱₀ L lv (4 : Fin 16) where
  win := winFacts₀4
  block_pos := block_pos4
  stage_whole := stage_whole4
  K := PEmpty
  osem k := k.elim
  ho := Pipeline.OwnSemFacts.none _
  hbody c := (body_obligation4 (Ve4 m) ⟨tbl4 m, hO.h4⟩ c).loose
  hwaits := Pipeline.hwaits_of_owed_zero _ _ _ _ L lv (4 : Fin 16) fun _ _ => rfl
  pre c := iprop(StableHlo.held (c : Thread nD τ) (Pipeline.ucRefs τ sig) (V9 m (outsR m hO) c) ∗ Rst c)
  post c := iprop(StableHlo.held (c : Thread nD τ) (Pipeline.ucRefs τ sig) (V10 m (outsR m hO) c) ∗ Rst c)
  X c := iprop(∃ r, prngReg c r)
  Y c := iprop((∃ r, prngReg c r) ∗ Pipeline.prefHeld (Ix := Unit) (Name := ℕ) (U := UR sig nD τ) (Lvl := ℕ) pre4 c (fun _ => fullShare) (tbl4 m))
  Z c := rest4 c (fun b => V9 m (outsR m hO) c b)
  hentry c := by
    obtain rfl : c = 0 := Subsingleton.elim _ _
    have hb := entry4 (adm m hO (4 : Fin 16)) 0 (pdats m hO (4 : Fin 16) 0) rfl rfl rfl rfl (Ve4 m 0) (fun b => V9 m (outsR m hO) 0 b) (fun w => rfl)
      (fin4_h m hO 0) (fin4_W m hO 0) (fin4_b m hO 0) (fin4_out m hO 0) (tbl4 m) (fun j => rfl) (fin4_src m hO 0) (fin4_dst m hO 0)
    rw [Pipeline.unscopedBufs_held] at hb
    iintro ⟨⟨Hub, Hp, HO⟩, -, -⟩
    ihave H := hb $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO (4 : Fin 16) c).Φ 0 = iprop(Pipeline.ΦA spec4 c ∗ Pipeline.prefHeld (Ix := Unit) (Name := ℕ) (U := UR sig nD τ) (Lvl := ℕ) pre4 c (fun _ => fullShare) (tbl4 m)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m hO (4 : Fin 16) c).Φ (Fin.last _) = iprop(Pipeline.ΦA spec4 c ∗ Pipeline.prefHeld (Ix := Unit) (Name := ℕ) (U := UR sig nD τ) (Lvl := ℕ) pre4 c (fun _ => fullShare) (tbl4 m)) from rfl]
    unfold Pipeline.ΦA
    iintro ⟨⟨Hr, Hp⟩, Ht⟩
    isplitl [Hp Ht]
    · isplitl [Hp]; · iexact Hp
      iexact Ht
    isplitr; · iempintro
    iexact Hr
  hexit c := by
    obtain rfl : c = 0 := Subsingleton.elim _ _
    have hb := exit4 (adm m hO (4 : Fin 16)) 0 (pdats m hO (4 : Fin 16) 0) (Pipeline.pin (pcfgs (F := F)) (adm m hO) (4 : Fin 16)).N rfl rfl rfl rfl
      (Ve4 m 0) (fun b => V10 m (outsR m hO) 0 b) (fun w => rfl)
      ((fin4_h m hO 0).trans (lv4_h m hO 0).symm) ((fin4_W m hO 0).trans (lv4_W m hO 0).symm) ((fin4_b m hO 0).trans (lv4_b m hO 0).symm)
      (lv4_out m hO 0).symm (tbl4 m) (fun j => rfl) ((fin4_src m hO 0).trans (lv4_src m hO 0).symm) ((fin4_dst m hO 0).trans (lv4_dst m hO 0).symm)
    rw [Pipeline.unscopedBufs_held, ← rest4_eq m hO 0] at hb
    iintro ⟨Ha, HO, ⟨Hp, Ht⟩, Hrest⟩
    imodintro
    isplitl [Ha Ht Hrest]
    · iapply hb
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Cert.Kernel.Hand

end
-- ==== Proof.KReg5.lean ====
/-
  Region 5 of the edge scorer as a segment of the program's run.

  The region is entered with every unscoped buffer held whole at the contents the host operations before it leave,
  beside the generator register and nothing owed. Of those buffers the pipeline takes the four arrays its five windows
  read and write — the feature rows (read by two windows, each at one half of the full share), the weights, the
  bias and the output chunk — and the two index tables; the other unscoped buffers bypass the region. At the exit the
  feature rows' two halves rejoin, the inputs are as they were, the output array holds the region's chunk, and
  the whole is the next boundary's contents.
-/
import proofs.«405368_j31662498906597_2_alg».proof.Proof.KFamily
import proofs.«405368_j31662498906597_2_alg».proof.Proof.KHostEntry
import proofs.«405368_j31662498906597_2_alg».proof.Proof.KHostEntryGen
import Idealize.ShloMosaic.Lib.Pipeline.RegionsLoop

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The six unscoped buffers region 5 touches: the feature rows, the weights, the bias, its output chunk and its two
    index tables. -/
abbrev arrs5 : Finset (Ref sig .tc) := insert main_v1 (insert main_arg3 (insert main_v0 (insert main_v24 (insert main_v22 {main_v23}))))

theorem arrs5_sub : arrs5 ⊆ Finset.univ.filter fun b : Ref sig .tc => ¬ b.isScoped := by decide

/-- The unscoped buffers region 5 does not touch, held whole at `V`. -/
def rest5 (c : Dev nD) (V : (b : Ref sig .tc) → Buf (Elt F) ((c.tc : Thread nD τ).loc b)) : sProp 𝕄 :=
  bigSep ((Finset.univ.filter fun b : Ref sig .tc => ¬ b.isScoped) \ arrs5) fun b => ((c.tc : Thread nD τ).loc b) ↦{fullShare} V b

/-- The six touched buffers one by one, and the rest. -/
theorem ub_split5 (c : Dev nD) (V : (b : Ref sig .tc) → Buf (Elt F) ((c.tc : Thread nD τ).loc b)) :
    (unscopedBufs (Ix := Unit) (Name := ℕ) (U := UR sig nD τ) (Lvl := ℕ) c V : sProp 𝕄)
      = iprop(iprop((((c.tc : Thread nD τ).loc main_v1) ↦{fullShare} V main_v1) ∗ (((c.tc : Thread nD τ).loc main_arg3) ↦{fullShare} V main_arg3)
          ∗ (((c.tc : Thread nD τ).loc main_v0) ↦{fullShare} V main_v0) ∗ (((c.tc : Thread nD τ).loc main_v24) ↦{fullShare} V main_v24)
          ∗ (((c.tc : Thread nD τ).loc main_v22) ↦{fullShare} V main_v22) ∗ (((c.tc : Thread nD τ).loc main_v23) ↦{fullShare} V main_v23)) ∗ rest5 c V) := by
  unfold unscopedBufs rest5
  rw [BI.bigSep_sdiff_split arrs5_sub]
  refine congrArg (fun X => iprop(X ∗ _)) ?_
  show bigSep (insert main_v1 (insert main_arg3 (insert main_v0 (insert main_v24 (insert main_v22 {main_v23}))))) _ = _
  rw [BI.bigSep_insert (by decide), BI.bigSep_insert (by decide), BI.bigSep_insert (by decide), BI.bigSep_insert (by decide),
    BI.bigSep_insert (by decide), BI.bigSep_singleton]
  rfl

/-- A product over two tables, written out. -/
theorem two_tables5 (Φ : Fin 2 → sProp 𝕄) : bigSep Finset.univ Φ = iprop(Φ 0 ∗ Φ 1) := BI.bigSep_fin_two Φ

/-- The five windows' arrays and the two tables, by name. -/
theorem arrRef5_0 : Pipeline.arrRef spec5 (0 : Fin 5) = main_v1 := rfl
theorem arrRef5_1 : Pipeline.arrRef spec5 (1 : Fin 5) = main_v1 := rfl
theorem arrRef5_2 : Pipeline.arrRef spec5 (2 : Fin 5) = main_arg3 := rfl
theorem arrRef5_3 : Pipeline.arrRef spec5 (3 : Fin 5) = main_v0 := rfl
theorem arrRef5_4 : Pipeline.arrRef spec5 (4 : Fin 5) = main_v24 := rfl
theorem preRef5_0 : pre5.ref (0 : Fin 2) = main_v22 := rfl
theorem preRef5_1 : pre5.ref (1 : Fin 2) = main_v23 := rfl

set_option maxHeartbeats 1600000 in
/-- A core's unscoped buffers held whole at `V` ARE the pipeline's arrays at `V`'s contents of them (the feature rows'
    full share dealt as its two halves to the two windows that read them), the two tables at `V`'s contents of
    them, and the rest. Both directions: the region's entry and its exit. -/
theorem bufs5 (a : (pcfg5 (F := F)).Adm) (c : Dev nD) (dat : Dat τ (Elt F) Unit ℕ (UR sig nD τ) ℕ (cfg5 a) c)
    (hq0 : dat.q 0 = fullShare.left) (hq1 : dat.q 1 = fullShare.right) (hq2 : dat.q 2 = fullShare) (hq3 : dat.q 3 = fullShare)
    (V : (b : Ref sig .tc) → Buf (Elt F) ((c.tc : Thread nD τ).loc b))
    (G : (w : Fin (cfg5 a).W) → Buf (Elt F) (((cfg5 a).win w).arr.view.loc (c.tc : Thread nD τ)))
    (hG : G = fun w => V (Pipeline.arrRef spec5 w))
    (T : pre5.Contents (Elt F)) (hT : T = fun k => V (pre5.ref k)) :
    (unscopedBufs (Ix := Unit) (Name := ℕ) (U := UR sig nD τ) (Lvl := ℕ) c V : sProp 𝕄)
      ⊣⊢ iprop(dat.arrays G ∗ Pipeline.prefHeld (Ix := Unit) (Name := ℕ) (U := UR sig nD τ) (Lvl := ℕ) pre5 c (fun _ => fullShare) T ∗ rest5 c V) := by
  subst hG hT
  have harr : ∀ w, (((cfg5 a).spec w).arr).IsWhole := arr_whole5
  have hA : dat.arrays (fun w => V (Pipeline.arrRef spec5 w))
      = bigSep Finset.univ fun w : Fin 5 => (((c.tc : Thread nD τ).loc (Pipeline.arrRef spec5 w)) ↦{dat.share w} V (Pipeline.arrRef spec5 w) : sProp 𝕄) := by
    unfold Dat.arrays
    exact BI.bigSep_congr fun w _ => by rw [(harr w).set_eq_univ]
  have s0 : dat.share 0 = fullShare.left := by unfold Dat.share; rw [show ((cfg5 a).win 0).isOut = false from rfl]; exact hq0
  have s1 : dat.share 1 = fullShare.right := by unfold Dat.share; rw [show ((cfg5 a).win 1).isOut = false from rfl]; exact hq1
  have s2 : dat.share 2 = fullShare := by unfold Dat.share; rw [show ((cfg5 a).win 2).isOut = false from rfl]; exact hq2
  have s3 : dat.share 3 = fullShare := by unfold Dat.share; rw [show ((cfg5 a).win 3).isOut = false from rfl]; exact hq3
  have s4 : dat.share 4 = fullShare := by unfold Dat.share; rw [show ((cfg5 a).win 4).isOut = true from rfl]; rfl
  rw [ub_split5, hA, bigSep_W5, s0, s1, s2, s3, s4]
  unfold Pipeline.prefHeld
  rw [two_tables5]
  simp only [arrRef5_0, arrRef5_1, arrRef5_2, arrRef5_3, arrRef5_4, preRef5_0, preRef5_1]
  constructor
  · iintro ⟨⟨H1, HW, HB, HO, HS, HD⟩, Hr⟩
    ihave H1' := (pointsTo_share (PosShare.mem_left_op_right fullShare)).1 $$ H1
    icases H1' with ⟨H1a, H1b⟩
    isplitl [H1a H1b HW HB HO]
    · isplitl [H1a]; · iexact H1a
      isplitl [H1b]; · iexact H1b
      isplitl [HW]; · iexact HW
      isplitl [HB]; · iexact HB
      iexact HO
    isplitl [HS HD]
    · isplitl [HS]; · iexact HS
      iexact HD
    iexact Hr
  · iintro ⟨⟨H1a, H1b, HW, HB, HO⟩, ⟨HS, HD⟩, Hr⟩
    ihave H1 := (pointsTo_share (PosShare.mem_left_op_right fullShare)).2 $$ [H1a H1b]
    · isplitl [H1a]; · iexact H1a
      iexact H1b
    isplitr [Hr]
    · isplitl [H1]; · iexact H1
      isplitl [HW]; · iexact HW
      isplitl [HB]; · iexact HB
      isplitl [HO]; · iexact HO
      isplitl [HS]; · iexact HS
      iexact HD
    iexact Hr

set_option maxHeartbeats 1600000 in
/-- ENTRY, everything a variable: for any proof data `dat` whose arrays are `Vd`'s contents (`hA`) and any tables `T`
    that are `Vd`'s contents (`hT`), whenever the boundary contents `Vx` agree with `Vd` at the six touched buffers, the
    unscoped buffers at `Vx` are the pipeline's arrays at their entry contents, the two tables, and the rest. -/
theorem entry5 (a : (pcfg5 (F := F)).Adm) (c : Dev nD) (dat : Dat τ (Elt F) Unit ℕ (UR sig nD τ) ℕ (cfg5 a) c)
    (hq0 : dat.q 0 = fullShare.left) (hq1 : dat.q 1 = fullShare.right) (hq2 : dat.q 2 = fullShare) (hq3 : dat.q 3 = fullShare)
    (Vd Vx : (b : Ref sig .tc) → Buf (Elt F) ((c.tc : Thread nD τ).loc b))
    (hA : ∀ w, dat.A w = Vd (Pipeline.arrRef spec5 w))
    (e_h : Vd main_v1 = Vx main_v1) (e_W : Vd main_arg3 = Vx main_arg3) (e_b : Vd main_v0 = Vx main_v0) (e_out : Vd main_v24 = Vx main_v24)
    (T : pre5.Contents (Elt F)) (hT : ∀ j, T j = Vd (pre5.ref j)) (e_src : Vd main_v22 = Vx main_v22) (e_dst : Vd main_v23 = Vx main_v23) :
    (unscopedBufs (Ix := Unit) (Name := ℕ) (U := UR sig nD τ) (Lvl := ℕ) c Vx : sProp 𝕄)
      ⊢ iprop(dat.arrays (dat.arrAt · 0)
          ∗ Pipeline.prefHeld (Ix := Unit) (Name := ℕ) (U := UR sig nD τ) (Lvl := ℕ) pre5 c (fun _ => fullShare) T ∗ rest5 c Vx) :=
  (bufs5 a c dat hq0 hq1 hq2 hq3 Vx (fun w => dat.arrAt w 0)
    (funext fun w => match w with
      | ⟨0, h⟩ => by show dat.arrAt ⟨0, h⟩ 0 = Vx main_v1; exact (hA ⟨0, h⟩).trans e_h
      | ⟨1, h⟩ => by show dat.arrAt ⟨1, h⟩ 0 = Vx main_v1; exact (hA ⟨1, h⟩).trans e_h
      | ⟨2, h⟩ => by show dat.arrAt ⟨2, h⟩ 0 = Vx main_arg3; exact (hA ⟨2, h⟩).trans e_W
      | ⟨3, h⟩ => by show dat.arrAt ⟨3, h⟩ 0 = Vx main_v0; exact (hA ⟨3, h⟩).trans e_b
      | ⟨4, h⟩ => by show dat.arrAt ⟨4, h⟩ 0 = Vx main_v24; exact (hA ⟨4, h⟩).trans e_out)
    T (funext fun j => match j with
      | ⟨0, h⟩ => by show T ⟨0, h⟩ = Vx main_v22; exact (hT ⟨0, h⟩).trans e_src
      | ⟨1, h⟩ => by show T ⟨1, h⟩ = Vx main_v23; exact (hT ⟨1, h⟩).trans e_dst)).1

set_option maxHeartbeats 1600000 in
/-- EXIT, everything a variable: the inputs' arrays end as they began, the output array at what the last write-backs
    leave (`x_out`); whenever `Vx` holds those contents at the six touched buffers, the pipeline's arrays at their final
    contents, the two tables and the rest at `Vx` are the unscoped buffers at `Vx`. -/
theorem exit5 (a : (pcfg5 (F := F)).Adm) (c : Dev nD) (dat : Dat τ (Elt F) Unit ℕ (UR sig nD τ) ℕ (cfg5 a) c) (N : Nat)
    (hq0 : dat.q 0 = fullShare.left) (hq1 : dat.q 1 = fullShare.right) (hq2 : dat.q 2 = fullShare) (hq3 : dat.q 3 = fullShare)
    (Vd Vx : (b : Ref sig .tc) → Buf (Elt F) ((c.tc : Thread nD τ).loc b))
    (hA : ∀ w, dat.A w = Vd (Pipeline.arrRef spec5 w))
    (x_h : Vd main_v1 = Vx main_v1) (x_W : Vd main_arg3 = Vx main_arg3) (x_b : Vd main_v0 = Vx main_v0) (x_out : dat.arrAt 4 N = Vx main_v24)
    (T : pre5.Contents (Elt F)) (hT : ∀ j, T j = Vd (pre5.ref j)) (x_src : Vd main_v22 = Vx main_v22) (x_dst : Vd main_v23 = Vx main_v23) :
    iprop(dat.arrays (dat.arrAt · N)
        ∗ Pipeline.prefHeld (Ix := Unit) (Name := ℕ) (U := UR sig nD τ) (Lvl := ℕ) pre5 c (fun _ => fullShare) T ∗ rest5 c Vx)
      ⊢ (unscopedBufs (Ix := Unit) (Name := ℕ) (U := UR sig nD τ) (Lvl := ℕ) c Vx : sProp 𝕄) :=
  (bufs5 a c dat hq0 hq1 hq2 hq3 Vx (fun w => dat.arrAt w N)
    (funext fun w => match w with
      | ⟨0, h⟩ => by show dat.arrAt ⟨0, h⟩ N = Vx main_v1; exact (dat.arrAt_in ⟨0, h⟩ rfl N).trans ((hA ⟨0, h⟩).trans x_h)
      | ⟨1, h⟩ => by show dat.arrAt ⟨1, h⟩ N = Vx main_v1; exact (dat.arrAt_in ⟨1, h⟩ rfl N).trans ((hA ⟨1, h⟩).trans x_h)
      | ⟨2, h⟩ => by show dat.arrAt ⟨2, h⟩ N = Vx main_arg3; exact (dat.arrAt_in ⟨2, h⟩ rfl N).trans ((hA ⟨2, h⟩).trans x_W)
      | ⟨3, h⟩ => by show dat.arrAt ⟨3, h⟩ N = Vx main_v0; exact (dat.arrAt_in ⟨3, h⟩ rfl N).trans ((hA ⟨3, h⟩).trans x_b)
      | ⟨4, h⟩ => by show dat.arrAt ⟨4, h⟩ N = Vx main_v24; exact x_out)
    T (funext fun j => match j with
      | ⟨0, h⟩ => by show T ⟨0, h⟩ = Vx main_v22; exact (hT ⟨0, h⟩).trans x_src
      | ⟨1, h⟩ => by show T ⟨1, h⟩ = Vx main_v23; exact (hT ⟨1, h⟩).trans x_dst)).2

variable (m : (ℓ : Loc nD τ sig) → Buf (Elt F) ℓ) (hO : Oks m)

/-! ## What the region finds and leaves, buffer by buffer -/

include hO

theorem fin5_h (c : Dev nD) : Ve5 m c main_v1 = V11 m (outsR m hO) c main_v1 := by first | exact indep5_h m (outsL m) (outsR m hO) c | rfl
theorem fin5_W (c : Dev nD) : Ve5 m c main_arg3 = V11 m (outsR m hO) c main_arg3 := by first | exact indep5_W m (outsL m) (outsR m hO) c | rfl
theorem fin5_b (c : Dev nD) : Ve5 m c main_v0 = V11 m (outsR m hO) c main_v0 := by first | exact indep5_b m (outsL m) (outsR m hO) c | rfl
theorem fin5_out (c : Dev nD) : Ve5 m c main_v24 = V11 m (outsR m hO) c main_v24 := by first | exact indep5_out m (outsL m) (outsR m hO) c | rfl
theorem fin5_src (c : Dev nD) : Ve5 m c main_v22 = V11 m (outsR m hO) c main_v22 := by first | exact indep5_src m (outsL m) (outsR m hO) c | rfl
theorem fin5_dst (c : Dev nD) : Ve5 m c main_v23 = V11 m (outsR m hO) c main_v23 := by first | exact indep5_dst m (outsL m) (outsR m hO) c | rfl

/-- What the region leaves in the buffers it touches: the inputs and the tables as they were, the output array at the
    region's chunk. -/
theorem lv5_h (c : Dev nD) : V12 m (outsR m hO) c main_v1 = V11 m (outsR m hO) c main_v1 := V12_of m (outsR m hO) c main_v1 (by decide)
theorem lv5_W (c : Dev nD) : V12 m (outsR m hO) c main_arg3 = V11 m (outsR m hO) c main_arg3 := V12_of m (outsR m hO) c main_arg3 (by decide)
theorem lv5_b (c : Dev nD) : V12 m (outsR m hO) c main_v0 = V11 m (outsR m hO) c main_v0 := V12_of m (outsR m hO) c main_v0 (by decide)
theorem lv5_src (c : Dev nD) : V12 m (outsR m hO) c main_v22 = V11 m (outsR m hO) c main_v22 := V12_of m (outsR m hO) c main_v22 (by decide)
theorem lv5_dst (c : Dev nD) : V12 m (outsR m hO) c main_v23 = V11 m (outsR m hO) c main_v23 := V12_of m (outsR m hO) c main_v23 (by decide)
theorem lv5_out (c : Dev nD) : V12 m (outsR m hO) c main_v24 = chunk5 m hO c :=
  (Function.update_self _ _ _).trans (outsR_5 m hO c)

/-- The buffers the region does not touch pass it by unchanged. -/
theorem rest5_eq (c : Dev nD) : (rest5 c (fun b => V11 m (outsR m hO) c b) : sProp 𝕄) = rest5 c (fun b => V12 m (outsR m hO) c b) := by
  unfold rest5
  exact BI.bigSep_congr fun b hb => by
    dsimp only
    rw [V12_of m (outsR m hO) c b (fun h => (Finset.mem_sdiff.mp hb).2 (by rw [List.mem_singleton.mp h]; decide))]

set_option maxHeartbeats 1600000 in
set_option backward.isDefEq.respectTransparency.types false in
/-- REGION 0 over the boundary states. -/
def reg5 : Pipeline.RegionSeg (pcfgs (F := F)) (adm m hO) (pdats m hO) () defs₀ 𝒱₀ L lv (5 : Fin 16) where
  win := winFacts₀5
  block_pos := block_pos5
  stage_whole := stage_whole5
  K := PEmpty
  osem k := k.elim
  ho := Pipeline.OwnSemFacts.none _
  hbody c := (body_obligation5 (Ve5 m) ⟨tbl5 m, hO.h5⟩ c).loose
  hwaits := Pipeline.hwaits_of_owed_zero _ _ _ _ L lv (5 : Fin 16) fun _ _ => rfl
  pre c := iprop(StableHlo.held (c : Thread nD τ) (Pipeline.ucRefs τ sig) (V11 m (outsR m hO) c) ∗ Rst c)
  post c := iprop(StableHlo.held (c : Thread nD τ) (Pipeline.ucRefs τ sig) (V12 m (outsR m hO) c) ∗ Rst c)
  X c := iprop(∃ r, prngReg c r)
  Y c := iprop((∃ r, prngReg c r) ∗ Pipeline.prefHeld (Ix := Unit) (Name := ℕ) (U := UR sig nD τ) (Lvl := ℕ) pre5 c (fun _ => fullShare) (tbl5 m))
  Z c := rest5 c (fun b => V11 m (outsR m hO) c b)
  hentry c := by
    obtain rfl : c = 0 := Subsingleton.elim _ _
    have hb := entry5 (adm m hO (5 : Fin 16)) 0 (pdats m hO (5 : Fin 16) 0) rfl rfl rfl rfl (Ve5 m 0) (fun b => V11 m (outsR m hO) 0 b) (fun w => rfl)
      (fin5_h m hO 0) (fin5_W m hO 0) (fin5_b m hO 0) (fin5_out m hO 0) (tbl5 m) (fun j => rfl) (fin5_src m hO 0) (fin5_dst m hO 0)
    rw [Pipeline.unscopedBufs_held] at hb
    iintro ⟨⟨Hub, Hp, HO⟩, -, -⟩
    ihave H := hb $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO (5 : Fin 16) c).Φ 0 = iprop(Pipeline.ΦA spec5 c ∗ Pipeline.prefHeld (Ix := Unit) (Name := ℕ) (U := UR sig nD τ) (Lvl := ℕ) pre5 c (fun _ => fullShare) (tbl5 m)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m hO (5 : Fin 16) c).Φ (Fin.last _) = iprop(Pipeline.ΦA spec5 c ∗ Pipeline.prefHeld (Ix := Unit) (Name := ℕ) (U := UR sig nD τ) (Lvl := ℕ) pre5 c (fun _ => fullShare) (tbl5 m)) from rfl]
    unfold Pipeline.ΦA
    iintro ⟨⟨Hr, Hp⟩, Ht⟩
    isplitl [Hp Ht]
    · isplitl [Hp]; · iexact Hp
      iexact Ht
    isplitr; · iempintro
    iexact Hr
  hexit c := by
    obtain rfl : c = 0 := Subsingleton.elim _ _
    have hb := exit5 (adm m hO (5 : Fin 16)) 0 (pdats m hO (5 : Fin 16) 0) (Pipeline.pin (pcfgs (F := F)) (adm m hO) (5 : Fin 16)).N rfl rfl rfl rfl
      (Ve5 m 0) (fun b => V12 m (outsR m hO) 0 b) (fun w => rfl)
      ((fin5_h m hO 0).trans (lv5_h m hO 0).symm) ((fin5_W m hO 0).trans (lv5_W m hO 0).symm) ((fin5_b m hO 0).trans (lv5_b m hO 0).symm)
      (lv5_out m hO 0).symm (tbl5 m) (fun j => rfl) ((fin5_src m hO 0).trans (lv5_src m hO 0).symm) ((fin5_dst m hO 0).trans (lv5_dst m hO 0).symm)
    rw [Pipeline.unscopedBufs_held, ← rest5_eq m hO 0] at hb
    iintro ⟨Ha, HO, ⟨Hp, Ht⟩, Hrest⟩
    imodintro
    isplitl [Ha Ht Hrest]
    · iapply hb
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Cert.Kernel.Hand

end
-- ==== Proof.KReg6.lean ====
/-
  Region 6 of the edge scorer as a segment of the program's run.

  The region is entered with every unscoped buffer held whole at the contents the host operations before it leave,
  beside the generator register and nothing owed. Of those buffers the pipeline takes the four arrays its five windows
  read and write — the feature rows (read by two windows, each at one half of the full share), the weights, the
  bias and the output chunk — and the two index tables; the other unscoped buffers bypass the region. At the exit the
  feature rows' two halves rejoin, the inputs are as they were, the output array holds the region's chunk, and
  the whole is the next boundary's contents.
-/
import proofs.«405368_j31662498906597_2_alg».proof.Proof.KFamily
import proofs.«405368_j31662498906597_2_alg».proof.Proof.KHostEntry
import proofs.«405368_j31662498906597_2_alg».proof.Proof.KHostEntryGen
import Idealize.ShloMosaic.Lib.Pipeline.RegionsLoop

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The six unscoped buffers region 6 touches: the feature rows, the weights, the bias, its output chunk and its two
    index tables. -/
abbrev arrs6 : Finset (Ref sig .tc) := insert main_v1 (insert main_arg3 (insert main_v0 (insert main_v28 (insert main_v26 {main_v27}))))

theorem arrs6_sub : arrs6 ⊆ Finset.univ.filter fun b : Ref sig .tc => ¬ b.isScoped := by decide

/-- The unscoped buffers region 6 does not touch, held whole at `V`. -/
def rest6 (c : Dev nD) (V : (b : Ref sig .tc) → Buf (Elt F) ((c.tc : Thread nD τ).loc b)) : sProp 𝕄 :=
  bigSep ((Finset.univ.filter fun b : Ref sig .tc => ¬ b.isScoped) \ arrs6) fun b => ((c.tc : Thread nD τ).loc b) ↦{fullShare} V b

/-- The six touched buffers one by one, and the rest. -/
theorem ub_split6 (c : Dev nD) (V : (b : Ref sig .tc) → Buf (Elt F) ((c.tc : Thread nD τ).loc b)) :
    (unscopedBufs (Ix := Unit) (Name := ℕ) (U := UR sig nD τ) (Lvl := ℕ) c V : sProp 𝕄)
      = iprop(iprop((((c.tc : Thread nD τ).loc main_v1) ↦{fullShare} V main_v1) ∗ (((c.tc : Thread nD τ).loc main_arg3) ↦{fullShare} V main_arg3)
          ∗ (((c.tc : Thread nD τ).loc main_v0) ↦{fullShare} V main_v0) ∗ (((c.tc : Thread nD τ).loc main_v28) ↦{fullShare} V main_v28)
          ∗ (((c.tc : Thread nD τ).loc main_v26) ↦{fullShare} V main_v26) ∗ (((c.tc : Thread nD τ).loc main_v27) ↦{fullShare} V main_v27)) ∗ rest6 c V) := by
  unfold unscopedBufs rest6
  rw [BI.bigSep_sdiff_split arrs6_sub]
  refine congrArg (fun X => iprop(X ∗ _)) ?_
  show bigSep (insert main_v1 (insert main_arg3 (insert main_v0 (insert main_v28 (insert main_v26 {main_v27}))))) _ = _
  rw [BI.bigSep_insert (by decide), BI.bigSep_insert (by decide), BI.bigSep_insert (by decide), BI.bigSep_insert (by decide),
    BI.bigSep_insert (by decide), BI.bigSep_singleton]
  rfl

/-- A product over two tables, written out. -/
theorem two_tables6 (Φ : Fin 2 → sProp 𝕄) : bigSep Finset.univ Φ = iprop(Φ 0 ∗ Φ 1) := BI.bigSep_fin_two Φ

/-- The five windows' arrays and the two tables, by name. -/
theorem arrRef6_0 : Pipeline.arrRef spec6 (0 : Fin 5) = main_v1 := rfl
theorem arrRef6_1 : Pipeline.arrRef spec6 (1 : Fin 5) = main_v1 := rfl
theorem arrRef6_2 : Pipeline.arrRef spec6 (2 : Fin 5) = main_arg3 := rfl
theorem arrRef6_3 : Pipeline.arrRef spec6 (3 : Fin 5) = main_v0 := rfl
theorem arrRef6_4 : Pipeline.arrRef spec6 (4 : Fin 5) = main_v28 := rfl
theorem preRef6_0 : pre6.ref (0 : Fin 2) = main_v26 := rfl
theorem preRef6_1 : pre6.ref (1 : Fin 2) = main_v27 := rfl

set_option maxHeartbeats 1600000 in
/-- A core's unscoped buffers held whole at `V` ARE the pipeline's arrays at `V`'s contents of them (the feature rows'
    full share dealt as its two halves to the two windows that read them), the two tables at `V`'s contents of
    them, and the rest. Both directions: the region's entry and its exit. -/
theorem bufs6 (a : (pcfg6 (F := F)).Adm) (c : Dev nD) (dat : Dat τ (Elt F) Unit ℕ (UR sig nD τ) ℕ (cfg6 a) c)
    (hq0 : dat.q 0 = fullShare.left) (hq1 : dat.q 1 = fullShare.right) (hq2 : dat.q 2 = fullShare) (hq3 : dat.q 3 = fullShare)
    (V : (b : Ref sig .tc) → Buf (Elt F) ((c.tc : Thread nD τ).loc b))
    (G : (w : Fin (cfg6 a).W) → Buf (Elt F) (((cfg6 a).win w).arr.view.loc (c.tc : Thread nD τ)))
    (hG : G = fun w => V (Pipeline.arrRef spec6 w))
    (T : pre6.Contents (Elt F)) (hT : T = fun k => V (pre6.ref k)) :
    (unscopedBufs (Ix := Unit) (Name := ℕ) (U := UR sig nD τ) (Lvl := ℕ) c V : sProp 𝕄)
      ⊣⊢ iprop(dat.arrays G ∗ Pipeline.prefHeld (Ix := Unit) (Name := ℕ) (U := UR sig nD τ) (Lvl := ℕ) pre6 c (fun _ => fullShare) T ∗ rest6 c V) := by
  subst hG hT
  have harr : ∀ w, (((cfg6 a).spec w).arr).IsWhole := arr_whole6
  have hA : dat.arrays (fun w => V (Pipeline.arrRef spec6 w))
      = bigSep Finset.univ fun w : Fin 5 => (((c.tc : Thread nD τ).loc (Pipeline.arrRef spec6 w)) ↦{dat.share w} V (Pipeline.arrRef spec6 w) : sProp 𝕄) := by
    unfold Dat.arrays
    exact BI.bigSep_congr fun w _ => by rw [(harr w).set_eq_univ]
  have s0 : dat.share 0 = fullShare.left := by unfold Dat.share; rw [show ((cfg6 a).win 0).isOut = false from rfl]; exact hq0
  have s1 : dat.share 1 = fullShare.right := by unfold Dat.share; rw [show ((cfg6 a).win 1).isOut = false from rfl]; exact hq1
  have s2 : dat.share 2 = fullShare := by unfold Dat.share; rw [show ((cfg6 a).win 2).isOut = false from rfl]; exact hq2
  have s3 : dat.share 3 = fullShare := by unfold Dat.share; rw [show ((cfg6 a).win 3).isOut = false from rfl]; exact hq3
  have s4 : dat.share 4 = fullShare := by unfold Dat.share; rw [show ((cfg6 a).win 4).isOut = true from rfl]; rfl
  rw [ub_split6, hA, bigSep_W6, s0, s1, s2, s3, s4]
  unfold Pipeline.prefHeld
  rw [two_tables6]
  simp only [arrRef6_0, arrRef6_1, arrRef6_2, arrRef6_3, arrRef6_4, preRef6_0, preRef6_1]
  constructor
  · iintro ⟨⟨H1, HW, HB, HO, HS, HD⟩, Hr⟩
    ihave H1' := (pointsTo_share (PosShare.mem_left_op_right fullShare)).1 $$ H1
    icases H1' with ⟨H1a, H1b⟩
    isplitl [H1a H1b HW HB HO]
    · isplitl [H1a]; · iexact H1a
      isplitl [H1b]; · iexact H1b
      isplitl [HW]; · iexact HW
      isplitl [HB]; · iexact HB
      iexact HO
    isplitl [HS HD]
    · isplitl [HS]; · iexact HS
      iexact HD
    iexact Hr
  · iintro ⟨⟨H1a, H1b, HW, HB, HO⟩, ⟨HS, HD⟩, Hr⟩
    ihave H1 := (pointsTo_share (PosShare.mem_left_op_right fullShare)).2 $$ [H1a H1b]
    · isplitl [H1a]; · iexact H1a
      iexact H1b
    isplitr [Hr]
    · isplitl [H1]; · iexact H1
      isplitl [HW]; · iexact HW
      isplitl [HB]; · iexact HB
      isplitl [HO]; · iexact HO
      isplitl [HS]; · iexact HS
      iexact HD
    iexact Hr

set_option maxHeartbeats 1600000 in
/-- ENTRY, everything a variable: for any proof data `dat` whose arrays are `Vd`'s contents (`hA`) and any tables `T`
    that are `Vd`'s contents (`hT`), whenever the boundary contents `Vx` agree with `Vd` at the six touched buffers, the
    unscoped buffers at `Vx` are the pipeline's arrays at their entry contents, the two tables, and the rest. -/
theorem entry6 (a : (pcfg6 (F := F)).Adm) (c : Dev nD) (dat : Dat τ (Elt F) Unit ℕ (UR sig nD τ) ℕ (cfg6 a) c)
    (hq0 : dat.q 0 = fullShare.left) (hq1 : dat.q 1 = fullShare.right) (hq2 : dat.q 2 = fullShare) (hq3 : dat.q 3 = fullShare)
    (Vd Vx : (b : Ref sig .tc) → Buf (Elt F) ((c.tc : Thread nD τ).loc b))
    (hA : ∀ w, dat.A w = Vd (Pipeline.arrRef spec6 w))
    (e_h : Vd main_v1 = Vx main_v1) (e_W : Vd main_arg3 = Vx main_arg3) (e_b : Vd main_v0 = Vx main_v0) (e_out : Vd main_v28 = Vx main_v28)
    (T : pre6.Contents (Elt F)) (hT : ∀ j, T j = Vd (pre6.ref j)) (e_src : Vd main_v26 = Vx main_v26) (e_dst : Vd main_v27 = Vx main_v27) :
    (unscopedBufs (Ix := Unit) (Name := ℕ) (U := UR sig nD τ) (Lvl := ℕ) c Vx : sProp 𝕄)
      ⊢ iprop(dat.arrays (dat.arrAt · 0)
          ∗ Pipeline.prefHeld (Ix := Unit) (Name := ℕ) (U := UR sig nD τ) (Lvl := ℕ) pre6 c (fun _ => fullShare) T ∗ rest6 c Vx) :=
  (bufs6 a c dat hq0 hq1 hq2 hq3 Vx (fun w => dat.arrAt w 0)
    (funext fun w => match w with
      | ⟨0, h⟩ => by show dat.arrAt ⟨0, h⟩ 0 = Vx main_v1; exact (hA ⟨0, h⟩).trans e_h
      | ⟨1, h⟩ => by show dat.arrAt ⟨1, h⟩ 0 = Vx main_v1; exact (hA ⟨1, h⟩).trans e_h
      | ⟨2, h⟩ => by show dat.arrAt ⟨2, h⟩ 0 = Vx main_arg3; exact (hA ⟨2, h⟩).trans e_W
      | ⟨3, h⟩ => by show dat.arrAt ⟨3, h⟩ 0 = Vx main_v0; exact (hA ⟨3, h⟩).trans e_b
      | ⟨4, h⟩ => by show dat.arrAt ⟨4, h⟩ 0 = Vx main_v28; exact (hA ⟨4, h⟩).trans e_out)
    T (funext fun j => match j with
      | ⟨0, h⟩ => by show T ⟨0, h⟩ = Vx main_v26; exact (hT ⟨0, h⟩).trans e_src
      | ⟨1, h⟩ => by show T ⟨1, h⟩ = Vx main_v27; exact (hT ⟨1, h⟩).trans e_dst)).1

set_option maxHeartbeats 1600000 in
/-- EXIT, everything a variable: the inputs' arrays end as they began, the output array at what the last write-backs
    leave (`x_out`); whenever `Vx` holds those contents at the six touched buffers, the pipeline's arrays at their final
    contents, the two tables and the rest at `Vx` are the unscoped buffers at `Vx`. -/
theorem exit6 (a : (pcfg6 (F := F)).Adm) (c : Dev nD) (dat : Dat τ (Elt F) Unit ℕ (UR sig nD τ) ℕ (cfg6 a) c) (N : Nat)
    (hq0 : dat.q 0 = fullShare.left) (hq1 : dat.q 1 = fullShare.right) (hq2 : dat.q 2 = fullShare) (hq3 : dat.q 3 = fullShare)
    (Vd Vx : (b : Ref sig .tc) → Buf (Elt F) ((c.tc : Thread nD τ).loc b))
    (hA : ∀ w, dat.A w = Vd (Pipeline.arrRef spec6 w))
    (x_h : Vd main_v1 = Vx main_v1) (x_W : Vd main_arg3 = Vx main_arg3) (x_b : Vd main_v0 = Vx main_v0) (x_out : dat.arrAt 4 N = Vx main_v28)
    (T : pre6.Contents (Elt F)) (hT : ∀ j, T j = Vd (pre6.ref j)) (x_src : Vd main_v26 = Vx main_v26) (x_dst : Vd main_v27 = Vx main_v27) :
    iprop(dat.arrays (dat.arrAt · N)
        ∗ Pipeline.prefHeld (Ix := Unit) (Name := ℕ) (U := UR sig nD τ) (Lvl := ℕ) pre6 c (fun _ => fullShare) T ∗ rest6 c Vx)
      ⊢ (unscopedBufs (Ix := Unit) (Name := ℕ) (U := UR sig nD τ) (Lvl := ℕ) c Vx : sProp 𝕄) :=
  (bufs6 a c dat hq0 hq1 hq2 hq3 Vx (fun w => dat.arrAt w N)
    (funext fun w => match w with
      | ⟨0, h⟩ => by show dat.arrAt ⟨0, h⟩ N = Vx main_v1; exact (dat.arrAt_in ⟨0, h⟩ rfl N).trans ((hA ⟨0, h⟩).trans x_h)
      | ⟨1, h⟩ => by show dat.arrAt ⟨1, h⟩ N = Vx main_v1; exact (dat.arrAt_in ⟨1, h⟩ rfl N).trans ((hA ⟨1, h⟩).trans x_h)
      | ⟨2, h⟩ => by show dat.arrAt ⟨2, h⟩ N = Vx main_arg3; exact (dat.arrAt_in ⟨2, h⟩ rfl N).trans ((hA ⟨2, h⟩).trans x_W)
      | ⟨3, h⟩ => by show dat.arrAt ⟨3, h⟩ N = Vx main_v0; exact (dat.arrAt_in ⟨3, h⟩ rfl N).trans ((hA ⟨3, h⟩).trans x_b)
      | ⟨4, h⟩ => by show dat.arrAt ⟨4, h⟩ N = Vx main_v28; exact x_out)
    T (funext fun j => match j with
      | ⟨0, h⟩ => by show T ⟨0, h⟩ = Vx main_v26; exact (hT ⟨0, h⟩).trans x_src
      | ⟨1, h⟩ => by show T ⟨1, h⟩ = Vx main_v27; exact (hT ⟨1, h⟩).trans x_dst)).2

variable (m : (ℓ : Loc nD τ sig) → Buf (Elt F) ℓ) (hO : Oks m)

/-! ## What the region finds and leaves, buffer by buffer -/

include hO

theorem fin6_h (c : Dev nD) : Ve6 m c main_v1 = V13 m (outsR m hO) c main_v1 := by first | exact indep6_h m (outsL m) (outsR m hO) c | rfl
theorem fin6_W (c : Dev nD) : Ve6 m c main_arg3 = V13 m (outsR m hO) c main_arg3 := by first | exact indep6_W m (outsL m) (outsR m hO) c | rfl
theorem fin6_b (c : Dev nD) : Ve6 m c main_v0 = V13 m (outsR m hO) c main_v0 := by first | exact indep6_b m (outsL m) (outsR m hO) c | rfl
theorem fin6_out (c : Dev nD) : Ve6 m c main_v28 = V13 m (outsR m hO) c main_v28 := by first | exact indep6_out m (outsL m) (outsR m hO) c | rfl
theorem fin6_src (c : Dev nD) : Ve6 m c main_v26 = V13 m (outsR m hO) c main_v26 := by first | exact indep6_src m (outsL m) (outsR m hO) c | rfl
theorem fin6_dst (c : Dev nD) : Ve6 m c main_v27 = V13 m (outsR m hO) c main_v27 := by first | exact indep6_dst m (outsL m) (outsR m hO) c | rfl

/-- What the region leaves in the buffers it touches: the inputs and the tables as they were, the output array at the
    region's chunk. -/
theorem lv6_h (c : Dev nD) : V14 m (outsR m hO) c main_v1 = V13 m (outsR m hO) c main_v1 := V14_of m (outsR m hO) c main_v1 (by decide)
theorem lv6_W (c : Dev nD) : V14 m (outsR m hO) c main_arg3 = V13 m (outsR m hO) c main_arg3 := V14_of m (outsR m hO) c main_arg3 (by decide)
theorem lv6_b (c : Dev nD) : V14 m (outsR m hO) c main_v0 = V13 m (outsR m hO) c main_v0 := V14_of m (outsR m hO) c main_v0 (by decide)
theorem lv6_src (c : Dev nD) : V14 m (outsR m hO) c main_v26 = V13 m (outsR m hO) c main_v26 := V14_of m (outsR m hO) c main_v26 (by decide)
theorem lv6_dst (c : Dev nD) : V14 m (outsR m hO) c main_v27 = V13 m (outsR m hO) c main_v27 := V14_of m (outsR m hO) c main_v27 (by decide)
theorem lv6_out (c : Dev nD) : V14 m (outsR m hO) c main_v28 = chunk6 m hO c :=
  (Function.update_self _ _ _).trans (outsR_6 m hO c)

/-- The buffers the region does not touch pass it by unchanged. -/
theorem rest6_eq (c : Dev nD) : (rest6 c (fun b => V13 m (outsR m hO) c b) : sProp 𝕄) = rest6 c (fun b => V14 m (outsR m hO) c b) := by
  unfold rest6
  exact BI.bigSep_congr fun b hb => by
    dsimp only
    rw [V14_of m (outsR m hO) c b (fun h => (Finset.mem_sdiff.mp hb).2 (by rw [List.mem_singleton.mp h]; decide))]

set_option maxHeartbeats 1600000 in
set_option backward.isDefEq.respectTransparency.types false in
/-- REGION 0 over the boundary states. -/
def reg6 : Pipeline.RegionSeg (pcfgs (F := F)) (adm m hO) (pdats m hO) () defs₀ 𝒱₀ L lv (6 : Fin 16) where
  win := winFacts₀6
  block_pos := block_pos6
  stage_whole := stage_whole6
  K := PEmpty
  osem k := k.elim
  ho := Pipeline.OwnSemFacts.none _
  hbody c := (body_obligation6 (Ve6 m) ⟨tbl6 m, hO.h6⟩ c).loose
  hwaits := Pipeline.hwaits_of_owed_zero _ _ _ _ L lv (6 : Fin 16) fun _ _ => rfl
  pre c := iprop(StableHlo.held (c : Thread nD τ) (Pipeline.ucRefs τ sig) (V13 m (outsR m hO) c) ∗ Rst c)
  post c := iprop(StableHlo.held (c : Thread nD τ) (Pipeline.ucRefs τ sig) (V14 m (outsR m hO) c) ∗ Rst c)
  X c := iprop(∃ r, prngReg c r)
  Y c := iprop((∃ r, prngReg c r) ∗ Pipeline.prefHeld (Ix := Unit) (Name := ℕ) (U := UR sig nD τ) (Lvl := ℕ) pre6 c (fun _ => fullShare) (tbl6 m))
  Z c := rest6 c (fun b => V13 m (outsR m hO) c b)
  hentry c := by
    obtain rfl : c = 0 := Subsingleton.elim _ _
    have hb := entry6 (adm m hO (6 : Fin 16)) 0 (pdats m hO (6 : Fin 16) 0) rfl rfl rfl rfl (Ve6 m 0) (fun b => V13 m (outsR m hO) 0 b) (fun w => rfl)
      (fin6_h m hO 0) (fin6_W m hO 0) (fin6_b m hO 0) (fin6_out m hO 0) (tbl6 m) (fun j => rfl) (fin6_src m hO 0) (fin6_dst m hO 0)
    rw [Pipeline.unscopedBufs_held] at hb
    iintro ⟨⟨Hub, Hp, HO⟩, -, -⟩
    ihave H := hb $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO (6 : Fin 16) c).Φ 0 = iprop(Pipeline.ΦA spec6 c ∗ Pipeline.prefHeld (Ix := Unit) (Name := ℕ) (U := UR sig nD τ) (Lvl := ℕ) pre6 c (fun _ => fullShare) (tbl6 m)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m hO (6 : Fin 16) c).Φ (Fin.last _) = iprop(Pipeline.ΦA spec6 c ∗ Pipeline.prefHeld (Ix := Unit) (Name := ℕ) (U := UR sig nD τ) (Lvl := ℕ) pre6 c (fun _ => fullShare) (tbl6 m)) from rfl]
    unfold Pipeline.ΦA
    iintro ⟨⟨Hr, Hp⟩, Ht⟩
    isplitl [Hp Ht]
    · isplitl [Hp]; · iexact Hp
      iexact Ht
    isplitr; · iempintro
    iexact Hr
  hexit c := by
    obtain rfl : c = 0 := Subsingleton.elim _ _
    have hb := exit6 (adm m hO (6 : Fin 16)) 0 (pdats m hO (6 : Fin 16) 0) (Pipeline.pin (pcfgs (F := F)) (adm m hO) (6 : Fin 16)).N rfl rfl rfl rfl
      (Ve6 m 0) (fun b => V14 m (outsR m hO) 0 b) (fun w => rfl)
      ((fin6_h m hO 0).trans (lv6_h m hO 0).symm) ((fin6_W m hO 0).trans (lv6_W m hO 0).symm) ((fin6_b m hO 0).trans (lv6_b m hO 0).symm)
      (lv6_out m hO 0).symm (tbl6 m) (fun j => rfl) ((fin6_src m hO 0).trans (lv6_src m hO 0).symm) ((fin6_dst m hO 0).trans (lv6_dst m hO 0).symm)
    rw [Pipeline.unscopedBufs_held, ← rest6_eq m hO 0] at hb
    iintro ⟨Ha, HO, ⟨Hp, Ht⟩, Hrest⟩
    imodintro
    isplitl [Ha Ht Hrest]
    · iapply hb
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Cert.Kernel.Hand

end
-- ==== Proof.KReg7.lean ====
/-
  Region 7 of the edge scorer as a segment of the program's run.

  The region is entered with every unscoped buffer held whole at the contents the host operations before it leave,
  beside the generator register and nothing owed. Of those buffers the pipeline takes the four arrays its five windows
  read and write — the feature rows (read by two windows, each at one half of the full share), the weights, the
  bias and the output chunk — and the two index tables; the other unscoped buffers bypass the region. At the exit the
  feature rows' two halves rejoin, the inputs are as they were, the output array holds the region's chunk, and
  the whole is the next boundary's contents.
-/
import proofs.«405368_j31662498906597_2_alg».proof.Proof.KFamily
import proofs.«405368_j31662498906597_2_alg».proof.Proof.KHostEntry
import proofs.«405368_j31662498906597_2_alg».proof.Proof.KHostEntryGen
import Idealize.ShloMosaic.Lib.Pipeline.RegionsLoop

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The six unscoped buffers region 7 touches: the feature rows, the weights, the bias, its output chunk and its two
    index tables. -/
abbrev arrs7 : Finset (Ref sig .tc) := insert main_v1 (insert main_arg3 (insert main_v0 (insert main_v32 (insert main_v30 {main_v31}))))

theorem arrs7_sub : arrs7 ⊆ Finset.univ.filter fun b : Ref sig .tc => ¬ b.isScoped := by decide

/-- The unscoped buffers region 7 does not touch, held whole at `V`. -/
def rest7 (c : Dev nD) (V : (b : Ref sig .tc) → Buf (Elt F) ((c.tc : Thread nD τ).loc b)) : sProp 𝕄 :=
  bigSep ((Finset.univ.filter fun b : Ref sig .tc => ¬ b.isScoped) \ arrs7) fun b => ((c.tc : Thread nD τ).loc b) ↦{fullShare} V b

/-- The six touched buffers one by one, and the rest. -/
theorem ub_split7 (c : Dev nD) (V : (b : Ref sig .tc) → Buf (Elt F) ((c.tc : Thread nD τ).loc b)) :
    (unscopedBufs (Ix := Unit) (Name := ℕ) (U := UR sig nD τ) (Lvl := ℕ) c V : sProp 𝕄)
      = iprop(iprop((((c.tc : Thread nD τ).loc main_v1) ↦{fullShare} V main_v1) ∗ (((c.tc : Thread nD τ).loc main_arg3) ↦{fullShare} V main_arg3)
          ∗ (((c.tc : Thread nD τ).loc main_v0) ↦{fullShare} V main_v0) ∗ (((c.tc : Thread nD τ).loc main_v32) ↦{fullShare} V main_v32)
          ∗ (((c.tc : Thread nD τ).loc main_v30) ↦{fullShare} V main_v30) ∗ (((c.tc : Thread nD τ).loc main_v31) ↦{fullShare} V main_v31)) ∗ rest7 c V) := by
  unfold unscopedBufs rest7
  rw [BI.bigSep_sdiff_split arrs7_sub]
  refine congrArg (fun X => iprop(X ∗ _)) ?_
  show bigSep (insert main_v1 (insert main_arg3 (insert main_v0 (insert main_v32 (insert main_v30 {main_v31}))))) _ = _
  rw [BI.bigSep_insert (by decide), BI.bigSep_insert (by decide), BI.bigSep_insert (by decide), BI.bigSep_insert (by decide),
    BI.bigSep_insert (by decide), BI.bigSep_singleton]
  rfl

/-- A product over two tables, written out. -/
theorem two_tables7 (Φ : Fin 2 → sProp 𝕄) : bigSep Finset.univ Φ = iprop(Φ 0 ∗ Φ 1) := BI.bigSep_fin_two Φ

/-- The five windows' arrays and the two tables, by name. -/
theorem arrRef7_0 : Pipeline.arrRef spec7 (0 : Fin 5) = main_v1 := rfl
theorem arrRef7_1 : Pipeline.arrRef spec7 (1 : Fin 5) = main_v1 := rfl
theorem arrRef7_2 : Pipeline.arrRef spec7 (2 : Fin 5) = main_arg3 := rfl
theorem arrRef7_3 : Pipeline.arrRef spec7 (3 : Fin 5) = main_v0 := rfl
theorem arrRef7_4 : Pipeline.arrRef spec7 (4 : Fin 5) = main_v32 := rfl
theorem preRef7_0 : pre7.ref (0 : Fin 2) = main_v30 := rfl
theorem preRef7_1 : pre7.ref (1 : Fin 2) = main_v31 := rfl

set_option maxHeartbeats 1600000 in
/-- A core's unscoped buffers held whole at `V` ARE the pipeline's arrays at `V`'s contents of them (the feature rows'
    full share dealt as its two halves to the two windows that read them), the two tables at `V`'s contents of
    them, and the rest. Both directions: the region's entry and its exit. -/
theorem bufs7 (a : (pcfg7 (F := F)).Adm) (c : Dev nD) (dat : Dat τ (Elt F) Unit ℕ (UR sig nD τ) ℕ (cfg7 a) c)
    (hq0 : dat.q 0 = fullShare.left) (hq1 : dat.q 1 = fullShare.right) (hq2 : dat.q 2 = fullShare) (hq3 : dat.q 3 = fullShare)
    (V : (b : Ref sig .tc) → Buf (Elt F) ((c.tc : Thread nD τ).loc b))
    (G : (w : Fin (cfg7 a).W) → Buf (Elt F) (((cfg7 a).win w).arr.view.loc (c.tc : Thread nD τ)))
    (hG : G = fun w => V (Pipeline.arrRef spec7 w))
    (T : pre7.Contents (Elt F)) (hT : T = fun k => V (pre7.ref k)) :
    (unscopedBufs (Ix := Unit) (Name := ℕ) (U := UR sig nD τ) (Lvl := ℕ) c V : sProp 𝕄)
      ⊣⊢ iprop(dat.arrays G ∗ Pipeline.prefHeld (Ix := Unit) (Name := ℕ) (U := UR sig nD τ) (Lvl := ℕ) pre7 c (fun _ => fullShare) T ∗ rest7 c V) := by
  subst hG hT
  have harr : ∀ w, (((cfg7 a).spec w).arr).IsWhole := arr_whole7
  have hA : dat.arrays (fun w => V (Pipeline.arrRef spec7 w))
      = bigSep Finset.univ fun w : Fin 5 => (((c.tc : Thread nD τ).loc (Pipeline.arrRef spec7 w)) ↦{dat.share w} V (Pipeline.arrRef spec7 w) : sProp 𝕄) := by
    unfold Dat.arrays
    exact BI.bigSep_congr fun w _ => by rw [(harr w).set_eq_univ]
  have s0 : dat.share 0 = fullShare.left := by unfold Dat.share; rw [show ((cfg7 a).win 0).isOut = false from rfl]; exact hq0
  have s1 : dat.share 1 = fullShare.right := by unfold Dat.share; rw [show ((cfg7 a).win 1).isOut = false from rfl]; exact hq1
  have s2 : dat.share 2 = fullShare := by unfold Dat.share; rw [show ((cfg7 a).win 2).isOut = false from rfl]; exact hq2
  have s3 : dat.share 3 = fullShare := by unfold Dat.share; rw [show ((cfg7 a).win 3).isOut = false from rfl]; exact hq3
  have s4 : dat.share 4 = fullShare := by unfold Dat.share; rw [show ((cfg7 a).win 4).isOut = true from rfl]; rfl
  rw [ub_split7, hA, bigSep_W7, s0, s1, s2, s3, s4]
  unfold Pipeline.prefHeld
  rw [two_tables7]
  simp only [arrRef7_0, arrRef7_1, arrRef7_2, arrRef7_3, arrRef7_4, preRef7_0, preRef7_1]
  constructor
  · iintro ⟨⟨H1, HW, HB, HO, HS, HD⟩, Hr⟩
    ihave H1' := (pointsTo_share (PosShare.mem_left_op_right fullShare)).1 $$ H1
    icases H1' with ⟨H1a, H1b⟩
    isplitl [H1a H1b HW HB HO]
    · isplitl [H1a]; · iexact H1a
      isplitl [H1b]; · iexact H1b
      isplitl [HW]; · iexact HW
      isplitl [HB]; · iexact HB
      iexact HO
    isplitl [HS HD]
    · isplitl [HS]; · iexact HS
      iexact HD
    iexact Hr
  · iintro ⟨⟨H1a, H1b, HW, HB, HO⟩, ⟨HS, HD⟩, Hr⟩
    ihave H1 := (pointsTo_share (PosShare.mem_left_op_right fullShare)).2 $$ [H1a H1b]
    · isplitl [H1a]; · iexact H1a
      iexact H1b
    isplitr [Hr]
    · isplitl [H1]; · iexact H1
      isplitl [HW]; · iexact HW
      isplitl [HB]; · iexact HB
      isplitl [HO]; · iexact HO
      isplitl [HS]; · iexact HS
      iexact HD
    iexact Hr

set_option maxHeartbeats 1600000 in
/-- ENTRY, everything a variable: for any proof data `dat` whose arrays are `Vd`'s contents (`hA`) and any tables `T`
    that are `Vd`'s contents (`hT`), whenever the boundary contents `Vx` agree with `Vd` at the six touched buffers, the
    unscoped buffers at `Vx` are the pipeline's arrays at their entry contents, the two tables, and the rest. -/
theorem entry7 (a : (pcfg7 (F := F)).Adm) (c : Dev nD) (dat : Dat τ (Elt F) Unit ℕ (UR sig nD τ) ℕ (cfg7 a) c)
    (hq0 : dat.q 0 = fullShare.left) (hq1 : dat.q 1 = fullShare.right) (hq2 : dat.q 2 = fullShare) (hq3 : dat.q 3 = fullShare)
    (Vd Vx : (b : Ref sig .tc) → Buf (Elt F) ((c.tc : Thread nD τ).loc b))
    (hA : ∀ w, dat.A w = Vd (Pipeline.arrRef spec7 w))
    (e_h : Vd main_v1 = Vx main_v1) (e_W : Vd main_arg3 = Vx main_arg3) (e_b : Vd main_v0 = Vx main_v0) (e_out : Vd main_v32 = Vx main_v32)
    (T : pre7.Contents (Elt F)) (hT : ∀ j, T j = Vd (pre7.ref j)) (e_src : Vd main_v30 = Vx main_v30) (e_dst : Vd main_v31 = Vx main_v31) :
    (unscopedBufs (Ix := Unit) (Name := ℕ) (U := UR sig nD τ) (Lvl := ℕ) c Vx : sProp 𝕄)
      ⊢ iprop(dat.arrays (dat.arrAt · 0)
          ∗ Pipeline.prefHeld (Ix := Unit) (Name := ℕ) (U := UR sig nD τ) (Lvl := ℕ) pre7 c (fun _ => fullShare) T ∗ rest7 c Vx) :=
  (bufs7 a c dat hq0 hq1 hq2 hq3 Vx (fun w => dat.arrAt w 0)
    (funext fun w => match w with
      | ⟨0, h⟩ => by show dat.arrAt ⟨0, h⟩ 0 = Vx main_v1; exact (hA ⟨0, h⟩).trans e_h
      | ⟨1, h⟩ => by show dat.arrAt ⟨1, h⟩ 0 = Vx main_v1; exact (hA ⟨1, h⟩).trans e_h
      | ⟨2, h⟩ => by show dat.arrAt ⟨2, h⟩ 0 = Vx main_arg3; exact (hA ⟨2, h⟩).trans e_W
      | ⟨3, h⟩ => by show dat.arrAt ⟨3, h⟩ 0 = Vx main_v0; exact (hA ⟨3, h⟩).trans e_b
      | ⟨4, h⟩ => by show dat.arrAt ⟨4, h⟩ 0 = Vx main_v32; exact (hA ⟨4, h⟩).trans e_out)
    T (funext fun j => match j with
      | ⟨0, h⟩ => by show T ⟨0, h⟩ = Vx main_v30; exact (hT ⟨0, h⟩).trans e_src
      | ⟨1, h⟩ => by show T ⟨1, h⟩ = Vx main_v31; exact (hT ⟨1, h⟩).trans e_dst)).1

set_option maxHeartbeats 1600000 in
/-- EXIT, everything a variable: the inputs' arrays end as they began, the output array at what the last write-backs
    leave (`x_out`); whenever `Vx` holds those contents at the six touched buffers, the pipeline's arrays at their final
    contents, the two tables and the rest at `Vx` are the unscoped buffers at `Vx`. -/
theorem exit7 (a : (pcfg7 (F := F)).Adm) (c : Dev nD) (dat : Dat τ (Elt F) Unit ℕ (UR sig nD τ) ℕ (cfg7 a) c) (N : Nat)
    (hq0 : dat.q 0 = fullShare.left) (hq1 : dat.q 1 = fullShare.right) (hq2 : dat.q 2 = fullShare) (hq3 : dat.q 3 = fullShare)
    (Vd Vx : (b : Ref sig .tc) → Buf (Elt F) ((c.tc : Thread nD τ).loc b))
    (hA : ∀ w, dat.A w = Vd (Pipeline.arrRef spec7 w))
    (x_h : Vd main_v1 = Vx main_v1) (x_W : Vd main_arg3 = Vx main_arg3) (x_b : Vd main_v0 = Vx main_v0) (x_out : dat.arrAt 4 N = Vx main_v32)
    (T : pre7.Contents (Elt F)) (hT : ∀ j, T j = Vd (pre7.ref j)) (x_src : Vd main_v30 = Vx main_v30) (x_dst : Vd main_v31 = Vx main_v31) :
    iprop(dat.arrays (dat.arrAt · N)
        ∗ Pipeline.prefHeld (Ix := Unit) (Name := ℕ) (U := UR sig nD τ) (Lvl := ℕ) pre7 c (fun _ => fullShare) T ∗ rest7 c Vx)
      ⊢ (unscopedBufs (Ix := Unit) (Name := ℕ) (U := UR sig nD τ) (Lvl := ℕ) c Vx : sProp 𝕄) :=
  (bufs7 a c dat hq0 hq1 hq2 hq3 Vx (fun w => dat.arrAt w N)
    (funext fun w => match w with
      | ⟨0, h⟩ => by show dat.arrAt ⟨0, h⟩ N = Vx main_v1; exact (dat.arrAt_in ⟨0, h⟩ rfl N).trans ((hA ⟨0, h⟩).trans x_h)
      | ⟨1, h⟩ => by show dat.arrAt ⟨1, h⟩ N = Vx main_v1; exact (dat.arrAt_in ⟨1, h⟩ rfl N).trans ((hA ⟨1, h⟩).trans x_h)
      | ⟨2, h⟩ => by show dat.arrAt ⟨2, h⟩ N = Vx main_arg3; exact (dat.arrAt_in ⟨2, h⟩ rfl N).trans ((hA ⟨2, h⟩).trans x_W)
      | ⟨3, h⟩ => by show dat.arrAt ⟨3, h⟩ N = Vx main_v0; exact (dat.arrAt_in ⟨3, h⟩ rfl N).trans ((hA ⟨3, h⟩).trans x_b)
      | ⟨4, h⟩ => by show dat.arrAt ⟨4, h⟩ N = Vx main_v32; exact x_out)
    T (funext fun j => match j with
      | ⟨0, h⟩ => by show T ⟨0, h⟩ = Vx main_v30; exact (hT ⟨0, h⟩).trans x_src
      | ⟨1, h⟩ => by show T ⟨1, h⟩ = Vx main_v31; exact (hT ⟨1, h⟩).trans x_dst)).2

variable (m : (ℓ : Loc nD τ sig) → Buf (Elt F) ℓ) (hO : Oks m)

/-! ## What the region finds and leaves, buffer by buffer -/

include hO

theorem fin7_h (c : Dev nD) : Ve7 m c main_v1 = V15 m (outsR m hO) c main_v1 := by first | exact indep7_h m (outsL m) (outsR m hO) c | rfl
theorem fin7_W (c : Dev nD) : Ve7 m c main_arg3 = V15 m (outsR m hO) c main_arg3 := by first | exact indep7_W m (outsL m) (outsR m hO) c | rfl
theorem fin7_b (c : Dev nD) : Ve7 m c main_v0 = V15 m (outsR m hO) c main_v0 := by first | exact indep7_b m (outsL m) (outsR m hO) c | rfl
theorem fin7_out (c : Dev nD) : Ve7 m c main_v32 = V15 m (outsR m hO) c main_v32 := by first | exact indep7_out m (outsL m) (outsR m hO) c | rfl
theorem fin7_src (c : Dev nD) : Ve7 m c main_v30 = V15 m (outsR m hO) c main_v30 := by first | exact indep7_src m (outsL m) (outsR m hO) c | rfl
theorem fin7_dst (c : Dev nD) : Ve7 m c main_v31 = V15 m (outsR m hO) c main_v31 := by first | exact indep7_dst m (outsL m) (outsR m hO) c | rfl

/-- What the region leaves in the buffers it touches: the inputs and the tables as they were, the output array at the
    region's chunk. -/
theorem lv7_h (c : Dev nD) : V16 m (outsR m hO) c main_v1 = V15 m (outsR m hO) c main_v1 := V16_of m (outsR m hO) c main_v1 (by decide)
theorem lv7_W (c : Dev nD) : V16 m (outsR m hO) c main_arg3 = V15 m (outsR m hO) c main_arg3 := V16_of m (outsR m hO) c main_arg3 (by decide)
theorem lv7_b (c : Dev nD) : V16 m (outsR m hO) c main_v0 = V15 m (outsR m hO) c main_v0 := V16_of m (outsR m hO) c main_v0 (by decide)
theorem lv7_src (c : Dev nD) : V16 m (outsR m hO) c main_v30 = V15 m (outsR m hO) c main_v30 := V16_of m (outsR m hO) c main_v30 (by decide)
theorem lv7_dst (c : Dev nD) : V16 m (outsR m hO) c main_v31 = V15 m (outsR m hO) c main_v31 := V16_of m (outsR m hO) c main_v31 (by decide)
theorem lv7_out (c : Dev nD) : V16 m (outsR m hO) c main_v32 = chunk7 m hO c :=
  (Function.update_self _ _ _).trans (outsR_7 m hO c)

/-- The buffers the region does not touch pass it by unchanged. -/
theorem rest7_eq (c : Dev nD) : (rest7 c (fun b => V15 m (outsR m hO) c b) : sProp 𝕄) = rest7 c (fun b => V16 m (outsR m hO) c b) := by
  unfold rest7
  exact BI.bigSep_congr fun b hb => by
    dsimp only
    rw [V16_of m (outsR m hO) c b (fun h => (Finset.mem_sdiff.mp hb).2 (by rw [List.mem_singleton.mp h]; decide))]

set_option maxHeartbeats 1600000 in
set_option backward.isDefEq.respectTransparency.types false in
/-- REGION 0 over the boundary states. -/
def reg7 : Pipeline.RegionSeg (pcfgs (F := F)) (adm m hO) (pdats m hO) () defs₀ 𝒱₀ L lv (7 : Fin 16) where
  win := winFacts₀7
  block_pos := block_pos7
  stage_whole := stage_whole7
  K := PEmpty
  osem k := k.elim
  ho := Pipeline.OwnSemFacts.none _
  hbody c := (body_obligation7 (Ve7 m) ⟨tbl7 m, hO.h7⟩ c).loose
  hwaits := Pipeline.hwaits_of_owed_zero _ _ _ _ L lv (7 : Fin 16) fun _ _ => rfl
  pre c := iprop(StableHlo.held (c : Thread nD τ) (Pipeline.ucRefs τ sig) (V15 m (outsR m hO) c) ∗ Rst c)
  post c := iprop(StableHlo.held (c : Thread nD τ) (Pipeline.ucRefs τ sig) (V16 m (outsR m hO) c) ∗ Rst c)
  X c := iprop(∃ r, prngReg c r)
  Y c := iprop((∃ r, prngReg c r) ∗ Pipeline.prefHeld (Ix := Unit) (Name := ℕ) (U := UR sig nD τ) (Lvl := ℕ) pre7 c (fun _ => fullShare) (tbl7 m))
  Z c := rest7 c (fun b => V15 m (outsR m hO) c b)
  hentry c := by
    obtain rfl : c = 0 := Subsingleton.elim _ _
    have hb := entry7 (adm m hO (7 : Fin 16)) 0 (pdats m hO (7 : Fin 16) 0) rfl rfl rfl rfl (Ve7 m 0) (fun b => V15 m (outsR m hO) 0 b) (fun w => rfl)
      (fin7_h m hO 0) (fin7_W m hO 0) (fin7_b m hO 0) (fin7_out m hO 0) (tbl7 m) (fun j => rfl) (fin7_src m hO 0) (fin7_dst m hO 0)
    rw [Pipeline.unscopedBufs_held] at hb
    iintro ⟨⟨Hub, Hp, HO⟩, -, -⟩
    ihave H := hb $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO (7 : Fin 16) c).Φ 0 = iprop(Pipeline.ΦA spec7 c ∗ Pipeline.prefHeld (Ix := Unit) (Name := ℕ) (U := UR sig nD τ) (Lvl := ℕ) pre7 c (fun _ => fullShare) (tbl7 m)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m hO (7 : Fin 16) c).Φ (Fin.last _) = iprop(Pipeline.ΦA spec7 c ∗ Pipeline.prefHeld (Ix := Unit) (Name := ℕ) (U := UR sig nD τ) (Lvl := ℕ) pre7 c (fun _ => fullShare) (tbl7 m)) from rfl]
    unfold Pipeline.ΦA
    iintro ⟨⟨Hr, Hp⟩, Ht⟩
    isplitl [Hp Ht]
    · isplitl [Hp]; · iexact Hp
      iexact Ht
    isplitr; · iempintro
    iexact Hr
  hexit c := by
    obtain rfl : c = 0 := Subsingleton.elim _ _
    have hb := exit7 (adm m hO (7 : Fin 16)) 0 (pdats m hO (7 : Fin 16) 0) (Pipeline.pin (pcfgs (F := F)) (adm m hO) (7 : Fin 16)).N rfl rfl rfl rfl
      (Ve7 m 0) (fun b => V16 m (outsR m hO) 0 b) (fun w => rfl)
      ((fin7_h m hO 0).trans (lv7_h m hO 0).symm) ((fin7_W m hO 0).trans (lv7_W m hO 0).symm) ((fin7_b m hO 0).trans (lv7_b m hO 0).symm)
      (lv7_out m hO 0).symm (tbl7 m) (fun j => rfl) ((fin7_src m hO 0).trans (lv7_src m hO 0).symm) ((fin7_dst m hO 0).trans (lv7_dst m hO 0).symm)
    rw [Pipeline.unscopedBufs_held, ← rest7_eq m hO 0] at hb
    iintro ⟨Ha, HO, ⟨Hp, Ht⟩, Hrest⟩
    imodintro
    isplitl [Ha Ht Hrest]
    · iapply hb
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Cert.Kernel.Hand

end
-- ==== Proof.KReg8.lean ====
/-
  Region 8 of the edge scorer as a segment of the program's run.

  The region is entered with every unscoped buffer held whole at the contents the host operations before it leave,
  beside the generator register and nothing owed. Of those buffers the pipeline takes the four arrays its five windows
  read and write — the feature rows (read by two windows, each at one half of the full share), the weights, the
  bias and the output chunk — and the two index tables; the other unscoped buffers bypass the region. At the exit the
  feature rows' two halves rejoin, the inputs are as they were, the output array holds the region's chunk, and
  the whole is the next boundary's contents.
-/
import proofs.«405368_j31662498906597_2_alg».proof.Proof.KFamily
import proofs.«405368_j31662498906597_2_alg».proof.Proof.KHostEntry
import proofs.«405368_j31662498906597_2_alg».proof.Proof.KHostEntryGen
import Idealize.ShloMosaic.Lib.Pipeline.RegionsLoop

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The six unscoped buffers region 8 touches: the feature rows, the weights, the bias, its output chunk and its two
    index tables. -/
abbrev arrs8 : Finset (Ref sig .tc) := insert main_v1 (insert main_arg3 (insert main_v0 (insert main_v36 (insert main_v34 {main_v35}))))

theorem arrs8_sub : arrs8 ⊆ Finset.univ.filter fun b : Ref sig .tc => ¬ b.isScoped := by decide

/-- The unscoped buffers region 8 does not touch, held whole at `V`. -/
def rest8 (c : Dev nD) (V : (b : Ref sig .tc) → Buf (Elt F) ((c.tc : Thread nD τ).loc b)) : sProp 𝕄 :=
  bigSep ((Finset.univ.filter fun b : Ref sig .tc => ¬ b.isScoped) \ arrs8) fun b => ((c.tc : Thread nD τ).loc b) ↦{fullShare} V b

/-- The six touched buffers one by one, and the rest. -/
theorem ub_split8 (c : Dev nD) (V : (b : Ref sig .tc) → Buf (Elt F) ((c.tc : Thread nD τ).loc b)) :
    (unscopedBufs (Ix := Unit) (Name := ℕ) (U := UR sig nD τ) (Lvl := ℕ) c V : sProp 𝕄)
      = iprop(iprop((((c.tc : Thread nD τ).loc main_v1) ↦{fullShare} V main_v1) ∗ (((c.tc : Thread nD τ).loc main_arg3) ↦{fullShare} V main_arg3)
          ∗ (((c.tc : Thread nD τ).loc main_v0) ↦{fullShare} V main_v0) ∗ (((c.tc : Thread nD τ).loc main_v36) ↦{fullShare} V main_v36)
          ∗ (((c.tc : Thread nD τ).loc main_v34) ↦{fullShare} V main_v34) ∗ (((c.tc : Thread nD τ).loc main_v35) ↦{fullShare} V main_v35)) ∗ rest8 c V) := by
  unfold unscopedBufs rest8
  rw [BI.bigSep_sdiff_split arrs8_sub]
  refine congrArg (fun X => iprop(X ∗ _)) ?_
  show bigSep (insert main_v1 (insert main_arg3 (insert main_v0 (insert main_v36 (insert main_v34 {main_v35}))))) _ = _
  rw [BI.bigSep_insert (by decide), BI.bigSep_insert (by decide), BI.bigSep_insert (by decide), BI.bigSep_insert (by decide),
    BI.bigSep_insert (by decide), BI.bigSep_singleton]
  rfl

/-- A product over two tables, written out. -/
theorem two_tables8 (Φ : Fin 2 → sProp 𝕄) : bigSep Finset.univ Φ = iprop(Φ 0 ∗ Φ 1) := BI.bigSep_fin_two Φ

/-- The five windows' arrays and the two tables, by name. -/
theorem arrRef8_0 : Pipeline.arrRef spec8 (0 : Fin 5) = main_v1 := rfl
theorem arrRef8_1 : Pipeline.arrRef spec8 (1 : Fin 5) = main_v1 := rfl
theorem arrRef8_2 : Pipeline.arrRef spec8 (2 : Fin 5) = main_arg3 := rfl
theorem arrRef8_3 : Pipeline.arrRef spec8 (3 : Fin 5) = main_v0 := rfl
theorem arrRef8_4 : Pipeline.arrRef spec8 (4 : Fin 5) = main_v36 := rfl
theorem preRef8_0 : pre8.ref (0 : Fin 2) = main_v34 := rfl
theorem preRef8_1 : pre8.ref (1 : Fin 2) = main_v35 := rfl

set_option maxHeartbeats 1600000 in
/-- A core's unscoped buffers held whole at `V` ARE the pipeline's arrays at `V`'s contents of them (the feature rows'
    full share dealt as its two halves to the two windows that read them), the two tables at `V`'s contents of
    them, and the rest. Both directions: the region's entry and its exit. -/
theorem bufs8 (a : (pcfg8 (F := F)).Adm) (c : Dev nD) (dat : Dat τ (Elt F) Unit ℕ (UR sig nD τ) ℕ (cfg8 a) c)
    (hq0 : dat.q 0 = fullShare.left) (hq1 : dat.q 1 = fullShare.right) (hq2 : dat.q 2 = fullShare) (hq3 : dat.q 3 = fullShare)
    (V : (b : Ref sig .tc) → Buf (Elt F) ((c.tc : Thread nD τ).loc b))
    (G : (w : Fin (cfg8 a).W) → Buf (Elt F) (((cfg8 a).win w).arr.view.loc (c.tc : Thread nD τ)))
    (hG : G = fun w => V (Pipeline.arrRef spec8 w))
    (T : pre8.Contents (Elt F)) (hT : T = fun k => V (pre8.ref k)) :
    (unscopedBufs (Ix := Unit) (Name := ℕ) (U := UR sig nD τ) (Lvl := ℕ) c V : sProp 𝕄)
      ⊣⊢ iprop(dat.arrays G ∗ Pipeline.prefHeld (Ix := Unit) (Name := ℕ) (U := UR sig nD τ) (Lvl := ℕ) pre8 c (fun _ => fullShare) T ∗ rest8 c V) := by
  subst hG hT
  have harr : ∀ w, (((cfg8 a).spec w).arr).IsWhole := arr_whole8
  have hA : dat.arrays (fun w => V (Pipeline.arrRef spec8 w))
      = bigSep Finset.univ fun w : Fin 5 => (((c.tc : Thread nD τ).loc (Pipeline.arrRef spec8 w)) ↦{dat.share w} V (Pipeline.arrRef spec8 w) : sProp 𝕄) := by
    unfold Dat.arrays
    exact BI.bigSep_congr fun w _ => by rw [(harr w).set_eq_univ]
  have s0 : dat.share 0 = fullShare.left := by unfold Dat.share; rw [show ((cfg8 a).win 0).isOut = false from rfl]; exact hq0
  have s1 : dat.share 1 = fullShare.right := by unfold Dat.share; rw [show ((cfg8 a).win 1).isOut = false from rfl]; exact hq1
  have s2 : dat.share 2 = fullShare := by unfold Dat.share; rw [show ((cfg8 a).win 2).isOut = false from rfl]; exact hq2
  have s3 : dat.share 3 = fullShare := by unfold Dat.share; rw [show ((cfg8 a).win 3).isOut = false from rfl]; exact hq3
  have s4 : dat.share 4 = fullShare := by unfold Dat.share; rw [show ((cfg8 a).win 4).isOut = true from rfl]; rfl
  rw [ub_split8, hA, bigSep_W8, s0, s1, s2, s3, s4]
  unfold Pipeline.prefHeld
  rw [two_tables8]
  simp only [arrRef8_0, arrRef8_1, arrRef8_2, arrRef8_3, arrRef8_4, preRef8_0, preRef8_1]
  constructor
  · iintro ⟨⟨H1, HW, HB, HO, HS, HD⟩, Hr⟩
    ihave H1' := (pointsTo_share (PosShare.mem_left_op_right fullShare)).1 $$ H1
    icases H1' with ⟨H1a, H1b⟩
    isplitl [H1a H1b HW HB HO]
    · isplitl [H1a]; · iexact H1a
      isplitl [H1b]; · iexact H1b
      isplitl [HW]; · iexact HW
      isplitl [HB]; · iexact HB
      iexact HO
    isplitl [HS HD]
    · isplitl [HS]; · iexact HS
      iexact HD
    iexact Hr
  · iintro ⟨⟨H1a, H1b, HW, HB, HO⟩, ⟨HS, HD⟩, Hr⟩
    ihave H1 := (pointsTo_share (PosShare.mem_left_op_right fullShare)).2 $$ [H1a H1b]
    · isplitl [H1a]; · iexact H1a
      iexact H1b
    isplitr [Hr]
    · isplitl [H1]; · iexact H1
      isplitl [HW]; · iexact HW
      isplitl [HB]; · iexact HB
      isplitl [HO]; · iexact HO
      isplitl [HS]; · iexact HS
      iexact HD
    iexact Hr

set_option maxHeartbeats 1600000 in
/-- ENTRY, everything a variable: for any proof data `dat` whose arrays are `Vd`'s contents (`hA`) and any tables `T`
    that are `Vd`'s contents (`hT`), whenever the boundary contents `Vx` agree with `Vd` at the six touched buffers, the
    unscoped buffers at `Vx` are the pipeline's arrays at their entry contents, the two tables, and the rest. -/
theorem entry8 (a : (pcfg8 (F := F)).Adm) (c : Dev nD) (dat : Dat τ (Elt F) Unit ℕ (UR sig nD τ) ℕ (cfg8 a) c)
    (hq0 : dat.q 0 = fullShare.left) (hq1 : dat.q 1 = fullShare.right) (hq2 : dat.q 2 = fullShare) (hq3 : dat.q 3 = fullShare)
    (Vd Vx : (b : Ref sig .tc) → Buf (Elt F) ((c.tc : Thread nD τ).loc b))
    (hA : ∀ w, dat.A w = Vd (Pipeline.arrRef spec8 w))
    (e_h : Vd main_v1 = Vx main_v1) (e_W : Vd main_arg3 = Vx main_arg3) (e_b : Vd main_v0 = Vx main_v0) (e_out : Vd main_v36 = Vx main_v36)
    (T : pre8.Contents (Elt F)) (hT : ∀ j, T j = Vd (pre8.ref j)) (e_src : Vd main_v34 = Vx main_v34) (e_dst : Vd main_v35 = Vx main_v35) :
    (unscopedBufs (Ix := Unit) (Name := ℕ) (U := UR sig nD τ) (Lvl := ℕ) c Vx : sProp 𝕄)
      ⊢ iprop(dat.arrays (dat.arrAt · 0)
          ∗ Pipeline.prefHeld (Ix := Unit) (Name := ℕ) (U := UR sig nD τ) (Lvl := ℕ) pre8 c (fun _ => fullShare) T ∗ rest8 c Vx) :=
  (bufs8 a c dat hq0 hq1 hq2 hq3 Vx (fun w => dat.arrAt w 0)
    (funext fun w => match w with
      | ⟨0, h⟩ => by show dat.arrAt ⟨0, h⟩ 0 = Vx main_v1; exact (hA ⟨0, h⟩).trans e_h
      | ⟨1, h⟩ => by show dat.arrAt ⟨1, h⟩ 0 = Vx main_v1; exact (hA ⟨1, h⟩).trans e_h
      | ⟨2, h⟩ => by show dat.arrAt ⟨2, h⟩ 0 = Vx main_arg3; exact (hA ⟨2, h⟩).trans e_W
      | ⟨3, h⟩ => by show dat.arrAt ⟨3, h⟩ 0 = Vx main_v0; exact (hA ⟨3, h⟩).trans e_b
      | ⟨4, h⟩ => by show dat.arrAt ⟨4, h⟩ 0 = Vx main_v36; exact (hA ⟨4, h⟩).trans e_out)
    T (funext fun j => match j with
      | ⟨0, h⟩ => by show T ⟨0, h⟩ = Vx main_v34; exact (hT ⟨0, h⟩).trans e_src
      | ⟨1, h⟩ => by show T ⟨1, h⟩ = Vx main_v35; exact (hT ⟨1, h⟩).trans e_dst)).1

set_option maxHeartbeats 1600000 in
/-- EXIT, everything a variable: the inputs' arrays end as they began, the output array at what the last write-backs
    leave (`x_out`); whenever `Vx` holds those contents at the six touched buffers, the pipeline's arrays at their final
    contents, the two tables and the rest at `Vx` are the unscoped buffers at `Vx`. -/
theorem exit8 (a : (pcfg8 (F := F)).Adm) (c : Dev nD) (dat : Dat τ (Elt F) Unit ℕ (UR sig nD τ) ℕ (cfg8 a) c) (N : Nat)
    (hq0 : dat.q 0 = fullShare.left) (hq1 : dat.q 1 = fullShare.right) (hq2 : dat.q 2 = fullShare) (hq3 : dat.q 3 = fullShare)
    (Vd Vx : (b : Ref sig .tc) → Buf (Elt F) ((c.tc : Thread nD τ).loc b))
    (hA : ∀ w, dat.A w = Vd (Pipeline.arrRef spec8 w))
    (x_h : Vd main_v1 = Vx main_v1) (x_W : Vd main_arg3 = Vx main_arg3) (x_b : Vd main_v0 = Vx main_v0) (x_out : dat.arrAt 4 N = Vx main_v36)
    (T : pre8.Contents (Elt F)) (hT : ∀ j, T j = Vd (pre8.ref j)) (x_src : Vd main_v34 = Vx main_v34) (x_dst : Vd main_v35 = Vx main_v35) :
    iprop(dat.arrays (dat.arrAt · N)
        ∗ Pipeline.prefHeld (Ix := Unit) (Name := ℕ) (U := UR sig nD τ) (Lvl := ℕ) pre8 c (fun _ => fullShare) T ∗ rest8 c Vx)
      ⊢ (unscopedBufs (Ix := Unit) (Name := ℕ) (U := UR sig nD τ) (Lvl := ℕ) c Vx : sProp 𝕄) :=
  (bufs8 a c dat hq0 hq1 hq2 hq3 Vx (fun w => dat.arrAt w N)
    (funext fun w => match w with
      | ⟨0, h⟩ => by show dat.arrAt ⟨0, h⟩ N = Vx main_v1; exact (dat.arrAt_in ⟨0, h⟩ rfl N).trans ((hA ⟨0, h⟩).trans x_h)
      | ⟨1, h⟩ => by show dat.arrAt ⟨1, h⟩ N = Vx main_v1; exact (dat.arrAt_in ⟨1, h⟩ rfl N).trans ((hA ⟨1, h⟩).trans x_h)
      | ⟨2, h⟩ => by show dat.arrAt ⟨2, h⟩ N = Vx main_arg3; exact (dat.arrAt_in ⟨2, h⟩ rfl N).trans ((hA ⟨2, h⟩).trans x_W)
      | ⟨3, h⟩ => by show dat.arrAt ⟨3, h⟩ N = Vx main_v0; exact (dat.arrAt_in ⟨3, h⟩ rfl N).trans ((hA ⟨3, h⟩).trans x_b)
      | ⟨4, h⟩ => by show dat.arrAt ⟨4, h⟩ N = Vx main_v36; exact x_out)
    T (funext fun j => match j with
      | ⟨0, h⟩ => by show T ⟨0, h⟩ = Vx main_v34; exact (hT ⟨0, h⟩).trans x_src
      | ⟨1, h⟩ => by show T ⟨1, h⟩ = Vx main_v35; exact (hT ⟨1, h⟩).trans x_dst)).2

variable (m : (ℓ : Loc nD τ sig) → Buf (Elt F) ℓ) (hO : Oks m)

/-! ## What the region finds and leaves, buffer by buffer -/

include hO

theorem fin8_h (c : Dev nD) : Ve8 m c main_v1 = V17 m (outsR m hO) c main_v1 := by first | exact indep8_h m (outsL m) (outsR m hO) c | rfl
theorem fin8_W (c : Dev nD) : Ve8 m c main_arg3 = V17 m (outsR m hO) c main_arg3 := by first | exact indep8_W m (outsL m) (outsR m hO) c | rfl
theorem fin8_b (c : Dev nD) : Ve8 m c main_v0 = V17 m (outsR m hO) c main_v0 := by first | exact indep8_b m (outsL m) (outsR m hO) c | rfl
theorem fin8_out (c : Dev nD) : Ve8 m c main_v36 = V17 m (outsR m hO) c main_v36 := by first | exact indep8_out m (outsL m) (outsR m hO) c | rfl
theorem fin8_src (c : Dev nD) : Ve8 m c main_v34 = V17 m (outsR m hO) c main_v34 := by first | exact indep8_src m (outsL m) (outsR m hO) c | rfl
theorem fin8_dst (c : Dev nD) : Ve8 m c main_v35 = V17 m (outsR m hO) c main_v35 := by first | exact indep8_dst m (outsL m) (outsR m hO) c | rfl

/-- What the region leaves in the buffers it touches: the inputs and the tables as they were, the output array at the
    region's chunk. -/
theorem lv8_h (c : Dev nD) : V18 m (outsR m hO) c main_v1 = V17 m (outsR m hO) c main_v1 := V18_of m (outsR m hO) c main_v1 (by decide)
theorem lv8_W (c : Dev nD) : V18 m (outsR m hO) c main_arg3 = V17 m (outsR m hO) c main_arg3 := V18_of m (outsR m hO) c main_arg3 (by decide)
theorem lv8_b (c : Dev nD) : V18 m (outsR m hO) c main_v0 = V17 m (outsR m hO) c main_v0 := V18_of m (outsR m hO) c main_v0 (by decide)
theorem lv8_src (c : Dev nD) : V18 m (outsR m hO) c main_v34 = V17 m (outsR m hO) c main_v34 := V18_of m (outsR m hO) c main_v34 (by decide)
theorem lv8_dst (c : Dev nD) : V18 m (outsR m hO) c main_v35 = V17 m (outsR m hO) c main_v35 := V18_of m (outsR m hO) c main_v35 (by decide)
theorem lv8_out (c : Dev nD) : V18 m (outsR m hO) c main_v36 = chunk8 m hO c :=
  (Function.update_self _ _ _).trans (outsR_8 m hO c)

/-- The buffers the region does not touch pass it by unchanged. -/
theorem rest8_eq (c : Dev nD) : (rest8 c (fun b => V17 m (outsR m hO) c b) : sProp 𝕄) = rest8 c (fun b => V18 m (outsR m hO) c b) := by
  unfold rest8
  exact BI.bigSep_congr fun b hb => by
    dsimp only
    rw [V18_of m (outsR m hO) c b (fun h => (Finset.mem_sdiff.mp hb).2 (by rw [List.mem_singleton.mp h]; decide))]

set_option maxHeartbeats 1600000 in
set_option backward.isDefEq.respectTransparency.types false in
/-- REGION 0 over the boundary states. -/
def reg8 : Pipeline.RegionSeg (pcfgs (F := F)) (adm m hO) (pdats m hO) () defs₀ 𝒱₀ L lv (8 : Fin 16) where
  win := winFacts₀8
  block_pos := block_pos8
  stage_whole := stage_whole8
  K := PEmpty
  osem k := k.elim
  ho := Pipeline.OwnSemFacts.none _
  hbody c := (body_obligation8 (Ve8 m) ⟨tbl8 m, hO.h8⟩ c).loose
  hwaits := Pipeline.hwaits_of_owed_zero _ _ _ _ L lv (8 : Fin 16) fun _ _ => rfl
  pre c := iprop(StableHlo.held (c : Thread nD τ) (Pipeline.ucRefs τ sig) (V17 m (outsR m hO) c) ∗ Rst c)
  post c := iprop(StableHlo.held (c : Thread nD τ) (Pipeline.ucRefs τ sig) (V18 m (outsR m hO) c) ∗ Rst c)
  X c := iprop(∃ r, prngReg c r)
  Y c := iprop((∃ r, prngReg c r) ∗ Pipeline.prefHeld (Ix := Unit) (Name := ℕ) (U := UR sig nD τ) (Lvl := ℕ) pre8 c (fun _ => fullShare) (tbl8 m))
  Z c := rest8 c (fun b => V17 m (outsR m hO) c b)
  hentry c := by
    obtain rfl : c = 0 := Subsingleton.elim _ _
    have hb := entry8 (adm m hO (8 : Fin 16)) 0 (pdats m hO (8 : Fin 16) 0) rfl rfl rfl rfl (Ve8 m 0) (fun b => V17 m (outsR m hO) 0 b) (fun w => rfl)
      (fin8_h m hO 0) (fin8_W m hO 0) (fin8_b m hO 0) (fin8_out m hO 0) (tbl8 m) (fun j => rfl) (fin8_src m hO 0) (fin8_dst m hO 0)
    rw [Pipeline.unscopedBufs_held] at hb
    iintro ⟨⟨Hub, Hp, HO⟩, -, -⟩
    ihave H := hb $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO (8 : Fin 16) c).Φ 0 = iprop(Pipeline.ΦA spec8 c ∗ Pipeline.prefHeld (Ix := Unit) (Name := ℕ) (U := UR sig nD τ) (Lvl := ℕ) pre8 c (fun _ => fullShare) (tbl8 m)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m hO (8 : Fin 16) c).Φ (Fin.last _) = iprop(Pipeline.ΦA spec8 c ∗ Pipeline.prefHeld (Ix := Unit) (Name := ℕ) (U := UR sig nD τ) (Lvl := ℕ) pre8 c (fun _ => fullShare) (tbl8 m)) from rfl]
    unfold Pipeline.ΦA
    iintro ⟨⟨Hr, Hp⟩, Ht⟩
    isplitl [Hp Ht]
    · isplitl [Hp]; · iexact Hp
      iexact Ht
    isplitr; · iempintro
    iexact Hr
  hexit c := by
    obtain rfl : c = 0 := Subsingleton.elim _ _
    have hb := exit8 (adm m hO (8 : Fin 16)) 0 (pdats m hO (8 : Fin 16) 0) (Pipeline.pin (pcfgs (F := F)) (adm m hO) (8 : Fin 16)).N rfl rfl rfl rfl
      (Ve8 m 0) (fun b => V18 m (outsR m hO) 0 b) (fun w => rfl)
      ((fin8_h m hO 0).trans (lv8_h m hO 0).symm) ((fin8_W m hO 0).trans (lv8_W m hO 0).symm) ((fin8_b m hO 0).trans (lv8_b m hO 0).symm)
      (lv8_out m hO 0).symm (tbl8 m) (fun j => rfl) ((fin8_src m hO 0).trans (lv8_src m hO 0).symm) ((fin8_dst m hO 0).trans (lv8_dst m hO 0).symm)
    rw [Pipeline.unscopedBufs_held, ← rest8_eq m hO 0] at hb
    iintro ⟨Ha, HO, ⟨Hp, Ht⟩, Hrest⟩
    imodintro
    isplitl [Ha Ht Hrest]
    · iapply hb
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Cert.Kernel.Hand

end
-- ==== Proof.KReg9.lean ====
/-
  Region 9 of the edge scorer as a segment of the program's run.

  The region is entered with every unscoped buffer held whole at the contents the host operations before it leave,
  beside the generator register and nothing owed. Of those buffers the pipeline takes the four arrays its five windows
  read and write — the feature rows (read by two windows, each at one half of the full share), the weights, the
  bias and the output chunk — and the two index tables; the other unscoped buffers bypass the region. At the exit the
  feature rows' two halves rejoin, the inputs are as they were, the output array holds the region's chunk, and
  the whole is the next boundary's contents.
-/
import proofs.«405368_j31662498906597_2_alg».proof.Proof.KFamily
import proofs.«405368_j31662498906597_2_alg».proof.Proof.KHostEntry
import proofs.«405368_j31662498906597_2_alg».proof.Proof.KHostEntryGen
import Idealize.ShloMosaic.Lib.Pipeline.RegionsLoop

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The six unscoped buffers region 9 touches: the feature rows, the weights, the bias, its output chunk and its two
    index tables. -/
abbrev arrs9 : Finset (Ref sig .tc) := insert main_v1 (insert main_arg3 (insert main_v0 (insert main_v40 (insert main_v38 {main_v39}))))

theorem arrs9_sub : arrs9 ⊆ Finset.univ.filter fun b : Ref sig .tc => ¬ b.isScoped := by decide

/-- The unscoped buffers region 9 does not touch, held whole at `V`. -/
def rest9 (c : Dev nD) (V : (b : Ref sig .tc) → Buf (Elt F) ((c.tc : Thread nD τ).loc b)) : sProp 𝕄 :=
  bigSep ((Finset.univ.filter fun b : Ref sig .tc => ¬ b.isScoped) \ arrs9) fun b => ((c.tc : Thread nD τ).loc b) ↦{fullShare} V b

/-- The six touched buffers one by one, and the rest. -/
theorem ub_split9 (c : Dev nD) (V : (b : Ref sig .tc) → Buf (Elt F) ((c.tc : Thread nD τ).loc b)) :
    (unscopedBufs (Ix := Unit) (Name := ℕ) (U := UR sig nD τ) (Lvl := ℕ) c V : sProp 𝕄)
      = iprop(iprop((((c.tc : Thread nD τ).loc main_v1) ↦{fullShare} V main_v1) ∗ (((c.tc : Thread nD τ).loc main_arg3) ↦{fullShare} V main_arg3)
          ∗ (((c.tc : Thread nD τ).loc main_v0) ↦{fullShare} V main_v0) ∗ (((c.tc : Thread nD τ).loc main_v40) ↦{fullShare} V main_v40)
          ∗ (((c.tc : Thread nD τ).loc main_v38) ↦{fullShare} V main_v38) ∗ (((c.tc : Thread nD τ).loc main_v39) ↦{fullShare} V main_v39)) ∗ rest9 c V) := by
  unfold unscopedBufs rest9
  rw [BI.bigSep_sdiff_split arrs9_sub]
  refine congrArg (fun X => iprop(X ∗ _)) ?_
  show bigSep (insert main_v1 (insert main_arg3 (insert main_v0 (insert main_v40 (insert main_v38 {main_v39}))))) _ = _
  rw [BI.bigSep_insert (by decide), BI.bigSep_insert (by decide), BI.bigSep_insert (by decide), BI.bigSep_insert (by decide),
    BI.bigSep_insert (by decide), BI.bigSep_singleton]
  rfl

/-- A product over two tables, written out. -/
theorem two_tables9 (Φ : Fin 2 → sProp 𝕄) : bigSep Finset.univ Φ = iprop(Φ 0 ∗ Φ 1) := BI.bigSep_fin_two Φ

/-- The five windows' arrays and the two tables, by name. -/
theorem arrRef9_0 : Pipeline.arrRef spec9 (0 : Fin 5) = main_v1 := rfl
theorem arrRef9_1 : Pipeline.arrRef spec9 (1 : Fin 5) = main_v1 := rfl
theorem arrRef9_2 : Pipeline.arrRef spec9 (2 : Fin 5) = main_arg3 := rfl
theorem arrRef9_3 : Pipeline.arrRef spec9 (3 : Fin 5) = main_v0 := rfl
theorem arrRef9_4 : Pipeline.arrRef spec9 (4 : Fin 5) = main_v40 := rfl
theorem preRef9_0 : pre9.ref (0 : Fin 2) = main_v38 := rfl
theorem preRef9_1 : pre9.ref (1 : Fin 2) = main_v39 := rfl

set_option maxHeartbeats 1600000 in
/-- A core's unscoped buffers held whole at `V` ARE the pipeline's arrays at `V`'s contents of them (the feature rows'
    full share dealt as its two halves to the two windows that read them), the two tables at `V`'s contents of
    them, and the rest. Both directions: the region's entry and its exit. -/
theorem bufs9 (a : (pcfg9 (F := F)).Adm) (c : Dev nD) (dat : Dat τ (Elt F) Unit ℕ (UR sig nD τ) ℕ (cfg9 a) c)
    (hq0 : dat.q 0 = fullShare.left) (hq1 : dat.q 1 = fullShare.right) (hq2 : dat.q 2 = fullShare) (hq3 : dat.q 3 = fullShare)
    (V : (b : Ref sig .tc) → Buf (Elt F) ((c.tc : Thread nD τ).loc b))
    (G : (w : Fin (cfg9 a).W) → Buf (Elt F) (((cfg9 a).win w).arr.view.loc (c.tc : Thread nD τ)))
    (hG : G = fun w => V (Pipeline.arrRef spec9 w))
    (T : pre9.Contents (Elt F)) (hT : T = fun k => V (pre9.ref k)) :
    (unscopedBufs (Ix := Unit) (Name := ℕ) (U := UR sig nD τ) (Lvl := ℕ) c V : sProp 𝕄)
      ⊣⊢ iprop(dat.arrays G ∗ Pipeline.prefHeld (Ix := Unit) (Name := ℕ) (U := UR sig nD τ) (Lvl := ℕ) pre9 c (fun _ => fullShare) T ∗ rest9 c V) := by
  subst hG hT
  have harr : ∀ w, (((cfg9 a).spec w).arr).IsWhole := arr_whole9
  have hA : dat.arrays (fun w => V (Pipeline.arrRef spec9 w))
      = bigSep Finset.univ fun w : Fin 5 => (((c.tc : Thread nD τ).loc (Pipeline.arrRef spec9 w)) ↦{dat.share w} V (Pipeline.arrRef spec9 w) : sProp 𝕄) := by
    unfold Dat.arrays
    exact BI.bigSep_congr fun w _ => by rw [(harr w).set_eq_univ]
  have s0 : dat.share 0 = fullShare.left := by unfold Dat.share; rw [show ((cfg9 a).win 0).isOut = false from rfl]; exact hq0
  have s1 : dat.share 1 = fullShare.right := by unfold Dat.share; rw [show ((cfg9 a).win 1).isOut = false from rfl]; exact hq1
  have s2 : dat.share 2 = fullShare := by unfold Dat.share; rw [show ((cfg9 a).win 2).isOut = false from rfl]; exact hq2
  have s3 : dat.share 3 = fullShare := by unfold Dat.share; rw [show ((cfg9 a).win 3).isOut = false from rfl]; exact hq3
  have s4 : dat.share 4 = fullShare := by unfold Dat.share; rw [show ((cfg9 a).win 4).isOut = true from rfl]; rfl
  rw [ub_split9, hA, bigSep_W9, s0, s1, s2, s3, s4]
  unfold Pipeline.prefHeld
  rw [two_tables9]
  simp only [arrRef9_0, arrRef9_1, arrRef9_2, arrRef9_3, arrRef9_4, preRef9_0, preRef9_1]
  constructor
  · iintro ⟨⟨H1, HW, HB, HO, HS, HD⟩, Hr⟩
    ihave H1' := (pointsTo_share (PosShare.mem_left_op_right fullShare)).1 $$ H1
    icases H1' with ⟨H1a, H1b⟩
    isplitl [H1a H1b HW HB HO]
    · isplitl [H1a]; · iexact H1a
      isplitl [H1b]; · iexact H1b
      isplitl [HW]; · iexact HW
      isplitl [HB]; · iexact HB
      iexact HO
    isplitl [HS HD]
    · isplitl [HS]; · iexact HS
      iexact HD
    iexact Hr
  · iintro ⟨⟨H1a, H1b, HW, HB, HO⟩, ⟨HS, HD⟩, Hr⟩
    ihave H1 := (pointsTo_share (PosShare.mem_left_op_right fullShare)).2 $$ [H1a H1b]
    · isplitl [H1a]; · iexact H1a
      iexact H1b
    isplitr [Hr]
    · isplitl [H1]; · iexact H1
      isplitl [HW]; · iexact HW
      isplitl [HB]; · iexact HB
      isplitl [HO]; · iexact HO
      isplitl [HS]; · iexact HS
      iexact HD
    iexact Hr

set_option maxHeartbeats 1600000 in
/-- ENTRY, everything a variable: for any proof data `dat` whose arrays are `Vd`'s contents (`hA`) and any tables `T`
    that are `Vd`'s contents (`hT`), whenever the boundary contents `Vx` agree with `Vd` at the six touched buffers, the
    unscoped buffers at `Vx` are the pipeline's arrays at their entry contents, the two tables, and the rest. -/
theorem entry9 (a : (pcfg9 (F := F)).Adm) (c : Dev nD) (dat : Dat τ (Elt F) Unit ℕ (UR sig nD τ) ℕ (cfg9 a) c)
    (hq0 : dat.q 0 = fullShare.left) (hq1 : dat.q 1 = fullShare.right) (hq2 : dat.q 2 = fullShare) (hq3 : dat.q 3 = fullShare)
    (Vd Vx : (b : Ref sig .tc) → Buf (Elt F) ((c.tc : Thread nD τ).loc b))
    (hA : ∀ w, dat.A w = Vd (Pipeline.arrRef spec9 w))
    (e_h : Vd main_v1 = Vx main_v1) (e_W : Vd main_arg3 = Vx main_arg3) (e_b : Vd main_v0 = Vx main_v0) (e_out : Vd main_v40 = Vx main_v40)
    (T : pre9.Contents (Elt F)) (hT : ∀ j, T j = Vd (pre9.ref j)) (e_src : Vd main_v38 = Vx main_v38) (e_dst : Vd main_v39 = Vx main_v39) :
    (unscopedBufs (Ix := Unit) (Name := ℕ) (U := UR sig nD τ) (Lvl := ℕ) c Vx : sProp 𝕄)
      ⊢ iprop(dat.arrays (dat.arrAt · 0)
          ∗ Pipeline.prefHeld (Ix := Unit) (Name := ℕ) (U := UR sig nD τ) (Lvl := ℕ) pre9 c (fun _ => fullShare) T ∗ rest9 c Vx) :=
  (bufs9 a c dat hq0 hq1 hq2 hq3 Vx (fun w => dat.arrAt w 0)
    (funext fun w => match w with
      | ⟨0, h⟩ => by show dat.arrAt ⟨0, h⟩ 0 = Vx main_v1; exact (hA ⟨0, h⟩).trans e_h
      | ⟨1, h⟩ => by show dat.arrAt ⟨1, h⟩ 0 = Vx main_v1; exact (hA ⟨1, h⟩).trans e_h
      | ⟨2, h⟩ => by show dat.arrAt ⟨2, h⟩ 0 = Vx main_arg3; exact (hA ⟨2, h⟩).trans e_W
      | ⟨3, h⟩ => by show dat.arrAt ⟨3, h⟩ 0 = Vx main_v0; exact (hA ⟨3, h⟩).trans e_b
      | ⟨4, h⟩ => by show dat.arrAt ⟨4, h⟩ 0 = Vx main_v40; exact (hA ⟨4, h⟩).trans e_out)
    T (funext fun j => match j with
      | ⟨0, h⟩ => by show T ⟨0, h⟩ = Vx main_v38; exact (hT ⟨0, h⟩).trans e_src
      | ⟨1, h⟩ => by show T ⟨1, h⟩ = Vx main_v39; exact (hT ⟨1, h⟩).trans e_dst)).1

set_option maxHeartbeats 1600000 in
/-- EXIT, everything a variable: the inputs' arrays end as they began, the output array at what the last write-backs
    leave (`x_out`); whenever `Vx` holds those contents at the six touched buffers, the pipeline's arrays at their final
    contents, the two tables and the rest at `Vx` are the unscoped buffers at `Vx`. -/
theorem exit9 (a : (pcfg9 (F := F)).Adm) (c : Dev nD) (dat : Dat τ (Elt F) Unit ℕ (UR sig nD τ) ℕ (cfg9 a) c) (N : Nat)
    (hq0 : dat.q 0 = fullShare.left) (hq1 : dat.q 1 = fullShare.right) (hq2 : dat.q 2 = fullShare) (hq3 : dat.q 3 = fullShare)
    (Vd Vx : (b : Ref sig .tc) → Buf (Elt F) ((c.tc : Thread nD τ).loc b))
    (hA : ∀ w, dat.A w = Vd (Pipeline.arrRef spec9 w))
    (x_h : Vd main_v1 = Vx main_v1) (x_W : Vd main_arg3 = Vx main_arg3) (x_b : Vd main_v0 = Vx main_v0) (x_out : dat.arrAt 4 N = Vx main_v40)
    (T : pre9.Contents (Elt F)) (hT : ∀ j, T j = Vd (pre9.ref j)) (x_src : Vd main_v38 = Vx main_v38) (x_dst : Vd main_v39 = Vx main_v39) :
    iprop(dat.arrays (dat.arrAt · N)
        ∗ Pipeline.prefHeld (Ix := Unit) (Name := ℕ) (U := UR sig nD τ) (Lvl := ℕ) pre9 c (fun _ => fullShare) T ∗ rest9 c Vx)
      ⊢ (unscopedBufs (Ix := Unit) (Name := ℕ) (U := UR sig nD τ) (Lvl := ℕ) c Vx : sProp 𝕄) :=
  (bufs9 a c dat hq0 hq1 hq2 hq3 Vx (fun w => dat.arrAt w N)
    (funext fun w => match w with
      | ⟨0, h⟩ => by show dat.arrAt ⟨0, h⟩ N = Vx main_v1; exact (dat.arrAt_in ⟨0, h⟩ rfl N).trans ((hA ⟨0, h⟩).trans x_h)
      | ⟨1, h⟩ => by show dat.arrAt ⟨1, h⟩ N = Vx main_v1; exact (dat.arrAt_in ⟨1, h⟩ rfl N).trans ((hA ⟨1, h⟩).trans x_h)
      | ⟨2, h⟩ => by show dat.arrAt ⟨2, h⟩ N = Vx main_arg3; exact (dat.arrAt_in ⟨2, h⟩ rfl N).trans ((hA ⟨2, h⟩).trans x_W)
      | ⟨3, h⟩ => by show dat.arrAt ⟨3, h⟩ N = Vx main_v0; exact (dat.arrAt_in ⟨3, h⟩ rfl N).trans ((hA ⟨3, h⟩).trans x_b)
      | ⟨4, h⟩ => by show dat.arrAt ⟨4, h⟩ N = Vx main_v40; exact x_out)
    T (funext fun j => match j with
      | ⟨0, h⟩ => by show T ⟨0, h⟩ = Vx main_v38; exact (hT ⟨0, h⟩).trans x_src
      | ⟨1, h⟩ => by show T ⟨1, h⟩ = Vx main_v39; exact (hT ⟨1, h⟩).trans x_dst)).2

variable (m : (ℓ : Loc nD τ sig) → Buf (Elt F) ℓ) (hO : Oks m)

/-! ## What the region finds and leaves, buffer by buffer -/

include hO

theorem fin9_h (c : Dev nD) : Ve9 m c main_v1 = V19 m (outsR m hO) c main_v1 := by first | exact indep9_h m (outsL m) (outsR m hO) c | rfl
theorem fin9_W (c : Dev nD) : Ve9 m c main_arg3 = V19 m (outsR m hO) c main_arg3 := by first | exact indep9_W m (outsL m) (outsR m hO) c | rfl
theorem fin9_b (c : Dev nD) : Ve9 m c main_v0 = V19 m (outsR m hO) c main_v0 := by first | exact indep9_b m (outsL m) (outsR m hO) c | rfl
theorem fin9_out (c : Dev nD) : Ve9 m c main_v40 = V19 m (outsR m hO) c main_v40 := by first | exact indep9_out m (outsL m) (outsR m hO) c | rfl
theorem fin9_src (c : Dev nD) : Ve9 m c main_v38 = V19 m (outsR m hO) c main_v38 := by first | exact indep9_src m (outsL m) (outsR m hO) c | rfl
theorem fin9_dst (c : Dev nD) : Ve9 m c main_v39 = V19 m (outsR m hO) c main_v39 := by first | exact indep9_dst m (outsL m) (outsR m hO) c | rfl

/-- What the region leaves in the buffers it touches: the inputs and the tables as they were, the output array at the
    region's chunk. -/
theorem lv9_h (c : Dev nD) : V20 m (outsR m hO) c main_v1 = V19 m (outsR m hO) c main_v1 := V20_of m (outsR m hO) c main_v1 (by decide)
theorem lv9_W (c : Dev nD) : V20 m (outsR m hO) c main_arg3 = V19 m (outsR m hO) c main_arg3 := V20_of m (outsR m hO) c main_arg3 (by decide)
theorem lv9_b (c : Dev nD) : V20 m (outsR m hO) c main_v0 = V19 m (outsR m hO) c main_v0 := V20_of m (outsR m hO) c main_v0 (by decide)
theorem lv9_src (c : Dev nD) : V20 m (outsR m hO) c main_v38 = V19 m (outsR m hO) c main_v38 := V20_of m (outsR m hO) c main_v38 (by decide)
theorem lv9_dst (c : Dev nD) : V20 m (outsR m hO) c main_v39 = V19 m (outsR m hO) c main_v39 := V20_of m (outsR m hO) c main_v39 (by decide)
theorem lv9_out (c : Dev nD) : V20 m (outsR m hO) c main_v40 = chunk9 m hO c :=
  (Function.update_self _ _ _).trans (outsR_9 m hO c)

/-- The buffers the region does not touch pass it by unchanged. -/
theorem rest9_eq (c : Dev nD) : (rest9 c (fun b => V19 m (outsR m hO) c b) : sProp 𝕄) = rest9 c (fun b => V20 m (outsR m hO) c b) := by
  unfold rest9
  exact BI.bigSep_congr fun b hb => by
    dsimp only
    rw [V20_of m (outsR m hO) c b (fun h => (Finset.mem_sdiff.mp hb).2 (by rw [List.mem_singleton.mp h]; decide))]

set_option maxHeartbeats 1600000 in
set_option backward.isDefEq.respectTransparency.types false in
/-- REGION 0 over the boundary states. -/
def reg9 : Pipeline.RegionSeg (pcfgs (F := F)) (adm m hO) (pdats m hO) () defs₀ 𝒱₀ L lv (9 : Fin 16) where
  win := winFacts₀9
  block_pos := block_pos9
  stage_whole := stage_whole9
  K := PEmpty
  osem k := k.elim
  ho := Pipeline.OwnSemFacts.none _
  hbody c := (body_obligation9 (Ve9 m) ⟨tbl9 m, hO.h9⟩ c).loose
  hwaits := Pipeline.hwaits_of_owed_zero _ _ _ _ L lv (9 : Fin 16) fun _ _ => rfl
  pre c := iprop(StableHlo.held (c : Thread nD τ) (Pipeline.ucRefs τ sig) (V19 m (outsR m hO) c) ∗ Rst c)
  post c := iprop(StableHlo.held (c : Thread nD τ) (Pipeline.ucRefs τ sig) (V20 m (outsR m hO) c) ∗ Rst c)
  X c := iprop(∃ r, prngReg c r)
  Y c := iprop((∃ r, prngReg c r) ∗ Pipeline.prefHeld (Ix := Unit) (Name := ℕ) (U := UR sig nD τ) (Lvl := ℕ) pre9 c (fun _ => fullShare) (tbl9 m))
  Z c := rest9 c (fun b => V19 m (outsR m hO) c b)
  hentry c := by
    obtain rfl : c = 0 := Subsingleton.elim _ _
    have hb := entry9 (adm m hO (9 : Fin 16)) 0 (pdats m hO (9 : Fin 16) 0) rfl rfl rfl rfl (Ve9 m 0) (fun b => V19 m (outsR m hO) 0 b) (fun w => rfl)
      (fin9_h m hO 0) (fin9_W m hO 0) (fin9_b m hO 0) (fin9_out m hO 0) (tbl9 m) (fun j => rfl) (fin9_src m hO 0) (fin9_dst m hO 0)
    rw [Pipeline.unscopedBufs_held] at hb
    iintro ⟨⟨Hub, Hp, HO⟩, -, -⟩
    ihave H := hb $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO (9 : Fin 16) c).Φ 0 = iprop(Pipeline.ΦA spec9 c ∗ Pipeline.prefHeld (Ix := Unit) (Name := ℕ) (U := UR sig nD τ) (Lvl := ℕ) pre9 c (fun _ => fullShare) (tbl9 m)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m hO (9 : Fin 16) c).Φ (Fin.last _) = iprop(Pipeline.ΦA spec9 c ∗ Pipeline.prefHeld (Ix := Unit) (Name := ℕ) (U := UR sig nD τ) (Lvl := ℕ) pre9 c (fun _ => fullShare) (tbl9 m)) from rfl]
    unfold Pipeline.ΦA
    iintro ⟨⟨Hr, Hp⟩, Ht⟩
    isplitl [Hp Ht]
    · isplitl [Hp]; · iexact Hp
      iexact Ht
    isplitr; · iempintro
    iexact Hr
  hexit c := by
    obtain rfl : c = 0 := Subsingleton.elim _ _
    have hb := exit9 (adm m hO (9 : Fin 16)) 0 (pdats m hO (9 : Fin 16) 0) (Pipeline.pin (pcfgs (F := F)) (adm m hO) (9 : Fin 16)).N rfl rfl rfl rfl
      (Ve9 m 0) (fun b => V20 m (outsR m hO) 0 b) (fun w => rfl)
      ((fin9_h m hO 0).trans (lv9_h m hO 0).symm) ((fin9_W m hO 0).trans (lv9_W m hO 0).symm) ((fin9_b m hO 0).trans (lv9_b m hO 0).symm)
      (lv9_out m hO 0).symm (tbl9 m) (fun j => rfl) ((fin9_src m hO 0).trans (lv9_src m hO 0).symm) ((fin9_dst m hO 0).trans (lv9_dst m hO 0).symm)
    rw [Pipeline.unscopedBufs_held, ← rest9_eq m hO 0] at hb
    iintro ⟨Ha, HO, ⟨Hp, Ht⟩, Hrest⟩
    imodintro
    isplitl [Ha Ht Hrest]
    · iapply hb
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Cert.Kernel.Hand

end
-- ==== Proof.KReg10.lean ====
/-
  Region 10 of the edge scorer as a segment of the program's run.

  The region is entered with every unscoped buffer held whole at the contents the host operations before it leave,
  beside the generator register and nothing owed. Of those buffers the pipeline takes the four arrays its five windows
  read and write — the feature rows (read by two windows, each at one half of the full share), the weights, the
  bias and the output chunk — and the two index tables; the other unscoped buffers bypass the region. At the exit the
  feature rows' two halves rejoin, the inputs are as they were, the output array holds the region's chunk, and
  the whole is the next boundary's contents.
-/
import proofs.«405368_j31662498906597_2_alg».proof.Proof.KFamily
import proofs.«405368_j31662498906597_2_alg».proof.Proof.KHostEntry
import proofs.«405368_j31662498906597_2_alg».proof.Proof.KHostEntryGen
import Idealize.ShloMosaic.Lib.Pipeline.RegionsLoop

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The six unscoped buffers region 10 touches: the feature rows, the weights, the bias, its output chunk and its two
    index tables. -/
abbrev arrs10 : Finset (Ref sig .tc) := insert main_v1 (insert main_arg3 (insert main_v0 (insert main_v44 (insert main_v42 {main_v43}))))

theorem arrs10_sub : arrs10 ⊆ Finset.univ.filter fun b : Ref sig .tc => ¬ b.isScoped := by decide

/-- The unscoped buffers region 10 does not touch, held whole at `V`. -/
def rest10 (c : Dev nD) (V : (b : Ref sig .tc) → Buf (Elt F) ((c.tc : Thread nD τ).loc b)) : sProp 𝕄 :=
  bigSep ((Finset.univ.filter fun b : Ref sig .tc => ¬ b.isScoped) \ arrs10) fun b => ((c.tc : Thread nD τ).loc b) ↦{fullShare} V b

/-- The six touched buffers one by one, and the rest. -/
theorem ub_split10 (c : Dev nD) (V : (b : Ref sig .tc) → Buf (Elt F) ((c.tc : Thread nD τ).loc b)) :
    (unscopedBufs (Ix := Unit) (Name := ℕ) (U := UR sig nD τ) (Lvl := ℕ) c V : sProp 𝕄)
      = iprop(iprop((((c.tc : Thread nD τ).loc main_v1) ↦{fullShare} V main_v1) ∗ (((c.tc : Thread nD τ).loc main_arg3) ↦{fullShare} V main_arg3)
          ∗ (((c.tc : Thread nD τ).loc main_v0) ↦{fullShare} V main_v0) ∗ (((c.tc : Thread nD τ).loc main_v44) ↦{fullShare} V main_v44)
          ∗ (((c.tc : Thread nD τ).loc main_v42) ↦{fullShare} V main_v42) ∗ (((c.tc : Thread nD τ).loc main_v43) ↦{fullShare} V main_v43)) ∗ rest10 c V) := by
  unfold unscopedBufs rest10
  rw [BI.bigSep_sdiff_split arrs10_sub]
  refine congrArg (fun X => iprop(X ∗ _)) ?_
  show bigSep (insert main_v1 (insert main_arg3 (insert main_v0 (insert main_v44 (insert main_v42 {main_v43}))))) _ = _
  rw [BI.bigSep_insert (by decide), BI.bigSep_insert (by decide), BI.bigSep_insert (by decide), BI.bigSep_insert (by decide),
    BI.bigSep_insert (by decide), BI.bigSep_singleton]
  rfl

/-- A product over two tables, written out. -/
theorem two_tables10 (Φ : Fin 2 → sProp 𝕄) : bigSep Finset.univ Φ = iprop(Φ 0 ∗ Φ 1) := BI.bigSep_fin_two Φ

/-- The five windows' arrays and the two tables, by name. -/
theorem arrRef10_0 : Pipeline.arrRef spec10 (0 : Fin 5) = main_v1 := rfl
theorem arrRef10_1 : Pipeline.arrRef spec10 (1 : Fin 5) = main_v1 := rfl
theorem arrRef10_2 : Pipeline.arrRef spec10 (2 : Fin 5) = main_arg3 := rfl
theorem arrRef10_3 : Pipeline.arrRef spec10 (3 : Fin 5) = main_v0 := rfl
theorem arrRef10_4 : Pipeline.arrRef spec10 (4 : Fin 5) = main_v44 := rfl
theorem preRef10_0 : pre10.ref (0 : Fin 2) = main_v42 := rfl
theorem preRef10_1 : pre10.ref (1 : Fin 2) = main_v43 := rfl

set_option maxHeartbeats 1600000 in
/-- A core's unscoped buffers held whole at `V` ARE the pipeline's arrays at `V`'s contents of them (the feature rows'
    full share dealt as its two halves to the two windows that read them), the two tables at `V`'s contents of
    them, and the rest. Both directions: the region's entry and its exit. -/
theorem bufs10 (a : (pcfg10 (F := F)).Adm) (c : Dev nD) (dat : Dat τ (Elt F) Unit ℕ (UR sig nD τ) ℕ (cfg10 a) c)
    (hq0 : dat.q 0 = fullShare.left) (hq1 : dat.q 1 = fullShare.right) (hq2 : dat.q 2 = fullShare) (hq3 : dat.q 3 = fullShare)
    (V : (b : Ref sig .tc) → Buf (Elt F) ((c.tc : Thread nD τ).loc b))
    (G : (w : Fin (cfg10 a).W) → Buf (Elt F) (((cfg10 a).win w).arr.view.loc (c.tc : Thread nD τ)))
    (hG : G = fun w => V (Pipeline.arrRef spec10 w))
    (T : pre10.Contents (Elt F)) (hT : T = fun k => V (pre10.ref k)) :
    (unscopedBufs (Ix := Unit) (Name := ℕ) (U := UR sig nD τ) (Lvl := ℕ) c V : sProp 𝕄)
      ⊣⊢ iprop(dat.arrays G ∗ Pipeline.prefHeld (Ix := Unit) (Name := ℕ) (U := UR sig nD τ) (Lvl := ℕ) pre10 c (fun _ => fullShare) T ∗ rest10 c V) := by
  subst hG hT
  have harr : ∀ w, (((cfg10 a).spec w).arr).IsWhole := arr_whole10
  have hA : dat.arrays (fun w => V (Pipeline.arrRef spec10 w))
      = bigSep Finset.univ fun w : Fin 5 => (((c.tc : Thread nD τ).loc (Pipeline.arrRef spec10 w)) ↦{dat.share w} V (Pipeline.arrRef spec10 w) : sProp 𝕄) := by
    unfold Dat.arrays
    exact BI.bigSep_congr fun w _ => by rw [(harr w).set_eq_univ]
  have s0 : dat.share 0 = fullShare.left := by unfold Dat.share; rw [show ((cfg10 a).win 0).isOut = false from rfl]; exact hq0
  have s1 : dat.share 1 = fullShare.right := by unfold Dat.share; rw [show ((cfg10 a).win 1).isOut = false from rfl]; exact hq1
  have s2 : dat.share 2 = fullShare := by unfold Dat.share; rw [show ((cfg10 a).win 2).isOut = false from rfl]; exact hq2
  have s3 : dat.share 3 = fullShare := by unfold Dat.share; rw [show ((cfg10 a).win 3).isOut = false from rfl]; exact hq3
  have s4 : dat.share 4 = fullShare := by unfold Dat.share; rw [show ((cfg10 a).win 4).isOut = true from rfl]; rfl
  rw [ub_split10, hA, bigSep_W10, s0, s1, s2, s3, s4]
  unfold Pipeline.prefHeld
  rw [two_tables10]
  simp only [arrRef10_0, arrRef10_1, arrRef10_2, arrRef10_3, arrRef10_4, preRef10_0, preRef10_1]
  constructor
  · iintro ⟨⟨H1, HW, HB, HO, HS, HD⟩, Hr⟩
    ihave H1' := (pointsTo_share (PosShare.mem_left_op_right fullShare)).1 $$ H1
    icases H1' with ⟨H1a, H1b⟩
    isplitl [H1a H1b HW HB HO]
    · isplitl [H1a]; · iexact H1a
      isplitl [H1b]; · iexact H1b
      isplitl [HW]; · iexact HW
      isplitl [HB]; · iexact HB
      iexact HO
    isplitl [HS HD]
    · isplitl [HS]; · iexact HS
      iexact HD
    iexact Hr
  · iintro ⟨⟨H1a, H1b, HW, HB, HO⟩, ⟨HS, HD⟩, Hr⟩
    ihave H1 := (pointsTo_share (PosShare.mem_left_op_right fullShare)).2 $$ [H1a H1b]
    · isplitl [H1a]; · iexact H1a
      iexact H1b
    isplitr [Hr]
    · isplitl [H1]; · iexact H1
      isplitl [HW]; · iexact HW
      isplitl [HB]; · iexact HB
      isplitl [HO]; · iexact HO
      isplitl [HS]; · iexact HS
      iexact HD
    iexact Hr

set_option maxHeartbeats 1600000 in
/-- ENTRY, everything a variable: for any proof data `dat` whose arrays are `Vd`'s contents (`hA`) and any tables `T`
    that are `Vd`'s contents (`hT`), whenever the boundary contents `Vx` agree with `Vd` at the six touched buffers, the
    unscoped buffers at `Vx` are the pipeline's arrays at their entry contents, the two tables, and the rest. -/
theorem entry10 (a : (pcfg10 (F := F)).Adm) (c : Dev nD) (dat : Dat τ (Elt F) Unit ℕ (UR sig nD τ) ℕ (cfg10 a) c)
    (hq0 : dat.q 0 = fullShare.left) (hq1 : dat.q 1 = fullShare.right) (hq2 : dat.q 2 = fullShare) (hq3 : dat.q 3 = fullShare)
    (Vd Vx : (b : Ref sig .tc) → Buf (Elt F) ((c.tc : Thread nD τ).loc b))
    (hA : ∀ w, dat.A w = Vd (Pipeline.arrRef spec10 w))
    (e_h : Vd main_v1 = Vx main_v1) (e_W : Vd main_arg3 = Vx main_arg3) (e_b : Vd main_v0 = Vx main_v0) (e_out : Vd main_v44 = Vx main_v44)
    (T : pre10.Contents (Elt F)) (hT : ∀ j, T j = Vd (pre10.ref j)) (e_src : Vd main_v42 = Vx main_v42) (e_dst : Vd main_v43 = Vx main_v43) :
    (unscopedBufs (Ix := Unit) (Name := ℕ) (U := UR sig nD τ) (Lvl := ℕ) c Vx : sProp 𝕄)
      ⊢ iprop(dat.arrays (dat.arrAt · 0)
          ∗ Pipeline.prefHeld (Ix := Unit) (Name := ℕ) (U := UR sig nD τ) (Lvl := ℕ) pre10 c (fun _ => fullShare) T ∗ rest10 c Vx) :=
  (bufs10 a c dat hq0 hq1 hq2 hq3 Vx (fun w => dat.arrAt w 0)
    (funext fun w => match w with
      | ⟨0, h⟩ => by show dat.arrAt ⟨0, h⟩ 0 = Vx main_v1; exact (hA ⟨0, h⟩).trans e_h
      | ⟨1, h⟩ => by show dat.arrAt ⟨1, h⟩ 0 = Vx main_v1; exact (hA ⟨1, h⟩).trans e_h
      | ⟨2, h⟩ => by show dat.arrAt ⟨2, h⟩ 0 = Vx main_arg3; exact (hA ⟨2, h⟩).trans e_W
      | ⟨3, h⟩ => by show dat.arrAt ⟨3, h⟩ 0 = Vx main_v0; exact (hA ⟨3, h⟩).trans e_b
      | ⟨4, h⟩ => by show dat.arrAt ⟨4, h⟩ 0 = Vx main_v44; exact (hA ⟨4, h⟩).trans e_out)
    T (funext fun j => match j with
      | ⟨0, h⟩ => by show T ⟨0, h⟩ = Vx main_v42; exact (hT ⟨0, h⟩).trans e_src
      | ⟨1, h⟩ => by show T ⟨1, h⟩ = Vx main_v43; exact (hT ⟨1, h⟩).trans e_dst)).1

set_option maxHeartbeats 1600000 in
/-- EXIT, everything a variable: the inputs' arrays end as they began, the output array at what the last write-backs
    leave (`x_out`); whenever `Vx` holds those contents at the six touched buffers, the pipeline's arrays at their final
    contents, the two tables and the rest at `Vx` are the unscoped buffers at `Vx`. -/
theorem exit10 (a : (pcfg10 (F := F)).Adm) (c : Dev nD) (dat : Dat τ (Elt F) Unit ℕ (UR sig nD τ) ℕ (cfg10 a) c) (N : Nat)
    (hq0 : dat.q 0 = fullShare.left) (hq1 : dat.q 1 = fullShare.right) (hq2 : dat.q 2 = fullShare) (hq3 : dat.q 3 = fullShare)
    (Vd Vx : (b : Ref sig .tc) → Buf (Elt F) ((c.tc : Thread nD τ).loc b))
    (hA : ∀ w, dat.A w = Vd (Pipeline.arrRef spec10 w))
    (x_h : Vd main_v1 = Vx main_v1) (x_W : Vd main_arg3 = Vx main_arg3) (x_b : Vd main_v0 = Vx main_v0) (x_out : dat.arrAt 4 N = Vx main_v44)
    (T : pre10.Contents (Elt F)) (hT : ∀ j, T j = Vd (pre10.ref j)) (x_src : Vd main_v42 = Vx main_v42) (x_dst : Vd main_v43 = Vx main_v43) :
    iprop(dat.arrays (dat.arrAt · N)
        ∗ Pipeline.prefHeld (Ix := Unit) (Name := ℕ) (U := UR sig nD τ) (Lvl := ℕ) pre10 c (fun _ => fullShare) T ∗ rest10 c Vx)
      ⊢ (unscopedBufs (Ix := Unit) (Name := ℕ) (U := UR sig nD τ) (Lvl := ℕ) c Vx : sProp 𝕄) :=
  (bufs10 a c dat hq0 hq1 hq2 hq3 Vx (fun w => dat.arrAt w N)
    (funext fun w => match w with
      | ⟨0, h⟩ => by show dat.arrAt ⟨0, h⟩ N = Vx main_v1; exact (dat.arrAt_in ⟨0, h⟩ rfl N).trans ((hA ⟨0, h⟩).trans x_h)
      | ⟨1, h⟩ => by show dat.arrAt ⟨1, h⟩ N = Vx main_v1; exact (dat.arrAt_in ⟨1, h⟩ rfl N).trans ((hA ⟨1, h⟩).trans x_h)
      | ⟨2, h⟩ => by show dat.arrAt ⟨2, h⟩ N = Vx main_arg3; exact (dat.arrAt_in ⟨2, h⟩ rfl N).trans ((hA ⟨2, h⟩).trans x_W)
      | ⟨3, h⟩ => by show dat.arrAt ⟨3, h⟩ N = Vx main_v0; exact (dat.arrAt_in ⟨3, h⟩ rfl N).trans ((hA ⟨3, h⟩).trans x_b)
      | ⟨4, h⟩ => by show dat.arrAt ⟨4, h⟩ N = Vx main_v44; exact x_out)
    T (funext fun j => match j with
      | ⟨0, h⟩ => by show T ⟨0, h⟩ = Vx main_v42; exact (hT ⟨0, h⟩).trans x_src
      | ⟨1, h⟩ => by show T ⟨1, h⟩ = Vx main_v43; exact (hT ⟨1, h⟩).trans x_dst)).2

variable (m : (ℓ : Loc nD τ sig) → Buf (Elt F) ℓ) (hO : Oks m)

/-! ## What the region finds and leaves, buffer by buffer -/

include hO

theorem fin10_h (c : Dev nD) : Ve10 m c main_v1 = V21 m (outsR m hO) c main_v1 := by first | exact indep10_h m (outsL m) (outsR m hO) c | rfl
theorem fin10_W (c : Dev nD) : Ve10 m c main_arg3 = V21 m (outsR m hO) c main_arg3 := by first | exact indep10_W m (outsL m) (outsR m hO) c | rfl
theorem fin10_b (c : Dev nD) : Ve10 m c main_v0 = V21 m (outsR m hO) c main_v0 := by first | exact indep10_b m (outsL m) (outsR m hO) c | rfl
theorem fin10_out (c : Dev nD) : Ve10 m c main_v44 = V21 m (outsR m hO) c main_v44 := by first | exact indep10_out m (outsL m) (outsR m hO) c | rfl
theorem fin10_src (c : Dev nD) : Ve10 m c main_v42 = V21 m (outsR m hO) c main_v42 := by first | exact indep10_src m (outsL m) (outsR m hO) c | rfl
theorem fin10_dst (c : Dev nD) : Ve10 m c main_v43 = V21 m (outsR m hO) c main_v43 := by first | exact indep10_dst m (outsL m) (outsR m hO) c | rfl

/-- What the region leaves in the buffers it touches: the inputs and the tables as they were, the output array at the
    region's chunk. -/
theorem lv10_h (c : Dev nD) : V22 m (outsR m hO) c main_v1 = V21 m (outsR m hO) c main_v1 := V22_of m (outsR m hO) c main_v1 (by decide)
theorem lv10_W (c : Dev nD) : V22 m (outsR m hO) c main_arg3 = V21 m (outsR m hO) c main_arg3 := V22_of m (outsR m hO) c main_arg3 (by decide)
theorem lv10_b (c : Dev nD) : V22 m (outsR m hO) c main_v0 = V21 m (outsR m hO) c main_v0 := V22_of m (outsR m hO) c main_v0 (by decide)
theorem lv10_src (c : Dev nD) : V22 m (outsR m hO) c main_v42 = V21 m (outsR m hO) c main_v42 := V22_of m (outsR m hO) c main_v42 (by decide)
theorem lv10_dst (c : Dev nD) : V22 m (outsR m hO) c main_v43 = V21 m (outsR m hO) c main_v43 := V22_of m (outsR m hO) c main_v43 (by decide)
theorem lv10_out (c : Dev nD) : V22 m (outsR m hO) c main_v44 = chunk10 m hO c :=
  (Function.update_self _ _ _).trans (outsR_10 m hO c)

/-- The buffers the region does not touch pass it by unchanged. -/
theorem rest10_eq (c : Dev nD) : (rest10 c (fun b => V21 m (outsR m hO) c b) : sProp 𝕄) = rest10 c (fun b => V22 m (outsR m hO) c b) := by
  unfold rest10
  exact BI.bigSep_congr fun b hb => by
    dsimp only
    rw [V22_of m (outsR m hO) c b (fun h => (Finset.mem_sdiff.mp hb).2 (by rw [List.mem_singleton.mp h]; decide))]

set_option maxHeartbeats 1600000 in
set_option backward.isDefEq.respectTransparency.types false in
/-- REGION 0 over the boundary states. -/
def reg10 : Pipeline.RegionSeg (pcfgs (F := F)) (adm m hO) (pdats m hO) () defs₀ 𝒱₀ L lv (10 : Fin 16) where
  win := winFacts₀10
  block_pos := block_pos10
  stage_whole := stage_whole10
  K := PEmpty
  osem k := k.elim
  ho := Pipeline.OwnSemFacts.none _
  hbody c := (body_obligation10 (Ve10 m) ⟨tbl10 m, hO.h10⟩ c).loose
  hwaits := Pipeline.hwaits_of_owed_zero _ _ _ _ L lv (10 : Fin 16) fun _ _ => rfl
  pre c := iprop(StableHlo.held (c : Thread nD τ) (Pipeline.ucRefs τ sig) (V21 m (outsR m hO) c) ∗ Rst c)
  post c := iprop(StableHlo.held (c : Thread nD τ) (Pipeline.ucRefs τ sig) (V22 m (outsR m hO) c) ∗ Rst c)
  X c := iprop(∃ r, prngReg c r)
  Y c := iprop((∃ r, prngReg c r) ∗ Pipeline.prefHeld (Ix := Unit) (Name := ℕ) (U := UR sig nD τ) (Lvl := ℕ) pre10 c (fun _ => fullShare) (tbl10 m))
  Z c := rest10 c (fun b => V21 m (outsR m hO) c b)
  hentry c := by
    obtain rfl : c = 0 := Subsingleton.elim _ _
    have hb := entry10 (adm m hO (10 : Fin 16)) 0 (pdats m hO (10 : Fin 16) 0) rfl rfl rfl rfl (Ve10 m 0) (fun b => V21 m (outsR m hO) 0 b) (fun w => rfl)
      (fin10_h m hO 0) (fin10_W m hO 0) (fin10_b m hO 0) (fin10_out m hO 0) (tbl10 m) (fun j => rfl) (fin10_src m hO 0) (fin10_dst m hO 0)
    rw [Pipeline.unscopedBufs_held] at hb
    iintro ⟨⟨Hub, Hp, HO⟩, -, -⟩
    ihave H := hb $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO (10 : Fin 16) c).Φ 0 = iprop(Pipeline.ΦA spec10 c ∗ Pipeline.prefHeld (Ix := Unit) (Name := ℕ) (U := UR sig nD τ) (Lvl := ℕ) pre10 c (fun _ => fullShare) (tbl10 m)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m hO (10 : Fin 16) c).Φ (Fin.last _) = iprop(Pipeline.ΦA spec10 c ∗ Pipeline.prefHeld (Ix := Unit) (Name := ℕ) (U := UR sig nD τ) (Lvl := ℕ) pre10 c (fun _ => fullShare) (tbl10 m)) from rfl]
    unfold Pipeline.ΦA
    iintro ⟨⟨Hr, Hp⟩, Ht⟩
    isplitl [Hp Ht]
    · isplitl [Hp]; · iexact Hp
      iexact Ht
    isplitr; · iempintro
    iexact Hr
  hexit c := by
    obtain rfl : c = 0 := Subsingleton.elim _ _
    have hb := exit10 (adm m hO (10 : Fin 16)) 0 (pdats m hO (10 : Fin 16) 0) (Pipeline.pin (pcfgs (F := F)) (adm m hO) (10 : Fin 16)).N rfl rfl rfl rfl
      (Ve10 m 0) (fun b => V22 m (outsR m hO) 0 b) (fun w => rfl)
      ((fin10_h m hO 0).trans (lv10_h m hO 0).symm) ((fin10_W m hO 0).trans (lv10_W m hO 0).symm) ((fin10_b m hO 0).trans (lv10_b m hO 0).symm)
      (lv10_out m hO 0).symm (tbl10 m) (fun j => rfl) ((fin10_src m hO 0).trans (lv10_src m hO 0).symm) ((fin10_dst m hO 0).trans (lv10_dst m hO 0).symm)
    rw [Pipeline.unscopedBufs_held, ← rest10_eq m hO 0] at hb
    iintro ⟨Ha, HO, ⟨Hp, Ht⟩, Hrest⟩
    imodintro
    isplitl [Ha Ht Hrest]
    · iapply hb
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Cert.Kernel.Hand

end
-- ==== Proof.KReg11.lean ====
/-
  Region 11 of the edge scorer as a segment of the program's run.

  The region is entered with every unscoped buffer held whole at the contents the host operations before it leave,
  beside the generator register and nothing owed. Of those buffers the pipeline takes the four arrays its five windows
  read and write — the feature rows (read by two windows, each at one half of the full share), the weights, the
  bias and the output chunk — and the two index tables; the other unscoped buffers bypass the region. At the exit the
  feature rows' two halves rejoin, the inputs are as they were, the output array holds the region's chunk, and
  the whole is the next boundary's contents.
-/
import proofs.«405368_j31662498906597_2_alg».proof.Proof.KFamily
import proofs.«405368_j31662498906597_2_alg».proof.Proof.KHostEntry
import proofs.«405368_j31662498906597_2_alg».proof.Proof.KHostEntryGen
import Idealize.ShloMosaic.Lib.Pipeline.RegionsLoop

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The six unscoped buffers region 11 touches: the feature rows, the weights, the bias, its output chunk and its two
    index tables. -/
abbrev arrs11 : Finset (Ref sig .tc) := insert main_v1 (insert main_arg3 (insert main_v0 (insert main_v48 (insert main_v46 {main_v47}))))

theorem arrs11_sub : arrs11 ⊆ Finset.univ.filter fun b : Ref sig .tc => ¬ b.isScoped := by decide

/-- The unscoped buffers region 11 does not touch, held whole at `V`. -/
def rest11 (c : Dev nD) (V : (b : Ref sig .tc) → Buf (Elt F) ((c.tc : Thread nD τ).loc b)) : sProp 𝕄 :=
  bigSep ((Finset.univ.filter fun b : Ref sig .tc => ¬ b.isScoped) \ arrs11) fun b => ((c.tc : Thread nD τ).loc b) ↦{fullShare} V b

/-- The six touched buffers one by one, and the rest. -/
theorem ub_split11 (c : Dev nD) (V : (b : Ref sig .tc) → Buf (Elt F) ((c.tc : Thread nD τ).loc b)) :
    (unscopedBufs (Ix := Unit) (Name := ℕ) (U := UR sig nD τ) (Lvl := ℕ) c V : sProp 𝕄)
      = iprop(iprop((((c.tc : Thread nD τ).loc main_v1) ↦{fullShare} V main_v1) ∗ (((c.tc : Thread nD τ).loc main_arg3) ↦{fullShare} V main_arg3)
          ∗ (((c.tc : Thread nD τ).loc main_v0) ↦{fullShare} V main_v0) ∗ (((c.tc : Thread nD τ).loc main_v48) ↦{fullShare} V main_v48)
          ∗ (((c.tc : Thread nD τ).loc main_v46) ↦{fullShare} V main_v46) ∗ (((c.tc : Thread nD τ).loc main_v47) ↦{fullShare} V main_v47)) ∗ rest11 c V) := by
  unfold unscopedBufs rest11
  rw [BI.bigSep_sdiff_split arrs11_sub]
  refine congrArg (fun X => iprop(X ∗ _)) ?_
  show bigSep (insert main_v1 (insert main_arg3 (insert main_v0 (insert main_v48 (insert main_v46 {main_v47}))))) _ = _
  rw [BI.bigSep_insert (by decide), BI.bigSep_insert (by decide), BI.bigSep_insert (by decide), BI.bigSep_insert (by decide),
    BI.bigSep_insert (by decide), BI.bigSep_singleton]
  rfl

/-- A product over two tables, written out. -/
theorem two_tables11 (Φ : Fin 2 → sProp 𝕄) : bigSep Finset.univ Φ = iprop(Φ 0 ∗ Φ 1) := BI.bigSep_fin_two Φ

/-- The five windows' arrays and the two tables, by name. -/
theorem arrRef11_0 : Pipeline.arrRef spec11 (0 : Fin 5) = main_v1 := rfl
theorem arrRef11_1 : Pipeline.arrRef spec11 (1 : Fin 5) = main_v1 := rfl
theorem arrRef11_2 : Pipeline.arrRef spec11 (2 : Fin 5) = main_arg3 := rfl
theorem arrRef11_3 : Pipeline.arrRef spec11 (3 : Fin 5) = main_v0 := rfl
theorem arrRef11_4 : Pipeline.arrRef spec11 (4 : Fin 5) = main_v48 := rfl
theorem preRef11_0 : pre11.ref (0 : Fin 2) = main_v46 := rfl
theorem preRef11_1 : pre11.ref (1 : Fin 2) = main_v47 := rfl

set_option maxHeartbeats 1600000 in
/-- A core's unscoped buffers held whole at `V` ARE the pipeline's arrays at `V`'s contents of them (the feature rows'
    full share dealt as its two halves to the two windows that read them), the two tables at `V`'s contents of
    them, and the rest. Both directions: the region's entry and its exit. -/
theorem bufs11 (a : (pcfg11 (F := F)).Adm) (c : Dev nD) (dat : Dat τ (Elt F) Unit ℕ (UR sig nD τ) ℕ (cfg11 a) c)
    (hq0 : dat.q 0 = fullShare.left) (hq1 : dat.q 1 = fullShare.right) (hq2 : dat.q 2 = fullShare) (hq3 : dat.q 3 = fullShare)
    (V : (b : Ref sig .tc) → Buf (Elt F) ((c.tc : Thread nD τ).loc b))
    (G : (w : Fin (cfg11 a).W) → Buf (Elt F) (((cfg11 a).win w).arr.view.loc (c.tc : Thread nD τ)))
    (hG : G = fun w => V (Pipeline.arrRef spec11 w))
    (T : pre11.Contents (Elt F)) (hT : T = fun k => V (pre11.ref k)) :
    (unscopedBufs (Ix := Unit) (Name := ℕ) (U := UR sig nD τ) (Lvl := ℕ) c V : sProp 𝕄)
      ⊣⊢ iprop(dat.arrays G ∗ Pipeline.prefHeld (Ix := Unit) (Name := ℕ) (U := UR sig nD τ) (Lvl := ℕ) pre11 c (fun _ => fullShare) T ∗ rest11 c V) := by
  subst hG hT
  have harr : ∀ w, (((cfg11 a).spec w).arr).IsWhole := arr_whole11
  have hA : dat.arrays (fun w => V (Pipeline.arrRef spec11 w))
      = bigSep Finset.univ fun w : Fin 5 => (((c.tc : Thread nD τ).loc (Pipeline.arrRef spec11 w)) ↦{dat.share w} V (Pipeline.arrRef spec11 w) : sProp 𝕄) := by
    unfold Dat.arrays
    exact BI.bigSep_congr fun w _ => by rw [(harr w).set_eq_univ]
  have s0 : dat.share 0 = fullShare.left := by unfold Dat.share; rw [show ((cfg11 a).win 0).isOut = false from rfl]; exact hq0
  have s1 : dat.share 1 = fullShare.right := by unfold Dat.share; rw [show ((cfg11 a).win 1).isOut = false from rfl]; exact hq1
  have s2 : dat.share 2 = fullShare := by unfold Dat.share; rw [show ((cfg11 a).win 2).isOut = false from rfl]; exact hq2
  have s3 : dat.share 3 = fullShare := by unfold Dat.share; rw [show ((cfg11 a).win 3).isOut = false from rfl]; exact hq3
  have s4 : dat.share 4 = fullShare := by unfold Dat.share; rw [show ((cfg11 a).win 4).isOut = true from rfl]; rfl
  rw [ub_split11, hA, bigSep_W11, s0, s1, s2, s3, s4]
  unfold Pipeline.prefHeld
  rw [two_tables11]
  simp only [arrRef11_0, arrRef11_1, arrRef11_2, arrRef11_3, arrRef11_4, preRef11_0, preRef11_1]
  constructor
  · iintro ⟨⟨H1, HW, HB, HO, HS, HD⟩, Hr⟩
    ihave H1' := (pointsTo_share (PosShare.mem_left_op_right fullShare)).1 $$ H1
    icases H1' with ⟨H1a, H1b⟩
    isplitl [H1a H1b HW HB HO]
    · isplitl [H1a]; · iexact H1a
      isplitl [H1b]; · iexact H1b
      isplitl [HW]; · iexact HW
      isplitl [HB]; · iexact HB
      iexact HO
    isplitl [HS HD]
    · isplitl [HS]; · iexact HS
      iexact HD
    iexact Hr
  · iintro ⟨⟨H1a, H1b, HW, HB, HO⟩, ⟨HS, HD⟩, Hr⟩
    ihave H1 := (pointsTo_share (PosShare.mem_left_op_right fullShare)).2 $$ [H1a H1b]
    · isplitl [H1a]; · iexact H1a
      iexact H1b
    isplitr [Hr]
    · isplitl [H1]; · iexact H1
      isplitl [HW]; · iexact HW
      isplitl [HB]; · iexact HB
      isplitl [HO]; · iexact HO
      isplitl [HS]; · iexact HS
      iexact HD
    iexact Hr

set_option maxHeartbeats 1600000 in
/-- ENTRY, everything a variable: for any proof data `dat` whose arrays are `Vd`'s contents (`hA`) and any tables `T`
    that are `Vd`'s contents (`hT`), whenever the boundary contents `Vx` agree with `Vd` at the six touched buffers, the
    unscoped buffers at `Vx` are the pipeline's arrays at their entry contents, the two tables, and the rest. -/
theorem entry11 (a : (pcfg11 (F := F)).Adm) (c : Dev nD) (dat : Dat τ (Elt F) Unit ℕ (UR sig nD τ) ℕ (cfg11 a) c)
    (hq0 : dat.q 0 = fullShare.left) (hq1 : dat.q 1 = fullShare.right) (hq2 : dat.q 2 = fullShare) (hq3 : dat.q 3 = fullShare)
    (Vd Vx : (b : Ref sig .tc) → Buf (Elt F) ((c.tc : Thread nD τ).loc b))
    (hA : ∀ w, dat.A w = Vd (Pipeline.arrRef spec11 w))
    (e_h : Vd main_v1 = Vx main_v1) (e_W : Vd main_arg3 = Vx main_arg3) (e_b : Vd main_v0 = Vx main_v0) (e_out : Vd main_v48 = Vx main_v48)
    (T : pre11.Contents (Elt F)) (hT : ∀ j, T j = Vd (pre11.ref j)) (e_src : Vd main_v46 = Vx main_v46) (e_dst : Vd main_v47 = Vx main_v47) :
    (unscopedBufs (Ix := Unit) (Name := ℕ) (U := UR sig nD τ) (Lvl := ℕ) c Vx : sProp 𝕄)
      ⊢ iprop(dat.arrays (dat.arrAt · 0)
          ∗ Pipeline.prefHeld (Ix := Unit) (Name := ℕ) (U := UR sig nD τ) (Lvl := ℕ) pre11 c (fun _ => fullShare) T ∗ rest11 c Vx) :=
  (bufs11 a c dat hq0 hq1 hq2 hq3 Vx (fun w => dat.arrAt w 0)
    (funext fun w => match w with
      | ⟨0, h⟩ => by show dat.arrAt ⟨0, h⟩ 0 = Vx main_v1; exact (hA ⟨0, h⟩).trans e_h
      | ⟨1, h⟩ => by show dat.arrAt ⟨1, h⟩ 0 = Vx main_v1; exact (hA ⟨1, h⟩).trans e_h
      | ⟨2, h⟩ => by show dat.arrAt ⟨2, h⟩ 0 = Vx main_arg3; exact (hA ⟨2, h⟩).trans e_W
      | ⟨3, h⟩ => by show dat.arrAt ⟨3, h⟩ 0 = Vx main_v0; exact (hA ⟨3, h⟩).trans e_b
      | ⟨4, h⟩ => by show dat.arrAt ⟨4, h⟩ 0 = Vx main_v48; exact (hA ⟨4, h⟩).trans e_out)
    T (funext fun j => match j with
      | ⟨0, h⟩ => by show T ⟨0, h⟩ = Vx main_v46; exact (hT ⟨0, h⟩).trans e_src
      | ⟨1, h⟩ => by show T ⟨1, h⟩ = Vx main_v47; exact (hT ⟨1, h⟩).trans e_dst)).1

set_option maxHeartbeats 1600000 in
/-- EXIT, everything a variable: the inputs' arrays end as they began, the output array at what the last write-backs
    leave (`x_out`); whenever `Vx` holds those contents at the six touched buffers, the pipeline's arrays at their final
    contents, the two tables and the rest at `Vx` are the unscoped buffers at `Vx`. -/
theorem exit11 (a : (pcfg11 (F := F)).Adm) (c : Dev nD) (dat : Dat τ (Elt F) Unit ℕ (UR sig nD τ) ℕ (cfg11 a) c) (N : Nat)
    (hq0 : dat.q 0 = fullShare.left) (hq1 : dat.q 1 = fullShare.right) (hq2 : dat.q 2 = fullShare) (hq3 : dat.q 3 = fullShare)
    (Vd Vx : (b : Ref sig .tc) → Buf (Elt F) ((c.tc : Thread nD τ).loc b))
    (hA : ∀ w, dat.A w = Vd (Pipeline.arrRef spec11 w))
    (x_h : Vd main_v1 = Vx main_v1) (x_W : Vd main_arg3 = Vx main_arg3) (x_b : Vd main_v0 = Vx main_v0) (x_out : dat.arrAt 4 N = Vx main_v48)
    (T : pre11.Contents (Elt F)) (hT : ∀ j, T j = Vd (pre11.ref j)) (x_src : Vd main_v46 = Vx main_v46) (x_dst : Vd main_v47 = Vx main_v47) :
    iprop(dat.arrays (dat.arrAt · N)
        ∗ Pipeline.prefHeld (Ix := Unit) (Name := ℕ) (U := UR sig nD τ) (Lvl := ℕ) pre11 c (fun _ => fullShare) T ∗ rest11 c Vx)
      ⊢ (unscopedBufs (Ix := Unit) (Name := ℕ) (U := UR sig nD τ) (Lvl := ℕ) c Vx : sProp 𝕄) :=
  (bufs11 a c dat hq0 hq1 hq2 hq3 Vx (fun w => dat.arrAt w N)
    (funext fun w => match w with
      | ⟨0, h⟩ => by show dat.arrAt ⟨0, h⟩ N = Vx main_v1; exact (dat.arrAt_in ⟨0, h⟩ rfl N).trans ((hA ⟨0, h⟩).trans x_h)
      | ⟨1, h⟩ => by show dat.arrAt ⟨1, h⟩ N = Vx main_v1; exact (dat.arrAt_in ⟨1, h⟩ rfl N).trans ((hA ⟨1, h⟩).trans x_h)
      | ⟨2, h⟩ => by show dat.arrAt ⟨2, h⟩ N = Vx main_arg3; exact (dat.arrAt_in ⟨2, h⟩ rfl N).trans ((hA ⟨2, h⟩).trans x_W)
      | ⟨3, h⟩ => by show dat.arrAt ⟨3, h⟩ N = Vx main_v0; exact (dat.arrAt_in ⟨3, h⟩ rfl N).trans ((hA ⟨3, h⟩).trans x_b)
      | ⟨4, h⟩ => by show dat.arrAt ⟨4, h⟩ N = Vx main_v48; exact x_out)
    T (funext fun j => match j with
      | ⟨0, h⟩ => by show T ⟨0, h⟩ = Vx main_v46; exact (hT ⟨0, h⟩).trans x_src
      | ⟨1, h⟩ => by show T ⟨1, h⟩ = Vx main_v47; exact (hT ⟨1, h⟩).trans x_dst)).2

variable (m : (ℓ : Loc nD τ sig) → Buf (Elt F) ℓ) (hO : Oks m)

/-! ## What the region finds and leaves, buffer by buffer -/

include hO

theorem fin11_h (c : Dev nD) : Ve11 m c main_v1 = V23 m (outsR m hO) c main_v1 := by first | exact indep11_h m (outsL m) (outsR m hO) c | rfl
theorem fin11_W (c : Dev nD) : Ve11 m c main_arg3 = V23 m (outsR m hO) c main_arg3 := by first | exact indep11_W m (outsL m) (outsR m hO) c | rfl
theorem fin11_b (c : Dev nD) : Ve11 m c main_v0 = V23 m (outsR m hO) c main_v0 := by first | exact indep11_b m (outsL m) (outsR m hO) c | rfl
theorem fin11_out (c : Dev nD) : Ve11 m c main_v48 = V23 m (outsR m hO) c main_v48 := by first | exact indep11_out m (outsL m) (outsR m hO) c | rfl
theorem fin11_src (c : Dev nD) : Ve11 m c main_v46 = V23 m (outsR m hO) c main_v46 := by first | exact indep11_src m (outsL m) (outsR m hO) c | rfl
theorem fin11_dst (c : Dev nD) : Ve11 m c main_v47 = V23 m (outsR m hO) c main_v47 := by first | exact indep11_dst m (outsL m) (outsR m hO) c | rfl

/-- What the region leaves in the buffers it touches: the inputs and the tables as they were, the output array at the
    region's chunk. -/
theorem lv11_h (c : Dev nD) : V24 m (outsR m hO) c main_v1 = V23 m (outsR m hO) c main_v1 := V24_of m (outsR m hO) c main_v1 (by decide)
theorem lv11_W (c : Dev nD) : V24 m (outsR m hO) c main_arg3 = V23 m (outsR m hO) c main_arg3 := V24_of m (outsR m hO) c main_arg3 (by decide)
theorem lv11_b (c : Dev nD) : V24 m (outsR m hO) c main_v0 = V23 m (outsR m hO) c main_v0 := V24_of m (outsR m hO) c main_v0 (by decide)
theorem lv11_src (c : Dev nD) : V24 m (outsR m hO) c main_v46 = V23 m (outsR m hO) c main_v46 := V24_of m (outsR m hO) c main_v46 (by decide)
theorem lv11_dst (c : Dev nD) : V24 m (outsR m hO) c main_v47 = V23 m (outsR m hO) c main_v47 := V24_of m (outsR m hO) c main_v47 (by decide)
theorem lv11_out (c : Dev nD) : V24 m (outsR m hO) c main_v48 = chunk11 m hO c :=
  (Function.update_self _ _ _).trans (outsR_11 m hO c)

/-- The buffers the region does not touch pass it by unchanged. -/
theorem rest11_eq (c : Dev nD) : (rest11 c (fun b => V23 m (outsR m hO) c b) : sProp 𝕄) = rest11 c (fun b => V24 m (outsR m hO) c b) := by
  unfold rest11
  exact BI.bigSep_congr fun b hb => by
    dsimp only
    rw [V24_of m (outsR m hO) c b (fun h => (Finset.mem_sdiff.mp hb).2 (by rw [List.mem_singleton.mp h]; decide))]

set_option maxHeartbeats 1600000 in
set_option backward.isDefEq.respectTransparency.types false in
/-- REGION 0 over the boundary states. -/
def reg11 : Pipeline.RegionSeg (pcfgs (F := F)) (adm m hO) (pdats m hO) () defs₀ 𝒱₀ L lv (11 : Fin 16) where
  win := winFacts₀11
  block_pos := block_pos11
  stage_whole := stage_whole11
  K := PEmpty
  osem k := k.elim
  ho := Pipeline.OwnSemFacts.none _
  hbody c := (body_obligation11 (Ve11 m) ⟨tbl11 m, hO.h11⟩ c).loose
  hwaits := Pipeline.hwaits_of_owed_zero _ _ _ _ L lv (11 : Fin 16) fun _ _ => rfl
  pre c := iprop(StableHlo.held (c : Thread nD τ) (Pipeline.ucRefs τ sig) (V23 m (outsR m hO) c) ∗ Rst c)
  post c := iprop(StableHlo.held (c : Thread nD τ) (Pipeline.ucRefs τ sig) (V24 m (outsR m hO) c) ∗ Rst c)
  X c := iprop(∃ r, prngReg c r)
  Y c := iprop((∃ r, prngReg c r) ∗ Pipeline.prefHeld (Ix := Unit) (Name := ℕ) (U := UR sig nD τ) (Lvl := ℕ) pre11 c (fun _ => fullShare) (tbl11 m))
  Z c := rest11 c (fun b => V23 m (outsR m hO) c b)
  hentry c := by
    obtain rfl : c = 0 := Subsingleton.elim _ _
    have hb := entry11 (adm m hO (11 : Fin 16)) 0 (pdats m hO (11 : Fin 16) 0) rfl rfl rfl rfl (Ve11 m 0) (fun b => V23 m (outsR m hO) 0 b) (fun w => rfl)
      (fin11_h m hO 0) (fin11_W m hO 0) (fin11_b m hO 0) (fin11_out m hO 0) (tbl11 m) (fun j => rfl) (fin11_src m hO 0) (fin11_dst m hO 0)
    rw [Pipeline.unscopedBufs_held] at hb
    iintro ⟨⟨Hub, Hp, HO⟩, -, -⟩
    ihave H := hb $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO (11 : Fin 16) c).Φ 0 = iprop(Pipeline.ΦA spec11 c ∗ Pipeline.prefHeld (Ix := Unit) (Name := ℕ) (U := UR sig nD τ) (Lvl := ℕ) pre11 c (fun _ => fullShare) (tbl11 m)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m hO (11 : Fin 16) c).Φ (Fin.last _) = iprop(Pipeline.ΦA spec11 c ∗ Pipeline.prefHeld (Ix := Unit) (Name := ℕ) (U := UR sig nD τ) (Lvl := ℕ) pre11 c (fun _ => fullShare) (tbl11 m)) from rfl]
    unfold Pipeline.ΦA
    iintro ⟨⟨Hr, Hp⟩, Ht⟩
    isplitl [Hp Ht]
    · isplitl [Hp]; · iexact Hp
      iexact Ht
    isplitr; · iempintro
    iexact Hr
  hexit c := by
    obtain rfl : c = 0 := Subsingleton.elim _ _
    have hb := exit11 (adm m hO (11 : Fin 16)) 0 (pdats m hO (11 : Fin 16) 0) (Pipeline.pin (pcfgs (F := F)) (adm m hO) (11 : Fin 16)).N rfl rfl rfl rfl
      (Ve11 m 0) (fun b => V24 m (outsR m hO) 0 b) (fun w => rfl)
      ((fin11_h m hO 0).trans (lv11_h m hO 0).symm) ((fin11_W m hO 0).trans (lv11_W m hO 0).symm) ((fin11_b m hO 0).trans (lv11_b m hO 0).symm)
      (lv11_out m hO 0).symm (tbl11 m) (fun j => rfl) ((fin11_src m hO 0).trans (lv11_src m hO 0).symm) ((fin11_dst m hO 0).trans (lv11_dst m hO 0).symm)
    rw [Pipeline.unscopedBufs_held, ← rest11_eq m hO 0] at hb
    iintro ⟨Ha, HO, ⟨Hp, Ht⟩, Hrest⟩
    imodintro
    isplitl [Ha Ht Hrest]
    · iapply hb
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Cert.Kernel.Hand

end
-- ==== Proof.KReg12.lean ====
/-
  Region 12 of the edge scorer as a segment of the program's run.

  The region is entered with every unscoped buffer held whole at the contents the host operations before it leave,
  beside the generator register and nothing owed. Of those buffers the pipeline takes the four arrays its five windows
  read and write — the feature rows (read by two windows, each at one half of the full share), the weights, the
  bias and the output chunk — and the two index tables; the other unscoped buffers bypass the region. At the exit the
  feature rows' two halves rejoin, the inputs are as they were, the output array holds the region's chunk, and
  the whole is the next boundary's contents.
-/
import proofs.«405368_j31662498906597_2_alg».proof.Proof.KFamily
import proofs.«405368_j31662498906597_2_alg».proof.Proof.KHostEntry
import proofs.«405368_j31662498906597_2_alg».proof.Proof.KHostEntryGen
import Idealize.ShloMosaic.Lib.Pipeline.RegionsLoop

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The six unscoped buffers region 12 touches: the feature rows, the weights, the bias, its output chunk and its two
    index tables. -/
abbrev arrs12 : Finset (Ref sig .tc) := insert main_v1 (insert main_arg3 (insert main_v0 (insert main_v52 (insert main_v50 {main_v51}))))

theorem arrs12_sub : arrs12 ⊆ Finset.univ.filter fun b : Ref sig .tc => ¬ b.isScoped := by decide

/-- The unscoped buffers region 12 does not touch, held whole at `V`. -/
def rest12 (c : Dev nD) (V : (b : Ref sig .tc) → Buf (Elt F) ((c.tc : Thread nD τ).loc b)) : sProp 𝕄 :=
  bigSep ((Finset.univ.filter fun b : Ref sig .tc => ¬ b.isScoped) \ arrs12) fun b => ((c.tc : Thread nD τ).loc b) ↦{fullShare} V b

/-- The six touched buffers one by one, and the rest. -/
theorem ub_split12 (c : Dev nD) (V : (b : Ref sig .tc) → Buf (Elt F) ((c.tc : Thread nD τ).loc b)) :
    (unscopedBufs (Ix := Unit) (Name := ℕ) (U := UR sig nD τ) (Lvl := ℕ) c V : sProp 𝕄)
      = iprop(iprop((((c.tc : Thread nD τ).loc main_v1) ↦{fullShare} V main_v1) ∗ (((c.tc : Thread nD τ).loc main_arg3) ↦{fullShare} V main_arg3)
          ∗ (((c.tc : Thread nD τ).loc main_v0) ↦{fullShare} V main_v0) ∗ (((c.tc : Thread nD τ).loc main_v52) ↦{fullShare} V main_v52)
          ∗ (((c.tc : Thread nD τ).loc main_v50) ↦{fullShare} V main_v50) ∗ (((c.tc : Thread nD τ).loc main_v51) ↦{fullShare} V main_v51)) ∗ rest12 c V) := by
  unfold unscopedBufs rest12
  rw [BI.bigSep_sdiff_split arrs12_sub]
  refine congrArg (fun X => iprop(X ∗ _)) ?_
  show bigSep (insert main_v1 (insert main_arg3 (insert main_v0 (insert main_v52 (insert main_v50 {main_v51}))))) _ = _
  rw [BI.bigSep_insert (by decide), BI.bigSep_insert (by decide), BI.bigSep_insert (by decide), BI.bigSep_insert (by decide),
    BI.bigSep_insert (by decide), BI.bigSep_singleton]
  rfl

/-- A product over two tables, written out. -/
theorem two_tables12 (Φ : Fin 2 → sProp 𝕄) : bigSep Finset.univ Φ = iprop(Φ 0 ∗ Φ 1) := BI.bigSep_fin_two Φ

/-- The five windows' arrays and the two tables, by name. -/
theorem arrRef12_0 : Pipeline.arrRef spec12 (0 : Fin 5) = main_v1 := rfl
theorem arrRef12_1 : Pipeline.arrRef spec12 (1 : Fin 5) = main_v1 := rfl
theorem arrRef12_2 : Pipeline.arrRef spec12 (2 : Fin 5) = main_arg3 := rfl
theorem arrRef12_3 : Pipeline.arrRef spec12 (3 : Fin 5) = main_v0 := rfl
theorem arrRef12_4 : Pipeline.arrRef spec12 (4 : Fin 5) = main_v52 := rfl
theorem preRef12_0 : pre12.ref (0 : Fin 2) = main_v50 := rfl
theorem preRef12_1 : pre12.ref (1 : Fin 2) = main_v51 := rfl

set_option maxHeartbeats 1600000 in
/-- A core's unscoped buffers held whole at `V` ARE the pipeline's arrays at `V`'s contents of them (the feature rows'
    full share dealt as its two halves to the two windows that read them), the two tables at `V`'s contents of
    them, and the rest. Both directions: the region's entry and its exit. -/
theorem bufs12 (a : (pcfg12 (F := F)).Adm) (c : Dev nD) (dat : Dat τ (Elt F) Unit ℕ (UR sig nD τ) ℕ (cfg12 a) c)
    (hq0 : dat.q 0 = fullShare.left) (hq1 : dat.q 1 = fullShare.right) (hq2 : dat.q 2 = fullShare) (hq3 : dat.q 3 = fullShare)
    (V : (b : Ref sig .tc) → Buf (Elt F) ((c.tc : Thread nD τ).loc b))
    (G : (w : Fin (cfg12 a).W) → Buf (Elt F) (((cfg12 a).win w).arr.view.loc (c.tc : Thread nD τ)))
    (hG : G = fun w => V (Pipeline.arrRef spec12 w))
    (T : pre12.Contents (Elt F)) (hT : T = fun k => V (pre12.ref k)) :
    (unscopedBufs (Ix := Unit) (Name := ℕ) (U := UR sig nD τ) (Lvl := ℕ) c V : sProp 𝕄)
      ⊣⊢ iprop(dat.arrays G ∗ Pipeline.prefHeld (Ix := Unit) (Name := ℕ) (U := UR sig nD τ) (Lvl := ℕ) pre12 c (fun _ => fullShare) T ∗ rest12 c V) := by
  subst hG hT
  have harr : ∀ w, (((cfg12 a).spec w).arr).IsWhole := arr_whole12
  have hA : dat.arrays (fun w => V (Pipeline.arrRef spec12 w))
      = bigSep Finset.univ fun w : Fin 5 => (((c.tc : Thread nD τ).loc (Pipeline.arrRef spec12 w)) ↦{dat.share w} V (Pipeline.arrRef spec12 w) : sProp 𝕄) := by
    unfold Dat.arrays
    exact BI.bigSep_congr fun w _ => by rw [(harr w).set_eq_univ]
  have s0 : dat.share 0 = fullShare.left := by unfold Dat.share; rw [show ((cfg12 a).win 0).isOut = false from rfl]; exact hq0
  have s1 : dat.share 1 = fullShare.right := by unfold Dat.share; rw [show ((cfg12 a).win 1).isOut = false from rfl]; exact hq1
  have s2 : dat.share 2 = fullShare := by unfold Dat.share; rw [show ((cfg12 a).win 2).isOut = false from rfl]; exact hq2
  have s3 : dat.share 3 = fullShare := by unfold Dat.share; rw [show ((cfg12 a).win 3).isOut = false from rfl]; exact hq3
  have s4 : dat.share 4 = fullShare := by unfold Dat.share; rw [show ((cfg12 a).win 4).isOut = true from rfl]; rfl
  rw [ub_split12, hA, bigSep_W12, s0, s1, s2, s3, s4]
  unfold Pipeline.prefHeld
  rw [two_tables12]
  simp only [arrRef12_0, arrRef12_1, arrRef12_2, arrRef12_3, arrRef12_4, preRef12_0, preRef12_1]
  constructor
  · iintro ⟨⟨H1, HW, HB, HO, HS, HD⟩, Hr⟩
    ihave H1' := (pointsTo_share (PosShare.mem_left_op_right fullShare)).1 $$ H1
    icases H1' with ⟨H1a, H1b⟩
    isplitl [H1a H1b HW HB HO]
    · isplitl [H1a]; · iexact H1a
      isplitl [H1b]; · iexact H1b
      isplitl [HW]; · iexact HW
      isplitl [HB]; · iexact HB
      iexact HO
    isplitl [HS HD]
    · isplitl [HS]; · iexact HS
      iexact HD
    iexact Hr
  · iintro ⟨⟨H1a, H1b, HW, HB, HO⟩, ⟨HS, HD⟩, Hr⟩
    ihave H1 := (pointsTo_share (PosShare.mem_left_op_right fullShare)).2 $$ [H1a H1b]
    · isplitl [H1a]; · iexact H1a
      iexact H1b
    isplitr [Hr]
    · isplitl [H1]; · iexact H1
      isplitl [HW]; · iexact HW
      isplitl [HB]; · iexact HB
      isplitl [HO]; · iexact HO
      isplitl [HS]; · iexact HS
      iexact HD
    iexact Hr

set_option maxHeartbeats 1600000 in
/-- ENTRY, everything a variable: for any proof data `dat` whose arrays are `Vd`'s contents (`hA`) and any tables `T`
    that are `Vd`'s contents (`hT`), whenever the boundary contents `Vx` agree with `Vd` at the six touched buffers, the
    unscoped buffers at `Vx` are the pipeline's arrays at their entry contents, the two tables, and the rest. -/
theorem entry12 (a : (pcfg12 (F := F)).Adm) (c : Dev nD) (dat : Dat τ (Elt F) Unit ℕ (UR sig nD τ) ℕ (cfg12 a) c)
    (hq0 : dat.q 0 = fullShare.left) (hq1 : dat.q 1 = fullShare.right) (hq2 : dat.q 2 = fullShare) (hq3 : dat.q 3 = fullShare)
    (Vd Vx : (b : Ref sig .tc) → Buf (Elt F) ((c.tc : Thread nD τ).loc b))
    (hA : ∀ w, dat.A w = Vd (Pipeline.arrRef spec12 w))
    (e_h : Vd main_v1 = Vx main_v1) (e_W : Vd main_arg3 = Vx main_arg3) (e_b : Vd main_v0 = Vx main_v0) (e_out : Vd main_v52 = Vx main_v52)
    (T : pre12.Contents (Elt F)) (hT : ∀ j, T j = Vd (pre12.ref j)) (e_src : Vd main_v50 = Vx main_v50) (e_dst : Vd main_v51 = Vx main_v51) :
    (unscopedBufs (Ix := Unit) (Name := ℕ) (U := UR sig nD τ) (Lvl := ℕ) c Vx : sProp 𝕄)
      ⊢ iprop(dat.arrays (dat.arrAt · 0)
          ∗ Pipeline.prefHeld (Ix := Unit) (Name := ℕ) (U := UR sig nD τ) (Lvl := ℕ) pre12 c (fun _ => fullShare) T ∗ rest12 c Vx) :=
  (bufs12 a c dat hq0 hq1 hq2 hq3 Vx (fun w => dat.arrAt w 0)
    (funext fun w => match w with
      | ⟨0, h⟩ => by show dat.arrAt ⟨0, h⟩ 0 = Vx main_v1; exact (hA ⟨0, h⟩).trans e_h
      | ⟨1, h⟩ => by show dat.arrAt ⟨1, h⟩ 0 = Vx main_v1; exact (hA ⟨1, h⟩).trans e_h
      | ⟨2, h⟩ => by show dat.arrAt ⟨2, h⟩ 0 = Vx main_arg3; exact (hA ⟨2, h⟩).trans e_W
      | ⟨3, h⟩ => by show dat.arrAt ⟨3, h⟩ 0 = Vx main_v0; exact (hA ⟨3, h⟩).trans e_b
      | ⟨4, h⟩ => by show dat.arrAt ⟨4, h⟩ 0 = Vx main_v52; exact (hA ⟨4, h⟩).trans e_out)
    T (funext fun j => match j with
      | ⟨0, h⟩ => by show T ⟨0, h⟩ = Vx main_v50; exact (hT ⟨0, h⟩).trans e_src
      | ⟨1, h⟩ => by show T ⟨1, h⟩ = Vx main_v51; exact (hT ⟨1, h⟩).trans e_dst)).1

set_option maxHeartbeats 1600000 in
/-- EXIT, everything a variable: the inputs' arrays end as they began, the output array at what the last write-backs
    leave (`x_out`); whenever `Vx` holds those contents at the six touched buffers, the pipeline's arrays at their final
    contents, the two tables and the rest at `Vx` are the unscoped buffers at `Vx`. -/
theorem exit12 (a : (pcfg12 (F := F)).Adm) (c : Dev nD) (dat : Dat τ (Elt F) Unit ℕ (UR sig nD τ) ℕ (cfg12 a) c) (N : Nat)
    (hq0 : dat.q 0 = fullShare.left) (hq1 : dat.q 1 = fullShare.right) (hq2 : dat.q 2 = fullShare) (hq3 : dat.q 3 = fullShare)
    (Vd Vx : (b : Ref sig .tc) → Buf (Elt F) ((c.tc : Thread nD τ).loc b))
    (hA : ∀ w, dat.A w = Vd (Pipeline.arrRef spec12 w))
    (x_h : Vd main_v1 = Vx main_v1) (x_W : Vd main_arg3 = Vx main_arg3) (x_b : Vd main_v0 = Vx main_v0) (x_out : dat.arrAt 4 N = Vx main_v52)
    (T : pre12.Contents (Elt F)) (hT : ∀ j, T j = Vd (pre12.ref j)) (x_src : Vd main_v50 = Vx main_v50) (x_dst : Vd main_v51 = Vx main_v51) :
    iprop(dat.arrays (dat.arrAt · N)
        ∗ Pipeline.prefHeld (Ix := Unit) (Name := ℕ) (U := UR sig nD τ) (Lvl := ℕ) pre12 c (fun _ => fullShare) T ∗ rest12 c Vx)
      ⊢ (unscopedBufs (Ix := Unit) (Name := ℕ) (U := UR sig nD τ) (Lvl := ℕ) c Vx : sProp 𝕄) :=
  (bufs12 a c dat hq0 hq1 hq2 hq3 Vx (fun w => dat.arrAt w N)
    (funext fun w => match w with
      | ⟨0, h⟩ => by show dat.arrAt ⟨0, h⟩ N = Vx main_v1; exact (dat.arrAt_in ⟨0, h⟩ rfl N).trans ((hA ⟨0, h⟩).trans x_h)
      | ⟨1, h⟩ => by show dat.arrAt ⟨1, h⟩ N = Vx main_v1; exact (dat.arrAt_in ⟨1, h⟩ rfl N).trans ((hA ⟨1, h⟩).trans x_h)
      | ⟨2, h⟩ => by show dat.arrAt ⟨2, h⟩ N = Vx main_arg3; exact (dat.arrAt_in ⟨2, h⟩ rfl N).trans ((hA ⟨2, h⟩).trans x_W)
      | ⟨3, h⟩ => by show dat.arrAt ⟨3, h⟩ N = Vx main_v0; exact (dat.arrAt_in ⟨3, h⟩ rfl N).trans ((hA ⟨3, h⟩).trans x_b)
      | ⟨4, h⟩ => by show dat.arrAt ⟨4, h⟩ N = Vx main_v52; exact x_out)
    T (funext fun j => match j with
      | ⟨0, h⟩ => by show T ⟨0, h⟩ = Vx main_v50; exact (hT ⟨0, h⟩).trans x_src
      | ⟨1, h⟩ => by show T ⟨1, h⟩ = Vx main_v51; exact (hT ⟨1, h⟩).trans x_dst)).2

variable (m : (ℓ : Loc nD τ sig) → Buf (Elt F) ℓ) (hO : Oks m)

/-! ## What the region finds and leaves, buffer by buffer -/

include hO

theorem fin12_h (c : Dev nD) : Ve12 m c main_v1 = V25 m (outsR m hO) c main_v1 := by first | exact indep12_h m (outsL m) (outsR m hO) c | rfl
theorem fin12_W (c : Dev nD) : Ve12 m c main_arg3 = V25 m (outsR m hO) c main_arg3 := by first | exact indep12_W m (outsL m) (outsR m hO) c | rfl
theorem fin12_b (c : Dev nD) : Ve12 m c main_v0 = V25 m (outsR m hO) c main_v0 := by first | exact indep12_b m (outsL m) (outsR m hO) c | rfl
theorem fin12_out (c : Dev nD) : Ve12 m c main_v52 = V25 m (outsR m hO) c main_v52 := by first | exact indep12_out m (outsL m) (outsR m hO) c | rfl
theorem fin12_src (c : Dev nD) : Ve12 m c main_v50 = V25 m (outsR m hO) c main_v50 := by first | exact indep12_src m (outsL m) (outsR m hO) c | rfl
theorem fin12_dst (c : Dev nD) : Ve12 m c main_v51 = V25 m (outsR m hO) c main_v51 := by first | exact indep12_dst m (outsL m) (outsR m hO) c | rfl

/-- What the region leaves in the buffers it touches: the inputs and the tables as they were, the output array at the
    region's chunk. -/
theorem lv12_h (c : Dev nD) : V26 m (outsR m hO) c main_v1 = V25 m (outsR m hO) c main_v1 := V26_of m (outsR m hO) c main_v1 (by decide)
theorem lv12_W (c : Dev nD) : V26 m (outsR m hO) c main_arg3 = V25 m (outsR m hO) c main_arg3 := V26_of m (outsR m hO) c main_arg3 (by decide)
theorem lv12_b (c : Dev nD) : V26 m (outsR m hO) c main_v0 = V25 m (outsR m hO) c main_v0 := V26_of m (outsR m hO) c main_v0 (by decide)
theorem lv12_src (c : Dev nD) : V26 m (outsR m hO) c main_v50 = V25 m (outsR m hO) c main_v50 := V26_of m (outsR m hO) c main_v50 (by decide)
theorem lv12_dst (c : Dev nD) : V26 m (outsR m hO) c main_v51 = V25 m (outsR m hO) c main_v51 := V26_of m (outsR m hO) c main_v51 (by decide)
theorem lv12_out (c : Dev nD) : V26 m (outsR m hO) c main_v52 = chunk12 m hO c :=
  (Function.update_self _ _ _).trans (outsR_12 m hO c)

/-- The buffers the region does not touch pass it by unchanged. -/
theorem rest12_eq (c : Dev nD) : (rest12 c (fun b => V25 m (outsR m hO) c b) : sProp 𝕄) = rest12 c (fun b => V26 m (outsR m hO) c b) := by
  unfold rest12
  exact BI.bigSep_congr fun b hb => by
    dsimp only
    rw [V26_of m (outsR m hO) c b (fun h => (Finset.mem_sdiff.mp hb).2 (by rw [List.mem_singleton.mp h]; decide))]

set_option maxHeartbeats 1600000 in
set_option backward.isDefEq.respectTransparency.types false in
/-- REGION 0 over the boundary states. -/
def reg12 : Pipeline.RegionSeg (pcfgs (F := F)) (adm m hO) (pdats m hO) () defs₀ 𝒱₀ L lv (12 : Fin 16) where
  win := winFacts₀12
  block_pos := block_pos12
  stage_whole := stage_whole12
  K := PEmpty
  osem k := k.elim
  ho := Pipeline.OwnSemFacts.none _
  hbody c := (body_obligation12 (Ve12 m) ⟨tbl12 m, hO.h12⟩ c).loose
  hwaits := Pipeline.hwaits_of_owed_zero _ _ _ _ L lv (12 : Fin 16) fun _ _ => rfl
  pre c := iprop(StableHlo.held (c : Thread nD τ) (Pipeline.ucRefs τ sig) (V25 m (outsR m hO) c) ∗ Rst c)
  post c := iprop(StableHlo.held (c : Thread nD τ) (Pipeline.ucRefs τ sig) (V26 m (outsR m hO) c) ∗ Rst c)
  X c := iprop(∃ r, prngReg c r)
  Y c := iprop((∃ r, prngReg c r) ∗ Pipeline.prefHeld (Ix := Unit) (Name := ℕ) (U := UR sig nD τ) (Lvl := ℕ) pre12 c (fun _ => fullShare) (tbl12 m))
  Z c := rest12 c (fun b => V25 m (outsR m hO) c b)
  hentry c := by
    obtain rfl : c = 0 := Subsingleton.elim _ _
    have hb := entry12 (adm m hO (12 : Fin 16)) 0 (pdats m hO (12 : Fin 16) 0) rfl rfl rfl rfl (Ve12 m 0) (fun b => V25 m (outsR m hO) 0 b) (fun w => rfl)
      (fin12_h m hO 0) (fin12_W m hO 0) (fin12_b m hO 0) (fin12_out m hO 0) (tbl12 m) (fun j => rfl) (fin12_src m hO 0) (fin12_dst m hO 0)
    rw [Pipeline.unscopedBufs_held] at hb
    iintro ⟨⟨Hub, Hp, HO⟩, -, -⟩
    ihave H := hb $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO (12 : Fin 16) c).Φ 0 = iprop(Pipeline.ΦA spec12 c ∗ Pipeline.prefHeld (Ix := Unit) (Name := ℕ) (U := UR sig nD τ) (Lvl := ℕ) pre12 c (fun _ => fullShare) (tbl12 m)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m hO (12 : Fin 16) c).Φ (Fin.last _) = iprop(Pipeline.ΦA spec12 c ∗ Pipeline.prefHeld (Ix := Unit) (Name := ℕ) (U := UR sig nD τ) (Lvl := ℕ) pre12 c (fun _ => fullShare) (tbl12 m)) from rfl]
    unfold Pipeline.ΦA
    iintro ⟨⟨Hr, Hp⟩, Ht⟩
    isplitl [Hp Ht]
    · isplitl [Hp]; · iexact Hp
      iexact Ht
    isplitr; · iempintro
    iexact Hr
  hexit c := by
    obtain rfl : c = 0 := Subsingleton.elim _ _
    have hb := exit12 (adm m hO (12 : Fin 16)) 0 (pdats m hO (12 : Fin 16) 0) (Pipeline.pin (pcfgs (F := F)) (adm m hO) (12 : Fin 16)).N rfl rfl rfl rfl
      (Ve12 m 0) (fun b => V26 m (outsR m hO) 0 b) (fun w => rfl)
      ((fin12_h m hO 0).trans (lv12_h m hO 0).symm) ((fin12_W m hO 0).trans (lv12_W m hO 0).symm) ((fin12_b m hO 0).trans (lv12_b m hO 0).symm)
      (lv12_out m hO 0).symm (tbl12 m) (fun j => rfl) ((fin12_src m hO 0).trans (lv12_src m hO 0).symm) ((fin12_dst m hO 0).trans (lv12_dst m hO 0).symm)
    rw [Pipeline.unscopedBufs_held, ← rest12_eq m hO 0] at hb
    iintro ⟨Ha, HO, ⟨Hp, Ht⟩, Hrest⟩
    imodintro
    isplitl [Ha Ht Hrest]
    · iapply hb
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Cert.Kernel.Hand

end
-- ==== Proof.KReg13.lean ====
/-
  Region 13 of the edge scorer as a segment of the program's run.

  The region is entered with every unscoped buffer held whole at the contents the host operations before it leave,
  beside the generator register and nothing owed. Of those buffers the pipeline takes the four arrays its five windows
  read and write — the feature rows (read by two windows, each at one half of the full share), the weights, the
  bias and the output chunk — and the two index tables; the other unscoped buffers bypass the region. At the exit the
  feature rows' two halves rejoin, the inputs are as they were, the output array holds the region's chunk, and
  the whole is the next boundary's contents.
-/
import proofs.«405368_j31662498906597_2_alg».proof.Proof.KFamily
import proofs.«405368_j31662498906597_2_alg».proof.Proof.KHostEntry
import proofs.«405368_j31662498906597_2_alg».proof.Proof.KHostEntryGen
import Idealize.ShloMosaic.Lib.Pipeline.RegionsLoop

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The six unscoped buffers region 13 touches: the feature rows, the weights, the bias, its output chunk and its two
    index tables. -/
abbrev arrs13 : Finset (Ref sig .tc) := insert main_v1 (insert main_arg3 (insert main_v0 (insert main_v56 (insert main_v54 {main_v55}))))

theorem arrs13_sub : arrs13 ⊆ Finset.univ.filter fun b : Ref sig .tc => ¬ b.isScoped := by decide

/-- The unscoped buffers region 13 does not touch, held whole at `V`. -/
def rest13 (c : Dev nD) (V : (b : Ref sig .tc) → Buf (Elt F) ((c.tc : Thread nD τ).loc b)) : sProp 𝕄 :=
  bigSep ((Finset.univ.filter fun b : Ref sig .tc => ¬ b.isScoped) \ arrs13) fun b => ((c.tc : Thread nD τ).loc b) ↦{fullShare} V b

/-- The six touched buffers one by one, and the rest. -/
theorem ub_split13 (c : Dev nD) (V : (b : Ref sig .tc) → Buf (Elt F) ((c.tc : Thread nD τ).loc b)) :
    (unscopedBufs (Ix := Unit) (Name := ℕ) (U := UR sig nD τ) (Lvl := ℕ) c V : sProp 𝕄)
      = iprop(iprop((((c.tc : Thread nD τ).loc main_v1) ↦{fullShare} V main_v1) ∗ (((c.tc : Thread nD τ).loc main_arg3) ↦{fullShare} V main_arg3)
          ∗ (((c.tc : Thread nD τ).loc main_v0) ↦{fullShare} V main_v0) ∗ (((c.tc : Thread nD τ).loc main_v56) ↦{fullShare} V main_v56)
          ∗ (((c.tc : Thread nD τ).loc main_v54) ↦{fullShare} V main_v54) ∗ (((c.tc : Thread nD τ).loc main_v55) ↦{fullShare} V main_v55)) ∗ rest13 c V) := by
  unfold unscopedBufs rest13
  rw [BI.bigSep_sdiff_split arrs13_sub]
  refine congrArg (fun X => iprop(X ∗ _)) ?_
  show bigSep (insert main_v1 (insert main_arg3 (insert main_v0 (insert main_v56 (insert main_v54 {main_v55}))))) _ = _
  rw [BI.bigSep_insert (by decide), BI.bigSep_insert (by decide), BI.bigSep_insert (by decide), BI.bigSep_insert (by decide),
    BI.bigSep_insert (by decide), BI.bigSep_singleton]
  rfl

/-- A product over two tables, written out. -/
theorem two_tables13 (Φ : Fin 2 → sProp 𝕄) : bigSep Finset.univ Φ = iprop(Φ 0 ∗ Φ 1) := BI.bigSep_fin_two Φ

/-- The five windows' arrays and the two tables, by name. -/
theorem arrRef13_0 : Pipeline.arrRef spec13 (0 : Fin 5) = main_v1 := rfl
theorem arrRef13_1 : Pipeline.arrRef spec13 (1 : Fin 5) = main_v1 := rfl
theorem arrRef13_2 : Pipeline.arrRef spec13 (2 : Fin 5) = main_arg3 := rfl
theorem arrRef13_3 : Pipeline.arrRef spec13 (3 : Fin 5) = main_v0 := rfl
theorem arrRef13_4 : Pipeline.arrRef spec13 (4 : Fin 5) = main_v56 := rfl
theorem preRef13_0 : pre13.ref (0 : Fin 2) = main_v54 := rfl
theorem preRef13_1 : pre13.ref (1 : Fin 2) = main_v55 := rfl

set_option maxHeartbeats 1600000 in
/-- A core's unscoped buffers held whole at `V` ARE the pipeline's arrays at `V`'s contents of them (the feature rows'
    full share dealt as its two halves to the two windows that read them), the two tables at `V`'s contents of
    them, and the rest. Both directions: the region's entry and its exit. -/
theorem bufs13 (a : (pcfg13 (F := F)).Adm) (c : Dev nD) (dat : Dat τ (Elt F) Unit ℕ (UR sig nD τ) ℕ (cfg13 a) c)
    (hq0 : dat.q 0 = fullShare.left) (hq1 : dat.q 1 = fullShare.right) (hq2 : dat.q 2 = fullShare) (hq3 : dat.q 3 = fullShare)
    (V : (b : Ref sig .tc) → Buf (Elt F) ((c.tc : Thread nD τ).loc b))
    (G : (w : Fin (cfg13 a).W) → Buf (Elt F) (((cfg13 a).win w).arr.view.loc (c.tc : Thread nD τ)))
    (hG : G = fun w => V (Pipeline.arrRef spec13 w))
    (T : pre13.Contents (Elt F)) (hT : T = fun k => V (pre13.ref k)) :
    (unscopedBufs (Ix := Unit) (Name := ℕ) (U := UR sig nD τ) (Lvl := ℕ) c V : sProp 𝕄)
      ⊣⊢ iprop(dat.arrays G ∗ Pipeline.prefHeld (Ix := Unit) (Name := ℕ) (U := UR sig nD τ) (Lvl := ℕ) pre13 c (fun _ => fullShare) T ∗ rest13 c V) := by
  subst hG hT
  have harr : ∀ w, (((cfg13 a).spec w).arr).IsWhole := arr_whole13
  have hA : dat.arrays (fun w => V (Pipeline.arrRef spec13 w))
      = bigSep Finset.univ fun w : Fin 5 => (((c.tc : Thread nD τ).loc (Pipeline.arrRef spec13 w)) ↦{dat.share w} V (Pipeline.arrRef spec13 w) : sProp 𝕄) := by
    unfold Dat.arrays
    exact BI.bigSep_congr fun w _ => by rw [(harr w).set_eq_univ]
  have s0 : dat.share 0 = fullShare.left := by unfold Dat.share; rw [show ((cfg13 a).win 0).isOut = false from rfl]; exact hq0
  have s1 : dat.share 1 = fullShare.right := by unfold Dat.share; rw [show ((cfg13 a).win 1).isOut = false from rfl]; exact hq1
  have s2 : dat.share 2 = fullShare := by unfold Dat.share; rw [show ((cfg13 a).win 2).isOut = false from rfl]; exact hq2
  have s3 : dat.share 3 = fullShare := by unfold Dat.share; rw [show ((cfg13 a).win 3).isOut = false from rfl]; exact hq3
  have s4 : dat.share 4 = fullShare := by unfold Dat.share; rw [show ((cfg13 a).win 4).isOut = true from rfl]; rfl
  rw [ub_split13, hA, bigSep_W13, s0, s1, s2, s3, s4]
  unfold Pipeline.prefHeld
  rw [two_tables13]
  simp only [arrRef13_0, arrRef13_1, arrRef13_2, arrRef13_3, arrRef13_4, preRef13_0, preRef13_1]
  constructor
  · iintro ⟨⟨H1, HW, HB, HO, HS, HD⟩, Hr⟩
    ihave H1' := (pointsTo_share (PosShare.mem_left_op_right fullShare)).1 $$ H1
    icases H1' with ⟨H1a, H1b⟩
    isplitl [H1a H1b HW HB HO]
    · isplitl [H1a]; · iexact H1a
      isplitl [H1b]; · iexact H1b
      isplitl [HW]; · iexact HW
      isplitl [HB]; · iexact HB
      iexact HO
    isplitl [HS HD]
    · isplitl [HS]; · iexact HS
      iexact HD
    iexact Hr
  · iintro ⟨⟨H1a, H1b, HW, HB, HO⟩, ⟨HS, HD⟩, Hr⟩
    ihave H1 := (pointsTo_share (PosShare.mem_left_op_right fullShare)).2 $$ [H1a H1b]
    · isplitl [H1a]; · iexact H1a
      iexact H1b
    isplitr [Hr]
    · isplitl [H1]; · iexact H1
      isplitl [HW]; · iexact HW
      isplitl [HB]; · iexact HB
      isplitl [HO]; · iexact HO
      isplitl [HS]; · iexact HS
      iexact HD
    iexact Hr

set_option maxHeartbeats 1600000 in
/-- ENTRY, everything a variable: for any proof data `dat` whose arrays are `Vd`'s contents (`hA`) and any tables `T`
    that are `Vd`'s contents (`hT`), whenever the boundary contents `Vx` agree with `Vd` at the six touched buffers, the
    unscoped buffers at `Vx` are the pipeline's arrays at their entry contents, the two tables, and the rest. -/
theorem entry13 (a : (pcfg13 (F := F)).Adm) (c : Dev nD) (dat : Dat τ (Elt F) Unit ℕ (UR sig nD τ) ℕ (cfg13 a) c)
    (hq0 : dat.q 0 = fullShare.left) (hq1 : dat.q 1 = fullShare.right) (hq2 : dat.q 2 = fullShare) (hq3 : dat.q 3 = fullShare)
    (Vd Vx : (b : Ref sig .tc) → Buf (Elt F) ((c.tc : Thread nD τ).loc b))
    (hA : ∀ w, dat.A w = Vd (Pipeline.arrRef spec13 w))
    (e_h : Vd main_v1 = Vx main_v1) (e_W : Vd main_arg3 = Vx main_arg3) (e_b : Vd main_v0 = Vx main_v0) (e_out : Vd main_v56 = Vx main_v56)
    (T : pre13.Contents (Elt F)) (hT : ∀ j, T j = Vd (pre13.ref j)) (e_src : Vd main_v54 = Vx main_v54) (e_dst : Vd main_v55 = Vx main_v55) :
    (unscopedBufs (Ix := Unit) (Name := ℕ) (U := UR sig nD τ) (Lvl := ℕ) c Vx : sProp 𝕄)
      ⊢ iprop(dat.arrays (dat.arrAt · 0)
          ∗ Pipeline.prefHeld (Ix := Unit) (Name := ℕ) (U := UR sig nD τ) (Lvl := ℕ) pre13 c (fun _ => fullShare) T ∗ rest13 c Vx) :=
  (bufs13 a c dat hq0 hq1 hq2 hq3 Vx (fun w => dat.arrAt w 0)
    (funext fun w => match w with
      | ⟨0, h⟩ => by show dat.arrAt ⟨0, h⟩ 0 = Vx main_v1; exact (hA ⟨0, h⟩).trans e_h
      | ⟨1, h⟩ => by show dat.arrAt ⟨1, h⟩ 0 = Vx main_v1; exact (hA ⟨1, h⟩).trans e_h
      | ⟨2, h⟩ => by show dat.arrAt ⟨2, h⟩ 0 = Vx main_arg3; exact (hA ⟨2, h⟩).trans e_W
      | ⟨3, h⟩ => by show dat.arrAt ⟨3, h⟩ 0 = Vx main_v0; exact (hA ⟨3, h⟩).trans e_b
      | ⟨4, h⟩ => by show dat.arrAt ⟨4, h⟩ 0 = Vx main_v56; exact (hA ⟨4, h⟩).trans e_out)
    T (funext fun j => match j with
      | ⟨0, h⟩ => by show T ⟨0, h⟩ = Vx main_v54; exact (hT ⟨0, h⟩).trans e_src
      | ⟨1, h⟩ => by show T ⟨1, h⟩ = Vx main_v55; exact (hT ⟨1, h⟩).trans e_dst)).1

set_option maxHeartbeats 1600000 in
/-- EXIT, everything a variable: the inputs' arrays end as they began, the output array at what the last write-backs
    leave (`x_out`); whenever `Vx` holds those contents at the six touched buffers, the pipeline's arrays at their final
    contents, the two tables and the rest at `Vx` are the unscoped buffers at `Vx`. -/
theorem exit13 (a : (pcfg13 (F := F)).Adm) (c : Dev nD) (dat : Dat τ (Elt F) Unit ℕ (UR sig nD τ) ℕ (cfg13 a) c) (N : Nat)
    (hq0 : dat.q 0 = fullShare.left) (hq1 : dat.q 1 = fullShare.right) (hq2 : dat.q 2 = fullShare) (hq3 : dat.q 3 = fullShare)
    (Vd Vx : (b : Ref sig .tc) → Buf (Elt F) ((c.tc : Thread nD τ).loc b))
    (hA : ∀ w, dat.A w = Vd (Pipeline.arrRef spec13 w))
    (x_h : Vd main_v1 = Vx main_v1) (x_W : Vd main_arg3 = Vx main_arg3) (x_b : Vd main_v0 = Vx main_v0) (x_out : dat.arrAt 4 N = Vx main_v56)
    (T : pre13.Contents (Elt F)) (hT : ∀ j, T j = Vd (pre13.ref j)) (x_src : Vd main_v54 = Vx main_v54) (x_dst : Vd main_v55 = Vx main_v55) :
    iprop(dat.arrays (dat.arrAt · N)
        ∗ Pipeline.prefHeld (Ix := Unit) (Name := ℕ) (U := UR sig nD τ) (Lvl := ℕ) pre13 c (fun _ => fullShare) T ∗ rest13 c Vx)
      ⊢ (unscopedBufs (Ix := Unit) (Name := ℕ) (U := UR sig nD τ) (Lvl := ℕ) c Vx : sProp 𝕄) :=
  (bufs13 a c dat hq0 hq1 hq2 hq3 Vx (fun w => dat.arrAt w N)
    (funext fun w => match w with
      | ⟨0, h⟩ => by show dat.arrAt ⟨0, h⟩ N = Vx main_v1; exact (dat.arrAt_in ⟨0, h⟩ rfl N).trans ((hA ⟨0, h⟩).trans x_h)
      | ⟨1, h⟩ => by show dat.arrAt ⟨1, h⟩ N = Vx main_v1; exact (dat.arrAt_in ⟨1, h⟩ rfl N).trans ((hA ⟨1, h⟩).trans x_h)
      | ⟨2, h⟩ => by show dat.arrAt ⟨2, h⟩ N = Vx main_arg3; exact (dat.arrAt_in ⟨2, h⟩ rfl N).trans ((hA ⟨2, h⟩).trans x_W)
      | ⟨3, h⟩ => by show dat.arrAt ⟨3, h⟩ N = Vx main_v0; exact (dat.arrAt_in ⟨3, h⟩ rfl N).trans ((hA ⟨3, h⟩).trans x_b)
      | ⟨4, h⟩ => by show dat.arrAt ⟨4, h⟩ N = Vx main_v56; exact x_out)
    T (funext fun j => match j with
      | ⟨0, h⟩ => by show T ⟨0, h⟩ = Vx main_v54; exact (hT ⟨0, h⟩).trans x_src
      | ⟨1, h⟩ => by show T ⟨1, h⟩ = Vx main_v55; exact (hT ⟨1, h⟩).trans x_dst)).2

variable (m : (ℓ : Loc nD τ sig) → Buf (Elt F) ℓ) (hO : Oks m)

/-! ## What the region finds and leaves, buffer by buffer -/

include hO

theorem fin13_h (c : Dev nD) : Ve13 m c main_v1 = V27 m (outsR m hO) c main_v1 := by first | exact indep13_h m (outsL m) (outsR m hO) c | rfl
theorem fin13_W (c : Dev nD) : Ve13 m c main_arg3 = V27 m (outsR m hO) c main_arg3 := by first | exact indep13_W m (outsL m) (outsR m hO) c | rfl
theorem fin13_b (c : Dev nD) : Ve13 m c main_v0 = V27 m (outsR m hO) c main_v0 := by first | exact indep13_b m (outsL m) (outsR m hO) c | rfl
theorem fin13_out (c : Dev nD) : Ve13 m c main_v56 = V27 m (outsR m hO) c main_v56 := by first | exact indep13_out m (outsL m) (outsR m hO) c | rfl
theorem fin13_src (c : Dev nD) : Ve13 m c main_v54 = V27 m (outsR m hO) c main_v54 := by first | exact indep13_src m (outsL m) (outsR m hO) c | rfl
theorem fin13_dst (c : Dev nD) : Ve13 m c main_v55 = V27 m (outsR m hO) c main_v55 := by first | exact indep13_dst m (outsL m) (outsR m hO) c | rfl

/-- What the region leaves in the buffers it touches: the inputs and the tables as they were, the output array at the
    region's chunk. -/
theorem lv13_h (c : Dev nD) : V28 m (outsR m hO) c main_v1 = V27 m (outsR m hO) c main_v1 := V28_of m (outsR m hO) c main_v1 (by decide)
theorem lv13_W (c : Dev nD) : V28 m (outsR m hO) c main_arg3 = V27 m (outsR m hO) c main_arg3 := V28_of m (outsR m hO) c main_arg3 (by decide)
theorem lv13_b (c : Dev nD) : V28 m (outsR m hO) c main_v0 = V27 m (outsR m hO) c main_v0 := V28_of m (outsR m hO) c main_v0 (by decide)
theorem lv13_src (c : Dev nD) : V28 m (outsR m hO) c main_v54 = V27 m (outsR m hO) c main_v54 := V28_of m (outsR m hO) c main_v54 (by decide)
theorem lv13_dst (c : Dev nD) : V28 m (outsR m hO) c main_v55 = V27 m (outsR m hO) c main_v55 := V28_of m (outsR m hO) c main_v55 (by decide)
theorem lv13_out (c : Dev nD) : V28 m (outsR m hO) c main_v56 = chunk13 m hO c :=
  (Function.update_self _ _ _).trans (outsR_13 m hO c)

/-- The buffers the region does not touch pass it by unchanged. -/
theorem rest13_eq (c : Dev nD) : (rest13 c (fun b => V27 m (outsR m hO) c b) : sProp 𝕄) = rest13 c (fun b => V28 m (outsR m hO) c b) := by
  unfold rest13
  exact BI.bigSep_congr fun b hb => by
    dsimp only
    rw [V28_of m (outsR m hO) c b (fun h => (Finset.mem_sdiff.mp hb).2 (by rw [List.mem_singleton.mp h]; decide))]

set_option maxHeartbeats 1600000 in
set_option backward.isDefEq.respectTransparency.types false in
/-- REGION 0 over the boundary states. -/
def reg13 : Pipeline.RegionSeg (pcfgs (F := F)) (adm m hO) (pdats m hO) () defs₀ 𝒱₀ L lv (13 : Fin 16) where
  win := winFacts₀13
  block_pos := block_pos13
  stage_whole := stage_whole13
  K := PEmpty
  osem k := k.elim
  ho := Pipeline.OwnSemFacts.none _
  hbody c := (body_obligation13 (Ve13 m) ⟨tbl13 m, hO.h13⟩ c).loose
  hwaits := Pipeline.hwaits_of_owed_zero _ _ _ _ L lv (13 : Fin 16) fun _ _ => rfl
  pre c := iprop(StableHlo.held (c : Thread nD τ) (Pipeline.ucRefs τ sig) (V27 m (outsR m hO) c) ∗ Rst c)
  post c := iprop(StableHlo.held (c : Thread nD τ) (Pipeline.ucRefs τ sig) (V28 m (outsR m hO) c) ∗ Rst c)
  X c := iprop(∃ r, prngReg c r)
  Y c := iprop((∃ r, prngReg c r) ∗ Pipeline.prefHeld (Ix := Unit) (Name := ℕ) (U := UR sig nD τ) (Lvl := ℕ) pre13 c (fun _ => fullShare) (tbl13 m))
  Z c := rest13 c (fun b => V27 m (outsR m hO) c b)
  hentry c := by
    obtain rfl : c = 0 := Subsingleton.elim _ _
    have hb := entry13 (adm m hO (13 : Fin 16)) 0 (pdats m hO (13 : Fin 16) 0) rfl rfl rfl rfl (Ve13 m 0) (fun b => V27 m (outsR m hO) 0 b) (fun w => rfl)
      (fin13_h m hO 0) (fin13_W m hO 0) (fin13_b m hO 0) (fin13_out m hO 0) (tbl13 m) (fun j => rfl) (fin13_src m hO 0) (fin13_dst m hO 0)
    rw [Pipeline.unscopedBufs_held] at hb
    iintro ⟨⟨Hub, Hp, HO⟩, -, -⟩
    ihave H := hb $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO (13 : Fin 16) c).Φ 0 = iprop(Pipeline.ΦA spec13 c ∗ Pipeline.prefHeld (Ix := Unit) (Name := ℕ) (U := UR sig nD τ) (Lvl := ℕ) pre13 c (fun _ => fullShare) (tbl13 m)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m hO (13 : Fin 16) c).Φ (Fin.last _) = iprop(Pipeline.ΦA spec13 c ∗ Pipeline.prefHeld (Ix := Unit) (Name := ℕ) (U := UR sig nD τ) (Lvl := ℕ) pre13 c (fun _ => fullShare) (tbl13 m)) from rfl]
    unfold Pipeline.ΦA
    iintro ⟨⟨Hr, Hp⟩, Ht⟩
    isplitl [Hp Ht]
    · isplitl [Hp]; · iexact Hp
      iexact Ht
    isplitr; · iempintro
    iexact Hr
  hexit c := by
    obtain rfl : c = 0 := Subsingleton.elim _ _
    have hb := exit13 (adm m hO (13 : Fin 16)) 0 (pdats m hO (13 : Fin 16) 0) (Pipeline.pin (pcfgs (F := F)) (adm m hO) (13 : Fin 16)).N rfl rfl rfl rfl
      (Ve13 m 0) (fun b => V28 m (outsR m hO) 0 b) (fun w => rfl)
      ((fin13_h m hO 0).trans (lv13_h m hO 0).symm) ((fin13_W m hO 0).trans (lv13_W m hO 0).symm) ((fin13_b m hO 0).trans (lv13_b m hO 0).symm)
      (lv13_out m hO 0).symm (tbl13 m) (fun j => rfl) ((fin13_src m hO 0).trans (lv13_src m hO 0).symm) ((fin13_dst m hO 0).trans (lv13_dst m hO 0).symm)
    rw [Pipeline.unscopedBufs_held, ← rest13_eq m hO 0] at hb
    iintro ⟨Ha, HO, ⟨Hp, Ht⟩, Hrest⟩
    imodintro
    isplitl [Ha Ht Hrest]
    · iapply hb
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Cert.Kernel.Hand

end
-- ==== Proof.KReg14.lean ====
/-
  Region 14 of the edge scorer as a segment of the program's run.

  The region is entered with every unscoped buffer held whole at the contents the host operations before it leave,
  beside the generator register and nothing owed. Of those buffers the pipeline takes the four arrays its five windows
  read and write — the feature rows (read by two windows, each at one half of the full share), the weights, the
  bias and the output chunk — and the two index tables; the other unscoped buffers bypass the region. At the exit the
  feature rows' two halves rejoin, the inputs are as they were, the output array holds the region's chunk, and
  the whole is the next boundary's contents.
-/
import proofs.«405368_j31662498906597_2_alg».proof.Proof.KFamily
import proofs.«405368_j31662498906597_2_alg».proof.Proof.KHostEntry
import proofs.«405368_j31662498906597_2_alg».proof.Proof.KHostEntryGen
import Idealize.ShloMosaic.Lib.Pipeline.RegionsLoop

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The six unscoped buffers region 14 touches: the feature rows, the weights, the bias, its output chunk and its two
    index tables. -/
abbrev arrs14 : Finset (Ref sig .tc) := insert main_v1 (insert main_arg3 (insert main_v0 (insert main_v60 (insert main_v58 {main_v59}))))

theorem arrs14_sub : arrs14 ⊆ Finset.univ.filter fun b : Ref sig .tc => ¬ b.isScoped := by decide

/-- The unscoped buffers region 14 does not touch, held whole at `V`. -/
def rest14 (c : Dev nD) (V : (b : Ref sig .tc) → Buf (Elt F) ((c.tc : Thread nD τ).loc b)) : sProp 𝕄 :=
  bigSep ((Finset.univ.filter fun b : Ref sig .tc => ¬ b.isScoped) \ arrs14) fun b => ((c.tc : Thread nD τ).loc b) ↦{fullShare} V b

/-- The six touched buffers one by one, and the rest. -/
theorem ub_split14 (c : Dev nD) (V : (b : Ref sig .tc) → Buf (Elt F) ((c.tc : Thread nD τ).loc b)) :
    (unscopedBufs (Ix := Unit) (Name := ℕ) (U := UR sig nD τ) (Lvl := ℕ) c V : sProp 𝕄)
      = iprop(iprop((((c.tc : Thread nD τ).loc main_v1) ↦{fullShare} V main_v1) ∗ (((c.tc : Thread nD τ).loc main_arg3) ↦{fullShare} V main_arg3)
          ∗ (((c.tc : Thread nD τ).loc main_v0) ↦{fullShare} V main_v0) ∗ (((c.tc : Thread nD τ).loc main_v60) ↦{fullShare} V main_v60)
          ∗ (((c.tc : Thread nD τ).loc main_v58) ↦{fullShare} V main_v58) ∗ (((c.tc : Thread nD τ).loc main_v59) ↦{fullShare} V main_v59)) ∗ rest14 c V) := by
  unfold unscopedBufs rest14
  rw [BI.bigSep_sdiff_split arrs14_sub]
  refine congrArg (fun X => iprop(X ∗ _)) ?_
  show bigSep (insert main_v1 (insert main_arg3 (insert main_v0 (insert main_v60 (insert main_v58 {main_v59}))))) _ = _
  rw [BI.bigSep_insert (by decide), BI.bigSep_insert (by decide), BI.bigSep_insert (by decide), BI.bigSep_insert (by decide),
    BI.bigSep_insert (by decide), BI.bigSep_singleton]
  rfl

/-- A product over two tables, written out. -/
theorem two_tables14 (Φ : Fin 2 → sProp 𝕄) : bigSep Finset.univ Φ = iprop(Φ 0 ∗ Φ 1) := BI.bigSep_fin_two Φ

/-- The five windows' arrays and the two tables, by name. -/
theorem arrRef14_0 : Pipeline.arrRef spec14 (0 : Fin 5) = main_v1 := rfl
theorem arrRef14_1 : Pipeline.arrRef spec14 (1 : Fin 5) = main_v1 := rfl
theorem arrRef14_2 : Pipeline.arrRef spec14 (2 : Fin 5) = main_arg3 := rfl
theorem arrRef14_3 : Pipeline.arrRef spec14 (3 : Fin 5) = main_v0 := rfl
theorem arrRef14_4 : Pipeline.arrRef spec14 (4 : Fin 5) = main_v60 := rfl
theorem preRef14_0 : pre14.ref (0 : Fin 2) = main_v58 := rfl
theorem preRef14_1 : pre14.ref (1 : Fin 2) = main_v59 := rfl

set_option maxHeartbeats 1600000 in
/-- A core's unscoped buffers held whole at `V` ARE the pipeline's arrays at `V`'s contents of them (the feature rows'
    full share dealt as its two halves to the two windows that read them), the two tables at `V`'s contents of
    them, and the rest. Both directions: the region's entry and its exit. -/
theorem bufs14 (a : (pcfg14 (F := F)).Adm) (c : Dev nD) (dat : Dat τ (Elt F) Unit ℕ (UR sig nD τ) ℕ (cfg14 a) c)
    (hq0 : dat.q 0 = fullShare.left) (hq1 : dat.q 1 = fullShare.right) (hq2 : dat.q 2 = fullShare) (hq3 : dat.q 3 = fullShare)
    (V : (b : Ref sig .tc) → Buf (Elt F) ((c.tc : Thread nD τ).loc b))
    (G : (w : Fin (cfg14 a).W) → Buf (Elt F) (((cfg14 a).win w).arr.view.loc (c.tc : Thread nD τ)))
    (hG : G = fun w => V (Pipeline.arrRef spec14 w))
    (T : pre14.Contents (Elt F)) (hT : T = fun k => V (pre14.ref k)) :
    (unscopedBufs (Ix := Unit) (Name := ℕ) (U := UR sig nD τ) (Lvl := ℕ) c V : sProp 𝕄)
      ⊣⊢ iprop(dat.arrays G ∗ Pipeline.prefHeld (Ix := Unit) (Name := ℕ) (U := UR sig nD τ) (Lvl := ℕ) pre14 c (fun _ => fullShare) T ∗ rest14 c V) := by
  subst hG hT
  have harr : ∀ w, (((cfg14 a).spec w).arr).IsWhole := arr_whole14
  have hA : dat.arrays (fun w => V (Pipeline.arrRef spec14 w))
      = bigSep Finset.univ fun w : Fin 5 => (((c.tc : Thread nD τ).loc (Pipeline.arrRef spec14 w)) ↦{dat.share w} V (Pipeline.arrRef spec14 w) : sProp 𝕄) := by
    unfold Dat.arrays
    exact BI.bigSep_congr fun w _ => by rw [(harr w).set_eq_univ]
  have s0 : dat.share 0 = fullShare.left := by unfold Dat.share; rw [show ((cfg14 a).win 0).isOut = false from rfl]; exact hq0
  have s1 : dat.share 1 = fullShare.right := by unfold Dat.share; rw [show ((cfg14 a).win 1).isOut = false from rfl]; exact hq1
  have s2 : dat.share 2 = fullShare := by unfold Dat.share; rw [show ((cfg14 a).win 2).isOut = false from rfl]; exact hq2
  have s3 : dat.share 3 = fullShare := by unfold Dat.share; rw [show ((cfg14 a).win 3).isOut = false from rfl]; exact hq3
  have s4 : dat.share 4 = fullShare := by unfold Dat.share; rw [show ((cfg14 a).win 4).isOut = true from rfl]; rfl
  rw [ub_split14, hA, bigSep_W14, s0, s1, s2, s3, s4]
  unfold Pipeline.prefHeld
  rw [two_tables14]
  simp only [arrRef14_0, arrRef14_1, arrRef14_2, arrRef14_3, arrRef14_4, preRef14_0, preRef14_1]
  constructor
  · iintro ⟨⟨H1, HW, HB, HO, HS, HD⟩, Hr⟩
    ihave H1' := (pointsTo_share (PosShare.mem_left_op_right fullShare)).1 $$ H1
    icases H1' with ⟨H1a, H1b⟩
    isplitl [H1a H1b HW HB HO]
    · isplitl [H1a]; · iexact H1a
      isplitl [H1b]; · iexact H1b
      isplitl [HW]; · iexact HW
      isplitl [HB]; · iexact HB
      iexact HO
    isplitl [HS HD]
    · isplitl [HS]; · iexact HS
      iexact HD
    iexact Hr
  · iintro ⟨⟨H1a, H1b, HW, HB, HO⟩, ⟨HS, HD⟩, Hr⟩
    ihave H1 := (pointsTo_share (PosShare.mem_left_op_right fullShare)).2 $$ [H1a H1b]
    · isplitl [H1a]; · iexact H1a
      iexact H1b
    isplitr [Hr]
    · isplitl [H1]; · iexact H1
      isplitl [HW]; · iexact HW
      isplitl [HB]; · iexact HB
      isplitl [HO]; · iexact HO
      isplitl [HS]; · iexact HS
      iexact HD
    iexact Hr

set_option maxHeartbeats 1600000 in
/-- ENTRY, everything a variable: for any proof data `dat` whose arrays are `Vd`'s contents (`hA`) and any tables `T`
    that are `Vd`'s contents (`hT`), whenever the boundary contents `Vx` agree with `Vd` at the six touched buffers, the
    unscoped buffers at `Vx` are the pipeline's arrays at their entry contents, the two tables, and the rest. -/
theorem entry14 (a : (pcfg14 (F := F)).Adm) (c : Dev nD) (dat : Dat τ (Elt F) Unit ℕ (UR sig nD τ) ℕ (cfg14 a) c)
    (hq0 : dat.q 0 = fullShare.left) (hq1 : dat.q 1 = fullShare.right) (hq2 : dat.q 2 = fullShare) (hq3 : dat.q 3 = fullShare)
    (Vd Vx : (b : Ref sig .tc) → Buf (Elt F) ((c.tc : Thread nD τ).loc b))
    (hA : ∀ w, dat.A w = Vd (Pipeline.arrRef spec14 w))
    (e_h : Vd main_v1 = Vx main_v1) (e_W : Vd main_arg3 = Vx main_arg3) (e_b : Vd main_v0 = Vx main_v0) (e_out : Vd main_v60 = Vx main_v60)
    (T : pre14.Contents (Elt F)) (hT : ∀ j, T j = Vd (pre14.ref j)) (e_src : Vd main_v58 = Vx main_v58) (e_dst : Vd main_v59 = Vx main_v59) :
    (unscopedBufs (Ix := Unit) (Name := ℕ) (U := UR sig nD τ) (Lvl := ℕ) c Vx : sProp 𝕄)
      ⊢ iprop(dat.arrays (dat.arrAt · 0)
          ∗ Pipeline.prefHeld (Ix := Unit) (Name := ℕ) (U := UR sig nD τ) (Lvl := ℕ) pre14 c (fun _ => fullShare) T ∗ rest14 c Vx) :=
  (bufs14 a c dat hq0 hq1 hq2 hq3 Vx (fun w => dat.arrAt w 0)
    (funext fun w => match w with
      | ⟨0, h⟩ => by show dat.arrAt ⟨0, h⟩ 0 = Vx main_v1; exact (hA ⟨0, h⟩).trans e_h
      | ⟨1, h⟩ => by show dat.arrAt ⟨1, h⟩ 0 = Vx main_v1; exact (hA ⟨1, h⟩).trans e_h
      | ⟨2, h⟩ => by show dat.arrAt ⟨2, h⟩ 0 = Vx main_arg3; exact (hA ⟨2, h⟩).trans e_W
      | ⟨3, h⟩ => by show dat.arrAt ⟨3, h⟩ 0 = Vx main_v0; exact (hA ⟨3, h⟩).trans e_b
      | ⟨4, h⟩ => by show dat.arrAt ⟨4, h⟩ 0 = Vx main_v60; exact (hA ⟨4, h⟩).trans e_out)
    T (funext fun j => match j with
      | ⟨0, h⟩ => by show T ⟨0, h⟩ = Vx main_v58; exact (hT ⟨0, h⟩).trans e_src
      | ⟨1, h⟩ => by show T ⟨1, h⟩ = Vx main_v59; exact (hT ⟨1, h⟩).trans e_dst)).1

set_option maxHeartbeats 1600000 in
/-- EXIT, everything a variable: the inputs' arrays end as they began, the output array at what the last write-backs
    leave (`x_out`); whenever `Vx` holds those contents at the six touched buffers, the pipeline's arrays at their final
    contents, the two tables and the rest at `Vx` are the unscoped buffers at `Vx`. -/
theorem exit14 (a : (pcfg14 (F := F)).Adm) (c : Dev nD) (dat : Dat τ (Elt F) Unit ℕ (UR sig nD τ) ℕ (cfg14 a) c) (N : Nat)
    (hq0 : dat.q 0 = fullShare.left) (hq1 : dat.q 1 = fullShare.right) (hq2 : dat.q 2 = fullShare) (hq3 : dat.q 3 = fullShare)
    (Vd Vx : (b : Ref sig .tc) → Buf (Elt F) ((c.tc : Thread nD τ).loc b))
    (hA : ∀ w, dat.A w = Vd (Pipeline.arrRef spec14 w))
    (x_h : Vd main_v1 = Vx main_v1) (x_W : Vd main_arg3 = Vx main_arg3) (x_b : Vd main_v0 = Vx main_v0) (x_out : dat.arrAt 4 N = Vx main_v60)
    (T : pre14.Contents (Elt F)) (hT : ∀ j, T j = Vd (pre14.ref j)) (x_src : Vd main_v58 = Vx main_v58) (x_dst : Vd main_v59 = Vx main_v59) :
    iprop(dat.arrays (dat.arrAt · N)
        ∗ Pipeline.prefHeld (Ix := Unit) (Name := ℕ) (U := UR sig nD τ) (Lvl := ℕ) pre14 c (fun _ => fullShare) T ∗ rest14 c Vx)
      ⊢ (unscopedBufs (Ix := Unit) (Name := ℕ) (U := UR sig nD τ) (Lvl := ℕ) c Vx : sProp 𝕄) :=
  (bufs14 a c dat hq0 hq1 hq2 hq3 Vx (fun w => dat.arrAt w N)
    (funext fun w => match w with
      | ⟨0, h⟩ => by show dat.arrAt ⟨0, h⟩ N = Vx main_v1; exact (dat.arrAt_in ⟨0, h⟩ rfl N).trans ((hA ⟨0, h⟩).trans x_h)
      | ⟨1, h⟩ => by show dat.arrAt ⟨1, h⟩ N = Vx main_v1; exact (dat.arrAt_in ⟨1, h⟩ rfl N).trans ((hA ⟨1, h⟩).trans x_h)
      | ⟨2, h⟩ => by show dat.arrAt ⟨2, h⟩ N = Vx main_arg3; exact (dat.arrAt_in ⟨2, h⟩ rfl N).trans ((hA ⟨2, h⟩).trans x_W)
      | ⟨3, h⟩ => by show dat.arrAt ⟨3, h⟩ N = Vx main_v0; exact (dat.arrAt_in ⟨3, h⟩ rfl N).trans ((hA ⟨3, h⟩).trans x_b)
      | ⟨4, h⟩ => by show dat.arrAt ⟨4, h⟩ N = Vx main_v60; exact x_out)
    T (funext fun j => match j with
      | ⟨0, h⟩ => by show T ⟨0, h⟩ = Vx main_v58; exact (hT ⟨0, h⟩).trans x_src
      | ⟨1, h⟩ => by show T ⟨1, h⟩ = Vx main_v59; exact (hT ⟨1, h⟩).trans x_dst)).2

variable (m : (ℓ : Loc nD τ sig) → Buf (Elt F) ℓ) (hO : Oks m)

/-! ## What the region finds and leaves, buffer by buffer -/

include hO

theorem fin14_h (c : Dev nD) : Ve14 m c main_v1 = V29 m (outsR m hO) c main_v1 := by first | exact indep14_h m (outsL m) (outsR m hO) c | rfl
theorem fin14_W (c : Dev nD) : Ve14 m c main_arg3 = V29 m (outsR m hO) c main_arg3 := by first | exact indep14_W m (outsL m) (outsR m hO) c | rfl
theorem fin14_b (c : Dev nD) : Ve14 m c main_v0 = V29 m (outsR m hO) c main_v0 := by first | exact indep14_b m (outsL m) (outsR m hO) c | rfl
theorem fin14_out (c : Dev nD) : Ve14 m c main_v60 = V29 m (outsR m hO) c main_v60 := by first | exact indep14_out m (outsL m) (outsR m hO) c | rfl
theorem fin14_src (c : Dev nD) : Ve14 m c main_v58 = V29 m (outsR m hO) c main_v58 := by first | exact indep14_src m (outsL m) (outsR m hO) c | rfl
theorem fin14_dst (c : Dev nD) : Ve14 m c main_v59 = V29 m (outsR m hO) c main_v59 := by first | exact indep14_dst m (outsL m) (outsR m hO) c | rfl

/-- What the region leaves in the buffers it touches: the inputs and the tables as they were, the output array at the
    region's chunk. -/
theorem lv14_h (c : Dev nD) : V30 m (outsR m hO) c main_v1 = V29 m (outsR m hO) c main_v1 := V30_of m (outsR m hO) c main_v1 (by decide)
theorem lv14_W (c : Dev nD) : V30 m (outsR m hO) c main_arg3 = V29 m (outsR m hO) c main_arg3 := V30_of m (outsR m hO) c main_arg3 (by decide)
theorem lv14_b (c : Dev nD) : V30 m (outsR m hO) c main_v0 = V29 m (outsR m hO) c main_v0 := V30_of m (outsR m hO) c main_v0 (by decide)
theorem lv14_src (c : Dev nD) : V30 m (outsR m hO) c main_v58 = V29 m (outsR m hO) c main_v58 := V30_of m (outsR m hO) c main_v58 (by decide)
theorem lv14_dst (c : Dev nD) : V30 m (outsR m hO) c main_v59 = V29 m (outsR m hO) c main_v59 := V30_of m (outsR m hO) c main_v59 (by decide)
theorem lv14_out (c : Dev nD) : V30 m (outsR m hO) c main_v60 = chunk14 m hO c :=
  (Function.update_self _ _ _).trans (outsR_14 m hO c)

/-- The buffers the region does not touch pass it by unchanged. -/
theorem rest14_eq (c : Dev nD) : (rest14 c (fun b => V29 m (outsR m hO) c b) : sProp 𝕄) = rest14 c (fun b => V30 m (outsR m hO) c b) := by
  unfold rest14
  exact BI.bigSep_congr fun b hb => by
    dsimp only
    rw [V30_of m (outsR m hO) c b (fun h => (Finset.mem_sdiff.mp hb).2 (by rw [List.mem_singleton.mp h]; decide))]

set_option maxHeartbeats 1600000 in
set_option backward.isDefEq.respectTransparency.types false in
/-- REGION 0 over the boundary states. -/
def reg14 : Pipeline.RegionSeg (pcfgs (F := F)) (adm m hO) (pdats m hO) () defs₀ 𝒱₀ L lv (14 : Fin 16) where
  win := winFacts₀14
  block_pos := block_pos14
  stage_whole := stage_whole14
  K := PEmpty
  osem k := k.elim
  ho := Pipeline.OwnSemFacts.none _
  hbody c := (body_obligation14 (Ve14 m) ⟨tbl14 m, hO.h14⟩ c).loose
  hwaits := Pipeline.hwaits_of_owed_zero _ _ _ _ L lv (14 : Fin 16) fun _ _ => rfl
  pre c := iprop(StableHlo.held (c : Thread nD τ) (Pipeline.ucRefs τ sig) (V29 m (outsR m hO) c) ∗ Rst c)
  post c := iprop(StableHlo.held (c : Thread nD τ) (Pipeline.ucRefs τ sig) (V30 m (outsR m hO) c) ∗ Rst c)
  X c := iprop(∃ r, prngReg c r)
  Y c := iprop((∃ r, prngReg c r) ∗ Pipeline.prefHeld (Ix := Unit) (Name := ℕ) (U := UR sig nD τ) (Lvl := ℕ) pre14 c (fun _ => fullShare) (tbl14 m))
  Z c := rest14 c (fun b => V29 m (outsR m hO) c b)
  hentry c := by
    obtain rfl : c = 0 := Subsingleton.elim _ _
    have hb := entry14 (adm m hO (14 : Fin 16)) 0 (pdats m hO (14 : Fin 16) 0) rfl rfl rfl rfl (Ve14 m 0) (fun b => V29 m (outsR m hO) 0 b) (fun w => rfl)
      (fin14_h m hO 0) (fin14_W m hO 0) (fin14_b m hO 0) (fin14_out m hO 0) (tbl14 m) (fun j => rfl) (fin14_src m hO 0) (fin14_dst m hO 0)
    rw [Pipeline.unscopedBufs_held] at hb
    iintro ⟨⟨Hub, Hp, HO⟩, -, -⟩
    ihave H := hb $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO (14 : Fin 16) c).Φ 0 = iprop(Pipeline.ΦA spec14 c ∗ Pipeline.prefHeld (Ix := Unit) (Name := ℕ) (U := UR sig nD τ) (Lvl := ℕ) pre14 c (fun _ => fullShare) (tbl14 m)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m hO (14 : Fin 16) c).Φ (Fin.last _) = iprop(Pipeline.ΦA spec14 c ∗ Pipeline.prefHeld (Ix := Unit) (Name := ℕ) (U := UR sig nD τ) (Lvl := ℕ) pre14 c (fun _ => fullShare) (tbl14 m)) from rfl]
    unfold Pipeline.ΦA
    iintro ⟨⟨Hr, Hp⟩, Ht⟩
    isplitl [Hp Ht]
    · isplitl [Hp]; · iexact Hp
      iexact Ht
    isplitr; · iempintro
    iexact Hr
  hexit c := by
    obtain rfl : c = 0 := Subsingleton.elim _ _
    have hb := exit14 (adm m hO (14 : Fin 16)) 0 (pdats m hO (14 : Fin 16) 0) (Pipeline.pin (pcfgs (F := F)) (adm m hO) (14 : Fin 16)).N rfl rfl rfl rfl
      (Ve14 m 0) (fun b => V30 m (outsR m hO) 0 b) (fun w => rfl)
      ((fin14_h m hO 0).trans (lv14_h m hO 0).symm) ((fin14_W m hO 0).trans (lv14_W m hO 0).symm) ((fin14_b m hO 0).trans (lv14_b m hO 0).symm)
      (lv14_out m hO 0).symm (tbl14 m) (fun j => rfl) ((fin14_src m hO 0).trans (lv14_src m hO 0).symm) ((fin14_dst m hO 0).trans (lv14_dst m hO 0).symm)
    rw [Pipeline.unscopedBufs_held, ← rest14_eq m hO 0] at hb
    iintro ⟨Ha, HO, ⟨Hp, Ht⟩, Hrest⟩
    imodintro
    isplitl [Ha Ht Hrest]
    · iapply hb
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Cert.Kernel.Hand

end
-- ==== Proof.KReg15.lean ====
/-
  Region 15 of the edge scorer as a segment of the program's run.

  The region is entered with every unscoped buffer held whole at the contents the host operations before it leave,
  beside the generator register and nothing owed. Of those buffers the pipeline takes the four arrays its five windows
  read and write — the feature rows (read by two windows, each at one half of the full share), the weights, the
  bias and the output chunk — and the two index tables; the other unscoped buffers bypass the region. At the exit the
  feature rows' two halves rejoin, the inputs are as they were, the output array holds the region's chunk, and
  the whole is the next boundary's contents.
-/
import proofs.«405368_j31662498906597_2_alg».proof.Proof.KFamily
import proofs.«405368_j31662498906597_2_alg».proof.Proof.KHostEntry
import proofs.«405368_j31662498906597_2_alg».proof.Proof.KHostEntryGen
import Idealize.ShloMosaic.Lib.Pipeline.RegionsLoop

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The six unscoped buffers region 15 touches: the feature rows, the weights, the bias, its output chunk and its two
    index tables. -/
abbrev arrs15 : Finset (Ref sig .tc) := insert main_v1 (insert main_arg3 (insert main_v0 (insert main_v64 (insert main_v62 {main_v63}))))

theorem arrs15_sub : arrs15 ⊆ Finset.univ.filter fun b : Ref sig .tc => ¬ b.isScoped := by decide

/-- The unscoped buffers region 15 does not touch, held whole at `V`. -/
def rest15 (c : Dev nD) (V : (b : Ref sig .tc) → Buf (Elt F) ((c.tc : Thread nD τ).loc b)) : sProp 𝕄 :=
  bigSep ((Finset.univ.filter fun b : Ref sig .tc => ¬ b.isScoped) \ arrs15) fun b => ((c.tc : Thread nD τ).loc b) ↦{fullShare} V b

/-- The six touched buffers one by one, and the rest. -/
theorem ub_split15 (c : Dev nD) (V : (b : Ref sig .tc) → Buf (Elt F) ((c.tc : Thread nD τ).loc b)) :
    (unscopedBufs (Ix := Unit) (Name := ℕ) (U := UR sig nD τ) (Lvl := ℕ) c V : sProp 𝕄)
      = iprop(iprop((((c.tc : Thread nD τ).loc main_v1) ↦{fullShare} V main_v1) ∗ (((c.tc : Thread nD τ).loc main_arg3) ↦{fullShare} V main_arg3)
          ∗ (((c.tc : Thread nD τ).loc main_v0) ↦{fullShare} V main_v0) ∗ (((c.tc : Thread nD τ).loc main_v64) ↦{fullShare} V main_v64)
          ∗ (((c.tc : Thread nD τ).loc main_v62) ↦{fullShare} V main_v62) ∗ (((c.tc : Thread nD τ).loc main_v63) ↦{fullShare} V main_v63)) ∗ rest15 c V) := by
  unfold unscopedBufs rest15
  rw [BI.bigSep_sdiff_split arrs15_sub]
  refine congrArg (fun X => iprop(X ∗ _)) ?_
  show bigSep (insert main_v1 (insert main_arg3 (insert main_v0 (insert main_v64 (insert main_v62 {main_v63}))))) _ = _
  rw [BI.bigSep_insert (by decide), BI.bigSep_insert (by decide), BI.bigSep_insert (by decide), BI.bigSep_insert (by decide),
    BI.bigSep_insert (by decide), BI.bigSep_singleton]
  rfl

/-- A product over two tables, written out. -/
theorem two_tables15 (Φ : Fin 2 → sProp 𝕄) : bigSep Finset.univ Φ = iprop(Φ 0 ∗ Φ 1) := BI.bigSep_fin_two Φ

/-- The five windows' arrays and the two tables, by name. -/
theorem arrRef15_0 : Pipeline.arrRef spec15 (0 : Fin 5) = main_v1 := rfl
theorem arrRef15_1 : Pipeline.arrRef spec15 (1 : Fin 5) = main_v1 := rfl
theorem arrRef15_2 : Pipeline.arrRef spec15 (2 : Fin 5) = main_arg3 := rfl
theorem arrRef15_3 : Pipeline.arrRef spec15 (3 : Fin 5) = main_v0 := rfl
theorem arrRef15_4 : Pipeline.arrRef spec15 (4 : Fin 5) = main_v64 := rfl
theorem preRef15_0 : pre15.ref (0 : Fin 2) = main_v62 := rfl
theorem preRef15_1 : pre15.ref (1 : Fin 2) = main_v63 := rfl

set_option maxHeartbeats 1600000 in
/-- A core's unscoped buffers held whole at `V` ARE the pipeline's arrays at `V`'s contents of them (the feature rows'
    full share dealt as its two halves to the two windows that read them), the two tables at `V`'s contents of
    them, and the rest. Both directions: the region's entry and its exit. -/
theorem bufs15 (a : (pcfg15 (F := F)).Adm) (c : Dev nD) (dat : Dat τ (Elt F) Unit ℕ (UR sig nD τ) ℕ (cfg15 a) c)
    (hq0 : dat.q 0 = fullShare.left) (hq1 : dat.q 1 = fullShare.right) (hq2 : dat.q 2 = fullShare) (hq3 : dat.q 3 = fullShare)
    (V : (b : Ref sig .tc) → Buf (Elt F) ((c.tc : Thread nD τ).loc b))
    (G : (w : Fin (cfg15 a).W) → Buf (Elt F) (((cfg15 a).win w).arr.view.loc (c.tc : Thread nD τ)))
    (hG : G = fun w => V (Pipeline.arrRef spec15 w))
    (T : pre15.Contents (Elt F)) (hT : T = fun k => V (pre15.ref k)) :
    (unscopedBufs (Ix := Unit) (Name := ℕ) (U := UR sig nD τ) (Lvl := ℕ) c V : sProp 𝕄)
      ⊣⊢ iprop(dat.arrays G ∗ Pipeline.prefHeld (Ix := Unit) (Name := ℕ) (U := UR sig nD τ) (Lvl := ℕ) pre15 c (fun _ => fullShare) T ∗ rest15 c V) := by
  subst hG hT
  have harr : ∀ w, (((cfg15 a).spec w).arr).IsWhole := arr_whole15
  have hA : dat.arrays (fun w => V (Pipeline.arrRef spec15 w))
      = bigSep Finset.univ fun w : Fin 5 => (((c.tc : Thread nD τ).loc (Pipeline.arrRef spec15 w)) ↦{dat.share w} V (Pipeline.arrRef spec15 w) : sProp 𝕄) := by
    unfold Dat.arrays
    exact BI.bigSep_congr fun w _ => by rw [(harr w).set_eq_univ]
  have s0 : dat.share 0 = fullShare.left := by unfold Dat.share; rw [show ((cfg15 a).win 0).isOut = false from rfl]; exact hq0
  have s1 : dat.share 1 = fullShare.right := by unfold Dat.share; rw [show ((cfg15 a).win 1).isOut = false from rfl]; exact hq1
  have s2 : dat.share 2 = fullShare := by unfold Dat.share; rw [show ((cfg15 a).win 2).isOut = false from rfl]; exact hq2
  have s3 : dat.share 3 = fullShare := by unfold Dat.share; rw [show ((cfg15 a).win 3).isOut = false from rfl]; exact hq3
  have s4 : dat.share 4 = fullShare := by unfold Dat.share; rw [show ((cfg15 a).win 4).isOut = true from rfl]; rfl
  rw [ub_split15, hA, bigSep_W15, s0, s1, s2, s3, s4]
  unfold Pipeline.prefHeld
  rw [two_tables15]
  simp only [arrRef15_0, arrRef15_1, arrRef15_2, arrRef15_3, arrRef15_4, preRef15_0, preRef15_1]
  constructor
  · iintro ⟨⟨H1, HW, HB, HO, HS, HD⟩, Hr⟩
    ihave H1' := (pointsTo_share (PosShare.mem_left_op_right fullShare)).1 $$ H1
    icases H1' with ⟨H1a, H1b⟩
    isplitl [H1a H1b HW HB HO]
    · isplitl [H1a]; · iexact H1a
      isplitl [H1b]; · iexact H1b
      isplitl [HW]; · iexact HW
      isplitl [HB]; · iexact HB
      iexact HO
    isplitl [HS HD]
    · isplitl [HS]; · iexact HS
      iexact HD
    iexact Hr
  · iintro ⟨⟨H1a, H1b, HW, HB, HO⟩, ⟨HS, HD⟩, Hr⟩
    ihave H1 := (pointsTo_share (PosShare.mem_left_op_right fullShare)).2 $$ [H1a H1b]
    · isplitl [H1a]; · iexact H1a
      iexact H1b
    isplitr [Hr]
    · isplitl [H1]; · iexact H1
      isplitl [HW]; · iexact HW
      isplitl [HB]; · iexact HB
      isplitl [HO]; · iexact HO
      isplitl [HS]; · iexact HS
      iexact HD
    iexact Hr

set_option maxHeartbeats 1600000 in
/-- ENTRY, everything a variable: for any proof data `dat` whose arrays are `Vd`'s contents (`hA`) and any tables `T`
    that are `Vd`'s contents (`hT`), whenever the boundary contents `Vx` agree with `Vd` at the six touched buffers, the
    unscoped buffers at `Vx` are the pipeline's arrays at their entry contents, the two tables, and the rest. -/
theorem entry15 (a : (pcfg15 (F := F)).Adm) (c : Dev nD) (dat : Dat τ (Elt F) Unit ℕ (UR sig nD τ) ℕ (cfg15 a) c)
    (hq0 : dat.q 0 = fullShare.left) (hq1 : dat.q 1 = fullShare.right) (hq2 : dat.q 2 = fullShare) (hq3 : dat.q 3 = fullShare)
    (Vd Vx : (b : Ref sig .tc) → Buf (Elt F) ((c.tc : Thread nD τ).loc b))
    (hA : ∀ w, dat.A w = Vd (Pipeline.arrRef spec15 w))
    (e_h : Vd main_v1 = Vx main_v1) (e_W : Vd main_arg3 = Vx main_arg3) (e_b : Vd main_v0 = Vx main_v0) (e_out : Vd main_v64 = Vx main_v64)
    (T : pre15.Contents (Elt F)) (hT : ∀ j, T j = Vd (pre15.ref j)) (e_src : Vd main_v62 = Vx main_v62) (e_dst : Vd main_v63 = Vx main_v63) :
    (unscopedBufs (Ix := Unit) (Name := ℕ) (U := UR sig nD τ) (Lvl := ℕ) c Vx : sProp 𝕄)
      ⊢ iprop(dat.arrays (dat.arrAt · 0)
          ∗ Pipeline.prefHeld (Ix := Unit) (Name := ℕ) (U := UR sig nD τ) (Lvl := ℕ) pre15 c (fun _ => fullShare) T ∗ rest15 c Vx) :=
  (bufs15 a c dat hq0 hq1 hq2 hq3 Vx (fun w => dat.arrAt w 0)
    (funext fun w => match w with
      | ⟨0, h⟩ => by show dat.arrAt ⟨0, h⟩ 0 = Vx main_v1; exact (hA ⟨0, h⟩).trans e_h
      | ⟨1, h⟩ => by show dat.arrAt ⟨1, h⟩ 0 = Vx main_v1; exact (hA ⟨1, h⟩).trans e_h
      | ⟨2, h⟩ => by show dat.arrAt ⟨2, h⟩ 0 = Vx main_arg3; exact (hA ⟨2, h⟩).trans e_W
      | ⟨3, h⟩ => by show dat.arrAt ⟨3, h⟩ 0 = Vx main_v0; exact (hA ⟨3, h⟩).trans e_b
      | ⟨4, h⟩ => by show dat.arrAt ⟨4, h⟩ 0 = Vx main_v64; exact (hA ⟨4, h⟩).trans e_out)
    T (funext fun j => match j with
      | ⟨0, h⟩ => by show T ⟨0, h⟩ = Vx main_v62; exact (hT ⟨0, h⟩).trans e_src
      | ⟨1, h⟩ => by show T ⟨1, h⟩ = Vx main_v63; exact (hT ⟨1, h⟩).trans e_dst)).1

set_option maxHeartbeats 1600000 in
/-- EXIT, everything a variable: the inputs' arrays end as they began, the output array at what the last write-backs
    leave (`x_out`); whenever `Vx` holds those contents at the six touched buffers, the pipeline's arrays at their final
    contents, the two tables and the rest at `Vx` are the unscoped buffers at `Vx`. -/
theorem exit15 (a : (pcfg15 (F := F)).Adm) (c : Dev nD) (dat : Dat τ (Elt F) Unit ℕ (UR sig nD τ) ℕ (cfg15 a) c) (N : Nat)
    (hq0 : dat.q 0 = fullShare.left) (hq1 : dat.q 1 = fullShare.right) (hq2 : dat.q 2 = fullShare) (hq3 : dat.q 3 = fullShare)
    (Vd Vx : (b : Ref sig .tc) → Buf (Elt F) ((c.tc : Thread nD τ).loc b))
    (hA : ∀ w, dat.A w = Vd (Pipeline.arrRef spec15 w))
    (x_h : Vd main_v1 = Vx main_v1) (x_W : Vd main_arg3 = Vx main_arg3) (x_b : Vd main_v0 = Vx main_v0) (x_out : dat.arrAt 4 N = Vx main_v64)
    (T : pre15.Contents (Elt F)) (hT : ∀ j, T j = Vd (pre15.ref j)) (x_src : Vd main_v62 = Vx main_v62) (x_dst : Vd main_v63 = Vx main_v63) :
    iprop(dat.arrays (dat.arrAt · N)
        ∗ Pipeline.prefHeld (Ix := Unit) (Name := ℕ) (U := UR sig nD τ) (Lvl := ℕ) pre15 c (fun _ => fullShare) T ∗ rest15 c Vx)
      ⊢ (unscopedBufs (Ix := Unit) (Name := ℕ) (U := UR sig nD τ) (Lvl := ℕ) c Vx : sProp 𝕄) :=
  (bufs15 a c dat hq0 hq1 hq2 hq3 Vx (fun w => dat.arrAt w N)
    (funext fun w => match w with
      | ⟨0, h⟩ => by show dat.arrAt ⟨0, h⟩ N = Vx main_v1; exact (dat.arrAt_in ⟨0, h⟩ rfl N).trans ((hA ⟨0, h⟩).trans x_h)
      | ⟨1, h⟩ => by show dat.arrAt ⟨1, h⟩ N = Vx main_v1; exact (dat.arrAt_in ⟨1, h⟩ rfl N).trans ((hA ⟨1, h⟩).trans x_h)
      | ⟨2, h⟩ => by show dat.arrAt ⟨2, h⟩ N = Vx main_arg3; exact (dat.arrAt_in ⟨2, h⟩ rfl N).trans ((hA ⟨2, h⟩).trans x_W)
      | ⟨3, h⟩ => by show dat.arrAt ⟨3, h⟩ N = Vx main_v0; exact (dat.arrAt_in ⟨3, h⟩ rfl N).trans ((hA ⟨3, h⟩).trans x_b)
      | ⟨4, h⟩ => by show dat.arrAt ⟨4, h⟩ N = Vx main_v64; exact x_out)
    T (funext fun j => match j with
      | ⟨0, h⟩ => by show T ⟨0, h⟩ = Vx main_v62; exact (hT ⟨0, h⟩).trans x_src
      | ⟨1, h⟩ => by show T ⟨1, h⟩ = Vx main_v63; exact (hT ⟨1, h⟩).trans x_dst)).2

variable (m : (ℓ : Loc nD τ sig) → Buf (Elt F) ℓ) (hO : Oks m)

/-! ## What the region finds and leaves, buffer by buffer -/

include hO

theorem fin15_h (c : Dev nD) : Ve15 m c main_v1 = V31 m (outsR m hO) c main_v1 := by first | exact indep15_h m (outsL m) (outsR m hO) c | rfl
theorem fin15_W (c : Dev nD) : Ve15 m c main_arg3 = V31 m (outsR m hO) c main_arg3 := by first | exact indep15_W m (outsL m) (outsR m hO) c | rfl
theorem fin15_b (c : Dev nD) : Ve15 m c main_v0 = V31 m (outsR m hO) c main_v0 := by first | exact indep15_b m (outsL m) (outsR m hO) c | rfl
theorem fin15_out (c : Dev nD) : Ve15 m c main_v64 = V31 m (outsR m hO) c main_v64 := by first | exact indep15_out m (outsL m) (outsR m hO) c | rfl
theorem fin15_src (c : Dev nD) : Ve15 m c main_v62 = V31 m (outsR m hO) c main_v62 := by first | exact indep15_src m (outsL m) (outsR m hO) c | rfl
theorem fin15_dst (c : Dev nD) : Ve15 m c main_v63 = V31 m (outsR m hO) c main_v63 := by first | exact indep15_dst m (outsL m) (outsR m hO) c | rfl

/-- What the region leaves in the buffers it touches: the inputs and the tables as they were, the output array at the
    region's chunk. -/
theorem lv15_h (c : Dev nD) : V32 m (outsR m hO) c main_v1 = V31 m (outsR m hO) c main_v1 := V32_of m (outsR m hO) c main_v1 (by decide)
theorem lv15_W (c : Dev nD) : V32 m (outsR m hO) c main_arg3 = V31 m (outsR m hO) c main_arg3 := V32_of m (outsR m hO) c main_arg3 (by decide)
theorem lv15_b (c : Dev nD) : V32 m (outsR m hO) c main_v0 = V31 m (outsR m hO) c main_v0 := V32_of m (outsR m hO) c main_v0 (by decide)
theorem lv15_src (c : Dev nD) : V32 m (outsR m hO) c main_v62 = V31 m (outsR m hO) c main_v62 := V32_of m (outsR m hO) c main_v62 (by decide)
theorem lv15_dst (c : Dev nD) : V32 m (outsR m hO) c main_v63 = V31 m (outsR m hO) c main_v63 := V32_of m (outsR m hO) c main_v63 (by decide)
theorem lv15_out (c : Dev nD) : V32 m (outsR m hO) c main_v64 = chunk15 m hO c :=
  (Function.update_self _ _ _).trans (outsR_15 m hO c)

/-- The buffers the region does not touch pass it by unchanged. -/
theorem rest15_eq (c : Dev nD) : (rest15 c (fun b => V31 m (outsR m hO) c b) : sProp 𝕄) = rest15 c (fun b => V32 m (outsR m hO) c b) := by
  unfold rest15
  exact BI.bigSep_congr fun b hb => by
    dsimp only
    rw [V32_of m (outsR m hO) c b (fun h => (Finset.mem_sdiff.mp hb).2 (by rw [List.mem_singleton.mp h]; decide))]

set_option maxHeartbeats 1600000 in
set_option backward.isDefEq.respectTransparency.types false in
/-- REGION 0 over the boundary states. -/
def reg15 : Pipeline.RegionSeg (pcfgs (F := F)) (adm m hO) (pdats m hO) () defs₀ 𝒱₀ L lv (15 : Fin 16) where
  win := winFacts₀15
  block_pos := block_pos15
  stage_whole := stage_whole15
  K := PEmpty
  osem k := k.elim
  ho := Pipeline.OwnSemFacts.none _
  hbody c := (body_obligation15 (Ve15 m) ⟨tbl15 m, hO.h15⟩ c).loose
  hwaits := Pipeline.hwaits_of_owed_zero _ _ _ _ L lv (15 : Fin 16) fun _ _ => rfl
  pre c := iprop(StableHlo.held (c : Thread nD τ) (Pipeline.ucRefs τ sig) (V31 m (outsR m hO) c) ∗ Rst c)
  post c := iprop(StableHlo.held (c : Thread nD τ) (Pipeline.ucRefs τ sig) (V32 m (outsR m hO) c) ∗ Rst c)
  X c := iprop(∃ r, prngReg c r)
  Y c := iprop((∃ r, prngReg c r) ∗ Pipeline.prefHeld (Ix := Unit) (Name := ℕ) (U := UR sig nD τ) (Lvl := ℕ) pre15 c (fun _ => fullShare) (tbl15 m))
  Z c := rest15 c (fun b => V31 m (outsR m hO) c b)
  hentry c := by
    obtain rfl : c = 0 := Subsingleton.elim _ _
    have hb := entry15 (adm m hO (15 : Fin 16)) 0 (pdats m hO (15 : Fin 16) 0) rfl rfl rfl rfl (Ve15 m 0) (fun b => V31 m (outsR m hO) 0 b) (fun w => rfl)
      (fin15_h m hO 0) (fin15_W m hO 0) (fin15_b m hO 0) (fin15_out m hO 0) (tbl15 m) (fun j => rfl) (fin15_src m hO 0) (fin15_dst m hO 0)
    rw [Pipeline.unscopedBufs_held] at hb
    iintro ⟨⟨Hub, Hp, HO⟩, -, -⟩
    ihave H := hb $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO (15 : Fin 16) c).Φ 0 = iprop(Pipeline.ΦA spec15 c ∗ Pipeline.prefHeld (Ix := Unit) (Name := ℕ) (U := UR sig nD τ) (Lvl := ℕ) pre15 c (fun _ => fullShare) (tbl15 m)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m hO (15 : Fin 16) c).Φ (Fin.last _) = iprop(Pipeline.ΦA spec15 c ∗ Pipeline.prefHeld (Ix := Unit) (Name := ℕ) (U := UR sig nD τ) (Lvl := ℕ) pre15 c (fun _ => fullShare) (tbl15 m)) from rfl]
    unfold Pipeline.ΦA
    iintro ⟨⟨Hr, Hp⟩, Ht⟩
    isplitl [Hp Ht]
    · isplitl [Hp]; · iexact Hp
      iexact Ht
    isplitr; · iempintro
    iexact Hr
  hexit c := by
    obtain rfl : c = 0 := Subsingleton.elim _ _
    have hb := exit15 (adm m hO (15 : Fin 16)) 0 (pdats m hO (15 : Fin 16) 0) (Pipeline.pin (pcfgs (F := F)) (adm m hO) (15 : Fin 16)).N rfl rfl rfl rfl
      (Ve15 m 0) (fun b => V32 m (outsR m hO) 0 b) (fun w => rfl)
      ((fin15_h m hO 0).trans (lv15_h m hO 0).symm) ((fin15_W m hO 0).trans (lv15_W m hO 0).symm) ((fin15_b m hO 0).trans (lv15_b m hO 0).symm)
      (lv15_out m hO 0).symm (tbl15 m) (fun j => rfl) ((fin15_src m hO 0).trans (lv15_src m hO 0).symm) ((fin15_dst m hO 0).trans (lv15_dst m hO 0).symm)
    rw [Pipeline.unscopedBufs_held, ← rest15_eq m hO 0] at hb
    iintro ⟨Ha, HO, ⟨Hp, Ht⟩, Hrest⟩
    imodintro
    isplitl [Ha Ht Hrest]
    · iapply hb
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Cert.Kernel.Hand

end
-- ==== Proof.KFrame.lean ====
/-
  The whole program's run.

  @main is seventeen stretches of host operations around sixteen kernel regions. Each stretch runs over the unscoped
  buffers from the boundary contents before it; each region is the record of its module. Chained, they take the launch
  memory to the last boundary's contents `V33`, in which the result array is the concatenation of the sixteen chunks
  and every argument array is as launched. `run_all` is that run with every unscoped buffer's final contents named;
  `frame_all` reads the five argument arrays off it.
-/
import proofs.«405368_j31662498906597_2_alg».proof.Proof.KReg0
import proofs.«405368_j31662498906597_2_alg».proof.Proof.KReg1
import proofs.«405368_j31662498906597_2_alg».proof.Proof.KReg2
import proofs.«405368_j31662498906597_2_alg».proof.Proof.KReg3
import proofs.«405368_j31662498906597_2_alg».proof.Proof.KReg4
import proofs.«405368_j31662498906597_2_alg».proof.Proof.KReg5
import proofs.«405368_j31662498906597_2_alg».proof.Proof.KReg6
import proofs.«405368_j31662498906597_2_alg».proof.Proof.KReg7
import proofs.«405368_j31662498906597_2_alg».proof.Proof.KReg8
import proofs.«405368_j31662498906597_2_alg».proof.Proof.KReg9
import proofs.«405368_j31662498906597_2_alg».proof.Proof.KReg10
import proofs.«405368_j31662498906597_2_alg».proof.Proof.KReg11
import proofs.«405368_j31662498906597_2_alg».proof.Proof.KReg12
import proofs.«405368_j31662498906597_2_alg».proof.Proof.KReg13
import proofs.«405368_j31662498906597_2_alg».proof.Proof.KReg14
import proofs.«405368_j31662498906597_2_alg».proof.Proof.KReg15

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (hO : Oks m) (ρ : Dev nD → PrngReg)

/-- An unscoped TensorCore reference is among those the boundary states hold. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution of @main terminates, nothing faulting, and
    every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V33 m (outsR m hO) c b) := by
  refine Pipeline.θ_run_regions_kit_dev (pcfgs (F := F)) (adm m hO) (pdats m hO) () (cellOf_inj (adm m hO)) emb₁ defs₀ 𝒱₀ L lv m ρ main
    (segs m (outsR m hO) 𝒱₀ L lv (fun _ c => Rst c) () (adm m hO) (pdats m hO) (reg0 m hO) (reg1 m hO) (reg2 m hO) (reg3 m hO) (reg4 m hO) (reg5 m hO) (reg6 m hO) (reg7 m hO) (reg8 m hO) (reg9 m hO) (reg10 m hO) (reg11 m hO) (reg12 m hO) (reg13 m hO) (reg14 m hO) (reg15 m hO))
    (fun c Q => by
      rewrite [main_chain c, Seg.run_eq_chain,
        show ((segs m (outsR m hO) 𝒱₀ L lv (fun _ c => Rst c) () (adm m hO) (pdats m hO) (reg0 m hO) (reg1 m hO) (reg2 m hO) (reg3 m hO) (reg4 m hO) (reg5 m hO) (reg6 m hO) (reg7 m hO) (reg8 m hO) (reg9 m hO) (reg10 m hO) (reg11 m hO) (reg12 m hO) (reg13 m hO) (reg14 m hO) (reg15 m hO)) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11,
          Prog.lift (.customCall (Pipeline.entry 11) ()),
          StableHlo.seq hostOps12,
          Prog.lift (.customCall (Pipeline.entry 12) ()),
          StableHlo.seq hostOps13,
          Prog.lift (.customCall (Pipeline.entry 13) ()),
          StableHlo.seq hostOps14,
          Prog.lift (.customCall (Pipeline.entry 14) ()),
          StableHlo.seq hostOps15,
          Prog.lift (.customCall (Pipeline.entry 15) ()),
          StableHlo.seq hostOps16 ] from rfl]
      with_reducible exact .rfl)
    (fun c => by simp only [segs, Seg.pipes_host, Seg.pipes_region, Seg.pipes_nil]; decide)
    (O₀ := 0) (hL := fun _ _ => rfl) (G := fun _ => iprop(emp))
    (u₀ := initOf (Pipeline.cells (Pipeline.pin (pcfgs (F := F)) (adm m hO)) (cellOf_inj (adm m hO))) (Pipeline.launchToks (Pipeline.pin (pcfgs (F := F)) (adm m hO)) (cellOf_inj (adm m hO))))
    (hu₀ := by
      iintro Hu; imodintro
      isplitl [Hu]
      · iapply (show (ownU (initOf (Pipeline.cells (Pipeline.pin (pcfgs (F := F)) (adm m hO)) (cellOf_inj (adm m hO))) (Pipeline.launchToks (Pipeline.pin (pcfgs (F := F)) (adm m hO)) (cellOf_inj (adm m hO)))) : sProp 𝕄)
            ⊢ BI.own (emb₁ (initOf (Pipeline.cells (Pipeline.pin (pcfgs (F := F)) (adm m hO)) (cellOf_inj (adm m hO))) (Pipeline.launchToks (Pipeline.pin (pcfgs (F := F)) (adm m hO)) (cellOf_inj (adm m hO))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rst c))
    (Tₙ := fun c => StableHlo.held (c : Thread nD τ) (Pipeline.ucRefs τ sig) (V33 m (outsR m hO) c))
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, sep_mono .rfl (show (Rst c : sProp 𝕄) ⊢ iprop(∃ W, owes (c : Thread nD τ) (0 : CellTallies nD τ sig Unit) W) from by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V33 m (outsR m hO) c b)
    (hfin := fun c s' => by
      iintro ⟨Hh, HSI⟩
      unfold StableHlo.held
      imodintro
      iapply (pointsTo_read_all (Pipeline.ucRefs τ sig) (fun b => (((c : Thread nD τ)).1, b)) (V33 m (outsR m hO) c) s')
      isplitl [Hh] <;> iassumption)
    (hQ := fun s h => h)

include hO in
/-- The frame: the five argument arrays end as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (V33_main_arg0 m (outsR m hO) c),
     (h c _ (mem_uc main_arg1 (by decide))).trans (V33_main_arg1 m (outsR m hO) c),
     (h c _ (mem_uc main_arg2 (by decide))).trans (V33_main_arg2 m (outsR m hO) c),
     (h c _ (mem_uc main_arg3 (by decide))).trans (V33_main_arg3 m (outsR m hO) c),
     (h c _ (mem_uc main_arg4 (by decide))).trans (V33_main_arg4 m (outsR m hO) c)⟩) (run_all m hO ρ)

end Cert.Kernel.Hand

end
-- ==== Proof.IdxRange.lean ====
/-
  The index-range conjuncts of the printed precondition, decoded.

  The precondition is a conjunction (by `and` of one-bit words) of three float finiteness tests and of two tests on the
  two index vectors of 1000000 words each: `all (0 ≤ v[e] ∧ v[e] < 100000)`, the comparisons signed, the `all` a
  reduction by `and` from the constant 1 into a scalar. When the whole conjunction is 1, each conjunct is 1; a reduction by
  `and` that is 1 met only 1s; and an element of the reduced array being 1 says both comparisons hold at that element,
  against the constants 0 and 100000 broadcast from scalars. So every word of either index vector, read signed, lies in
  [0, 100000); and a word whose signed reading is non-negative has the same unsigned reading, so that is below 100000 too.
  Nothing here depends on the float interpretation: the float conjuncts are projected away.
-/
import proofs.«405368_j31662498906597_2_alg».proof.Pre_finite_inputs
import Idealize.ShloMosaic.Lib.ReduceAll
import Idealize.ShloMosaic.Lib.ValueIdx

namespace Cert.IdxRange

open Idealize.ShloMosaic Idealize.ShloMosaic.ValueIdx
open Cert.Pre_finite_inputs

/-- The scalar shape has exactly one index. -/
instance : Subsingleton S_.Idx := ⟨fun a b => funext fun d => d.elim0⟩

/-- A 32-bit word whose signed reading lies in [0, n) has the same unsigned reading, so that is below n too: a word
    with the top bit set reads negative, and a word with the top bit clear reads as its unsigned value. -/
theorem toNat_lt_of_toInt {w : BitVec 32} {n : Nat} (h0 : 0 ≤ w.toInt) (h1 : w.toInt < n) : w.toNat < n := by
  have hc := BitVec.toInt_eq_toNat_cond w
  split at hc <;> omega

/-- The two constants the comparisons are made against, read signed. -/
theorem zero_toInt : (0#32 : BitVec 32).toInt = 0 := by decide
theorem bound_toInt : (100000#32 : BitVec 32).toInt = 100000 := by decide

/-- Every word of the first index vector, read signed, lies in [0, 100000). The precondition at its one index is
    `(floats ∧ all₁) ∧ all₂`; the left conjunct's right half is the reduction over the first index vector, and its
    element at `e` is `(0 ≤ a1[e]) ∧ (a1[e] < 100000)`. -/
theorem src_range {F : FTy → Type} [FloatOps F] [Cert.Pre_finite_inputs.Facts]
    (a0 : FVec F Cert.Pre_finite_inputs.S100000x128 .f32) (a1 a2 : IVec Cert.Pre_finite_inputs.S1000000 32)
    (a3 : FVec F Cert.Pre_finite_inputs.S1x256 .f32) (a4 : FVec F Cert.Pre_finite_inputs.S1 .f32)
    (h : Cert.Pre_finite_inputs.fn (F := F) a0 a1 a2 a3 a4 = fun _ => 1#1) (e : Fin 1000000) :
    0 ≤ (a1 (ValueIdx.ix1 e)).toInt ∧ (a1 (ValueIdx.ix1 e)).toInt < 100000 := by
  have e0 : Cert.Pre_finite_inputs.fn (F := F) a0 a1 a2 a3 a4 ix0 = 1#1 := congrFun h ix0
  obtain ⟨hleft, -⟩ := IntOp.andi_eq_one.1 e0
  obtain ⟨-, hall⟩ := IntOp.andi_eq_one.1 hleft
  have hel := Host.reduce_andi_all _ _ _ _ ix0 hall (ix1 e)
  obtain ⟨hge, hlt⟩ := IntOp.andi_eq_one.1 hel
  have h1 : (0#32 : BitVec 32).toInt ≤ (a1 (ix1 e)).toInt := IntOp.cmpi_sge.1 hge
  have h2 : (a1 (ix1 e)).toInt < (100000#32 : BitVec 32).toInt := IntOp.cmpi_slt.1 hlt
  rw [zero_toInt] at h1
  rw [bound_toInt] at h2
  exact ⟨h1, h2⟩

/-- Every word of the second index vector, read signed, lies in [0, 100000): the precondition's last conjunct is the
    reduction over the second index vector. -/
theorem dst_range {F : FTy → Type} [FloatOps F] [Cert.Pre_finite_inputs.Facts]
    (a0 : FVec F Cert.Pre_finite_inputs.S100000x128 .f32) (a1 a2 : IVec Cert.Pre_finite_inputs.S1000000 32)
    (a3 : FVec F Cert.Pre_finite_inputs.S1x256 .f32) (a4 : FVec F Cert.Pre_finite_inputs.S1 .f32)
    (h : Cert.Pre_finite_inputs.fn (F := F) a0 a1 a2 a3 a4 = fun _ => 1#1) (e : Fin 1000000) :
    0 ≤ (a2 (ValueIdx.ix1 e)).toInt ∧ (a2 (ValueIdx.ix1 e)).toInt < 100000 := by
  have e0 : Cert.Pre_finite_inputs.fn (F := F) a0 a1 a2 a3 a4 ix0 = 1#1 := congrFun h ix0
  obtain ⟨-, hall⟩ := IntOp.andi_eq_one.1 e0
  have hel := Host.reduce_andi_all _ _ _ _ ix0 hall (ix1 e)
  obtain ⟨hge, hlt⟩ := IntOp.andi_eq_one.1 hel
  have h1 : (0#32 : BitVec 32).toInt ≤ (a2 (ix1 e)).toInt := IntOp.cmpi_sge.1 hge
  have h2 : (a2 (ix1 e)).toInt < (100000#32 : BitVec 32).toInt := IntOp.cmpi_slt.1 hlt
  rw [zero_toInt] at h1
  rw [bound_toInt] at h2
  exact ⟨h1, h2⟩

/-- The unsigned reading of a word of the first index vector is below 100000. -/
theorem src_toNat_lt {F : FTy → Type} [FloatOps F] [Cert.Pre_finite_inputs.Facts]
    (a0 : FVec F Cert.Pre_finite_inputs.S100000x128 .f32) (a1 a2 : IVec Cert.Pre_finite_inputs.S1000000 32)
    (a3 : FVec F Cert.Pre_finite_inputs.S1x256 .f32) (a4 : FVec F Cert.Pre_finite_inputs.S1 .f32)
    (h : Cert.Pre_finite_inputs.fn (F := F) a0 a1 a2 a3 a4 = fun _ => 1#1) (e : Fin 1000000) :
    (a1 (ValueIdx.ix1 e)).toNat < 100000 :=
  toNat_lt_of_toInt (src_range a0 a1 a2 a3 a4 h e).1 (src_range a0 a1 a2 a3 a4 h e).2

/-- The unsigned reading of a word of the second index vector is below 100000. -/
theorem dst_toNat_lt {F : FTy → Type} [FloatOps F] [Cert.Pre_finite_inputs.Facts]
    (a0 : FVec F Cert.Pre_finite_inputs.S100000x128 .f32) (a1 a2 : IVec Cert.Pre_finite_inputs.S1000000 32)
    (a3 : FVec F Cert.Pre_finite_inputs.S1x256 .f32) (a4 : FVec F Cert.Pre_finite_inputs.S1 .f32)
    (h : Cert.Pre_finite_inputs.fn (F := F) a0 a1 a2 a3 a4 = fun _ => 1#1) (e : Fin 1000000) :
    (a2 (ValueIdx.ix1 e)).toNat < 100000 :=
  toNat_lt_of_toInt (dst_range a0 a1 a2 a3 a4 h e).1 (dst_range a0 a1 a2 a3 a4 h e).2

/-- A 32-bit word whose signed reading is non-negative has its top bit clear, so its signed reading is its unsigned one. -/
theorem toInt_eq_toNat_of_nonneg {w : BitVec 32} (h0 : 0 ≤ w.toInt) : w.toInt = ((w.toNat : ℕ) : ℤ) := by
  have hc := BitVec.toInt_eq_toNat_cond w
  have hlt := w.isLt
  split at hc <;> omega

/-- A word of the first index vector reads the same signed and unsigned. -/
theorem src_toInt_eq {F : FTy → Type} [FloatOps F] [Cert.Pre_finite_inputs.Facts]
    (a0 : FVec F Cert.Pre_finite_inputs.S100000x128 .f32) (a1 a2 : IVec Cert.Pre_finite_inputs.S1000000 32)
    (a3 : FVec F Cert.Pre_finite_inputs.S1x256 .f32) (a4 : FVec F Cert.Pre_finite_inputs.S1 .f32)
    (h : Cert.Pre_finite_inputs.fn (F := F) a0 a1 a2 a3 a4 = fun _ => 1#1) (e : Fin 1000000) :
    (a1 (ValueIdx.ix1 e)).toInt = (((a1 (ValueIdx.ix1 e)).toNat : ℕ) : ℤ) :=
  toInt_eq_toNat_of_nonneg (src_range a0 a1 a2 a3 a4 h e).1

/-- A word of the second index vector reads the same signed and unsigned. -/
theorem dst_toInt_eq {F : FTy → Type} [FloatOps F] [Cert.Pre_finite_inputs.Facts]
    (a0 : FVec F Cert.Pre_finite_inputs.S100000x128 .f32) (a1 a2 : IVec Cert.Pre_finite_inputs.S1000000 32)
    (a3 : FVec F Cert.Pre_finite_inputs.S1x256 .f32) (a4 : FVec F Cert.Pre_finite_inputs.S1 .f32)
    (h : Cert.Pre_finite_inputs.fn (F := F) a0 a1 a2 a3 a4 = fun _ => 1#1) (e : Fin 1000000) :
    (a2 (ValueIdx.ix1 e)).toInt = (((a2 (ValueIdx.ix1 e)).toNat : ℕ) : ℤ) :=
  toInt_eq_toNat_of_nonneg (dst_range a0 a1 a2 a3 a4 h e).1

end Cert.IdxRange
-- ==== Proof.KOks.lean ====
/-
  The pipelines' side condition on the prefetched index tables, from the precondition.

  Each kernel region is handed two tables of 62500 words: the slices at offset 62500·k of the two index inputs of
  1000000 words. At grid point t its first two windows fetch the blocks [1,1,128] of the [100000,1,128] feature array
  at block index (table word at t, 0, 0). The side condition asks that every such block lie inside the array (the
  element type is 32 bits wide, so the word-exactness half holds outright). The precondition says every word of
  either index input, read signed, lies in [0, 100000); so read unsigned it is below 100000, the block index's first
  coordinate is a row number of the array, and (w + 1)·1 ≤ 100000, (0 + 1)·1 ≤ 1, (0 + 1)·128 ≤ 128.

  The side condition is first proved of ANY tables whose words are below 100000 (the tables a variable), and the
  region's own tables are put in last: their word at t is the index input's word at 62500·k + t.
-/
import proofs.«405368_j31662498906597_2_alg».proof.Proof.KFamily
import proofs.«405368_j31662498906597_2_alg».proof.Proof.KHostEntry
import proofs.«405368_j31662498906597_2_alg».proof.Proof.KHostEntryGen
import proofs.«405368_j31662498906597_2_alg».proof.Proof.IdxRange
import Idealize.ShloMosaic.Lib.Pipeline.Value

noncomputable section

namespace Cert.Kernel.Hand

open Idealize.ShloMosaic Idealize.ShloMosaic.TcCoe
open Cert.Kernel Cert.Kernel.Gen

variable {F : FTy → Type} [FloatOps F]

/-! ## What every region shares -/

/-- A grid coordinate, cast to a 32-bit index, reads back as itself: it is below 62500, far below 2^32. -/
theorem coord_word (n : Nat) (h : n < 62500) : (Scalar.indexCast (BitVec.ofNat 32 n)).toNat = n := by
  show (BitVec.ofNat 32 n).toNat = n
  rw [BitVec.toNat_ofNat]; omega

/-- The one element of the unit rectangle at offset `n` (a grid coordinate, cast to an index) of a table of 62500
    words is the table's index `n`: offset `n`, stride 1, at the rectangle's first (and only) index 0. -/
theorem unit_emb (n : Fin 62500)
    (inb : ∀ a, (![(Scalar.indexCast (BitVec.ofNat 32 n.val)).toNat] : Fin 1 → Nat) a + S1.size a ≤ S62500.size a)
    (h1 : 0 < (Rect.unit (s := S62500) ![(Scalar.indexCast (BitVec.ofNat 32 n.val)).toNat] S1.size inb).shape.numel) :
    (Rect.unit (s := S62500) ![(Scalar.indexCast (BitVec.ofNat 32 n.val)).toNat] S1.size inb).emb (Shape.Idx.first h1)
      = ValueIdx.ix1 n := by
  funext a
  apply Fin.ext
  match a with
  | ⟨0, _⟩ =>
    show (Scalar.indexCast (BitVec.ofNat 32 n.val)).toNat + 1 * 0 = n.val
    rw [coord_word n.val n.isLt]; omega

/-- A block [1,1,128] at block index (w, 0, 0) with w below 100000 lies inside the [100000,1,128] array. -/
theorem row_block_inb (w : Nat) (h : w < 100000) :
    ∀ a, ((![w, 0, 0] : Fin 3 → Nat) a + 1) * S1x1x128.size a ≤ S100000x1x128.size a := by
  intro a
  match a with
  | ⟨0, _⟩ => show (w + 1) * 1 ≤ 100000; omega
  | ⟨1, _⟩ => show (0 + 1) * 1 ≤ 1; omega
  | ⟨2, _⟩ => show (0 + 1) * 128 ≤ 128; omega

/-- A slice of 62500 words at offset `off` of a vector of 1000000 words, read at `t`, is the vector at `off + t`. -/
theorem slice_at (off : Nat) (x : S1000000.Idx → BitVec 32) (h : S1000000.Slices ![off] S62500)
    (hoff : off + 62500 ≤ 1000000) (t : Fin 62500) :
    extractStridedSlice S62500 ![off] x h (ValueIdx.ix1 t) = x (ValueIdx.ix1 ⟨off + t.val, by omega⟩) :=
  extractStridedSlice_apply ![off] x h (ValueIdx.ix1 t) (ValueIdx.ix1 ⟨off + t.val, by omega⟩)
    (fun a => match a with | ⟨0, _⟩ => rfl)

/-- The precondition on the launch memory's five argument arrays, on every device. -/
abbrev PreArgs [Cert.Pre_finite_inputs.Facts] (m : (ℓ : Loc nD τ sig) → Buf (Elt F) ℓ) : Prop :=
  ∀ c : Dev nD, Cert.Pre_finite_inputs.fn (F := F) (m ((c.tc : Thread nD τ).loc main_arg0))
    (m ((c.tc : Thread nD τ).loc main_arg1)) (m ((c.tc : Thread nD τ).loc main_arg2))
    (m ((c.tc : Thread nD τ).loc main_arg3)) (m ((c.tc : Thread nD τ).loc main_arg4)) = fun _ => 1#1

/-! ## Region 0 -/

/-- Region 0's first index map: the block index is (the first table's word at the grid coordinate, 0, 0). -/
theorem cc0_t0 (pf : pre0.Contents (Elt F)) (i : grid0.Coords) :
    cc0_transform_0 Facts₀.k0_off1_inb Facts₀.numel1_S1 pf i
      = ![((pf 0 : S62500.Idx → BitVec 32) (ValueIdx.ix1 (i 0))).toNat, 0, 0] := by
  unfold cc0_transform_0
  simp only []
  exact congrArg (fun j : S62500.Idx => (![((pf 0 : S62500.Idx → BitVec 32) j).toNat, 0, 0] : Fin 3 → Nat))
    (unit_emb (i 0) _ _)

/-- Region 0's second index map: the same with the second table. -/
theorem cc0_t1 (pf : pre0.Contents (Elt F)) (i : grid0.Coords) :
    cc0_transform_1 Facts₀.k0_off1_inb Facts₀.numel1_S1 pf i
      = ![((pf 1 : S62500.Idx → BitVec 32) (ValueIdx.ix1 (i 0))).toNat, 0, 0] := by
  unfold cc0_transform_1
  simp only []
  exact congrArg (fun j : S62500.Idx => (![((pf 1 : S62500.Idx → BitVec 32) j).toNat, 0, 0] : Fin 3 → Nat))
    (unit_emb (i 0) _ _)

/-- Region 0's side condition holds of any tables whose words are row numbers below 100000. -/
theorem ok0_of_lt (pf : pre0.Contents (Elt F))
    (h0 : ∀ t : Fin 62500, ((pf 0 : S62500.Idx → BitVec 32) (ValueIdx.ix1 t)).toNat < 100000)
    (h1 : ∀ t : Fin 62500, ((pf 1 : S62500.Idx → BitVec 32) (ValueIdx.ix1 t)).toNat < 100000) : ok0 pf := by
  refine ⟨fun i => ⟨?_, Or.inl rfl⟩, fun i => ⟨?_, Or.inl rfl⟩⟩
  · rw [cc0_t0]; exact row_block_inb _ (h0 (i 0))
  · rw [cc0_t1]; exact row_block_inb _ (h1 (i 0))

variable (m : (ℓ : Loc nD τ sig) → Buf (Elt F) ℓ)

/-- Region 0's first table at `t` is the first index input at 62500·0 + t. -/
theorem tbl0_src_at (t : Fin 62500) :
    (tbl0 m 0 : S62500.Idx → BitVec 32) (ValueIdx.ix1 t)
      = (m (((0 : Dev nD).tc : Thread nD τ).loc main_arg1) : S1000000.Idx → BitVec 32)
          (ValueIdx.ix1 ⟨62500 * 0 + t.val, by omega⟩) := by
  show (Ve0 m (0 : Dev nD) main_v2 : S62500.Idx → BitVec 32) (ValueIdx.ix1 t) = _
  exact (congrFun (tbl0_src m (0 : Dev nD)) (ValueIdx.ix1 t)).trans (slice_at 0 _ _ (by omega) t)

/-- Region 0's second table at `t` is the second index input at 62500·0 + t. -/
theorem tbl0_dst_at (t : Fin 62500) :
    (tbl0 m 1 : S62500.Idx → BitVec 32) (ValueIdx.ix1 t)
      = (m (((0 : Dev nD).tc : Thread nD τ).loc main_arg2) : S1000000.Idx → BitVec 32)
          (ValueIdx.ix1 ⟨62500 * 0 + t.val, by omega⟩) := by
  show (Ve0 m (0 : Dev nD) main_v3 : S62500.Idx → BitVec 32) (ValueIdx.ix1 t) = _
  exact (congrFun (tbl0_dst m (0 : Dev nD)) (ValueIdx.ix1 t)).trans (slice_at 0 _ _ (by omega) t)

variable [Cert.Pre_finite_inputs.Facts]

/-- Under the precondition every word of region 0's first table is a row number below 100000. -/
theorem tbl0_src_lt (hpre : PreArgs m) (t : Fin 62500) :
    ((tbl0 m 0 : S62500.Idx → BitVec 32) (ValueIdx.ix1 t)).toNat < 100000 := by
  rw [tbl0_src_at m t]
  exact Cert.IdxRange.src_toNat_lt _ _ _ _ _ (hpre 0) ⟨62500 * 0 + t.val, by omega⟩

/-- Under the precondition every word of region 0's second table is a row number below 100000. -/
theorem tbl0_dst_lt (hpre : PreArgs m) (t : Fin 62500) :
    ((tbl0 m 1 : S62500.Idx → BitVec 32) (ValueIdx.ix1 t)).toNat < 100000 := by
  rw [tbl0_dst_at m t]
  exact Cert.IdxRange.dst_toNat_lt _ _ _ _ _ (hpre 0) ⟨62500 * 0 + t.val, by omega⟩

/-- Under the precondition region 0's tables pass its side condition. -/
theorem ok0_tbl (hpre : PreArgs m) : ok0 (F := F) (tbl0 m) :=
  ok0_of_lt (tbl0 m) (tbl0_src_lt m hpre) (tbl0_dst_lt m hpre)

end Cert.Kernel.Hand
-- ==== Proof.KOksGen.lean ====
/- The table side conditions of regions 1 … 15: the same statements and proofs as region 0's, for the
   region's own index maps, tables and slice offset 62500·k. -/
import proofs.«405368_j31662498906597_2_alg».proof.Proof.KOks

noncomputable section

namespace Cert.Kernel.Hand

open Idealize.ShloMosaic Idealize.ShloMosaic.TcCoe
open Cert.Kernel Cert.Kernel.Gen

variable {F : FTy → Type} [FloatOps F]

section

/-! ## Region 1 -/

/-- Region 1's first index map: the block index is (the first table's word at the grid coordinate, 0, 0). -/
theorem cc1_t0 (pf : pre1.Contents (Elt F)) (i : grid1.Coords) :
    cc1_transform_0 Facts₀.k1_off1_inb Facts₀.numel1_S1 pf i
      = ![((pf 0 : S62500.Idx → BitVec 32) (ValueIdx.ix1 (i 0))).toNat, 0, 0] := by
  unfold cc1_transform_0
  simp only []
  exact congrArg (fun j : S62500.Idx => (![((pf 0 : S62500.Idx → BitVec 32) j).toNat, 0, 0] : Fin 3 → Nat))
    (unit_emb (i 0) _ _)

/-- Region 1's second index map: the same with the second table. -/
theorem cc1_t1 (pf : pre1.Contents (Elt F)) (i : grid1.Coords) :
    cc1_transform_1 Facts₀.k1_off1_inb Facts₀.numel1_S1 pf i
      = ![((pf 1 : S62500.Idx → BitVec 32) (ValueIdx.ix1 (i 0))).toNat, 0, 0] := by
  unfold cc1_transform_1
  simp only []
  exact congrArg (fun j : S62500.Idx => (![((pf 1 : S62500.Idx → BitVec 32) j).toNat, 0, 0] : Fin 3 → Nat))
    (unit_emb (i 0) _ _)

/-- Region 1's side condition holds of any tables whose words are row numbers below 100000. -/
theorem ok1_of_lt (pf : pre1.Contents (Elt F))
    (h0 : ∀ t : Fin 62500, ((pf 0 : S62500.Idx → BitVec 32) (ValueIdx.ix1 t)).toNat < 100000)
    (h1 : ∀ t : Fin 62500, ((pf 1 : S62500.Idx → BitVec 32) (ValueIdx.ix1 t)).toNat < 100000) : ok1 pf := by
  refine ⟨fun i => ⟨?_, Or.inl rfl⟩, fun i => ⟨?_, Or.inl rfl⟩⟩
  · rw [cc1_t0]; exact row_block_inb _ (h0 (i 0))
  · rw [cc1_t1]; exact row_block_inb _ (h1 (i 0))

variable (m : (ℓ : Loc nD τ sig) → Buf (Elt F) ℓ)

/-- Region 1's first table at `t` is the first index input at 62500·1 + t. -/
theorem tbl1_src_at (t : Fin 62500) :
    (tbl1 m 0 : S62500.Idx → BitVec 32) (ValueIdx.ix1 t)
      = (m (((0 : Dev nD).tc : Thread nD τ).loc main_arg1) : S1000000.Idx → BitVec 32)
          (ValueIdx.ix1 ⟨62500 * 1 + t.val, by omega⟩) := by
  show (Ve1 m (0 : Dev nD) main_v6 : S62500.Idx → BitVec 32) (ValueIdx.ix1 t) = _
  exact (congrFun (tbl1_src m (outsL m) (0 : Dev nD)) (ValueIdx.ix1 t)).trans (slice_at 62500 _ _ (by omega) t)

/-- Region 1's second table at `t` is the second index input at 62500·1 + t. -/
theorem tbl1_dst_at (t : Fin 62500) :
    (tbl1 m 1 : S62500.Idx → BitVec 32) (ValueIdx.ix1 t)
      = (m (((0 : Dev nD).tc : Thread nD τ).loc main_arg2) : S1000000.Idx → BitVec 32)
          (ValueIdx.ix1 ⟨62500 * 1 + t.val, by omega⟩) := by
  show (Ve1 m (0 : Dev nD) main_v7 : S62500.Idx → BitVec 32) (ValueIdx.ix1 t) = _
  exact (congrFun (tbl1_dst m (outsL m) (0 : Dev nD)) (ValueIdx.ix1 t)).trans (slice_at 62500 _ _ (by omega) t)

variable [Cert.Pre_finite_inputs.Facts]

/-- Under the precondition every word of region 1's first table is a row number below 100000. -/
theorem tbl1_src_lt (hpre : PreArgs m) (t : Fin 62500) :
    ((tbl1 m 0 : S62500.Idx → BitVec 32) (ValueIdx.ix1 t)).toNat < 100000 := by
  rw [tbl1_src_at m t]
  exact Cert.IdxRange.src_toNat_lt _ _ _ _ _ (hpre 0) ⟨62500 * 1 + t.val, by omega⟩

/-- Under the precondition every word of region 1's second table is a row number below 100000. -/
theorem tbl1_dst_lt (hpre : PreArgs m) (t : Fin 62500) :
    ((tbl1 m 1 : S62500.Idx → BitVec 32) (ValueIdx.ix1 t)).toNat < 100000 := by
  rw [tbl1_dst_at m t]
  exact Cert.IdxRange.dst_toNat_lt _ _ _ _ _ (hpre 0) ⟨62500 * 1 + t.val, by omega⟩

/-- Under the precondition region 1's tables pass its side condition. -/
theorem ok1_tbl (hpre : PreArgs m) : ok1 (F := F) (tbl1 m) :=
  ok1_of_lt (tbl1 m) (tbl1_src_lt m hpre) (tbl1_dst_lt m hpre)

end

section

/-! ## Region 2 -/

/-- Region 2's first index map: the block index is (the first table's word at the grid coordinate, 0, 0). -/
theorem cc2_t0 (pf : pre2.Contents (Elt F)) (i : grid2.Coords) :
    cc2_transform_0 Facts₀.k2_off1_inb Facts₀.numel1_S1 pf i
      = ![((pf 0 : S62500.Idx → BitVec 32) (ValueIdx.ix1 (i 0))).toNat, 0, 0] := by
  unfold cc2_transform_0
  simp only []
  exact congrArg (fun j : S62500.Idx => (![((pf 0 : S62500.Idx → BitVec 32) j).toNat, 0, 0] : Fin 3 → Nat))
    (unit_emb (i 0) _ _)

/-- Region 2's second index map: the same with the second table. -/
theorem cc2_t1 (pf : pre2.Contents (Elt F)) (i : grid2.Coords) :
    cc2_transform_1 Facts₀.k2_off1_inb Facts₀.numel1_S1 pf i
      = ![((pf 1 : S62500.Idx → BitVec 32) (ValueIdx.ix1 (i 0))).toNat, 0, 0] := by
  unfold cc2_transform_1
  simp only []
  exact congrArg (fun j : S62500.Idx => (![((pf 1 : S62500.Idx → BitVec 32) j).toNat, 0, 0] : Fin 3 → Nat))
    (unit_emb (i 0) _ _)

/-- Region 2's side condition holds of any tables whose words are row numbers below 100000. -/
theorem ok2_of_lt (pf : pre2.Contents (Elt F))
    (h0 : ∀ t : Fin 62500, ((pf 0 : S62500.Idx → BitVec 32) (ValueIdx.ix1 t)).toNat < 100000)
    (h1 : ∀ t : Fin 62500, ((pf 1 : S62500.Idx → BitVec 32) (ValueIdx.ix1 t)).toNat < 100000) : ok2 pf := by
  refine ⟨fun i => ⟨?_, Or.inl rfl⟩, fun i => ⟨?_, Or.inl rfl⟩⟩
  · rw [cc2_t0]; exact row_block_inb _ (h0 (i 0))
  · rw [cc2_t1]; exact row_block_inb _ (h1 (i 0))

variable (m : (ℓ : Loc nD τ sig) → Buf (Elt F) ℓ)

/-- Region 2's first table at `t` is the first index input at 62500·2 + t. -/
theorem tbl2_src_at (t : Fin 62500) :
    (tbl2 m 0 : S62500.Idx → BitVec 32) (ValueIdx.ix1 t)
      = (m (((0 : Dev nD).tc : Thread nD τ).loc main_arg1) : S1000000.Idx → BitVec 32)
          (ValueIdx.ix1 ⟨62500 * 2 + t.val, by omega⟩) := by
  show (Ve2 m (0 : Dev nD) main_v10 : S62500.Idx → BitVec 32) (ValueIdx.ix1 t) = _
  exact (congrFun (tbl2_src m (outsL m) (0 : Dev nD)) (ValueIdx.ix1 t)).trans (slice_at 125000 _ _ (by omega) t)

/-- Region 2's second table at `t` is the second index input at 62500·2 + t. -/
theorem tbl2_dst_at (t : Fin 62500) :
    (tbl2 m 1 : S62500.Idx → BitVec 32) (ValueIdx.ix1 t)
      = (m (((0 : Dev nD).tc : Thread nD τ).loc main_arg2) : S1000000.Idx → BitVec 32)
          (ValueIdx.ix1 ⟨62500 * 2 + t.val, by omega⟩) := by
  show (Ve2 m (0 : Dev nD) main_v11 : S62500.Idx → BitVec 32) (ValueIdx.ix1 t) = _
  exact (congrFun (tbl2_dst m (outsL m) (0 : Dev nD)) (ValueIdx.ix1 t)).trans (slice_at 125000 _ _ (by omega) t)

variable [Cert.Pre_finite_inputs.Facts]

/-- Under the precondition every word of region 2's first table is a row number below 100000. -/
theorem tbl2_src_lt (hpre : PreArgs m) (t : Fin 62500) :
    ((tbl2 m 0 : S62500.Idx → BitVec 32) (ValueIdx.ix1 t)).toNat < 100000 := by
  rw [tbl2_src_at m t]
  exact Cert.IdxRange.src_toNat_lt _ _ _ _ _ (hpre 0) ⟨62500 * 2 + t.val, by omega⟩

/-- Under the precondition every word of region 2's second table is a row number below 100000. -/
theorem tbl2_dst_lt (hpre : PreArgs m) (t : Fin 62500) :
    ((tbl2 m 1 : S62500.Idx → BitVec 32) (ValueIdx.ix1 t)).toNat < 100000 := by
  rw [tbl2_dst_at m t]
  exact Cert.IdxRange.dst_toNat_lt _ _ _ _ _ (hpre 0) ⟨62500 * 2 + t.val, by omega⟩

/-- Under the precondition region 2's tables pass its side condition. -/
theorem ok2_tbl (hpre : PreArgs m) : ok2 (F := F) (tbl2 m) :=
  ok2_of_lt (tbl2 m) (tbl2_src_lt m hpre) (tbl2_dst_lt m hpre)

end

section

/-! ## Region 3 -/

/-- Region 3's first index map: the block index is (the first table's word at the grid coordinate, 0, 0). -/
theorem cc3_t0 (pf : pre3.Contents (Elt F)) (i : grid3.Coords) :
    cc3_transform_0 Facts₀.k3_off1_inb Facts₀.numel1_S1 pf i
      = ![((pf 0 : S62500.Idx → BitVec 32) (ValueIdx.ix1 (i 0))).toNat, 0, 0] := by
  unfold cc3_transform_0
  simp only []
  exact congrArg (fun j : S62500.Idx => (![((pf 0 : S62500.Idx → BitVec 32) j).toNat, 0, 0] : Fin 3 → Nat))
    (unit_emb (i 0) _ _)

/-- Region 3's second index map: the same with the second table. -/
theorem cc3_t1 (pf : pre3.Contents (Elt F)) (i : grid3.Coords) :
    cc3_transform_1 Facts₀.k3_off1_inb Facts₀.numel1_S1 pf i
      = ![((pf 1 : S62500.Idx → BitVec 32) (ValueIdx.ix1 (i 0))).toNat, 0, 0] := by
  unfold cc3_transform_1
  simp only []
  exact congrArg (fun j : S62500.Idx => (![((pf 1 : S62500.Idx → BitVec 32) j).toNat, 0, 0] : Fin 3 → Nat))
    (unit_emb (i 0) _ _)

/-- Region 3's side condition holds of any tables whose words are row numbers below 100000. -/
theorem ok3_of_lt (pf : pre3.Contents (Elt F))
    (h0 : ∀ t : Fin 62500, ((pf 0 : S62500.Idx → BitVec 32) (ValueIdx.ix1 t)).toNat < 100000)
    (h1 : ∀ t : Fin 62500, ((pf 1 : S62500.Idx → BitVec 32) (ValueIdx.ix1 t)).toNat < 100000) : ok3 pf := by
  refine ⟨fun i => ⟨?_, Or.inl rfl⟩, fun i => ⟨?_, Or.inl rfl⟩⟩
  · rw [cc3_t0]; exact row_block_inb _ (h0 (i 0))
  · rw [cc3_t1]; exact row_block_inb _ (h1 (i 0))

variable (m : (ℓ : Loc nD τ sig) → Buf (Elt F) ℓ)

/-- Region 3's first table at `t` is the first index input at 62500·3 + t. -/
theorem tbl3_src_at (t : Fin 62500) :
    (tbl3 m 0 : S62500.Idx → BitVec 32) (ValueIdx.ix1 t)
      = (m (((0 : Dev nD).tc : Thread nD τ).loc main_arg1) : S1000000.Idx → BitVec 32)
          (ValueIdx.ix1 ⟨62500 * 3 + t.val, by omega⟩) := by
  show (Ve3 m (0 : Dev nD) main_v14 : S62500.Idx → BitVec 32) (ValueIdx.ix1 t) = _
  exact (congrFun (tbl3_src m (outsL m) (0 : Dev nD)) (ValueIdx.ix1 t)).trans (slice_at 187500 _ _ (by omega) t)

/-- Region 3's second table at `t` is the second index input at 62500·3 + t. -/
theorem tbl3_dst_at (t : Fin 62500) :
    (tbl3 m 1 : S62500.Idx → BitVec 32) (ValueIdx.ix1 t)
      = (m (((0 : Dev nD).tc : Thread nD τ).loc main_arg2) : S1000000.Idx → BitVec 32)
          (ValueIdx.ix1 ⟨62500 * 3 + t.val, by omega⟩) := by
  show (Ve3 m (0 : Dev nD) main_v15 : S62500.Idx → BitVec 32) (ValueIdx.ix1 t) = _
  exact (congrFun (tbl3_dst m (outsL m) (0 : Dev nD)) (ValueIdx.ix1 t)).trans (slice_at 187500 _ _ (by omega) t)

variable [Cert.Pre_finite_inputs.Facts]

/-- Under the precondition every word of region 3's first table is a row number below 100000. -/
theorem tbl3_src_lt (hpre : PreArgs m) (t : Fin 62500) :
    ((tbl3 m 0 : S62500.Idx → BitVec 32) (ValueIdx.ix1 t)).toNat < 100000 := by
  rw [tbl3_src_at m t]
  exact Cert.IdxRange.src_toNat_lt _ _ _ _ _ (hpre 0) ⟨62500 * 3 + t.val, by omega⟩

/-- Under the precondition every word of region 3's second table is a row number below 100000. -/
theorem tbl3_dst_lt (hpre : PreArgs m) (t : Fin 62500) :
    ((tbl3 m 1 : S62500.Idx → BitVec 32) (ValueIdx.ix1 t)).toNat < 100000 := by
  rw [tbl3_dst_at m t]
  exact Cert.IdxRange.dst_toNat_lt _ _ _ _ _ (hpre 0) ⟨62500 * 3 + t.val, by omega⟩

/-- Under the precondition region 3's tables pass its side condition. -/
theorem ok3_tbl (hpre : PreArgs m) : ok3 (F := F) (tbl3 m) :=
  ok3_of_lt (tbl3 m) (tbl3_src_lt m hpre) (tbl3_dst_lt m hpre)

end

section

/-! ## Region 4 -/

/-- Region 4's first index map: the block index is (the first table's word at the grid coordinate, 0, 0). -/
theorem cc4_t0 (pf : pre4.Contents (Elt F)) (i : grid4.Coords) :
    cc4_transform_0 Facts₀.k4_off1_inb Facts₀.numel1_S1 pf i
      = ![((pf 0 : S62500.Idx → BitVec 32) (ValueIdx.ix1 (i 0))).toNat, 0, 0] := by
  unfold cc4_transform_0
  simp only []
  exact congrArg (fun j : S62500.Idx => (![((pf 0 : S62500.Idx → BitVec 32) j).toNat, 0, 0] : Fin 3 → Nat))
    (unit_emb (i 0) _ _)

/-- Region 4's second index map: the same with the second table. -/
theorem cc4_t1 (pf : pre4.Contents (Elt F)) (i : grid4.Coords) :
    cc4_transform_1 Facts₀.k4_off1_inb Facts₀.numel1_S1 pf i
      = ![((pf 1 : S62500.Idx → BitVec 32) (ValueIdx.ix1 (i 0))).toNat, 0, 0] := by
  unfold cc4_transform_1
  simp only []
  exact congrArg (fun j : S62500.Idx => (![((pf 1 : S62500.Idx → BitVec 32) j).toNat, 0, 0] : Fin 3 → Nat))
    (unit_emb (i 0) _ _)

/-- Region 4's side condition holds of any tables whose words are row numbers below 100000. -/
theorem ok4_of_lt (pf : pre4.Contents (Elt F))
    (h0 : ∀ t : Fin 62500, ((pf 0 : S62500.Idx → BitVec 32) (ValueIdx.ix1 t)).toNat < 100000)
    (h1 : ∀ t : Fin 62500, ((pf 1 : S62500.Idx → BitVec 32) (ValueIdx.ix1 t)).toNat < 100000) : ok4 pf := by
  refine ⟨fun i => ⟨?_, Or.inl rfl⟩, fun i => ⟨?_, Or.inl rfl⟩⟩
  · rw [cc4_t0]; exact row_block_inb _ (h0 (i 0))
  · rw [cc4_t1]; exact row_block_inb _ (h1 (i 0))

variable (m : (ℓ : Loc nD τ sig) → Buf (Elt F) ℓ)

/-- Region 4's first table at `t` is the first index input at 62500·4 + t. -/
theorem tbl4_src_at (t : Fin 62500) :
    (tbl4 m 0 : S62500.Idx → BitVec 32) (ValueIdx.ix1 t)
      = (m (((0 : Dev nD).tc : Thread nD τ).loc main_arg1) : S1000000.Idx → BitVec 32)
          (ValueIdx.ix1 ⟨62500 * 4 + t.val, by omega⟩) := by
  show (Ve4 m (0 : Dev nD) main_v18 : S62500.Idx → BitVec 32) (ValueIdx.ix1 t) = _
  exact (congrFun (tbl4_src m (outsL m) (0 : Dev nD)) (ValueIdx.ix1 t)).trans (slice_at 250000 _ _ (by omega) t)

/-- Region 4's second table at `t` is the second index input at 62500·4 + t. -/
theorem tbl4_dst_at (t : Fin 62500) :
    (tbl4 m 1 : S62500.Idx → BitVec 32) (ValueIdx.ix1 t)
      = (m (((0 : Dev nD).tc : Thread nD τ).loc main_arg2) : S1000000.Idx → BitVec 32)
          (ValueIdx.ix1 ⟨62500 * 4 + t.val, by omega⟩) := by
  show (Ve4 m (0 : Dev nD) main_v19 : S62500.Idx → BitVec 32) (ValueIdx.ix1 t) = _
  exact (congrFun (tbl4_dst m (outsL m) (0 : Dev nD)) (ValueIdx.ix1 t)).trans (slice_at 250000 _ _ (by omega) t)

variable [Cert.Pre_finite_inputs.Facts]

/-- Under the precondition every word of region 4's first table is a row number below 100000. -/
theorem tbl4_src_lt (hpre : PreArgs m) (t : Fin 62500) :
    ((tbl4 m 0 : S62500.Idx → BitVec 32) (ValueIdx.ix1 t)).toNat < 100000 := by
  rw [tbl4_src_at m t]
  exact Cert.IdxRange.src_toNat_lt _ _ _ _ _ (hpre 0) ⟨62500 * 4 + t.val, by omega⟩

/-- Under the precondition every word of region 4's second table is a row number below 100000. -/
theorem tbl4_dst_lt (hpre : PreArgs m) (t : Fin 62500) :
    ((tbl4 m 1 : S62500.Idx → BitVec 32) (ValueIdx.ix1 t)).toNat < 100000 := by
  rw [tbl4_dst_at m t]
  exact Cert.IdxRange.dst_toNat_lt _ _ _ _ _ (hpre 0) ⟨62500 * 4 + t.val, by omega⟩

/-- Under the precondition region 4's tables pass its side condition. -/
theorem ok4_tbl (hpre : PreArgs m) : ok4 (F := F) (tbl4 m) :=
  ok4_of_lt (tbl4 m) (tbl4_src_lt m hpre) (tbl4_dst_lt m hpre)

end

section

/-! ## Region 5 -/

/-- Region 5's first index map: the block index is (the first table's word at the grid coordinate, 0, 0). -/
theorem cc5_t0 (pf : pre5.Contents (Elt F)) (i : grid5.Coords) :
    cc5_transform_0 Facts₀.k5_off1_inb Facts₀.numel1_S1 pf i
      = ![((pf 0 : S62500.Idx → BitVec 32) (ValueIdx.ix1 (i 0))).toNat, 0, 0] := by
  unfold cc5_transform_0
  simp only []
  exact congrArg (fun j : S62500.Idx => (![((pf 0 : S62500.Idx → BitVec 32) j).toNat, 0, 0] : Fin 3 → Nat))
    (unit_emb (i 0) _ _)

/-- Region 5's second index map: the same with the second table. -/
theorem cc5_t1 (pf : pre5.Contents (Elt F)) (i : grid5.Coords) :
    cc5_transform_1 Facts₀.k5_off1_inb Facts₀.numel1_S1 pf i
      = ![((pf 1 : S62500.Idx → BitVec 32) (ValueIdx.ix1 (i 0))).toNat, 0, 0] := by
  unfold cc5_transform_1
  simp only []
  exact congrArg (fun j : S62500.Idx => (![((pf 1 : S62500.Idx → BitVec 32) j).toNat, 0, 0] : Fin 3 → Nat))
    (unit_emb (i 0) _ _)

/-- Region 5's side condition holds of any tables whose words are row numbers below 100000. -/
theorem ok5_of_lt (pf : pre5.Contents (Elt F))
    (h0 : ∀ t : Fin 62500, ((pf 0 : S62500.Idx → BitVec 32) (ValueIdx.ix1 t)).toNat < 100000)
    (h1 : ∀ t : Fin 62500, ((pf 1 : S62500.Idx → BitVec 32) (ValueIdx.ix1 t)).toNat < 100000) : ok5 pf := by
  refine ⟨fun i => ⟨?_, Or.inl rfl⟩, fun i => ⟨?_, Or.inl rfl⟩⟩
  · rw [cc5_t0]; exact row_block_inb _ (h0 (i 0))
  · rw [cc5_t1]; exact row_block_inb _ (h1 (i 0))

variable (m : (ℓ : Loc nD τ sig) → Buf (Elt F) ℓ)

/-- Region 5's first table at `t` is the first index input at 62500·5 + t. -/
theorem tbl5_src_at (t : Fin 62500) :
    (tbl5 m 0 : S62500.Idx → BitVec 32) (ValueIdx.ix1 t)
      = (m (((0 : Dev nD).tc : Thread nD τ).loc main_arg1) : S1000000.Idx → BitVec 32)
          (ValueIdx.ix1 ⟨62500 * 5 + t.val, by omega⟩) := by
  show (Ve5 m (0 : Dev nD) main_v22 : S62500.Idx → BitVec 32) (ValueIdx.ix1 t) = _
  exact (congrFun (tbl5_src m (outsL m) (0 : Dev nD)) (ValueIdx.ix1 t)).trans (slice_at 312500 _ _ (by omega) t)

/-- Region 5's second table at `t` is the second index input at 62500·5 + t. -/
theorem tbl5_dst_at (t : Fin 62500) :
    (tbl5 m 1 : S62500.Idx → BitVec 32) (ValueIdx.ix1 t)
      = (m (((0 : Dev nD).tc : Thread nD τ).loc main_arg2) : S1000000.Idx → BitVec 32)
          (ValueIdx.ix1 ⟨62500 * 5 + t.val, by omega⟩) := by
  show (Ve5 m (0 : Dev nD) main_v23 : S62500.Idx → BitVec 32) (ValueIdx.ix1 t) = _
  exact (congrFun (tbl5_dst m (outsL m) (0 : Dev nD)) (ValueIdx.ix1 t)).trans (slice_at 312500 _ _ (by omega) t)

variable [Cert.Pre_finite_inputs.Facts]

/-- Under the precondition every word of region 5's first table is a row number below 100000. -/
theorem tbl5_src_lt (hpre : PreArgs m) (t : Fin 62500) :
    ((tbl5 m 0 : S62500.Idx → BitVec 32) (ValueIdx.ix1 t)).toNat < 100000 := by
  rw [tbl5_src_at m t]
  exact Cert.IdxRange.src_toNat_lt _ _ _ _ _ (hpre 0) ⟨62500 * 5 + t.val, by omega⟩

/-- Under the precondition every word of region 5's second table is a row number below 100000. -/
theorem tbl5_dst_lt (hpre : PreArgs m) (t : Fin 62500) :
    ((tbl5 m 1 : S62500.Idx → BitVec 32) (ValueIdx.ix1 t)).toNat < 100000 := by
  rw [tbl5_dst_at m t]
  exact Cert.IdxRange.dst_toNat_lt _ _ _ _ _ (hpre 0) ⟨62500 * 5 + t.val, by omega⟩

/-- Under the precondition region 5's tables pass its side condition. -/
theorem ok5_tbl (hpre : PreArgs m) : ok5 (F := F) (tbl5 m) :=
  ok5_of_lt (tbl5 m) (tbl5_src_lt m hpre) (tbl5_dst_lt m hpre)

end

section

/-! ## Region 6 -/

/-- Region 6's first index map: the block index is (the first table's word at the grid coordinate, 0, 0). -/
theorem cc6_t0 (pf : pre6.Contents (Elt F)) (i : grid6.Coords) :
    cc6_transform_0 Facts₀.k6_off1_inb Facts₀.numel1_S1 pf i
      = ![((pf 0 : S62500.Idx → BitVec 32) (ValueIdx.ix1 (i 0))).toNat, 0, 0] := by
  unfold cc6_transform_0
  simp only []
  exact congrArg (fun j : S62500.Idx => (![((pf 0 : S62500.Idx → BitVec 32) j).toNat, 0, 0] : Fin 3 → Nat))
    (unit_emb (i 0) _ _)

/-- Region 6's second index map: the same with the second table. -/
theorem cc6_t1 (pf : pre6.Contents (Elt F)) (i : grid6.Coords) :
    cc6_transform_1 Facts₀.k6_off1_inb Facts₀.numel1_S1 pf i
      = ![((pf 1 : S62500.Idx → BitVec 32) (ValueIdx.ix1 (i 0))).toNat, 0, 0] := by
  unfold cc6_transform_1
  simp only []
  exact congrArg (fun j : S62500.Idx => (![((pf 1 : S62500.Idx → BitVec 32) j).toNat, 0, 0] : Fin 3 → Nat))
    (unit_emb (i 0) _ _)

/-- Region 6's side condition holds of any tables whose words are row numbers below 100000. -/
theorem ok6_of_lt (pf : pre6.Contents (Elt F))
    (h0 : ∀ t : Fin 62500, ((pf 0 : S62500.Idx → BitVec 32) (ValueIdx.ix1 t)).toNat < 100000)
    (h1 : ∀ t : Fin 62500, ((pf 1 : S62500.Idx → BitVec 32) (ValueIdx.ix1 t)).toNat < 100000) : ok6 pf := by
  refine ⟨fun i => ⟨?_, Or.inl rfl⟩, fun i => ⟨?_, Or.inl rfl⟩⟩
  · rw [cc6_t0]; exact row_block_inb _ (h0 (i 0))
  · rw [cc6_t1]; exact row_block_inb _ (h1 (i 0))

variable (m : (ℓ : Loc nD τ sig) → Buf (Elt F) ℓ)

/-- Region 6's first table at `t` is the first index input at 62500·6 + t. -/
theorem tbl6_src_at (t : Fin 62500) :
    (tbl6 m 0 : S62500.Idx → BitVec 32) (ValueIdx.ix1 t)
      = (m (((0 : Dev nD).tc : Thread nD τ).loc main_arg1) : S1000000.Idx → BitVec 32)
          (ValueIdx.ix1 ⟨62500 * 6 + t.val, by omega⟩) := by
  show (Ve6 m (0 : Dev nD) main_v26 : S62500.Idx → BitVec 32) (ValueIdx.ix1 t) = _
  exact (congrFun (tbl6_src m (outsL m) (0 : Dev nD)) (ValueIdx.ix1 t)).trans (slice_at 375000 _ _ (by omega) t)

/-- Region 6's second table at `t` is the second index input at 62500·6 + t. -/
theorem tbl6_dst_at (t : Fin 62500) :
    (tbl6 m 1 : S62500.Idx → BitVec 32) (ValueIdx.ix1 t)
      = (m (((0 : Dev nD).tc : Thread nD τ).loc main_arg2) : S1000000.Idx → BitVec 32)
          (ValueIdx.ix1 ⟨62500 * 6 + t.val, by omega⟩) := by
  show (Ve6 m (0 : Dev nD) main_v27 : S62500.Idx → BitVec 32) (ValueIdx.ix1 t) = _
  exact (congrFun (tbl6_dst m (outsL m) (0 : Dev nD)) (ValueIdx.ix1 t)).trans (slice_at 375000 _ _ (by omega) t)

variable [Cert.Pre_finite_inputs.Facts]

/-- Under the precondition every word of region 6's first table is a row number below 100000. -/
theorem tbl6_src_lt (hpre : PreArgs m) (t : Fin 62500) :
    ((tbl6 m 0 : S62500.Idx → BitVec 32) (ValueIdx.ix1 t)).toNat < 100000 := by
  rw [tbl6_src_at m t]
  exact Cert.IdxRange.src_toNat_lt _ _ _ _ _ (hpre 0) ⟨62500 * 6 + t.val, by omega⟩

/-- Under the precondition every word of region 6's second table is a row number below 100000. -/
theorem tbl6_dst_lt (hpre : PreArgs m) (t : Fin 62500) :
    ((tbl6 m 1 : S62500.Idx → BitVec 32) (ValueIdx.ix1 t)).toNat < 100000 := by
  rw [tbl6_dst_at m t]
  exact Cert.IdxRange.dst_toNat_lt _ _ _ _ _ (hpre 0) ⟨62500 * 6 + t.val, by omega⟩

/-- Under the precondition region 6's tables pass its side condition. -/
theorem ok6_tbl (hpre : PreArgs m) : ok6 (F := F) (tbl6 m) :=
  ok6_of_lt (tbl6 m) (tbl6_src_lt m hpre) (tbl6_dst_lt m hpre)

end

section

/-! ## Region 7 -/

/-- Region 7's first index map: the block index is (the first table's word at the grid coordinate, 0, 0). -/
theorem cc7_t0 (pf : pre7.Contents (Elt F)) (i : grid7.Coords) :
    cc7_transform_0 Facts₀.k7_off1_inb Facts₀.numel1_S1 pf i
      = ![((pf 0 : S62500.Idx → BitVec 32) (ValueIdx.ix1 (i 0))).toNat, 0, 0] := by
  unfold cc7_transform_0
  simp only []
  exact congrArg (fun j : S62500.Idx => (![((pf 0 : S62500.Idx → BitVec 32) j).toNat, 0, 0] : Fin 3 → Nat))
    (unit_emb (i 0) _ _)

/-- Region 7's second index map: the same with the second table. -/
theorem cc7_t1 (pf : pre7.Contents (Elt F)) (i : grid7.Coords) :
    cc7_transform_1 Facts₀.k7_off1_inb Facts₀.numel1_S1 pf i
      = ![((pf 1 : S62500.Idx → BitVec 32) (ValueIdx.ix1 (i 0))).toNat, 0, 0] := by
  unfold cc7_transform_1
  simp only []
  exact congrArg (fun j : S62500.Idx => (![((pf 1 : S62500.Idx → BitVec 32) j).toNat, 0, 0] : Fin 3 → Nat))
    (unit_emb (i 0) _ _)

/-- Region 7's side condition holds of any tables whose words are row numbers below 100000. -/
theorem ok7_of_lt (pf : pre7.Contents (Elt F))
    (h0 : ∀ t : Fin 62500, ((pf 0 : S62500.Idx → BitVec 32) (ValueIdx.ix1 t)).toNat < 100000)
    (h1 : ∀ t : Fin 62500, ((pf 1 : S62500.Idx → BitVec 32) (ValueIdx.ix1 t)).toNat < 100000) : ok7 pf := by
  refine ⟨fun i => ⟨?_, Or.inl rfl⟩, fun i => ⟨?_, Or.inl rfl⟩⟩
  · rw [cc7_t0]; exact row_block_inb _ (h0 (i 0))
  · rw [cc7_t1]; exact row_block_inb _ (h1 (i 0))

variable (m : (ℓ : Loc nD τ sig) → Buf (Elt F) ℓ)

/-- Region 7's first table at `t` is the first index input at 62500·7 + t. -/
theorem tbl7_src_at (t : Fin 62500) :
    (tbl7 m 0 : S62500.Idx → BitVec 32) (ValueIdx.ix1 t)
      = (m (((0 : Dev nD).tc : Thread nD τ).loc main_arg1) : S1000000.Idx → BitVec 32)
          (ValueIdx.ix1 ⟨62500 * 7 + t.val, by omega⟩) := by
  show (Ve7 m (0 : Dev nD) main_v30 : S62500.Idx → BitVec 32) (ValueIdx.ix1 t) = _
  exact (congrFun (tbl7_src m (outsL m) (0 : Dev nD)) (ValueIdx.ix1 t)).trans (slice_at 437500 _ _ (by omega) t)

/-- Region 7's second table at `t` is the second index input at 62500·7 + t. -/
theorem tbl7_dst_at (t : Fin 62500) :
    (tbl7 m 1 : S62500.Idx → BitVec 32) (ValueIdx.ix1 t)
      = (m (((0 : Dev nD).tc : Thread nD τ).loc main_arg2) : S1000000.Idx → BitVec 32)
          (ValueIdx.ix1 ⟨62500 * 7 + t.val, by omega⟩) := by
  show (Ve7 m (0 : Dev nD) main_v31 : S62500.Idx → BitVec 32) (ValueIdx.ix1 t) = _
  exact (congrFun (tbl7_dst m (outsL m) (0 : Dev nD)) (ValueIdx.ix1 t)).trans (slice_at 437500 _ _ (by omega) t)

variable [Cert.Pre_finite_inputs.Facts]

/-- Under the precondition every word of region 7's first table is a row number below 100000. -/
theorem tbl7_src_lt (hpre : PreArgs m) (t : Fin 62500) :
    ((tbl7 m 0 : S62500.Idx → BitVec 32) (ValueIdx.ix1 t)).toNat < 100000 := by
  rw [tbl7_src_at m t]
  exact Cert.IdxRange.src_toNat_lt _ _ _ _ _ (hpre 0) ⟨62500 * 7 + t.val, by omega⟩

/-- Under the precondition every word of region 7's second table is a row number below 100000. -/
theorem tbl7_dst_lt (hpre : PreArgs m) (t : Fin 62500) :
    ((tbl7 m 1 : S62500.Idx → BitVec 32) (ValueIdx.ix1 t)).toNat < 100000 := by
  rw [tbl7_dst_at m t]
  exact Cert.IdxRange.dst_toNat_lt _ _ _ _ _ (hpre 0) ⟨62500 * 7 + t.val, by omega⟩

/-- Under the precondition region 7's tables pass its side condition. -/
theorem ok7_tbl (hpre : PreArgs m) : ok7 (F := F) (tbl7 m) :=
  ok7_of_lt (tbl7 m) (tbl7_src_lt m hpre) (tbl7_dst_lt m hpre)

end

section

/-! ## Region 8 -/

/-- Region 8's first index map: the block index is (the first table's word at the grid coordinate, 0, 0). -/
theorem cc8_t0 (pf : pre8.Contents (Elt F)) (i : grid8.Coords) :
    cc8_transform_0 Facts₀.k8_off1_inb Facts₀.numel1_S1 pf i
      = ![((pf 0 : S62500.Idx → BitVec 32) (ValueIdx.ix1 (i 0))).toNat, 0, 0] := by
  unfold cc8_transform_0
  simp only []
  exact congrArg (fun j : S62500.Idx => (![((pf 0 : S62500.Idx → BitVec 32) j).toNat, 0, 0] : Fin 3 → Nat))
    (unit_emb (i 0) _ _)

/-- Region 8's second index map: the same with the second table. -/
theorem cc8_t1 (pf : pre8.Contents (Elt F)) (i : grid8.Coords) :
    cc8_transform_1 Facts₀.k8_off1_inb Facts₀.numel1_S1 pf i
      = ![((pf 1 : S62500.Idx → BitVec 32) (ValueIdx.ix1 (i 0))).toNat, 0, 0] := by
  unfold cc8_transform_1
  simp only []
  exact congrArg (fun j : S62500.Idx => (![((pf 1 : S62500.Idx → BitVec 32) j).toNat, 0, 0] : Fin 3 → Nat))
    (unit_emb (i 0) _ _)

/-- Region 8's side condition holds of any tables whose words are row numbers below 100000. -/
theorem ok8_of_lt (pf : pre8.Contents (Elt F))
    (h0 : ∀ t : Fin 62500, ((pf 0 : S62500.Idx → BitVec 32) (ValueIdx.ix1 t)).toNat < 100000)
    (h1 : ∀ t : Fin 62500, ((pf 1 : S62500.Idx → BitVec 32) (ValueIdx.ix1 t)).toNat < 100000) : ok8 pf := by
  refine ⟨fun i => ⟨?_, Or.inl rfl⟩, fun i => ⟨?_, Or.inl rfl⟩⟩
  · rw [cc8_t0]; exact row_block_inb _ (h0 (i 0))
  · rw [cc8_t1]; exact row_block_inb _ (h1 (i 0))

variable (m : (ℓ : Loc nD τ sig) → Buf (Elt F) ℓ)

/-- Region 8's first table at `t` is the first index input at 62500·8 + t. -/
theorem tbl8_src_at (t : Fin 62500) :
    (tbl8 m 0 : S62500.Idx → BitVec 32) (ValueIdx.ix1 t)
      = (m (((0 : Dev nD).tc : Thread nD τ).loc main_arg1) : S1000000.Idx → BitVec 32)
          (ValueIdx.ix1 ⟨62500 * 8 + t.val, by omega⟩) := by
  show (Ve8 m (0 : Dev nD) main_v34 : S62500.Idx → BitVec 32) (ValueIdx.ix1 t) = _
  exact (congrFun (tbl8_src m (outsL m) (0 : Dev nD)) (ValueIdx.ix1 t)).trans (slice_at 500000 _ _ (by omega) t)

/-- Region 8's second table at `t` is the second index input at 62500·8 + t. -/
theorem tbl8_dst_at (t : Fin 62500) :
    (tbl8 m 1 : S62500.Idx → BitVec 32) (ValueIdx.ix1 t)
      = (m (((0 : Dev nD).tc : Thread nD τ).loc main_arg2) : S1000000.Idx → BitVec 32)
          (ValueIdx.ix1 ⟨62500 * 8 + t.val, by omega⟩) := by
  show (Ve8 m (0 : Dev nD) main_v35 : S62500.Idx → BitVec 32) (ValueIdx.ix1 t) = _
  exact (congrFun (tbl8_dst m (outsL m) (0 : Dev nD)) (ValueIdx.ix1 t)).trans (slice_at 500000 _ _ (by omega) t)

variable [Cert.Pre_finite_inputs.Facts]

/-- Under the precondition every word of region 8's first table is a row number below 100000. -/
theorem tbl8_src_lt (hpre : PreArgs m) (t : Fin 62500) :
    ((tbl8 m 0 : S62500.Idx → BitVec 32) (ValueIdx.ix1 t)).toNat < 100000 := by
  rw [tbl8_src_at m t]
  exact Cert.IdxRange.src_toNat_lt _ _ _ _ _ (hpre 0) ⟨62500 * 8 + t.val, by omega⟩

/-- Under the precondition every word of region 8's second table is a row number below 100000. -/
theorem tbl8_dst_lt (hpre : PreArgs m) (t : Fin 62500) :
    ((tbl8 m 1 : S62500.Idx → BitVec 32) (ValueIdx.ix1 t)).toNat < 100000 := by
  rw [tbl8_dst_at m t]
  exact Cert.IdxRange.dst_toNat_lt _ _ _ _ _ (hpre 0) ⟨62500 * 8 + t.val, by omega⟩

/-- Under the precondition region 8's tables pass its side condition. -/
theorem ok8_tbl (hpre : PreArgs m) : ok8 (F := F) (tbl8 m) :=
  ok8_of_lt (tbl8 m) (tbl8_src_lt m hpre) (tbl8_dst_lt m hpre)

end

section

/-! ## Region 9 -/

/-- Region 9's first index map: the block index is (the first table's word at the grid coordinate, 0, 0). -/
theorem cc9_t0 (pf : pre9.Contents (Elt F)) (i : grid9.Coords) :
    cc9_transform_0 Facts₀.k9_off1_inb Facts₀.numel1_S1 pf i
      = ![((pf 0 : S62500.Idx → BitVec 32) (ValueIdx.ix1 (i 0))).toNat, 0, 0] := by
  unfold cc9_transform_0
  simp only []
  exact congrArg (fun j : S62500.Idx => (![((pf 0 : S62500.Idx → BitVec 32) j).toNat, 0, 0] : Fin 3 → Nat))
    (unit_emb (i 0) _ _)

/-- Region 9's second index map: the same with the second table. -/
theorem cc9_t1 (pf : pre9.Contents (Elt F)) (i : grid9.Coords) :
    cc9_transform_1 Facts₀.k9_off1_inb Facts₀.numel1_S1 pf i
      = ![((pf 1 : S62500.Idx → BitVec 32) (ValueIdx.ix1 (i 0))).toNat, 0, 0] := by
  unfold cc9_transform_1
  simp only []
  exact congrArg (fun j : S62500.Idx => (![((pf 1 : S62500.Idx → BitVec 32) j).toNat, 0, 0] : Fin 3 → Nat))
    (unit_emb (i 0) _ _)

/-- Region 9's side condition holds of any tables whose words are row numbers below 100000. -/
theorem ok9_of_lt (pf : pre9.Contents (Elt F))
    (h0 : ∀ t : Fin 62500, ((pf 0 : S62500.Idx → BitVec 32) (ValueIdx.ix1 t)).toNat < 100000)
    (h1 : ∀ t : Fin 62500, ((pf 1 : S62500.Idx → BitVec 32) (ValueIdx.ix1 t)).toNat < 100000) : ok9 pf := by
  refine ⟨fun i => ⟨?_, Or.inl rfl⟩, fun i => ⟨?_, Or.inl rfl⟩⟩
  · rw [cc9_t0]; exact row_block_inb _ (h0 (i 0))
  · rw [cc9_t1]; exact row_block_inb _ (h1 (i 0))

variable (m : (ℓ : Loc nD τ sig) → Buf (Elt F) ℓ)

/-- Region 9's first table at `t` is the first index input at 62500·9 + t. -/
theorem tbl9_src_at (t : Fin 62500) :
    (tbl9 m 0 : S62500.Idx → BitVec 32) (ValueIdx.ix1 t)
      = (m (((0 : Dev nD).tc : Thread nD τ).loc main_arg1) : S1000000.Idx → BitVec 32)
          (ValueIdx.ix1 ⟨62500 * 9 + t.val, by omega⟩) := by
  show (Ve9 m (0 : Dev nD) main_v38 : S62500.Idx → BitVec 32) (ValueIdx.ix1 t) = _
  exact (congrFun (tbl9_src m (outsL m) (0 : Dev nD)) (ValueIdx.ix1 t)).trans (slice_at 562500 _ _ (by omega) t)

/-- Region 9's second table at `t` is the second index input at 62500·9 + t. -/
theorem tbl9_dst_at (t : Fin 62500) :
    (tbl9 m 1 : S62500.Idx → BitVec 32) (ValueIdx.ix1 t)
      = (m (((0 : Dev nD).tc : Thread nD τ).loc main_arg2) : S1000000.Idx → BitVec 32)
          (ValueIdx.ix1 ⟨62500 * 9 + t.val, by omega⟩) := by
  show (Ve9 m (0 : Dev nD) main_v39 : S62500.Idx → BitVec 32) (ValueIdx.ix1 t) = _
  exact (congrFun (tbl9_dst m (outsL m) (0 : Dev nD)) (ValueIdx.ix1 t)).trans (slice_at 562500 _ _ (by omega) t)

variable [Cert.Pre_finite_inputs.Facts]

/-- Under the precondition every word of region 9's first table is a row number below 100000. -/
theorem tbl9_src_lt (hpre : PreArgs m) (t : Fin 62500) :
    ((tbl9 m 0 : S62500.Idx → BitVec 32) (ValueIdx.ix1 t)).toNat < 100000 := by
  rw [tbl9_src_at m t]
  exact Cert.IdxRange.src_toNat_lt _ _ _ _ _ (hpre 0) ⟨62500 * 9 + t.val, by omega⟩

/-- Under the precondition every word of region 9's second table is a row number below 100000. -/
theorem tbl9_dst_lt (hpre : PreArgs m) (t : Fin 62500) :
    ((tbl9 m 1 : S62500.Idx → BitVec 32) (ValueIdx.ix1 t)).toNat < 100000 := by
  rw [tbl9_dst_at m t]
  exact Cert.IdxRange.dst_toNat_lt _ _ _ _ _ (hpre 0) ⟨62500 * 9 + t.val, by omega⟩

/-- Under the precondition region 9's tables pass its side condition. -/
theorem ok9_tbl (hpre : PreArgs m) : ok9 (F := F) (tbl9 m) :=
  ok9_of_lt (tbl9 m) (tbl9_src_lt m hpre) (tbl9_dst_lt m hpre)

end

section

/-! ## Region 10 -/

/-- Region 10's first index map: the block index is (the first table's word at the grid coordinate, 0, 0). -/
theorem cc10_t0 (pf : pre10.Contents (Elt F)) (i : grid10.Coords) :
    cc10_transform_0 Facts₀.k10_off1_inb Facts₀.numel1_S1 pf i
      = ![((pf 0 : S62500.Idx → BitVec 32) (ValueIdx.ix1 (i 0))).toNat, 0, 0] := by
  unfold cc10_transform_0
  simp only []
  exact congrArg (fun j : S62500.Idx => (![((pf 0 : S62500.Idx → BitVec 32) j).toNat, 0, 0] : Fin 3 → Nat))
    (unit_emb (i 0) _ _)

/-- Region 10's second index map: the same with the second table. -/
theorem cc10_t1 (pf : pre10.Contents (Elt F)) (i : grid10.Coords) :
    cc10_transform_1 Facts₀.k10_off1_inb Facts₀.numel1_S1 pf i
      = ![((pf 1 : S62500.Idx → BitVec 32) (ValueIdx.ix1 (i 0))).toNat, 0, 0] := by
  unfold cc10_transform_1
  simp only []
  exact congrArg (fun j : S62500.Idx => (![((pf 1 : S62500.Idx → BitVec 32) j).toNat, 0, 0] : Fin 3 → Nat))
    (unit_emb (i 0) _ _)

/-- Region 10's side condition holds of any tables whose words are row numbers below 100000. -/
theorem ok10_of_lt (pf : pre10.Contents (Elt F))
    (h0 : ∀ t : Fin 62500, ((pf 0 : S62500.Idx → BitVec 32) (ValueIdx.ix1 t)).toNat < 100000)
    (h1 : ∀ t : Fin 62500, ((pf 1 : S62500.Idx → BitVec 32) (ValueIdx.ix1 t)).toNat < 100000) : ok10 pf := by
  refine ⟨fun i => ⟨?_, Or.inl rfl⟩, fun i => ⟨?_, Or.inl rfl⟩⟩
  · rw [cc10_t0]; exact row_block_inb _ (h0 (i 0))
  · rw [cc10_t1]; exact row_block_inb _ (h1 (i 0))

variable (m : (ℓ : Loc nD τ sig) → Buf (Elt F) ℓ)

/-- Region 10's first table at `t` is the first index input at 62500·10 + t. -/
theorem tbl10_src_at (t : Fin 62500) :
    (tbl10 m 0 : S62500.Idx → BitVec 32) (ValueIdx.ix1 t)
      = (m (((0 : Dev nD).tc : Thread nD τ).loc main_arg1) : S1000000.Idx → BitVec 32)
          (ValueIdx.ix1 ⟨62500 * 10 + t.val, by omega⟩) := by
  show (Ve10 m (0 : Dev nD) main_v42 : S62500.Idx → BitVec 32) (ValueIdx.ix1 t) = _
  exact (congrFun (tbl10_src m (outsL m) (0 : Dev nD)) (ValueIdx.ix1 t)).trans (slice_at 625000 _ _ (by omega) t)

/-- Region 10's second table at `t` is the second index input at 62500·10 + t. -/
theorem tbl10_dst_at (t : Fin 62500) :
    (tbl10 m 1 : S62500.Idx → BitVec 32) (ValueIdx.ix1 t)
      = (m (((0 : Dev nD).tc : Thread nD τ).loc main_arg2) : S1000000.Idx → BitVec 32)
          (ValueIdx.ix1 ⟨62500 * 10 + t.val, by omega⟩) := by
  show (Ve10 m (0 : Dev nD) main_v43 : S62500.Idx → BitVec 32) (ValueIdx.ix1 t) = _
  exact (congrFun (tbl10_dst m (outsL m) (0 : Dev nD)) (ValueIdx.ix1 t)).trans (slice_at 625000 _ _ (by omega) t)

variable [Cert.Pre_finite_inputs.Facts]

/-- Under the precondition every word of region 10's first table is a row number below 100000. -/
theorem tbl10_src_lt (hpre : PreArgs m) (t : Fin 62500) :
    ((tbl10 m 0 : S62500.Idx → BitVec 32) (ValueIdx.ix1 t)).toNat < 100000 := by
  rw [tbl10_src_at m t]
  exact Cert.IdxRange.src_toNat_lt _ _ _ _ _ (hpre 0) ⟨62500 * 10 + t.val, by omega⟩

/-- Under the precondition every word of region 10's second table is a row number below 100000. -/
theorem tbl10_dst_lt (hpre : PreArgs m) (t : Fin 62500) :
    ((tbl10 m 1 : S62500.Idx → BitVec 32) (ValueIdx.ix1 t)).toNat < 100000 := by
  rw [tbl10_dst_at m t]
  exact Cert.IdxRange.dst_toNat_lt _ _ _ _ _ (hpre 0) ⟨62500 * 10 + t.val, by omega⟩

/-- Under the precondition region 10's tables pass its side condition. -/
theorem ok10_tbl (hpre : PreArgs m) : ok10 (F := F) (tbl10 m) :=
  ok10_of_lt (tbl10 m) (tbl10_src_lt m hpre) (tbl10_dst_lt m hpre)

end

section

/-! ## Region 11 -/

/-- Region 11's first index map: the block index is (the first table's word at the grid coordinate, 0, 0). -/
theorem cc11_t0 (pf : pre11.Contents (Elt F)) (i : grid11.Coords) :
    cc11_transform_0 Facts₀.k11_off1_inb Facts₀.numel1_S1 pf i
      = ![((pf 0 : S62500.Idx → BitVec 32) (ValueIdx.ix1 (i 0))).toNat, 0, 0] := by
  unfold cc11_transform_0
  simp only []
  exact congrArg (fun j : S62500.Idx => (![((pf 0 : S62500.Idx → BitVec 32) j).toNat, 0, 0] : Fin 3 → Nat))
    (unit_emb (i 0) _ _)

/-- Region 11's second index map: the same with the second table. -/
theorem cc11_t1 (pf : pre11.Contents (Elt F)) (i : grid11.Coords) :
    cc11_transform_1 Facts₀.k11_off1_inb Facts₀.numel1_S1 pf i
      = ![((pf 1 : S62500.Idx → BitVec 32) (ValueIdx.ix1 (i 0))).toNat, 0, 0] := by
  unfold cc11_transform_1
  simp only []
  exact congrArg (fun j : S62500.Idx => (![((pf 1 : S62500.Idx → BitVec 32) j).toNat, 0, 0] : Fin 3 → Nat))
    (unit_emb (i 0) _ _)

/-- Region 11's side condition holds of any tables whose words are row numbers below 100000. -/
theorem ok11_of_lt (pf : pre11.Contents (Elt F))
    (h0 : ∀ t : Fin 62500, ((pf 0 : S62500.Idx → BitVec 32) (ValueIdx.ix1 t)).toNat < 100000)
    (h1 : ∀ t : Fin 62500, ((pf 1 : S62500.Idx → BitVec 32) (ValueIdx.ix1 t)).toNat < 100000) : ok11 pf := by
  refine ⟨fun i => ⟨?_, Or.inl rfl⟩, fun i => ⟨?_, Or.inl rfl⟩⟩
  · rw [cc11_t0]; exact row_block_inb _ (h0 (i 0))
  · rw [cc11_t1]; exact row_block_inb _ (h1 (i 0))

variable (m : (ℓ : Loc nD τ sig) → Buf (Elt F) ℓ)

/-- Region 11's first table at `t` is the first index input at 62500·11 + t. -/
theorem tbl11_src_at (t : Fin 62500) :
    (tbl11 m 0 : S62500.Idx → BitVec 32) (ValueIdx.ix1 t)
      = (m (((0 : Dev nD).tc : Thread nD τ).loc main_arg1) : S1000000.Idx → BitVec 32)
          (ValueIdx.ix1 ⟨62500 * 11 + t.val, by omega⟩) := by
  show (Ve11 m (0 : Dev nD) main_v46 : S62500.Idx → BitVec 32) (ValueIdx.ix1 t) = _
  exact (congrFun (tbl11_src m (outsL m) (0 : Dev nD)) (ValueIdx.ix1 t)).trans (slice_at 687500 _ _ (by omega) t)

/-- Region 11's second table at `t` is the second index input at 62500·11 + t. -/
theorem tbl11_dst_at (t : Fin 62500) :
    (tbl11 m 1 : S62500.Idx → BitVec 32) (ValueIdx.ix1 t)
      = (m (((0 : Dev nD).tc : Thread nD τ).loc main_arg2) : S1000000.Idx → BitVec 32)
          (ValueIdx.ix1 ⟨62500 * 11 + t.val, by omega⟩) := by
  show (Ve11 m (0 : Dev nD) main_v47 : S62500.Idx → BitVec 32) (ValueIdx.ix1 t) = _
  exact (congrFun (tbl11_dst m (outsL m) (0 : Dev nD)) (ValueIdx.ix1 t)).trans (slice_at 687500 _ _ (by omega) t)

variable [Cert.Pre_finite_inputs.Facts]

/-- Under the precondition every word of region 11's first table is a row number below 100000. -/
theorem tbl11_src_lt (hpre : PreArgs m) (t : Fin 62500) :
    ((tbl11 m 0 : S62500.Idx → BitVec 32) (ValueIdx.ix1 t)).toNat < 100000 := by
  rw [tbl11_src_at m t]
  exact Cert.IdxRange.src_toNat_lt _ _ _ _ _ (hpre 0) ⟨62500 * 11 + t.val, by omega⟩

/-- Under the precondition every word of region 11's second table is a row number below 100000. -/
theorem tbl11_dst_lt (hpre : PreArgs m) (t : Fin 62500) :
    ((tbl11 m 1 : S62500.Idx → BitVec 32) (ValueIdx.ix1 t)).toNat < 100000 := by
  rw [tbl11_dst_at m t]
  exact Cert.IdxRange.dst_toNat_lt _ _ _ _ _ (hpre 0) ⟨62500 * 11 + t.val, by omega⟩

/-- Under the precondition region 11's tables pass its side condition. -/
theorem ok11_tbl (hpre : PreArgs m) : ok11 (F := F) (tbl11 m) :=
  ok11_of_lt (tbl11 m) (tbl11_src_lt m hpre) (tbl11_dst_lt m hpre)

end

section

/-! ## Region 12 -/

/-- Region 12's first index map: the block index is (the first table's word at the grid coordinate, 0, 0). -/
theorem cc12_t0 (pf : pre12.Contents (Elt F)) (i : grid12.Coords) :
    cc12_transform_0 Facts₀.k12_off1_inb Facts₀.numel1_S1 pf i
      = ![((pf 0 : S62500.Idx → BitVec 32) (ValueIdx.ix1 (i 0))).toNat, 0, 0] := by
  unfold cc12_transform_0
  simp only []
  exact congrArg (fun j : S62500.Idx => (![((pf 0 : S62500.Idx → BitVec 32) j).toNat, 0, 0] : Fin 3 → Nat))
    (unit_emb (i 0) _ _)

/-- Region 12's second index map: the same with the second table. -/
theorem cc12_t1 (pf : pre12.Contents (Elt F)) (i : grid12.Coords) :
    cc12_transform_1 Facts₀.k12_off1_inb Facts₀.numel1_S1 pf i
      = ![((pf 1 : S62500.Idx → BitVec 32) (ValueIdx.ix1 (i 0))).toNat, 0, 0] := by
  unfold cc12_transform_1
  simp only []
  exact congrArg (fun j : S62500.Idx => (![((pf 1 : S62500.Idx → BitVec 32) j).toNat, 0, 0] : Fin 3 → Nat))
    (unit_emb (i 0) _ _)

/-- Region 12's side condition holds of any tables whose words are row numbers below 100000. -/
theorem ok12_of_lt (pf : pre12.Contents (Elt F))
    (h0 : ∀ t : Fin 62500, ((pf 0 : S62500.Idx → BitVec 32) (ValueIdx.ix1 t)).toNat < 100000)
    (h1 : ∀ t : Fin 62500, ((pf 1 : S62500.Idx → BitVec 32) (ValueIdx.ix1 t)).toNat < 100000) : ok12 pf := by
  refine ⟨fun i => ⟨?_, Or.inl rfl⟩, fun i => ⟨?_, Or.inl rfl⟩⟩
  · rw [cc12_t0]; exact row_block_inb _ (h0 (i 0))
  · rw [cc12_t1]; exact row_block_inb _ (h1 (i 0))

variable (m : (ℓ : Loc nD τ sig) → Buf (Elt F) ℓ)

/-- Region 12's first table at `t` is the first index input at 62500·12 + t. -/
theorem tbl12_src_at (t : Fin 62500) :
    (tbl12 m 0 : S62500.Idx → BitVec 32) (ValueIdx.ix1 t)
      = (m (((0 : Dev nD).tc : Thread nD τ).loc main_arg1) : S1000000.Idx → BitVec 32)
          (ValueIdx.ix1 ⟨62500 * 12 + t.val, by omega⟩) := by
  show (Ve12 m (0 : Dev nD) main_v50 : S62500.Idx → BitVec 32) (ValueIdx.ix1 t) = _
  exact (congrFun (tbl12_src m (outsL m) (0 : Dev nD)) (ValueIdx.ix1 t)).trans (slice_at 750000 _ _ (by omega) t)

/-- Region 12's second table at `t` is the second index input at 62500·12 + t. -/
theorem tbl12_dst_at (t : Fin 62500) :
    (tbl12 m 1 : S62500.Idx → BitVec 32) (ValueIdx.ix1 t)
      = (m (((0 : Dev nD).tc : Thread nD τ).loc main_arg2) : S1000000.Idx → BitVec 32)
          (ValueIdx.ix1 ⟨62500 * 12 + t.val, by omega⟩) := by
  show (Ve12 m (0 : Dev nD) main_v51 : S62500.Idx → BitVec 32) (ValueIdx.ix1 t) = _
  exact (congrFun (tbl12_dst m (outsL m) (0 : Dev nD)) (ValueIdx.ix1 t)).trans (slice_at 750000 _ _ (by omega) t)

variable [Cert.Pre_finite_inputs.Facts]

/-- Under the precondition every word of region 12's first table is a row number below 100000. -/
theorem tbl12_src_lt (hpre : PreArgs m) (t : Fin 62500) :
    ((tbl12 m 0 : S62500.Idx → BitVec 32) (ValueIdx.ix1 t)).toNat < 100000 := by
  rw [tbl12_src_at m t]
  exact Cert.IdxRange.src_toNat_lt _ _ _ _ _ (hpre 0) ⟨62500 * 12 + t.val, by omega⟩

/-- Under the precondition every word of region 12's second table is a row number below 100000. -/
theorem tbl12_dst_lt (hpre : PreArgs m) (t : Fin 62500) :
    ((tbl12 m 1 : S62500.Idx → BitVec 32) (ValueIdx.ix1 t)).toNat < 100000 := by
  rw [tbl12_dst_at m t]
  exact Cert.IdxRange.dst_toNat_lt _ _ _ _ _ (hpre 0) ⟨62500 * 12 + t.val, by omega⟩

/-- Under the precondition region 12's tables pass its side condition. -/
theorem ok12_tbl (hpre : PreArgs m) : ok12 (F := F) (tbl12 m) :=
  ok12_of_lt (tbl12 m) (tbl12_src_lt m hpre) (tbl12_dst_lt m hpre)

end

section

/-! ## Region 13 -/

/-- Region 13's first index map: the block index is (the first table's word at the grid coordinate, 0, 0). -/
theorem cc13_t0 (pf : pre13.Contents (Elt F)) (i : grid13.Coords) :
    cc13_transform_0 Facts₀.k13_off1_inb Facts₀.numel1_S1 pf i
      = ![((pf 0 : S62500.Idx → BitVec 32) (ValueIdx.ix1 (i 0))).toNat, 0, 0] := by
  unfold cc13_transform_0
  simp only []
  exact congrArg (fun j : S62500.Idx => (![((pf 0 : S62500.Idx → BitVec 32) j).toNat, 0, 0] : Fin 3 → Nat))
    (unit_emb (i 0) _ _)

/-- Region 13's second index map: the same with the second table. -/
theorem cc13_t1 (pf : pre13.Contents (Elt F)) (i : grid13.Coords) :
    cc13_transform_1 Facts₀.k13_off1_inb Facts₀.numel1_S1 pf i
      = ![((pf 1 : S62500.Idx → BitVec 32) (ValueIdx.ix1 (i 0))).toNat, 0, 0] := by
  unfold cc13_transform_1
  simp only []
  exact congrArg (fun j : S62500.Idx => (![((pf 1 : S62500.Idx → BitVec 32) j).toNat, 0, 0] : Fin 3 → Nat))
    (unit_emb (i 0) _ _)

/-- Region 13's side condition holds of any tables whose words are row numbers below 100000. -/
theorem ok13_of_lt (pf : pre13.Contents (Elt F))
    (h0 : ∀ t : Fin 62500, ((pf 0 : S62500.Idx → BitVec 32) (ValueIdx.ix1 t)).toNat < 100000)
    (h1 : ∀ t : Fin 62500, ((pf 1 : S62500.Idx → BitVec 32) (ValueIdx.ix1 t)).toNat < 100000) : ok13 pf := by
  refine ⟨fun i => ⟨?_, Or.inl rfl⟩, fun i => ⟨?_, Or.inl rfl⟩⟩
  · rw [cc13_t0]; exact row_block_inb _ (h0 (i 0))
  · rw [cc13_t1]; exact row_block_inb _ (h1 (i 0))

variable (m : (ℓ : Loc nD τ sig) → Buf (Elt F) ℓ)

/-- Region 13's first table at `t` is the first index input at 62500·13 + t. -/
theorem tbl13_src_at (t : Fin 62500) :
    (tbl13 m 0 : S62500.Idx → BitVec 32) (ValueIdx.ix1 t)
      = (m (((0 : Dev nD).tc : Thread nD τ).loc main_arg1) : S1000000.Idx → BitVec 32)
          (ValueIdx.ix1 ⟨62500 * 13 + t.val, by omega⟩) := by
  show (Ve13 m (0 : Dev nD) main_v54 : S62500.Idx → BitVec 32) (ValueIdx.ix1 t) = _
  exact (congrFun (tbl13_src m (outsL m) (0 : Dev nD)) (ValueIdx.ix1 t)).trans (slice_at 812500 _ _ (by omega) t)

/-- Region 13's second table at `t` is the second index input at 62500·13 + t. -/
theorem tbl13_dst_at (t : Fin 62500) :
    (tbl13 m 1 : S62500.Idx → BitVec 32) (ValueIdx.ix1 t)
      = (m (((0 : Dev nD).tc : Thread nD τ).loc main_arg2) : S1000000.Idx → BitVec 32)
          (ValueIdx.ix1 ⟨62500 * 13 + t.val, by omega⟩) := by
  show (Ve13 m (0 : Dev nD) main_v55 : S62500.Idx → BitVec 32) (ValueIdx.ix1 t) = _
  exact (congrFun (tbl13_dst m (outsL m) (0 : Dev nD)) (ValueIdx.ix1 t)).trans (slice_at 812500 _ _ (by omega) t)

variable [Cert.Pre_finite_inputs.Facts]

/-- Under the precondition every word of region 13's first table is a row number below 100000. -/
theorem tbl13_src_lt (hpre : PreArgs m) (t : Fin 62500) :
    ((tbl13 m 0 : S62500.Idx → BitVec 32) (ValueIdx.ix1 t)).toNat < 100000 := by
  rw [tbl13_src_at m t]
  exact Cert.IdxRange.src_toNat_lt _ _ _ _ _ (hpre 0) ⟨62500 * 13 + t.val, by omega⟩

/-- Under the precondition every word of region 13's second table is a row number below 100000. -/
theorem tbl13_dst_lt (hpre : PreArgs m) (t : Fin 62500) :
    ((tbl13 m 1 : S62500.Idx → BitVec 32) (ValueIdx.ix1 t)).toNat < 100000 := by
  rw [tbl13_dst_at m t]
  exact Cert.IdxRange.dst_toNat_lt _ _ _ _ _ (hpre 0) ⟨62500 * 13 + t.val, by omega⟩

/-- Under the precondition region 13's tables pass its side condition. -/
theorem ok13_tbl (hpre : PreArgs m) : ok13 (F := F) (tbl13 m) :=
  ok13_of_lt (tbl13 m) (tbl13_src_lt m hpre) (tbl13_dst_lt m hpre)

end

section

/-! ## Region 14 -/

/-- Region 14's first index map: the block index is (the first table's word at the grid coordinate, 0, 0). -/
theorem cc14_t0 (pf : pre14.Contents (Elt F)) (i : grid14.Coords) :
    cc14_transform_0 Facts₀.k14_off1_inb Facts₀.numel1_S1 pf i
      = ![((pf 0 : S62500.Idx → BitVec 32) (ValueIdx.ix1 (i 0))).toNat, 0, 0] := by
  unfold cc14_transform_0
  simp only []
  exact congrArg (fun j : S62500.Idx => (![((pf 0 : S62500.Idx → BitVec 32) j).toNat, 0, 0] : Fin 3 → Nat))
    (unit_emb (i 0) _ _)

/-- Region 14's second index map: the same with the second table. -/
theorem cc14_t1 (pf : pre14.Contents (Elt F)) (i : grid14.Coords) :
    cc14_transform_1 Facts₀.k14_off1_inb Facts₀.numel1_S1 pf i
      = ![((pf 1 : S62500.Idx → BitVec 32) (ValueIdx.ix1 (i 0))).toNat, 0, 0] := by
  unfold cc14_transform_1
  simp only []
  exact congrArg (fun j : S62500.Idx => (![((pf 1 : S62500.Idx → BitVec 32) j).toNat, 0, 0] : Fin 3 → Nat))
    (unit_emb (i 0) _ _)

/-- Region 14's side condition holds of any tables whose words are row numbers below 100000. -/
theorem ok14_of_lt (pf : pre14.Contents (Elt F))
    (h0 : ∀ t : Fin 62500, ((pf 0 : S62500.Idx → BitVec 32) (ValueIdx.ix1 t)).toNat < 100000)
    (h1 : ∀ t : Fin 62500, ((pf 1 : S62500.Idx → BitVec 32) (ValueIdx.ix1 t)).toNat < 100000) : ok14 pf := by
  refine ⟨fun i => ⟨?_, Or.inl rfl⟩, fun i => ⟨?_, Or.inl rfl⟩⟩
  · rw [cc14_t0]; exact row_block_inb _ (h0 (i 0))
  · rw [cc14_t1]; exact row_block_inb _ (h1 (i 0))

variable (m : (ℓ : Loc nD τ sig) → Buf (Elt F) ℓ)

/-- Region 14's first table at `t` is the first index input at 62500·14 + t. -/
theorem tbl14_src_at (t : Fin 62500) :
    (tbl14 m 0 : S62500.Idx → BitVec 32) (ValueIdx.ix1 t)
      = (m (((0 : Dev nD).tc : Thread nD τ).loc main_arg1) : S1000000.Idx → BitVec 32)
          (ValueIdx.ix1 ⟨62500 * 14 + t.val, by omega⟩) := by
  show (Ve14 m (0 : Dev nD) main_v58 : S62500.Idx → BitVec 32) (ValueIdx.ix1 t) = _
  exact (congrFun (tbl14_src m (outsL m) (0 : Dev nD)) (ValueIdx.ix1 t)).trans (slice_at 875000 _ _ (by omega) t)

/-- Region 14's second table at `t` is the second index input at 62500·14 + t. -/
theorem tbl14_dst_at (t : Fin 62500) :
    (tbl14 m 1 : S62500.Idx → BitVec 32) (ValueIdx.ix1 t)
      = (m (((0 : Dev nD).tc : Thread nD τ).loc main_arg2) : S1000000.Idx → BitVec 32)
          (ValueIdx.ix1 ⟨62500 * 14 + t.val, by omega⟩) := by
  show (Ve14 m (0 : Dev nD) main_v59 : S62500.Idx → BitVec 32) (ValueIdx.ix1 t) = _
  exact (congrFun (tbl14_dst m (outsL m) (0 : Dev nD)) (ValueIdx.ix1 t)).trans (slice_at 875000 _ _ (by omega) t)

variable [Cert.Pre_finite_inputs.Facts]

/-- Under the precondition every word of region 14's first table is a row number below 100000. -/
theorem tbl14_src_lt (hpre : PreArgs m) (t : Fin 62500) :
    ((tbl14 m 0 : S62500.Idx → BitVec 32) (ValueIdx.ix1 t)).toNat < 100000 := by
  rw [tbl14_src_at m t]
  exact Cert.IdxRange.src_toNat_lt _ _ _ _ _ (hpre 0) ⟨62500 * 14 + t.val, by omega⟩

/-- Under the precondition every word of region 14's second table is a row number below 100000. -/
theorem tbl14_dst_lt (hpre : PreArgs m) (t : Fin 62500) :
    ((tbl14 m 1 : S62500.Idx → BitVec 32) (ValueIdx.ix1 t)).toNat < 100000 := by
  rw [tbl14_dst_at m t]
  exact Cert.IdxRange.dst_toNat_lt _ _ _ _ _ (hpre 0) ⟨62500 * 14 + t.val, by omega⟩

/-- Under the precondition region 14's tables pass its side condition. -/
theorem ok14_tbl (hpre : PreArgs m) : ok14 (F := F) (tbl14 m) :=
  ok14_of_lt (tbl14 m) (tbl14_src_lt m hpre) (tbl14_dst_lt m hpre)

end

section

/-! ## Region 15 -/

/-- Region 15's first index map: the block index is (the first table's word at the grid coordinate, 0, 0). -/
theorem cc15_t0 (pf : pre15.Contents (Elt F)) (i : grid15.Coords) :
    cc15_transform_0 Facts₀.k15_off1_inb Facts₀.numel1_S1 pf i
      = ![((pf 0 : S62500.Idx → BitVec 32) (ValueIdx.ix1 (i 0))).toNat, 0, 0] := by
  unfold cc15_transform_0
  simp only []
  exact congrArg (fun j : S62500.Idx => (![((pf 0 : S62500.Idx → BitVec 32) j).toNat, 0, 0] : Fin 3 → Nat))
    (unit_emb (i 0) _ _)

/-- Region 15's second index map: the same with the second table. -/
theorem cc15_t1 (pf : pre15.Contents (Elt F)) (i : grid15.Coords) :
    cc15_transform_1 Facts₀.k15_off1_inb Facts₀.numel1_S1 pf i
      = ![((pf 1 : S62500.Idx → BitVec 32) (ValueIdx.ix1 (i 0))).toNat, 0, 0] := by
  unfold cc15_transform_1
  simp only []
  exact congrArg (fun j : S62500.Idx => (![((pf 1 : S62500.Idx → BitVec 32) j).toNat, 0, 0] : Fin 3 → Nat))
    (unit_emb (i 0) _ _)

/-- Region 15's side condition holds of any tables whose words are row numbers below 100000. -/
theorem ok15_of_lt (pf : pre15.Contents (Elt F))
    (h0 : ∀ t : Fin 62500, ((pf 0 : S62500.Idx → BitVec 32) (ValueIdx.ix1 t)).toNat < 100000)
    (h1 : ∀ t : Fin 62500, ((pf 1 : S62500.Idx → BitVec 32) (ValueIdx.ix1 t)).toNat < 100000) : ok15 pf := by
  refine ⟨fun i => ⟨?_, Or.inl rfl⟩, fun i => ⟨?_, Or.inl rfl⟩⟩
  · rw [cc15_t0]; exact row_block_inb _ (h0 (i 0))
  · rw [cc15_t1]; exact row_block_inb _ (h1 (i 0))

variable (m : (ℓ : Loc nD τ sig) → Buf (Elt F) ℓ)

/-- Region 15's first table at `t` is the first index input at 62500·15 + t. -/
theorem tbl15_src_at (t : Fin 62500) :
    (tbl15 m 0 : S62500.Idx → BitVec 32) (ValueIdx.ix1 t)
      = (m (((0 : Dev nD).tc : Thread nD τ).loc main_arg1) : S1000000.Idx → BitVec 32)
          (ValueIdx.ix1 ⟨62500 * 15 + t.val, by omega⟩) := by
  show (Ve15 m (0 : Dev nD) main_v62 : S62500.Idx → BitVec 32) (ValueIdx.ix1 t) = _
  exact (congrFun (tbl15_src m (outsL m) (0 : Dev nD)) (ValueIdx.ix1 t)).trans (slice_at 937500 _ _ (by omega) t)

/-- Region 15's second table at `t` is the second index input at 62500·15 + t. -/
theorem tbl15_dst_at (t : Fin 62500) :
    (tbl15 m 1 : S62500.Idx → BitVec 32) (ValueIdx.ix1 t)
      = (m (((0 : Dev nD).tc : Thread nD τ).loc main_arg2) : S1000000.Idx → BitVec 32)
          (ValueIdx.ix1 ⟨62500 * 15 + t.val, by omega⟩) := by
  show (Ve15 m (0 : Dev nD) main_v63 : S62500.Idx → BitVec 32) (ValueIdx.ix1 t) = _
  exact (congrFun (tbl15_dst m (outsL m) (0 : Dev nD)) (ValueIdx.ix1 t)).trans (slice_at 937500 _ _ (by omega) t)

variable [Cert.Pre_finite_inputs.Facts]

/-- Under the precondition every word of region 15's first table is a row number below 100000. -/
theorem tbl15_src_lt (hpre : PreArgs m) (t : Fin 62500) :
    ((tbl15 m 0 : S62500.Idx → BitVec 32) (ValueIdx.ix1 t)).toNat < 100000 := by
  rw [tbl15_src_at m t]
  exact Cert.IdxRange.src_toNat_lt _ _ _ _ _ (hpre 0) ⟨62500 * 15 + t.val, by omega⟩

/-- Under the precondition every word of region 15's second table is a row number below 100000. -/
theorem tbl15_dst_lt (hpre : PreArgs m) (t : Fin 62500) :
    ((tbl15 m 1 : S62500.Idx → BitVec 32) (ValueIdx.ix1 t)).toNat < 100000 := by
  rw [tbl15_dst_at m t]
  exact Cert.IdxRange.dst_toNat_lt _ _ _ _ _ (hpre 0) ⟨62500 * 15 + t.val, by omega⟩

/-- Under the precondition region 15's tables pass its side condition. -/
theorem ok15_tbl (hpre : PreArgs m) : ok15 (F := F) (tbl15 m) :=
  ok15_of_lt (tbl15 m) (tbl15_src_lt m hpre) (tbl15_dst_lt m hpre)

end

end Cert.Kernel.Hand
-- ==== Proof.KOksAll.lean ====
/-
  Under the precondition every region's two index tables pass the region's side condition: each table-indexed block
  lies inside the feature array. Region 0's case and the fifteen others', collected.
-/
import proofs.«405368_j31662498906597_2_alg».proof.Proof.KOks
import proofs.«405368_j31662498906597_2_alg».proof.Proof.KOksGen

noncomputable section

namespace Cert.Kernel.Hand

open Idealize.ShloMosaic Idealize.ShloMosaic.TcCoe
open Cert.Kernel Cert.Kernel.Gen

variable {F : FTy → Type} [FloatOps F]

/-- Under the precondition every region's tables pass its side condition. -/
theorem oks_of_pre [Cert.Pre_finite_inputs.Facts] (m : (ℓ : Loc nD τ sig) → Buf (Elt F) ℓ)
    (hpre : ∀ c : Dev nD, Cert.Pre_finite_inputs.fn (F := F) (m ((c.tc : Thread nD τ).loc main_arg0))
      (m ((c.tc : Thread nD τ).loc main_arg1)) (m ((c.tc : Thread nD τ).loc main_arg2))
      (m ((c.tc : Thread nD τ).loc main_arg3)) (m ((c.tc : Thread nD τ).loc main_arg4)) = fun _ => 1#1) : Oks m :=
  ⟨ok0_tbl m hpre, ok1_tbl m hpre, ok2_tbl m hpre, ok3_tbl m hpre, ok4_tbl m hpre, ok5_tbl m hpre, ok6_tbl m hpre,
   ok7_tbl m hpre, ok8_tbl m hpre, ok9_tbl m hpre, ok10_tbl m hpre, ok11_tbl m hpre, ok12_tbl m hpre, ok13_tbl m hpre,
   ok14_tbl m hpre, ok15_tbl m hpre⟩

end Cert.Kernel.Hand
-- ==== Proof.KIBody0.lean ====
/-
  One edge's score as the kernel body computes it, and the body's triple.

  The body reads the two gathered rows (one row of the node features for the edge's source node, one for its
  destination node), the 256 weights and the bias from its staging buffers, and writes the single score
  `(∑ row_s · W[0:128]) + (∑ row_d · W[128:256]) + b` to its one-element output buffer. `out0` is what the output
  buffer holds afterwards as a function of the four input buffers; `sound_kernel0` says the body, run on whole
  staging buffers holding those contents, ends with the inputs as they were and the output at `out0` of them.
-/
import proofs.«405368_j31662498906597_2_alg».proof.Proof.LaunchKernelIdeal
import proofs.«405368_j31662498906597_2_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The first 128 weights, the last 128 weights, a whole gathered row, the bias, the score's cell: the rectangles the
    body loads and stores through. -/
abbrev rW0 : Rect S1x256 := Rect.unit (s := S1x256) ![0, 0] S1x128.size inb_S1x256_S1x128_0_0
abbrev rW1 : Rect S1x256 := Rect.unit (s := S1x256) ![0, 128] S1x128.size inb_S1x256_S1x128_0_128
abbrev rH : Rect S1x1x128 := Rect.unit (s := S1x1x128) ![0, 0, 0] S1x1x128.size inb_S1x1x128_S1x1x128_0_0_0
abbrev rB : Rect S1x1 := Rect.unit (s := S1x1) ![0, 0] S1x1.size inb_S1x1_S1x1_0_0
abbrev rO : Rect S1x1x1 := Rect.unit (s := S1x1x1) ![0, 0, 0] S1x1x1.size inb_S1x1x1_S1x1x1_0_0_0

/-- The output buffer after the body, from the four input buffers (source row, destination row, weights, bias): its
    one store, of the score. -/
def out0 (x0 x1 : Vec F S1x1x128 .f32) (x2 : Vec F S1x256 .f32) (x3 : Vec F S1x1 .f32) : Vec F S1x1x1 .f32 :=
  View.canon [⟨rO, k0_pay1 (View.ld x2 rW0) (View.ld x2 rW1) (View.ld x0 rH) (View.ld x1 rH) (View.ld x3 rB)⟩]

/-- The one store covers the one-element buffer. -/
theorem cover0 (p0 : Vec F S1x1x1 .f32) (y : S1x1x1.Idx) :
    ∃ pc ∈ ([⟨rO, p0⟩] : List (View.Piece (Elt F) S1x1x1 .f32)), y ∈ pc.1.set :=
  View.cover_of_tiled [⟨rO, p0⟩] S1x1x1.size (by rfl) y

set_option maxHeartbeats 1000000 in
/-- The body on whole staging buffers: the inputs at `x0 … x3`, the output at anything; it ends with the inputs as
    they were and the output at `out0` of them. The two index tables are not touched. -/
theorem sound_kernel0 (c : Dev nD) (E : Set ℕ) (i : grid0.Coords)
    (arg1 : Memref sig .tc .smem S62500 .i32) (harg1 : arg1.IsWhole) (arg2 : Memref sig .tc .smem S62500 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x256 .f32) (harg5 : arg5.IsWhole) (arg6 : Memref sig .tc .vmem S1x1 .f32) (harg6 : arg6.IsWhole)
    (arg7 : Memref sig .tc .vmem S1x1x1 .f32) (harg7 : arg7.IsWhole)
    (x0 x1 : Vec F S1x1x128 .f32) (x2 : Vec F S1x256 .f32) (x3 : Vec F S1x1 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ (∃ d, owns (c : Thread nD τ) arg7 fullShare d)
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare (out0 x0 x1 x2 x3)) -∗ K ⟨⟩))
      ⊢ wp frame (wpE (defs₀ (F := F)) Variants.none c none) E
          (cc0__gather_score_kernel i arg1 harg1 arg2 harg2 arg3 harg3 arg4 harg4 arg5 harg5 arg6 harg6 arg7 harg7) K := by
  -- the printed body is its skeleton of six loads and one store over the payload
  simp only [cc0__gather_score_kernel_eq_skeleton]; unfold cc0__gather_score_kernel_skel
  -- each input's ownership is some contents with the given read; the output's is any contents
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  -- the loads leave every buffer as it was (the value loaded from the output buffer is not used); the store
  -- overwrites the output buffer's one cell with the payload of the five input loads
  sl_exec
  sl_step
  iapply Hk
  -- the four inputs come back at the contents they had
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  -- the output: old contents overwritten by one store that covers the buffer read back as that store alone
  iexists _; isplitr
  swap; · iexact H4
  ipureintro
  exact View.read_writes_eq_canon _ _ _ (cover0 _)

end Cert.KernelIdeal.Hand

end
-- ==== Proof.KIDat0.lean ====
/-
  Region 0 of the edge scorer: the pipeline's proof data and the body obligation.

  The region has 62500 grid points, one per edge of its chunk. At point `t` the pipeline stages five blocks: row
  `src t` of the node features (window 0) and row `dst t` (window 1) — both windows read the ONE feature array,
  their block indices taken from the two prefetched index tables —, the 256 weights (window 2), the bias
  (window 3), and the one-element block `t` of the output (window 4). The body leaves every input block as it
  found it and the output block at the edge's score (`out0` of the four input blocks). The two input windows
  on the shared feature array hold it at the two halves of the full share; the tables ride in the invariant,
  whole, untouched (the body never reads them); nothing is owed to other cores.
-/
import proofs.«405368_j31662498906597_2_alg».proof.Proof.KIBody0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffers' contents when the region is entered, per core, and the tables' admissible contents: parameters
variable (V : (c : Dev nD) → (b : Ref sig .tc) → Buf (Elt F) ((c : Thread nD τ).loc b)) (a : (pcfg0 (F := F)).Adm)

/-- Window `w`'s block at point `t`, read off its array as the region finds it. -/
def iblk0 (c : Dev nD) (w : Fin (cfg0 a).W) (t : Fin (cfg0 a).N) :
    (((cfg0 a).win w).xblock ((cfg0 a).grid.coords t)).Idx → Elt F ((cfg0 a).win w).elt :=
  (((cfg0 a).win w).blk t).view.read (Elt F) (V c (Pipeline.arrRef spec0 w))

/-- The current staging memref of each window at point `t`. -/
abbrev st0_0 (t : Fin (cfg0 a).N) := ((cfg0 a).win 0).stage ((cfg0 a).slots t 0)
abbrev st0_1 (t : Fin (cfg0 a).N) := ((cfg0 a).win 1).stage ((cfg0 a).slots t 1)
abbrev st0_2 (t : Fin (cfg0 a).N) := ((cfg0 a).win 2).stage ((cfg0 a).slots t 2)
abbrev st0_3 (t : Fin (cfg0 a).N) := ((cfg0 a).win 3).stage ((cfg0 a).slots t 3)
abbrev st0_4 (t : Fin (cfg0 a).N) := ((cfg0 a).win 4).stage ((cfg0 a).slots t 4)

/-- The kernel body at point `t`, on what the pipeline calls it with. -/
abbrev bodyAt0 (t : Fin (cfg0 a).N) : Prog (TpuEff nD τ sig (Elt F) Λ₀ .tc) PUnit :=
  cc0__gather_score_kernel (grid0.coords t) (Memref.whole main_v2) (Memref.isWhole_whole _) (Memref.whole main_v3) (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))
    (spec0_3.stage ((cfg0 a).slots t 3)) (hstage0_3 (((cfg0 a).slots t 3).cast nbuf0_3))
    (spec0_4.stage ((cfg0 a).slots t 4)) (hstage0_4 (((cfg0 a).slots t 4).cast nbuf0_4))

/-- The proof data of pipeline 0 on core `c`. -/
def dat0 (c : Dev nD) : Dat τ (Elt F) Unit ℕ (UR sig nD τ) ℕ (cfg0 a) c where
  A w := V c (Pipeline.arrRef spec0 w)
  after w t := match w with
    | ⟨0, _⟩ => iblk0 V a c 0 t
    | ⟨1, _⟩ => iblk0 V a c 1 t
    | ⟨2, _⟩ => iblk0 V a c 2 t
    | ⟨3, _⟩ => iblk0 V a c 3 t
    | ⟨4, _⟩ => out0 (iblk0 V a c 0 t) (iblk0 V a c 1 t) (iblk0 V a c 2 t) (iblk0 V a c 3 t)
  Φ _ := iprop(Pipeline.ΦA spec0 c ∗ Pipeline.prefHeld (Ix := Unit) (Name := ℕ) (U := UR sig nD τ) (Lvl := ℕ) pre0 c (fun _ => fullShare) a.1)
  q w := match w with
    | ⟨0, _⟩ => fullShare.left
    | ⟨1, _⟩ => fullShare.right
    | _ => fullShare
  owed _ := 0

theorem A_eq0 (c : Dev nD) (w : Fin (cfg0 a).W) : (dat0 V a c).A w = V c (Pipeline.arrRef spec0 w) := by
  dsimp only [dat0]

theorem after0_0 (c : Dev nD) (t : Fin (cfg0 a).N) : (dat0 V a c).after 0 t = iblk0 V a c 0 t := by dsimp only [dat0]; try rfl
theorem after0_1 (c : Dev nD) (t : Fin (cfg0 a).N) : (dat0 V a c).after 1 t = iblk0 V a c 1 t := by dsimp only [dat0]; try rfl
theorem after0_2 (c : Dev nD) (t : Fin (cfg0 a).N) : (dat0 V a c).after 2 t = iblk0 V a c 2 t := by dsimp only [dat0]; try rfl
theorem after0_3 (c : Dev nD) (t : Fin (cfg0 a).N) : (dat0 V a c).after 3 t = iblk0 V a c 3 t := by dsimp only [dat0]; try rfl
theorem after0_4 (c : Dev nD) (t : Fin (cfg0 a).N) :
    (dat0 V a c).after 4 t = out0 (iblk0 V a c 0 t) (iblk0 V a c 1 t) (iblk0 V a c 2 t) (iblk0 V a c 3 t) := by dsimp only [dat0]; try rfl

/-- An input window's current staging buffer holds its block at every point, fetched there or not: unfetched, the
    block index has not moved. -/
theorem before0_0 (c : Dev nD) (t : Fin (cfg0 a).N) (d) : (dat0 V a c).before 0 t d = iblk0 V a c 0 t :=
  ((dat0 V a c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin (cfg0 a).N) (d) : (dat0 V a c).before 1 t d = iblk0 V a c 1 t :=
  ((dat0 V a c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin (cfg0 a).N) (d) : (dat0 V a c).before 2 t d = iblk0 V a c 2 t :=
  ((dat0 V a c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin (cfg0 a).N) (d) : (dat0 V a c).before 3 t d = iblk0 V a c 3 t :=
  ((dat0 V a c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-- What the body is called with at point `t`, the windows one by one, -/
def bodyPre0 (c : Dev nD) (t : Fin (cfg0 a).N) : sProp 𝕄 :=
  iprop((dat0 V a c).Φ t.castSucc ∗ (dat0 V a c).owesAt () t.castSucc
    ∗ (∃ d, owns (c : Thread nD τ) (st0_0 a t) fullShare ((dat0 V a c).before 0 t d))
    ∗ (∃ d, owns (c : Thread nD τ) (st0_1 a t) fullShare ((dat0 V a c).before 1 t d))
    ∗ (∃ d, owns (c : Thread nD τ) (st0_2 a t) fullShare ((dat0 V a c).before 2 t d))
    ∗ (∃ d, owns (c : Thread nD τ) (st0_3 a t) fullShare ((dat0 V a c).before 3 t d))
    ∗ (∃ d, owns (c : Thread nD τ) (st0_4 a t) fullShare ((dat0 V a c).before 4 t d)))

/-- and what it returns. -/
def bodyPost0 (c : Dev nD) (t : Fin (cfg0 a).N) : sProp 𝕄 :=
  iprop((dat0 V a c).Φ t.succ ∗ (dat0 V a c).owesAt () t.succ
    ∗ owns (c : Thread nD τ) (st0_0 a t) fullShare ((dat0 V a c).after 0 t)
    ∗ owns (c : Thread nD τ) (st0_1 a t) fullShare ((dat0 V a c).after 1 t)
    ∗ owns (c : Thread nD τ) (st0_2 a t) fullShare ((dat0 V a c).after 2 t)
    ∗ owns (c : Thread nD τ) (st0_3 a t) fullShare ((dat0 V a c).after 3 t)
    ∗ owns (c : Thread nD τ) (st0_4 a t) fullShare ((dat0 V a c).after 4 t))

/-- The body at any point: the inputs' buffers hold their blocks, so the body's triple applies; the invariant and the
    core's dues pass through unread. -/
theorem sound_body0 (c : Dev nD) (t : Fin (cfg0 a).N) :
    bodyPre0 V a c t ⊢ wp frame (wpE (defs₀ (F := F)) Variants.none c none) Set.univ (bodyAt0 a t) (fun _ => bodyPost0 V a c t) := by
  unfold bodyPre0 bodyPost0 bodyAt0
  simp only [before0_0, before0_1, before0_2, before0_3]
  rw [show (dat0 V a c).Φ t.succ = (dat0 V a c).Φ t.castSucc from rfl,
    show (dat0 V a c).owesAt () t.succ = (dat0 V a c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ _ _ _ _ (iblk0 V a c 0 t) (iblk0 V a c 1 t) (iblk0 V a c 2 t) (iblk0 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V a c) (defs₀ (F := F)) Variants.none () Set.univ := fun t => by
  rw [bigSep_W0, bigSep_W0]
  exact sound_body0 V a c t

end Cert.KernelIdeal.Hand

end
-- ==== Proof.KIBody1.lean ====
/-
  One edge's score as the kernel body computes it, and the body's triple.

  The body reads the two gathered rows (one row of the node features for the edge's source node, one for its
  destination node), the 256 weights and the bias from its staging buffers, and writes the single score
  `(∑ row_s · W[0:128]) + (∑ row_d · W[128:256]) + b` to its one-element output buffer. `out1` is what the output
  buffer holds afterwards as a function of the four input buffers; `sound_kernel1` says the body, run on whole
  staging buffers holding those contents, ends with the inputs as they were and the output at `out1` of them.
-/
import proofs.«405368_j31662498906597_2_alg».proof.Proof.LaunchKernelIdeal
import proofs.«405368_j31662498906597_2_alg».proof.Proof.Gen.KernelIdeal.Skeleton
import proofs.«405368_j31662498906597_2_alg».proof.Proof.KIBody0
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The output buffer after the body, from the four input buffers (source row, destination row, weights, bias): its
    one store, of the score. -/
def out1 (x0 x1 : Vec F S1x1x128 .f32) (x2 : Vec F S1x256 .f32) (x3 : Vec F S1x1 .f32) : Vec F S1x1x1 .f32 :=
  View.canon [⟨rO, k1_pay1 (View.ld x2 rW0) (View.ld x2 rW1) (View.ld x0 rH) (View.ld x1 rH) (View.ld x3 rB)⟩]

/-- The one store covers the one-element buffer. -/
theorem cover1 (p0 : Vec F S1x1x1 .f32) (y : S1x1x1.Idx) :
    ∃ pc ∈ ([⟨rO, p0⟩] : List (View.Piece (Elt F) S1x1x1 .f32)), y ∈ pc.1.set :=
  View.cover_of_tiled [⟨rO, p0⟩] S1x1x1.size (by rfl) y

set_option maxHeartbeats 1000000 in
/-- The body on whole staging buffers: the inputs at `x0 … x3`, the output at anything; it ends with the inputs as
    they were and the output at `out1` of them. The two index tables are not touched. -/
theorem sound_kernel1 (c : Dev nD) (E : Set ℕ) (i : grid1.Coords)
    (arg1 : Memref sig .tc .smem S62500 .i32) (harg1 : arg1.IsWhole) (arg2 : Memref sig .tc .smem S62500 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x256 .f32) (harg5 : arg5.IsWhole) (arg6 : Memref sig .tc .vmem S1x1 .f32) (harg6 : arg6.IsWhole)
    (arg7 : Memref sig .tc .vmem S1x1x1 .f32) (harg7 : arg7.IsWhole)
    (x0 x1 : Vec F S1x1x128 .f32) (x2 : Vec F S1x256 .f32) (x3 : Vec F S1x1 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ (∃ d, owns (c : Thread nD τ) arg7 fullShare d)
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare (out1 x0 x1 x2 x3)) -∗ K ⟨⟩))
      ⊢ wp frame (wpE (defs₀ (F := F)) Variants.none c none) E
          (cc1__gather_score_kernel i arg1 harg1 arg2 harg2 arg3 harg3 arg4 harg4 arg5 harg5 arg6 harg6 arg7 harg7) K := by
  -- the printed body is its skeleton of six loads and one store over the payload
  simp only [cc1__gather_score_kernel_eq_skeleton]; unfold cc1__gather_score_kernel_skel
  -- each input's ownership is some contents with the given read; the output's is any contents
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  -- the loads leave every buffer as it was (the value loaded from the output buffer is not used); the store
  -- overwrites the output buffer's one cell with the payload of the five input loads
  sl_exec
  sl_step
  iapply Hk
  -- the four inputs come back at the contents they had
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  -- the output: old contents overwritten by one store that covers the buffer read back as that store alone
  iexists _; isplitr
  swap; · iexact H4
  ipureintro
  exact View.read_writes_eq_canon _ _ _ (cover1 _)

end Cert.KernelIdeal.Hand

end
-- ==== Proof.KIDat1.lean ====
/-
  Region 1 of the edge scorer: the pipeline's proof data and the body obligation.

  The region has 62500 grid points, one per edge of its chunk. At point `t` the pipeline stages five blocks: row
  `src t` of the node features (window 0) and row `dst t` (window 1) — both windows read the ONE feature array,
  their block indices taken from the two prefetched index tables —, the 256 weights (window 2), the bias
  (window 3), and the one-element block `t` of the output (window 4). The body leaves every input block as it
  found it and the output block at the edge's score (`out1` of the four input blocks). The two input windows
  on the shared feature array hold it at the two halves of the full share; the tables ride in the invariant,
  whole, untouched (the body never reads them); nothing is owed to other cores.
-/
import proofs.«405368_j31662498906597_2_alg».proof.Proof.KIBody1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffers' contents when the region is entered, per core, and the tables' admissible contents: parameters
variable (V : (c : Dev nD) → (b : Ref sig .tc) → Buf (Elt F) ((c : Thread nD τ).loc b)) (a : (pcfg1 (F := F)).Adm)

/-- Window `w`'s block at point `t`, read off its array as the region finds it. -/
def iblk1 (c : Dev nD) (w : Fin (cfg1 a).W) (t : Fin (cfg1 a).N) :
    (((cfg1 a).win w).xblock ((cfg1 a).grid.coords t)).Idx → Elt F ((cfg1 a).win w).elt :=
  (((cfg1 a).win w).blk t).view.read (Elt F) (V c (Pipeline.arrRef spec1 w))

/-- The current staging memref of each window at point `t`. -/
abbrev st1_0 (t : Fin (cfg1 a).N) := ((cfg1 a).win 0).stage ((cfg1 a).slots t 0)
abbrev st1_1 (t : Fin (cfg1 a).N) := ((cfg1 a).win 1).stage ((cfg1 a).slots t 1)
abbrev st1_2 (t : Fin (cfg1 a).N) := ((cfg1 a).win 2).stage ((cfg1 a).slots t 2)
abbrev st1_3 (t : Fin (cfg1 a).N) := ((cfg1 a).win 3).stage ((cfg1 a).slots t 3)
abbrev st1_4 (t : Fin (cfg1 a).N) := ((cfg1 a).win 4).stage ((cfg1 a).slots t 4)

/-- The kernel body at point `t`, on what the pipeline calls it with. -/
abbrev bodyAt1 (t : Fin (cfg1 a).N) : Prog (TpuEff nD τ sig (Elt F) Λ₀ .tc) PUnit :=
  cc1__gather_score_kernel (grid1.coords t) (Memref.whole main_v6) (Memref.isWhole_whole _) (Memref.whole main_v7) (Memref.isWhole_whole _)
    (spec1_0.stage ((cfg1 a).slots t 0)) (hstage1_0 (((cfg1 a).slots t 0).cast nbuf1_0))
    (spec1_1.stage ((cfg1 a).slots t 1)) (hstage1_1 (((cfg1 a).slots t 1).cast nbuf1_1))
    (spec1_2.stage ((cfg1 a).slots t 2)) (hstage1_2 (((cfg1 a).slots t 2).cast nbuf1_2))
    (spec1_3.stage ((cfg1 a).slots t 3)) (hstage1_3 (((cfg1 a).slots t 3).cast nbuf1_3))
    (spec1_4.stage ((cfg1 a).slots t 4)) (hstage1_4 (((cfg1 a).slots t 4).cast nbuf1_4))

/-- The proof data of pipeline 1 on core `c`. -/
def dat1 (c : Dev nD) : Dat τ (Elt F) Unit ℕ (UR sig nD τ) ℕ (cfg1 a) c where
  A w := V c (Pipeline.arrRef spec1 w)
  after w t := match w with
    | ⟨0, _⟩ => iblk1 V a c 0 t
    | ⟨1, _⟩ => iblk1 V a c 1 t
    | ⟨2, _⟩ => iblk1 V a c 2 t
    | ⟨3, _⟩ => iblk1 V a c 3 t
    | ⟨4, _⟩ => out1 (iblk1 V a c 0 t) (iblk1 V a c 1 t) (iblk1 V a c 2 t) (iblk1 V a c 3 t)
  Φ _ := iprop(Pipeline.ΦA spec1 c ∗ Pipeline.prefHeld (Ix := Unit) (Name := ℕ) (U := UR sig nD τ) (Lvl := ℕ) pre1 c (fun _ => fullShare) a.1)
  q w := match w with
    | ⟨0, _⟩ => fullShare.left
    | ⟨1, _⟩ => fullShare.right
    | _ => fullShare
  owed _ := 0

theorem A_eq1 (c : Dev nD) (w : Fin (cfg1 a).W) : (dat1 V a c).A w = V c (Pipeline.arrRef spec1 w) := by
  dsimp only [dat1]

theorem after1_0 (c : Dev nD) (t : Fin (cfg1 a).N) : (dat1 V a c).after 0 t = iblk1 V a c 0 t := by dsimp only [dat1]; try rfl
theorem after1_1 (c : Dev nD) (t : Fin (cfg1 a).N) : (dat1 V a c).after 1 t = iblk1 V a c 1 t := by dsimp only [dat1]; try rfl
theorem after1_2 (c : Dev nD) (t : Fin (cfg1 a).N) : (dat1 V a c).after 2 t = iblk1 V a c 2 t := by dsimp only [dat1]; try rfl
theorem after1_3 (c : Dev nD) (t : Fin (cfg1 a).N) : (dat1 V a c).after 3 t = iblk1 V a c 3 t := by dsimp only [dat1]; try rfl
theorem after1_4 (c : Dev nD) (t : Fin (cfg1 a).N) :
    (dat1 V a c).after 4 t = out1 (iblk1 V a c 0 t) (iblk1 V a c 1 t) (iblk1 V a c 2 t) (iblk1 V a c 3 t) := by dsimp only [dat1]; try rfl

/-- An input window's current staging buffer holds its block at every point, fetched there or not: unfetched, the
    block index has not moved. -/
theorem before1_0 (c : Dev nD) (t : Fin (cfg1 a).N) (d) : (dat1 V a c).before 0 t d = iblk1 V a c 0 t :=
  ((dat1 V a c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin (cfg1 a).N) (d) : (dat1 V a c).before 1 t d = iblk1 V a c 1 t :=
  ((dat1 V a c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin (cfg1 a).N) (d) : (dat1 V a c).before 2 t d = iblk1 V a c 2 t :=
  ((dat1 V a c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin (cfg1 a).N) (d) : (dat1 V a c).before 3 t d = iblk1 V a c 3 t :=
  ((dat1 V a c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- What the body is called with at point `t`, the windows one by one, -/
def bodyPre1 (c : Dev nD) (t : Fin (cfg1 a).N) : sProp 𝕄 :=
  iprop((dat1 V a c).Φ t.castSucc ∗ (dat1 V a c).owesAt () t.castSucc
    ∗ (∃ d, owns (c : Thread nD τ) (st1_0 a t) fullShare ((dat1 V a c).before 0 t d))
    ∗ (∃ d, owns (c : Thread nD τ) (st1_1 a t) fullShare ((dat1 V a c).before 1 t d))
    ∗ (∃ d, owns (c : Thread nD τ) (st1_2 a t) fullShare ((dat1 V a c).before 2 t d))
    ∗ (∃ d, owns (c : Thread nD τ) (st1_3 a t) fullShare ((dat1 V a c).before 3 t d))
    ∗ (∃ d, owns (c : Thread nD τ) (st1_4 a t) fullShare ((dat1 V a c).before 4 t d)))

/-- and what it returns. -/
def bodyPost1 (c : Dev nD) (t : Fin (cfg1 a).N) : sProp 𝕄 :=
  iprop((dat1 V a c).Φ t.succ ∗ (dat1 V a c).owesAt () t.succ
    ∗ owns (c : Thread nD τ) (st1_0 a t) fullShare ((dat1 V a c).after 0 t)
    ∗ owns (c : Thread nD τ) (st1_1 a t) fullShare ((dat1 V a c).after 1 t)
    ∗ owns (c : Thread nD τ) (st1_2 a t) fullShare ((dat1 V a c).after 2 t)
    ∗ owns (c : Thread nD τ) (st1_3 a t) fullShare ((dat1 V a c).after 3 t)
    ∗ owns (c : Thread nD τ) (st1_4 a t) fullShare ((dat1 V a c).after 4 t))

/-- The body at any point: the inputs' buffers hold their blocks, so the body's triple applies; the invariant and the
    core's dues pass through unread. -/
theorem sound_body1 (c : Dev nD) (t : Fin (cfg1 a).N) :
    bodyPre1 V a c t ⊢ wp frame (wpE (defs₀ (F := F)) Variants.none c none) Set.univ (bodyAt1 a t) (fun _ => bodyPost1 V a c t) := by
  unfold bodyPre1 bodyPost1 bodyAt1
  simp only [before1_0, before1_1, before1_2, before1_3]
  rw [show (dat1 V a c).Φ t.succ = (dat1 V a c).Φ t.castSucc from rfl,
    show (dat1 V a c).owesAt () t.succ = (dat1 V a c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ _ _ _ _ (iblk1 V a c 0 t) (iblk1 V a c 1 t) (iblk1 V a c 2 t) (iblk1 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V a c) (defs₀ (F := F)) Variants.none () Set.univ := fun t => by
  rw [bigSep_W1, bigSep_W1]
  exact sound_body1 V a c t

end Cert.KernelIdeal.Hand

end
-- ==== Proof.KIBody2.lean ====
/-
  One edge's score as the kernel body computes it, and the body's triple.

  The body reads the two gathered rows (one row of the node features for the edge's source node, one for its
  destination node), the 256 weights and the bias from its staging buffers, and writes the single score
  `(∑ row_s · W[0:128]) + (∑ row_d · W[128:256]) + b` to its one-element output buffer. `out2` is what the output
  buffer holds afterwards as a function of the four input buffers; `sound_kernel2` says the body, run on whole
  staging buffers holding those contents, ends with the inputs as they were and the output at `out2` of them.
-/
import proofs.«405368_j31662498906597_2_alg».proof.Proof.LaunchKernelIdeal
import proofs.«405368_j31662498906597_2_alg».proof.Proof.Gen.KernelIdeal.Skeleton
import proofs.«405368_j31662498906597_2_alg».proof.Proof.KIBody0
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The output buffer after the body, from the four input buffers (source row, destination row, weights, bias): its
    one store, of the score. -/
def out2 (x0 x1 : Vec F S1x1x128 .f32) (x2 : Vec F S1x256 .f32) (x3 : Vec F S1x1 .f32) : Vec F S1x1x1 .f32 :=
  View.canon [⟨rO, k2_pay1 (View.ld x2 rW0) (View.ld x2 rW1) (View.ld x0 rH) (View.ld x1 rH) (View.ld x3 rB)⟩]

/-- The one store covers the one-element buffer. -/
theorem cover2 (p0 : Vec F S1x1x1 .f32) (y : S1x1x1.Idx) :
    ∃ pc ∈ ([⟨rO, p0⟩] : List (View.Piece (Elt F) S1x1x1 .f32)), y ∈ pc.1.set :=
  View.cover_of_tiled [⟨rO, p0⟩] S1x1x1.size (by rfl) y

set_option maxHeartbeats 1000000 in
/-- The body on whole staging buffers: the inputs at `x0 … x3`, the output at anything; it ends with the inputs as
    they were and the output at `out2` of them. The two index tables are not touched. -/
theorem sound_kernel2 (c : Dev nD) (E : Set ℕ) (i : grid2.Coords)
    (arg1 : Memref sig .tc .smem S62500 .i32) (harg1 : arg1.IsWhole) (arg2 : Memref sig .tc .smem S62500 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x256 .f32) (harg5 : arg5.IsWhole) (arg6 : Memref sig .tc .vmem S1x1 .f32) (harg6 : arg6.IsWhole)
    (arg7 : Memref sig .tc .vmem S1x1x1 .f32) (harg7 : arg7.IsWhole)
    (x0 x1 : Vec F S1x1x128 .f32) (x2 : Vec F S1x256 .f32) (x3 : Vec F S1x1 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ (∃ d, owns (c : Thread nD τ) arg7 fullShare d)
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare (out2 x0 x1 x2 x3)) -∗ K ⟨⟩))
      ⊢ wp frame (wpE (defs₀ (F := F)) Variants.none c none) E
          (cc2__gather_score_kernel i arg1 harg1 arg2 harg2 arg3 harg3 arg4 harg4 arg5 harg5 arg6 harg6 arg7 harg7) K := by
  -- the printed body is its skeleton of six loads and one store over the payload
  simp only [cc2__gather_score_kernel_eq_skeleton]; unfold cc2__gather_score_kernel_skel
  -- each input's ownership is some contents with the given read; the output's is any contents
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  -- the loads leave every buffer as it was (the value loaded from the output buffer is not used); the store
  -- overwrites the output buffer's one cell with the payload of the five input loads
  sl_exec
  sl_step
  iapply Hk
  -- the four inputs come back at the contents they had
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  -- the output: old contents overwritten by one store that covers the buffer read back as that store alone
  iexists _; isplitr
  swap; · iexact H4
  ipureintro
  exact View.read_writes_eq_canon _ _ _ (cover2 _)

end Cert.KernelIdeal.Hand

end
-- ==== Proof.KIDat2.lean ====
/-
  Region 2 of the edge scorer: the pipeline's proof data and the body obligation.

  The region has 62500 grid points, one per edge of its chunk. At point `t` the pipeline stages five blocks: row
  `src t` of the node features (window 0) and row `dst t` (window 1) — both windows read the ONE feature array,
  their block indices taken from the two prefetched index tables —, the 256 weights (window 2), the bias
  (window 3), and the one-element block `t` of the output (window 4). The body leaves every input block as it
  found it and the output block at the edge's score (`out2` of the four input blocks). The two input windows
  on the shared feature array hold it at the two halves of the full share; the tables ride in the invariant,
  whole, untouched (the body never reads them); nothing is owed to other cores.
-/
import proofs.«405368_j31662498906597_2_alg».proof.Proof.KIBody2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffers' contents when the region is entered, per core, and the tables' admissible contents: parameters
variable (V : (c : Dev nD) → (b : Ref sig .tc) → Buf (Elt F) ((c : Thread nD τ).loc b)) (a : (pcfg2 (F := F)).Adm)

/-- Window `w`'s block at point `t`, read off its array as the region finds it. -/
def iblk2 (c : Dev nD) (w : Fin (cfg2 a).W) (t : Fin (cfg2 a).N) :
    (((cfg2 a).win w).xblock ((cfg2 a).grid.coords t)).Idx → Elt F ((cfg2 a).win w).elt :=
  (((cfg2 a).win w).blk t).view.read (Elt F) (V c (Pipeline.arrRef spec2 w))

/-- The current staging memref of each window at point `t`. -/
abbrev st2_0 (t : Fin (cfg2 a).N) := ((cfg2 a).win 0).stage ((cfg2 a).slots t 0)
abbrev st2_1 (t : Fin (cfg2 a).N) := ((cfg2 a).win 1).stage ((cfg2 a).slots t 1)
abbrev st2_2 (t : Fin (cfg2 a).N) := ((cfg2 a).win 2).stage ((cfg2 a).slots t 2)
abbrev st2_3 (t : Fin (cfg2 a).N) := ((cfg2 a).win 3).stage ((cfg2 a).slots t 3)
abbrev st2_4 (t : Fin (cfg2 a).N) := ((cfg2 a).win 4).stage ((cfg2 a).slots t 4)

/-- The kernel body at point `t`, on what the pipeline calls it with. -/
abbrev bodyAt2 (t : Fin (cfg2 a).N) : Prog (TpuEff nD τ sig (Elt F) Λ₀ .tc) PUnit :=
  cc2__gather_score_kernel (grid2.coords t) (Memref.whole main_v10) (Memref.isWhole_whole _) (Memref.whole main_v11) (Memref.isWhole_whole _)
    (spec2_0.stage ((cfg2 a).slots t 0)) (hstage2_0 (((cfg2 a).slots t 0).cast nbuf2_0))
    (spec2_1.stage ((cfg2 a).slots t 1)) (hstage2_1 (((cfg2 a).slots t 1).cast nbuf2_1))
    (spec2_2.stage ((cfg2 a).slots t 2)) (hstage2_2 (((cfg2 a).slots t 2).cast nbuf2_2))
    (spec2_3.stage ((cfg2 a).slots t 3)) (hstage2_3 (((cfg2 a).slots t 3).cast nbuf2_3))
    (spec2_4.stage ((cfg2 a).slots t 4)) (hstage2_4 (((cfg2 a).slots t 4).cast nbuf2_4))

/-- The proof data of pipeline 2 on core `c`. -/
def dat2 (c : Dev nD) : Dat τ (Elt F) Unit ℕ (UR sig nD τ) ℕ (cfg2 a) c where
  A w := V c (Pipeline.arrRef spec2 w)
  after w t := match w with
    | ⟨0, _⟩ => iblk2 V a c 0 t
    | ⟨1, _⟩ => iblk2 V a c 1 t
    | ⟨2, _⟩ => iblk2 V a c 2 t
    | ⟨3, _⟩ => iblk2 V a c 3 t
    | ⟨4, _⟩ => out2 (iblk2 V a c 0 t) (iblk2 V a c 1 t) (iblk2 V a c 2 t) (iblk2 V a c 3 t)
  Φ _ := iprop(Pipeline.ΦA spec2 c ∗ Pipeline.prefHeld (Ix := Unit) (Name := ℕ) (U := UR sig nD τ) (Lvl := ℕ) pre2 c (fun _ => fullShare) a.1)
  q w := match w with
    | ⟨0, _⟩ => fullShare.left
    | ⟨1, _⟩ => fullShare.right
    | _ => fullShare
  owed _ := 0

theorem A_eq2 (c : Dev nD) (w : Fin (cfg2 a).W) : (dat2 V a c).A w = V c (Pipeline.arrRef spec2 w) := by
  dsimp only [dat2]

theorem after2_0 (c : Dev nD) (t : Fin (cfg2 a).N) : (dat2 V a c).after 0 t = iblk2 V a c 0 t := by dsimp only [dat2]; try rfl
theorem after2_1 (c : Dev nD) (t : Fin (cfg2 a).N) : (dat2 V a c).after 1 t = iblk2 V a c 1 t := by dsimp only [dat2]; try rfl
theorem after2_2 (c : Dev nD) (t : Fin (cfg2 a).N) : (dat2 V a c).after 2 t = iblk2 V a c 2 t := by dsimp only [dat2]; try rfl
theorem after2_3 (c : Dev nD) (t : Fin (cfg2 a).N) : (dat2 V a c).after 3 t = iblk2 V a c 3 t := by dsimp only [dat2]; try rfl
theorem after2_4 (c : Dev nD) (t : Fin (cfg2 a).N) :
    (dat2 V a c).after 4 t = out2 (iblk2 V a c 0 t) (iblk2 V a c 1 t) (iblk2 V a c 2 t) (iblk2 V a c 3 t) := by dsimp only [dat2]; try rfl

/-- An input window's current staging buffer holds its block at every point, fetched there or not: unfetched, the
    block index has not moved. -/
theorem before2_0 (c : Dev nD) (t : Fin (cfg2 a).N) (d) : (dat2 V a c).before 0 t d = iblk2 V a c 0 t :=
  ((dat2 V a c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin (cfg2 a).N) (d) : (dat2 V a c).before 1 t d = iblk2 V a c 1 t :=
  ((dat2 V a c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin (cfg2 a).N) (d) : (dat2 V a c).before 2 t d = iblk2 V a c 2 t :=
  ((dat2 V a c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin (cfg2 a).N) (d) : (dat2 V a c).before 3 t d = iblk2 V a c 3 t :=
  ((dat2 V a c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)

/-- What the body is called with at point `t`, the windows one by one, -/
def bodyPre2 (c : Dev nD) (t : Fin (cfg2 a).N) : sProp 𝕄 :=
  iprop((dat2 V a c).Φ t.castSucc ∗ (dat2 V a c).owesAt () t.castSucc
    ∗ (∃ d, owns (c : Thread nD τ) (st2_0 a t) fullShare ((dat2 V a c).before 0 t d))
    ∗ (∃ d, owns (c : Thread nD τ) (st2_1 a t) fullShare ((dat2 V a c).before 1 t d))
    ∗ (∃ d, owns (c : Thread nD τ) (st2_2 a t) fullShare ((dat2 V a c).before 2 t d))
    ∗ (∃ d, owns (c : Thread nD τ) (st2_3 a t) fullShare ((dat2 V a c).before 3 t d))
    ∗ (∃ d, owns (c : Thread nD τ) (st2_4 a t) fullShare ((dat2 V a c).before 4 t d)))

/-- and what it returns. -/
def bodyPost2 (c : Dev nD) (t : Fin (cfg2 a).N) : sProp 𝕄 :=
  iprop((dat2 V a c).Φ t.succ ∗ (dat2 V a c).owesAt () t.succ
    ∗ owns (c : Thread nD τ) (st2_0 a t) fullShare ((dat2 V a c).after 0 t)
    ∗ owns (c : Thread nD τ) (st2_1 a t) fullShare ((dat2 V a c).after 1 t)
    ∗ owns (c : Thread nD τ) (st2_2 a t) fullShare ((dat2 V a c).after 2 t)
    ∗ owns (c : Thread nD τ) (st2_3 a t) fullShare ((dat2 V a c).after 3 t)
    ∗ owns (c : Thread nD τ) (st2_4 a t) fullShare ((dat2 V a c).after 4 t))

/-- The body at any point: the inputs' buffers hold their blocks, so the body's triple applies; the invariant and the
    core's dues pass through unread. -/
theorem sound_body2 (c : Dev nD) (t : Fin (cfg2 a).N) :
    bodyPre2 V a c t ⊢ wp frame (wpE (defs₀ (F := F)) Variants.none c none) Set.univ (bodyAt2 a t) (fun _ => bodyPost2 V a c t) := by
  unfold bodyPre2 bodyPost2 bodyAt2
  simp only [before2_0, before2_1, before2_2, before2_3]
  rw [show (dat2 V a c).Φ t.succ = (dat2 V a c).Φ t.castSucc from rfl,
    show (dat2 V a c).owesAt () t.succ = (dat2 V a c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ _ _ _ _ (iblk2 V a c 0 t) (iblk2 V a c 1 t) (iblk2 V a c 2 t) (iblk2 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V a c) (defs₀ (F := F)) Variants.none () Set.univ := fun t => by
  rw [bigSep_W2, bigSep_W2]
  exact sound_body2 V a c t

end Cert.KernelIdeal.Hand

end
-- ==== Proof.KIBody3.lean ====
/-
  One edge's score as the kernel body computes it, and the body's triple.

  The body reads the two gathered rows (one row of the node features for the edge's source node, one for its
  destination node), the 256 weights and the bias from its staging buffers, and writes the single score
  `(∑ row_s · W[0:128]) + (∑ row_d · W[128:256]) + b` to its one-element output buffer. `out3` is what the output
  buffer holds afterwards as a function of the four input buffers; `sound_kernel3` says the body, run on whole
  staging buffers holding those contents, ends with the inputs as they were and the output at `out3` of them.
-/
import proofs.«405368_j31662498906597_2_alg».proof.Proof.LaunchKernelIdeal
import proofs.«405368_j31662498906597_2_alg».proof.Proof.Gen.KernelIdeal.Skeleton
import proofs.«405368_j31662498906597_2_alg».proof.Proof.KIBody0
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The output buffer after the body, from the four input buffers (source row, destination row, weights, bias): its
    one store, of the score. -/
def out3 (x0 x1 : Vec F S1x1x128 .f32) (x2 : Vec F S1x256 .f32) (x3 : Vec F S1x1 .f32) : Vec F S1x1x1 .f32 :=
  View.canon [⟨rO, k3_pay1 (View.ld x2 rW0) (View.ld x2 rW1) (View.ld x0 rH) (View.ld x1 rH) (View.ld x3 rB)⟩]

/-- The one store covers the one-element buffer. -/
theorem cover3 (p0 : Vec F S1x1x1 .f32) (y : S1x1x1.Idx) :
    ∃ pc ∈ ([⟨rO, p0⟩] : List (View.Piece (Elt F) S1x1x1 .f32)), y ∈ pc.1.set :=
  View.cover_of_tiled [⟨rO, p0⟩] S1x1x1.size (by rfl) y

set_option maxHeartbeats 1000000 in
/-- The body on whole staging buffers: the inputs at `x0 … x3`, the output at anything; it ends with the inputs as
    they were and the output at `out3` of them. The two index tables are not touched. -/
theorem sound_kernel3 (c : Dev nD) (E : Set ℕ) (i : grid3.Coords)
    (arg1 : Memref sig .tc .smem S62500 .i32) (harg1 : arg1.IsWhole) (arg2 : Memref sig .tc .smem S62500 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x256 .f32) (harg5 : arg5.IsWhole) (arg6 : Memref sig .tc .vmem S1x1 .f32) (harg6 : arg6.IsWhole)
    (arg7 : Memref sig .tc .vmem S1x1x1 .f32) (harg7 : arg7.IsWhole)
    (x0 x1 : Vec F S1x1x128 .f32) (x2 : Vec F S1x256 .f32) (x3 : Vec F S1x1 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ (∃ d, owns (c : Thread nD τ) arg7 fullShare d)
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare (out3 x0 x1 x2 x3)) -∗ K ⟨⟩))
      ⊢ wp frame (wpE (defs₀ (F := F)) Variants.none c none) E
          (cc3__gather_score_kernel i arg1 harg1 arg2 harg2 arg3 harg3 arg4 harg4 arg5 harg5 arg6 harg6 arg7 harg7) K := by
  -- the printed body is its skeleton of six loads and one store over the payload
  simp only [cc3__gather_score_kernel_eq_skeleton]; unfold cc3__gather_score_kernel_skel
  -- each input's ownership is some contents with the given read; the output's is any contents
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  -- the loads leave every buffer as it was (the value loaded from the output buffer is not used); the store
  -- overwrites the output buffer's one cell with the payload of the five input loads
  sl_exec
  sl_step
  iapply Hk
  -- the four inputs come back at the contents they had
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  -- the output: old contents overwritten by one store that covers the buffer read back as that store alone
  iexists _; isplitr
  swap; · iexact H4
  ipureintro
  exact View.read_writes_eq_canon _ _ _ (cover3 _)

end Cert.KernelIdeal.Hand

end
-- ==== Proof.KIDat3.lean ====
/-
  Region 3 of the edge scorer: the pipeline's proof data and the body obligation.

  The region has 62500 grid points, one per edge of its chunk. At point `t` the pipeline stages five blocks: row
  `src t` of the node features (window 0) and row `dst t` (window 1) — both windows read the ONE feature array,
  their block indices taken from the two prefetched index tables —, the 256 weights (window 2), the bias
  (window 3), and the one-element block `t` of the output (window 4). The body leaves every input block as it
  found it and the output block at the edge's score (`out3` of the four input blocks). The two input windows
  on the shared feature array hold it at the two halves of the full share; the tables ride in the invariant,
  whole, untouched (the body never reads them); nothing is owed to other cores.
-/
import proofs.«405368_j31662498906597_2_alg».proof.Proof.KIBody3

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffers' contents when the region is entered, per core, and the tables' admissible contents: parameters
variable (V : (c : Dev nD) → (b : Ref sig .tc) → Buf (Elt F) ((c : Thread nD τ).loc b)) (a : (pcfg3 (F := F)).Adm)

/-- Window `w`'s block at point `t`, read off its array as the region finds it. -/
def iblk3 (c : Dev nD) (w : Fin (cfg3 a).W) (t : Fin (cfg3 a).N) :
    (((cfg3 a).win w).xblock ((cfg3 a).grid.coords t)).Idx → Elt F ((cfg3 a).win w).elt :=
  (((cfg3 a).win w).blk t).view.read (Elt F) (V c (Pipeline.arrRef spec3 w))

/-- The current staging memref of each window at point `t`. -/
abbrev st3_0 (t : Fin (cfg3 a).N) := ((cfg3 a).win 0).stage ((cfg3 a).slots t 0)
abbrev st3_1 (t : Fin (cfg3 a).N) := ((cfg3 a).win 1).stage ((cfg3 a).slots t 1)
abbrev st3_2 (t : Fin (cfg3 a).N) := ((cfg3 a).win 2).stage ((cfg3 a).slots t 2)
abbrev st3_3 (t : Fin (cfg3 a).N) := ((cfg3 a).win 3).stage ((cfg3 a).slots t 3)
abbrev st3_4 (t : Fin (cfg3 a).N) := ((cfg3 a).win 4).stage ((cfg3 a).slots t 4)

/-- The kernel body at point `t`, on what the pipeline calls it with. -/
abbrev bodyAt3 (t : Fin (cfg3 a).N) : Prog (TpuEff nD τ sig (Elt F) Λ₀ .tc) PUnit :=
  cc3__gather_score_kernel (grid3.coords t) (Memref.whole main_v14) (Memref.isWhole_whole _) (Memref.whole main_v15) (Memref.isWhole_whole _)
    (spec3_0.stage ((cfg3 a).slots t 0)) (hstage3_0 (((cfg3 a).slots t 0).cast nbuf3_0))
    (spec3_1.stage ((cfg3 a).slots t 1)) (hstage3_1 (((cfg3 a).slots t 1).cast nbuf3_1))
    (spec3_2.stage ((cfg3 a).slots t 2)) (hstage3_2 (((cfg3 a).slots t 2).cast nbuf3_2))
    (spec3_3.stage ((cfg3 a).slots t 3)) (hstage3_3 (((cfg3 a).slots t 3).cast nbuf3_3))
    (spec3_4.stage ((cfg3 a).slots t 4)) (hstage3_4 (((cfg3 a).slots t 4).cast nbuf3_4))

/-- The proof data of pipeline 3 on core `c`. -/
def dat3 (c : Dev nD) : Dat τ (Elt F) Unit ℕ (UR sig nD τ) ℕ (cfg3 a) c where
  A w := V c (Pipeline.arrRef spec3 w)
  after w t := match w with
    | ⟨0, _⟩ => iblk3 V a c 0 t
    | ⟨1, _⟩ => iblk3 V a c 1 t
    | ⟨2, _⟩ => iblk3 V a c 2 t
    | ⟨3, _⟩ => iblk3 V a c 3 t
    | ⟨4, _⟩ => out3 (iblk3 V a c 0 t) (iblk3 V a c 1 t) (iblk3 V a c 2 t) (iblk3 V a c 3 t)
  Φ _ := iprop(Pipeline.ΦA spec3 c ∗ Pipeline.prefHeld (Ix := Unit) (Name := ℕ) (U := UR sig nD τ) (Lvl := ℕ) pre3 c (fun _ => fullShare) a.1)
  q w := match w with
    | ⟨0, _⟩ => fullShare.left
    | ⟨1, _⟩ => fullShare.right
    | _ => fullShare
  owed _ := 0

theorem A_eq3 (c : Dev nD) (w : Fin (cfg3 a).W) : (dat3 V a c).A w = V c (Pipeline.arrRef spec3 w) := by
  dsimp only [dat3]

theorem after3_0 (c : Dev nD) (t : Fin (cfg3 a).N) : (dat3 V a c).after 0 t = iblk3 V a c 0 t := by dsimp only [dat3]; try rfl
theorem after3_1 (c : Dev nD) (t : Fin (cfg3 a).N) : (dat3 V a c).after 1 t = iblk3 V a c 1 t := by dsimp only [dat3]; try rfl
theorem after3_2 (c : Dev nD) (t : Fin (cfg3 a).N) : (dat3 V a c).after 2 t = iblk3 V a c 2 t := by dsimp only [dat3]; try rfl
theorem after3_3 (c : Dev nD) (t : Fin (cfg3 a).N) : (dat3 V a c).after 3 t = iblk3 V a c 3 t := by dsimp only [dat3]; try rfl
theorem after3_4 (c : Dev nD) (t : Fin (cfg3 a).N) :
    (dat3 V a c).after 4 t = out3 (iblk3 V a c 0 t) (iblk3 V a c 1 t) (iblk3 V a c 2 t) (iblk3 V a c 3 t) := by dsimp only [dat3]; try rfl

/-- An input window's current staging buffer holds its block at every point, fetched there or not: unfetched, the
    block index has not moved. -/
theorem before3_0 (c : Dev nD) (t : Fin (cfg3 a).N) (d) : (dat3 V a c).before 0 t d = iblk3 V a c 0 t :=
  ((dat3 V a c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)
theorem before3_1 (c : Dev nD) (t : Fin (cfg3 a).N) (d) : (dat3 V a c).before 1 t d = iblk3 V a c 1 t :=
  ((dat3 V a c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)
theorem before3_2 (c : Dev nD) (t : Fin (cfg3 a).N) (d) : (dat3 V a c).before 2 t d = iblk3 V a c 2 t :=
  ((dat3 V a c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)
theorem before3_3 (c : Dev nD) (t : Fin (cfg3 a).N) (d) : (dat3 V a c).before 3 t d = iblk3 V a c 3 t :=
  ((dat3 V a c).before_in_eq_fetched 3 rfl (fun _ => rfl) (fun _ _ _ => rfl)
    (fun t => by rw [after3_3]; unfold Dat.blockOf iblk3; rw [A_eq3]; try rfl) t d).trans
    (by unfold Dat.fetched Dat.blockOf iblk3; rw [A_eq3]; try rfl)

/-- What the body is called with at point `t`, the windows one by one, -/
def bodyPre3 (c : Dev nD) (t : Fin (cfg3 a).N) : sProp 𝕄 :=
  iprop((dat3 V a c).Φ t.castSucc ∗ (dat3 V a c).owesAt () t.castSucc
    ∗ (∃ d, owns (c : Thread nD τ) (st3_0 a t) fullShare ((dat3 V a c).before 0 t d))
    ∗ (∃ d, owns (c : Thread nD τ) (st3_1 a t) fullShare ((dat3 V a c).before 1 t d))
    ∗ (∃ d, owns (c : Thread nD τ) (st3_2 a t) fullShare ((dat3 V a c).before 2 t d))
    ∗ (∃ d, owns (c : Thread nD τ) (st3_3 a t) fullShare ((dat3 V a c).before 3 t d))
    ∗ (∃ d, owns (c : Thread nD τ) (st3_4 a t) fullShare ((dat3 V a c).before 4 t d)))

/-- and what it returns. -/
def bodyPost3 (c : Dev nD) (t : Fin (cfg3 a).N) : sProp 𝕄 :=
  iprop((dat3 V a c).Φ t.succ ∗ (dat3 V a c).owesAt () t.succ
    ∗ owns (c : Thread nD τ) (st3_0 a t) fullShare ((dat3 V a c).after 0 t)
    ∗ owns (c : Thread nD τ) (st3_1 a t) fullShare ((dat3 V a c).after 1 t)
    ∗ owns (c : Thread nD τ) (st3_2 a t) fullShare ((dat3 V a c).after 2 t)
    ∗ owns (c : Thread nD τ) (st3_3 a t) fullShare ((dat3 V a c).after 3 t)
    ∗ owns (c : Thread nD τ) (st3_4 a t) fullShare ((dat3 V a c).after 4 t))

/-- The body at any point: the inputs' buffers hold their blocks, so the body's triple applies; the invariant and the
    core's dues pass through unread. -/
theorem sound_body3 (c : Dev nD) (t : Fin (cfg3 a).N) :
    bodyPre3 V a c t ⊢ wp frame (wpE (defs₀ (F := F)) Variants.none c none) Set.univ (bodyAt3 a t) (fun _ => bodyPost3 V a c t) := by
  unfold bodyPre3 bodyPost3 bodyAt3
  simp only [before3_0, before3_1, before3_2, before3_3]
  rw [show (dat3 V a c).Φ t.succ = (dat3 V a c).Φ t.castSucc from rfl,
    show (dat3 V a c).owesAt () t.succ = (dat3 V a c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ _ _ _ _ (iblk3 V a c 0 t) (iblk3 V a c 1 t) (iblk3 V a c 2 t) (iblk3 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V a c) (defs₀ (F := F)) Variants.none () Set.univ := fun t => by
  rw [bigSep_W3, bigSep_W3]
  exact sound_body3 V a c t

end Cert.KernelIdeal.Hand

end
-- ==== Proof.KIBody4.lean ====
/-
  One edge's score as the kernel body computes it, and the body's triple.

  The body reads the two gathered rows (one row of the node features for the edge's source node, one for its
  destination node), the 256 weights and the bias from its staging buffers, and writes the single score
  `(∑ row_s · W[0:128]) + (∑ row_d · W[128:256]) + b` to its one-element output buffer. `out4` is what the output
  buffer holds afterwards as a function of the four input buffers; `sound_kernel4` says the body, run on whole
  staging buffers holding those contents, ends with the inputs as they were and the output at `out4` of them.
-/
import proofs.«405368_j31662498906597_2_alg».proof.Proof.LaunchKernelIdeal
import proofs.«405368_j31662498906597_2_alg».proof.Proof.Gen.KernelIdeal.Skeleton
import proofs.«405368_j31662498906597_2_alg».proof.Proof.KIBody0
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The output buffer after the body, from the four input buffers (source row, destination row, weights, bias): its
    one store, of the score. -/
def out4 (x0 x1 : Vec F S1x1x128 .f32) (x2 : Vec F S1x256 .f32) (x3 : Vec F S1x1 .f32) : Vec F S1x1x1 .f32 :=
  View.canon [⟨rO, k4_pay1 (View.ld x2 rW0) (View.ld x2 rW1) (View.ld x0 rH) (View.ld x1 rH) (View.ld x3 rB)⟩]

/-- The one store covers the one-element buffer. -/
theorem cover4 (p0 : Vec F S1x1x1 .f32) (y : S1x1x1.Idx) :
    ∃ pc ∈ ([⟨rO, p0⟩] : List (View.Piece (Elt F) S1x1x1 .f32)), y ∈ pc.1.set :=
  View.cover_of_tiled [⟨rO, p0⟩] S1x1x1.size (by rfl) y

set_option maxHeartbeats 1000000 in
/-- The body on whole staging buffers: the inputs at `x0 … x3`, the output at anything; it ends with the inputs as
    they were and the output at `out4` of them. The two index tables are not touched. -/
theorem sound_kernel4 (c : Dev nD) (E : Set ℕ) (i : grid4.Coords)
    (arg1 : Memref sig .tc .smem S62500 .i32) (harg1 : arg1.IsWhole) (arg2 : Memref sig .tc .smem S62500 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x256 .f32) (harg5 : arg5.IsWhole) (arg6 : Memref sig .tc .vmem S1x1 .f32) (harg6 : arg6.IsWhole)
    (arg7 : Memref sig .tc .vmem S1x1x1 .f32) (harg7 : arg7.IsWhole)
    (x0 x1 : Vec F S1x1x128 .f32) (x2 : Vec F S1x256 .f32) (x3 : Vec F S1x1 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ (∃ d, owns (c : Thread nD τ) arg7 fullShare d)
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare (out4 x0 x1 x2 x3)) -∗ K ⟨⟩))
      ⊢ wp frame (wpE (defs₀ (F := F)) Variants.none c none) E
          (cc4__gather_score_kernel i arg1 harg1 arg2 harg2 arg3 harg3 arg4 harg4 arg5 harg5 arg6 harg6 arg7 harg7) K := by
  -- the printed body is its skeleton of six loads and one store over the payload
  simp only [cc4__gather_score_kernel_eq_skeleton]; unfold cc4__gather_score_kernel_skel
  -- each input's ownership is some contents with the given read; the output's is any contents
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  -- the loads leave every buffer as it was (the value loaded from the output buffer is not used); the store
  -- overwrites the output buffer's one cell with the payload of the five input loads
  sl_exec
  sl_step
  iapply Hk
  -- the four inputs come back at the contents they had
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  -- the output: old contents overwritten by one store that covers the buffer read back as that store alone
  iexists _; isplitr
  swap; · iexact H4
  ipureintro
  exact View.read_writes_eq_canon _ _ _ (cover4 _)

end Cert.KernelIdeal.Hand

end
-- ==== Proof.KIDat4.lean ====
/-
  Region 4 of the edge scorer: the pipeline's proof data and the body obligation.

  The region has 62500 grid points, one per edge of its chunk. At point `t` the pipeline stages five blocks: row
  `src t` of the node features (window 0) and row `dst t` (window 1) — both windows read the ONE feature array,
  their block indices taken from the two prefetched index tables —, the 256 weights (window 2), the bias
  (window 3), and the one-element block `t` of the output (window 4). The body leaves every input block as it
  found it and the output block at the edge's score (`out4` of the four input blocks). The two input windows
  on the shared feature array hold it at the two halves of the full share; the tables ride in the invariant,
  whole, untouched (the body never reads them); nothing is owed to other cores.
-/
import proofs.«405368_j31662498906597_2_alg».proof.Proof.KIBody4

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffers' contents when the region is entered, per core, and the tables' admissible contents: parameters
variable (V : (c : Dev nD) → (b : Ref sig .tc) → Buf (Elt F) ((c : Thread nD τ).loc b)) (a : (pcfg4 (F := F)).Adm)

/-- Window `w`'s block at point `t`, read off its array as the region finds it. -/
def iblk4 (c : Dev nD) (w : Fin (cfg4 a).W) (t : Fin (cfg4 a).N) :
    (((cfg4 a).win w).xblock ((cfg4 a).grid.coords t)).Idx → Elt F ((cfg4 a).win w).elt :=
  (((cfg4 a).win w).blk t).view.read (Elt F) (V c (Pipeline.arrRef spec4 w))

/-- The current staging memref of each window at point `t`. -/
abbrev st4_0 (t : Fin (cfg4 a).N) := ((cfg4 a).win 0).stage ((cfg4 a).slots t 0)
abbrev st4_1 (t : Fin (cfg4 a).N) := ((cfg4 a).win 1).stage ((cfg4 a).slots t 1)
abbrev st4_2 (t : Fin (cfg4 a).N) := ((cfg4 a).win 2).stage ((cfg4 a).slots t 2)
abbrev st4_3 (t : Fin (cfg4 a).N) := ((cfg4 a).win 3).stage ((cfg4 a).slots t 3)
abbrev st4_4 (t : Fin (cfg4 a).N) := ((cfg4 a).win 4).stage ((cfg4 a).slots t 4)

/-- The kernel body at point `t`, on what the pipeline calls it with. -/
abbrev bodyAt4 (t : Fin (cfg4 a).N) : Prog (TpuEff nD τ sig (Elt F) Λ₀ .tc) PUnit :=
  cc4__gather_score_kernel (grid4.coords t) (Memref.whole main_v18) (Memref.isWhole_whole _) (Memref.whole main_v19) (Memref.isWhole_whole _)
    (spec4_0.stage ((cfg4 a).slots t 0)) (hstage4_0 (((cfg4 a).slots t 0).cast nbuf4_0))
    (spec4_1.stage ((cfg4 a).slots t 1)) (hstage4_1 (((cfg4 a).slots t 1).cast nbuf4_1))
    (spec4_2.stage ((cfg4 a).slots t 2)) (hstage4_2 (((cfg4 a).slots t 2).cast nbuf4_2))
    (spec4_3.stage ((cfg4 a).slots t 3)) (hstage4_3 (((cfg4 a).slots t 3).cast nbuf4_3))
    (spec4_4.stage ((cfg4 a).slots t 4)) (hstage4_4 (((cfg4 a).slots t 4).cast nbuf4_4))

/-- The proof data of pipeline 4 on core `c`. -/
def dat4 (c : Dev nD) : Dat τ (Elt F) Unit ℕ (UR sig nD τ) ℕ (cfg4 a) c where
  A w := V c (Pipeline.arrRef spec4 w)
  after w t := match w with
    | ⟨0, _⟩ => iblk4 V a c 0 t
    | ⟨1, _⟩ => iblk4 V a c 1 t
    | ⟨2, _⟩ => iblk4 V a c 2 t
    | ⟨3, _⟩ => iblk4 V a c 3 t
    | ⟨4, _⟩ => out4 (iblk4 V a c 0 t) (iblk4 V a c 1 t) (iblk4 V a c 2 t) (iblk4 V a c 3 t)
  Φ _ := iprop(Pipeline.ΦA spec4 c ∗ Pipeline.prefHeld (Ix := Unit) (Name := ℕ) (U := UR sig nD τ) (Lvl := ℕ) pre4 c (fun _ => fullShare) a.1)
  q w := match w with
    | ⟨0, _⟩ => fullShare.left
    | ⟨1, _⟩ => fullShare.right
    | _ => fullShare
  owed _ := 0

theorem A_eq4 (c : Dev nD) (w : Fin (cfg4 a).W) : (dat4 V a c).A w = V c (Pipeline.arrRef spec4 w) := by
  dsimp only [dat4]

theorem after4_0 (c : Dev nD) (t : Fin (cfg4 a).N) : (dat4 V a c).after 0 t = iblk4 V a c 0 t := by dsimp only [dat4]; try rfl
theorem after4_1 (c : Dev nD) (t : Fin (cfg4 a).N) : (dat4 V a c).after 1 t = iblk4 V a c 1 t := by dsimp only [dat4]; try rfl
theorem after4_2 (c : Dev nD) (t : Fin (cfg4 a).N) : (dat4 V a c).after 2 t = iblk4 V a c 2 t := by dsimp only [dat4]; try rfl
theorem after4_3 (c : Dev nD) (t : Fin (cfg4 a).N) : (dat4 V a c).after 3 t = iblk4 V a c 3 t := by dsimp only [dat4]; try rfl
theorem after4_4 (c : Dev nD) (t : Fin (cfg4 a).N) :
    (dat4 V a c).after 4 t = out4 (iblk4 V a c 0 t) (iblk4 V a c 1 t) (iblk4 V a c 2 t) (iblk4 V a c 3 t) := by dsimp only [dat4]; try rfl

/-- An input window's current staging buffer holds its block at every point, fetched there or not: unfetched, the
    block index has not moved. -/
theorem before4_0 (c : Dev nD) (t : Fin (cfg4 a).N) (d) : (dat4 V a c).before 0 t d = iblk4 V a c 0 t :=
  ((dat4 V a c).before_in_eq_fetched 0 rfl (fun _ => rfl) (fun _ _ _ => rfl)
    (fun t => by rw [after4_0]; unfold Dat.blockOf iblk4; rw [A_eq4]; try rfl) t d).trans
    (by unfold Dat.fetched Dat.blockOf iblk4; rw [A_eq4]; try rfl)
theorem before4_1 (c : Dev nD) (t : Fin (cfg4 a).N) (d) : (dat4 V a c).before 1 t d = iblk4 V a c 1 t :=
  ((dat4 V a c).before_in_eq_fetched 1 rfl (fun _ => rfl) (fun _ _ _ => rfl)
    (fun t => by rw [after4_1]; unfold Dat.blockOf iblk4; rw [A_eq4]; try rfl) t d).trans
    (by unfold Dat.fetched Dat.blockOf iblk4; rw [A_eq4]; try rfl)
theorem before4_2 (c : Dev nD) (t : Fin (cfg4 a).N) (d) : (dat4 V a c).before 2 t d = iblk4 V a c 2 t :=
  ((dat4 V a c).before_in_eq_fetched 2 rfl (fun _ => rfl) (fun _ _ _ => rfl)
    (fun t => by rw [after4_2]; unfold Dat.blockOf iblk4; rw [A_eq4]; try rfl) t d).trans
    (by unfold Dat.fetched Dat.blockOf iblk4; rw [A_eq4]; try rfl)
theorem before4_3 (c : Dev nD) (t : Fin (cfg4 a).N) (d) : (dat4 V a c).before 3 t d = iblk4 V a c 3 t :=
  ((dat4 V a c).before_in_eq_fetched 3 rfl (fun _ => rfl) (fun _ _ _ => rfl)
    (fun t => by rw [after4_3]; unfold Dat.blockOf iblk4; rw [A_eq4]; try rfl) t d).trans
    (by unfold Dat.fetched Dat.blockOf iblk4; rw [A_eq4]; try rfl)

/-- What the body is called with at point `t`, the windows one by one, -/
def bodyPre4 (c : Dev nD) (t : Fin (cfg4 a).N) : sProp 𝕄 :=
  iprop((dat4 V a c).Φ t.castSucc ∗ (dat4 V a c).owesAt () t.castSucc
    ∗ (∃ d, owns (c : Thread nD τ) (st4_0 a t) fullShare ((dat4 V a c).before 0 t d))
    ∗ (∃ d, owns (c : Thread nD τ) (st4_1 a t) fullShare ((dat4 V a c).before 1 t d))
    ∗ (∃ d, owns (c : Thread nD τ) (st4_2 a t) fullShare ((dat4 V a c).before 2 t d))
    ∗ (∃ d, owns (c : Thread nD τ) (st4_3 a t) fullShare ((dat4 V a c).before 3 t d))
    ∗ (∃ d, owns (c : Thread nD τ) (st4_4 a t) fullShare ((dat4 V a c).before 4 t d)))

/-- and what it returns. -/
def bodyPost4 (c : Dev nD) (t : Fin (cfg4 a).N) : sProp 𝕄 :=
  iprop((dat4 V a c).Φ t.succ ∗ (dat4 V a c).owesAt () t.succ
    ∗ owns (c : Thread nD τ) (st4_0 a t) fullShare ((dat4 V a c).after 0 t)
    ∗ owns (c : Thread nD τ) (st4_1 a t) fullShare ((dat4 V a c).after 1 t)
    ∗ owns (c : Thread nD τ) (st4_2 a t) fullShare ((dat4 V a c).after 2 t)
    ∗ owns (c : Thread nD τ) (st4_3 a t) fullShare ((dat4 V a c).after 3 t)
    ∗ owns (c : Thread nD τ) (st4_4 a t) fullShare ((dat4 V a c).after 4 t))

/-- The body at any point: the inputs' buffers hold their blocks, so the body's triple applies; the invariant and the
    core's dues pass through unread. -/
theorem sound_body4 (c : Dev nD) (t : Fin (cfg4 a).N) :
    bodyPre4 V a c t ⊢ wp frame (wpE (defs₀ (F := F)) Variants.none c none) Set.univ (bodyAt4 a t) (fun _ => bodyPost4 V a c t) := by
  unfold bodyPre4 bodyPost4 bodyAt4
  simp only [before4_0, before4_1, before4_2, before4_3]
  rw [show (dat4 V a c).Φ t.succ = (dat4 V a c).Φ t.castSucc from rfl,
    show (dat4 V a c).owesAt () t.succ = (dat4 V a c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ _ _ _ _ (iblk4 V a c 0 t) (iblk4 V a c 1 t) (iblk4 V a c 2 t) (iblk4 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation4 (c : Dev nD) : BodyObligation (dat4 (F := F) V a c) (defs₀ (F := F)) Variants.none () Set.univ := fun t => by
  rw [bigSep_W4, bigSep_W4]
  exact sound_body4 V a c t

end Cert.KernelIdeal.Hand

end
-- ==== Proof.KIBody5.lean ====
/-
  One edge's score as the kernel body computes it, and the body's triple.

  The body reads the two gathered rows (one row of the node features for the edge's source node, one for its
  destination node), the 256 weights and the bias from its staging buffers, and writes the single score
  `(∑ row_s · W[0:128]) + (∑ row_d · W[128:256]) + b` to its one-element output buffer. `out5` is what the output
  buffer holds afterwards as a function of the four input buffers; `sound_kernel5` says the body, run on whole
  staging buffers holding those contents, ends with the inputs as they were and the output at `out5` of them.
-/
import proofs.«405368_j31662498906597_2_alg».proof.Proof.LaunchKernelIdeal
import proofs.«405368_j31662498906597_2_alg».proof.Proof.Gen.KernelIdeal.Skeleton
import proofs.«405368_j31662498906597_2_alg».proof.Proof.KIBody0
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The output buffer after the body, from the four input buffers (source row, destination row, weights, bias): its
    one store, of the score. -/
def out5 (x0 x1 : Vec F S1x1x128 .f32) (x2 : Vec F S1x256 .f32) (x3 : Vec F S1x1 .f32) : Vec F S1x1x1 .f32 :=
  View.canon [⟨rO, k5_pay1 (View.ld x2 rW0) (View.ld x2 rW1) (View.ld x0 rH) (View.ld x1 rH) (View.ld x3 rB)⟩]

/-- The one store covers the one-element buffer. -/
theorem cover5 (p0 : Vec F S1x1x1 .f32) (y : S1x1x1.Idx) :
    ∃ pc ∈ ([⟨rO, p0⟩] : List (View.Piece (Elt F) S1x1x1 .f32)), y ∈ pc.1.set :=
  View.cover_of_tiled [⟨rO, p0⟩] S1x1x1.size (by rfl) y

set_option maxHeartbeats 1000000 in
/-- The body on whole staging buffers: the inputs at `x0 … x3`, the output at anything; it ends with the inputs as
    they were and the output at `out5` of them. The two index tables are not touched. -/
theorem sound_kernel5 (c : Dev nD) (E : Set ℕ) (i : grid5.Coords)
    (arg1 : Memref sig .tc .smem S62500 .i32) (harg1 : arg1.IsWhole) (arg2 : Memref sig .tc .smem S62500 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x256 .f32) (harg5 : arg5.IsWhole) (arg6 : Memref sig .tc .vmem S1x1 .f32) (harg6 : arg6.IsWhole)
    (arg7 : Memref sig .tc .vmem S1x1x1 .f32) (harg7 : arg7.IsWhole)
    (x0 x1 : Vec F S1x1x128 .f32) (x2 : Vec F S1x256 .f32) (x3 : Vec F S1x1 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ (∃ d, owns (c : Thread nD τ) arg7 fullShare d)
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare (out5 x0 x1 x2 x3)) -∗ K ⟨⟩))
      ⊢ wp frame (wpE (defs₀ (F := F)) Variants.none c none) E
          (cc5__gather_score_kernel i arg1 harg1 arg2 harg2 arg3 harg3 arg4 harg4 arg5 harg5 arg6 harg6 arg7 harg7) K := by
  -- the printed body is its skeleton of six loads and one store over the payload
  simp only [cc5__gather_score_kernel_eq_skeleton]; unfold cc5__gather_score_kernel_skel
  -- each input's ownership is some contents with the given read; the output's is any contents
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  -- the loads leave every buffer as it was (the value loaded from the output buffer is not used); the store
  -- overwrites the output buffer's one cell with the payload of the five input loads
  sl_exec
  sl_step
  iapply Hk
  -- the four inputs come back at the contents they had
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  -- the output: old contents overwritten by one store that covers the buffer read back as that store alone
  iexists _; isplitr
  swap; · iexact H4
  ipureintro
  exact View.read_writes_eq_canon _ _ _ (cover5 _)

end Cert.KernelIdeal.Hand

end
-- ==== Proof.KIDat5.lean ====
/-
  Region 5 of the edge scorer: the pipeline's proof data and the body obligation.

  The region has 62500 grid points, one per edge of its chunk. At point `t` the pipeline stages five blocks: row
  `src t` of the node features (window 0) and row `dst t` (window 1) — both windows read the ONE feature array,
  their block indices taken from the two prefetched index tables —, the 256 weights (window 2), the bias
  (window 3), and the one-element block `t` of the output (window 4). The body leaves every input block as it
  found it and the output block at the edge's score (`out5` of the four input blocks). The two input windows
  on the shared feature array hold it at the two halves of the full share; the tables ride in the invariant,
  whole, untouched (the body never reads them); nothing is owed to other cores.
-/
import proofs.«405368_j31662498906597_2_alg».proof.Proof.KIBody5

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffers' contents when the region is entered, per core, and the tables' admissible contents: parameters
variable (V : (c : Dev nD) → (b : Ref sig .tc) → Buf (Elt F) ((c : Thread nD τ).loc b)) (a : (pcfg5 (F := F)).Adm)

/-- Window `w`'s block at point `t`, read off its array as the region finds it. -/
def iblk5 (c : Dev nD) (w : Fin (cfg5 a).W) (t : Fin (cfg5 a).N) :
    (((cfg5 a).win w).xblock ((cfg5 a).grid.coords t)).Idx → Elt F ((cfg5 a).win w).elt :=
  (((cfg5 a).win w).blk t).view.read (Elt F) (V c (Pipeline.arrRef spec5 w))

/-- The current staging memref of each window at point `t`. -/
abbrev st5_0 (t : Fin (cfg5 a).N) := ((cfg5 a).win 0).stage ((cfg5 a).slots t 0)
abbrev st5_1 (t : Fin (cfg5 a).N) := ((cfg5 a).win 1).stage ((cfg5 a).slots t 1)
abbrev st5_2 (t : Fin (cfg5 a).N) := ((cfg5 a).win 2).stage ((cfg5 a).slots t 2)
abbrev st5_3 (t : Fin (cfg5 a).N) := ((cfg5 a).win 3).stage ((cfg5 a).slots t 3)
abbrev st5_4 (t : Fin (cfg5 a).N) := ((cfg5 a).win 4).stage ((cfg5 a).slots t 4)

/-- The kernel body at point `t`, on what the pipeline calls it with. -/
abbrev bodyAt5 (t : Fin (cfg5 a).N) : Prog (TpuEff nD τ sig (Elt F) Λ₀ .tc) PUnit :=
  cc5__gather_score_kernel (grid5.coords t) (Memref.whole main_v22) (Memref.isWhole_whole _) (Memref.whole main_v23) (Memref.isWhole_whole _)
    (spec5_0.stage ((cfg5 a).slots t 0)) (hstage5_0 (((cfg5 a).slots t 0).cast nbuf5_0))
    (spec5_1.stage ((cfg5 a).slots t 1)) (hstage5_1 (((cfg5 a).slots t 1).cast nbuf5_1))
    (spec5_2.stage ((cfg5 a).slots t 2)) (hstage5_2 (((cfg5 a).slots t 2).cast nbuf5_2))
    (spec5_3.stage ((cfg5 a).slots t 3)) (hstage5_3 (((cfg5 a).slots t 3).cast nbuf5_3))
    (spec5_4.stage ((cfg5 a).slots t 4)) (hstage5_4 (((cfg5 a).slots t 4).cast nbuf5_4))

/-- The proof data of pipeline 5 on core `c`. -/
def dat5 (c : Dev nD) : Dat τ (Elt F) Unit ℕ (UR sig nD τ) ℕ (cfg5 a) c where
  A w := V c (Pipeline.arrRef spec5 w)
  after w t := match w with
    | ⟨0, _⟩ => iblk5 V a c 0 t
    | ⟨1, _⟩ => iblk5 V a c 1 t
    | ⟨2, _⟩ => iblk5 V a c 2 t
    | ⟨3, _⟩ => iblk5 V a c 3 t
    | ⟨4, _⟩ => out5 (iblk5 V a c 0 t) (iblk5 V a c 1 t) (iblk5 V a c 2 t) (iblk5 V a c 3 t)
  Φ _ := iprop(Pipeline.ΦA spec5 c ∗ Pipeline.prefHeld (Ix := Unit) (Name := ℕ) (U := UR sig nD τ) (Lvl := ℕ) pre5 c (fun _ => fullShare) a.1)
  q w := match w with
    | ⟨0, _⟩ => fullShare.left
    | ⟨1, _⟩ => fullShare.right
    | _ => fullShare
  owed _ := 0

theorem A_eq5 (c : Dev nD) (w : Fin (cfg5 a).W) : (dat5 V a c).A w = V c (Pipeline.arrRef spec5 w) := by
  dsimp only [dat5]

theorem after5_0 (c : Dev nD) (t : Fin (cfg5 a).N) : (dat5 V a c).after 0 t = iblk5 V a c 0 t := by dsimp only [dat5]; try rfl
theorem after5_1 (c : Dev nD) (t : Fin (cfg5 a).N) : (dat5 V a c).after 1 t = iblk5 V a c 1 t := by dsimp only [dat5]; try rfl
theorem after5_2 (c : Dev nD) (t : Fin (cfg5 a).N) : (dat5 V a c).after 2 t = iblk5 V a c 2 t := by dsimp only [dat5]; try rfl
theorem after5_3 (c : Dev nD) (t : Fin (cfg5 a).N) : (dat5 V a c).after 3 t = iblk5 V a c 3 t := by dsimp only [dat5]; try rfl
theorem after5_4 (c : Dev nD) (t : Fin (cfg5 a).N) :
    (dat5 V a c).after 4 t = out5 (iblk5 V a c 0 t) (iblk5 V a c 1 t) (iblk5 V a c 2 t) (iblk5 V a c 3 t) := by dsimp only [dat5]; try rfl

/-- An input window's current staging buffer holds its block at every point, fetched there or not: unfetched, the
    block index has not moved. -/
theorem before5_0 (c : Dev nD) (t : Fin (cfg5 a).N) (d) : (dat5 V a c).before 0 t d = iblk5 V a c 0 t :=
  ((dat5 V a c).before_in_eq_fetched 0 rfl (fun _ => rfl) (fun _ _ _ => rfl)
    (fun t => by rw [after5_0]; unfold Dat.blockOf iblk5; rw [A_eq5]; try rfl) t d).trans
    (by unfold Dat.fetched Dat.blockOf iblk5; rw [A_eq5]; try rfl)
theorem before5_1 (c : Dev nD) (t : Fin (cfg5 a).N) (d) : (dat5 V a c).before 1 t d = iblk5 V a c 1 t :=
  ((dat5 V a c).before_in_eq_fetched 1 rfl (fun _ => rfl) (fun _ _ _ => rfl)
    (fun t => by rw [after5_1]; unfold Dat.blockOf iblk5; rw [A_eq5]; try rfl) t d).trans
    (by unfold Dat.fetched Dat.blockOf iblk5; rw [A_eq5]; try rfl)
theorem before5_2 (c : Dev nD) (t : Fin (cfg5 a).N) (d) : (dat5 V a c).before 2 t d = iblk5 V a c 2 t :=
  ((dat5 V a c).before_in_eq_fetched 2 rfl (fun _ => rfl) (fun _ _ _ => rfl)
    (fun t => by rw [after5_2]; unfold Dat.blockOf iblk5; rw [A_eq5]; try rfl) t d).trans
    (by unfold Dat.fetched Dat.blockOf iblk5; rw [A_eq5]; try rfl)
theorem before5_3 (c : Dev nD) (t : Fin (cfg5 a).N) (d) : (dat5 V a c).before 3 t d = iblk5 V a c 3 t :=
  ((dat5 V a c).before_in_eq_fetched 3 rfl (fun _ => rfl) (fun _ _ _ => rfl)
    (fun t => by rw [after5_3]; unfold Dat.blockOf iblk5; rw [A_eq5]; try rfl) t d).trans
    (by unfold Dat.fetched Dat.blockOf iblk5; rw [A_eq5]; try rfl)

/-- What the body is called with at point `t`, the windows one by one, -/
def bodyPre5 (c : Dev nD) (t : Fin (cfg5 a).N) : sProp 𝕄 :=
  iprop((dat5 V a c).Φ t.castSucc ∗ (dat5 V a c).owesAt () t.castSucc
    ∗ (∃ d, owns (c : Thread nD τ) (st5_0 a t) fullShare ((dat5 V a c).before 0 t d))
    ∗ (∃ d, owns (c : Thread nD τ) (st5_1 a t) fullShare ((dat5 V a c).before 1 t d))
    ∗ (∃ d, owns (c : Thread nD τ) (st5_2 a t) fullShare ((dat5 V a c).before 2 t d))
    ∗ (∃ d, owns (c : Thread nD τ) (st5_3 a t) fullShare ((dat5 V a c).before 3 t d))
    ∗ (∃ d, owns (c : Thread nD τ) (st5_4 a t) fullShare ((dat5 V a c).before 4 t d)))

/-- and what it returns. -/
def bodyPost5 (c : Dev nD) (t : Fin (cfg5 a).N) : sProp 𝕄 :=
  iprop((dat5 V a c).Φ t.succ ∗ (dat5 V a c).owesAt () t.succ
    ∗ owns (c : Thread nD τ) (st5_0 a t) fullShare ((dat5 V a c).after 0 t)
    ∗ owns (c : Thread nD τ) (st5_1 a t) fullShare ((dat5 V a c).after 1 t)
    ∗ owns (c : Thread nD τ) (st5_2 a t) fullShare ((dat5 V a c).after 2 t)
    ∗ owns (c : Thread nD τ) (st5_3 a t) fullShare ((dat5 V a c).after 3 t)
    ∗ owns (c : Thread nD τ) (st5_4 a t) fullShare ((dat5 V a c).after 4 t))

/-- The body at any point: the inputs' buffers hold their blocks, so the body's triple applies; the invariant and the
    core's dues pass through unread. -/
theorem sound_body5 (c : Dev nD) (t : Fin (cfg5 a).N) :
    bodyPre5 V a c t ⊢ wp frame (wpE (defs₀ (F := F)) Variants.none c none) Set.univ (bodyAt5 a t) (fun _ => bodyPost5 V a c t) := by
  unfold bodyPre5 bodyPost5 bodyAt5
  simp only [before5_0, before5_1, before5_2, before5_3]
  rw [show (dat5 V a c).Φ t.succ = (dat5 V a c).Φ t.castSucc from rfl,
    show (dat5 V a c).owesAt () t.succ = (dat5 V a c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ _ _ _ _ _ _ _ _ _ _ _ _ _ _ _ (iblk5 V a c 0 t) (iblk5 V a c 1 t) (iblk5 V a c 2 t) (iblk5 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation5 (c : Dev nD) : BodyObligation (dat5 (F := F) V a c) (defs₀ (F := F)) Variants.none () Set.univ := fun t => by
  rw [bigSep_W5, bigSep_W5]
  exact sound_body5 V a c t

end Cert.KernelIdeal.Hand

end
-- ==== Proof.KIBody6.lean ====
/-
  One edge's score as the kernel body computes it, and the body's triple.

  The body reads the two gathered rows (one row of the node features for the edge's source node, one for its
  destination node), the 256 weights and the bias from its staging buffers, and writes the single score
  `(∑ row_s · W[0:128]) + (∑ row_d · W[128:256]) + b` to its one-element output buffer. `out6` is what the output
  buffer holds afterwards as a function of the four input buffers; `sound_kernel6` says the body, run on whole
  staging buffers holding those contents, ends with the inputs as they were and the output at `out6` of them.
-/
import proofs.«405368_j31662498906597_2_alg».proof.Proof.LaunchKernelIdeal
import proofs.«405368_j31662498906597_2_alg».proof.Proof.Gen.KernelIdeal.Skeleton
import proofs.«405368_j31662498906597_2_alg».proof.Proof.KIBody0
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The output buffer after the body, from the four input buffers (source row, destination row, weights, bias): its
    one store, of the score. -/
def out6 (x0 x1 : Vec F S1x1x128 .f32) (x2 : Vec F S1x256 .f32) (x3 : Vec F S1x1 .f32) : Vec F S1x1x1 .f32 :=
  View.canon [⟨rO, k6_pay1 (View.ld x2 rW0) (View.ld x2 rW1) (View.ld x0 rH) (View.ld x1 rH) (View.ld x3 rB)⟩]

/-- The one store covers the one-element buffer. -/
theorem cover6 (p0 : Vec F S1x1x1 .f32) (y : S1x1x1.Idx) :
    ∃ pc ∈ ([⟨rO, p0⟩] : List (View.Piece (Elt F) S1x1x1 .f32)), y ∈ pc.1.set :=
  View.cover_of_tiled [⟨rO, p0⟩] S1x1x1.size (by rfl) y

set_option maxHeartbeats 1000000 in
/-- The body on whole staging buffers: the inputs at `x0 … x3`, the output at anything; it ends with the inputs as
    they were and the output at `out6` of them. The two index tables are not touched. -/
theorem sound_kernel6 (c : Dev nD) (E : Set ℕ) (i : grid6.Coords)
    (arg1 : Memref sig .tc .smem S62500 .i32) (harg1 : arg1.IsWhole) (arg2 : Memref sig .tc .smem S62500 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x256 .f32) (harg5 : arg5.IsWhole) (arg6 : Memref sig .tc .vmem S1x1 .f32) (harg6 : arg6.IsWhole)
    (arg7 : Memref sig .tc .vmem S1x1x1 .f32) (harg7 : arg7.IsWhole)
    (x0 x1 : Vec F S1x1x128 .f32) (x2 : Vec F S1x256 .f32) (x3 : Vec F S1x1 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ (∃ d, owns (c : Thread nD τ) arg7 fullShare d)
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare (out6 x0 x1 x2 x3)) -∗ K ⟨⟩))
      ⊢ wp frame (wpE (defs₀ (F := F)) Variants.none c none) E
          (cc6__gather_score_kernel i arg1 harg1 arg2 harg2 arg3 harg3 arg4 harg4 arg5 harg5 arg6 harg6 arg7 harg7) K := by
  -- the printed body is its skeleton of six loads and one store over the payload
  simp only [cc6__gather_score_kernel_eq_skeleton]; unfold cc6__gather_score_kernel_skel
  -- each input's ownership is some contents with the given read; the output's is any contents
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  -- the loads leave every buffer as it was (the value loaded from the output buffer is not used); the store
  -- overwrites the output buffer's one cell with the payload of the five input loads
  sl_exec
  sl_step
  iapply Hk
  -- the four inputs come back at the contents they had
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  -- the output: old contents overwritten by one store that covers the buffer read back as that store alone
  iexists _; isplitr
  swap; · iexact H4
  ipureintro
  exact View.read_writes_eq_canon _ _ _ (cover6 _)

end Cert.KernelIdeal.Hand

end
-- ==== Proof.KIDat6.lean ====
/-
  Region 6 of the edge scorer: the pipeline's proof data and the body obligation.

  The region has 62500 grid points, one per edge of its chunk. At point `t` the pipeline stages five blocks: row
  `src t` of the node features (window 0) and row `dst t` (window 1) — both windows read the ONE feature array,
  their block indices taken from the two prefetched index tables —, the 256 weights (window 2), the bias
  (window 3), and the one-element block `t` of the output (window 4). The body leaves every input block as it
  found it and the output block at the edge's score (`out6` of the four input blocks). The two input windows
  on the shared feature array hold it at the two halves of the full share; the tables ride in the invariant,
  whole, untouched (the body never reads them); nothing is owed to other cores.
-/
import proofs.«405368_j31662498906597_2_alg».proof.Proof.KIBody6

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffers' contents when the region is entered, per core, and the tables' admissible contents: parameters
variable (V : (c : Dev nD) → (b : Ref sig .tc) → Buf (Elt F) ((c : Thread nD τ).loc b)) (a : (pcfg6 (F := F)).Adm)

/-- Window `w`'s block at point `t`, read off its array as the region finds it. -/
def iblk6 (c : Dev nD) (w : Fin (cfg6 a).W) (t : Fin (cfg6 a).N) :
    (((cfg6 a).win w).xblock ((cfg6 a).grid.coords t)).Idx → Elt F ((cfg6 a).win w).elt :=
  (((cfg6 a).win w).blk t).view.read (Elt F) (V c (Pipeline.arrRef spec6 w))

/-- The current staging memref of each window at point `t`. -/
abbrev st6_0 (t : Fin (cfg6 a).N) := ((cfg6 a).win 0).stage ((cfg6 a).slots t 0)
abbrev st6_1 (t : Fin (cfg6 a).N) := ((cfg6 a).win 1).stage ((cfg6 a).slots t 1)
abbrev st6_2 (t : Fin (cfg6 a).N) := ((cfg6 a).win 2).stage ((cfg6 a).slots t 2)
abbrev st6_3 (t : Fin (cfg6 a).N) := ((cfg6 a).win 3).stage ((cfg6 a).slots t 3)
abbrev st6_4 (t : Fin (cfg6 a).N) := ((cfg6 a).win 4).stage ((cfg6 a).slots t 4)

/-- The kernel body at point `t`, on what the pipeline calls it with. -/
abbrev bodyAt6 (t : Fin (cfg6 a).N) : Prog (TpuEff nD τ sig (Elt F) Λ₀ .tc) PUnit :=
  cc6__gather_score_kernel (grid6.coords t) (Memref.whole main_v26) (Memref.isWhole_whole _) (Memref.whole main_v27) (Memref.isWhole_whole _)
    (spec6_0.stage ((cfg6 a).slots t 0)) (hstage6_0 (((cfg6 a).slots t 0).cast nbuf6_0))
    (spec6_1.stage ((cfg6 a).slots t 1)) (hstage6_1 (((cfg6 a).slots t 1).cast nbuf6_1))
    (spec6_2.stage ((cfg6 a).slots t 2)) (hstage6_2 (((cfg6 a).slots t 2).cast nbuf6_2))
    (spec6_3.stage ((cfg6 a).slots t 3)) (hstage6_3 (((cfg6 a).slots t 3).cast nbuf6_3))
    (spec6_4.stage ((cfg6 a).slots t 4)) (hstage6_4 (((cfg6 a).slots t 4).cast nbuf6_4))

/-- The proof data of pipeline 6 on core `c`. -/
def dat6 (c : Dev nD) : Dat τ (Elt F) Unit ℕ (UR sig nD τ) ℕ (cfg6 a) c where
  A w := V c (Pipeline.arrRef spec6 w)
  after w t := match w with
    | ⟨0, _⟩ => iblk6 V a c 0 t
    | ⟨1, _⟩ => iblk6 V a c 1 t
    | ⟨2, _⟩ => iblk6 V a c 2 t
    | ⟨3, _⟩ => iblk6 V a c 3 t
    | ⟨4, _⟩ => out6 (iblk6 V a c 0 t) (iblk6 V a c 1 t) (iblk6 V a c 2 t) (iblk6 V a c 3 t)
  Φ _ := iprop(Pipeline.ΦA spec6 c ∗ Pipeline.prefHeld (Ix := Unit) (Name := ℕ) (U := UR sig nD τ) (Lvl := ℕ) pre6 c (fun _ => fullShare) a.1)
  q w := match w with
    | ⟨0, _⟩ => fullShare.left
    | ⟨1, _⟩ => fullShare.right
    | _ => fullShare
  owed _ := 0

theorem A_eq6 (c : Dev nD) (w : Fin (cfg6 a).W) : (dat6 V a c).A w = V c (Pipeline.arrRef spec6 w) := by
  dsimp only [dat6]

theorem after6_0 (c : Dev nD) (t : Fin (cfg6 a).N) : (dat6 V a c).after 0 t = iblk6 V a c 0 t := by dsimp only [dat6]; try rfl
theorem after6_1 (c : Dev nD) (t : Fin (cfg6 a).N) : (dat6 V a c).after 1 t = iblk6 V a c 1 t := by dsimp only [dat6]; try rfl
theorem after6_2 (c : Dev nD) (t : Fin (cfg6 a).N) : (dat6 V a c).after 2 t = iblk6 V a c 2 t := by dsimp only [dat6]; try rfl
theorem after6_3 (c : Dev nD) (t : Fin (cfg6 a).N) : (dat6 V a c).after 3 t = iblk6 V a c 3 t := by dsimp only [dat6]; try rfl
theorem after6_4 (c : Dev nD) (t : Fin (cfg6 a).N) :
    (dat6 V a c).after 4 t = out6 (iblk6 V a c 0 t) (iblk6 V a c 1 t) (iblk6 V a c 2 t) (iblk6 V a c 3 t) := by dsimp only [dat6]; try rfl

/-- An input window's current staging buffer holds its block at every point, fetched there or not: unfetched, the
    block index has not moved. -/
theorem before6_0 (c : Dev nD) (t : Fin (cfg6 a).N) (d) : (dat6 V a c).before 0 t d = iblk6 V a c 0 t :=
  ((dat6 V a c).before_in_eq_fetched 0 rfl (fun _ => rfl) (fun _ _ _ => rfl)
    (fun t => by rw [after6_0]; unfold Dat.blockOf iblk6; rw [A_eq6]; try rfl) t d).trans
    (by unfold Dat.fetched Dat.blockOf iblk6; rw [A_eq6]; try rfl)
theorem before6_1 (c : Dev nD) (t : Fin (cfg6 a).N) (d) : (dat6 V a c).before 1 t d = iblk6 V a c 1 t :=
  ((dat6 V a c).before_in_eq_fetched 1 rfl (fun _ => rfl) (fun _ _ _ => rfl)
    (fun t => by rw [after6_1]; unfold Dat.blockOf iblk6; rw [A_eq6]; try rfl) t d).trans
    (by unfold Dat.fetched Dat.blockOf iblk6; rw [A_eq6]; try rfl)
theorem before6_2 (c : Dev nD) (t : Fin (cfg6 a).N) (d) : (dat6 V a c).before 2 t d = iblk6 V a c 2 t :=
  ((dat6 V a c).before_in_eq_fetched 2 rfl (fun _ => rfl) (fun _ _ _ => rfl)
    (fun t => by rw [after6_2]; unfold Dat.blockOf iblk6; rw [A_eq6]; try rfl) t d).trans
    (by unfold Dat.fetched Dat.blockOf iblk6; rw [A_eq6]; try rfl)
theorem before6_3 (c : Dev nD) (t : Fin (cfg6 a).N) (d) : (dat6 V a c).before 3 t d = iblk6 V a c 3 t :=
  ((dat6 V a c).before_in_eq_fetched 3 rfl (fun _ => rfl) (fun _ _ _ => rfl)
    (fun t => by rw [after6_3]; unfold Dat.blockOf iblk6; rw [A_eq6]; try rfl) t d).trans
    (by unfold Dat.fetched Dat.blockOf iblk6; rw [A_eq6]; try rfl)

/-- What the body is called with at point `t`, the windows one by one, -/
def bodyPre6 (c : Dev nD) (t : Fin (cfg6 a).N) : sProp 𝕄 :=
  iprop((dat6 V a c).Φ t.castSucc ∗ (dat6 V a c).owesAt () t.castSucc
    ∗ (∃ d, owns (c : Thread nD τ) (st6_0 a t) fullShare ((dat6 V a c).before 0 t d))
    ∗ (∃ d, owns (c : Thread nD τ) (st6_1 a t) fullShare ((dat6 V a c).before 1 t d))
    ∗ (∃ d, owns (c : Thread nD τ) (st6_2 a t) fullShare ((dat6 V a c).before 2 t d))
    ∗ (∃ d, owns (c : Thread nD τ) (st6_3 a t) fullShare ((dat6 V a c).before 3 t d))
    ∗ (∃ d, owns (c : Thread nD τ) (st6_4 a t) fullShare ((dat6 V a c).before 4 t d)))

/-- and what it returns. -/
def bodyPost6 (c : Dev nD) (t : Fin (cfg6 a).N) : sProp 𝕄 :=
  iprop((dat6 V a c).Φ t.succ ∗ (dat6 V a c).owesAt () t.succ
    ∗ owns (c : Thread nD τ) (st6_0 a t) fullShare ((dat6 V a c).after 0 t)
    ∗ owns (c : Thread nD τ) (st6_1 a t) fullShare ((dat6 V a c).after 1 t)
    ∗ owns (c : Thread nD τ) (st6_2 a t) fullShare ((dat6 V a c).after 2 t)
    ∗ owns (c : Thread nD τ) (st6_3 a t) fullShare ((dat6 V a c).after 3 t)
    ∗ owns (c : Thread nD τ) (st6_4 a t) fullShare ((dat6 V a c).after 4 t))

/-- The body at any point: the inputs' buffers hold their blocks, so the body's triple applies; the invariant and the
    core's dues pass through unread. -/
theorem sound_body6 (c : Dev nD) (t : Fin (cfg6 a).N) :
    bodyPre6 V a c t ⊢ wp frame (wpE (defs₀ (F := F)) Variants.none c none) Set.univ (bodyAt6 a t) (fun _ => bodyPost6 V a c t) := by
  unfold bodyPre6 bodyPost6 bodyAt6
  simp only [before6_0, before6_1, before6_2, before6_3]
  rw [show (dat6 V a c).Φ t.succ = (dat6 V a c).Φ t.castSucc from rfl,
    show (dat6 V a c).owesAt () t.succ = (dat6 V a c).owesAt () t.castSucc from rfl,
    after6_0, after6_1, after6_2, after6_3, after6_4]
  iintro ⟨HΦ, Ho, ⟨%d0, H0⟩, ⟨%d1, H1⟩, ⟨%d2, H2⟩, ⟨%d3, H3⟩, ⟨%d4, H4⟩⟩
  iapply (sound_kernel6 c Set.univ _ _ _ _ _ _ _ _ _ _ _ _ _ _ _ (iblk6 V a c 0 t) (iblk6 V a c 1 t) (iblk6 V a c 2 t) (iblk6 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation6 (c : Dev nD) : BodyObligation (dat6 (F := F) V a c) (defs₀ (F := F)) Variants.none () Set.univ := fun t => by
  rw [bigSep_W6, bigSep_W6]
  exact sound_body6 V a c t

end Cert.KernelIdeal.Hand

end
-- ==== Proof.KIBody7.lean ====
/-
  One edge's score as the kernel body computes it, and the body's triple.

  The body reads the two gathered rows (one row of the node features for the edge's source node, one for its
  destination node), the 256 weights and the bias from its staging buffers, and writes the single score
  `(∑ row_s · W[0:128]) + (∑ row_d · W[128:256]) + b` to its one-element output buffer. `out7` is what the output
  buffer holds afterwards as a function of the four input buffers; `sound_kernel7` says the body, run on whole
  staging buffers holding those contents, ends with the inputs as they were and the output at `out7` of them.
-/
import proofs.«405368_j31662498906597_2_alg».proof.Proof.LaunchKernelIdeal
import proofs.«405368_j31662498906597_2_alg».proof.Proof.Gen.KernelIdeal.Skeleton
import proofs.«405368_j31662498906597_2_alg».proof.Proof.KIBody0
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The output buffer after the body, from the four input buffers (source row, destination row, weights, bias): its
    one store, of the score. -/
def out7 (x0 x1 : Vec F S1x1x128 .f32) (x2 : Vec F S1x256 .f32) (x3 : Vec F S1x1 .f32) : Vec F S1x1x1 .f32 :=
  View.canon [⟨rO, k7_pay1 (View.ld x2 rW0) (View.ld x2 rW1) (View.ld x0 rH) (View.ld x1 rH) (View.ld x3 rB)⟩]

/-- The one store covers the one-element buffer. -/
theorem cover7 (p0 : Vec F S1x1x1 .f32) (y : S1x1x1.Idx) :
    ∃ pc ∈ ([⟨rO, p0⟩] : List (View.Piece (Elt F) S1x1x1 .f32)), y ∈ pc.1.set :=
  View.cover_of_tiled [⟨rO, p0⟩] S1x1x1.size (by rfl) y

set_option maxHeartbeats 1000000 in
/-- The body on whole staging buffers: the inputs at `x0 … x3`, the output at anything; it ends with the inputs as
    they were and the output at `out7` of them. The two index tables are not touched. -/
theorem sound_kernel7 (c : Dev nD) (E : Set ℕ) (i : grid7.Coords)
    (arg1 : Memref sig .tc .smem S62500 .i32) (harg1 : arg1.IsWhole) (arg2 : Memref sig .tc .smem S62500 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x256 .f32) (harg5 : arg5.IsWhole) (arg6 : Memref sig .tc .vmem S1x1 .f32) (harg6 : arg6.IsWhole)
    (arg7 : Memref sig .tc .vmem S1x1x1 .f32) (harg7 : arg7.IsWhole)
    (x0 x1 : Vec F S1x1x128 .f32) (x2 : Vec F S1x256 .f32) (x3 : Vec F S1x1 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ (∃ d, owns (c : Thread nD τ) arg7 fullShare d)
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare (out7 x0 x1 x2 x3)) -∗ K ⟨⟩))
      ⊢ wp frame (wpE (defs₀ (F := F)) Variants.none c none) E
          (cc7__gather_score_kernel i arg1 harg1 arg2 harg2 arg3 harg3 arg4 harg4 arg5 harg5 arg6 harg6 arg7 harg7) K := by
  -- the printed body is its skeleton of six loads and one store over the payload
  simp only [cc7__gather_score_kernel_eq_skeleton]; unfold cc7__gather_score_kernel_skel
  -- each input's ownership is some contents with the given read; the output's is any contents
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  -- the loads leave every buffer as it was (the value loaded from the output buffer is not used); the store
  -- overwrites the output buffer's one cell with the payload of the five input loads
  sl_exec
  sl_step
  iapply Hk
  -- the four inputs come back at the contents they had
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  -- the output: old contents overwritten by one store that covers the buffer read back as that store alone
  iexists _; isplitr
  swap; · iexact H4
  ipureintro
  exact View.read_writes_eq_canon _ _ _ (cover7 _)

end Cert.KernelIdeal.Hand

end
-- ==== Proof.KIDat7.lean ====
/-
  Region 7 of the edge scorer: the pipeline's proof data and the body obligation.

  The region has 62500 grid points, one per edge of its chunk. At point `t` the pipeline stages five blocks: row
  `src t` of the node features (window 0) and row `dst t` (window 1) — both windows read the ONE feature array,
  their block indices taken from the two prefetched index tables —, the 256 weights (window 2), the bias
  (window 3), and the one-element block `t` of the output (window 4). The body leaves every input block as it
  found it and the output block at the edge's score (`out7` of the four input blocks). The two input windows
  on the shared feature array hold it at the two halves of the full share; the tables ride in the invariant,
  whole, untouched (the body never reads them); nothing is owed to other cores.
-/
import proofs.«405368_j31662498906597_2_alg».proof.Proof.KIBody7

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffers' contents when the region is entered, per core, and the tables' admissible contents: parameters
variable (V : (c : Dev nD) → (b : Ref sig .tc) → Buf (Elt F) ((c : Thread nD τ).loc b)) (a : (pcfg7 (F := F)).Adm)

/-- Window `w`'s block at point `t`, read off its array as the region finds it. -/
def iblk7 (c : Dev nD) (w : Fin (cfg7 a).W) (t : Fin (cfg7 a).N) :
    (((cfg7 a).win w).xblock ((cfg7 a).grid.coords t)).Idx → Elt F ((cfg7 a).win w).elt :=
  (((cfg7 a).win w).blk t).view.read (Elt F) (V c (Pipeline.arrRef spec7 w))

/-- The current staging memref of each window at point `t`. -/
abbrev st7_0 (t : Fin (cfg7 a).N) := ((cfg7 a).win 0).stage ((cfg7 a).slots t 0)
abbrev st7_1 (t : Fin (cfg7 a).N) := ((cfg7 a).win 1).stage ((cfg7 a).slots t 1)
abbrev st7_2 (t : Fin (cfg7 a).N) := ((cfg7 a).win 2).stage ((cfg7 a).slots t 2)
abbrev st7_3 (t : Fin (cfg7 a).N) := ((cfg7 a).win 3).stage ((cfg7 a).slots t 3)
abbrev st7_4 (t : Fin (cfg7 a).N) := ((cfg7 a).win 4).stage ((cfg7 a).slots t 4)

/-- The kernel body at point `t`, on what the pipeline calls it with. -/
abbrev bodyAt7 (t : Fin (cfg7 a).N) : Prog (TpuEff nD τ sig (Elt F) Λ₀ .tc) PUnit :=
  cc7__gather_score_kernel (grid7.coords t) (Memref.whole main_v30) (Memref.isWhole_whole _) (Memref.whole main_v31) (Memref.isWhole_whole _)
    (spec7_0.stage ((cfg7 a).slots t 0)) (hstage7_0 (((cfg7 a).slots t 0).cast nbuf7_0))
    (spec7_1.stage ((cfg7 a).slots t 1)) (hstage7_1 (((cfg7 a).slots t 1).cast nbuf7_1))
    (spec7_2.stage ((cfg7 a).slots t 2)) (hstage7_2 (((cfg7 a).slots t 2).cast nbuf7_2))
    (spec7_3.stage ((cfg7 a).slots t 3)) (hstage7_3 (((cfg7 a).slots t 3).cast nbuf7_3))
    (spec7_4.stage ((cfg7 a).slots t 4)) (hstage7_4 (((cfg7 a).slots t 4).cast nbuf7_4))

/-- The proof data of pipeline 7 on core `c`. -/
def dat7 (c : Dev nD) : Dat τ (Elt F) Unit ℕ (UR sig nD τ) ℕ (cfg7 a) c where
  A w := V c (Pipeline.arrRef spec7 w)
  after w t := match w with
    | ⟨0, _⟩ => iblk7 V a c 0 t
    | ⟨1, _⟩ => iblk7 V a c 1 t
    | ⟨2, _⟩ => iblk7 V a c 2 t
    | ⟨3, _⟩ => iblk7 V a c 3 t
    | ⟨4, _⟩ => out7 (iblk7 V a c 0 t) (iblk7 V a c 1 t) (iblk7 V a c 2 t) (iblk7 V a c 3 t)
  Φ _ := iprop(Pipeline.ΦA spec7 c ∗ Pipeline.prefHeld (Ix := Unit) (Name := ℕ) (U := UR sig nD τ) (Lvl := ℕ) pre7 c (fun _ => fullShare) a.1)
  q w := match w with
    | ⟨0, _⟩ => fullShare.left
    | ⟨1, _⟩ => fullShare.right
    | _ => fullShare
  owed _ := 0

theorem A_eq7 (c : Dev nD) (w : Fin (cfg7 a).W) : (dat7 V a c).A w = V c (Pipeline.arrRef spec7 w) := by
  dsimp only [dat7]

theorem after7_0 (c : Dev nD) (t : Fin (cfg7 a).N) : (dat7 V a c).after 0 t = iblk7 V a c 0 t := by dsimp only [dat7]; try rfl
theorem after7_1 (c : Dev nD) (t : Fin (cfg7 a).N) : (dat7 V a c).after 1 t = iblk7 V a c 1 t := by dsimp only [dat7]; try rfl
theorem after7_2 (c : Dev nD) (t : Fin (cfg7 a).N) : (dat7 V a c).after 2 t = iblk7 V a c 2 t := by dsimp only [dat7]; try rfl
theorem after7_3 (c : Dev nD) (t : Fin (cfg7 a).N) : (dat7 V a c).after 3 t = iblk7 V a c 3 t := by dsimp only [dat7]; try rfl
theorem after7_4 (c : Dev nD) (t : Fin (cfg7 a).N) :
    (dat7 V a c).after 4 t = out7 (iblk7 V a c 0 t) (iblk7 V a c 1 t) (iblk7 V a c 2 t) (iblk7 V a c 3 t) := by dsimp only [dat7]; try rfl

/-- An input window's current staging buffer holds its block at every point, fetched there or not: unfetched, the
    block index has not moved. -/
theorem before7_0 (c : Dev nD) (t : Fin (cfg7 a).N) (d) : (dat7 V a c).before 0 t d = iblk7 V a c 0 t :=
  ((dat7 V a c).before_in_eq_fetched 0 rfl (fun _ => rfl) (fun _ _ _ => rfl)
    (fun t => by rw [after7_0]; unfold Dat.blockOf iblk7; rw [A_eq7]; try rfl) t d).trans
    (by unfold Dat.fetched Dat.blockOf iblk7; rw [A_eq7]; try rfl)
theorem before7_1 (c : Dev nD) (t : Fin (cfg7 a).N) (d) : (dat7 V a c).before 1 t d = iblk7 V a c 1 t :=
  ((dat7 V a c).before_in_eq_fetched 1 rfl (fun _ => rfl) (fun _ _ _ => rfl)
    (fun t => by rw [after7_1]; unfold Dat.blockOf iblk7; rw [A_eq7]; try rfl) t d).trans
    (by unfold Dat.fetched Dat.blockOf iblk7; rw [A_eq7]; try rfl)
theorem before7_2 (c : Dev nD) (t : Fin (cfg7 a).N) (d) : (dat7 V a c).before 2 t d = iblk7 V a c 2 t :=
  ((dat7 V a c).before_in_eq_fetched 2 rfl (fun _ => rfl) (fun _ _ _ => rfl)
    (fun t => by rw [after7_2]; unfold Dat.blockOf iblk7; rw [A_eq7]; try rfl) t d).trans
    (by unfold Dat.fetched Dat.blockOf iblk7; rw [A_eq7]; try rfl)
theorem before7_3 (c : Dev nD) (t : Fin (cfg7 a).N) (d) : (dat7 V a c).before 3 t d = iblk7 V a c 3 t :=
  ((dat7 V a c).before_in_eq_fetched 3 rfl (fun _ => rfl) (fun _ _ _ => rfl)
    (fun t => by rw [after7_3]; unfold Dat.blockOf iblk7; rw [A_eq7]; try rfl) t d).trans
    (by unfold Dat.fetched Dat.blockOf iblk7; rw [A_eq7]; try rfl)

/-- What the body is called with at point `t`, the windows one by one, -/
def bodyPre7 (c : Dev nD) (t : Fin (cfg7 a).N) : sProp 𝕄 :=
  iprop((dat7 V a c).Φ t.castSucc ∗ (dat7 V a c).owesAt () t.castSucc
    ∗ (∃ d, owns (c : Thread nD τ) (st7_0 a t) fullShare ((dat7 V a c).before 0 t d))
    ∗ (∃ d, owns (c : Thread nD τ) (st7_1 a t) fullShare ((dat7 V a c).before 1 t d))
    ∗ (∃ d, owns (c : Thread nD τ) (st7_2 a t) fullShare ((dat7 V a c).before 2 t d))
    ∗ (∃ d, owns (c : Thread nD τ) (st7_3 a t) fullShare ((dat7 V a c).before 3 t d))
    ∗ (∃ d, owns (c : Thread nD τ) (st7_4 a t) fullShare ((dat7 V a c).before 4 t d)))

/-- and what it returns. -/
def bodyPost7 (c : Dev nD) (t : Fin (cfg7 a).N) : sProp 𝕄 :=
  iprop((dat7 V a c).Φ t.succ ∗ (dat7 V a c).owesAt () t.succ
    ∗ owns (c : Thread nD τ) (st7_0 a t) fullShare ((dat7 V a c).after 0 t)
    ∗ owns (c : Thread nD τ) (st7_1 a t) fullShare ((dat7 V a c).after 1 t)
    ∗ owns (c : Thread nD τ) (st7_2 a t) fullShare ((dat7 V a c).after 2 t)
    ∗ owns (c : Thread nD τ) (st7_3 a t) fullShare ((dat7 V a c).after 3 t)
    ∗ owns (c : Thread nD τ) (st7_4 a t) fullShare ((dat7 V a c).after 4 t))

/-- The body at any point: the inputs' buffers hold their blocks, so the body's triple applies; the invariant and the
    core's dues pass through unread. -/
theorem sound_body7 (c : Dev nD) (t : Fin (cfg7 a).N) :
    bodyPre7 V a c t ⊢ wp frame (wpE (defs₀ (F := F)) Variants.none c none) Set.univ (bodyAt7 a t) (fun _ => bodyPost7 V a c t) := by
  unfold bodyPre7 bodyPost7 bodyAt7
  simp only [before7_0, before7_1, before7_2, before7_3]
  rw [show (dat7 V a c).Φ t.succ = (dat7 V a c).Φ t.castSucc from rfl,
    show (dat7 V a c).owesAt () t.succ = (dat7 V a c).owesAt () t.castSucc from rfl,
    after7_0, after7_1, after7_2, after7_3, after7_4]
  iintro ⟨HΦ, Ho, ⟨%d0, H0⟩, ⟨%d1, H1⟩, ⟨%d2, H2⟩, ⟨%d3, H3⟩, ⟨%d4, H4⟩⟩
  iapply (sound_kernel7 c Set.univ _ _ _ _ _ _ _ _ _ _ _ _ _ _ _ (iblk7 V a c 0 t) (iblk7 V a c 1 t) (iblk7 V a c 2 t) (iblk7 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation7 (c : Dev nD) : BodyObligation (dat7 (F := F) V a c) (defs₀ (F := F)) Variants.none () Set.univ := fun t => by
  rw [bigSep_W7, bigSep_W7]
  exact sound_body7 V a c t

end Cert.KernelIdeal.Hand

end
-- ==== Proof.KIBody8.lean ====
/-
  One edge's score as the kernel body computes it, and the body's triple.

  The body reads the two gathered rows (one row of the node features for the edge's source node, one for its
  destination node), the 256 weights and the bias from its staging buffers, and writes the single score
  `(∑ row_s · W[0:128]) + (∑ row_d · W[128:256]) + b` to its one-element output buffer. `out8` is what the output
  buffer holds afterwards as a function of the four input buffers; `sound_kernel8` says the body, run on whole
  staging buffers holding those contents, ends with the inputs as they were and the output at `out8` of them.
-/
import proofs.«405368_j31662498906597_2_alg».proof.Proof.LaunchKernelIdeal
import proofs.«405368_j31662498906597_2_alg».proof.Proof.Gen.KernelIdeal.Skeleton
import proofs.«405368_j31662498906597_2_alg».proof.Proof.KIBody0
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The output buffer after the body, from the four input buffers (source row, destination row, weights, bias): its
    one store, of the score. -/
def out8 (x0 x1 : Vec F S1x1x128 .f32) (x2 : Vec F S1x256 .f32) (x3 : Vec F S1x1 .f32) : Vec F S1x1x1 .f32 :=
  View.canon [⟨rO, k8_pay1 (View.ld x2 rW0) (View.ld x2 rW1) (View.ld x0 rH) (View.ld x1 rH) (View.ld x3 rB)⟩]

/-- The one store covers the one-element buffer. -/
theorem cover8 (p0 : Vec F S1x1x1 .f32) (y : S1x1x1.Idx) :
    ∃ pc ∈ ([⟨rO, p0⟩] : List (View.Piece (Elt F) S1x1x1 .f32)), y ∈ pc.1.set :=
  View.cover_of_tiled [⟨rO, p0⟩] S1x1x1.size (by rfl) y

set_option maxHeartbeats 1000000 in
/-- The body on whole staging buffers: the inputs at `x0 … x3`, the output at anything; it ends with the inputs as
    they were and the output at `out8` of them. The two index tables are not touched. -/
theorem sound_kernel8 (c : Dev nD) (E : Set ℕ) (i : grid8.Coords)
    (arg1 : Memref sig .tc .smem S62500 .i32) (harg1 : arg1.IsWhole) (arg2 : Memref sig .tc .smem S62500 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x256 .f32) (harg5 : arg5.IsWhole) (arg6 : Memref sig .tc .vmem S1x1 .f32) (harg6 : arg6.IsWhole)
    (arg7 : Memref sig .tc .vmem S1x1x1 .f32) (harg7 : arg7.IsWhole)
    (x0 x1 : Vec F S1x1x128 .f32) (x2 : Vec F S1x256 .f32) (x3 : Vec F S1x1 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ (∃ d, owns (c : Thread nD τ) arg7 fullShare d)
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare (out8 x0 x1 x2 x3)) -∗ K ⟨⟩))
      ⊢ wp frame (wpE (defs₀ (F := F)) Variants.none c none) E
          (cc8__gather_score_kernel i arg1 harg1 arg2 harg2 arg3 harg3 arg4 harg4 arg5 harg5 arg6 harg6 arg7 harg7) K := by
  -- the printed body is its skeleton of six loads and one store over the payload
  simp only [cc8__gather_score_kernel_eq_skeleton]; unfold cc8__gather_score_kernel_skel
  -- each input's ownership is some contents with the given read; the output's is any contents
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  -- the loads leave every buffer as it was (the value loaded from the output buffer is not used); the store
  -- overwrites the output buffer's one cell with the payload of the five input loads
  sl_exec
  sl_step
  iapply Hk
  -- the four inputs come back at the contents they had
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  -- the output: old contents overwritten by one store that covers the buffer read back as that store alone
  iexists _; isplitr
  swap; · iexact H4
  ipureintro
  exact View.read_writes_eq_canon _ _ _ (cover8 _)

end Cert.KernelIdeal.Hand

end
-- ==== Proof.KIDat8.lean ====
/-
  Region 8 of the edge scorer: the pipeline's proof data and the body obligation.

  The region has 62500 grid points, one per edge of its chunk. At point `t` the pipeline stages five blocks: row
  `src t` of the node features (window 0) and row `dst t` (window 1) — both windows read the ONE feature array,
  their block indices taken from the two prefetched index tables —, the 256 weights (window 2), the bias
  (window 3), and the one-element block `t` of the output (window 4). The body leaves every input block as it
  found it and the output block at the edge's score (`out8` of the four input blocks). The two input windows
  on the shared feature array hold it at the two halves of the full share; the tables ride in the invariant,
  whole, untouched (the body never reads them); nothing is owed to other cores.
-/
import proofs.«405368_j31662498906597_2_alg».proof.Proof.KIBody8

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffers' contents when the region is entered, per core, and the tables' admissible contents: parameters
variable (V : (c : Dev nD) → (b : Ref sig .tc) → Buf (Elt F) ((c : Thread nD τ).loc b)) (a : (pcfg8 (F := F)).Adm)

/-- Window `w`'s block at point `t`, read off its array as the region finds it. -/
def iblk8 (c : Dev nD) (w : Fin (cfg8 a).W) (t : Fin (cfg8 a).N) :
    (((cfg8 a).win w).xblock ((cfg8 a).grid.coords t)).Idx → Elt F ((cfg8 a).win w).elt :=
  (((cfg8 a).win w).blk t).view.read (Elt F) (V c (Pipeline.arrRef spec8 w))

/-- The current staging memref of each window at point `t`. -/
abbrev st8_0 (t : Fin (cfg8 a).N) := ((cfg8 a).win 0).stage ((cfg8 a).slots t 0)
abbrev st8_1 (t : Fin (cfg8 a).N) := ((cfg8 a).win 1).stage ((cfg8 a).slots t 1)
abbrev st8_2 (t : Fin (cfg8 a).N) := ((cfg8 a).win 2).stage ((cfg8 a).slots t 2)
abbrev st8_3 (t : Fin (cfg8 a).N) := ((cfg8 a).win 3).stage ((cfg8 a).slots t 3)
abbrev st8_4 (t : Fin (cfg8 a).N) := ((cfg8 a).win 4).stage ((cfg8 a).slots t 4)

/-- The kernel body at point `t`, on what the pipeline calls it with. -/
abbrev bodyAt8 (t : Fin (cfg8 a).N) : Prog (TpuEff nD τ sig (Elt F) Λ₀ .tc) PUnit :=
  cc8__gather_score_kernel (grid8.coords t) (Memref.whole main_v34) (Memref.isWhole_whole _) (Memref.whole main_v35) (Memref.isWhole_whole _)
    (spec8_0.stage ((cfg8 a).slots t 0)) (hstage8_0 (((cfg8 a).slots t 0).cast nbuf8_0))
    (spec8_1.stage ((cfg8 a).slots t 1)) (hstage8_1 (((cfg8 a).slots t 1).cast nbuf8_1))
    (spec8_2.stage ((cfg8 a).slots t 2)) (hstage8_2 (((cfg8 a).slots t 2).cast nbuf8_2))
    (spec8_3.stage ((cfg8 a).slots t 3)) (hstage8_3 (((cfg8 a).slots t 3).cast nbuf8_3))
    (spec8_4.stage ((cfg8 a).slots t 4)) (hstage8_4 (((cfg8 a).slots t 4).cast nbuf8_4))

/-- The proof data of pipeline 8 on core `c`. -/
def dat8 (c : Dev nD) : Dat τ (Elt F) Unit ℕ (UR sig nD τ) ℕ (cfg8 a) c where
  A w := V c (Pipeline.arrRef spec8 w)
  after w t := match w with
    | ⟨0, _⟩ => iblk8 V a c 0 t
    | ⟨1, _⟩ => iblk8 V a c 1 t
    | ⟨2, _⟩ => iblk8 V a c 2 t
    | ⟨3, _⟩ => iblk8 V a c 3 t
    | ⟨4, _⟩ => out8 (iblk8 V a c 0 t) (iblk8 V a c 1 t) (iblk8 V a c 2 t) (iblk8 V a c 3 t)
  Φ _ := iprop(Pipeline.ΦA spec8 c ∗ Pipeline.prefHeld (Ix := Unit) (Name := ℕ) (U := UR sig nD τ) (Lvl := ℕ) pre8 c (fun _ => fullShare) a.1)
  q w := match w with
    | ⟨0, _⟩ => fullShare.left
    | ⟨1, _⟩ => fullShare.right
    | _ => fullShare
  owed _ := 0

theorem A_eq8 (c : Dev nD) (w : Fin (cfg8 a).W) : (dat8 V a c).A w = V c (Pipeline.arrRef spec8 w) := by
  dsimp only [dat8]

theorem after8_0 (c : Dev nD) (t : Fin (cfg8 a).N) : (dat8 V a c).after 0 t = iblk8 V a c 0 t := by dsimp only [dat8]; try rfl
theorem after8_1 (c : Dev nD) (t : Fin (cfg8 a).N) : (dat8 V a c).after 1 t = iblk8 V a c 1 t := by dsimp only [dat8]; try rfl
theorem after8_2 (c : Dev nD) (t : Fin (cfg8 a).N) : (dat8 V a c).after 2 t = iblk8 V a c 2 t := by dsimp only [dat8]; try rfl
theorem after8_3 (c : Dev nD) (t : Fin (cfg8 a).N) : (dat8 V a c).after 3 t = iblk8 V a c 3 t := by dsimp only [dat8]; try rfl
theorem after8_4 (c : Dev nD) (t : Fin (cfg8 a).N) :
    (dat8 V a c).after 4 t = out8 (iblk8 V a c 0 t) (iblk8 V a c 1 t) (iblk8 V a c 2 t) (iblk8 V a c 3 t) := by dsimp only [dat8]; try rfl

/-- An input window's current staging buffer holds its block at every point, fetched there or not: unfetched, the
    block index has not moved. -/
theorem before8_0 (c : Dev nD) (t : Fin (cfg8 a).N) (d) : (dat8 V a c).before 0 t d = iblk8 V a c 0 t :=
  ((dat8 V a c).before_in_eq_fetched 0 rfl (fun _ => rfl) (fun _ _ _ => rfl)
    (fun t => by rw [after8_0]; unfold Dat.blockOf iblk8; rw [A_eq8]; try rfl) t d).trans
    (by unfold Dat.fetched Dat.blockOf iblk8; rw [A_eq8]; try rfl)
theorem before8_1 (c : Dev nD) (t : Fin (cfg8 a).N) (d) : (dat8 V a c).before 1 t d = iblk8 V a c 1 t :=
  ((dat8 V a c).before_in_eq_fetched 1 rfl (fun _ => rfl) (fun _ _ _ => rfl)
    (fun t => by rw [after8_1]; unfold Dat.blockOf iblk8; rw [A_eq8]; try rfl) t d).trans
    (by unfold Dat.fetched Dat.blockOf iblk8; rw [A_eq8]; try rfl)
theorem before8_2 (c : Dev nD) (t : Fin (cfg8 a).N) (d) : (dat8 V a c).before 2 t d = iblk8 V a c 2 t :=
  ((dat8 V a c).before_in_eq_fetched 2 rfl (fun _ => rfl) (fun _ _ _ => rfl)
    (fun t => by rw [after8_2]; unfold Dat.blockOf iblk8; rw [A_eq8]; try rfl) t d).trans
    (by unfold Dat.fetched Dat.blockOf iblk8; rw [A_eq8]; try rfl)
theorem before8_3 (c : Dev nD) (t : Fin (cfg8 a).N) (d) : (dat8 V a c).before 3 t d = iblk8 V a c 3 t :=
  ((dat8 V a c).before_in_eq_fetched 3 rfl (fun _ => rfl) (fun _ _ _ => rfl)
    (fun t => by rw [after8_3]; unfold Dat.blockOf iblk8; rw [A_eq8]; try rfl) t d).trans
    (by unfold Dat.fetched Dat.blockOf iblk8; rw [A_eq8]; try rfl)

/-- What the body is called with at point `t`, the windows one by one, -/
def bodyPre8 (c : Dev nD) (t : Fin (cfg8 a).N) : sProp 𝕄 :=
  iprop((dat8 V a c).Φ t.castSucc ∗ (dat8 V a c).owesAt () t.castSucc
    ∗ (∃ d, owns (c : Thread nD τ) (st8_0 a t) fullShare ((dat8 V a c).before 0 t d))
    ∗ (∃ d, owns (c : Thread nD τ) (st8_1 a t) fullShare ((dat8 V a c).before 1 t d))
    ∗ (∃ d, owns (c : Thread nD τ) (st8_2 a t) fullShare ((dat8 V a c).before 2 t d))
    ∗ (∃ d, owns (c : Thread nD τ) (st8_3 a t) fullShare ((dat8 V a c).before 3 t d))
    ∗ (∃ d, owns (c : Thread nD τ) (st8_4 a t) fullShare ((dat8 V a c).before 4 t d)))

/-- and what it returns. -/
def bodyPost8 (c : Dev nD) (t : Fin (cfg8 a).N) : sProp 𝕄 :=
  iprop((dat8 V a c).Φ t.succ ∗ (dat8 V a c).owesAt () t.succ
    ∗ owns (c : Thread nD τ) (st8_0 a t) fullShare ((dat8 V a c).after 0 t)
    ∗ owns (c : Thread nD τ) (st8_1 a t) fullShare ((dat8 V a c).after 1 t)
    ∗ owns (c : Thread nD τ) (st8_2 a t) fullShare ((dat8 V a c).after 2 t)
    ∗ owns (c : Thread nD τ) (st8_3 a t) fullShare ((dat8 V a c).after 3 t)
    ∗ owns (c : Thread nD τ) (st8_4 a t) fullShare ((dat8 V a c).after 4 t))

/-- The body at any point: the inputs' buffers hold their blocks, so the body's triple applies; the invariant and the
    core's dues pass through unread. -/
theorem sound_body8 (c : Dev nD) (t : Fin (cfg8 a).N) :
    bodyPre8 V a c t ⊢ wp frame (wpE (defs₀ (F := F)) Variants.none c none) Set.univ (bodyAt8 a t) (fun _ => bodyPost8 V a c t) := by
  unfold bodyPre8 bodyPost8 bodyAt8
  simp only [before8_0, before8_1, before8_2, before8_3]
  rw [show (dat8 V a c).Φ t.succ = (dat8 V a c).Φ t.castSucc from rfl,
    show (dat8 V a c).owesAt () t.succ = (dat8 V a c).owesAt () t.castSucc from rfl,
    after8_0, after8_1, after8_2, after8_3, after8_4]
  iintro ⟨HΦ, Ho, ⟨%d0, H0⟩, ⟨%d1, H1⟩, ⟨%d2, H2⟩, ⟨%d3, H3⟩, ⟨%d4, H4⟩⟩
  iapply (sound_kernel8 c Set.univ _ _ _ _ _ _ _ _ _ _ _ _ _ _ _ (iblk8 V a c 0 t) (iblk8 V a c 1 t) (iblk8 V a c 2 t) (iblk8 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation8 (c : Dev nD) : BodyObligation (dat8 (F := F) V a c) (defs₀ (F := F)) Variants.none () Set.univ := fun t => by
  rw [bigSep_W8, bigSep_W8]
  exact sound_body8 V a c t

end Cert.KernelIdeal.Hand

end
-- ==== Proof.KIBody9.lean ====
/-
  One edge's score as the kernel body computes it, and the body's triple.

  The body reads the two gathered rows (one row of the node features for the edge's source node, one for its
  destination node), the 256 weights and the bias from its staging buffers, and writes the single score
  `(∑ row_s · W[0:128]) + (∑ row_d · W[128:256]) + b` to its one-element output buffer. `out9` is what the output
  buffer holds afterwards as a function of the four input buffers; `sound_kernel9` says the body, run on whole
  staging buffers holding those contents, ends with the inputs as they were and the output at `out9` of them.
-/
import proofs.«405368_j31662498906597_2_alg».proof.Proof.LaunchKernelIdeal
import proofs.«405368_j31662498906597_2_alg».proof.Proof.Gen.KernelIdeal.Skeleton
import proofs.«405368_j31662498906597_2_alg».proof.Proof.KIBody0
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The output buffer after the body, from the four input buffers (source row, destination row, weights, bias): its
    one store, of the score. -/
def out9 (x0 x1 : Vec F S1x1x128 .f32) (x2 : Vec F S1x256 .f32) (x3 : Vec F S1x1 .f32) : Vec F S1x1x1 .f32 :=
  View.canon [⟨rO, k9_pay1 (View.ld x2 rW0) (View.ld x2 rW1) (View.ld x0 rH) (View.ld x1 rH) (View.ld x3 rB)⟩]

/-- The one store covers the one-element buffer. -/
theorem cover9 (p0 : Vec F S1x1x1 .f32) (y : S1x1x1.Idx) :
    ∃ pc ∈ ([⟨rO, p0⟩] : List (View.Piece (Elt F) S1x1x1 .f32)), y ∈ pc.1.set :=
  View.cover_of_tiled [⟨rO, p0⟩] S1x1x1.size (by rfl) y

set_option maxHeartbeats 1000000 in
/-- The body on whole staging buffers: the inputs at `x0 … x3`, the output at anything; it ends with the inputs as
    they were and the output at `out9` of them. The two index tables are not touched. -/
theorem sound_kernel9 (c : Dev nD) (E : Set ℕ) (i : grid9.Coords)
    (arg1 : Memref sig .tc .smem S62500 .i32) (harg1 : arg1.IsWhole) (arg2 : Memref sig .tc .smem S62500 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x256 .f32) (harg5 : arg5.IsWhole) (arg6 : Memref sig .tc .vmem S1x1 .f32) (harg6 : arg6.IsWhole)
    (arg7 : Memref sig .tc .vmem S1x1x1 .f32) (harg7 : arg7.IsWhole)
    (x0 x1 : Vec F S1x1x128 .f32) (x2 : Vec F S1x256 .f32) (x3 : Vec F S1x1 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ (∃ d, owns (c : Thread nD τ) arg7 fullShare d)
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare (out9 x0 x1 x2 x3)) -∗ K ⟨⟩))
      ⊢ wp frame (wpE (defs₀ (F := F)) Variants.none c none) E
          (cc9__gather_score_kernel i arg1 harg1 arg2 harg2 arg3 harg3 arg4 harg4 arg5 harg5 arg6 harg6 arg7 harg7) K := by
  -- the printed body is its skeleton of six loads and one store over the payload
  simp only [cc9__gather_score_kernel_eq_skeleton]; unfold cc9__gather_score_kernel_skel
  -- each input's ownership is some contents with the given read; the output's is any contents
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  -- the loads leave every buffer as it was (the value loaded from the output buffer is not used); the store
  -- overwrites the output buffer's one cell with the payload of the five input loads
  sl_exec
  sl_step
  iapply Hk
  -- the four inputs come back at the contents they had
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  -- the output: old contents overwritten by one store that covers the buffer read back as that store alone
  iexists _; isplitr
  swap; · iexact H4
  ipureintro
  exact View.read_writes_eq_canon _ _ _ (cover9 _)

end Cert.KernelIdeal.Hand

end
-- ==== Proof.KIDat9.lean ====
/-
  Region 9 of the edge scorer: the pipeline's proof data and the body obligation.

  The region has 62500 grid points, one per edge of its chunk. At point `t` the pipeline stages five blocks: row
  `src t` of the node features (window 0) and row `dst t` (window 1) — both windows read the ONE feature array,
  their block indices taken from the two prefetched index tables —, the 256 weights (window 2), the bias
  (window 3), and the one-element block `t` of the output (window 4). The body leaves every input block as it
  found it and the output block at the edge's score (`out9` of the four input blocks). The two input windows
  on the shared feature array hold it at the two halves of the full share; the tables ride in the invariant,
  whole, untouched (the body never reads them); nothing is owed to other cores.
-/
import proofs.«405368_j31662498906597_2_alg».proof.Proof.KIBody9

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffers' contents when the region is entered, per core, and the tables' admissible contents: parameters
variable (V : (c : Dev nD) → (b : Ref sig .tc) → Buf (Elt F) ((c : Thread nD τ).loc b)) (a : (pcfg9 (F := F)).Adm)

/-- Window `w`'s block at point `t`, read off its array as the region finds it. -/
def iblk9 (c : Dev nD) (w : Fin (cfg9 a).W) (t : Fin (cfg9 a).N) :
    (((cfg9 a).win w).xblock ((cfg9 a).grid.coords t)).Idx → Elt F ((cfg9 a).win w).elt :=
  (((cfg9 a).win w).blk t).view.read (Elt F) (V c (Pipeline.arrRef spec9 w))

/-- The current staging memref of each window at point `t`. -/
abbrev st9_0 (t : Fin (cfg9 a).N) := ((cfg9 a).win 0).stage ((cfg9 a).slots t 0)
abbrev st9_1 (t : Fin (cfg9 a).N) := ((cfg9 a).win 1).stage ((cfg9 a).slots t 1)
abbrev st9_2 (t : Fin (cfg9 a).N) := ((cfg9 a).win 2).stage ((cfg9 a).slots t 2)
abbrev st9_3 (t : Fin (cfg9 a).N) := ((cfg9 a).win 3).stage ((cfg9 a).slots t 3)
abbrev st9_4 (t : Fin (cfg9 a).N) := ((cfg9 a).win 4).stage ((cfg9 a).slots t 4)

/-- The kernel body at point `t`, on what the pipeline calls it with. -/
abbrev bodyAt9 (t : Fin (cfg9 a).N) : Prog (TpuEff nD τ sig (Elt F) Λ₀ .tc) PUnit :=
  cc9__gather_score_kernel (grid9.coords t) (Memref.whole main_v38) (Memref.isWhole_whole _) (Memref.whole main_v39) (Memref.isWhole_whole _)
    (spec9_0.stage ((cfg9 a).slots t 0)) (hstage9_0 (((cfg9 a).slots t 0).cast nbuf9_0))
    (spec9_1.stage ((cfg9 a).slots t 1)) (hstage9_1 (((cfg9 a).slots t 1).cast nbuf9_1))
    (spec9_2.stage ((cfg9 a).slots t 2)) (hstage9_2 (((cfg9 a).slots t 2).cast nbuf9_2))
    (spec9_3.stage ((cfg9 a).slots t 3)) (hstage9_3 (((cfg9 a).slots t 3).cast nbuf9_3))
    (spec9_4.stage ((cfg9 a).slots t 4)) (hstage9_4 (((cfg9 a).slots t 4).cast nbuf9_4))

/-- The proof data of pipeline 9 on core `c`. -/
def dat9 (c : Dev nD) : Dat τ (Elt F) Unit ℕ (UR sig nD τ) ℕ (cfg9 a) c where
  A w := V c (Pipeline.arrRef spec9 w)
  after w t := match w with
    | ⟨0, _⟩ => iblk9 V a c 0 t
    | ⟨1, _⟩ => iblk9 V a c 1 t
    | ⟨2, _⟩ => iblk9 V a c 2 t
    | ⟨3, _⟩ => iblk9 V a c 3 t
    | ⟨4, _⟩ => out9 (iblk9 V a c 0 t) (iblk9 V a c 1 t) (iblk9 V a c 2 t) (iblk9 V a c 3 t)
  Φ _ := iprop(Pipeline.ΦA spec9 c ∗ Pipeline.prefHeld (Ix := Unit) (Name := ℕ) (U := UR sig nD τ) (Lvl := ℕ) pre9 c (fun _ => fullShare) a.1)
  q w := match w with
    | ⟨0, _⟩ => fullShare.left
    | ⟨1, _⟩ => fullShare.right
    | _ => fullShare
  owed _ := 0

theorem A_eq9 (c : Dev nD) (w : Fin (cfg9 a).W) : (dat9 V a c).A w = V c (Pipeline.arrRef spec9 w) := by
  dsimp only [dat9]

theorem after9_0 (c : Dev nD) (t : Fin (cfg9 a).N) : (dat9 V a c).after 0 t = iblk9 V a c 0 t := by dsimp only [dat9]; try rfl
theorem after9_1 (c : Dev nD) (t : Fin (cfg9 a).N) : (dat9 V a c).after 1 t = iblk9 V a c 1 t := by dsimp only [dat9]; try rfl
theorem after9_2 (c : Dev nD) (t : Fin (cfg9 a).N) : (dat9 V a c).after 2 t = iblk9 V a c 2 t := by dsimp only [dat9]; try rfl
theorem after9_3 (c : Dev nD) (t : Fin (cfg9 a).N) : (dat9 V a c).after 3 t = iblk9 V a c 3 t := by dsimp only [dat9]; try rfl
theorem after9_4 (c : Dev nD) (t : Fin (cfg9 a).N) :
    (dat9 V a c).after 4 t = out9 (iblk9 V a c 0 t) (iblk9 V a c 1 t) (iblk9 V a c 2 t) (iblk9 V a c 3 t) := by dsimp only [dat9]; try rfl

/-- An input window's current staging buffer holds its block at every point, fetched there or not: unfetched, the
    block index has not moved. -/
theorem before9_0 (c : Dev nD) (t : Fin (cfg9 a).N) (d) : (dat9 V a c).before 0 t d = iblk9 V a c 0 t :=
  ((dat9 V a c).before_in_eq_fetched 0 rfl (fun _ => rfl) (fun _ _ _ => rfl)
    (fun t => by rw [after9_0]; unfold Dat.blockOf iblk9; rw [A_eq9]; try rfl) t d).trans
    (by unfold Dat.fetched Dat.blockOf iblk9; rw [A_eq9]; try rfl)
theorem before9_1 (c : Dev nD) (t : Fin (cfg9 a).N) (d) : (dat9 V a c).before 1 t d = iblk9 V a c 1 t :=
  ((dat9 V a c).before_in_eq_fetched 1 rfl (fun _ => rfl) (fun _ _ _ => rfl)
    (fun t => by rw [after9_1]; unfold Dat.blockOf iblk9; rw [A_eq9]; try rfl) t d).trans
    (by unfold Dat.fetched Dat.blockOf iblk9; rw [A_eq9]; try rfl)
theorem before9_2 (c : Dev nD) (t : Fin (cfg9 a).N) (d) : (dat9 V a c).before 2 t d = iblk9 V a c 2 t :=
  ((dat9 V a c).before_in_eq_fetched 2 rfl (fun _ => rfl) (fun _ _ _ => rfl)
    (fun t => by rw [after9_2]; unfold Dat.blockOf iblk9; rw [A_eq9]; try rfl) t d).trans
    (by unfold Dat.fetched Dat.blockOf iblk9; rw [A_eq9]; try rfl)
theorem before9_3 (c : Dev nD) (t : Fin (cfg9 a).N) (d) : (dat9 V a c).before 3 t d = iblk9 V a c 3 t :=
  ((dat9 V a c).before_in_eq_fetched 3 rfl (fun _ => rfl) (fun _ _ _ => rfl)
    (fun t => by rw [after9_3]; unfold Dat.blockOf iblk9; rw [A_eq9]; try rfl) t d).trans
    (by unfold Dat.fetched Dat.blockOf iblk9; rw [A_eq9]; try rfl)

/-- What the body is called with at point `t`, the windows one by one, -/
def bodyPre9 (c : Dev nD) (t : Fin (cfg9 a).N) : sProp 𝕄 :=
  iprop((dat9 V a c).Φ t.castSucc ∗ (dat9 V a c).owesAt () t.castSucc
    ∗ (∃ d, owns (c : Thread nD τ) (st9_0 a t) fullShare ((dat9 V a c).before 0 t d))
    ∗ (∃ d, owns (c : Thread nD τ) (st9_1 a t) fullShare ((dat9 V a c).before 1 t d))
    ∗ (∃ d, owns (c : Thread nD τ) (st9_2 a t) fullShare ((dat9 V a c).before 2 t d))
    ∗ (∃ d, owns (c : Thread nD τ) (st9_3 a t) fullShare ((dat9 V a c).before 3 t d))
    ∗ (∃ d, owns (c : Thread nD τ) (st9_4 a t) fullShare ((dat9 V a c).before 4 t d)))

/-- and what it returns. -/
def bodyPost9 (c : Dev nD) (t : Fin (cfg9 a).N) : sProp 𝕄 :=
  iprop((dat9 V a c).Φ t.succ ∗ (dat9 V a c).owesAt () t.succ
    ∗ owns (c : Thread nD τ) (st9_0 a t) fullShare ((dat9 V a c).after 0 t)
    ∗ owns (c : Thread nD τ) (st9_1 a t) fullShare ((dat9 V a c).after 1 t)
    ∗ owns (c : Thread nD τ) (st9_2 a t) fullShare ((dat9 V a c).after 2 t)
    ∗ owns (c : Thread nD τ) (st9_3 a t) fullShare ((dat9 V a c).after 3 t)
    ∗ owns (c : Thread nD τ) (st9_4 a t) fullShare ((dat9 V a c).after 4 t))

/-- The body at any point: the inputs' buffers hold their blocks, so the body's triple applies; the invariant and the
    core's dues pass through unread. -/
theorem sound_body9 (c : Dev nD) (t : Fin (cfg9 a).N) :
    bodyPre9 V a c t ⊢ wp frame (wpE (defs₀ (F := F)) Variants.none c none) Set.univ (bodyAt9 a t) (fun _ => bodyPost9 V a c t) := by
  unfold bodyPre9 bodyPost9 bodyAt9
  simp only [before9_0, before9_1, before9_2, before9_3]
  rw [show (dat9 V a c).Φ t.succ = (dat9 V a c).Φ t.castSucc from rfl,
    show (dat9 V a c).owesAt () t.succ = (dat9 V a c).owesAt () t.castSucc from rfl,
    after9_0, after9_1, after9_2, after9_3, after9_4]
  iintro ⟨HΦ, Ho, ⟨%d0, H0⟩, ⟨%d1, H1⟩, ⟨%d2, H2⟩, ⟨%d3, H3⟩, ⟨%d4, H4⟩⟩
  iapply (sound_kernel9 c Set.univ _ _ _ _ _ _ _ _ _ _ _ _ _ _ _ (iblk9 V a c 0 t) (iblk9 V a c 1 t) (iblk9 V a c 2 t) (iblk9 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation9 (c : Dev nD) : BodyObligation (dat9 (F := F) V a c) (defs₀ (F := F)) Variants.none () Set.univ := fun t => by
  rw [bigSep_W9, bigSep_W9]
  exact sound_body9 V a c t

end Cert.KernelIdeal.Hand

end
-- ==== Proof.KIBody10.lean ====
/-
  One edge's score as the kernel body computes it, and the body's triple.

  The body reads the two gathered rows (one row of the node features for the edge's source node, one for its
  destination node), the 256 weights and the bias from its staging buffers, and writes the single score
  `(∑ row_s · W[0:128]) + (∑ row_d · W[128:256]) + b` to its one-element output buffer. `out10` is what the output
  buffer holds afterwards as a function of the four input buffers; `sound_kernel10` says the body, run on whole
  staging buffers holding those contents, ends with the inputs as they were and the output at `out10` of them.
-/
import proofs.«405368_j31662498906597_2_alg».proof.Proof.LaunchKernelIdeal
import proofs.«405368_j31662498906597_2_alg».proof.Proof.Gen.KernelIdeal.Skeleton
import proofs.«405368_j31662498906597_2_alg».proof.Proof.KIBody0
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The output buffer after the body, from the four input buffers (source row, destination row, weights, bias): its
    one store, of the score. -/
def out10 (x0 x1 : Vec F S1x1x128 .f32) (x2 : Vec F S1x256 .f32) (x3 : Vec F S1x1 .f32) : Vec F S1x1x1 .f32 :=
  View.canon [⟨rO, k10_pay1 (View.ld x2 rW0) (View.ld x2 rW1) (View.ld x0 rH) (View.ld x1 rH) (View.ld x3 rB)⟩]

/-- The one store covers the one-element buffer. -/
theorem cover10 (p0 : Vec F S1x1x1 .f32) (y : S1x1x1.Idx) :
    ∃ pc ∈ ([⟨rO, p0⟩] : List (View.Piece (Elt F) S1x1x1 .f32)), y ∈ pc.1.set :=
  View.cover_of_tiled [⟨rO, p0⟩] S1x1x1.size (by rfl) y

set_option maxHeartbeats 1000000 in
/-- The body on whole staging buffers: the inputs at `x0 … x3`, the output at anything; it ends with the inputs as
    they were and the output at `out10` of them. The two index tables are not touched. -/
theorem sound_kernel10 (c : Dev nD) (E : Set ℕ) (i : grid10.Coords)
    (arg1 : Memref sig .tc .smem S62500 .i32) (harg1 : arg1.IsWhole) (arg2 : Memref sig .tc .smem S62500 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x256 .f32) (harg5 : arg5.IsWhole) (arg6 : Memref sig .tc .vmem S1x1 .f32) (harg6 : arg6.IsWhole)
    (arg7 : Memref sig .tc .vmem S1x1x1 .f32) (harg7 : arg7.IsWhole)
    (x0 x1 : Vec F S1x1x128 .f32) (x2 : Vec F S1x256 .f32) (x3 : Vec F S1x1 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ (∃ d, owns (c : Thread nD τ) arg7 fullShare d)
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare (out10 x0 x1 x2 x3)) -∗ K ⟨⟩))
      ⊢ wp frame (wpE (defs₀ (F := F)) Variants.none c none) E
          (cc10__gather_score_kernel i arg1 harg1 arg2 harg2 arg3 harg3 arg4 harg4 arg5 harg5 arg6 harg6 arg7 harg7) K := by
  -- the printed body is its skeleton of six loads and one store over the payload
  simp only [cc10__gather_score_kernel_eq_skeleton]; unfold cc10__gather_score_kernel_skel
  -- each input's ownership is some contents with the given read; the output's is any contents
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  -- the loads leave every buffer as it was (the value loaded from the output buffer is not used); the store
  -- overwrites the output buffer's one cell with the payload of the five input loads
  sl_exec
  sl_step
  iapply Hk
  -- the four inputs come back at the contents they had
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  -- the output: old contents overwritten by one store that covers the buffer read back as that store alone
  iexists _; isplitr
  swap; · iexact H4
  ipureintro
  exact View.read_writes_eq_canon _ _ _ (cover10 _)

end Cert.KernelIdeal.Hand

end
-- ==== Proof.KIDat10.lean ====
/-
  Region 10 of the edge scorer: the pipeline's proof data and the body obligation.

  The region has 62500 grid points, one per edge of its chunk. At point `t` the pipeline stages five blocks: row
  `src t` of the node features (window 0) and row `dst t` (window 1) — both windows read the ONE feature array,
  their block indices taken from the two prefetched index tables —, the 256 weights (window 2), the bias
  (window 3), and the one-element block `t` of the output (window 4). The body leaves every input block as it
  found it and the output block at the edge's score (`out10` of the four input blocks). The two input windows
  on the shared feature array hold it at the two halves of the full share; the tables ride in the invariant,
  whole, untouched (the body never reads them); nothing is owed to other cores.
-/
import proofs.«405368_j31662498906597_2_alg».proof.Proof.KIBody10

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffers' contents when the region is entered, per core, and the tables' admissible contents: parameters
variable (V : (c : Dev nD) → (b : Ref sig .tc) → Buf (Elt F) ((c : Thread nD τ).loc b)) (a : (pcfg10 (F := F)).Adm)

/-- Window `w`'s block at point `t`, read off its array as the region finds it. -/
def iblk10 (c : Dev nD) (w : Fin (cfg10 a).W) (t : Fin (cfg10 a).N) :
    (((cfg10 a).win w).xblock ((cfg10 a).grid.coords t)).Idx → Elt F ((cfg10 a).win w).elt :=
  (((cfg10 a).win w).blk t).view.read (Elt F) (V c (Pipeline.arrRef spec10 w))

/-- The current staging memref of each window at point `t`. -/
abbrev st10_0 (t : Fin (cfg10 a).N) := ((cfg10 a).win 0).stage ((cfg10 a).slots t 0)
abbrev st10_1 (t : Fin (cfg10 a).N) := ((cfg10 a).win 1).stage ((cfg10 a).slots t 1)
abbrev st10_2 (t : Fin (cfg10 a).N) := ((cfg10 a).win 2).stage ((cfg10 a).slots t 2)
abbrev st10_3 (t : Fin (cfg10 a).N) := ((cfg10 a).win 3).stage ((cfg10 a).slots t 3)
abbrev st10_4 (t : Fin (cfg10 a).N) := ((cfg10 a).win 4).stage ((cfg10 a).slots t 4)

/-- The kernel body at point `t`, on what the pipeline calls it with. -/
abbrev bodyAt10 (t : Fin (cfg10 a).N) : Prog (TpuEff nD τ sig (Elt F) Λ₀ .tc) PUnit :=
  cc10__gather_score_kernel (grid10.coords t) (Memref.whole main_v42) (Memref.isWhole_whole _) (Memref.whole main_v43) (Memref.isWhole_whole _)
    (spec10_0.stage ((cfg10 a).slots t 0)) (hstage10_0 (((cfg10 a).slots t 0).cast nbuf10_0))
    (spec10_1.stage ((cfg10 a).slots t 1)) (hstage10_1 (((cfg10 a).slots t 1).cast nbuf10_1))
    (spec10_2.stage ((cfg10 a).slots t 2)) (hstage10_2 (((cfg10 a).slots t 2).cast nbuf10_2))
    (spec10_3.stage ((cfg10 a).slots t 3)) (hstage10_3 (((cfg10 a).slots t 3).cast nbuf10_3))
    (spec10_4.stage ((cfg10 a).slots t 4)) (hstage10_4 (((cfg10 a).slots t 4).cast nbuf10_4))

/-- The proof data of pipeline 10 on core `c`. -/
def dat10 (c : Dev nD) : Dat τ (Elt F) Unit ℕ (UR sig nD τ) ℕ (cfg10 a) c where
  A w := V c (Pipeline.arrRef spec10 w)
  after w t := match w with
    | ⟨0, _⟩ => iblk10 V a c 0 t
    | ⟨1, _⟩ => iblk10 V a c 1 t
    | ⟨2, _⟩ => iblk10 V a c 2 t
    | ⟨3, _⟩ => iblk10 V a c 3 t
    | ⟨4, _⟩ => out10 (iblk10 V a c 0 t) (iblk10 V a c 1 t) (iblk10 V a c 2 t) (iblk10 V a c 3 t)
  Φ _ := iprop(Pipeline.ΦA spec10 c ∗ Pipeline.prefHeld (Ix := Unit) (Name := ℕ) (U := UR sig nD τ) (Lvl := ℕ) pre10 c (fun _ => fullShare) a.1)
  q w := match w with
    | ⟨0, _⟩ => fullShare.left
    | ⟨1, _⟩ => fullShare.right
    | _ => fullShare
  owed _ := 0

theorem A_eq10 (c : Dev nD) (w : Fin (cfg10 a).W) : (dat10 V a c).A w = V c (Pipeline.arrRef spec10 w) := by
  dsimp only [dat10]

theorem after10_0 (c : Dev nD) (t : Fin (cfg10 a).N) : (dat10 V a c).after 0 t = iblk10 V a c 0 t := by dsimp only [dat10]; try rfl
theorem after10_1 (c : Dev nD) (t : Fin (cfg10 a).N) : (dat10 V a c).after 1 t = iblk10 V a c 1 t := by dsimp only [dat10]; try rfl
theorem after10_2 (c : Dev nD) (t : Fin (cfg10 a).N) : (dat10 V a c).after 2 t = iblk10 V a c 2 t := by dsimp only [dat10]; try rfl
theorem after10_3 (c : Dev nD) (t : Fin (cfg10 a).N) : (dat10 V a c).after 3 t = iblk10 V a c 3 t := by dsimp only [dat10]; try rfl
theorem after10_4 (c : Dev nD) (t : Fin (cfg10 a).N) :
    (dat10 V a c).after 4 t = out10 (iblk10 V a c 0 t) (iblk10 V a c 1 t) (iblk10 V a c 2 t) (iblk10 V a c 3 t) := by dsimp only [dat10]; try rfl

/-- An input window's current staging buffer holds its block at every point, fetched there or not: unfetched, the
    block index has not moved. -/
theorem before10_0 (c : Dev nD) (t : Fin (cfg10 a).N) (d) : (dat10 V a c).before 0 t d = iblk10 V a c 0 t :=
  ((dat10 V a c).before_in_eq_fetched 0 rfl (fun _ => rfl) (fun _ _ _ => rfl)
    (fun t => by rw [after10_0]; unfold Dat.blockOf iblk10; rw [A_eq10]; try rfl) t d).trans
    (by unfold Dat.fetched Dat.blockOf iblk10; rw [A_eq10]; try rfl)
theorem before10_1 (c : Dev nD) (t : Fin (cfg10 a).N) (d) : (dat10 V a c).before 1 t d = iblk10 V a c 1 t :=
  ((dat10 V a c).before_in_eq_fetched 1 rfl (fun _ => rfl) (fun _ _ _ => rfl)
    (fun t => by rw [after10_1]; unfold Dat.blockOf iblk10; rw [A_eq10]; try rfl) t d).trans
    (by unfold Dat.fetched Dat.blockOf iblk10; rw [A_eq10]; try rfl)
theorem before10_2 (c : Dev nD) (t : Fin (cfg10 a).N) (d) : (dat10 V a c).before 2 t d = iblk10 V a c 2 t :=
  ((dat10 V a c).before_in_eq_fetched 2 rfl (fun _ => rfl) (fun _ _ _ => rfl)
    (fun t => by rw [after10_2]; unfold Dat.blockOf iblk10; rw [A_eq10]; try rfl) t d).trans
    (by unfold Dat.fetched Dat.blockOf iblk10; rw [A_eq10]; try rfl)
theorem before10_3 (c : Dev nD) (t : Fin (cfg10 a).N) (d) : (dat10 V a c).before 3 t d = iblk10 V a c 3 t :=
  ((dat10 V a c).before_in_eq_fetched 3 rfl (fun _ => rfl) (fun _ _ _ => rfl)
    (fun t => by rw [after10_3]; unfold Dat.blockOf iblk10; rw [A_eq10]; try rfl) t d).trans
    (by unfold Dat.fetched Dat.blockOf iblk10; rw [A_eq10]; try rfl)

/-- What the body is called with at point `t`, the windows one by one, -/
def bodyPre10 (c : Dev nD) (t : Fin (cfg10 a).N) : sProp 𝕄 :=
  iprop((dat10 V a c).Φ t.castSucc ∗ (dat10 V a c).owesAt () t.castSucc
    ∗ (∃ d, owns (c : Thread nD τ) (st10_0 a t) fullShare ((dat10 V a c).before 0 t d))
    ∗ (∃ d, owns (c : Thread nD τ) (st10_1 a t) fullShare ((dat10 V a c).before 1 t d))
    ∗ (∃ d, owns (c : Thread nD τ) (st10_2 a t) fullShare ((dat10 V a c).before 2 t d))
    ∗ (∃ d, owns (c : Thread nD τ) (st10_3 a t) fullShare ((dat10 V a c).before 3 t d))
    ∗ (∃ d, owns (c : Thread nD τ) (st10_4 a t) fullShare ((dat10 V a c).before 4 t d)))

/-- and what it returns. -/
def bodyPost10 (c : Dev nD) (t : Fin (cfg10 a).N) : sProp 𝕄 :=
  iprop((dat10 V a c).Φ t.succ ∗ (dat10 V a c).owesAt () t.succ
    ∗ owns (c : Thread nD τ) (st10_0 a t) fullShare ((dat10 V a c).after 0 t)
    ∗ owns (c : Thread nD τ) (st10_1 a t) fullShare ((dat10 V a c).after 1 t)
    ∗ owns (c : Thread nD τ) (st10_2 a t) fullShare ((dat10 V a c).after 2 t)
    ∗ owns (c : Thread nD τ) (st10_3 a t) fullShare ((dat10 V a c).after 3 t)
    ∗ owns (c : Thread nD τ) (st10_4 a t) fullShare ((dat10 V a c).after 4 t))

/-- The body at any point: the inputs' buffers hold their blocks, so the body's triple applies; the invariant and the
    core's dues pass through unread. -/
theorem sound_body10 (c : Dev nD) (t : Fin (cfg10 a).N) :
    bodyPre10 V a c t ⊢ wp frame (wpE (defs₀ (F := F)) Variants.none c none) Set.univ (bodyAt10 a t) (fun _ => bodyPost10 V a c t) := by
  unfold bodyPre10 bodyPost10 bodyAt10
  simp only [before10_0, before10_1, before10_2, before10_3]
  rw [show (dat10 V a c).Φ t.succ = (dat10 V a c).Φ t.castSucc from rfl,
    show (dat10 V a c).owesAt () t.succ = (dat10 V a c).owesAt () t.castSucc from rfl,
    after10_0, after10_1, after10_2, after10_3, after10_4]
  iintro ⟨HΦ, Ho, ⟨%d0, H0⟩, ⟨%d1, H1⟩, ⟨%d2, H2⟩, ⟨%d3, H3⟩, ⟨%d4, H4⟩⟩
  iapply (sound_kernel10 c Set.univ _ _ _ _ _ _ _ _ _ _ _ _ _ _ _ (iblk10 V a c 0 t) (iblk10 V a c 1 t) (iblk10 V a c 2 t) (iblk10 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation10 (c : Dev nD) : BodyObligation (dat10 (F := F) V a c) (defs₀ (F := F)) Variants.none () Set.univ := fun t => by
  rw [bigSep_W10, bigSep_W10]
  exact sound_body10 V a c t

end Cert.KernelIdeal.Hand

end
-- ==== Proof.KIBody11.lean ====
/-
  One edge's score as the kernel body computes it, and the body's triple.

  The body reads the two gathered rows (one row of the node features for the edge's source node, one for its
  destination node), the 256 weights and the bias from its staging buffers, and writes the single score
  `(∑ row_s · W[0:128]) + (∑ row_d · W[128:256]) + b` to its one-element output buffer. `out11` is what the output
  buffer holds afterwards as a function of the four input buffers; `sound_kernel11` says the body, run on whole
  staging buffers holding those contents, ends with the inputs as they were and the output at `out11` of them.
-/
import proofs.«405368_j31662498906597_2_alg».proof.Proof.LaunchKernelIdeal
import proofs.«405368_j31662498906597_2_alg».proof.Proof.Gen.KernelIdeal.Skeleton
import proofs.«405368_j31662498906597_2_alg».proof.Proof.KIBody0
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The output buffer after the body, from the four input buffers (source row, destination row, weights, bias): its
    one store, of the score. -/
def out11 (x0 x1 : Vec F S1x1x128 .f32) (x2 : Vec F S1x256 .f32) (x3 : Vec F S1x1 .f32) : Vec F S1x1x1 .f32 :=
  View.canon [⟨rO, k11_pay1 (View.ld x2 rW0) (View.ld x2 rW1) (View.ld x0 rH) (View.ld x1 rH) (View.ld x3 rB)⟩]

/-- The one store covers the one-element buffer. -/
theorem cover11 (p0 : Vec F S1x1x1 .f32) (y : S1x1x1.Idx) :
    ∃ pc ∈ ([⟨rO, p0⟩] : List (View.Piece (Elt F) S1x1x1 .f32)), y ∈ pc.1.set :=
  View.cover_of_tiled [⟨rO, p0⟩] S1x1x1.size (by rfl) y

set_option maxHeartbeats 1000000 in
/-- The body on whole staging buffers: the inputs at `x0 … x3`, the output at anything; it ends with the inputs as
    they were and the output at `out11` of them. The two index tables are not touched. -/
theorem sound_kernel11 (c : Dev nD) (E : Set ℕ) (i : grid11.Coords)
    (arg1 : Memref sig .tc .smem S62500 .i32) (harg1 : arg1.IsWhole) (arg2 : Memref sig .tc .smem S62500 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x256 .f32) (harg5 : arg5.IsWhole) (arg6 : Memref sig .tc .vmem S1x1 .f32) (harg6 : arg6.IsWhole)
    (arg7 : Memref sig .tc .vmem S1x1x1 .f32) (harg7 : arg7.IsWhole)
    (x0 x1 : Vec F S1x1x128 .f32) (x2 : Vec F S1x256 .f32) (x3 : Vec F S1x1 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ (∃ d, owns (c : Thread nD τ) arg7 fullShare d)
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare (out11 x0 x1 x2 x3)) -∗ K ⟨⟩))
      ⊢ wp frame (wpE (defs₀ (F := F)) Variants.none c none) E
          (cc11__gather_score_kernel i arg1 harg1 arg2 harg2 arg3 harg3 arg4 harg4 arg5 harg5 arg6 harg6 arg7 harg7) K := by
  -- the printed body is its skeleton of six loads and one store over the payload
  simp only [cc11__gather_score_kernel_eq_skeleton]; unfold cc11__gather_score_kernel_skel
  -- each input's ownership is some contents with the given read; the output's is any contents
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  -- the loads leave every buffer as it was (the value loaded from the output buffer is not used); the store
  -- overwrites the output buffer's one cell with the payload of the five input loads
  sl_exec
  sl_step
  iapply Hk
  -- the four inputs come back at the contents they had
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  -- the output: old contents overwritten by one store that covers the buffer read back as that store alone
  iexists _; isplitr
  swap; · iexact H4
  ipureintro
  exact View.read_writes_eq_canon _ _ _ (cover11 _)

end Cert.KernelIdeal.Hand

end
-- ==== Proof.KIDat11.lean ====
/-
  Region 11 of the edge scorer: the pipeline's proof data and the body obligation.

  The region has 62500 grid points, one per edge of its chunk. At point `t` the pipeline stages five blocks: row
  `src t` of the node features (window 0) and row `dst t` (window 1) — both windows read the ONE feature array,
  their block indices taken from the two prefetched index tables —, the 256 weights (window 2), the bias
  (window 3), and the one-element block `t` of the output (window 4). The body leaves every input block as it
  found it and the output block at the edge's score (`out11` of the four input blocks). The two input windows
  on the shared feature array hold it at the two halves of the full share; the tables ride in the invariant,
  whole, untouched (the body never reads them); nothing is owed to other cores.
-/
import proofs.«405368_j31662498906597_2_alg».proof.Proof.KIBody11

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffers' contents when the region is entered, per core, and the tables' admissible contents: parameters
variable (V : (c : Dev nD) → (b : Ref sig .tc) → Buf (Elt F) ((c : Thread nD τ).loc b)) (a : (pcfg11 (F := F)).Adm)

/-- Window `w`'s block at point `t`, read off its array as the region finds it. -/
def iblk11 (c : Dev nD) (w : Fin (cfg11 a).W) (t : Fin (cfg11 a).N) :
    (((cfg11 a).win w).xblock ((cfg11 a).grid.coords t)).Idx → Elt F ((cfg11 a).win w).elt :=
  (((cfg11 a).win w).blk t).view.read (Elt F) (V c (Pipeline.arrRef spec11 w))

/-- The current staging memref of each window at point `t`. -/
abbrev st11_0 (t : Fin (cfg11 a).N) := ((cfg11 a).win 0).stage ((cfg11 a).slots t 0)
abbrev st11_1 (t : Fin (cfg11 a).N) := ((cfg11 a).win 1).stage ((cfg11 a).slots t 1)
abbrev st11_2 (t : Fin (cfg11 a).N) := ((cfg11 a).win 2).stage ((cfg11 a).slots t 2)
abbrev st11_3 (t : Fin (cfg11 a).N) := ((cfg11 a).win 3).stage ((cfg11 a).slots t 3)
abbrev st11_4 (t : Fin (cfg11 a).N) := ((cfg11 a).win 4).stage ((cfg11 a).slots t 4)

/-- The kernel body at point `t`, on what the pipeline calls it with. -/
abbrev bodyAt11 (t : Fin (cfg11 a).N) : Prog (TpuEff nD τ sig (Elt F) Λ₀ .tc) PUnit :=
  cc11__gather_score_kernel (grid11.coords t) (Memref.whole main_v46) (Memref.isWhole_whole _) (Memref.whole main_v47) (Memref.isWhole_whole _)
    (spec11_0.stage ((cfg11 a).slots t 0)) (hstage11_0 (((cfg11 a).slots t 0).cast nbuf11_0))
    (spec11_1.stage ((cfg11 a).slots t 1)) (hstage11_1 (((cfg11 a).slots t 1).cast nbuf11_1))
    (spec11_2.stage ((cfg11 a).slots t 2)) (hstage11_2 (((cfg11 a).slots t 2).cast nbuf11_2))
    (spec11_3.stage ((cfg11 a).slots t 3)) (hstage11_3 (((cfg11 a).slots t 3).cast nbuf11_3))
    (spec11_4.stage ((cfg11 a).slots t 4)) (hstage11_4 (((cfg11 a).slots t 4).cast nbuf11_4))

/-- The proof data of pipeline 11 on core `c`. -/
def dat11 (c : Dev nD) : Dat τ (Elt F) Unit ℕ (UR sig nD τ) ℕ (cfg11 a) c where
  A w := V c (Pipeline.arrRef spec11 w)
  after w t := match w with
    | ⟨0, _⟩ => iblk11 V a c 0 t
    | ⟨1, _⟩ => iblk11 V a c 1 t
    | ⟨2, _⟩ => iblk11 V a c 2 t
    | ⟨3, _⟩ => iblk11 V a c 3 t
    | ⟨4, _⟩ => out11 (iblk11 V a c 0 t) (iblk11 V a c 1 t) (iblk11 V a c 2 t) (iblk11 V a c 3 t)
  Φ _ := iprop(Pipeline.ΦA spec11 c ∗ Pipeline.prefHeld (Ix := Unit) (Name := ℕ) (U := UR sig nD τ) (Lvl := ℕ) pre11 c (fun _ => fullShare) a.1)
  q w := match w with
    | ⟨0, _⟩ => fullShare.left
    | ⟨1, _⟩ => fullShare.right
    | _ => fullShare
  owed _ := 0

theorem A_eq11 (c : Dev nD) (w : Fin (cfg11 a).W) : (dat11 V a c).A w = V c (Pipeline.arrRef spec11 w) := by
  dsimp only [dat11]

theorem after11_0 (c : Dev nD) (t : Fin (cfg11 a).N) : (dat11 V a c).after 0 t = iblk11 V a c 0 t := by dsimp only [dat11]; try rfl
theorem after11_1 (c : Dev nD) (t : Fin (cfg11 a).N) : (dat11 V a c).after 1 t = iblk11 V a c 1 t := by dsimp only [dat11]; try rfl
theorem after11_2 (c : Dev nD) (t : Fin (cfg11 a).N) : (dat11 V a c).after 2 t = iblk11 V a c 2 t := by dsimp only [dat11]; try rfl
theorem after11_3 (c : Dev nD) (t : Fin (cfg11 a).N) : (dat11 V a c).after 3 t = iblk11 V a c 3 t := by dsimp only [dat11]; try rfl
theorem after11_4 (c : Dev nD) (t : Fin (cfg11 a).N) :
    (dat11 V a c).after 4 t = out11 (iblk11 V a c 0 t) (iblk11 V a c 1 t) (iblk11 V a c 2 t) (iblk11 V a c 3 t) := by dsimp only [dat11]; try rfl

/-- An input window's current staging buffer holds its block at every point, fetched there or not: unfetched, the
    block index has not moved. -/
theorem before11_0 (c : Dev nD) (t : Fin (cfg11 a).N) (d) : (dat11 V a c).before 0 t d = iblk11 V a c 0 t :=
  ((dat11 V a c).before_in_eq_fetched 0 rfl (fun _ => rfl) (fun _ _ _ => rfl)
    (fun t => by rw [after11_0]; unfold Dat.blockOf iblk11; rw [A_eq11]; try rfl) t d).trans
    (by unfold Dat.fetched Dat.blockOf iblk11; rw [A_eq11]; try rfl)
theorem before11_1 (c : Dev nD) (t : Fin (cfg11 a).N) (d) : (dat11 V a c).before 1 t d = iblk11 V a c 1 t :=
  ((dat11 V a c).before_in_eq_fetched 1 rfl (fun _ => rfl) (fun _ _ _ => rfl)
    (fun t => by rw [after11_1]; unfold Dat.blockOf iblk11; rw [A_eq11]; try rfl) t d).trans
    (by unfold Dat.fetched Dat.blockOf iblk11; rw [A_eq11]; try rfl)
theorem before11_2 (c : Dev nD) (t : Fin (cfg11 a).N) (d) : (dat11 V a c).before 2 t d = iblk11 V a c 2 t :=
  ((dat11 V a c).before_in_eq_fetched 2 rfl (fun _ => rfl) (fun _ _ _ => rfl)
    (fun t => by rw [after11_2]; unfold Dat.blockOf iblk11; rw [A_eq11]; try rfl) t d).trans
    (by unfold Dat.fetched Dat.blockOf iblk11; rw [A_eq11]; try rfl)
theorem before11_3 (c : Dev nD) (t : Fin (cfg11 a).N) (d) : (dat11 V a c).before 3 t d = iblk11 V a c 3 t :=
  ((dat11 V a c).before_in_eq_fetched 3 rfl (fun _ => rfl) (fun _ _ _ => rfl)
    (fun t => by rw [after11_3]; unfold Dat.blockOf iblk11; rw [A_eq11]; try rfl) t d).trans
    (by unfold Dat.fetched Dat.blockOf iblk11; rw [A_eq11]; try rfl)

/-- What the body is called with at point `t`, the windows one by one, -/
def bodyPre11 (c : Dev nD) (t : Fin (cfg11 a).N) : sProp 𝕄 :=
  iprop((dat11 V a c).Φ t.castSucc ∗ (dat11 V a c).owesAt () t.castSucc
    ∗ (∃ d, owns (c : Thread nD τ) (st11_0 a t) fullShare ((dat11 V a c).before 0 t d))
    ∗ (∃ d, owns (c : Thread nD τ) (st11_1 a t) fullShare ((dat11 V a c).before 1 t d))
    ∗ (∃ d, owns (c : Thread nD τ) (st11_2 a t) fullShare ((dat11 V a c).before 2 t d))
    ∗ (∃ d, owns (c : Thread nD τ) (st11_3 a t) fullShare ((dat11 V a c).before 3 t d))
    ∗ (∃ d, owns (c : Thread nD τ) (st11_4 a t) fullShare ((dat11 V a c).before 4 t d)))

/-- and what it returns. -/
def bodyPost11 (c : Dev nD) (t : Fin (cfg11 a).N) : sProp 𝕄 :=
  iprop((dat11 V a c).Φ t.succ ∗ (dat11 V a c).owesAt () t.succ
    ∗ owns (c : Thread nD τ) (st11_0 a t) fullShare ((dat11 V a c).after 0 t)
    ∗ owns (c : Thread nD τ) (st11_1 a t) fullShare ((dat11 V a c).after 1 t)
    ∗ owns (c : Thread nD τ) (st11_2 a t) fullShare ((dat11 V a c).after 2 t)
    ∗ owns (c : Thread nD τ) (st11_3 a t) fullShare ((dat11 V a c).after 3 t)
    ∗ owns (c : Thread nD τ) (st11_4 a t) fullShare ((dat11 V a c).after 4 t))

/-- The body at any point: the inputs' buffers hold their blocks, so the body's triple applies; the invariant and the
    core's dues pass through unread. -/
theorem sound_body11 (c : Dev nD) (t : Fin (cfg11 a).N) :
    bodyPre11 V a c t ⊢ wp frame (wpE (defs₀ (F := F)) Variants.none c none) Set.univ (bodyAt11 a t) (fun _ => bodyPost11 V a c t) := by
  unfold bodyPre11 bodyPost11 bodyAt11
  simp only [before11_0, before11_1, before11_2, before11_3]
  rw [show (dat11 V a c).Φ t.succ = (dat11 V a c).Φ t.castSucc from rfl,
    show (dat11 V a c).owesAt () t.succ = (dat11 V a c).owesAt () t.castSucc from rfl,
    after11_0, after11_1, after11_2, after11_3, after11_4]
  iintro ⟨HΦ, Ho, ⟨%d0, H0⟩, ⟨%d1, H1⟩, ⟨%d2, H2⟩, ⟨%d3, H3⟩, ⟨%d4, H4⟩⟩
  iapply (sound_kernel11 c Set.univ _ _ _ _ _ _ _ _ _ _ _ _ _ _ _ (iblk11 V a c 0 t) (iblk11 V a c 1 t) (iblk11 V a c 2 t) (iblk11 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation11 (c : Dev nD) : BodyObligation (dat11 (F := F) V a c) (defs₀ (F := F)) Variants.none () Set.univ := fun t => by
  rw [bigSep_W11, bigSep_W11]
  exact sound_body11 V a c t

end Cert.KernelIdeal.Hand

end
-- ==== Proof.KIBody12.lean ====
/-
  One edge's score as the kernel body computes it, and the body's triple.

  The body reads the two gathered rows (one row of the node features for the edge's source node, one for its
  destination node), the 256 weights and the bias from its staging buffers, and writes the single score
  `(∑ row_s · W[0:128]) + (∑ row_d · W[128:256]) + b` to its one-element output buffer. `out12` is what the output
  buffer holds afterwards as a function of the four input buffers; `sound_kernel12` says the body, run on whole
  staging buffers holding those contents, ends with the inputs as they were and the output at `out12` of them.
-/
import proofs.«405368_j31662498906597_2_alg».proof.Proof.LaunchKernelIdeal
import proofs.«405368_j31662498906597_2_alg».proof.Proof.Gen.KernelIdeal.Skeleton
import proofs.«405368_j31662498906597_2_alg».proof.Proof.KIBody0
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The output buffer after the body, from the four input buffers (source row, destination row, weights, bias): its
    one store, of the score. -/
def out12 (x0 x1 : Vec F S1x1x128 .f32) (x2 : Vec F S1x256 .f32) (x3 : Vec F S1x1 .f32) : Vec F S1x1x1 .f32 :=
  View.canon [⟨rO, k12_pay1 (View.ld x2 rW0) (View.ld x2 rW1) (View.ld x0 rH) (View.ld x1 rH) (View.ld x3 rB)⟩]

/-- The one store covers the one-element buffer. -/
theorem cover12 (p0 : Vec F S1x1x1 .f32) (y : S1x1x1.Idx) :
    ∃ pc ∈ ([⟨rO, p0⟩] : List (View.Piece (Elt F) S1x1x1 .f32)), y ∈ pc.1.set :=
  View.cover_of_tiled [⟨rO, p0⟩] S1x1x1.size (by rfl) y

set_option maxHeartbeats 1000000 in
/-- The body on whole staging buffers: the inputs at `x0 … x3`, the output at anything; it ends with the inputs as
    they were and the output at `out12` of them. The two index tables are not touched. -/
theorem sound_kernel12 (c : Dev nD) (E : Set ℕ) (i : grid12.Coords)
    (arg1 : Memref sig .tc .smem S62500 .i32) (harg1 : arg1.IsWhole) (arg2 : Memref sig .tc .smem S62500 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x256 .f32) (harg5 : arg5.IsWhole) (arg6 : Memref sig .tc .vmem S1x1 .f32) (harg6 : arg6.IsWhole)
    (arg7 : Memref sig .tc .vmem S1x1x1 .f32) (harg7 : arg7.IsWhole)
    (x0 x1 : Vec F S1x1x128 .f32) (x2 : Vec F S1x256 .f32) (x3 : Vec F S1x1 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ (∃ d, owns (c : Thread nD τ) arg7 fullShare d)
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare (out12 x0 x1 x2 x3)) -∗ K ⟨⟩))
      ⊢ wp frame (wpE (defs₀ (F := F)) Variants.none c none) E
          (cc12__gather_score_kernel i arg1 harg1 arg2 harg2 arg3 harg3 arg4 harg4 arg5 harg5 arg6 harg6 arg7 harg7) K := by
  -- the printed body is its skeleton of six loads and one store over the payload
  simp only [cc12__gather_score_kernel_eq_skeleton]; unfold cc12__gather_score_kernel_skel
  -- each input's ownership is some contents with the given read; the output's is any contents
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  -- the loads leave every buffer as it was (the value loaded from the output buffer is not used); the store
  -- overwrites the output buffer's one cell with the payload of the five input loads
  sl_exec
  sl_step
  iapply Hk
  -- the four inputs come back at the contents they had
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  -- the output: old contents overwritten by one store that covers the buffer read back as that store alone
  iexists _; isplitr
  swap; · iexact H4
  ipureintro
  exact View.read_writes_eq_canon _ _ _ (cover12 _)

end Cert.KernelIdeal.Hand

end
-- ==== Proof.KIDat12.lean ====
/-
  Region 12 of the edge scorer: the pipeline's proof data and the body obligation.

  The region has 62500 grid points, one per edge of its chunk. At point `t` the pipeline stages five blocks: row
  `src t` of the node features (window 0) and row `dst t` (window 1) — both windows read the ONE feature array,
  their block indices taken from the two prefetched index tables —, the 256 weights (window 2), the bias
  (window 3), and the one-element block `t` of the output (window 4). The body leaves every input block as it
  found it and the output block at the edge's score (`out12` of the four input blocks). The two input windows
  on the shared feature array hold it at the two halves of the full share; the tables ride in the invariant,
  whole, untouched (the body never reads them); nothing is owed to other cores.
-/
import proofs.«405368_j31662498906597_2_alg».proof.Proof.KIBody12

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffers' contents when the region is entered, per core, and the tables' admissible contents: parameters
variable (V : (c : Dev nD) → (b : Ref sig .tc) → Buf (Elt F) ((c : Thread nD τ).loc b)) (a : (pcfg12 (F := F)).Adm)

/-- Window `w`'s block at point `t`, read off its array as the region finds it. -/
def iblk12 (c : Dev nD) (w : Fin (cfg12 a).W) (t : Fin (cfg12 a).N) :
    (((cfg12 a).win w).xblock ((cfg12 a).grid.coords t)).Idx → Elt F ((cfg12 a).win w).elt :=
  (((cfg12 a).win w).blk t).view.read (Elt F) (V c (Pipeline.arrRef spec12 w))

/-- The current staging memref of each window at point `t`. -/
abbrev st12_0 (t : Fin (cfg12 a).N) := ((cfg12 a).win 0).stage ((cfg12 a).slots t 0)
abbrev st12_1 (t : Fin (cfg12 a).N) := ((cfg12 a).win 1).stage ((cfg12 a).slots t 1)
abbrev st12_2 (t : Fin (cfg12 a).N) := ((cfg12 a).win 2).stage ((cfg12 a).slots t 2)
abbrev st12_3 (t : Fin (cfg12 a).N) := ((cfg12 a).win 3).stage ((cfg12 a).slots t 3)
abbrev st12_4 (t : Fin (cfg12 a).N) := ((cfg12 a).win 4).stage ((cfg12 a).slots t 4)

/-- The kernel body at point `t`, on what the pipeline calls it with. -/
abbrev bodyAt12 (t : Fin (cfg12 a).N) : Prog (TpuEff nD τ sig (Elt F) Λ₀ .tc) PUnit :=
  cc12__gather_score_kernel (grid12.coords t) (Memref.whole main_v50) (Memref.isWhole_whole _) (Memref.whole main_v51) (Memref.isWhole_whole _)
    (spec12_0.stage ((cfg12 a).slots t 0)) (hstage12_0 (((cfg12 a).slots t 0).cast nbuf12_0))
    (spec12_1.stage ((cfg12 a).slots t 1)) (hstage12_1 (((cfg12 a).slots t 1).cast nbuf12_1))
    (spec12_2.stage ((cfg12 a).slots t 2)) (hstage12_2 (((cfg12 a).slots t 2).cast nbuf12_2))
    (spec12_3.stage ((cfg12 a).slots t 3)) (hstage12_3 (((cfg12 a).slots t 3).cast nbuf12_3))
    (spec12_4.stage ((cfg12 a).slots t 4)) (hstage12_4 (((cfg12 a).slots t 4).cast nbuf12_4))

/-- The proof data of pipeline 12 on core `c`. -/
def dat12 (c : Dev nD) : Dat τ (Elt F) Unit ℕ (UR sig nD τ) ℕ (cfg12 a) c where
  A w := V c (Pipeline.arrRef spec12 w)
  after w t := match w with
    | ⟨0, _⟩ => iblk12 V a c 0 t
    | ⟨1, _⟩ => iblk12 V a c 1 t
    | ⟨2, _⟩ => iblk12 V a c 2 t
    | ⟨3, _⟩ => iblk12 V a c 3 t
    | ⟨4, _⟩ => out12 (iblk12 V a c 0 t) (iblk12 V a c 1 t) (iblk12 V a c 2 t) (iblk12 V a c 3 t)
  Φ _ := iprop(Pipeline.ΦA spec12 c ∗ Pipeline.prefHeld (Ix := Unit) (Name := ℕ) (U := UR sig nD τ) (Lvl := ℕ) pre12 c (fun _ => fullShare) a.1)
  q w := match w with
    | ⟨0, _⟩ => fullShare.left
    | ⟨1, _⟩ => fullShare.right
    | _ => fullShare
  owed _ := 0

theorem A_eq12 (c : Dev nD) (w : Fin (cfg12 a).W) : (dat12 V a c).A w = V c (Pipeline.arrRef spec12 w) := by
  dsimp only [dat12]

theorem after12_0 (c : Dev nD) (t : Fin (cfg12 a).N) : (dat12 V a c).after 0 t = iblk12 V a c 0 t := by dsimp only [dat12]; try rfl
theorem after12_1 (c : Dev nD) (t : Fin (cfg12 a).N) : (dat12 V a c).after 1 t = iblk12 V a c 1 t := by dsimp only [dat12]; try rfl
theorem after12_2 (c : Dev nD) (t : Fin (cfg12 a).N) : (dat12 V a c).after 2 t = iblk12 V a c 2 t := by dsimp only [dat12]; try rfl
theorem after12_3 (c : Dev nD) (t : Fin (cfg12 a).N) : (dat12 V a c).after 3 t = iblk12 V a c 3 t := by dsimp only [dat12]; try rfl
theorem after12_4 (c : Dev nD) (t : Fin (cfg12 a).N) :
    (dat12 V a c).after 4 t = out12 (iblk12 V a c 0 t) (iblk12 V a c 1 t) (iblk12 V a c 2 t) (iblk12 V a c 3 t) := by dsimp only [dat12]; try rfl

/-- An input window's current staging buffer holds its block at every point, fetched there or not: unfetched, the
    block index has not moved. -/
theorem before12_0 (c : Dev nD) (t : Fin (cfg12 a).N) (d) : (dat12 V a c).before 0 t d = iblk12 V a c 0 t :=
  ((dat12 V a c).before_in_eq_fetched 0 rfl (fun _ => rfl) (fun _ _ _ => rfl)
    (fun t => by rw [after12_0]; unfold Dat.blockOf iblk12; rw [A_eq12]; try rfl) t d).trans
    (by unfold Dat.fetched Dat.blockOf iblk12; rw [A_eq12]; try rfl)
theorem before12_1 (c : Dev nD) (t : Fin (cfg12 a).N) (d) : (dat12 V a c).before 1 t d = iblk12 V a c 1 t :=
  ((dat12 V a c).before_in_eq_fetched 1 rfl (fun _ => rfl) (fun _ _ _ => rfl)
    (fun t => by rw [after12_1]; unfold Dat.blockOf iblk12; rw [A_eq12]; try rfl) t d).trans
    (by unfold Dat.fetched Dat.blockOf iblk12; rw [A_eq12]; try rfl)
theorem before12_2 (c : Dev nD) (t : Fin (cfg12 a).N) (d) : (dat12 V a c).before 2 t d = iblk12 V a c 2 t :=
  ((dat12 V a c).before_in_eq_fetched 2 rfl (fun _ => rfl) (fun _ _ _ => rfl)
    (fun t => by rw [after12_2]; unfold Dat.blockOf iblk12; rw [A_eq12]; try rfl) t d).trans
    (by unfold Dat.fetched Dat.blockOf iblk12; rw [A_eq12]; try rfl)
theorem before12_3 (c : Dev nD) (t : Fin (cfg12 a).N) (d) : (dat12 V a c).before 3 t d = iblk12 V a c 3 t :=
  ((dat12 V a c).before_in_eq_fetched 3 rfl (fun _ => rfl) (fun _ _ _ => rfl)
    (fun t => by rw [after12_3]; unfold Dat.blockOf iblk12; rw [A_eq12]; try rfl) t d).trans
    (by unfold Dat.fetched Dat.blockOf iblk12; rw [A_eq12]; try rfl)

/-- What the body is called with at point `t`, the windows one by one, -/
def bodyPre12 (c : Dev nD) (t : Fin (cfg12 a).N) : sProp 𝕄 :=
  iprop((dat12 V a c).Φ t.castSucc ∗ (dat12 V a c).owesAt () t.castSucc
    ∗ (∃ d, owns (c : Thread nD τ) (st12_0 a t) fullShare ((dat12 V a c).before 0 t d))
    ∗ (∃ d, owns (c : Thread nD τ) (st12_1 a t) fullShare ((dat12 V a c).before 1 t d))
    ∗ (∃ d, owns (c : Thread nD τ) (st12_2 a t) fullShare ((dat12 V a c).before 2 t d))
    ∗ (∃ d, owns (c : Thread nD τ) (st12_3 a t) fullShare ((dat12 V a c).before 3 t d))
    ∗ (∃ d, owns (c : Thread nD τ) (st12_4 a t) fullShare ((dat12 V a c).before 4 t d)))

/-- and what it returns. -/
def bodyPost12 (c : Dev nD) (t : Fin (cfg12 a).N) : sProp 𝕄 :=
  iprop((dat12 V a c).Φ t.succ ∗ (dat12 V a c).owesAt () t.succ
    ∗ owns (c : Thread nD τ) (st12_0 a t) fullShare ((dat12 V a c).after 0 t)
    ∗ owns (c : Thread nD τ) (st12_1 a t) fullShare ((dat12 V a c).after 1 t)
    ∗ owns (c : Thread nD τ) (st12_2 a t) fullShare ((dat12 V a c).after 2 t)
    ∗ owns (c : Thread nD τ) (st12_3 a t) fullShare ((dat12 V a c).after 3 t)
    ∗ owns (c : Thread nD τ) (st12_4 a t) fullShare ((dat12 V a c).after 4 t))

/-- The body at any point: the inputs' buffers hold their blocks, so the body's triple applies; the invariant and the
    core's dues pass through unread. -/
theorem sound_body12 (c : Dev nD) (t : Fin (cfg12 a).N) :
    bodyPre12 V a c t ⊢ wp frame (wpE (defs₀ (F := F)) Variants.none c none) Set.univ (bodyAt12 a t) (fun _ => bodyPost12 V a c t) := by
  unfold bodyPre12 bodyPost12 bodyAt12
  simp only [before12_0, before12_1, before12_2, before12_3]
  rw [show (dat12 V a c).Φ t.succ = (dat12 V a c).Φ t.castSucc from rfl,
    show (dat12 V a c).owesAt () t.succ = (dat12 V a c).owesAt () t.castSucc from rfl,
    after12_0, after12_1, after12_2, after12_3, after12_4]
  iintro ⟨HΦ, Ho, ⟨%d0, H0⟩, ⟨%d1, H1⟩, ⟨%d2, H2⟩, ⟨%d3, H3⟩, ⟨%d4, H4⟩⟩
  iapply (sound_kernel12 c Set.univ _ _ _ _ _ _ _ _ _ _ _ _ _ _ _ (iblk12 V a c 0 t) (iblk12 V a c 1 t) (iblk12 V a c 2 t) (iblk12 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation12 (c : Dev nD) : BodyObligation (dat12 (F := F) V a c) (defs₀ (F := F)) Variants.none () Set.univ := fun t => by
  rw [bigSep_W12, bigSep_W12]
  exact sound_body12 V a c t

end Cert.KernelIdeal.Hand

end
-- ==== Proof.KIBody13.lean ====
/-
  One edge's score as the kernel body computes it, and the body's triple.

  The body reads the two gathered rows (one row of the node features for the edge's source node, one for its
  destination node), the 256 weights and the bias from its staging buffers, and writes the single score
  `(∑ row_s · W[0:128]) + (∑ row_d · W[128:256]) + b` to its one-element output buffer. `out13` is what the output
  buffer holds afterwards as a function of the four input buffers; `sound_kernel13` says the body, run on whole
  staging buffers holding those contents, ends with the inputs as they were and the output at `out13` of them.
-/
import proofs.«405368_j31662498906597_2_alg».proof.Proof.LaunchKernelIdeal
import proofs.«405368_j31662498906597_2_alg».proof.Proof.Gen.KernelIdeal.Skeleton
import proofs.«405368_j31662498906597_2_alg».proof.Proof.KIBody0
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The output buffer after the body, from the four input buffers (source row, destination row, weights, bias): its
    one store, of the score. -/
def out13 (x0 x1 : Vec F S1x1x128 .f32) (x2 : Vec F S1x256 .f32) (x3 : Vec F S1x1 .f32) : Vec F S1x1x1 .f32 :=
  View.canon [⟨rO, k13_pay1 (View.ld x2 rW0) (View.ld x2 rW1) (View.ld x0 rH) (View.ld x1 rH) (View.ld x3 rB)⟩]

/-- The one store covers the one-element buffer. -/
theorem cover13 (p0 : Vec F S1x1x1 .f32) (y : S1x1x1.Idx) :
    ∃ pc ∈ ([⟨rO, p0⟩] : List (View.Piece (Elt F) S1x1x1 .f32)), y ∈ pc.1.set :=
  View.cover_of_tiled [⟨rO, p0⟩] S1x1x1.size (by rfl) y

set_option maxHeartbeats 1000000 in
/-- The body on whole staging buffers: the inputs at `x0 … x3`, the output at anything; it ends with the inputs as
    they were and the output at `out13` of them. The two index tables are not touched. -/
theorem sound_kernel13 (c : Dev nD) (E : Set ℕ) (i : grid13.Coords)
    (arg1 : Memref sig .tc .smem S62500 .i32) (harg1 : arg1.IsWhole) (arg2 : Memref sig .tc .smem S62500 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x256 .f32) (harg5 : arg5.IsWhole) (arg6 : Memref sig .tc .vmem S1x1 .f32) (harg6 : arg6.IsWhole)
    (arg7 : Memref sig .tc .vmem S1x1x1 .f32) (harg7 : arg7.IsWhole)
    (x0 x1 : Vec F S1x1x128 .f32) (x2 : Vec F S1x256 .f32) (x3 : Vec F S1x1 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ (∃ d, owns (c : Thread nD τ) arg7 fullShare d)
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare (out13 x0 x1 x2 x3)) -∗ K ⟨⟩))
      ⊢ wp frame (wpE (defs₀ (F := F)) Variants.none c none) E
          (cc13__gather_score_kernel i arg1 harg1 arg2 harg2 arg3 harg3 arg4 harg4 arg5 harg5 arg6 harg6 arg7 harg7) K := by
  -- the printed body is its skeleton of six loads and one store over the payload
  simp only [cc13__gather_score_kernel_eq_skeleton]; unfold cc13__gather_score_kernel_skel
  -- each input's ownership is some contents with the given read; the output's is any contents
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  -- the loads leave every buffer as it was (the value loaded from the output buffer is not used); the store
  -- overwrites the output buffer's one cell with the payload of the five input loads
  sl_exec
  sl_step
  iapply Hk
  -- the four inputs come back at the contents they had
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  -- the output: old contents overwritten by one store that covers the buffer read back as that store alone
  iexists _; isplitr
  swap; · iexact H4
  ipureintro
  exact View.read_writes_eq_canon _ _ _ (cover13 _)

end Cert.KernelIdeal.Hand

end
-- ==== Proof.KIDat13.lean ====
/-
  Region 13 of the edge scorer: the pipeline's proof data and the body obligation.

  The region has 62500 grid points, one per edge of its chunk. At point `t` the pipeline stages five blocks: row
  `src t` of the node features (window 0) and row `dst t` (window 1) — both windows read the ONE feature array,
  their block indices taken from the two prefetched index tables —, the 256 weights (window 2), the bias
  (window 3), and the one-element block `t` of the output (window 4). The body leaves every input block as it
  found it and the output block at the edge's score (`out13` of the four input blocks). The two input windows
  on the shared feature array hold it at the two halves of the full share; the tables ride in the invariant,
  whole, untouched (the body never reads them); nothing is owed to other cores.
-/
import proofs.«405368_j31662498906597_2_alg».proof.Proof.KIBody13

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffers' contents when the region is entered, per core, and the tables' admissible contents: parameters
variable (V : (c : Dev nD) → (b : Ref sig .tc) → Buf (Elt F) ((c : Thread nD τ).loc b)) (a : (pcfg13 (F := F)).Adm)

/-- Window `w`'s block at point `t`, read off its array as the region finds it. -/
def iblk13 (c : Dev nD) (w : Fin (cfg13 a).W) (t : Fin (cfg13 a).N) :
    (((cfg13 a).win w).xblock ((cfg13 a).grid.coords t)).Idx → Elt F ((cfg13 a).win w).elt :=
  (((cfg13 a).win w).blk t).view.read (Elt F) (V c (Pipeline.arrRef spec13 w))

/-- The current staging memref of each window at point `t`. -/
abbrev st13_0 (t : Fin (cfg13 a).N) := ((cfg13 a).win 0).stage ((cfg13 a).slots t 0)
abbrev st13_1 (t : Fin (cfg13 a).N) := ((cfg13 a).win 1).stage ((cfg13 a).slots t 1)
abbrev st13_2 (t : Fin (cfg13 a).N) := ((cfg13 a).win 2).stage ((cfg13 a).slots t 2)
abbrev st13_3 (t : Fin (cfg13 a).N) := ((cfg13 a).win 3).stage ((cfg13 a).slots t 3)
abbrev st13_4 (t : Fin (cfg13 a).N) := ((cfg13 a).win 4).stage ((cfg13 a).slots t 4)

/-- The kernel body at point `t`, on what the pipeline calls it with. -/
abbrev bodyAt13 (t : Fin (cfg13 a).N) : Prog (TpuEff nD τ sig (Elt F) Λ₀ .tc) PUnit :=
  cc13__gather_score_kernel (grid13.coords t) (Memref.whole main_v54) (Memref.isWhole_whole _) (Memref.whole main_v55) (Memref.isWhole_whole _)
    (spec13_0.stage ((cfg13 a).slots t 0)) (hstage13_0 (((cfg13 a).slots t 0).cast nbuf13_0))
    (spec13_1.stage ((cfg13 a).slots t 1)) (hstage13_1 (((cfg13 a).slots t 1).cast nbuf13_1))
    (spec13_2.stage ((cfg13 a).slots t 2)) (hstage13_2 (((cfg13 a).slots t 2).cast nbuf13_2))
    (spec13_3.stage ((cfg13 a).slots t 3)) (hstage13_3 (((cfg13 a).slots t 3).cast nbuf13_3))
    (spec13_4.stage ((cfg13 a).slots t 4)) (hstage13_4 (((cfg13 a).slots t 4).cast nbuf13_4))

/-- The proof data of pipeline 13 on core `c`. -/
def dat13 (c : Dev nD) : Dat τ (Elt F) Unit ℕ (UR sig nD τ) ℕ (cfg13 a) c where
  A w := V c (Pipeline.arrRef spec13 w)
  after w t := match w with
    | ⟨0, _⟩ => iblk13 V a c 0 t
    | ⟨1, _⟩ => iblk13 V a c 1 t
    | ⟨2, _⟩ => iblk13 V a c 2 t
    | ⟨3, _⟩ => iblk13 V a c 3 t
    | ⟨4, _⟩ => out13 (iblk13 V a c 0 t) (iblk13 V a c 1 t) (iblk13 V a c 2 t) (iblk13 V a c 3 t)
  Φ _ := iprop(Pipeline.ΦA spec13 c ∗ Pipeline.prefHeld (Ix := Unit) (Name := ℕ) (U := UR sig nD τ) (Lvl := ℕ) pre13 c (fun _ => fullShare) a.1)
  q w := match w with
    | ⟨0, _⟩ => fullShare.left
    | ⟨1, _⟩ => fullShare.right
    | _ => fullShare
  owed _ := 0

theorem A_eq13 (c : Dev nD) (w : Fin (cfg13 a).W) : (dat13 V a c).A w = V c (Pipeline.arrRef spec13 w) := by
  dsimp only [dat13]

theorem after13_0 (c : Dev nD) (t : Fin (cfg13 a).N) : (dat13 V a c).after 0 t = iblk13 V a c 0 t := by dsimp only [dat13]; try rfl
theorem after13_1 (c : Dev nD) (t : Fin (cfg13 a).N) : (dat13 V a c).after 1 t = iblk13 V a c 1 t := by dsimp only [dat13]; try rfl
theorem after13_2 (c : Dev nD) (t : Fin (cfg13 a).N) : (dat13 V a c).after 2 t = iblk13 V a c 2 t := by dsimp only [dat13]; try rfl
theorem after13_3 (c : Dev nD) (t : Fin (cfg13 a).N) : (dat13 V a c).after 3 t = iblk13 V a c 3 t := by dsimp only [dat13]; try rfl
theorem after13_4 (c : Dev nD) (t : Fin (cfg13 a).N) :
    (dat13 V a c).after 4 t = out13 (iblk13 V a c 0 t) (iblk13 V a c 1 t) (iblk13 V a c 2 t) (iblk13 V a c 3 t) := by dsimp only [dat13]; try rfl

/-- An input window's current staging buffer holds its block at every point, fetched there or not: unfetched, the
    block index has not moved. -/
theorem before13_0 (c : Dev nD) (t : Fin (cfg13 a).N) (d) : (dat13 V a c).before 0 t d = iblk13 V a c 0 t :=
  ((dat13 V a c).before_in_eq_fetched 0 rfl (fun _ => rfl) (fun _ _ _ => rfl)
    (fun t => by rw [after13_0]; unfold Dat.blockOf iblk13; rw [A_eq13]; try rfl) t d).trans
    (by unfold Dat.fetched Dat.blockOf iblk13; rw [A_eq13]; try rfl)
theorem before13_1 (c : Dev nD) (t : Fin (cfg13 a).N) (d) : (dat13 V a c).before 1 t d = iblk13 V a c 1 t :=
  ((dat13 V a c).before_in_eq_fetched 1 rfl (fun _ => rfl) (fun _ _ _ => rfl)
    (fun t => by rw [after13_1]; unfold Dat.blockOf iblk13; rw [A_eq13]; try rfl) t d).trans
    (by unfold Dat.fetched Dat.blockOf iblk13; rw [A_eq13]; try rfl)
theorem before13_2 (c : Dev nD) (t : Fin (cfg13 a).N) (d) : (dat13 V a c).before 2 t d = iblk13 V a c 2 t :=
  ((dat13 V a c).before_in_eq_fetched 2 rfl (fun _ => rfl) (fun _ _ _ => rfl)
    (fun t => by rw [after13_2]; unfold Dat.blockOf iblk13; rw [A_eq13]; try rfl) t d).trans
    (by unfold Dat.fetched Dat.blockOf iblk13; rw [A_eq13]; try rfl)
theorem before13_3 (c : Dev nD) (t : Fin (cfg13 a).N) (d) : (dat13 V a c).before 3 t d = iblk13 V a c 3 t :=
  ((dat13 V a c).before_in_eq_fetched 3 rfl (fun _ => rfl) (fun _ _ _ => rfl)
    (fun t => by rw [after13_3]; unfold Dat.blockOf iblk13; rw [A_eq13]; try rfl) t d).trans
    (by unfold Dat.fetched Dat.blockOf iblk13; rw [A_eq13]; try rfl)

/-- What the body is called with at point `t`, the windows one by one, -/
def bodyPre13 (c : Dev nD) (t : Fin (cfg13 a).N) : sProp 𝕄 :=
  iprop((dat13 V a c).Φ t.castSucc ∗ (dat13 V a c).owesAt () t.castSucc
    ∗ (∃ d, owns (c : Thread nD τ) (st13_0 a t) fullShare ((dat13 V a c).before 0 t d))
    ∗ (∃ d, owns (c : Thread nD τ) (st13_1 a t) fullShare ((dat13 V a c).before 1 t d))
    ∗ (∃ d, owns (c : Thread nD τ) (st13_2 a t) fullShare ((dat13 V a c).before 2 t d))
    ∗ (∃ d, owns (c : Thread nD τ) (st13_3 a t) fullShare ((dat13 V a c).before 3 t d))
    ∗ (∃ d, owns (c : Thread nD τ) (st13_4 a t) fullShare ((dat13 V a c).before 4 t d)))

/-- and what it returns. -/
def bodyPost13 (c : Dev nD) (t : Fin (cfg13 a).N) : sProp 𝕄 :=
  iprop((dat13 V a c).Φ t.succ ∗ (dat13 V a c).owesAt () t.succ
    ∗ owns (c : Thread nD τ) (st13_0 a t) fullShare ((dat13 V a c).after 0 t)
    ∗ owns (c : Thread nD τ) (st13_1 a t) fullShare ((dat13 V a c).after 1 t)
    ∗ owns (c : Thread nD τ) (st13_2 a t) fullShare ((dat13 V a c).after 2 t)
    ∗ owns (c : Thread nD τ) (st13_3 a t) fullShare ((dat13 V a c).after 3 t)
    ∗ owns (c : Thread nD τ) (st13_4 a t) fullShare ((dat13 V a c).after 4 t))

/-- The body at any point: the inputs' buffers hold their blocks, so the body's triple applies; the invariant and the
    core's dues pass through unread. -/
theorem sound_body13 (c : Dev nD) (t : Fin (cfg13 a).N) :
    bodyPre13 V a c t ⊢ wp frame (wpE (defs₀ (F := F)) Variants.none c none) Set.univ (bodyAt13 a t) (fun _ => bodyPost13 V a c t) := by
  unfold bodyPre13 bodyPost13 bodyAt13
  simp only [before13_0, before13_1, before13_2, before13_3]
  rw [show (dat13 V a c).Φ t.succ = (dat13 V a c).Φ t.castSucc from rfl,
    show (dat13 V a c).owesAt () t.succ = (dat13 V a c).owesAt () t.castSucc from rfl,
    after13_0, after13_1, after13_2, after13_3, after13_4]
  iintro ⟨HΦ, Ho, ⟨%d0, H0⟩, ⟨%d1, H1⟩, ⟨%d2, H2⟩, ⟨%d3, H3⟩, ⟨%d4, H4⟩⟩
  iapply (sound_kernel13 c Set.univ _ _ _ _ _ _ _ _ _ _ _ _ _ _ _ (iblk13 V a c 0 t) (iblk13 V a c 1 t) (iblk13 V a c 2 t) (iblk13 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation13 (c : Dev nD) : BodyObligation (dat13 (F := F) V a c) (defs₀ (F := F)) Variants.none () Set.univ := fun t => by
  rw [bigSep_W13, bigSep_W13]
  exact sound_body13 V a c t

end Cert.KernelIdeal.Hand

end
-- ==== Proof.KIBody14.lean ====
/-
  One edge's score as the kernel body computes it, and the body's triple.

  The body reads the two gathered rows (one row of the node features for the edge's source node, one for its
  destination node), the 256 weights and the bias from its staging buffers, and writes the single score
  `(∑ row_s · W[0:128]) + (∑ row_d · W[128:256]) + b` to its one-element output buffer. `out14` is what the output
  buffer holds afterwards as a function of the four input buffers; `sound_kernel14` says the body, run on whole
  staging buffers holding those contents, ends with the inputs as they were and the output at `out14` of them.
-/
import proofs.«405368_j31662498906597_2_alg».proof.Proof.LaunchKernelIdeal
import proofs.«405368_j31662498906597_2_alg».proof.Proof.Gen.KernelIdeal.Skeleton
import proofs.«405368_j31662498906597_2_alg».proof.Proof.KIBody0
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The output buffer after the body, from the four input buffers (source row, destination row, weights, bias): its
    one store, of the score. -/
def out14 (x0 x1 : Vec F S1x1x128 .f32) (x2 : Vec F S1x256 .f32) (x3 : Vec F S1x1 .f32) : Vec F S1x1x1 .f32 :=
  View.canon [⟨rO, k14_pay1 (View.ld x2 rW0) (View.ld x2 rW1) (View.ld x0 rH) (View.ld x1 rH) (View.ld x3 rB)⟩]

/-- The one store covers the one-element buffer. -/
theorem cover14 (p0 : Vec F S1x1x1 .f32) (y : S1x1x1.Idx) :
    ∃ pc ∈ ([⟨rO, p0⟩] : List (View.Piece (Elt F) S1x1x1 .f32)), y ∈ pc.1.set :=
  View.cover_of_tiled [⟨rO, p0⟩] S1x1x1.size (by rfl) y

set_option maxHeartbeats 1000000 in
/-- The body on whole staging buffers: the inputs at `x0 … x3`, the output at anything; it ends with the inputs as
    they were and the output at `out14` of them. The two index tables are not touched. -/
theorem sound_kernel14 (c : Dev nD) (E : Set ℕ) (i : grid14.Coords)
    (arg1 : Memref sig .tc .smem S62500 .i32) (harg1 : arg1.IsWhole) (arg2 : Memref sig .tc .smem S62500 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x256 .f32) (harg5 : arg5.IsWhole) (arg6 : Memref sig .tc .vmem S1x1 .f32) (harg6 : arg6.IsWhole)
    (arg7 : Memref sig .tc .vmem S1x1x1 .f32) (harg7 : arg7.IsWhole)
    (x0 x1 : Vec F S1x1x128 .f32) (x2 : Vec F S1x256 .f32) (x3 : Vec F S1x1 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ (∃ d, owns (c : Thread nD τ) arg7 fullShare d)
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare (out14 x0 x1 x2 x3)) -∗ K ⟨⟩))
      ⊢ wp frame (wpE (defs₀ (F := F)) Variants.none c none) E
          (cc14__gather_score_kernel i arg1 harg1 arg2 harg2 arg3 harg3 arg4 harg4 arg5 harg5 arg6 harg6 arg7 harg7) K := by
  -- the printed body is its skeleton of six loads and one store over the payload
  simp only [cc14__gather_score_kernel_eq_skeleton]; unfold cc14__gather_score_kernel_skel
  -- each input's ownership is some contents with the given read; the output's is any contents
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  -- the loads leave every buffer as it was (the value loaded from the output buffer is not used); the store
  -- overwrites the output buffer's one cell with the payload of the five input loads
  sl_exec
  sl_step
  iapply Hk
  -- the four inputs come back at the contents they had
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  -- the output: old contents overwritten by one store that covers the buffer read back as that store alone
  iexists _; isplitr
  swap; · iexact H4
  ipureintro
  exact View.read_writes_eq_canon _ _ _ (cover14 _)

end Cert.KernelIdeal.Hand

end
-- ==== Proof.KIDat14.lean ====
/-
  Region 14 of the edge scorer: the pipeline's proof data and the body obligation.

  The region has 62500 grid points, one per edge of its chunk. At point `t` the pipeline stages five blocks: row
  `src t` of the node features (window 0) and row `dst t` (window 1) — both windows read the ONE feature array,
  their block indices taken from the two prefetched index tables —, the 256 weights (window 2), the bias
  (window 3), and the one-element block `t` of the output (window 4). The body leaves every input block as it
  found it and the output block at the edge's score (`out14` of the four input blocks). The two input windows
  on the shared feature array hold it at the two halves of the full share; the tables ride in the invariant,
  whole, untouched (the body never reads them); nothing is owed to other cores.
-/
import proofs.«405368_j31662498906597_2_alg».proof.Proof.KIBody14

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffers' contents when the region is entered, per core, and the tables' admissible contents: parameters
variable (V : (c : Dev nD) → (b : Ref sig .tc) → Buf (Elt F) ((c : Thread nD τ).loc b)) (a : (pcfg14 (F := F)).Adm)

/-- Window `w`'s block at point `t`, read off its array as the region finds it. -/
def iblk14 (c : Dev nD) (w : Fin (cfg14 a).W) (t : Fin (cfg14 a).N) :
    (((cfg14 a).win w).xblock ((cfg14 a).grid.coords t)).Idx → Elt F ((cfg14 a).win w).elt :=
  (((cfg14 a).win w).blk t).view.read (Elt F) (V c (Pipeline.arrRef spec14 w))

/-- The current staging memref of each window at point `t`. -/
abbrev st14_0 (t : Fin (cfg14 a).N) := ((cfg14 a).win 0).stage ((cfg14 a).slots t 0)
abbrev st14_1 (t : Fin (cfg14 a).N) := ((cfg14 a).win 1).stage ((cfg14 a).slots t 1)
abbrev st14_2 (t : Fin (cfg14 a).N) := ((cfg14 a).win 2).stage ((cfg14 a).slots t 2)
abbrev st14_3 (t : Fin (cfg14 a).N) := ((cfg14 a).win 3).stage ((cfg14 a).slots t 3)
abbrev st14_4 (t : Fin (cfg14 a).N) := ((cfg14 a).win 4).stage ((cfg14 a).slots t 4)

/-- The kernel body at point `t`, on what the pipeline calls it with. -/
abbrev bodyAt14 (t : Fin (cfg14 a).N) : Prog (TpuEff nD τ sig (Elt F) Λ₀ .tc) PUnit :=
  cc14__gather_score_kernel (grid14.coords t) (Memref.whole main_v58) (Memref.isWhole_whole _) (Memref.whole main_v59) (Memref.isWhole_whole _)
    (spec14_0.stage ((cfg14 a).slots t 0)) (hstage14_0 (((cfg14 a).slots t 0).cast nbuf14_0))
    (spec14_1.stage ((cfg14 a).slots t 1)) (hstage14_1 (((cfg14 a).slots t 1).cast nbuf14_1))
    (spec14_2.stage ((cfg14 a).slots t 2)) (hstage14_2 (((cfg14 a).slots t 2).cast nbuf14_2))
    (spec14_3.stage ((cfg14 a).slots t 3)) (hstage14_3 (((cfg14 a).slots t 3).cast nbuf14_3))
    (spec14_4.stage ((cfg14 a).slots t 4)) (hstage14_4 (((cfg14 a).slots t 4).cast nbuf14_4))

/-- The proof data of pipeline 14 on core `c`. -/
def dat14 (c : Dev nD) : Dat τ (Elt F) Unit ℕ (UR sig nD τ) ℕ (cfg14 a) c where
  A w := V c (Pipeline.arrRef spec14 w)
  after w t := match w with
    | ⟨0, _⟩ => iblk14 V a c 0 t
    | ⟨1, _⟩ => iblk14 V a c 1 t
    | ⟨2, _⟩ => iblk14 V a c 2 t
    | ⟨3, _⟩ => iblk14 V a c 3 t
    | ⟨4, _⟩ => out14 (iblk14 V a c 0 t) (iblk14 V a c 1 t) (iblk14 V a c 2 t) (iblk14 V a c 3 t)
  Φ _ := iprop(Pipeline.ΦA spec14 c ∗ Pipeline.prefHeld (Ix := Unit) (Name := ℕ) (U := UR sig nD τ) (Lvl := ℕ) pre14 c (fun _ => fullShare) a.1)
  q w := match w with
    | ⟨0, _⟩ => fullShare.left
    | ⟨1, _⟩ => fullShare.right
    | _ => fullShare
  owed _ := 0

theorem A_eq14 (c : Dev nD) (w : Fin (cfg14 a).W) : (dat14 V a c).A w = V c (Pipeline.arrRef spec14 w) := by
  dsimp only [dat14]

theorem after14_0 (c : Dev nD) (t : Fin (cfg14 a).N) : (dat14 V a c).after 0 t = iblk14 V a c 0 t := by dsimp only [dat14]; try rfl
theorem after14_1 (c : Dev nD) (t : Fin (cfg14 a).N) : (dat14 V a c).after 1 t = iblk14 V a c 1 t := by dsimp only [dat14]; try rfl
theorem after14_2 (c : Dev nD) (t : Fin (cfg14 a).N) : (dat14 V a c).after 2 t = iblk14 V a c 2 t := by dsimp only [dat14]; try rfl
theorem after14_3 (c : Dev nD) (t : Fin (cfg14 a).N) : (dat14 V a c).after 3 t = iblk14 V a c 3 t := by dsimp only [dat14]; try rfl
theorem after14_4 (c : Dev nD) (t : Fin (cfg14 a).N) :
    (dat14 V a c).after 4 t = out14 (iblk14 V a c 0 t) (iblk14 V a c 1 t) (iblk14 V a c 2 t) (iblk14 V a c 3 t) := by dsimp only [dat14]; try rfl

/-- An input window's current staging buffer holds its block at every point, fetched there or not: unfetched, the
    block index has not moved. -/
theorem before14_0 (c : Dev nD) (t : Fin (cfg14 a).N) (d) : (dat14 V a c).before 0 t d = iblk14 V a c 0 t :=
  ((dat14 V a c).before_in_eq_fetched 0 rfl (fun _ => rfl) (fun _ _ _ => rfl)
    (fun t => by rw [after14_0]; unfold Dat.blockOf iblk14; rw [A_eq14]; try rfl) t d).trans
    (by unfold Dat.fetched Dat.blockOf iblk14; rw [A_eq14]; try rfl)
theorem before14_1 (c : Dev nD) (t : Fin (cfg14 a).N) (d) : (dat14 V a c).before 1 t d = iblk14 V a c 1 t :=
  ((dat14 V a c).before_in_eq_fetched 1 rfl (fun _ => rfl) (fun _ _ _ => rfl)
    (fun t => by rw [after14_1]; unfold Dat.blockOf iblk14; rw [A_eq14]; try rfl) t d).trans
    (by unfold Dat.fetched Dat.blockOf iblk14; rw [A_eq14]; try rfl)
theorem before14_2 (c : Dev nD) (t : Fin (cfg14 a).N) (d) : (dat14 V a c).before 2 t d = iblk14 V a c 2 t :=
  ((dat14 V a c).before_in_eq_fetched 2 rfl (fun _ => rfl) (fun _ _ _ => rfl)
    (fun t => by rw [after14_2]; unfold Dat.blockOf iblk14; rw [A_eq14]; try rfl) t d).trans
    (by unfold Dat.fetched Dat.blockOf iblk14; rw [A_eq14]; try rfl)
theorem before14_3 (c : Dev nD) (t : Fin (cfg14 a).N) (d) : (dat14 V a c).before 3 t d = iblk14 V a c 3 t :=
  ((dat14 V a c).before_in_eq_fetched 3 rfl (fun _ => rfl) (fun _ _ _ => rfl)
    (fun t => by rw [after14_3]; unfold Dat.blockOf iblk14; rw [A_eq14]; try rfl) t d).trans
    (by unfold Dat.fetched Dat.blockOf iblk14; rw [A_eq14]; try rfl)

/-- What the body is called with at point `t`, the windows one by one, -/
def bodyPre14 (c : Dev nD) (t : Fin (cfg14 a).N) : sProp 𝕄 :=
  iprop((dat14 V a c).Φ t.castSucc ∗ (dat14 V a c).owesAt () t.castSucc
    ∗ (∃ d, owns (c : Thread nD τ) (st14_0 a t) fullShare ((dat14 V a c).before 0 t d))
    ∗ (∃ d, owns (c : Thread nD τ) (st14_1 a t) fullShare ((dat14 V a c).before 1 t d))
    ∗ (∃ d, owns (c : Thread nD τ) (st14_2 a t) fullShare ((dat14 V a c).before 2 t d))
    ∗ (∃ d, owns (c : Thread nD τ) (st14_3 a t) fullShare ((dat14 V a c).before 3 t d))
    ∗ (∃ d, owns (c : Thread nD τ) (st14_4 a t) fullShare ((dat14 V a c).before 4 t d)))

/-- and what it returns. -/
def bodyPost14 (c : Dev nD) (t : Fin (cfg14 a).N) : sProp 𝕄 :=
  iprop((dat14 V a c).Φ t.succ ∗ (dat14 V a c).owesAt () t.succ
    ∗ owns (c : Thread nD τ) (st14_0 a t) fullShare ((dat14 V a c).after 0 t)
    ∗ owns (c : Thread nD τ) (st14_1 a t) fullShare ((dat14 V a c).after 1 t)
    ∗ owns (c : Thread nD τ) (st14_2 a t) fullShare ((dat14 V a c).after 2 t)
    ∗ owns (c : Thread nD τ) (st14_3 a t) fullShare ((dat14 V a c).after 3 t)
    ∗ owns (c : Thread nD τ) (st14_4 a t) fullShare ((dat14 V a c).after 4 t))

/-- The body at any point: the inputs' buffers hold their blocks, so the body's triple applies; the invariant and the
    core's dues pass through unread. -/
theorem sound_body14 (c : Dev nD) (t : Fin (cfg14 a).N) :
    bodyPre14 V a c t ⊢ wp frame (wpE (defs₀ (F := F)) Variants.none c none) Set.univ (bodyAt14 a t) (fun _ => bodyPost14 V a c t) := by
  unfold bodyPre14 bodyPost14 bodyAt14
  simp only [before14_0, before14_1, before14_2, before14_3]
  rw [show (dat14 V a c).Φ t.succ = (dat14 V a c).Φ t.castSucc from rfl,
    show (dat14 V a c).owesAt () t.succ = (dat14 V a c).owesAt () t.castSucc from rfl,
    after14_0, after14_1, after14_2, after14_3, after14_4]
  iintro ⟨HΦ, Ho, ⟨%d0, H0⟩, ⟨%d1, H1⟩, ⟨%d2, H2⟩, ⟨%d3, H3⟩, ⟨%d4, H4⟩⟩
  iapply (sound_kernel14 c Set.univ _ _ _ _ _ _ _ _ _ _ _ _ _ _ _ (iblk14 V a c 0 t) (iblk14 V a c 1 t) (iblk14 V a c 2 t) (iblk14 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation14 (c : Dev nD) : BodyObligation (dat14 (F := F) V a c) (defs₀ (F := F)) Variants.none () Set.univ := fun t => by
  rw [bigSep_W14, bigSep_W14]
  exact sound_body14 V a c t

end Cert.KernelIdeal.Hand

end
-- ==== Proof.KIBody15.lean ====
/-
  One edge's score as the kernel body computes it, and the body's triple.

  The body reads the two gathered rows (one row of the node features for the edge's source node, one for its
  destination node), the 256 weights and the bias from its staging buffers, and writes the single score
  `(∑ row_s · W[0:128]) + (∑ row_d · W[128:256]) + b` to its one-element output buffer. `out15` is what the output
  buffer holds afterwards as a function of the four input buffers; `sound_kernel15` says the body, run on whole
  staging buffers holding those contents, ends with the inputs as they were and the output at `out15` of them.
-/
import proofs.«405368_j31662498906597_2_alg».proof.Proof.LaunchKernelIdeal
import proofs.«405368_j31662498906597_2_alg».proof.Proof.Gen.KernelIdeal.Skeleton
import proofs.«405368_j31662498906597_2_alg».proof.Proof.KIBody0
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The output buffer after the body, from the four input buffers (source row, destination row, weights, bias): its
    one store, of the score. -/
def out15 (x0 x1 : Vec F S1x1x128 .f32) (x2 : Vec F S1x256 .f32) (x3 : Vec F S1x1 .f32) : Vec F S1x1x1 .f32 :=
  View.canon [⟨rO, k15_pay1 (View.ld x2 rW0) (View.ld x2 rW1) (View.ld x0 rH) (View.ld x1 rH) (View.ld x3 rB)⟩]

/-- The one store covers the one-element buffer. -/
theorem cover15 (p0 : Vec F S1x1x1 .f32) (y : S1x1x1.Idx) :
    ∃ pc ∈ ([⟨rO, p0⟩] : List (View.Piece (Elt F) S1x1x1 .f32)), y ∈ pc.1.set :=
  View.cover_of_tiled [⟨rO, p0⟩] S1x1x1.size (by rfl) y

set_option maxHeartbeats 1000000 in
/-- The body on whole staging buffers: the inputs at `x0 … x3`, the output at anything; it ends with the inputs as
    they were and the output at `out15` of them. The two index tables are not touched. -/
theorem sound_kernel15 (c : Dev nD) (E : Set ℕ) (i : grid15.Coords)
    (arg1 : Memref sig .tc .smem S62500 .i32) (harg1 : arg1.IsWhole) (arg2 : Memref sig .tc .smem S62500 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x256 .f32) (harg5 : arg5.IsWhole) (arg6 : Memref sig .tc .vmem S1x1 .f32) (harg6 : arg6.IsWhole)
    (arg7 : Memref sig .tc .vmem S1x1x1 .f32) (harg7 : arg7.IsWhole)
    (x0 x1 : Vec F S1x1x128 .f32) (x2 : Vec F S1x256 .f32) (x3 : Vec F S1x1 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ (∃ d, owns (c : Thread nD τ) arg7 fullShare d)
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare (out15 x0 x1 x2 x3)) -∗ K ⟨⟩))
      ⊢ wp frame (wpE (defs₀ (F := F)) Variants.none c none) E
          (cc15__gather_score_kernel i arg1 harg1 arg2 harg2 arg3 harg3 arg4 harg4 arg5 harg5 arg6 harg6 arg7 harg7) K := by
  -- the printed body is its skeleton of six loads and one store over the payload
  simp only [cc15__gather_score_kernel_eq_skeleton]; unfold cc15__gather_score_kernel_skel
  -- each input's ownership is some contents with the given read; the output's is any contents
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  -- the loads leave every buffer as it was (the value loaded from the output buffer is not used); the store
  -- overwrites the output buffer's one cell with the payload of the five input loads
  sl_exec
  sl_step
  iapply Hk
  -- the four inputs come back at the contents they had
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  -- the output: old contents overwritten by one store that covers the buffer read back as that store alone
  iexists _; isplitr
  swap; · iexact H4
  ipureintro
  exact View.read_writes_eq_canon _ _ _ (cover15 _)

end Cert.KernelIdeal.Hand

end
-- ==== Proof.KIDat15.lean ====
/-
  Region 15 of the edge scorer: the pipeline's proof data and the body obligation.

  The region has 62500 grid points, one per edge of its chunk. At point `t` the pipeline stages five blocks: row
  `src t` of the node features (window 0) and row `dst t` (window 1) — both windows read the ONE feature array,
  their block indices taken from the two prefetched index tables —, the 256 weights (window 2), the bias
  (window 3), and the one-element block `t` of the output (window 4). The body leaves every input block as it
  found it and the output block at the edge's score (`out15` of the four input blocks). The two input windows
  on the shared feature array hold it at the two halves of the full share; the tables ride in the invariant,
  whole, untouched (the body never reads them); nothing is owed to other cores.
-/
import proofs.«405368_j31662498906597_2_alg».proof.Proof.KIBody15

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffers' contents when the region is entered, per core, and the tables' admissible contents: parameters
variable (V : (c : Dev nD) → (b : Ref sig .tc) → Buf (Elt F) ((c : Thread nD τ).loc b)) (a : (pcfg15 (F := F)).Adm)

/-- Window `w`'s block at point `t`, read off its array as the region finds it. -/
def iblk15 (c : Dev nD) (w : Fin (cfg15 a).W) (t : Fin (cfg15 a).N) :
    (((cfg15 a).win w).xblock ((cfg15 a).grid.coords t)).Idx → Elt F ((cfg15 a).win w).elt :=
  (((cfg15 a).win w).blk t).view.read (Elt F) (V c (Pipeline.arrRef spec15 w))

/-- The current staging memref of each window at point `t`. -/
abbrev st15_0 (t : Fin (cfg15 a).N) := ((cfg15 a).win 0).stage ((cfg15 a).slots t 0)
abbrev st15_1 (t : Fin (cfg15 a).N) := ((cfg15 a).win 1).stage ((cfg15 a).slots t 1)
abbrev st15_2 (t : Fin (cfg15 a).N) := ((cfg15 a).win 2).stage ((cfg15 a).slots t 2)
abbrev st15_3 (t : Fin (cfg15 a).N) := ((cfg15 a).win 3).stage ((cfg15 a).slots t 3)
abbrev st15_4 (t : Fin (cfg15 a).N) := ((cfg15 a).win 4).stage ((cfg15 a).slots t 4)

/-- The kernel body at point `t`, on what the pipeline calls it with. -/
abbrev bodyAt15 (t : Fin (cfg15 a).N) : Prog (TpuEff nD τ sig (Elt F) Λ₀ .tc) PUnit :=
  cc15__gather_score_kernel (grid15.coords t) (Memref.whole main_v62) (Memref.isWhole_whole _) (Memref.whole main_v63) (Memref.isWhole_whole _)
    (spec15_0.stage ((cfg15 a).slots t 0)) (hstage15_0 (((cfg15 a).slots t 0).cast nbuf15_0))
    (spec15_1.stage ((cfg15 a).slots t 1)) (hstage15_1 (((cfg15 a).slots t 1).cast nbuf15_1))
    (spec15_2.stage ((cfg15 a).slots t 2)) (hstage15_2 (((cfg15 a).slots t 2).cast nbuf15_2))
    (spec15_3.stage ((cfg15 a).slots t 3)) (hstage15_3 (((cfg15 a).slots t 3).cast nbuf15_3))
    (spec15_4.stage ((cfg15 a).slots t 4)) (hstage15_4 (((cfg15 a).slots t 4).cast nbuf15_4))

/-- The proof data of pipeline 15 on core `c`. -/
def dat15 (c : Dev nD) : Dat τ (Elt F) Unit ℕ (UR sig nD τ) ℕ (cfg15 a) c where
  A w := V c (Pipeline.arrRef spec15 w)
  after w t := match w with
    | ⟨0, _⟩ => iblk15 V a c 0 t
    | ⟨1, _⟩ => iblk15 V a c 1 t
    | ⟨2, _⟩ => iblk15 V a c 2 t
    | ⟨3, _⟩ => iblk15 V a c 3 t
    | ⟨4, _⟩ => out15 (iblk15 V a c 0 t) (iblk15 V a c 1 t) (iblk15 V a c 2 t) (iblk15 V a c 3 t)
  Φ _ := iprop(Pipeline.ΦA spec15 c ∗ Pipeline.prefHeld (Ix := Unit) (Name := ℕ) (U := UR sig nD τ) (Lvl := ℕ) pre15 c (fun _ => fullShare) a.1)
  q w := match w with
    | ⟨0, _⟩ => fullShare.left
    | ⟨1, _⟩ => fullShare.right
    | _ => fullShare
  owed _ := 0

theorem A_eq15 (c : Dev nD) (w : Fin (cfg15 a).W) : (dat15 V a c).A w = V c (Pipeline.arrRef spec15 w) := by
  dsimp only [dat15]

theorem after15_0 (c : Dev nD) (t : Fin (cfg15 a).N) : (dat15 V a c).after 0 t = iblk15 V a c 0 t := by dsimp only [dat15]; try rfl
theorem after15_1 (c : Dev nD) (t : Fin (cfg15 a).N) : (dat15 V a c).after 1 t = iblk15 V a c 1 t := by dsimp only [dat15]; try rfl
theorem after15_2 (c : Dev nD) (t : Fin (cfg15 a).N) : (dat15 V a c).after 2 t = iblk15 V a c 2 t := by dsimp only [dat15]; try rfl
theorem after15_3 (c : Dev nD) (t : Fin (cfg15 a).N) : (dat15 V a c).after 3 t = iblk15 V a c 3 t := by dsimp only [dat15]; try rfl
theorem after15_4 (c : Dev nD) (t : Fin (cfg15 a).N) :
    (dat15 V a c).after 4 t = out15 (iblk15 V a c 0 t) (iblk15 V a c 1 t) (iblk15 V a c 2 t) (iblk15 V a c 3 t) := by dsimp only [dat15]; try rfl

/-- An input window's current staging buffer holds its block at every point, fetched there or not: unfetched, the
    block index has not moved. -/
theorem before15_0 (c : Dev nD) (t : Fin (cfg15 a).N) (d) : (dat15 V a c).before 0 t d = iblk15 V a c 0 t :=
  ((dat15 V a c).before_in_eq_fetched 0 rfl (fun _ => rfl) (fun _ _ _ => rfl)
    (fun t => by rw [after15_0]; unfold Dat.blockOf iblk15; rw [A_eq15]; try rfl) t d).trans
    (by unfold Dat.fetched Dat.blockOf iblk15; rw [A_eq15]; try rfl)
theorem before15_1 (c : Dev nD) (t : Fin (cfg15 a).N) (d) : (dat15 V a c).before 1 t d = iblk15 V a c 1 t :=
  ((dat15 V a c).before_in_eq_fetched 1 rfl (fun _ => rfl) (fun _ _ _ => rfl)
    (fun t => by rw [after15_1]; unfold Dat.blockOf iblk15; rw [A_eq15]; try rfl) t d).trans
    (by unfold Dat.fetched Dat.blockOf iblk15; rw [A_eq15]; try rfl)
theorem before15_2 (c : Dev nD) (t : Fin (cfg15 a).N) (d) : (dat15 V a c).before 2 t d = iblk15 V a c 2 t :=
  ((dat15 V a c).before_in_eq_fetched 2 rfl (fun _ => rfl) (fun _ _ _ => rfl)
    (fun t => by rw [after15_2]; unfold Dat.blockOf iblk15; rw [A_eq15]; try rfl) t d).trans
    (by unfold Dat.fetched Dat.blockOf iblk15; rw [A_eq15]; try rfl)
theorem before15_3 (c : Dev nD) (t : Fin (cfg15 a).N) (d) : (dat15 V a c).before 3 t d = iblk15 V a c 3 t :=
  ((dat15 V a c).before_in_eq_fetched 3 rfl (fun _ => rfl) (fun _ _ _ => rfl)
    (fun t => by rw [after15_3]; unfold Dat.blockOf iblk15; rw [A_eq15]; try rfl) t d).trans
    (by unfold Dat.fetched Dat.blockOf iblk15; rw [A_eq15]; try rfl)

/-- What the body is called with at point `t`, the windows one by one, -/
def bodyPre15 (c : Dev nD) (t : Fin (cfg15 a).N) : sProp 𝕄 :=
  iprop((dat15 V a c).Φ t.castSucc ∗ (dat15 V a c).owesAt () t.castSucc
    ∗ (∃ d, owns (c : Thread nD τ) (st15_0 a t) fullShare ((dat15 V a c).before 0 t d))
    ∗ (∃ d, owns (c : Thread nD τ) (st15_1 a t) fullShare ((dat15 V a c).before 1 t d))
    ∗ (∃ d, owns (c : Thread nD τ) (st15_2 a t) fullShare ((dat15 V a c).before 2 t d))
    ∗ (∃ d, owns (c : Thread nD τ) (st15_3 a t) fullShare ((dat15 V a c).before 3 t d))
    ∗ (∃ d, owns (c : Thread nD τ) (st15_4 a t) fullShare ((dat15 V a c).before 4 t d)))

/-- and what it returns. -/
def bodyPost15 (c : Dev nD) (t : Fin (cfg15 a).N) : sProp 𝕄 :=
  iprop((dat15 V a c).Φ t.succ ∗ (dat15 V a c).owesAt () t.succ
    ∗ owns (c : Thread nD τ) (st15_0 a t) fullShare ((dat15 V a c).after 0 t)
    ∗ owns (c : Thread nD τ) (st15_1 a t) fullShare ((dat15 V a c).after 1 t)
    ∗ owns (c : Thread nD τ) (st15_2 a t) fullShare ((dat15 V a c).after 2 t)
    ∗ owns (c : Thread nD τ) (st15_3 a t) fullShare ((dat15 V a c).after 3 t)
    ∗ owns (c : Thread nD τ) (st15_4 a t) fullShare ((dat15 V a c).after 4 t))

/-- The body at any point: the inputs' buffers hold their blocks, so the body's triple applies; the invariant and the
    core's dues pass through unread. -/
theorem sound_body15 (c : Dev nD) (t : Fin (cfg15 a).N) :
    bodyPre15 V a c t ⊢ wp frame (wpE (defs₀ (F := F)) Variants.none c none) Set.univ (bodyAt15 a t) (fun _ => bodyPost15 V a c t) := by
  unfold bodyPre15 bodyPost15 bodyAt15
  simp only [before15_0, before15_1, before15_2, before15_3]
  rw [show (dat15 V a c).Φ t.succ = (dat15 V a c).Φ t.castSucc from rfl,
    show (dat15 V a c).owesAt () t.succ = (dat15 V a c).owesAt () t.castSucc from rfl,
    after15_0, after15_1, after15_2, after15_3, after15_4]
  iintro ⟨HΦ, Ho, ⟨%d0, H0⟩, ⟨%d1, H1⟩, ⟨%d2, H2⟩, ⟨%d3, H3⟩, ⟨%d4, H4⟩⟩
  iapply (sound_kernel15 c Set.univ _ _ _ _ _ _ _ _ _ _ _ _ _ _ _ (iblk15 V a c 0 t) (iblk15 V a c 1 t) (iblk15 V a c 2 t) (iblk15 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation15 (c : Dev nD) : BodyObligation (dat15 (F := F) V a c) (defs₀ (F := F)) Variants.none () Set.univ := fun t => by
  rw [bigSep_W15, bigSep_W15]
  exact sound_body15 V a c t

end Cert.KernelIdeal.Hand

end
-- ==== Proof.KIFamily.lean ====
/-
  The sixteen regions as one family.

  Region `k` is entered with the buffers at `Ve k`: what the host operations before it leave, none of which depends on
  what an earlier region wrote (the feature rows, the weights, the bias and the k-th slices of the two index inputs are
  functions of the launch memory alone), so it is stated with the earlier regions' outputs left as launched. `tbl k`
  are the two index tables region `k` is handed, `Oks` says every table-indexed block lies inside the feature array,
  `pdats` is every pipeline's proof data, `chunk k` what region `k` leaves in its output array, and `outsR` collects the
  sixteen outputs as the contents the regions leave.
-/
import proofs.«405368_j31662498906597_2_alg».proof.Proof.KIDat0
import proofs.«405368_j31662498906597_2_alg».proof.Proof.KIDat1
import proofs.«405368_j31662498906597_2_alg».proof.Proof.KIDat2
import proofs.«405368_j31662498906597_2_alg».proof.Proof.KIDat3
import proofs.«405368_j31662498906597_2_alg».proof.Proof.KIDat4
import proofs.«405368_j31662498906597_2_alg».proof.Proof.KIDat5
import proofs.«405368_j31662498906597_2_alg».proof.Proof.KIDat6
import proofs.«405368_j31662498906597_2_alg».proof.Proof.KIDat7
import proofs.«405368_j31662498906597_2_alg».proof.Proof.KIDat8
import proofs.«405368_j31662498906597_2_alg».proof.Proof.KIDat9
import proofs.«405368_j31662498906597_2_alg».proof.Proof.KIDat10
import proofs.«405368_j31662498906597_2_alg».proof.Proof.KIDat11
import proofs.«405368_j31662498906597_2_alg».proof.Proof.KIDat12
import proofs.«405368_j31662498906597_2_alg».proof.Proof.KIDat13
import proofs.«405368_j31662498906597_2_alg».proof.Proof.KIDat14
import proofs.«405368_j31662498906597_2_alg».proof.Proof.KIDat15
import proofs.«405368_j31662498906597_2_alg».proof.Proof.RegionsKernelIdeal

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The regions' outputs left as launched: the stand-in under which the entry contents are stated. -/
noncomputable abbrev outsL : Outs (F := F) := fun _ r c => m ((c : Thread nD τ).loc r)

/-- The buffers as region 0 finds them. -/
noncomputable abbrev Ve0 (c : Dev nD) (b : Ref sig .tc) : Buf (Elt F) ((c : Thread nD τ).loc b) := V1 m c b
/-- The buffers as region 1 finds them. -/
noncomputable abbrev Ve1 (c : Dev nD) (b : Ref sig .tc) : Buf (Elt F) ((c : Thread nD τ).loc b) := V3 m (outsL m) c b
/-- The buffers as region 2 finds them. -/
noncomputable abbrev Ve2 (c : Dev nD) (b : Ref sig .tc) : Buf (Elt F) ((c : Thread nD τ).loc b) := V5 m (outsL m) c b
/-- The buffers as region 3 finds them. -/
noncomputable abbrev Ve3 (c : Dev nD) (b : Ref sig .tc) : Buf (Elt F) ((c : Thread nD τ).loc b) := V7 m (outsL m) c b
/-- The buffers as region 4 finds them. -/
noncomputable abbrev Ve4 (c : Dev nD) (b : Ref sig .tc) : Buf (Elt F) ((c : Thread nD τ).loc b) := V9 m (outsL m) c b
/-- The buffers as region 5 finds them. -/
noncomputable abbrev Ve5 (c : Dev nD) (b : Ref sig .tc) : Buf (Elt F) ((c : Thread nD τ).loc b) := V11 m (outsL m) c b
/-- The buffers as region 6 finds them. -/
noncomputable abbrev Ve6 (c : Dev nD) (b : Ref sig .tc) : Buf (Elt F) ((c : Thread nD τ).loc b) := V13 m (outsL m) c b
/-- The buffers as region 7 finds them. -/
noncomputable abbrev Ve7 (c : Dev nD) (b : Ref sig .tc) : Buf (Elt F) ((c : Thread nD τ).loc b) := V15 m (outsL m) c b
/-- The buffers as region 8 finds them. -/
noncomputable abbrev Ve8 (c : Dev nD) (b : Ref sig .tc) : Buf (Elt F) ((c : Thread nD τ).loc b) := V17 m (outsL m) c b
/-- The buffers as region 9 finds them. -/
noncomputable abbrev Ve9 (c : Dev nD) (b : Ref sig .tc) : Buf (Elt F) ((c : Thread nD τ).loc b) := V19 m (outsL m) c b
/-- The buffers as region 10 finds them. -/
noncomputable abbrev Ve10 (c : Dev nD) (b : Ref sig .tc) : Buf (Elt F) ((c : Thread nD τ).loc b) := V21 m (outsL m) c b
/-- The buffers as region 11 finds them. -/
noncomputable abbrev Ve11 (c : Dev nD) (b : Ref sig .tc) : Buf (Elt F) ((c : Thread nD τ).loc b) := V23 m (outsL m) c b
/-- The buffers as region 12 finds them. -/
noncomputable abbrev Ve12 (c : Dev nD) (b : Ref sig .tc) : Buf (Elt F) ((c : Thread nD τ).loc b) := V25 m (outsL m) c b
/-- The buffers as region 13 finds them. -/
noncomputable abbrev Ve13 (c : Dev nD) (b : Ref sig .tc) : Buf (Elt F) ((c : Thread nD τ).loc b) := V27 m (outsL m) c b
/-- The buffers as region 14 finds them. -/
noncomputable abbrev Ve14 (c : Dev nD) (b : Ref sig .tc) : Buf (Elt F) ((c : Thread nD τ).loc b) := V29 m (outsL m) c b
/-- The buffers as region 15 finds them. -/
noncomputable abbrev Ve15 (c : Dev nD) (b : Ref sig .tc) : Buf (Elt F) ((c : Thread nD τ).loc b) := V31 m (outsL m) c b
/-- Region 0's two index tables (the program runs on one device). -/
noncomputable def tbl0 : pre0.Contents (Elt F) := fun j => Ve0 m (0 : Dev nD) (pre0.ref j)
/-- Region 1's two index tables (the program runs on one device). -/
noncomputable def tbl1 : pre1.Contents (Elt F) := fun j => Ve1 m (0 : Dev nD) (pre1.ref j)
/-- Region 2's two index tables (the program runs on one device). -/
noncomputable def tbl2 : pre2.Contents (Elt F) := fun j => Ve2 m (0 : Dev nD) (pre2.ref j)
/-- Region 3's two index tables (the program runs on one device). -/
noncomputable def tbl3 : pre3.Contents (Elt F) := fun j => Ve3 m (0 : Dev nD) (pre3.ref j)
/-- Region 4's two index tables (the program runs on one device). -/
noncomputable def tbl4 : pre4.Contents (Elt F) := fun j => Ve4 m (0 : Dev nD) (pre4.ref j)
/-- Region 5's two index tables (the program runs on one device). -/
noncomputable def tbl5 : pre5.Contents (Elt F) := fun j => Ve5 m (0 : Dev nD) (pre5.ref j)
/-- Region 6's two index tables (the program runs on one device). -/
noncomputable def tbl6 : pre6.Contents (Elt F) := fun j => Ve6 m (0 : Dev nD) (pre6.ref j)
/-- Region 7's two index tables (the program runs on one device). -/
noncomputable def tbl7 : pre7.Contents (Elt F) := fun j => Ve7 m (0 : Dev nD) (pre7.ref j)
/-- Region 8's two index tables (the program runs on one device). -/
noncomputable def tbl8 : pre8.Contents (Elt F) := fun j => Ve8 m (0 : Dev nD) (pre8.ref j)
/-- Region 9's two index tables (the program runs on one device). -/
noncomputable def tbl9 : pre9.Contents (Elt F) := fun j => Ve9 m (0 : Dev nD) (pre9.ref j)
/-- Region 10's two index tables (the program runs on one device). -/
noncomputable def tbl10 : pre10.Contents (Elt F) := fun j => Ve10 m (0 : Dev nD) (pre10.ref j)
/-- Region 11's two index tables (the program runs on one device). -/
noncomputable def tbl11 : pre11.Contents (Elt F) := fun j => Ve11 m (0 : Dev nD) (pre11.ref j)
/-- Region 12's two index tables (the program runs on one device). -/
noncomputable def tbl12 : pre12.Contents (Elt F) := fun j => Ve12 m (0 : Dev nD) (pre12.ref j)
/-- Region 13's two index tables (the program runs on one device). -/
noncomputable def tbl13 : pre13.Contents (Elt F) := fun j => Ve13 m (0 : Dev nD) (pre13.ref j)
/-- Region 14's two index tables (the program runs on one device). -/
noncomputable def tbl14 : pre14.Contents (Elt F) := fun j => Ve14 m (0 : Dev nD) (pre14.ref j)
/-- Region 15's two index tables (the program runs on one device). -/
noncomputable def tbl15 : pre15.Contents (Elt F) := fun j => Ve15 m (0 : Dev nD) (pre15.ref j)
/-- Every table-indexed block lies inside the feature array, in every region. -/
structure Oks : Prop where
  h0 : ok0 (F := F) (tbl0 m)
  h1 : ok1 (F := F) (tbl1 m)
  h2 : ok2 (F := F) (tbl2 m)
  h3 : ok3 (F := F) (tbl3 m)
  h4 : ok4 (F := F) (tbl4 m)
  h5 : ok5 (F := F) (tbl5 m)
  h6 : ok6 (F := F) (tbl6 m)
  h7 : ok7 (F := F) (tbl7 m)
  h8 : ok8 (F := F) (tbl8 m)
  h9 : ok9 (F := F) (tbl9 m)
  h10 : ok10 (F := F) (tbl10 m)
  h11 : ok11 (F := F) (tbl11 m)
  h12 : ok12 (F := F) (tbl12 m)
  h13 : ok13 (F := F) (tbl13 m)
  h14 : ok14 (F := F) (tbl14 m)
  h15 : ok15 (F := F) (tbl15 m)

variable (hO : Oks m)

/-- The tables as admissible contents, region by region. -/
noncomputable def adm : (p : Fin 16) → (pcfgs (F := F) p).Adm
  | ⟨0, _⟩ => ⟨tbl0 m, hO.h0⟩
  | ⟨1, _⟩ => ⟨tbl1 m, hO.h1⟩
  | ⟨2, _⟩ => ⟨tbl2 m, hO.h2⟩
  | ⟨3, _⟩ => ⟨tbl3 m, hO.h3⟩
  | ⟨4, _⟩ => ⟨tbl4 m, hO.h4⟩
  | ⟨5, _⟩ => ⟨tbl5 m, hO.h5⟩
  | ⟨6, _⟩ => ⟨tbl6 m, hO.h6⟩
  | ⟨7, _⟩ => ⟨tbl7 m, hO.h7⟩
  | ⟨8, _⟩ => ⟨tbl8 m, hO.h8⟩
  | ⟨9, _⟩ => ⟨tbl9 m, hO.h9⟩
  | ⟨10, _⟩ => ⟨tbl10 m, hO.h10⟩
  | ⟨11, _⟩ => ⟨tbl11 m, hO.h11⟩
  | ⟨12, _⟩ => ⟨tbl12 m, hO.h12⟩
  | ⟨13, _⟩ => ⟨tbl13 m, hO.h13⟩
  | ⟨14, _⟩ => ⟨tbl14 m, hO.h14⟩
  | ⟨15, _⟩ => ⟨tbl15 m, hO.h15⟩
  | ⟨_ + 16, h⟩ => absurd h (Nat.not_lt.2 (Nat.le_add_left _ _))
/-- Every pipeline's proof data, each at its region's entry contents. -/
noncomputable def pdats : (p : Fin 16) → (c : Dev nD) → Dat τ (Elt F) Unit ℕ (UR sig nD τ) ℕ (Pipeline.pin (pcfgs (F := F)) (adm m hO) p) c
  | ⟨0, _⟩ => fun c => dat0 (Ve0 m) ⟨tbl0 m, hO.h0⟩ c
  | ⟨1, _⟩ => fun c => dat1 (Ve1 m) ⟨tbl1 m, hO.h1⟩ c
  | ⟨2, _⟩ => fun c => dat2 (Ve2 m) ⟨tbl2 m, hO.h2⟩ c
  | ⟨3, _⟩ => fun c => dat3 (Ve3 m) ⟨tbl3 m, hO.h3⟩ c
  | ⟨4, _⟩ => fun c => dat4 (Ve4 m) ⟨tbl4 m, hO.h4⟩ c
  | ⟨5, _⟩ => fun c => dat5 (Ve5 m) ⟨tbl5 m, hO.h5⟩ c
  | ⟨6, _⟩ => fun c => dat6 (Ve6 m) ⟨tbl6 m, hO.h6⟩ c
  | ⟨7, _⟩ => fun c => dat7 (Ve7 m) ⟨tbl7 m, hO.h7⟩ c
  | ⟨8, _⟩ => fun c => dat8 (Ve8 m) ⟨tbl8 m, hO.h8⟩ c
  | ⟨9, _⟩ => fun c => dat9 (Ve9 m) ⟨tbl9 m, hO.h9⟩ c
  | ⟨10, _⟩ => fun c => dat10 (Ve10 m) ⟨tbl10 m, hO.h10⟩ c
  | ⟨11, _⟩ => fun c => dat11 (Ve11 m) ⟨tbl11 m, hO.h11⟩ c
  | ⟨12, _⟩ => fun c => dat12 (Ve12 m) ⟨tbl12 m, hO.h12⟩ c
  | ⟨13, _⟩ => fun c => dat13 (Ve13 m) ⟨tbl13 m, hO.h13⟩ c
  | ⟨14, _⟩ => fun c => dat14 (Ve14 m) ⟨tbl14 m, hO.h14⟩ c
  | ⟨15, _⟩ => fun c => dat15 (Ve15 m) ⟨tbl15 m, hO.h15⟩ c
  | ⟨_ + 16, h⟩ => absurd h (Nat.not_lt.2 (Nat.le_add_left _ _))
/-- What region 0 leaves in its output array. -/
noncomputable def chunk0 (c : Dev nD) : Buf (Elt F) ((c : Thread nD τ).loc main_v4) := (dat0 (Ve0 m) ⟨tbl0 m, hO.h0⟩ c).arrAt 4 (cfg0 ⟨tbl0 m, hO.h0⟩).N
/-- What region 1 leaves in its output array. -/
noncomputable def chunk1 (c : Dev nD) : Buf (Elt F) ((c : Thread nD τ).loc main_v8) := (dat1 (Ve1 m) ⟨tbl1 m, hO.h1⟩ c).arrAt 4 (cfg1 ⟨tbl1 m, hO.h1⟩).N
/-- What region 2 leaves in its output array. -/
noncomputable def chunk2 (c : Dev nD) : Buf (Elt F) ((c : Thread nD τ).loc main_v12) := (dat2 (Ve2 m) ⟨tbl2 m, hO.h2⟩ c).arrAt 4 (cfg2 ⟨tbl2 m, hO.h2⟩).N
/-- What region 3 leaves in its output array. -/
noncomputable def chunk3 (c : Dev nD) : Buf (Elt F) ((c : Thread nD τ).loc main_v16) := (dat3 (Ve3 m) ⟨tbl3 m, hO.h3⟩ c).arrAt 4 (cfg3 ⟨tbl3 m, hO.h3⟩).N
/-- What region 4 leaves in its output array. -/
noncomputable def chunk4 (c : Dev nD) : Buf (Elt F) ((c : Thread nD τ).loc main_v20) := (dat4 (Ve4 m) ⟨tbl4 m, hO.h4⟩ c).arrAt 4 (cfg4 ⟨tbl4 m, hO.h4⟩).N
/-- What region 5 leaves in its output array. -/
noncomputable def chunk5 (c : Dev nD) : Buf (Elt F) ((c : Thread nD τ).loc main_v24) := (dat5 (Ve5 m) ⟨tbl5 m, hO.h5⟩ c).arrAt 4 (cfg5 ⟨tbl5 m, hO.h5⟩).N
/-- What region 6 leaves in its output array. -/
noncomputable def chunk6 (c : Dev nD) : Buf (Elt F) ((c : Thread nD τ).loc main_v28) := (dat6 (Ve6 m) ⟨tbl6 m, hO.h6⟩ c).arrAt 4 (cfg6 ⟨tbl6 m, hO.h6⟩).N
/-- What region 7 leaves in its output array. -/
noncomputable def chunk7 (c : Dev nD) : Buf (Elt F) ((c : Thread nD τ).loc main_v32) := (dat7 (Ve7 m) ⟨tbl7 m, hO.h7⟩ c).arrAt 4 (cfg7 ⟨tbl7 m, hO.h7⟩).N
/-- What region 8 leaves in its output array. -/
noncomputable def chunk8 (c : Dev nD) : Buf (Elt F) ((c : Thread nD τ).loc main_v36) := (dat8 (Ve8 m) ⟨tbl8 m, hO.h8⟩ c).arrAt 4 (cfg8 ⟨tbl8 m, hO.h8⟩).N
/-- What region 9 leaves in its output array. -/
noncomputable def chunk9 (c : Dev nD) : Buf (Elt F) ((c : Thread nD τ).loc main_v40) := (dat9 (Ve9 m) ⟨tbl9 m, hO.h9⟩ c).arrAt 4 (cfg9 ⟨tbl9 m, hO.h9⟩).N
/-- What region 10 leaves in its output array. -/
noncomputable def chunk10 (c : Dev nD) : Buf (Elt F) ((c : Thread nD τ).loc main_v44) := (dat10 (Ve10 m) ⟨tbl10 m, hO.h10⟩ c).arrAt 4 (cfg10 ⟨tbl10 m, hO.h10⟩).N
/-- What region 11 leaves in its output array. -/
noncomputable def chunk11 (c : Dev nD) : Buf (Elt F) ((c : Thread nD τ).loc main_v48) := (dat11 (Ve11 m) ⟨tbl11 m, hO.h11⟩ c).arrAt 4 (cfg11 ⟨tbl11 m, hO.h11⟩).N
/-- What region 12 leaves in its output array. -/
noncomputable def chunk12 (c : Dev nD) : Buf (Elt F) ((c : Thread nD τ).loc main_v52) := (dat12 (Ve12 m) ⟨tbl12 m, hO.h12⟩ c).arrAt 4 (cfg12 ⟨tbl12 m, hO.h12⟩).N
/-- What region 13 leaves in its output array. -/
noncomputable def chunk13 (c : Dev nD) : Buf (Elt F) ((c : Thread nD τ).loc main_v56) := (dat13 (Ve13 m) ⟨tbl13 m, hO.h13⟩ c).arrAt 4 (cfg13 ⟨tbl13 m, hO.h13⟩).N
/-- What region 14 leaves in its output array. -/
noncomputable def chunk14 (c : Dev nD) : Buf (Elt F) ((c : Thread nD τ).loc main_v60) := (dat14 (Ve14 m) ⟨tbl14 m, hO.h14⟩ c).arrAt 4 (cfg14 ⟨tbl14 m, hO.h14⟩).N
/-- What region 15 leaves in its output array. -/
noncomputable def chunk15 (c : Dev nD) : Buf (Elt F) ((c : Thread nD τ).loc main_v64) := (dat15 (Ve15 m) ⟨tbl15 m, hO.h15⟩ c).arrAt 4 (cfg15 ⟨tbl15 m, hO.h15⟩).N
/-- The contents the regions leave: region k's output array at `chunk k`, everything else as launched. -/
noncomputable def outsR : Outs (F := F) := fun J r c => match J with
  | 2 => Function.update (fun r => m ((c : Thread nD τ).loc r)) main_v4 (chunk0 m hO c) r
  | 4 => Function.update (fun r => m ((c : Thread nD τ).loc r)) main_v8 (chunk1 m hO c) r
  | 6 => Function.update (fun r => m ((c : Thread nD τ).loc r)) main_v12 (chunk2 m hO c) r
  | 8 => Function.update (fun r => m ((c : Thread nD τ).loc r)) main_v16 (chunk3 m hO c) r
  | 10 => Function.update (fun r => m ((c : Thread nD τ).loc r)) main_v20 (chunk4 m hO c) r
  | 12 => Function.update (fun r => m ((c : Thread nD τ).loc r)) main_v24 (chunk5 m hO c) r
  | 14 => Function.update (fun r => m ((c : Thread nD τ).loc r)) main_v28 (chunk6 m hO c) r
  | 16 => Function.update (fun r => m ((c : Thread nD τ).loc r)) main_v32 (chunk7 m hO c) r
  | 18 => Function.update (fun r => m ((c : Thread nD τ).loc r)) main_v36 (chunk8 m hO c) r
  | 20 => Function.update (fun r => m ((c : Thread nD τ).loc r)) main_v40 (chunk9 m hO c) r
  | 22 => Function.update (fun r => m ((c : Thread nD τ).loc r)) main_v44 (chunk10 m hO c) r
  | 24 => Function.update (fun r => m ((c : Thread nD τ).loc r)) main_v48 (chunk11 m hO c) r
  | 26 => Function.update (fun r => m ((c : Thread nD τ).loc r)) main_v52 (chunk12 m hO c) r
  | 28 => Function.update (fun r => m ((c : Thread nD τ).loc r)) main_v56 (chunk13 m hO c) r
  | 30 => Function.update (fun r => m ((c : Thread nD τ).loc r)) main_v60 (chunk14 m hO c) r
  | 32 => Function.update (fun r => m ((c : Thread nD τ).loc r)) main_v64 (chunk15 m hO c) r
  | _ => m ((c : Thread nD τ).loc r)
theorem outsR_0 (c : Dev nD) : outsR m hO 2 main_v4 c = chunk0 m hO c := by
  show Function.update (fun r : Ref sig .tc => m ((c : Thread nD τ).loc r)) main_v4 (chunk0 m hO c) main_v4 = _
  exact Function.update_self _ _ _
theorem outsR_1 (c : Dev nD) : outsR m hO 4 main_v8 c = chunk1 m hO c := by
  show Function.update (fun r : Ref sig .tc => m ((c : Thread nD τ).loc r)) main_v8 (chunk1 m hO c) main_v8 = _
  exact Function.update_self _ _ _
theorem outsR_2 (c : Dev nD) : outsR m hO 6 main_v12 c = chunk2 m hO c := by
  show Function.update (fun r : Ref sig .tc => m ((c : Thread nD τ).loc r)) main_v12 (chunk2 m hO c) main_v12 = _
  exact Function.update_self _ _ _
theorem outsR_3 (c : Dev nD) : outsR m hO 8 main_v16 c = chunk3 m hO c := by
  show Function.update (fun r : Ref sig .tc => m ((c : Thread nD τ).loc r)) main_v16 (chunk3 m hO c) main_v16 = _
  exact Function.update_self _ _ _
theorem outsR_4 (c : Dev nD) : outsR m hO 10 main_v20 c = chunk4 m hO c := by
  show Function.update (fun r : Ref sig .tc => m ((c : Thread nD τ).loc r)) main_v20 (chunk4 m hO c) main_v20 = _
  exact Function.update_self _ _ _
theorem outsR_5 (c : Dev nD) : outsR m hO 12 main_v24 c = chunk5 m hO c := by
  show Function.update (fun r : Ref sig .tc => m ((c : Thread nD τ).loc r)) main_v24 (chunk5 m hO c) main_v24 = _
  exact Function.update_self _ _ _
theorem outsR_6 (c : Dev nD) : outsR m hO 14 main_v28 c = chunk6 m hO c := by
  show Function.update (fun r : Ref sig .tc => m ((c : Thread nD τ).loc r)) main_v28 (chunk6 m hO c) main_v28 = _
  exact Function.update_self _ _ _
theorem outsR_7 (c : Dev nD) : outsR m hO 16 main_v32 c = chunk7 m hO c := by
  show Function.update (fun r : Ref sig .tc => m ((c : Thread nD τ).loc r)) main_v32 (chunk7 m hO c) main_v32 = _
  exact Function.update_self _ _ _
theorem outsR_8 (c : Dev nD) : outsR m hO 18 main_v36 c = chunk8 m hO c := by
  show Function.update (fun r : Ref sig .tc => m ((c : Thread nD τ).loc r)) main_v36 (chunk8 m hO c) main_v36 = _
  exact Function.update_self _ _ _
theorem outsR_9 (c : Dev nD) : outsR m hO 20 main_v40 c = chunk9 m hO c := by
  show Function.update (fun r : Ref sig .tc => m ((c : Thread nD τ).loc r)) main_v40 (chunk9 m hO c) main_v40 = _
  exact Function.update_self _ _ _
theorem outsR_10 (c : Dev nD) : outsR m hO 22 main_v44 c = chunk10 m hO c := by
  show Function.update (fun r : Ref sig .tc => m ((c : Thread nD τ).loc r)) main_v44 (chunk10 m hO c) main_v44 = _
  exact Function.update_self _ _ _
theorem outsR_11 (c : Dev nD) : outsR m hO 24 main_v48 c = chunk11 m hO c := by
  show Function.update (fun r : Ref sig .tc => m ((c : Thread nD τ).loc r)) main_v48 (chunk11 m hO c) main_v48 = _
  exact Function.update_self _ _ _
theorem outsR_12 (c : Dev nD) : outsR m hO 26 main_v52 c = chunk12 m hO c := by
  show Function.update (fun r : Ref sig .tc => m ((c : Thread nD τ).loc r)) main_v52 (chunk12 m hO c) main_v52 = _
  exact Function.update_self _ _ _
theorem outsR_13 (c : Dev nD) : outsR m hO 28 main_v56 c = chunk13 m hO c := by
  show Function.update (fun r : Ref sig .tc => m ((c : Thread nD τ).loc r)) main_v56 (chunk13 m hO c) main_v56 = _
  exact Function.update_self _ _ _
theorem outsR_14 (c : Dev nD) : outsR m hO 30 main_v60 c = chunk14 m hO c := by
  show Function.update (fun r : Ref sig .tc => m ((c : Thread nD τ).loc r)) main_v60 (chunk14 m hO c) main_v60 = _
  exact Function.update_self _ _ _
theorem outsR_15 (c : Dev nD) : outsR m hO 32 main_v64 c = chunk15 m hO c := by
  show Function.update (fun r : Ref sig .tc => m ((c : Thread nD τ).loc r)) main_v64 (chunk15 m hO c) main_v64 = _
  exact Function.update_self _ _ _

/-- No variant, no level: no core owes another anything. -/
abbrev 𝒱₀ : Variants := Variants.none
abbrev L : GSem nD τ sig → Finset Unit := fun _ => ∅
abbrev lv : GSem nD τ sig → Unit → ℕ := fun _ _ => 0
/-- What rides beside the buffers between items: the generator register at some state, and nothing owed. -/
abbrev Rst (c : Dev nD) : sProp 𝕄 := iprop((∃ r, prngReg c r) ∗ ∃ W, owes (c : Thread nD τ) (0 : CellTallies nD τ sig Unit) W)

end Cert.KernelIdeal.Hand

end
-- ==== Proof.KIHostEntry.lean ====
/- What each kernel region of @main finds in the TensorCore's buffers when it starts. Between the regions the host
   only reshapes what a region wrote and cuts the next slices out of the two index inputs, so the arrays region k reads
   (the features h, the bias b, the weights W, its two index tables, and the array it is about to write) are functions
   of the launch memory alone: they are the same whatever the earlier regions left in their outputs. The two tables
   region k is handed are the slices of length 62500 at offset 62500·k of the two index inputs. Regions 0 and 1 are
   here; the other regions' statements have the same shape, one host stretch and one region further along each. -/
import proofs.«405368_j31662498906597_2_alg».proof.Proof.RegionsKernelIdeal
import Idealize.ShloMosaic.Lib.StableHlo.Run

set_option maxRecDepth 1316

noncomputable section

namespace Cert.KernelIdeal.Hand

open Cert.KernelIdeal Cert.KernelIdeal.Gen Idealize.ShloMosaic Idealize.ShloMosaic.TcCoe

variable {F : FTy → Type} [FloatOps F] (m : (ℓ : Loc nD τ sig) → Buf (Elt F) ℓ)

/-! ## Region 0: after the first host stretch -/

/-- The first host stretch writes `main_v0 … main_v3` only: the weights are as launched. -/
theorem W_at1 (c : Dev nD) : V1 m c main_arg3 = m ((c : Thread nD τ).loc main_arg3) :=
  (V1_of m c main_arg3 (by decide)).trans rfl
/-- … and so is the first index input. -/
theorem a1_at1 (c : Dev nD) : V1 m c main_arg1 = m ((c : Thread nD τ).loc main_arg1) :=
  (V1_of m c main_arg1 (by decide)).trans rfl
/-- … and the second. -/
theorem a2_at1 (c : Dev nD) : V1 m c main_arg2 = m ((c : Thread nD τ).loc main_arg2) :=
  (V1_of m c main_arg2 (by decide)).trans rfl

/-- Region 0's first table is the slice at offset 0 of the first index input. -/
theorem tbl0_src (c : Dev nD) :
    V1 m c main_v2 = (extractStridedSlice S62500 ![0] (m ((c : Thread nD τ).loc main_arg1)) slices_S1000000_S62500_0 : (⟨S62500, .i32⟩ : BufTy).Contents (Elt F)) := by
  show StableHlo.after hostOps0 (V0 m c) (Proc.devRef .tc main_v2) = _
  after_results
/-- Region 0's second table is the slice at offset 0 of the second index input. -/
theorem tbl0_dst (c : Dev nD) :
    V1 m c main_v3 = (extractStridedSlice S62500 ![0] (m ((c : Thread nD τ).loc main_arg2)) slices_S1000000_S62500_0 : (⟨S62500, .i32⟩ : BufTy).Contents (Elt F)) := by
  show StableHlo.after hostOps0 (V0 m c) (Proc.devRef .tc main_v3) = _
  after_results

/-! ## Region 1: after region 0 (which may change `main_v4` only) and the second host stretch (which writes
`main_v5`, `main_v6`, `main_v7`) -/

variable (outs outs' : Outs (F := F))

/-- Region 0 leaves the features where the first host stretch put them. -/
theorem h_at2 (c : Dev nD) : V2 m outs c main_v1 = V1 m c main_v1 := V2_of m outs c main_v1 (by decide)
theorem b_at2 (c : Dev nD) : V2 m outs c main_v0 = V1 m c main_v0 := V2_of m outs c main_v0 (by decide)
theorem W_at2 (c : Dev nD) : V2 m outs c main_arg3 = m ((c : Thread nD τ).loc main_arg3) :=
  (V2_of m outs c main_arg3 (by decide)).trans (W_at1 m c)
theorem a1_at2 (c : Dev nD) : V2 m outs c main_arg1 = m ((c : Thread nD τ).loc main_arg1) :=
  (V2_of m outs c main_arg1 (by decide)).trans (a1_at1 m c)
theorem a2_at2 (c : Dev nD) : V2 m outs c main_arg2 = m ((c : Thread nD τ).loc main_arg2) :=
  (V2_of m outs c main_arg2 (by decide)).trans (a2_at1 m c)

/-- … and so does the second host stretch. -/
theorem h_at3 (c : Dev nD) : V3 m outs c main_v1 = V1 m c main_v1 :=
  (V3_of m outs c main_v1 (by decide)).trans (h_at2 m outs c)
theorem b_at3 (c : Dev nD) : V3 m outs c main_v0 = V1 m c main_v0 :=
  (V3_of m outs c main_v0 (by decide)).trans (b_at2 m outs c)
theorem W_at3 (c : Dev nD) : V3 m outs c main_arg3 = m ((c : Thread nD τ).loc main_arg3) :=
  (V3_of m outs c main_arg3 (by decide)).trans (W_at2 m outs c)
theorem a1_at3 (c : Dev nD) : V3 m outs c main_arg1 = m ((c : Thread nD τ).loc main_arg1) :=
  (V3_of m outs c main_arg1 (by decide)).trans (a1_at2 m outs c)
theorem a2_at3 (c : Dev nD) : V3 m outs c main_arg2 = m ((c : Thread nD τ).loc main_arg2) :=
  (V3_of m outs c main_arg2 (by decide)).trans (a2_at2 m outs c)

/-- Region 1's first table is the slice at offset 62500 of the first index input: the second host stretch cuts it
    out of `main_arg1`, which region 0 did not touch. -/
theorem tbl1_src (c : Dev nD) :
    V3 m outs c main_v6 = (extractStridedSlice S62500 ![62500] (m ((c : Thread nD τ).loc main_arg1)) slices_S1000000_S62500_62500 : (⟨S62500, .i32⟩ : BufTy).Contents (Elt F)) := by
  have e : V3 m outs c main_v6 = (extractStridedSlice S62500 ![62500] (V2 m outs c main_arg1) slices_S1000000_S62500_62500 : (⟨S62500, .i32⟩ : BufTy).Contents (Elt F)) := by
    show StableHlo.after hostOps1 (V2 m outs c) (Proc.devRef .tc main_v6) = _
    after_results
  rw [e, a1_at2 m outs c]
/-- Region 1's second table is the slice at offset 62500 of the second index input. -/
theorem tbl1_dst (c : Dev nD) :
    V3 m outs c main_v7 = (extractStridedSlice S62500 ![62500] (m ((c : Thread nD τ).loc main_arg2)) slices_S1000000_S62500_62500 : (⟨S62500, .i32⟩ : BufTy).Contents (Elt F)) := by
  have e : V3 m outs c main_v7 = (extractStridedSlice S62500 ![62500] (V2 m outs c main_arg2) slices_S1000000_S62500_62500 : (⟨S62500, .i32⟩ : BufTy).Contents (Elt F)) := by
    show StableHlo.after hostOps1 (V2 m outs c) (Proc.devRef .tc main_v7) = _
    after_results
  rw [e, a2_at2 m outs c]

/-- Nothing before region 1 writes the array region 1 is about to write: it is as launched. -/
theorem launched1 (c : Dev nD) : V3 m outs c main_v8 = m ((c : Thread nD τ).loc main_v8) :=
  (V3_of m outs c main_v8 (by decide)).trans <| (V2_of m outs c main_v8 (by decide)).trans <|
    (V1_of m c main_v8 (by decide)).trans rfl

/-- What region 1 finds does not depend on what region 0 wrote. -/
theorem indep1_h (c : Dev nD) : V3 m outs c main_v1 = V3 m outs' c main_v1 :=
  (h_at3 m outs c).trans (h_at3 m outs' c).symm
theorem indep1_b (c : Dev nD) : V3 m outs c main_v0 = V3 m outs' c main_v0 :=
  (b_at3 m outs c).trans (b_at3 m outs' c).symm
theorem indep1_W (c : Dev nD) : V3 m outs c main_arg3 = V3 m outs' c main_arg3 :=
  (W_at3 m outs c).trans (W_at3 m outs' c).symm
theorem indep1_src (c : Dev nD) : V3 m outs c main_v6 = V3 m outs' c main_v6 :=
  (tbl1_src m outs c).trans (tbl1_src m outs' c).symm
theorem indep1_dst (c : Dev nD) : V3 m outs c main_v7 = V3 m outs' c main_v7 :=
  (tbl1_dst m outs c).trans (tbl1_dst m outs' c).symm
theorem indep1_out (c : Dev nD) : V3 m outs c main_v8 = V3 m outs' c main_v8 :=
  (launched1 m outs c).trans (launched1 m outs' c).symm

end Cert.KernelIdeal.Hand
-- ==== Proof.KIHostEntryGen.lean ====
/- What regions 2 … 15 of @main find in the TensorCore's buffers when they start: the same statements as for
   regions 0 and 1, each one host stretch and one region further along. For region k the valuation is V(2k+1);
   the features, the bias, the weights and the two index inputs are carried unchanged through every item; the
   two tables are the slices at offset 62500·k that host stretch k cuts out of the index inputs; the array the
   region writes has not been written yet. Hence none of the six depends on what earlier regions wrote. -/
import proofs.«405368_j31662498906597_2_alg».proof.Proof.KIHostEntry
import Idealize.ShloMosaic.Lib.StableHlo.Run

set_option maxRecDepth 1316

noncomputable section

namespace Cert.KernelIdeal.Hand

open Cert.KernelIdeal Cert.KernelIdeal.Gen Idealize.ShloMosaic Idealize.ShloMosaic.TcCoe

variable {F : FTy → Type} [FloatOps F] (m : (ℓ : Loc nD τ sig) → Buf (Elt F) ℓ)
variable (outs outs' : Outs (F := F))

/-! ## Region 2: after region 1 (which may change `main_v8` only) and host stretch 2 (which writes
`main_v9`, `main_v10`, `main_v11`) -/

theorem h_at4 (c : Dev nD) : V4 m outs c main_v1 = V1 m c main_v1 :=
  (V4_of m outs c main_v1 (by decide)).trans (h_at3 m outs c)
theorem b_at4 (c : Dev nD) : V4 m outs c main_v0 = V1 m c main_v0 :=
  (V4_of m outs c main_v0 (by decide)).trans (b_at3 m outs c)
theorem W_at4 (c : Dev nD) : V4 m outs c main_arg3 = m ((c : Thread nD τ).loc main_arg3) :=
  (V4_of m outs c main_arg3 (by decide)).trans (W_at3 m outs c)
theorem a1_at4 (c : Dev nD) : V4 m outs c main_arg1 = m ((c : Thread nD τ).loc main_arg1) :=
  (V4_of m outs c main_arg1 (by decide)).trans (a1_at3 m outs c)
theorem a2_at4 (c : Dev nD) : V4 m outs c main_arg2 = m ((c : Thread nD τ).loc main_arg2) :=
  (V4_of m outs c main_arg2 (by decide)).trans (a2_at3 m outs c)
theorem h_at5 (c : Dev nD) : V5 m outs c main_v1 = V1 m c main_v1 :=
  (V5_of m outs c main_v1 (by decide)).trans (h_at4 m outs c)
theorem b_at5 (c : Dev nD) : V5 m outs c main_v0 = V1 m c main_v0 :=
  (V5_of m outs c main_v0 (by decide)).trans (b_at4 m outs c)
theorem W_at5 (c : Dev nD) : V5 m outs c main_arg3 = m ((c : Thread nD τ).loc main_arg3) :=
  (V5_of m outs c main_arg3 (by decide)).trans (W_at4 m outs c)
theorem a1_at5 (c : Dev nD) : V5 m outs c main_arg1 = m ((c : Thread nD τ).loc main_arg1) :=
  (V5_of m outs c main_arg1 (by decide)).trans (a1_at4 m outs c)
theorem a2_at5 (c : Dev nD) : V5 m outs c main_arg2 = m ((c : Thread nD τ).loc main_arg2) :=
  (V5_of m outs c main_arg2 (by decide)).trans (a2_at4 m outs c)
/-- Region 2's table `main_v10` is the slice at offset 125000 of `main_arg1`. -/
theorem tbl2_src (c : Dev nD) :
    V5 m outs c main_v10 = (extractStridedSlice S62500 ![125000] (m ((c : Thread nD τ).loc main_arg1)) slices_S1000000_S62500_125000 : (⟨S62500, .i32⟩ : BufTy).Contents (Elt F)) := by
  have e : V5 m outs c main_v10 = (extractStridedSlice S62500 ![125000] (V4 m outs c main_arg1) slices_S1000000_S62500_125000 : (⟨S62500, .i32⟩ : BufTy).Contents (Elt F)) := by
    show StableHlo.after hostOps2 (V4 m outs c) (Proc.devRef .tc main_v10) = _
    after_results
  rw [e, a1_at4 m outs c]
/-- Region 2's table `main_v11` is the slice at offset 125000 of `main_arg2`. -/
theorem tbl2_dst (c : Dev nD) :
    V5 m outs c main_v11 = (extractStridedSlice S62500 ![125000] (m ((c : Thread nD τ).loc main_arg2)) slices_S1000000_S62500_125000 : (⟨S62500, .i32⟩ : BufTy).Contents (Elt F)) := by
  have e : V5 m outs c main_v11 = (extractStridedSlice S62500 ![125000] (V4 m outs c main_arg2) slices_S1000000_S62500_125000 : (⟨S62500, .i32⟩ : BufTy).Contents (Elt F)) := by
    show StableHlo.after hostOps2 (V4 m outs c) (Proc.devRef .tc main_v11) = _
    after_results
  rw [e, a2_at4 m outs c]
/-- Nothing before region 2 writes `main_v12`: it is as launched. -/
theorem launched2 (c : Dev nD) : V5 m outs c main_v12 = m ((c : Thread nD τ).loc main_v12) :=
  (V5_of m outs c main_v12 (by decide)).trans <|
    (V4_of m outs c main_v12 (by decide)).trans <|
    (V3_of m outs c main_v12 (by decide)).trans <|
    (V2_of m outs c main_v12 (by decide)).trans <|
    (V1_of m c main_v12 (by decide)).trans rfl
/-- What region 2 finds does not depend on what the earlier regions wrote. -/
theorem indep2_h (c : Dev nD) : V5 m outs c main_v1 = V5 m outs' c main_v1 :=
  (h_at5 m outs c).trans (h_at5 m outs' c).symm
theorem indep2_b (c : Dev nD) : V5 m outs c main_v0 = V5 m outs' c main_v0 :=
  (b_at5 m outs c).trans (b_at5 m outs' c).symm
theorem indep2_W (c : Dev nD) : V5 m outs c main_arg3 = V5 m outs' c main_arg3 :=
  (W_at5 m outs c).trans (W_at5 m outs' c).symm
theorem indep2_src (c : Dev nD) : V5 m outs c main_v10 = V5 m outs' c main_v10 :=
  (tbl2_src m outs c).trans (tbl2_src m outs' c).symm
theorem indep2_dst (c : Dev nD) : V5 m outs c main_v11 = V5 m outs' c main_v11 :=
  (tbl2_dst m outs c).trans (tbl2_dst m outs' c).symm
theorem indep2_out (c : Dev nD) : V5 m outs c main_v12 = V5 m outs' c main_v12 :=
  (launched2 m outs c).trans (launched2 m outs' c).symm

/-! ## Region 3: after region 2 (which may change `main_v12` only) and host stretch 3 (which writes
`main_v13`, `main_v14`, `main_v15`) -/

theorem h_at6 (c : Dev nD) : V6 m outs c main_v1 = V1 m c main_v1 :=
  (V6_of m outs c main_v1 (by decide)).trans (h_at5 m outs c)
theorem b_at6 (c : Dev nD) : V6 m outs c main_v0 = V1 m c main_v0 :=
  (V6_of m outs c main_v0 (by decide)).trans (b_at5 m outs c)
theorem W_at6 (c : Dev nD) : V6 m outs c main_arg3 = m ((c : Thread nD τ).loc main_arg3) :=
  (V6_of m outs c main_arg3 (by decide)).trans (W_at5 m outs c)
theorem a1_at6 (c : Dev nD) : V6 m outs c main_arg1 = m ((c : Thread nD τ).loc main_arg1) :=
  (V6_of m outs c main_arg1 (by decide)).trans (a1_at5 m outs c)
theorem a2_at6 (c : Dev nD) : V6 m outs c main_arg2 = m ((c : Thread nD τ).loc main_arg2) :=
  (V6_of m outs c main_arg2 (by decide)).trans (a2_at5 m outs c)
theorem h_at7 (c : Dev nD) : V7 m outs c main_v1 = V1 m c main_v1 :=
  (V7_of m outs c main_v1 (by decide)).trans (h_at6 m outs c)
theorem b_at7 (c : Dev nD) : V7 m outs c main_v0 = V1 m c main_v0 :=
  (V7_of m outs c main_v0 (by decide)).trans (b_at6 m outs c)
theorem W_at7 (c : Dev nD) : V7 m outs c main_arg3 = m ((c : Thread nD τ).loc main_arg3) :=
  (V7_of m outs c main_arg3 (by decide)).trans (W_at6 m outs c)
theorem a1_at7 (c : Dev nD) : V7 m outs c main_arg1 = m ((c : Thread nD τ).loc main_arg1) :=
  (V7_of m outs c main_arg1 (by decide)).trans (a1_at6 m outs c)
theorem a2_at7 (c : Dev nD) : V7 m outs c main_arg2 = m ((c : Thread nD τ).loc main_arg2) :=
  (V7_of m outs c main_arg2 (by decide)).trans (a2_at6 m outs c)
/-- Region 3's table `main_v14` is the slice at offset 187500 of `main_arg1`. -/
theorem tbl3_src (c : Dev nD) :
    V7 m outs c main_v14 = (extractStridedSlice S62500 ![187500] (m ((c : Thread nD τ).loc main_arg1)) slices_S1000000_S62500_187500 : (⟨S62500, .i32⟩ : BufTy).Contents (Elt F)) := by
  have e : V7 m outs c main_v14 = (extractStridedSlice S62500 ![187500] (V6 m outs c main_arg1) slices_S1000000_S62500_187500 : (⟨S62500, .i32⟩ : BufTy).Contents (Elt F)) := by
    show StableHlo.after hostOps3 (V6 m outs c) (Proc.devRef .tc main_v14) = _
    after_results
  rw [e, a1_at6 m outs c]
/-- Region 3's table `main_v15` is the slice at offset 187500 of `main_arg2`. -/
theorem tbl3_dst (c : Dev nD) :
    V7 m outs c main_v15 = (extractStridedSlice S62500 ![187500] (m ((c : Thread nD τ).loc main_arg2)) slices_S1000000_S62500_187500 : (⟨S62500, .i32⟩ : BufTy).Contents (Elt F)) := by
  have e : V7 m outs c main_v15 = (extractStridedSlice S62500 ![187500] (V6 m outs c main_arg2) slices_S1000000_S62500_187500 : (⟨S62500, .i32⟩ : BufTy).Contents (Elt F)) := by
    show StableHlo.after hostOps3 (V6 m outs c) (Proc.devRef .tc main_v15) = _
    after_results
  rw [e, a2_at6 m outs c]
/-- Nothing before region 3 writes `main_v16`: it is as launched. -/
theorem launched3 (c : Dev nD) : V7 m outs c main_v16 = m ((c : Thread nD τ).loc main_v16) :=
  (V7_of m outs c main_v16 (by decide)).trans <|
    (V6_of m outs c main_v16 (by decide)).trans <|
    (V5_of m outs c main_v16 (by decide)).trans <|
    (V4_of m outs c main_v16 (by decide)).trans <|
    (V3_of m outs c main_v16 (by decide)).trans <|
    (V2_of m outs c main_v16 (by decide)).trans <|
    (V1_of m c main_v16 (by decide)).trans rfl
/-- What region 3 finds does not depend on what the earlier regions wrote. -/
theorem indep3_h (c : Dev nD) : V7 m outs c main_v1 = V7 m outs' c main_v1 :=
  (h_at7 m outs c).trans (h_at7 m outs' c).symm
theorem indep3_b (c : Dev nD) : V7 m outs c main_v0 = V7 m outs' c main_v0 :=
  (b_at7 m outs c).trans (b_at7 m outs' c).symm
theorem indep3_W (c : Dev nD) : V7 m outs c main_arg3 = V7 m outs' c main_arg3 :=
  (W_at7 m outs c).trans (W_at7 m outs' c).symm
theorem indep3_src (c : Dev nD) : V7 m outs c main_v14 = V7 m outs' c main_v14 :=
  (tbl3_src m outs c).trans (tbl3_src m outs' c).symm
theorem indep3_dst (c : Dev nD) : V7 m outs c main_v15 = V7 m outs' c main_v15 :=
  (tbl3_dst m outs c).trans (tbl3_dst m outs' c).symm
theorem indep3_out (c : Dev nD) : V7 m outs c main_v16 = V7 m outs' c main_v16 :=
  (launched3 m outs c).trans (launched3 m outs' c).symm

/-! ## Region 4: after region 3 (which may change `main_v16` only) and host stretch 4 (which writes
`main_v17`, `main_v18`, `main_v19`) -/

theorem h_at8 (c : Dev nD) : V8 m outs c main_v1 = V1 m c main_v1 :=
  (V8_of m outs c main_v1 (by decide)).trans (h_at7 m outs c)
theorem b_at8 (c : Dev nD) : V8 m outs c main_v0 = V1 m c main_v0 :=
  (V8_of m outs c main_v0 (by decide)).trans (b_at7 m outs c)
theorem W_at8 (c : Dev nD) : V8 m outs c main_arg3 = m ((c : Thread nD τ).loc main_arg3) :=
  (V8_of m outs c main_arg3 (by decide)).trans (W_at7 m outs c)
theorem a1_at8 (c : Dev nD) : V8 m outs c main_arg1 = m ((c : Thread nD τ).loc main_arg1) :=
  (V8_of m outs c main_arg1 (by decide)).trans (a1_at7 m outs c)
theorem a2_at8 (c : Dev nD) : V8 m outs c main_arg2 = m ((c : Thread nD τ).loc main_arg2) :=
  (V8_of m outs c main_arg2 (by decide)).trans (a2_at7 m outs c)
theorem h_at9 (c : Dev nD) : V9 m outs c main_v1 = V1 m c main_v1 :=
  (V9_of m outs c main_v1 (by decide)).trans (h_at8 m outs c)
theorem b_at9 (c : Dev nD) : V9 m outs c main_v0 = V1 m c main_v0 :=
  (V9_of m outs c main_v0 (by decide)).trans (b_at8 m outs c)
theorem W_at9 (c : Dev nD) : V9 m outs c main_arg3 = m ((c : Thread nD τ).loc main_arg3) :=
  (V9_of m outs c main_arg3 (by decide)).trans (W_at8 m outs c)
theorem a1_at9 (c : Dev nD) : V9 m outs c main_arg1 = m ((c : Thread nD τ).loc main_arg1) :=
  (V9_of m outs c main_arg1 (by decide)).trans (a1_at8 m outs c)
theorem a2_at9 (c : Dev nD) : V9 m outs c main_arg2 = m ((c : Thread nD τ).loc main_arg2) :=
  (V9_of m outs c main_arg2 (by decide)).trans (a2_at8 m outs c)
/-- Region 4's table `main_v18` is the slice at offset 250000 of `main_arg1`. -/
theorem tbl4_src (c : Dev nD) :
    V9 m outs c main_v18 = (extractStridedSlice S62500 ![250000] (m ((c : Thread nD τ).loc main_arg1)) slices_S1000000_S62500_250000 : (⟨S62500, .i32⟩ : BufTy).Contents (Elt F)) := by
  have e : V9 m outs c main_v18 = (extractStridedSlice S62500 ![250000] (V8 m outs c main_arg1) slices_S1000000_S62500_250000 : (⟨S62500, .i32⟩ : BufTy).Contents (Elt F)) := by
    show StableHlo.after hostOps4 (V8 m outs c) (Proc.devRef .tc main_v18) = _
    after_results
  rw [e, a1_at8 m outs c]
/-- Region 4's table `main_v19` is the slice at offset 250000 of `main_arg2`. -/
theorem tbl4_dst (c : Dev nD) :
    V9 m outs c main_v19 = (extractStridedSlice S62500 ![250000] (m ((c : Thread nD τ).loc main_arg2)) slices_S1000000_S62500_250000 : (⟨S62500, .i32⟩ : BufTy).Contents (Elt F)) := by
  have e : V9 m outs c main_v19 = (extractStridedSlice S62500 ![250000] (V8 m outs c main_arg2) slices_S1000000_S62500_250000 : (⟨S62500, .i32⟩ : BufTy).Contents (Elt F)) := by
    show StableHlo.after hostOps4 (V8 m outs c) (Proc.devRef .tc main_v19) = _
    after_results
  rw [e, a2_at8 m outs c]
/-- Nothing before region 4 writes `main_v20`: it is as launched. -/
theorem launched4 (c : Dev nD) : V9 m outs c main_v20 = m ((c : Thread nD τ).loc main_v20) :=
  (V9_of m outs c main_v20 (by decide)).trans <|
    (V8_of m outs c main_v20 (by decide)).trans <|
    (V7_of m outs c main_v20 (by decide)).trans <|
    (V6_of m outs c main_v20 (by decide)).trans <|
    (V5_of m outs c main_v20 (by decide)).trans <|
    (V4_of m outs c main_v20 (by decide)).trans <|
    (V3_of m outs c main_v20 (by decide)).trans <|
    (V2_of m outs c main_v20 (by decide)).trans <|
    (V1_of m c main_v20 (by decide)).trans rfl
/-- What region 4 finds does not depend on what the earlier regions wrote. -/
theorem indep4_h (c : Dev nD) : V9 m outs c main_v1 = V9 m outs' c main_v1 :=
  (h_at9 m outs c).trans (h_at9 m outs' c).symm
theorem indep4_b (c : Dev nD) : V9 m outs c main_v0 = V9 m outs' c main_v0 :=
  (b_at9 m outs c).trans (b_at9 m outs' c).symm
theorem indep4_W (c : Dev nD) : V9 m outs c main_arg3 = V9 m outs' c main_arg3 :=
  (W_at9 m outs c).trans (W_at9 m outs' c).symm
theorem indep4_src (c : Dev nD) : V9 m outs c main_v18 = V9 m outs' c main_v18 :=
  (tbl4_src m outs c).trans (tbl4_src m outs' c).symm
theorem indep4_dst (c : Dev nD) : V9 m outs c main_v19 = V9 m outs' c main_v19 :=
  (tbl4_dst m outs c).trans (tbl4_dst m outs' c).symm
theorem indep4_out (c : Dev nD) : V9 m outs c main_v20 = V9 m outs' c main_v20 :=
  (launched4 m outs c).trans (launched4 m outs' c).symm

/-! ## Region 5: after region 4 (which may change `main_v20` only) and host stretch 5 (which writes
`main_v21`, `main_v22`, `main_v23`) -/

theorem h_at10 (c : Dev nD) : V10 m outs c main_v1 = V1 m c main_v1 :=
  (V10_of m outs c main_v1 (by decide)).trans (h_at9 m outs c)
theorem b_at10 (c : Dev nD) : V10 m outs c main_v0 = V1 m c main_v0 :=
  (V10_of m outs c main_v0 (by decide)).trans (b_at9 m outs c)
theorem W_at10 (c : Dev nD) : V10 m outs c main_arg3 = m ((c : Thread nD τ).loc main_arg3) :=
  (V10_of m outs c main_arg3 (by decide)).trans (W_at9 m outs c)
theorem a1_at10 (c : Dev nD) : V10 m outs c main_arg1 = m ((c : Thread nD τ).loc main_arg1) :=
  (V10_of m outs c main_arg1 (by decide)).trans (a1_at9 m outs c)
theorem a2_at10 (c : Dev nD) : V10 m outs c main_arg2 = m ((c : Thread nD τ).loc main_arg2) :=
  (V10_of m outs c main_arg2 (by decide)).trans (a2_at9 m outs c)
theorem h_at11 (c : Dev nD) : V11 m outs c main_v1 = V1 m c main_v1 :=
  (V11_of m outs c main_v1 (by decide)).trans (h_at10 m outs c)
theorem b_at11 (c : Dev nD) : V11 m outs c main_v0 = V1 m c main_v0 :=
  (V11_of m outs c main_v0 (by decide)).trans (b_at10 m outs c)
theorem W_at11 (c : Dev nD) : V11 m outs c main_arg3 = m ((c : Thread nD τ).loc main_arg3) :=
  (V11_of m outs c main_arg3 (by decide)).trans (W_at10 m outs c)
theorem a1_at11 (c : Dev nD) : V11 m outs c main_arg1 = m ((c : Thread nD τ).loc main_arg1) :=
  (V11_of m outs c main_arg1 (by decide)).trans (a1_at10 m outs c)
theorem a2_at11 (c : Dev nD) : V11 m outs c main_arg2 = m ((c : Thread nD τ).loc main_arg2) :=
  (V11_of m outs c main_arg2 (by decide)).trans (a2_at10 m outs c)
/-- Region 5's table `main_v22` is the slice at offset 312500 of `main_arg1`. -/
theorem tbl5_src (c : Dev nD) :
    V11 m outs c main_v22 = (extractStridedSlice S62500 ![312500] (m ((c : Thread nD τ).loc main_arg1)) slices_S1000000_S62500_312500 : (⟨S62500, .i32⟩ : BufTy).Contents (Elt F)) := by
  have e : V11 m outs c main_v22 = (extractStridedSlice S62500 ![312500] (V10 m outs c main_arg1) slices_S1000000_S62500_312500 : (⟨S62500, .i32⟩ : BufTy).Contents (Elt F)) := by
    show StableHlo.after hostOps5 (V10 m outs c) (Proc.devRef .tc main_v22) = _
    after_results
  rw [e, a1_at10 m outs c]
/-- Region 5's table `main_v23` is the slice at offset 312500 of `main_arg2`. -/
theorem tbl5_dst (c : Dev nD) :
    V11 m outs c main_v23 = (extractStridedSlice S62500 ![312500] (m ((c : Thread nD τ).loc main_arg2)) slices_S1000000_S62500_312500 : (⟨S62500, .i32⟩ : BufTy).Contents (Elt F)) := by
  have e : V11 m outs c main_v23 = (extractStridedSlice S62500 ![312500] (V10 m outs c main_arg2) slices_S1000000_S62500_312500 : (⟨S62500, .i32⟩ : BufTy).Contents (Elt F)) := by
    show StableHlo.after hostOps5 (V10 m outs c) (Proc.devRef .tc main_v23) = _
    after_results
  rw [e, a2_at10 m outs c]
/-- Nothing before region 5 writes `main_v24`: it is as launched. -/
theorem launched5 (c : Dev nD) : V11 m outs c main_v24 = m ((c : Thread nD τ).loc main_v24) :=
  (V11_of m outs c main_v24 (by decide)).trans <|
    (V10_of m outs c main_v24 (by decide)).trans <|
    (V9_of m outs c main_v24 (by decide)).trans <|
    (V8_of m outs c main_v24 (by decide)).trans <|
    (V7_of m outs c main_v24 (by decide)).trans <|
    (V6_of m outs c main_v24 (by decide)).trans <|
    (V5_of m outs c main_v24 (by decide)).trans <|
    (V4_of m outs c main_v24 (by decide)).trans <|
    (V3_of m outs c main_v24 (by decide)).trans <|
    (V2_of m outs c main_v24 (by decide)).trans <|
    (V1_of m c main_v24 (by decide)).trans rfl
/-- What region 5 finds does not depend on what the earlier regions wrote. -/
theorem indep5_h (c : Dev nD) : V11 m outs c main_v1 = V11 m outs' c main_v1 :=
  (h_at11 m outs c).trans (h_at11 m outs' c).symm
theorem indep5_b (c : Dev nD) : V11 m outs c main_v0 = V11 m outs' c main_v0 :=
  (b_at11 m outs c).trans (b_at11 m outs' c).symm
theorem indep5_W (c : Dev nD) : V11 m outs c main_arg3 = V11 m outs' c main_arg3 :=
  (W_at11 m outs c).trans (W_at11 m outs' c).symm
theorem indep5_src (c : Dev nD) : V11 m outs c main_v22 = V11 m outs' c main_v22 :=
  (tbl5_src m outs c).trans (tbl5_src m outs' c).symm
theorem indep5_dst (c : Dev nD) : V11 m outs c main_v23 = V11 m outs' c main_v23 :=
  (tbl5_dst m outs c).trans (tbl5_dst m outs' c).symm
theorem indep5_out (c : Dev nD) : V11 m outs c main_v24 = V11 m outs' c main_v24 :=
  (launched5 m outs c).trans (launched5 m outs' c).symm

/-! ## Region 6: after region 5 (which may change `main_v24` only) and host stretch 6 (which writes
`main_v25`, `main_v26`, `main_v27`) -/

theorem h_at12 (c : Dev nD) : V12 m outs c main_v1 = V1 m c main_v1 :=
  (V12_of m outs c main_v1 (by decide)).trans (h_at11 m outs c)
theorem b_at12 (c : Dev nD) : V12 m outs c main_v0 = V1 m c main_v0 :=
  (V12_of m outs c main_v0 (by decide)).trans (b_at11 m outs c)
theorem W_at12 (c : Dev nD) : V12 m outs c main_arg3 = m ((c : Thread nD τ).loc main_arg3) :=
  (V12_of m outs c main_arg3 (by decide)).trans (W_at11 m outs c)
theorem a1_at12 (c : Dev nD) : V12 m outs c main_arg1 = m ((c : Thread nD τ).loc main_arg1) :=
  (V12_of m outs c main_arg1 (by decide)).trans (a1_at11 m outs c)
theorem a2_at12 (c : Dev nD) : V12 m outs c main_arg2 = m ((c : Thread nD τ).loc main_arg2) :=
  (V12_of m outs c main_arg2 (by decide)).trans (a2_at11 m outs c)
theorem h_at13 (c : Dev nD) : V13 m outs c main_v1 = V1 m c main_v1 :=
  (V13_of m outs c main_v1 (by decide)).trans (h_at12 m outs c)
theorem b_at13 (c : Dev nD) : V13 m outs c main_v0 = V1 m c main_v0 :=
  (V13_of m outs c main_v0 (by decide)).trans (b_at12 m outs c)
theorem W_at13 (c : Dev nD) : V13 m outs c main_arg3 = m ((c : Thread nD τ).loc main_arg3) :=
  (V13_of m outs c main_arg3 (by decide)).trans (W_at12 m outs c)
theorem a1_at13 (c : Dev nD) : V13 m outs c main_arg1 = m ((c : Thread nD τ).loc main_arg1) :=
  (V13_of m outs c main_arg1 (by decide)).trans (a1_at12 m outs c)
theorem a2_at13 (c : Dev nD) : V13 m outs c main_arg2 = m ((c : Thread nD τ).loc main_arg2) :=
  (V13_of m outs c main_arg2 (by decide)).trans (a2_at12 m outs c)
/-- Region 6's table `main_v26` is the slice at offset 375000 of `main_arg1`. -/
theorem tbl6_src (c : Dev nD) :
    V13 m outs c main_v26 = (extractStridedSlice S62500 ![375000] (m ((c : Thread nD τ).loc main_arg1)) slices_S1000000_S62500_375000 : (⟨S62500, .i32⟩ : BufTy).Contents (Elt F)) := by
  have e : V13 m outs c main_v26 = (extractStridedSlice S62500 ![375000] (V12 m outs c main_arg1) slices_S1000000_S62500_375000 : (⟨S62500, .i32⟩ : BufTy).Contents (Elt F)) := by
    show StableHlo.after hostOps6 (V12 m outs c) (Proc.devRef .tc main_v26) = _
    after_results
  rw [e, a1_at12 m outs c]
/-- Region 6's table `main_v27` is the slice at offset 375000 of `main_arg2`. -/
theorem tbl6_dst (c : Dev nD) :
    V13 m outs c main_v27 = (extractStridedSlice S62500 ![375000] (m ((c : Thread nD τ).loc main_arg2)) slices_S1000000_S62500_375000 : (⟨S62500, .i32⟩ : BufTy).Contents (Elt F)) := by
  have e : V13 m outs c main_v27 = (extractStridedSlice S62500 ![375000] (V12 m outs c main_arg2) slices_S1000000_S62500_375000 : (⟨S62500, .i32⟩ : BufTy).Contents (Elt F)) := by
    show StableHlo.after hostOps6 (V12 m outs c) (Proc.devRef .tc main_v27) = _
    after_results
  rw [e, a2_at12 m outs c]
/-- Nothing before region 6 writes `main_v28`: it is as launched. -/
theorem launched6 (c : Dev nD) : V13 m outs c main_v28 = m ((c : Thread nD τ).loc main_v28) :=
  (V13_of m outs c main_v28 (by decide)).trans <|
    (V12_of m outs c main_v28 (by decide)).trans <|
    (V11_of m outs c main_v28 (by decide)).trans <|
    (V10_of m outs c main_v28 (by decide)).trans <|
    (V9_of m outs c main_v28 (by decide)).trans <|
    (V8_of m outs c main_v28 (by decide)).trans <|
    (V7_of m outs c main_v28 (by decide)).trans <|
    (V6_of m outs c main_v28 (by decide)).trans <|
    (V5_of m outs c main_v28 (by decide)).trans <|
    (V4_of m outs c main_v28 (by decide)).trans <|
    (V3_of m outs c main_v28 (by decide)).trans <|
    (V2_of m outs c main_v28 (by decide)).trans <|
    (V1_of m c main_v28 (by decide)).trans rfl
/-- What region 6 finds does not depend on what the earlier regions wrote. -/
theorem indep6_h (c : Dev nD) : V13 m outs c main_v1 = V13 m outs' c main_v1 :=
  (h_at13 m outs c).trans (h_at13 m outs' c).symm
theorem indep6_b (c : Dev nD) : V13 m outs c main_v0 = V13 m outs' c main_v0 :=
  (b_at13 m outs c).trans (b_at13 m outs' c).symm
theorem indep6_W (c : Dev nD) : V13 m outs c main_arg3 = V13 m outs' c main_arg3 :=
  (W_at13 m outs c).trans (W_at13 m outs' c).symm
theorem indep6_src (c : Dev nD) : V13 m outs c main_v26 = V13 m outs' c main_v26 :=
  (tbl6_src m outs c).trans (tbl6_src m outs' c).symm
theorem indep6_dst (c : Dev nD) : V13 m outs c main_v27 = V13 m outs' c main_v27 :=
  (tbl6_dst m outs c).trans (tbl6_dst m outs' c).symm
theorem indep6_out (c : Dev nD) : V13 m outs c main_v28 = V13 m outs' c main_v28 :=
  (launched6 m outs c).trans (launched6 m outs' c).symm

/-! ## Region 7: after region 6 (which may change `main_v28` only) and host stretch 7 (which writes
`main_v29`, `main_v30`, `main_v31`) -/

theorem h_at14 (c : Dev nD) : V14 m outs c main_v1 = V1 m c main_v1 :=
  (V14_of m outs c main_v1 (by decide)).trans (h_at13 m outs c)
theorem b_at14 (c : Dev nD) : V14 m outs c main_v0 = V1 m c main_v0 :=
  (V14_of m outs c main_v0 (by decide)).trans (b_at13 m outs c)
theorem W_at14 (c : Dev nD) : V14 m outs c main_arg3 = m ((c : Thread nD τ).loc main_arg3) :=
  (V14_of m outs c main_arg3 (by decide)).trans (W_at13 m outs c)
theorem a1_at14 (c : Dev nD) : V14 m outs c main_arg1 = m ((c : Thread nD τ).loc main_arg1) :=
  (V14_of m outs c main_arg1 (by decide)).trans (a1_at13 m outs c)
theorem a2_at14 (c : Dev nD) : V14 m outs c main_arg2 = m ((c : Thread nD τ).loc main_arg2) :=
  (V14_of m outs c main_arg2 (by decide)).trans (a2_at13 m outs c)
theorem h_at15 (c : Dev nD) : V15 m outs c main_v1 = V1 m c main_v1 :=
  (V15_of m outs c main_v1 (by decide)).trans (h_at14 m outs c)
theorem b_at15 (c : Dev nD) : V15 m outs c main_v0 = V1 m c main_v0 :=
  (V15_of m outs c main_v0 (by decide)).trans (b_at14 m outs c)
theorem W_at15 (c : Dev nD) : V15 m outs c main_arg3 = m ((c : Thread nD τ).loc main_arg3) :=
  (V15_of m outs c main_arg3 (by decide)).trans (W_at14 m outs c)
theorem a1_at15 (c : Dev nD) : V15 m outs c main_arg1 = m ((c : Thread nD τ).loc main_arg1) :=
  (V15_of m outs c main_arg1 (by decide)).trans (a1_at14 m outs c)
theorem a2_at15 (c : Dev nD) : V15 m outs c main_arg2 = m ((c : Thread nD τ).loc main_arg2) :=
  (V15_of m outs c main_arg2 (by decide)).trans (a2_at14 m outs c)
/-- Region 7's table `main_v30` is the slice at offset 437500 of `main_arg1`. -/
theorem tbl7_src (c : Dev nD) :
    V15 m outs c main_v30 = (extractStridedSlice S62500 ![437500] (m ((c : Thread nD τ).loc main_arg1)) slices_S1000000_S62500_437500 : (⟨S62500, .i32⟩ : BufTy).Contents (Elt F)) := by
  have e : V15 m outs c main_v30 = (extractStridedSlice S62500 ![437500] (V14 m outs c main_arg1) slices_S1000000_S62500_437500 : (⟨S62500, .i32⟩ : BufTy).Contents (Elt F)) := by
    show StableHlo.after hostOps7 (V14 m outs c) (Proc.devRef .tc main_v30) = _
    after_results
  rw [e, a1_at14 m outs c]
/-- Region 7's table `main_v31` is the slice at offset 437500 of `main_arg2`. -/
theorem tbl7_dst (c : Dev nD) :
    V15 m outs c main_v31 = (extractStridedSlice S62500 ![437500] (m ((c : Thread nD τ).loc main_arg2)) slices_S1000000_S62500_437500 : (⟨S62500, .i32⟩ : BufTy).Contents (Elt F)) := by
  have e : V15 m outs c main_v31 = (extractStridedSlice S62500 ![437500] (V14 m outs c main_arg2) slices_S1000000_S62500_437500 : (⟨S62500, .i32⟩ : BufTy).Contents (Elt F)) := by
    show StableHlo.after hostOps7 (V14 m outs c) (Proc.devRef .tc main_v31) = _
    after_results
  rw [e, a2_at14 m outs c]
/-- Nothing before region 7 writes `main_v32`: it is as launched. -/
theorem launched7 (c : Dev nD) : V15 m outs c main_v32 = m ((c : Thread nD τ).loc main_v32) :=
  (V15_of m outs c main_v32 (by decide)).trans <|
    (V14_of m outs c main_v32 (by decide)).trans <|
    (V13_of m outs c main_v32 (by decide)).trans <|
    (V12_of m outs c main_v32 (by decide)).trans <|
    (V11_of m outs c main_v32 (by decide)).trans <|
    (V10_of m outs c main_v32 (by decide)).trans <|
    (V9_of m outs c main_v32 (by decide)).trans <|
    (V8_of m outs c main_v32 (by decide)).trans <|
    (V7_of m outs c main_v32 (by decide)).trans <|
    (V6_of m outs c main_v32 (by decide)).trans <|
    (V5_of m outs c main_v32 (by decide)).trans <|
    (V4_of m outs c main_v32 (by decide)).trans <|
    (V3_of m outs c main_v32 (by decide)).trans <|
    (V2_of m outs c main_v32 (by decide)).trans <|
    (V1_of m c main_v32 (by decide)).trans rfl
/-- What region 7 finds does not depend on what the earlier regions wrote. -/
theorem indep7_h (c : Dev nD) : V15 m outs c main_v1 = V15 m outs' c main_v1 :=
  (h_at15 m outs c).trans (h_at15 m outs' c).symm
theorem indep7_b (c : Dev nD) : V15 m outs c main_v0 = V15 m outs' c main_v0 :=
  (b_at15 m outs c).trans (b_at15 m outs' c).symm
theorem indep7_W (c : Dev nD) : V15 m outs c main_arg3 = V15 m outs' c main_arg3 :=
  (W_at15 m outs c).trans (W_at15 m outs' c).symm
theorem indep7_src (c : Dev nD) : V15 m outs c main_v30 = V15 m outs' c main_v30 :=
  (tbl7_src m outs c).trans (tbl7_src m outs' c).symm
theorem indep7_dst (c : Dev nD) : V15 m outs c main_v31 = V15 m outs' c main_v31 :=
  (tbl7_dst m outs c).trans (tbl7_dst m outs' c).symm
theorem indep7_out (c : Dev nD) : V15 m outs c main_v32 = V15 m outs' c main_v32 :=
  (launched7 m outs c).trans (launched7 m outs' c).symm

/-! ## Region 8: after region 7 (which may change `main_v32` only) and host stretch 8 (which writes
`main_v33`, `main_v34`, `main_v35`) -/

theorem h_at16 (c : Dev nD) : V16 m outs c main_v1 = V1 m c main_v1 :=
  (V16_of m outs c main_v1 (by decide)).trans (h_at15 m outs c)
theorem b_at16 (c : Dev nD) : V16 m outs c main_v0 = V1 m c main_v0 :=
  (V16_of m outs c main_v0 (by decide)).trans (b_at15 m outs c)
theorem W_at16 (c : Dev nD) : V16 m outs c main_arg3 = m ((c : Thread nD τ).loc main_arg3) :=
  (V16_of m outs c main_arg3 (by decide)).trans (W_at15 m outs c)
theorem a1_at16 (c : Dev nD) : V16 m outs c main_arg1 = m ((c : Thread nD τ).loc main_arg1) :=
  (V16_of m outs c main_arg1 (by decide)).trans (a1_at15 m outs c)
theorem a2_at16 (c : Dev nD) : V16 m outs c main_arg2 = m ((c : Thread nD τ).loc main_arg2) :=
  (V16_of m outs c main_arg2 (by decide)).trans (a2_at15 m outs c)
theorem h_at17 (c : Dev nD) : V17 m outs c main_v1 = V1 m c main_v1 :=
  (V17_of m outs c main_v1 (by decide)).trans (h_at16 m outs c)
theorem b_at17 (c : Dev nD) : V17 m outs c main_v0 = V1 m c main_v0 :=
  (V17_of m outs c main_v0 (by decide)).trans (b_at16 m outs c)
theorem W_at17 (c : Dev nD) : V17 m outs c main_arg3 = m ((c : Thread nD τ).loc main_arg3) :=
  (V17_of m outs c main_arg3 (by decide)).trans (W_at16 m outs c)
theorem a1_at17 (c : Dev nD) : V17 m outs c main_arg1 = m ((c : Thread nD τ).loc main_arg1) :=
  (V17_of m outs c main_arg1 (by decide)).trans (a1_at16 m outs c)
theorem a2_at17 (c : Dev nD) : V17 m outs c main_arg2 = m ((c : Thread nD τ).loc main_arg2) :=
  (V17_of m outs c main_arg2 (by decide)).trans (a2_at16 m outs c)
/-- Region 8's table `main_v34` is the slice at offset 500000 of `main_arg1`. -/
theorem tbl8_src (c : Dev nD) :
    V17 m outs c main_v34 = (extractStridedSlice S62500 ![500000] (m ((c : Thread nD τ).loc main_arg1)) slices_S1000000_S62500_500000 : (⟨S62500, .i32⟩ : BufTy).Contents (Elt F)) := by
  have e : V17 m outs c main_v34 = (extractStridedSlice S62500 ![500000] (V16 m outs c main_arg1) slices_S1000000_S62500_500000 : (⟨S62500, .i32⟩ : BufTy).Contents (Elt F)) := by
    show StableHlo.after hostOps8 (V16 m outs c) (Proc.devRef .tc main_v34) = _
    after_results
  rw [e, a1_at16 m outs c]
/-- Region 8's table `main_v35` is the slice at offset 500000 of `main_arg2`. -/
theorem tbl8_dst (c : Dev nD) :
    V17 m outs c main_v35 = (extractStridedSlice S62500 ![500000] (m ((c : Thread nD τ).loc main_arg2)) slices_S1000000_S62500_500000 : (⟨S62500, .i32⟩ : BufTy).Contents (Elt F)) := by
  have e : V17 m outs c main_v35 = (extractStridedSlice S62500 ![500000] (V16 m outs c main_arg2) slices_S1000000_S62500_500000 : (⟨S62500, .i32⟩ : BufTy).Contents (Elt F)) := by
    show StableHlo.after hostOps8 (V16 m outs c) (Proc.devRef .tc main_v35) = _
    after_results
  rw [e, a2_at16 m outs c]
/-- Nothing before region 8 writes `main_v36`: it is as launched. -/
theorem launched8 (c : Dev nD) : V17 m outs c main_v36 = m ((c : Thread nD τ).loc main_v36) :=
  (V17_of m outs c main_v36 (by decide)).trans <|
    (V16_of m outs c main_v36 (by decide)).trans <|
    (V15_of m outs c main_v36 (by decide)).trans <|
    (V14_of m outs c main_v36 (by decide)).trans <|
    (V13_of m outs c main_v36 (by decide)).trans <|
    (V12_of m outs c main_v36 (by decide)).trans <|
    (V11_of m outs c main_v36 (by decide)).trans <|
    (V10_of m outs c main_v36 (by decide)).trans <|
    (V9_of m outs c main_v36 (by decide)).trans <|
    (V8_of m outs c main_v36 (by decide)).trans <|
    (V7_of m outs c main_v36 (by decide)).trans <|
    (V6_of m outs c main_v36 (by decide)).trans <|
    (V5_of m outs c main_v36 (by decide)).trans <|
    (V4_of m outs c main_v36 (by decide)).trans <|
    (V3_of m outs c main_v36 (by decide)).trans <|
    (V2_of m outs c main_v36 (by decide)).trans <|
    (V1_of m c main_v36 (by decide)).trans rfl
/-- What region 8 finds does not depend on what the earlier regions wrote. -/
theorem indep8_h (c : Dev nD) : V17 m outs c main_v1 = V17 m outs' c main_v1 :=
  (h_at17 m outs c).trans (h_at17 m outs' c).symm
theorem indep8_b (c : Dev nD) : V17 m outs c main_v0 = V17 m outs' c main_v0 :=
  (b_at17 m outs c).trans (b_at17 m outs' c).symm
theorem indep8_W (c : Dev nD) : V17 m outs c main_arg3 = V17 m outs' c main_arg3 :=
  (W_at17 m outs c).trans (W_at17 m outs' c).symm
theorem indep8_src (c : Dev nD) : V17 m outs c main_v34 = V17 m outs' c main_v34 :=
  (tbl8_src m outs c).trans (tbl8_src m outs' c).symm
theorem indep8_dst (c : Dev nD) : V17 m outs c main_v35 = V17 m outs' c main_v35 :=
  (tbl8_dst m outs c).trans (tbl8_dst m outs' c).symm
theorem indep8_out (c : Dev nD) : V17 m outs c main_v36 = V17 m outs' c main_v36 :=
  (launched8 m outs c).trans (launched8 m outs' c).symm

/-! ## Region 9: after region 8 (which may change `main_v36` only) and host stretch 9 (which writes
`main_v37`, `main_v38`, `main_v39`) -/

theorem h_at18 (c : Dev nD) : V18 m outs c main_v1 = V1 m c main_v1 :=
  (V18_of m outs c main_v1 (by decide)).trans (h_at17 m outs c)
theorem b_at18 (c : Dev nD) : V18 m outs c main_v0 = V1 m c main_v0 :=
  (V18_of m outs c main_v0 (by decide)).trans (b_at17 m outs c)
theorem W_at18 (c : Dev nD) : V18 m outs c main_arg3 = m ((c : Thread nD τ).loc main_arg3) :=
  (V18_of m outs c main_arg3 (by decide)).trans (W_at17 m outs c)
theorem a1_at18 (c : Dev nD) : V18 m outs c main_arg1 = m ((c : Thread nD τ).loc main_arg1) :=
  (V18_of m outs c main_arg1 (by decide)).trans (a1_at17 m outs c)
theorem a2_at18 (c : Dev nD) : V18 m outs c main_arg2 = m ((c : Thread nD τ).loc main_arg2) :=
  (V18_of m outs c main_arg2 (by decide)).trans (a2_at17 m outs c)
theorem h_at19 (c : Dev nD) : V19 m outs c main_v1 = V1 m c main_v1 :=
  (V19_of m outs c main_v1 (by decide)).trans (h_at18 m outs c)
theorem b_at19 (c : Dev nD) : V19 m outs c main_v0 = V1 m c main_v0 :=
  (V19_of m outs c main_v0 (by decide)).trans (b_at18 m outs c)
theorem W_at19 (c : Dev nD) : V19 m outs c main_arg3 = m ((c : Thread nD τ).loc main_arg3) :=
  (V19_of m outs c main_arg3 (by decide)).trans (W_at18 m outs c)
theorem a1_at19 (c : Dev nD) : V19 m outs c main_arg1 = m ((c : Thread nD τ).loc main_arg1) :=
  (V19_of m outs c main_arg1 (by decide)).trans (a1_at18 m outs c)
theorem a2_at19 (c : Dev nD) : V19 m outs c main_arg2 = m ((c : Thread nD τ).loc main_arg2) :=
  (V19_of m outs c main_arg2 (by decide)).trans (a2_at18 m outs c)
/-- Region 9's table `main_v38` is the slice at offset 562500 of `main_arg1`. -/
theorem tbl9_src (c : Dev nD) :
    V19 m outs c main_v38 = (extractStridedSlice S62500 ![562500] (m ((c : Thread nD τ).loc main_arg1)) slices_S1000000_S62500_562500 : (⟨S62500, .i32⟩ : BufTy).Contents (Elt F)) := by
  have e : V19 m outs c main_v38 = (extractStridedSlice S62500 ![562500] (V18 m outs c main_arg1) slices_S1000000_S62500_562500 : (⟨S62500, .i32⟩ : BufTy).Contents (Elt F)) := by
    show StableHlo.after hostOps9 (V18 m outs c) (Proc.devRef .tc main_v38) = _
    after_results
  rw [e, a1_at18 m outs c]
/-- Region 9's table `main_v39` is the slice at offset 562500 of `main_arg2`. -/
theorem tbl9_dst (c : Dev nD) :
    V19 m outs c main_v39 = (extractStridedSlice S62500 ![562500] (m ((c : Thread nD τ).loc main_arg2)) slices_S1000000_S62500_562500 : (⟨S62500, .i32⟩ : BufTy).Contents (Elt F)) := by
  have e : V19 m outs c main_v39 = (extractStridedSlice S62500 ![562500] (V18 m outs c main_arg2) slices_S1000000_S62500_562500 : (⟨S62500, .i32⟩ : BufTy).Contents (Elt F)) := by
    show StableHlo.after hostOps9 (V18 m outs c) (Proc.devRef .tc main_v39) = _
    after_results
  rw [e, a2_at18 m outs c]
/-- Nothing before region 9 writes `main_v40`: it is as launched. -/
theorem launched9 (c : Dev nD) : V19 m outs c main_v40 = m ((c : Thread nD τ).loc main_v40) :=
  (V19_of m outs c main_v40 (by decide)).trans <|
    (V18_of m outs c main_v40 (by decide)).trans <|
    (V17_of m outs c main_v40 (by decide)).trans <|
    (V16_of m outs c main_v40 (by decide)).trans <|
    (V15_of m outs c main_v40 (by decide)).trans <|
    (V14_of m outs c main_v40 (by decide)).trans <|
    (V13_of m outs c main_v40 (by decide)).trans <|
    (V12_of m outs c main_v40 (by decide)).trans <|
    (V11_of m outs c main_v40 (by decide)).trans <|
    (V10_of m outs c main_v40 (by decide)).trans <|
    (V9_of m outs c main_v40 (by decide)).trans <|
    (V8_of m outs c main_v40 (by decide)).trans <|
    (V7_of m outs c main_v40 (by decide)).trans <|
    (V6_of m outs c main_v40 (by decide)).trans <|
    (V5_of m outs c main_v40 (by decide)).trans <|
    (V4_of m outs c main_v40 (by decide)).trans <|
    (V3_of m outs c main_v40 (by decide)).trans <|
    (V2_of m outs c main_v40 (by decide)).trans <|
    (V1_of m c main_v40 (by decide)).trans rfl
/-- What region 9 finds does not depend on what the earlier regions wrote. -/
theorem indep9_h (c : Dev nD) : V19 m outs c main_v1 = V19 m outs' c main_v1 :=
  (h_at19 m outs c).trans (h_at19 m outs' c).symm
theorem indep9_b (c : Dev nD) : V19 m outs c main_v0 = V19 m outs' c main_v0 :=
  (b_at19 m outs c).trans (b_at19 m outs' c).symm
theorem indep9_W (c : Dev nD) : V19 m outs c main_arg3 = V19 m outs' c main_arg3 :=
  (W_at19 m outs c).trans (W_at19 m outs' c).symm
theorem indep9_src (c : Dev nD) : V19 m outs c main_v38 = V19 m outs' c main_v38 :=
  (tbl9_src m outs c).trans (tbl9_src m outs' c).symm
theorem indep9_dst (c : Dev nD) : V19 m outs c main_v39 = V19 m outs' c main_v39 :=
  (tbl9_dst m outs c).trans (tbl9_dst m outs' c).symm
theorem indep9_out (c : Dev nD) : V19 m outs c main_v40 = V19 m outs' c main_v40 :=
  (launched9 m outs c).trans (launched9 m outs' c).symm

/-! ## Region 10: after region 9 (which may change `main_v40` only) and host stretch 10 (which writes
`main_v41`, `main_v42`, `main_v43`) -/

theorem h_at20 (c : Dev nD) : V20 m outs c main_v1 = V1 m c main_v1 :=
  (V20_of m outs c main_v1 (by decide)).trans (h_at19 m outs c)
theorem b_at20 (c : Dev nD) : V20 m outs c main_v0 = V1 m c main_v0 :=
  (V20_of m outs c main_v0 (by decide)).trans (b_at19 m outs c)
theorem W_at20 (c : Dev nD) : V20 m outs c main_arg3 = m ((c : Thread nD τ).loc main_arg3) :=
  (V20_of m outs c main_arg3 (by decide)).trans (W_at19 m outs c)
theorem a1_at20 (c : Dev nD) : V20 m outs c main_arg1 = m ((c : Thread nD τ).loc main_arg1) :=
  (V20_of m outs c main_arg1 (by decide)).trans (a1_at19 m outs c)
theorem a2_at20 (c : Dev nD) : V20 m outs c main_arg2 = m ((c : Thread nD τ).loc main_arg2) :=
  (V20_of m outs c main_arg2 (by decide)).trans (a2_at19 m outs c)
theorem h_at21 (c : Dev nD) : V21 m outs c main_v1 = V1 m c main_v1 :=
  (V21_of m outs c main_v1 (by decide)).trans (h_at20 m outs c)
theorem b_at21 (c : Dev nD) : V21 m outs c main_v0 = V1 m c main_v0 :=
  (V21_of m outs c main_v0 (by decide)).trans (b_at20 m outs c)
theorem W_at21 (c : Dev nD) : V21 m outs c main_arg3 = m ((c : Thread nD τ).loc main_arg3) :=
  (V21_of m outs c main_arg3 (by decide)).trans (W_at20 m outs c)
theorem a1_at21 (c : Dev nD) : V21 m outs c main_arg1 = m ((c : Thread nD τ).loc main_arg1) :=
  (V21_of m outs c main_arg1 (by decide)).trans (a1_at20 m outs c)
theorem a2_at21 (c : Dev nD) : V21 m outs c main_arg2 = m ((c : Thread nD τ).loc main_arg2) :=
  (V21_of m outs c main_arg2 (by decide)).trans (a2_at20 m outs c)
/-- Region 10's table `main_v42` is the slice at offset 625000 of `main_arg1`. -/
theorem tbl10_src (c : Dev nD) :
    V21 m outs c main_v42 = (extractStridedSlice S62500 ![625000] (m ((c : Thread nD τ).loc main_arg1)) slices_S1000000_S62500_625000 : (⟨S62500, .i32⟩ : BufTy).Contents (Elt F)) := by
  have e : V21 m outs c main_v42 = (extractStridedSlice S62500 ![625000] (V20 m outs c main_arg1) slices_S1000000_S62500_625000 : (⟨S62500, .i32⟩ : BufTy).Contents (Elt F)) := by
    show StableHlo.after hostOps10 (V20 m outs c) (Proc.devRef .tc main_v42) = _
    after_results
  rw [e, a1_at20 m outs c]
/-- Region 10's table `main_v43` is the slice at offset 625000 of `main_arg2`. -/
theorem tbl10_dst (c : Dev nD) :
    V21 m outs c main_v43 = (extractStridedSlice S62500 ![625000] (m ((c : Thread nD τ).loc main_arg2)) slices_S1000000_S62500_625000 : (⟨S62500, .i32⟩ : BufTy).Contents (Elt F)) := by
  have e : V21 m outs c main_v43 = (extractStridedSlice S62500 ![625000] (V20 m outs c main_arg2) slices_S1000000_S62500_625000 : (⟨S62500, .i32⟩ : BufTy).Contents (Elt F)) := by
    show StableHlo.after hostOps10 (V20 m outs c) (Proc.devRef .tc main_v43) = _
    after_results
  rw [e, a2_at20 m outs c]
/-- Nothing before region 10 writes `main_v44`: it is as launched. -/
theorem launched10 (c : Dev nD) : V21 m outs c main_v44 = m ((c : Thread nD τ).loc main_v44) :=
  (V21_of m outs c main_v44 (by decide)).trans <|
    (V20_of m outs c main_v44 (by decide)).trans <|
    (V19_of m outs c main_v44 (by decide)).trans <|
    (V18_of m outs c main_v44 (by decide)).trans <|
    (V17_of m outs c main_v44 (by decide)).trans <|
    (V16_of m outs c main_v44 (by decide)).trans <|
    (V15_of m outs c main_v44 (by decide)).trans <|
    (V14_of m outs c main_v44 (by decide)).trans <|
    (V13_of m outs c main_v44 (by decide)).trans <|
    (V12_of m outs c main_v44 (by decide)).trans <|
    (V11_of m outs c main_v44 (by decide)).trans <|
    (V10_of m outs c main_v44 (by decide)).trans <|
    (V9_of m outs c main_v44 (by decide)).trans <|
    (V8_of m outs c main_v44 (by decide)).trans <|
    (V7_of m outs c main_v44 (by decide)).trans <|
    (V6_of m outs c main_v44 (by decide)).trans <|
    (V5_of m outs c main_v44 (by decide)).trans <|
    (V4_of m outs c main_v44 (by decide)).trans <|
    (V3_of m outs c main_v44 (by decide)).trans <|
    (V2_of m outs c main_v44 (by decide)).trans <|
    (V1_of m c main_v44 (by decide)).trans rfl
/-- What region 10 finds does not depend on what the earlier regions wrote. -/
theorem indep10_h (c : Dev nD) : V21 m outs c main_v1 = V21 m outs' c main_v1 :=
  (h_at21 m outs c).trans (h_at21 m outs' c).symm
theorem indep10_b (c : Dev nD) : V21 m outs c main_v0 = V21 m outs' c main_v0 :=
  (b_at21 m outs c).trans (b_at21 m outs' c).symm
theorem indep10_W (c : Dev nD) : V21 m outs c main_arg3 = V21 m outs' c main_arg3 :=
  (W_at21 m outs c).trans (W_at21 m outs' c).symm
theorem indep10_src (c : Dev nD) : V21 m outs c main_v42 = V21 m outs' c main_v42 :=
  (tbl10_src m outs c).trans (tbl10_src m outs' c).symm
theorem indep10_dst (c : Dev nD) : V21 m outs c main_v43 = V21 m outs' c main_v43 :=
  (tbl10_dst m outs c).trans (tbl10_dst m outs' c).symm
theorem indep10_out (c : Dev nD) : V21 m outs c main_v44 = V21 m outs' c main_v44 :=
  (launched10 m outs c).trans (launched10 m outs' c).symm

/-! ## Region 11: after region 10 (which may change `main_v44` only) and host stretch 11 (which writes
`main_v45`, `main_v46`, `main_v47`) -/

theorem h_at22 (c : Dev nD) : V22 m outs c main_v1 = V1 m c main_v1 :=
  (V22_of m outs c main_v1 (by decide)).trans (h_at21 m outs c)
theorem b_at22 (c : Dev nD) : V22 m outs c main_v0 = V1 m c main_v0 :=
  (V22_of m outs c main_v0 (by decide)).trans (b_at21 m outs c)
theorem W_at22 (c : Dev nD) : V22 m outs c main_arg3 = m ((c : Thread nD τ).loc main_arg3) :=
  (V22_of m outs c main_arg3 (by decide)).trans (W_at21 m outs c)
theorem a1_at22 (c : Dev nD) : V22 m outs c main_arg1 = m ((c : Thread nD τ).loc main_arg1) :=
  (V22_of m outs c main_arg1 (by decide)).trans (a1_at21 m outs c)
theorem a2_at22 (c : Dev nD) : V22 m outs c main_arg2 = m ((c : Thread nD τ).loc main_arg2) :=
  (V22_of m outs c main_arg2 (by decide)).trans (a2_at21 m outs c)
theorem h_at23 (c : Dev nD) : V23 m outs c main_v1 = V1 m c main_v1 :=
  (V23_of m outs c main_v1 (by decide)).trans (h_at22 m outs c)
theorem b_at23 (c : Dev nD) : V23 m outs c main_v0 = V1 m c main_v0 :=
  (V23_of m outs c main_v0 (by decide)).trans (b_at22 m outs c)
theorem W_at23 (c : Dev nD) : V23 m outs c main_arg3 = m ((c : Thread nD τ).loc main_arg3) :=
  (V23_of m outs c main_arg3 (by decide)).trans (W_at22 m outs c)
theorem a1_at23 (c : Dev nD) : V23 m outs c main_arg1 = m ((c : Thread nD τ).loc main_arg1) :=
  (V23_of m outs c main_arg1 (by decide)).trans (a1_at22 m outs c)
theorem a2_at23 (c : Dev nD) : V23 m outs c main_arg2 = m ((c : Thread nD τ).loc main_arg2) :=
  (V23_of m outs c main_arg2 (by decide)).trans (a2_at22 m outs c)
/-- Region 11's table `main_v46` is the slice at offset 687500 of `main_arg1`. -/
theorem tbl11_src (c : Dev nD) :
    V23 m outs c main_v46 = (extractStridedSlice S62500 ![687500] (m ((c : Thread nD τ).loc main_arg1)) slices_S1000000_S62500_687500 : (⟨S62500, .i32⟩ : BufTy).Contents (Elt F)) := by
  have e : V23 m outs c main_v46 = (extractStridedSlice S62500 ![687500] (V22 m outs c main_arg1) slices_S1000000_S62500_687500 : (⟨S62500, .i32⟩ : BufTy).Contents (Elt F)) := by
    show StableHlo.after hostOps11 (V22 m outs c) (Proc.devRef .tc main_v46) = _
    after_results
  rw [e, a1_at22 m outs c]
/-- Region 11's table `main_v47` is the slice at offset 687500 of `main_arg2`. -/
theorem tbl11_dst (c : Dev nD) :
    V23 m outs c main_v47 = (extractStridedSlice S62500 ![687500] (m ((c : Thread nD τ).loc main_arg2)) slices_S1000000_S62500_687500 : (⟨S62500, .i32⟩ : BufTy).Contents (Elt F)) := by
  have e : V23 m outs c main_v47 = (extractStridedSlice S62500 ![687500] (V22 m outs c main_arg2) slices_S1000000_S62500_687500 : (⟨S62500, .i32⟩ : BufTy).Contents (Elt F)) := by
    show StableHlo.after hostOps11 (V22 m outs c) (Proc.devRef .tc main_v47) = _
    after_results
  rw [e, a2_at22 m outs c]
/-- Nothing before region 11 writes `main_v48`: it is as launched. -/
theorem launched11 (c : Dev nD) : V23 m outs c main_v48 = m ((c : Thread nD τ).loc main_v48) :=
  (V23_of m outs c main_v48 (by decide)).trans <|
    (V22_of m outs c main_v48 (by decide)).trans <|
    (V21_of m outs c main_v48 (by decide)).trans <|
    (V20_of m outs c main_v48 (by decide)).trans <|
    (V19_of m outs c main_v48 (by decide)).trans <|
    (V18_of m outs c main_v48 (by decide)).trans <|
    (V17_of m outs c main_v48 (by decide)).trans <|
    (V16_of m outs c main_v48 (by decide)).trans <|
    (V15_of m outs c main_v48 (by decide)).trans <|
    (V14_of m outs c main_v48 (by decide)).trans <|
    (V13_of m outs c main_v48 (by decide)).trans <|
    (V12_of m outs c main_v48 (by decide)).trans <|
    (V11_of m outs c main_v48 (by decide)).trans <|
    (V10_of m outs c main_v48 (by decide)).trans <|
    (V9_of m outs c main_v48 (by decide)).trans <|
    (V8_of m outs c main_v48 (by decide)).trans <|
    (V7_of m outs c main_v48 (by decide)).trans <|
    (V6_of m outs c main_v48 (by decide)).trans <|
    (V5_of m outs c main_v48 (by decide)).trans <|
    (V4_of m outs c main_v48 (by decide)).trans <|
    (V3_of m outs c main_v48 (by decide)).trans <|
    (V2_of m outs c main_v48 (by decide)).trans <|
    (V1_of m c main_v48 (by decide)).trans rfl
/-- What region 11 finds does not depend on what the earlier regions wrote. -/
theorem indep11_h (c : Dev nD) : V23 m outs c main_v1 = V23 m outs' c main_v1 :=
  (h_at23 m outs c).trans (h_at23 m outs' c).symm
theorem indep11_b (c : Dev nD) : V23 m outs c main_v0 = V23 m outs' c main_v0 :=
  (b_at23 m outs c).trans (b_at23 m outs' c).symm
theorem indep11_W (c : Dev nD) : V23 m outs c main_arg3 = V23 m outs' c main_arg3 :=
  (W_at23 m outs c).trans (W_at23 m outs' c).symm
theorem indep11_src (c : Dev nD) : V23 m outs c main_v46 = V23 m outs' c main_v46 :=
  (tbl11_src m outs c).trans (tbl11_src m outs' c).symm
theorem indep11_dst (c : Dev nD) : V23 m outs c main_v47 = V23 m outs' c main_v47 :=
  (tbl11_dst m outs c).trans (tbl11_dst m outs' c).symm
theorem indep11_out (c : Dev nD) : V23 m outs c main_v48 = V23 m outs' c main_v48 :=
  (launched11 m outs c).trans (launched11 m outs' c).symm

/-! ## Region 12: after region 11 (which may change `main_v48` only) and host stretch 12 (which writes
`main_v49`, `main_v50`, `main_v51`) -/

theorem h_at24 (c : Dev nD) : V24 m outs c main_v1 = V1 m c main_v1 :=
  (V24_of m outs c main_v1 (by decide)).trans (h_at23 m outs c)
theorem b_at24 (c : Dev nD) : V24 m outs c main_v0 = V1 m c main_v0 :=
  (V24_of m outs c main_v0 (by decide)).trans (b_at23 m outs c)
theorem W_at24 (c : Dev nD) : V24 m outs c main_arg3 = m ((c : Thread nD τ).loc main_arg3) :=
  (V24_of m outs c main_arg3 (by decide)).trans (W_at23 m outs c)
theorem a1_at24 (c : Dev nD) : V24 m outs c main_arg1 = m ((c : Thread nD τ).loc main_arg1) :=
  (V24_of m outs c main_arg1 (by decide)).trans (a1_at23 m outs c)
theorem a2_at24 (c : Dev nD) : V24 m outs c main_arg2 = m ((c : Thread nD τ).loc main_arg2) :=
  (V24_of m outs c main_arg2 (by decide)).trans (a2_at23 m outs c)
theorem h_at25 (c : Dev nD) : V25 m outs c main_v1 = V1 m c main_v1 :=
  (V25_of m outs c main_v1 (by decide)).trans (h_at24 m outs c)
theorem b_at25 (c : Dev nD) : V25 m outs c main_v0 = V1 m c main_v0 :=
  (V25_of m outs c main_v0 (by decide)).trans (b_at24 m outs c)
theorem W_at25 (c : Dev nD) : V25 m outs c main_arg3 = m ((c : Thread nD τ).loc main_arg3) :=
  (V25_of m outs c main_arg3 (by decide)).trans (W_at24 m outs c)
theorem a1_at25 (c : Dev nD) : V25 m outs c main_arg1 = m ((c : Thread nD τ).loc main_arg1) :=
  (V25_of m outs c main_arg1 (by decide)).trans (a1_at24 m outs c)
theorem a2_at25 (c : Dev nD) : V25 m outs c main_arg2 = m ((c : Thread nD τ).loc main_arg2) :=
  (V25_of m outs c main_arg2 (by decide)).trans (a2_at24 m outs c)
/-- Region 12's table `main_v50` is the slice at offset 750000 of `main_arg1`. -/
theorem tbl12_src (c : Dev nD) :
    V25 m outs c main_v50 = (extractStridedSlice S62500 ![750000] (m ((c : Thread nD τ).loc main_arg1)) slices_S1000000_S62500_750000 : (⟨S62500, .i32⟩ : BufTy).Contents (Elt F)) := by
  have e : V25 m outs c main_v50 = (extractStridedSlice S62500 ![750000] (V24 m outs c main_arg1) slices_S1000000_S62500_750000 : (⟨S62500, .i32⟩ : BufTy).Contents (Elt F)) := by
    show StableHlo.after hostOps12 (V24 m outs c) (Proc.devRef .tc main_v50) = _
    after_results
  rw [e, a1_at24 m outs c]
/-- Region 12's table `main_v51` is the slice at offset 750000 of `main_arg2`. -/
theorem tbl12_dst (c : Dev nD) :
    V25 m outs c main_v51 = (extractStridedSlice S62500 ![750000] (m ((c : Thread nD τ).loc main_arg2)) slices_S1000000_S62500_750000 : (⟨S62500, .i32⟩ : BufTy).Contents (Elt F)) := by
  have e : V25 m outs c main_v51 = (extractStridedSlice S62500 ![750000] (V24 m outs c main_arg2) slices_S1000000_S62500_750000 : (⟨S62500, .i32⟩ : BufTy).Contents (Elt F)) := by
    show StableHlo.after hostOps12 (V24 m outs c) (Proc.devRef .tc main_v51) = _
    after_results
  rw [e, a2_at24 m outs c]
/-- Nothing before region 12 writes `main_v52`: it is as launched. -/
theorem launched12 (c : Dev nD) : V25 m outs c main_v52 = m ((c : Thread nD τ).loc main_v52) :=
  (V25_of m outs c main_v52 (by decide)).trans <|
    (V24_of m outs c main_v52 (by decide)).trans <|
    (V23_of m outs c main_v52 (by decide)).trans <|
    (V22_of m outs c main_v52 (by decide)).trans <|
    (V21_of m outs c main_v52 (by decide)).trans <|
    (V20_of m outs c main_v52 (by decide)).trans <|
    (V19_of m outs c main_v52 (by decide)).trans <|
    (V18_of m outs c main_v52 (by decide)).trans <|
    (V17_of m outs c main_v52 (by decide)).trans <|
    (V16_of m outs c main_v52 (by decide)).trans <|
    (V15_of m outs c main_v52 (by decide)).trans <|
    (V14_of m outs c main_v52 (by decide)).trans <|
    (V13_of m outs c main_v52 (by decide)).trans <|
    (V12_of m outs c main_v52 (by decide)).trans <|
    (V11_of m outs c main_v52 (by decide)).trans <|
    (V10_of m outs c main_v52 (by decide)).trans <|
    (V9_of m outs c main_v52 (by decide)).trans <|
    (V8_of m outs c main_v52 (by decide)).trans <|
    (V7_of m outs c main_v52 (by decide)).trans <|
    (V6_of m outs c main_v52 (by decide)).trans <|
    (V5_of m outs c main_v52 (by decide)).trans <|
    (V4_of m outs c main_v52 (by decide)).trans <|
    (V3_of m outs c main_v52 (by decide)).trans <|
    (V2_of m outs c main_v52 (by decide)).trans <|
    (V1_of m c main_v52 (by decide)).trans rfl
/-- What region 12 finds does not depend on what the earlier regions wrote. -/
theorem indep12_h (c : Dev nD) : V25 m outs c main_v1 = V25 m outs' c main_v1 :=
  (h_at25 m outs c).trans (h_at25 m outs' c).symm
theorem indep12_b (c : Dev nD) : V25 m outs c main_v0 = V25 m outs' c main_v0 :=
  (b_at25 m outs c).trans (b_at25 m outs' c).symm
theorem indep12_W (c : Dev nD) : V25 m outs c main_arg3 = V25 m outs' c main_arg3 :=
  (W_at25 m outs c).trans (W_at25 m outs' c).symm
theorem indep12_src (c : Dev nD) : V25 m outs c main_v50 = V25 m outs' c main_v50 :=
  (tbl12_src m outs c).trans (tbl12_src m outs' c).symm
theorem indep12_dst (c : Dev nD) : V25 m outs c main_v51 = V25 m outs' c main_v51 :=
  (tbl12_dst m outs c).trans (tbl12_dst m outs' c).symm
theorem indep12_out (c : Dev nD) : V25 m outs c main_v52 = V25 m outs' c main_v52 :=
  (launched12 m outs c).trans (launched12 m outs' c).symm

/-! ## Region 13: after region 12 (which may change `main_v52` only) and host stretch 13 (which writes
`main_v53`, `main_v54`, `main_v55`) -/

theorem h_at26 (c : Dev nD) : V26 m outs c main_v1 = V1 m c main_v1 :=
  (V26_of m outs c main_v1 (by decide)).trans (h_at25 m outs c)
theorem b_at26 (c : Dev nD) : V26 m outs c main_v0 = V1 m c main_v0 :=
  (V26_of m outs c main_v0 (by decide)).trans (b_at25 m outs c)
theorem W_at26 (c : Dev nD) : V26 m outs c main_arg3 = m ((c : Thread nD τ).loc main_arg3) :=
  (V26_of m outs c main_arg3 (by decide)).trans (W_at25 m outs c)
theorem a1_at26 (c : Dev nD) : V26 m outs c main_arg1 = m ((c : Thread nD τ).loc main_arg1) :=
  (V26_of m outs c main_arg1 (by decide)).trans (a1_at25 m outs c)
theorem a2_at26 (c : Dev nD) : V26 m outs c main_arg2 = m ((c : Thread nD τ).loc main_arg2) :=
  (V26_of m outs c main_arg2 (by decide)).trans (a2_at25 m outs c)
theorem h_at27 (c : Dev nD) : V27 m outs c main_v1 = V1 m c main_v1 :=
  (V27_of m outs c main_v1 (by decide)).trans (h_at26 m outs c)
theorem b_at27 (c : Dev nD) : V27 m outs c main_v0 = V1 m c main_v0 :=
  (V27_of m outs c main_v0 (by decide)).trans (b_at26 m outs c)
theorem W_at27 (c : Dev nD) : V27 m outs c main_arg3 = m ((c : Thread nD τ).loc main_arg3) :=
  (V27_of m outs c main_arg3 (by decide)).trans (W_at26 m outs c)
theorem a1_at27 (c : Dev nD) : V27 m outs c main_arg1 = m ((c : Thread nD τ).loc main_arg1) :=
  (V27_of m outs c main_arg1 (by decide)).trans (a1_at26 m outs c)
theorem a2_at27 (c : Dev nD) : V27 m outs c main_arg2 = m ((c : Thread nD τ).loc main_arg2) :=
  (V27_of m outs c main_arg2 (by decide)).trans (a2_at26 m outs c)
/-- Region 13's table `main_v54` is the slice at offset 812500 of `main_arg1`. -/
theorem tbl13_src (c : Dev nD) :
    V27 m outs c main_v54 = (extractStridedSlice S62500 ![812500] (m ((c : Thread nD τ).loc main_arg1)) slices_S1000000_S62500_812500 : (⟨S62500, .i32⟩ : BufTy).Contents (Elt F)) := by
  have e : V27 m outs c main_v54 = (extractStridedSlice S62500 ![812500] (V26 m outs c main_arg1) slices_S1000000_S62500_812500 : (⟨S62500, .i32⟩ : BufTy).Contents (Elt F)) := by
    show StableHlo.after hostOps13 (V26 m outs c) (Proc.devRef .tc main_v54) = _
    after_results
  rw [e, a1_at26 m outs c]
/-- Region 13's table `main_v55` is the slice at offset 812500 of `main_arg2`. -/
theorem tbl13_dst (c : Dev nD) :
    V27 m outs c main_v55 = (extractStridedSlice S62500 ![812500] (m ((c : Thread nD τ).loc main_arg2)) slices_S1000000_S62500_812500 : (⟨S62500, .i32⟩ : BufTy).Contents (Elt F)) := by
  have e : V27 m outs c main_v55 = (extractStridedSlice S62500 ![812500] (V26 m outs c main_arg2) slices_S1000000_S62500_812500 : (⟨S62500, .i32⟩ : BufTy).Contents (Elt F)) := by
    show StableHlo.after hostOps13 (V26 m outs c) (Proc.devRef .tc main_v55) = _
    after_results
  rw [e, a2_at26 m outs c]
/-- Nothing before region 13 writes `main_v56`: it is as launched. -/
theorem launched13 (c : Dev nD) : V27 m outs c main_v56 = m ((c : Thread nD τ).loc main_v56) :=
  (V27_of m outs c main_v56 (by decide)).trans <|
    (V26_of m outs c main_v56 (by decide)).trans <|
    (V25_of m outs c main_v56 (by decide)).trans <|
    (V24_of m outs c main_v56 (by decide)).trans <|
    (V23_of m outs c main_v56 (by decide)).trans <|
    (V22_of m outs c main_v56 (by decide)).trans <|
    (V21_of m outs c main_v56 (by decide)).trans <|
    (V20_of m outs c main_v56 (by decide)).trans <|
    (V19_of m outs c main_v56 (by decide)).trans <|
    (V18_of m outs c main_v56 (by decide)).trans <|
    (V17_of m outs c main_v56 (by decide)).trans <|
    (V16_of m outs c main_v56 (by decide)).trans <|
    (V15_of m outs c main_v56 (by decide)).trans <|
    (V14_of m outs c main_v56 (by decide)).trans <|
    (V13_of m outs c main_v56 (by decide)).trans <|
    (V12_of m outs c main_v56 (by decide)).trans <|
    (V11_of m outs c main_v56 (by decide)).trans <|
    (V10_of m outs c main_v56 (by decide)).trans <|
    (V9_of m outs c main_v56 (by decide)).trans <|
    (V8_of m outs c main_v56 (by decide)).trans <|
    (V7_of m outs c main_v56 (by decide)).trans <|
    (V6_of m outs c main_v56 (by decide)).trans <|
    (V5_of m outs c main_v56 (by decide)).trans <|
    (V4_of m outs c main_v56 (by decide)).trans <|
    (V3_of m outs c main_v56 (by decide)).trans <|
    (V2_of m outs c main_v56 (by decide)).trans <|
    (V1_of m c main_v56 (by decide)).trans rfl
/-- What region 13 finds does not depend on what the earlier regions wrote. -/
theorem indep13_h (c : Dev nD) : V27 m outs c main_v1 = V27 m outs' c main_v1 :=
  (h_at27 m outs c).trans (h_at27 m outs' c).symm
theorem indep13_b (c : Dev nD) : V27 m outs c main_v0 = V27 m outs' c main_v0 :=
  (b_at27 m outs c).trans (b_at27 m outs' c).symm
theorem indep13_W (c : Dev nD) : V27 m outs c main_arg3 = V27 m outs' c main_arg3 :=
  (W_at27 m outs c).trans (W_at27 m outs' c).symm
theorem indep13_src (c : Dev nD) : V27 m outs c main_v54 = V27 m outs' c main_v54 :=
  (tbl13_src m outs c).trans (tbl13_src m outs' c).symm
theorem indep13_dst (c : Dev nD) : V27 m outs c main_v55 = V27 m outs' c main_v55 :=
  (tbl13_dst m outs c).trans (tbl13_dst m outs' c).symm
theorem indep13_out (c : Dev nD) : V27 m outs c main_v56 = V27 m outs' c main_v56 :=
  (launched13 m outs c).trans (launched13 m outs' c).symm

/-! ## Region 14: after region 13 (which may change `main_v56` only) and host stretch 14 (which writes
`main_v57`, `main_v58`, `main_v59`) -/

theorem h_at28 (c : Dev nD) : V28 m outs c main_v1 = V1 m c main_v1 :=
  (V28_of m outs c main_v1 (by decide)).trans (h_at27 m outs c)
theorem b_at28 (c : Dev nD) : V28 m outs c main_v0 = V1 m c main_v0 :=
  (V28_of m outs c main_v0 (by decide)).trans (b_at27 m outs c)
theorem W_at28 (c : Dev nD) : V28 m outs c main_arg3 = m ((c : Thread nD τ).loc main_arg3) :=
  (V28_of m outs c main_arg3 (by decide)).trans (W_at27 m outs c)
theorem a1_at28 (c : Dev nD) : V28 m outs c main_arg1 = m ((c : Thread nD τ).loc main_arg1) :=
  (V28_of m outs c main_arg1 (by decide)).trans (a1_at27 m outs c)
theorem a2_at28 (c : Dev nD) : V28 m outs c main_arg2 = m ((c : Thread nD τ).loc main_arg2) :=
  (V28_of m outs c main_arg2 (by decide)).trans (a2_at27 m outs c)
theorem h_at29 (c : Dev nD) : V29 m outs c main_v1 = V1 m c main_v1 :=
  (V29_of m outs c main_v1 (by decide)).trans (h_at28 m outs c)
theorem b_at29 (c : Dev nD) : V29 m outs c main_v0 = V1 m c main_v0 :=
  (V29_of m outs c main_v0 (by decide)).trans (b_at28 m outs c)
theorem W_at29 (c : Dev nD) : V29 m outs c main_arg3 = m ((c : Thread nD τ).loc main_arg3) :=
  (V29_of m outs c main_arg3 (by decide)).trans (W_at28 m outs c)
theorem a1_at29 (c : Dev nD) : V29 m outs c main_arg1 = m ((c : Thread nD τ).loc main_arg1) :=
  (V29_of m outs c main_arg1 (by decide)).trans (a1_at28 m outs c)
theorem a2_at29 (c : Dev nD) : V29 m outs c main_arg2 = m ((c : Thread nD τ).loc main_arg2) :=
  (V29_of m outs c main_arg2 (by decide)).trans (a2_at28 m outs c)
/-- Region 14's table `main_v58` is the slice at offset 875000 of `main_arg1`. -/
theorem tbl14_src (c : Dev nD) :
    V29 m outs c main_v58 = (extractStridedSlice S62500 ![875000] (m ((c : Thread nD τ).loc main_arg1)) slices_S1000000_S62500_875000 : (⟨S62500, .i32⟩ : BufTy).Contents (Elt F)) := by
  have e : V29 m outs c main_v58 = (extractStridedSlice S62500 ![875000] (V28 m outs c main_arg1) slices_S1000000_S62500_875000 : (⟨S62500, .i32⟩ : BufTy).Contents (Elt F)) := by
    show StableHlo.after hostOps14 (V28 m outs c) (Proc.devRef .tc main_v58) = _
    after_results
  rw [e, a1_at28 m outs c]
/-- Region 14's table `main_v59` is the slice at offset 875000 of `main_arg2`. -/
theorem tbl14_dst (c : Dev nD) :
    V29 m outs c main_v59 = (extractStridedSlice S62500 ![875000] (m ((c : Thread nD τ).loc main_arg2)) slices_S1000000_S62500_875000 : (⟨S62500, .i32⟩ : BufTy).Contents (Elt F)) := by
  have e : V29 m outs c main_v59 = (extractStridedSlice S62500 ![875000] (V28 m outs c main_arg2) slices_S1000000_S62500_875000 : (⟨S62500, .i32⟩ : BufTy).Contents (Elt F)) := by
    show StableHlo.after hostOps14 (V28 m outs c) (Proc.devRef .tc main_v59) = _
    after_results
  rw [e, a2_at28 m outs c]
/-- Nothing before region 14 writes `main_v60`: it is as launched. -/
theorem launched14 (c : Dev nD) : V29 m outs c main_v60 = m ((c : Thread nD τ).loc main_v60) :=
  (V29_of m outs c main_v60 (by decide)).trans <|
    (V28_of m outs c main_v60 (by decide)).trans <|
    (V27_of m outs c main_v60 (by decide)).trans <|
    (V26_of m outs c main_v60 (by decide)).trans <|
    (V25_of m outs c main_v60 (by decide)).trans <|
    (V24_of m outs c main_v60 (by decide)).trans <|
    (V23_of m outs c main_v60 (by decide)).trans <|
    (V22_of m outs c main_v60 (by decide)).trans <|
    (V21_of m outs c main_v60 (by decide)).trans <|
    (V20_of m outs c main_v60 (by decide)).trans <|
    (V19_of m outs c main_v60 (by decide)).trans <|
    (V18_of m outs c main_v60 (by decide)).trans <|
    (V17_of m outs c main_v60 (by decide)).trans <|
    (V16_of m outs c main_v60 (by decide)).trans <|
    (V15_of m outs c main_v60 (by decide)).trans <|
    (V14_of m outs c main_v60 (by decide)).trans <|
    (V13_of m outs c main_v60 (by decide)).trans <|
    (V12_of m outs c main_v60 (by decide)).trans <|
    (V11_of m outs c main_v60 (by decide)).trans <|
    (V10_of m outs c main_v60 (by decide)).trans <|
    (V9_of m outs c main_v60 (by decide)).trans <|
    (V8_of m outs c main_v60 (by decide)).trans <|
    (V7_of m outs c main_v60 (by decide)).trans <|
    (V6_of m outs c main_v60 (by decide)).trans <|
    (V5_of m outs c main_v60 (by decide)).trans <|
    (V4_of m outs c main_v60 (by decide)).trans <|
    (V3_of m outs c main_v60 (by decide)).trans <|
    (V2_of m outs c main_v60 (by decide)).trans <|
    (V1_of m c main_v60 (by decide)).trans rfl
/-- What region 14 finds does not depend on what the earlier regions wrote. -/
theorem indep14_h (c : Dev nD) : V29 m outs c main_v1 = V29 m outs' c main_v1 :=
  (h_at29 m outs c).trans (h_at29 m outs' c).symm
theorem indep14_b (c : Dev nD) : V29 m outs c main_v0 = V29 m outs' c main_v0 :=
  (b_at29 m outs c).trans (b_at29 m outs' c).symm
theorem indep14_W (c : Dev nD) : V29 m outs c main_arg3 = V29 m outs' c main_arg3 :=
  (W_at29 m outs c).trans (W_at29 m outs' c).symm
theorem indep14_src (c : Dev nD) : V29 m outs c main_v58 = V29 m outs' c main_v58 :=
  (tbl14_src m outs c).trans (tbl14_src m outs' c).symm
theorem indep14_dst (c : Dev nD) : V29 m outs c main_v59 = V29 m outs' c main_v59 :=
  (tbl14_dst m outs c).trans (tbl14_dst m outs' c).symm
theorem indep14_out (c : Dev nD) : V29 m outs c main_v60 = V29 m outs' c main_v60 :=
  (launched14 m outs c).trans (launched14 m outs' c).symm

/-! ## Region 15: after region 14 (which may change `main_v60` only) and host stretch 15 (which writes
`main_v61`, `main_v62`, `main_v63`) -/

theorem h_at30 (c : Dev nD) : V30 m outs c main_v1 = V1 m c main_v1 :=
  (V30_of m outs c main_v1 (by decide)).trans (h_at29 m outs c)
theorem b_at30 (c : Dev nD) : V30 m outs c main_v0 = V1 m c main_v0 :=
  (V30_of m outs c main_v0 (by decide)).trans (b_at29 m outs c)
theorem W_at30 (c : Dev nD) : V30 m outs c main_arg3 = m ((c : Thread nD τ).loc main_arg3) :=
  (V30_of m outs c main_arg3 (by decide)).trans (W_at29 m outs c)
theorem a1_at30 (c : Dev nD) : V30 m outs c main_arg1 = m ((c : Thread nD τ).loc main_arg1) :=
  (V30_of m outs c main_arg1 (by decide)).trans (a1_at29 m outs c)
theorem a2_at30 (c : Dev nD) : V30 m outs c main_arg2 = m ((c : Thread nD τ).loc main_arg2) :=
  (V30_of m outs c main_arg2 (by decide)).trans (a2_at29 m outs c)
theorem h_at31 (c : Dev nD) : V31 m outs c main_v1 = V1 m c main_v1 :=
  (V31_of m outs c main_v1 (by decide)).trans (h_at30 m outs c)
theorem b_at31 (c : Dev nD) : V31 m outs c main_v0 = V1 m c main_v0 :=
  (V31_of m outs c main_v0 (by decide)).trans (b_at30 m outs c)
theorem W_at31 (c : Dev nD) : V31 m outs c main_arg3 = m ((c : Thread nD τ).loc main_arg3) :=
  (V31_of m outs c main_arg3 (by decide)).trans (W_at30 m outs c)
theorem a1_at31 (c : Dev nD) : V31 m outs c main_arg1 = m ((c : Thread nD τ).loc main_arg1) :=
  (V31_of m outs c main_arg1 (by decide)).trans (a1_at30 m outs c)
theorem a2_at31 (c : Dev nD) : V31 m outs c main_arg2 = m ((c : Thread nD τ).loc main_arg2) :=
  (V31_of m outs c main_arg2 (by decide)).trans (a2_at30 m outs c)
/-- Region 15's table `main_v62` is the slice at offset 937500 of `main_arg1`. -/
theorem tbl15_src (c : Dev nD) :
    V31 m outs c main_v62 = (extractStridedSlice S62500 ![937500] (m ((c : Thread nD τ).loc main_arg1)) slices_S1000000_S62500_937500 : (⟨S62500, .i32⟩ : BufTy).Contents (Elt F)) := by
  have e : V31 m outs c main_v62 = (extractStridedSlice S62500 ![937500] (V30 m outs c main_arg1) slices_S1000000_S62500_937500 : (⟨S62500, .i32⟩ : BufTy).Contents (Elt F)) := by
    show StableHlo.after hostOps15 (V30 m outs c) (Proc.devRef .tc main_v62) = _
    after_results
  rw [e, a1_at30 m outs c]
/-- Region 15's table `main_v63` is the slice at offset 937500 of `main_arg2`. -/
theorem tbl15_dst (c : Dev nD) :
    V31 m outs c main_v63 = (extractStridedSlice S62500 ![937500] (m ((c : Thread nD τ).loc main_arg2)) slices_S1000000_S62500_937500 : (⟨S62500, .i32⟩ : BufTy).Contents (Elt F)) := by
  have e : V31 m outs c main_v63 = (extractStridedSlice S62500 ![937500] (V30 m outs c main_arg2) slices_S1000000_S62500_937500 : (⟨S62500, .i32⟩ : BufTy).Contents (Elt F)) := by
    show StableHlo.after hostOps15 (V30 m outs c) (Proc.devRef .tc main_v63) = _
    after_results
  rw [e, a2_at30 m outs c]
/-- Nothing before region 15 writes `main_v64`: it is as launched. -/
theorem launched15 (c : Dev nD) : V31 m outs c main_v64 = m ((c : Thread nD τ).loc main_v64) :=
  (V31_of m outs c main_v64 (by decide)).trans <|
    (V30_of m outs c main_v64 (by decide)).trans <|
    (V29_of m outs c main_v64 (by decide)).trans <|
    (V28_of m outs c main_v64 (by decide)).trans <|
    (V27_of m outs c main_v64 (by decide)).trans <|
    (V26_of m outs c main_v64 (by decide)).trans <|
    (V25_of m outs c main_v64 (by decide)).trans <|
    (V24_of m outs c main_v64 (by decide)).trans <|
    (V23_of m outs c main_v64 (by decide)).trans <|
    (V22_of m outs c main_v64 (by decide)).trans <|
    (V21_of m outs c main_v64 (by decide)).trans <|
    (V20_of m outs c main_v64 (by decide)).trans <|
    (V19_of m outs c main_v64 (by decide)).trans <|
    (V18_of m outs c main_v64 (by decide)).trans <|
    (V17_of m outs c main_v64 (by decide)).trans <|
    (V16_of m outs c main_v64 (by decide)).trans <|
    (V15_of m outs c main_v64 (by decide)).trans <|
    (V14_of m outs c main_v64 (by decide)).trans <|
    (V13_of m outs c main_v64 (by decide)).trans <|
    (V12_of m outs c main_v64 (by decide)).trans <|
    (V11_of m outs c main_v64 (by decide)).trans <|
    (V10_of m outs c main_v64 (by decide)).trans <|
    (V9_of m outs c main_v64 (by decide)).trans <|
    (V8_of m outs c main_v64 (by decide)).trans <|
    (V7_of m outs c main_v64 (by decide)).trans <|
    (V6_of m outs c main_v64 (by decide)).trans <|
    (V5_of m outs c main_v64 (by decide)).trans <|
    (V4_of m outs c main_v64 (by decide)).trans <|
    (V3_of m outs c main_v64 (by decide)).trans <|
    (V2_of m outs c main_v64 (by decide)).trans <|
    (V1_of m c main_v64 (by decide)).trans rfl
/-- What region 15 finds does not depend on what the earlier regions wrote. -/
theorem indep15_h (c : Dev nD) : V31 m outs c main_v1 = V31 m outs' c main_v1 :=
  (h_at31 m outs c).trans (h_at31 m outs' c).symm
theorem indep15_b (c : Dev nD) : V31 m outs c main_v0 = V31 m outs' c main_v0 :=
  (b_at31 m outs c).trans (b_at31 m outs' c).symm
theorem indep15_W (c : Dev nD) : V31 m outs c main_arg3 = V31 m outs' c main_arg3 :=
  (W_at31 m outs c).trans (W_at31 m outs' c).symm
theorem indep15_src (c : Dev nD) : V31 m outs c main_v62 = V31 m outs' c main_v62 :=
  (tbl15_src m outs c).trans (tbl15_src m outs' c).symm
theorem indep15_dst (c : Dev nD) : V31 m outs c main_v63 = V31 m outs' c main_v63 :=
  (tbl15_dst m outs c).trans (tbl15_dst m outs' c).symm
theorem indep15_out (c : Dev nD) : V31 m outs c main_v64 = V31 m outs' c main_v64 :=
  (launched15 m outs c).trans (launched15 m outs' c).symm

end Cert.KernelIdeal.Hand
-- ==== Proof.KIReg0.lean ====
/-
  Region 0 of the edge scorer as a segment of the program's run.

  The region is entered with every unscoped buffer held whole at the contents the host operations before it leave,
  beside the generator register and nothing owed. Of those buffers the pipeline takes the four arrays its five windows
  read and write — the feature rows (read by two windows, each at one half of the full share), the weights, the
  bias and the output chunk — and the two index tables; the other unscoped buffers bypass the region. At the exit the
  feature rows' two halves rejoin, the inputs are as they were, the output array holds the region's chunk, and
  the whole is the next boundary's contents.
-/
import proofs.«405368_j31662498906597_2_alg».proof.Proof.KIFamily
import proofs.«405368_j31662498906597_2_alg».proof.Proof.KIHostEntry
import proofs.«405368_j31662498906597_2_alg».proof.Proof.KIHostEntryGen
import Idealize.ShloMosaic.Lib.Pipeline.RegionsLoop

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The six unscoped buffers region 0 touches: the feature rows, the weights, the bias, its output chunk and its two
    index tables. -/
abbrev arrs0 : Finset (Ref sig .tc) := insert main_v1 (insert main_arg3 (insert main_v0 (insert main_v4 (insert main_v2 {main_v3}))))

theorem arrs0_sub : arrs0 ⊆ Finset.univ.filter fun b : Ref sig .tc => ¬ b.isScoped := by decide

/-- The unscoped buffers region 0 does not touch, held whole at `V`. -/
def rest0 (c : Dev nD) (V : (b : Ref sig .tc) → Buf (Elt F) ((c.tc : Thread nD τ).loc b)) : sProp 𝕄 :=
  bigSep ((Finset.univ.filter fun b : Ref sig .tc => ¬ b.isScoped) \ arrs0) fun b => ((c.tc : Thread nD τ).loc b) ↦{fullShare} V b

/-- The six touched buffers one by one, and the rest. -/
theorem ub_split0 (c : Dev nD) (V : (b : Ref sig .tc) → Buf (Elt F) ((c.tc : Thread nD τ).loc b)) :
    (unscopedBufs (Ix := Unit) (Name := ℕ) (U := UR sig nD τ) (Lvl := ℕ) c V : sProp 𝕄)
      = iprop(iprop((((c.tc : Thread nD τ).loc main_v1) ↦{fullShare} V main_v1) ∗ (((c.tc : Thread nD τ).loc main_arg3) ↦{fullShare} V main_arg3)
          ∗ (((c.tc : Thread nD τ).loc main_v0) ↦{fullShare} V main_v0) ∗ (((c.tc : Thread nD τ).loc main_v4) ↦{fullShare} V main_v4)
          ∗ (((c.tc : Thread nD τ).loc main_v2) ↦{fullShare} V main_v2) ∗ (((c.tc : Thread nD τ).loc main_v3) ↦{fullShare} V main_v3)) ∗ rest0 c V) := by
  unfold unscopedBufs rest0
  rw [BI.bigSep_sdiff_split arrs0_sub]
  refine congrArg (fun X => iprop(X ∗ _)) ?_
  show bigSep (insert main_v1 (insert main_arg3 (insert main_v0 (insert main_v4 (insert main_v2 {main_v3}))))) _ = _
  rw [BI.bigSep_insert (by decide), BI.bigSep_insert (by decide), BI.bigSep_insert (by decide), BI.bigSep_insert (by decide),
    BI.bigSep_insert (by decide), BI.bigSep_singleton]
  rfl

/-- A product over two tables, written out. -/
theorem two_tables0 (Φ : Fin 2 → sProp 𝕄) : bigSep Finset.univ Φ = iprop(Φ 0 ∗ Φ 1) := BI.bigSep_fin_two Φ

/-- The five windows' arrays and the two tables, by name. -/
theorem arrRef0_0 : Pipeline.arrRef spec0 (0 : Fin 5) = main_v1 := rfl
theorem arrRef0_1 : Pipeline.arrRef spec0 (1 : Fin 5) = main_v1 := rfl
theorem arrRef0_2 : Pipeline.arrRef spec0 (2 : Fin 5) = main_arg3 := rfl
theorem arrRef0_3 : Pipeline.arrRef spec0 (3 : Fin 5) = main_v0 := rfl
theorem arrRef0_4 : Pipeline.arrRef spec0 (4 : Fin 5) = main_v4 := rfl
theorem preRef0_0 : pre0.ref (0 : Fin 2) = main_v2 := rfl
theorem preRef0_1 : pre0.ref (1 : Fin 2) = main_v3 := rfl

set_option maxHeartbeats 1600000 in
/-- A core's unscoped buffers held whole at `V` ARE the pipeline's arrays at `V`'s contents of them (the feature rows'
    full share dealt as its two halves to the two windows that read them), the two tables at `V`'s contents of
    them, and the rest. Both directions: the region's entry and its exit. -/
theorem bufs0 (a : (pcfg0 (F := F)).Adm) (c : Dev nD) (dat : Dat τ (Elt F) Unit ℕ (UR sig nD τ) ℕ (cfg0 a) c)
    (hq0 : dat.q 0 = fullShare.left) (hq1 : dat.q 1 = fullShare.right) (hq2 : dat.q 2 = fullShare) (hq3 : dat.q 3 = fullShare)
    (V : (b : Ref sig .tc) → Buf (Elt F) ((c.tc : Thread nD τ).loc b))
    (G : (w : Fin (cfg0 a).W) → Buf (Elt F) (((cfg0 a).win w).arr.view.loc (c.tc : Thread nD τ)))
    (hG : G = fun w => V (Pipeline.arrRef spec0 w))
    (T : pre0.Contents (Elt F)) (hT : T = fun k => V (pre0.ref k)) :
    (unscopedBufs (Ix := Unit) (Name := ℕ) (U := UR sig nD τ) (Lvl := ℕ) c V : sProp 𝕄)
      ⊣⊢ iprop(dat.arrays G ∗ Pipeline.prefHeld (Ix := Unit) (Name := ℕ) (U := UR sig nD τ) (Lvl := ℕ) pre0 c (fun _ => fullShare) T ∗ rest0 c V) := by
  subst hG hT
  have harr : ∀ w, (((cfg0 a).spec w).arr).IsWhole := arr_whole0
  have hA : dat.arrays (fun w => V (Pipeline.arrRef spec0 w))
      = bigSep Finset.univ fun w : Fin 5 => (((c.tc : Thread nD τ).loc (Pipeline.arrRef spec0 w)) ↦{dat.share w} V (Pipeline.arrRef spec0 w) : sProp 𝕄) := by
    unfold Dat.arrays
    exact BI.bigSep_congr fun w _ => by rw [(harr w).set_eq_univ]
  have s0 : dat.share 0 = fullShare.left := by unfold Dat.share; rw [show ((cfg0 a).win 0).isOut = false from rfl]; exact hq0
  have s1 : dat.share 1 = fullShare.right := by unfold Dat.share; rw [show ((cfg0 a).win 1).isOut = false from rfl]; exact hq1
  have s2 : dat.share 2 = fullShare := by unfold Dat.share; rw [show ((cfg0 a).win 2).isOut = false from rfl]; exact hq2
  have s3 : dat.share 3 = fullShare := by unfold Dat.share; rw [show ((cfg0 a).win 3).isOut = false from rfl]; exact hq3
  have s4 : dat.share 4 = fullShare := by unfold Dat.share; rw [show ((cfg0 a).win 4).isOut = true from rfl]; rfl
  rw [ub_split0, hA, bigSep_W0, s0, s1, s2, s3, s4]
  unfold Pipeline.prefHeld
  rw [two_tables0]
  simp only [arrRef0_0, arrRef0_1, arrRef0_2, arrRef0_3, arrRef0_4, preRef0_0, preRef0_1]
  constructor
  · iintro ⟨⟨H1, HW, HB, HO, HS, HD⟩, Hr⟩
    ihave H1' := (pointsTo_share (PosShare.mem_left_op_right fullShare)).1 $$ H1
    icases H1' with ⟨H1a, H1b⟩
    isplitl [H1a H1b HW HB HO]
    · isplitl [H1a]; · iexact H1a
      isplitl [H1b]; · iexact H1b
      isplitl [HW]; · iexact HW
      isplitl [HB]; · iexact HB
      iexact HO
    isplitl [HS HD]
    · isplitl [HS]; · iexact HS
      iexact HD
    iexact Hr
  · iintro ⟨⟨H1a, H1b, HW, HB, HO⟩, ⟨HS, HD⟩, Hr⟩
    ihave H1 := (pointsTo_share (PosShare.mem_left_op_right fullShare)).2 $$ [H1a H1b]
    · isplitl [H1a]; · iexact H1a
      iexact H1b
    isplitr [Hr]
    · isplitl [H1]; · iexact H1
      isplitl [HW]; · iexact HW
      isplitl [HB]; · iexact HB
      isplitl [HO]; · iexact HO
      isplitl [HS]; · iexact HS
      iexact HD
    iexact Hr

set_option maxHeartbeats 1600000 in
/-- ENTRY, everything a variable: for any proof data `dat` whose arrays are `Vd`'s contents (`hA`) and any tables `T`
    that are `Vd`'s contents (`hT`), whenever the boundary contents `Vx` agree with `Vd` at the six touched buffers, the
    unscoped buffers at `Vx` are the pipeline's arrays at their entry contents, the two tables, and the rest. -/
theorem entry0 (a : (pcfg0 (F := F)).Adm) (c : Dev nD) (dat : Dat τ (Elt F) Unit ℕ (UR sig nD τ) ℕ (cfg0 a) c)
    (hq0 : dat.q 0 = fullShare.left) (hq1 : dat.q 1 = fullShare.right) (hq2 : dat.q 2 = fullShare) (hq3 : dat.q 3 = fullShare)
    (Vd Vx : (b : Ref sig .tc) → Buf (Elt F) ((c.tc : Thread nD τ).loc b))
    (hA : ∀ w, dat.A w = Vd (Pipeline.arrRef spec0 w))
    (e_h : Vd main_v1 = Vx main_v1) (e_W : Vd main_arg3 = Vx main_arg3) (e_b : Vd main_v0 = Vx main_v0) (e_out : Vd main_v4 = Vx main_v4)
    (T : pre0.Contents (Elt F)) (hT : ∀ j, T j = Vd (pre0.ref j)) (e_src : Vd main_v2 = Vx main_v2) (e_dst : Vd main_v3 = Vx main_v3) :
    (unscopedBufs (Ix := Unit) (Name := ℕ) (U := UR sig nD τ) (Lvl := ℕ) c Vx : sProp 𝕄)
      ⊢ iprop(dat.arrays (dat.arrAt · 0)
          ∗ Pipeline.prefHeld (Ix := Unit) (Name := ℕ) (U := UR sig nD τ) (Lvl := ℕ) pre0 c (fun _ => fullShare) T ∗ rest0 c Vx) :=
  (bufs0 a c dat hq0 hq1 hq2 hq3 Vx (fun w => dat.arrAt w 0)
    (funext fun w => match w with
      | ⟨0, h⟩ => by show dat.arrAt ⟨0, h⟩ 0 = Vx main_v1; exact (hA ⟨0, h⟩).trans e_h
      | ⟨1, h⟩ => by show dat.arrAt ⟨1, h⟩ 0 = Vx main_v1; exact (hA ⟨1, h⟩).trans e_h
      | ⟨2, h⟩ => by show dat.arrAt ⟨2, h⟩ 0 = Vx main_arg3; exact (hA ⟨2, h⟩).trans e_W
      | ⟨3, h⟩ => by show dat.arrAt ⟨3, h⟩ 0 = Vx main_v0; exact (hA ⟨3, h⟩).trans e_b
      | ⟨4, h⟩ => by show dat.arrAt ⟨4, h⟩ 0 = Vx main_v4; exact (hA ⟨4, h⟩).trans e_out)
    T (funext fun j => match j with
      | ⟨0, h⟩ => by show T ⟨0, h⟩ = Vx main_v2; exact (hT ⟨0, h⟩).trans e_src
      | ⟨1, h⟩ => by show T ⟨1, h⟩ = Vx main_v3; exact (hT ⟨1, h⟩).trans e_dst)).1

set_option maxHeartbeats 1600000 in
/-- EXIT, everything a variable: the inputs' arrays end as they began, the output array at what the last write-backs
    leave (`x_out`); whenever `Vx` holds those contents at the six touched buffers, the pipeline's arrays at their final
    contents, the two tables and the rest at `Vx` are the unscoped buffers at `Vx`. -/
theorem exit0 (a : (pcfg0 (F := F)).Adm) (c : Dev nD) (dat : Dat τ (Elt F) Unit ℕ (UR sig nD τ) ℕ (cfg0 a) c) (N : Nat)
    (hq0 : dat.q 0 = fullShare.left) (hq1 : dat.q 1 = fullShare.right) (hq2 : dat.q 2 = fullShare) (hq3 : dat.q 3 = fullShare)
    (Vd Vx : (b : Ref sig .tc) → Buf (Elt F) ((c.tc : Thread nD τ).loc b))
    (hA : ∀ w, dat.A w = Vd (Pipeline.arrRef spec0 w))
    (x_h : Vd main_v1 = Vx main_v1) (x_W : Vd main_arg3 = Vx main_arg3) (x_b : Vd main_v0 = Vx main_v0) (x_out : dat.arrAt 4 N = Vx main_v4)
    (T : pre0.Contents (Elt F)) (hT : ∀ j, T j = Vd (pre0.ref j)) (x_src : Vd main_v2 = Vx main_v2) (x_dst : Vd main_v3 = Vx main_v3) :
    iprop(dat.arrays (dat.arrAt · N)
        ∗ Pipeline.prefHeld (Ix := Unit) (Name := ℕ) (U := UR sig nD τ) (Lvl := ℕ) pre0 c (fun _ => fullShare) T ∗ rest0 c Vx)
      ⊢ (unscopedBufs (Ix := Unit) (Name := ℕ) (U := UR sig nD τ) (Lvl := ℕ) c Vx : sProp 𝕄) :=
  (bufs0 a c dat hq0 hq1 hq2 hq3 Vx (fun w => dat.arrAt w N)
    (funext fun w => match w with
      | ⟨0, h⟩ => by show dat.arrAt ⟨0, h⟩ N = Vx main_v1; exact (dat.arrAt_in ⟨0, h⟩ rfl N).trans ((hA ⟨0, h⟩).trans x_h)
      | ⟨1, h⟩ => by show dat.arrAt ⟨1, h⟩ N = Vx main_v1; exact (dat.arrAt_in ⟨1, h⟩ rfl N).trans ((hA ⟨1, h⟩).trans x_h)
      | ⟨2, h⟩ => by show dat.arrAt ⟨2, h⟩ N = Vx main_arg3; exact (dat.arrAt_in ⟨2, h⟩ rfl N).trans ((hA ⟨2, h⟩).trans x_W)
      | ⟨3, h⟩ => by show dat.arrAt ⟨3, h⟩ N = Vx main_v0; exact (dat.arrAt_in ⟨3, h⟩ rfl N).trans ((hA ⟨3, h⟩).trans x_b)
      | ⟨4, h⟩ => by show dat.arrAt ⟨4, h⟩ N = Vx main_v4; exact x_out)
    T (funext fun j => match j with
      | ⟨0, h⟩ => by show T ⟨0, h⟩ = Vx main_v2; exact (hT ⟨0, h⟩).trans x_src
      | ⟨1, h⟩ => by show T ⟨1, h⟩ = Vx main_v3; exact (hT ⟨1, h⟩).trans x_dst)).2

variable (m : (ℓ : Loc nD τ sig) → Buf (Elt F) ℓ) (hO : Oks m)

/-! ## What the region finds and leaves, buffer by buffer -/

include hO

theorem fin0_h (c : Dev nD) : Ve0 m c main_v1 = V1 m c main_v1 := by first | exact indep0_h m (outsL m) (outsR m hO) c | rfl
theorem fin0_W (c : Dev nD) : Ve0 m c main_arg3 = V1 m c main_arg3 := by first | exact indep0_W m (outsL m) (outsR m hO) c | rfl
theorem fin0_b (c : Dev nD) : Ve0 m c main_v0 = V1 m c main_v0 := by first | exact indep0_b m (outsL m) (outsR m hO) c | rfl
theorem fin0_out (c : Dev nD) : Ve0 m c main_v4 = V1 m c main_v4 := by first | exact indep0_out m (outsL m) (outsR m hO) c | rfl
theorem fin0_src (c : Dev nD) : Ve0 m c main_v2 = V1 m c main_v2 := by first | exact indep0_src m (outsL m) (outsR m hO) c | rfl
theorem fin0_dst (c : Dev nD) : Ve0 m c main_v3 = V1 m c main_v3 := by first | exact indep0_dst m (outsL m) (outsR m hO) c | rfl

/-- What the region leaves in the buffers it touches: the inputs and the tables as they were, the output array at the
    region's chunk. -/
theorem lv0_h (c : Dev nD) : V2 m (outsR m hO) c main_v1 = V1 m c main_v1 := V2_of m (outsR m hO) c main_v1 (by decide)
theorem lv0_W (c : Dev nD) : V2 m (outsR m hO) c main_arg3 = V1 m c main_arg3 := V2_of m (outsR m hO) c main_arg3 (by decide)
theorem lv0_b (c : Dev nD) : V2 m (outsR m hO) c main_v0 = V1 m c main_v0 := V2_of m (outsR m hO) c main_v0 (by decide)
theorem lv0_src (c : Dev nD) : V2 m (outsR m hO) c main_v2 = V1 m c main_v2 := V2_of m (outsR m hO) c main_v2 (by decide)
theorem lv0_dst (c : Dev nD) : V2 m (outsR m hO) c main_v3 = V1 m c main_v3 := V2_of m (outsR m hO) c main_v3 (by decide)
theorem lv0_out (c : Dev nD) : V2 m (outsR m hO) c main_v4 = chunk0 m hO c :=
  (Function.update_self _ _ _).trans (outsR_0 m hO c)

/-- The buffers the region does not touch pass it by unchanged. -/
theorem rest0_eq (c : Dev nD) : (rest0 c (fun b => V1 m c b) : sProp 𝕄) = rest0 c (fun b => V2 m (outsR m hO) c b) := by
  unfold rest0
  exact BI.bigSep_congr fun b hb => by
    dsimp only
    rw [V2_of m (outsR m hO) c b (fun h => (Finset.mem_sdiff.mp hb).2 (by rw [List.mem_singleton.mp h]; decide))]

set_option maxHeartbeats 1600000 in
set_option backward.isDefEq.respectTransparency.types false in
/-- REGION 0 over the boundary states. -/
def reg0 : Pipeline.RegionSeg (pcfgs (F := F)) (adm m hO) (pdats m hO) () defs₀ 𝒱₀ L lv (0 : Fin 16) where
  win := winFacts₀0
  block_pos := block_pos0
  stage_whole := stage_whole0
  K := PEmpty
  osem k := k.elim
  ho := Pipeline.OwnSemFacts.none _
  hbody c := (body_obligation0 (Ve0 m) ⟨tbl0 m, hO.h0⟩ c).loose
  hwaits := Pipeline.hwaits_of_owed_zero _ _ _ _ L lv (0 : Fin 16) fun _ _ => rfl
  pre c := iprop(StableHlo.held (c : Thread nD τ) (Pipeline.ucRefs τ sig) (V1 m c) ∗ Rst c)
  post c := iprop(StableHlo.held (c : Thread nD τ) (Pipeline.ucRefs τ sig) (V2 m (outsR m hO) c) ∗ Rst c)
  X c := iprop(∃ r, prngReg c r)
  Y c := iprop((∃ r, prngReg c r) ∗ Pipeline.prefHeld (Ix := Unit) (Name := ℕ) (U := UR sig nD τ) (Lvl := ℕ) pre0 c (fun _ => fullShare) (tbl0 m))
  Z c := rest0 c (fun b => V1 m c b)
  hentry c := by
    obtain rfl : c = 0 := Subsingleton.elim _ _
    have hb := entry0 (adm m hO (0 : Fin 16)) 0 (pdats m hO (0 : Fin 16) 0) rfl rfl rfl rfl (Ve0 m 0) (fun b => V1 m 0 b) (fun w => rfl)
      (fin0_h m hO 0) (fin0_W m hO 0) (fin0_b m hO 0) (fin0_out m hO 0) (tbl0 m) (fun j => rfl) (fin0_src m hO 0) (fin0_dst m hO 0)
    rw [Pipeline.unscopedBufs_held] at hb
    iintro ⟨⟨Hub, Hp, HO⟩, -, -⟩
    ihave H := hb $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO (0 : Fin 16) c).Φ 0 = iprop(Pipeline.ΦA spec0 c ∗ Pipeline.prefHeld (Ix := Unit) (Name := ℕ) (U := UR sig nD τ) (Lvl := ℕ) pre0 c (fun _ => fullShare) (tbl0 m)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m hO (0 : Fin 16) c).Φ (Fin.last _) = iprop(Pipeline.ΦA spec0 c ∗ Pipeline.prefHeld (Ix := Unit) (Name := ℕ) (U := UR sig nD τ) (Lvl := ℕ) pre0 c (fun _ => fullShare) (tbl0 m)) from rfl]
    unfold Pipeline.ΦA
    iintro ⟨⟨Hr, Hp⟩, Ht⟩
    isplitl [Hp Ht]
    · isplitl [Hp]; · iexact Hp
      iexact Ht
    isplitr; · iempintro
    iexact Hr
  hexit c := by
    obtain rfl : c = 0 := Subsingleton.elim _ _
    have hb := exit0 (adm m hO (0 : Fin 16)) 0 (pdats m hO (0 : Fin 16) 0) (Pipeline.pin (pcfgs (F := F)) (adm m hO) (0 : Fin 16)).N rfl rfl rfl rfl
      (Ve0 m 0) (fun b => V2 m (outsR m hO) 0 b) (fun w => rfl)
      ((fin0_h m hO 0).trans (lv0_h m hO 0).symm) ((fin0_W m hO 0).trans (lv0_W m hO 0).symm) ((fin0_b m hO 0).trans (lv0_b m hO 0).symm)
      (lv0_out m hO 0).symm (tbl0 m) (fun j => rfl) ((fin0_src m hO 0).trans (lv0_src m hO 0).symm) ((fin0_dst m hO 0).trans (lv0_dst m hO 0).symm)
    rw [Pipeline.unscopedBufs_held, ← rest0_eq m hO 0] at hb
    iintro ⟨Ha, HO, ⟨Hp, Ht⟩, Hrest⟩
    imodintro
    isplitl [Ha Ht Hrest]
    · iapply hb
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Cert.KernelIdeal.Hand

end
-- ==== Proof.KIReg1.lean ====
/-
  Region 1 of the edge scorer as a segment of the program's run.

  The region is entered with every unscoped buffer held whole at the contents the host operations before it leave,
  beside the generator register and nothing owed. Of those buffers the pipeline takes the four arrays its five windows
  read and write — the feature rows (read by two windows, each at one half of the full share), the weights, the
  bias and the output chunk — and the two index tables; the other unscoped buffers bypass the region. At the exit the
  feature rows' two halves rejoin, the inputs are as they were, the output array holds the region's chunk, and
  the whole is the next boundary's contents.
-/
import proofs.«405368_j31662498906597_2_alg».proof.Proof.KIFamily
import proofs.«405368_j31662498906597_2_alg».proof.Proof.KIHostEntry
import proofs.«405368_j31662498906597_2_alg».proof.Proof.KIHostEntryGen
import Idealize.ShloMosaic.Lib.Pipeline.RegionsLoop

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The six unscoped buffers region 1 touches: the feature rows, the weights, the bias, its output chunk and its two
    index tables. -/
abbrev arrs1 : Finset (Ref sig .tc) := insert main_v1 (insert main_arg3 (insert main_v0 (insert main_v8 (insert main_v6 {main_v7}))))

theorem arrs1_sub : arrs1 ⊆ Finset.univ.filter fun b : Ref sig .tc => ¬ b.isScoped := by decide

/-- The unscoped buffers region 1 does not touch, held whole at `V`. -/
def rest1 (c : Dev nD) (V : (b : Ref sig .tc) → Buf (Elt F) ((c.tc : Thread nD τ).loc b)) : sProp 𝕄 :=
  bigSep ((Finset.univ.filter fun b : Ref sig .tc => ¬ b.isScoped) \ arrs1) fun b => ((c.tc : Thread nD τ).loc b) ↦{fullShare} V b

/-- The six touched buffers one by one, and the rest. -/
theorem ub_split1 (c : Dev nD) (V : (b : Ref sig .tc) → Buf (Elt F) ((c.tc : Thread nD τ).loc b)) :
    (unscopedBufs (Ix := Unit) (Name := ℕ) (U := UR sig nD τ) (Lvl := ℕ) c V : sProp 𝕄)
      = iprop(iprop((((c.tc : Thread nD τ).loc main_v1) ↦{fullShare} V main_v1) ∗ (((c.tc : Thread nD τ).loc main_arg3) ↦{fullShare} V main_arg3)
          ∗ (((c.tc : Thread nD τ).loc main_v0) ↦{fullShare} V main_v0) ∗ (((c.tc : Thread nD τ).loc main_v8) ↦{fullShare} V main_v8)
          ∗ (((c.tc : Thread nD τ).loc main_v6) ↦{fullShare} V main_v6) ∗ (((c.tc : Thread nD τ).loc main_v7) ↦{fullShare} V main_v7)) ∗ rest1 c V) := by
  unfold unscopedBufs rest1
  rw [BI.bigSep_sdiff_split arrs1_sub]
  refine congrArg (fun X => iprop(X ∗ _)) ?_
  show bigSep (insert main_v1 (insert main_arg3 (insert main_v0 (insert main_v8 (insert main_v6 {main_v7}))))) _ = _
  rw [BI.bigSep_insert (by decide), BI.bigSep_insert (by decide), BI.bigSep_insert (by decide), BI.bigSep_insert (by decide),
    BI.bigSep_insert (by decide), BI.bigSep_singleton]
  rfl

/-- A product over two tables, written out. -/
theorem two_tables1 (Φ : Fin 2 → sProp 𝕄) : bigSep Finset.univ Φ = iprop(Φ 0 ∗ Φ 1) := BI.bigSep_fin_two Φ

/-- The five windows' arrays and the two tables, by name. -/
theorem arrRef1_0 : Pipeline.arrRef spec1 (0 : Fin 5) = main_v1 := rfl
theorem arrRef1_1 : Pipeline.arrRef spec1 (1 : Fin 5) = main_v1 := rfl
theorem arrRef1_2 : Pipeline.arrRef spec1 (2 : Fin 5) = main_arg3 := rfl
theorem arrRef1_3 : Pipeline.arrRef spec1 (3 : Fin 5) = main_v0 := rfl
theorem arrRef1_4 : Pipeline.arrRef spec1 (4 : Fin 5) = main_v8 := rfl
theorem preRef1_0 : pre1.ref (0 : Fin 2) = main_v6 := rfl
theorem preRef1_1 : pre1.ref (1 : Fin 2) = main_v7 := rfl

set_option maxHeartbeats 1600000 in
/-- A core's unscoped buffers held whole at `V` ARE the pipeline's arrays at `V`'s contents of them (the feature rows'
    full share dealt as its two halves to the two windows that read them), the two tables at `V`'s contents of
    them, and the rest. Both directions: the region's entry and its exit. -/
theorem bufs1 (a : (pcfg1 (F := F)).Adm) (c : Dev nD) (dat : Dat τ (Elt F) Unit ℕ (UR sig nD τ) ℕ (cfg1 a) c)
    (hq0 : dat.q 0 = fullShare.left) (hq1 : dat.q 1 = fullShare.right) (hq2 : dat.q 2 = fullShare) (hq3 : dat.q 3 = fullShare)
    (V : (b : Ref sig .tc) → Buf (Elt F) ((c.tc : Thread nD τ).loc b))
    (G : (w : Fin (cfg1 a).W) → Buf (Elt F) (((cfg1 a).win w).arr.view.loc (c.tc : Thread nD τ)))
    (hG : G = fun w => V (Pipeline.arrRef spec1 w))
    (T : pre1.Contents (Elt F)) (hT : T = fun k => V (pre1.ref k)) :
    (unscopedBufs (Ix := Unit) (Name := ℕ) (U := UR sig nD τ) (Lvl := ℕ) c V : sProp 𝕄)
      ⊣⊢ iprop(dat.arrays G ∗ Pipeline.prefHeld (Ix := Unit) (Name := ℕ) (U := UR sig nD τ) (Lvl := ℕ) pre1 c (fun _ => fullShare) T ∗ rest1 c V) := by
  subst hG hT
  have harr : ∀ w, (((cfg1 a).spec w).arr).IsWhole := arr_whole1
  have hA : dat.arrays (fun w => V (Pipeline.arrRef spec1 w))
      = bigSep Finset.univ fun w : Fin 5 => (((c.tc : Thread nD τ).loc (Pipeline.arrRef spec1 w)) ↦{dat.share w} V (Pipeline.arrRef spec1 w) : sProp 𝕄) := by
    unfold Dat.arrays
    exact BI.bigSep_congr fun w _ => by rw [(harr w).set_eq_univ]
  have s0 : dat.share 0 = fullShare.left := by unfold Dat.share; rw [show ((cfg1 a).win 0).isOut = false from rfl]; exact hq0
  have s1 : dat.share 1 = fullShare.right := by unfold Dat.share; rw [show ((cfg1 a).win 1).isOut = false from rfl]; exact hq1
  have s2 : dat.share 2 = fullShare := by unfold Dat.share; rw [show ((cfg1 a).win 2).isOut = false from rfl]; exact hq2
  have s3 : dat.share 3 = fullShare := by unfold Dat.share; rw [show ((cfg1 a).win 3).isOut = false from rfl]; exact hq3
  have s4 : dat.share 4 = fullShare := by unfold Dat.share; rw [show ((cfg1 a).win 4).isOut = true from rfl]; rfl
  rw [ub_split1, hA, bigSep_W1, s0, s1, s2, s3, s4]
  unfold Pipeline.prefHeld
  rw [two_tables1]
  simp only [arrRef1_0, arrRef1_1, arrRef1_2, arrRef1_3, arrRef1_4, preRef1_0, preRef1_1]
  constructor
  · iintro ⟨⟨H1, HW, HB, HO, HS, HD⟩, Hr⟩
    ihave H1' := (pointsTo_share (PosShare.mem_left_op_right fullShare)).1 $$ H1
    icases H1' with ⟨H1a, H1b⟩
    isplitl [H1a H1b HW HB HO]
    · isplitl [H1a]; · iexact H1a
      isplitl [H1b]; · iexact H1b
      isplitl [HW]; · iexact HW
      isplitl [HB]; · iexact HB
      iexact HO
    isplitl [HS HD]
    · isplitl [HS]; · iexact HS
      iexact HD
    iexact Hr
  · iintro ⟨⟨H1a, H1b, HW, HB, HO⟩, ⟨HS, HD⟩, Hr⟩
    ihave H1 := (pointsTo_share (PosShare.mem_left_op_right fullShare)).2 $$ [H1a H1b]
    · isplitl [H1a]; · iexact H1a
      iexact H1b
    isplitr [Hr]
    · isplitl [H1]; · iexact H1
      isplitl [HW]; · iexact HW
      isplitl [HB]; · iexact HB
      isplitl [HO]; · iexact HO
      isplitl [HS]; · iexact HS
      iexact HD
    iexact Hr

set_option maxHeartbeats 1600000 in
/-- ENTRY, everything a variable: for any proof data `dat` whose arrays are `Vd`'s contents (`hA`) and any tables `T`
    that are `Vd`'s contents (`hT`), whenever the boundary contents `Vx` agree with `Vd` at the six touched buffers, the
    unscoped buffers at `Vx` are the pipeline's arrays at their entry contents, the two tables, and the rest. -/
theorem entry1 (a : (pcfg1 (F := F)).Adm) (c : Dev nD) (dat : Dat τ (Elt F) Unit ℕ (UR sig nD τ) ℕ (cfg1 a) c)
    (hq0 : dat.q 0 = fullShare.left) (hq1 : dat.q 1 = fullShare.right) (hq2 : dat.q 2 = fullShare) (hq3 : dat.q 3 = fullShare)
    (Vd Vx : (b : Ref sig .tc) → Buf (Elt F) ((c.tc : Thread nD τ).loc b))
    (hA : ∀ w, dat.A w = Vd (Pipeline.arrRef spec1 w))
    (e_h : Vd main_v1 = Vx main_v1) (e_W : Vd main_arg3 = Vx main_arg3) (e_b : Vd main_v0 = Vx main_v0) (e_out : Vd main_v8 = Vx main_v8)
    (T : pre1.Contents (Elt F)) (hT : ∀ j, T j = Vd (pre1.ref j)) (e_src : Vd main_v6 = Vx main_v6) (e_dst : Vd main_v7 = Vx main_v7) :
    (unscopedBufs (Ix := Unit) (Name := ℕ) (U := UR sig nD τ) (Lvl := ℕ) c Vx : sProp 𝕄)
      ⊢ iprop(dat.arrays (dat.arrAt · 0)
          ∗ Pipeline.prefHeld (Ix := Unit) (Name := ℕ) (U := UR sig nD τ) (Lvl := ℕ) pre1 c (fun _ => fullShare) T ∗ rest1 c Vx) :=
  (bufs1 a c dat hq0 hq1 hq2 hq3 Vx (fun w => dat.arrAt w 0)
    (funext fun w => match w with
      | ⟨0, h⟩ => by show dat.arrAt ⟨0, h⟩ 0 = Vx main_v1; exact (hA ⟨0, h⟩).trans e_h
      | ⟨1, h⟩ => by show dat.arrAt ⟨1, h⟩ 0 = Vx main_v1; exact (hA ⟨1, h⟩).trans e_h
      | ⟨2, h⟩ => by show dat.arrAt ⟨2, h⟩ 0 = Vx main_arg3; exact (hA ⟨2, h⟩).trans e_W
      | ⟨3, h⟩ => by show dat.arrAt ⟨3, h⟩ 0 = Vx main_v0; exact (hA ⟨3, h⟩).trans e_b
      | ⟨4, h⟩ => by show dat.arrAt ⟨4, h⟩ 0 = Vx main_v8; exact (hA ⟨4, h⟩).trans e_out)
    T (funext fun j => match j with
      | ⟨0, h⟩ => by show T ⟨0, h⟩ = Vx main_v6; exact (hT ⟨0, h⟩).trans e_src
      | ⟨1, h⟩ => by show T ⟨1, h⟩ = Vx main_v7; exact (hT ⟨1, h⟩).trans e_dst)).1

set_option maxHeartbeats 1600000 in
/-- EXIT, everything a variable: the inputs' arrays end as they began, the output array at what the last write-backs
    leave (`x_out`); whenever `Vx` holds those contents at the six touched buffers, the pipeline's arrays at their final
    contents, the two tables and the rest at `Vx` are the unscoped buffers at `Vx`. -/
theorem exit1 (a : (pcfg1 (F := F)).Adm) (c : Dev nD) (dat : Dat τ (Elt F) Unit ℕ (UR sig nD τ) ℕ (cfg1 a) c) (N : Nat)
    (hq0 : dat.q 0 = fullShare.left) (hq1 : dat.q 1 = fullShare.right) (hq2 : dat.q 2 = fullShare) (hq3 : dat.q 3 = fullShare)
    (Vd Vx : (b : Ref sig .tc) → Buf (Elt F) ((c.tc : Thread nD τ).loc b))
    (hA : ∀ w, dat.A w = Vd (Pipeline.arrRef spec1 w))
    (x_h : Vd main_v1 = Vx main_v1) (x_W : Vd main_arg3 = Vx main_arg3) (x_b : Vd main_v0 = Vx main_v0) (x_out : dat.arrAt 4 N = Vx main_v8)
    (T : pre1.Contents (Elt F)) (hT : ∀ j, T j = Vd (pre1.ref j)) (x_src : Vd main_v6 = Vx main_v6) (x_dst : Vd main_v7 = Vx main_v7) :
    iprop(dat.arrays (dat.arrAt · N)
        ∗ Pipeline.prefHeld (Ix := Unit) (Name := ℕ) (U := UR sig nD τ) (Lvl := ℕ) pre1 c (fun _ => fullShare) T ∗ rest1 c Vx)
      ⊢ (unscopedBufs (Ix := Unit) (Name := ℕ) (U := UR sig nD τ) (Lvl := ℕ) c Vx : sProp 𝕄) :=
  (bufs1 a c dat hq0 hq1 hq2 hq3 Vx (fun w => dat.arrAt w N)
    (funext fun w => match w with
      | ⟨0, h⟩ => by show dat.arrAt ⟨0, h⟩ N = Vx main_v1; exact (dat.arrAt_in ⟨0, h⟩ rfl N).trans ((hA ⟨0, h⟩).trans x_h)
      | ⟨1, h⟩ => by show dat.arrAt ⟨1, h⟩ N = Vx main_v1; exact (dat.arrAt_in ⟨1, h⟩ rfl N).trans ((hA ⟨1, h⟩).trans x_h)
      | ⟨2, h⟩ => by show dat.arrAt ⟨2, h⟩ N = Vx main_arg3; exact (dat.arrAt_in ⟨2, h⟩ rfl N).trans ((hA ⟨2, h⟩).trans x_W)
      | ⟨3, h⟩ => by show dat.arrAt ⟨3, h⟩ N = Vx main_v0; exact (dat.arrAt_in ⟨3, h⟩ rfl N).trans ((hA ⟨3, h⟩).trans x_b)
      | ⟨4, h⟩ => by show dat.arrAt ⟨4, h⟩ N = Vx main_v8; exact x_out)
    T (funext fun j => match j with
      | ⟨0, h⟩ => by show T ⟨0, h⟩ = Vx main_v6; exact (hT ⟨0, h⟩).trans x_src
      | ⟨1, h⟩ => by show T ⟨1, h⟩ = Vx main_v7; exact (hT ⟨1, h⟩).trans x_dst)).2

variable (m : (ℓ : Loc nD τ sig) → Buf (Elt F) ℓ) (hO : Oks m)

/-! ## What the region finds and leaves, buffer by buffer -/

include hO

theorem fin1_h (c : Dev nD) : Ve1 m c main_v1 = V3 m (outsR m hO) c main_v1 := by first | exact indep1_h m (outsL m) (outsR m hO) c | rfl
theorem fin1_W (c : Dev nD) : Ve1 m c main_arg3 = V3 m (outsR m hO) c main_arg3 := by first | exact indep1_W m (outsL m) (outsR m hO) c | rfl
theorem fin1_b (c : Dev nD) : Ve1 m c main_v0 = V3 m (outsR m hO) c main_v0 := by first | exact indep1_b m (outsL m) (outsR m hO) c | rfl
theorem fin1_out (c : Dev nD) : Ve1 m c main_v8 = V3 m (outsR m hO) c main_v8 := by first | exact indep1_out m (outsL m) (outsR m hO) c | rfl
theorem fin1_src (c : Dev nD) : Ve1 m c main_v6 = V3 m (outsR m hO) c main_v6 := by first | exact indep1_src m (outsL m) (outsR m hO) c | rfl
theorem fin1_dst (c : Dev nD) : Ve1 m c main_v7 = V3 m (outsR m hO) c main_v7 := by first | exact indep1_dst m (outsL m) (outsR m hO) c | rfl

/-- What the region leaves in the buffers it touches: the inputs and the tables as they were, the output array at the
    region's chunk. -/
theorem lv1_h (c : Dev nD) : V4 m (outsR m hO) c main_v1 = V3 m (outsR m hO) c main_v1 := V4_of m (outsR m hO) c main_v1 (by decide)
theorem lv1_W (c : Dev nD) : V4 m (outsR m hO) c main_arg3 = V3 m (outsR m hO) c main_arg3 := V4_of m (outsR m hO) c main_arg3 (by decide)
theorem lv1_b (c : Dev nD) : V4 m (outsR m hO) c main_v0 = V3 m (outsR m hO) c main_v0 := V4_of m (outsR m hO) c main_v0 (by decide)
theorem lv1_src (c : Dev nD) : V4 m (outsR m hO) c main_v6 = V3 m (outsR m hO) c main_v6 := V4_of m (outsR m hO) c main_v6 (by decide)
theorem lv1_dst (c : Dev nD) : V4 m (outsR m hO) c main_v7 = V3 m (outsR m hO) c main_v7 := V4_of m (outsR m hO) c main_v7 (by decide)
theorem lv1_out (c : Dev nD) : V4 m (outsR m hO) c main_v8 = chunk1 m hO c :=
  (Function.update_self _ _ _).trans (outsR_1 m hO c)

/-- The buffers the region does not touch pass it by unchanged. -/
theorem rest1_eq (c : Dev nD) : (rest1 c (fun b => V3 m (outsR m hO) c b) : sProp 𝕄) = rest1 c (fun b => V4 m (outsR m hO) c b) := by
  unfold rest1
  exact BI.bigSep_congr fun b hb => by
    dsimp only
    rw [V4_of m (outsR m hO) c b (fun h => (Finset.mem_sdiff.mp hb).2 (by rw [List.mem_singleton.mp h]; decide))]

set_option maxHeartbeats 1600000 in
set_option backward.isDefEq.respectTransparency.types false in
/-- REGION 0 over the boundary states. -/
def reg1 : Pipeline.RegionSeg (pcfgs (F := F)) (adm m hO) (pdats m hO) () defs₀ 𝒱₀ L lv (1 : Fin 16) where
  win := winFacts₀1
  block_pos := block_pos1
  stage_whole := stage_whole1
  K := PEmpty
  osem k := k.elim
  ho := Pipeline.OwnSemFacts.none _
  hbody c := (body_obligation1 (Ve1 m) ⟨tbl1 m, hO.h1⟩ c).loose
  hwaits := Pipeline.hwaits_of_owed_zero _ _ _ _ L lv (1 : Fin 16) fun _ _ => rfl
  pre c := iprop(StableHlo.held (c : Thread nD τ) (Pipeline.ucRefs τ sig) (V3 m (outsR m hO) c) ∗ Rst c)
  post c := iprop(StableHlo.held (c : Thread nD τ) (Pipeline.ucRefs τ sig) (V4 m (outsR m hO) c) ∗ Rst c)
  X c := iprop(∃ r, prngReg c r)
  Y c := iprop((∃ r, prngReg c r) ∗ Pipeline.prefHeld (Ix := Unit) (Name := ℕ) (U := UR sig nD τ) (Lvl := ℕ) pre1 c (fun _ => fullShare) (tbl1 m))
  Z c := rest1 c (fun b => V3 m (outsR m hO) c b)
  hentry c := by
    obtain rfl : c = 0 := Subsingleton.elim _ _
    have hb := entry1 (adm m hO (1 : Fin 16)) 0 (pdats m hO (1 : Fin 16) 0) rfl rfl rfl rfl (Ve1 m 0) (fun b => V3 m (outsR m hO) 0 b) (fun w => rfl)
      (fin1_h m hO 0) (fin1_W m hO 0) (fin1_b m hO 0) (fin1_out m hO 0) (tbl1 m) (fun j => rfl) (fin1_src m hO 0) (fin1_dst m hO 0)
    rw [Pipeline.unscopedBufs_held] at hb
    iintro ⟨⟨Hub, Hp, HO⟩, -, -⟩
    ihave H := hb $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO (1 : Fin 16) c).Φ 0 = iprop(Pipeline.ΦA spec1 c ∗ Pipeline.prefHeld (Ix := Unit) (Name := ℕ) (U := UR sig nD τ) (Lvl := ℕ) pre1 c (fun _ => fullShare) (tbl1 m)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m hO (1 : Fin 16) c).Φ (Fin.last _) = iprop(Pipeline.ΦA spec1 c ∗ Pipeline.prefHeld (Ix := Unit) (Name := ℕ) (U := UR sig nD τ) (Lvl := ℕ) pre1 c (fun _ => fullShare) (tbl1 m)) from rfl]
    unfold Pipeline.ΦA
    iintro ⟨⟨Hr, Hp⟩, Ht⟩
    isplitl [Hp Ht]
    · isplitl [Hp]; · iexact Hp
      iexact Ht
    isplitr; · iempintro
    iexact Hr
  hexit c := by
    obtain rfl : c = 0 := Subsingleton.elim _ _
    have hb := exit1 (adm m hO (1 : Fin 16)) 0 (pdats m hO (1 : Fin 16) 0) (Pipeline.pin (pcfgs (F := F)) (adm m hO) (1 : Fin 16)).N rfl rfl rfl rfl
      (Ve1 m 0) (fun b => V4 m (outsR m hO) 0 b) (fun w => rfl)
      ((fin1_h m hO 0).trans (lv1_h m hO 0).symm) ((fin1_W m hO 0).trans (lv1_W m hO 0).symm) ((fin1_b m hO 0).trans (lv1_b m hO 0).symm)
      (lv1_out m hO 0).symm (tbl1 m) (fun j => rfl) ((fin1_src m hO 0).trans (lv1_src m hO 0).symm) ((fin1_dst m hO 0).trans (lv1_dst m hO 0).symm)
    rw [Pipeline.unscopedBufs_held, ← rest1_eq m hO 0] at hb
    iintro ⟨Ha, HO, ⟨Hp, Ht⟩, Hrest⟩
    imodintro
    isplitl [Ha Ht Hrest]
    · iapply hb
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Cert.KernelIdeal.Hand

end
-- ==== Proof.KIReg2.lean ====
/-
  Region 2 of the edge scorer as a segment of the program's run.

  The region is entered with every unscoped buffer held whole at the contents the host operations before it leave,
  beside the generator register and nothing owed. Of those buffers the pipeline takes the four arrays its five windows
  read and write — the feature rows (read by two windows, each at one half of the full share), the weights, the
  bias and the output chunk — and the two index tables; the other unscoped buffers bypass the region. At the exit the
  feature rows' two halves rejoin, the inputs are as they were, the output array holds the region's chunk, and
  the whole is the next boundary's contents.
-/
import proofs.«405368_j31662498906597_2_alg».proof.Proof.KIFamily
import proofs.«405368_j31662498906597_2_alg».proof.Proof.KIHostEntry
import proofs.«405368_j31662498906597_2_alg».proof.Proof.KIHostEntryGen
import Idealize.ShloMosaic.Lib.Pipeline.RegionsLoop

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The six unscoped buffers region 2 touches: the feature rows, the weights, the bias, its output chunk and its two
    index tables. -/
abbrev arrs2 : Finset (Ref sig .tc) := insert main_v1 (insert main_arg3 (insert main_v0 (insert main_v12 (insert main_v10 {main_v11}))))

theorem arrs2_sub : arrs2 ⊆ Finset.univ.filter fun b : Ref sig .tc => ¬ b.isScoped := by decide

/-- The unscoped buffers region 2 does not touch, held whole at `V`. -/
def rest2 (c : Dev nD) (V : (b : Ref sig .tc) → Buf (Elt F) ((c.tc : Thread nD τ).loc b)) : sProp 𝕄 :=
  bigSep ((Finset.univ.filter fun b : Ref sig .tc => ¬ b.isScoped) \ arrs2) fun b => ((c.tc : Thread nD τ).loc b) ↦{fullShare} V b

/-- The six touched buffers one by one, and the rest. -/
theorem ub_split2 (c : Dev nD) (V : (b : Ref sig .tc) → Buf (Elt F) ((c.tc : Thread nD τ).loc b)) :
    (unscopedBufs (Ix := Unit) (Name := ℕ) (U := UR sig nD τ) (Lvl := ℕ) c V : sProp 𝕄)
      = iprop(iprop((((c.tc : Thread nD τ).loc main_v1) ↦{fullShare} V main_v1) ∗ (((c.tc : Thread nD τ).loc main_arg3) ↦{fullShare} V main_arg3)
          ∗ (((c.tc : Thread nD τ).loc main_v0) ↦{fullShare} V main_v0) ∗ (((c.tc : Thread nD τ).loc main_v12) ↦{fullShare} V main_v12)
          ∗ (((c.tc : Thread nD τ).loc main_v10) ↦{fullShare} V main_v10) ∗ (((c.tc : Thread nD τ).loc main_v11) ↦{fullShare} V main_v11)) ∗ rest2 c V) := by
  unfold unscopedBufs rest2
  rw [BI.bigSep_sdiff_split arrs2_sub]
  refine congrArg (fun X => iprop(X ∗ _)) ?_
  show bigSep (insert main_v1 (insert main_arg3 (insert main_v0 (insert main_v12 (insert main_v10 {main_v11}))))) _ = _
  rw [BI.bigSep_insert (by decide), BI.bigSep_insert (by decide), BI.bigSep_insert (by decide), BI.bigSep_insert (by decide),
    BI.bigSep_insert (by decide), BI.bigSep_singleton]
  rfl

/-- A product over two tables, written out. -/
theorem two_tables2 (Φ : Fin 2 → sProp 𝕄) : bigSep Finset.univ Φ = iprop(Φ 0 ∗ Φ 1) := BI.bigSep_fin_two Φ

/-- The five windows' arrays and the two tables, by name. -/
theorem arrRef2_0 : Pipeline.arrRef spec2 (0 : Fin 5) = main_v1 := rfl
theorem arrRef2_1 : Pipeline.arrRef spec2 (1 : Fin 5) = main_v1 := rfl
theorem arrRef2_2 : Pipeline.arrRef spec2 (2 : Fin 5) = main_arg3 := rfl
theorem arrRef2_3 : Pipeline.arrRef spec2 (3 : Fin 5) = main_v0 := rfl
theorem arrRef2_4 : Pipeline.arrRef spec2 (4 : Fin 5) = main_v12 := rfl
theorem preRef2_0 : pre2.ref (0 : Fin 2) = main_v10 := rfl
theorem preRef2_1 : pre2.ref (1 : Fin 2) = main_v11 := rfl

set_option maxHeartbeats 1600000 in
/-- A core's unscoped buffers held whole at `V` ARE the pipeline's arrays at `V`'s contents of them (the feature rows'
    full share dealt as its two halves to the two windows that read them), the two tables at `V`'s contents of
    them, and the rest. Both directions: the region's entry and its exit. -/
theorem bufs2 (a : (pcfg2 (F := F)).Adm) (c : Dev nD) (dat : Dat τ (Elt F) Unit ℕ (UR sig nD τ) ℕ (cfg2 a) c)
    (hq0 : dat.q 0 = fullShare.left) (hq1 : dat.q 1 = fullShare.right) (hq2 : dat.q 2 = fullShare) (hq3 : dat.q 3 = fullShare)
    (V : (b : Ref sig .tc) → Buf (Elt F) ((c.tc : Thread nD τ).loc b))
    (G : (w : Fin (cfg2 a).W) → Buf (Elt F) (((cfg2 a).win w).arr.view.loc (c.tc : Thread nD τ)))
    (hG : G = fun w => V (Pipeline.arrRef spec2 w))
    (T : pre2.Contents (Elt F)) (hT : T = fun k => V (pre2.ref k)) :
    (unscopedBufs (Ix := Unit) (Name := ℕ) (U := UR sig nD τ) (Lvl := ℕ) c V : sProp 𝕄)
      ⊣⊢ iprop(dat.arrays G ∗ Pipeline.prefHeld (Ix := Unit) (Name := ℕ) (U := UR sig nD τ) (Lvl := ℕ) pre2 c (fun _ => fullShare) T ∗ rest2 c V) := by
  subst hG hT
  have harr : ∀ w, (((cfg2 a).spec w).arr).IsWhole := arr_whole2
  have hA : dat.arrays (fun w => V (Pipeline.arrRef spec2 w))
      = bigSep Finset.univ fun w : Fin 5 => (((c.tc : Thread nD τ).loc (Pipeline.arrRef spec2 w)) ↦{dat.share w} V (Pipeline.arrRef spec2 w) : sProp 𝕄) := by
    unfold Dat.arrays
    exact BI.bigSep_congr fun w _ => by rw [(harr w).set_eq_univ]
  have s0 : dat.share 0 = fullShare.left := by unfold Dat.share; rw [show ((cfg2 a).win 0).isOut = false from rfl]; exact hq0
  have s1 : dat.share 1 = fullShare.right := by unfold Dat.share; rw [show ((cfg2 a).win 1).isOut = false from rfl]; exact hq1
  have s2 : dat.share 2 = fullShare := by unfold Dat.share; rw [show ((cfg2 a).win 2).isOut = false from rfl]; exact hq2
  have s3 : dat.share 3 = fullShare := by unfold Dat.share; rw [show ((cfg2 a).win 3).isOut = false from rfl]; exact hq3
  have s4 : dat.share 4 = fullShare := by unfold Dat.share; rw [show ((cfg2 a).win 4).isOut = true from rfl]; rfl
  rw [ub_split2, hA, bigSep_W2, s0, s1, s2, s3, s4]
  unfold Pipeline.prefHeld
  rw [two_tables2]
  simp only [arrRef2_0, arrRef2_1, arrRef2_2, arrRef2_3, arrRef2_4, preRef2_0, preRef2_1]
  constructor
  · iintro ⟨⟨H1, HW, HB, HO, HS, HD⟩, Hr⟩
    ihave H1' := (pointsTo_share (PosShare.mem_left_op_right fullShare)).1 $$ H1
    icases H1' with ⟨H1a, H1b⟩
    isplitl [H1a H1b HW HB HO]
    · isplitl [H1a]; · iexact H1a
      isplitl [H1b]; · iexact H1b
      isplitl [HW]; · iexact HW
      isplitl [HB]; · iexact HB
      iexact HO
    isplitl [HS HD]
    · isplitl [HS]; · iexact HS
      iexact HD
    iexact Hr
  · iintro ⟨⟨H1a, H1b, HW, HB, HO⟩, ⟨HS, HD⟩, Hr⟩
    ihave H1 := (pointsTo_share (PosShare.mem_left_op_right fullShare)).2 $$ [H1a H1b]
    · isplitl [H1a]; · iexact H1a
      iexact H1b
    isplitr [Hr]
    · isplitl [H1]; · iexact H1
      isplitl [HW]; · iexact HW
      isplitl [HB]; · iexact HB
      isplitl [HO]; · iexact HO
      isplitl [HS]; · iexact HS
      iexact HD
    iexact Hr

set_option maxHeartbeats 1600000 in
/-- ENTRY, everything a variable: for any proof data `dat` whose arrays are `Vd`'s contents (`hA`) and any tables `T`
    that are `Vd`'s contents (`hT`), whenever the boundary contents `Vx` agree with `Vd` at the six touched buffers, the
    unscoped buffers at `Vx` are the pipeline's arrays at their entry contents, the two tables, and the rest. -/
theorem entry2 (a : (pcfg2 (F := F)).Adm) (c : Dev nD) (dat : Dat τ (Elt F) Unit ℕ (UR sig nD τ) ℕ (cfg2 a) c)
    (hq0 : dat.q 0 = fullShare.left) (hq1 : dat.q 1 = fullShare.right) (hq2 : dat.q 2 = fullShare) (hq3 : dat.q 3 = fullShare)
    (Vd Vx : (b : Ref sig .tc) → Buf (Elt F) ((c.tc : Thread nD τ).loc b))
    (hA : ∀ w, dat.A w = Vd (Pipeline.arrRef spec2 w))
    (e_h : Vd main_v1 = Vx main_v1) (e_W : Vd main_arg3 = Vx main_arg3) (e_b : Vd main_v0 = Vx main_v0) (e_out : Vd main_v12 = Vx main_v12)
    (T : pre2.Contents (Elt F)) (hT : ∀ j, T j = Vd (pre2.ref j)) (e_src : Vd main_v10 = Vx main_v10) (e_dst : Vd main_v11 = Vx main_v11) :
    (unscopedBufs (Ix := Unit) (Name := ℕ) (U := UR sig nD τ) (Lvl := ℕ) c Vx : sProp 𝕄)
      ⊢ iprop(dat.arrays (dat.arrAt · 0)
          ∗ Pipeline.prefHeld (Ix := Unit) (Name := ℕ) (U := UR sig nD τ) (Lvl := ℕ) pre2 c (fun _ => fullShare) T ∗ rest2 c Vx) :=
  (bufs2 a c dat hq0 hq1 hq2 hq3 Vx (fun w => dat.arrAt w 0)
    (funext fun w => match w with
      | ⟨0, h⟩ => by show dat.arrAt ⟨0, h⟩ 0 = Vx main_v1; exact (hA ⟨0, h⟩).trans e_h
      | ⟨1, h⟩ => by show dat.arrAt ⟨1, h⟩ 0 = Vx main_v1; exact (hA ⟨1, h⟩).trans e_h
      | ⟨2, h⟩ => by show dat.arrAt ⟨2, h⟩ 0 = Vx main_arg3; exact (hA ⟨2, h⟩).trans e_W
      | ⟨3, h⟩ => by show dat.arrAt ⟨3, h⟩ 0 = Vx main_v0; exact (hA ⟨3, h⟩).trans e_b
      | ⟨4, h⟩ => by show dat.arrAt ⟨4, h⟩ 0 = Vx main_v12; exact (hA ⟨4, h⟩).trans e_out)
    T (funext fun j => match j with
      | ⟨0, h⟩ => by show T ⟨0, h⟩ = Vx main_v10; exact (hT ⟨0, h⟩).trans e_src
      | ⟨1, h⟩ => by show T ⟨1, h⟩ = Vx main_v11; exact (hT ⟨1, h⟩).trans e_dst)).1

set_option maxHeartbeats 1600000 in
/-- EXIT, everything a variable: the inputs' arrays end as they began, the output array at what the last write-backs
    leave (`x_out`); whenever `Vx` holds those contents at the six touched buffers, the pipeline's arrays at their final
    contents, the two tables and the rest at `Vx` are the unscoped buffers at `Vx`. -/
theorem exit2 (a : (pcfg2 (F := F)).Adm) (c : Dev nD) (dat : Dat τ (Elt F) Unit ℕ (UR sig nD τ) ℕ (cfg2 a) c) (N : Nat)
    (hq0 : dat.q 0 = fullShare.left) (hq1 : dat.q 1 = fullShare.right) (hq2 : dat.q 2 = fullShare) (hq3 : dat.q 3 = fullShare)
    (Vd Vx : (b : Ref sig .tc) → Buf (Elt F) ((c.tc : Thread nD τ).loc b))
    (hA : ∀ w, dat.A w = Vd (Pipeline.arrRef spec2 w))
    (x_h : Vd main_v1 = Vx main_v1) (x_W : Vd main_arg3 = Vx main_arg3) (x_b : Vd main_v0 = Vx main_v0) (x_out : dat.arrAt 4 N = Vx main_v12)
    (T : pre2.Contents (Elt F)) (hT : ∀ j, T j = Vd (pre2.ref j)) (x_src : Vd main_v10 = Vx main_v10) (x_dst : Vd main_v11 = Vx main_v11) :
    iprop(dat.arrays (dat.arrAt · N)
        ∗ Pipeline.prefHeld (Ix := Unit) (Name := ℕ) (U := UR sig nD τ) (Lvl := ℕ) pre2 c (fun _ => fullShare) T ∗ rest2 c Vx)
      ⊢ (unscopedBufs (Ix := Unit) (Name := ℕ) (U := UR sig nD τ) (Lvl := ℕ) c Vx : sProp 𝕄) :=
  (bufs2 a c dat hq0 hq1 hq2 hq3 Vx (fun w => dat.arrAt w N)
    (funext fun w => match w with
      | ⟨0, h⟩ => by show dat.arrAt ⟨0, h⟩ N = Vx main_v1; exact (dat.arrAt_in ⟨0, h⟩ rfl N).trans ((hA ⟨0, h⟩).trans x_h)
      | ⟨1, h⟩ => by show dat.arrAt ⟨1, h⟩ N = Vx main_v1; exact (dat.arrAt_in ⟨1, h⟩ rfl N).trans ((hA ⟨1, h⟩).trans x_h)
      | ⟨2, h⟩ => by show dat.arrAt ⟨2, h⟩ N = Vx main_arg3; exact (dat.arrAt_in ⟨2, h⟩ rfl N).trans ((hA ⟨2, h⟩).trans x_W)
      | ⟨3, h⟩ => by show dat.arrAt ⟨3, h⟩ N = Vx main_v0; exact (dat.arrAt_in ⟨3, h⟩ rfl N).trans ((hA ⟨3, h⟩).trans x_b)
      | ⟨4, h⟩ => by show dat.arrAt ⟨4, h⟩ N = Vx main_v12; exact x_out)
    T (funext fun j => match j with
      | ⟨0, h⟩ => by show T ⟨0, h⟩ = Vx main_v10; exact (hT ⟨0, h⟩).trans x_src
      | ⟨1, h⟩ => by show T ⟨1, h⟩ = Vx main_v11; exact (hT ⟨1, h⟩).trans x_dst)).2

variable (m : (ℓ : Loc nD τ sig) → Buf (Elt F) ℓ) (hO : Oks m)

/-! ## What the region finds and leaves, buffer by buffer -/

include hO

theorem fin2_h (c : Dev nD) : Ve2 m c main_v1 = V5 m (outsR m hO) c main_v1 := by first | exact indep2_h m (outsL m) (outsR m hO) c | rfl
theorem fin2_W (c : Dev nD) : Ve2 m c main_arg3 = V5 m (outsR m hO) c main_arg3 := by first | exact indep2_W m (outsL m) (outsR m hO) c | rfl
theorem fin2_b (c : Dev nD) : Ve2 m c main_v0 = V5 m (outsR m hO) c main_v0 := by first | exact indep2_b m (outsL m) (outsR m hO) c | rfl
theorem fin2_out (c : Dev nD) : Ve2 m c main_v12 = V5 m (outsR m hO) c main_v12 := by first | exact indep2_out m (outsL m) (outsR m hO) c | rfl
theorem fin2_src (c : Dev nD) : Ve2 m c main_v10 = V5 m (outsR m hO) c main_v10 := by first | exact indep2_src m (outsL m) (outsR m hO) c | rfl
theorem fin2_dst (c : Dev nD) : Ve2 m c main_v11 = V5 m (outsR m hO) c main_v11 := by first | exact indep2_dst m (outsL m) (outsR m hO) c | rfl

/-- What the region leaves in the buffers it touches: the inputs and the tables as they were, the output array at the
    region's chunk. -/
theorem lv2_h (c : Dev nD) : V6 m (outsR m hO) c main_v1 = V5 m (outsR m hO) c main_v1 := V6_of m (outsR m hO) c main_v1 (by decide)
theorem lv2_W (c : Dev nD) : V6 m (outsR m hO) c main_arg3 = V5 m (outsR m hO) c main_arg3 := V6_of m (outsR m hO) c main_arg3 (by decide)
theorem lv2_b (c : Dev nD) : V6 m (outsR m hO) c main_v0 = V5 m (outsR m hO) c main_v0 := V6_of m (outsR m hO) c main_v0 (by decide)
theorem lv2_src (c : Dev nD) : V6 m (outsR m hO) c main_v10 = V5 m (outsR m hO) c main_v10 := V6_of m (outsR m hO) c main_v10 (by decide)
theorem lv2_dst (c : Dev nD) : V6 m (outsR m hO) c main_v11 = V5 m (outsR m hO) c main_v11 := V6_of m (outsR m hO) c main_v11 (by decide)
theorem lv2_out (c : Dev nD) : V6 m (outsR m hO) c main_v12 = chunk2 m hO c :=
  (Function.update_self _ _ _).trans (outsR_2 m hO c)

/-- The buffers the region does not touch pass it by unchanged. -/
theorem rest2_eq (c : Dev nD) : (rest2 c (fun b => V5 m (outsR m hO) c b) : sProp 𝕄) = rest2 c (fun b => V6 m (outsR m hO) c b) := by
  unfold rest2
  exact BI.bigSep_congr fun b hb => by
    dsimp only
    rw [V6_of m (outsR m hO) c b (fun h => (Finset.mem_sdiff.mp hb).2 (by rw [List.mem_singleton.mp h]; decide))]

set_option maxHeartbeats 1600000 in
set_option backward.isDefEq.respectTransparency.types false in
/-- REGION 0 over the boundary states. -/
def reg2 : Pipeline.RegionSeg (pcfgs (F := F)) (adm m hO) (pdats m hO) () defs₀ 𝒱₀ L lv (2 : Fin 16) where
  win := winFacts₀2
  block_pos := block_pos2
  stage_whole := stage_whole2
  K := PEmpty
  osem k := k.elim
  ho := Pipeline.OwnSemFacts.none _
  hbody c := (body_obligation2 (Ve2 m) ⟨tbl2 m, hO.h2⟩ c).loose
  hwaits := Pipeline.hwaits_of_owed_zero _ _ _ _ L lv (2 : Fin 16) fun _ _ => rfl
  pre c := iprop(StableHlo.held (c : Thread nD τ) (Pipeline.ucRefs τ sig) (V5 m (outsR m hO) c) ∗ Rst c)
  post c := iprop(StableHlo.held (c : Thread nD τ) (Pipeline.ucRefs τ sig) (V6 m (outsR m hO) c) ∗ Rst c)
  X c := iprop(∃ r, prngReg c r)
  Y c := iprop((∃ r, prngReg c r) ∗ Pipeline.prefHeld (Ix := Unit) (Name := ℕ) (U := UR sig nD τ) (Lvl := ℕ) pre2 c (fun _ => fullShare) (tbl2 m))
  Z c := rest2 c (fun b => V5 m (outsR m hO) c b)
  hentry c := by
    obtain rfl : c = 0 := Subsingleton.elim _ _
    have hb := entry2 (adm m hO (2 : Fin 16)) 0 (pdats m hO (2 : Fin 16) 0) rfl rfl rfl rfl (Ve2 m 0) (fun b => V5 m (outsR m hO) 0 b) (fun w => rfl)
      (fin2_h m hO 0) (fin2_W m hO 0) (fin2_b m hO 0) (fin2_out m hO 0) (tbl2 m) (fun j => rfl) (fin2_src m hO 0) (fin2_dst m hO 0)
    rw [Pipeline.unscopedBufs_held] at hb
    iintro ⟨⟨Hub, Hp, HO⟩, -, -⟩
    ihave H := hb $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO (2 : Fin 16) c).Φ 0 = iprop(Pipeline.ΦA spec2 c ∗ Pipeline.prefHeld (Ix := Unit) (Name := ℕ) (U := UR sig nD τ) (Lvl := ℕ) pre2 c (fun _ => fullShare) (tbl2 m)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m hO (2 : Fin 16) c).Φ (Fin.last _) = iprop(Pipeline.ΦA spec2 c ∗ Pipeline.prefHeld (Ix := Unit) (Name := ℕ) (U := UR sig nD τ) (Lvl := ℕ) pre2 c (fun _ => fullShare) (tbl2 m)) from rfl]
    unfold Pipeline.ΦA
    iintro ⟨⟨Hr, Hp⟩, Ht⟩
    isplitl [Hp Ht]
    · isplitl [Hp]; · iexact Hp
      iexact Ht
    isplitr; · iempintro
    iexact Hr
  hexit c := by
    obtain rfl : c = 0 := Subsingleton.elim _ _
    have hb := exit2 (adm m hO (2 : Fin 16)) 0 (pdats m hO (2 : Fin 16) 0) (Pipeline.pin (pcfgs (F := F)) (adm m hO) (2 : Fin 16)).N rfl rfl rfl rfl
      (Ve2 m 0) (fun b => V6 m (outsR m hO) 0 b) (fun w => rfl)
      ((fin2_h m hO 0).trans (lv2_h m hO 0).symm) ((fin2_W m hO 0).trans (lv2_W m hO 0).symm) ((fin2_b m hO 0).trans (lv2_b m hO 0).symm)
      (lv2_out m hO 0).symm (tbl2 m) (fun j => rfl) ((fin2_src m hO 0).trans (lv2_src m hO 0).symm) ((fin2_dst m hO 0).trans (lv2_dst m hO 0).symm)
    rw [Pipeline.unscopedBufs_held, ← rest2_eq m hO 0] at hb
    iintro ⟨Ha, HO, ⟨Hp, Ht⟩, Hrest⟩
    imodintro
    isplitl [Ha Ht Hrest]
    · iapply hb
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Cert.KernelIdeal.Hand

end
-- ==== Proof.KIReg3.lean ====
/-
  Region 3 of the edge scorer as a segment of the program's run.

  The region is entered with every unscoped buffer held whole at the contents the host operations before it leave,
  beside the generator register and nothing owed. Of those buffers the pipeline takes the four arrays its five windows
  read and write — the feature rows (read by two windows, each at one half of the full share), the weights, the
  bias and the output chunk — and the two index tables; the other unscoped buffers bypass the region. At the exit the
  feature rows' two halves rejoin, the inputs are as they were, the output array holds the region's chunk, and
  the whole is the next boundary's contents.
-/
import proofs.«405368_j31662498906597_2_alg».proof.Proof.KIFamily
import proofs.«405368_j31662498906597_2_alg».proof.Proof.KIHostEntry
import proofs.«405368_j31662498906597_2_alg».proof.Proof.KIHostEntryGen
import Idealize.ShloMosaic.Lib.Pipeline.RegionsLoop

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The six unscoped buffers region 3 touches: the feature rows, the weights, the bias, its output chunk and its two
    index tables. -/
abbrev arrs3 : Finset (Ref sig .tc) := insert main_v1 (insert main_arg3 (insert main_v0 (insert main_v16 (insert main_v14 {main_v15}))))

theorem arrs3_sub : arrs3 ⊆ Finset.univ.filter fun b : Ref sig .tc => ¬ b.isScoped := by decide

/-- The unscoped buffers region 3 does not touch, held whole at `V`. -/
def rest3 (c : Dev nD) (V : (b : Ref sig .tc) → Buf (Elt F) ((c.tc : Thread nD τ).loc b)) : sProp 𝕄 :=
  bigSep ((Finset.univ.filter fun b : Ref sig .tc => ¬ b.isScoped) \ arrs3) fun b => ((c.tc : Thread nD τ).loc b) ↦{fullShare} V b

/-- The six touched buffers one by one, and the rest. -/
theorem ub_split3 (c : Dev nD) (V : (b : Ref sig .tc) → Buf (Elt F) ((c.tc : Thread nD τ).loc b)) :
    (unscopedBufs (Ix := Unit) (Name := ℕ) (U := UR sig nD τ) (Lvl := ℕ) c V : sProp 𝕄)
      = iprop(iprop((((c.tc : Thread nD τ).loc main_v1) ↦{fullShare} V main_v1) ∗ (((c.tc : Thread nD τ).loc main_arg3) ↦{fullShare} V main_arg3)
          ∗ (((c.tc : Thread nD τ).loc main_v0) ↦{fullShare} V main_v0) ∗ (((c.tc : Thread nD τ).loc main_v16) ↦{fullShare} V main_v16)
          ∗ (((c.tc : Thread nD τ).loc main_v14) ↦{fullShare} V main_v14) ∗ (((c.tc : Thread nD τ).loc main_v15) ↦{fullShare} V main_v15)) ∗ rest3 c V) := by
  unfold unscopedBufs rest3
  rw [BI.bigSep_sdiff_split arrs3_sub]
  refine congrArg (fun X => iprop(X ∗ _)) ?_
  show bigSep (insert main_v1 (insert main_arg3 (insert main_v0 (insert main_v16 (insert main_v14 {main_v15}))))) _ = _
  rw [BI.bigSep_insert (by decide), BI.bigSep_insert (by decide), BI.bigSep_insert (by decide), BI.bigSep_insert (by decide),
    BI.bigSep_insert (by decide), BI.bigSep_singleton]
  rfl

/-- A product over two tables, written out. -/
theorem two_tables3 (Φ : Fin 2 → sProp 𝕄) : bigSep Finset.univ Φ = iprop(Φ 0 ∗ Φ 1) := BI.bigSep_fin_two Φ

/-- The five windows' arrays and the two tables, by name. -/
theorem arrRef3_0 : Pipeline.arrRef spec3 (0 : Fin 5) = main_v1 := rfl
theorem arrRef3_1 : Pipeline.arrRef spec3 (1 : Fin 5) = main_v1 := rfl
theorem arrRef3_2 : Pipeline.arrRef spec3 (2 : Fin 5) = main_arg3 := rfl
theorem arrRef3_3 : Pipeline.arrRef spec3 (3 : Fin 5) = main_v0 := rfl
theorem arrRef3_4 : Pipeline.arrRef spec3 (4 : Fin 5) = main_v16 := rfl
theorem preRef3_0 : pre3.ref (0 : Fin 2) = main_v14 := rfl
theorem preRef3_1 : pre3.ref (1 : Fin 2) = main_v15 := rfl

set_option maxHeartbeats 1600000 in
/-- A core's unscoped buffers held whole at `V` ARE the pipeline's arrays at `V`'s contents of them (the feature rows'
    full share dealt as its two halves to the two windows that read them), the two tables at `V`'s contents of
    them, and the rest. Both directions: the region's entry and its exit. -/
theorem bufs3 (a : (pcfg3 (F := F)).Adm) (c : Dev nD) (dat : Dat τ (Elt F) Unit ℕ (UR sig nD τ) ℕ (cfg3 a) c)
    (hq0 : dat.q 0 = fullShare.left) (hq1 : dat.q 1 = fullShare.right) (hq2 : dat.q 2 = fullShare) (hq3 : dat.q 3 = fullShare)
    (V : (b : Ref sig .tc) → Buf (Elt F) ((c.tc : Thread nD τ).loc b))
    (G : (w : Fin (cfg3 a).W) → Buf (Elt F) (((cfg3 a).win w).arr.view.loc (c.tc : Thread nD τ)))
    (hG : G = fun w => V (Pipeline.arrRef spec3 w))
    (T : pre3.Contents (Elt F)) (hT : T = fun k => V (pre3.ref k)) :
    (unscopedBufs (Ix := Unit) (Name := ℕ) (U := UR sig nD τ) (Lvl := ℕ) c V : sProp 𝕄)
      ⊣⊢ iprop(dat.arrays G ∗ Pipeline.prefHeld (Ix := Unit) (Name := ℕ) (U := UR sig nD τ) (Lvl := ℕ) pre3 c (fun _ => fullShare) T ∗ rest3 c V) := by
  subst hG hT
  have harr : ∀ w, (((cfg3 a).spec w).arr).IsWhole := arr_whole3
  have hA : dat.arrays (fun w => V (Pipeline.arrRef spec3 w))
      = bigSep Finset.univ fun w : Fin 5 => (((c.tc : Thread nD τ).loc (Pipeline.arrRef spec3 w)) ↦{dat.share w} V (Pipeline.arrRef spec3 w) : sProp 𝕄) := by
    unfold Dat.arrays
    exact BI.bigSep_congr fun w _ => by rw [(harr w).set_eq_univ]
  have s0 : dat.share 0 = fullShare.left := by unfold Dat.share; rw [show ((cfg3 a).win 0).isOut = false from rfl]; exact hq0
  have s1 : dat.share 1 = fullShare.right := by unfold Dat.share; rw [show ((cfg3 a).win 1).isOut = false from rfl]; exact hq1
  have s2 : dat.share 2 = fullShare := by unfold Dat.share; rw [show ((cfg3 a).win 2).isOut = false from rfl]; exact hq2
  have s3 : dat.share 3 = fullShare := by unfold Dat.share; rw [show ((cfg3 a).win 3).isOut = false from rfl]; exact hq3
  have s4 : dat.share 4 = fullShare := by unfold Dat.share; rw [show ((cfg3 a).win 4).isOut = true from rfl]; rfl
  rw [ub_split3, hA, bigSep_W3, s0, s1, s2, s3, s4]
  unfold Pipeline.prefHeld
  rw [two_tables3]
  simp only [arrRef3_0, arrRef3_1, arrRef3_2, arrRef3_3, arrRef3_4, preRef3_0, preRef3_1]
  constructor
  · iintro ⟨⟨H1, HW, HB, HO, HS, HD⟩, Hr⟩
    ihave H1' := (pointsTo_share (PosShare.mem_left_op_right fullShare)).1 $$ H1
    icases H1' with ⟨H1a, H1b⟩
    isplitl [H1a H1b HW HB HO]
    · isplitl [H1a]; · iexact H1a
      isplitl [H1b]; · iexact H1b
      isplitl [HW]; · iexact HW
      isplitl [HB]; · iexact HB
      iexact HO
    isplitl [HS HD]
    · isplitl [HS]; · iexact HS
      iexact HD
    iexact Hr
  · iintro ⟨⟨H1a, H1b, HW, HB, HO⟩, ⟨HS, HD⟩, Hr⟩
    ihave H1 := (pointsTo_share (PosShare.mem_left_op_right fullShare)).2 $$ [H1a H1b]
    · isplitl [H1a]; · iexact H1a
      iexact H1b
    isplitr [Hr]
    · isplitl [H1]; · iexact H1
      isplitl [HW]; · iexact HW
      isplitl [HB]; · iexact HB
      isplitl [HO]; · iexact HO
      isplitl [HS]; · iexact HS
      iexact HD
    iexact Hr

set_option maxHeartbeats 1600000 in
/-- ENTRY, everything a variable: for any proof data `dat` whose arrays are `Vd`'s contents (`hA`) and any tables `T`
    that are `Vd`'s contents (`hT`), whenever the boundary contents `Vx` agree with `Vd` at the six touched buffers, the
    unscoped buffers at `Vx` are the pipeline's arrays at their entry contents, the two tables, and the rest. -/
theorem entry3 (a : (pcfg3 (F := F)).Adm) (c : Dev nD) (dat : Dat τ (Elt F) Unit ℕ (UR sig nD τ) ℕ (cfg3 a) c)
    (hq0 : dat.q 0 = fullShare.left) (hq1 : dat.q 1 = fullShare.right) (hq2 : dat.q 2 = fullShare) (hq3 : dat.q 3 = fullShare)
    (Vd Vx : (b : Ref sig .tc) → Buf (Elt F) ((c.tc : Thread nD τ).loc b))
    (hA : ∀ w, dat.A w = Vd (Pipeline.arrRef spec3 w))
    (e_h : Vd main_v1 = Vx main_v1) (e_W : Vd main_arg3 = Vx main_arg3) (e_b : Vd main_v0 = Vx main_v0) (e_out : Vd main_v16 = Vx main_v16)
    (T : pre3.Contents (Elt F)) (hT : ∀ j, T j = Vd (pre3.ref j)) (e_src : Vd main_v14 = Vx main_v14) (e_dst : Vd main_v15 = Vx main_v15) :
    (unscopedBufs (Ix := Unit) (Name := ℕ) (U := UR sig nD τ) (Lvl := ℕ) c Vx : sProp 𝕄)
      ⊢ iprop(dat.arrays (dat.arrAt · 0)
          ∗ Pipeline.prefHeld (Ix := Unit) (Name := ℕ) (U := UR sig nD τ) (Lvl := ℕ) pre3 c (fun _ => fullShare) T ∗ rest3 c Vx) :=
  (bufs3 a c dat hq0 hq1 hq2 hq3 Vx (fun w => dat.arrAt w 0)
    (funext fun w => match w with
      | ⟨0, h⟩ => by show dat.arrAt ⟨0, h⟩ 0 = Vx main_v1; exact (hA ⟨0, h⟩).trans e_h
      | ⟨1, h⟩ => by show dat.arrAt ⟨1, h⟩ 0 = Vx main_v1; exact (hA ⟨1, h⟩).trans e_h
      | ⟨2, h⟩ => by show dat.arrAt ⟨2, h⟩ 0 = Vx main_arg3; exact (hA ⟨2, h⟩).trans e_W
      | ⟨3, h⟩ => by show dat.arrAt ⟨3, h⟩ 0 = Vx main_v0; exact (hA ⟨3, h⟩).trans e_b
      | ⟨4, h⟩ => by show dat.arrAt ⟨4, h⟩ 0 = Vx main_v16; exact (hA ⟨4, h⟩).trans e_out)
    T (funext fun j => match j with
      | ⟨0, h⟩ => by show T ⟨0, h⟩ = Vx main_v14; exact (hT ⟨0, h⟩).trans e_src
      | ⟨1, h⟩ => by show T ⟨1, h⟩ = Vx main_v15; exact (hT ⟨1, h⟩).trans e_dst)).1

set_option maxHeartbeats 1600000 in
/-- EXIT, everything a variable: the inputs' arrays end as they began, the output array at what the last write-backs
    leave (`x_out`); whenever `Vx` holds those contents at the six touched buffers, the pipeline's arrays at their final
    contents, the two tables and the rest at `Vx` are the unscoped buffers at `Vx`. -/
theorem exit3 (a : (pcfg3 (F := F)).Adm) (c : Dev nD) (dat : Dat τ (Elt F) Unit ℕ (UR sig nD τ) ℕ (cfg3 a) c) (N : Nat)
    (hq0 : dat.q 0 = fullShare.left) (hq1 : dat.q 1 = fullShare.right) (hq2 : dat.q 2 = fullShare) (hq3 : dat.q 3 = fullShare)
    (Vd Vx : (b : Ref sig .tc) → Buf (Elt F) ((c.tc : Thread nD τ).loc b))
    (hA : ∀ w, dat.A w = Vd (Pipeline.arrRef spec3 w))
    (x_h : Vd main_v1 = Vx main_v1) (x_W : Vd main_arg3 = Vx main_arg3) (x_b : Vd main_v0 = Vx main_v0) (x_out : dat.arrAt 4 N = Vx main_v16)
    (T : pre3.Contents (Elt F)) (hT : ∀ j, T j = Vd (pre3.ref j)) (x_src : Vd main_v14 = Vx main_v14) (x_dst : Vd main_v15 = Vx main_v15) :
    iprop(dat.arrays (dat.arrAt · N)
        ∗ Pipeline.prefHeld (Ix := Unit) (Name := ℕ) (U := UR sig nD τ) (Lvl := ℕ) pre3 c (fun _ => fullShare) T ∗ rest3 c Vx)
      ⊢ (unscopedBufs (Ix := Unit) (Name := ℕ) (U := UR sig nD τ) (Lvl := ℕ) c Vx : sProp 𝕄) :=
  (bufs3 a c dat hq0 hq1 hq2 hq3 Vx (fun w => dat.arrAt w N)
    (funext fun w => match w with
      | ⟨0, h⟩ => by show dat.arrAt ⟨0, h⟩ N = Vx main_v1; exact (dat.arrAt_in ⟨0, h⟩ rfl N).trans ((hA ⟨0, h⟩).trans x_h)
      | ⟨1, h⟩ => by show dat.arrAt ⟨1, h⟩ N = Vx main_v1; exact (dat.arrAt_in ⟨1, h⟩ rfl N).trans ((hA ⟨1, h⟩).trans x_h)
      | ⟨2, h⟩ => by show dat.arrAt ⟨2, h⟩ N = Vx main_arg3; exact (dat.arrAt_in ⟨2, h⟩ rfl N).trans ((hA ⟨2, h⟩).trans x_W)
      | ⟨3, h⟩ => by show dat.arrAt ⟨3, h⟩ N = Vx main_v0; exact (dat.arrAt_in ⟨3, h⟩ rfl N).trans ((hA ⟨3, h⟩).trans x_b)
      | ⟨4, h⟩ => by show dat.arrAt ⟨4, h⟩ N = Vx main_v16; exact x_out)
    T (funext fun j => match j with
      | ⟨0, h⟩ => by show T ⟨0, h⟩ = Vx main_v14; exact (hT ⟨0, h⟩).trans x_src
      | ⟨1, h⟩ => by show T ⟨1, h⟩ = Vx main_v15; exact (hT ⟨1, h⟩).trans x_dst)).2

variable (m : (ℓ : Loc nD τ sig) → Buf (Elt F) ℓ) (hO : Oks m)

/-! ## What the region finds and leaves, buffer by buffer -/

include hO

theorem fin3_h (c : Dev nD) : Ve3 m c main_v1 = V7 m (outsR m hO) c main_v1 := by first | exact indep3_h m (outsL m) (outsR m hO) c | rfl
theorem fin3_W (c : Dev nD) : Ve3 m c main_arg3 = V7 m (outsR m hO) c main_arg3 := by first | exact indep3_W m (outsL m) (outsR m hO) c | rfl
theorem fin3_b (c : Dev nD) : Ve3 m c main_v0 = V7 m (outsR m hO) c main_v0 := by first | exact indep3_b m (outsL m) (outsR m hO) c | rfl
theorem fin3_out (c : Dev nD) : Ve3 m c main_v16 = V7 m (outsR m hO) c main_v16 := by first | exact indep3_out m (outsL m) (outsR m hO) c | rfl
theorem fin3_src (c : Dev nD) : Ve3 m c main_v14 = V7 m (outsR m hO) c main_v14 := by first | exact indep3_src m (outsL m) (outsR m hO) c | rfl
theorem fin3_dst (c : Dev nD) : Ve3 m c main_v15 = V7 m (outsR m hO) c main_v15 := by first | exact indep3_dst m (outsL m) (outsR m hO) c | rfl

/-- What the region leaves in the buffers it touches: the inputs and the tables as they were, the output array at the
    region's chunk. -/
theorem lv3_h (c : Dev nD) : V8 m (outsR m hO) c main_v1 = V7 m (outsR m hO) c main_v1 := V8_of m (outsR m hO) c main_v1 (by decide)
theorem lv3_W (c : Dev nD) : V8 m (outsR m hO) c main_arg3 = V7 m (outsR m hO) c main_arg3 := V8_of m (outsR m hO) c main_arg3 (by decide)
theorem lv3_b (c : Dev nD) : V8 m (outsR m hO) c main_v0 = V7 m (outsR m hO) c main_v0 := V8_of m (outsR m hO) c main_v0 (by decide)
theorem lv3_src (c : Dev nD) : V8 m (outsR m hO) c main_v14 = V7 m (outsR m hO) c main_v14 := V8_of m (outsR m hO) c main_v14 (by decide)
theorem lv3_dst (c : Dev nD) : V8 m (outsR m hO) c main_v15 = V7 m (outsR m hO) c main_v15 := V8_of m (outsR m hO) c main_v15 (by decide)
theorem lv3_out (c : Dev nD) : V8 m (outsR m hO) c main_v16 = chunk3 m hO c :=
  (Function.update_self _ _ _).trans (outsR_3 m hO c)

/-- The buffers the region does not touch pass it by unchanged. -/
theorem rest3_eq (c : Dev nD) : (rest3 c (fun b => V7 m (outsR m hO) c b) : sProp 𝕄) = rest3 c (fun b => V8 m (outsR m hO) c b) := by
  unfold rest3
  exact BI.bigSep_congr fun b hb => by
    dsimp only
    rw [V8_of m (outsR m hO) c b (fun h => (Finset.mem_sdiff.mp hb).2 (by rw [List.mem_singleton.mp h]; decide))]

set_option maxHeartbeats 1600000 in
set_option backward.isDefEq.respectTransparency.types false in
/-- REGION 0 over the boundary states. -/
def reg3 : Pipeline.RegionSeg (pcfgs (F := F)) (adm m hO) (pdats m hO) () defs₀ 𝒱₀ L lv (3 : Fin 16) where
  win := winFacts₀3
  block_pos := block_pos3
  stage_whole := stage_whole3
  K := PEmpty
  osem k := k.elim
  ho := Pipeline.OwnSemFacts.none _
  hbody c := (body_obligation3 (Ve3 m) ⟨tbl3 m, hO.h3⟩ c).loose
  hwaits := Pipeline.hwaits_of_owed_zero _ _ _ _ L lv (3 : Fin 16) fun _ _ => rfl
  pre c := iprop(StableHlo.held (c : Thread nD τ) (Pipeline.ucRefs τ sig) (V7 m (outsR m hO) c) ∗ Rst c)
  post c := iprop(StableHlo.held (c : Thread nD τ) (Pipeline.ucRefs τ sig) (V8 m (outsR m hO) c) ∗ Rst c)
  X c := iprop(∃ r, prngReg c r)
  Y c := iprop((∃ r, prngReg c r) ∗ Pipeline.prefHeld (Ix := Unit) (Name := ℕ) (U := UR sig nD τ) (Lvl := ℕ) pre3 c (fun _ => fullShare) (tbl3 m))
  Z c := rest3 c (fun b => V7 m (outsR m hO) c b)
  hentry c := by
    obtain rfl : c = 0 := Subsingleton.elim _ _
    have hb := entry3 (adm m hO (3 : Fin 16)) 0 (pdats m hO (3 : Fin 16) 0) rfl rfl rfl rfl (Ve3 m 0) (fun b => V7 m (outsR m hO) 0 b) (fun w => rfl)
      (fin3_h m hO 0) (fin3_W m hO 0) (fin3_b m hO 0) (fin3_out m hO 0) (tbl3 m) (fun j => rfl) (fin3_src m hO 0) (fin3_dst m hO 0)
    rw [Pipeline.unscopedBufs_held] at hb
    iintro ⟨⟨Hub, Hp, HO⟩, -, -⟩
    ihave H := hb $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO (3 : Fin 16) c).Φ 0 = iprop(Pipeline.ΦA spec3 c ∗ Pipeline.prefHeld (Ix := Unit) (Name := ℕ) (U := UR sig nD τ) (Lvl := ℕ) pre3 c (fun _ => fullShare) (tbl3 m)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m hO (3 : Fin 16) c).Φ (Fin.last _) = iprop(Pipeline.ΦA spec3 c ∗ Pipeline.prefHeld (Ix := Unit) (Name := ℕ) (U := UR sig nD τ) (Lvl := ℕ) pre3 c (fun _ => fullShare) (tbl3 m)) from rfl]
    unfold Pipeline.ΦA
    iintro ⟨⟨Hr, Hp⟩, Ht⟩
    isplitl [Hp Ht]
    · isplitl [Hp]; · iexact Hp
      iexact Ht
    isplitr; · iempintro
    iexact Hr
  hexit c := by
    obtain rfl : c = 0 := Subsingleton.elim _ _
    have hb := exit3 (adm m hO (3 : Fin 16)) 0 (pdats m hO (3 : Fin 16) 0) (Pipeline.pin (pcfgs (F := F)) (adm m hO) (3 : Fin 16)).N rfl rfl rfl rfl
      (Ve3 m 0) (fun b => V8 m (outsR m hO) 0 b) (fun w => rfl)
      ((fin3_h m hO 0).trans (lv3_h m hO 0).symm) ((fin3_W m hO 0).trans (lv3_W m hO 0).symm) ((fin3_b m hO 0).trans (lv3_b m hO 0).symm)
      (lv3_out m hO 0).symm (tbl3 m) (fun j => rfl) ((fin3_src m hO 0).trans (lv3_src m hO 0).symm) ((fin3_dst m hO 0).trans (lv3_dst m hO 0).symm)
    rw [Pipeline.unscopedBufs_held, ← rest3_eq m hO 0] at hb
    iintro ⟨Ha, HO, ⟨Hp, Ht⟩, Hrest⟩
    imodintro
    isplitl [Ha Ht Hrest]
    · iapply hb
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Cert.KernelIdeal.Hand

end
-- ==== Proof.KIReg4.lean ====
/-
  Region 4 of the edge scorer as a segment of the program's run.

  The region is entered with every unscoped buffer held whole at the contents the host operations before it leave,
  beside the generator register and nothing owed. Of those buffers the pipeline takes the four arrays its five windows
  read and write — the feature rows (read by two windows, each at one half of the full share), the weights, the
  bias and the output chunk — and the two index tables; the other unscoped buffers bypass the region. At the exit the
  feature rows' two halves rejoin, the inputs are as they were, the output array holds the region's chunk, and
  the whole is the next boundary's contents.
-/
import proofs.«405368_j31662498906597_2_alg».proof.Proof.KIFamily
import proofs.«405368_j31662498906597_2_alg».proof.Proof.KIHostEntry
import proofs.«405368_j31662498906597_2_alg».proof.Proof.KIHostEntryGen
import Idealize.ShloMosaic.Lib.Pipeline.RegionsLoop

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The six unscoped buffers region 4 touches: the feature rows, the weights, the bias, its output chunk and its two
    index tables. -/
abbrev arrs4 : Finset (Ref sig .tc) := insert main_v1 (insert main_arg3 (insert main_v0 (insert main_v20 (insert main_v18 {main_v19}))))

theorem arrs4_sub : arrs4 ⊆ Finset.univ.filter fun b : Ref sig .tc => ¬ b.isScoped := by decide

/-- The unscoped buffers region 4 does not touch, held whole at `V`. -/
def rest4 (c : Dev nD) (V : (b : Ref sig .tc) → Buf (Elt F) ((c.tc : Thread nD τ).loc b)) : sProp 𝕄 :=
  bigSep ((Finset.univ.filter fun b : Ref sig .tc => ¬ b.isScoped) \ arrs4) fun b => ((c.tc : Thread nD τ).loc b) ↦{fullShare} V b

/-- The six touched buffers one by one, and the rest. -/
theorem ub_split4 (c : Dev nD) (V : (b : Ref sig .tc) → Buf (Elt F) ((c.tc : Thread nD τ).loc b)) :
    (unscopedBufs (Ix := Unit) (Name := ℕ) (U := UR sig nD τ) (Lvl := ℕ) c V : sProp 𝕄)
      = iprop(iprop((((c.tc : Thread nD τ).loc main_v1) ↦{fullShare} V main_v1) ∗ (((c.tc : Thread nD τ).loc main_arg3) ↦{fullShare} V main_arg3)
          ∗ (((c.tc : Thread nD τ).loc main_v0) ↦{fullShare} V main_v0) ∗ (((c.tc : Thread nD τ).loc main_v20) ↦{fullShare} V main_v20)
          ∗ (((c.tc : Thread nD τ).loc main_v18) ↦{fullShare} V main_v18) ∗ (((c.tc : Thread nD τ).loc main_v19) ↦{fullShare} V main_v19)) ∗ rest4 c V) := by
  unfold unscopedBufs rest4
  rw [BI.bigSep_sdiff_split arrs4_sub]
  refine congrArg (fun X => iprop(X ∗ _)) ?_
  show bigSep (insert main_v1 (insert main_arg3 (insert main_v0 (insert main_v20 (insert main_v18 {main_v19}))))) _ = _
  rw [BI.bigSep_insert (by decide), BI.bigSep_insert (by decide), BI.bigSep_insert (by decide), BI.bigSep_insert (by decide),
    BI.bigSep_insert (by decide), BI.bigSep_singleton]
  rfl

/-- A product over two tables, written out. -/
theorem two_tables4 (Φ : Fin 2 → sProp 𝕄) : bigSep Finset.univ Φ = iprop(Φ 0 ∗ Φ 1) := BI.bigSep_fin_two Φ

/-- The five windows' arrays and the two tables, by name. -/
theorem arrRef4_0 : Pipeline.arrRef spec4 (0 : Fin 5) = main_v1 := rfl
theorem arrRef4_1 : Pipeline.arrRef spec4 (1 : Fin 5) = main_v1 := rfl
theorem arrRef4_2 : Pipeline.arrRef spec4 (2 : Fin 5) = main_arg3 := rfl
theorem arrRef4_3 : Pipeline.arrRef spec4 (3 : Fin 5) = main_v0 := rfl
theorem arrRef4_4 : Pipeline.arrRef spec4 (4 : Fin 5) = main_v20 := rfl
theorem preRef4_0 : pre4.ref (0 : Fin 2) = main_v18 := rfl
theorem preRef4_1 : pre4.ref (1 : Fin 2) = main_v19 := rfl

set_option maxHeartbeats 1600000 in
/-- A core's unscoped buffers held whole at `V` ARE the pipeline's arrays at `V`'s contents of them (the feature rows'
    full share dealt as its two halves to the two windows that read them), the two tables at `V`'s contents of
    them, and the rest. Both directions: the region's entry and its exit. -/
theorem bufs4 (a : (pcfg4 (F := F)).Adm) (c : Dev nD) (dat : Dat τ (Elt F) Unit ℕ (UR sig nD τ) ℕ (cfg4 a) c)
    (hq0 : dat.q 0 = fullShare.left) (hq1 : dat.q 1 = fullShare.right) (hq2 : dat.q 2 = fullShare) (hq3 : dat.q 3 = fullShare)
    (V : (b : Ref sig .tc) → Buf (Elt F) ((c.tc : Thread nD τ).loc b))
    (G : (w : Fin (cfg4 a).W) → Buf (Elt F) (((cfg4 a).win w).arr.view.loc (c.tc : Thread nD τ)))
    (hG : G = fun w => V (Pipeline.arrRef spec4 w))
    (T : pre4.Contents (Elt F)) (hT : T = fun k => V (pre4.ref k)) :
    (unscopedBufs (Ix := Unit) (Name := ℕ) (U := UR sig nD τ) (Lvl := ℕ) c V : sProp 𝕄)
      ⊣⊢ iprop(dat.arrays G ∗ Pipeline.prefHeld (Ix := Unit) (Name := ℕ) (U := UR sig nD τ) (Lvl := ℕ) pre4 c (fun _ => fullShare) T ∗ rest4 c V) := by
  subst hG hT
  have harr : ∀ w, (((cfg4 a).spec w).arr).IsWhole := arr_whole4
  have hA : dat.arrays (fun w => V (Pipeline.arrRef spec4 w))
      = bigSep Finset.univ fun w : Fin 5 => (((c.tc : Thread nD τ).loc (Pipeline.arrRef spec4 w)) ↦{dat.share w} V (Pipeline.arrRef spec4 w) : sProp 𝕄) := by
    unfold Dat.arrays
    exact BI.bigSep_congr fun w _ => by rw [(harr w).set_eq_univ]
  have s0 : dat.share 0 = fullShare.left := by unfold Dat.share; rw [show ((cfg4 a).win 0).isOut = false from rfl]; exact hq0
  have s1 : dat.share 1 = fullShare.right := by unfold Dat.share; rw [show ((cfg4 a).win 1).isOut = false from rfl]; exact hq1
  have s2 : dat.share 2 = fullShare := by unfold Dat.share; rw [show ((cfg4 a).win 2).isOut = false from rfl]; exact hq2
  have s3 : dat.share 3 = fullShare := by unfold Dat.share; rw [show ((cfg4 a).win 3).isOut = false from rfl]; exact hq3
  have s4 : dat.share 4 = fullShare := by unfold Dat.share; rw [show ((cfg4 a).win 4).isOut = true from rfl]; rfl
  rw [ub_split4, hA, bigSep_W4, s0, s1, s2, s3, s4]
  unfold Pipeline.prefHeld
  rw [two_tables4]
  simp only [arrRef4_0, arrRef4_1, arrRef4_2, arrRef4_3, arrRef4_4, preRef4_0, preRef4_1]
  constructor
  · iintro ⟨⟨H1, HW, HB, HO, HS, HD⟩, Hr⟩
    ihave H1' := (pointsTo_share (PosShare.mem_left_op_right fullShare)).1 $$ H1
    icases H1' with ⟨H1a, H1b⟩
    isplitl [H1a H1b HW HB HO]
    · isplitl [H1a]; · iexact H1a
      isplitl [H1b]; · iexact H1b
      isplitl [HW]; · iexact HW
      isplitl [HB]; · iexact HB
      iexact HO
    isplitl [HS HD]
    · isplitl [HS]; · iexact HS
      iexact HD
    iexact Hr
  · iintro ⟨⟨H1a, H1b, HW, HB, HO⟩, ⟨HS, HD⟩, Hr⟩
    ihave H1 := (pointsTo_share (PosShare.mem_left_op_right fullShare)).2 $$ [H1a H1b]
    · isplitl [H1a]; · iexact H1a
      iexact H1b
    isplitr [Hr]
    · isplitl [H1]; · iexact H1
      isplitl [HW]; · iexact HW
      isplitl [HB]; · iexact HB
      isplitl [HO]; · iexact HO
      isplitl [HS]; · iexact HS
      iexact HD
    iexact Hr

set_option maxHeartbeats 1600000 in
/-- ENTRY, everything a variable: for any proof data `dat` whose arrays are `Vd`'s contents (`hA`) and any tables `T`
    that are `Vd`'s contents (`hT`), whenever the boundary contents `Vx` agree with `Vd` at the six touched buffers, the
    unscoped buffers at `Vx` are the pipeline's arrays at their entry contents, the two tables, and the rest. -/
theorem entry4 (a : (pcfg4 (F := F)).Adm) (c : Dev nD) (dat : Dat τ (Elt F) Unit ℕ (UR sig nD τ) ℕ (cfg4 a) c)
    (hq0 : dat.q 0 = fullShare.left) (hq1 : dat.q 1 = fullShare.right) (hq2 : dat.q 2 = fullShare) (hq3 : dat.q 3 = fullShare)
    (Vd Vx : (b : Ref sig .tc) → Buf (Elt F) ((c.tc : Thread nD τ).loc b))
    (hA : ∀ w, dat.A w = Vd (Pipeline.arrRef spec4 w))
    (e_h : Vd main_v1 = Vx main_v1) (e_W : Vd main_arg3 = Vx main_arg3) (e_b : Vd main_v0 = Vx main_v0) (e_out : Vd main_v20 = Vx main_v20)
    (T : pre4.Contents (Elt F)) (hT : ∀ j, T j = Vd (pre4.ref j)) (e_src : Vd main_v18 = Vx main_v18) (e_dst : Vd main_v19 = Vx main_v19) :
    (unscopedBufs (Ix := Unit) (Name := ℕ) (U := UR sig nD τ) (Lvl := ℕ) c Vx : sProp 𝕄)
      ⊢ iprop(dat.arrays (dat.arrAt · 0)
          ∗ Pipeline.prefHeld (Ix := Unit) (Name := ℕ) (U := UR sig nD τ) (Lvl := ℕ) pre4 c (fun _ => fullShare) T ∗ rest4 c Vx) :=
  (bufs4 a c dat hq0 hq1 hq2 hq3 Vx (fun w => dat.arrAt w 0)
    (funext fun w => match w with
      | ⟨0, h⟩ => by show dat.arrAt ⟨0, h⟩ 0 = Vx main_v1; exact (hA ⟨0, h⟩).trans e_h
      | ⟨1, h⟩ => by show dat.arrAt ⟨1, h⟩ 0 = Vx main_v1; exact (hA ⟨1, h⟩).trans e_h
      | ⟨2, h⟩ => by show dat.arrAt ⟨2, h⟩ 0 = Vx main_arg3; exact (hA ⟨2, h⟩).trans e_W
      | ⟨3, h⟩ => by show dat.arrAt ⟨3, h⟩ 0 = Vx main_v0; exact (hA ⟨3, h⟩).trans e_b
      | ⟨4, h⟩ => by show dat.arrAt ⟨4, h⟩ 0 = Vx main_v20; exact (hA ⟨4, h⟩).trans e_out)
    T (funext fun j => match j with
      | ⟨0, h⟩ => by show T ⟨0, h⟩ = Vx main_v18; exact (hT ⟨0, h⟩).trans e_src
      | ⟨1, h⟩ => by show T ⟨1, h⟩ = Vx main_v19; exact (hT ⟨1, h⟩).trans e_dst)).1

set_option maxHeartbeats 1600000 in
/-- EXIT, everything a variable: the inputs' arrays end as they began, the output array at what the last write-backs
    leave (`x_out`); whenever `Vx` holds those contents at the six touched buffers, the pipeline's arrays at their final
    contents, the two tables and the rest at `Vx` are the unscoped buffers at `Vx`. -/
theorem exit4 (a : (pcfg4 (F := F)).Adm) (c : Dev nD) (dat : Dat τ (Elt F) Unit ℕ (UR sig nD τ) ℕ (cfg4 a) c) (N : Nat)
    (hq0 : dat.q 0 = fullShare.left) (hq1 : dat.q 1 = fullShare.right) (hq2 : dat.q 2 = fullShare) (hq3 : dat.q 3 = fullShare)
    (Vd Vx : (b : Ref sig .tc) → Buf (Elt F) ((c.tc : Thread nD τ).loc b))
    (hA : ∀ w, dat.A w = Vd (Pipeline.arrRef spec4 w))
    (x_h : Vd main_v1 = Vx main_v1) (x_W : Vd main_arg3 = Vx main_arg3) (x_b : Vd main_v0 = Vx main_v0) (x_out : dat.arrAt 4 N = Vx main_v20)
    (T : pre4.Contents (Elt F)) (hT : ∀ j, T j = Vd (pre4.ref j)) (x_src : Vd main_v18 = Vx main_v18) (x_dst : Vd main_v19 = Vx main_v19) :
    iprop(dat.arrays (dat.arrAt · N)
        ∗ Pipeline.prefHeld (Ix := Unit) (Name := ℕ) (U := UR sig nD τ) (Lvl := ℕ) pre4 c (fun _ => fullShare) T ∗ rest4 c Vx)
      ⊢ (unscopedBufs (Ix := Unit) (Name := ℕ) (U := UR sig nD τ) (Lvl := ℕ) c Vx : sProp 𝕄) :=
  (bufs4 a c dat hq0 hq1 hq2 hq3 Vx (fun w => dat.arrAt w N)
    (funext fun w => match w with
      | ⟨0, h⟩ => by show dat.arrAt ⟨0, h⟩ N = Vx main_v1; exact (dat.arrAt_in ⟨0, h⟩ rfl N).trans ((hA ⟨0, h⟩).trans x_h)
      | ⟨1, h⟩ => by show dat.arrAt ⟨1, h⟩ N = Vx main_v1; exact (dat.arrAt_in ⟨1, h⟩ rfl N).trans ((hA ⟨1, h⟩).trans x_h)
      | ⟨2, h⟩ => by show dat.arrAt ⟨2, h⟩ N = Vx main_arg3; exact (dat.arrAt_in ⟨2, h⟩ rfl N).trans ((hA ⟨2, h⟩).trans x_W)
      | ⟨3, h⟩ => by show dat.arrAt ⟨3, h⟩ N = Vx main_v0; exact (dat.arrAt_in ⟨3, h⟩ rfl N).trans ((hA ⟨3, h⟩).trans x_b)
      | ⟨4, h⟩ => by show dat.arrAt ⟨4, h⟩ N = Vx main_v20; exact x_out)
    T (funext fun j => match j with
      | ⟨0, h⟩ => by show T ⟨0, h⟩ = Vx main_v18; exact (hT ⟨0, h⟩).trans x_src
      | ⟨1, h⟩ => by show T ⟨1, h⟩ = Vx main_v19; exact (hT ⟨1, h⟩).trans x_dst)).2

variable (m : (ℓ : Loc nD τ sig) → Buf (Elt F) ℓ) (hO : Oks m)

/-! ## What the region finds and leaves, buffer by buffer -/

include hO

theorem fin4_h (c : Dev nD) : Ve4 m c main_v1 = V9 m (outsR m hO) c main_v1 := by first | exact indep4_h m (outsL m) (outsR m hO) c | rfl
theorem fin4_W (c : Dev nD) : Ve4 m c main_arg3 = V9 m (outsR m hO) c main_arg3 := by first | exact indep4_W m (outsL m) (outsR m hO) c | rfl
theorem fin4_b (c : Dev nD) : Ve4 m c main_v0 = V9 m (outsR m hO) c main_v0 := by first | exact indep4_b m (outsL m) (outsR m hO) c | rfl
theorem fin4_out (c : Dev nD) : Ve4 m c main_v20 = V9 m (outsR m hO) c main_v20 := by first | exact indep4_out m (outsL m) (outsR m hO) c | rfl
theorem fin4_src (c : Dev nD) : Ve4 m c main_v18 = V9 m (outsR m hO) c main_v18 := by first | exact indep4_src m (outsL m) (outsR m hO) c | rfl
theorem fin4_dst (c : Dev nD) : Ve4 m c main_v19 = V9 m (outsR m hO) c main_v19 := by first | exact indep4_dst m (outsL m) (outsR m hO) c | rfl

/-- What the region leaves in the buffers it touches: the inputs and the tables as they were, the output array at the
    region's chunk. -/
theorem lv4_h (c : Dev nD) : V10 m (outsR m hO) c main_v1 = V9 m (outsR m hO) c main_v1 := V10_of m (outsR m hO) c main_v1 (by decide)
theorem lv4_W (c : Dev nD) : V10 m (outsR m hO) c main_arg3 = V9 m (outsR m hO) c main_arg3 := V10_of m (outsR m hO) c main_arg3 (by decide)
theorem lv4_b (c : Dev nD) : V10 m (outsR m hO) c main_v0 = V9 m (outsR m hO) c main_v0 := V10_of m (outsR m hO) c main_v0 (by decide)
theorem lv4_src (c : Dev nD) : V10 m (outsR m hO) c main_v18 = V9 m (outsR m hO) c main_v18 := V10_of m (outsR m hO) c main_v18 (by decide)
theorem lv4_dst (c : Dev nD) : V10 m (outsR m hO) c main_v19 = V9 m (outsR m hO) c main_v19 := V10_of m (outsR m hO) c main_v19 (by decide)
theorem lv4_out (c : Dev nD) : V10 m (outsR m hO) c main_v20 = chunk4 m hO c :=
  (Function.update_self _ _ _).trans (outsR_4 m hO c)

/-- The buffers the region does not touch pass it by unchanged. -/
theorem rest4_eq (c : Dev nD) : (rest4 c (fun b => V9 m (outsR m hO) c b) : sProp 𝕄) = rest4 c (fun b => V10 m (outsR m hO) c b) := by
  unfold rest4
  exact BI.bigSep_congr fun b hb => by
    dsimp only
    rw [V10_of m (outsR m hO) c b (fun h => (Finset.mem_sdiff.mp hb).2 (by rw [List.mem_singleton.mp h]; decide))]

set_option maxHeartbeats 1600000 in
set_option backward.isDefEq.respectTransparency.types false in
/-- REGION 0 over the boundary states. -/
def reg4 : Pipeline.RegionSeg (pcfgs (F := F)) (adm m hO) (pdats m hO) () defs₀ 𝒱₀ L lv (4 : Fin 16) where
  win := winFacts₀4
  block_pos := block_pos4
  stage_whole := stage_whole4
  K := PEmpty
  osem k := k.elim
  ho := Pipeline.OwnSemFacts.none _
  hbody c := (body_obligation4 (Ve4 m) ⟨tbl4 m, hO.h4⟩ c).loose
  hwaits := Pipeline.hwaits_of_owed_zero _ _ _ _ L lv (4 : Fin 16) fun _ _ => rfl
  pre c := iprop(StableHlo.held (c : Thread nD τ) (Pipeline.ucRefs τ sig) (V9 m (outsR m hO) c) ∗ Rst c)
  post c := iprop(StableHlo.held (c : Thread nD τ) (Pipeline.ucRefs τ sig) (V10 m (outsR m hO) c) ∗ Rst c)
  X c := iprop(∃ r, prngReg c r)
  Y c := iprop((∃ r, prngReg c r) ∗ Pipeline.prefHeld (Ix := Unit) (Name := ℕ) (U := UR sig nD τ) (Lvl := ℕ) pre4 c (fun _ => fullShare) (tbl4 m))
  Z c := rest4 c (fun b => V9 m (outsR m hO) c b)
  hentry c := by
    obtain rfl : c = 0 := Subsingleton.elim _ _
    have hb := entry4 (adm m hO (4 : Fin 16)) 0 (pdats m hO (4 : Fin 16) 0) rfl rfl rfl rfl (Ve4 m 0) (fun b => V9 m (outsR m hO) 0 b) (fun w => rfl)
      (fin4_h m hO 0) (fin4_W m hO 0) (fin4_b m hO 0) (fin4_out m hO 0) (tbl4 m) (fun j => rfl) (fin4_src m hO 0) (fin4_dst m hO 0)
    rw [Pipeline.unscopedBufs_held] at hb
    iintro ⟨⟨Hub, Hp, HO⟩, -, -⟩
    ihave H := hb $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO (4 : Fin 16) c).Φ 0 = iprop(Pipeline.ΦA spec4 c ∗ Pipeline.prefHeld (Ix := Unit) (Name := ℕ) (U := UR sig nD τ) (Lvl := ℕ) pre4 c (fun _ => fullShare) (tbl4 m)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m hO (4 : Fin 16) c).Φ (Fin.last _) = iprop(Pipeline.ΦA spec4 c ∗ Pipeline.prefHeld (Ix := Unit) (Name := ℕ) (U := UR sig nD τ) (Lvl := ℕ) pre4 c (fun _ => fullShare) (tbl4 m)) from rfl]
    unfold Pipeline.ΦA
    iintro ⟨⟨Hr, Hp⟩, Ht⟩
    isplitl [Hp Ht]
    · isplitl [Hp]; · iexact Hp
      iexact Ht
    isplitr; · iempintro
    iexact Hr
  hexit c := by
    obtain rfl : c = 0 := Subsingleton.elim _ _
    have hb := exit4 (adm m hO (4 : Fin 16)) 0 (pdats m hO (4 : Fin 16) 0) (Pipeline.pin (pcfgs (F := F)) (adm m hO) (4 : Fin 16)).N rfl rfl rfl rfl
      (Ve4 m 0) (fun b => V10 m (outsR m hO) 0 b) (fun w => rfl)
      ((fin4_h m hO 0).trans (lv4_h m hO 0).symm) ((fin4_W m hO 0).trans (lv4_W m hO 0).symm) ((fin4_b m hO 0).trans (lv4_b m hO 0).symm)
      (lv4_out m hO 0).symm (tbl4 m) (fun j => rfl) ((fin4_src m hO 0).trans (lv4_src m hO 0).symm) ((fin4_dst m hO 0).trans (lv4_dst m hO 0).symm)
    rw [Pipeline.unscopedBufs_held, ← rest4_eq m hO 0] at hb
    iintro ⟨Ha, HO, ⟨Hp, Ht⟩, Hrest⟩
    imodintro
    isplitl [Ha Ht Hrest]
    · iapply hb
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Cert.KernelIdeal.Hand

end
-- ==== Proof.KIReg5.lean ====
/-
  Region 5 of the edge scorer as a segment of the program's run.

  The region is entered with every unscoped buffer held whole at the contents the host operations before it leave,
  beside the generator register and nothing owed. Of those buffers the pipeline takes the four arrays its five windows
  read and write — the feature rows (read by two windows, each at one half of the full share), the weights, the
  bias and the output chunk — and the two index tables; the other unscoped buffers bypass the region. At the exit the
  feature rows' two halves rejoin, the inputs are as they were, the output array holds the region's chunk, and
  the whole is the next boundary's contents.
-/
import proofs.«405368_j31662498906597_2_alg».proof.Proof.KIFamily
import proofs.«405368_j31662498906597_2_alg».proof.Proof.KIHostEntry
import proofs.«405368_j31662498906597_2_alg».proof.Proof.KIHostEntryGen
import Idealize.ShloMosaic.Lib.Pipeline.RegionsLoop

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The six unscoped buffers region 5 touches: the feature rows, the weights, the bias, its output chunk and its two
    index tables. -/
abbrev arrs5 : Finset (Ref sig .tc) := insert main_v1 (insert main_arg3 (insert main_v0 (insert main_v24 (insert main_v22 {main_v23}))))

theorem arrs5_sub : arrs5 ⊆ Finset.univ.filter fun b : Ref sig .tc => ¬ b.isScoped := by decide

/-- The unscoped buffers region 5 does not touch, held whole at `V`. -/
def rest5 (c : Dev nD) (V : (b : Ref sig .tc) → Buf (Elt F) ((c.tc : Thread nD τ).loc b)) : sProp 𝕄 :=
  bigSep ((Finset.univ.filter fun b : Ref sig .tc => ¬ b.isScoped) \ arrs5) fun b => ((c.tc : Thread nD τ).loc b) ↦{fullShare} V b

/-- The six touched buffers one by one, and the rest. -/
theorem ub_split5 (c : Dev nD) (V : (b : Ref sig .tc) → Buf (Elt F) ((c.tc : Thread nD τ).loc b)) :
    (unscopedBufs (Ix := Unit) (Name := ℕ) (U := UR sig nD τ) (Lvl := ℕ) c V : sProp 𝕄)
      = iprop(iprop((((c.tc : Thread nD τ).loc main_v1) ↦{fullShare} V main_v1) ∗ (((c.tc : Thread nD τ).loc main_arg3) ↦{fullShare} V main_arg3)
          ∗ (((c.tc : Thread nD τ).loc main_v0) ↦{fullShare} V main_v0) ∗ (((c.tc : Thread nD τ).loc main_v24) ↦{fullShare} V main_v24)
          ∗ (((c.tc : Thread nD τ).loc main_v22) ↦{fullShare} V main_v22) ∗ (((c.tc : Thread nD τ).loc main_v23) ↦{fullShare} V main_v23)) ∗ rest5 c V) := by
  unfold unscopedBufs rest5
  rw [BI.bigSep_sdiff_split arrs5_sub]
  refine congrArg (fun X => iprop(X ∗ _)) ?_
  show bigSep (insert main_v1 (insert main_arg3 (insert main_v0 (insert main_v24 (insert main_v22 {main_v23}))))) _ = _
  rw [BI.bigSep_insert (by decide), BI.bigSep_insert (by decide), BI.bigSep_insert (by decide), BI.bigSep_insert (by decide),
    BI.bigSep_insert (by decide), BI.bigSep_singleton]
  rfl

/-- A product over two tables, written out. -/
theorem two_tables5 (Φ : Fin 2 → sProp 𝕄) : bigSep Finset.univ Φ = iprop(Φ 0 ∗ Φ 1) := BI.bigSep_fin_two Φ

/-- The five windows' arrays and the two tables, by name. -/
theorem arrRef5_0 : Pipeline.arrRef spec5 (0 : Fin 5) = main_v1 := rfl
theorem arrRef5_1 : Pipeline.arrRef spec5 (1 : Fin 5) = main_v1 := rfl
theorem arrRef5_2 : Pipeline.arrRef spec5 (2 : Fin 5) = main_arg3 := rfl
theorem arrRef5_3 : Pipeline.arrRef spec5 (3 : Fin 5) = main_v0 := rfl
theorem arrRef5_4 : Pipeline.arrRef spec5 (4 : Fin 5) = main_v24 := rfl
theorem preRef5_0 : pre5.ref (0 : Fin 2) = main_v22 := rfl
theorem preRef5_1 : pre5.ref (1 : Fin 2) = main_v23 := rfl

set_option maxHeartbeats 1600000 in
/-- A core's unscoped buffers held whole at `V` ARE the pipeline's arrays at `V`'s contents of them (the feature rows'
    full share dealt as its two halves to the two windows that read them), the two tables at `V`'s contents of
    them, and the rest. Both directions: the region's entry and its exit. -/
theorem bufs5 (a : (pcfg5 (F := F)).Adm) (c : Dev nD) (dat : Dat τ (Elt F) Unit ℕ (UR sig nD τ) ℕ (cfg5 a) c)
    (hq0 : dat.q 0 = fullShare.left) (hq1 : dat.q 1 = fullShare.right) (hq2 : dat.q 2 = fullShare) (hq3 : dat.q 3 = fullShare)
    (V : (b : Ref sig .tc) → Buf (Elt F) ((c.tc : Thread nD τ).loc b))
    (G : (w : Fin (cfg5 a).W) → Buf (Elt F) (((cfg5 a).win w).arr.view.loc (c.tc : Thread nD τ)))
    (hG : G = fun w => V (Pipeline.arrRef spec5 w))
    (T : pre5.Contents (Elt F)) (hT : T = fun k => V (pre5.ref k)) :
    (unscopedBufs (Ix := Unit) (Name := ℕ) (U := UR sig nD τ) (Lvl := ℕ) c V : sProp 𝕄)
      ⊣⊢ iprop(dat.arrays G ∗ Pipeline.prefHeld (Ix := Unit) (Name := ℕ) (U := UR sig nD τ) (Lvl := ℕ) pre5 c (fun _ => fullShare) T ∗ rest5 c V) := by
  subst hG hT
  have harr : ∀ w, (((cfg5 a).spec w).arr).IsWhole := arr_whole5
  have hA : dat.arrays (fun w => V (Pipeline.arrRef spec5 w))
      = bigSep Finset.univ fun w : Fin 5 => (((c.tc : Thread nD τ).loc (Pipeline.arrRef spec5 w)) ↦{dat.share w} V (Pipeline.arrRef spec5 w) : sProp 𝕄) := by
    unfold Dat.arrays
    exact BI.bigSep_congr fun w _ => by rw [(harr w).set_eq_univ]
  have s0 : dat.share 0 = fullShare.left := by unfold Dat.share; rw [show ((cfg5 a).win 0).isOut = false from rfl]; exact hq0
  have s1 : dat.share 1 = fullShare.right := by unfold Dat.share; rw [show ((cfg5 a).win 1).isOut = false from rfl]; exact hq1
  have s2 : dat.share 2 = fullShare := by unfold Dat.share; rw [show ((cfg5 a).win 2).isOut = false from rfl]; exact hq2
  have s3 : dat.share 3 = fullShare := by unfold Dat.share; rw [show ((cfg5 a).win 3).isOut = false from rfl]; exact hq3
  have s4 : dat.share 4 = fullShare := by unfold Dat.share; rw [show ((cfg5 a).win 4).isOut = true from rfl]; rfl
  rw [ub_split5, hA, bigSep_W5, s0, s1, s2, s3, s4]
  unfold Pipeline.prefHeld
  rw [two_tables5]
  simp only [arrRef5_0, arrRef5_1, arrRef5_2, arrRef5_3, arrRef5_4, preRef5_0, preRef5_1]
  constructor
  · iintro ⟨⟨H1, HW, HB, HO, HS, HD⟩, Hr⟩
    ihave H1' := (pointsTo_share (PosShare.mem_left_op_right fullShare)).1 $$ H1
    icases H1' with ⟨H1a, H1b⟩
    isplitl [H1a H1b HW HB HO]
    · isplitl [H1a]; · iexact H1a
      isplitl [H1b]; · iexact H1b
      isplitl [HW]; · iexact HW
      isplitl [HB]; · iexact HB
      iexact HO
    isplitl [HS HD]
    · isplitl [HS]; · iexact HS
      iexact HD
    iexact Hr
  · iintro ⟨⟨H1a, H1b, HW, HB, HO⟩, ⟨HS, HD⟩, Hr⟩
    ihave H1 := (pointsTo_share (PosShare.mem_left_op_right fullShare)).2 $$ [H1a H1b]
    · isplitl [H1a]; · iexact H1a
      iexact H1b
    isplitr [Hr]
    · isplitl [H1]; · iexact H1
      isplitl [HW]; · iexact HW
      isplitl [HB]; · iexact HB
      isplitl [HO]; · iexact HO
      isplitl [HS]; · iexact HS
      iexact HD
    iexact Hr

set_option maxHeartbeats 1600000 in
/-- ENTRY, everything a variable: for any proof data `dat` whose arrays are `Vd`'s contents (`hA`) and any tables `T`
    that are `Vd`'s contents (`hT`), whenever the boundary contents `Vx` agree with `Vd` at the six touched buffers, the
    unscoped buffers at `Vx` are the pipeline's arrays at their entry contents, the two tables, and the rest. -/
theorem entry5 (a : (pcfg5 (F := F)).Adm) (c : Dev nD) (dat : Dat τ (Elt F) Unit ℕ (UR sig nD τ) ℕ (cfg5 a) c)
    (hq0 : dat.q 0 = fullShare.left) (hq1 : dat.q 1 = fullShare.right) (hq2 : dat.q 2 = fullShare) (hq3 : dat.q 3 = fullShare)
    (Vd Vx : (b : Ref sig .tc) → Buf (Elt F) ((c.tc : Thread nD τ).loc b))
    (hA : ∀ w, dat.A w = Vd (Pipeline.arrRef spec5 w))
    (e_h : Vd main_v1 = Vx main_v1) (e_W : Vd main_arg3 = Vx main_arg3) (e_b : Vd main_v0 = Vx main_v0) (e_out : Vd main_v24 = Vx main_v24)
    (T : pre5.Contents (Elt F)) (hT : ∀ j, T j = Vd (pre5.ref j)) (e_src : Vd main_v22 = Vx main_v22) (e_dst : Vd main_v23 = Vx main_v23) :
    (unscopedBufs (Ix := Unit) (Name := ℕ) (U := UR sig nD τ) (Lvl := ℕ) c Vx : sProp 𝕄)
      ⊢ iprop(dat.arrays (dat.arrAt · 0)
          ∗ Pipeline.prefHeld (Ix := Unit) (Name := ℕ) (U := UR sig nD τ) (Lvl := ℕ) pre5 c (fun _ => fullShare) T ∗ rest5 c Vx) :=
  (bufs5 a c dat hq0 hq1 hq2 hq3 Vx (fun w => dat.arrAt w 0)
    (funext fun w => match w with
      | ⟨0, h⟩ => by show dat.arrAt ⟨0, h⟩ 0 = Vx main_v1; exact (hA ⟨0, h⟩).trans e_h
      | ⟨1, h⟩ => by show dat.arrAt ⟨1, h⟩ 0 = Vx main_v1; exact (hA ⟨1, h⟩).trans e_h
      | ⟨2, h⟩ => by show dat.arrAt ⟨2, h⟩ 0 = Vx main_arg3; exact (hA ⟨2, h⟩).trans e_W
      | ⟨3, h⟩ => by show dat.arrAt ⟨3, h⟩ 0 = Vx main_v0; exact (hA ⟨3, h⟩).trans e_b
      | ⟨4, h⟩ => by show dat.arrAt ⟨4, h⟩ 0 = Vx main_v24; exact (hA ⟨4, h⟩).trans e_out)
    T (funext fun j => match j with
      | ⟨0, h⟩ => by show T ⟨0, h⟩ = Vx main_v22; exact (hT ⟨0, h⟩).trans e_src
      | ⟨1, h⟩ => by show T ⟨1, h⟩ = Vx main_v23; exact (hT ⟨1, h⟩).trans e_dst)).1

set_option maxHeartbeats 1600000 in
/-- EXIT, everything a variable: the inputs' arrays end as they began, the output array at what the last write-backs
    leave (`x_out`); whenever `Vx` holds those contents at the six touched buffers, the pipeline's arrays at their final
    contents, the two tables and the rest at `Vx` are the unscoped buffers at `Vx`. -/
theorem exit5 (a : (pcfg5 (F := F)).Adm) (c : Dev nD) (dat : Dat τ (Elt F) Unit ℕ (UR sig nD τ) ℕ (cfg5 a) c) (N : Nat)
    (hq0 : dat.q 0 = fullShare.left) (hq1 : dat.q 1 = fullShare.right) (hq2 : dat.q 2 = fullShare) (hq3 : dat.q 3 = fullShare)
    (Vd Vx : (b : Ref sig .tc) → Buf (Elt F) ((c.tc : Thread nD τ).loc b))
    (hA : ∀ w, dat.A w = Vd (Pipeline.arrRef spec5 w))
    (x_h : Vd main_v1 = Vx main_v1) (x_W : Vd main_arg3 = Vx main_arg3) (x_b : Vd main_v0 = Vx main_v0) (x_out : dat.arrAt 4 N = Vx main_v24)
    (T : pre5.Contents (Elt F)) (hT : ∀ j, T j = Vd (pre5.ref j)) (x_src : Vd main_v22 = Vx main_v22) (x_dst : Vd main_v23 = Vx main_v23) :
    iprop(dat.arrays (dat.arrAt · N)
        ∗ Pipeline.prefHeld (Ix := Unit) (Name := ℕ) (U := UR sig nD τ) (Lvl := ℕ) pre5 c (fun _ => fullShare) T ∗ rest5 c Vx)
      ⊢ (unscopedBufs (Ix := Unit) (Name := ℕ) (U := UR sig nD τ) (Lvl := ℕ) c Vx : sProp 𝕄) :=
  (bufs5 a c dat hq0 hq1 hq2 hq3 Vx (fun w => dat.arrAt w N)
    (funext fun w => match w with
      | ⟨0, h⟩ => by show dat.arrAt ⟨0, h⟩ N = Vx main_v1; exact (dat.arrAt_in ⟨0, h⟩ rfl N).trans ((hA ⟨0, h⟩).trans x_h)
      | ⟨1, h⟩ => by show dat.arrAt ⟨1, h⟩ N = Vx main_v1; exact (dat.arrAt_in ⟨1, h⟩ rfl N).trans ((hA ⟨1, h⟩).trans x_h)
      | ⟨2, h⟩ => by show dat.arrAt ⟨2, h⟩ N = Vx main_arg3; exact (dat.arrAt_in ⟨2, h⟩ rfl N).trans ((hA ⟨2, h⟩).trans x_W)
      | ⟨3, h⟩ => by show dat.arrAt ⟨3, h⟩ N = Vx main_v0; exact (dat.arrAt_in ⟨3, h⟩ rfl N).trans ((hA ⟨3, h⟩).trans x_b)
      | ⟨4, h⟩ => by show dat.arrAt ⟨4, h⟩ N = Vx main_v24; exact x_out)
    T (funext fun j => match j with
      | ⟨0, h⟩ => by show T ⟨0, h⟩ = Vx main_v22; exact (hT ⟨0, h⟩).trans x_src
      | ⟨1, h⟩ => by show T ⟨1, h⟩ = Vx main_v23; exact (hT ⟨1, h⟩).trans x_dst)).2

variable (m : (ℓ : Loc nD τ sig) → Buf (Elt F) ℓ) (hO : Oks m)

/-! ## What the region finds and leaves, buffer by buffer -/

include hO

theorem fin5_h (c : Dev nD) : Ve5 m c main_v1 = V11 m (outsR m hO) c main_v1 := by first | exact indep5_h m (outsL m) (outsR m hO) c | rfl
theorem fin5_W (c : Dev nD) : Ve5 m c main_arg3 = V11 m (outsR m hO) c main_arg3 := by first | exact indep5_W m (outsL m) (outsR m hO) c | rfl
theorem fin5_b (c : Dev nD) : Ve5 m c main_v0 = V11 m (outsR m hO) c main_v0 := by first | exact indep5_b m (outsL m) (outsR m hO) c | rfl
theorem fin5_out (c : Dev nD) : Ve5 m c main_v24 = V11 m (outsR m hO) c main_v24 := by first | exact indep5_out m (outsL m) (outsR m hO) c | rfl
theorem fin5_src (c : Dev nD) : Ve5 m c main_v22 = V11 m (outsR m hO) c main_v22 := by first | exact indep5_src m (outsL m) (outsR m hO) c | rfl
theorem fin5_dst (c : Dev nD) : Ve5 m c main_v23 = V11 m (outsR m hO) c main_v23 := by first | exact indep5_dst m (outsL m) (outsR m hO) c | rfl

/-- What the region leaves in the buffers it touches: the inputs and the tables as they were, the output array at the
    region's chunk. -/
theorem lv5_h (c : Dev nD) : V12 m (outsR m hO) c main_v1 = V11 m (outsR m hO) c main_v1 := V12_of m (outsR m hO) c main_v1 (by decide)
theorem lv5_W (c : Dev nD) : V12 m (outsR m hO) c main_arg3 = V11 m (outsR m hO) c main_arg3 := V12_of m (outsR m hO) c main_arg3 (by decide)
theorem lv5_b (c : Dev nD) : V12 m (outsR m hO) c main_v0 = V11 m (outsR m hO) c main_v0 := V12_of m (outsR m hO) c main_v0 (by decide)
theorem lv5_src (c : Dev nD) : V12 m (outsR m hO) c main_v22 = V11 m (outsR m hO) c main_v22 := V12_of m (outsR m hO) c main_v22 (by decide)
theorem lv5_dst (c : Dev nD) : V12 m (outsR m hO) c main_v23 = V11 m (outsR m hO) c main_v23 := V12_of m (outsR m hO) c main_v23 (by decide)
theorem lv5_out (c : Dev nD) : V12 m (outsR m hO) c main_v24 = chunk5 m hO c :=
  (Function.update_self _ _ _).trans (outsR_5 m hO c)

/-- The buffers the region does not touch pass it by unchanged. -/
theorem rest5_eq (c : Dev nD) : (rest5 c (fun b => V11 m (outsR m hO) c b) : sProp 𝕄) = rest5 c (fun b => V12 m (outsR m hO) c b) := by
  unfold rest5
  exact BI.bigSep_congr fun b hb => by
    dsimp only
    rw [V12_of m (outsR m hO) c b (fun h => (Finset.mem_sdiff.mp hb).2 (by rw [List.mem_singleton.mp h]; decide))]

set_option maxHeartbeats 1600000 in
set_option backward.isDefEq.respectTransparency.types false in
/-- REGION 0 over the boundary states. -/
def reg5 : Pipeline.RegionSeg (pcfgs (F := F)) (adm m hO) (pdats m hO) () defs₀ 𝒱₀ L lv (5 : Fin 16) where
  win := winFacts₀5
  block_pos := block_pos5
  stage_whole := stage_whole5
  K := PEmpty
  osem k := k.elim
  ho := Pipeline.OwnSemFacts.none _
  hbody c := (body_obligation5 (Ve5 m) ⟨tbl5 m, hO.h5⟩ c).loose
  hwaits := Pipeline.hwaits_of_owed_zero _ _ _ _ L lv (5 : Fin 16) fun _ _ => rfl
  pre c := iprop(StableHlo.held (c : Thread nD τ) (Pipeline.ucRefs τ sig) (V11 m (outsR m hO) c) ∗ Rst c)
  post c := iprop(StableHlo.held (c : Thread nD τ) (Pipeline.ucRefs τ sig) (V12 m (outsR m hO) c) ∗ Rst c)
  X c := iprop(∃ r, prngReg c r)
  Y c := iprop((∃ r, prngReg c r) ∗ Pipeline.prefHeld (Ix := Unit) (Name := ℕ) (U := UR sig nD τ) (Lvl := ℕ) pre5 c (fun _ => fullShare) (tbl5 m))
  Z c := rest5 c (fun b => V11 m (outsR m hO) c b)
  hentry c := by
    obtain rfl : c = 0 := Subsingleton.elim _ _
    have hb := entry5 (adm m hO (5 : Fin 16)) 0 (pdats m hO (5 : Fin 16) 0) rfl rfl rfl rfl (Ve5 m 0) (fun b => V11 m (outsR m hO) 0 b) (fun w => rfl)
      (fin5_h m hO 0) (fin5_W m hO 0) (fin5_b m hO 0) (fin5_out m hO 0) (tbl5 m) (fun j => rfl) (fin5_src m hO 0) (fin5_dst m hO 0)
    rw [Pipeline.unscopedBufs_held] at hb
    iintro ⟨⟨Hub, Hp, HO⟩, -, -⟩
    ihave H := hb $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO (5 : Fin 16) c).Φ 0 = iprop(Pipeline.ΦA spec5 c ∗ Pipeline.prefHeld (Ix := Unit) (Name := ℕ) (U := UR sig nD τ) (Lvl := ℕ) pre5 c (fun _ => fullShare) (tbl5 m)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m hO (5 : Fin 16) c).Φ (Fin.last _) = iprop(Pipeline.ΦA spec5 c ∗ Pipeline.prefHeld (Ix := Unit) (Name := ℕ) (U := UR sig nD τ) (Lvl := ℕ) pre5 c (fun _ => fullShare) (tbl5 m)) from rfl]
    unfold Pipeline.ΦA
    iintro ⟨⟨Hr, Hp⟩, Ht⟩
    isplitl [Hp Ht]
    · isplitl [Hp]; · iexact Hp
      iexact Ht
    isplitr; · iempintro
    iexact Hr
  hexit c := by
    obtain rfl : c = 0 := Subsingleton.elim _ _
    have hb := exit5 (adm m hO (5 : Fin 16)) 0 (pdats m hO (5 : Fin 16) 0) (Pipeline.pin (pcfgs (F := F)) (adm m hO) (5 : Fin 16)).N rfl rfl rfl rfl
      (Ve5 m 0) (fun b => V12 m (outsR m hO) 0 b) (fun w => rfl)
      ((fin5_h m hO 0).trans (lv5_h m hO 0).symm) ((fin5_W m hO 0).trans (lv5_W m hO 0).symm) ((fin5_b m hO 0).trans (lv5_b m hO 0).symm)
      (lv5_out m hO 0).symm (tbl5 m) (fun j => rfl) ((fin5_src m hO 0).trans (lv5_src m hO 0).symm) ((fin5_dst m hO 0).trans (lv5_dst m hO 0).symm)
    rw [Pipeline.unscopedBufs_held, ← rest5_eq m hO 0] at hb
    iintro ⟨Ha, HO, ⟨Hp, Ht⟩, Hrest⟩
    imodintro
    isplitl [Ha Ht Hrest]
    · iapply hb
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Cert.KernelIdeal.Hand

end
-- ==== Proof.KIReg6.lean ====
/-
  Region 6 of the edge scorer as a segment of the program's run.

  The region is entered with every unscoped buffer held whole at the contents the host operations before it leave,
  beside the generator register and nothing owed. Of those buffers the pipeline takes the four arrays its five windows
  read and write — the feature rows (read by two windows, each at one half of the full share), the weights, the
  bias and the output chunk — and the two index tables; the other unscoped buffers bypass the region. At the exit the
  feature rows' two halves rejoin, the inputs are as they were, the output array holds the region's chunk, and
  the whole is the next boundary's contents.
-/
import proofs.«405368_j31662498906597_2_alg».proof.Proof.KIFamily
import proofs.«405368_j31662498906597_2_alg».proof.Proof.KIHostEntry
import proofs.«405368_j31662498906597_2_alg».proof.Proof.KIHostEntryGen
import Idealize.ShloMosaic.Lib.Pipeline.RegionsLoop

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The six unscoped buffers region 6 touches: the feature rows, the weights, the bias, its output chunk and its two
    index tables. -/
abbrev arrs6 : Finset (Ref sig .tc) := insert main_v1 (insert main_arg3 (insert main_v0 (insert main_v28 (insert main_v26 {main_v27}))))

theorem arrs6_sub : arrs6 ⊆ Finset.univ.filter fun b : Ref sig .tc => ¬ b.isScoped := by decide

/-- The unscoped buffers region 6 does not touch, held whole at `V`. -/
def rest6 (c : Dev nD) (V : (b : Ref sig .tc) → Buf (Elt F) ((c.tc : Thread nD τ).loc b)) : sProp 𝕄 :=
  bigSep ((Finset.univ.filter fun b : Ref sig .tc => ¬ b.isScoped) \ arrs6) fun b => ((c.tc : Thread nD τ).loc b) ↦{fullShare} V b

/-- The six touched buffers one by one, and the rest. -/
theorem ub_split6 (c : Dev nD) (V : (b : Ref sig .tc) → Buf (Elt F) ((c.tc : Thread nD τ).loc b)) :
    (unscopedBufs (Ix := Unit) (Name := ℕ) (U := UR sig nD τ) (Lvl := ℕ) c V : sProp 𝕄)
      = iprop(iprop((((c.tc : Thread nD τ).loc main_v1) ↦{fullShare} V main_v1) ∗ (((c.tc : Thread nD τ).loc main_arg3) ↦{fullShare} V main_arg3)
          ∗ (((c.tc : Thread nD τ).loc main_v0) ↦{fullShare} V main_v0) ∗ (((c.tc : Thread nD τ).loc main_v28) ↦{fullShare} V main_v28)
          ∗ (((c.tc : Thread nD τ).loc main_v26) ↦{fullShare} V main_v26) ∗ (((c.tc : Thread nD τ).loc main_v27) ↦{fullShare} V main_v27)) ∗ rest6 c V) := by
  unfold unscopedBufs rest6
  rw [BI.bigSep_sdiff_split arrs6_sub]
  refine congrArg (fun X => iprop(X ∗ _)) ?_
  show bigSep (insert main_v1 (insert main_arg3 (insert main_v0 (insert main_v28 (insert main_v26 {main_v27}))))) _ = _
  rw [BI.bigSep_insert (by decide), BI.bigSep_insert (by decide), BI.bigSep_insert (by decide), BI.bigSep_insert (by decide),
    BI.bigSep_insert (by decide), BI.bigSep_singleton]
  rfl

/-- A product over two tables, written out. -/
theorem two_tables6 (Φ : Fin 2 → sProp 𝕄) : bigSep Finset.univ Φ = iprop(Φ 0 ∗ Φ 1) := BI.bigSep_fin_two Φ

/-- The five windows' arrays and the two tables, by name. -/
theorem arrRef6_0 : Pipeline.arrRef spec6 (0 : Fin 5) = main_v1 := rfl
theorem arrRef6_1 : Pipeline.arrRef spec6 (1 : Fin 5) = main_v1 := rfl
theorem arrRef6_2 : Pipeline.arrRef spec6 (2 : Fin 5) = main_arg3 := rfl
theorem arrRef6_3 : Pipeline.arrRef spec6 (3 : Fin 5) = main_v0 := rfl
theorem arrRef6_4 : Pipeline.arrRef spec6 (4 : Fin 5) = main_v28 := rfl
theorem preRef6_0 : pre6.ref (0 : Fin 2) = main_v26 := rfl
theorem preRef6_1 : pre6.ref (1 : Fin 2) = main_v27 := rfl

set_option maxHeartbeats 1600000 in
/-- A core's unscoped buffers held whole at `V` ARE the pipeline's arrays at `V`'s contents of them (the feature rows'
    full share dealt as its two halves to the two windows that read them), the two tables at `V`'s contents of
    them, and the rest. Both directions: the region's entry and its exit. -/
theorem bufs6 (a : (pcfg6 (F := F)).Adm) (c : Dev nD) (dat : Dat τ (Elt F) Unit ℕ (UR sig nD τ) ℕ (cfg6 a) c)
    (hq0 : dat.q 0 = fullShare.left) (hq1 : dat.q 1 = fullShare.right) (hq2 : dat.q 2 = fullShare) (hq3 : dat.q 3 = fullShare)
    (V : (b : Ref sig .tc) → Buf (Elt F) ((c.tc : Thread nD τ).loc b))
    (G : (w : Fin (cfg6 a).W) → Buf (Elt F) (((cfg6 a).win w).arr.view.loc (c.tc : Thread nD τ)))
    (hG : G = fun w => V (Pipeline.arrRef spec6 w))
    (T : pre6.Contents (Elt F)) (hT : T = fun k => V (pre6.ref k)) :
    (unscopedBufs (Ix := Unit) (Name := ℕ) (U := UR sig nD τ) (Lvl := ℕ) c V : sProp 𝕄)
      ⊣⊢ iprop(dat.arrays G ∗ Pipeline.prefHeld (Ix := Unit) (Name := ℕ) (U := UR sig nD τ) (Lvl := ℕ) pre6 c (fun _ => fullShare) T ∗ rest6 c V) := by
  subst hG hT
  have harr : ∀ w, (((cfg6 a).spec w).arr).IsWhole := arr_whole6
  have hA : dat.arrays (fun w => V (Pipeline.arrRef spec6 w))
      = bigSep Finset.univ fun w : Fin 5 => (((c.tc : Thread nD τ).loc (Pipeline.arrRef spec6 w)) ↦{dat.share w} V (Pipeline.arrRef spec6 w) : sProp 𝕄) := by
    unfold Dat.arrays
    exact BI.bigSep_congr fun w _ => by rw [(harr w).set_eq_univ]
  have s0 : dat.share 0 = fullShare.left := by unfold Dat.share; rw [show ((cfg6 a).win 0).isOut = false from rfl]; exact hq0
  have s1 : dat.share 1 = fullShare.right := by unfold Dat.share; rw [show ((cfg6 a).win 1).isOut = false from rfl]; exact hq1
  have s2 : dat.share 2 = fullShare := by unfold Dat.share; rw [show ((cfg6 a).win 2).isOut = false from rfl]; exact hq2
  have s3 : dat.share 3 = fullShare := by unfold Dat.share; rw [show ((cfg6 a).win 3).isOut = false from rfl]; exact hq3
  have s4 : dat.share 4 = fullShare := by unfold Dat.share; rw [show ((cfg6 a).win 4).isOut = true from rfl]; rfl
  rw [ub_split6, hA, bigSep_W6, s0, s1, s2, s3, s4]
  unfold Pipeline.prefHeld
  rw [two_tables6]
  simp only [arrRef6_0, arrRef6_1, arrRef6_2, arrRef6_3, arrRef6_4, preRef6_0, preRef6_1]
  constructor
  · iintro ⟨⟨H1, HW, HB, HO, HS, HD⟩, Hr⟩
    ihave H1' := (pointsTo_share (PosShare.mem_left_op_right fullShare)).1 $$ H1
    icases H1' with ⟨H1a, H1b⟩
    isplitl [H1a H1b HW HB HO]
    · isplitl [H1a]; · iexact H1a
      isplitl [H1b]; · iexact H1b
      isplitl [HW]; · iexact HW
      isplitl [HB]; · iexact HB
      iexact HO
    isplitl [HS HD]
    · isplitl [HS]; · iexact HS
      iexact HD
    iexact Hr
  · iintro ⟨⟨H1a, H1b, HW, HB, HO⟩, ⟨HS, HD⟩, Hr⟩
    ihave H1 := (pointsTo_share (PosShare.mem_left_op_right fullShare)).2 $$ [H1a H1b]
    · isplitl [H1a]; · iexact H1a
      iexact H1b
    isplitr [Hr]
    · isplitl [H1]; · iexact H1
      isplitl [HW]; · iexact HW
      isplitl [HB]; · iexact HB
      isplitl [HO]; · iexact HO
      isplitl [HS]; · iexact HS
      iexact HD
    iexact Hr

set_option maxHeartbeats 1600000 in
/-- ENTRY, everything a variable: for any proof data `dat` whose arrays are `Vd`'s contents (`hA`) and any tables `T`
    that are `Vd`'s contents (`hT`), whenever the boundary contents `Vx` agree with `Vd` at the six touched buffers, the
    unscoped buffers at `Vx` are the pipeline's arrays at their entry contents, the two tables, and the rest. -/
theorem entry6 (a : (pcfg6 (F := F)).Adm) (c : Dev nD) (dat : Dat τ (Elt F) Unit ℕ (UR sig nD τ) ℕ (cfg6 a) c)
    (hq0 : dat.q 0 = fullShare.left) (hq1 : dat.q 1 = fullShare.right) (hq2 : dat.q 2 = fullShare) (hq3 : dat.q 3 = fullShare)
    (Vd Vx : (b : Ref sig .tc) → Buf (Elt F) ((c.tc : Thread nD τ).loc b))
    (hA : ∀ w, dat.A w = Vd (Pipeline.arrRef spec6 w))
    (e_h : Vd main_v1 = Vx main_v1) (e_W : Vd main_arg3 = Vx main_arg3) (e_b : Vd main_v0 = Vx main_v0) (e_out : Vd main_v28 = Vx main_v28)
    (T : pre6.Contents (Elt F)) (hT : ∀ j, T j = Vd (pre6.ref j)) (e_src : Vd main_v26 = Vx main_v26) (e_dst : Vd main_v27 = Vx main_v27) :
    (unscopedBufs (Ix := Unit) (Name := ℕ) (U := UR sig nD τ) (Lvl := ℕ) c Vx : sProp 𝕄)
      ⊢ iprop(dat.arrays (dat.arrAt · 0)
          ∗ Pipeline.prefHeld (Ix := Unit) (Name := ℕ) (U := UR sig nD τ) (Lvl := ℕ) pre6 c (fun _ => fullShare) T ∗ rest6 c Vx) :=
  (bufs6 a c dat hq0 hq1 hq2 hq3 Vx (fun w => dat.arrAt w 0)
    (funext fun w => match w with
      | ⟨0, h⟩ => by show dat.arrAt ⟨0, h⟩ 0 = Vx main_v1; exact (hA ⟨0, h⟩).trans e_h
      | ⟨1, h⟩ => by show dat.arrAt ⟨1, h⟩ 0 = Vx main_v1; exact (hA ⟨1, h⟩).trans e_h
      | ⟨2, h⟩ => by show dat.arrAt ⟨2, h⟩ 0 = Vx main_arg3; exact (hA ⟨2, h⟩).trans e_W
      | ⟨3, h⟩ => by show dat.arrAt ⟨3, h⟩ 0 = Vx main_v0; exact (hA ⟨3, h⟩).trans e_b
      | ⟨4, h⟩ => by show dat.arrAt ⟨4, h⟩ 0 = Vx main_v28; exact (hA ⟨4, h⟩).trans e_out)
    T (funext fun j => match j with
      | ⟨0, h⟩ => by show T ⟨0, h⟩ = Vx main_v26; exact (hT ⟨0, h⟩).trans e_src
      | ⟨1, h⟩ => by show T ⟨1, h⟩ = Vx main_v27; exact (hT ⟨1, h⟩).trans e_dst)).1

set_option maxHeartbeats 1600000 in
/-- EXIT, everything a variable: the inputs' arrays end as they began, the output array at what the last write-backs
    leave (`x_out`); whenever `Vx` holds those contents at the six touched buffers, the pipeline's arrays at their final
    contents, the two tables and the rest at `Vx` are the unscoped buffers at `Vx`. -/
theorem exit6 (a : (pcfg6 (F := F)).Adm) (c : Dev nD) (dat : Dat τ (Elt F) Unit ℕ (UR sig nD τ) ℕ (cfg6 a) c) (N : Nat)
    (hq0 : dat.q 0 = fullShare.left) (hq1 : dat.q 1 = fullShare.right) (hq2 : dat.q 2 = fullShare) (hq3 : dat.q 3 = fullShare)
    (Vd Vx : (b : Ref sig .tc) → Buf (Elt F) ((c.tc : Thread nD τ).loc b))
    (hA : ∀ w, dat.A w = Vd (Pipeline.arrRef spec6 w))
    (x_h : Vd main_v1 = Vx main_v1) (x_W : Vd main_arg3 = Vx main_arg3) (x_b : Vd main_v0 = Vx main_v0) (x_out : dat.arrAt 4 N = Vx main_v28)
    (T : pre6.Contents (Elt F)) (hT : ∀ j, T j = Vd (pre6.ref j)) (x_src : Vd main_v26 = Vx main_v26) (x_dst : Vd main_v27 = Vx main_v27) :
    iprop(dat.arrays (dat.arrAt · N)
        ∗ Pipeline.prefHeld (Ix := Unit) (Name := ℕ) (U := UR sig nD τ) (Lvl := ℕ) pre6 c (fun _ => fullShare) T ∗ rest6 c Vx)
      ⊢ (unscopedBufs (Ix := Unit) (Name := ℕ) (U := UR sig nD τ) (Lvl := ℕ) c Vx : sProp 𝕄) :=
  (bufs6 a c dat hq0 hq1 hq2 hq3 Vx (fun w => dat.arrAt w N)
    (funext fun w => match w with
      | ⟨0, h⟩ => by show dat.arrAt ⟨0, h⟩ N = Vx main_v1; exact (dat.arrAt_in ⟨0, h⟩ rfl N).trans ((hA ⟨0, h⟩).trans x_h)
      | ⟨1, h⟩ => by show dat.arrAt ⟨1, h⟩ N = Vx main_v1; exact (dat.arrAt_in ⟨1, h⟩ rfl N).trans ((hA ⟨1, h⟩).trans x_h)
      | ⟨2, h⟩ => by show dat.arrAt ⟨2, h⟩ N = Vx main_arg3; exact (dat.arrAt_in ⟨2, h⟩ rfl N).trans ((hA ⟨2, h⟩).trans x_W)
      | ⟨3, h⟩ => by show dat.arrAt ⟨3, h⟩ N = Vx main_v0; exact (dat.arrAt_in ⟨3, h⟩ rfl N).trans ((hA ⟨3, h⟩).trans x_b)
      | ⟨4, h⟩ => by show dat.arrAt ⟨4, h⟩ N = Vx main_v28; exact x_out)
    T (funext fun j => match j with
      | ⟨0, h⟩ => by show T ⟨0, h⟩ = Vx main_v26; exact (hT ⟨0, h⟩).trans x_src
      | ⟨1, h⟩ => by show T ⟨1, h⟩ = Vx main_v27; exact (hT ⟨1, h⟩).trans x_dst)).2

variable (m : (ℓ : Loc nD τ sig) → Buf (Elt F) ℓ) (hO : Oks m)

/-! ## What the region finds and leaves, buffer by buffer -/

include hO

theorem fin6_h (c : Dev nD) : Ve6 m c main_v1 = V13 m (outsR m hO) c main_v1 := by first | exact indep6_h m (outsL m) (outsR m hO) c | rfl
theorem fin6_W (c : Dev nD) : Ve6 m c main_arg3 = V13 m (outsR m hO) c main_arg3 := by first | exact indep6_W m (outsL m) (outsR m hO) c | rfl
theorem fin6_b (c : Dev nD) : Ve6 m c main_v0 = V13 m (outsR m hO) c main_v0 := by first | exact indep6_b m (outsL m) (outsR m hO) c | rfl
theorem fin6_out (c : Dev nD) : Ve6 m c main_v28 = V13 m (outsR m hO) c main_v28 := by first | exact indep6_out m (outsL m) (outsR m hO) c | rfl
theorem fin6_src (c : Dev nD) : Ve6 m c main_v26 = V13 m (outsR m hO) c main_v26 := by first | exact indep6_src m (outsL m) (outsR m hO) c | rfl
theorem fin6_dst (c : Dev nD) : Ve6 m c main_v27 = V13 m (outsR m hO) c main_v27 := by first | exact indep6_dst m (outsL m) (outsR m hO) c | rfl

/-- What the region leaves in the buffers it touches: the inputs and the tables as they were, the output array at the
    region's chunk. -/
theorem lv6_h (c : Dev nD) : V14 m (outsR m hO) c main_v1 = V13 m (outsR m hO) c main_v1 := V14_of m (outsR m hO) c main_v1 (by decide)
theorem lv6_W (c : Dev nD) : V14 m (outsR m hO) c main_arg3 = V13 m (outsR m hO) c main_arg3 := V14_of m (outsR m hO) c main_arg3 (by decide)
theorem lv6_b (c : Dev nD) : V14 m (outsR m hO) c main_v0 = V13 m (outsR m hO) c main_v0 := V14_of m (outsR m hO) c main_v0 (by decide)
theorem lv6_src (c : Dev nD) : V14 m (outsR m hO) c main_v26 = V13 m (outsR m hO) c main_v26 := V14_of m (outsR m hO) c main_v26 (by decide)
theorem lv6_dst (c : Dev nD) : V14 m (outsR m hO) c main_v27 = V13 m (outsR m hO) c main_v27 := V14_of m (outsR m hO) c main_v27 (by decide)
theorem lv6_out (c : Dev nD) : V14 m (outsR m hO) c main_v28 = chunk6 m hO c :=
  (Function.update_self _ _ _).trans (outsR_6 m hO c)

/-- The buffers the region does not touch pass it by unchanged. -/
theorem rest6_eq (c : Dev nD) : (rest6 c (fun b => V13 m (outsR m hO) c b) : sProp 𝕄) = rest6 c (fun b => V14 m (outsR m hO) c b) := by
  unfold rest6
  exact BI.bigSep_congr fun b hb => by
    dsimp only
    rw [V14_of m (outsR m hO) c b (fun h => (Finset.mem_sdiff.mp hb).2 (by rw [List.mem_singleton.mp h]; decide))]

set_option maxHeartbeats 1600000 in
set_option backward.isDefEq.respectTransparency.types false in
/-- REGION 0 over the boundary states. -/
def reg6 : Pipeline.RegionSeg (pcfgs (F := F)) (adm m hO) (pdats m hO) () defs₀ 𝒱₀ L lv (6 : Fin 16) where
  win := winFacts₀6
  block_pos := block_pos6
  stage_whole := stage_whole6
  K := PEmpty
  osem k := k.elim
  ho := Pipeline.OwnSemFacts.none _
  hbody c := (body_obligation6 (Ve6 m) ⟨tbl6 m, hO.h6⟩ c).loose
  hwaits := Pipeline.hwaits_of_owed_zero _ _ _ _ L lv (6 : Fin 16) fun _ _ => rfl
  pre c := iprop(StableHlo.held (c : Thread nD τ) (Pipeline.ucRefs τ sig) (V13 m (outsR m hO) c) ∗ Rst c)
  post c := iprop(StableHlo.held (c : Thread nD τ) (Pipeline.ucRefs τ sig) (V14 m (outsR m hO) c) ∗ Rst c)
  X c := iprop(∃ r, prngReg c r)
  Y c := iprop((∃ r, prngReg c r) ∗ Pipeline.prefHeld (Ix := Unit) (Name := ℕ) (U := UR sig nD τ) (Lvl := ℕ) pre6 c (fun _ => fullShare) (tbl6 m))
  Z c := rest6 c (fun b => V13 m (outsR m hO) c b)
  hentry c := by
    obtain rfl : c = 0 := Subsingleton.elim _ _
    have hb := entry6 (adm m hO (6 : Fin 16)) 0 (pdats m hO (6 : Fin 16) 0) rfl rfl rfl rfl (Ve6 m 0) (fun b => V13 m (outsR m hO) 0 b) (fun w => rfl)
      (fin6_h m hO 0) (fin6_W m hO 0) (fin6_b m hO 0) (fin6_out m hO 0) (tbl6 m) (fun j => rfl) (fin6_src m hO 0) (fin6_dst m hO 0)
    rw [Pipeline.unscopedBufs_held] at hb
    iintro ⟨⟨Hub, Hp, HO⟩, -, -⟩
    ihave H := hb $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO (6 : Fin 16) c).Φ 0 = iprop(Pipeline.ΦA spec6 c ∗ Pipeline.prefHeld (Ix := Unit) (Name := ℕ) (U := UR sig nD τ) (Lvl := ℕ) pre6 c (fun _ => fullShare) (tbl6 m)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m hO (6 : Fin 16) c).Φ (Fin.last _) = iprop(Pipeline.ΦA spec6 c ∗ Pipeline.prefHeld (Ix := Unit) (Name := ℕ) (U := UR sig nD τ) (Lvl := ℕ) pre6 c (fun _ => fullShare) (tbl6 m)) from rfl]
    unfold Pipeline.ΦA
    iintro ⟨⟨Hr, Hp⟩, Ht⟩
    isplitl [Hp Ht]
    · isplitl [Hp]; · iexact Hp
      iexact Ht
    isplitr; · iempintro
    iexact Hr
  hexit c := by
    obtain rfl : c = 0 := Subsingleton.elim _ _
    have hb := exit6 (adm m hO (6 : Fin 16)) 0 (pdats m hO (6 : Fin 16) 0) (Pipeline.pin (pcfgs (F := F)) (adm m hO) (6 : Fin 16)).N rfl rfl rfl rfl
      (Ve6 m 0) (fun b => V14 m (outsR m hO) 0 b) (fun w => rfl)
      ((fin6_h m hO 0).trans (lv6_h m hO 0).symm) ((fin6_W m hO 0).trans (lv6_W m hO 0).symm) ((fin6_b m hO 0).trans (lv6_b m hO 0).symm)
      (lv6_out m hO 0).symm (tbl6 m) (fun j => rfl) ((fin6_src m hO 0).trans (lv6_src m hO 0).symm) ((fin6_dst m hO 0).trans (lv6_dst m hO 0).symm)
    rw [Pipeline.unscopedBufs_held, ← rest6_eq m hO 0] at hb
    iintro ⟨Ha, HO, ⟨Hp, Ht⟩, Hrest⟩
    imodintro
    isplitl [Ha Ht Hrest]
    · iapply hb
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Cert.KernelIdeal.Hand

end
-- ==== Proof.KIReg7.lean ====
/-
  Region 7 of the edge scorer as a segment of the program's run.

  The region is entered with every unscoped buffer held whole at the contents the host operations before it leave,
  beside the generator register and nothing owed. Of those buffers the pipeline takes the four arrays its five windows
  read and write — the feature rows (read by two windows, each at one half of the full share), the weights, the
  bias and the output chunk — and the two index tables; the other unscoped buffers bypass the region. At the exit the
  feature rows' two halves rejoin, the inputs are as they were, the output array holds the region's chunk, and
  the whole is the next boundary's contents.
-/
import proofs.«405368_j31662498906597_2_alg».proof.Proof.KIFamily
import proofs.«405368_j31662498906597_2_alg».proof.Proof.KIHostEntry
import proofs.«405368_j31662498906597_2_alg».proof.Proof.KIHostEntryGen
import Idealize.ShloMosaic.Lib.Pipeline.RegionsLoop

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The six unscoped buffers region 7 touches: the feature rows, the weights, the bias, its output chunk and its two
    index tables. -/
abbrev arrs7 : Finset (Ref sig .tc) := insert main_v1 (insert main_arg3 (insert main_v0 (insert main_v32 (insert main_v30 {main_v31}))))

theorem arrs7_sub : arrs7 ⊆ Finset.univ.filter fun b : Ref sig .tc => ¬ b.isScoped := by decide

/-- The unscoped buffers region 7 does not touch, held whole at `V`. -/
def rest7 (c : Dev nD) (V : (b : Ref sig .tc) → Buf (Elt F) ((c.tc : Thread nD τ).loc b)) : sProp 𝕄 :=
  bigSep ((Finset.univ.filter fun b : Ref sig .tc => ¬ b.isScoped) \ arrs7) fun b => ((c.tc : Thread nD τ).loc b) ↦{fullShare} V b

/-- The six touched buffers one by one, and the rest. -/
theorem ub_split7 (c : Dev nD) (V : (b : Ref sig .tc) → Buf (Elt F) ((c.tc : Thread nD τ).loc b)) :
    (unscopedBufs (Ix := Unit) (Name := ℕ) (U := UR sig nD τ) (Lvl := ℕ) c V : sProp 𝕄)
      = iprop(iprop((((c.tc : Thread nD τ).loc main_v1) ↦{fullShare} V main_v1) ∗ (((c.tc : Thread nD τ).loc main_arg3) ↦{fullShare} V main_arg3)
          ∗ (((c.tc : Thread nD τ).loc main_v0) ↦{fullShare} V main_v0) ∗ (((c.tc : Thread nD τ).loc main_v32) ↦{fullShare} V main_v32)
          ∗ (((c.tc : Thread nD τ).loc main_v30) ↦{fullShare} V main_v30) ∗ (((c.tc : Thread nD τ).loc main_v31) ↦{fullShare} V main_v31)) ∗ rest7 c V) := by
  unfold unscopedBufs rest7
  rw [BI.bigSep_sdiff_split arrs7_sub]
  refine congrArg (fun X => iprop(X ∗ _)) ?_
  show bigSep (insert main_v1 (insert main_arg3 (insert main_v0 (insert main_v32 (insert main_v30 {main_v31}))))) _ = _
  rw [BI.bigSep_insert (by decide), BI.bigSep_insert (by decide), BI.bigSep_insert (by decide), BI.bigSep_insert (by decide),
    BI.bigSep_insert (by decide), BI.bigSep_singleton]
  rfl

/-- A product over two tables, written out. -/
theorem two_tables7 (Φ : Fin 2 → sProp 𝕄) : bigSep Finset.univ Φ = iprop(Φ 0 ∗ Φ 1) := BI.bigSep_fin_two Φ

/-- The five windows' arrays and the two tables, by name. -/
theorem arrRef7_0 : Pipeline.arrRef spec7 (0 : Fin 5) = main_v1 := rfl
theorem arrRef7_1 : Pipeline.arrRef spec7 (1 : Fin 5) = main_v1 := rfl
theorem arrRef7_2 : Pipeline.arrRef spec7 (2 : Fin 5) = main_arg3 := rfl
theorem arrRef7_3 : Pipeline.arrRef spec7 (3 : Fin 5) = main_v0 := rfl
theorem arrRef7_4 : Pipeline.arrRef spec7 (4 : Fin 5) = main_v32 := rfl
theorem preRef7_0 : pre7.ref (0 : Fin 2) = main_v30 := rfl
theorem preRef7_1 : pre7.ref (1 : Fin 2) = main_v31 := rfl

set_option maxHeartbeats 1600000 in
/-- A core's unscoped buffers held whole at `V` ARE the pipeline's arrays at `V`'s contents of them (the feature rows'
    full share dealt as its two halves to the two windows that read them), the two tables at `V`'s contents of
    them, and the rest. Both directions: the region's entry and its exit. -/
theorem bufs7 (a : (pcfg7 (F := F)).Adm) (c : Dev nD) (dat : Dat τ (Elt F) Unit ℕ (UR sig nD τ) ℕ (cfg7 a) c)
    (hq0 : dat.q 0 = fullShare.left) (hq1 : dat.q 1 = fullShare.right) (hq2 : dat.q 2 = fullShare) (hq3 : dat.q 3 = fullShare)
    (V : (b : Ref sig .tc) → Buf (Elt F) ((c.tc : Thread nD τ).loc b))
    (G : (w : Fin (cfg7 a).W) → Buf (Elt F) (((cfg7 a).win w).arr.view.loc (c.tc : Thread nD τ)))
    (hG : G = fun w => V (Pipeline.arrRef spec7 w))
    (T : pre7.Contents (Elt F)) (hT : T = fun k => V (pre7.ref k)) :
    (unscopedBufs (Ix := Unit) (Name := ℕ) (U := UR sig nD τ) (Lvl := ℕ) c V : sProp 𝕄)
      ⊣⊢ iprop(dat.arrays G ∗ Pipeline.prefHeld (Ix := Unit) (Name := ℕ) (U := UR sig nD τ) (Lvl := ℕ) pre7 c (fun _ => fullShare) T ∗ rest7 c V) := by
  subst hG hT
  have harr : ∀ w, (((cfg7 a).spec w).arr).IsWhole := arr_whole7
  have hA : dat.arrays (fun w => V (Pipeline.arrRef spec7 w))
      = bigSep Finset.univ fun w : Fin 5 => (((c.tc : Thread nD τ).loc (Pipeline.arrRef spec7 w)) ↦{dat.share w} V (Pipeline.arrRef spec7 w) : sProp 𝕄) := by
    unfold Dat.arrays
    exact BI.bigSep_congr fun w _ => by rw [(harr w).set_eq_univ]
  have s0 : dat.share 0 = fullShare.left := by unfold Dat.share; rw [show ((cfg7 a).win 0).isOut = false from rfl]; exact hq0
  have s1 : dat.share 1 = fullShare.right := by unfold Dat.share; rw [show ((cfg7 a).win 1).isOut = false from rfl]; exact hq1
  have s2 : dat.share 2 = fullShare := by unfold Dat.share; rw [show ((cfg7 a).win 2).isOut = false from rfl]; exact hq2
  have s3 : dat.share 3 = fullShare := by unfold Dat.share; rw [show ((cfg7 a).win 3).isOut = false from rfl]; exact hq3
  have s4 : dat.share 4 = fullShare := by unfold Dat.share; rw [show ((cfg7 a).win 4).isOut = true from rfl]; rfl
  rw [ub_split7, hA, bigSep_W7, s0, s1, s2, s3, s4]
  unfold Pipeline.prefHeld
  rw [two_tables7]
  simp only [arrRef7_0, arrRef7_1, arrRef7_2, arrRef7_3, arrRef7_4, preRef7_0, preRef7_1]
  constructor
  · iintro ⟨⟨H1, HW, HB, HO, HS, HD⟩, Hr⟩
    ihave H1' := (pointsTo_share (PosShare.mem_left_op_right fullShare)).1 $$ H1
    icases H1' with ⟨H1a, H1b⟩
    isplitl [H1a H1b HW HB HO]
    · isplitl [H1a]; · iexact H1a
      isplitl [H1b]; · iexact H1b
      isplitl [HW]; · iexact HW
      isplitl [HB]; · iexact HB
      iexact HO
    isplitl [HS HD]
    · isplitl [HS]; · iexact HS
      iexact HD
    iexact Hr
  · iintro ⟨⟨H1a, H1b, HW, HB, HO⟩, ⟨HS, HD⟩, Hr⟩
    ihave H1 := (pointsTo_share (PosShare.mem_left_op_right fullShare)).2 $$ [H1a H1b]
    · isplitl [H1a]; · iexact H1a
      iexact H1b
    isplitr [Hr]
    · isplitl [H1]; · iexact H1
      isplitl [HW]; · iexact HW
      isplitl [HB]; · iexact HB
      isplitl [HO]; · iexact HO
      isplitl [HS]; · iexact HS
      iexact HD
    iexact Hr

set_option maxHeartbeats 1600000 in
/-- ENTRY, everything a variable: for any proof data `dat` whose arrays are `Vd`'s contents (`hA`) and any tables `T`
    that are `Vd`'s contents (`hT`), whenever the boundary contents `Vx` agree with `Vd` at the six touched buffers, the
    unscoped buffers at `Vx` are the pipeline's arrays at their entry contents, the two tables, and the rest. -/
theorem entry7 (a : (pcfg7 (F := F)).Adm) (c : Dev nD) (dat : Dat τ (Elt F) Unit ℕ (UR sig nD τ) ℕ (cfg7 a) c)
    (hq0 : dat.q 0 = fullShare.left) (hq1 : dat.q 1 = fullShare.right) (hq2 : dat.q 2 = fullShare) (hq3 : dat.q 3 = fullShare)
    (Vd Vx : (b : Ref sig .tc) → Buf (Elt F) ((c.tc : Thread nD τ).loc b))
    (hA : ∀ w, dat.A w = Vd (Pipeline.arrRef spec7 w))
    (e_h : Vd main_v1 = Vx main_v1) (e_W : Vd main_arg3 = Vx main_arg3) (e_b : Vd main_v0 = Vx main_v0) (e_out : Vd main_v32 = Vx main_v32)
    (T : pre7.Contents (Elt F)) (hT : ∀ j, T j = Vd (pre7.ref j)) (e_src : Vd main_v30 = Vx main_v30) (e_dst : Vd main_v31 = Vx main_v31) :
    (unscopedBufs (Ix := Unit) (Name := ℕ) (U := UR sig nD τ) (Lvl := ℕ) c Vx : sProp 𝕄)
      ⊢ iprop(dat.arrays (dat.arrAt · 0)
          ∗ Pipeline.prefHeld (Ix := Unit) (Name := ℕ) (U := UR sig nD τ) (Lvl := ℕ) pre7 c (fun _ => fullShare) T ∗ rest7 c Vx) :=
  (bufs7 a c dat hq0 hq1 hq2 hq3 Vx (fun w => dat.arrAt w 0)
    (funext fun w => match w with
      | ⟨0, h⟩ => by show dat.arrAt ⟨0, h⟩ 0 = Vx main_v1; exact (hA ⟨0, h⟩).trans e_h
      | ⟨1, h⟩ => by show dat.arrAt ⟨1, h⟩ 0 = Vx main_v1; exact (hA ⟨1, h⟩).trans e_h
      | ⟨2, h⟩ => by show dat.arrAt ⟨2, h⟩ 0 = Vx main_arg3; exact (hA ⟨2, h⟩).trans e_W
      | ⟨3, h⟩ => by show dat.arrAt ⟨3, h⟩ 0 = Vx main_v0; exact (hA ⟨3, h⟩).trans e_b
      | ⟨4, h⟩ => by show dat.arrAt ⟨4, h⟩ 0 = Vx main_v32; exact (hA ⟨4, h⟩).trans e_out)
    T (funext fun j => match j with
      | ⟨0, h⟩ => by show T ⟨0, h⟩ = Vx main_v30; exact (hT ⟨0, h⟩).trans e_src
      | ⟨1, h⟩ => by show T ⟨1, h⟩ = Vx main_v31; exact (hT ⟨1, h⟩).trans e_dst)).1

set_option maxHeartbeats 1600000 in
/-- EXIT, everything a variable: the inputs' arrays end as they began, the output array at what the last write-backs
    leave (`x_out`); whenever `Vx` holds those contents at the six touched buffers, the pipeline's arrays at their final
    contents, the two tables and the rest at `Vx` are the unscoped buffers at `Vx`. -/
theorem exit7 (a : (pcfg7 (F := F)).Adm) (c : Dev nD) (dat : Dat τ (Elt F) Unit ℕ (UR sig nD τ) ℕ (cfg7 a) c) (N : Nat)
    (hq0 : dat.q 0 = fullShare.left) (hq1 : dat.q 1 = fullShare.right) (hq2 : dat.q 2 = fullShare) (hq3 : dat.q 3 = fullShare)
    (Vd Vx : (b : Ref sig .tc) → Buf (Elt F) ((c.tc : Thread nD τ).loc b))
    (hA : ∀ w, dat.A w = Vd (Pipeline.arrRef spec7 w))
    (x_h : Vd main_v1 = Vx main_v1) (x_W : Vd main_arg3 = Vx main_arg3) (x_b : Vd main_v0 = Vx main_v0) (x_out : dat.arrAt 4 N = Vx main_v32)
    (T : pre7.Contents (Elt F)) (hT : ∀ j, T j = Vd (pre7.ref j)) (x_src : Vd main_v30 = Vx main_v30) (x_dst : Vd main_v31 = Vx main_v31) :
    iprop(dat.arrays (dat.arrAt · N)
        ∗ Pipeline.prefHeld (Ix := Unit) (Name := ℕ) (U := UR sig nD τ) (Lvl := ℕ) pre7 c (fun _ => fullShare) T ∗ rest7 c Vx)
      ⊢ (unscopedBufs (Ix := Unit) (Name := ℕ) (U := UR sig nD τ) (Lvl := ℕ) c Vx : sProp 𝕄) :=
  (bufs7 a c dat hq0 hq1 hq2 hq3 Vx (fun w => dat.arrAt w N)
    (funext fun w => match w with
      | ⟨0, h⟩ => by show dat.arrAt ⟨0, h⟩ N = Vx main_v1; exact (dat.arrAt_in ⟨0, h⟩ rfl N).trans ((hA ⟨0, h⟩).trans x_h)
      | ⟨1, h⟩ => by show dat.arrAt ⟨1, h⟩ N = Vx main_v1; exact (dat.arrAt_in ⟨1, h⟩ rfl N).trans ((hA ⟨1, h⟩).trans x_h)
      | ⟨2, h⟩ => by show dat.arrAt ⟨2, h⟩ N = Vx main_arg3; exact (dat.arrAt_in ⟨2, h⟩ rfl N).trans ((hA ⟨2, h⟩).trans x_W)
      | ⟨3, h⟩ => by show dat.arrAt ⟨3, h⟩ N = Vx main_v0; exact (dat.arrAt_in ⟨3, h⟩ rfl N).trans ((hA ⟨3, h⟩).trans x_b)
      | ⟨4, h⟩ => by show dat.arrAt ⟨4, h⟩ N = Vx main_v32; exact x_out)
    T (funext fun j => match j with
      | ⟨0, h⟩ => by show T ⟨0, h⟩ = Vx main_v30; exact (hT ⟨0, h⟩).trans x_src
      | ⟨1, h⟩ => by show T ⟨1, h⟩ = Vx main_v31; exact (hT ⟨1, h⟩).trans x_dst)).2

variable (m : (ℓ : Loc nD τ sig) → Buf (Elt F) ℓ) (hO : Oks m)

/-! ## What the region finds and leaves, buffer by buffer -/

include hO

theorem fin7_h (c : Dev nD) : Ve7 m c main_v1 = V15 m (outsR m hO) c main_v1 := by first | exact indep7_h m (outsL m) (outsR m hO) c | rfl
theorem fin7_W (c : Dev nD) : Ve7 m c main_arg3 = V15 m (outsR m hO) c main_arg3 := by first | exact indep7_W m (outsL m) (outsR m hO) c | rfl
theorem fin7_b (c : Dev nD) : Ve7 m c main_v0 = V15 m (outsR m hO) c main_v0 := by first | exact indep7_b m (outsL m) (outsR m hO) c | rfl
theorem fin7_out (c : Dev nD) : Ve7 m c main_v32 = V15 m (outsR m hO) c main_v32 := by first | exact indep7_out m (outsL m) (outsR m hO) c | rfl
theorem fin7_src (c : Dev nD) : Ve7 m c main_v30 = V15 m (outsR m hO) c main_v30 := by first | exact indep7_src m (outsL m) (outsR m hO) c | rfl
theorem fin7_dst (c : Dev nD) : Ve7 m c main_v31 = V15 m (outsR m hO) c main_v31 := by first | exact indep7_dst m (outsL m) (outsR m hO) c | rfl

/-- What the region leaves in the buffers it touches: the inputs and the tables as they were, the output array at the
    region's chunk. -/
theorem lv7_h (c : Dev nD) : V16 m (outsR m hO) c main_v1 = V15 m (outsR m hO) c main_v1 := V16_of m (outsR m hO) c main_v1 (by decide)
theorem lv7_W (c : Dev nD) : V16 m (outsR m hO) c main_arg3 = V15 m (outsR m hO) c main_arg3 := V16_of m (outsR m hO) c main_arg3 (by decide)
theorem lv7_b (c : Dev nD) : V16 m (outsR m hO) c main_v0 = V15 m (outsR m hO) c main_v0 := V16_of m (outsR m hO) c main_v0 (by decide)
theorem lv7_src (c : Dev nD) : V16 m (outsR m hO) c main_v30 = V15 m (outsR m hO) c main_v30 := V16_of m (outsR m hO) c main_v30 (by decide)
theorem lv7_dst (c : Dev nD) : V16 m (outsR m hO) c main_v31 = V15 m (outsR m hO) c main_v31 := V16_of m (outsR m hO) c main_v31 (by decide)
theorem lv7_out (c : Dev nD) : V16 m (outsR m hO) c main_v32 = chunk7 m hO c :=
  (Function.update_self _ _ _).trans (outsR_7 m hO c)

/-- The buffers the region does not touch pass it by unchanged. -/
theorem rest7_eq (c : Dev nD) : (rest7 c (fun b => V15 m (outsR m hO) c b) : sProp 𝕄) = rest7 c (fun b => V16 m (outsR m hO) c b) := by
  unfold rest7
  exact BI.bigSep_congr fun b hb => by
    dsimp only
    rw [V16_of m (outsR m hO) c b (fun h => (Finset.mem_sdiff.mp hb).2 (by rw [List.mem_singleton.mp h]; decide))]

set_option maxHeartbeats 1600000 in
set_option backward.isDefEq.respectTransparency.types false in
/-- REGION 0 over the boundary states. -/
def reg7 : Pipeline.RegionSeg (pcfgs (F := F)) (adm m hO) (pdats m hO) () defs₀ 𝒱₀ L lv (7 : Fin 16) where
  win := winFacts₀7
  block_pos := block_pos7
  stage_whole := stage_whole7
  K := PEmpty
  osem k := k.elim
  ho := Pipeline.OwnSemFacts.none _
  hbody c := (body_obligation7 (Ve7 m) ⟨tbl7 m, hO.h7⟩ c).loose
  hwaits := Pipeline.hwaits_of_owed_zero _ _ _ _ L lv (7 : Fin 16) fun _ _ => rfl
  pre c := iprop(StableHlo.held (c : Thread nD τ) (Pipeline.ucRefs τ sig) (V15 m (outsR m hO) c) ∗ Rst c)
  post c := iprop(StableHlo.held (c : Thread nD τ) (Pipeline.ucRefs τ sig) (V16 m (outsR m hO) c) ∗ Rst c)
  X c := iprop(∃ r, prngReg c r)
  Y c := iprop((∃ r, prngReg c r) ∗ Pipeline.prefHeld (Ix := Unit) (Name := ℕ) (U := UR sig nD τ) (Lvl := ℕ) pre7 c (fun _ => fullShare) (tbl7 m))
  Z c := rest7 c (fun b => V15 m (outsR m hO) c b)
  hentry c := by
    obtain rfl : c = 0 := Subsingleton.elim _ _
    have hb := entry7 (adm m hO (7 : Fin 16)) 0 (pdats m hO (7 : Fin 16) 0) rfl rfl rfl rfl (Ve7 m 0) (fun b => V15 m (outsR m hO) 0 b) (fun w => rfl)
      (fin7_h m hO 0) (fin7_W m hO 0) (fin7_b m hO 0) (fin7_out m hO 0) (tbl7 m) (fun j => rfl) (fin7_src m hO 0) (fin7_dst m hO 0)
    rw [Pipeline.unscopedBufs_held] at hb
    iintro ⟨⟨Hub, Hp, HO⟩, -, -⟩
    ihave H := hb $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO (7 : Fin 16) c).Φ 0 = iprop(Pipeline.ΦA spec7 c ∗ Pipeline.prefHeld (Ix := Unit) (Name := ℕ) (U := UR sig nD τ) (Lvl := ℕ) pre7 c (fun _ => fullShare) (tbl7 m)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m hO (7 : Fin 16) c).Φ (Fin.last _) = iprop(Pipeline.ΦA spec7 c ∗ Pipeline.prefHeld (Ix := Unit) (Name := ℕ) (U := UR sig nD τ) (Lvl := ℕ) pre7 c (fun _ => fullShare) (tbl7 m)) from rfl]
    unfold Pipeline.ΦA
    iintro ⟨⟨Hr, Hp⟩, Ht⟩
    isplitl [Hp Ht]
    · isplitl [Hp]; · iexact Hp
      iexact Ht
    isplitr; · iempintro
    iexact Hr
  hexit c := by
    obtain rfl : c = 0 := Subsingleton.elim _ _
    have hb := exit7 (adm m hO (7 : Fin 16)) 0 (pdats m hO (7 : Fin 16) 0) (Pipeline.pin (pcfgs (F := F)) (adm m hO) (7 : Fin 16)).N rfl rfl rfl rfl
      (Ve7 m 0) (fun b => V16 m (outsR m hO) 0 b) (fun w => rfl)
      ((fin7_h m hO 0).trans (lv7_h m hO 0).symm) ((fin7_W m hO 0).trans (lv7_W m hO 0).symm) ((fin7_b m hO 0).trans (lv7_b m hO 0).symm)
      (lv7_out m hO 0).symm (tbl7 m) (fun j => rfl) ((fin7_src m hO 0).trans (lv7_src m hO 0).symm) ((fin7_dst m hO 0).trans (lv7_dst m hO 0).symm)
    rw [Pipeline.unscopedBufs_held, ← rest7_eq m hO 0] at hb
    iintro ⟨Ha, HO, ⟨Hp, Ht⟩, Hrest⟩
    imodintro
    isplitl [Ha Ht Hrest]
    · iapply hb
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Cert.KernelIdeal.Hand

end
-- ==== Proof.KIReg8.lean ====
/-
  Region 8 of the edge scorer as a segment of the program's run.

  The region is entered with every unscoped buffer held whole at the contents the host operations before it leave,
  beside the generator register and nothing owed. Of those buffers the pipeline takes the four arrays its five windows
  read and write — the feature rows (read by two windows, each at one half of the full share), the weights, the
  bias and the output chunk — and the two index tables; the other unscoped buffers bypass the region. At the exit the
  feature rows' two halves rejoin, the inputs are as they were, the output array holds the region's chunk, and
  the whole is the next boundary's contents.
-/
import proofs.«405368_j31662498906597_2_alg».proof.Proof.KIFamily
import proofs.«405368_j31662498906597_2_alg».proof.Proof.KIHostEntry
import proofs.«405368_j31662498906597_2_alg».proof.Proof.KIHostEntryGen
import Idealize.ShloMosaic.Lib.Pipeline.RegionsLoop

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The six unscoped buffers region 8 touches: the feature rows, the weights, the bias, its output chunk and its two
    index tables. -/
abbrev arrs8 : Finset (Ref sig .tc) := insert main_v1 (insert main_arg3 (insert main_v0 (insert main_v36 (insert main_v34 {main_v35}))))

theorem arrs8_sub : arrs8 ⊆ Finset.univ.filter fun b : Ref sig .tc => ¬ b.isScoped := by decide

/-- The unscoped buffers region 8 does not touch, held whole at `V`. -/
def rest8 (c : Dev nD) (V : (b : Ref sig .tc) → Buf (Elt F) ((c.tc : Thread nD τ).loc b)) : sProp 𝕄 :=
  bigSep ((Finset.univ.filter fun b : Ref sig .tc => ¬ b.isScoped) \ arrs8) fun b => ((c.tc : Thread nD τ).loc b) ↦{fullShare} V b

/-- The six touched buffers one by one, and the rest. -/
theorem ub_split8 (c : Dev nD) (V : (b : Ref sig .tc) → Buf (Elt F) ((c.tc : Thread nD τ).loc b)) :
    (unscopedBufs (Ix := Unit) (Name := ℕ) (U := UR sig nD τ) (Lvl := ℕ) c V : sProp 𝕄)
      = iprop(iprop((((c.tc : Thread nD τ).loc main_v1) ↦{fullShare} V main_v1) ∗ (((c.tc : Thread nD τ).loc main_arg3) ↦{fullShare} V main_arg3)
          ∗ (((c.tc : Thread nD τ).loc main_v0) ↦{fullShare} V main_v0) ∗ (((c.tc : Thread nD τ).loc main_v36) ↦{fullShare} V main_v36)
          ∗ (((c.tc : Thread nD τ).loc main_v34) ↦{fullShare} V main_v34) ∗ (((c.tc : Thread nD τ).loc main_v35) ↦{fullShare} V main_v35)) ∗ rest8 c V) := by
  unfold unscopedBufs rest8
  rw [BI.bigSep_sdiff_split arrs8_sub]
  refine congrArg (fun X => iprop(X ∗ _)) ?_
  show bigSep (insert main_v1 (insert main_arg3 (insert main_v0 (insert main_v36 (insert main_v34 {main_v35}))))) _ = _
  rw [BI.bigSep_insert (by decide), BI.bigSep_insert (by decide), BI.bigSep_insert (by decide), BI.bigSep_insert (by decide),
    BI.bigSep_insert (by decide), BI.bigSep_singleton]
  rfl

/-- A product over two tables, written out. -/
theorem two_tables8 (Φ : Fin 2 → sProp 𝕄) : bigSep Finset.univ Φ = iprop(Φ 0 ∗ Φ 1) := BI.bigSep_fin_two Φ

/-- The five windows' arrays and the two tables, by name. -/
theorem arrRef8_0 : Pipeline.arrRef spec8 (0 : Fin 5) = main_v1 := rfl
theorem arrRef8_1 : Pipeline.arrRef spec8 (1 : Fin 5) = main_v1 := rfl
theorem arrRef8_2 : Pipeline.arrRef spec8 (2 : Fin 5) = main_arg3 := rfl
theorem arrRef8_3 : Pipeline.arrRef spec8 (3 : Fin 5) = main_v0 := rfl
theorem arrRef8_4 : Pipeline.arrRef spec8 (4 : Fin 5) = main_v36 := rfl
theorem preRef8_0 : pre8.ref (0 : Fin 2) = main_v34 := rfl
theorem preRef8_1 : pre8.ref (1 : Fin 2) = main_v35 := rfl

set_option maxHeartbeats 1600000 in
/-- A core's unscoped buffers held whole at `V` ARE the pipeline's arrays at `V`'s contents of them (the feature rows'
    full share dealt as its two halves to the two windows that read them), the two tables at `V`'s contents of
    them, and the rest. Both directions: the region's entry and its exit. -/
theorem bufs8 (a : (pcfg8 (F := F)).Adm) (c : Dev nD) (dat : Dat τ (Elt F) Unit ℕ (UR sig nD τ) ℕ (cfg8 a) c)
    (hq0 : dat.q 0 = fullShare.left) (hq1 : dat.q 1 = fullShare.right) (hq2 : dat.q 2 = fullShare) (hq3 : dat.q 3 = fullShare)
    (V : (b : Ref sig .tc) → Buf (Elt F) ((c.tc : Thread nD τ).loc b))
    (G : (w : Fin (cfg8 a).W) → Buf (Elt F) (((cfg8 a).win w).arr.view.loc (c.tc : Thread nD τ)))
    (hG : G = fun w => V (Pipeline.arrRef spec8 w))
    (T : pre8.Contents (Elt F)) (hT : T = fun k => V (pre8.ref k)) :
    (unscopedBufs (Ix := Unit) (Name := ℕ) (U := UR sig nD τ) (Lvl := ℕ) c V : sProp 𝕄)
      ⊣⊢ iprop(dat.arrays G ∗ Pipeline.prefHeld (Ix := Unit) (Name := ℕ) (U := UR sig nD τ) (Lvl := ℕ) pre8 c (fun _ => fullShare) T ∗ rest8 c V) := by
  subst hG hT
  have harr : ∀ w, (((cfg8 a).spec w).arr).IsWhole := arr_whole8
  have hA : dat.arrays (fun w => V (Pipeline.arrRef spec8 w))
      = bigSep Finset.univ fun w : Fin 5 => (((c.tc : Thread nD τ).loc (Pipeline.arrRef spec8 w)) ↦{dat.share w} V (Pipeline.arrRef spec8 w) : sProp 𝕄) := by
    unfold Dat.arrays
    exact BI.bigSep_congr fun w _ => by rw [(harr w).set_eq_univ]
  have s0 : dat.share 0 = fullShare.left := by unfold Dat.share; rw [show ((cfg8 a).win 0).isOut = false from rfl]; exact hq0
  have s1 : dat.share 1 = fullShare.right := by unfold Dat.share; rw [show ((cfg8 a).win 1).isOut = false from rfl]; exact hq1
  have s2 : dat.share 2 = fullShare := by unfold Dat.share; rw [show ((cfg8 a).win 2).isOut = false from rfl]; exact hq2
  have s3 : dat.share 3 = fullShare := by unfold Dat.share; rw [show ((cfg8 a).win 3).isOut = false from rfl]; exact hq3
  have s4 : dat.share 4 = fullShare := by unfold Dat.share; rw [show ((cfg8 a).win 4).isOut = true from rfl]; rfl
  rw [ub_split8, hA, bigSep_W8, s0, s1, s2, s3, s4]
  unfold Pipeline.prefHeld
  rw [two_tables8]
  simp only [arrRef8_0, arrRef8_1, arrRef8_2, arrRef8_3, arrRef8_4, preRef8_0, preRef8_1]
  constructor
  · iintro ⟨⟨H1, HW, HB, HO, HS, HD⟩, Hr⟩
    ihave H1' := (pointsTo_share (PosShare.mem_left_op_right fullShare)).1 $$ H1
    icases H1' with ⟨H1a, H1b⟩
    isplitl [H1a H1b HW HB HO]
    · isplitl [H1a]; · iexact H1a
      isplitl [H1b]; · iexact H1b
      isplitl [HW]; · iexact HW
      isplitl [HB]; · iexact HB
      iexact HO
    isplitl [HS HD]
    · isplitl [HS]; · iexact HS
      iexact HD
    iexact Hr
  · iintro ⟨⟨H1a, H1b, HW, HB, HO⟩, ⟨HS, HD⟩, Hr⟩
    ihave H1 := (pointsTo_share (PosShare.mem_left_op_right fullShare)).2 $$ [H1a H1b]
    · isplitl [H1a]; · iexact H1a
      iexact H1b
    isplitr [Hr]
    · isplitl [H1]; · iexact H1
      isplitl [HW]; · iexact HW
      isplitl [HB]; · iexact HB
      isplitl [HO]; · iexact HO
      isplitl [HS]; · iexact HS
      iexact HD
    iexact Hr

set_option maxHeartbeats 1600000 in
/-- ENTRY, everything a variable: for any proof data `dat` whose arrays are `Vd`'s contents (`hA`) and any tables `T`
    that are `Vd`'s contents (`hT`), whenever the boundary contents `Vx` agree with `Vd` at the six touched buffers, the
    unscoped buffers at `Vx` are the pipeline's arrays at their entry contents, the two tables, and the rest. -/
theorem entry8 (a : (pcfg8 (F := F)).Adm) (c : Dev nD) (dat : Dat τ (Elt F) Unit ℕ (UR sig nD τ) ℕ (cfg8 a) c)
    (hq0 : dat.q 0 = fullShare.left) (hq1 : dat.q 1 = fullShare.right) (hq2 : dat.q 2 = fullShare) (hq3 : dat.q 3 = fullShare)
    (Vd Vx : (b : Ref sig .tc) → Buf (Elt F) ((c.tc : Thread nD τ).loc b))
    (hA : ∀ w, dat.A w = Vd (Pipeline.arrRef spec8 w))
    (e_h : Vd main_v1 = Vx main_v1) (e_W : Vd main_arg3 = Vx main_arg3) (e_b : Vd main_v0 = Vx main_v0) (e_out : Vd main_v36 = Vx main_v36)
    (T : pre8.Contents (Elt F)) (hT : ∀ j, T j = Vd (pre8.ref j)) (e_src : Vd main_v34 = Vx main_v34) (e_dst : Vd main_v35 = Vx main_v35) :
    (unscopedBufs (Ix := Unit) (Name := ℕ) (U := UR sig nD τ) (Lvl := ℕ) c Vx : sProp 𝕄)
      ⊢ iprop(dat.arrays (dat.arrAt · 0)
          ∗ Pipeline.prefHeld (Ix := Unit) (Name := ℕ) (U := UR sig nD τ) (Lvl := ℕ) pre8 c (fun _ => fullShare) T ∗ rest8 c Vx) :=
  (bufs8 a c dat hq0 hq1 hq2 hq3 Vx (fun w => dat.arrAt w 0)
    (funext fun w => match w with
      | ⟨0, h⟩ => by show dat.arrAt ⟨0, h⟩ 0 = Vx main_v1; exact (hA ⟨0, h⟩).trans e_h
      | ⟨1, h⟩ => by show dat.arrAt ⟨1, h⟩ 0 = Vx main_v1; exact (hA ⟨1, h⟩).trans e_h
      | ⟨2, h⟩ => by show dat.arrAt ⟨2, h⟩ 0 = Vx main_arg3; exact (hA ⟨2, h⟩).trans e_W
      | ⟨3, h⟩ => by show dat.arrAt ⟨3, h⟩ 0 = Vx main_v0; exact (hA ⟨3, h⟩).trans e_b
      | ⟨4, h⟩ => by show dat.arrAt ⟨4, h⟩ 0 = Vx main_v36; exact (hA ⟨4, h⟩).trans e_out)
    T (funext fun j => match j with
      | ⟨0, h⟩ => by show T ⟨0, h⟩ = Vx main_v34; exact (hT ⟨0, h⟩).trans e_src
      | ⟨1, h⟩ => by show T ⟨1, h⟩ = Vx main_v35; exact (hT ⟨1, h⟩).trans e_dst)).1

set_option maxHeartbeats 1600000 in
/-- EXIT, everything a variable: the inputs' arrays end as they began, the output array at what the last write-backs
    leave (`x_out`); whenever `Vx` holds those contents at the six touched buffers, the pipeline's arrays at their final
    contents, the two tables and the rest at `Vx` are the unscoped buffers at `Vx`. -/
theorem exit8 (a : (pcfg8 (F := F)).Adm) (c : Dev nD) (dat : Dat τ (Elt F) Unit ℕ (UR sig nD τ) ℕ (cfg8 a) c) (N : Nat)
    (hq0 : dat.q 0 = fullShare.left) (hq1 : dat.q 1 = fullShare.right) (hq2 : dat.q 2 = fullShare) (hq3 : dat.q 3 = fullShare)
    (Vd Vx : (b : Ref sig .tc) → Buf (Elt F) ((c.tc : Thread nD τ).loc b))
    (hA : ∀ w, dat.A w = Vd (Pipeline.arrRef spec8 w))
    (x_h : Vd main_v1 = Vx main_v1) (x_W : Vd main_arg3 = Vx main_arg3) (x_b : Vd main_v0 = Vx main_v0) (x_out : dat.arrAt 4 N = Vx main_v36)
    (T : pre8.Contents (Elt F)) (hT : ∀ j, T j = Vd (pre8.ref j)) (x_src : Vd main_v34 = Vx main_v34) (x_dst : Vd main_v35 = Vx main_v35) :
    iprop(dat.arrays (dat.arrAt · N)
        ∗ Pipeline.prefHeld (Ix := Unit) (Name := ℕ) (U := UR sig nD τ) (Lvl := ℕ) pre8 c (fun _ => fullShare) T ∗ rest8 c Vx)
      ⊢ (unscopedBufs (Ix := Unit) (Name := ℕ) (U := UR sig nD τ) (Lvl := ℕ) c Vx : sProp 𝕄) :=
  (bufs8 a c dat hq0 hq1 hq2 hq3 Vx (fun w => dat.arrAt w N)
    (funext fun w => match w with
      | ⟨0, h⟩ => by show dat.arrAt ⟨0, h⟩ N = Vx main_v1; exact (dat.arrAt_in ⟨0, h⟩ rfl N).trans ((hA ⟨0, h⟩).trans x_h)
      | ⟨1, h⟩ => by show dat.arrAt ⟨1, h⟩ N = Vx main_v1; exact (dat.arrAt_in ⟨1, h⟩ rfl N).trans ((hA ⟨1, h⟩).trans x_h)
      | ⟨2, h⟩ => by show dat.arrAt ⟨2, h⟩ N = Vx main_arg3; exact (dat.arrAt_in ⟨2, h⟩ rfl N).trans ((hA ⟨2, h⟩).trans x_W)
      | ⟨3, h⟩ => by show dat.arrAt ⟨3, h⟩ N = Vx main_v0; exact (dat.arrAt_in ⟨3, h⟩ rfl N).trans ((hA ⟨3, h⟩).trans x_b)
      | ⟨4, h⟩ => by show dat.arrAt ⟨4, h⟩ N = Vx main_v36; exact x_out)
    T (funext fun j => match j with
      | ⟨0, h⟩ => by show T ⟨0, h⟩ = Vx main_v34; exact (hT ⟨0, h⟩).trans x_src
      | ⟨1, h⟩ => by show T ⟨1, h⟩ = Vx main_v35; exact (hT ⟨1, h⟩).trans x_dst)).2

variable (m : (ℓ : Loc nD τ sig) → Buf (Elt F) ℓ) (hO : Oks m)

/-! ## What the region finds and leaves, buffer by buffer -/

include hO

theorem fin8_h (c : Dev nD) : Ve8 m c main_v1 = V17 m (outsR m hO) c main_v1 := by first | exact indep8_h m (outsL m) (outsR m hO) c | rfl
theorem fin8_W (c : Dev nD) : Ve8 m c main_arg3 = V17 m (outsR m hO) c main_arg3 := by first | exact indep8_W m (outsL m) (outsR m hO) c | rfl
theorem fin8_b (c : Dev nD) : Ve8 m c main_v0 = V17 m (outsR m hO) c main_v0 := by first | exact indep8_b m (outsL m) (outsR m hO) c | rfl
theorem fin8_out (c : Dev nD) : Ve8 m c main_v36 = V17 m (outsR m hO) c main_v36 := by first | exact indep8_out m (outsL m) (outsR m hO) c | rfl
theorem fin8_src (c : Dev nD) : Ve8 m c main_v34 = V17 m (outsR m hO) c main_v34 := by first | exact indep8_src m (outsL m) (outsR m hO) c | rfl
theorem fin8_dst (c : Dev nD) : Ve8 m c main_v35 = V17 m (outsR m hO) c main_v35 := by first | exact indep8_dst m (outsL m) (outsR m hO) c | rfl

/-- What the region leaves in the buffers it touches: the inputs and the tables as they were, the output array at the
    region's chunk. -/
theorem lv8_h (c : Dev nD) : V18 m (outsR m hO) c main_v1 = V17 m (outsR m hO) c main_v1 := V18_of m (outsR m hO) c main_v1 (by decide)
theorem lv8_W (c : Dev nD) : V18 m (outsR m hO) c main_arg3 = V17 m (outsR m hO) c main_arg3 := V18_of m (outsR m hO) c main_arg3 (by decide)
theorem lv8_b (c : Dev nD) : V18 m (outsR m hO) c main_v0 = V17 m (outsR m hO) c main_v0 := V18_of m (outsR m hO) c main_v0 (by decide)
theorem lv8_src (c : Dev nD) : V18 m (outsR m hO) c main_v34 = V17 m (outsR m hO) c main_v34 := V18_of m (outsR m hO) c main_v34 (by decide)
theorem lv8_dst (c : Dev nD) : V18 m (outsR m hO) c main_v35 = V17 m (outsR m hO) c main_v35 := V18_of m (outsR m hO) c main_v35 (by decide)
theorem lv8_out (c : Dev nD) : V18 m (outsR m hO) c main_v36 = chunk8 m hO c :=
  (Function.update_self _ _ _).trans (outsR_8 m hO c)

/-- The buffers the region does not touch pass it by unchanged. -/
theorem rest8_eq (c : Dev nD) : (rest8 c (fun b => V17 m (outsR m hO) c b) : sProp 𝕄) = rest8 c (fun b => V18 m (outsR m hO) c b) := by
  unfold rest8
  exact BI.bigSep_congr fun b hb => by
    dsimp only
    rw [V18_of m (outsR m hO) c b (fun h => (Finset.mem_sdiff.mp hb).2 (by rw [List.mem_singleton.mp h]; decide))]

set_option maxHeartbeats 1600000 in
set_option backward.isDefEq.respectTransparency.types false in
/-- REGION 0 over the boundary states. -/
def reg8 : Pipeline.RegionSeg (pcfgs (F := F)) (adm m hO) (pdats m hO) () defs₀ 𝒱₀ L lv (8 : Fin 16) where
  win := winFacts₀8
  block_pos := block_pos8
  stage_whole := stage_whole8
  K := PEmpty
  osem k := k.elim
  ho := Pipeline.OwnSemFacts.none _
  hbody c := (body_obligation8 (Ve8 m) ⟨tbl8 m, hO.h8⟩ c).loose
  hwaits := Pipeline.hwaits_of_owed_zero _ _ _ _ L lv (8 : Fin 16) fun _ _ => rfl
  pre c := iprop(StableHlo.held (c : Thread nD τ) (Pipeline.ucRefs τ sig) (V17 m (outsR m hO) c) ∗ Rst c)
  post c := iprop(StableHlo.held (c : Thread nD τ) (Pipeline.ucRefs τ sig) (V18 m (outsR m hO) c) ∗ Rst c)
  X c := iprop(∃ r, prngReg c r)
  Y c := iprop((∃ r, prngReg c r) ∗ Pipeline.prefHeld (Ix := Unit) (Name := ℕ) (U := UR sig nD τ) (Lvl := ℕ) pre8 c (fun _ => fullShare) (tbl8 m))
  Z c := rest8 c (fun b => V17 m (outsR m hO) c b)
  hentry c := by
    obtain rfl : c = 0 := Subsingleton.elim _ _
    have hb := entry8 (adm m hO (8 : Fin 16)) 0 (pdats m hO (8 : Fin 16) 0) rfl rfl rfl rfl (Ve8 m 0) (fun b => V17 m (outsR m hO) 0 b) (fun w => rfl)
      (fin8_h m hO 0) (fin8_W m hO 0) (fin8_b m hO 0) (fin8_out m hO 0) (tbl8 m) (fun j => rfl) (fin8_src m hO 0) (fin8_dst m hO 0)
    rw [Pipeline.unscopedBufs_held] at hb
    iintro ⟨⟨Hub, Hp, HO⟩, -, -⟩
    ihave H := hb $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO (8 : Fin 16) c).Φ 0 = iprop(Pipeline.ΦA spec8 c ∗ Pipeline.prefHeld (Ix := Unit) (Name := ℕ) (U := UR sig nD τ) (Lvl := ℕ) pre8 c (fun _ => fullShare) (tbl8 m)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m hO (8 : Fin 16) c).Φ (Fin.last _) = iprop(Pipeline.ΦA spec8 c ∗ Pipeline.prefHeld (Ix := Unit) (Name := ℕ) (U := UR sig nD τ) (Lvl := ℕ) pre8 c (fun _ => fullShare) (tbl8 m)) from rfl]
    unfold Pipeline.ΦA
    iintro ⟨⟨Hr, Hp⟩, Ht⟩
    isplitl [Hp Ht]
    · isplitl [Hp]; · iexact Hp
      iexact Ht
    isplitr; · iempintro
    iexact Hr
  hexit c := by
    obtain rfl : c = 0 := Subsingleton.elim _ _
    have hb := exit8 (adm m hO (8 : Fin 16)) 0 (pdats m hO (8 : Fin 16) 0) (Pipeline.pin (pcfgs (F := F)) (adm m hO) (8 : Fin 16)).N rfl rfl rfl rfl
      (Ve8 m 0) (fun b => V18 m (outsR m hO) 0 b) (fun w => rfl)
      ((fin8_h m hO 0).trans (lv8_h m hO 0).symm) ((fin8_W m hO 0).trans (lv8_W m hO 0).symm) ((fin8_b m hO 0).trans (lv8_b m hO 0).symm)
      (lv8_out m hO 0).symm (tbl8 m) (fun j => rfl) ((fin8_src m hO 0).trans (lv8_src m hO 0).symm) ((fin8_dst m hO 0).trans (lv8_dst m hO 0).symm)
    rw [Pipeline.unscopedBufs_held, ← rest8_eq m hO 0] at hb
    iintro ⟨Ha, HO, ⟨Hp, Ht⟩, Hrest⟩
    imodintro
    isplitl [Ha Ht Hrest]
    · iapply hb
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Cert.KernelIdeal.Hand

end
-- ==== Proof.KIReg9.lean ====
/-
  Region 9 of the edge scorer as a segment of the program's run.

  The region is entered with every unscoped buffer held whole at the contents the host operations before it leave,
  beside the generator register and nothing owed. Of those buffers the pipeline takes the four arrays its five windows
  read and write — the feature rows (read by two windows, each at one half of the full share), the weights, the
  bias and the output chunk — and the two index tables; the other unscoped buffers bypass the region. At the exit the
  feature rows' two halves rejoin, the inputs are as they were, the output array holds the region's chunk, and
  the whole is the next boundary's contents.
-/
import proofs.«405368_j31662498906597_2_alg».proof.Proof.KIFamily
import proofs.«405368_j31662498906597_2_alg».proof.Proof.KIHostEntry
import proofs.«405368_j31662498906597_2_alg».proof.Proof.KIHostEntryGen
import Idealize.ShloMosaic.Lib.Pipeline.RegionsLoop

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The six unscoped buffers region 9 touches: the feature rows, the weights, the bias, its output chunk and its two
    index tables. -/
abbrev arrs9 : Finset (Ref sig .tc) := insert main_v1 (insert main_arg3 (insert main_v0 (insert main_v40 (insert main_v38 {main_v39}))))

theorem arrs9_sub : arrs9 ⊆ Finset.univ.filter fun b : Ref sig .tc => ¬ b.isScoped := by decide

/-- The unscoped buffers region 9 does not touch, held whole at `V`. -/
def rest9 (c : Dev nD) (V : (b : Ref sig .tc) → Buf (Elt F) ((c.tc : Thread nD τ).loc b)) : sProp 𝕄 :=
  bigSep ((Finset.univ.filter fun b : Ref sig .tc => ¬ b.isScoped) \ arrs9) fun b => ((c.tc : Thread nD τ).loc b) ↦{fullShare} V b

/-- The six touched buffers one by one, and the rest. -/
theorem ub_split9 (c : Dev nD) (V : (b : Ref sig .tc) → Buf (Elt F) ((c.tc : Thread nD τ).loc b)) :
    (unscopedBufs (Ix := Unit) (Name := ℕ) (U := UR sig nD τ) (Lvl := ℕ) c V : sProp 𝕄)
      = iprop(iprop((((c.tc : Thread nD τ).loc main_v1) ↦{fullShare} V main_v1) ∗ (((c.tc : Thread nD τ).loc main_arg3) ↦{fullShare} V main_arg3)
          ∗ (((c.tc : Thread nD τ).loc main_v0) ↦{fullShare} V main_v0) ∗ (((c.tc : Thread nD τ).loc main_v40) ↦{fullShare} V main_v40)
          ∗ (((c.tc : Thread nD τ).loc main_v38) ↦{fullShare} V main_v38) ∗ (((c.tc : Thread nD τ).loc main_v39) ↦{fullShare} V main_v39)) ∗ rest9 c V) := by
  unfold unscopedBufs rest9
  rw [BI.bigSep_sdiff_split arrs9_sub]
  refine congrArg (fun X => iprop(X ∗ _)) ?_
  show bigSep (insert main_v1 (insert main_arg3 (insert main_v0 (insert main_v40 (insert main_v38 {main_v39}))))) _ = _
  rw [BI.bigSep_insert (by decide), BI.bigSep_insert (by decide), BI.bigSep_insert (by decide), BI.bigSep_insert (by decide),
    BI.bigSep_insert (by decide), BI.bigSep_singleton]
  rfl

/-- A product over two tables, written out. -/
theorem two_tables9 (Φ : Fin 2 → sProp 𝕄) : bigSep Finset.univ Φ = iprop(Φ 0 ∗ Φ 1) := BI.bigSep_fin_two Φ

/-- The five windows' arrays and the two tables, by name. -/
theorem arrRef9_0 : Pipeline.arrRef spec9 (0 : Fin 5) = main_v1 := rfl
theorem arrRef9_1 : Pipeline.arrRef spec9 (1 : Fin 5) = main_v1 := rfl
theorem arrRef9_2 : Pipeline.arrRef spec9 (2 : Fin 5) = main_arg3 := rfl
theorem arrRef9_3 : Pipeline.arrRef spec9 (3 : Fin 5) = main_v0 := rfl
theorem arrRef9_4 : Pipeline.arrRef spec9 (4 : Fin 5) = main_v40 := rfl
theorem preRef9_0 : pre9.ref (0 : Fin 2) = main_v38 := rfl
theorem preRef9_1 : pre9.ref (1 : Fin 2) = main_v39 := rfl

set_option maxHeartbeats 1600000 in
/-- A core's unscoped buffers held whole at `V` ARE the pipeline's arrays at `V`'s contents of them (the feature rows'
    full share dealt as its two halves to the two windows that read them), the two tables at `V`'s contents of
    them, and the rest. Both directions: the region's entry and its exit. -/
theorem bufs9 (a : (pcfg9 (F := F)).Adm) (c : Dev nD) (dat : Dat τ (Elt F) Unit ℕ (UR sig nD τ) ℕ (cfg9 a) c)
    (hq0 : dat.q 0 = fullShare.left) (hq1 : dat.q 1 = fullShare.right) (hq2 : dat.q 2 = fullShare) (hq3 : dat.q 3 = fullShare)
    (V : (b : Ref sig .tc) → Buf (Elt F) ((c.tc : Thread nD τ).loc b))
    (G : (w : Fin (cfg9 a).W) → Buf (Elt F) (((cfg9 a).win w).arr.view.loc (c.tc : Thread nD τ)))
    (hG : G = fun w => V (Pipeline.arrRef spec9 w))
    (T : pre9.Contents (Elt F)) (hT : T = fun k => V (pre9.ref k)) :
    (unscopedBufs (Ix := Unit) (Name := ℕ) (U := UR sig nD τ) (Lvl := ℕ) c V : sProp 𝕄)
      ⊣⊢ iprop(dat.arrays G ∗ Pipeline.prefHeld (Ix := Unit) (Name := ℕ) (U := UR sig nD τ) (Lvl := ℕ) pre9 c (fun _ => fullShare) T ∗ rest9 c V) := by
  subst hG hT
  have harr : ∀ w, (((cfg9 a).spec w).arr).IsWhole := arr_whole9
  have hA : dat.arrays (fun w => V (Pipeline.arrRef spec9 w))
      = bigSep Finset.univ fun w : Fin 5 => (((c.tc : Thread nD τ).loc (Pipeline.arrRef spec9 w)) ↦{dat.share w} V (Pipeline.arrRef spec9 w) : sProp 𝕄) := by
    unfold Dat.arrays
    exact BI.bigSep_congr fun w _ => by rw [(harr w).set_eq_univ]
  have s0 : dat.share 0 = fullShare.left := by unfold Dat.share; rw [show ((cfg9 a).win 0).isOut = false from rfl]; exact hq0
  have s1 : dat.share 1 = fullShare.right := by unfold Dat.share; rw [show ((cfg9 a).win 1).isOut = false from rfl]; exact hq1
  have s2 : dat.share 2 = fullShare := by unfold Dat.share; rw [show ((cfg9 a).win 2).isOut = false from rfl]; exact hq2
  have s3 : dat.share 3 = fullShare := by unfold Dat.share; rw [show ((cfg9 a).win 3).isOut = false from rfl]; exact hq3
  have s4 : dat.share 4 = fullShare := by unfold Dat.share; rw [show ((cfg9 a).win 4).isOut = true from rfl]; rfl
  rw [ub_split9, hA, bigSep_W9, s0, s1, s2, s3, s4]
  unfold Pipeline.prefHeld
  rw [two_tables9]
  simp only [arrRef9_0, arrRef9_1, arrRef9_2, arrRef9_3, arrRef9_4, preRef9_0, preRef9_1]
  constructor
  · iintro ⟨⟨H1, HW, HB, HO, HS, HD⟩, Hr⟩
    ihave H1' := (pointsTo_share (PosShare.mem_left_op_right fullShare)).1 $$ H1
    icases H1' with ⟨H1a, H1b⟩
    isplitl [H1a H1b HW HB HO]
    · isplitl [H1a]; · iexact H1a
      isplitl [H1b]; · iexact H1b
      isplitl [HW]; · iexact HW
      isplitl [HB]; · iexact HB
      iexact HO
    isplitl [HS HD]
    · isplitl [HS]; · iexact HS
      iexact HD
    iexact Hr
  · iintro ⟨⟨H1a, H1b, HW, HB, HO⟩, ⟨HS, HD⟩, Hr⟩
    ihave H1 := (pointsTo_share (PosShare.mem_left_op_right fullShare)).2 $$ [H1a H1b]
    · isplitl [H1a]; · iexact H1a
      iexact H1b
    isplitr [Hr]
    · isplitl [H1]; · iexact H1
      isplitl [HW]; · iexact HW
      isplitl [HB]; · iexact HB
      isplitl [HO]; · iexact HO
      isplitl [HS]; · iexact HS
      iexact HD
    iexact Hr

set_option maxHeartbeats 1600000 in
/-- ENTRY, everything a variable: for any proof data `dat` whose arrays are `Vd`'s contents (`hA`) and any tables `T`
    that are `Vd`'s contents (`hT`), whenever the boundary contents `Vx` agree with `Vd` at the six touched buffers, the
    unscoped buffers at `Vx` are the pipeline's arrays at their entry contents, the two tables, and the rest. -/
theorem entry9 (a : (pcfg9 (F := F)).Adm) (c : Dev nD) (dat : Dat τ (Elt F) Unit ℕ (UR sig nD τ) ℕ (cfg9 a) c)
    (hq0 : dat.q 0 = fullShare.left) (hq1 : dat.q 1 = fullShare.right) (hq2 : dat.q 2 = fullShare) (hq3 : dat.q 3 = fullShare)
    (Vd Vx : (b : Ref sig .tc) → Buf (Elt F) ((c.tc : Thread nD τ).loc b))
    (hA : ∀ w, dat.A w = Vd (Pipeline.arrRef spec9 w))
    (e_h : Vd main_v1 = Vx main_v1) (e_W : Vd main_arg3 = Vx main_arg3) (e_b : Vd main_v0 = Vx main_v0) (e_out : Vd main_v40 = Vx main_v40)
    (T : pre9.Contents (Elt F)) (hT : ∀ j, T j = Vd (pre9.ref j)) (e_src : Vd main_v38 = Vx main_v38) (e_dst : Vd main_v39 = Vx main_v39) :
    (unscopedBufs (Ix := Unit) (Name := ℕ) (U := UR sig nD τ) (Lvl := ℕ) c Vx : sProp 𝕄)
      ⊢ iprop(dat.arrays (dat.arrAt · 0)
          ∗ Pipeline.prefHeld (Ix := Unit) (Name := ℕ) (U := UR sig nD τ) (Lvl := ℕ) pre9 c (fun _ => fullShare) T ∗ rest9 c Vx) :=
  (bufs9 a c dat hq0 hq1 hq2 hq3 Vx (fun w => dat.arrAt w 0)
    (funext fun w => match w with
      | ⟨0, h⟩ => by show dat.arrAt ⟨0, h⟩ 0 = Vx main_v1; exact (hA ⟨0, h⟩).trans e_h
      | ⟨1, h⟩ => by show dat.arrAt ⟨1, h⟩ 0 = Vx main_v1; exact (hA ⟨1, h⟩).trans e_h
      | ⟨2, h⟩ => by show dat.arrAt ⟨2, h⟩ 0 = Vx main_arg3; exact (hA ⟨2, h⟩).trans e_W
      | ⟨3, h⟩ => by show dat.arrAt ⟨3, h⟩ 0 = Vx main_v0; exact (hA ⟨3, h⟩).trans e_b
      | ⟨4, h⟩ => by show dat.arrAt ⟨4, h⟩ 0 = Vx main_v40; exact (hA ⟨4, h⟩).trans e_out)
    T (funext fun j => match j with
      | ⟨0, h⟩ => by show T ⟨0, h⟩ = Vx main_v38; exact (hT ⟨0, h⟩).trans e_src
      | ⟨1, h⟩ => by show T ⟨1, h⟩ = Vx main_v39; exact (hT ⟨1, h⟩).trans e_dst)).1

set_option maxHeartbeats 1600000 in
/-- EXIT, everything a variable: the inputs' arrays end as they began, the output array at what the last write-backs
    leave (`x_out`); whenever `Vx` holds those contents at the six touched buffers, the pipeline's arrays at their final
    contents, the two tables and the rest at `Vx` are the unscoped buffers at `Vx`. -/
theorem exit9 (a : (pcfg9 (F := F)).Adm) (c : Dev nD) (dat : Dat τ (Elt F) Unit ℕ (UR sig nD τ) ℕ (cfg9 a) c) (N : Nat)
    (hq0 : dat.q 0 = fullShare.left) (hq1 : dat.q 1 = fullShare.right) (hq2 : dat.q 2 = fullShare) (hq3 : dat.q 3 = fullShare)
    (Vd Vx : (b : Ref sig .tc) → Buf (Elt F) ((c.tc : Thread nD τ).loc b))
    (hA : ∀ w, dat.A w = Vd (Pipeline.arrRef spec9 w))
    (x_h : Vd main_v1 = Vx main_v1) (x_W : Vd main_arg3 = Vx main_arg3) (x_b : Vd main_v0 = Vx main_v0) (x_out : dat.arrAt 4 N = Vx main_v40)
    (T : pre9.Contents (Elt F)) (hT : ∀ j, T j = Vd (pre9.ref j)) (x_src : Vd main_v38 = Vx main_v38) (x_dst : Vd main_v39 = Vx main_v39) :
    iprop(dat.arrays (dat.arrAt · N)
        ∗ Pipeline.prefHeld (Ix := Unit) (Name := ℕ) (U := UR sig nD τ) (Lvl := ℕ) pre9 c (fun _ => fullShare) T ∗ rest9 c Vx)
      ⊢ (unscopedBufs (Ix := Unit) (Name := ℕ) (U := UR sig nD τ) (Lvl := ℕ) c Vx : sProp 𝕄) :=
  (bufs9 a c dat hq0 hq1 hq2 hq3 Vx (fun w => dat.arrAt w N)
    (funext fun w => match w with
      | ⟨0, h⟩ => by show dat.arrAt ⟨0, h⟩ N = Vx main_v1; exact (dat.arrAt_in ⟨0, h⟩ rfl N).trans ((hA ⟨0, h⟩).trans x_h)
      | ⟨1, h⟩ => by show dat.arrAt ⟨1, h⟩ N = Vx main_v1; exact (dat.arrAt_in ⟨1, h⟩ rfl N).trans ((hA ⟨1, h⟩).trans x_h)
      | ⟨2, h⟩ => by show dat.arrAt ⟨2, h⟩ N = Vx main_arg3; exact (dat.arrAt_in ⟨2, h⟩ rfl N).trans ((hA ⟨2, h⟩).trans x_W)
      | ⟨3, h⟩ => by show dat.arrAt ⟨3, h⟩ N = Vx main_v0; exact (dat.arrAt_in ⟨3, h⟩ rfl N).trans ((hA ⟨3, h⟩).trans x_b)
      | ⟨4, h⟩ => by show dat.arrAt ⟨4, h⟩ N = Vx main_v40; exact x_out)
    T (funext fun j => match j with
      | ⟨0, h⟩ => by show T ⟨0, h⟩ = Vx main_v38; exact (hT ⟨0, h⟩).trans x_src
      | ⟨1, h⟩ => by show T ⟨1, h⟩ = Vx main_v39; exact (hT ⟨1, h⟩).trans x_dst)).2

variable (m : (ℓ : Loc nD τ sig) → Buf (Elt F) ℓ) (hO : Oks m)

/-! ## What the region finds and leaves, buffer by buffer -/

include hO

theorem fin9_h (c : Dev nD) : Ve9 m c main_v1 = V19 m (outsR m hO) c main_v1 := by first | exact indep9_h m (outsL m) (outsR m hO) c | rfl
theorem fin9_W (c : Dev nD) : Ve9 m c main_arg3 = V19 m (outsR m hO) c main_arg3 := by first | exact indep9_W m (outsL m) (outsR m hO) c | rfl
theorem fin9_b (c : Dev nD) : Ve9 m c main_v0 = V19 m (outsR m hO) c main_v0 := by first | exact indep9_b m (outsL m) (outsR m hO) c | rfl
theorem fin9_out (c : Dev nD) : Ve9 m c main_v40 = V19 m (outsR m hO) c main_v40 := by first | exact indep9_out m (outsL m) (outsR m hO) c | rfl
theorem fin9_src (c : Dev nD) : Ve9 m c main_v38 = V19 m (outsR m hO) c main_v38 := by first | exact indep9_src m (outsL m) (outsR m hO) c | rfl
theorem fin9_dst (c : Dev nD) : Ve9 m c main_v39 = V19 m (outsR m hO) c main_v39 := by first | exact indep9_dst m (outsL m) (outsR m hO) c | rfl

/-- What the region leaves in the buffers it touches: the inputs and the tables as they were, the output array at the
    region's chunk. -/
theorem lv9_h (c : Dev nD) : V20 m (outsR m hO) c main_v1 = V19 m (outsR m hO) c main_v1 := V20_of m (outsR m hO) c main_v1 (by decide)
theorem lv9_W (c : Dev nD) : V20 m (outsR m hO) c main_arg3 = V19 m (outsR m hO) c main_arg3 := V20_of m (outsR m hO) c main_arg3 (by decide)
theorem lv9_b (c : Dev nD) : V20 m (outsR m hO) c main_v0 = V19 m (outsR m hO) c main_v0 := V20_of m (outsR m hO) c main_v0 (by decide)
theorem lv9_src (c : Dev nD) : V20 m (outsR m hO) c main_v38 = V19 m (outsR m hO) c main_v38 := V20_of m (outsR m hO) c main_v38 (by decide)
theorem lv9_dst (c : Dev nD) : V20 m (outsR m hO) c main_v39 = V19 m (outsR m hO) c main_v39 := V20_of m (outsR m hO) c main_v39 (by decide)
theorem lv9_out (c : Dev nD) : V20 m (outsR m hO) c main_v40 = chunk9 m hO c :=
  (Function.update_self _ _ _).trans (outsR_9 m hO c)

/-- The buffers the region does not touch pass it by unchanged. -/
theorem rest9_eq (c : Dev nD) : (rest9 c (fun b => V19 m (outsR m hO) c b) : sProp 𝕄) = rest9 c (fun b => V20 m (outsR m hO) c b) := by
  unfold rest9
  exact BI.bigSep_congr fun b hb => by
    dsimp only
    rw [V20_of m (outsR m hO) c b (fun h => (Finset.mem_sdiff.mp hb).2 (by rw [List.mem_singleton.mp h]; decide))]

set_option maxHeartbeats 1600000 in
set_option backward.isDefEq.respectTransparency.types false in
/-- REGION 0 over the boundary states. -/
def reg9 : Pipeline.RegionSeg (pcfgs (F := F)) (adm m hO) (pdats m hO) () defs₀ 𝒱₀ L lv (9 : Fin 16) where
  win := winFacts₀9
  block_pos := block_pos9
  stage_whole := stage_whole9
  K := PEmpty
  osem k := k.elim
  ho := Pipeline.OwnSemFacts.none _
  hbody c := (body_obligation9 (Ve9 m) ⟨tbl9 m, hO.h9⟩ c).loose
  hwaits := Pipeline.hwaits_of_owed_zero _ _ _ _ L lv (9 : Fin 16) fun _ _ => rfl
  pre c := iprop(StableHlo.held (c : Thread nD τ) (Pipeline.ucRefs τ sig) (V19 m (outsR m hO) c) ∗ Rst c)
  post c := iprop(StableHlo.held (c : Thread nD τ) (Pipeline.ucRefs τ sig) (V20 m (outsR m hO) c) ∗ Rst c)
  X c := iprop(∃ r, prngReg c r)
  Y c := iprop((∃ r, prngReg c r) ∗ Pipeline.prefHeld (Ix := Unit) (Name := ℕ) (U := UR sig nD τ) (Lvl := ℕ) pre9 c (fun _ => fullShare) (tbl9 m))
  Z c := rest9 c (fun b => V19 m (outsR m hO) c b)
  hentry c := by
    obtain rfl : c = 0 := Subsingleton.elim _ _
    have hb := entry9 (adm m hO (9 : Fin 16)) 0 (pdats m hO (9 : Fin 16) 0) rfl rfl rfl rfl (Ve9 m 0) (fun b => V19 m (outsR m hO) 0 b) (fun w => rfl)
      (fin9_h m hO 0) (fin9_W m hO 0) (fin9_b m hO 0) (fin9_out m hO 0) (tbl9 m) (fun j => rfl) (fin9_src m hO 0) (fin9_dst m hO 0)
    rw [Pipeline.unscopedBufs_held] at hb
    iintro ⟨⟨Hub, Hp, HO⟩, -, -⟩
    ihave H := hb $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO (9 : Fin 16) c).Φ 0 = iprop(Pipeline.ΦA spec9 c ∗ Pipeline.prefHeld (Ix := Unit) (Name := ℕ) (U := UR sig nD τ) (Lvl := ℕ) pre9 c (fun _ => fullShare) (tbl9 m)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m hO (9 : Fin 16) c).Φ (Fin.last _) = iprop(Pipeline.ΦA spec9 c ∗ Pipeline.prefHeld (Ix := Unit) (Name := ℕ) (U := UR sig nD τ) (Lvl := ℕ) pre9 c (fun _ => fullShare) (tbl9 m)) from rfl]
    unfold Pipeline.ΦA
    iintro ⟨⟨Hr, Hp⟩, Ht⟩
    isplitl [Hp Ht]
    · isplitl [Hp]; · iexact Hp
      iexact Ht
    isplitr; · iempintro
    iexact Hr
  hexit c := by
    obtain rfl : c = 0 := Subsingleton.elim _ _
    have hb := exit9 (adm m hO (9 : Fin 16)) 0 (pdats m hO (9 : Fin 16) 0) (Pipeline.pin (pcfgs (F := F)) (adm m hO) (9 : Fin 16)).N rfl rfl rfl rfl
      (Ve9 m 0) (fun b => V20 m (outsR m hO) 0 b) (fun w => rfl)
      ((fin9_h m hO 0).trans (lv9_h m hO 0).symm) ((fin9_W m hO 0).trans (lv9_W m hO 0).symm) ((fin9_b m hO 0).trans (lv9_b m hO 0).symm)
      (lv9_out m hO 0).symm (tbl9 m) (fun j => rfl) ((fin9_src m hO 0).trans (lv9_src m hO 0).symm) ((fin9_dst m hO 0).trans (lv9_dst m hO 0).symm)
    rw [Pipeline.unscopedBufs_held, ← rest9_eq m hO 0] at hb
    iintro ⟨Ha, HO, ⟨Hp, Ht⟩, Hrest⟩
    imodintro
    isplitl [Ha Ht Hrest]
    · iapply hb
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Cert.KernelIdeal.Hand

end
-- ==== Proof.KIReg10.lean ====
/-
  Region 10 of the edge scorer as a segment of the program's run.

  The region is entered with every unscoped buffer held whole at the contents the host operations before it leave,
  beside the generator register and nothing owed. Of those buffers the pipeline takes the four arrays its five windows
  read and write — the feature rows (read by two windows, each at one half of the full share), the weights, the
  bias and the output chunk — and the two index tables; the other unscoped buffers bypass the region. At the exit the
  feature rows' two halves rejoin, the inputs are as they were, the output array holds the region's chunk, and
  the whole is the next boundary's contents.
-/
import proofs.«405368_j31662498906597_2_alg».proof.Proof.KIFamily
import proofs.«405368_j31662498906597_2_alg».proof.Proof.KIHostEntry
import proofs.«405368_j31662498906597_2_alg».proof.Proof.KIHostEntryGen
import Idealize.ShloMosaic.Lib.Pipeline.RegionsLoop

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The six unscoped buffers region 10 touches: the feature rows, the weights, the bias, its output chunk and its two
    index tables. -/
abbrev arrs10 : Finset (Ref sig .tc) := insert main_v1 (insert main_arg3 (insert main_v0 (insert main_v44 (insert main_v42 {main_v43}))))

theorem arrs10_sub : arrs10 ⊆ Finset.univ.filter fun b : Ref sig .tc => ¬ b.isScoped := by decide

/-- The unscoped buffers region 10 does not touch, held whole at `V`. -/
def rest10 (c : Dev nD) (V : (b : Ref sig .tc) → Buf (Elt F) ((c.tc : Thread nD τ).loc b)) : sProp 𝕄 :=
  bigSep ((Finset.univ.filter fun b : Ref sig .tc => ¬ b.isScoped) \ arrs10) fun b => ((c.tc : Thread nD τ).loc b) ↦{fullShare} V b

/-- The six touched buffers one by one, and the rest. -/
theorem ub_split10 (c : Dev nD) (V : (b : Ref sig .tc) → Buf (Elt F) ((c.tc : Thread nD τ).loc b)) :
    (unscopedBufs (Ix := Unit) (Name := ℕ) (U := UR sig nD τ) (Lvl := ℕ) c V : sProp 𝕄)
      = iprop(iprop((((c.tc : Thread nD τ).loc main_v1) ↦{fullShare} V main_v1) ∗ (((c.tc : Thread nD τ).loc main_arg3) ↦{fullShare} V main_arg3)
          ∗ (((c.tc : Thread nD τ).loc main_v0) ↦{fullShare} V main_v0) ∗ (((c.tc : Thread nD τ).loc main_v44) ↦{fullShare} V main_v44)
          ∗ (((c.tc : Thread nD τ).loc main_v42) ↦{fullShare} V main_v42) ∗ (((c.tc : Thread nD τ).loc main_v43) ↦{fullShare} V main_v43)) ∗ rest10 c V) := by
  unfold unscopedBufs rest10
  rw [BI.bigSep_sdiff_split arrs10_sub]
  refine congrArg (fun X => iprop(X ∗ _)) ?_
  show bigSep (insert main_v1 (insert main_arg3 (insert main_v0 (insert main_v44 (insert main_v42 {main_v43}))))) _ = _
  rw [BI.bigSep_insert (by decide), BI.bigSep_insert (by decide), BI.bigSep_insert (by decide), BI.bigSep_insert (by decide),
    BI.bigSep_insert (by decide), BI.bigSep_singleton]
  rfl

/-- A product over two tables, written out. -/
theorem two_tables10 (Φ : Fin 2 → sProp 𝕄) : bigSep Finset.univ Φ = iprop(Φ 0 ∗ Φ 1) := BI.bigSep_fin_two Φ

/-- The five windows' arrays and the two tables, by name. -/
theorem arrRef10_0 : Pipeline.arrRef spec10 (0 : Fin 5) = main_v1 := rfl
theorem arrRef10_1 : Pipeline.arrRef spec10 (1 : Fin 5) = main_v1 := rfl
theorem arrRef10_2 : Pipeline.arrRef spec10 (2 : Fin 5) = main_arg3 := rfl
theorem arrRef10_3 : Pipeline.arrRef spec10 (3 : Fin 5) = main_v0 := rfl
theorem arrRef10_4 : Pipeline.arrRef spec10 (4 : Fin 5) = main_v44 := rfl
theorem preRef10_0 : pre10.ref (0 : Fin 2) = main_v42 := rfl
theorem preRef10_1 : pre10.ref (1 : Fin 2) = main_v43 := rfl

set_option maxHeartbeats 1600000 in
/-- A core's unscoped buffers held whole at `V` ARE the pipeline's arrays at `V`'s contents of them (the feature rows'
    full share dealt as its two halves to the two windows that read them), the two tables at `V`'s contents of
    them, and the rest. Both directions: the region's entry and its exit. -/
theorem bufs10 (a : (pcfg10 (F := F)).Adm) (c : Dev nD) (dat : Dat τ (Elt F) Unit ℕ (UR sig nD τ) ℕ (cfg10 a) c)
    (hq0 : dat.q 0 = fullShare.left) (hq1 : dat.q 1 = fullShare.right) (hq2 : dat.q 2 = fullShare) (hq3 : dat.q 3 = fullShare)
    (V : (b : Ref sig .tc) → Buf (Elt F) ((c.tc : Thread nD τ).loc b))
    (G : (w : Fin (cfg10 a).W) → Buf (Elt F) (((cfg10 a).win w).arr.view.loc (c.tc : Thread nD τ)))
    (hG : G = fun w => V (Pipeline.arrRef spec10 w))
    (T : pre10.Contents (Elt F)) (hT : T = fun k => V (pre10.ref k)) :
    (unscopedBufs (Ix := Unit) (Name := ℕ) (U := UR sig nD τ) (Lvl := ℕ) c V : sProp 𝕄)
      ⊣⊢ iprop(dat.arrays G ∗ Pipeline.prefHeld (Ix := Unit) (Name := ℕ) (U := UR sig nD τ) (Lvl := ℕ) pre10 c (fun _ => fullShare) T ∗ rest10 c V) := by
  subst hG hT
  have harr : ∀ w, (((cfg10 a).spec w).arr).IsWhole := arr_whole10
  have hA : dat.arrays (fun w => V (Pipeline.arrRef spec10 w))
      = bigSep Finset.univ fun w : Fin 5 => (((c.tc : Thread nD τ).loc (Pipeline.arrRef spec10 w)) ↦{dat.share w} V (Pipeline.arrRef spec10 w) : sProp 𝕄) := by
    unfold Dat.arrays
    exact BI.bigSep_congr fun w _ => by rw [(harr w).set_eq_univ]
  have s0 : dat.share 0 = fullShare.left := by unfold Dat.share; rw [show ((cfg10 a).win 0).isOut = false from rfl]; exact hq0
  have s1 : dat.share 1 = fullShare.right := by unfold Dat.share; rw [show ((cfg10 a).win 1).isOut = false from rfl]; exact hq1
  have s2 : dat.share 2 = fullShare := by unfold Dat.share; rw [show ((cfg10 a).win 2).isOut = false from rfl]; exact hq2
  have s3 : dat.share 3 = fullShare := by unfold Dat.share; rw [show ((cfg10 a).win 3).isOut = false from rfl]; exact hq3
  have s4 : dat.share 4 = fullShare := by unfold Dat.share; rw [show ((cfg10 a).win 4).isOut = true from rfl]; rfl
  rw [ub_split10, hA, bigSep_W10, s0, s1, s2, s3, s4]
  unfold Pipeline.prefHeld
  rw [two_tables10]
  simp only [arrRef10_0, arrRef10_1, arrRef10_2, arrRef10_3, arrRef10_4, preRef10_0, preRef10_1]
  constructor
  · iintro ⟨⟨H1, HW, HB, HO, HS, HD⟩, Hr⟩
    ihave H1' := (pointsTo_share (PosShare.mem_left_op_right fullShare)).1 $$ H1
    icases H1' with ⟨H1a, H1b⟩
    isplitl [H1a H1b HW HB HO]
    · isplitl [H1a]; · iexact H1a
      isplitl [H1b]; · iexact H1b
      isplitl [HW]; · iexact HW
      isplitl [HB]; · iexact HB
      iexact HO
    isplitl [HS HD]
    · isplitl [HS]; · iexact HS
      iexact HD
    iexact Hr
  · iintro ⟨⟨H1a, H1b, HW, HB, HO⟩, ⟨HS, HD⟩, Hr⟩
    ihave H1 := (pointsTo_share (PosShare.mem_left_op_right fullShare)).2 $$ [H1a H1b]
    · isplitl [H1a]; · iexact H1a
      iexact H1b
    isplitr [Hr]
    · isplitl [H1]; · iexact H1
      isplitl [HW]; · iexact HW
      isplitl [HB]; · iexact HB
      isplitl [HO]; · iexact HO
      isplitl [HS]; · iexact HS
      iexact HD
    iexact Hr

set_option maxHeartbeats 1600000 in
/-- ENTRY, everything a variable: for any proof data `dat` whose arrays are `Vd`'s contents (`hA`) and any tables `T`
    that are `Vd`'s contents (`hT`), whenever the boundary contents `Vx` agree with `Vd` at the six touched buffers, the
    unscoped buffers at `Vx` are the pipeline's arrays at their entry contents, the two tables, and the rest. -/
theorem entry10 (a : (pcfg10 (F := F)).Adm) (c : Dev nD) (dat : Dat τ (Elt F) Unit ℕ (UR sig nD τ) ℕ (cfg10 a) c)
    (hq0 : dat.q 0 = fullShare.left) (hq1 : dat.q 1 = fullShare.right) (hq2 : dat.q 2 = fullShare) (hq3 : dat.q 3 = fullShare)
    (Vd Vx : (b : Ref sig .tc) → Buf (Elt F) ((c.tc : Thread nD τ).loc b))
    (hA : ∀ w, dat.A w = Vd (Pipeline.arrRef spec10 w))
    (e_h : Vd main_v1 = Vx main_v1) (e_W : Vd main_arg3 = Vx main_arg3) (e_b : Vd main_v0 = Vx main_v0) (e_out : Vd main_v44 = Vx main_v44)
    (T : pre10.Contents (Elt F)) (hT : ∀ j, T j = Vd (pre10.ref j)) (e_src : Vd main_v42 = Vx main_v42) (e_dst : Vd main_v43 = Vx main_v43) :
    (unscopedBufs (Ix := Unit) (Name := ℕ) (U := UR sig nD τ) (Lvl := ℕ) c Vx : sProp 𝕄)
      ⊢ iprop(dat.arrays (dat.arrAt · 0)
          ∗ Pipeline.prefHeld (Ix := Unit) (Name := ℕ) (U := UR sig nD τ) (Lvl := ℕ) pre10 c (fun _ => fullShare) T ∗ rest10 c Vx) :=
  (bufs10 a c dat hq0 hq1 hq2 hq3 Vx (fun w => dat.arrAt w 0)
    (funext fun w => match w with
      | ⟨0, h⟩ => by show dat.arrAt ⟨0, h⟩ 0 = Vx main_v1; exact (hA ⟨0, h⟩).trans e_h
      | ⟨1, h⟩ => by show dat.arrAt ⟨1, h⟩ 0 = Vx main_v1; exact (hA ⟨1, h⟩).trans e_h
      | ⟨2, h⟩ => by show dat.arrAt ⟨2, h⟩ 0 = Vx main_arg3; exact (hA ⟨2, h⟩).trans e_W
      | ⟨3, h⟩ => by show dat.arrAt ⟨3, h⟩ 0 = Vx main_v0; exact (hA ⟨3, h⟩).trans e_b
      | ⟨4, h⟩ => by show dat.arrAt ⟨4, h⟩ 0 = Vx main_v44; exact (hA ⟨4, h⟩).trans e_out)
    T (funext fun j => match j with
      | ⟨0, h⟩ => by show T ⟨0, h⟩ = Vx main_v42; exact (hT ⟨0, h⟩).trans e_src
      | ⟨1, h⟩ => by show T ⟨1, h⟩ = Vx main_v43; exact (hT ⟨1, h⟩).trans e_dst)).1

set_option maxHeartbeats 1600000 in
/-- EXIT, everything a variable: the inputs' arrays end as they began, the output array at what the last write-backs
    leave (`x_out`); whenever `Vx` holds those contents at the six touched buffers, the pipeline's arrays at their final
    contents, the two tables and the rest at `Vx` are the unscoped buffers at `Vx`. -/
theorem exit10 (a : (pcfg10 (F := F)).Adm) (c : Dev nD) (dat : Dat τ (Elt F) Unit ℕ (UR sig nD τ) ℕ (cfg10 a) c) (N : Nat)
    (hq0 : dat.q 0 = fullShare.left) (hq1 : dat.q 1 = fullShare.right) (hq2 : dat.q 2 = fullShare) (hq3 : dat.q 3 = fullShare)
    (Vd Vx : (b : Ref sig .tc) → Buf (Elt F) ((c.tc : Thread nD τ).loc b))
    (hA : ∀ w, dat.A w = Vd (Pipeline.arrRef spec10 w))
    (x_h : Vd main_v1 = Vx main_v1) (x_W : Vd main_arg3 = Vx main_arg3) (x_b : Vd main_v0 = Vx main_v0) (x_out : dat.arrAt 4 N = Vx main_v44)
    (T : pre10.Contents (Elt F)) (hT : ∀ j, T j = Vd (pre10.ref j)) (x_src : Vd main_v42 = Vx main_v42) (x_dst : Vd main_v43 = Vx main_v43) :
    iprop(dat.arrays (dat.arrAt · N)
        ∗ Pipeline.prefHeld (Ix := Unit) (Name := ℕ) (U := UR sig nD τ) (Lvl := ℕ) pre10 c (fun _ => fullShare) T ∗ rest10 c Vx)
      ⊢ (unscopedBufs (Ix := Unit) (Name := ℕ) (U := UR sig nD τ) (Lvl := ℕ) c Vx : sProp 𝕄) :=
  (bufs10 a c dat hq0 hq1 hq2 hq3 Vx (fun w => dat.arrAt w N)
    (funext fun w => match w with
      | ⟨0, h⟩ => by show dat.arrAt ⟨0, h⟩ N = Vx main_v1; exact (dat.arrAt_in ⟨0, h⟩ rfl N).trans ((hA ⟨0, h⟩).trans x_h)
      | ⟨1, h⟩ => by show dat.arrAt ⟨1, h⟩ N = Vx main_v1; exact (dat.arrAt_in ⟨1, h⟩ rfl N).trans ((hA ⟨1, h⟩).trans x_h)
      | ⟨2, h⟩ => by show dat.arrAt ⟨2, h⟩ N = Vx main_arg3; exact (dat.arrAt_in ⟨2, h⟩ rfl N).trans ((hA ⟨2, h⟩).trans x_W)
      | ⟨3, h⟩ => by show dat.arrAt ⟨3, h⟩ N = Vx main_v0; exact (dat.arrAt_in ⟨3, h⟩ rfl N).trans ((hA ⟨3, h⟩).trans x_b)
      | ⟨4, h⟩ => by show dat.arrAt ⟨4, h⟩ N = Vx main_v44; exact x_out)
    T (funext fun j => match j with
      | ⟨0, h⟩ => by show T ⟨0, h⟩ = Vx main_v42; exact (hT ⟨0, h⟩).trans x_src
      | ⟨1, h⟩ => by show T ⟨1, h⟩ = Vx main_v43; exact (hT ⟨1, h⟩).trans x_dst)).2

variable (m : (ℓ : Loc nD τ sig) → Buf (Elt F) ℓ) (hO : Oks m)

/-! ## What the region finds and leaves, buffer by buffer -/

include hO

theorem fin10_h (c : Dev nD) : Ve10 m c main_v1 = V21 m (outsR m hO) c main_v1 := by first | exact indep10_h m (outsL m) (outsR m hO) c | rfl
theorem fin10_W (c : Dev nD) : Ve10 m c main_arg3 = V21 m (outsR m hO) c main_arg3 := by first | exact indep10_W m (outsL m) (outsR m hO) c | rfl
theorem fin10_b (c : Dev nD) : Ve10 m c main_v0 = V21 m (outsR m hO) c main_v0 := by first | exact indep10_b m (outsL m) (outsR m hO) c | rfl
theorem fin10_out (c : Dev nD) : Ve10 m c main_v44 = V21 m (outsR m hO) c main_v44 := by first | exact indep10_out m (outsL m) (outsR m hO) c | rfl
theorem fin10_src (c : Dev nD) : Ve10 m c main_v42 = V21 m (outsR m hO) c main_v42 := by first | exact indep10_src m (outsL m) (outsR m hO) c | rfl
theorem fin10_dst (c : Dev nD) : Ve10 m c main_v43 = V21 m (outsR m hO) c main_v43 := by first | exact indep10_dst m (outsL m) (outsR m hO) c | rfl

/-- What the region leaves in the buffers it touches: the inputs and the tables as they were, the output array at the
    region's chunk. -/
theorem lv10_h (c : Dev nD) : V22 m (outsR m hO) c main_v1 = V21 m (outsR m hO) c main_v1 := V22_of m (outsR m hO) c main_v1 (by decide)
theorem lv10_W (c : Dev nD) : V22 m (outsR m hO) c main_arg3 = V21 m (outsR m hO) c main_arg3 := V22_of m (outsR m hO) c main_arg3 (by decide)
theorem lv10_b (c : Dev nD) : V22 m (outsR m hO) c main_v0 = V21 m (outsR m hO) c main_v0 := V22_of m (outsR m hO) c main_v0 (by decide)
theorem lv10_src (c : Dev nD) : V22 m (outsR m hO) c main_v42 = V21 m (outsR m hO) c main_v42 := V22_of m (outsR m hO) c main_v42 (by decide)
theorem lv10_dst (c : Dev nD) : V22 m (outsR m hO) c main_v43 = V21 m (outsR m hO) c main_v43 := V22_of m (outsR m hO) c main_v43 (by decide)
theorem lv10_out (c : Dev nD) : V22 m (outsR m hO) c main_v44 = chunk10 m hO c :=
  (Function.update_self _ _ _).trans (outsR_10 m hO c)

/-- The buffers the region does not touch pass it by unchanged. -/
theorem rest10_eq (c : Dev nD) : (rest10 c (fun b => V21 m (outsR m hO) c b) : sProp 𝕄) = rest10 c (fun b => V22 m (outsR m hO) c b) := by
  unfold rest10
  exact BI.bigSep_congr fun b hb => by
    dsimp only
    rw [V22_of m (outsR m hO) c b (fun h => (Finset.mem_sdiff.mp hb).2 (by rw [List.mem_singleton.mp h]; decide))]

set_option maxHeartbeats 1600000 in
set_option backward.isDefEq.respectTransparency.types false in
/-- REGION 0 over the boundary states. -/
def reg10 : Pipeline.RegionSeg (pcfgs (F := F)) (adm m hO) (pdats m hO) () defs₀ 𝒱₀ L lv (10 : Fin 16) where
  win := winFacts₀10
  block_pos := block_pos10
  stage_whole := stage_whole10
  K := PEmpty
  osem k := k.elim
  ho := Pipeline.OwnSemFacts.none _
  hbody c := (body_obligation10 (Ve10 m) ⟨tbl10 m, hO.h10⟩ c).loose
  hwaits := Pipeline.hwaits_of_owed_zero _ _ _ _ L lv (10 : Fin 16) fun _ _ => rfl
  pre c := iprop(StableHlo.held (c : Thread nD τ) (Pipeline.ucRefs τ sig) (V21 m (outsR m hO) c) ∗ Rst c)
  post c := iprop(StableHlo.held (c : Thread nD τ) (Pipeline.ucRefs τ sig) (V22 m (outsR m hO) c) ∗ Rst c)
  X c := iprop(∃ r, prngReg c r)
  Y c := iprop((∃ r, prngReg c r) ∗ Pipeline.prefHeld (Ix := Unit) (Name := ℕ) (U := UR sig nD τ) (Lvl := ℕ) pre10 c (fun _ => fullShare) (tbl10 m))
  Z c := rest10 c (fun b => V21 m (outsR m hO) c b)
  hentry c := by
    obtain rfl : c = 0 := Subsingleton.elim _ _
    have hb := entry10 (adm m hO (10 : Fin 16)) 0 (pdats m hO (10 : Fin 16) 0) rfl rfl rfl rfl (Ve10 m 0) (fun b => V21 m (outsR m hO) 0 b) (fun w => rfl)
      (fin10_h m hO 0) (fin10_W m hO 0) (fin10_b m hO 0) (fin10_out m hO 0) (tbl10 m) (fun j => rfl) (fin10_src m hO 0) (fin10_dst m hO 0)
    rw [Pipeline.unscopedBufs_held] at hb
    iintro ⟨⟨Hub, Hp, HO⟩, -, -⟩
    ihave H := hb $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO (10 : Fin 16) c).Φ 0 = iprop(Pipeline.ΦA spec10 c ∗ Pipeline.prefHeld (Ix := Unit) (Name := ℕ) (U := UR sig nD τ) (Lvl := ℕ) pre10 c (fun _ => fullShare) (tbl10 m)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m hO (10 : Fin 16) c).Φ (Fin.last _) = iprop(Pipeline.ΦA spec10 c ∗ Pipeline.prefHeld (Ix := Unit) (Name := ℕ) (U := UR sig nD τ) (Lvl := ℕ) pre10 c (fun _ => fullShare) (tbl10 m)) from rfl]
    unfold Pipeline.ΦA
    iintro ⟨⟨Hr, Hp⟩, Ht⟩
    isplitl [Hp Ht]
    · isplitl [Hp]; · iexact Hp
      iexact Ht
    isplitr; · iempintro
    iexact Hr
  hexit c := by
    obtain rfl : c = 0 := Subsingleton.elim _ _
    have hb := exit10 (adm m hO (10 : Fin 16)) 0 (pdats m hO (10 : Fin 16) 0) (Pipeline.pin (pcfgs (F := F)) (adm m hO) (10 : Fin 16)).N rfl rfl rfl rfl
      (Ve10 m 0) (fun b => V22 m (outsR m hO) 0 b) (fun w => rfl)
      ((fin10_h m hO 0).trans (lv10_h m hO 0).symm) ((fin10_W m hO 0).trans (lv10_W m hO 0).symm) ((fin10_b m hO 0).trans (lv10_b m hO 0).symm)
      (lv10_out m hO 0).symm (tbl10 m) (fun j => rfl) ((fin10_src m hO 0).trans (lv10_src m hO 0).symm) ((fin10_dst m hO 0).trans (lv10_dst m hO 0).symm)
    rw [Pipeline.unscopedBufs_held, ← rest10_eq m hO 0] at hb
    iintro ⟨Ha, HO, ⟨Hp, Ht⟩, Hrest⟩
    imodintro
    isplitl [Ha Ht Hrest]
    · iapply hb
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Cert.KernelIdeal.Hand

end
-- ==== Proof.KIReg11.lean ====
/-
  Region 11 of the edge scorer as a segment of the program's run.

  The region is entered with every unscoped buffer held whole at the contents the host operations before it leave,
  beside the generator register and nothing owed. Of those buffers the pipeline takes the four arrays its five windows
  read and write — the feature rows (read by two windows, each at one half of the full share), the weights, the
  bias and the output chunk — and the two index tables; the other unscoped buffers bypass the region. At the exit the
  feature rows' two halves rejoin, the inputs are as they were, the output array holds the region's chunk, and
  the whole is the next boundary's contents.
-/
import proofs.«405368_j31662498906597_2_alg».proof.Proof.KIFamily
import proofs.«405368_j31662498906597_2_alg».proof.Proof.KIHostEntry
import proofs.«405368_j31662498906597_2_alg».proof.Proof.KIHostEntryGen
import Idealize.ShloMosaic.Lib.Pipeline.RegionsLoop

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The six unscoped buffers region 11 touches: the feature rows, the weights, the bias, its output chunk and its two
    index tables. -/
abbrev arrs11 : Finset (Ref sig .tc) := insert main_v1 (insert main_arg3 (insert main_v0 (insert main_v48 (insert main_v46 {main_v47}))))

theorem arrs11_sub : arrs11 ⊆ Finset.univ.filter fun b : Ref sig .tc => ¬ b.isScoped := by decide

/-- The unscoped buffers region 11 does not touch, held whole at `V`. -/
def rest11 (c : Dev nD) (V : (b : Ref sig .tc) → Buf (Elt F) ((c.tc : Thread nD τ).loc b)) : sProp 𝕄 :=
  bigSep ((Finset.univ.filter fun b : Ref sig .tc => ¬ b.isScoped) \ arrs11) fun b => ((c.tc : Thread nD τ).loc b) ↦{fullShare} V b

/-- The six touched buffers one by one, and the rest. -/
theorem ub_split11 (c : Dev nD) (V : (b : Ref sig .tc) → Buf (Elt F) ((c.tc : Thread nD τ).loc b)) :
    (unscopedBufs (Ix := Unit) (Name := ℕ) (U := UR sig nD τ) (Lvl := ℕ) c V : sProp 𝕄)
      = iprop(iprop((((c.tc : Thread nD τ).loc main_v1) ↦{fullShare} V main_v1) ∗ (((c.tc : Thread nD τ).loc main_arg3) ↦{fullShare} V main_arg3)
          ∗ (((c.tc : Thread nD τ).loc main_v0) ↦{fullShare} V main_v0) ∗ (((c.tc : Thread nD τ).loc main_v48) ↦{fullShare} V main_v48)
          ∗ (((c.tc : Thread nD τ).loc main_v46) ↦{fullShare} V main_v46) ∗ (((c.tc : Thread nD τ).loc main_v47) ↦{fullShare} V main_v47)) ∗ rest11 c V) := by
  unfold unscopedBufs rest11
  rw [BI.bigSep_sdiff_split arrs11_sub]
  refine congrArg (fun X => iprop(X ∗ _)) ?_
  show bigSep (insert main_v1 (insert main_arg3 (insert main_v0 (insert main_v48 (insert main_v46 {main_v47}))))) _ = _
  rw [BI.bigSep_insert (by decide), BI.bigSep_insert (by decide), BI.bigSep_insert (by decide), BI.bigSep_insert (by decide),
    BI.bigSep_insert (by decide), BI.bigSep_singleton]
  rfl

/-- A product over two tables, written out. -/
theorem two_tables11 (Φ : Fin 2 → sProp 𝕄) : bigSep Finset.univ Φ = iprop(Φ 0 ∗ Φ 1) := BI.bigSep_fin_two Φ

/-- The five windows' arrays and the two tables, by name. -/
theorem arrRef11_0 : Pipeline.arrRef spec11 (0 : Fin 5) = main_v1 := rfl
theorem arrRef11_1 : Pipeline.arrRef spec11 (1 : Fin 5) = main_v1 := rfl
theorem arrRef11_2 : Pipeline.arrRef spec11 (2 : Fin 5) = main_arg3 := rfl
theorem arrRef11_3 : Pipeline.arrRef spec11 (3 : Fin 5) = main_v0 := rfl
theorem arrRef11_4 : Pipeline.arrRef spec11 (4 : Fin 5) = main_v48 := rfl
theorem preRef11_0 : pre11.ref (0 : Fin 2) = main_v46 := rfl
theorem preRef11_1 : pre11.ref (1 : Fin 2) = main_v47 := rfl

set_option maxHeartbeats 1600000 in
/-- A core's unscoped buffers held whole at `V` ARE the pipeline's arrays at `V`'s contents of them (the feature rows'
    full share dealt as its two halves to the two windows that read them), the two tables at `V`'s contents of
    them, and the rest. Both directions: the region's entry and its exit. -/
theorem bufs11 (a : (pcfg11 (F := F)).Adm) (c : Dev nD) (dat : Dat τ (Elt F) Unit ℕ (UR sig nD τ) ℕ (cfg11 a) c)
    (hq0 : dat.q 0 = fullShare.left) (hq1 : dat.q 1 = fullShare.right) (hq2 : dat.q 2 = fullShare) (hq3 : dat.q 3 = fullShare)
    (V : (b : Ref sig .tc) → Buf (Elt F) ((c.tc : Thread nD τ).loc b))
    (G : (w : Fin (cfg11 a).W) → Buf (Elt F) (((cfg11 a).win w).arr.view.loc (c.tc : Thread nD τ)))
    (hG : G = fun w => V (Pipeline.arrRef spec11 w))
    (T : pre11.Contents (Elt F)) (hT : T = fun k => V (pre11.ref k)) :
    (unscopedBufs (Ix := Unit) (Name := ℕ) (U := UR sig nD τ) (Lvl := ℕ) c V : sProp 𝕄)
      ⊣⊢ iprop(dat.arrays G ∗ Pipeline.prefHeld (Ix := Unit) (Name := ℕ) (U := UR sig nD τ) (Lvl := ℕ) pre11 c (fun _ => fullShare) T ∗ rest11 c V) := by
  subst hG hT
  have harr : ∀ w, (((cfg11 a).spec w).arr).IsWhole := arr_whole11
  have hA : dat.arrays (fun w => V (Pipeline.arrRef spec11 w))
      = bigSep Finset.univ fun w : Fin 5 => (((c.tc : Thread nD τ).loc (Pipeline.arrRef spec11 w)) ↦{dat.share w} V (Pipeline.arrRef spec11 w) : sProp 𝕄) := by
    unfold Dat.arrays
    exact BI.bigSep_congr fun w _ => by rw [(harr w).set_eq_univ]
  have s0 : dat.share 0 = fullShare.left := by unfold Dat.share; rw [show ((cfg11 a).win 0).isOut = false from rfl]; exact hq0
  have s1 : dat.share 1 = fullShare.right := by unfold Dat.share; rw [show ((cfg11 a).win 1).isOut = false from rfl]; exact hq1
  have s2 : dat.share 2 = fullShare := by unfold Dat.share; rw [show ((cfg11 a).win 2).isOut = false from rfl]; exact hq2
  have s3 : dat.share 3 = fullShare := by unfold Dat.share; rw [show ((cfg11 a).win 3).isOut = false from rfl]; exact hq3
  have s4 : dat.share 4 = fullShare := by unfold Dat.share; rw [show ((cfg11 a).win 4).isOut = true from rfl]; rfl
  rw [ub_split11, hA, bigSep_W11, s0, s1, s2, s3, s4]
  unfold Pipeline.prefHeld
  rw [two_tables11]
  simp only [arrRef11_0, arrRef11_1, arrRef11_2, arrRef11_3, arrRef11_4, preRef11_0, preRef11_1]
  constructor
  · iintro ⟨⟨H1, HW, HB, HO, HS, HD⟩, Hr⟩
    ihave H1' := (pointsTo_share (PosShare.mem_left_op_right fullShare)).1 $$ H1
    icases H1' with ⟨H1a, H1b⟩
    isplitl [H1a H1b HW HB HO]
    · isplitl [H1a]; · iexact H1a
      isplitl [H1b]; · iexact H1b
      isplitl [HW]; · iexact HW
      isplitl [HB]; · iexact HB
      iexact HO
    isplitl [HS HD]
    · isplitl [HS]; · iexact HS
      iexact HD
    iexact Hr
  · iintro ⟨⟨H1a, H1b, HW, HB, HO⟩, ⟨HS, HD⟩, Hr⟩
    ihave H1 := (pointsTo_share (PosShare.mem_left_op_right fullShare)).2 $$ [H1a H1b]
    · isplitl [H1a]; · iexact H1a
      iexact H1b
    isplitr [Hr]
    · isplitl [H1]; · iexact H1
      isplitl [HW]; · iexact HW
      isplitl [HB]; · iexact HB
      isplitl [HO]; · iexact HO
      isplitl [HS]; · iexact HS
      iexact HD
    iexact Hr

set_option maxHeartbeats 1600000 in
/-- ENTRY, everything a variable: for any proof data `dat` whose arrays are `Vd`'s contents (`hA`) and any tables `T`
    that are `Vd`'s contents (`hT`), whenever the boundary contents `Vx` agree with `Vd` at the six touched buffers, the
    unscoped buffers at `Vx` are the pipeline's arrays at their entry contents, the two tables, and the rest. -/
theorem entry11 (a : (pcfg11 (F := F)).Adm) (c : Dev nD) (dat : Dat τ (Elt F) Unit ℕ (UR sig nD τ) ℕ (cfg11 a) c)
    (hq0 : dat.q 0 = fullShare.left) (hq1 : dat.q 1 = fullShare.right) (hq2 : dat.q 2 = fullShare) (hq3 : dat.q 3 = fullShare)
    (Vd Vx : (b : Ref sig .tc) → Buf (Elt F) ((c.tc : Thread nD τ).loc b))
    (hA : ∀ w, dat.A w = Vd (Pipeline.arrRef spec11 w))
    (e_h : Vd main_v1 = Vx main_v1) (e_W : Vd main_arg3 = Vx main_arg3) (e_b : Vd main_v0 = Vx main_v0) (e_out : Vd main_v48 = Vx main_v48)
    (T : pre11.Contents (Elt F)) (hT : ∀ j, T j = Vd (pre11.ref j)) (e_src : Vd main_v46 = Vx main_v46) (e_dst : Vd main_v47 = Vx main_v47) :
    (unscopedBufs (Ix := Unit) (Name := ℕ) (U := UR sig nD τ) (Lvl := ℕ) c Vx : sProp 𝕄)
      ⊢ iprop(dat.arrays (dat.arrAt · 0)
          ∗ Pipeline.prefHeld (Ix := Unit) (Name := ℕ) (U := UR sig nD τ) (Lvl := ℕ) pre11 c (fun _ => fullShare) T ∗ rest11 c Vx) :=
  (bufs11 a c dat hq0 hq1 hq2 hq3 Vx (fun w => dat.arrAt w 0)
    (funext fun w => match w with
      | ⟨0, h⟩ => by show dat.arrAt ⟨0, h⟩ 0 = Vx main_v1; exact (hA ⟨0, h⟩).trans e_h
      | ⟨1, h⟩ => by show dat.arrAt ⟨1, h⟩ 0 = Vx main_v1; exact (hA ⟨1, h⟩).trans e_h
      | ⟨2, h⟩ => by show dat.arrAt ⟨2, h⟩ 0 = Vx main_arg3; exact (hA ⟨2, h⟩).trans e_W
      | ⟨3, h⟩ => by show dat.arrAt ⟨3, h⟩ 0 = Vx main_v0; exact (hA ⟨3, h⟩).trans e_b
      | ⟨4, h⟩ => by show dat.arrAt ⟨4, h⟩ 0 = Vx main_v48; exact (hA ⟨4, h⟩).trans e_out)
    T (funext fun j => match j with
      | ⟨0, h⟩ => by show T ⟨0, h⟩ = Vx main_v46; exact (hT ⟨0, h⟩).trans e_src
      | ⟨1, h⟩ => by show T ⟨1, h⟩ = Vx main_v47; exact (hT ⟨1, h⟩).trans e_dst)).1

set_option maxHeartbeats 1600000 in
/-- EXIT, everything a variable: the inputs' arrays end as they began, the output array at what the last write-backs
    leave (`x_out`); whenever `Vx` holds those contents at the six touched buffers, the pipeline's arrays at their final
    contents, the two tables and the rest at `Vx` are the unscoped buffers at `Vx`. -/
theorem exit11 (a : (pcfg11 (F := F)).Adm) (c : Dev nD) (dat : Dat τ (Elt F) Unit ℕ (UR sig nD τ) ℕ (cfg11 a) c) (N : Nat)
    (hq0 : dat.q 0 = fullShare.left) (hq1 : dat.q 1 = fullShare.right) (hq2 : dat.q 2 = fullShare) (hq3 : dat.q 3 = fullShare)
    (Vd Vx : (b : Ref sig .tc) → Buf (Elt F) ((c.tc : Thread nD τ).loc b))
    (hA : ∀ w, dat.A w = Vd (Pipeline.arrRef spec11 w))
    (x_h : Vd main_v1 = Vx main_v1) (x_W : Vd main_arg3 = Vx main_arg3) (x_b : Vd main_v0 = Vx main_v0) (x_out : dat.arrAt 4 N = Vx main_v48)
    (T : pre11.Contents (Elt F)) (hT : ∀ j, T j = Vd (pre11.ref j)) (x_src : Vd main_v46 = Vx main_v46) (x_dst : Vd main_v47 = Vx main_v47) :
    iprop(dat.arrays (dat.arrAt · N)
        ∗ Pipeline.prefHeld (Ix := Unit) (Name := ℕ) (U := UR sig nD τ) (Lvl := ℕ) pre11 c (fun _ => fullShare) T ∗ rest11 c Vx)
      ⊢ (unscopedBufs (Ix := Unit) (Name := ℕ) (U := UR sig nD τ) (Lvl := ℕ) c Vx : sProp 𝕄) :=
  (bufs11 a c dat hq0 hq1 hq2 hq3 Vx (fun w => dat.arrAt w N)
    (funext fun w => match w with
      | ⟨0, h⟩ => by show dat.arrAt ⟨0, h⟩ N = Vx main_v1; exact (dat.arrAt_in ⟨0, h⟩ rfl N).trans ((hA ⟨0, h⟩).trans x_h)
      | ⟨1, h⟩ => by show dat.arrAt ⟨1, h⟩ N = Vx main_v1; exact (dat.arrAt_in ⟨1, h⟩ rfl N).trans ((hA ⟨1, h⟩).trans x_h)
      | ⟨2, h⟩ => by show dat.arrAt ⟨2, h⟩ N = Vx main_arg3; exact (dat.arrAt_in ⟨2, h⟩ rfl N).trans ((hA ⟨2, h⟩).trans x_W)
      | ⟨3, h⟩ => by show dat.arrAt ⟨3, h⟩ N = Vx main_v0; exact (dat.arrAt_in ⟨3, h⟩ rfl N).trans ((hA ⟨3, h⟩).trans x_b)
      | ⟨4, h⟩ => by show dat.arrAt ⟨4, h⟩ N = Vx main_v48; exact x_out)
    T (funext fun j => match j with
      | ⟨0, h⟩ => by show T ⟨0, h⟩ = Vx main_v46; exact (hT ⟨0, h⟩).trans x_src
      | ⟨1, h⟩ => by show T ⟨1, h⟩ = Vx main_v47; exact (hT ⟨1, h⟩).trans x_dst)).2

variable (m : (ℓ : Loc nD τ sig) → Buf (Elt F) ℓ) (hO : Oks m)

/-! ## What the region finds and leaves, buffer by buffer -/

include hO

theorem fin11_h (c : Dev nD) : Ve11 m c main_v1 = V23 m (outsR m hO) c main_v1 := by first | exact indep11_h m (outsL m) (outsR m hO) c | rfl
theorem fin11_W (c : Dev nD) : Ve11 m c main_arg3 = V23 m (outsR m hO) c main_arg3 := by first | exact indep11_W m (outsL m) (outsR m hO) c | rfl
theorem fin11_b (c : Dev nD) : Ve11 m c main_v0 = V23 m (outsR m hO) c main_v0 := by first | exact indep11_b m (outsL m) (outsR m hO) c | rfl
theorem fin11_out (c : Dev nD) : Ve11 m c main_v48 = V23 m (outsR m hO) c main_v48 := by first | exact indep11_out m (outsL m) (outsR m hO) c | rfl
theorem fin11_src (c : Dev nD) : Ve11 m c main_v46 = V23 m (outsR m hO) c main_v46 := by first | exact indep11_src m (outsL m) (outsR m hO) c | rfl
theorem fin11_dst (c : Dev nD) : Ve11 m c main_v47 = V23 m (outsR m hO) c main_v47 := by first | exact indep11_dst m (outsL m) (outsR m hO) c | rfl

/-- What the region leaves in the buffers it touches: the inputs and the tables as they were, the output array at the
    region's chunk. -/
theorem lv11_h (c : Dev nD) : V24 m (outsR m hO) c main_v1 = V23 m (outsR m hO) c main_v1 := V24_of m (outsR m hO) c main_v1 (by decide)
theorem lv11_W (c : Dev nD) : V24 m (outsR m hO) c main_arg3 = V23 m (outsR m hO) c main_arg3 := V24_of m (outsR m hO) c main_arg3 (by decide)
theorem lv11_b (c : Dev nD) : V24 m (outsR m hO) c main_v0 = V23 m (outsR m hO) c main_v0 := V24_of m (outsR m hO) c main_v0 (by decide)
theorem lv11_src (c : Dev nD) : V24 m (outsR m hO) c main_v46 = V23 m (outsR m hO) c main_v46 := V24_of m (outsR m hO) c main_v46 (by decide)
theorem lv11_dst (c : Dev nD) : V24 m (outsR m hO) c main_v47 = V23 m (outsR m hO) c main_v47 := V24_of m (outsR m hO) c main_v47 (by decide)
theorem lv11_out (c : Dev nD) : V24 m (outsR m hO) c main_v48 = chunk11 m hO c :=
  (Function.update_self _ _ _).trans (outsR_11 m hO c)

/-- The buffers the region does not touch pass it by unchanged. -/
theorem rest11_eq (c : Dev nD) : (rest11 c (fun b => V23 m (outsR m hO) c b) : sProp 𝕄) = rest11 c (fun b => V24 m (outsR m hO) c b) := by
  unfold rest11
  exact BI.bigSep_congr fun b hb => by
    dsimp only
    rw [V24_of m (outsR m hO) c b (fun h => (Finset.mem_sdiff.mp hb).2 (by rw [List.mem_singleton.mp h]; decide))]

set_option maxHeartbeats 1600000 in
set_option backward.isDefEq.respectTransparency.types false in
/-- REGION 0 over the boundary states. -/
def reg11 : Pipeline.RegionSeg (pcfgs (F := F)) (adm m hO) (pdats m hO) () defs₀ 𝒱₀ L lv (11 : Fin 16) where
  win := winFacts₀11
  block_pos := block_pos11
  stage_whole := stage_whole11
  K := PEmpty
  osem k := k.elim
  ho := Pipeline.OwnSemFacts.none _
  hbody c := (body_obligation11 (Ve11 m) ⟨tbl11 m, hO.h11⟩ c).loose
  hwaits := Pipeline.hwaits_of_owed_zero _ _ _ _ L lv (11 : Fin 16) fun _ _ => rfl
  pre c := iprop(StableHlo.held (c : Thread nD τ) (Pipeline.ucRefs τ sig) (V23 m (outsR m hO) c) ∗ Rst c)
  post c := iprop(StableHlo.held (c : Thread nD τ) (Pipeline.ucRefs τ sig) (V24 m (outsR m hO) c) ∗ Rst c)
  X c := iprop(∃ r, prngReg c r)
  Y c := iprop((∃ r, prngReg c r) ∗ Pipeline.prefHeld (Ix := Unit) (Name := ℕ) (U := UR sig nD τ) (Lvl := ℕ) pre11 c (fun _ => fullShare) (tbl11 m))
  Z c := rest11 c (fun b => V23 m (outsR m hO) c b)
  hentry c := by
    obtain rfl : c = 0 := Subsingleton.elim _ _
    have hb := entry11 (adm m hO (11 : Fin 16)) 0 (pdats m hO (11 : Fin 16) 0) rfl rfl rfl rfl (Ve11 m 0) (fun b => V23 m (outsR m hO) 0 b) (fun w => rfl)
      (fin11_h m hO 0) (fin11_W m hO 0) (fin11_b m hO 0) (fin11_out m hO 0) (tbl11 m) (fun j => rfl) (fin11_src m hO 0) (fin11_dst m hO 0)
    rw [Pipeline.unscopedBufs_held] at hb
    iintro ⟨⟨Hub, Hp, HO⟩, -, -⟩
    ihave H := hb $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO (11 : Fin 16) c).Φ 0 = iprop(Pipeline.ΦA spec11 c ∗ Pipeline.prefHeld (Ix := Unit) (Name := ℕ) (U := UR sig nD τ) (Lvl := ℕ) pre11 c (fun _ => fullShare) (tbl11 m)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m hO (11 : Fin 16) c).Φ (Fin.last _) = iprop(Pipeline.ΦA spec11 c ∗ Pipeline.prefHeld (Ix := Unit) (Name := ℕ) (U := UR sig nD τ) (Lvl := ℕ) pre11 c (fun _ => fullShare) (tbl11 m)) from rfl]
    unfold Pipeline.ΦA
    iintro ⟨⟨Hr, Hp⟩, Ht⟩
    isplitl [Hp Ht]
    · isplitl [Hp]; · iexact Hp
      iexact Ht
    isplitr; · iempintro
    iexact Hr
  hexit c := by
    obtain rfl : c = 0 := Subsingleton.elim _ _
    have hb := exit11 (adm m hO (11 : Fin 16)) 0 (pdats m hO (11 : Fin 16) 0) (Pipeline.pin (pcfgs (F := F)) (adm m hO) (11 : Fin 16)).N rfl rfl rfl rfl
      (Ve11 m 0) (fun b => V24 m (outsR m hO) 0 b) (fun w => rfl)
      ((fin11_h m hO 0).trans (lv11_h m hO 0).symm) ((fin11_W m hO 0).trans (lv11_W m hO 0).symm) ((fin11_b m hO 0).trans (lv11_b m hO 0).symm)
      (lv11_out m hO 0).symm (tbl11 m) (fun j => rfl) ((fin11_src m hO 0).trans (lv11_src m hO 0).symm) ((fin11_dst m hO 0).trans (lv11_dst m hO 0).symm)
    rw [Pipeline.unscopedBufs_held, ← rest11_eq m hO 0] at hb
    iintro ⟨Ha, HO, ⟨Hp, Ht⟩, Hrest⟩
    imodintro
    isplitl [Ha Ht Hrest]
    · iapply hb
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Cert.KernelIdeal.Hand

end
-- ==== Proof.KIReg12.lean ====
/-
  Region 12 of the edge scorer as a segment of the program's run.

  The region is entered with every unscoped buffer held whole at the contents the host operations before it leave,
  beside the generator register and nothing owed. Of those buffers the pipeline takes the four arrays its five windows
  read and write — the feature rows (read by two windows, each at one half of the full share), the weights, the
  bias and the output chunk — and the two index tables; the other unscoped buffers bypass the region. At the exit the
  feature rows' two halves rejoin, the inputs are as they were, the output array holds the region's chunk, and
  the whole is the next boundary's contents.
-/
import proofs.«405368_j31662498906597_2_alg».proof.Proof.KIFamily
import proofs.«405368_j31662498906597_2_alg».proof.Proof.KIHostEntry
import proofs.«405368_j31662498906597_2_alg».proof.Proof.KIHostEntryGen
import Idealize.ShloMosaic.Lib.Pipeline.RegionsLoop

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The six unscoped buffers region 12 touches: the feature rows, the weights, the bias, its output chunk and its two
    index tables. -/
abbrev arrs12 : Finset (Ref sig .tc) := insert main_v1 (insert main_arg3 (insert main_v0 (insert main_v52 (insert main_v50 {main_v51}))))

theorem arrs12_sub : arrs12 ⊆ Finset.univ.filter fun b : Ref sig .tc => ¬ b.isScoped := by decide

/-- The unscoped buffers region 12 does not touch, held whole at `V`. -/
def rest12 (c : Dev nD) (V : (b : Ref sig .tc) → Buf (Elt F) ((c.tc : Thread nD τ).loc b)) : sProp 𝕄 :=
  bigSep ((Finset.univ.filter fun b : Ref sig .tc => ¬ b.isScoped) \ arrs12) fun b => ((c.tc : Thread nD τ).loc b) ↦{fullShare} V b

/-- The six touched buffers one by one, and the rest. -/
theorem ub_split12 (c : Dev nD) (V : (b : Ref sig .tc) → Buf (Elt F) ((c.tc : Thread nD τ).loc b)) :
    (unscopedBufs (Ix := Unit) (Name := ℕ) (U := UR sig nD τ) (Lvl := ℕ) c V : sProp 𝕄)
      = iprop(iprop((((c.tc : Thread nD τ).loc main_v1) ↦{fullShare} V main_v1) ∗ (((c.tc : Thread nD τ).loc main_arg3) ↦{fullShare} V main_arg3)
          ∗ (((c.tc : Thread nD τ).loc main_v0) ↦{fullShare} V main_v0) ∗ (((c.tc : Thread nD τ).loc main_v52) ↦{fullShare} V main_v52)
          ∗ (((c.tc : Thread nD τ).loc main_v50) ↦{fullShare} V main_v50) ∗ (((c.tc : Thread nD τ).loc main_v51) ↦{fullShare} V main_v51)) ∗ rest12 c V) := by
  unfold unscopedBufs rest12
  rw [BI.bigSep_sdiff_split arrs12_sub]
  refine congrArg (fun X => iprop(X ∗ _)) ?_
  show bigSep (insert main_v1 (insert main_arg3 (insert main_v0 (insert main_v52 (insert main_v50 {main_v51}))))) _ = _
  rw [BI.bigSep_insert (by decide), BI.bigSep_insert (by decide), BI.bigSep_insert (by decide), BI.bigSep_insert (by decide),
    BI.bigSep_insert (by decide), BI.bigSep_singleton]
  rfl

/-- A product over two tables, written out. -/
theorem two_tables12 (Φ : Fin 2 → sProp 𝕄) : bigSep Finset.univ Φ = iprop(Φ 0 ∗ Φ 1) := BI.bigSep_fin_two Φ

/-- The five windows' arrays and the two tables, by name. -/
theorem arrRef12_0 : Pipeline.arrRef spec12 (0 : Fin 5) = main_v1 := rfl
theorem arrRef12_1 : Pipeline.arrRef spec12 (1 : Fin 5) = main_v1 := rfl
theorem arrRef12_2 : Pipeline.arrRef spec12 (2 : Fin 5) = main_arg3 := rfl
theorem arrRef12_3 : Pipeline.arrRef spec12 (3 : Fin 5) = main_v0 := rfl
theorem arrRef12_4 : Pipeline.arrRef spec12 (4 : Fin 5) = main_v52 := rfl
theorem preRef12_0 : pre12.ref (0 : Fin 2) = main_v50 := rfl
theorem preRef12_1 : pre12.ref (1 : Fin 2) = main_v51 := rfl

set_option maxHeartbeats 1600000 in
/-- A core's unscoped buffers held whole at `V` ARE the pipeline's arrays at `V`'s contents of them (the feature rows'
    full share dealt as its two halves to the two windows that read them), the two tables at `V`'s contents of
    them, and the rest. Both directions: the region's entry and its exit. -/
theorem bufs12 (a : (pcfg12 (F := F)).Adm) (c : Dev nD) (dat : Dat τ (Elt F) Unit ℕ (UR sig nD τ) ℕ (cfg12 a) c)
    (hq0 : dat.q 0 = fullShare.left) (hq1 : dat.q 1 = fullShare.right) (hq2 : dat.q 2 = fullShare) (hq3 : dat.q 3 = fullShare)
    (V : (b : Ref sig .tc) → Buf (Elt F) ((c.tc : Thread nD τ).loc b))
    (G : (w : Fin (cfg12 a).W) → Buf (Elt F) (((cfg12 a).win w).arr.view.loc (c.tc : Thread nD τ)))
    (hG : G = fun w => V (Pipeline.arrRef spec12 w))
    (T : pre12.Contents (Elt F)) (hT : T = fun k => V (pre12.ref k)) :
    (unscopedBufs (Ix := Unit) (Name := ℕ) (U := UR sig nD τ) (Lvl := ℕ) c V : sProp 𝕄)
      ⊣⊢ iprop(dat.arrays G ∗ Pipeline.prefHeld (Ix := Unit) (Name := ℕ) (U := UR sig nD τ) (Lvl := ℕ) pre12 c (fun _ => fullShare) T ∗ rest12 c V) := by
  subst hG hT
  have harr : ∀ w, (((cfg12 a).spec w).arr).IsWhole := arr_whole12
  have hA : dat.arrays (fun w => V (Pipeline.arrRef spec12 w))
      = bigSep Finset.univ fun w : Fin 5 => (((c.tc : Thread nD τ).loc (Pipeline.arrRef spec12 w)) ↦{dat.share w} V (Pipeline.arrRef spec12 w) : sProp 𝕄) := by
    unfold Dat.arrays
    exact BI.bigSep_congr fun w _ => by rw [(harr w).set_eq_univ]
  have s0 : dat.share 0 = fullShare.left := by unfold Dat.share; rw [show ((cfg12 a).win 0).isOut = false from rfl]; exact hq0
  have s1 : dat.share 1 = fullShare.right := by unfold Dat.share; rw [show ((cfg12 a).win 1).isOut = false from rfl]; exact hq1
  have s2 : dat.share 2 = fullShare := by unfold Dat.share; rw [show ((cfg12 a).win 2).isOut = false from rfl]; exact hq2
  have s3 : dat.share 3 = fullShare := by unfold Dat.share; rw [show ((cfg12 a).win 3).isOut = false from rfl]; exact hq3
  have s4 : dat.share 4 = fullShare := by unfold Dat.share; rw [show ((cfg12 a).win 4).isOut = true from rfl]; rfl
  rw [ub_split12, hA, bigSep_W12, s0, s1, s2, s3, s4]
  unfold Pipeline.prefHeld
  rw [two_tables12]
  simp only [arrRef12_0, arrRef12_1, arrRef12_2, arrRef12_3, arrRef12_4, preRef12_0, preRef12_1]
  constructor
  · iintro ⟨⟨H1, HW, HB, HO, HS, HD⟩, Hr⟩
    ihave H1' := (pointsTo_share (PosShare.mem_left_op_right fullShare)).1 $$ H1
    icases H1' with ⟨H1a, H1b⟩
    isplitl [H1a H1b HW HB HO]
    · isplitl [H1a]; · iexact H1a
      isplitl [H1b]; · iexact H1b
      isplitl [HW]; · iexact HW
      isplitl [HB]; · iexact HB
      iexact HO
    isplitl [HS HD]
    · isplitl [HS]; · iexact HS
      iexact HD
    iexact Hr
  · iintro ⟨⟨H1a, H1b, HW, HB, HO⟩, ⟨HS, HD⟩, Hr⟩
    ihave H1 := (pointsTo_share (PosShare.mem_left_op_right fullShare)).2 $$ [H1a H1b]
    · isplitl [H1a]; · iexact H1a
      iexact H1b
    isplitr [Hr]
    · isplitl [H1]; · iexact H1
      isplitl [HW]; · iexact HW
      isplitl [HB]; · iexact HB
      isplitl [HO]; · iexact HO
      isplitl [HS]; · iexact HS
      iexact HD
    iexact Hr

set_option maxHeartbeats 1600000 in
/-- ENTRY, everything a variable: for any proof data `dat` whose arrays are `Vd`'s contents (`hA`) and any tables `T`
    that are `Vd`'s contents (`hT`), whenever the boundary contents `Vx` agree with `Vd` at the six touched buffers, the
    unscoped buffers at `Vx` are the pipeline's arrays at their entry contents, the two tables, and the rest. -/
theorem entry12 (a : (pcfg12 (F := F)).Adm) (c : Dev nD) (dat : Dat τ (Elt F) Unit ℕ (UR sig nD τ) ℕ (cfg12 a) c)
    (hq0 : dat.q 0 = fullShare.left) (hq1 : dat.q 1 = fullShare.right) (hq2 : dat.q 2 = fullShare) (hq3 : dat.q 3 = fullShare)
    (Vd Vx : (b : Ref sig .tc) → Buf (Elt F) ((c.tc : Thread nD τ).loc b))
    (hA : ∀ w, dat.A w = Vd (Pipeline.arrRef spec12 w))
    (e_h : Vd main_v1 = Vx main_v1) (e_W : Vd main_arg3 = Vx main_arg3) (e_b : Vd main_v0 = Vx main_v0) (e_out : Vd main_v52 = Vx main_v52)
    (T : pre12.Contents (Elt F)) (hT : ∀ j, T j = Vd (pre12.ref j)) (e_src : Vd main_v50 = Vx main_v50) (e_dst : Vd main_v51 = Vx main_v51) :
    (unscopedBufs (Ix := Unit) (Name := ℕ) (U := UR sig nD τ) (Lvl := ℕ) c Vx : sProp 𝕄)
      ⊢ iprop(dat.arrays (dat.arrAt · 0)
          ∗ Pipeline.prefHeld (Ix := Unit) (Name := ℕ) (U := UR sig nD τ) (Lvl := ℕ) pre12 c (fun _ => fullShare) T ∗ rest12 c Vx) :=
  (bufs12 a c dat hq0 hq1 hq2 hq3 Vx (fun w => dat.arrAt w 0)
    (funext fun w => match w with
      | ⟨0, h⟩ => by show dat.arrAt ⟨0, h⟩ 0 = Vx main_v1; exact (hA ⟨0, h⟩).trans e_h
      | ⟨1, h⟩ => by show dat.arrAt ⟨1, h⟩ 0 = Vx main_v1; exact (hA ⟨1, h⟩).trans e_h
      | ⟨2, h⟩ => by show dat.arrAt ⟨2, h⟩ 0 = Vx main_arg3; exact (hA ⟨2, h⟩).trans e_W
      | ⟨3, h⟩ => by show dat.arrAt ⟨3, h⟩ 0 = Vx main_v0; exact (hA ⟨3, h⟩).trans e_b
      | ⟨4, h⟩ => by show dat.arrAt ⟨4, h⟩ 0 = Vx main_v52; exact (hA ⟨4, h⟩).trans e_out)
    T (funext fun j => match j with
      | ⟨0, h⟩ => by show T ⟨0, h⟩ = Vx main_v50; exact (hT ⟨0, h⟩).trans e_src
      | ⟨1, h⟩ => by show T ⟨1, h⟩ = Vx main_v51; exact (hT ⟨1, h⟩).trans e_dst)).1

set_option maxHeartbeats 1600000 in
/-- EXIT, everything a variable: the inputs' arrays end as they began, the output array at what the last write-backs
    leave (`x_out`); whenever `Vx` holds those contents at the six touched buffers, the pipeline's arrays at their final
    contents, the two tables and the rest at `Vx` are the unscoped buffers at `Vx`. -/
theorem exit12 (a : (pcfg12 (F := F)).Adm) (c : Dev nD) (dat : Dat τ (Elt F) Unit ℕ (UR sig nD τ) ℕ (cfg12 a) c) (N : Nat)
    (hq0 : dat.q 0 = fullShare.left) (hq1 : dat.q 1 = fullShare.right) (hq2 : dat.q 2 = fullShare) (hq3 : dat.q 3 = fullShare)
    (Vd Vx : (b : Ref sig .tc) → Buf (Elt F) ((c.tc : Thread nD τ).loc b))
    (hA : ∀ w, dat.A w = Vd (Pipeline.arrRef spec12 w))
    (x_h : Vd main_v1 = Vx main_v1) (x_W : Vd main_arg3 = Vx main_arg3) (x_b : Vd main_v0 = Vx main_v0) (x_out : dat.arrAt 4 N = Vx main_v52)
    (T : pre12.Contents (Elt F)) (hT : ∀ j, T j = Vd (pre12.ref j)) (x_src : Vd main_v50 = Vx main_v50) (x_dst : Vd main_v51 = Vx main_v51) :
    iprop(dat.arrays (dat.arrAt · N)
        ∗ Pipeline.prefHeld (Ix := Unit) (Name := ℕ) (U := UR sig nD τ) (Lvl := ℕ) pre12 c (fun _ => fullShare) T ∗ rest12 c Vx)
      ⊢ (unscopedBufs (Ix := Unit) (Name := ℕ) (U := UR sig nD τ) (Lvl := ℕ) c Vx : sProp 𝕄) :=
  (bufs12 a c dat hq0 hq1 hq2 hq3 Vx (fun w => dat.arrAt w N)
    (funext fun w => match w with
      | ⟨0, h⟩ => by show dat.arrAt ⟨0, h⟩ N = Vx main_v1; exact (dat.arrAt_in ⟨0, h⟩ rfl N).trans ((hA ⟨0, h⟩).trans x_h)
      | ⟨1, h⟩ => by show dat.arrAt ⟨1, h⟩ N = Vx main_v1; exact (dat.arrAt_in ⟨1, h⟩ rfl N).trans ((hA ⟨1, h⟩).trans x_h)
      | ⟨2, h⟩ => by show dat.arrAt ⟨2, h⟩ N = Vx main_arg3; exact (dat.arrAt_in ⟨2, h⟩ rfl N).trans ((hA ⟨2, h⟩).trans x_W)
      | ⟨3, h⟩ => by show dat.arrAt ⟨3, h⟩ N = Vx main_v0; exact (dat.arrAt_in ⟨3, h⟩ rfl N).trans ((hA ⟨3, h⟩).trans x_b)
      | ⟨4, h⟩ => by show dat.arrAt ⟨4, h⟩ N = Vx main_v52; exact x_out)
    T (funext fun j => match j with
      | ⟨0, h⟩ => by show T ⟨0, h⟩ = Vx main_v50; exact (hT ⟨0, h⟩).trans x_src
      | ⟨1, h⟩ => by show T ⟨1, h⟩ = Vx main_v51; exact (hT ⟨1, h⟩).trans x_dst)).2

variable (m : (ℓ : Loc nD τ sig) → Buf (Elt F) ℓ) (hO : Oks m)

/-! ## What the region finds and leaves, buffer by buffer -/

include hO

theorem fin12_h (c : Dev nD) : Ve12 m c main_v1 = V25 m (outsR m hO) c main_v1 := by first | exact indep12_h m (outsL m) (outsR m hO) c | rfl
theorem fin12_W (c : Dev nD) : Ve12 m c main_arg3 = V25 m (outsR m hO) c main_arg3 := by first | exact indep12_W m (outsL m) (outsR m hO) c | rfl
theorem fin12_b (c : Dev nD) : Ve12 m c main_v0 = V25 m (outsR m hO) c main_v0 := by first | exact indep12_b m (outsL m) (outsR m hO) c | rfl
theorem fin12_out (c : Dev nD) : Ve12 m c main_v52 = V25 m (outsR m hO) c main_v52 := by first | exact indep12_out m (outsL m) (outsR m hO) c | rfl
theorem fin12_src (c : Dev nD) : Ve12 m c main_v50 = V25 m (outsR m hO) c main_v50 := by first | exact indep12_src m (outsL m) (outsR m hO) c | rfl
theorem fin12_dst (c : Dev nD) : Ve12 m c main_v51 = V25 m (outsR m hO) c main_v51 := by first | exact indep12_dst m (outsL m) (outsR m hO) c | rfl

/-- What the region leaves in the buffers it touches: the inputs and the tables as they were, the output array at the
    region's chunk. -/
theorem lv12_h (c : Dev nD) : V26 m (outsR m hO) c main_v1 = V25 m (outsR m hO) c main_v1 := V26_of m (outsR m hO) c main_v1 (by decide)
theorem lv12_W (c : Dev nD) : V26 m (outsR m hO) c main_arg3 = V25 m (outsR m hO) c main_arg3 := V26_of m (outsR m hO) c main_arg3 (by decide)
theorem lv12_b (c : Dev nD) : V26 m (outsR m hO) c main_v0 = V25 m (outsR m hO) c main_v0 := V26_of m (outsR m hO) c main_v0 (by decide)
theorem lv12_src (c : Dev nD) : V26 m (outsR m hO) c main_v50 = V25 m (outsR m hO) c main_v50 := V26_of m (outsR m hO) c main_v50 (by decide)
theorem lv12_dst (c : Dev nD) : V26 m (outsR m hO) c main_v51 = V25 m (outsR m hO) c main_v51 := V26_of m (outsR m hO) c main_v51 (by decide)
theorem lv12_out (c : Dev nD) : V26 m (outsR m hO) c main_v52 = chunk12 m hO c :=
  (Function.update_self _ _ _).trans (outsR_12 m hO c)

/-- The buffers the region does not touch pass it by unchanged. -/
theorem rest12_eq (c : Dev nD) : (rest12 c (fun b => V25 m (outsR m hO) c b) : sProp 𝕄) = rest12 c (fun b => V26 m (outsR m hO) c b) := by
  unfold rest12
  exact BI.bigSep_congr fun b hb => by
    dsimp only
    rw [V26_of m (outsR m hO) c b (fun h => (Finset.mem_sdiff.mp hb).2 (by rw [List.mem_singleton.mp h]; decide))]

set_option maxHeartbeats 1600000 in
set_option backward.isDefEq.respectTransparency.types false in
/-- REGION 0 over the boundary states. -/
def reg12 : Pipeline.RegionSeg (pcfgs (F := F)) (adm m hO) (pdats m hO) () defs₀ 𝒱₀ L lv (12 : Fin 16) where
  win := winFacts₀12
  block_pos := block_pos12
  stage_whole := stage_whole12
  K := PEmpty
  osem k := k.elim
  ho := Pipeline.OwnSemFacts.none _
  hbody c := (body_obligation12 (Ve12 m) ⟨tbl12 m, hO.h12⟩ c).loose
  hwaits := Pipeline.hwaits_of_owed_zero _ _ _ _ L lv (12 : Fin 16) fun _ _ => rfl
  pre c := iprop(StableHlo.held (c : Thread nD τ) (Pipeline.ucRefs τ sig) (V25 m (outsR m hO) c) ∗ Rst c)
  post c := iprop(StableHlo.held (c : Thread nD τ) (Pipeline.ucRefs τ sig) (V26 m (outsR m hO) c) ∗ Rst c)
  X c := iprop(∃ r, prngReg c r)
  Y c := iprop((∃ r, prngReg c r) ∗ Pipeline.prefHeld (Ix := Unit) (Name := ℕ) (U := UR sig nD τ) (Lvl := ℕ) pre12 c (fun _ => fullShare) (tbl12 m))
  Z c := rest12 c (fun b => V25 m (outsR m hO) c b)
  hentry c := by
    obtain rfl : c = 0 := Subsingleton.elim _ _
    have hb := entry12 (adm m hO (12 : Fin 16)) 0 (pdats m hO (12 : Fin 16) 0) rfl rfl rfl rfl (Ve12 m 0) (fun b => V25 m (outsR m hO) 0 b) (fun w => rfl)
      (fin12_h m hO 0) (fin12_W m hO 0) (fin12_b m hO 0) (fin12_out m hO 0) (tbl12 m) (fun j => rfl) (fin12_src m hO 0) (fin12_dst m hO 0)
    rw [Pipeline.unscopedBufs_held] at hb
    iintro ⟨⟨Hub, Hp, HO⟩, -, -⟩
    ihave H := hb $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO (12 : Fin 16) c).Φ 0 = iprop(Pipeline.ΦA spec12 c ∗ Pipeline.prefHeld (Ix := Unit) (Name := ℕ) (U := UR sig nD τ) (Lvl := ℕ) pre12 c (fun _ => fullShare) (tbl12 m)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m hO (12 : Fin 16) c).Φ (Fin.last _) = iprop(Pipeline.ΦA spec12 c ∗ Pipeline.prefHeld (Ix := Unit) (Name := ℕ) (U := UR sig nD τ) (Lvl := ℕ) pre12 c (fun _ => fullShare) (tbl12 m)) from rfl]
    unfold Pipeline.ΦA
    iintro ⟨⟨Hr, Hp⟩, Ht⟩
    isplitl [Hp Ht]
    · isplitl [Hp]; · iexact Hp
      iexact Ht
    isplitr; · iempintro
    iexact Hr
  hexit c := by
    obtain rfl : c = 0 := Subsingleton.elim _ _
    have hb := exit12 (adm m hO (12 : Fin 16)) 0 (pdats m hO (12 : Fin 16) 0) (Pipeline.pin (pcfgs (F := F)) (adm m hO) (12 : Fin 16)).N rfl rfl rfl rfl
      (Ve12 m 0) (fun b => V26 m (outsR m hO) 0 b) (fun w => rfl)
      ((fin12_h m hO 0).trans (lv12_h m hO 0).symm) ((fin12_W m hO 0).trans (lv12_W m hO 0).symm) ((fin12_b m hO 0).trans (lv12_b m hO 0).symm)
      (lv12_out m hO 0).symm (tbl12 m) (fun j => rfl) ((fin12_src m hO 0).trans (lv12_src m hO 0).symm) ((fin12_dst m hO 0).trans (lv12_dst m hO 0).symm)
    rw [Pipeline.unscopedBufs_held, ← rest12_eq m hO 0] at hb
    iintro ⟨Ha, HO, ⟨Hp, Ht⟩, Hrest⟩
    imodintro
    isplitl [Ha Ht Hrest]
    · iapply hb
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Cert.KernelIdeal.Hand

end
-- ==== Proof.KIReg13.lean ====
/-
  Region 13 of the edge scorer as a segment of the program's run.

  The region is entered with every unscoped buffer held whole at the contents the host operations before it leave,
  beside the generator register and nothing owed. Of those buffers the pipeline takes the four arrays its five windows
  read and write — the feature rows (read by two windows, each at one half of the full share), the weights, the
  bias and the output chunk — and the two index tables; the other unscoped buffers bypass the region. At the exit the
  feature rows' two halves rejoin, the inputs are as they were, the output array holds the region's chunk, and
  the whole is the next boundary's contents.
-/
import proofs.«405368_j31662498906597_2_alg».proof.Proof.KIFamily
import proofs.«405368_j31662498906597_2_alg».proof.Proof.KIHostEntry
import proofs.«405368_j31662498906597_2_alg».proof.Proof.KIHostEntryGen
import Idealize.ShloMosaic.Lib.Pipeline.RegionsLoop

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The six unscoped buffers region 13 touches: the feature rows, the weights, the bias, its output chunk and its two
    index tables. -/
abbrev arrs13 : Finset (Ref sig .tc) := insert main_v1 (insert main_arg3 (insert main_v0 (insert main_v56 (insert main_v54 {main_v55}))))

theorem arrs13_sub : arrs13 ⊆ Finset.univ.filter fun b : Ref sig .tc => ¬ b.isScoped := by decide

/-- The unscoped buffers region 13 does not touch, held whole at `V`. -/
def rest13 (c : Dev nD) (V : (b : Ref sig .tc) → Buf (Elt F) ((c.tc : Thread nD τ).loc b)) : sProp 𝕄 :=
  bigSep ((Finset.univ.filter fun b : Ref sig .tc => ¬ b.isScoped) \ arrs13) fun b => ((c.tc : Thread nD τ).loc b) ↦{fullShare} V b

/-- The six touched buffers one by one, and the rest. -/
theorem ub_split13 (c : Dev nD) (V : (b : Ref sig .tc) → Buf (Elt F) ((c.tc : Thread nD τ).loc b)) :
    (unscopedBufs (Ix := Unit) (Name := ℕ) (U := UR sig nD τ) (Lvl := ℕ) c V : sProp 𝕄)
      = iprop(iprop((((c.tc : Thread nD τ).loc main_v1) ↦{fullShare} V main_v1) ∗ (((c.tc : Thread nD τ).loc main_arg3) ↦{fullShare} V main_arg3)
          ∗ (((c.tc : Thread nD τ).loc main_v0) ↦{fullShare} V main_v0) ∗ (((c.tc : Thread nD τ).loc main_v56) ↦{fullShare} V main_v56)
          ∗ (((c.tc : Thread nD τ).loc main_v54) ↦{fullShare} V main_v54) ∗ (((c.tc : Thread nD τ).loc main_v55) ↦{fullShare} V main_v55)) ∗ rest13 c V) := by
  unfold unscopedBufs rest13
  rw [BI.bigSep_sdiff_split arrs13_sub]
  refine congrArg (fun X => iprop(X ∗ _)) ?_
  show bigSep (insert main_v1 (insert main_arg3 (insert main_v0 (insert main_v56 (insert main_v54 {main_v55}))))) _ = _
  rw [BI.bigSep_insert (by decide), BI.bigSep_insert (by decide), BI.bigSep_insert (by decide), BI.bigSep_insert (by decide),
    BI.bigSep_insert (by decide), BI.bigSep_singleton]
  rfl

/-- A product over two tables, written out. -/
theorem two_tables13 (Φ : Fin 2 → sProp 𝕄) : bigSep Finset.univ Φ = iprop(Φ 0 ∗ Φ 1) := BI.bigSep_fin_two Φ

/-- The five windows' arrays and the two tables, by name. -/
theorem arrRef13_0 : Pipeline.arrRef spec13 (0 : Fin 5) = main_v1 := rfl
theorem arrRef13_1 : Pipeline.arrRef spec13 (1 : Fin 5) = main_v1 := rfl
theorem arrRef13_2 : Pipeline.arrRef spec13 (2 : Fin 5) = main_arg3 := rfl
theorem arrRef13_3 : Pipeline.arrRef spec13 (3 : Fin 5) = main_v0 := rfl
theorem arrRef13_4 : Pipeline.arrRef spec13 (4 : Fin 5) = main_v56 := rfl
theorem preRef13_0 : pre13.ref (0 : Fin 2) = main_v54 := rfl
theorem preRef13_1 : pre13.ref (1 : Fin 2) = main_v55 := rfl

set_option maxHeartbeats 1600000 in
/-- A core's unscoped buffers held whole at `V` ARE the pipeline's arrays at `V`'s contents of them (the feature rows'
    full share dealt as its two halves to the two windows that read them), the two tables at `V`'s contents of
    them, and the rest. Both directions: the region's entry and its exit. -/
theorem bufs13 (a : (pcfg13 (F := F)).Adm) (c : Dev nD) (dat : Dat τ (Elt F) Unit ℕ (UR sig nD τ) ℕ (cfg13 a) c)
    (hq0 : dat.q 0 = fullShare.left) (hq1 : dat.q 1 = fullShare.right) (hq2 : dat.q 2 = fullShare) (hq3 : dat.q 3 = fullShare)
    (V : (b : Ref sig .tc) → Buf (Elt F) ((c.tc : Thread nD τ).loc b))
    (G : (w : Fin (cfg13 a).W) → Buf (Elt F) (((cfg13 a).win w).arr.view.loc (c.tc : Thread nD τ)))
    (hG : G = fun w => V (Pipeline.arrRef spec13 w))
    (T : pre13.Contents (Elt F)) (hT : T = fun k => V (pre13.ref k)) :
    (unscopedBufs (Ix := Unit) (Name := ℕ) (U := UR sig nD τ) (Lvl := ℕ) c V : sProp 𝕄)
      ⊣⊢ iprop(dat.arrays G ∗ Pipeline.prefHeld (Ix := Unit) (Name := ℕ) (U := UR sig nD τ) (Lvl := ℕ) pre13 c (fun _ => fullShare) T ∗ rest13 c V) := by
  subst hG hT
  have harr : ∀ w, (((cfg13 a).spec w).arr).IsWhole := arr_whole13
  have hA : dat.arrays (fun w => V (Pipeline.arrRef spec13 w))
      = bigSep Finset.univ fun w : Fin 5 => (((c.tc : Thread nD τ).loc (Pipeline.arrRef spec13 w)) ↦{dat.share w} V (Pipeline.arrRef spec13 w) : sProp 𝕄) := by
    unfold Dat.arrays
    exact BI.bigSep_congr fun w _ => by rw [(harr w).set_eq_univ]
  have s0 : dat.share 0 = fullShare.left := by unfold Dat.share; rw [show ((cfg13 a).win 0).isOut = false from rfl]; exact hq0
  have s1 : dat.share 1 = fullShare.right := by unfold Dat.share; rw [show ((cfg13 a).win 1).isOut = false from rfl]; exact hq1
  have s2 : dat.share 2 = fullShare := by unfold Dat.share; rw [show ((cfg13 a).win 2).isOut = false from rfl]; exact hq2
  have s3 : dat.share 3 = fullShare := by unfold Dat.share; rw [show ((cfg13 a).win 3).isOut = false from rfl]; exact hq3
  have s4 : dat.share 4 = fullShare := by unfold Dat.share; rw [show ((cfg13 a).win 4).isOut = true from rfl]; rfl
  rw [ub_split13, hA, bigSep_W13, s0, s1, s2, s3, s4]
  unfold Pipeline.prefHeld
  rw [two_tables13]
  simp only [arrRef13_0, arrRef13_1, arrRef13_2, arrRef13_3, arrRef13_4, preRef13_0, preRef13_1]
  constructor
  · iintro ⟨⟨H1, HW, HB, HO, HS, HD⟩, Hr⟩
    ihave H1' := (pointsTo_share (PosShare.mem_left_op_right fullShare)).1 $$ H1
    icases H1' with ⟨H1a, H1b⟩
    isplitl [H1a H1b HW HB HO]
    · isplitl [H1a]; · iexact H1a
      isplitl [H1b]; · iexact H1b
      isplitl [HW]; · iexact HW
      isplitl [HB]; · iexact HB
      iexact HO
    isplitl [HS HD]
    · isplitl [HS]; · iexact HS
      iexact HD
    iexact Hr
  · iintro ⟨⟨H1a, H1b, HW, HB, HO⟩, ⟨HS, HD⟩, Hr⟩
    ihave H1 := (pointsTo_share (PosShare.mem_left_op_right fullShare)).2 $$ [H1a H1b]
    · isplitl [H1a]; · iexact H1a
      iexact H1b
    isplitr [Hr]
    · isplitl [H1]; · iexact H1
      isplitl [HW]; · iexact HW
      isplitl [HB]; · iexact HB
      isplitl [HO]; · iexact HO
      isplitl [HS]; · iexact HS
      iexact HD
    iexact Hr

set_option maxHeartbeats 1600000 in
/-- ENTRY, everything a variable: for any proof data `dat` whose arrays are `Vd`'s contents (`hA`) and any tables `T`
    that are `Vd`'s contents (`hT`), whenever the boundary contents `Vx` agree with `Vd` at the six touched buffers, the
    unscoped buffers at `Vx` are the pipeline's arrays at their entry contents, the two tables, and the rest. -/
theorem entry13 (a : (pcfg13 (F := F)).Adm) (c : Dev nD) (dat : Dat τ (Elt F) Unit ℕ (UR sig nD τ) ℕ (cfg13 a) c)
    (hq0 : dat.q 0 = fullShare.left) (hq1 : dat.q 1 = fullShare.right) (hq2 : dat.q 2 = fullShare) (hq3 : dat.q 3 = fullShare)
    (Vd Vx : (b : Ref sig .tc) → Buf (Elt F) ((c.tc : Thread nD τ).loc b))
    (hA : ∀ w, dat.A w = Vd (Pipeline.arrRef spec13 w))
    (e_h : Vd main_v1 = Vx main_v1) (e_W : Vd main_arg3 = Vx main_arg3) (e_b : Vd main_v0 = Vx main_v0) (e_out : Vd main_v56 = Vx main_v56)
    (T : pre13.Contents (Elt F)) (hT : ∀ j, T j = Vd (pre13.ref j)) (e_src : Vd main_v54 = Vx main_v54) (e_dst : Vd main_v55 = Vx main_v55) :
    (unscopedBufs (Ix := Unit) (Name := ℕ) (U := UR sig nD τ) (Lvl := ℕ) c Vx : sProp 𝕄)
      ⊢ iprop(dat.arrays (dat.arrAt · 0)
          ∗ Pipeline.prefHeld (Ix := Unit) (Name := ℕ) (U := UR sig nD τ) (Lvl := ℕ) pre13 c (fun _ => fullShare) T ∗ rest13 c Vx) :=
  (bufs13 a c dat hq0 hq1 hq2 hq3 Vx (fun w => dat.arrAt w 0)
    (funext fun w => match w with
      | ⟨0, h⟩ => by show dat.arrAt ⟨0, h⟩ 0 = Vx main_v1; exact (hA ⟨0, h⟩).trans e_h
      | ⟨1, h⟩ => by show dat.arrAt ⟨1, h⟩ 0 = Vx main_v1; exact (hA ⟨1, h⟩).trans e_h
      | ⟨2, h⟩ => by show dat.arrAt ⟨2, h⟩ 0 = Vx main_arg3; exact (hA ⟨2, h⟩).trans e_W
      | ⟨3, h⟩ => by show dat.arrAt ⟨3, h⟩ 0 = Vx main_v0; exact (hA ⟨3, h⟩).trans e_b
      | ⟨4, h⟩ => by show dat.arrAt ⟨4, h⟩ 0 = Vx main_v56; exact (hA ⟨4, h⟩).trans e_out)
    T (funext fun j => match j with
      | ⟨0, h⟩ => by show T ⟨0, h⟩ = Vx main_v54; exact (hT ⟨0, h⟩).trans e_src
      | ⟨1, h⟩ => by show T ⟨1, h⟩ = Vx main_v55; exact (hT ⟨1, h⟩).trans e_dst)).1

set_option maxHeartbeats 1600000 in
/-- EXIT, everything a variable: the inputs' arrays end as they began, the output array at what the last write-backs
    leave (`x_out`); whenever `Vx` holds those contents at the six touched buffers, the pipeline's arrays at their final
    contents, the two tables and the rest at `Vx` are the unscoped buffers at `Vx`. -/
theorem exit13 (a : (pcfg13 (F := F)).Adm) (c : Dev nD) (dat : Dat τ (Elt F) Unit ℕ (UR sig nD τ) ℕ (cfg13 a) c) (N : Nat)
    (hq0 : dat.q 0 = fullShare.left) (hq1 : dat.q 1 = fullShare.right) (hq2 : dat.q 2 = fullShare) (hq3 : dat.q 3 = fullShare)
    (Vd Vx : (b : Ref sig .tc) → Buf (Elt F) ((c.tc : Thread nD τ).loc b))
    (hA : ∀ w, dat.A w = Vd (Pipeline.arrRef spec13 w))
    (x_h : Vd main_v1 = Vx main_v1) (x_W : Vd main_arg3 = Vx main_arg3) (x_b : Vd main_v0 = Vx main_v0) (x_out : dat.arrAt 4 N = Vx main_v56)
    (T : pre13.Contents (Elt F)) (hT : ∀ j, T j = Vd (pre13.ref j)) (x_src : Vd main_v54 = Vx main_v54) (x_dst : Vd main_v55 = Vx main_v55) :
    iprop(dat.arrays (dat.arrAt · N)
        ∗ Pipeline.prefHeld (Ix := Unit) (Name := ℕ) (U := UR sig nD τ) (Lvl := ℕ) pre13 c (fun _ => fullShare) T ∗ rest13 c Vx)
      ⊢ (unscopedBufs (Ix := Unit) (Name := ℕ) (U := UR sig nD τ) (Lvl := ℕ) c Vx : sProp 𝕄) :=
  (bufs13 a c dat hq0 hq1 hq2 hq3 Vx (fun w => dat.arrAt w N)
    (funext fun w => match w with
      | ⟨0, h⟩ => by show dat.arrAt ⟨0, h⟩ N = Vx main_v1; exact (dat.arrAt_in ⟨0, h⟩ rfl N).trans ((hA ⟨0, h⟩).trans x_h)
      | ⟨1, h⟩ => by show dat.arrAt ⟨1, h⟩ N = Vx main_v1; exact (dat.arrAt_in ⟨1, h⟩ rfl N).trans ((hA ⟨1, h⟩).trans x_h)
      | ⟨2, h⟩ => by show dat.arrAt ⟨2, h⟩ N = Vx main_arg3; exact (dat.arrAt_in ⟨2, h⟩ rfl N).trans ((hA ⟨2, h⟩).trans x_W)
      | ⟨3, h⟩ => by show dat.arrAt ⟨3, h⟩ N = Vx main_v0; exact (dat.arrAt_in ⟨3, h⟩ rfl N).trans ((hA ⟨3, h⟩).trans x_b)
      | ⟨4, h⟩ => by show dat.arrAt ⟨4, h⟩ N = Vx main_v56; exact x_out)
    T (funext fun j => match j with
      | ⟨0, h⟩ => by show T ⟨0, h⟩ = Vx main_v54; exact (hT ⟨0, h⟩).trans x_src
      | ⟨1, h⟩ => by show T ⟨1, h⟩ = Vx main_v55; exact (hT ⟨1, h⟩).trans x_dst)).2

variable (m : (ℓ : Loc nD τ sig) → Buf (Elt F) ℓ) (hO : Oks m)

/-! ## What the region finds and leaves, buffer by buffer -/

include hO

theorem fin13_h (c : Dev nD) : Ve13 m c main_v1 = V27 m (outsR m hO) c main_v1 := by first | exact indep13_h m (outsL m) (outsR m hO) c | rfl
theorem fin13_W (c : Dev nD) : Ve13 m c main_arg3 = V27 m (outsR m hO) c main_arg3 := by first | exact indep13_W m (outsL m) (outsR m hO) c | rfl
theorem fin13_b (c : Dev nD) : Ve13 m c main_v0 = V27 m (outsR m hO) c main_v0 := by first | exact indep13_b m (outsL m) (outsR m hO) c | rfl
theorem fin13_out (c : Dev nD) : Ve13 m c main_v56 = V27 m (outsR m hO) c main_v56 := by first | exact indep13_out m (outsL m) (outsR m hO) c | rfl
theorem fin13_src (c : Dev nD) : Ve13 m c main_v54 = V27 m (outsR m hO) c main_v54 := by first | exact indep13_src m (outsL m) (outsR m hO) c | rfl
theorem fin13_dst (c : Dev nD) : Ve13 m c main_v55 = V27 m (outsR m hO) c main_v55 := by first | exact indep13_dst m (outsL m) (outsR m hO) c | rfl

/-- What the region leaves in the buffers it touches: the inputs and the tables as they were, the output array at the
    region's chunk. -/
theorem lv13_h (c : Dev nD) : V28 m (outsR m hO) c main_v1 = V27 m (outsR m hO) c main_v1 := V28_of m (outsR m hO) c main_v1 (by decide)
theorem lv13_W (c : Dev nD) : V28 m (outsR m hO) c main_arg3 = V27 m (outsR m hO) c main_arg3 := V28_of m (outsR m hO) c main_arg3 (by decide)
theorem lv13_b (c : Dev nD) : V28 m (outsR m hO) c main_v0 = V27 m (outsR m hO) c main_v0 := V28_of m (outsR m hO) c main_v0 (by decide)
theorem lv13_src (c : Dev nD) : V28 m (outsR m hO) c main_v54 = V27 m (outsR m hO) c main_v54 := V28_of m (outsR m hO) c main_v54 (by decide)
theorem lv13_dst (c : Dev nD) : V28 m (outsR m hO) c main_v55 = V27 m (outsR m hO) c main_v55 := V28_of m (outsR m hO) c main_v55 (by decide)
theorem lv13_out (c : Dev nD) : V28 m (outsR m hO) c main_v56 = chunk13 m hO c :=
  (Function.update_self _ _ _).trans (outsR_13 m hO c)

/-- The buffers the region does not touch pass it by unchanged. -/
theorem rest13_eq (c : Dev nD) : (rest13 c (fun b => V27 m (outsR m hO) c b) : sProp 𝕄) = rest13 c (fun b => V28 m (outsR m hO) c b) := by
  unfold rest13
  exact BI.bigSep_congr fun b hb => by
    dsimp only
    rw [V28_of m (outsR m hO) c b (fun h => (Finset.mem_sdiff.mp hb).2 (by rw [List.mem_singleton.mp h]; decide))]

set_option maxHeartbeats 1600000 in
set_option backward.isDefEq.respectTransparency.types false in
/-- REGION 0 over the boundary states. -/
def reg13 : Pipeline.RegionSeg (pcfgs (F := F)) (adm m hO) (pdats m hO) () defs₀ 𝒱₀ L lv (13 : Fin 16) where
  win := winFacts₀13
  block_pos := block_pos13
  stage_whole := stage_whole13
  K := PEmpty
  osem k := k.elim
  ho := Pipeline.OwnSemFacts.none _
  hbody c := (body_obligation13 (Ve13 m) ⟨tbl13 m, hO.h13⟩ c).loose
  hwaits := Pipeline.hwaits_of_owed_zero _ _ _ _ L lv (13 : Fin 16) fun _ _ => rfl
  pre c := iprop(StableHlo.held (c : Thread nD τ) (Pipeline.ucRefs τ sig) (V27 m (outsR m hO) c) ∗ Rst c)
  post c := iprop(StableHlo.held (c : Thread nD τ) (Pipeline.ucRefs τ sig) (V28 m (outsR m hO) c) ∗ Rst c)
  X c := iprop(∃ r, prngReg c r)
  Y c := iprop((∃ r, prngReg c r) ∗ Pipeline.prefHeld (Ix := Unit) (Name := ℕ) (U := UR sig nD τ) (Lvl := ℕ) pre13 c (fun _ => fullShare) (tbl13 m))
  Z c := rest13 c (fun b => V27 m (outsR m hO) c b)
  hentry c := by
    obtain rfl : c = 0 := Subsingleton.elim _ _
    have hb := entry13 (adm m hO (13 : Fin 16)) 0 (pdats m hO (13 : Fin 16) 0) rfl rfl rfl rfl (Ve13 m 0) (fun b => V27 m (outsR m hO) 0 b) (fun w => rfl)
      (fin13_h m hO 0) (fin13_W m hO 0) (fin13_b m hO 0) (fin13_out m hO 0) (tbl13 m) (fun j => rfl) (fin13_src m hO 0) (fin13_dst m hO 0)
    rw [Pipeline.unscopedBufs_held] at hb
    iintro ⟨⟨Hub, Hp, HO⟩, -, -⟩
    ihave H := hb $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO (13 : Fin 16) c).Φ 0 = iprop(Pipeline.ΦA spec13 c ∗ Pipeline.prefHeld (Ix := Unit) (Name := ℕ) (U := UR sig nD τ) (Lvl := ℕ) pre13 c (fun _ => fullShare) (tbl13 m)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m hO (13 : Fin 16) c).Φ (Fin.last _) = iprop(Pipeline.ΦA spec13 c ∗ Pipeline.prefHeld (Ix := Unit) (Name := ℕ) (U := UR sig nD τ) (Lvl := ℕ) pre13 c (fun _ => fullShare) (tbl13 m)) from rfl]
    unfold Pipeline.ΦA
    iintro ⟨⟨Hr, Hp⟩, Ht⟩
    isplitl [Hp Ht]
    · isplitl [Hp]; · iexact Hp
      iexact Ht
    isplitr; · iempintro
    iexact Hr
  hexit c := by
    obtain rfl : c = 0 := Subsingleton.elim _ _
    have hb := exit13 (adm m hO (13 : Fin 16)) 0 (pdats m hO (13 : Fin 16) 0) (Pipeline.pin (pcfgs (F := F)) (adm m hO) (13 : Fin 16)).N rfl rfl rfl rfl
      (Ve13 m 0) (fun b => V28 m (outsR m hO) 0 b) (fun w => rfl)
      ((fin13_h m hO 0).trans (lv13_h m hO 0).symm) ((fin13_W m hO 0).trans (lv13_W m hO 0).symm) ((fin13_b m hO 0).trans (lv13_b m hO 0).symm)
      (lv13_out m hO 0).symm (tbl13 m) (fun j => rfl) ((fin13_src m hO 0).trans (lv13_src m hO 0).symm) ((fin13_dst m hO 0).trans (lv13_dst m hO 0).symm)
    rw [Pipeline.unscopedBufs_held, ← rest13_eq m hO 0] at hb
    iintro ⟨Ha, HO, ⟨Hp, Ht⟩, Hrest⟩
    imodintro
    isplitl [Ha Ht Hrest]
    · iapply hb
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Cert.KernelIdeal.Hand

end
-- ==== Proof.KIReg14.lean ====
/-
  Region 14 of the edge scorer as a segment of the program's run.

  The region is entered with every unscoped buffer held whole at the contents the host operations before it leave,
  beside the generator register and nothing owed. Of those buffers the pipeline takes the four arrays its five windows
  read and write — the feature rows (read by two windows, each at one half of the full share), the weights, the
  bias and the output chunk — and the two index tables; the other unscoped buffers bypass the region. At the exit the
  feature rows' two halves rejoin, the inputs are as they were, the output array holds the region's chunk, and
  the whole is the next boundary's contents.
-/
import proofs.«405368_j31662498906597_2_alg».proof.Proof.KIFamily
import proofs.«405368_j31662498906597_2_alg».proof.Proof.KIHostEntry
import proofs.«405368_j31662498906597_2_alg».proof.Proof.KIHostEntryGen
import Idealize.ShloMosaic.Lib.Pipeline.RegionsLoop

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The six unscoped buffers region 14 touches: the feature rows, the weights, the bias, its output chunk and its two
    index tables. -/
abbrev arrs14 : Finset (Ref sig .tc) := insert main_v1 (insert main_arg3 (insert main_v0 (insert main_v60 (insert main_v58 {main_v59}))))

theorem arrs14_sub : arrs14 ⊆ Finset.univ.filter fun b : Ref sig .tc => ¬ b.isScoped := by decide

/-- The unscoped buffers region 14 does not touch, held whole at `V`. -/
def rest14 (c : Dev nD) (V : (b : Ref sig .tc) → Buf (Elt F) ((c.tc : Thread nD τ).loc b)) : sProp 𝕄 :=
  bigSep ((Finset.univ.filter fun b : Ref sig .tc => ¬ b.isScoped) \ arrs14) fun b => ((c.tc : Thread nD τ).loc b) ↦{fullShare} V b

/-- The six touched buffers one by one, and the rest. -/
theorem ub_split14 (c : Dev nD) (V : (b : Ref sig .tc) → Buf (Elt F) ((c.tc : Thread nD τ).loc b)) :
    (unscopedBufs (Ix := Unit) (Name := ℕ) (U := UR sig nD τ) (Lvl := ℕ) c V : sProp 𝕄)
      = iprop(iprop((((c.tc : Thread nD τ).loc main_v1) ↦{fullShare} V main_v1) ∗ (((c.tc : Thread nD τ).loc main_arg3) ↦{fullShare} V main_arg3)
          ∗ (((c.tc : Thread nD τ).loc main_v0) ↦{fullShare} V main_v0) ∗ (((c.tc : Thread nD τ).loc main_v60) ↦{fullShare} V main_v60)
          ∗ (((c.tc : Thread nD τ).loc main_v58) ↦{fullShare} V main_v58) ∗ (((c.tc : Thread nD τ).loc main_v59) ↦{fullShare} V main_v59)) ∗ rest14 c V) := by
  unfold unscopedBufs rest14
  rw [BI.bigSep_sdiff_split arrs14_sub]
  refine congrArg (fun X => iprop(X ∗ _)) ?_
  show bigSep (insert main_v1 (insert main_arg3 (insert main_v0 (insert main_v60 (insert main_v58 {main_v59}))))) _ = _
  rw [BI.bigSep_insert (by decide), BI.bigSep_insert (by decide), BI.bigSep_insert (by decide), BI.bigSep_insert (by decide),
    BI.bigSep_insert (by decide), BI.bigSep_singleton]
  rfl

/-- A product over two tables, written out. -/
theorem two_tables14 (Φ : Fin 2 → sProp 𝕄) : bigSep Finset.univ Φ = iprop(Φ 0 ∗ Φ 1) := BI.bigSep_fin_two Φ

/-- The five windows' arrays and the two tables, by name. -/
theorem arrRef14_0 : Pipeline.arrRef spec14 (0 : Fin 5) = main_v1 := rfl
theorem arrRef14_1 : Pipeline.arrRef spec14 (1 : Fin 5) = main_v1 := rfl
theorem arrRef14_2 : Pipeline.arrRef spec14 (2 : Fin 5) = main_arg3 := rfl
theorem arrRef14_3 : Pipeline.arrRef spec14 (3 : Fin 5) = main_v0 := rfl
theorem arrRef14_4 : Pipeline.arrRef spec14 (4 : Fin 5) = main_v60 := rfl
theorem preRef14_0 : pre14.ref (0 : Fin 2) = main_v58 := rfl
theorem preRef14_1 : pre14.ref (1 : Fin 2) = main_v59 := rfl

set_option maxHeartbeats 1600000 in
/-- A core's unscoped buffers held whole at `V` ARE the pipeline's arrays at `V`'s contents of them (the feature rows'
    full share dealt as its two halves to the two windows that read them), the two tables at `V`'s contents of
    them, and the rest. Both directions: the region's entry and its exit. -/
theorem bufs14 (a : (pcfg14 (F := F)).Adm) (c : Dev nD) (dat : Dat τ (Elt F) Unit ℕ (UR sig nD τ) ℕ (cfg14 a) c)
    (hq0 : dat.q 0 = fullShare.left) (hq1 : dat.q 1 = fullShare.right) (hq2 : dat.q 2 = fullShare) (hq3 : dat.q 3 = fullShare)
    (V : (b : Ref sig .tc) → Buf (Elt F) ((c.tc : Thread nD τ).loc b))
    (G : (w : Fin (cfg14 a).W) → Buf (Elt F) (((cfg14 a).win w).arr.view.loc (c.tc : Thread nD τ)))
    (hG : G = fun w => V (Pipeline.arrRef spec14 w))
    (T : pre14.Contents (Elt F)) (hT : T = fun k => V (pre14.ref k)) :
    (unscopedBufs (Ix := Unit) (Name := ℕ) (U := UR sig nD τ) (Lvl := ℕ) c V : sProp 𝕄)
      ⊣⊢ iprop(dat.arrays G ∗ Pipeline.prefHeld (Ix := Unit) (Name := ℕ) (U := UR sig nD τ) (Lvl := ℕ) pre14 c (fun _ => fullShare) T ∗ rest14 c V) := by
  subst hG hT
  have harr : ∀ w, (((cfg14 a).spec w).arr).IsWhole := arr_whole14
  have hA : dat.arrays (fun w => V (Pipeline.arrRef spec14 w))
      = bigSep Finset.univ fun w : Fin 5 => (((c.tc : Thread nD τ).loc (Pipeline.arrRef spec14 w)) ↦{dat.share w} V (Pipeline.arrRef spec14 w) : sProp 𝕄) := by
    unfold Dat.arrays
    exact BI.bigSep_congr fun w _ => by rw [(harr w).set_eq_univ]
  have s0 : dat.share 0 = fullShare.left := by unfold Dat.share; rw [show ((cfg14 a).win 0).isOut = false from rfl]; exact hq0
  have s1 : dat.share 1 = fullShare.right := by unfold Dat.share; rw [show ((cfg14 a).win 1).isOut = false from rfl]; exact hq1
  have s2 : dat.share 2 = fullShare := by unfold Dat.share; rw [show ((cfg14 a).win 2).isOut = false from rfl]; exact hq2
  have s3 : dat.share 3 = fullShare := by unfold Dat.share; rw [show ((cfg14 a).win 3).isOut = false from rfl]; exact hq3
  have s4 : dat.share 4 = fullShare := by unfold Dat.share; rw [show ((cfg14 a).win 4).isOut = true from rfl]; rfl
  rw [ub_split14, hA, bigSep_W14, s0, s1, s2, s3, s4]
  unfold Pipeline.prefHeld
  rw [two_tables14]
  simp only [arrRef14_0, arrRef14_1, arrRef14_2, arrRef14_3, arrRef14_4, preRef14_0, preRef14_1]
  constructor
  · iintro ⟨⟨H1, HW, HB, HO, HS, HD⟩, Hr⟩
    ihave H1' := (pointsTo_share (PosShare.mem_left_op_right fullShare)).1 $$ H1
    icases H1' with ⟨H1a, H1b⟩
    isplitl [H1a H1b HW HB HO]
    · isplitl [H1a]; · iexact H1a
      isplitl [H1b]; · iexact H1b
      isplitl [HW]; · iexact HW
      isplitl [HB]; · iexact HB
      iexact HO
    isplitl [HS HD]
    · isplitl [HS]; · iexact HS
      iexact HD
    iexact Hr
  · iintro ⟨⟨H1a, H1b, HW, HB, HO⟩, ⟨HS, HD⟩, Hr⟩
    ihave H1 := (pointsTo_share (PosShare.mem_left_op_right fullShare)).2 $$ [H1a H1b]
    · isplitl [H1a]; · iexact H1a
      iexact H1b
    isplitr [Hr]
    · isplitl [H1]; · iexact H1
      isplitl [HW]; · iexact HW
      isplitl [HB]; · iexact HB
      isplitl [HO]; · iexact HO
      isplitl [HS]; · iexact HS
      iexact HD
    iexact Hr

set_option maxHeartbeats 1600000 in
/-- ENTRY, everything a variable: for any proof data `dat` whose arrays are `Vd`'s contents (`hA`) and any tables `T`
    that are `Vd`'s contents (`hT`), whenever the boundary contents `Vx` agree with `Vd` at the six touched buffers, the
    unscoped buffers at `Vx` are the pipeline's arrays at their entry contents, the two tables, and the rest. -/
theorem entry14 (a : (pcfg14 (F := F)).Adm) (c : Dev nD) (dat : Dat τ (Elt F) Unit ℕ (UR sig nD τ) ℕ (cfg14 a) c)
    (hq0 : dat.q 0 = fullShare.left) (hq1 : dat.q 1 = fullShare.right) (hq2 : dat.q 2 = fullShare) (hq3 : dat.q 3 = fullShare)
    (Vd Vx : (b : Ref sig .tc) → Buf (Elt F) ((c.tc : Thread nD τ).loc b))
    (hA : ∀ w, dat.A w = Vd (Pipeline.arrRef spec14 w))
    (e_h : Vd main_v1 = Vx main_v1) (e_W : Vd main_arg3 = Vx main_arg3) (e_b : Vd main_v0 = Vx main_v0) (e_out : Vd main_v60 = Vx main_v60)
    (T : pre14.Contents (Elt F)) (hT : ∀ j, T j = Vd (pre14.ref j)) (e_src : Vd main_v58 = Vx main_v58) (e_dst : Vd main_v59 = Vx main_v59) :
    (unscopedBufs (Ix := Unit) (Name := ℕ) (U := UR sig nD τ) (Lvl := ℕ) c Vx : sProp 𝕄)
      ⊢ iprop(dat.arrays (dat.arrAt · 0)
          ∗ Pipeline.prefHeld (Ix := Unit) (Name := ℕ) (U := UR sig nD τ) (Lvl := ℕ) pre14 c (fun _ => fullShare) T ∗ rest14 c Vx) :=
  (bufs14 a c dat hq0 hq1 hq2 hq3 Vx (fun w => dat.arrAt w 0)
    (funext fun w => match w with
      | ⟨0, h⟩ => by show dat.arrAt ⟨0, h⟩ 0 = Vx main_v1; exact (hA ⟨0, h⟩).trans e_h
      | ⟨1, h⟩ => by show dat.arrAt ⟨1, h⟩ 0 = Vx main_v1; exact (hA ⟨1, h⟩).trans e_h
      | ⟨2, h⟩ => by show dat.arrAt ⟨2, h⟩ 0 = Vx main_arg3; exact (hA ⟨2, h⟩).trans e_W
      | ⟨3, h⟩ => by show dat.arrAt ⟨3, h⟩ 0 = Vx main_v0; exact (hA ⟨3, h⟩).trans e_b
      | ⟨4, h⟩ => by show dat.arrAt ⟨4, h⟩ 0 = Vx main_v60; exact (hA ⟨4, h⟩).trans e_out)
    T (funext fun j => match j with
      | ⟨0, h⟩ => by show T ⟨0, h⟩ = Vx main_v58; exact (hT ⟨0, h⟩).trans e_src
      | ⟨1, h⟩ => by show T ⟨1, h⟩ = Vx main_v59; exact (hT ⟨1, h⟩).trans e_dst)).1

set_option maxHeartbeats 1600000 in
/-- EXIT, everything a variable: the inputs' arrays end as they began, the output array at what the last write-backs
    leave (`x_out`); whenever `Vx` holds those contents at the six touched buffers, the pipeline's arrays at their final
    contents, the two tables and the rest at `Vx` are the unscoped buffers at `Vx`. -/
theorem exit14 (a : (pcfg14 (F := F)).Adm) (c : Dev nD) (dat : Dat τ (Elt F) Unit ℕ (UR sig nD τ) ℕ (cfg14 a) c) (N : Nat)
    (hq0 : dat.q 0 = fullShare.left) (hq1 : dat.q 1 = fullShare.right) (hq2 : dat.q 2 = fullShare) (hq3 : dat.q 3 = fullShare)
    (Vd Vx : (b : Ref sig .tc) → Buf (Elt F) ((c.tc : Thread nD τ).loc b))
    (hA : ∀ w, dat.A w = Vd (Pipeline.arrRef spec14 w))
    (x_h : Vd main_v1 = Vx main_v1) (x_W : Vd main_arg3 = Vx main_arg3) (x_b : Vd main_v0 = Vx main_v0) (x_out : dat.arrAt 4 N = Vx main_v60)
    (T : pre14.Contents (Elt F)) (hT : ∀ j, T j = Vd (pre14.ref j)) (x_src : Vd main_v58 = Vx main_v58) (x_dst : Vd main_v59 = Vx main_v59) :
    iprop(dat.arrays (dat.arrAt · N)
        ∗ Pipeline.prefHeld (Ix := Unit) (Name := ℕ) (U := UR sig nD τ) (Lvl := ℕ) pre14 c (fun _ => fullShare) T ∗ rest14 c Vx)
      ⊢ (unscopedBufs (Ix := Unit) (Name := ℕ) (U := UR sig nD τ) (Lvl := ℕ) c Vx : sProp 𝕄) :=
  (bufs14 a c dat hq0 hq1 hq2 hq3 Vx (fun w => dat.arrAt w N)
    (funext fun w => match w with
      | ⟨0, h⟩ => by show dat.arrAt ⟨0, h⟩ N = Vx main_v1; exact (dat.arrAt_in ⟨0, h⟩ rfl N).trans ((hA ⟨0, h⟩).trans x_h)
      | ⟨1, h⟩ => by show dat.arrAt ⟨1, h⟩ N = Vx main_v1; exact (dat.arrAt_in ⟨1, h⟩ rfl N).trans ((hA ⟨1, h⟩).trans x_h)
      | ⟨2, h⟩ => by show dat.arrAt ⟨2, h⟩ N = Vx main_arg3; exact (dat.arrAt_in ⟨2, h⟩ rfl N).trans ((hA ⟨2, h⟩).trans x_W)
      | ⟨3, h⟩ => by show dat.arrAt ⟨3, h⟩ N = Vx main_v0; exact (dat.arrAt_in ⟨3, h⟩ rfl N).trans ((hA ⟨3, h⟩).trans x_b)
      | ⟨4, h⟩ => by show dat.arrAt ⟨4, h⟩ N = Vx main_v60; exact x_out)
    T (funext fun j => match j with
      | ⟨0, h⟩ => by show T ⟨0, h⟩ = Vx main_v58; exact (hT ⟨0, h⟩).trans x_src
      | ⟨1, h⟩ => by show T ⟨1, h⟩ = Vx main_v59; exact (hT ⟨1, h⟩).trans x_dst)).2

variable (m : (ℓ : Loc nD τ sig) → Buf (Elt F) ℓ) (hO : Oks m)

/-! ## What the region finds and leaves, buffer by buffer -/

include hO

theorem fin14_h (c : Dev nD) : Ve14 m c main_v1 = V29 m (outsR m hO) c main_v1 := by first | exact indep14_h m (outsL m) (outsR m hO) c | rfl
theorem fin14_W (c : Dev nD) : Ve14 m c main_arg3 = V29 m (outsR m hO) c main_arg3 := by first | exact indep14_W m (outsL m) (outsR m hO) c | rfl
theorem fin14_b (c : Dev nD) : Ve14 m c main_v0 = V29 m (outsR m hO) c main_v0 := by first | exact indep14_b m (outsL m) (outsR m hO) c | rfl
theorem fin14_out (c : Dev nD) : Ve14 m c main_v60 = V29 m (outsR m hO) c main_v60 := by first | exact indep14_out m (outsL m) (outsR m hO) c | rfl
theorem fin14_src (c : Dev nD) : Ve14 m c main_v58 = V29 m (outsR m hO) c main_v58 := by first | exact indep14_src m (outsL m) (outsR m hO) c | rfl
theorem fin14_dst (c : Dev nD) : Ve14 m c main_v59 = V29 m (outsR m hO) c main_v59 := by first | exact indep14_dst m (outsL m) (outsR m hO) c | rfl

/-- What the region leaves in the buffers it touches: the inputs and the tables as they were, the output array at the
    region's chunk. -/
theorem lv14_h (c : Dev nD) : V30 m (outsR m hO) c main_v1 = V29 m (outsR m hO) c main_v1 := V30_of m (outsR m hO) c main_v1 (by decide)
theorem lv14_W (c : Dev nD) : V30 m (outsR m hO) c main_arg3 = V29 m (outsR m hO) c main_arg3 := V30_of m (outsR m hO) c main_arg3 (by decide)
theorem lv14_b (c : Dev nD) : V30 m (outsR m hO) c main_v0 = V29 m (outsR m hO) c main_v0 := V30_of m (outsR m hO) c main_v0 (by decide)
theorem lv14_src (c : Dev nD) : V30 m (outsR m hO) c main_v58 = V29 m (outsR m hO) c main_v58 := V30_of m (outsR m hO) c main_v58 (by decide)
theorem lv14_dst (c : Dev nD) : V30 m (outsR m hO) c main_v59 = V29 m (outsR m hO) c main_v59 := V30_of m (outsR m hO) c main_v59 (by decide)
theorem lv14_out (c : Dev nD) : V30 m (outsR m hO) c main_v60 = chunk14 m hO c :=
  (Function.update_self _ _ _).trans (outsR_14 m hO c)

/-- The buffers the region does not touch pass it by unchanged. -/
theorem rest14_eq (c : Dev nD) : (rest14 c (fun b => V29 m (outsR m hO) c b) : sProp 𝕄) = rest14 c (fun b => V30 m (outsR m hO) c b) := by
  unfold rest14
  exact BI.bigSep_congr fun b hb => by
    dsimp only
    rw [V30_of m (outsR m hO) c b (fun h => (Finset.mem_sdiff.mp hb).2 (by rw [List.mem_singleton.mp h]; decide))]

set_option maxHeartbeats 1600000 in
set_option backward.isDefEq.respectTransparency.types false in
/-- REGION 0 over the boundary states. -/
def reg14 : Pipeline.RegionSeg (pcfgs (F := F)) (adm m hO) (pdats m hO) () defs₀ 𝒱₀ L lv (14 : Fin 16) where
  win := winFacts₀14
  block_pos := block_pos14
  stage_whole := stage_whole14
  K := PEmpty
  osem k := k.elim
  ho := Pipeline.OwnSemFacts.none _
  hbody c := (body_obligation14 (Ve14 m) ⟨tbl14 m, hO.h14⟩ c).loose
  hwaits := Pipeline.hwaits_of_owed_zero _ _ _ _ L lv (14 : Fin 16) fun _ _ => rfl
  pre c := iprop(StableHlo.held (c : Thread nD τ) (Pipeline.ucRefs τ sig) (V29 m (outsR m hO) c) ∗ Rst c)
  post c := iprop(StableHlo.held (c : Thread nD τ) (Pipeline.ucRefs τ sig) (V30 m (outsR m hO) c) ∗ Rst c)
  X c := iprop(∃ r, prngReg c r)
  Y c := iprop((∃ r, prngReg c r) ∗ Pipeline.prefHeld (Ix := Unit) (Name := ℕ) (U := UR sig nD τ) (Lvl := ℕ) pre14 c (fun _ => fullShare) (tbl14 m))
  Z c := rest14 c (fun b => V29 m (outsR m hO) c b)
  hentry c := by
    obtain rfl : c = 0 := Subsingleton.elim _ _
    have hb := entry14 (adm m hO (14 : Fin 16)) 0 (pdats m hO (14 : Fin 16) 0) rfl rfl rfl rfl (Ve14 m 0) (fun b => V29 m (outsR m hO) 0 b) (fun w => rfl)
      (fin14_h m hO 0) (fin14_W m hO 0) (fin14_b m hO 0) (fin14_out m hO 0) (tbl14 m) (fun j => rfl) (fin14_src m hO 0) (fin14_dst m hO 0)
    rw [Pipeline.unscopedBufs_held] at hb
    iintro ⟨⟨Hub, Hp, HO⟩, -, -⟩
    ihave H := hb $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO (14 : Fin 16) c).Φ 0 = iprop(Pipeline.ΦA spec14 c ∗ Pipeline.prefHeld (Ix := Unit) (Name := ℕ) (U := UR sig nD τ) (Lvl := ℕ) pre14 c (fun _ => fullShare) (tbl14 m)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m hO (14 : Fin 16) c).Φ (Fin.last _) = iprop(Pipeline.ΦA spec14 c ∗ Pipeline.prefHeld (Ix := Unit) (Name := ℕ) (U := UR sig nD τ) (Lvl := ℕ) pre14 c (fun _ => fullShare) (tbl14 m)) from rfl]
    unfold Pipeline.ΦA
    iintro ⟨⟨Hr, Hp⟩, Ht⟩
    isplitl [Hp Ht]
    · isplitl [Hp]; · iexact Hp
      iexact Ht
    isplitr; · iempintro
    iexact Hr
  hexit c := by
    obtain rfl : c = 0 := Subsingleton.elim _ _
    have hb := exit14 (adm m hO (14 : Fin 16)) 0 (pdats m hO (14 : Fin 16) 0) (Pipeline.pin (pcfgs (F := F)) (adm m hO) (14 : Fin 16)).N rfl rfl rfl rfl
      (Ve14 m 0) (fun b => V30 m (outsR m hO) 0 b) (fun w => rfl)
      ((fin14_h m hO 0).trans (lv14_h m hO 0).symm) ((fin14_W m hO 0).trans (lv14_W m hO 0).symm) ((fin14_b m hO 0).trans (lv14_b m hO 0).symm)
      (lv14_out m hO 0).symm (tbl14 m) (fun j => rfl) ((fin14_src m hO 0).trans (lv14_src m hO 0).symm) ((fin14_dst m hO 0).trans (lv14_dst m hO 0).symm)
    rw [Pipeline.unscopedBufs_held, ← rest14_eq m hO 0] at hb
    iintro ⟨Ha, HO, ⟨Hp, Ht⟩, Hrest⟩
    imodintro
    isplitl [Ha Ht Hrest]
    · iapply hb
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Cert.KernelIdeal.Hand

end
-- ==== Proof.KIReg15.lean ====
/-
  Region 15 of the edge scorer as a segment of the program's run.

  The region is entered with every unscoped buffer held whole at the contents the host operations before it leave,
  beside the generator register and nothing owed. Of those buffers the pipeline takes the four arrays its five windows
  read and write — the feature rows (read by two windows, each at one half of the full share), the weights, the
  bias and the output chunk — and the two index tables; the other unscoped buffers bypass the region. At the exit the
  feature rows' two halves rejoin, the inputs are as they were, the output array holds the region's chunk, and
  the whole is the next boundary's contents.
-/
import proofs.«405368_j31662498906597_2_alg».proof.Proof.KIFamily
import proofs.«405368_j31662498906597_2_alg».proof.Proof.KIHostEntry
import proofs.«405368_j31662498906597_2_alg».proof.Proof.KIHostEntryGen
import Idealize.ShloMosaic.Lib.Pipeline.RegionsLoop

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The six unscoped buffers region 15 touches: the feature rows, the weights, the bias, its output chunk and its two
    index tables. -/
abbrev arrs15 : Finset (Ref sig .tc) := insert main_v1 (insert main_arg3 (insert main_v0 (insert main_v64 (insert main_v62 {main_v63}))))

theorem arrs15_sub : arrs15 ⊆ Finset.univ.filter fun b : Ref sig .tc => ¬ b.isScoped := by decide

/-- The unscoped buffers region 15 does not touch, held whole at `V`. -/
def rest15 (c : Dev nD) (V : (b : Ref sig .tc) → Buf (Elt F) ((c.tc : Thread nD τ).loc b)) : sProp 𝕄 :=
  bigSep ((Finset.univ.filter fun b : Ref sig .tc => ¬ b.isScoped) \ arrs15) fun b => ((c.tc : Thread nD τ).loc b) ↦{fullShare} V b

/-- The six touched buffers one by one, and the rest. -/
theorem ub_split15 (c : Dev nD) (V : (b : Ref sig .tc) → Buf (Elt F) ((c.tc : Thread nD τ).loc b)) :
    (unscopedBufs (Ix := Unit) (Name := ℕ) (U := UR sig nD τ) (Lvl := ℕ) c V : sProp 𝕄)
      = iprop(iprop((((c.tc : Thread nD τ).loc main_v1) ↦{fullShare} V main_v1) ∗ (((c.tc : Thread nD τ).loc main_arg3) ↦{fullShare} V main_arg3)
          ∗ (((c.tc : Thread nD τ).loc main_v0) ↦{fullShare} V main_v0) ∗ (((c.tc : Thread nD τ).loc main_v64) ↦{fullShare} V main_v64)
          ∗ (((c.tc : Thread nD τ).loc main_v62) ↦{fullShare} V main_v62) ∗ (((c.tc : Thread nD τ).loc main_v63) ↦{fullShare} V main_v63)) ∗ rest15 c V) := by
  unfold unscopedBufs rest15
  rw [BI.bigSep_sdiff_split arrs15_sub]
  refine congrArg (fun X => iprop(X ∗ _)) ?_
  show bigSep (insert main_v1 (insert main_arg3 (insert main_v0 (insert main_v64 (insert main_v62 {main_v63}))))) _ = _
  rw [BI.bigSep_insert (by decide), BI.bigSep_insert (by decide), BI.bigSep_insert (by decide), BI.bigSep_insert (by decide),
    BI.bigSep_insert (by decide), BI.bigSep_singleton]
  rfl

/-- A product over two tables, written out. -/
theorem two_tables15 (Φ : Fin 2 → sProp 𝕄) : bigSep Finset.univ Φ = iprop(Φ 0 ∗ Φ 1) := BI.bigSep_fin_two Φ

/-- The five windows' arrays and the two tables, by name. -/
theorem arrRef15_0 : Pipeline.arrRef spec15 (0 : Fin 5) = main_v1 := rfl
theorem arrRef15_1 : Pipeline.arrRef spec15 (1 : Fin 5) = main_v1 := rfl
theorem arrRef15_2 : Pipeline.arrRef spec15 (2 : Fin 5) = main_arg3 := rfl
theorem arrRef15_3 : Pipeline.arrRef spec15 (3 : Fin 5) = main_v0 := rfl
theorem arrRef15_4 : Pipeline.arrRef spec15 (4 : Fin 5) = main_v64 := rfl
theorem preRef15_0 : pre15.ref (0 : Fin 2) = main_v62 := rfl
theorem preRef15_1 : pre15.ref (1 : Fin 2) = main_v63 := rfl

set_option maxHeartbeats 1600000 in
/-- A core's unscoped buffers held whole at `V` ARE the pipeline's arrays at `V`'s contents of them (the feature rows'
    full share dealt as its two halves to the two windows that read them), the two tables at `V`'s contents of
    them, and the rest. Both directions: the region's entry and its exit. -/
theorem bufs15 (a : (pcfg15 (F := F)).Adm) (c : Dev nD) (dat : Dat τ (Elt F) Unit ℕ (UR sig nD τ) ℕ (cfg15 a) c)
    (hq0 : dat.q 0 = fullShare.left) (hq1 : dat.q 1 = fullShare.right) (hq2 : dat.q 2 = fullShare) (hq3 : dat.q 3 = fullShare)
    (V : (b : Ref sig .tc) → Buf (Elt F) ((c.tc : Thread nD τ).loc b))
    (G : (w : Fin (cfg15 a).W) → Buf (Elt F) (((cfg15 a).win w).arr.view.loc (c.tc : Thread nD τ)))
    (hG : G = fun w => V (Pipeline.arrRef spec15 w))
    (T : pre15.Contents (Elt F)) (hT : T = fun k => V (pre15.ref k)) :
    (unscopedBufs (Ix := Unit) (Name := ℕ) (U := UR sig nD τ) (Lvl := ℕ) c V : sProp 𝕄)
      ⊣⊢ iprop(dat.arrays G ∗ Pipeline.prefHeld (Ix := Unit) (Name := ℕ) (U := UR sig nD τ) (Lvl := ℕ) pre15 c (fun _ => fullShare) T ∗ rest15 c V) := by
  subst hG hT
  have harr : ∀ w, (((cfg15 a).spec w).arr).IsWhole := arr_whole15
  have hA : dat.arrays (fun w => V (Pipeline.arrRef spec15 w))
      = bigSep Finset.univ fun w : Fin 5 => (((c.tc : Thread nD τ).loc (Pipeline.arrRef spec15 w)) ↦{dat.share w} V (Pipeline.arrRef spec15 w) : sProp 𝕄) := by
    unfold Dat.arrays
    exact BI.bigSep_congr fun w _ => by rw [(harr w).set_eq_univ]
  have s0 : dat.share 0 = fullShare.left := by unfold Dat.share; rw [show ((cfg15 a).win 0).isOut = false from rfl]; exact hq0
  have s1 : dat.share 1 = fullShare.right := by unfold Dat.share; rw [show ((cfg15 a).win 1).isOut = false from rfl]; exact hq1
  have s2 : dat.share 2 = fullShare := by unfold Dat.share; rw [show ((cfg15 a).win 2).isOut = false from rfl]; exact hq2
  have s3 : dat.share 3 = fullShare := by unfold Dat.share; rw [show ((cfg15 a).win 3).isOut = false from rfl]; exact hq3
  have s4 : dat.share 4 = fullShare := by unfold Dat.share; rw [show ((cfg15 a).win 4).isOut = true from rfl]; rfl
  rw [ub_split15, hA, bigSep_W15, s0, s1, s2, s3, s4]
  unfold Pipeline.prefHeld
  rw [two_tables15]
  simp only [arrRef15_0, arrRef15_1, arrRef15_2, arrRef15_3, arrRef15_4, preRef15_0, preRef15_1]
  constructor
  · iintro ⟨⟨H1, HW, HB, HO, HS, HD⟩, Hr⟩
    ihave H1' := (pointsTo_share (PosShare.mem_left_op_right fullShare)).1 $$ H1
    icases H1' with ⟨H1a, H1b⟩
    isplitl [H1a H1b HW HB HO]
    · isplitl [H1a]; · iexact H1a
      isplitl [H1b]; · iexact H1b
      isplitl [HW]; · iexact HW
      isplitl [HB]; · iexact HB
      iexact HO
    isplitl [HS HD]
    · isplitl [HS]; · iexact HS
      iexact HD
    iexact Hr
  · iintro ⟨⟨H1a, H1b, HW, HB, HO⟩, ⟨HS, HD⟩, Hr⟩
    ihave H1 := (pointsTo_share (PosShare.mem_left_op_right fullShare)).2 $$ [H1a H1b]
    · isplitl [H1a]; · iexact H1a
      iexact H1b
    isplitr [Hr]
    · isplitl [H1]; · iexact H1
      isplitl [HW]; · iexact HW
      isplitl [HB]; · iexact HB
      isplitl [HO]; · iexact HO
      isplitl [HS]; · iexact HS
      iexact HD
    iexact Hr

set_option maxHeartbeats 1600000 in
/-- ENTRY, everything a variable: for any proof data `dat` whose arrays are `Vd`'s contents (`hA`) and any tables `T`
    that are `Vd`'s contents (`hT`), whenever the boundary contents `Vx` agree with `Vd` at the six touched buffers, the
    unscoped buffers at `Vx` are the pipeline's arrays at their entry contents, the two tables, and the rest. -/
theorem entry15 (a : (pcfg15 (F := F)).Adm) (c : Dev nD) (dat : Dat τ (Elt F) Unit ℕ (UR sig nD τ) ℕ (cfg15 a) c)
    (hq0 : dat.q 0 = fullShare.left) (hq1 : dat.q 1 = fullShare.right) (hq2 : dat.q 2 = fullShare) (hq3 : dat.q 3 = fullShare)
    (Vd Vx : (b : Ref sig .tc) → Buf (Elt F) ((c.tc : Thread nD τ).loc b))
    (hA : ∀ w, dat.A w = Vd (Pipeline.arrRef spec15 w))
    (e_h : Vd main_v1 = Vx main_v1) (e_W : Vd main_arg3 = Vx main_arg3) (e_b : Vd main_v0 = Vx main_v0) (e_out : Vd main_v64 = Vx main_v64)
    (T : pre15.Contents (Elt F)) (hT : ∀ j, T j = Vd (pre15.ref j)) (e_src : Vd main_v62 = Vx main_v62) (e_dst : Vd main_v63 = Vx main_v63) :
    (unscopedBufs (Ix := Unit) (Name := ℕ) (U := UR sig nD τ) (Lvl := ℕ) c Vx : sProp 𝕄)
      ⊢ iprop(dat.arrays (dat.arrAt · 0)
          ∗ Pipeline.prefHeld (Ix := Unit) (Name := ℕ) (U := UR sig nD τ) (Lvl := ℕ) pre15 c (fun _ => fullShare) T ∗ rest15 c Vx) :=
  (bufs15 a c dat hq0 hq1 hq2 hq3 Vx (fun w => dat.arrAt w 0)
    (funext fun w => match w with
      | ⟨0, h⟩ => by show dat.arrAt ⟨0, h⟩ 0 = Vx main_v1; exact (hA ⟨0, h⟩).trans e_h
      | ⟨1, h⟩ => by show dat.arrAt ⟨1, h⟩ 0 = Vx main_v1; exact (hA ⟨1, h⟩).trans e_h
      | ⟨2, h⟩ => by show dat.arrAt ⟨2, h⟩ 0 = Vx main_arg3; exact (hA ⟨2, h⟩).trans e_W
      | ⟨3, h⟩ => by show dat.arrAt ⟨3, h⟩ 0 = Vx main_v0; exact (hA ⟨3, h⟩).trans e_b
      | ⟨4, h⟩ => by show dat.arrAt ⟨4, h⟩ 0 = Vx main_v64; exact (hA ⟨4, h⟩).trans e_out)
    T (funext fun j => match j with
      | ⟨0, h⟩ => by show T ⟨0, h⟩ = Vx main_v62; exact (hT ⟨0, h⟩).trans e_src
      | ⟨1, h⟩ => by show T ⟨1, h⟩ = Vx main_v63; exact (hT ⟨1, h⟩).trans e_dst)).1

set_option maxHeartbeats 1600000 in
/-- EXIT, everything a variable: the inputs' arrays end as they began, the output array at what the last write-backs
    leave (`x_out`); whenever `Vx` holds those contents at the six touched buffers, the pipeline's arrays at their final
    contents, the two tables and the rest at `Vx` are the unscoped buffers at `Vx`. -/
theorem exit15 (a : (pcfg15 (F := F)).Adm) (c : Dev nD) (dat : Dat τ (Elt F) Unit ℕ (UR sig nD τ) ℕ (cfg15 a) c) (N : Nat)
    (hq0 : dat.q 0 = fullShare.left) (hq1 : dat.q 1 = fullShare.right) (hq2 : dat.q 2 = fullShare) (hq3 : dat.q 3 = fullShare)
    (Vd Vx : (b : Ref sig .tc) → Buf (Elt F) ((c.tc : Thread nD τ).loc b))
    (hA : ∀ w, dat.A w = Vd (Pipeline.arrRef spec15 w))
    (x_h : Vd main_v1 = Vx main_v1) (x_W : Vd main_arg3 = Vx main_arg3) (x_b : Vd main_v0 = Vx main_v0) (x_out : dat.arrAt 4 N = Vx main_v64)
    (T : pre15.Contents (Elt F)) (hT : ∀ j, T j = Vd (pre15.ref j)) (x_src : Vd main_v62 = Vx main_v62) (x_dst : Vd main_v63 = Vx main_v63) :
    iprop(dat.arrays (dat.arrAt · N)
        ∗ Pipeline.prefHeld (Ix := Unit) (Name := ℕ) (U := UR sig nD τ) (Lvl := ℕ) pre15 c (fun _ => fullShare) T ∗ rest15 c Vx)
      ⊢ (unscopedBufs (Ix := Unit) (Name := ℕ) (U := UR sig nD τ) (Lvl := ℕ) c Vx : sProp 𝕄) :=
  (bufs15 a c dat hq0 hq1 hq2 hq3 Vx (fun w => dat.arrAt w N)
    (funext fun w => match w with
      | ⟨0, h⟩ => by show dat.arrAt ⟨0, h⟩ N = Vx main_v1; exact (dat.arrAt_in ⟨0, h⟩ rfl N).trans ((hA ⟨0, h⟩).trans x_h)
      | ⟨1, h⟩ => by show dat.arrAt ⟨1, h⟩ N = Vx main_v1; exact (dat.arrAt_in ⟨1, h⟩ rfl N).trans ((hA ⟨1, h⟩).trans x_h)
      | ⟨2, h⟩ => by show dat.arrAt ⟨2, h⟩ N = Vx main_arg3; exact (dat.arrAt_in ⟨2, h⟩ rfl N).trans ((hA ⟨2, h⟩).trans x_W)
      | ⟨3, h⟩ => by show dat.arrAt ⟨3, h⟩ N = Vx main_v0; exact (dat.arrAt_in ⟨3, h⟩ rfl N).trans ((hA ⟨3, h⟩).trans x_b)
      | ⟨4, h⟩ => by show dat.arrAt ⟨4, h⟩ N = Vx main_v64; exact x_out)
    T (funext fun j => match j with
      | ⟨0, h⟩ => by show T ⟨0, h⟩ = Vx main_v62; exact (hT ⟨0, h⟩).trans x_src
      | ⟨1, h⟩ => by show T ⟨1, h⟩ = Vx main_v63; exact (hT ⟨1, h⟩).trans x_dst)).2

variable (m : (ℓ : Loc nD τ sig) → Buf (Elt F) ℓ) (hO : Oks m)

/-! ## What the region finds and leaves, buffer by buffer -/

include hO

theorem fin15_h (c : Dev nD) : Ve15 m c main_v1 = V31 m (outsR m hO) c main_v1 := by first | exact indep15_h m (outsL m) (outsR m hO) c | rfl
theorem fin15_W (c : Dev nD) : Ve15 m c main_arg3 = V31 m (outsR m hO) c main_arg3 := by first | exact indep15_W m (outsL m) (outsR m hO) c | rfl
theorem fin15_b (c : Dev nD) : Ve15 m c main_v0 = V31 m (outsR m hO) c main_v0 := by first | exact indep15_b m (outsL m) (outsR m hO) c | rfl
theorem fin15_out (c : Dev nD) : Ve15 m c main_v64 = V31 m (outsR m hO) c main_v64 := by first | exact indep15_out m (outsL m) (outsR m hO) c | rfl
theorem fin15_src (c : Dev nD) : Ve15 m c main_v62 = V31 m (outsR m hO) c main_v62 := by first | exact indep15_src m (outsL m) (outsR m hO) c | rfl
theorem fin15_dst (c : Dev nD) : Ve15 m c main_v63 = V31 m (outsR m hO) c main_v63 := by first | exact indep15_dst m (outsL m) (outsR m hO) c | rfl

/-- What the region leaves in the buffers it touches: the inputs and the tables as they were, the output array at the
    region's chunk. -/
theorem lv15_h (c : Dev nD) : V32 m (outsR m hO) c main_v1 = V31 m (outsR m hO) c main_v1 := V32_of m (outsR m hO) c main_v1 (by decide)
theorem lv15_W (c : Dev nD) : V32 m (outsR m hO) c main_arg3 = V31 m (outsR m hO) c main_arg3 := V32_of m (outsR m hO) c main_arg3 (by decide)
theorem lv15_b (c : Dev nD) : V32 m (outsR m hO) c main_v0 = V31 m (outsR m hO) c main_v0 := V32_of m (outsR m hO) c main_v0 (by decide)
theorem lv15_src (c : Dev nD) : V32 m (outsR m hO) c main_v62 = V31 m (outsR m hO) c main_v62 := V32_of m (outsR m hO) c main_v62 (by decide)
theorem lv15_dst (c : Dev nD) : V32 m (outsR m hO) c main_v63 = V31 m (outsR m hO) c main_v63 := V32_of m (outsR m hO) c main_v63 (by decide)
theorem lv15_out (c : Dev nD) : V32 m (outsR m hO) c main_v64 = chunk15 m hO c :=
  (Function.update_self _ _ _).trans (outsR_15 m hO c)

/-- The buffers the region does not touch pass it by unchanged. -/
theorem rest15_eq (c : Dev nD) : (rest15 c (fun b => V31 m (outsR m hO) c b) : sProp 𝕄) = rest15 c (fun b => V32 m (outsR m hO) c b) := by
  unfold rest15
  exact BI.bigSep_congr fun b hb => by
    dsimp only
    rw [V32_of m (outsR m hO) c b (fun h => (Finset.mem_sdiff.mp hb).2 (by rw [List.mem_singleton.mp h]; decide))]

set_option maxHeartbeats 1600000 in
set_option backward.isDefEq.respectTransparency.types false in
/-- REGION 0 over the boundary states. -/
def reg15 : Pipeline.RegionSeg (pcfgs (F := F)) (adm m hO) (pdats m hO) () defs₀ 𝒱₀ L lv (15 : Fin 16) where
  win := winFacts₀15
  block_pos := block_pos15
  stage_whole := stage_whole15
  K := PEmpty
  osem k := k.elim
  ho := Pipeline.OwnSemFacts.none _
  hbody c := (body_obligation15 (Ve15 m) ⟨tbl15 m, hO.h15⟩ c).loose
  hwaits := Pipeline.hwaits_of_owed_zero _ _ _ _ L lv (15 : Fin 16) fun _ _ => rfl
  pre c := iprop(StableHlo.held (c : Thread nD τ) (Pipeline.ucRefs τ sig) (V31 m (outsR m hO) c) ∗ Rst c)
  post c := iprop(StableHlo.held (c : Thread nD τ) (Pipeline.ucRefs τ sig) (V32 m (outsR m hO) c) ∗ Rst c)
  X c := iprop(∃ r, prngReg c r)
  Y c := iprop((∃ r, prngReg c r) ∗ Pipeline.prefHeld (Ix := Unit) (Name := ℕ) (U := UR sig nD τ) (Lvl := ℕ) pre15 c (fun _ => fullShare) (tbl15 m))
  Z c := rest15 c (fun b => V31 m (outsR m hO) c b)
  hentry c := by
    obtain rfl : c = 0 := Subsingleton.elim _ _
    have hb := entry15 (adm m hO (15 : Fin 16)) 0 (pdats m hO (15 : Fin 16) 0) rfl rfl rfl rfl (Ve15 m 0) (fun b => V31 m (outsR m hO) 0 b) (fun w => rfl)
      (fin15_h m hO 0) (fin15_W m hO 0) (fin15_b m hO 0) (fin15_out m hO 0) (tbl15 m) (fun j => rfl) (fin15_src m hO 0) (fin15_dst m hO 0)
    rw [Pipeline.unscopedBufs_held] at hb
    iintro ⟨⟨Hub, Hp, HO⟩, -, -⟩
    ihave H := hb $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO (15 : Fin 16) c).Φ 0 = iprop(Pipeline.ΦA spec15 c ∗ Pipeline.prefHeld (Ix := Unit) (Name := ℕ) (U := UR sig nD τ) (Lvl := ℕ) pre15 c (fun _ => fullShare) (tbl15 m)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m hO (15 : Fin 16) c).Φ (Fin.last _) = iprop(Pipeline.ΦA spec15 c ∗ Pipeline.prefHeld (Ix := Unit) (Name := ℕ) (U := UR sig nD τ) (Lvl := ℕ) pre15 c (fun _ => fullShare) (tbl15 m)) from rfl]
    unfold Pipeline.ΦA
    iintro ⟨⟨Hr, Hp⟩, Ht⟩
    isplitl [Hp Ht]
    · isplitl [Hp]; · iexact Hp
      iexact Ht
    isplitr; · iempintro
    iexact Hr
  hexit c := by
    obtain rfl : c = 0 := Subsingleton.elim _ _
    have hb := exit15 (adm m hO (15 : Fin 16)) 0 (pdats m hO (15 : Fin 16) 0) (Pipeline.pin (pcfgs (F := F)) (adm m hO) (15 : Fin 16)).N rfl rfl rfl rfl
      (Ve15 m 0) (fun b => V32 m (outsR m hO) 0 b) (fun w => rfl)
      ((fin15_h m hO 0).trans (lv15_h m hO 0).symm) ((fin15_W m hO 0).trans (lv15_W m hO 0).symm) ((fin15_b m hO 0).trans (lv15_b m hO 0).symm)
      (lv15_out m hO 0).symm (tbl15 m) (fun j => rfl) ((fin15_src m hO 0).trans (lv15_src m hO 0).symm) ((fin15_dst m hO 0).trans (lv15_dst m hO 0).symm)
    rw [Pipeline.unscopedBufs_held, ← rest15_eq m hO 0] at hb
    iintro ⟨Ha, HO, ⟨Hp, Ht⟩, Hrest⟩
    imodintro
    isplitl [Ha Ht Hrest]
    · iapply hb
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Cert.KernelIdeal.Hand

end
-- ==== Proof.KIFrame.lean ====
/-
  The whole program's run.

  @main is seventeen stretches of host operations around sixteen kernel regions. Each stretch runs over the unscoped
  buffers from the boundary contents before it; each region is the record of its module. Chained, they take the launch
  memory to the last boundary's contents `V33`, in which the result array is the concatenation of the sixteen chunks
  and every argument array is as launched. `run_all` is that run with every unscoped buffer's final contents named;
  `frame_all` reads the five argument arrays off it.
-/
import proofs.«405368_j31662498906597_2_alg».proof.Proof.KIReg0
import proofs.«405368_j31662498906597_2_alg».proof.Proof.KIReg1
import proofs.«405368_j31662498906597_2_alg».proof.Proof.KIReg2
import proofs.«405368_j31662498906597_2_alg».proof.Proof.KIReg3
import proofs.«405368_j31662498906597_2_alg».proof.Proof.KIReg4
import proofs.«405368_j31662498906597_2_alg».proof.Proof.KIReg5
import proofs.«405368_j31662498906597_2_alg».proof.Proof.KIReg6
import proofs.«405368_j31662498906597_2_alg».proof.Proof.KIReg7
import proofs.«405368_j31662498906597_2_alg».proof.Proof.KIReg8
import proofs.«405368_j31662498906597_2_alg».proof.Proof.KIReg9
import proofs.«405368_j31662498906597_2_alg».proof.Proof.KIReg10
import proofs.«405368_j31662498906597_2_alg».proof.Proof.KIReg11
import proofs.«405368_j31662498906597_2_alg».proof.Proof.KIReg12
import proofs.«405368_j31662498906597_2_alg».proof.Proof.KIReg13
import proofs.«405368_j31662498906597_2_alg».proof.Proof.KIReg14
import proofs.«405368_j31662498906597_2_alg».proof.Proof.KIReg15

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (hO : Oks m) (ρ : Dev nD → PrngReg)

/-- An unscoped TensorCore reference is among those the boundary states hold. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution of @main terminates, nothing faulting, and
    every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V33 m (outsR m hO) c b) := by
  refine Pipeline.θ_run_regions_kit_dev (pcfgs (F := F)) (adm m hO) (pdats m hO) () (cellOf_inj (adm m hO)) emb₁ defs₀ 𝒱₀ L lv m ρ main
    (segs m (outsR m hO) 𝒱₀ L lv (fun _ c => Rst c) () (adm m hO) (pdats m hO) (reg0 m hO) (reg1 m hO) (reg2 m hO) (reg3 m hO) (reg4 m hO) (reg5 m hO) (reg6 m hO) (reg7 m hO) (reg8 m hO) (reg9 m hO) (reg10 m hO) (reg11 m hO) (reg12 m hO) (reg13 m hO) (reg14 m hO) (reg15 m hO))
    (fun c Q => by
      rewrite [main_chain c, Seg.run_eq_chain,
        show ((segs m (outsR m hO) 𝒱₀ L lv (fun _ c => Rst c) () (adm m hO) (pdats m hO) (reg0 m hO) (reg1 m hO) (reg2 m hO) (reg3 m hO) (reg4 m hO) (reg5 m hO) (reg6 m hO) (reg7 m hO) (reg8 m hO) (reg9 m hO) (reg10 m hO) (reg11 m hO) (reg12 m hO) (reg13 m hO) (reg14 m hO) (reg15 m hO)) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11,
          Prog.lift (.customCall (Pipeline.entry 11) ()),
          StableHlo.seq hostOps12,
          Prog.lift (.customCall (Pipeline.entry 12) ()),
          StableHlo.seq hostOps13,
          Prog.lift (.customCall (Pipeline.entry 13) ()),
          StableHlo.seq hostOps14,
          Prog.lift (.customCall (Pipeline.entry 14) ()),
          StableHlo.seq hostOps15,
          Prog.lift (.customCall (Pipeline.entry 15) ()),
          StableHlo.seq hostOps16 ] from rfl]
      with_reducible exact .rfl)
    (fun c => by simp only [segs, Seg.pipes_host, Seg.pipes_region, Seg.pipes_nil]; decide)
    (O₀ := 0) (hL := fun _ _ => rfl) (G := fun _ => iprop(emp))
    (u₀ := initOf (Pipeline.cells (Pipeline.pin (pcfgs (F := F)) (adm m hO)) (cellOf_inj (adm m hO))) (Pipeline.launchToks (Pipeline.pin (pcfgs (F := F)) (adm m hO)) (cellOf_inj (adm m hO))))
    (hu₀ := by
      iintro Hu; imodintro
      isplitl [Hu]
      · iapply (show (ownU (initOf (Pipeline.cells (Pipeline.pin (pcfgs (F := F)) (adm m hO)) (cellOf_inj (adm m hO))) (Pipeline.launchToks (Pipeline.pin (pcfgs (F := F)) (adm m hO)) (cellOf_inj (adm m hO)))) : sProp 𝕄)
            ⊢ BI.own (emb₁ (initOf (Pipeline.cells (Pipeline.pin (pcfgs (F := F)) (adm m hO)) (cellOf_inj (adm m hO))) (Pipeline.launchToks (Pipeline.pin (pcfgs (F := F)) (adm m hO)) (cellOf_inj (adm m hO))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rst c))
    (Tₙ := fun c => StableHlo.held (c : Thread nD τ) (Pipeline.ucRefs τ sig) (V33 m (outsR m hO) c))
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, sep_mono .rfl (show (Rst c : sProp 𝕄) ⊢ iprop(∃ W, owes (c : Thread nD τ) (0 : CellTallies nD τ sig Unit) W) from by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V33 m (outsR m hO) c b)
    (hfin := fun c s' => by
      iintro ⟨Hh, HSI⟩
      unfold StableHlo.held
      imodintro
      iapply (pointsTo_read_all (Pipeline.ucRefs τ sig) (fun b => (((c : Thread nD τ)).1, b)) (V33 m (outsR m hO) c) s')
      isplitl [Hh] <;> iassumption)
    (hQ := fun s h => h)

include hO in
/-- The frame: the five argument arrays end as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (V33_main_arg0 m (outsR m hO) c),
     (h c _ (mem_uc main_arg1 (by decide))).trans (V33_main_arg1 m (outsR m hO) c),
     (h c _ (mem_uc main_arg2 (by decide))).trans (V33_main_arg2 m (outsR m hO) c),
     (h c _ (mem_uc main_arg3 (by decide))).trans (V33_main_arg3 m (outsR m hO) c),
     (h c _ (mem_uc main_arg4 (by decide))).trans (V33_main_arg4 m (outsR m hO) c)⟩) (run_all m hO ρ)

end Cert.KernelIdeal.Hand

end
-- ==== Proof.KIOks.lean ====
/-
  The pipelines' side condition on the prefetched index tables, from the precondition.

  Each kernel region is handed two tables of 62500 words: the slices at offset 62500·k of the two index inputs of
  1000000 words. At grid point t its first two windows fetch the blocks [1,1,128] of the [100000,1,128] feature array
  at block index (table word at t, 0, 0). The side condition asks that every such block lie inside the array (the
  element type is 32 bits wide, so the word-exactness half holds outright). The precondition says every word of
  either index input, read signed, lies in [0, 100000); so read unsigned it is below 100000, the block index's first
  coordinate is a row number of the array, and (w + 1)·1 ≤ 100000, (0 + 1)·1 ≤ 1, (0 + 1)·128 ≤ 128.

  The side condition is first proved of ANY tables whose words are below 100000 (the tables a variable), and the
  region's own tables are put in last: their word at t is the index input's word at 62500·k + t.
-/
import proofs.«405368_j31662498906597_2_alg».proof.Proof.KIFamily
import proofs.«405368_j31662498906597_2_alg».proof.Proof.KIHostEntry
import proofs.«405368_j31662498906597_2_alg».proof.Proof.KIHostEntryGen
import proofs.«405368_j31662498906597_2_alg».proof.Proof.IdxRange
import Idealize.ShloMosaic.Lib.Pipeline.Value

noncomputable section

namespace Cert.KernelIdeal.Hand

open Idealize.ShloMosaic Idealize.ShloMosaic.TcCoe
open Cert.KernelIdeal Cert.KernelIdeal.Gen

variable {F : FTy → Type} [FloatOps F]

/-! ## What every region shares -/

/-- A grid coordinate, cast to a 32-bit index, reads back as itself: it is below 62500, far below 2^32. -/
theorem coord_word (n : Nat) (h : n < 62500) : (Scalar.indexCast (BitVec.ofNat 32 n)).toNat = n := by
  show (BitVec.ofNat 32 n).toNat = n
  rw [BitVec.toNat_ofNat]; omega

/-- The one element of the unit rectangle at offset `n` (a grid coordinate, cast to an index) of a table of 62500
    words is the table's index `n`: offset `n`, stride 1, at the rectangle's first (and only) index 0. -/
theorem unit_emb (n : Fin 62500)
    (inb : ∀ a, (![(Scalar.indexCast (BitVec.ofNat 32 n.val)).toNat] : Fin 1 → Nat) a + S1.size a ≤ S62500.size a)
    (h1 : 0 < (Rect.unit (s := S62500) ![(Scalar.indexCast (BitVec.ofNat 32 n.val)).toNat] S1.size inb).shape.numel) :
    (Rect.unit (s := S62500) ![(Scalar.indexCast (BitVec.ofNat 32 n.val)).toNat] S1.size inb).emb (Shape.Idx.first h1)
      = ValueIdx.ix1 n := by
  funext a
  apply Fin.ext
  match a with
  | ⟨0, _⟩ =>
    show (Scalar.indexCast (BitVec.ofNat 32 n.val)).toNat + 1 * 0 = n.val
    rw [coord_word n.val n.isLt]; omega

/-- A block [1,1,128] at block index (w, 0, 0) with w below 100000 lies inside the [100000,1,128] array. -/
theorem row_block_inb (w : Nat) (h : w < 100000) :
    ∀ a, ((![w, 0, 0] : Fin 3 → Nat) a + 1) * S1x1x128.size a ≤ S100000x1x128.size a := by
  intro a
  match a with
  | ⟨0, _⟩ => show (w + 1) * 1 ≤ 100000; omega
  | ⟨1, _⟩ => show (0 + 1) * 1 ≤ 1; omega
  | ⟨2, _⟩ => show (0 + 1) * 128 ≤ 128; omega

/-- A slice of 62500 words at offset `off` of a vector of 1000000 words, read at `t`, is the vector at `off + t`. -/
theorem slice_at (off : Nat) (x : S1000000.Idx → BitVec 32) (h : S1000000.Slices ![off] S62500)
    (hoff : off + 62500 ≤ 1000000) (t : Fin 62500) :
    extractStridedSlice S62500 ![off] x h (ValueIdx.ix1 t) = x (ValueIdx.ix1 ⟨off + t.val, by omega⟩) :=
  extractStridedSlice_apply ![off] x h (ValueIdx.ix1 t) (ValueIdx.ix1 ⟨off + t.val, by omega⟩)
    (fun a => match a with | ⟨0, _⟩ => rfl)

/-- The precondition on the launch memory's five argument arrays, on every device. -/
abbrev PreArgs [Cert.Pre_finite_inputs.Facts] (m : (ℓ : Loc nD τ sig) → Buf (Elt F) ℓ) : Prop :=
  ∀ c : Dev nD, Cert.Pre_finite_inputs.fn (F := F) (m ((c.tc : Thread nD τ).loc main_arg0))
    (m ((c.tc : Thread nD τ).loc main_arg1)) (m ((c.tc : Thread nD τ).loc main_arg2))
    (m ((c.tc : Thread nD τ).loc main_arg3)) (m ((c.tc : Thread nD τ).loc main_arg4)) = fun _ => 1#1

/-! ## Region 0 -/

/-- Region 0's first index map: the block index is (the first table's word at the grid coordinate, 0, 0). -/
theorem cc0_t0 (pf : pre0.Contents (Elt F)) (i : grid0.Coords) :
    cc0_transform_0 Facts₀.k0_off1_inb Facts₀.numel1_S1 pf i
      = ![((pf 0 : S62500.Idx → BitVec 32) (ValueIdx.ix1 (i 0))).toNat, 0, 0] := by
  unfold cc0_transform_0
  simp only []
  exact congrArg (fun j : S62500.Idx => (![((pf 0 : S62500.Idx → BitVec 32) j).toNat, 0, 0] : Fin 3 → Nat))
    (unit_emb (i 0) _ _)

/-- Region 0's second index map: the same with the second table. -/
theorem cc0_t1 (pf : pre0.Contents (Elt F)) (i : grid0.Coords) :
    cc0_transform_1 Facts₀.k0_off1_inb Facts₀.numel1_S1 pf i
      = ![((pf 1 : S62500.Idx → BitVec 32) (ValueIdx.ix1 (i 0))).toNat, 0, 0] := by
  unfold cc0_transform_1
  simp only []
  exact congrArg (fun j : S62500.Idx => (![((pf 1 : S62500.Idx → BitVec 32) j).toNat, 0, 0] : Fin 3 → Nat))
    (unit_emb (i 0) _ _)

/-- Region 0's side condition holds of any tables whose words are row numbers below 100000. -/
theorem ok0_of_lt (pf : pre0.Contents (Elt F))
    (h0 : ∀ t : Fin 62500, ((pf 0 : S62500.Idx → BitVec 32) (ValueIdx.ix1 t)).toNat < 100000)
    (h1 : ∀ t : Fin 62500, ((pf 1 : S62500.Idx → BitVec 32) (ValueIdx.ix1 t)).toNat < 100000) : ok0 pf := by
  refine ⟨fun i => ⟨?_, Or.inl rfl⟩, fun i => ⟨?_, Or.inl rfl⟩⟩
  · rw [cc0_t0]; exact row_block_inb _ (h0 (i 0))
  · rw [cc0_t1]; exact row_block_inb _ (h1 (i 0))

variable (m : (ℓ : Loc nD τ sig) → Buf (Elt F) ℓ)

/-- Region 0's first table at `t` is the first index input at 62500·0 + t. -/
theorem tbl0_src_at (t : Fin 62500) :
    (tbl0 m 0 : S62500.Idx → BitVec 32) (ValueIdx.ix1 t)
      = (m (((0 : Dev nD).tc : Thread nD τ).loc main_arg1) : S1000000.Idx → BitVec 32)
          (ValueIdx.ix1 ⟨62500 * 0 + t.val, by omega⟩) := by
  show (Ve0 m (0 : Dev nD) main_v2 : S62500.Idx → BitVec 32) (ValueIdx.ix1 t) = _
  exact (congrFun (tbl0_src m (0 : Dev nD)) (ValueIdx.ix1 t)).trans (slice_at 0 _ _ (by omega) t)

/-- Region 0's second table at `t` is the second index input at 62500·0 + t. -/
theorem tbl0_dst_at (t : Fin 62500) :
    (tbl0 m 1 : S62500.Idx → BitVec 32) (ValueIdx.ix1 t)
      = (m (((0 : Dev nD).tc : Thread nD τ).loc main_arg2) : S1000000.Idx → BitVec 32)
          (ValueIdx.ix1 ⟨62500 * 0 + t.val, by omega⟩) := by
  show (Ve0 m (0 : Dev nD) main_v3 : S62500.Idx → BitVec 32) (ValueIdx.ix1 t) = _
  exact (congrFun (tbl0_dst m (0 : Dev nD)) (ValueIdx.ix1 t)).trans (slice_at 0 _ _ (by omega) t)

variable [Cert.Pre_finite_inputs.Facts]

/-- Under the precondition every word of region 0's first table is a row number below 100000. -/
theorem tbl0_src_lt (hpre : PreArgs m) (t : Fin 62500) :
    ((tbl0 m 0 : S62500.Idx → BitVec 32) (ValueIdx.ix1 t)).toNat < 100000 := by
  rw [tbl0_src_at m t]
  exact Cert.IdxRange.src_toNat_lt _ _ _ _ _ (hpre 0) ⟨62500 * 0 + t.val, by omega⟩

/-- Under the precondition every word of region 0's second table is a row number below 100000. -/
theorem tbl0_dst_lt (hpre : PreArgs m) (t : Fin 62500) :
    ((tbl0 m 1 : S62500.Idx → BitVec 32) (ValueIdx.ix1 t)).toNat < 100000 := by
  rw [tbl0_dst_at m t]
  exact Cert.IdxRange.dst_toNat_lt _ _ _ _ _ (hpre 0) ⟨62500 * 0 + t.val, by omega⟩

/-- Under the precondition region 0's tables pass its side condition. -/
theorem ok0_tbl (hpre : PreArgs m) : ok0 (F := F) (tbl0 m) :=
  ok0_of_lt (tbl0 m) (tbl0_src_lt m hpre) (tbl0_dst_lt m hpre)

end Cert.KernelIdeal.Hand
-- ==== Proof.KIOksGen.lean ====
/- The table side conditions of regions 1 … 15: the same statements and proofs as region 0's, for the
   region's own index maps, tables and slice offset 62500·k. -/
import proofs.«405368_j31662498906597_2_alg».proof.Proof.KIOks

noncomputable section

namespace Cert.KernelIdeal.Hand

open Idealize.ShloMosaic Idealize.ShloMosaic.TcCoe
open Cert.KernelIdeal Cert.KernelIdeal.Gen

variable {F : FTy → Type} [FloatOps F]

section

/-! ## Region 1 -/

/-- Region 1's first index map: the block index is (the first table's word at the grid coordinate, 0, 0). -/
theorem cc1_t0 (pf : pre1.Contents (Elt F)) (i : grid1.Coords) :
    cc1_transform_0 Facts₀.k1_off1_inb Facts₀.numel1_S1 pf i
      = ![((pf 0 : S62500.Idx → BitVec 32) (ValueIdx.ix1 (i 0))).toNat, 0, 0] := by
  unfold cc1_transform_0
  simp only []
  exact congrArg (fun j : S62500.Idx => (![((pf 0 : S62500.Idx → BitVec 32) j).toNat, 0, 0] : Fin 3 → Nat))
    (unit_emb (i 0) _ _)

/-- Region 1's second index map: the same with the second table. -/
theorem cc1_t1 (pf : pre1.Contents (Elt F)) (i : grid1.Coords) :
    cc1_transform_1 Facts₀.k1_off1_inb Facts₀.numel1_S1 pf i
      = ![((pf 1 : S62500.Idx → BitVec 32) (ValueIdx.ix1 (i 0))).toNat, 0, 0] := by
  unfold cc1_transform_1
  simp only []
  exact congrArg (fun j : S62500.Idx => (![((pf 1 : S62500.Idx → BitVec 32) j).toNat, 0, 0] : Fin 3 → Nat))
    (unit_emb (i 0) _ _)

/-- Region 1's side condition holds of any tables whose words are row numbers below 100000. -/
theorem ok1_of_lt (pf : pre1.Contents (Elt F))
    (h0 : ∀ t : Fin 62500, ((pf 0 : S62500.Idx → BitVec 32) (ValueIdx.ix1 t)).toNat < 100000)
    (h1 : ∀ t : Fin 62500, ((pf 1 : S62500.Idx → BitVec 32) (ValueIdx.ix1 t)).toNat < 100000) : ok1 pf := by
  refine ⟨fun i => ⟨?_, Or.inl rfl⟩, fun i => ⟨?_, Or.inl rfl⟩⟩
  · rw [cc1_t0]; exact row_block_inb _ (h0 (i 0))
  · rw [cc1_t1]; exact row_block_inb _ (h1 (i 0))

variable (m : (ℓ : Loc nD τ sig) → Buf (Elt F) ℓ)

/-- Region 1's first table at `t` is the first index input at 62500·1 + t. -/
theorem tbl1_src_at (t : Fin 62500) :
    (tbl1 m 0 : S62500.Idx → BitVec 32) (ValueIdx.ix1 t)
      = (m (((0 : Dev nD).tc : Thread nD τ).loc main_arg1) : S1000000.Idx → BitVec 32)
          (ValueIdx.ix1 ⟨62500 * 1 + t.val, by omega⟩) := by
  show (Ve1 m (0 : Dev nD) main_v6 : S62500.Idx → BitVec 32) (ValueIdx.ix1 t) = _
  exact (congrFun (tbl1_src m (outsL m) (0 : Dev nD)) (ValueIdx.ix1 t)).trans (slice_at 62500 _ _ (by omega) t)

/-- Region 1's second table at `t` is the second index input at 62500·1 + t. -/
theorem tbl1_dst_at (t : Fin 62500) :
    (tbl1 m 1 : S62500.Idx → BitVec 32) (ValueIdx.ix1 t)
      = (m (((0 : Dev nD).tc : Thread nD τ).loc main_arg2) : S1000000.Idx → BitVec 32)
          (ValueIdx.ix1 ⟨62500 * 1 + t.val, by omega⟩) := by
  show (Ve1 m (0 : Dev nD) main_v7 : S62500.Idx → BitVec 32) (ValueIdx.ix1 t) = _
  exact (congrFun (tbl1_dst m (outsL m) (0 : Dev nD)) (ValueIdx.ix1 t)).trans (slice_at 62500 _ _ (by omega) t)

variable [Cert.Pre_finite_inputs.Facts]

/-- Under the precondition every word of region 1's first table is a row number below 100000. -/
theorem tbl1_src_lt (hpre : PreArgs m) (t : Fin 62500) :
    ((tbl1 m 0 : S62500.Idx → BitVec 32) (ValueIdx.ix1 t)).toNat < 100000 := by
  rw [tbl1_src_at m t]
  exact Cert.IdxRange.src_toNat_lt _ _ _ _ _ (hpre 0) ⟨62500 * 1 + t.val, by omega⟩

/-- Under the precondition every word of region 1's second table is a row number below 100000. -/
theorem tbl1_dst_lt (hpre : PreArgs m) (t : Fin 62500) :
    ((tbl1 m 1 : S62500.Idx → BitVec 32) (ValueIdx.ix1 t)).toNat < 100000 := by
  rw [tbl1_dst_at m t]
  exact Cert.IdxRange.dst_toNat_lt _ _ _ _ _ (hpre 0) ⟨62500 * 1 + t.val, by omega⟩

/-- Under the precondition region 1's tables pass its side condition. -/
theorem ok1_tbl (hpre : PreArgs m) : ok1 (F := F) (tbl1 m) :=
  ok1_of_lt (tbl1 m) (tbl1_src_lt m hpre) (tbl1_dst_lt m hpre)

end

section

/-! ## Region 2 -/

/-- Region 2's first index map: the block index is (the first table's word at the grid coordinate, 0, 0). -/
theorem cc2_t0 (pf : pre2.Contents (Elt F)) (i : grid2.Coords) :
    cc2_transform_0 Facts₀.k2_off1_inb Facts₀.numel1_S1 pf i
      = ![((pf 0 : S62500.Idx → BitVec 32) (ValueIdx.ix1 (i 0))).toNat, 0, 0] := by
  unfold cc2_transform_0
  simp only []
  exact congrArg (fun j : S62500.Idx => (![((pf 0 : S62500.Idx → BitVec 32) j).toNat, 0, 0] : Fin 3 → Nat))
    (unit_emb (i 0) _ _)

/-- Region 2's second index map: the same with the second table. -/
theorem cc2_t1 (pf : pre2.Contents (Elt F)) (i : grid2.Coords) :
    cc2_transform_1 Facts₀.k2_off1_inb Facts₀.numel1_S1 pf i
      = ![((pf 1 : S62500.Idx → BitVec 32) (ValueIdx.ix1 (i 0))).toNat, 0, 0] := by
  unfold cc2_transform_1
  simp only []
  exact congrArg (fun j : S62500.Idx => (![((pf 1 : S62500.Idx → BitVec 32) j).toNat, 0, 0] : Fin 3 → Nat))
    (unit_emb (i 0) _ _)

/-- Region 2's side condition holds of any tables whose words are row numbers below 100000. -/
theorem ok2_of_lt (pf : pre2.Contents (Elt F))
    (h0 : ∀ t : Fin 62500, ((pf 0 : S62500.Idx → BitVec 32) (ValueIdx.ix1 t)).toNat < 100000)
    (h1 : ∀ t : Fin 62500, ((pf 1 : S62500.Idx → BitVec 32) (ValueIdx.ix1 t)).toNat < 100000) : ok2 pf := by
  refine ⟨fun i => ⟨?_, Or.inl rfl⟩, fun i => ⟨?_, Or.inl rfl⟩⟩
  · rw [cc2_t0]; exact row_block_inb _ (h0 (i 0))
  · rw [cc2_t1]; exact row_block_inb _ (h1 (i 0))

variable (m : (ℓ : Loc nD τ sig) → Buf (Elt F) ℓ)

/-- Region 2's first table at `t` is the first index input at 62500·2 + t. -/
theorem tbl2_src_at (t : Fin 62500) :
    (tbl2 m 0 : S62500.Idx → BitVec 32) (ValueIdx.ix1 t)
      = (m (((0 : Dev nD).tc : Thread nD τ).loc main_arg1) : S1000000.Idx → BitVec 32)
          (ValueIdx.ix1 ⟨62500 * 2 + t.val, by omega⟩) := by
  show (Ve2 m (0 : Dev nD) main_v10 : S62500.Idx → BitVec 32) (ValueIdx.ix1 t) = _
  exact (congrFun (tbl2_src m (outsL m) (0 : Dev nD)) (ValueIdx.ix1 t)).trans (slice_at 125000 _ _ (by omega) t)

/-- Region 2's second table at `t` is the second index input at 62500·2 + t. -/
theorem tbl2_dst_at (t : Fin 62500) :
    (tbl2 m 1 : S62500.Idx → BitVec 32) (ValueIdx.ix1 t)
      = (m (((0 : Dev nD).tc : Thread nD τ).loc main_arg2) : S1000000.Idx → BitVec 32)
          (ValueIdx.ix1 ⟨62500 * 2 + t.val, by omega⟩) := by
  show (Ve2 m (0 : Dev nD) main_v11 : S62500.Idx → BitVec 32) (ValueIdx.ix1 t) = _
  exact (congrFun (tbl2_dst m (outsL m) (0 : Dev nD)) (ValueIdx.ix1 t)).trans (slice_at 125000 _ _ (by omega) t)

variable [Cert.Pre_finite_inputs.Facts]

/-- Under the precondition every word of region 2's first table is a row number below 100000. -/
theorem tbl2_src_lt (hpre : PreArgs m) (t : Fin 62500) :
    ((tbl2 m 0 : S62500.Idx → BitVec 32) (ValueIdx.ix1 t)).toNat < 100000 := by
  rw [tbl2_src_at m t]
  exact Cert.IdxRange.src_toNat_lt _ _ _ _ _ (hpre 0) ⟨62500 * 2 + t.val, by omega⟩

/-- Under the precondition every word of region 2's second table is a row number below 100000. -/
theorem tbl2_dst_lt (hpre : PreArgs m) (t : Fin 62500) :
    ((tbl2 m 1 : S62500.Idx → BitVec 32) (ValueIdx.ix1 t)).toNat < 100000 := by
  rw [tbl2_dst_at m t]
  exact Cert.IdxRange.dst_toNat_lt _ _ _ _ _ (hpre 0) ⟨62500 * 2 + t.val, by omega⟩

/-- Under the precondition region 2's tables pass its side condition. -/
theorem ok2_tbl (hpre : PreArgs m) : ok2 (F := F) (tbl2 m) :=
  ok2_of_lt (tbl2 m) (tbl2_src_lt m hpre) (tbl2_dst_lt m hpre)

end

section

/-! ## Region 3 -/

/-- Region 3's first index map: the block index is (the first table's word at the grid coordinate, 0, 0). -/
theorem cc3_t0 (pf : pre3.Contents (Elt F)) (i : grid3.Coords) :
    cc3_transform_0 Facts₀.k3_off1_inb Facts₀.numel1_S1 pf i
      = ![((pf 0 : S62500.Idx → BitVec 32) (ValueIdx.ix1 (i 0))).toNat, 0, 0] := by
  unfold cc3_transform_0
  simp only []
  exact congrArg (fun j : S62500.Idx => (![((pf 0 : S62500.Idx → BitVec 32) j).toNat, 0, 0] : Fin 3 → Nat))
    (unit_emb (i 0) _ _)

/-- Region 3's second index map: the same with the second table. -/
theorem cc3_t1 (pf : pre3.Contents (Elt F)) (i : grid3.Coords) :
    cc3_transform_1 Facts₀.k3_off1_inb Facts₀.numel1_S1 pf i
      = ![((pf 1 : S62500.Idx → BitVec 32) (ValueIdx.ix1 (i 0))).toNat, 0, 0] := by
  unfold cc3_transform_1
  simp only []
  exact congrArg (fun j : S62500.Idx => (![((pf 1 : S62500.Idx → BitVec 32) j).toNat, 0, 0] : Fin 3 → Nat))
    (unit_emb (i 0) _ _)

/-- Region 3's side condition holds of any tables whose words are row numbers below 100000. -/
theorem ok3_of_lt (pf : pre3.Contents (Elt F))
    (h0 : ∀ t : Fin 62500, ((pf 0 : S62500.Idx → BitVec 32) (ValueIdx.ix1 t)).toNat < 100000)
    (h1 : ∀ t : Fin 62500, ((pf 1 : S62500.Idx → BitVec 32) (ValueIdx.ix1 t)).toNat < 100000) : ok3 pf := by
  refine ⟨fun i => ⟨?_, Or.inl rfl⟩, fun i => ⟨?_, Or.inl rfl⟩⟩
  · rw [cc3_t0]; exact row_block_inb _ (h0 (i 0))
  · rw [cc3_t1]; exact row_block_inb _ (h1 (i 0))

variable (m : (ℓ : Loc nD τ sig) → Buf (Elt F) ℓ)

/-- Region 3's first table at `t` is the first index input at 62500·3 + t. -/
theorem tbl3_src_at (t : Fin 62500) :
    (tbl3 m 0 : S62500.Idx → BitVec 32) (ValueIdx.ix1 t)
      = (m (((0 : Dev nD).tc : Thread nD τ).loc main_arg1) : S1000000.Idx → BitVec 32)
          (ValueIdx.ix1 ⟨62500 * 3 + t.val, by omega⟩) := by
  show (Ve3 m (0 : Dev nD) main_v14 : S62500.Idx → BitVec 32) (ValueIdx.ix1 t) = _
  exact (congrFun (tbl3_src m (outsL m) (0 : Dev nD)) (ValueIdx.ix1 t)).trans (slice_at 187500 _ _ (by omega) t)

/-- Region 3's second table at `t` is the second index input at 62500·3 + t. -/
theorem tbl3_dst_at (t : Fin 62500) :
    (tbl3 m 1 : S62500.Idx → BitVec 32) (ValueIdx.ix1 t)
      = (m (((0 : Dev nD).tc : Thread nD τ).loc main_arg2) : S1000000.Idx → BitVec 32)
          (ValueIdx.ix1 ⟨62500 * 3 + t.val, by omega⟩) := by
  show (Ve3 m (0 : Dev nD) main_v15 : S62500.Idx → BitVec 32) (ValueIdx.ix1 t) = _
  exact (congrFun (tbl3_dst m (outsL m) (0 : Dev nD)) (ValueIdx.ix1 t)).trans (slice_at 187500 _ _ (by omega) t)

variable [Cert.Pre_finite_inputs.Facts]

/-- Under the precondition every word of region 3's first table is a row number below 100000. -/
theorem tbl3_src_lt (hpre : PreArgs m) (t : Fin 62500) :
    ((tbl3 m 0 : S62500.Idx → BitVec 32) (ValueIdx.ix1 t)).toNat < 100000 := by
  rw [tbl3_src_at m t]
  exact Cert.IdxRange.src_toNat_lt _ _ _ _ _ (hpre 0) ⟨62500 * 3 + t.val, by omega⟩

/-- Under the precondition every word of region 3's second table is a row number below 100000. -/
theorem tbl3_dst_lt (hpre : PreArgs m) (t : Fin 62500) :
    ((tbl3 m 1 : S62500.Idx → BitVec 32) (ValueIdx.ix1 t)).toNat < 100000 := by
  rw [tbl3_dst_at m t]
  exact Cert.IdxRange.dst_toNat_lt _ _ _ _ _ (hpre 0) ⟨62500 * 3 + t.val, by omega⟩

/-- Under the precondition region 3's tables pass its side condition. -/
theorem ok3_tbl (hpre : PreArgs m) : ok3 (F := F) (tbl3 m) :=
  ok3_of_lt (tbl3 m) (tbl3_src_lt m hpre) (tbl3_dst_lt m hpre)

end

section

/-! ## Region 4 -/

/-- Region 4's first index map: the block index is (the first table's word at the grid coordinate, 0, 0). -/
theorem cc4_t0 (pf : pre4.Contents (Elt F)) (i : grid4.Coords) :
    cc4_transform_0 Facts₀.k4_off1_inb Facts₀.numel1_S1 pf i
      = ![((pf 0 : S62500.Idx → BitVec 32) (ValueIdx.ix1 (i 0))).toNat, 0, 0] := by
  unfold cc4_transform_0
  simp only []
  exact congrArg (fun j : S62500.Idx => (![((pf 0 : S62500.Idx → BitVec 32) j).toNat, 0, 0] : Fin 3 → Nat))
    (unit_emb (i 0) _ _)

/-- Region 4's second index map: the same with the second table. -/
theorem cc4_t1 (pf : pre4.Contents (Elt F)) (i : grid4.Coords) :
    cc4_transform_1 Facts₀.k4_off1_inb Facts₀.numel1_S1 pf i
      = ![((pf 1 : S62500.Idx → BitVec 32) (ValueIdx.ix1 (i 0))).toNat, 0, 0] := by
  unfold cc4_transform_1
  simp only []
  exact congrArg (fun j : S62500.Idx => (![((pf 1 : S62500.Idx → BitVec 32) j).toNat, 0, 0] : Fin 3 → Nat))
    (unit_emb (i 0) _ _)

/-- Region 4's side condition holds of any tables whose words are row numbers below 100000. -/
theorem ok4_of_lt (pf : pre4.Contents (Elt F))
    (h0 : ∀ t : Fin 62500, ((pf 0 : S62500.Idx → BitVec 32) (ValueIdx.ix1 t)).toNat < 100000)
    (h1 : ∀ t : Fin 62500, ((pf 1 : S62500.Idx → BitVec 32) (ValueIdx.ix1 t)).toNat < 100000) : ok4 pf := by
  refine ⟨fun i => ⟨?_, Or.inl rfl⟩, fun i => ⟨?_, Or.inl rfl⟩⟩
  · rw [cc4_t0]; exact row_block_inb _ (h0 (i 0))
  · rw [cc4_t1]; exact row_block_inb _ (h1 (i 0))

variable (m : (ℓ : Loc nD τ sig) → Buf (Elt F) ℓ)

/-- Region 4's first table at `t` is the first index input at 62500·4 + t. -/
theorem tbl4_src_at (t : Fin 62500) :
    (tbl4 m 0 : S62500.Idx → BitVec 32) (ValueIdx.ix1 t)
      = (m (((0 : Dev nD).tc : Thread nD τ).loc main_arg1) : S1000000.Idx → BitVec 32)
          (ValueIdx.ix1 ⟨62500 * 4 + t.val, by omega⟩) := by
  show (Ve4 m (0 : Dev nD) main_v18 : S62500.Idx → BitVec 32) (ValueIdx.ix1 t) = _
  exact (congrFun (tbl4_src m (outsL m) (0 : Dev nD)) (ValueIdx.ix1 t)).trans (slice_at 250000 _ _ (by omega) t)

/-- Region 4's second table at `t` is the second index input at 62500·4 + t. -/
theorem tbl4_dst_at (t : Fin 62500) :
    (tbl4 m 1 : S62500.Idx → BitVec 32) (ValueIdx.ix1 t)
      = (m (((0 : Dev nD).tc : Thread nD τ).loc main_arg2) : S1000000.Idx → BitVec 32)
          (ValueIdx.ix1 ⟨62500 * 4 + t.val, by omega⟩) := by
  show (Ve4 m (0 : Dev nD) main_v19 : S62500.Idx → BitVec 32) (ValueIdx.ix1 t) = _
  exact (congrFun (tbl4_dst m (outsL m) (0 : Dev nD)) (ValueIdx.ix1 t)).trans (slice_at 250000 _ _ (by omega) t)

variable [Cert.Pre_finite_inputs.Facts]

/-- Under the precondition every word of region 4's first table is a row number below 100000. -/
theorem tbl4_src_lt (hpre : PreArgs m) (t : Fin 62500) :
    ((tbl4 m 0 : S62500.Idx → BitVec 32) (ValueIdx.ix1 t)).toNat < 100000 := by
  rw [tbl4_src_at m t]
  exact Cert.IdxRange.src_toNat_lt _ _ _ _ _ (hpre 0) ⟨62500 * 4 + t.val, by omega⟩

/-- Under the precondition every word of region 4's second table is a row number below 100000. -/
theorem tbl4_dst_lt (hpre : PreArgs m) (t : Fin 62500) :
    ((tbl4 m 1 : S62500.Idx → BitVec 32) (ValueIdx.ix1 t)).toNat < 100000 := by
  rw [tbl4_dst_at m t]
  exact Cert.IdxRange.dst_toNat_lt _ _ _ _ _ (hpre 0) ⟨62500 * 4 + t.val, by omega⟩

/-- Under the precondition region 4's tables pass its side condition. -/
theorem ok4_tbl (hpre : PreArgs m) : ok4 (F := F) (tbl4 m) :=
  ok4_of_lt (tbl4 m) (tbl4_src_lt m hpre) (tbl4_dst_lt m hpre)

end

section

/-! ## Region 5 -/

/-- Region 5's first index map: the block index is (the first table's word at the grid coordinate, 0, 0). -/
theorem cc5_t0 (pf : pre5.Contents (Elt F)) (i : grid5.Coords) :
    cc5_transform_0 Facts₀.k5_off1_inb Facts₀.numel1_S1 pf i
      = ![((pf 0 : S62500.Idx → BitVec 32) (ValueIdx.ix1 (i 0))).toNat, 0, 0] := by
  unfold cc5_transform_0
  simp only []
  exact congrArg (fun j : S62500.Idx => (![((pf 0 : S62500.Idx → BitVec 32) j).toNat, 0, 0] : Fin 3 → Nat))
    (unit_emb (i 0) _ _)

/-- Region 5's second index map: the same with the second table. -/
theorem cc5_t1 (pf : pre5.Contents (Elt F)) (i : grid5.Coords) :
    cc5_transform_1 Facts₀.k5_off1_inb Facts₀.numel1_S1 pf i
      = ![((pf 1 : S62500.Idx → BitVec 32) (ValueIdx.ix1 (i 0))).toNat, 0, 0] := by
  unfold cc5_transform_1
  simp only []
  exact congrArg (fun j : S62500.Idx => (![((pf 1 : S62500.Idx → BitVec 32) j).toNat, 0, 0] : Fin 3 → Nat))
    (unit_emb (i 0) _ _)

/-- Region 5's side condition holds of any tables whose words are row numbers below 100000. -/
theorem ok5_of_lt (pf : pre5.Contents (Elt F))
    (h0 : ∀ t : Fin 62500, ((pf 0 : S62500.Idx → BitVec 32) (ValueIdx.ix1 t)).toNat < 100000)
    (h1 : ∀ t : Fin 62500, ((pf 1 : S62500.Idx → BitVec 32) (ValueIdx.ix1 t)).toNat < 100000) : ok5 pf := by
  refine ⟨fun i => ⟨?_, Or.inl rfl⟩, fun i => ⟨?_, Or.inl rfl⟩⟩
  · rw [cc5_t0]; exact row_block_inb _ (h0 (i 0))
  · rw [cc5_t1]; exact row_block_inb _ (h1 (i 0))

variable (m : (ℓ : Loc nD τ sig) → Buf (Elt F) ℓ)

/-- Region 5's first table at `t` is the first index input at 62500·5 + t. -/
theorem tbl5_src_at (t : Fin 62500) :
    (tbl5 m 0 : S62500.Idx → BitVec 32) (ValueIdx.ix1 t)
      = (m (((0 : Dev nD).tc : Thread nD τ).loc main_arg1) : S1000000.Idx → BitVec 32)
          (ValueIdx.ix1 ⟨62500 * 5 + t.val, by omega⟩) := by
  show (Ve5 m (0 : Dev nD) main_v22 : S62500.Idx → BitVec 32) (ValueIdx.ix1 t) = _
  exact (congrFun (tbl5_src m (outsL m) (0 : Dev nD)) (ValueIdx.ix1 t)).trans (slice_at 312500 _ _ (by omega) t)

/-- Region 5's second table at `t` is the second index input at 62500·5 + t. -/
theorem tbl5_dst_at (t : Fin 62500) :
    (tbl5 m 1 : S62500.Idx → BitVec 32) (ValueIdx.ix1 t)
      = (m (((0 : Dev nD).tc : Thread nD τ).loc main_arg2) : S1000000.Idx → BitVec 32)
          (ValueIdx.ix1 ⟨62500 * 5 + t.val, by omega⟩) := by
  show (Ve5 m (0 : Dev nD) main_v23 : S62500.Idx → BitVec 32) (ValueIdx.ix1 t) = _
  exact (congrFun (tbl5_dst m (outsL m) (0 : Dev nD)) (ValueIdx.ix1 t)).trans (slice_at 312500 _ _ (by omega) t)

variable [Cert.Pre_finite_inputs.Facts]

/-- Under the precondition every word of region 5's first table is a row number below 100000. -/
theorem tbl5_src_lt (hpre : PreArgs m) (t : Fin 62500) :
    ((tbl5 m 0 : S62500.Idx → BitVec 32) (ValueIdx.ix1 t)).toNat < 100000 := by
  rw [tbl5_src_at m t]
  exact Cert.IdxRange.src_toNat_lt _ _ _ _ _ (hpre 0) ⟨62500 * 5 + t.val, by omega⟩

/-- Under the precondition every word of region 5's second table is a row number below 100000. -/
theorem tbl5_dst_lt (hpre : PreArgs m) (t : Fin 62500) :
    ((tbl5 m 1 : S62500.Idx → BitVec 32) (ValueIdx.ix1 t)).toNat < 100000 := by
  rw [tbl5_dst_at m t]
  exact Cert.IdxRange.dst_toNat_lt _ _ _ _ _ (hpre 0) ⟨62500 * 5 + t.val, by omega⟩

/-- Under the precondition region 5's tables pass its side condition. -/
theorem ok5_tbl (hpre : PreArgs m) : ok5 (F := F) (tbl5 m) :=
  ok5_of_lt (tbl5 m) (tbl5_src_lt m hpre) (tbl5_dst_lt m hpre)

end

section

/-! ## Region 6 -/

/-- Region 6's first index map: the block index is (the first table's word at the grid coordinate, 0, 0). -/
theorem cc6_t0 (pf : pre6.Contents (Elt F)) (i : grid6.Coords) :
    cc6_transform_0 Facts₀.k6_off1_inb Facts₀.numel1_S1 pf i
      = ![((pf 0 : S62500.Idx → BitVec 32) (ValueIdx.ix1 (i 0))).toNat, 0, 0] := by
  unfold cc6_transform_0
  simp only []
  exact congrArg (fun j : S62500.Idx => (![((pf 0 : S62500.Idx → BitVec 32) j).toNat, 0, 0] : Fin 3 → Nat))
    (unit_emb (i 0) _ _)

/-- Region 6's second index map: the same with the second table. -/
theorem cc6_t1 (pf : pre6.Contents (Elt F)) (i : grid6.Coords) :
    cc6_transform_1 Facts₀.k6_off1_inb Facts₀.numel1_S1 pf i
      = ![((pf 1 : S62500.Idx → BitVec 32) (ValueIdx.ix1 (i 0))).toNat, 0, 0] := by
  unfold cc6_transform_1
  simp only []
  exact congrArg (fun j : S62500.Idx => (![((pf 1 : S62500.Idx → BitVec 32) j).toNat, 0, 0] : Fin 3 → Nat))
    (unit_emb (i 0) _ _)

/-- Region 6's side condition holds of any tables whose words are row numbers below 100000. -/
theorem ok6_of_lt (pf : pre6.Contents (Elt F))
    (h0 : ∀ t : Fin 62500, ((pf 0 : S62500.Idx → BitVec 32) (ValueIdx.ix1 t)).toNat < 100000)
    (h1 : ∀ t : Fin 62500, ((pf 1 : S62500.Idx → BitVec 32) (ValueIdx.ix1 t)).toNat < 100000) : ok6 pf := by
  refine ⟨fun i => ⟨?_, Or.inl rfl⟩, fun i => ⟨?_, Or.inl rfl⟩⟩
  · rw [cc6_t0]; exact row_block_inb _ (h0 (i 0))
  · rw [cc6_t1]; exact row_block_inb _ (h1 (i 0))

variable (m : (ℓ : Loc nD τ sig) → Buf (Elt F) ℓ)

/-- Region 6's first table at `t` is the first index input at 62500·6 + t. -/
theorem tbl6_src_at (t : Fin 62500) :
    (tbl6 m 0 : S62500.Idx → BitVec 32) (ValueIdx.ix1 t)
      = (m (((0 : Dev nD).tc : Thread nD τ).loc main_arg1) : S1000000.Idx → BitVec 32)
          (ValueIdx.ix1 ⟨62500 * 6 + t.val, by omega⟩) := by
  show (Ve6 m (0 : Dev nD) main_v26 : S62500.Idx → BitVec 32) (ValueIdx.ix1 t) = _
  exact (congrFun (tbl6_src m (outsL m) (0 : Dev nD)) (ValueIdx.ix1 t)).trans (slice_at 375000 _ _ (by omega) t)

/-- Region 6's second table at `t` is the second index input at 62500·6 + t. -/
theorem tbl6_dst_at (t : Fin 62500) :
    (tbl6 m 1 : S62500.Idx → BitVec 32) (ValueIdx.ix1 t)
      = (m (((0 : Dev nD).tc : Thread nD τ).loc main_arg2) : S1000000.Idx → BitVec 32)
          (ValueIdx.ix1 ⟨62500 * 6 + t.val, by omega⟩) := by
  show (Ve6 m (0 : Dev nD) main_v27 : S62500.Idx → BitVec 32) (ValueIdx.ix1 t) = _
  exact (congrFun (tbl6_dst m (outsL m) (0 : Dev nD)) (ValueIdx.ix1 t)).trans (slice_at 375000 _ _ (by omega) t)

variable [Cert.Pre_finite_inputs.Facts]

/-- Under the precondition every word of region 6's first table is a row number below 100000. -/
theorem tbl6_src_lt (hpre : PreArgs m) (t : Fin 62500) :
    ((tbl6 m 0 : S62500.Idx → BitVec 32) (ValueIdx.ix1 t)).toNat < 100000 := by
  rw [tbl6_src_at m t]
  exact Cert.IdxRange.src_toNat_lt _ _ _ _ _ (hpre 0) ⟨62500 * 6 + t.val, by omega⟩

/-- Under the precondition every word of region 6's second table is a row number below 100000. -/
theorem tbl6_dst_lt (hpre : PreArgs m) (t : Fin 62500) :
    ((tbl6 m 1 : S62500.Idx → BitVec 32) (ValueIdx.ix1 t)).toNat < 100000 := by
  rw [tbl6_dst_at m t]
  exact Cert.IdxRange.dst_toNat_lt _ _ _ _ _ (hpre 0) ⟨62500 * 6 + t.val, by omega⟩

/-- Under the precondition region 6's tables pass its side condition. -/
theorem ok6_tbl (hpre : PreArgs m) : ok6 (F := F) (tbl6 m) :=
  ok6_of_lt (tbl6 m) (tbl6_src_lt m hpre) (tbl6_dst_lt m hpre)

end

section

/-! ## Region 7 -/

/-- Region 7's first index map: the block index is (the first table's word at the grid coordinate, 0, 0). -/
theorem cc7_t0 (pf : pre7.Contents (Elt F)) (i : grid7.Coords) :
    cc7_transform_0 Facts₀.k7_off1_inb Facts₀.numel1_S1 pf i
      = ![((pf 0 : S62500.Idx → BitVec 32) (ValueIdx.ix1 (i 0))).toNat, 0, 0] := by
  unfold cc7_transform_0
  simp only []
  exact congrArg (fun j : S62500.Idx => (![((pf 0 : S62500.Idx → BitVec 32) j).toNat, 0, 0] : Fin 3 → Nat))
    (unit_emb (i 0) _ _)

/-- Region 7's second index map: the same with the second table. -/
theorem cc7_t1 (pf : pre7.Contents (Elt F)) (i : grid7.Coords) :
    cc7_transform_1 Facts₀.k7_off1_inb Facts₀.numel1_S1 pf i
      = ![((pf 1 : S62500.Idx → BitVec 32) (ValueIdx.ix1 (i 0))).toNat, 0, 0] := by
  unfold cc7_transform_1
  simp only []
  exact congrArg (fun j : S62500.Idx => (![((pf 1 : S62500.Idx → BitVec 32) j).toNat, 0, 0] : Fin 3 → Nat))
    (unit_emb (i 0) _ _)

/-- Region 7's side condition holds of any tables whose words are row numbers below 100000. -/
theorem ok7_of_lt (pf : pre7.Contents (Elt F))
    (h0 : ∀ t : Fin 62500, ((pf 0 : S62500.Idx → BitVec 32) (ValueIdx.ix1 t)).toNat < 100000)
    (h1 : ∀ t : Fin 62500, ((pf 1 : S62500.Idx → BitVec 32) (ValueIdx.ix1 t)).toNat < 100000) : ok7 pf := by
  refine ⟨fun i => ⟨?_, Or.inl rfl⟩, fun i => ⟨?_, Or.inl rfl⟩⟩
  · rw [cc7_t0]; exact row_block_inb _ (h0 (i 0))
  · rw [cc7_t1]; exact row_block_inb _ (h1 (i 0))

variable (m : (ℓ : Loc nD τ sig) → Buf (Elt F) ℓ)

/-- Region 7's first table at `t` is the first index input at 62500·7 + t. -/
theorem tbl7_src_at (t : Fin 62500) :
    (tbl7 m 0 : S62500.Idx → BitVec 32) (ValueIdx.ix1 t)
      = (m (((0 : Dev nD).tc : Thread nD τ).loc main_arg1) : S1000000.Idx → BitVec 32)
          (ValueIdx.ix1 ⟨62500 * 7 + t.val, by omega⟩) := by
  show (Ve7 m (0 : Dev nD) main_v30 : S62500.Idx → BitVec 32) (ValueIdx.ix1 t) = _
  exact (congrFun (tbl7_src m (outsL m) (0 : Dev nD)) (ValueIdx.ix1 t)).trans (slice_at 437500 _ _ (by omega) t)

/-- Region 7's second table at `t` is the second index input at 62500·7 + t. -/
theorem tbl7_dst_at (t : Fin 62500) :
    (tbl7 m 1 : S62500.Idx → BitVec 32) (ValueIdx.ix1 t)
      = (m (((0 : Dev nD).tc : Thread nD τ).loc main_arg2) : S1000000.Idx → BitVec 32)
          (ValueIdx.ix1 ⟨62500 * 7 + t.val, by omega⟩) := by
  show (Ve7 m (0 : Dev nD) main_v31 : S62500.Idx → BitVec 32) (ValueIdx.ix1 t) = _
  exact (congrFun (tbl7_dst m (outsL m) (0 : Dev nD)) (ValueIdx.ix1 t)).trans (slice_at 437500 _ _ (by omega) t)

variable [Cert.Pre_finite_inputs.Facts]

/-- Under the precondition every word of region 7's first table is a row number below 100000. -/
theorem tbl7_src_lt (hpre : PreArgs m) (t : Fin 62500) :
    ((tbl7 m 0 : S62500.Idx → BitVec 32) (ValueIdx.ix1 t)).toNat < 100000 := by
  rw [tbl7_src_at m t]
  exact Cert.IdxRange.src_toNat_lt _ _ _ _ _ (hpre 0) ⟨62500 * 7 + t.val, by omega⟩

/-- Under the precondition every word of region 7's second table is a row number below 100000. -/
theorem tbl7_dst_lt (hpre : PreArgs m) (t : Fin 62500) :
    ((tbl7 m 1 : S62500.Idx → BitVec 32) (ValueIdx.ix1 t)).toNat < 100000 := by
  rw [tbl7_dst_at m t]
  exact Cert.IdxRange.dst_toNat_lt _ _ _ _ _ (hpre 0) ⟨62500 * 7 + t.val, by omega⟩

/-- Under the precondition region 7's tables pass its side condition. -/
theorem ok7_tbl (hpre : PreArgs m) : ok7 (F := F) (tbl7 m) :=
  ok7_of_lt (tbl7 m) (tbl7_src_lt m hpre) (tbl7_dst_lt m hpre)

end

section

/-! ## Region 8 -/

/-- Region 8's first index map: the block index is (the first table's word at the grid coordinate, 0, 0). -/
theorem cc8_t0 (pf : pre8.Contents (Elt F)) (i : grid8.Coords) :
    cc8_transform_0 Facts₀.k8_off1_inb Facts₀.numel1_S1 pf i
      = ![((pf 0 : S62500.Idx → BitVec 32) (ValueIdx.ix1 (i 0))).toNat, 0, 0] := by
  unfold cc8_transform_0
  simp only []
  exact congrArg (fun j : S62500.Idx => (![((pf 0 : S62500.Idx → BitVec 32) j).toNat, 0, 0] : Fin 3 → Nat))
    (unit_emb (i 0) _ _)

/-- Region 8's second index map: the same with the second table. -/
theorem cc8_t1 (pf : pre8.Contents (Elt F)) (i : grid8.Coords) :
    cc8_transform_1 Facts₀.k8_off1_inb Facts₀.numel1_S1 pf i
      = ![((pf 1 : S62500.Idx → BitVec 32) (ValueIdx.ix1 (i 0))).toNat, 0, 0] := by
  unfold cc8_transform_1
  simp only []
  exact congrArg (fun j : S62500.Idx => (![((pf 1 : S62500.Idx → BitVec 32) j).toNat, 0, 0] : Fin 3 → Nat))
    (unit_emb (i 0) _ _)

/-- Region 8's side condition holds of any tables whose words are row numbers below 100000. -/
theorem ok8_of_lt (pf : pre8.Contents (Elt F))
    (h0 : ∀ t : Fin 62500, ((pf 0 : S62500.Idx → BitVec 32) (ValueIdx.ix1 t)).toNat < 100000)
    (h1 : ∀ t : Fin 62500, ((pf 1 : S62500.Idx → BitVec 32) (ValueIdx.ix1 t)).toNat < 100000) : ok8 pf := by
  refine ⟨fun i => ⟨?_, Or.inl rfl⟩, fun i => ⟨?_, Or.inl rfl⟩⟩
  · rw [cc8_t0]; exact row_block_inb _ (h0 (i 0))
  · rw [cc8_t1]; exact row_block_inb _ (h1 (i 0))

variable (m : (ℓ : Loc nD τ sig) → Buf (Elt F) ℓ)

/-- Region 8's first table at `t` is the first index input at 62500·8 + t. -/
theorem tbl8_src_at (t : Fin 62500) :
    (tbl8 m 0 : S62500.Idx → BitVec 32) (ValueIdx.ix1 t)
      = (m (((0 : Dev nD).tc : Thread nD τ).loc main_arg1) : S1000000.Idx → BitVec 32)
          (ValueIdx.ix1 ⟨62500 * 8 + t.val, by omega⟩) := by
  show (Ve8 m (0 : Dev nD) main_v34 : S62500.Idx → BitVec 32) (ValueIdx.ix1 t) = _
  exact (congrFun (tbl8_src m (outsL m) (0 : Dev nD)) (ValueIdx.ix1 t)).trans (slice_at 500000 _ _ (by omega) t)

/-- Region 8's second table at `t` is the second index input at 62500·8 + t. -/
theorem tbl8_dst_at (t : Fin 62500) :
    (tbl8 m 1 : S62500.Idx → BitVec 32) (ValueIdx.ix1 t)
      = (m (((0 : Dev nD).tc : Thread nD τ).loc main_arg2) : S1000000.Idx → BitVec 32)
          (ValueIdx.ix1 ⟨62500 * 8 + t.val, by omega⟩) := by
  show (Ve8 m (0 : Dev nD) main_v35 : S62500.Idx → BitVec 32) (ValueIdx.ix1 t) = _
  exact (congrFun (tbl8_dst m (outsL m) (0 : Dev nD)) (ValueIdx.ix1 t)).trans (slice_at 500000 _ _ (by omega) t)

variable [Cert.Pre_finite_inputs.Facts]

/-- Under the precondition every word of region 8's first table is a row number below 100000. -/
theorem tbl8_src_lt (hpre : PreArgs m) (t : Fin 62500) :
    ((tbl8 m 0 : S62500.Idx → BitVec 32) (ValueIdx.ix1 t)).toNat < 100000 := by
  rw [tbl8_src_at m t]
  exact Cert.IdxRange.src_toNat_lt _ _ _ _ _ (hpre 0) ⟨62500 * 8 + t.val, by omega⟩

/-- Under the precondition every word of region 8's second table is a row number below 100000. -/
theorem tbl8_dst_lt (hpre : PreArgs m) (t : Fin 62500) :
    ((tbl8 m 1 : S62500.Idx → BitVec 32) (ValueIdx.ix1 t)).toNat < 100000 := by
  rw [tbl8_dst_at m t]
  exact Cert.IdxRange.dst_toNat_lt _ _ _ _ _ (hpre 0) ⟨62500 * 8 + t.val, by omega⟩

/-- Under the precondition region 8's tables pass its side condition. -/
theorem ok8_tbl (hpre : PreArgs m) : ok8 (F := F) (tbl8 m) :=
  ok8_of_lt (tbl8 m) (tbl8_src_lt m hpre) (tbl8_dst_lt m hpre)

end

section

/-! ## Region 9 -/

/-- Region 9's first index map: the block index is (the first table's word at the grid coordinate, 0, 0). -/
theorem cc9_t0 (pf : pre9.Contents (Elt F)) (i : grid9.Coords) :
    cc9_transform_0 Facts₀.k9_off1_inb Facts₀.numel1_S1 pf i
      = ![((pf 0 : S62500.Idx → BitVec 32) (ValueIdx.ix1 (i 0))).toNat, 0, 0] := by
  unfold cc9_transform_0
  simp only []
  exact congrArg (fun j : S62500.Idx => (![((pf 0 : S62500.Idx → BitVec 32) j).toNat, 0, 0] : Fin 3 → Nat))
    (unit_emb (i 0) _ _)

/-- Region 9's second index map: the same with the second table. -/
theorem cc9_t1 (pf : pre9.Contents (Elt F)) (i : grid9.Coords) :
    cc9_transform_1 Facts₀.k9_off1_inb Facts₀.numel1_S1 pf i
      = ![((pf 1 : S62500.Idx → BitVec 32) (ValueIdx.ix1 (i 0))).toNat, 0, 0] := by
  unfold cc9_transform_1
  simp only []
  exact congrArg (fun j : S62500.Idx => (![((pf 1 : S62500.Idx → BitVec 32) j).toNat, 0, 0] : Fin 3 → Nat))
    (unit_emb (i 0) _ _)

/-- Region 9's side condition holds of any tables whose words are row numbers below 100000. -/
theorem ok9_of_lt (pf : pre9.Contents (Elt F))
    (h0 : ∀ t : Fin 62500, ((pf 0 : S62500.Idx → BitVec 32) (ValueIdx.ix1 t)).toNat < 100000)
    (h1 : ∀ t : Fin 62500, ((pf 1 : S62500.Idx → BitVec 32) (ValueIdx.ix1 t)).toNat < 100000) : ok9 pf := by
  refine ⟨fun i => ⟨?_, Or.inl rfl⟩, fun i => ⟨?_, Or.inl rfl⟩⟩
  · rw [cc9_t0]; exact row_block_inb _ (h0 (i 0))
  · rw [cc9_t1]; exact row_block_inb _ (h1 (i 0))

variable (m : (ℓ : Loc nD τ sig) → Buf (Elt F) ℓ)

/-- Region 9's first table at `t` is the first index input at 62500·9 + t. -/
theorem tbl9_src_at (t : Fin 62500) :
    (tbl9 m 0 : S62500.Idx → BitVec 32) (ValueIdx.ix1 t)
      = (m (((0 : Dev nD).tc : Thread nD τ).loc main_arg1) : S1000000.Idx → BitVec 32)
          (ValueIdx.ix1 ⟨62500 * 9 + t.val, by omega⟩) := by
  show (Ve9 m (0 : Dev nD) main_v38 : S62500.Idx → BitVec 32) (ValueIdx.ix1 t) = _
  exact (congrFun (tbl9_src m (outsL m) (0 : Dev nD)) (ValueIdx.ix1 t)).trans (slice_at 562500 _ _ (by omega) t)

/-- Region 9's second table at `t` is the second index input at 62500·9 + t. -/
theorem tbl9_dst_at (t : Fin 62500) :
    (tbl9 m 1 : S62500.Idx → BitVec 32) (ValueIdx.ix1 t)
      = (m (((0 : Dev nD).tc : Thread nD τ).loc main_arg2) : S1000000.Idx → BitVec 32)
          (ValueIdx.ix1 ⟨62500 * 9 + t.val, by omega⟩) := by
  show (Ve9 m (0 : Dev nD) main_v39 : S62500.Idx → BitVec 32) (ValueIdx.ix1 t) = _
  exact (congrFun (tbl9_dst m (outsL m) (0 : Dev nD)) (ValueIdx.ix1 t)).trans (slice_at 562500 _ _ (by omega) t)

variable [Cert.Pre_finite_inputs.Facts]

/-- Under the precondition every word of region 9's first table is a row number below 100000. -/
theorem tbl9_src_lt (hpre : PreArgs m) (t : Fin 62500) :
    ((tbl9 m 0 : S62500.Idx → BitVec 32) (ValueIdx.ix1 t)).toNat < 100000 := by
  rw [tbl9_src_at m t]
  exact Cert.IdxRange.src_toNat_lt _ _ _ _ _ (hpre 0) ⟨62500 * 9 + t.val, by omega⟩

/-- Under the precondition every word of region 9's second table is a row number below 100000. -/
theorem tbl9_dst_lt (hpre : PreArgs m) (t : Fin 62500) :
    ((tbl9 m 1 : S62500.Idx → BitVec 32) (ValueIdx.ix1 t)).toNat < 100000 := by
  rw [tbl9_dst_at m t]
  exact Cert.IdxRange.dst_toNat_lt _ _ _ _ _ (hpre 0) ⟨62500 * 9 + t.val, by omega⟩

/-- Under the precondition region 9's tables pass its side condition. -/
theorem ok9_tbl (hpre : PreArgs m) : ok9 (F := F) (tbl9 m) :=
  ok9_of_lt (tbl9 m) (tbl9_src_lt m hpre) (tbl9_dst_lt m hpre)

end

section

/-! ## Region 10 -/

/-- Region 10's first index map: the block index is (the first table's word at the grid coordinate, 0, 0). -/
theorem cc10_t0 (pf : pre10.Contents (Elt F)) (i : grid10.Coords) :
    cc10_transform_0 Facts₀.k10_off1_inb Facts₀.numel1_S1 pf i
      = ![((pf 0 : S62500.Idx → BitVec 32) (ValueIdx.ix1 (i 0))).toNat, 0, 0] := by
  unfold cc10_transform_0
  simp only []
  exact congrArg (fun j : S62500.Idx => (![((pf 0 : S62500.Idx → BitVec 32) j).toNat, 0, 0] : Fin 3 → Nat))
    (unit_emb (i 0) _ _)

/-- Region 10's second index map: the same with the second table. -/
theorem cc10_t1 (pf : pre10.Contents (Elt F)) (i : grid10.Coords) :
    cc10_transform_1 Facts₀.k10_off1_inb Facts₀.numel1_S1 pf i
      = ![((pf 1 : S62500.Idx → BitVec 32) (ValueIdx.ix1 (i 0))).toNat, 0, 0] := by
  unfold cc10_transform_1
  simp only []
  exact congrArg (fun j : S62500.Idx => (![((pf 1 : S62500.Idx → BitVec 32) j).toNat, 0, 0] : Fin 3 → Nat))
    (unit_emb (i 0) _ _)

/-- Region 10's side condition holds of any tables whose words are row numbers below 100000. -/
theorem ok10_of_lt (pf : pre10.Contents (Elt F))
    (h0 : ∀ t : Fin 62500, ((pf 0 : S62500.Idx → BitVec 32) (ValueIdx.ix1 t)).toNat < 100000)
    (h1 : ∀ t : Fin 62500, ((pf 1 : S62500.Idx → BitVec 32) (ValueIdx.ix1 t)).toNat < 100000) : ok10 pf := by
  refine ⟨fun i => ⟨?_, Or.inl rfl⟩, fun i => ⟨?_, Or.inl rfl⟩⟩
  · rw [cc10_t0]; exact row_block_inb _ (h0 (i 0))
  · rw [cc10_t1]; exact row_block_inb _ (h1 (i 0))

variable (m : (ℓ : Loc nD τ sig) → Buf (Elt F) ℓ)

/-- Region 10's first table at `t` is the first index input at 62500·10 + t. -/
theorem tbl10_src_at (t : Fin 62500) :
    (tbl10 m 0 : S62500.Idx → BitVec 32) (ValueIdx.ix1 t)
      = (m (((0 : Dev nD).tc : Thread nD τ).loc main_arg1) : S1000000.Idx → BitVec 32)
          (ValueIdx.ix1 ⟨62500 * 10 + t.val, by omega⟩) := by
  show (Ve10 m (0 : Dev nD) main_v42 : S62500.Idx → BitVec 32) (ValueIdx.ix1 t) = _
  exact (congrFun (tbl10_src m (outsL m) (0 : Dev nD)) (ValueIdx.ix1 t)).trans (slice_at 625000 _ _ (by omega) t)

/-- Region 10's second table at `t` is the second index input at 62500·10 + t. -/
theorem tbl10_dst_at (t : Fin 62500) :
    (tbl10 m 1 : S62500.Idx → BitVec 32) (ValueIdx.ix1 t)
      = (m (((0 : Dev nD).tc : Thread nD τ).loc main_arg2) : S1000000.Idx → BitVec 32)
          (ValueIdx.ix1 ⟨62500 * 10 + t.val, by omega⟩) := by
  show (Ve10 m (0 : Dev nD) main_v43 : S62500.Idx → BitVec 32) (ValueIdx.ix1 t) = _
  exact (congrFun (tbl10_dst m (outsL m) (0 : Dev nD)) (ValueIdx.ix1 t)).trans (slice_at 625000 _ _ (by omega) t)

variable [Cert.Pre_finite_inputs.Facts]

/-- Under the precondition every word of region 10's first table is a row number below 100000. -/
theorem tbl10_src_lt (hpre : PreArgs m) (t : Fin 62500) :
    ((tbl10 m 0 : S62500.Idx → BitVec 32) (ValueIdx.ix1 t)).toNat < 100000 := by
  rw [tbl10_src_at m t]
  exact Cert.IdxRange.src_toNat_lt _ _ _ _ _ (hpre 0) ⟨62500 * 10 + t.val, by omega⟩

/-- Under the precondition every word of region 10's second table is a row number below 100000. -/
theorem tbl10_dst_lt (hpre : PreArgs m) (t : Fin 62500) :
    ((tbl10 m 1 : S62500.Idx → BitVec 32) (ValueIdx.ix1 t)).toNat < 100000 := by
  rw [tbl10_dst_at m t]
  exact Cert.IdxRange.dst_toNat_lt _ _ _ _ _ (hpre 0) ⟨62500 * 10 + t.val, by omega⟩

/-- Under the precondition region 10's tables pass its side condition. -/
theorem ok10_tbl (hpre : PreArgs m) : ok10 (F := F) (tbl10 m) :=
  ok10_of_lt (tbl10 m) (tbl10_src_lt m hpre) (tbl10_dst_lt m hpre)

end

section

/-! ## Region 11 -/

/-- Region 11's first index map: the block index is (the first table's word at the grid coordinate, 0, 0). -/
theorem cc11_t0 (pf : pre11.Contents (Elt F)) (i : grid11.Coords) :
    cc11_transform_0 Facts₀.k11_off1_inb Facts₀.numel1_S1 pf i
      = ![((pf 0 : S62500.Idx → BitVec 32) (ValueIdx.ix1 (i 0))).toNat, 0, 0] := by
  unfold cc11_transform_0
  simp only []
  exact congrArg (fun j : S62500.Idx => (![((pf 0 : S62500.Idx → BitVec 32) j).toNat, 0, 0] : Fin 3 → Nat))
    (unit_emb (i 0) _ _)

/-- Region 11's second index map: the same with the second table. -/
theorem cc11_t1 (pf : pre11.Contents (Elt F)) (i : grid11.Coords) :
    cc11_transform_1 Facts₀.k11_off1_inb Facts₀.numel1_S1 pf i
      = ![((pf 1 : S62500.Idx → BitVec 32) (ValueIdx.ix1 (i 0))).toNat, 0, 0] := by
  unfold cc11_transform_1
  simp only []
  exact congrArg (fun j : S62500.Idx => (![((pf 1 : S62500.Idx → BitVec 32) j).toNat, 0, 0] : Fin 3 → Nat))
    (unit_emb (i 0) _ _)

/-- Region 11's side condition holds of any tables whose words are row numbers below 100000. -/
theorem ok11_of_lt (pf : pre11.Contents (Elt F))
    (h0 : ∀ t : Fin 62500, ((pf 0 : S62500.Idx → BitVec 32) (ValueIdx.ix1 t)).toNat < 100000)
    (h1 : ∀ t : Fin 62500, ((pf 1 : S62500.Idx → BitVec 32) (ValueIdx.ix1 t)).toNat < 100000) : ok11 pf := by
  refine ⟨fun i => ⟨?_, Or.inl rfl⟩, fun i => ⟨?_, Or.inl rfl⟩⟩
  · rw [cc11_t0]; exact row_block_inb _ (h0 (i 0))
  · rw [cc11_t1]; exact row_block_inb _ (h1 (i 0))

variable (m : (ℓ : Loc nD τ sig) → Buf (Elt F) ℓ)

/-- Region 11's first table at `t` is the first index input at 62500·11 + t. -/
theorem tbl11_src_at (t : Fin 62500) :
    (tbl11 m 0 : S62500.Idx → BitVec 32) (ValueIdx.ix1 t)
      = (m (((0 : Dev nD).tc : Thread nD τ).loc main_arg1) : S1000000.Idx → BitVec 32)
          (ValueIdx.ix1 ⟨62500 * 11 + t.val, by omega⟩) := by
  show (Ve11 m (0 : Dev nD) main_v46 : S62500.Idx → BitVec 32) (ValueIdx.ix1 t) = _
  exact (congrFun (tbl11_src m (outsL m) (0 : Dev nD)) (ValueIdx.ix1 t)).trans (slice_at 687500 _ _ (by omega) t)

/-- Region 11's second table at `t` is the second index input at 62500·11 + t. -/
theorem tbl11_dst_at (t : Fin 62500) :
    (tbl11 m 1 : S62500.Idx → BitVec 32) (ValueIdx.ix1 t)
      = (m (((0 : Dev nD).tc : Thread nD τ).loc main_arg2) : S1000000.Idx → BitVec 32)
          (ValueIdx.ix1 ⟨62500 * 11 + t.val, by omega⟩) := by
  show (Ve11 m (0 : Dev nD) main_v47 : S62500.Idx → BitVec 32) (ValueIdx.ix1 t) = _
  exact (congrFun (tbl11_dst m (outsL m) (0 : Dev nD)) (ValueIdx.ix1 t)).trans (slice_at 687500 _ _ (by omega) t)

variable [Cert.Pre_finite_inputs.Facts]

/-- Under the precondition every word of region 11's first table is a row number below 100000. -/
theorem tbl11_src_lt (hpre : PreArgs m) (t : Fin 62500) :
    ((tbl11 m 0 : S62500.Idx → BitVec 32) (ValueIdx.ix1 t)).toNat < 100000 := by
  rw [tbl11_src_at m t]
  exact Cert.IdxRange.src_toNat_lt _ _ _ _ _ (hpre 0) ⟨62500 * 11 + t.val, by omega⟩

/-- Under the precondition every word of region 11's second table is a row number below 100000. -/
theorem tbl11_dst_lt (hpre : PreArgs m) (t : Fin 62500) :
    ((tbl11 m 1 : S62500.Idx → BitVec 32) (ValueIdx.ix1 t)).toNat < 100000 := by
  rw [tbl11_dst_at m t]
  exact Cert.IdxRange.dst_toNat_lt _ _ _ _ _ (hpre 0) ⟨62500 * 11 + t.val, by omega⟩

/-- Under the precondition region 11's tables pass its side condition. -/
theorem ok11_tbl (hpre : PreArgs m) : ok11 (F := F) (tbl11 m) :=
  ok11_of_lt (tbl11 m) (tbl11_src_lt m hpre) (tbl11_dst_lt m hpre)

end

section

/-! ## Region 12 -/

/-- Region 12's first index map: the block index is (the first table's word at the grid coordinate, 0, 0). -/
theorem cc12_t0 (pf : pre12.Contents (Elt F)) (i : grid12.Coords) :
    cc12_transform_0 Facts₀.k12_off1_inb Facts₀.numel1_S1 pf i
      = ![((pf 0 : S62500.Idx → BitVec 32) (ValueIdx.ix1 (i 0))).toNat, 0, 0] := by
  unfold cc12_transform_0
  simp only []
  exact congrArg (fun j : S62500.Idx => (![((pf 0 : S62500.Idx → BitVec 32) j).toNat, 0, 0] : Fin 3 → Nat))
    (unit_emb (i 0) _ _)

/-- Region 12's second index map: the same with the second table. -/
theorem cc12_t1 (pf : pre12.Contents (Elt F)) (i : grid12.Coords) :
    cc12_transform_1 Facts₀.k12_off1_inb Facts₀.numel1_S1 pf i
      = ![((pf 1 : S62500.Idx → BitVec 32) (ValueIdx.ix1 (i 0))).toNat, 0, 0] := by
  unfold cc12_transform_1
  simp only []
  exact congrArg (fun j : S62500.Idx => (![((pf 1 : S62500.Idx → BitVec 32) j).toNat, 0, 0] : Fin 3 → Nat))
    (unit_emb (i 0) _ _)

/-- Region 12's side condition holds of any tables whose words are row numbers below 100000. -/
theorem ok12_of_lt (pf : pre12.Contents (Elt F))
    (h0 : ∀ t : Fin 62500, ((pf 0 : S62500.Idx → BitVec 32) (ValueIdx.ix1 t)).toNat < 100000)
    (h1 : ∀ t : Fin 62500, ((pf 1 : S62500.Idx → BitVec 32) (ValueIdx.ix1 t)).toNat < 100000) : ok12 pf := by
  refine ⟨fun i => ⟨?_, Or.inl rfl⟩, fun i => ⟨?_, Or.inl rfl⟩⟩
  · rw [cc12_t0]; exact row_block_inb _ (h0 (i 0))
  · rw [cc12_t1]; exact row_block_inb _ (h1 (i 0))

variable (m : (ℓ : Loc nD τ sig) → Buf (Elt F) ℓ)

/-- Region 12's first table at `t` is the first index input at 62500·12 + t. -/
theorem tbl12_src_at (t : Fin 62500) :
    (tbl12 m 0 : S62500.Idx → BitVec 32) (ValueIdx.ix1 t)
      = (m (((0 : Dev nD).tc : Thread nD τ).loc main_arg1) : S1000000.Idx → BitVec 32)
          (ValueIdx.ix1 ⟨62500 * 12 + t.val, by omega⟩) := by
  show (Ve12 m (0 : Dev nD) main_v50 : S62500.Idx → BitVec 32) (ValueIdx.ix1 t) = _
  exact (congrFun (tbl12_src m (outsL m) (0 : Dev nD)) (ValueIdx.ix1 t)).trans (slice_at 750000 _ _ (by omega) t)

/-- Region 12's second table at `t` is the second index input at 62500·12 + t. -/
theorem tbl12_dst_at (t : Fin 62500) :
    (tbl12 m 1 : S62500.Idx → BitVec 32) (ValueIdx.ix1 t)
      = (m (((0 : Dev nD).tc : Thread nD τ).loc main_arg2) : S1000000.Idx → BitVec 32)
          (ValueIdx.ix1 ⟨62500 * 12 + t.val, by omega⟩) := by
  show (Ve12 m (0 : Dev nD) main_v51 : S62500.Idx → BitVec 32) (ValueIdx.ix1 t) = _
  exact (congrFun (tbl12_dst m (outsL m) (0 : Dev nD)) (ValueIdx.ix1 t)).trans (slice_at 750000 _ _ (by omega) t)

variable [Cert.Pre_finite_inputs.Facts]

/-- Under the precondition every word of region 12's first table is a row number below 100000. -/
theorem tbl12_src_lt (hpre : PreArgs m) (t : Fin 62500) :
    ((tbl12 m 0 : S62500.Idx → BitVec 32) (ValueIdx.ix1 t)).toNat < 100000 := by
  rw [tbl12_src_at m t]
  exact Cert.IdxRange.src_toNat_lt _ _ _ _ _ (hpre 0) ⟨62500 * 12 + t.val, by omega⟩

/-- Under the precondition every word of region 12's second table is a row number below 100000. -/
theorem tbl12_dst_lt (hpre : PreArgs m) (t : Fin 62500) :
    ((tbl12 m 1 : S62500.Idx → BitVec 32) (ValueIdx.ix1 t)).toNat < 100000 := by
  rw [tbl12_dst_at m t]
  exact Cert.IdxRange.dst_toNat_lt _ _ _ _ _ (hpre 0) ⟨62500 * 12 + t.val, by omega⟩

/-- Under the precondition region 12's tables pass its side condition. -/
theorem ok12_tbl (hpre : PreArgs m) : ok12 (F := F) (tbl12 m) :=
  ok12_of_lt (tbl12 m) (tbl12_src_lt m hpre) (tbl12_dst_lt m hpre)

end

section

/-! ## Region 13 -/

/-- Region 13's first index map: the block index is (the first table's word at the grid coordinate, 0, 0). -/
theorem cc13_t0 (pf : pre13.Contents (Elt F)) (i : grid13.Coords) :
    cc13_transform_0 Facts₀.k13_off1_inb Facts₀.numel1_S1 pf i
      = ![((pf 0 : S62500.Idx → BitVec 32) (ValueIdx.ix1 (i 0))).toNat, 0, 0] := by
  unfold cc13_transform_0
  simp only []
  exact congrArg (fun j : S62500.Idx => (![((pf 0 : S62500.Idx → BitVec 32) j).toNat, 0, 0] : Fin 3 → Nat))
    (unit_emb (i 0) _ _)

/-- Region 13's second index map: the same with the second table. -/
theorem cc13_t1 (pf : pre13.Contents (Elt F)) (i : grid13.Coords) :
    cc13_transform_1 Facts₀.k13_off1_inb Facts₀.numel1_S1 pf i
      = ![((pf 1 : S62500.Idx → BitVec 32) (ValueIdx.ix1 (i 0))).toNat, 0, 0] := by
  unfold cc13_transform_1
  simp only []
  exact congrArg (fun j : S62500.Idx => (![((pf 1 : S62500.Idx → BitVec 32) j).toNat, 0, 0] : Fin 3 → Nat))
    (unit_emb (i 0) _ _)

/-- Region 13's side condition holds of any tables whose words are row numbers below 100000. -/
theorem ok13_of_lt (pf : pre13.Contents (Elt F))
    (h0 : ∀ t : Fin 62500, ((pf 0 : S62500.Idx → BitVec 32) (ValueIdx.ix1 t)).toNat < 100000)
    (h1 : ∀ t : Fin 62500, ((pf 1 : S62500.Idx → BitVec 32) (ValueIdx.ix1 t)).toNat < 100000) : ok13 pf := by
  refine ⟨fun i => ⟨?_, Or.inl rfl⟩, fun i => ⟨?_, Or.inl rfl⟩⟩
  · rw [cc13_t0]; exact row_block_inb _ (h0 (i 0))
  · rw [cc13_t1]; exact row_block_inb _ (h1 (i 0))

variable (m : (ℓ : Loc nD τ sig) → Buf (Elt F) ℓ)

/-- Region 13's first table at `t` is the first index input at 62500·13 + t. -/
theorem tbl13_src_at (t : Fin 62500) :
    (tbl13 m 0 : S62500.Idx → BitVec 32) (ValueIdx.ix1 t)
      = (m (((0 : Dev nD).tc : Thread nD τ).loc main_arg1) : S1000000.Idx → BitVec 32)
          (ValueIdx.ix1 ⟨62500 * 13 + t.val, by omega⟩) := by
  show (Ve13 m (0 : Dev nD) main_v54 : S62500.Idx → BitVec 32) (ValueIdx.ix1 t) = _
  exact (congrFun (tbl13_src m (outsL m) (0 : Dev nD)) (ValueIdx.ix1 t)).trans (slice_at 812500 _ _ (by omega) t)

/-- Region 13's second table at `t` is the second index input at 62500·13 + t. -/
theorem tbl13_dst_at (t : Fin 62500) :
    (tbl13 m 1 : S62500.Idx → BitVec 32) (ValueIdx.ix1 t)
      = (m (((0 : Dev nD).tc : Thread nD τ).loc main_arg2) : S1000000.Idx → BitVec 32)
          (ValueIdx.ix1 ⟨62500 * 13 + t.val, by omega⟩) := by
  show (Ve13 m (0 : Dev nD) main_v55 : S62500.Idx → BitVec 32) (ValueIdx.ix1 t) = _
  exact (congrFun (tbl13_dst m (outsL m) (0 : Dev nD)) (ValueIdx.ix1 t)).trans (slice_at 812500 _ _ (by omega) t)

variable [Cert.Pre_finite_inputs.Facts]

/-- Under the precondition every word of region 13's first table is a row number below 100000. -/
theorem tbl13_src_lt (hpre : PreArgs m) (t : Fin 62500) :
    ((tbl13 m 0 : S62500.Idx → BitVec 32) (ValueIdx.ix1 t)).toNat < 100000 := by
  rw [tbl13_src_at m t]
  exact Cert.IdxRange.src_toNat_lt _ _ _ _ _ (hpre 0) ⟨62500 * 13 + t.val, by omega⟩

/-- Under the precondition every word of region 13's second table is a row number below 100000. -/
theorem tbl13_dst_lt (hpre : PreArgs m) (t : Fin 62500) :
    ((tbl13 m 1 : S62500.Idx → BitVec 32) (ValueIdx.ix1 t)).toNat < 100000 := by
  rw [tbl13_dst_at m t]
  exact Cert.IdxRange.dst_toNat_lt _ _ _ _ _ (hpre 0) ⟨62500 * 13 + t.val, by omega⟩

/-- Under the precondition region 13's tables pass its side condition. -/
theorem ok13_tbl (hpre : PreArgs m) : ok13 (F := F) (tbl13 m) :=
  ok13_of_lt (tbl13 m) (tbl13_src_lt m hpre) (tbl13_dst_lt m hpre)

end

section

/-! ## Region 14 -/

/-- Region 14's first index map: the block index is (the first table's word at the grid coordinate, 0, 0). -/
theorem cc14_t0 (pf : pre14.Contents (Elt F)) (i : grid14.Coords) :
    cc14_transform_0 Facts₀.k14_off1_inb Facts₀.numel1_S1 pf i
      = ![((pf 0 : S62500.Idx → BitVec 32) (ValueIdx.ix1 (i 0))).toNat, 0, 0] := by
  unfold cc14_transform_0
  simp only []
  exact congrArg (fun j : S62500.Idx => (![((pf 0 : S62500.Idx → BitVec 32) j).toNat, 0, 0] : Fin 3 → Nat))
    (unit_emb (i 0) _ _)

/-- Region 14's second index map: the same with the second table. -/
theorem cc14_t1 (pf : pre14.Contents (Elt F)) (i : grid14.Coords) :
    cc14_transform_1 Facts₀.k14_off1_inb Facts₀.numel1_S1 pf i
      = ![((pf 1 : S62500.Idx → BitVec 32) (ValueIdx.ix1 (i 0))).toNat, 0, 0] := by
  unfold cc14_transform_1
  simp only []
  exact congrArg (fun j : S62500.Idx => (![((pf 1 : S62500.Idx → BitVec 32) j).toNat, 0, 0] : Fin 3 → Nat))
    (unit_emb (i 0) _ _)

/-- Region 14's side condition holds of any tables whose words are row numbers below 100000. -/
theorem ok14_of_lt (pf : pre14.Contents (Elt F))
    (h0 : ∀ t : Fin 62500, ((pf 0 : S62500.Idx → BitVec 32) (ValueIdx.ix1 t)).toNat < 100000)
    (h1 : ∀ t : Fin 62500, ((pf 1 : S62500.Idx → BitVec 32) (ValueIdx.ix1 t)).toNat < 100000) : ok14 pf := by
  refine ⟨fun i => ⟨?_, Or.inl rfl⟩, fun i => ⟨?_, Or.inl rfl⟩⟩
  · rw [cc14_t0]; exact row_block_inb _ (h0 (i 0))
  · rw [cc14_t1]; exact row_block_inb _ (h1 (i 0))

variable (m : (ℓ : Loc nD τ sig) → Buf (Elt F) ℓ)

/-- Region 14's first table at `t` is the first index input at 62500·14 + t. -/
theorem tbl14_src_at (t : Fin 62500) :
    (tbl14 m 0 : S62500.Idx → BitVec 32) (ValueIdx.ix1 t)
      = (m (((0 : Dev nD).tc : Thread nD τ).loc main_arg1) : S1000000.Idx → BitVec 32)
          (ValueIdx.ix1 ⟨62500 * 14 + t.val, by omega⟩) := by
  show (Ve14 m (0 : Dev nD) main_v58 : S62500.Idx → BitVec 32) (ValueIdx.ix1 t) = _
  exact (congrFun (tbl14_src m (outsL m) (0 : Dev nD)) (ValueIdx.ix1 t)).trans (slice_at 875000 _ _ (by omega) t)

/-- Region 14's second table at `t` is the second index input at 62500·14 + t. -/
theorem tbl14_dst_at (t : Fin 62500) :
    (tbl14 m 1 : S62500.Idx → BitVec 32) (ValueIdx.ix1 t)
      = (m (((0 : Dev nD).tc : Thread nD τ).loc main_arg2) : S1000000.Idx → BitVec 32)
          (ValueIdx.ix1 ⟨62500 * 14 + t.val, by omega⟩) := by
  show (Ve14 m (0 : Dev nD) main_v59 : S62500.Idx → BitVec 32) (ValueIdx.ix1 t) = _
  exact (congrFun (tbl14_dst m (outsL m) (0 : Dev nD)) (ValueIdx.ix1 t)).trans (slice_at 875000 _ _ (by omega) t)

variable [Cert.Pre_finite_inputs.Facts]

/-- Under the precondition every word of region 14's first table is a row number below 100000. -/
theorem tbl14_src_lt (hpre : PreArgs m) (t : Fin 62500) :
    ((tbl14 m 0 : S62500.Idx → BitVec 32) (ValueIdx.ix1 t)).toNat < 100000 := by
  rw [tbl14_src_at m t]
  exact Cert.IdxRange.src_toNat_lt _ _ _ _ _ (hpre 0) ⟨62500 * 14 + t.val, by omega⟩

/-- Under the precondition every word of region 14's second table is a row number below 100000. -/
theorem tbl14_dst_lt (hpre : PreArgs m) (t : Fin 62500) :
    ((tbl14 m 1 : S62500.Idx → BitVec 32) (ValueIdx.ix1 t)).toNat < 100000 := by
  rw [tbl14_dst_at m t]
  exact Cert.IdxRange.dst_toNat_lt _ _ _ _ _ (hpre 0) ⟨62500 * 14 + t.val, by omega⟩

/-- Under the precondition region 14's tables pass its side condition. -/
theorem ok14_tbl (hpre : PreArgs m) : ok14 (F := F) (tbl14 m) :=
  ok14_of_lt (tbl14 m) (tbl14_src_lt m hpre) (tbl14_dst_lt m hpre)

end

section

/-! ## Region 15 -/

/-- Region 15's first index map: the block index is (the first table's word at the grid coordinate, 0, 0). -/
theorem cc15_t0 (pf : pre15.Contents (Elt F)) (i : grid15.Coords) :
    cc15_transform_0 Facts₀.k15_off1_inb Facts₀.numel1_S1 pf i
      = ![((pf 0 : S62500.Idx → BitVec 32) (ValueIdx.ix1 (i 0))).toNat, 0, 0] := by
  unfold cc15_transform_0
  simp only []
  exact congrArg (fun j : S62500.Idx => (![((pf 0 : S62500.Idx → BitVec 32) j).toNat, 0, 0] : Fin 3 → Nat))
    (unit_emb (i 0) _ _)

/-- Region 15's second index map: the same with the second table. -/
theorem cc15_t1 (pf : pre15.Contents (Elt F)) (i : grid15.Coords) :
    cc15_transform_1 Facts₀.k15_off1_inb Facts₀.numel1_S1 pf i
      = ![((pf 1 : S62500.Idx → BitVec 32) (ValueIdx.ix1 (i 0))).toNat, 0, 0] := by
  unfold cc15_transform_1
  simp only []
  exact congrArg (fun j : S62500.Idx => (![((pf 1 : S62500.Idx → BitVec 32) j).toNat, 0, 0] : Fin 3 → Nat))
    (unit_emb (i 0) _ _)

/-- Region 15's side condition holds of any tables whose words are row numbers below 100000. -/
theorem ok15_of_lt (pf : pre15.Contents (Elt F))
    (h0 : ∀ t : Fin 62500, ((pf 0 : S62500.Idx → BitVec 32) (ValueIdx.ix1 t)).toNat < 100000)
    (h1 : ∀ t : Fin 62500, ((pf 1 : S62500.Idx → BitVec 32) (ValueIdx.ix1 t)).toNat < 100000) : ok15 pf := by
  refine ⟨fun i => ⟨?_, Or.inl rfl⟩, fun i => ⟨?_, Or.inl rfl⟩⟩
  · rw [cc15_t0]; exact row_block_inb _ (h0 (i 0))
  · rw [cc15_t1]; exact row_block_inb _ (h1 (i 0))

variable (m : (ℓ : Loc nD τ sig) → Buf (Elt F) ℓ)

/-- Region 15's first table at `t` is the first index input at 62500·15 + t. -/
theorem tbl15_src_at (t : Fin 62500) :
    (tbl15 m 0 : S62500.Idx → BitVec 32) (ValueIdx.ix1 t)
      = (m (((0 : Dev nD).tc : Thread nD τ).loc main_arg1) : S1000000.Idx → BitVec 32)
          (ValueIdx.ix1 ⟨62500 * 15 + t.val, by omega⟩) := by
  show (Ve15 m (0 : Dev nD) main_v62 : S62500.Idx → BitVec 32) (ValueIdx.ix1 t) = _
  exact (congrFun (tbl15_src m (outsL m) (0 : Dev nD)) (ValueIdx.ix1 t)).trans (slice_at 937500 _ _ (by omega) t)

/-- Region 15's second table at `t` is the second index input at 62500·15 + t. -/
theorem tbl15_dst_at (t : Fin 62500) :
    (tbl15 m 1 : S62500.Idx → BitVec 32) (ValueIdx.ix1 t)
      = (m (((0 : Dev nD).tc : Thread nD τ).loc main_arg2) : S1000000.Idx → BitVec 32)
          (ValueIdx.ix1 ⟨62500 * 15 + t.val, by omega⟩) := by
  show (Ve15 m (0 : Dev nD) main_v63 : S62500.Idx → BitVec 32) (ValueIdx.ix1 t) = _
  exact (congrFun (tbl15_dst m (outsL m) (0 : Dev nD)) (ValueIdx.ix1 t)).trans (slice_at 937500 _ _ (by omega) t)

variable [Cert.Pre_finite_inputs.Facts]

/-- Under the precondition every word of region 15's first table is a row number below 100000. -/
theorem tbl15_src_lt (hpre : PreArgs m) (t : Fin 62500) :
    ((tbl15 m 0 : S62500.Idx → BitVec 32) (ValueIdx.ix1 t)).toNat < 100000 := by
  rw [tbl15_src_at m t]
  exact Cert.IdxRange.src_toNat_lt _ _ _ _ _ (hpre 0) ⟨62500 * 15 + t.val, by omega⟩

/-- Under the precondition every word of region 15's second table is a row number below 100000. -/
theorem tbl15_dst_lt (hpre : PreArgs m) (t : Fin 62500) :
    ((tbl15 m 1 : S62500.Idx → BitVec 32) (ValueIdx.ix1 t)).toNat < 100000 := by
  rw [tbl15_dst_at m t]
  exact Cert.IdxRange.dst_toNat_lt _ _ _ _ _ (hpre 0) ⟨62500 * 15 + t.val, by omega⟩

/-- Under the precondition region 15's tables pass its side condition. -/
theorem ok15_tbl (hpre : PreArgs m) : ok15 (F := F) (tbl15 m) :=
  ok15_of_lt (tbl15 m) (tbl15_src_lt m hpre) (tbl15_dst_lt m hpre)

end

end Cert.KernelIdeal.Hand
-- ==== Proof.KIOksAll.lean ====
/-
  Under the precondition every region's two index tables pass the region's side condition: each table-indexed block
  lies inside the feature array. Region 0's case and the fifteen others', collected.
-/
import proofs.«405368_j31662498906597_2_alg».proof.Proof.KIOks
import proofs.«405368_j31662498906597_2_alg».proof.Proof.KIOksGen

noncomputable section

namespace Cert.KernelIdeal.Hand

open Idealize.ShloMosaic Idealize.ShloMosaic.TcCoe
open Cert.KernelIdeal Cert.KernelIdeal.Gen

variable {F : FTy → Type} [FloatOps F]

/-- Under the precondition every region's tables pass its side condition. -/
theorem oks_of_pre [Cert.Pre_finite_inputs.Facts] (m : (ℓ : Loc nD τ sig) → Buf (Elt F) ℓ)
    (hpre : ∀ c : Dev nD, Cert.Pre_finite_inputs.fn (F := F) (m ((c.tc : Thread nD τ).loc main_arg0))
      (m ((c.tc : Thread nD τ).loc main_arg1)) (m ((c.tc : Thread nD τ).loc main_arg2))
      (m ((c.tc : Thread nD τ).loc main_arg3)) (m ((c.tc : Thread nD τ).loc main_arg4)) = fun _ => 1#1) : Oks m :=
  ⟨ok0_tbl m hpre, ok1_tbl m hpre, ok2_tbl m hpre, ok3_tbl m hpre, ok4_tbl m hpre, ok5_tbl m hpre, ok6_tbl m hpre,
   ok7_tbl m hpre, ok8_tbl m hpre, ok9_tbl m hpre, ok10_tbl m hpre, ok11_tbl m hpre, ok12_tbl m hpre, ok13_tbl m hpre,
   ok14_tbl m hpre, ok15_tbl m hpre⟩

end Cert.KernelIdeal.Hand
-- ==== Proof.Spec.lean ====
/-
  The specification of the edge scorer, index by index, over the extended reals.

  For an edge whose source node is row `rs` and whose destination node is row `rd` of the node-feature matrix
  `h` (100000 rows of 128 features), the score is the inner product of row `rs` with the first 128 weights, plus the
  inner product of row `rd` with the last 128 weights, plus the bias:
    score = (∑ j < 128, h[rs, j] · W[0, j]) + (∑ j < 128, h[rd, j] · W[0, 128 + j]) + b[0].
  The result array holds, at edge `e`, the score of that edge's two rows. Only sums and products of extended
  reals occur, so no finiteness of the inputs is used anywhere: addition of extended reals is commutative and
  associative, which is all that regrouping a 256-term sum into two 128-term sums needs.
-/
import Idealize.ShloMosaic.PureOps.Ideal
import Idealize.ShloMosaic.Lib.ValueIdx

noncomputable section

open scoped BigOperators

namespace Cert.Spec

open Idealize.ShloMosaic Idealize.ShloMosaic.ValueIdx

/-- Column `j` of the first half of the 256 weights. -/
abbrev lo (j : Fin 128) : Fin 256 := ⟨j.val, Nat.lt_trans j.isLt (by norm_num)⟩
/-- Column `128 + j`: the second half. -/
abbrev hi (j : Fin 128) : Fin 256 := ⟨128 + j.val, by have := j.isLt; omega⟩

/-- The score of an edge from row `rs` to row `rd`. -/
def score (h : (⟨2, ![100000, 128]⟩ : Shape).Idx → EReal) (W : (⟨2, ![1, 256]⟩ : Shape).Idx → EReal)
    (b : (⟨1, ![1]⟩ : Shape).Idx → EReal) (rs rd : Fin 100000) : EReal :=
  (∑ j : Fin 128, h (ix2 rs j) * W (ix2 (0 : Fin 1) (lo j)))
    + (∑ j : Fin 128, h (ix2 rd j) * W (ix2 (0 : Fin 1) (hi j)))
    + b (ix1 (0 : Fin 1))

/-- The whole result: edge `e`'s score at `(e, 0)`, the edges' rows given by `rs` and `rd`. -/
def scores (h : (⟨2, ![100000, 128]⟩ : Shape).Idx → EReal) (W : (⟨2, ![1, 256]⟩ : Shape).Idx → EReal)
    (b : (⟨1, ![1]⟩ : Shape).Idx → EReal) (rs rd : Fin 1000000 → Fin 100000) :
    (⟨2, ![1000000, 1]⟩ : Shape).Idx → EReal :=
  fun i => score h W b (rs (i 0)) (rd (i 0))

/-- A 256-term sum is the sum of its first and of its last 128 terms (a regrouping: commutative monoid only). -/
theorem sum_256_split (f : Fin 256 → EReal) : (∑ k : Fin 256, f k) = (∑ j : Fin 128, f (lo j)) + (∑ j : Fin 128, f (hi j)) := by
  have h := Fin.sum_univ_add (M := EReal) (a := 128) (b := 128) f
  rw [h]
  congr 1 <;> exact Finset.sum_congr rfl fun j _ => congrArg f (Fin.ext rfl)

end Cert.Spec

end
-- ==== Proof.KIBridgeBase.lean ====
/-
  One entry of the program's result is the specification's score of its edge.

  The specification reads an edge's two rows off the two index inputs; under the precondition every word of either is
  a row number of the feature array, which is what makes the two row functions `rowS` and `rowD` well defined. An entry
  of the result was written by one region: it is that region's score of the rows its two table words name, the table
  words are the index inputs' words at the edge, and the arrays the region reads are the launch memory's feature, weight
  and bias arrays up to unit axes. `arm` puts these facts together, for any region.
-/
import proofs.«405368_j31662498906597_2_alg».proof.Proof.KIFamily
import proofs.«405368_j31662498906597_2_alg».proof.Proof.KIOksAll
import proofs.«405368_j31662498906597_2_alg».proof.Proof.IdxRange
import proofs.«405368_j31662498906597_2_alg».proof.Proof.Spec
import Idealize.ShloMosaic.Lib.ValueIdx
import Idealize.ShloMosaic.PureOps.Ideal

set_option maxRecDepth 16384

noncomputable section

namespace Cert.KernelIdeal.Hand

open Idealize.ShloMosaic Idealize.ShloMosaic.TcCoe
open Cert.KernelIdeal Cert.KernelIdeal.Gen
open scoped BigOperators

variable [Cert.Pre_finite_inputs.Facts] (m : (ℓ : Loc nD τ sig) → Buf (Elt Ideal) ℓ)

/-! ## The rows the two index inputs name -/

/-- The source row of edge `e`: the first index input's word at `e`, a row number under the precondition. -/
def rowS (hpre : PreArgs m) (c : Dev nD) : Fin 1000000 → Fin 100000 := fun e =>
  ⟨((m ((c.tc : Thread nD τ).loc main_arg1) : S1000000.Idx → BitVec 32) (ValueIdx.ix1 e)).toNat,
    Cert.IdxRange.src_toNat_lt _ _ _ _ _ (hpre c) e⟩

/-- The destination row of edge `e`: the second index input's word at `e`. -/
def rowD (hpre : PreArgs m) (c : Dev nD) : Fin 1000000 → Fin 100000 := fun e =>
  ⟨((m ((c.tc : Thread nD τ).loc main_arg2) : S1000000.Idx → BitVec 32) (ValueIdx.ix1 e)).toNat,
    Cert.IdxRange.dst_toNat_lt _ _ _ _ _ (hpre c) e⟩

/-- One entry of the result is the specification's score of its edge, from the facts of the region that wrote it: the
    entry is the region's score of the rows its two table words name (`hres`), the table words are the index inputs'
    words at the edge (`hws`, `hwd`), and the arrays the region reads are the launch memory's feature, weight and bias
    arrays (`hh`, `hW`, `hb`). -/
theorem arm (hpre : PreArgs m) (c : Dev nD) (e : Fin 1000000) (res : EReal) (ws wd : BitVec 32)
    (hws : ws = (m (((0 : Dev nD).tc : Thread nD τ).loc main_arg1) : S1000000.Idx → BitVec 32) (ValueIdx.ix1 e))
    (hwd : wd = (m (((0 : Dev nD).tc : Thread nD τ).loc main_arg2) : S1000000.Idx → BitVec 32) (ValueIdx.ix1 e))
    (h : S100000x1x128.Idx → EReal) (W : S1x256.Idx → EReal) (b : S1x1.Idx → EReal)
    (H : S100000x128.Idx → EReal) (W' : S1x256.Idx → EReal) (B : S1.Idx → EReal)
    (hh : ∀ (r : Fin 100000) (j : Fin 128), h (ValueIdx.ix3 r (0 : Fin 1) j) = H (ValueIdx.ix2 r j))
    (hW : W = W') (hb : b (ValueIdx.ix2 (0 : Fin 1) (0 : Fin 1)) = B (ValueIdx.ix1 (0 : Fin 1)))
    (hres : ∀ rs rd : Fin 100000, ws.toNat = rs.val → wd.toNat = rd.val →
      res = (∑ j : Fin 128, h (ValueIdx.ix3 rs (0 : Fin 1) j) * W (ValueIdx.ix2 (0 : Fin 1) (Cert.Spec.lo j)))
        + (∑ j : Fin 128, h (ValueIdx.ix3 rd (0 : Fin 1) j) * W (ValueIdx.ix2 (0 : Fin 1) (Cert.Spec.hi j)))
        + b (ValueIdx.ix2 (0 : Fin 1) (0 : Fin 1))) :
    res = Cert.Spec.score H W' B (rowS m hpre c e) (rowD m hpre c e) := by
  have hc : c = 0 := Subsingleton.elim _ _
  subst hc
  subst hW
  rw [hres (rowS m hpre 0 e) (rowD m hpre 0 e) (by rw [hws]; rfl) (by rw [hwd]; rfl)]
  have e1 : ∀ (rs : Fin 100000) (col : Fin 128 → Fin 256),
      (∑ j : Fin 128, h (ValueIdx.ix3 rs (0 : Fin 1) j) * W (ValueIdx.ix2 (0 : Fin 1) (col j)))
        = ∑ j : Fin 128, H (ValueIdx.ix2 rs j) * W (ValueIdx.ix2 (0 : Fin 1) (col j)) :=
    fun rs col => Finset.sum_congr rfl fun j _ => by rw [hh]
  rw [e1, e1, hb]
  rfl

/-- Row `62500 * k + t` of a region below the sixteenth is a row of the result. -/
theorem idx_lt (k : Nat) (hk : k < 16) (t : Fin 62500) : 62500 * k + t.val < 1000000 := by
  have := t.isLt
  omega

end Cert.KernelIdeal.Hand
-- ==== Proof.KIHostValue.lean ====
/-
  What the host operations around the sixteen kernel regions hold, read at an index.

  The program runs seventeen stretches of host operations around sixteen kernel regions; between two items core `c`'s
  buffers are the valuations `V0 … V33` of the regions module, written over the launch memory `m` and over what the
  regions leave (`outs`). Two families of facts are read off them here.

  * What a region reads, from the launch memory: the node features with a unit axis inserted, the bias with a unit axis
    inserted, the weights as launched, and the region's two index tables — rows `62500 * k …` of the two table
    arguments.
  * What the program returns, from what the regions wrote: the result array is the sixteen region outputs, each with its
    two unit axes dropped, laid end to end and given a trailing unit axis; row `62500 * k + t` of it is entry `t` of
    region `k`'s output.

  This module states both for regions 0 and 1 (and the result's last piece, which the last stretch reshapes itself),
  with the general lemmas the other regions' statements use.
-/
import proofs.«405368_j31662498906597_2_alg».proof.Proof.RegionsKernelIdeal
import Idealize.ShloMosaic.Lib.StableHlo.Run
import Idealize.ShloMosaic.Lib.ValueIdx
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.ShloMosaic.ValueIdx

variable {F : FTy → Type} [FloatOps F] (m : (ℓ : Loc nD τ sig) → Buf (Elt F) ℓ)

/-! ## The last stretch: the result array read at an index -/

/-- The buffers after the first host operation of the last stretch (the reshape of the last region's output). -/
abbrev W16 (outs : Outs (F := F)) (c : Dev nD) : Valuation τ sig (Elt F) :=
  (StableHlo.reshape main_v64 main_v65 rfl shapeCasts_S62500x1x1_S62500).result (V32 m outs c)

/-- The sixteen pieces the last stretch lays end to end, in order. -/
abbrev tailPieces (outs : Outs (F := F)) (c : Dev nD) : List ((s : Shape) × (s.Idx → Elt F .f32)) :=
  [⟨S62500, (W16 m outs c main_v5 : S62500.Idx → Elt F .f32)⟩,
   ⟨S62500, (W16 m outs c main_v9 : S62500.Idx → Elt F .f32)⟩,
   ⟨S62500, (W16 m outs c main_v13 : S62500.Idx → Elt F .f32)⟩,
   ⟨S62500, (W16 m outs c main_v17 : S62500.Idx → Elt F .f32)⟩,
   ⟨S62500, (W16 m outs c main_v21 : S62500.Idx → Elt F .f32)⟩,
   ⟨S62500, (W16 m outs c main_v25 : S62500.Idx → Elt F .f32)⟩,
   ⟨S62500, (W16 m outs c main_v29 : S62500.Idx → Elt F .f32)⟩,
   ⟨S62500, (W16 m outs c main_v33 : S62500.Idx → Elt F .f32)⟩,
   ⟨S62500, (W16 m outs c main_v37 : S62500.Idx → Elt F .f32)⟩,
   ⟨S62500, (W16 m outs c main_v41 : S62500.Idx → Elt F .f32)⟩,
   ⟨S62500, (W16 m outs c main_v45 : S62500.Idx → Elt F .f32)⟩,
   ⟨S62500, (W16 m outs c main_v49 : S62500.Idx → Elt F .f32)⟩,
   ⟨S62500, (W16 m outs c main_v53 : S62500.Idx → Elt F .f32)⟩,
   ⟨S62500, (W16 m outs c main_v57 : S62500.Idx → Elt F .f32)⟩,
   ⟨S62500, (W16 m outs c main_v61 : S62500.Idx → Elt F .f32)⟩,
   ⟨S62500, (W16 m outs c main_v65 : S62500.Idx → Elt F .f32)⟩]

/-- The program's result array: the sixteen pieces laid end to end, given a trailing unit axis. -/
theorem V33_v67_eq (outs : Outs (F := F)) (c : Dev nD) :
    (V33 m outs c main_v67 : S1000000x1.Idx → Elt F .f32)
      = shapeCast S1000000x1 (concatenate S1000000 0 (tailPieces m outs c) concatenates_S62500_S62500_S62500_S62500_S62500_S62500_S62500_S62500_S62500_S62500_S62500_S62500_S62500_S62500_S62500_S62500_S1000000_d0)
          shapeCasts_S1000000_S1000000x1 := by
  show StableHlo.after hostOps16 _ (Proc.devRef .tc main_v67) = _
  after_results
  rfl

/-- The result array at row `62500 * k + t` is piece `k` at `t`. -/
theorem tail_read (outs : Outs (F := F)) (c : Dev nD) (k : Nat) (hk : k < 16) (t : Fin 62500)
    (x : S62500.Idx → Elt F .f32) (hx : (tailPieces m outs c)[k]'hk = ⟨S62500, x⟩) :
    (V33 m outs c main_v67 : S1000000x1.Idx → Elt F .f32) (ValueIdx.ix2 ⟨62500 * k + t.val, by omega⟩ (0 : Fin 1)) = x (ValueIdx.ix1 t) := by
  rw [V33_v67_eq]
  refine (shapeCast_apply _ _ _ (ValueIdx.ix1 ⟨62500 * k + t.val, by omega⟩) ?_).trans ?_
  · rw [Shape.rowMajor_val_one, Shape.rowMajor_val_two]
    show 62500 * k + t.val = (62500 * k + t.val) * 1 + 0
    omega
  · refine concatenate_apply_piece (t := S1000000) 0 (tailPieces m outs c) _ _ k hk S62500 x hx rfl (62500 * k) ?_ (ValueIdx.ix1 t) ?_ ?_
    · interval_cases k
      all_goals
        simp only [tailPieces, List.take_succ_cons, List.take_zero, List.map_cons, List.map_nil, List.sum_cons,
          List.sum_nil]
      all_goals rfl
    · intro b hb
      exact absurd (Subsingleton.elim _ _) hb
    · rfl

/-! ### The pieces -/

/-- Piece 0 of the result is what region 0 left in `main_v4`, with its two unit axes dropped: stretch 1 reshapes it into
    `main_v5`, and nothing after writes `main_v5`. -/
theorem piece0 (outs : Outs (F := F)) (c : Dev nD) (t : Fin 62500) :
    (W16 m outs c main_v5 : S62500.Idx → Elt F .f32) (ValueIdx.ix1 t)
      = (outs 2 main_v4 c : S62500x1x1.Idx → Elt F .f32) (ValueIdx.ix3 t (0 : Fin 1) (0 : Fin 1)) := by
  have e1 : W16 m outs c main_v5 = V3 m outs c main_v5 :=
    (StableHlo.reshape_result_ne main_v64 main_v65 _ _ _ _ (V32 m outs c) (r := main_v5) (by decide)).trans <|
      (V32_of m outs c main_v5 (by decide)).trans <| (V31_of m outs c main_v5 (by decide)).trans <| (V30_of m outs c main_v5 (by decide)).trans <| (V29_of m outs c main_v5 (by decide)).trans <| (V28_of m outs c main_v5 (by decide)).trans <| (V27_of m outs c main_v5 (by decide)).trans <| (V26_of m outs c main_v5 (by decide)).trans <| (V25_of m outs c main_v5 (by decide)).trans <| (V24_of m outs c main_v5 (by decide)).trans <| (V23_of m outs c main_v5 (by decide)).trans <| (V22_of m outs c main_v5 (by decide)).trans <| (V21_of m outs c main_v5 (by decide)).trans <| (V20_of m outs c main_v5 (by decide)).trans <| (V19_of m outs c main_v5 (by decide)).trans <| (V18_of m outs c main_v5 (by decide)).trans <| (V17_of m outs c main_v5 (by decide)).trans <| (V16_of m outs c main_v5 (by decide)).trans <| (V15_of m outs c main_v5 (by decide)).trans <| (V14_of m outs c main_v5 (by decide)).trans <| (V13_of m outs c main_v5 (by decide)).trans <| (V12_of m outs c main_v5 (by decide)).trans <| (V11_of m outs c main_v5 (by decide)).trans <| (V10_of m outs c main_v5 (by decide)).trans <| (V9_of m outs c main_v5 (by decide)).trans <| (V8_of m outs c main_v5 (by decide)).trans <| (V7_of m outs c main_v5 (by decide)).trans <| (V6_of m outs c main_v5 (by decide)).trans <| (V5_of m outs c main_v5 (by decide)).trans <| (V4_of m outs c main_v5 (by decide))
  have e2 : (V3 m outs c main_v5 : S62500.Idx → Elt F .f32)
      = shapeCast S62500 (V2 m outs c main_v4 : S62500x1x1.Idx → Elt F .f32) shapeCasts_S62500x1x1_S62500 := by
    show StableHlo.after hostOps1 _ (Proc.devRef .tc main_v5) = _
    after_results
    rfl
  have e3 : V2 m outs c main_v4 = outs 2 main_v4 c := Function.update_self ..
  rw [e1, e2, e3]
  refine shapeCast_apply _ _ _ (ValueIdx.ix3 t (0 : Fin 1) (0 : Fin 1)) ?_
  rw [Shape.rowMajor_val_three, Shape.rowMajor_val_one]
  show (t.val * 1 + 0) * 1 + 0 = t.val
  omega

/-- Rows `62500 * 0 + t` of the program's result are what region 0 left in `main_v4`. -/
theorem tail0_at (outs : Outs (F := F)) (c : Dev nD) (t : Fin 62500) :
    (V33 m outs c main_v67 : S1000000x1.Idx → Elt F .f32) (ValueIdx.ix2 ⟨62500 * 0 + t.val, by omega⟩ (0 : Fin 1))
      = (outs 2 main_v4 c : S62500x1x1.Idx → Elt F .f32) (ValueIdx.ix3 t (0 : Fin 1) (0 : Fin 1)) :=
  (tail_read m outs c 0 (by decide) t _ rfl).trans (piece0 m outs c t)

/-- Piece 1 of the result is what region 1 left in `main_v8`, with its two unit axes dropped: stretch 2 reshapes it into
    `main_v9`, and nothing after writes `main_v9`. -/
theorem piece1 (outs : Outs (F := F)) (c : Dev nD) (t : Fin 62500) :
    (W16 m outs c main_v9 : S62500.Idx → Elt F .f32) (ValueIdx.ix1 t)
      = (outs 4 main_v8 c : S62500x1x1.Idx → Elt F .f32) (ValueIdx.ix3 t (0 : Fin 1) (0 : Fin 1)) := by
  have e1 : W16 m outs c main_v9 = V5 m outs c main_v9 :=
    (StableHlo.reshape_result_ne main_v64 main_v65 _ _ _ _ (V32 m outs c) (r := main_v9) (by decide)).trans <|
      (V32_of m outs c main_v9 (by decide)).trans <| (V31_of m outs c main_v9 (by decide)).trans <| (V30_of m outs c main_v9 (by decide)).trans <| (V29_of m outs c main_v9 (by decide)).trans <| (V28_of m outs c main_v9 (by decide)).trans <| (V27_of m outs c main_v9 (by decide)).trans <| (V26_of m outs c main_v9 (by decide)).trans <| (V25_of m outs c main_v9 (by decide)).trans <| (V24_of m outs c main_v9 (by decide)).trans <| (V23_of m outs c main_v9 (by decide)).trans <| (V22_of m outs c main_v9 (by decide)).trans <| (V21_of m outs c main_v9 (by decide)).trans <| (V20_of m outs c main_v9 (by decide)).trans <| (V19_of m outs c main_v9 (by decide)).trans <| (V18_of m outs c main_v9 (by decide)).trans <| (V17_of m outs c main_v9 (by decide)).trans <| (V16_of m outs c main_v9 (by decide)).trans <| (V15_of m outs c main_v9 (by decide)).trans <| (V14_of m outs c main_v9 (by decide)).trans <| (V13_of m outs c main_v9 (by decide)).trans <| (V12_of m outs c main_v9 (by decide)).trans <| (V11_of m outs c main_v9 (by decide)).trans <| (V10_of m outs c main_v9 (by decide)).trans <| (V9_of m outs c main_v9 (by decide)).trans <| (V8_of m outs c main_v9 (by decide)).trans <| (V7_of m outs c main_v9 (by decide)).trans <| (V6_of m outs c main_v9 (by decide))
  have e2 : (V5 m outs c main_v9 : S62500.Idx → Elt F .f32)
      = shapeCast S62500 (V4 m outs c main_v8 : S62500x1x1.Idx → Elt F .f32) shapeCasts_S62500x1x1_S62500 := by
    show StableHlo.after hostOps2 _ (Proc.devRef .tc main_v9) = _
    after_results
    rfl
  have e3 : V4 m outs c main_v8 = outs 4 main_v8 c := Function.update_self ..
  rw [e1, e2, e3]
  refine shapeCast_apply _ _ _ (ValueIdx.ix3 t (0 : Fin 1) (0 : Fin 1)) ?_
  rw [Shape.rowMajor_val_three, Shape.rowMajor_val_one]
  show (t.val * 1 + 0) * 1 + 0 = t.val
  omega

/-- Rows `62500 * 1 + t` of the program's result are what region 1 left in `main_v8`. -/
theorem tail1_at (outs : Outs (F := F)) (c : Dev nD) (t : Fin 62500) :
    (V33 m outs c main_v67 : S1000000x1.Idx → Elt F .f32) (ValueIdx.ix2 ⟨62500 * 1 + t.val, by omega⟩ (0 : Fin 1))
      = (outs 4 main_v8 c : S62500x1x1.Idx → Elt F .f32) (ValueIdx.ix3 t (0 : Fin 1) (0 : Fin 1)) :=
  (tail_read m outs c 1 (by decide) t _ rfl).trans (piece1 m outs c t)

/-- The last piece of the result is what region 15 left in `main_v64`, with its two unit axes dropped: the last stretch itself
    reshapes it into `main_v65`. -/
theorem piece15 (outs : Outs (F := F)) (c : Dev nD) (t : Fin 62500) :
    (W16 m outs c main_v65 : S62500.Idx → Elt F .f32) (ValueIdx.ix1 t)
      = (outs 32 main_v64 c : S62500x1x1.Idx → Elt F .f32) (ValueIdx.ix3 t (0 : Fin 1) (0 : Fin 1)) := by
  have e2 : (W16 m outs c main_v65 : S62500.Idx → Elt F .f32)
      = shapeCast S62500 (V32 m outs c main_v64 : S62500x1x1.Idx → Elt F .f32) shapeCasts_S62500x1x1_S62500 := by
    show (StableHlo.reshape main_v64 main_v65 _ _ _ _).result _ (Proc.devRef .tc main_v65) = _
    rw [StableHlo.reshape_result]
    rfl
  have e3 : V32 m outs c main_v64 = outs 32 main_v64 c := Function.update_self ..
  rw [e2, e3]
  refine shapeCast_apply _ _ _ (ValueIdx.ix3 t (0 : Fin 1) (0 : Fin 1)) ?_
  rw [Shape.rowMajor_val_three, Shape.rowMajor_val_one]
  show (t.val * 1 + 0) * 1 + 0 = t.val
  omega

/-- Rows `62500 * 15 + t` of the program's result are what region 15 left in `main_v64`. -/
theorem tail15_at (outs : Outs (F := F)) (c : Dev nD) (t : Fin 62500) :
    (V33 m outs c main_v67 : S1000000x1.Idx → Elt F .f32) (ValueIdx.ix2 ⟨62500 * 15 + t.val, by omega⟩ (0 : Fin 1))
      = (outs 32 main_v64 c : S62500x1x1.Idx → Elt F .f32) (ValueIdx.ix3 t (0 : Fin 1) (0 : Fin 1)) :=
  (tail_read m outs c 15 (by decide) t _ rfl).trans (piece15 m outs c t)

/-! ## What the regions read

Every region reads the node features `main_v1` (the argument `main_arg0` with a unit axis inserted), the weights
`main_arg3`, the bias `main_v0` (the argument `main_arg4` with a unit axis inserted) and its own two index tables, the
region's 62500 rows of the arguments `main_arg1` and `main_arg2`. The first stretch writes the first three and region 0's
tables; stretch `k` writes region `k`'s tables; nothing else writes any of them, nor an argument. -/

/-- The reshaped node features after the first stretch, at an index. -/
theorem V1_h (c : Dev nD) (r : Fin 100000) (j : Fin 128) :
    (V1 m c main_v1 : S100000x1x128.Idx → Elt F .f32) (ValueIdx.ix3 r (0 : Fin 1) j)
      = (m ((c : Thread nD τ).loc main_arg0) : S100000x128.Idx → Elt F .f32) (ValueIdx.ix2 r j) := by
  have e : (V1 m c main_v1 : S100000x1x128.Idx → Elt F .f32)
      = shapeCast S100000x1x128 (m ((c : Thread nD τ).loc main_arg0) : S100000x128.Idx → Elt F .f32)
          shapeCasts_S100000x128_S100000x1x128 := by
    show StableHlo.after hostOps0 _ (Proc.devRef .tc main_v1) = _
    after_results
    rfl
  rw [e]
  refine shapeCast_apply _ _ _ (ValueIdx.ix2 r j) ?_
  rw [Shape.rowMajor_val_two, Shape.rowMajor_val_three]
  show r.val * 128 + j.val = (r.val * 1 + 0) * 128 + j.val
  omega

/-- The reshaped bias after the first stretch, at its one index. -/
theorem V1_b (c : Dev nD) :
    (V1 m c main_v0 : S1x1.Idx → Elt F .f32) (ValueIdx.ix2 (0 : Fin 1) (0 : Fin 1))
      = (m ((c : Thread nD τ).loc main_arg4) : S1.Idx → Elt F .f32) (ValueIdx.ix1 (0 : Fin 1)) := by
  have e : (V1 m c main_v0 : S1x1.Idx → Elt F .f32)
      = shapeCast S1x1 (m ((c : Thread nD τ).loc main_arg4) : S1.Idx → Elt F .f32) shapeCasts_S1_S1x1 := by
    show StableHlo.after hostOps0 _ (Proc.devRef .tc main_v0) = _
    after_results
    rfl
  rw [e]
  refine shapeCast_apply _ _ _ (ValueIdx.ix1 (0 : Fin 1)) ?_
  rw [Shape.rowMajor_val_one, Shape.rowMajor_val_two]
  rfl

/-- A unit-stride slice of 62500 rows from row `62500 * k` of a table of 1000000, at an index. -/
theorem slice_read {α : Type} (x : S1000000.Idx → α) (k off : Nat) (hoff : off = 62500 * k)
    (h : S1000000.Slices ![off] S62500) (t : Fin 62500) (hlt : 62500 * k + t.val < 1000000) :
    extractStridedSlice S62500 ![off] x h (ValueIdx.ix1 t) = x (ValueIdx.ix1 ⟨62500 * k + t.val, hlt⟩) :=
  extractStridedSlice_apply _ _ _ _ _ fun a => match a with
    | ⟨0, _⟩ => by show 62500 * k + t.val = off + t.val; omega

/-! ### Region 0 -/

theorem ent0_h (c : Dev nD) (r : Fin 100000) (j : Fin 128) :
    (V1 m c main_v1 : S100000x1x128.Idx → Elt F .f32) (ValueIdx.ix3 r (0 : Fin 1) j)
      = (m ((c : Thread nD τ).loc main_arg0) : S100000x128.Idx → Elt F .f32) (ValueIdx.ix2 r j) := V1_h m c r j

theorem ent0_b (c : Dev nD) :
    (V1 m c main_v0 : S1x1.Idx → Elt F .f32) (ValueIdx.ix2 (0 : Fin 1) (0 : Fin 1))
      = (m ((c : Thread nD τ).loc main_arg4) : S1.Idx → Elt F .f32) (ValueIdx.ix1 (0 : Fin 1)) := V1_b m c

theorem ent0_W (c : Dev nD) : V1 m c main_arg3 = m ((c : Thread nD τ).loc main_arg3) :=
  V1_of m c main_arg3 (by decide)

theorem ent0_src (c : Dev nD) (t : Fin 62500) :
    (V1 m c main_v2 : S62500.Idx → Elt F .i32) (ValueIdx.ix1 t)
      = (m ((c : Thread nD τ).loc main_arg1) : S1000000.Idx → Elt F .i32) (ValueIdx.ix1 ⟨62500 * 0 + t.val, by omega⟩) := by
  have e : (V1 m c main_v2 : S62500.Idx → Elt F .i32)
      = extractStridedSlice S62500 ![0] (m ((c : Thread nD τ).loc main_arg1) : S1000000.Idx → Elt F .i32) slices_S1000000_S62500_0 := by
    show StableHlo.after hostOps0 _ (Proc.devRef .tc main_v2) = _
    after_results
  rw [e]
  exact slice_read _ 0 0 (by decide) _ t _

theorem ent0_dst (c : Dev nD) (t : Fin 62500) :
    (V1 m c main_v3 : S62500.Idx → Elt F .i32) (ValueIdx.ix1 t)
      = (m ((c : Thread nD τ).loc main_arg2) : S1000000.Idx → Elt F .i32) (ValueIdx.ix1 ⟨62500 * 0 + t.val, by omega⟩) := by
  have e : (V1 m c main_v3 : S62500.Idx → Elt F .i32)
      = extractStridedSlice S62500 ![0] (m ((c : Thread nD τ).loc main_arg2) : S1000000.Idx → Elt F .i32) slices_S1000000_S62500_0 := by
    show StableHlo.after hostOps0 _ (Proc.devRef .tc main_v3) = _
    after_results
  rw [e]
  exact slice_read _ 0 0 (by decide) _ t _

/-! ### Region 1 -/

/-- Nothing up to region 1 writes the reshaped node features. -/
theorem keep1_h (outs : Outs (F := F)) (c : Dev nD) : V3 m outs c main_v1 = V1 m c main_v1 :=
  (V3_of m outs c main_v1 (by decide)).trans (V2_of m outs c main_v1 (by decide))

/-- Nothing up to region 1 writes the reshaped bias. -/
theorem keep1_b (outs : Outs (F := F)) (c : Dev nD) : V3 m outs c main_v0 = V1 m c main_v0 :=
  (V3_of m outs c main_v0 (by decide)).trans (V2_of m outs c main_v0 (by decide))

/-- The first table argument when stretch 1 starts is as launched. -/
theorem keep1_arg1 (outs : Outs (F := F)) (c : Dev nD) : V2 m outs c main_arg1 = m ((c : Thread nD τ).loc main_arg1) :=
  (V2_of m outs c main_arg1 (by decide)).trans <| (V1_of m c main_arg1 (by decide))

/-- The second table argument when stretch 1 starts is as launched. -/
theorem keep1_arg2 (outs : Outs (F := F)) (c : Dev nD) : V2 m outs c main_arg2 = m ((c : Thread nD τ).loc main_arg2) :=
  (V2_of m outs c main_arg2 (by decide)).trans <| (V1_of m c main_arg2 (by decide))

theorem ent1_h (outs : Outs (F := F)) (c : Dev nD) (r : Fin 100000) (j : Fin 128) :
    (V3 m outs c main_v1 : S100000x1x128.Idx → Elt F .f32) (ValueIdx.ix3 r (0 : Fin 1) j)
      = (m ((c : Thread nD τ).loc main_arg0) : S100000x128.Idx → Elt F .f32) (ValueIdx.ix2 r j) := by
  rw [keep1_h]
  exact V1_h m c r j

theorem ent1_b (outs : Outs (F := F)) (c : Dev nD) :
    (V3 m outs c main_v0 : S1x1.Idx → Elt F .f32) (ValueIdx.ix2 (0 : Fin 1) (0 : Fin 1))
      = (m ((c : Thread nD τ).loc main_arg4) : S1.Idx → Elt F .f32) (ValueIdx.ix1 (0 : Fin 1)) := by
  rw [keep1_b]
  exact V1_b m c

theorem ent1_W (outs : Outs (F := F)) (c : Dev nD) : V3 m outs c main_arg3 = m ((c : Thread nD τ).loc main_arg3) :=
  (V3_of m outs c main_arg3 (by decide)).trans <| (V2_of m outs c main_arg3 (by decide)).trans <| ent0_W m c

theorem ent1_src (outs : Outs (F := F)) (c : Dev nD) (t : Fin 62500) :
    (V3 m outs c main_v6 : S62500.Idx → Elt F .i32) (ValueIdx.ix1 t)
      = (m ((c : Thread nD τ).loc main_arg1) : S1000000.Idx → Elt F .i32) (ValueIdx.ix1 ⟨62500 * 1 + t.val, by omega⟩) := by
  have e : (V3 m outs c main_v6 : S62500.Idx → Elt F .i32)
      = extractStridedSlice S62500 ![62500] (V2 m outs c main_arg1 : S1000000.Idx → Elt F .i32)
          slices_S1000000_S62500_62500 := by
    show StableHlo.after hostOps1 _ (Proc.devRef .tc main_v6) = _
    after_results
  rw [e, keep1_arg1]
  exact slice_read _ 1 62500 (by decide) _ t _

theorem ent1_dst (outs : Outs (F := F)) (c : Dev nD) (t : Fin 62500) :
    (V3 m outs c main_v7 : S62500.Idx → Elt F .i32) (ValueIdx.ix1 t)
      = (m ((c : Thread nD τ).loc main_arg2) : S1000000.Idx → Elt F .i32) (ValueIdx.ix1 ⟨62500 * 1 + t.val, by omega⟩) := by
  have e : (V3 m outs c main_v7 : S62500.Idx → Elt F .i32)
      = extractStridedSlice S62500 ![62500] (V2 m outs c main_arg2 : S1000000.Idx → Elt F .i32)
          slices_S1000000_S62500_62500 := by
    show StableHlo.after hostOps1 _ (Proc.devRef .tc main_v7) = _
    after_results
  rw [e, keep1_arg2]
  exact slice_read _ 1 62500 (by decide) _ t _

end Cert.KernelIdeal.Hand
-- ==== Proof.KIHostValueGen.lean ====
/-
  For the regions 2 … 15, the statements `KIHostValue` gives for regions 0 and 1: what region `k` reads, from the
  launch memory (`ent<k>_h`, `ent<k>_b`, `ent<k>_W`, `ent<k>_src`, `ent<k>_dst`), and rows `62500 * k + t` of the program's
  result, from what region `k` wrote (`tail<k>_at`; the last piece, region 15's, is in `KIHostValue`).
-/
import proofs.«405368_j31662498906597_2_alg».proof.Proof.KIHostValue

set_option maxRecDepth 16384

noncomputable section

namespace Cert.KernelIdeal.Hand

open Cert.KernelIdeal Cert.KernelIdeal.Gen Idealize.ShloMosaic Idealize.ShloMosaic.TcCoe Idealize.ShloMosaic.ValueIdx

variable {F : FTy → Type} [FloatOps F] (m : (ℓ : Loc nD τ sig) → Buf (Elt F) ℓ)

/-! ## The result array's pieces 2 … 14 -/

/-- Piece 2 of the result is what region 2 left in `main_v12`, with its two unit axes dropped: stretch 3 reshapes it into
    `main_v13`, and nothing after writes `main_v13`. -/
theorem piece2 (outs : Outs (F := F)) (c : Dev nD) (t : Fin 62500) :
    (W16 m outs c main_v13 : S62500.Idx → Elt F .f32) (ValueIdx.ix1 t)
      = (outs 6 main_v12 c : S62500x1x1.Idx → Elt F .f32) (ValueIdx.ix3 t (0 : Fin 1) (0 : Fin 1)) := by
  have e1 : W16 m outs c main_v13 = V7 m outs c main_v13 :=
    (StableHlo.reshape_result_ne main_v64 main_v65 _ _ _ _ (V32 m outs c) (r := main_v13) (by decide)).trans <|
      (V32_of m outs c main_v13 (by decide)).trans <| (V31_of m outs c main_v13 (by decide)).trans <| (V30_of m outs c main_v13 (by decide)).trans <| (V29_of m outs c main_v13 (by decide)).trans <| (V28_of m outs c main_v13 (by decide)).trans <| (V27_of m outs c main_v13 (by decide)).trans <| (V26_of m outs c main_v13 (by decide)).trans <| (V25_of m outs c main_v13 (by decide)).trans <| (V24_of m outs c main_v13 (by decide)).trans <| (V23_of m outs c main_v13 (by decide)).trans <| (V22_of m outs c main_v13 (by decide)).trans <| (V21_of m outs c main_v13 (by decide)).trans <| (V20_of m outs c main_v13 (by decide)).trans <| (V19_of m outs c main_v13 (by decide)).trans <| (V18_of m outs c main_v13 (by decide)).trans <| (V17_of m outs c main_v13 (by decide)).trans <| (V16_of m outs c main_v13 (by decide)).trans <| (V15_of m outs c main_v13 (by decide)).trans <| (V14_of m outs c main_v13 (by decide)).trans <| (V13_of m outs c main_v13 (by decide)).trans <| (V12_of m outs c main_v13 (by decide)).trans <| (V11_of m outs c main_v13 (by decide)).trans <| (V10_of m outs c main_v13 (by decide)).trans <| (V9_of m outs c main_v13 (by decide)).trans <| (V8_of m outs c main_v13 (by decide))
  have e2 : (V7 m outs c main_v13 : S62500.Idx → Elt F .f32)
      = shapeCast S62500 (V6 m outs c main_v12 : S62500x1x1.Idx → Elt F .f32) shapeCasts_S62500x1x1_S62500 := by
    show StableHlo.after hostOps3 _ (Proc.devRef .tc main_v13) = _
    after_results
    rfl
  have e3 : V6 m outs c main_v12 = outs 6 main_v12 c := Function.update_self ..
  rw [e1, e2, e3]
  refine shapeCast_apply _ _ _ (ValueIdx.ix3 t (0 : Fin 1) (0 : Fin 1)) ?_
  rw [Shape.rowMajor_val_three, Shape.rowMajor_val_one]
  show (t.val * 1 + 0) * 1 + 0 = t.val
  omega

/-- Rows `62500 * 2 + t` of the program's result are what region 2 left in `main_v12`. -/
theorem tail2_at (outs : Outs (F := F)) (c : Dev nD) (t : Fin 62500) :
    (V33 m outs c main_v67 : S1000000x1.Idx → Elt F .f32) (ValueIdx.ix2 ⟨62500 * 2 + t.val, by omega⟩ (0 : Fin 1))
      = (outs 6 main_v12 c : S62500x1x1.Idx → Elt F .f32) (ValueIdx.ix3 t (0 : Fin 1) (0 : Fin 1)) :=
  (tail_read m outs c 2 (by decide) t _ rfl).trans (piece2 m outs c t)

/-- Piece 3 of the result is what region 3 left in `main_v16`, with its two unit axes dropped: stretch 4 reshapes it into
    `main_v17`, and nothing after writes `main_v17`. -/
theorem piece3 (outs : Outs (F := F)) (c : Dev nD) (t : Fin 62500) :
    (W16 m outs c main_v17 : S62500.Idx → Elt F .f32) (ValueIdx.ix1 t)
      = (outs 8 main_v16 c : S62500x1x1.Idx → Elt F .f32) (ValueIdx.ix3 t (0 : Fin 1) (0 : Fin 1)) := by
  have e1 : W16 m outs c main_v17 = V9 m outs c main_v17 :=
    (StableHlo.reshape_result_ne main_v64 main_v65 _ _ _ _ (V32 m outs c) (r := main_v17) (by decide)).trans <|
      (V32_of m outs c main_v17 (by decide)).trans <| (V31_of m outs c main_v17 (by decide)).trans <| (V30_of m outs c main_v17 (by decide)).trans <| (V29_of m outs c main_v17 (by decide)).trans <| (V28_of m outs c main_v17 (by decide)).trans <| (V27_of m outs c main_v17 (by decide)).trans <| (V26_of m outs c main_v17 (by decide)).trans <| (V25_of m outs c main_v17 (by decide)).trans <| (V24_of m outs c main_v17 (by decide)).trans <| (V23_of m outs c main_v17 (by decide)).trans <| (V22_of m outs c main_v17 (by decide)).trans <| (V21_of m outs c main_v17 (by decide)).trans <| (V20_of m outs c main_v17 (by decide)).trans <| (V19_of m outs c main_v17 (by decide)).trans <| (V18_of m outs c main_v17 (by decide)).trans <| (V17_of m outs c main_v17 (by decide)).trans <| (V16_of m outs c main_v17 (by decide)).trans <| (V15_of m outs c main_v17 (by decide)).trans <| (V14_of m outs c main_v17 (by decide)).trans <| (V13_of m outs c main_v17 (by decide)).trans <| (V12_of m outs c main_v17 (by decide)).trans <| (V11_of m outs c main_v17 (by decide)).trans <| (V10_of m outs c main_v17 (by decide))
  have e2 : (V9 m outs c main_v17 : S62500.Idx → Elt F .f32)
      = shapeCast S62500 (V8 m outs c main_v16 : S62500x1x1.Idx → Elt F .f32) shapeCasts_S62500x1x1_S62500 := by
    show StableHlo.after hostOps4 _ (Proc.devRef .tc main_v17) = _
    after_results
    rfl
  have e3 : V8 m outs c main_v16 = outs 8 main_v16 c := Function.update_self ..
  rw [e1, e2, e3]
  refine shapeCast_apply _ _ _ (ValueIdx.ix3 t (0 : Fin 1) (0 : Fin 1)) ?_
  rw [Shape.rowMajor_val_three, Shape.rowMajor_val_one]
  show (t.val * 1 + 0) * 1 + 0 = t.val
  omega

/-- Rows `62500 * 3 + t` of the program's result are what region 3 left in `main_v16`. -/
theorem tail3_at (outs : Outs (F := F)) (c : Dev nD) (t : Fin 62500) :
    (V33 m outs c main_v67 : S1000000x1.Idx → Elt F .f32) (ValueIdx.ix2 ⟨62500 * 3 + t.val, by omega⟩ (0 : Fin 1))
      = (outs 8 main_v16 c : S62500x1x1.Idx → Elt F .f32) (ValueIdx.ix3 t (0 : Fin 1) (0 : Fin 1)) :=
  (tail_read m outs c 3 (by decide) t _ rfl).trans (piece3 m outs c t)

/-- Piece 4 of the result is what region 4 left in `main_v20`, with its two unit axes dropped: stretch 5 reshapes it into
    `main_v21`, and nothing after writes `main_v21`. -/
theorem piece4 (outs : Outs (F := F)) (c : Dev nD) (t : Fin 62500) :
    (W16 m outs c main_v21 : S62500.Idx → Elt F .f32) (ValueIdx.ix1 t)
      = (outs 10 main_v20 c : S62500x1x1.Idx → Elt F .f32) (ValueIdx.ix3 t (0 : Fin 1) (0 : Fin 1)) := by
  have e1 : W16 m outs c main_v21 = V11 m outs c main_v21 :=
    (StableHlo.reshape_result_ne main_v64 main_v65 _ _ _ _ (V32 m outs c) (r := main_v21) (by decide)).trans <|
      (V32_of m outs c main_v21 (by decide)).trans <| (V31_of m outs c main_v21 (by decide)).trans <| (V30_of m outs c main_v21 (by decide)).trans <| (V29_of m outs c main_v21 (by decide)).trans <| (V28_of m outs c main_v21 (by decide)).trans <| (V27_of m outs c main_v21 (by decide)).trans <| (V26_of m outs c main_v21 (by decide)).trans <| (V25_of m outs c main_v21 (by decide)).trans <| (V24_of m outs c main_v21 (by decide)).trans <| (V23_of m outs c main_v21 (by decide)).trans <| (V22_of m outs c main_v21 (by decide)).trans <| (V21_of m outs c main_v21 (by decide)).trans <| (V20_of m outs c main_v21 (by decide)).trans <| (V19_of m outs c main_v21 (by decide)).trans <| (V18_of m outs c main_v21 (by decide)).trans <| (V17_of m outs c main_v21 (by decide)).trans <| (V16_of m outs c main_v21 (by decide)).trans <| (V15_of m outs c main_v21 (by decide)).trans <| (V14_of m outs c main_v21 (by decide)).trans <| (V13_of m outs c main_v21 (by decide)).trans <| (V12_of m outs c main_v21 (by decide))
  have e2 : (V11 m outs c main_v21 : S62500.Idx → Elt F .f32)
      = shapeCast S62500 (V10 m outs c main_v20 : S62500x1x1.Idx → Elt F .f32) shapeCasts_S62500x1x1_S62500 := by
    show StableHlo.after hostOps5 _ (Proc.devRef .tc main_v21) = _
    after_results
    rfl
  have e3 : V10 m outs c main_v20 = outs 10 main_v20 c := Function.update_self ..
  rw [e1, e2, e3]
  refine shapeCast_apply _ _ _ (ValueIdx.ix3 t (0 : Fin 1) (0 : Fin 1)) ?_
  rw [Shape.rowMajor_val_three, Shape.rowMajor_val_one]
  show (t.val * 1 + 0) * 1 + 0 = t.val
  omega

/-- Rows `62500 * 4 + t` of the program's result are what region 4 left in `main_v20`. -/
theorem tail4_at (outs : Outs (F := F)) (c : Dev nD) (t : Fin 62500) :
    (V33 m outs c main_v67 : S1000000x1.Idx → Elt F .f32) (ValueIdx.ix2 ⟨62500 * 4 + t.val, by omega⟩ (0 : Fin 1))
      = (outs 10 main_v20 c : S62500x1x1.Idx → Elt F .f32) (ValueIdx.ix3 t (0 : Fin 1) (0 : Fin 1)) :=
  (tail_read m outs c 4 (by decide) t _ rfl).trans (piece4 m outs c t)

/-- Piece 5 of the result is what region 5 left in `main_v24`, with its two unit axes dropped: stretch 6 reshapes it into
    `main_v25`, and nothing after writes `main_v25`. -/
theorem piece5 (outs : Outs (F := F)) (c : Dev nD) (t : Fin 62500) :
    (W16 m outs c main_v25 : S62500.Idx → Elt F .f32) (ValueIdx.ix1 t)
      = (outs 12 main_v24 c : S62500x1x1.Idx → Elt F .f32) (ValueIdx.ix3 t (0 : Fin 1) (0 : Fin 1)) := by
  have e1 : W16 m outs c main_v25 = V13 m outs c main_v25 :=
    (StableHlo.reshape_result_ne main_v64 main_v65 _ _ _ _ (V32 m outs c) (r := main_v25) (by decide)).trans <|
      (V32_of m outs c main_v25 (by decide)).trans <| (V31_of m outs c main_v25 (by decide)).trans <| (V30_of m outs c main_v25 (by decide)).trans <| (V29_of m outs c main_v25 (by decide)).trans <| (V28_of m outs c main_v25 (by decide)).trans <| (V27_of m outs c main_v25 (by decide)).trans <| (V26_of m outs c main_v25 (by decide)).trans <| (V25_of m outs c main_v25 (by decide)).trans <| (V24_of m outs c main_v25 (by decide)).trans <| (V23_of m outs c main_v25 (by decide)).trans <| (V22_of m outs c main_v25 (by decide)).trans <| (V21_of m outs c main_v25 (by decide)).trans <| (V20_of m outs c main_v25 (by decide)).trans <| (V19_of m outs c main_v25 (by decide)).trans <| (V18_of m outs c main_v25 (by decide)).trans <| (V17_of m outs c main_v25 (by decide)).trans <| (V16_of m outs c main_v25 (by decide)).trans <| (V15_of m outs c main_v25 (by decide)).trans <| (V14_of m outs c main_v25 (by decide))
  have e2 : (V13 m outs c main_v25 : S62500.Idx → Elt F .f32)
      = shapeCast S62500 (V12 m outs c main_v24 : S62500x1x1.Idx → Elt F .f32) shapeCasts_S62500x1x1_S62500 := by
    show StableHlo.after hostOps6 _ (Proc.devRef .tc main_v25) = _
    after_results
    rfl
  have e3 : V12 m outs c main_v24 = outs 12 main_v24 c := Function.update_self ..
  rw [e1, e2, e3]
  refine shapeCast_apply _ _ _ (ValueIdx.ix3 t (0 : Fin 1) (0 : Fin 1)) ?_
  rw [Shape.rowMajor_val_three, Shape.rowMajor_val_one]
  show (t.val * 1 + 0) * 1 + 0 = t.val
  omega

/-- Rows `62500 * 5 + t` of the program's result are what region 5 left in `main_v24`. -/
theorem tail5_at (outs : Outs (F := F)) (c : Dev nD) (t : Fin 62500) :
    (V33 m outs c main_v67 : S1000000x1.Idx → Elt F .f32) (ValueIdx.ix2 ⟨62500 * 5 + t.val, by omega⟩ (0 : Fin 1))
      = (outs 12 main_v24 c : S62500x1x1.Idx → Elt F .f32) (ValueIdx.ix3 t (0 : Fin 1) (0 : Fin 1)) :=
  (tail_read m outs c 5 (by decide) t _ rfl).trans (piece5 m outs c t)

/-- Piece 6 of the result is what region 6 left in `main_v28`, with its two unit axes dropped: stretch 7 reshapes it into
    `main_v29`, and nothing after writes `main_v29`. -/
theorem piece6 (outs : Outs (F := F)) (c : Dev nD) (t : Fin 62500) :
    (W16 m outs c main_v29 : S62500.Idx → Elt F .f32) (ValueIdx.ix1 t)
      = (outs 14 main_v28 c : S62500x1x1.Idx → Elt F .f32) (ValueIdx.ix3 t (0 : Fin 1) (0 : Fin 1)) := by
  have e1 : W16 m outs c main_v29 = V15 m outs c main_v29 :=
    (StableHlo.reshape_result_ne main_v64 main_v65 _ _ _ _ (V32 m outs c) (r := main_v29) (by decide)).trans <|
      (V32_of m outs c main_v29 (by decide)).trans <| (V31_of m outs c main_v29 (by decide)).trans <| (V30_of m outs c main_v29 (by decide)).trans <| (V29_of m outs c main_v29 (by decide)).trans <| (V28_of m outs c main_v29 (by decide)).trans <| (V27_of m outs c main_v29 (by decide)).trans <| (V26_of m outs c main_v29 (by decide)).trans <| (V25_of m outs c main_v29 (by decide)).trans <| (V24_of m outs c main_v29 (by decide)).trans <| (V23_of m outs c main_v29 (by decide)).trans <| (V22_of m outs c main_v29 (by decide)).trans <| (V21_of m outs c main_v29 (by decide)).trans <| (V20_of m outs c main_v29 (by decide)).trans <| (V19_of m outs c main_v29 (by decide)).trans <| (V18_of m outs c main_v29 (by decide)).trans <| (V17_of m outs c main_v29 (by decide)).trans <| (V16_of m outs c main_v29 (by decide))
  have e2 : (V15 m outs c main_v29 : S62500.Idx → Elt F .f32)
      = shapeCast S62500 (V14 m outs c main_v28 : S62500x1x1.Idx → Elt F .f32) shapeCasts_S62500x1x1_S62500 := by
    show StableHlo.after hostOps7 _ (Proc.devRef .tc main_v29) = _
    after_results
    rfl
  have e3 : V14 m outs c main_v28 = outs 14 main_v28 c := Function.update_self ..
  rw [e1, e2, e3]
  refine shapeCast_apply _ _ _ (ValueIdx.ix3 t (0 : Fin 1) (0 : Fin 1)) ?_
  rw [Shape.rowMajor_val_three, Shape.rowMajor_val_one]
  show (t.val * 1 + 0) * 1 + 0 = t.val
  omega

/-- Rows `62500 * 6 + t` of the program's result are what region 6 left in `main_v28`. -/
theorem tail6_at (outs : Outs (F := F)) (c : Dev nD) (t : Fin 62500) :
    (V33 m outs c main_v67 : S1000000x1.Idx → Elt F .f32) (ValueIdx.ix2 ⟨62500 * 6 + t.val, by omega⟩ (0 : Fin 1))
      = (outs 14 main_v28 c : S62500x1x1.Idx → Elt F .f32) (ValueIdx.ix3 t (0 : Fin 1) (0 : Fin 1)) :=
  (tail_read m outs c 6 (by decide) t _ rfl).trans (piece6 m outs c t)

/-- Piece 7 of the result is what region 7 left in `main_v32`, with its two unit axes dropped: stretch 8 reshapes it into
    `main_v33`, and nothing after writes `main_v33`. -/
theorem piece7 (outs : Outs (F := F)) (c : Dev nD) (t : Fin 62500) :
    (W16 m outs c main_v33 : S62500.Idx → Elt F .f32) (ValueIdx.ix1 t)
      = (outs 16 main_v32 c : S62500x1x1.Idx → Elt F .f32) (ValueIdx.ix3 t (0 : Fin 1) (0 : Fin 1)) := by
  have e1 : W16 m outs c main_v33 = V17 m outs c main_v33 :=
    (StableHlo.reshape_result_ne main_v64 main_v65 _ _ _ _ (V32 m outs c) (r := main_v33) (by decide)).trans <|
      (V32_of m outs c main_v33 (by decide)).trans <| (V31_of m outs c main_v33 (by decide)).trans <| (V30_of m outs c main_v33 (by decide)).trans <| (V29_of m outs c main_v33 (by decide)).trans <| (V28_of m outs c main_v33 (by decide)).trans <| (V27_of m outs c main_v33 (by decide)).trans <| (V26_of m outs c main_v33 (by decide)).trans <| (V25_of m outs c main_v33 (by decide)).trans <| (V24_of m outs c main_v33 (by decide)).trans <| (V23_of m outs c main_v33 (by decide)).trans <| (V22_of m outs c main_v33 (by decide)).trans <| (V21_of m outs c main_v33 (by decide)).trans <| (V20_of m outs c main_v33 (by decide)).trans <| (V19_of m outs c main_v33 (by decide)).trans <| (V18_of m outs c main_v33 (by decide))
  have e2 : (V17 m outs c main_v33 : S62500.Idx → Elt F .f32)
      = shapeCast S62500 (V16 m outs c main_v32 : S62500x1x1.Idx → Elt F .f32) shapeCasts_S62500x1x1_S62500 := by
    show StableHlo.after hostOps8 _ (Proc.devRef .tc main_v33) = _
    after_results
    rfl
  have e3 : V16 m outs c main_v32 = outs 16 main_v32 c := Function.update_self ..
  rw [e1, e2, e3]
  refine shapeCast_apply _ _ _ (ValueIdx.ix3 t (0 : Fin 1) (0 : Fin 1)) ?_
  rw [Shape.rowMajor_val_three, Shape.rowMajor_val_one]
  show (t.val * 1 + 0) * 1 + 0 = t.val
  omega

/-- Rows `62500 * 7 + t` of the program's result are what region 7 left in `main_v32`. -/
theorem tail7_at (outs : Outs (F := F)) (c : Dev nD) (t : Fin 62500) :
    (V33 m outs c main_v67 : S1000000x1.Idx → Elt F .f32) (ValueIdx.ix2 ⟨62500 * 7 + t.val, by omega⟩ (0 : Fin 1))
      = (outs 16 main_v32 c : S62500x1x1.Idx → Elt F .f32) (ValueIdx.ix3 t (0 : Fin 1) (0 : Fin 1)) :=
  (tail_read m outs c 7 (by decide) t _ rfl).trans (piece7 m outs c t)

/-- Piece 8 of the result is what region 8 left in `main_v36`, with its two unit axes dropped: stretch 9 reshapes it into
    `main_v37`, and nothing after writes `main_v37`. -/
theorem piece8 (outs : Outs (F := F)) (c : Dev nD) (t : Fin 62500) :
    (W16 m outs c main_v37 : S62500.Idx → Elt F .f32) (ValueIdx.ix1 t)
      = (outs 18 main_v36 c : S62500x1x1.Idx → Elt F .f32) (ValueIdx.ix3 t (0 : Fin 1) (0 : Fin 1)) := by
  have e1 : W16 m outs c main_v37 = V19 m outs c main_v37 :=
    (StableHlo.reshape_result_ne main_v64 main_v65 _ _ _ _ (V32 m outs c) (r := main_v37) (by decide)).trans <|
      (V32_of m outs c main_v37 (by decide)).trans <| (V31_of m outs c main_v37 (by decide)).trans <| (V30_of m outs c main_v37 (by decide)).trans <| (V29_of m outs c main_v37 (by decide)).trans <| (V28_of m outs c main_v37 (by decide)).trans <| (V27_of m outs c main_v37 (by decide)).trans <| (V26_of m outs c main_v37 (by decide)).trans <| (V25_of m outs c main_v37 (by decide)).trans <| (V24_of m outs c main_v37 (by decide)).trans <| (V23_of m outs c main_v37 (by decide)).trans <| (V22_of m outs c main_v37 (by decide)).trans <| (V21_of m outs c main_v37 (by decide)).trans <| (V20_of m outs c main_v37 (by decide))
  have e2 : (V19 m outs c main_v37 : S62500.Idx → Elt F .f32)
      = shapeCast S62500 (V18 m outs c main_v36 : S62500x1x1.Idx → Elt F .f32) shapeCasts_S62500x1x1_S62500 := by
    show StableHlo.after hostOps9 _ (Proc.devRef .tc main_v37) = _
    after_results
    rfl
  have e3 : V18 m outs c main_v36 = outs 18 main_v36 c := Function.update_self ..
  rw [e1, e2, e3]
  refine shapeCast_apply _ _ _ (ValueIdx.ix3 t (0 : Fin 1) (0 : Fin 1)) ?_
  rw [Shape.rowMajor_val_three, Shape.rowMajor_val_one]
  show (t.val * 1 + 0) * 1 + 0 = t.val
  omega

/-- Rows `62500 * 8 + t` of the program's result are what region 8 left in `main_v36`. -/
theorem tail8_at (outs : Outs (F := F)) (c : Dev nD) (t : Fin 62500) :
    (V33 m outs c main_v67 : S1000000x1.Idx → Elt F .f32) (ValueIdx.ix2 ⟨62500 * 8 + t.val, by omega⟩ (0 : Fin 1))
      = (outs 18 main_v36 c : S62500x1x1.Idx → Elt F .f32) (ValueIdx.ix3 t (0 : Fin 1) (0 : Fin 1)) :=
  (tail_read m outs c 8 (by decide) t _ rfl).trans (piece8 m outs c t)

/-- Piece 9 of the result is what region 9 left in `main_v40`, with its two unit axes dropped: stretch 10 reshapes it into
    `main_v41`, and nothing after writes `main_v41`. -/
theorem piece9 (outs : Outs (F := F)) (c : Dev nD) (t : Fin 62500) :
    (W16 m outs c main_v41 : S62500.Idx → Elt F .f32) (ValueIdx.ix1 t)
      = (outs 20 main_v40 c : S62500x1x1.Idx → Elt F .f32) (ValueIdx.ix3 t (0 : Fin 1) (0 : Fin 1)) := by
  have e1 : W16 m outs c main_v41 = V21 m outs c main_v41 :=
    (StableHlo.reshape_result_ne main_v64 main_v65 _ _ _ _ (V32 m outs c) (r := main_v41) (by decide)).trans <|
      (V32_of m outs c main_v41 (by decide)).trans <| (V31_of m outs c main_v41 (by decide)).trans <| (V30_of m outs c main_v41 (by decide)).trans <| (V29_of m outs c main_v41 (by decide)).trans <| (V28_of m outs c main_v41 (by decide)).trans <| (V27_of m outs c main_v41 (by decide)).trans <| (V26_of m outs c main_v41 (by decide)).trans <| (V25_of m outs c main_v41 (by decide)).trans <| (V24_of m outs c main_v41 (by decide)).trans <| (V23_of m outs c main_v41 (by decide)).trans <| (V22_of m outs c main_v41 (by decide))
  have e2 : (V21 m outs c main_v41 : S62500.Idx → Elt F .f32)
      = shapeCast S62500 (V20 m outs c main_v40 : S62500x1x1.Idx → Elt F .f32) shapeCasts_S62500x1x1_S62500 := by
    show StableHlo.after hostOps10 _ (Proc.devRef .tc main_v41) = _
    after_results
    rfl
  have e3 : V20 m outs c main_v40 = outs 20 main_v40 c := Function.update_self ..
  rw [e1, e2, e3]
  refine shapeCast_apply _ _ _ (ValueIdx.ix3 t (0 : Fin 1) (0 : Fin 1)) ?_
  rw [Shape.rowMajor_val_three, Shape.rowMajor_val_one]
  show (t.val * 1 + 0) * 1 + 0 = t.val
  omega

/-- Rows `62500 * 9 + t` of the program's result are what region 9 left in `main_v40`. -/
theorem tail9_at (outs : Outs (F := F)) (c : Dev nD) (t : Fin 62500) :
    (V33 m outs c main_v67 : S1000000x1.Idx → Elt F .f32) (ValueIdx.ix2 ⟨62500 * 9 + t.val, by omega⟩ (0 : Fin 1))
      = (outs 20 main_v40 c : S62500x1x1.Idx → Elt F .f32) (ValueIdx.ix3 t (0 : Fin 1) (0 : Fin 1)) :=
  (tail_read m outs c 9 (by decide) t _ rfl).trans (piece9 m outs c t)

/-- Piece 10 of the result is what region 10 left in `main_v44`, with its two unit axes dropped: stretch 11 reshapes it into
    `main_v45`, and nothing after writes `main_v45`. -/
theorem piece10 (outs : Outs (F := F)) (c : Dev nD) (t : Fin 62500) :
    (W16 m outs c main_v45 : S62500.Idx → Elt F .f32) (ValueIdx.ix1 t)
      = (outs 22 main_v44 c : S62500x1x1.Idx → Elt F .f32) (ValueIdx.ix3 t (0 : Fin 1) (0 : Fin 1)) := by
  have e1 : W16 m outs c main_v45 = V23 m outs c main_v45 :=
    (StableHlo.reshape_result_ne main_v64 main_v65 _ _ _ _ (V32 m outs c) (r := main_v45) (by decide)).trans <|
      (V32_of m outs c main_v45 (by decide)).trans <| (V31_of m outs c main_v45 (by decide)).trans <| (V30_of m outs c main_v45 (by decide)).trans <| (V29_of m outs c main_v45 (by decide)).trans <| (V28_of m outs c main_v45 (by decide)).trans <| (V27_of m outs c main_v45 (by decide)).trans <| (V26_of m outs c main_v45 (by decide)).trans <| (V25_of m outs c main_v45 (by decide)).trans <| (V24_of m outs c main_v45 (by decide))
  have e2 : (V23 m outs c main_v45 : S62500.Idx → Elt F .f32)
      = shapeCast S62500 (V22 m outs c main_v44 : S62500x1x1.Idx → Elt F .f32) shapeCasts_S62500x1x1_S62500 := by
    show StableHlo.after hostOps11 _ (Proc.devRef .tc main_v45) = _
    after_results
    rfl
  have e3 : V22 m outs c main_v44 = outs 22 main_v44 c := Function.update_self ..
  rw [e1, e2, e3]
  refine shapeCast_apply _ _ _ (ValueIdx.ix3 t (0 : Fin 1) (0 : Fin 1)) ?_
  rw [Shape.rowMajor_val_three, Shape.rowMajor_val_one]
  show (t.val * 1 + 0) * 1 + 0 = t.val
  omega

/-- Rows `62500 * 10 + t` of the program's result are what region 10 left in `main_v44`. -/
theorem tail10_at (outs : Outs (F := F)) (c : Dev nD) (t : Fin 62500) :
    (V33 m outs c main_v67 : S1000000x1.Idx → Elt F .f32) (ValueIdx.ix2 ⟨62500 * 10 + t.val, by omega⟩ (0 : Fin 1))
      = (outs 22 main_v44 c : S62500x1x1.Idx → Elt F .f32) (ValueIdx.ix3 t (0 : Fin 1) (0 : Fin 1)) :=
  (tail_read m outs c 10 (by decide) t _ rfl).trans (piece10 m outs c t)

/-- Piece 11 of the result is what region 11 left in `main_v48`, with its two unit axes dropped: stretch 12 reshapes it into
    `main_v49`, and nothing after writes `main_v49`. -/
theorem piece11 (outs : Outs (F := F)) (c : Dev nD) (t : Fin 62500) :
    (W16 m outs c main_v49 : S62500.Idx → Elt F .f32) (ValueIdx.ix1 t)
      = (outs 24 main_v48 c : S62500x1x1.Idx → Elt F .f32) (ValueIdx.ix3 t (0 : Fin 1) (0 : Fin 1)) := by
  have e1 : W16 m outs c main_v49 = V25 m outs c main_v49 :=
    (StableHlo.reshape_result_ne main_v64 main_v65 _ _ _ _ (V32 m outs c) (r := main_v49) (by decide)).trans <|
      (V32_of m outs c main_v49 (by decide)).trans <| (V31_of m outs c main_v49 (by decide)).trans <| (V30_of m outs c main_v49 (by decide)).trans <| (V29_of m outs c main_v49 (by decide)).trans <| (V28_of m outs c main_v49 (by decide)).trans <| (V27_of m outs c main_v49 (by decide)).trans <| (V26_of m outs c main_v49 (by decide))
  have e2 : (V25 m outs c main_v49 : S62500.Idx → Elt F .f32)
      = shapeCast S62500 (V24 m outs c main_v48 : S62500x1x1.Idx → Elt F .f32) shapeCasts_S62500x1x1_S62500 := by
    show StableHlo.after hostOps12 _ (Proc.devRef .tc main_v49) = _
    after_results
    rfl
  have e3 : V24 m outs c main_v48 = outs 24 main_v48 c := Function.update_self ..
  rw [e1, e2, e3]
  refine shapeCast_apply _ _ _ (ValueIdx.ix3 t (0 : Fin 1) (0 : Fin 1)) ?_
  rw [Shape.rowMajor_val_three, Shape.rowMajor_val_one]
  show (t.val * 1 + 0) * 1 + 0 = t.val
  omega

/-- Rows `62500 * 11 + t` of the program's result are what region 11 left in `main_v48`. -/
theorem tail11_at (outs : Outs (F := F)) (c : Dev nD) (t : Fin 62500) :
    (V33 m outs c main_v67 : S1000000x1.Idx → Elt F .f32) (ValueIdx.ix2 ⟨62500 * 11 + t.val, by omega⟩ (0 : Fin 1))
      = (outs 24 main_v48 c : S62500x1x1.Idx → Elt F .f32) (ValueIdx.ix3 t (0 : Fin 1) (0 : Fin 1)) :=
  (tail_read m outs c 11 (by decide) t _ rfl).trans (piece11 m outs c t)

/-- Piece 12 of the result is what region 12 left in `main_v52`, with its two unit axes dropped: stretch 13 reshapes it into
    `main_v53`, and nothing after writes `main_v53`. -/
theorem piece12 (outs : Outs (F := F)) (c : Dev nD) (t : Fin 62500) :
    (W16 m outs c main_v53 : S62500.Idx → Elt F .f32) (ValueIdx.ix1 t)
      = (outs 26 main_v52 c : S62500x1x1.Idx → Elt F .f32) (ValueIdx.ix3 t (0 : Fin 1) (0 : Fin 1)) := by
  have e1 : W16 m outs c main_v53 = V27 m outs c main_v53 :=
    (StableHlo.reshape_result_ne main_v64 main_v65 _ _ _ _ (V32 m outs c) (r := main_v53) (by decide)).trans <|
      (V32_of m outs c main_v53 (by decide)).trans <| (V31_of m outs c main_v53 (by decide)).trans <| (V30_of m outs c main_v53 (by decide)).trans <| (V29_of m outs c main_v53 (by decide)).trans <| (V28_of m outs c main_v53 (by decide))
  have e2 : (V27 m outs c main_v53 : S62500.Idx → Elt F .f32)
      = shapeCast S62500 (V26 m outs c main_v52 : S62500x1x1.Idx → Elt F .f32) shapeCasts_S62500x1x1_S62500 := by
    show StableHlo.after hostOps13 _ (Proc.devRef .tc main_v53) = _
    after_results
    rfl
  have e3 : V26 m outs c main_v52 = outs 26 main_v52 c := Function.update_self ..
  rw [e1, e2, e3]
  refine shapeCast_apply _ _ _ (ValueIdx.ix3 t (0 : Fin 1) (0 : Fin 1)) ?_
  rw [Shape.rowMajor_val_three, Shape.rowMajor_val_one]
  show (t.val * 1 + 0) * 1 + 0 = t.val
  omega

/-- Rows `62500 * 12 + t` of the program's result are what region 12 left in `main_v52`. -/
theorem tail12_at (outs : Outs (F := F)) (c : Dev nD) (t : Fin 62500) :
    (V33 m outs c main_v67 : S1000000x1.Idx → Elt F .f32) (ValueIdx.ix2 ⟨62500 * 12 + t.val, by omega⟩ (0 : Fin 1))
      = (outs 26 main_v52 c : S62500x1x1.Idx → Elt F .f32) (ValueIdx.ix3 t (0 : Fin 1) (0 : Fin 1)) :=
  (tail_read m outs c 12 (by decide) t _ rfl).trans (piece12 m outs c t)

/-- Piece 13 of the result is what region 13 left in `main_v56`, with its two unit axes dropped: stretch 14 reshapes it into
    `main_v57`, and nothing after writes `main_v57`. -/
theorem piece13 (outs : Outs (F := F)) (c : Dev nD) (t : Fin 62500) :
    (W16 m outs c main_v57 : S62500.Idx → Elt F .f32) (ValueIdx.ix1 t)
      = (outs 28 main_v56 c : S62500x1x1.Idx → Elt F .f32) (ValueIdx.ix3 t (0 : Fin 1) (0 : Fin 1)) := by
  have e1 : W16 m outs c main_v57 = V29 m outs c main_v57 :=
    (StableHlo.reshape_result_ne main_v64 main_v65 _ _ _ _ (V32 m outs c) (r := main_v57) (by decide)).trans <|
      (V32_of m outs c main_v57 (by decide)).trans <| (V31_of m outs c main_v57 (by decide)).trans <| (V30_of m outs c main_v57 (by decide))
  have e2 : (V29 m outs c main_v57 : S62500.Idx → Elt F .f32)
      = shapeCast S62500 (V28 m outs c main_v56 : S62500x1x1.Idx → Elt F .f32) shapeCasts_S62500x1x1_S62500 := by
    show StableHlo.after hostOps14 _ (Proc.devRef .tc main_v57) = _
    after_results
    rfl
  have e3 : V28 m outs c main_v56 = outs 28 main_v56 c := Function.update_self ..
  rw [e1, e2, e3]
  refine shapeCast_apply _ _ _ (ValueIdx.ix3 t (0 : Fin 1) (0 : Fin 1)) ?_
  rw [Shape.rowMajor_val_three, Shape.rowMajor_val_one]
  show (t.val * 1 + 0) * 1 + 0 = t.val
  omega

/-- Rows `62500 * 13 + t` of the program's result are what region 13 left in `main_v56`. -/
theorem tail13_at (outs : Outs (F := F)) (c : Dev nD) (t : Fin 62500) :
    (V33 m outs c main_v67 : S1000000x1.Idx → Elt F .f32) (ValueIdx.ix2 ⟨62500 * 13 + t.val, by omega⟩ (0 : Fin 1))
      = (outs 28 main_v56 c : S62500x1x1.Idx → Elt F .f32) (ValueIdx.ix3 t (0 : Fin 1) (0 : Fin 1)) :=
  (tail_read m outs c 13 (by decide) t _ rfl).trans (piece13 m outs c t)

/-- Piece 14 of the result is what region 14 left in `main_v60`, with its two unit axes dropped: stretch 15 reshapes it into
    `main_v61`, and nothing after writes `main_v61`. -/
theorem piece14 (outs : Outs (F := F)) (c : Dev nD) (t : Fin 62500) :
    (W16 m outs c main_v61 : S62500.Idx → Elt F .f32) (ValueIdx.ix1 t)
      = (outs 30 main_v60 c : S62500x1x1.Idx → Elt F .f32) (ValueIdx.ix3 t (0 : Fin 1) (0 : Fin 1)) := by
  have e1 : W16 m outs c main_v61 = V31 m outs c main_v61 :=
    (StableHlo.reshape_result_ne main_v64 main_v65 _ _ _ _ (V32 m outs c) (r := main_v61) (by decide)).trans <|
      (V32_of m outs c main_v61 (by decide))
  have e2 : (V31 m outs c main_v61 : S62500.Idx → Elt F .f32)
      = shapeCast S62500 (V30 m outs c main_v60 : S62500x1x1.Idx → Elt F .f32) shapeCasts_S62500x1x1_S62500 := by
    show StableHlo.after hostOps15 _ (Proc.devRef .tc main_v61) = _
    after_results
    rfl
  have e3 : V30 m outs c main_v60 = outs 30 main_v60 c := Function.update_self ..
  rw [e1, e2, e3]
  refine shapeCast_apply _ _ _ (ValueIdx.ix3 t (0 : Fin 1) (0 : Fin 1)) ?_
  rw [Shape.rowMajor_val_three, Shape.rowMajor_val_one]
  show (t.val * 1 + 0) * 1 + 0 = t.val
  omega

/-- Rows `62500 * 14 + t` of the program's result are what region 14 left in `main_v60`. -/
theorem tail14_at (outs : Outs (F := F)) (c : Dev nD) (t : Fin 62500) :
    (V33 m outs c main_v67 : S1000000x1.Idx → Elt F .f32) (ValueIdx.ix2 ⟨62500 * 14 + t.val, by omega⟩ (0 : Fin 1))
      = (outs 30 main_v60 c : S62500x1x1.Idx → Elt F .f32) (ValueIdx.ix3 t (0 : Fin 1) (0 : Fin 1)) :=
  (tail_read m outs c 14 (by decide) t _ rfl).trans (piece14 m outs c t)

/-! ## What the regions 2 … 15 read -/

/-! ### Region 2 -/

/-- Nothing up to region 2 writes the reshaped node features. -/
theorem keep2_h (outs : Outs (F := F)) (c : Dev nD) : V5 m outs c main_v1 = V1 m c main_v1 :=
  (V5_of m outs c main_v1 (by decide)).trans <| (V4_of m outs c main_v1 (by decide)).trans <| keep1_h m outs c

/-- Nothing up to region 2 writes the reshaped bias. -/
theorem keep2_b (outs : Outs (F := F)) (c : Dev nD) : V5 m outs c main_v0 = V1 m c main_v0 :=
  (V5_of m outs c main_v0 (by decide)).trans <| (V4_of m outs c main_v0 (by decide)).trans <| keep1_b m outs c

/-- The first table argument when stretch 2 starts is as launched. -/
theorem keep2_arg1 (outs : Outs (F := F)) (c : Dev nD) : V4 m outs c main_arg1 = m ((c : Thread nD τ).loc main_arg1) :=
  (V4_of m outs c main_arg1 (by decide)).trans <| (V3_of m outs c main_arg1 (by decide)).trans <| (keep1_arg1 m outs c)

/-- The second table argument when stretch 2 starts is as launched. -/
theorem keep2_arg2 (outs : Outs (F := F)) (c : Dev nD) : V4 m outs c main_arg2 = m ((c : Thread nD τ).loc main_arg2) :=
  (V4_of m outs c main_arg2 (by decide)).trans <| (V3_of m outs c main_arg2 (by decide)).trans <| (keep1_arg2 m outs c)

theorem ent2_h (outs : Outs (F := F)) (c : Dev nD) (r : Fin 100000) (j : Fin 128) :
    (V5 m outs c main_v1 : S100000x1x128.Idx → Elt F .f32) (ValueIdx.ix3 r (0 : Fin 1) j)
      = (m ((c : Thread nD τ).loc main_arg0) : S100000x128.Idx → Elt F .f32) (ValueIdx.ix2 r j) := by
  rw [keep2_h]
  exact V1_h m c r j

theorem ent2_b (outs : Outs (F := F)) (c : Dev nD) :
    (V5 m outs c main_v0 : S1x1.Idx → Elt F .f32) (ValueIdx.ix2 (0 : Fin 1) (0 : Fin 1))
      = (m ((c : Thread nD τ).loc main_arg4) : S1.Idx → Elt F .f32) (ValueIdx.ix1 (0 : Fin 1)) := by
  rw [keep2_b]
  exact V1_b m c

theorem ent2_W (outs : Outs (F := F)) (c : Dev nD) : V5 m outs c main_arg3 = m ((c : Thread nD τ).loc main_arg3) :=
  (V5_of m outs c main_arg3 (by decide)).trans <| (V4_of m outs c main_arg3 (by decide)).trans <| ent1_W m outs c

theorem ent2_src (outs : Outs (F := F)) (c : Dev nD) (t : Fin 62500) :
    (V5 m outs c main_v10 : S62500.Idx → Elt F .i32) (ValueIdx.ix1 t)
      = (m ((c : Thread nD τ).loc main_arg1) : S1000000.Idx → Elt F .i32) (ValueIdx.ix1 ⟨62500 * 2 + t.val, by omega⟩) := by
  have e : (V5 m outs c main_v10 : S62500.Idx → Elt F .i32)
      = extractStridedSlice S62500 ![125000] (V4 m outs c main_arg1 : S1000000.Idx → Elt F .i32)
          slices_S1000000_S62500_125000 := by
    show StableHlo.after hostOps2 _ (Proc.devRef .tc main_v10) = _
    after_results
  rw [e, keep2_arg1]
  exact slice_read _ 2 125000 (by decide) _ t _

theorem ent2_dst (outs : Outs (F := F)) (c : Dev nD) (t : Fin 62500) :
    (V5 m outs c main_v11 : S62500.Idx → Elt F .i32) (ValueIdx.ix1 t)
      = (m ((c : Thread nD τ).loc main_arg2) : S1000000.Idx → Elt F .i32) (ValueIdx.ix1 ⟨62500 * 2 + t.val, by omega⟩) := by
  have e : (V5 m outs c main_v11 : S62500.Idx → Elt F .i32)
      = extractStridedSlice S62500 ![125000] (V4 m outs c main_arg2 : S1000000.Idx → Elt F .i32)
          slices_S1000000_S62500_125000 := by
    show StableHlo.after hostOps2 _ (Proc.devRef .tc main_v11) = _
    after_results
  rw [e, keep2_arg2]
  exact slice_read _ 2 125000 (by decide) _ t _

/-! ### Region 3 -/

/-- Nothing up to region 3 writes the reshaped node features. -/
theorem keep3_h (outs : Outs (F := F)) (c : Dev nD) : V7 m outs c main_v1 = V1 m c main_v1 :=
  (V7_of m outs c main_v1 (by decide)).trans <| (V6_of m outs c main_v1 (by decide)).trans <| keep2_h m outs c

/-- Nothing up to region 3 writes the reshaped bias. -/
theorem keep3_b (outs : Outs (F := F)) (c : Dev nD) : V7 m outs c main_v0 = V1 m c main_v0 :=
  (V7_of m outs c main_v0 (by decide)).trans <| (V6_of m outs c main_v0 (by decide)).trans <| keep2_b m outs c

/-- The first table argument when stretch 3 starts is as launched. -/
theorem keep3_arg1 (outs : Outs (F := F)) (c : Dev nD) : V6 m outs c main_arg1 = m ((c : Thread nD τ).loc main_arg1) :=
  (V6_of m outs c main_arg1 (by decide)).trans <| (V5_of m outs c main_arg1 (by decide)).trans <| (keep2_arg1 m outs c)

/-- The second table argument when stretch 3 starts is as launched. -/
theorem keep3_arg2 (outs : Outs (F := F)) (c : Dev nD) : V6 m outs c main_arg2 = m ((c : Thread nD τ).loc main_arg2) :=
  (V6_of m outs c main_arg2 (by decide)).trans <| (V5_of m outs c main_arg2 (by decide)).trans <| (keep2_arg2 m outs c)

theorem ent3_h (outs : Outs (F := F)) (c : Dev nD) (r : Fin 100000) (j : Fin 128) :
    (V7 m outs c main_v1 : S100000x1x128.Idx → Elt F .f32) (ValueIdx.ix3 r (0 : Fin 1) j)
      = (m ((c : Thread nD τ).loc main_arg0) : S100000x128.Idx → Elt F .f32) (ValueIdx.ix2 r j) := by
  rw [keep3_h]
  exact V1_h m c r j

theorem ent3_b (outs : Outs (F := F)) (c : Dev nD) :
    (V7 m outs c main_v0 : S1x1.Idx → Elt F .f32) (ValueIdx.ix2 (0 : Fin 1) (0 : Fin 1))
      = (m ((c : Thread nD τ).loc main_arg4) : S1.Idx → Elt F .f32) (ValueIdx.ix1 (0 : Fin 1)) := by
  rw [keep3_b]
  exact V1_b m c

theorem ent3_W (outs : Outs (F := F)) (c : Dev nD) : V7 m outs c main_arg3 = m ((c : Thread nD τ).loc main_arg3) :=
  (V7_of m outs c main_arg3 (by decide)).trans <| (V6_of m outs c main_arg3 (by decide)).trans <| ent2_W m outs c

theorem ent3_src (outs : Outs (F := F)) (c : Dev nD) (t : Fin 62500) :
    (V7 m outs c main_v14 : S62500.Idx → Elt F .i32) (ValueIdx.ix1 t)
      = (m ((c : Thread nD τ).loc main_arg1) : S1000000.Idx → Elt F .i32) (ValueIdx.ix1 ⟨62500 * 3 + t.val, by omega⟩) := by
  have e : (V7 m outs c main_v14 : S62500.Idx → Elt F .i32)
      = extractStridedSlice S62500 ![187500] (V6 m outs c main_arg1 : S1000000.Idx → Elt F .i32)
          slices_S1000000_S62500_187500 := by
    show StableHlo.after hostOps3 _ (Proc.devRef .tc main_v14) = _
    after_results
  rw [e, keep3_arg1]
  exact slice_read _ 3 187500 (by decide) _ t _

theorem ent3_dst (outs : Outs (F := F)) (c : Dev nD) (t : Fin 62500) :
    (V7 m outs c main_v15 : S62500.Idx → Elt F .i32) (ValueIdx.ix1 t)
      = (m ((c : Thread nD τ).loc main_arg2) : S1000000.Idx → Elt F .i32) (ValueIdx.ix1 ⟨62500 * 3 + t.val, by omega⟩) := by
  have e : (V7 m outs c main_v15 : S62500.Idx → Elt F .i32)
      = extractStridedSlice S62500 ![187500] (V6 m outs c main_arg2 : S1000000.Idx → Elt F .i32)
          slices_S1000000_S62500_187500 := by
    show StableHlo.after hostOps3 _ (Proc.devRef .tc main_v15) = _
    after_results
  rw [e, keep3_arg2]
  exact slice_read _ 3 187500 (by decide) _ t _

/-! ### Region 4 -/

/-- Nothing up to region 4 writes the reshaped node features. -/
theorem keep4_h (outs : Outs (F := F)) (c : Dev nD) : V9 m outs c main_v1 = V1 m c main_v1 :=
  (V9_of m outs c main_v1 (by decide)).trans <| (V8_of m outs c main_v1 (by decide)).trans <| keep3_h m outs c

/-- Nothing up to region 4 writes the reshaped bias. -/
theorem keep4_b (outs : Outs (F := F)) (c : Dev nD) : V9 m outs c main_v0 = V1 m c main_v0 :=
  (V9_of m outs c main_v0 (by decide)).trans <| (V8_of m outs c main_v0 (by decide)).trans <| keep3_b m outs c

/-- The first table argument when stretch 4 starts is as launched. -/
theorem keep4_arg1 (outs : Outs (F := F)) (c : Dev nD) : V8 m outs c main_arg1 = m ((c : Thread nD τ).loc main_arg1) :=
  (V8_of m outs c main_arg1 (by decide)).trans <| (V7_of m outs c main_arg1 (by decide)).trans <| (keep3_arg1 m outs c)

/-- The second table argument when stretch 4 starts is as launched. -/
theorem keep4_arg2 (outs : Outs (F := F)) (c : Dev nD) : V8 m outs c main_arg2 = m ((c : Thread nD τ).loc main_arg2) :=
  (V8_of m outs c main_arg2 (by decide)).trans <| (V7_of m outs c main_arg2 (by decide)).trans <| (keep3_arg2 m outs c)

theorem ent4_h (outs : Outs (F := F)) (c : Dev nD) (r : Fin 100000) (j : Fin 128) :
    (V9 m outs c main_v1 : S100000x1x128.Idx → Elt F .f32) (ValueIdx.ix3 r (0 : Fin 1) j)
      = (m ((c : Thread nD τ).loc main_arg0) : S100000x128.Idx → Elt F .f32) (ValueIdx.ix2 r j) := by
  rw [keep4_h]
  exact V1_h m c r j

theorem ent4_b (outs : Outs (F := F)) (c : Dev nD) :
    (V9 m outs c main_v0 : S1x1.Idx → Elt F .f32) (ValueIdx.ix2 (0 : Fin 1) (0 : Fin 1))
      = (m ((c : Thread nD τ).loc main_arg4) : S1.Idx → Elt F .f32) (ValueIdx.ix1 (0 : Fin 1)) := by
  rw [keep4_b]
  exact V1_b m c

theorem ent4_W (outs : Outs (F := F)) (c : Dev nD) : V9 m outs c main_arg3 = m ((c : Thread nD τ).loc main_arg3) :=
  (V9_of m outs c main_arg3 (by decide)).trans <| (V8_of m outs c main_arg3 (by decide)).trans <| ent3_W m outs c

theorem ent4_src (outs : Outs (F := F)) (c : Dev nD) (t : Fin 62500) :
    (V9 m outs c main_v18 : S62500.Idx → Elt F .i32) (ValueIdx.ix1 t)
      = (m ((c : Thread nD τ).loc main_arg1) : S1000000.Idx → Elt F .i32) (ValueIdx.ix1 ⟨62500 * 4 + t.val, by omega⟩) := by
  have e : (V9 m outs c main_v18 : S62500.Idx → Elt F .i32)
      = extractStridedSlice S62500 ![250000] (V8 m outs c main_arg1 : S1000000.Idx → Elt F .i32)
          slices_S1000000_S62500_250000 := by
    show StableHlo.after hostOps4 _ (Proc.devRef .tc main_v18) = _
    after_results
  rw [e, keep4_arg1]
  exact slice_read _ 4 250000 (by decide) _ t _

theorem ent4_dst (outs : Outs (F := F)) (c : Dev nD) (t : Fin 62500) :
    (V9 m outs c main_v19 : S62500.Idx → Elt F .i32) (ValueIdx.ix1 t)
      = (m ((c : Thread nD τ).loc main_arg2) : S1000000.Idx → Elt F .i32) (ValueIdx.ix1 ⟨62500 * 4 + t.val, by omega⟩) := by
  have e : (V9 m outs c main_v19 : S62500.Idx → Elt F .i32)
      = extractStridedSlice S62500 ![250000] (V8 m outs c main_arg2 : S1000000.Idx → Elt F .i32)
          slices_S1000000_S62500_250000 := by
    show StableHlo.after hostOps4 _ (Proc.devRef .tc main_v19) = _
    after_results
  rw [e, keep4_arg2]
  exact slice_read _ 4 250000 (by decide) _ t _

/-! ### Region 5 -/

/-- Nothing up to region 5 writes the reshaped node features. -/
theorem keep5_h (outs : Outs (F := F)) (c : Dev nD) : V11 m outs c main_v1 = V1 m c main_v1 :=
  (V11_of m outs c main_v1 (by decide)).trans <| (V10_of m outs c main_v1 (by decide)).trans <| keep4_h m outs c

/-- Nothing up to region 5 writes the reshaped bias. -/
theorem keep5_b (outs : Outs (F := F)) (c : Dev nD) : V11 m outs c main_v0 = V1 m c main_v0 :=
  (V11_of m outs c main_v0 (by decide)).trans <| (V10_of m outs c main_v0 (by decide)).trans <| keep4_b m outs c

/-- The first table argument when stretch 5 starts is as launched. -/
theorem keep5_arg1 (outs : Outs (F := F)) (c : Dev nD) : V10 m outs c main_arg1 = m ((c : Thread nD τ).loc main_arg1) :=
  (V10_of m outs c main_arg1 (by decide)).trans <| (V9_of m outs c main_arg1 (by decide)).trans <| (keep4_arg1 m outs c)

/-- The second table argument when stretch 5 starts is as launched. -/
theorem keep5_arg2 (outs : Outs (F := F)) (c : Dev nD) : V10 m outs c main_arg2 = m ((c : Thread nD τ).loc main_arg2) :=
  (V10_of m outs c main_arg2 (by decide)).trans <| (V9_of m outs c main_arg2 (by decide)).trans <| (keep4_arg2 m outs c)

theorem ent5_h (outs : Outs (F := F)) (c : Dev nD) (r : Fin 100000) (j : Fin 128) :
    (V11 m outs c main_v1 : S100000x1x128.Idx → Elt F .f32) (ValueIdx.ix3 r (0 : Fin 1) j)
      = (m ((c : Thread nD τ).loc main_arg0) : S100000x128.Idx → Elt F .f32) (ValueIdx.ix2 r j) := by
  rw [keep5_h]
  exact V1_h m c r j

theorem ent5_b (outs : Outs (F := F)) (c : Dev nD) :
    (V11 m outs c main_v0 : S1x1.Idx → Elt F .f32) (ValueIdx.ix2 (0 : Fin 1) (0 : Fin 1))
      = (m ((c : Thread nD τ).loc main_arg4) : S1.Idx → Elt F .f32) (ValueIdx.ix1 (0 : Fin 1)) := by
  rw [keep5_b]
  exact V1_b m c

theorem ent5_W (outs : Outs (F := F)) (c : Dev nD) : V11 m outs c main_arg3 = m ((c : Thread nD τ).loc main_arg3) :=
  (V11_of m outs c main_arg3 (by decide)).trans <| (V10_of m outs c main_arg3 (by decide)).trans <| ent4_W m outs c

theorem ent5_src (outs : Outs (F := F)) (c : Dev nD) (t : Fin 62500) :
    (V11 m outs c main_v22 : S62500.Idx → Elt F .i32) (ValueIdx.ix1 t)
      = (m ((c : Thread nD τ).loc main_arg1) : S1000000.Idx → Elt F .i32) (ValueIdx.ix1 ⟨62500 * 5 + t.val, by omega⟩) := by
  have e : (V11 m outs c main_v22 : S62500.Idx → Elt F .i32)
      = extractStridedSlice S62500 ![312500] (V10 m outs c main_arg1 : S1000000.Idx → Elt F .i32)
          slices_S1000000_S62500_312500 := by
    show StableHlo.after hostOps5 _ (Proc.devRef .tc main_v22) = _
    after_results
  rw [e, keep5_arg1]
  exact slice_read _ 5 312500 (by decide) _ t _

theorem ent5_dst (outs : Outs (F := F)) (c : Dev nD) (t : Fin 62500) :
    (V11 m outs c main_v23 : S62500.Idx → Elt F .i32) (ValueIdx.ix1 t)
      = (m ((c : Thread nD τ).loc main_arg2) : S1000000.Idx → Elt F .i32) (ValueIdx.ix1 ⟨62500 * 5 + t.val, by omega⟩) := by
  have e : (V11 m outs c main_v23 : S62500.Idx → Elt F .i32)
      = extractStridedSlice S62500 ![312500] (V10 m outs c main_arg2 : S1000000.Idx → Elt F .i32)
          slices_S1000000_S62500_312500 := by
    show StableHlo.after hostOps5 _ (Proc.devRef .tc main_v23) = _
    after_results
  rw [e, keep5_arg2]
  exact slice_read _ 5 312500 (by decide) _ t _

/-! ### Region 6 -/

/-- Nothing up to region 6 writes the reshaped node features. -/
theorem keep6_h (outs : Outs (F := F)) (c : Dev nD) : V13 m outs c main_v1 = V1 m c main_v1 :=
  (V13_of m outs c main_v1 (by decide)).trans <| (V12_of m outs c main_v1 (by decide)).trans <| keep5_h m outs c

/-- Nothing up to region 6 writes the reshaped bias. -/
theorem keep6_b (outs : Outs (F := F)) (c : Dev nD) : V13 m outs c main_v0 = V1 m c main_v0 :=
  (V13_of m outs c main_v0 (by decide)).trans <| (V12_of m outs c main_v0 (by decide)).trans <| keep5_b m outs c

/-- The first table argument when stretch 6 starts is as launched. -/
theorem keep6_arg1 (outs : Outs (F := F)) (c : Dev nD) : V12 m outs c main_arg1 = m ((c : Thread nD τ).loc main_arg1) :=
  (V12_of m outs c main_arg1 (by decide)).trans <| (V11_of m outs c main_arg1 (by decide)).trans <| (keep5_arg1 m outs c)

/-- The second table argument when stretch 6 starts is as launched. -/
theorem keep6_arg2 (outs : Outs (F := F)) (c : Dev nD) : V12 m outs c main_arg2 = m ((c : Thread nD τ).loc main_arg2) :=
  (V12_of m outs c main_arg2 (by decide)).trans <| (V11_of m outs c main_arg2 (by decide)).trans <| (keep5_arg2 m outs c)

theorem ent6_h (outs : Outs (F := F)) (c : Dev nD) (r : Fin 100000) (j : Fin 128) :
    (V13 m outs c main_v1 : S100000x1x128.Idx → Elt F .f32) (ValueIdx.ix3 r (0 : Fin 1) j)
      = (m ((c : Thread nD τ).loc main_arg0) : S100000x128.Idx → Elt F .f32) (ValueIdx.ix2 r j) := by
  rw [keep6_h]
  exact V1_h m c r j

theorem ent6_b (outs : Outs (F := F)) (c : Dev nD) :
    (V13 m outs c main_v0 : S1x1.Idx → Elt F .f32) (ValueIdx.ix2 (0 : Fin 1) (0 : Fin 1))
      = (m ((c : Thread nD τ).loc main_arg4) : S1.Idx → Elt F .f32) (ValueIdx.ix1 (0 : Fin 1)) := by
  rw [keep6_b]
  exact V1_b m c

theorem ent6_W (outs : Outs (F := F)) (c : Dev nD) : V13 m outs c main_arg3 = m ((c : Thread nD τ).loc main_arg3) :=
  (V13_of m outs c main_arg3 (by decide)).trans <| (V12_of m outs c main_arg3 (by decide)).trans <| ent5_W m outs c

theorem ent6_src (outs : Outs (F := F)) (c : Dev nD) (t : Fin 62500) :
    (V13 m outs c main_v26 : S62500.Idx → Elt F .i32) (ValueIdx.ix1 t)
      = (m ((c : Thread nD τ).loc main_arg1) : S1000000.Idx → Elt F .i32) (ValueIdx.ix1 ⟨62500 * 6 + t.val, by omega⟩) := by
  have e : (V13 m outs c main_v26 : S62500.Idx → Elt F .i32)
      = extractStridedSlice S62500 ![375000] (V12 m outs c main_arg1 : S1000000.Idx → Elt F .i32)
          slices_S1000000_S62500_375000 := by
    show StableHlo.after hostOps6 _ (Proc.devRef .tc main_v26) = _
    after_results
  rw [e, keep6_arg1]
  exact slice_read _ 6 375000 (by decide) _ t _

theorem ent6_dst (outs : Outs (F := F)) (c : Dev nD) (t : Fin 62500) :
    (V13 m outs c main_v27 : S62500.Idx → Elt F .i32) (ValueIdx.ix1 t)
      = (m ((c : Thread nD τ).loc main_arg2) : S1000000.Idx → Elt F .i32) (ValueIdx.ix1 ⟨62500 * 6 + t.val, by omega⟩) := by
  have e : (V13 m outs c main_v27 : S62500.Idx → Elt F .i32)
      = extractStridedSlice S62500 ![375000] (V12 m outs c main_arg2 : S1000000.Idx → Elt F .i32)
          slices_S1000000_S62500_375000 := by
    show StableHlo.after hostOps6 _ (Proc.devRef .tc main_v27) = _
    after_results
  rw [e, keep6_arg2]
  exact slice_read _ 6 375000 (by decide) _ t _

/-! ### Region 7 -/

/-- Nothing up to region 7 writes the reshaped node features. -/
theorem keep7_h (outs : Outs (F := F)) (c : Dev nD) : V15 m outs c main_v1 = V1 m c main_v1 :=
  (V15_of m outs c main_v1 (by decide)).trans <| (V14_of m outs c main_v1 (by decide)).trans <| keep6_h m outs c

/-- Nothing up to region 7 writes the reshaped bias. -/
theorem keep7_b (outs : Outs (F := F)) (c : Dev nD) : V15 m outs c main_v0 = V1 m c main_v0 :=
  (V15_of m outs c main_v0 (by decide)).trans <| (V14_of m outs c main_v0 (by decide)).trans <| keep6_b m outs c

/-- The first table argument when stretch 7 starts is as launched. -/
theorem keep7_arg1 (outs : Outs (F := F)) (c : Dev nD) : V14 m outs c main_arg1 = m ((c : Thread nD τ).loc main_arg1) :=
  (V14_of m outs c main_arg1 (by decide)).trans <| (V13_of m outs c main_arg1 (by decide)).trans <| (keep6_arg1 m outs c)

/-- The second table argument when stretch 7 starts is as launched. -/
theorem keep7_arg2 (outs : Outs (F := F)) (c : Dev nD) : V14 m outs c main_arg2 = m ((c : Thread nD τ).loc main_arg2) :=
  (V14_of m outs c main_arg2 (by decide)).trans <| (V13_of m outs c main_arg2 (by decide)).trans <| (keep6_arg2 m outs c)

theorem ent7_h (outs : Outs (F := F)) (c : Dev nD) (r : Fin 100000) (j : Fin 128) :
    (V15 m outs c main_v1 : S100000x1x128.Idx → Elt F .f32) (ValueIdx.ix3 r (0 : Fin 1) j)
      = (m ((c : Thread nD τ).loc main_arg0) : S100000x128.Idx → Elt F .f32) (ValueIdx.ix2 r j) := by
  rw [keep7_h]
  exact V1_h m c r j

theorem ent7_b (outs : Outs (F := F)) (c : Dev nD) :
    (V15 m outs c main_v0 : S1x1.Idx → Elt F .f32) (ValueIdx.ix2 (0 : Fin 1) (0 : Fin 1))
      = (m ((c : Thread nD τ).loc main_arg4) : S1.Idx → Elt F .f32) (ValueIdx.ix1 (0 : Fin 1)) := by
  rw [keep7_b]
  exact V1_b m c

theorem ent7_W (outs : Outs (F := F)) (c : Dev nD) : V15 m outs c main_arg3 = m ((c : Thread nD τ).loc main_arg3) :=
  (V15_of m outs c main_arg3 (by decide)).trans <| (V14_of m outs c main_arg3 (by decide)).trans <| ent6_W m outs c

theorem ent7_src (outs : Outs (F := F)) (c : Dev nD) (t : Fin 62500) :
    (V15 m outs c main_v30 : S62500.Idx → Elt F .i32) (ValueIdx.ix1 t)
      = (m ((c : Thread nD τ).loc main_arg1) : S1000000.Idx → Elt F .i32) (ValueIdx.ix1 ⟨62500 * 7 + t.val, by omega⟩) := by
  have e : (V15 m outs c main_v30 : S62500.Idx → Elt F .i32)
      = extractStridedSlice S62500 ![437500] (V14 m outs c main_arg1 : S1000000.Idx → Elt F .i32)
          slices_S1000000_S62500_437500 := by
    show StableHlo.after hostOps7 _ (Proc.devRef .tc main_v30) = _
    after_results
  rw [e, keep7_arg1]
  exact slice_read _ 7 437500 (by decide) _ t _

theorem ent7_dst (outs : Outs (F := F)) (c : Dev nD) (t : Fin 62500) :
    (V15 m outs c main_v31 : S62500.Idx → Elt F .i32) (ValueIdx.ix1 t)
      = (m ((c : Thread nD τ).loc main_arg2) : S1000000.Idx → Elt F .i32) (ValueIdx.ix1 ⟨62500 * 7 + t.val, by omega⟩) := by
  have e : (V15 m outs c main_v31 : S62500.Idx → Elt F .i32)
      = extractStridedSlice S62500 ![437500] (V14 m outs c main_arg2 : S1000000.Idx → Elt F .i32)
          slices_S1000000_S62500_437500 := by
    show StableHlo.after hostOps7 _ (Proc.devRef .tc main_v31) = _
    after_results
  rw [e, keep7_arg2]
  exact slice_read _ 7 437500 (by decide) _ t _

/-! ### Region 8 -/

/-- Nothing up to region 8 writes the reshaped node features. -/
theorem keep8_h (outs : Outs (F := F)) (c : Dev nD) : V17 m outs c main_v1 = V1 m c main_v1 :=
  (V17_of m outs c main_v1 (by decide)).trans <| (V16_of m outs c main_v1 (by decide)).trans <| keep7_h m outs c

/-- Nothing up to region 8 writes the reshaped bias. -/
theorem keep8_b (outs : Outs (F := F)) (c : Dev nD) : V17 m outs c main_v0 = V1 m c main_v0 :=
  (V17_of m outs c main_v0 (by decide)).trans <| (V16_of m outs c main_v0 (by decide)).trans <| keep7_b m outs c

/-- The first table argument when stretch 8 starts is as launched. -/
theorem keep8_arg1 (outs : Outs (F := F)) (c : Dev nD) : V16 m outs c main_arg1 = m ((c : Thread nD τ).loc main_arg1) :=
  (V16_of m outs c main_arg1 (by decide)).trans <| (V15_of m outs c main_arg1 (by decide)).trans <| (keep7_arg1 m outs c)

/-- The second table argument when stretch 8 starts is as launched. -/
theorem keep8_arg2 (outs : Outs (F := F)) (c : Dev nD) : V16 m outs c main_arg2 = m ((c : Thread nD τ).loc main_arg2) :=
  (V16_of m outs c main_arg2 (by decide)).trans <| (V15_of m outs c main_arg2 (by decide)).trans <| (keep7_arg2 m outs c)

theorem ent8_h (outs : Outs (F := F)) (c : Dev nD) (r : Fin 100000) (j : Fin 128) :
    (V17 m outs c main_v1 : S100000x1x128.Idx → Elt F .f32) (ValueIdx.ix3 r (0 : Fin 1) j)
      = (m ((c : Thread nD τ).loc main_arg0) : S100000x128.Idx → Elt F .f32) (ValueIdx.ix2 r j) := by
  rw [keep8_h]
  exact V1_h m c r j

theorem ent8_b (outs : Outs (F := F)) (c : Dev nD) :
    (V17 m outs c main_v0 : S1x1.Idx → Elt F .f32) (ValueIdx.ix2 (0 : Fin 1) (0 : Fin 1))
      = (m ((c : Thread nD τ).loc main_arg4) : S1.Idx → Elt F .f32) (ValueIdx.ix1 (0 : Fin 1)) := by
  rw [keep8_b]
  exact V1_b m c

theorem ent8_W (outs : Outs (F := F)) (c : Dev nD) : V17 m outs c main_arg3 = m ((c : Thread nD τ).loc main_arg3) :=
  (V17_of m outs c main_arg3 (by decide)).trans <| (V16_of m outs c main_arg3 (by decide)).trans <| ent7_W m outs c

theorem ent8_src (outs : Outs (F := F)) (c : Dev nD) (t : Fin 62500) :
    (V17 m outs c main_v34 : S62500.Idx → Elt F .i32) (ValueIdx.ix1 t)
      = (m ((c : Thread nD τ).loc main_arg1) : S1000000.Idx → Elt F .i32) (ValueIdx.ix1 ⟨62500 * 8 + t.val, by omega⟩) := by
  have e : (V17 m outs c main_v34 : S62500.Idx → Elt F .i32)
      = extractStridedSlice S62500 ![500000] (V16 m outs c main_arg1 : S1000000.Idx → Elt F .i32)
          slices_S1000000_S62500_500000 := by
    show StableHlo.after hostOps8 _ (Proc.devRef .tc main_v34) = _
    after_results
  rw [e, keep8_arg1]
  exact slice_read _ 8 500000 (by decide) _ t _

theorem ent8_dst (outs : Outs (F := F)) (c : Dev nD) (t : Fin 62500) :
    (V17 m outs c main_v35 : S62500.Idx → Elt F .i32) (ValueIdx.ix1 t)
      = (m ((c : Thread nD τ).loc main_arg2) : S1000000.Idx → Elt F .i32) (ValueIdx.ix1 ⟨62500 * 8 + t.val, by omega⟩) := by
  have e : (V17 m outs c main_v35 : S62500.Idx → Elt F .i32)
      = extractStridedSlice S62500 ![500000] (V16 m outs c main_arg2 : S1000000.Idx → Elt F .i32)
          slices_S1000000_S62500_500000 := by
    show StableHlo.after hostOps8 _ (Proc.devRef .tc main_v35) = _
    after_results
  rw [e, keep8_arg2]
  exact slice_read _ 8 500000 (by decide) _ t _

/-! ### Region 9 -/

/-- Nothing up to region 9 writes the reshaped node features. -/
theorem keep9_h (outs : Outs (F := F)) (c : Dev nD) : V19 m outs c main_v1 = V1 m c main_v1 :=
  (V19_of m outs c main_v1 (by decide)).trans <| (V18_of m outs c main_v1 (by decide)).trans <| keep8_h m outs c

/-- Nothing up to region 9 writes the reshaped bias. -/
theorem keep9_b (outs : Outs (F := F)) (c : Dev nD) : V19 m outs c main_v0 = V1 m c main_v0 :=
  (V19_of m outs c main_v0 (by decide)).trans <| (V18_of m outs c main_v0 (by decide)).trans <| keep8_b m outs c

/-- The first table argument when stretch 9 starts is as launched. -/
theorem keep9_arg1 (outs : Outs (F := F)) (c : Dev nD) : V18 m outs c main_arg1 = m ((c : Thread nD τ).loc main_arg1) :=
  (V18_of m outs c main_arg1 (by decide)).trans <| (V17_of m outs c main_arg1 (by decide)).trans <| (keep8_arg1 m outs c)

/-- The second table argument when stretch 9 starts is as launched. -/
theorem keep9_arg2 (outs : Outs (F := F)) (c : Dev nD) : V18 m outs c main_arg2 = m ((c : Thread nD τ).loc main_arg2) :=
  (V18_of m outs c main_arg2 (by decide)).trans <| (V17_of m outs c main_arg2 (by decide)).trans <| (keep8_arg2 m outs c)

theorem ent9_h (outs : Outs (F := F)) (c : Dev nD) (r : Fin 100000) (j : Fin 128) :
    (V19 m outs c main_v1 : S100000x1x128.Idx → Elt F .f32) (ValueIdx.ix3 r (0 : Fin 1) j)
      = (m ((c : Thread nD τ).loc main_arg0) : S100000x128.Idx → Elt F .f32) (ValueIdx.ix2 r j) := by
  rw [keep9_h]
  exact V1_h m c r j

theorem ent9_b (outs : Outs (F := F)) (c : Dev nD) :
    (V19 m outs c main_v0 : S1x1.Idx → Elt F .f32) (ValueIdx.ix2 (0 : Fin 1) (0 : Fin 1))
      = (m ((c : Thread nD τ).loc main_arg4) : S1.Idx → Elt F .f32) (ValueIdx.ix1 (0 : Fin 1)) := by
  rw [keep9_b]
  exact V1_b m c

theorem ent9_W (outs : Outs (F := F)) (c : Dev nD) : V19 m outs c main_arg3 = m ((c : Thread nD τ).loc main_arg3) :=
  (V19_of m outs c main_arg3 (by decide)).trans <| (V18_of m outs c main_arg3 (by decide)).trans <| ent8_W m outs c

theorem ent9_src (outs : Outs (F := F)) (c : Dev nD) (t : Fin 62500) :
    (V19 m outs c main_v38 : S62500.Idx → Elt F .i32) (ValueIdx.ix1 t)
      = (m ((c : Thread nD τ).loc main_arg1) : S1000000.Idx → Elt F .i32) (ValueIdx.ix1 ⟨62500 * 9 + t.val, by omega⟩) := by
  have e : (V19 m outs c main_v38 : S62500.Idx → Elt F .i32)
      = extractStridedSlice S62500 ![562500] (V18 m outs c main_arg1 : S1000000.Idx → Elt F .i32)
          slices_S1000000_S62500_562500 := by
    show StableHlo.after hostOps9 _ (Proc.devRef .tc main_v38) = _
    after_results
  rw [e, keep9_arg1]
  exact slice_read _ 9 562500 (by decide) _ t _

theorem ent9_dst (outs : Outs (F := F)) (c : Dev nD) (t : Fin 62500) :
    (V19 m outs c main_v39 : S62500.Idx → Elt F .i32) (ValueIdx.ix1 t)
      = (m ((c : Thread nD τ).loc main_arg2) : S1000000.Idx → Elt F .i32) (ValueIdx.ix1 ⟨62500 * 9 + t.val, by omega⟩) := by
  have e : (V19 m outs c main_v39 : S62500.Idx → Elt F .i32)
      = extractStridedSlice S62500 ![562500] (V18 m outs c main_arg2 : S1000000.Idx → Elt F .i32)
          slices_S1000000_S62500_562500 := by
    show StableHlo.after hostOps9 _ (Proc.devRef .tc main_v39) = _
    after_results
  rw [e, keep9_arg2]
  exact slice_read _ 9 562500 (by decide) _ t _

/-! ### Region 10 -/

/-- Nothing up to region 10 writes the reshaped node features. -/
theorem keep10_h (outs : Outs (F := F)) (c : Dev nD) : V21 m outs c main_v1 = V1 m c main_v1 :=
  (V21_of m outs c main_v1 (by decide)).trans <| (V20_of m outs c main_v1 (by decide)).trans <| keep9_h m outs c

/-- Nothing up to region 10 writes the reshaped bias. -/
theorem keep10_b (outs : Outs (F := F)) (c : Dev nD) : V21 m outs c main_v0 = V1 m c main_v0 :=
  (V21_of m outs c main_v0 (by decide)).trans <| (V20_of m outs c main_v0 (by decide)).trans <| keep9_b m outs c

/-- The first table argument when stretch 10 starts is as launched. -/
theorem keep10_arg1 (outs : Outs (F := F)) (c : Dev nD) : V20 m outs c main_arg1 = m ((c : Thread nD τ).loc main_arg1) :=
  (V20_of m outs c main_arg1 (by decide)).trans <| (V19_of m outs c main_arg1 (by decide)).trans <| (keep9_arg1 m outs c)

/-- The second table argument when stretch 10 starts is as launched. -/
theorem keep10_arg2 (outs : Outs (F := F)) (c : Dev nD) : V20 m outs c main_arg2 = m ((c : Thread nD τ).loc main_arg2) :=
  (V20_of m outs c main_arg2 (by decide)).trans <| (V19_of m outs c main_arg2 (by decide)).trans <| (keep9_arg2 m outs c)

theorem ent10_h (outs : Outs (F := F)) (c : Dev nD) (r : Fin 100000) (j : Fin 128) :
    (V21 m outs c main_v1 : S100000x1x128.Idx → Elt F .f32) (ValueIdx.ix3 r (0 : Fin 1) j)
      = (m ((c : Thread nD τ).loc main_arg0) : S100000x128.Idx → Elt F .f32) (ValueIdx.ix2 r j) := by
  rw [keep10_h]
  exact V1_h m c r j

theorem ent10_b (outs : Outs (F := F)) (c : Dev nD) :
    (V21 m outs c main_v0 : S1x1.Idx → Elt F .f32) (ValueIdx.ix2 (0 : Fin 1) (0 : Fin 1))
      = (m ((c : Thread nD τ).loc main_arg4) : S1.Idx → Elt F .f32) (ValueIdx.ix1 (0 : Fin 1)) := by
  rw [keep10_b]
  exact V1_b m c

theorem ent10_W (outs : Outs (F := F)) (c : Dev nD) : V21 m outs c main_arg3 = m ((c : Thread nD τ).loc main_arg3) :=
  (V21_of m outs c main_arg3 (by decide)).trans <| (V20_of m outs c main_arg3 (by decide)).trans <| ent9_W m outs c

theorem ent10_src (outs : Outs (F := F)) (c : Dev nD) (t : Fin 62500) :
    (V21 m outs c main_v42 : S62500.Idx → Elt F .i32) (ValueIdx.ix1 t)
      = (m ((c : Thread nD τ).loc main_arg1) : S1000000.Idx → Elt F .i32) (ValueIdx.ix1 ⟨62500 * 10 + t.val, by omega⟩) := by
  have e : (V21 m outs c main_v42 : S62500.Idx → Elt F .i32)
      = extractStridedSlice S62500 ![625000] (V20 m outs c main_arg1 : S1000000.Idx → Elt F .i32)
          slices_S1000000_S62500_625000 := by
    show StableHlo.after hostOps10 _ (Proc.devRef .tc main_v42) = _
    after_results
  rw [e, keep10_arg1]
  exact slice_read _ 10 625000 (by decide) _ t _

theorem ent10_dst (outs : Outs (F := F)) (c : Dev nD) (t : Fin 62500) :
    (V21 m outs c main_v43 : S62500.Idx → Elt F .i32) (ValueIdx.ix1 t)
      = (m ((c : Thread nD τ).loc main_arg2) : S1000000.Idx → Elt F .i32) (ValueIdx.ix1 ⟨62500 * 10 + t.val, by omega⟩) := by
  have e : (V21 m outs c main_v43 : S62500.Idx → Elt F .i32)
      = extractStridedSlice S62500 ![625000] (V20 m outs c main_arg2 : S1000000.Idx → Elt F .i32)
          slices_S1000000_S62500_625000 := by
    show StableHlo.after hostOps10 _ (Proc.devRef .tc main_v43) = _
    after_results
  rw [e, keep10_arg2]
  exact slice_read _ 10 625000 (by decide) _ t _

/-! ### Region 11 -/

/-- Nothing up to region 11 writes the reshaped node features. -/
theorem keep11_h (outs : Outs (F := F)) (c : Dev nD) : V23 m outs c main_v1 = V1 m c main_v1 :=
  (V23_of m outs c main_v1 (by decide)).trans <| (V22_of m outs c main_v1 (by decide)).trans <| keep10_h m outs c

/-- Nothing up to region 11 writes the reshaped bias. -/
theorem keep11_b (outs : Outs (F := F)) (c : Dev nD) : V23 m outs c main_v0 = V1 m c main_v0 :=
  (V23_of m outs c main_v0 (by decide)).trans <| (V22_of m outs c main_v0 (by decide)).trans <| keep10_b m outs c

/-- The first table argument when stretch 11 starts is as launched. -/
theorem keep11_arg1 (outs : Outs (F := F)) (c : Dev nD) : V22 m outs c main_arg1 = m ((c : Thread nD τ).loc main_arg1) :=
  (V22_of m outs c main_arg1 (by decide)).trans <| (V21_of m outs c main_arg1 (by decide)).trans <| (keep10_arg1 m outs c)

/-- The second table argument when stretch 11 starts is as launched. -/
theorem keep11_arg2 (outs : Outs (F := F)) (c : Dev nD) : V22 m outs c main_arg2 = m ((c : Thread nD τ).loc main_arg2) :=
  (V22_of m outs c main_arg2 (by decide)).trans <| (V21_of m outs c main_arg2 (by decide)).trans <| (keep10_arg2 m outs c)

theorem ent11_h (outs : Outs (F := F)) (c : Dev nD) (r : Fin 100000) (j : Fin 128) :
    (V23 m outs c main_v1 : S100000x1x128.Idx → Elt F .f32) (ValueIdx.ix3 r (0 : Fin 1) j)
      = (m ((c : Thread nD τ).loc main_arg0) : S100000x128.Idx → Elt F .f32) (ValueIdx.ix2 r j) := by
  rw [keep11_h]
  exact V1_h m c r j

theorem ent11_b (outs : Outs (F := F)) (c : Dev nD) :
    (V23 m outs c main_v0 : S1x1.Idx → Elt F .f32) (ValueIdx.ix2 (0 : Fin 1) (0 : Fin 1))
      = (m ((c : Thread nD τ).loc main_arg4) : S1.Idx → Elt F .f32) (ValueIdx.ix1 (0 : Fin 1)) := by
  rw [keep11_b]
  exact V1_b m c

theorem ent11_W (outs : Outs (F := F)) (c : Dev nD) : V23 m outs c main_arg3 = m ((c : Thread nD τ).loc main_arg3) :=
  (V23_of m outs c main_arg3 (by decide)).trans <| (V22_of m outs c main_arg3 (by decide)).trans <| ent10_W m outs c

theorem ent11_src (outs : Outs (F := F)) (c : Dev nD) (t : Fin 62500) :
    (V23 m outs c main_v46 : S62500.Idx → Elt F .i32) (ValueIdx.ix1 t)
      = (m ((c : Thread nD τ).loc main_arg1) : S1000000.Idx → Elt F .i32) (ValueIdx.ix1 ⟨62500 * 11 + t.val, by omega⟩) := by
  have e : (V23 m outs c main_v46 : S62500.Idx → Elt F .i32)
      = extractStridedSlice S62500 ![687500] (V22 m outs c main_arg1 : S1000000.Idx → Elt F .i32)
          slices_S1000000_S62500_687500 := by
    show StableHlo.after hostOps11 _ (Proc.devRef .tc main_v46) = _
    after_results
  rw [e, keep11_arg1]
  exact slice_read _ 11 687500 (by decide) _ t _

theorem ent11_dst (outs : Outs (F := F)) (c : Dev nD) (t : Fin 62500) :
    (V23 m outs c main_v47 : S62500.Idx → Elt F .i32) (ValueIdx.ix1 t)
      = (m ((c : Thread nD τ).loc main_arg2) : S1000000.Idx → Elt F .i32) (ValueIdx.ix1 ⟨62500 * 11 + t.val, by omega⟩) := by
  have e : (V23 m outs c main_v47 : S62500.Idx → Elt F .i32)
      = extractStridedSlice S62500 ![687500] (V22 m outs c main_arg2 : S1000000.Idx → Elt F .i32)
          slices_S1000000_S62500_687500 := by
    show StableHlo.after hostOps11 _ (Proc.devRef .tc main_v47) = _
    after_results
  rw [e, keep11_arg2]
  exact slice_read _ 11 687500 (by decide) _ t _

/-! ### Region 12 -/

/-- Nothing up to region 12 writes the reshaped node features. -/
theorem keep12_h (outs : Outs (F := F)) (c : Dev nD) : V25 m outs c main_v1 = V1 m c main_v1 :=
  (V25_of m outs c main_v1 (by decide)).trans <| (V24_of m outs c main_v1 (by decide)).trans <| keep11_h m outs c

/-- Nothing up to region 12 writes the reshaped bias. -/
theorem keep12_b (outs : Outs (F := F)) (c : Dev nD) : V25 m outs c main_v0 = V1 m c main_v0 :=
  (V25_of m outs c main_v0 (by decide)).trans <| (V24_of m outs c main_v0 (by decide)).trans <| keep11_b m outs c

/-- The first table argument when stretch 12 starts is as launched. -/
theorem keep12_arg1 (outs : Outs (F := F)) (c : Dev nD) : V24 m outs c main_arg1 = m ((c : Thread nD τ).loc main_arg1) :=
  (V24_of m outs c main_arg1 (by decide)).trans <| (V23_of m outs c main_arg1 (by decide)).trans <| (keep11_arg1 m outs c)

/-- The second table argument when stretch 12 starts is as launched. -/
theorem keep12_arg2 (outs : Outs (F := F)) (c : Dev nD) : V24 m outs c main_arg2 = m ((c : Thread nD τ).loc main_arg2) :=
  (V24_of m outs c main_arg2 (by decide)).trans <| (V23_of m outs c main_arg2 (by decide)).trans <| (keep11_arg2 m outs c)

theorem ent12_h (outs : Outs (F := F)) (c : Dev nD) (r : Fin 100000) (j : Fin 128) :
    (V25 m outs c main_v1 : S100000x1x128.Idx → Elt F .f32) (ValueIdx.ix3 r (0 : Fin 1) j)
      = (m ((c : Thread nD τ).loc main_arg0) : S100000x128.Idx → Elt F .f32) (ValueIdx.ix2 r j) := by
  rw [keep12_h]
  exact V1_h m c r j

theorem ent12_b (outs : Outs (F := F)) (c : Dev nD) :
    (V25 m outs c main_v0 : S1x1.Idx → Elt F .f32) (ValueIdx.ix2 (0 : Fin 1) (0 : Fin 1))
      = (m ((c : Thread nD τ).loc main_arg4) : S1.Idx → Elt F .f32) (ValueIdx.ix1 (0 : Fin 1)) := by
  rw [keep12_b]
  exact V1_b m c

theorem ent12_W (outs : Outs (F := F)) (c : Dev nD) : V25 m outs c main_arg3 = m ((c : Thread nD τ).loc main_arg3) :=
  (V25_of m outs c main_arg3 (by decide)).trans <| (V24_of m outs c main_arg3 (by decide)).trans <| ent11_W m outs c

theorem ent12_src (outs : Outs (F := F)) (c : Dev nD) (t : Fin 62500) :
    (V25 m outs c main_v50 : S62500.Idx → Elt F .i32) (ValueIdx.ix1 t)
      = (m ((c : Thread nD τ).loc main_arg1) : S1000000.Idx → Elt F .i32) (ValueIdx.ix1 ⟨62500 * 12 + t.val, by omega⟩) := by
  have e : (V25 m outs c main_v50 : S62500.Idx → Elt F .i32)
      = extractStridedSlice S62500 ![750000] (V24 m outs c main_arg1 : S1000000.Idx → Elt F .i32)
          slices_S1000000_S62500_750000 := by
    show StableHlo.after hostOps12 _ (Proc.devRef .tc main_v50) = _
    after_results
  rw [e, keep12_arg1]
  exact slice_read _ 12 750000 (by decide) _ t _

theorem ent12_dst (outs : Outs (F := F)) (c : Dev nD) (t : Fin 62500) :
    (V25 m outs c main_v51 : S62500.Idx → Elt F .i32) (ValueIdx.ix1 t)
      = (m ((c : Thread nD τ).loc main_arg2) : S1000000.Idx → Elt F .i32) (ValueIdx.ix1 ⟨62500 * 12 + t.val, by omega⟩) := by
  have e : (V25 m outs c main_v51 : S62500.Idx → Elt F .i32)
      = extractStridedSlice S62500 ![750000] (V24 m outs c main_arg2 : S1000000.Idx → Elt F .i32)
          slices_S1000000_S62500_750000 := by
    show StableHlo.after hostOps12 _ (Proc.devRef .tc main_v51) = _
    after_results
  rw [e, keep12_arg2]
  exact slice_read _ 12 750000 (by decide) _ t _

/-! ### Region 13 -/

/-- Nothing up to region 13 writes the reshaped node features. -/
theorem keep13_h (outs : Outs (F := F)) (c : Dev nD) : V27 m outs c main_v1 = V1 m c main_v1 :=
  (V27_of m outs c main_v1 (by decide)).trans <| (V26_of m outs c main_v1 (by decide)).trans <| keep12_h m outs c

/-- Nothing up to region 13 writes the reshaped bias. -/
theorem keep13_b (outs : Outs (F := F)) (c : Dev nD) : V27 m outs c main_v0 = V1 m c main_v0 :=
  (V27_of m outs c main_v0 (by decide)).trans <| (V26_of m outs c main_v0 (by decide)).trans <| keep12_b m outs c

/-- The first table argument when stretch 13 starts is as launched. -/
theorem keep13_arg1 (outs : Outs (F := F)) (c : Dev nD) : V26 m outs c main_arg1 = m ((c : Thread nD τ).loc main_arg1) :=
  (V26_of m outs c main_arg1 (by decide)).trans <| (V25_of m outs c main_arg1 (by decide)).trans <| (keep12_arg1 m outs c)

/-- The second table argument when stretch 13 starts is as launched. -/
theorem keep13_arg2 (outs : Outs (F := F)) (c : Dev nD) : V26 m outs c main_arg2 = m ((c : Thread nD τ).loc main_arg2) :=
  (V26_of m outs c main_arg2 (by decide)).trans <| (V25_of m outs c main_arg2 (by decide)).trans <| (keep12_arg2 m outs c)

theorem ent13_h (outs : Outs (F := F)) (c : Dev nD) (r : Fin 100000) (j : Fin 128) :
    (V27 m outs c main_v1 : S100000x1x128.Idx → Elt F .f32) (ValueIdx.ix3 r (0 : Fin 1) j)
      = (m ((c : Thread nD τ).loc main_arg0) : S100000x128.Idx → Elt F .f32) (ValueIdx.ix2 r j) := by
  rw [keep13_h]
  exact V1_h m c r j

theorem ent13_b (outs : Outs (F := F)) (c : Dev nD) :
    (V27 m outs c main_v0 : S1x1.Idx → Elt F .f32) (ValueIdx.ix2 (0 : Fin 1) (0 : Fin 1))
      = (m ((c : Thread nD τ).loc main_arg4) : S1.Idx → Elt F .f32) (ValueIdx.ix1 (0 : Fin 1)) := by
  rw [keep13_b]
  exact V1_b m c

theorem ent13_W (outs : Outs (F := F)) (c : Dev nD) : V27 m outs c main_arg3 = m ((c : Thread nD τ).loc main_arg3) :=
  (V27_of m outs c main_arg3 (by decide)).trans <| (V26_of m outs c main_arg3 (by decide)).trans <| ent12_W m outs c

theorem ent13_src (outs : Outs (F := F)) (c : Dev nD) (t : Fin 62500) :
    (V27 m outs c main_v54 : S62500.Idx → Elt F .i32) (ValueIdx.ix1 t)
      = (m ((c : Thread nD τ).loc main_arg1) : S1000000.Idx → Elt F .i32) (ValueIdx.ix1 ⟨62500 * 13 + t.val, by omega⟩) := by
  have e : (V27 m outs c main_v54 : S62500.Idx → Elt F .i32)
      = extractStridedSlice S62500 ![812500] (V26 m outs c main_arg1 : S1000000.Idx → Elt F .i32)
          slices_S1000000_S62500_812500 := by
    show StableHlo.after hostOps13 _ (Proc.devRef .tc main_v54) = _
    after_results
  rw [e, keep13_arg1]
  exact slice_read _ 13 812500 (by decide) _ t _

theorem ent13_dst (outs : Outs (F := F)) (c : Dev nD) (t : Fin 62500) :
    (V27 m outs c main_v55 : S62500.Idx → Elt F .i32) (ValueIdx.ix1 t)
      = (m ((c : Thread nD τ).loc main_arg2) : S1000000.Idx → Elt F .i32) (ValueIdx.ix1 ⟨62500 * 13 + t.val, by omega⟩) := by
  have e : (V27 m outs c main_v55 : S62500.Idx → Elt F .i32)
      = extractStridedSlice S62500 ![812500] (V26 m outs c main_arg2 : S1000000.Idx → Elt F .i32)
          slices_S1000000_S62500_812500 := by
    show StableHlo.after hostOps13 _ (Proc.devRef .tc main_v55) = _
    after_results
  rw [e, keep13_arg2]
  exact slice_read _ 13 812500 (by decide) _ t _

/-! ### Region 14 -/

/-- Nothing up to region 14 writes the reshaped node features. -/
theorem keep14_h (outs : Outs (F := F)) (c : Dev nD) : V29 m outs c main_v1 = V1 m c main_v1 :=
  (V29_of m outs c main_v1 (by decide)).trans <| (V28_of m outs c main_v1 (by decide)).trans <| keep13_h m outs c

/-- Nothing up to region 14 writes the reshaped bias. -/
theorem keep14_b (outs : Outs (F := F)) (c : Dev nD) : V29 m outs c main_v0 = V1 m c main_v0 :=
  (V29_of m outs c main_v0 (by decide)).trans <| (V28_of m outs c main_v0 (by decide)).trans <| keep13_b m outs c

/-- The first table argument when stretch 14 starts is as launched. -/
theorem keep14_arg1 (outs : Outs (F := F)) (c : Dev nD) : V28 m outs c main_arg1 = m ((c : Thread nD τ).loc main_arg1) :=
  (V28_of m outs c main_arg1 (by decide)).trans <| (V27_of m outs c main_arg1 (by decide)).trans <| (keep13_arg1 m outs c)

/-- The second table argument when stretch 14 starts is as launched. -/
theorem keep14_arg2 (outs : Outs (F := F)) (c : Dev nD) : V28 m outs c main_arg2 = m ((c : Thread nD τ).loc main_arg2) :=
  (V28_of m outs c main_arg2 (by decide)).trans <| (V27_of m outs c main_arg2 (by decide)).trans <| (keep13_arg2 m outs c)

theorem ent14_h (outs : Outs (F := F)) (c : Dev nD) (r : Fin 100000) (j : Fin 128) :
    (V29 m outs c main_v1 : S100000x1x128.Idx → Elt F .f32) (ValueIdx.ix3 r (0 : Fin 1) j)
      = (m ((c : Thread nD τ).loc main_arg0) : S100000x128.Idx → Elt F .f32) (ValueIdx.ix2 r j) := by
  rw [keep14_h]
  exact V1_h m c r j

theorem ent14_b (outs : Outs (F := F)) (c : Dev nD) :
    (V29 m outs c main_v0 : S1x1.Idx → Elt F .f32) (ValueIdx.ix2 (0 : Fin 1) (0 : Fin 1))
      = (m ((c : Thread nD τ).loc main_arg4) : S1.Idx → Elt F .f32) (ValueIdx.ix1 (0 : Fin 1)) := by
  rw [keep14_b]
  exact V1_b m c

theorem ent14_W (outs : Outs (F := F)) (c : Dev nD) : V29 m outs c main_arg3 = m ((c : Thread nD τ).loc main_arg3) :=
  (V29_of m outs c main_arg3 (by decide)).trans <| (V28_of m outs c main_arg3 (by decide)).trans <| ent13_W m outs c

theorem ent14_src (outs : Outs (F := F)) (c : Dev nD) (t : Fin 62500) :
    (V29 m outs c main_v58 : S62500.Idx → Elt F .i32) (ValueIdx.ix1 t)
      = (m ((c : Thread nD τ).loc main_arg1) : S1000000.Idx → Elt F .i32) (ValueIdx.ix1 ⟨62500 * 14 + t.val, by omega⟩) := by
  have e : (V29 m outs c main_v58 : S62500.Idx → Elt F .i32)
      = extractStridedSlice S62500 ![875000] (V28 m outs c main_arg1 : S1000000.Idx → Elt F .i32)
          slices_S1000000_S62500_875000 := by
    show StableHlo.after hostOps14 _ (Proc.devRef .tc main_v58) = _
    after_results
  rw [e, keep14_arg1]
  exact slice_read _ 14 875000 (by decide) _ t _

theorem ent14_dst (outs : Outs (F := F)) (c : Dev nD) (t : Fin 62500) :
    (V29 m outs c main_v59 : S62500.Idx → Elt F .i32) (ValueIdx.ix1 t)
      = (m ((c : Thread nD τ).loc main_arg2) : S1000000.Idx → Elt F .i32) (ValueIdx.ix1 ⟨62500 * 14 + t.val, by omega⟩) := by
  have e : (V29 m outs c main_v59 : S62500.Idx → Elt F .i32)
      = extractStridedSlice S62500 ![875000] (V28 m outs c main_arg2 : S1000000.Idx → Elt F .i32)
          slices_S1000000_S62500_875000 := by
    show StableHlo.after hostOps14 _ (Proc.devRef .tc main_v59) = _
    after_results
  rw [e, keep14_arg2]
  exact slice_read _ 14 875000 (by decide) _ t _

/-! ### Region 15 -/

/-- Nothing up to region 15 writes the reshaped node features. -/
theorem keep15_h (outs : Outs (F := F)) (c : Dev nD) : V31 m outs c main_v1 = V1 m c main_v1 :=
  (V31_of m outs c main_v1 (by decide)).trans <| (V30_of m outs c main_v1 (by decide)).trans <| keep14_h m outs c

/-- Nothing up to region 15 writes the reshaped bias. -/
theorem keep15_b (outs : Outs (F := F)) (c : Dev nD) : V31 m outs c main_v0 = V1 m c main_v0 :=
  (V31_of m outs c main_v0 (by decide)).trans <| (V30_of m outs c main_v0 (by decide)).trans <| keep14_b m outs c

/-- The first table argument when stretch 15 starts is as launched. -/
theorem keep15_arg1 (outs : Outs (F := F)) (c : Dev nD) : V30 m outs c main_arg1 = m ((c : Thread nD τ).loc main_arg1) :=
  (V30_of m outs c main_arg1 (by decide)).trans <| (V29_of m outs c main_arg1 (by decide)).trans <| (keep14_arg1 m outs c)

/-- The second table argument when stretch 15 starts is as launched. -/
theorem keep15_arg2 (outs : Outs (F := F)) (c : Dev nD) : V30 m outs c main_arg2 = m ((c : Thread nD τ).loc main_arg2) :=
  (V30_of m outs c main_arg2 (by decide)).trans <| (V29_of m outs c main_arg2 (by decide)).trans <| (keep14_arg2 m outs c)

theorem ent15_h (outs : Outs (F := F)) (c : Dev nD) (r : Fin 100000) (j : Fin 128) :
    (V31 m outs c main_v1 : S100000x1x128.Idx → Elt F .f32) (ValueIdx.ix3 r (0 : Fin 1) j)
      = (m ((c : Thread nD τ).loc main_arg0) : S100000x128.Idx → Elt F .f32) (ValueIdx.ix2 r j) := by
  rw [keep15_h]
  exact V1_h m c r j

theorem ent15_b (outs : Outs (F := F)) (c : Dev nD) :
    (V31 m outs c main_v0 : S1x1.Idx → Elt F .f32) (ValueIdx.ix2 (0 : Fin 1) (0 : Fin 1))
      = (m ((c : Thread nD τ).loc main_arg4) : S1.Idx → Elt F .f32) (ValueIdx.ix1 (0 : Fin 1)) := by
  rw [keep15_b]
  exact V1_b m c

theorem ent15_W (outs : Outs (F := F)) (c : Dev nD) : V31 m outs c main_arg3 = m ((c : Thread nD τ).loc main_arg3) :=
  (V31_of m outs c main_arg3 (by decide)).trans <| (V30_of m outs c main_arg3 (by decide)).trans <| ent14_W m outs c

theorem ent15_src (outs : Outs (F := F)) (c : Dev nD) (t : Fin 62500) :
    (V31 m outs c main_v62 : S62500.Idx → Elt F .i32) (ValueIdx.ix1 t)
      = (m ((c : Thread nD τ).loc main_arg1) : S1000000.Idx → Elt F .i32) (ValueIdx.ix1 ⟨62500 * 15 + t.val, by omega⟩) := by
  have e : (V31 m outs c main_v62 : S62500.Idx → Elt F .i32)
      = extractStridedSlice S62500 ![937500] (V30 m outs c main_arg1 : S1000000.Idx → Elt F .i32)
          slices_S1000000_S62500_937500 := by
    show StableHlo.after hostOps15 _ (Proc.devRef .tc main_v62) = _
    after_results
  rw [e, keep15_arg1]
  exact slice_read _ 15 937500 (by decide) _ t _

theorem ent15_dst (outs : Outs (F := F)) (c : Dev nD) (t : Fin 62500) :
    (V31 m outs c main_v63 : S62500.Idx → Elt F .i32) (ValueIdx.ix1 t)
      = (m ((c : Thread nD τ).loc main_arg2) : S1000000.Idx → Elt F .i32) (ValueIdx.ix1 ⟨62500 * 15 + t.val, by omega⟩) := by
  have e : (V31 m outs c main_v63 : S62500.Idx → Elt F .i32)
      = extractStridedSlice S62500 ![937500] (V30 m outs c main_arg2 : S1000000.Idx → Elt F .i32)
          slices_S1000000_S62500_937500 := by
    show StableHlo.after hostOps15 _ (Proc.devRef .tc main_v63) = _
    after_results
  rw [e, keep15_arg2]
  exact slice_read _ 15 937500 (by decide) _ t _

end Cert.KernelIdeal.Hand
-- ==== Proof.PayloadAt.lean ====
/-
  The kernel body's one stored value as a pure term, read at its single index at the exact-real instance
  (floats are extended reals): a lane sum over a one-row block is the sum of its 128 entries, and the stored value is
  the two sums of entrywise products plus the last operand's entry. The sixteen kernel functions print the same term.
-/
import proofs.«405368_j31662498906597_2_alg».proof.Proof.Gen.KernelIdeal.Skeleton
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.PayloadAt

open Cert.KernelIdeal Cert.KernelIdeal.Gen Idealize.ShloMosaic Idealize.ShloMosaic.ValueIdx
open scoped BigOperators

/-- A sum over the lane axis of a one-row block, read at its one index: the sum of the row's 128 entries. -/
theorem laneSum_at (x : FVec Ideal S1x128 .f32) (hφ : FKind.Formats .f32)
    (hacc : (0x00000000#32 : BitVec 32) = 0x00000000#32) :
    multiReduction (F := Ideal) .add [1] S1 x 0x00000000#32 reduces_S1x128_S1 hφ hacc (ix1 (0 : Fin 1))
      = ∑ j : Fin 128, x (ix2 (0 : Fin 1) j) := by
  refine (Ideal.multiReduction_add_single x 0x00000000#32 reduces_S1x128_S1 hφ hacc (ix1 (0 : Fin 1))).trans ?_
  refine Finset.sum_congr rfl fun k _ => congrArg x ?_
  funext c
  match c with
  | ⟨0, _⟩ => rfl
  | ⟨1, _⟩ => rfl

/-- The kernel's one stored value at its one index: the two 128-term sums of entrywise products — the first
    [1,1,128] block against the first [1,128] row, the second against the second — plus the [1,1] operand's entry. -/
theorem k0_pay1_at (v0 v1 : Vec Ideal S1x128 .f32) (v2 v7 : Vec Ideal S1x1x128 .f32) (v13 : Vec Ideal S1x1 .f32) :
    k0_pay1 (F := Ideal) v0 v1 v2 v7 v13 (ix3 (0 : Fin 1) (0 : Fin 1) (0 : Fin 1))
      = (∑ j : Fin 128, v2 (ix3 (0 : Fin 1) (0 : Fin 1) j) * v0 (ix2 (0 : Fin 1) j))
        + (∑ j : Fin 128, v7 (ix3 (0 : Fin 1) (0 : Fin 1) j) * v1 (ix2 (0 : Fin 1) j))
        + v13 (ix2 (0 : Fin 1) (0 : Fin 1)) := by
  unfold k0_pay1
  rw [shapeCast_ab_1ab_apply, addf_apply, addf_apply, shapeCast_self, shapeCast_a_1a_apply, shapeCast_a_1a_apply,
    laneSum_at, laneSum_at]
  simp only [mulf_apply, shapeCast_1ab_ab_apply]

/-! The sixteen kernel functions store the same term: each later payload is the first one. -/

theorem k1_pay1_eq {F : FTy → Type} [FloatOps F] : @k1_pay1 F _ = @k0_pay1 F _ := rfl
theorem k2_pay1_eq {F : FTy → Type} [FloatOps F] : @k2_pay1 F _ = @k0_pay1 F _ := rfl
theorem k3_pay1_eq {F : FTy → Type} [FloatOps F] : @k3_pay1 F _ = @k0_pay1 F _ := rfl
theorem k4_pay1_eq {F : FTy → Type} [FloatOps F] : @k4_pay1 F _ = @k0_pay1 F _ := rfl
theorem k5_pay1_eq {F : FTy → Type} [FloatOps F] : @k5_pay1 F _ = @k0_pay1 F _ := rfl
theorem k6_pay1_eq {F : FTy → Type} [FloatOps F] : @k6_pay1 F _ = @k0_pay1 F _ := rfl
theorem k7_pay1_eq {F : FTy → Type} [FloatOps F] : @k7_pay1 F _ = @k0_pay1 F _ := rfl
theorem k8_pay1_eq {F : FTy → Type} [FloatOps F] : @k8_pay1 F _ = @k0_pay1 F _ := rfl
theorem k9_pay1_eq {F : FTy → Type} [FloatOps F] : @k9_pay1 F _ = @k0_pay1 F _ := rfl
theorem k10_pay1_eq {F : FTy → Type} [FloatOps F] : @k10_pay1 F _ = @k0_pay1 F _ := rfl
theorem k11_pay1_eq {F : FTy → Type} [FloatOps F] : @k11_pay1 F _ = @k0_pay1 F _ := rfl
theorem k12_pay1_eq {F : FTy → Type} [FloatOps F] : @k12_pay1 F _ = @k0_pay1 F _ := rfl
theorem k13_pay1_eq {F : FTy → Type} [FloatOps F] : @k13_pay1 F _ = @k0_pay1 F _ := rfl
theorem k14_pay1_eq {F : FTy → Type} [FloatOps F] : @k14_pay1 F _ = @k0_pay1 F _ := rfl
theorem k15_pay1_eq {F : FTy → Type} [FloatOps F] : @k15_pay1 F _ = @k0_pay1 F _ := rfl

end Cert.PayloadAt
-- ==== Proof.KIValue0.lean ====
/-
  Region 0's output chunk, entry by entry, at the exact-real instance.

  The region's pipeline has 62500 points, one per edge of its chunk. At point `t` the output window's block is the single
  cell `(t, 0, 0)` of the output array; the two gathered windows' blocks are rows `src t` and `dst t` of the feature
  array, `src t` and `dst t` being entry `t` of the two index tables read as natural numbers; the weight window's and the
  bias window's blocks are the whole arrays. The body leaves in the output block the score of the two rows,
    (∑ j < 128, h[src t, j] · W[0, j]) + (∑ j < 128, h[dst t, j] · W[0, 128 + j]) + b[0, 0].
  Every point writes its block back (the output's block index moves at every point) and point `t`'s block covers index
  `(t, 0, 0)`, so after the run the output array holds at `(t, 0, 0)` the score of point `t`. Every fact about the
  pipeline is proved with the tables' contents a variable; the region's own tables are put in last.
-/
import proofs.«405368_j31662498906597_2_alg».proof.Proof.KIFamily
import proofs.«405368_j31662498906597_2_alg».proof.Proof.PayloadAt
import proofs.«405368_j31662498906597_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

/-! ## The grid and the index maps, at any contents of the two tables -/

section Generic
variable {F : FTy → Type} [FloatOps F]
variable (V : (c : Dev nD) → (b : Ref sig .tc) → Buf (Elt F) ((c : Thread nD τ).loc b)) (a : (pcfg0 (F := F)).Adm)

/-- The grid has one axis of 62500 points, -/
theorem chunk0_N : (cfg0 a).N = 62500 := N_0

/-- consecutive points are consecutive along it, -/
theorem chunk0_stride : (cfg0 a).grid.stride 0 = 1 := (by decide : grid0.stride 0 = 1)

/-- so point `t`'s one coordinate is `t`. -/
theorem chunk0_coords (t : Fin (cfg0 a).N) : ((cfg0 a).grid.coords t 0).val = t.val := by
  have ht : t.val < 62500 := (chunk0_N a) ▸ t.isLt
  show t.val / (cfg0 a).grid.stride 0 % 62500 = t.val
  rw [chunk0_stride a, Nat.div_one, Nat.mod_eq_of_lt ht]

/-- The output window's block index at point `t` is `(t, 0, 0)`. -/
theorem chunk0_idx4_0 (t : Fin (cfg0 a).N) : ((cfg0 a).win 4).index t (0 : Fin 3) = t.val := by
  have ht : t.val < 62500 := (chunk0_N a) ▸ t.isLt
  show (BitVec.ofNat 32 ((cfg0 a).grid.coords t 0).val).toNat = t.val
  rw [chunk0_coords, BitVec.toNat_ofNat]
  omega
theorem chunk0_idx4_1 (t : Fin (cfg0 a).N) : ((cfg0 a).win 4).index t (1 : Fin 3) = 0 := rfl
theorem chunk0_idx4_2 (t : Fin (cfg0 a).N) : ((cfg0 a).win 4).index t (2 : Fin 3) = 0 := rfl

/-- The source window's block index at point `t` is `(src t, 0, 0)`, `src t` the first table's entry `t` read as a natural number, -/
theorem chunk0_idx0_0 (t : Fin (cfg0 a).N) (e : Fin 62500) (he : e.val = t.val) :
    ((cfg0 a).win 0).index t (0 : Fin 3) = ((a.1 0 : S62500.Idx → BitVec 32) (ValueIdx.ix1 e)).toNat := by
  have ht : t.val < 62500 := (chunk0_N a) ▸ t.isLt
  show ((a.1 0 : S62500.Idx → BitVec 32) _).toNat = _
  refine congrArg (fun i => ((a.1 0 : S62500.Idx → BitVec 32) i).toNat) ?_
  funext ax
  apply Fin.ext
  match ax with
  | ⟨0, _⟩ =>
    show (Scalar.indexCast (BitVec.ofNat 32 ((cfg0 a).grid.coords t 0).val)).toNat + 1 * 0 = e.val
    rw [chunk0_coords, he]
    show (BitVec.ofNat 32 t.val).toNat + 1 * 0 = t.val
    rw [BitVec.toNat_ofNat]
    omega
theorem chunk0_idx0_1 (t : Fin (cfg0 a).N) : ((cfg0 a).win 0).index t (1 : Fin 3) = 0 := rfl
theorem chunk0_idx0_2 (t : Fin (cfg0 a).N) : ((cfg0 a).win 0).index t (2 : Fin 3) = 0 := rfl

/-- and the destination window's is `(dst t, 0, 0)`, from the second table. -/
theorem chunk0_idx1_0 (t : Fin (cfg0 a).N) (e : Fin 62500) (he : e.val = t.val) :
    ((cfg0 a).win 1).index t (0 : Fin 3) = ((a.1 1 : S62500.Idx → BitVec 32) (ValueIdx.ix1 e)).toNat := by
  have ht : t.val < 62500 := (chunk0_N a) ▸ t.isLt
  show ((a.1 1 : S62500.Idx → BitVec 32) _).toNat = _
  refine congrArg (fun i => ((a.1 1 : S62500.Idx → BitVec 32) i).toNat) ?_
  funext ax
  apply Fin.ext
  match ax with
  | ⟨0, _⟩ =>
    show (Scalar.indexCast (BitVec.ofNat 32 ((cfg0 a).grid.coords t 0).val)).toNat + 1 * 0 = e.val
    rw [chunk0_coords, he]
    show (BitVec.ofNat 32 t.val).toNat + 1 * 0 = t.val
    rw [BitVec.toNat_ofNat]
    omega
theorem chunk0_idx1_1 (t : Fin (cfg0 a).N) : ((cfg0 a).win 1).index t (1 : Fin 3) = 0 := rfl
theorem chunk0_idx1_2 (t : Fin (cfg0 a).N) : ((cfg0 a).win 1).index t (2 : Fin 3) = 0 := rfl

end Generic

/-! ## The five blocks at a point, read where the arrays are -/

section Blocks
variable {F : FTy → Type} [FloatOps F]
variable (V : (c : Dev nD) → (b : Ref sig .tc) → Buf (Elt F) ((c : Thread nD τ).loc b)) (a : (pcfg0 (F := F)).Adm)

/-- The source window's block at point `t` is row `rs` of the feature array when its block index there is `rs`. -/
theorem chunk0_blk0 (c : Dev nD) (t : Fin (cfg0 a).N) (rs : Fin 100000)
    (hrs : ((cfg0 a).win 0).index t (0 : Fin 3) = rs.val) (j : Fin 128) :
    (iblk0 V a c 0 t : Vec F S1x1x128 .f32) (ValueIdx.ix3 (0 : Fin 1) (0 : Fin 1) j)
      = (V c main_v1 : S100000x1x128.Idx → Elt F .f32) (ValueIdx.ix3 rs (0 : Fin 1) j) := by
  show V c main_v1 ((((cfg0 a).win 0).blk t).view.emb (ValueIdx.ix3 (0 : Fin 1) (0 : Fin 1) j)) = V c main_v1 (ValueIdx.ix3 rs (0 : Fin 1) j)
  refine congrArg (V c main_v1) ?_
  funext ax
  apply Fin.ext
  match ax with
  | ⟨0, _⟩ => show ((cfg0 a).win 0).index t (0 : Fin 3) * 1 + 1 * 0 = rs.val; rw [hrs]; omega
  | ⟨1, _⟩ => show ((cfg0 a).win 0).index t (1 : Fin 3) * 1 + 1 * 0 = 0; rw [chunk0_idx0_1]
  | ⟨2, _⟩ => show ((cfg0 a).win 0).index t (2 : Fin 3) * 128 + 1 * j.val = j.val; rw [chunk0_idx0_2]; omega

/-- The destination window's block likewise, at its own block index. -/
theorem chunk0_blk1 (c : Dev nD) (t : Fin (cfg0 a).N) (rd : Fin 100000)
    (hrd : ((cfg0 a).win 1).index t (0 : Fin 3) = rd.val) (j : Fin 128) :
    (iblk0 V a c 1 t : Vec F S1x1x128 .f32) (ValueIdx.ix3 (0 : Fin 1) (0 : Fin 1) j)
      = (V c main_v1 : S100000x1x128.Idx → Elt F .f32) (ValueIdx.ix3 rd (0 : Fin 1) j) := by
  show V c main_v1 ((((cfg0 a).win 1).blk t).view.emb (ValueIdx.ix3 (0 : Fin 1) (0 : Fin 1) j)) = V c main_v1 (ValueIdx.ix3 rd (0 : Fin 1) j)
  refine congrArg (V c main_v1) ?_
  funext ax
  apply Fin.ext
  match ax with
  | ⟨0, _⟩ => show ((cfg0 a).win 1).index t (0 : Fin 3) * 1 + 1 * 0 = rd.val; rw [hrd]; omega
  | ⟨1, _⟩ => show ((cfg0 a).win 1).index t (1 : Fin 3) * 1 + 1 * 0 = 0; rw [chunk0_idx1_1]
  | ⟨2, _⟩ => show ((cfg0 a).win 1).index t (2 : Fin 3) * 128 + 1 * j.val = j.val; rw [chunk0_idx1_2]; omega

/-- The weights' block is the whole weight array, -/
theorem chunk0_blk2 (c : Dev nD) (t : Fin (cfg0 a).N) (k : Fin 256) :
    (iblk0 V a c 2 t : Vec F S1x256 .f32) (ValueIdx.ix2 (0 : Fin 1) k)
      = (V c main_arg3 : S1x256.Idx → Elt F .f32) (ValueIdx.ix2 (0 : Fin 1) k) := by
  show V c main_arg3 ((((cfg0 a).win 2).blk t).view.emb (ValueIdx.ix2 (0 : Fin 1) k)) = V c main_arg3 (ValueIdx.ix2 (0 : Fin 1) k)
  refine congrArg (V c main_arg3) ?_
  funext ax
  apply Fin.ext
  match ax with
  | ⟨0, _⟩ => show ((cfg0 a).win 2).index t (0 : Fin 2) * 1 + 1 * 0 = 0; rfl
  | ⟨1, _⟩ => show ((cfg0 a).win 2).index t (1 : Fin 2) * 256 + 1 * k.val = k.val; rw [show ((cfg0 a).win 2).index t (1 : Fin 2) = 0 from rfl]; omega

/-- and the bias's block the whole bias array. -/
theorem chunk0_blk3 (c : Dev nD) (t : Fin (cfg0 a).N) :
    (iblk0 V a c 3 t : Vec F S1x1 .f32) (ValueIdx.ix2 (0 : Fin 1) (0 : Fin 1))
      = (V c main_v0 : S1x1.Idx → Elt F .f32) (ValueIdx.ix2 (0 : Fin 1) (0 : Fin 1)) := by
  show V c main_v0 ((((cfg0 a).win 3).blk t).view.emb (ValueIdx.ix2 (0 : Fin 1) (0 : Fin 1))) = V c main_v0 (ValueIdx.ix2 (0 : Fin 1) (0 : Fin 1))
  refine congrArg (V c main_v0) ?_
  funext ax
  apply Fin.ext
  match ax with
  | ⟨0, _⟩ => show ((cfg0 a).win 3).index t (0 : Fin 2) * 1 + 1 * 0 = 0; rfl
  | ⟨1, _⟩ => show ((cfg0 a).win 3).index t (1 : Fin 2) * 1 + 1 * 0 = 0; rfl

end Blocks

/-! ## The score the body stores, from its four input buffers -/

theorem chunk0_hz3 : (![0, 0, 0] : Fin 3 → Nat) = fun _ => 0 := funext fun ax => by fin_cases ax <;> rfl
theorem chunk0_hz2 : (![0, 0] : Fin 2 → Nat) = fun _ => 0 := funext fun ax => by fin_cases ax <;> rfl

/-- A one-cell block has the one index. -/
theorem chunk0_cell (y : S1x1x1.Idx) : y = ValueIdx.ix3 (0 : Fin 1) (0 : Fin 1) (0 : Fin 1) := by
  funext ax
  apply Fin.ext
  match ax with
  | ⟨0, _⟩ => show (y 0).val = 0; have h : (y 0).val < 1 := (y 0).isLt; omega
  | ⟨1, _⟩ => show (y 1).val = 0; have h : (y 1).val < 1 := (y 1).isLt; omega
  | ⟨2, _⟩ => show (y 2).val = 0; have h : (y 2).val < 1 := (y 2).isLt; omega

/-- The stored value at its one index: the two 128-term sums of entrywise products plus the last operand's entry
    (a lane sum over a one-row block is the sum of the row's entries). -/
theorem chunk0_pay (v0 v1 : Vec Ideal S1x128 .f32) (v2 v7 : Vec Ideal S1x1x128 .f32) (v13 : Vec Ideal S1x1 .f32) :
    k0_pay1 (F := Ideal) v0 v1 v2 v7 v13 (ValueIdx.ix3 (0 : Fin 1) (0 : Fin 1) (0 : Fin 1))
      = (∑ j : Fin 128, v2 (ValueIdx.ix3 (0 : Fin 1) (0 : Fin 1) j) * v0 (ValueIdx.ix2 (0 : Fin 1) j))
        + (∑ j : Fin 128, v7 (ValueIdx.ix3 (0 : Fin 1) (0 : Fin 1) j) * v1 (ValueIdx.ix2 (0 : Fin 1) j))
        + v13 (ValueIdx.ix2 (0 : Fin 1) (0 : Fin 1)) := by
  unfold k0_pay1
  rw [shapeCast_ab_1ab_apply, addf_apply, addf_apply, shapeCast_self, shapeCast_a_1a_apply, shapeCast_a_1a_apply,
    Cert.PayloadAt.laneSum_at, Cert.PayloadAt.laneSum_at]
  simp only [mulf_apply, shapeCast_1ab_ab_apply]

/-- A load of the first half of the weights reads column `j`, of the second half column `128 + j`. -/
theorem chunk0_ldW0 (x : Vec Ideal S1x256 .f32) (j : Fin 128) :
    View.ld x rW0 (ValueIdx.ix2 (0 : Fin 1) j) = x (ValueIdx.ix2 (0 : Fin 1) (Cert.Spec.lo j)) := by
  show x _ = x _
  refine congrArg x ?_
  funext ax
  apply Fin.ext
  match ax with
  | ⟨0, _⟩ => show 0 + 1 * 0 = 0; rfl
  | ⟨1, _⟩ => show 0 + 1 * j.val = j.val; omega
theorem chunk0_ldW1 (x : Vec Ideal S1x256 .f32) (j : Fin 128) :
    View.ld x rW1 (ValueIdx.ix2 (0 : Fin 1) j) = x (ValueIdx.ix2 (0 : Fin 1) (Cert.Spec.hi j)) := by
  show x _ = x _
  refine congrArg x ?_
  funext ax
  apply Fin.ext
  match ax with
  | ⟨0, _⟩ => show 0 + 1 * 0 = 0; rfl
  | ⟨1, _⟩ => show 128 + 1 * j.val = 128 + j.val; omega

/-- The output buffer's one cell after the body: row `x0` against the first 128 weights, row `x1` against the last
    128, plus the bias. -/
theorem out0_at (x0 x1 : Vec Ideal S1x1x128 .f32) (x2 : Vec Ideal S1x256 .f32) (x3 : Vec Ideal S1x1 .f32) :
    out0 x0 x1 x2 x3 (ValueIdx.ix3 (0 : Fin 1) (0 : Fin 1) (0 : Fin 1))
      = (∑ j : Fin 128, x0 (ValueIdx.ix3 (0 : Fin 1) (0 : Fin 1) j) * x2 (ValueIdx.ix2 (0 : Fin 1) (Cert.Spec.lo j)))
        + (∑ j : Fin 128, x1 (ValueIdx.ix3 (0 : Fin 1) (0 : Fin 1) j) * x2 (ValueIdx.ix2 (0 : Fin 1) (Cert.Spec.hi j)))
        + x3 (ValueIdx.ix2 (0 : Fin 1) (0 : Fin 1)) := by
  unfold out0
  rw [View.canon_unit_zero chunk0_hz3, chunk0_pay,
    View.ld_unit_zero (S := S1x1x128) chunk0_hz3, View.ld_unit_zero (S := S1x1x128) chunk0_hz3, View.ld_unit_zero (S := S1x1) chunk0_hz2]
  refine congrArg₂ (· + ·) (congrArg₂ (· + ·) (Finset.sum_congr rfl fun j _ => ?_) (Finset.sum_congr rfl fun j _ => ?_)) rfl
  · exact congrArg (fun z => x0 (ValueIdx.ix3 (0 : Fin 1) (0 : Fin 1) j) * z) (chunk0_ldW0 x2 j)
  · exact congrArg (fun z => x1 (ValueIdx.ix3 (0 : Fin 1) (0 : Fin 1) j) * z) (chunk0_ldW1 x2 j)

/-! ## From the blocks to the output array -/

section Array
variable {F : FTy → Type} [FloatOps F]
variable (V : (c : Dev nD) → (b : Ref sig .tc) → Buf (Elt F) ((c : Thread nD τ).loc b)) (a : (pcfg0 (F := F)).Adm)

/-- The output's block index moves at every point, so every point writes its block back. -/
theorem chunk0_flush (t : Fin (cfg0 a).N) : ((cfg0 a).win 4).flush t = true := by
  have hN : (cfg0 a).grid.N = 62500 := N_0
  have ht : t.val < 62500 := (chunk0_N a) ▸ t.isLt
  rw [Window.flush_out _ rfl]
  by_cases h : t.val + 1 = 62500
  · exact Or.inl (h.trans hN.symm)
  · refine Or.inr ⟨Nat.lt_of_lt_of_eq (by omega : t.val + 1 < 62500) hN.symm, fun e => ?_⟩
    have e0 := congrFun e (0 : Fin 3)
    rw [chunk0_idx4_0, chunk0_idx4_0] at e0
    exact absurd e0 (Nat.succ_ne_self _)

/-- Point `t`'s block is the one cell `(t, 0, 0)` of the output array. -/
theorem chunk0_mem (t : Fin (cfg0 a).N) (i : S62500x1x1.Idx) (hi : (i 0).val = t.val) :
    i ∈ (((cfg0 a).win 4).blk t).view.set := by
  have e : (((cfg0 a).win 4).blk t).view.emb (ValueIdx.ix3 (0 : Fin 1) (0 : Fin 1) (0 : Fin 1)) = i := by
    funext ax
    apply Fin.ext
    match ax with
    | ⟨0, _⟩ =>
      show ((cfg0 a).win 4).index t (0 : Fin 3) * 1 + 1 * 0 = (i 0).val
      rw [chunk0_idx4_0]; omega
    | ⟨1, _⟩ =>
      show ((cfg0 a).win 4).index t (1 : Fin 3) * 1 + 1 * 0 = (i 1).val
      have h : (i 1).val < 1 := (i 1).isLt
      rw [chunk0_idx4_1]; omega
    | ⟨2, _⟩ =>
      show ((cfg0 a).win 4).index t (2 : Fin 3) * 1 + 1 * 0 = (i 2).val
      have h : (i 2).val < 1 := (i 2).isLt
      rw [chunk0_idx4_2]; omega
  exact Finset.mem_map.mpr ⟨ValueIdx.ix3 (0 : Fin 1) (0 : Fin 1) (0 : Fin 1), Finset.mem_univ _, e⟩

/-- The score the body leaves at point `t`, as a term of the four input blocks there. -/
def chunk0_score (c : Dev nD) (t : Fin (cfg0 a).N) : Elt F .f32 :=
  out0 (iblk0 V a c 0 t) (iblk0 V a c 1 t) (iblk0 V a c 2 t) (iblk0 V a c 3 t) (ValueIdx.ix3 (0 : Fin 1) (0 : Fin 1) (0 : Fin 1))

/-- The whole output array the points write: at `(r, 0, 0)` point `r`'s score. -/
def chunk0_G (c : Dev nD) : S62500x1x1.Idx → Elt F .f32 :=
  fun i => chunk0_score V a c ⟨(i 0).val, (chunk0_N a).symm ▸ (i 0).isLt⟩

/-- What point `t` writes back is its block of that array. -/
theorem chunk0_flushed (c : Dev nD) (t : Fin (cfg0 a).N) :
    (dat0 V a c).flushed 4 t = (((cfg0 a).win 4).blk t).view.read (Elt F) (chunk0_G V a c) := by
  show ((cfg0 a).win 4).cut ((cfg0 a).grid.coords t) ((dat0 V a c).after 4 t) = _
  rw [after0_4]
  funext y
  show out0 (iblk0 V a c 0 t) (iblk0 V a c 1 t) (iblk0 V a c 2 t) (iblk0 V a c 3 t) (((cfg0 a).win 4).xinj ((cfg0 a).grid.coords t) y)
    = chunk0_G V a c ((((cfg0 a).win 4).blk t).view.emb y)
  refine (congrArg (out0 (iblk0 V a c 0 t) (iblk0 V a c 1 t) (iblk0 V a c 2 t) (iblk0 V a c 3 t)) (chunk0_cell _)).trans ?_
  show chunk0_score V a c t = chunk0_score V a c _
  refine congrArg (chunk0_score V a c) (Fin.ext ?_)
  show t.val = ((cfg0 a).win 4).index t (0 : Fin 3) * 1 + 1 * (y (0 : Fin 3)).val
  have h : (y (0 : Fin 3)).val < 1 := (y (0 : Fin 3)).isLt
  rw [chunk0_idx4_0]; omega

/-- The output array after the run, at `(t, 0, 0)`: point `t`'s score. -/
theorem chunk0_arr (c : Dev nD) (t : Fin (cfg0 a).N) (i : S62500x1x1.Idx) (hi : (i 0).val = t.val) :
    ((dat0 V a c).arrAt 4 (cfg0 a).N : S62500x1x1.Idx → Elt F .f32) i = chunk0_score V a c t := by
  refine ((dat0 V a c).arrAt_apply_of_mem 4 (chunk0_G V a c) (fun t _ => chunk0_flushed V a c t) (cfg0 a).N t i t.isLt
    (chunk0_flush a t) (chunk0_mem a t i hi)).trans ?_
  show chunk0_score V a c _ = chunk0_score V a c t
  exact congrArg (chunk0_score V a c) (Fin.ext hi)

end Array

/-! ## The output array at the exact-real instance -/

/-- The output array after region 0's pipeline, at edge `t`: the score of the two rows the tables name for `t` —
    at any buffers and any admissible contents of the tables; `h`, `W`, `b` name the feature, weight and bias arrays
    the region finds. -/
theorem chunk0_arr_at (V : (c : Dev nD) → (b : Ref sig .tc) → Buf (Elt Ideal) ((c : Thread nD τ).loc b))
    (a : (pcfg0 (F := Ideal)).Adm) (c : Dev nD) (t : Fin 62500) (rs rd : Fin 100000)
    (hrs : ((a.1 0 : S62500.Idx → BitVec 32) (ValueIdx.ix1 t)).toNat = rs.val)
    (hrd : ((a.1 1 : S62500.Idx → BitVec 32) (ValueIdx.ix1 t)).toNat = rd.val)
    (h : S100000x1x128.Idx → EReal) (W : S1x256.Idx → EReal) (b : S1x1.Idx → EReal)
    (hh : (V c main_v1 : S100000x1x128.Idx → EReal) = h) (hW : (V c main_arg3 : S1x256.Idx → EReal) = W)
    (hb : (V c main_v0 : S1x1.Idx → EReal) = b) :
    ((dat0 V a c).arrAt 4 (cfg0 a).N : S62500x1x1.Idx → EReal) (ValueIdx.ix3 t (0 : Fin 1) (0 : Fin 1))
      = (∑ j : Fin 128, h (ValueIdx.ix3 rs (0 : Fin 1) j) * W (ValueIdx.ix2 (0 : Fin 1) (Cert.Spec.lo j)))
        + (∑ j : Fin 128, h (ValueIdx.ix3 rd (0 : Fin 1) j) * W (ValueIdx.ix2 (0 : Fin 1) (Cert.Spec.hi j)))
        + b (ValueIdx.ix2 (0 : Fin 1) (0 : Fin 1)) := by
  have ht : t.val < (cfg0 a).N := (chunk0_N a).symm ▸ t.isLt
  refine (chunk0_arr V a c ⟨t.val, ht⟩ (ValueIdx.ix3 t (0 : Fin 1) (0 : Fin 1)) rfl).trans ?_
  unfold chunk0_score
  refine (out0_at (iblk0 V a c 0 ⟨t.val, ht⟩) (iblk0 V a c 1 ⟨t.val, ht⟩) (iblk0 V a c 2 ⟨t.val, ht⟩) (iblk0 V a c 3 ⟨t.val, ht⟩)).trans ?_
  refine congrArg₂ (· + ·) (congrArg₂ (· + ·) (Finset.sum_congr rfl fun j _ => ?_) (Finset.sum_congr rfl fun j _ => ?_)) ?_
  · exact congrArg₂ (· * ·)
      ((chunk0_blk0 V a c ⟨t.val, ht⟩ rs ((chunk0_idx0_0 a ⟨t.val, ht⟩ t rfl).trans hrs) j).trans (congrFun hh _))
      ((chunk0_blk2 V a c ⟨t.val, ht⟩ (Cert.Spec.lo j)).trans (congrFun hW _))
  · exact congrArg₂ (· * ·)
      ((chunk0_blk1 V a c ⟨t.val, ht⟩ rd ((chunk0_idx1_0 a ⟨t.val, ht⟩ t rfl).trans hrd) j).trans (congrFun hh _))
      ((chunk0_blk2 V a c ⟨t.val, ht⟩ (Cert.Spec.hi j)).trans (congrFun hW _))
  · exact (chunk0_blk3 V a c ⟨t.val, ht⟩).trans (congrFun hb _)

set_option maxHeartbeats 3200000 in
/-- Entry `t` of region 0's output chunk is edge `t`'s score, computed from the rows the two tables name: `rs` and `rd`
    are entry `t` of the two tables, and `h`, `W`, `b` the feature, weight and bias arrays as the region finds them. -/
theorem chunk0_at (m : (ℓ : Loc nD τ sig) → Buf (Elt Ideal) ℓ) (hO : Oks m) (c : Dev nD) (t : Fin 62500) (rs rd : Fin 100000)
    (hrs : ((tbl0 m 0 : S62500.Idx → BitVec 32) (ValueIdx.ix1 t)).toNat = rs.val)
    (hrd : ((tbl0 m 1 : S62500.Idx → BitVec 32) (ValueIdx.ix1 t)).toNat = rd.val)
    (h : S100000x1x128.Idx → EReal) (W : S1x256.Idx → EReal) (b : S1x1.Idx → EReal)
    (hh : (Ve0 m c main_v1 : S100000x1x128.Idx → EReal) = h) (hW : (Ve0 m c main_arg3 : S1x256.Idx → EReal) = W)
    (hb : (Ve0 m c main_v0 : S1x1.Idx → EReal) = b) :
    (chunk0 m hO c : S62500x1x1.Idx → EReal) (ValueIdx.ix3 t (0 : Fin 1) (0 : Fin 1))
      = (∑ j : Fin 128, h (ValueIdx.ix3 rs (0 : Fin 1) j) * W (ValueIdx.ix2 (0 : Fin 1) (Cert.Spec.lo j)))
        + (∑ j : Fin 128, h (ValueIdx.ix3 rd (0 : Fin 1) j) * W (ValueIdx.ix2 (0 : Fin 1) (Cert.Spec.hi j)))
        + b (ValueIdx.ix2 (0 : Fin 1) (0 : Fin 1)) := by
  have key := fun (hok : ok0 (F := Ideal) (tbl0 m)) =>
    chunk0_arr_at (Ve0 m) ⟨tbl0 m, hok⟩ c t rs rd hrs hrd h W b hh hW hb
  unfold chunk0
  exact key _

end Cert.KernelIdeal.Hand
end
-- ==== Proof.KIValue1.lean ====
/-
  Region 1's output chunk, entry by entry, at the exact-real instance.

  The region's pipeline has 62500 points, one per edge of its chunk. At point `t` the output window's block is the single
  cell `(t, 0, 0)` of the output array; the two gathered windows' blocks are rows `src t` and `dst t` of the feature
  array, `src t` and `dst t` being entry `t` of the two index tables read as natural numbers; the weight window's and the
  bias window's blocks are the whole arrays. The body leaves in the output block the score of the two rows,
    (∑ j < 128, h[src t, j] · W[0, j]) + (∑ j < 128, h[dst t, j] · W[0, 128 + j]) + b[0, 0].
  Every point writes its block back (the output's block index moves at every point) and point `t`'s block covers index
  `(t, 0, 0)`, so after the run the output array holds at `(t, 0, 0)` the score of point `t`. Every fact about the
  pipeline is proved with the tables' contents a variable; the region's own tables are put in last.
-/
import proofs.«405368_j31662498906597_2_alg».proof.Proof.KIFamily
import proofs.«405368_j31662498906597_2_alg».proof.Proof.PayloadAt
import proofs.«405368_j31662498906597_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

/-! ## The grid and the index maps, at any contents of the two tables -/

section Generic
variable {F : FTy → Type} [FloatOps F]
variable (V : (c : Dev nD) → (b : Ref sig .tc) → Buf (Elt F) ((c : Thread nD τ).loc b)) (a : (pcfg1 (F := F)).Adm)

/-- The grid has one axis of 62500 points, -/
theorem chunk1_N : (cfg1 a).N = 62500 := N_1

/-- consecutive points are consecutive along it, -/
theorem chunk1_stride : (cfg1 a).grid.stride 0 = 1 := (by decide : grid1.stride 0 = 1)

/-- so point `t`'s one coordinate is `t`. -/
theorem chunk1_coords (t : Fin (cfg1 a).N) : ((cfg1 a).grid.coords t 0).val = t.val := by
  have ht : t.val < 62500 := (chunk1_N a) ▸ t.isLt
  show t.val / (cfg1 a).grid.stride 0 % 62500 = t.val
  rw [chunk1_stride a, Nat.div_one, Nat.mod_eq_of_lt ht]

/-- The output window's block index at point `t` is `(t, 0, 0)`. -/
theorem chunk1_idx4_0 (t : Fin (cfg1 a).N) : ((cfg1 a).win 4).index t (0 : Fin 3) = t.val := by
  have ht : t.val < 62500 := (chunk1_N a) ▸ t.isLt
  show (BitVec.ofNat 32 ((cfg1 a).grid.coords t 0).val).toNat = t.val
  rw [chunk1_coords, BitVec.toNat_ofNat]
  omega
theorem chunk1_idx4_1 (t : Fin (cfg1 a).N) : ((cfg1 a).win 4).index t (1 : Fin 3) = 0 := rfl
theorem chunk1_idx4_2 (t : Fin (cfg1 a).N) : ((cfg1 a).win 4).index t (2 : Fin 3) = 0 := rfl

/-- The source window's block index at point `t` is `(src t, 0, 0)`, `src t` the first table's entry `t` read as a natural number, -/
theorem chunk1_idx0_0 (t : Fin (cfg1 a).N) (e : Fin 62500) (he : e.val = t.val) :
    ((cfg1 a).win 0).index t (0 : Fin 3) = ((a.1 0 : S62500.Idx → BitVec 32) (ValueIdx.ix1 e)).toNat := by
  have ht : t.val < 62500 := (chunk1_N a) ▸ t.isLt
  show ((a.1 0 : S62500.Idx → BitVec 32) _).toNat = _
  refine congrArg (fun i => ((a.1 0 : S62500.Idx → BitVec 32) i).toNat) ?_
  funext ax
  apply Fin.ext
  match ax with
  | ⟨0, _⟩ =>
    show (Scalar.indexCast (BitVec.ofNat 32 ((cfg1 a).grid.coords t 0).val)).toNat + 1 * 0 = e.val
    rw [chunk1_coords, he]
    show (BitVec.ofNat 32 t.val).toNat + 1 * 0 = t.val
    rw [BitVec.toNat_ofNat]
    omega
theorem chunk1_idx0_1 (t : Fin (cfg1 a).N) : ((cfg1 a).win 0).index t (1 : Fin 3) = 0 := rfl
theorem chunk1_idx0_2 (t : Fin (cfg1 a).N) : ((cfg1 a).win 0).index t (2 : Fin 3) = 0 := rfl

/-- and the destination window's is `(dst t, 0, 0)`, from the second table. -/
theorem chunk1_idx1_0 (t : Fin (cfg1 a).N) (e : Fin 62500) (he : e.val = t.val) :
    ((cfg1 a).win 1).index t (0 : Fin 3) = ((a.1 1 : S62500.Idx → BitVec 32) (ValueIdx.ix1 e)).toNat := by
  have ht : t.val < 62500 := (chunk1_N a) ▸ t.isLt
  show ((a.1 1 : S62500.Idx → BitVec 32) _).toNat = _
  refine congrArg (fun i => ((a.1 1 : S62500.Idx → BitVec 32) i).toNat) ?_
  funext ax
  apply Fin.ext
  match ax with
  | ⟨0, _⟩ =>
    show (Scalar.indexCast (BitVec.ofNat 32 ((cfg1 a).grid.coords t 0).val)).toNat + 1 * 0 = e.val
    rw [chunk1_coords, he]
    show (BitVec.ofNat 32 t.val).toNat + 1 * 0 = t.val
    rw [BitVec.toNat_ofNat]
    omega
theorem chunk1_idx1_1 (t : Fin (cfg1 a).N) : ((cfg1 a).win 1).index t (1 : Fin 3) = 0 := rfl
theorem chunk1_idx1_2 (t : Fin (cfg1 a).N) : ((cfg1 a).win 1).index t (2 : Fin 3) = 0 := rfl

end Generic

/-! ## The five blocks at a point, read where the arrays are -/

section Blocks
variable {F : FTy → Type} [FloatOps F]
variable (V : (c : Dev nD) → (b : Ref sig .tc) → Buf (Elt F) ((c : Thread nD τ).loc b)) (a : (pcfg1 (F := F)).Adm)

/-- The source window's block at point `t` is row `rs` of the feature array when its block index there is `rs`. -/
theorem chunk1_blk0 (c : Dev nD) (t : Fin (cfg1 a).N) (rs : Fin 100000)
    (hrs : ((cfg1 a).win 0).index t (0 : Fin 3) = rs.val) (j : Fin 128) :
    (iblk1 V a c 0 t : Vec F S1x1x128 .f32) (ValueIdx.ix3 (0 : Fin 1) (0 : Fin 1) j)
      = (V c main_v1 : S100000x1x128.Idx → Elt F .f32) (ValueIdx.ix3 rs (0 : Fin 1) j) := by
  show V c main_v1 ((((cfg1 a).win 0).blk t).view.emb (ValueIdx.ix3 (0 : Fin 1) (0 : Fin 1) j)) = V c main_v1 (ValueIdx.ix3 rs (0 : Fin 1) j)
  refine congrArg (V c main_v1) ?_
  funext ax
  apply Fin.ext
  match ax with
  | ⟨0, _⟩ => show ((cfg1 a).win 0).index t (0 : Fin 3) * 1 + 1 * 0 = rs.val; rw [hrs]; omega
  | ⟨1, _⟩ => show ((cfg1 a).win 0).index t (1 : Fin 3) * 1 + 1 * 0 = 0; rw [chunk1_idx0_1]
  | ⟨2, _⟩ => show ((cfg1 a).win 0).index t (2 : Fin 3) * 128 + 1 * j.val = j.val; rw [chunk1_idx0_2]; omega

/-- The destination window's block likewise, at its own block index. -/
theorem chunk1_blk1 (c : Dev nD) (t : Fin (cfg1 a).N) (rd : Fin 100000)
    (hrd : ((cfg1 a).win 1).index t (0 : Fin 3) = rd.val) (j : Fin 128) :
    (iblk1 V a c 1 t : Vec F S1x1x128 .f32) (ValueIdx.ix3 (0 : Fin 1) (0 : Fin 1) j)
      = (V c main_v1 : S100000x1x128.Idx → Elt F .f32) (ValueIdx.ix3 rd (0 : Fin 1) j) := by
  show V c main_v1 ((((cfg1 a).win 1).blk t).view.emb (ValueIdx.ix3 (0 : Fin 1) (0 : Fin 1) j)) = V c main_v1 (ValueIdx.ix3 rd (0 : Fin 1) j)
  refine congrArg (V c main_v1) ?_
  funext ax
  apply Fin.ext
  match ax with
  | ⟨0, _⟩ => show ((cfg1 a).win 1).index t (0 : Fin 3) * 1 + 1 * 0 = rd.val; rw [hrd]; omega
  | ⟨1, _⟩ => show ((cfg1 a).win 1).index t (1 : Fin 3) * 1 + 1 * 0 = 0; rw [chunk1_idx1_1]
  | ⟨2, _⟩ => show ((cfg1 a).win 1).index t (2 : Fin 3) * 128 + 1 * j.val = j.val; rw [chunk1_idx1_2]; omega

/-- The weights' block is the whole weight array, -/
theorem chunk1_blk2 (c : Dev nD) (t : Fin (cfg1 a).N) (k : Fin 256) :
    (iblk1 V a c 2 t : Vec F S1x256 .f32) (ValueIdx.ix2 (0 : Fin 1) k)
      = (V c main_arg3 : S1x256.Idx → Elt F .f32) (ValueIdx.ix2 (0 : Fin 1) k) := by
  show V c main_arg3 ((((cfg1 a).win 2).blk t).view.emb (ValueIdx.ix2 (0 : Fin 1) k)) = V c main_arg3 (ValueIdx.ix2 (0 : Fin 1) k)
  refine congrArg (V c main_arg3) ?_
  funext ax
  apply Fin.ext
  match ax with
  | ⟨0, _⟩ => show ((cfg1 a).win 2).index t (0 : Fin 2) * 1 + 1 * 0 = 0; rfl
  | ⟨1, _⟩ => show ((cfg1 a).win 2).index t (1 : Fin 2) * 256 + 1 * k.val = k.val; rw [show ((cfg1 a).win 2).index t (1 : Fin 2) = 0 from rfl]; omega

/-- and the bias's block the whole bias array. -/
theorem chunk1_blk3 (c : Dev nD) (t : Fin (cfg1 a).N) :
    (iblk1 V a c 3 t : Vec F S1x1 .f32) (ValueIdx.ix2 (0 : Fin 1) (0 : Fin 1))
      = (V c main_v0 : S1x1.Idx → Elt F .f32) (ValueIdx.ix2 (0 : Fin 1) (0 : Fin 1)) := by
  show V c main_v0 ((((cfg1 a).win 3).blk t).view.emb (ValueIdx.ix2 (0 : Fin 1) (0 : Fin 1))) = V c main_v0 (ValueIdx.ix2 (0 : Fin 1) (0 : Fin 1))
  refine congrArg (V c main_v0) ?_
  funext ax
  apply Fin.ext
  match ax with
  | ⟨0, _⟩ => show ((cfg1 a).win 3).index t (0 : Fin 2) * 1 + 1 * 0 = 0; rfl
  | ⟨1, _⟩ => show ((cfg1 a).win 3).index t (1 : Fin 2) * 1 + 1 * 0 = 0; rfl

end Blocks

/-! ## The score the body stores, from its four input buffers -/

theorem chunk1_hz3 : (![0, 0, 0] : Fin 3 → Nat) = fun _ => 0 := funext fun ax => by fin_cases ax <;> rfl
theorem chunk1_hz2 : (![0, 0] : Fin 2 → Nat) = fun _ => 0 := funext fun ax => by fin_cases ax <;> rfl

/-- A one-cell block has the one index. -/
theorem chunk1_cell (y : S1x1x1.Idx) : y = ValueIdx.ix3 (0 : Fin 1) (0 : Fin 1) (0 : Fin 1) := by
  funext ax
  apply Fin.ext
  match ax with
  | ⟨0, _⟩ => show (y 0).val = 0; have h : (y 0).val < 1 := (y 0).isLt; omega
  | ⟨1, _⟩ => show (y 1).val = 0; have h : (y 1).val < 1 := (y 1).isLt; omega
  | ⟨2, _⟩ => show (y 2).val = 0; have h : (y 2).val < 1 := (y 2).isLt; omega

/-- The stored value at its one index: the two 128-term sums of entrywise products plus the last operand's entry
    (a lane sum over a one-row block is the sum of the row's entries). -/
theorem chunk1_pay (v0 v1 : Vec Ideal S1x128 .f32) (v2 v7 : Vec Ideal S1x1x128 .f32) (v13 : Vec Ideal S1x1 .f32) :
    k1_pay1 (F := Ideal) v0 v1 v2 v7 v13 (ValueIdx.ix3 (0 : Fin 1) (0 : Fin 1) (0 : Fin 1))
      = (∑ j : Fin 128, v2 (ValueIdx.ix3 (0 : Fin 1) (0 : Fin 1) j) * v0 (ValueIdx.ix2 (0 : Fin 1) j))
        + (∑ j : Fin 128, v7 (ValueIdx.ix3 (0 : Fin 1) (0 : Fin 1) j) * v1 (ValueIdx.ix2 (0 : Fin 1) j))
        + v13 (ValueIdx.ix2 (0 : Fin 1) (0 : Fin 1)) := by
  unfold k1_pay1
  rw [shapeCast_ab_1ab_apply, addf_apply, addf_apply, shapeCast_self, shapeCast_a_1a_apply, shapeCast_a_1a_apply,
    Cert.PayloadAt.laneSum_at, Cert.PayloadAt.laneSum_at]
  simp only [mulf_apply, shapeCast_1ab_ab_apply]

/-- A load of the first half of the weights reads column `j`, of the second half column `128 + j`. -/
theorem chunk1_ldW0 (x : Vec Ideal S1x256 .f32) (j : Fin 128) :
    View.ld x rW0 (ValueIdx.ix2 (0 : Fin 1) j) = x (ValueIdx.ix2 (0 : Fin 1) (Cert.Spec.lo j)) := by
  show x _ = x _
  refine congrArg x ?_
  funext ax
  apply Fin.ext
  match ax with
  | ⟨0, _⟩ => show 0 + 1 * 0 = 0; rfl
  | ⟨1, _⟩ => show 0 + 1 * j.val = j.val; omega
theorem chunk1_ldW1 (x : Vec Ideal S1x256 .f32) (j : Fin 128) :
    View.ld x rW1 (ValueIdx.ix2 (0 : Fin 1) j) = x (ValueIdx.ix2 (0 : Fin 1) (Cert.Spec.hi j)) := by
  show x _ = x _
  refine congrArg x ?_
  funext ax
  apply Fin.ext
  match ax with
  | ⟨0, _⟩ => show 0 + 1 * 0 = 0; rfl
  | ⟨1, _⟩ => show 128 + 1 * j.val = 128 + j.val; omega

/-- The output buffer's one cell after the body: row `x0` against the first 128 weights, row `x1` against the last
    128, plus the bias. -/
theorem out1_at (x0 x1 : Vec Ideal S1x1x128 .f32) (x2 : Vec Ideal S1x256 .f32) (x3 : Vec Ideal S1x1 .f32) :
    out1 x0 x1 x2 x3 (ValueIdx.ix3 (0 : Fin 1) (0 : Fin 1) (0 : Fin 1))
      = (∑ j : Fin 128, x0 (ValueIdx.ix3 (0 : Fin 1) (0 : Fin 1) j) * x2 (ValueIdx.ix2 (0 : Fin 1) (Cert.Spec.lo j)))
        + (∑ j : Fin 128, x1 (ValueIdx.ix3 (0 : Fin 1) (0 : Fin 1) j) * x2 (ValueIdx.ix2 (0 : Fin 1) (Cert.Spec.hi j)))
        + x3 (ValueIdx.ix2 (0 : Fin 1) (0 : Fin 1)) := by
  unfold out1
  rw [View.canon_unit_zero chunk1_hz3, chunk1_pay,
    View.ld_unit_zero (S := S1x1x128) chunk1_hz3, View.ld_unit_zero (S := S1x1x128) chunk1_hz3, View.ld_unit_zero (S := S1x1) chunk1_hz2]
  refine congrArg₂ (· + ·) (congrArg₂ (· + ·) (Finset.sum_congr rfl fun j _ => ?_) (Finset.sum_congr rfl fun j _ => ?_)) rfl
  · exact congrArg (fun z => x0 (ValueIdx.ix3 (0 : Fin 1) (0 : Fin 1) j) * z) (chunk1_ldW0 x2 j)
  · exact congrArg (fun z => x1 (ValueIdx.ix3 (0 : Fin 1) (0 : Fin 1) j) * z) (chunk1_ldW1 x2 j)

/-! ## From the blocks to the output array -/

section Array
variable {F : FTy → Type} [FloatOps F]
variable (V : (c : Dev nD) → (b : Ref sig .tc) → Buf (Elt F) ((c : Thread nD τ).loc b)) (a : (pcfg1 (F := F)).Adm)

/-- The output's block index moves at every point, so every point writes its block back. -/
theorem chunk1_flush (t : Fin (cfg1 a).N) : ((cfg1 a).win 4).flush t = true := by
  have hN : (cfg1 a).grid.N = 62500 := N_1
  have ht : t.val < 62500 := (chunk1_N a) ▸ t.isLt
  rw [Window.flush_out _ rfl]
  by_cases h : t.val + 1 = 62500
  · exact Or.inl (h.trans hN.symm)
  · refine Or.inr ⟨Nat.lt_of_lt_of_eq (by omega : t.val + 1 < 62500) hN.symm, fun e => ?_⟩
    have e0 := congrFun e (0 : Fin 3)
    rw [chunk1_idx4_0, chunk1_idx4_0] at e0
    exact absurd e0 (Nat.succ_ne_self _)

/-- Point `t`'s block is the one cell `(t, 0, 0)` of the output array. -/
theorem chunk1_mem (t : Fin (cfg1 a).N) (i : S62500x1x1.Idx) (hi : (i 0).val = t.val) :
    i ∈ (((cfg1 a).win 4).blk t).view.set := by
  have e : (((cfg1 a).win 4).blk t).view.emb (ValueIdx.ix3 (0 : Fin 1) (0 : Fin 1) (0 : Fin 1)) = i := by
    funext ax
    apply Fin.ext
    match ax with
    | ⟨0, _⟩ =>
      show ((cfg1 a).win 4).index t (0 : Fin 3) * 1 + 1 * 0 = (i 0).val
      rw [chunk1_idx4_0]; omega
    | ⟨1, _⟩ =>
      show ((cfg1 a).win 4).index t (1 : Fin 3) * 1 + 1 * 0 = (i 1).val
      have h : (i 1).val < 1 := (i 1).isLt
      rw [chunk1_idx4_1]; omega
    | ⟨2, _⟩ =>
      show ((cfg1 a).win 4).index t (2 : Fin 3) * 1 + 1 * 0 = (i 2).val
      have h : (i 2).val < 1 := (i 2).isLt
      rw [chunk1_idx4_2]; omega
  exact Finset.mem_map.mpr ⟨ValueIdx.ix3 (0 : Fin 1) (0 : Fin 1) (0 : Fin 1), Finset.mem_univ _, e⟩

/-- The score the body leaves at point `t`, as a term of the four input blocks there. -/
def chunk1_score (c : Dev nD) (t : Fin (cfg1 a).N) : Elt F .f32 :=
  out1 (iblk1 V a c 0 t) (iblk1 V a c 1 t) (iblk1 V a c 2 t) (iblk1 V a c 3 t) (ValueIdx.ix3 (0 : Fin 1) (0 : Fin 1) (0 : Fin 1))

/-- The whole output array the points write: at `(r, 0, 0)` point `r`'s score. -/
def chunk1_G (c : Dev nD) : S62500x1x1.Idx → Elt F .f32 :=
  fun i => chunk1_score V a c ⟨(i 0).val, (chunk1_N a).symm ▸ (i 0).isLt⟩

/-- What point `t` writes back is its block of that array. -/
theorem chunk1_flushed (c : Dev nD) (t : Fin (cfg1 a).N) :
    (dat1 V a c).flushed 4 t = (((cfg1 a).win 4).blk t).view.read (Elt F) (chunk1_G V a c) := by
  show ((cfg1 a).win 4).cut ((cfg1 a).grid.coords t) ((dat1 V a c).after 4 t) = _
  rw [after1_4]
  funext y
  show out1 (iblk1 V a c 0 t) (iblk1 V a c 1 t) (iblk1 V a c 2 t) (iblk1 V a c 3 t) (((cfg1 a).win 4).xinj ((cfg1 a).grid.coords t) y)
    = chunk1_G V a c ((((cfg1 a).win 4).blk t).view.emb y)
  refine (congrArg (out1 (iblk1 V a c 0 t) (iblk1 V a c 1 t) (iblk1 V a c 2 t) (iblk1 V a c 3 t)) (chunk1_cell _)).trans ?_
  show chunk1_score V a c t = chunk1_score V a c _
  refine congrArg (chunk1_score V a c) (Fin.ext ?_)
  show t.val = ((cfg1 a).win 4).index t (0 : Fin 3) * 1 + 1 * (y (0 : Fin 3)).val
  have h : (y (0 : Fin 3)).val < 1 := (y (0 : Fin 3)).isLt
  rw [chunk1_idx4_0]; omega

/-- The output array after the run, at `(t, 0, 0)`: point `t`'s score. -/
theorem chunk1_arr (c : Dev nD) (t : Fin (cfg1 a).N) (i : S62500x1x1.Idx) (hi : (i 0).val = t.val) :
    ((dat1 V a c).arrAt 4 (cfg1 a).N : S62500x1x1.Idx → Elt F .f32) i = chunk1_score V a c t := by
  refine ((dat1 V a c).arrAt_apply_of_mem 4 (chunk1_G V a c) (fun t _ => chunk1_flushed V a c t) (cfg1 a).N t i t.isLt
    (chunk1_flush a t) (chunk1_mem a t i hi)).trans ?_
  show chunk1_score V a c _ = chunk1_score V a c t
  exact congrArg (chunk1_score V a c) (Fin.ext hi)

end Array

/-! ## The output array at the exact-real instance -/

/-- The output array after region 1's pipeline, at edge `t`: the score of the two rows the tables name for `t` —
    at any buffers and any admissible contents of the tables; `h`, `W`, `b` name the feature, weight and bias arrays
    the region finds. -/
theorem chunk1_arr_at (V : (c : Dev nD) → (b : Ref sig .tc) → Buf (Elt Ideal) ((c : Thread nD τ).loc b))
    (a : (pcfg1 (F := Ideal)).Adm) (c : Dev nD) (t : Fin 62500) (rs rd : Fin 100000)
    (hrs : ((a.1 0 : S62500.Idx → BitVec 32) (ValueIdx.ix1 t)).toNat = rs.val)
    (hrd : ((a.1 1 : S62500.Idx → BitVec 32) (ValueIdx.ix1 t)).toNat = rd.val)
    (h : S100000x1x128.Idx → EReal) (W : S1x256.Idx → EReal) (b : S1x1.Idx → EReal)
    (hh : (V c main_v1 : S100000x1x128.Idx → EReal) = h) (hW : (V c main_arg3 : S1x256.Idx → EReal) = W)
    (hb : (V c main_v0 : S1x1.Idx → EReal) = b) :
    ((dat1 V a c).arrAt 4 (cfg1 a).N : S62500x1x1.Idx → EReal) (ValueIdx.ix3 t (0 : Fin 1) (0 : Fin 1))
      = (∑ j : Fin 128, h (ValueIdx.ix3 rs (0 : Fin 1) j) * W (ValueIdx.ix2 (0 : Fin 1) (Cert.Spec.lo j)))
        + (∑ j : Fin 128, h (ValueIdx.ix3 rd (0 : Fin 1) j) * W (ValueIdx.ix2 (0 : Fin 1) (Cert.Spec.hi j)))
        + b (ValueIdx.ix2 (0 : Fin 1) (0 : Fin 1)) := by
  have ht : t.val < (cfg1 a).N := (chunk1_N a).symm ▸ t.isLt
  refine (chunk1_arr V a c ⟨t.val, ht⟩ (ValueIdx.ix3 t (0 : Fin 1) (0 : Fin 1)) rfl).trans ?_
  unfold chunk1_score
  refine (out1_at (iblk1 V a c 0 ⟨t.val, ht⟩) (iblk1 V a c 1 ⟨t.val, ht⟩) (iblk1 V a c 2 ⟨t.val, ht⟩) (iblk1 V a c 3 ⟨t.val, ht⟩)).trans ?_
  refine congrArg₂ (· + ·) (congrArg₂ (· + ·) (Finset.sum_congr rfl fun j _ => ?_) (Finset.sum_congr rfl fun j _ => ?_)) ?_
  · exact congrArg₂ (· * ·)
      ((chunk1_blk0 V a c ⟨t.val, ht⟩ rs ((chunk1_idx0_0 a ⟨t.val, ht⟩ t rfl).trans hrs) j).trans (congrFun hh _))
      ((chunk1_blk2 V a c ⟨t.val, ht⟩ (Cert.Spec.lo j)).trans (congrFun hW _))
  · exact congrArg₂ (· * ·)
      ((chunk1_blk1 V a c ⟨t.val, ht⟩ rd ((chunk1_idx1_0 a ⟨t.val, ht⟩ t rfl).trans hrd) j).trans (congrFun hh _))
      ((chunk1_blk2 V a c ⟨t.val, ht⟩ (Cert.Spec.hi j)).trans (congrFun hW _))
  · exact (chunk1_blk3 V a c ⟨t.val, ht⟩).trans (congrFun hb _)

set_option maxHeartbeats 3200000 in
/-- Entry `t` of region 1's output chunk is edge `t`'s score, computed from the rows the two tables name: `rs` and `rd`
    are entry `t` of the two tables, and `h`, `W`, `b` the feature, weight and bias arrays as the region finds them. -/
theorem chunk1_at (m : (ℓ : Loc nD τ sig) → Buf (Elt Ideal) ℓ) (hO : Oks m) (c : Dev nD) (t : Fin 62500) (rs rd : Fin 100000)
    (hrs : ((tbl1 m 0 : S62500.Idx → BitVec 32) (ValueIdx.ix1 t)).toNat = rs.val)
    (hrd : ((tbl1 m 1 : S62500.Idx → BitVec 32) (ValueIdx.ix1 t)).toNat = rd.val)
    (h : S100000x1x128.Idx → EReal) (W : S1x256.Idx → EReal) (b : S1x1.Idx → EReal)
    (hh : (Ve1 m c main_v1 : S100000x1x128.Idx → EReal) = h) (hW : (Ve1 m c main_arg3 : S1x256.Idx → EReal) = W)
    (hb : (Ve1 m c main_v0 : S1x1.Idx → EReal) = b) :
    (chunk1 m hO c : S62500x1x1.Idx → EReal) (ValueIdx.ix3 t (0 : Fin 1) (0 : Fin 1))
      = (∑ j : Fin 128, h (ValueIdx.ix3 rs (0 : Fin 1) j) * W (ValueIdx.ix2 (0 : Fin 1) (Cert.Spec.lo j)))
        + (∑ j : Fin 128, h (ValueIdx.ix3 rd (0 : Fin 1) j) * W (ValueIdx.ix2 (0 : Fin 1) (Cert.Spec.hi j)))
        + b (ValueIdx.ix2 (0 : Fin 1) (0 : Fin 1)) := by
  have key := fun (hok : ok1 (F := Ideal) (tbl1 m)) =>
    chunk1_arr_at (Ve1 m) ⟨tbl1 m, hok⟩ c t rs rd hrs hrd h W b hh hW hb
  unfold chunk1
  exact key _

end Cert.KernelIdeal.Hand
end
-- ==== Proof.KIValue2.lean ====
/-
  Region 2's output chunk, entry by entry, at the exact-real instance.

  The region's pipeline has 62500 points, one per edge of its chunk. At point `t` the output window's block is the single
  cell `(t, 0, 0)` of the output array; the two gathered windows' blocks are rows `src t` and `dst t` of the feature
  array, `src t` and `dst t` being entry `t` of the two index tables read as natural numbers; the weight window's and the
  bias window's blocks are the whole arrays. The body leaves in the output block the score of the two rows,
    (∑ j < 128, h[src t, j] · W[0, j]) + (∑ j < 128, h[dst t, j] · W[0, 128 + j]) + b[0, 0].
  Every point writes its block back (the output's block index moves at every point) and point `t`'s block covers index
  `(t, 0, 0)`, so after the run the output array holds at `(t, 0, 0)` the score of point `t`. Every fact about the
  pipeline is proved with the tables' contents a variable; the region's own tables are put in last.
-/
import proofs.«405368_j31662498906597_2_alg».proof.Proof.KIFamily
import proofs.«405368_j31662498906597_2_alg».proof.Proof.PayloadAt
import proofs.«405368_j31662498906597_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

/-! ## The grid and the index maps, at any contents of the two tables -/

section Generic
variable {F : FTy → Type} [FloatOps F]
variable (V : (c : Dev nD) → (b : Ref sig .tc) → Buf (Elt F) ((c : Thread nD τ).loc b)) (a : (pcfg2 (F := F)).Adm)

/-- The grid has one axis of 62500 points, -/
theorem chunk2_N : (cfg2 a).N = 62500 := N_2

/-- consecutive points are consecutive along it, -/
theorem chunk2_stride : (cfg2 a).grid.stride 0 = 1 := (by decide : grid2.stride 0 = 1)

/-- so point `t`'s one coordinate is `t`. -/
theorem chunk2_coords (t : Fin (cfg2 a).N) : ((cfg2 a).grid.coords t 0).val = t.val := by
  have ht : t.val < 62500 := (chunk2_N a) ▸ t.isLt
  show t.val / (cfg2 a).grid.stride 0 % 62500 = t.val
  rw [chunk2_stride a, Nat.div_one, Nat.mod_eq_of_lt ht]

/-- The output window's block index at point `t` is `(t, 0, 0)`. -/
theorem chunk2_idx4_0 (t : Fin (cfg2 a).N) : ((cfg2 a).win 4).index t (0 : Fin 3) = t.val := by
  have ht : t.val < 62500 := (chunk2_N a) ▸ t.isLt
  show (BitVec.ofNat 32 ((cfg2 a).grid.coords t 0).val).toNat = t.val
  rw [chunk2_coords, BitVec.toNat_ofNat]
  omega
theorem chunk2_idx4_1 (t : Fin (cfg2 a).N) : ((cfg2 a).win 4).index t (1 : Fin 3) = 0 := rfl
theorem chunk2_idx4_2 (t : Fin (cfg2 a).N) : ((cfg2 a).win 4).index t (2 : Fin 3) = 0 := rfl

/-- The source window's block index at point `t` is `(src t, 0, 0)`, `src t` the first table's entry `t` read as a natural number, -/
theorem chunk2_idx0_0 (t : Fin (cfg2 a).N) (e : Fin 62500) (he : e.val = t.val) :
    ((cfg2 a).win 0).index t (0 : Fin 3) = ((a.1 0 : S62500.Idx → BitVec 32) (ValueIdx.ix1 e)).toNat := by
  have ht : t.val < 62500 := (chunk2_N a) ▸ t.isLt
  show ((a.1 0 : S62500.Idx → BitVec 32) _).toNat = _
  refine congrArg (fun i => ((a.1 0 : S62500.Idx → BitVec 32) i).toNat) ?_
  funext ax
  apply Fin.ext
  match ax with
  | ⟨0, _⟩ =>
    show (Scalar.indexCast (BitVec.ofNat 32 ((cfg2 a).grid.coords t 0).val)).toNat + 1 * 0 = e.val
    rw [chunk2_coords, he]
    show (BitVec.ofNat 32 t.val).toNat + 1 * 0 = t.val
    rw [BitVec.toNat_ofNat]
    omega
theorem chunk2_idx0_1 (t : Fin (cfg2 a).N) : ((cfg2 a).win 0).index t (1 : Fin 3) = 0 := rfl
theorem chunk2_idx0_2 (t : Fin (cfg2 a).N) : ((cfg2 a).win 0).index t (2 : Fin 3) = 0 := rfl

/-- and the destination window's is `(dst t, 0, 0)`, from the second table. -/
theorem chunk2_idx1_0 (t : Fin (cfg2 a).N) (e : Fin 62500) (he : e.val = t.val) :
    ((cfg2 a).win 1).index t (0 : Fin 3) = ((a.1 1 : S62500.Idx → BitVec 32) (ValueIdx.ix1 e)).toNat := by
  have ht : t.val < 62500 := (chunk2_N a) ▸ t.isLt
  show ((a.1 1 : S62500.Idx → BitVec 32) _).toNat = _
  refine congrArg (fun i => ((a.1 1 : S62500.Idx → BitVec 32) i).toNat) ?_
  funext ax
  apply Fin.ext
  match ax with
  | ⟨0, _⟩ =>
    show (Scalar.indexCast (BitVec.ofNat 32 ((cfg2 a).grid.coords t 0).val)).toNat + 1 * 0 = e.val
    rw [chunk2_coords, he]
    show (BitVec.ofNat 32 t.val).toNat + 1 * 0 = t.val
    rw [BitVec.toNat_ofNat]
    omega
theorem chunk2_idx1_1 (t : Fin (cfg2 a).N) : ((cfg2 a).win 1).index t (1 : Fin 3) = 0 := rfl
theorem chunk2_idx1_2 (t : Fin (cfg2 a).N) : ((cfg2 a).win 1).index t (2 : Fin 3) = 0 := rfl

end Generic

/-! ## The five blocks at a point, read where the arrays are -/

section Blocks
variable {F : FTy → Type} [FloatOps F]
variable (V : (c : Dev nD) → (b : Ref sig .tc) → Buf (Elt F) ((c : Thread nD τ).loc b)) (a : (pcfg2 (F := F)).Adm)

/-- The source window's block at point `t` is row `rs` of the feature array when its block index there is `rs`. -/
theorem chunk2_blk0 (c : Dev nD) (t : Fin (cfg2 a).N) (rs : Fin 100000)
    (hrs : ((cfg2 a).win 0).index t (0 : Fin 3) = rs.val) (j : Fin 128) :
    (iblk2 V a c 0 t : Vec F S1x1x128 .f32) (ValueIdx.ix3 (0 : Fin 1) (0 : Fin 1) j)
      = (V c main_v1 : S100000x1x128.Idx → Elt F .f32) (ValueIdx.ix3 rs (0 : Fin 1) j) := by
  show V c main_v1 ((((cfg2 a).win 0).blk t).view.emb (ValueIdx.ix3 (0 : Fin 1) (0 : Fin 1) j)) = V c main_v1 (ValueIdx.ix3 rs (0 : Fin 1) j)
  refine congrArg (V c main_v1) ?_
  funext ax
  apply Fin.ext
  match ax with
  | ⟨0, _⟩ => show ((cfg2 a).win 0).index t (0 : Fin 3) * 1 + 1 * 0 = rs.val; rw [hrs]; omega
  | ⟨1, _⟩ => show ((cfg2 a).win 0).index t (1 : Fin 3) * 1 + 1 * 0 = 0; rw [chunk2_idx0_1]
  | ⟨2, _⟩ => show ((cfg2 a).win 0).index t (2 : Fin 3) * 128 + 1 * j.val = j.val; rw [chunk2_idx0_2]; omega

/-- The destination window's block likewise, at its own block index. -/
theorem chunk2_blk1 (c : Dev nD) (t : Fin (cfg2 a).N) (rd : Fin 100000)
    (hrd : ((cfg2 a).win 1).index t (0 : Fin 3) = rd.val) (j : Fin 128) :
    (iblk2 V a c 1 t : Vec F S1x1x128 .f32) (ValueIdx.ix3 (0 : Fin 1) (0 : Fin 1) j)
      = (V c main_v1 : S100000x1x128.Idx → Elt F .f32) (ValueIdx.ix3 rd (0 : Fin 1) j) := by
  show V c main_v1 ((((cfg2 a).win 1).blk t).view.emb (ValueIdx.ix3 (0 : Fin 1) (0 : Fin 1) j)) = V c main_v1 (ValueIdx.ix3 rd (0 : Fin 1) j)
  refine congrArg (V c main_v1) ?_
  funext ax
  apply Fin.ext
  match ax with
  | ⟨0, _⟩ => show ((cfg2 a).win 1).index t (0 : Fin 3) * 1 + 1 * 0 = rd.val; rw [hrd]; omega
  | ⟨1, _⟩ => show ((cfg2 a).win 1).index t (1 : Fin 3) * 1 + 1 * 0 = 0; rw [chunk2_idx1_1]
  | ⟨2, _⟩ => show ((cfg2 a).win 1).index t (2 : Fin 3) * 128 + 1 * j.val = j.val; rw [chunk2_idx1_2]; omega

/-- The weights' block is the whole weight array, -/
theorem chunk2_blk2 (c : Dev nD) (t : Fin (cfg2 a).N) (k : Fin 256) :
    (iblk2 V a c 2 t : Vec F S1x256 .f32) (ValueIdx.ix2 (0 : Fin 1) k)
      = (V c main_arg3 : S1x256.Idx → Elt F .f32) (ValueIdx.ix2 (0 : Fin 1) k) := by
  show V c main_arg3 ((((cfg2 a).win 2).blk t).view.emb (ValueIdx.ix2 (0 : Fin 1) k)) = V c main_arg3 (ValueIdx.ix2 (0 : Fin 1) k)
  refine congrArg (V c main_arg3) ?_
  funext ax
  apply Fin.ext
  match ax with
  | ⟨0, _⟩ => show ((cfg2 a).win 2).index t (0 : Fin 2) * 1 + 1 * 0 = 0; rfl
  | ⟨1, _⟩ => show ((cfg2 a).win 2).index t (1 : Fin 2) * 256 + 1 * k.val = k.val; rw [show ((cfg2 a).win 2).index t (1 : Fin 2) = 0 from rfl]; omega

/-- and the bias's block the whole bias array. -/
theorem chunk2_blk3 (c : Dev nD) (t : Fin (cfg2 a).N) :
    (iblk2 V a c 3 t : Vec F S1x1 .f32) (ValueIdx.ix2 (0 : Fin 1) (0 : Fin 1))
      = (V c main_v0 : S1x1.Idx → Elt F .f32) (ValueIdx.ix2 (0 : Fin 1) (0 : Fin 1)) := by
  show V c main_v0 ((((cfg2 a).win 3).blk t).view.emb (ValueIdx.ix2 (0 : Fin 1) (0 : Fin 1))) = V c main_v0 (ValueIdx.ix2 (0 : Fin 1) (0 : Fin 1))
  refine congrArg (V c main_v0) ?_
  funext ax
  apply Fin.ext
  match ax with
  | ⟨0, _⟩ => show ((cfg2 a).win 3).index t (0 : Fin 2) * 1 + 1 * 0 = 0; rfl
  | ⟨1, _⟩ => show ((cfg2 a).win 3).index t (1 : Fin 2) * 1 + 1 * 0 = 0; rfl

end Blocks

/-! ## The score the body stores, from its four input buffers -/

theorem chunk2_hz3 : (![0, 0, 0] : Fin 3 → Nat) = fun _ => 0 := funext fun ax => by fin_cases ax <;> rfl
theorem chunk2_hz2 : (![0, 0] : Fin 2 → Nat) = fun _ => 0 := funext fun ax => by fin_cases ax <;> rfl

/-- A one-cell block has the one index. -/
theorem chunk2_cell (y : S1x1x1.Idx) : y = ValueIdx.ix3 (0 : Fin 1) (0 : Fin 1) (0 : Fin 1) := by
  funext ax
  apply Fin.ext
  match ax with
  | ⟨0, _⟩ => show (y 0).val = 0; have h : (y 0).val < 1 := (y 0).isLt; omega
  | ⟨1, _⟩ => show (y 1).val = 0; have h : (y 1).val < 1 := (y 1).isLt; omega
  | ⟨2, _⟩ => show (y 2).val = 0; have h : (y 2).val < 1 := (y 2).isLt; omega

/-- The stored value at its one index: the two 128-term sums of entrywise products plus the last operand's entry
    (a lane sum over a one-row block is the sum of the row's entries). -/
theorem chunk2_pay (v0 v1 : Vec Ideal S1x128 .f32) (v2 v7 : Vec Ideal S1x1x128 .f32) (v13 : Vec Ideal S1x1 .f32) :
    k2_pay1 (F := Ideal) v0 v1 v2 v7 v13 (ValueIdx.ix3 (0 : Fin 1) (0 : Fin 1) (0 : Fin 1))
      = (∑ j : Fin 128, v2 (ValueIdx.ix3 (0 : Fin 1) (0 : Fin 1) j) * v0 (ValueIdx.ix2 (0 : Fin 1) j))
        + (∑ j : Fin 128, v7 (ValueIdx.ix3 (0 : Fin 1) (0 : Fin 1) j) * v1 (ValueIdx.ix2 (0 : Fin 1) j))
        + v13 (ValueIdx.ix2 (0 : Fin 1) (0 : Fin 1)) := by
  unfold k2_pay1
  rw [shapeCast_ab_1ab_apply, addf_apply, addf_apply, shapeCast_self, shapeCast_a_1a_apply, shapeCast_a_1a_apply,
    Cert.PayloadAt.laneSum_at, Cert.PayloadAt.laneSum_at]
  simp only [mulf_apply, shapeCast_1ab_ab_apply]

/-- A load of the first half of the weights reads column `j`, of the second half column `128 + j`. -/
theorem chunk2_ldW0 (x : Vec Ideal S1x256 .f32) (j : Fin 128) :
    View.ld x rW0 (ValueIdx.ix2 (0 : Fin 1) j) = x (ValueIdx.ix2 (0 : Fin 1) (Cert.Spec.lo j)) := by
  show x _ = x _
  refine congrArg x ?_
  funext ax
  apply Fin.ext
  match ax with
  | ⟨0, _⟩ => show 0 + 1 * 0 = 0; rfl
  | ⟨1, _⟩ => show 0 + 1 * j.val = j.val; omega
theorem chunk2_ldW1 (x : Vec Ideal S1x256 .f32) (j : Fin 128) :
    View.ld x rW1 (ValueIdx.ix2 (0 : Fin 1) j) = x (ValueIdx.ix2 (0 : Fin 1) (Cert.Spec.hi j)) := by
  show x _ = x _
  refine congrArg x ?_
  funext ax
  apply Fin.ext
  match ax with
  | ⟨0, _⟩ => show 0 + 1 * 0 = 0; rfl
  | ⟨1, _⟩ => show 128 + 1 * j.val = 128 + j.val; omega

/-- The output buffer's one cell after the body: row `x0` against the first 128 weights, row `x1` against the last
    128, plus the bias. -/
theorem out2_at (x0 x1 : Vec Ideal S1x1x128 .f32) (x2 : Vec Ideal S1x256 .f32) (x3 : Vec Ideal S1x1 .f32) :
    out2 x0 x1 x2 x3 (ValueIdx.ix3 (0 : Fin 1) (0 : Fin 1) (0 : Fin 1))
      = (∑ j : Fin 128, x0 (ValueIdx.ix3 (0 : Fin 1) (0 : Fin 1) j) * x2 (ValueIdx.ix2 (0 : Fin 1) (Cert.Spec.lo j)))
        + (∑ j : Fin 128, x1 (ValueIdx.ix3 (0 : Fin 1) (0 : Fin 1) j) * x2 (ValueIdx.ix2 (0 : Fin 1) (Cert.Spec.hi j)))
        + x3 (ValueIdx.ix2 (0 : Fin 1) (0 : Fin 1)) := by
  unfold out2
  rw [View.canon_unit_zero chunk2_hz3, chunk2_pay,
    View.ld_unit_zero (S := S1x1x128) chunk2_hz3, View.ld_unit_zero (S := S1x1x128) chunk2_hz3, View.ld_unit_zero (S := S1x1) chunk2_hz2]
  refine congrArg₂ (· + ·) (congrArg₂ (· + ·) (Finset.sum_congr rfl fun j _ => ?_) (Finset.sum_congr rfl fun j _ => ?_)) rfl
  · exact congrArg (fun z => x0 (ValueIdx.ix3 (0 : Fin 1) (0 : Fin 1) j) * z) (chunk2_ldW0 x2 j)
  · exact congrArg (fun z => x1 (ValueIdx.ix3 (0 : Fin 1) (0 : Fin 1) j) * z) (chunk2_ldW1 x2 j)

/-! ## From the blocks to the output array -/

section Array
variable {F : FTy → Type} [FloatOps F]
variable (V : (c : Dev nD) → (b : Ref sig .tc) → Buf (Elt F) ((c : Thread nD τ).loc b)) (a : (pcfg2 (F := F)).Adm)

/-- The output's block index moves at every point, so every point writes its block back. -/
theorem chunk2_flush (t : Fin (cfg2 a).N) : ((cfg2 a).win 4).flush t = true := by
  have hN : (cfg2 a).grid.N = 62500 := N_2
  have ht : t.val < 62500 := (chunk2_N a) ▸ t.isLt
  rw [Window.flush_out _ rfl]
  by_cases h : t.val + 1 = 62500
  · exact Or.inl (h.trans hN.symm)
  · refine Or.inr ⟨Nat.lt_of_lt_of_eq (by omega : t.val + 1 < 62500) hN.symm, fun e => ?_⟩
    have e0 := congrFun e (0 : Fin 3)
    rw [chunk2_idx4_0, chunk2_idx4_0] at e0
    exact absurd e0 (Nat.succ_ne_self _)

/-- Point `t`'s block is the one cell `(t, 0, 0)` of the output array. -/
theorem chunk2_mem (t : Fin (cfg2 a).N) (i : S62500x1x1.Idx) (hi : (i 0).val = t.val) :
    i ∈ (((cfg2 a).win 4).blk t).view.set := by
  have e : (((cfg2 a).win 4).blk t).view.emb (ValueIdx.ix3 (0 : Fin 1) (0 : Fin 1) (0 : Fin 1)) = i := by
    funext ax
    apply Fin.ext
    match ax with
    | ⟨0, _⟩ =>
      show ((cfg2 a).win 4).index t (0 : Fin 3) * 1 + 1 * 0 = (i 0).val
      rw [chunk2_idx4_0]; omega
    | ⟨1, _⟩ =>
      show ((cfg2 a).win 4).index t (1 : Fin 3) * 1 + 1 * 0 = (i 1).val
      have h : (i 1).val < 1 := (i 1).isLt
      rw [chunk2_idx4_1]; omega
    | ⟨2, _⟩ =>
      show ((cfg2 a).win 4).index t (2 : Fin 3) * 1 + 1 * 0 = (i 2).val
      have h : (i 2).val < 1 := (i 2).isLt
      rw [chunk2_idx4_2]; omega
  exact Finset.mem_map.mpr ⟨ValueIdx.ix3 (0 : Fin 1) (0 : Fin 1) (0 : Fin 1), Finset.mem_univ _, e⟩

/-- The score the body leaves at point `t`, as a term of the four input blocks there. -/
def chunk2_score (c : Dev nD) (t : Fin (cfg2 a).N) : Elt F .f32 :=
  out2 (iblk2 V a c 0 t) (iblk2 V a c 1 t) (iblk2 V a c 2 t) (iblk2 V a c 3 t) (ValueIdx.ix3 (0 : Fin 1) (0 : Fin 1) (0 : Fin 1))

/-- The whole output array the points write: at `(r, 0, 0)` point `r`'s score. -/
def chunk2_G (c : Dev nD) : S62500x1x1.Idx → Elt F .f32 :=
  fun i => chunk2_score V a c ⟨(i 0).val, (chunk2_N a).symm ▸ (i 0).isLt⟩

/-- What point `t` writes back is its block of that array. -/
theorem chunk2_flushed (c : Dev nD) (t : Fin (cfg2 a).N) :
    (dat2 V a c).flushed 4 t = (((cfg2 a).win 4).blk t).view.read (Elt F) (chunk2_G V a c) := by
  show ((cfg2 a).win 4).cut ((cfg2 a).grid.coords t) ((dat2 V a c).after 4 t) = _
  rw [after2_4]
  funext y
  show out2 (iblk2 V a c 0 t) (iblk2 V a c 1 t) (iblk2 V a c 2 t) (iblk2 V a c 3 t) (((cfg2 a).win 4).xinj ((cfg2 a).grid.coords t) y)
    = chunk2_G V a c ((((cfg2 a).win 4).blk t).view.emb y)
  refine (congrArg (out2 (iblk2 V a c 0 t) (iblk2 V a c 1 t) (iblk2 V a c 2 t) (iblk2 V a c 3 t)) (chunk2_cell _)).trans ?_
  show chunk2_score V a c t = chunk2_score V a c _
  refine congrArg (chunk2_score V a c) (Fin.ext ?_)
  show t.val = ((cfg2 a).win 4).index t (0 : Fin 3) * 1 + 1 * (y (0 : Fin 3)).val
  have h : (y (0 : Fin 3)).val < 1 := (y (0 : Fin 3)).isLt
  rw [chunk2_idx4_0]; omega

/-- The output array after the run, at `(t, 0, 0)`: point `t`'s score. -/
theorem chunk2_arr (c : Dev nD) (t : Fin (cfg2 a).N) (i : S62500x1x1.Idx) (hi : (i 0).val = t.val) :
    ((dat2 V a c).arrAt 4 (cfg2 a).N : S62500x1x1.Idx → Elt F .f32) i = chunk2_score V a c t := by
  refine ((dat2 V a c).arrAt_apply_of_mem 4 (chunk2_G V a c) (fun t _ => chunk2_flushed V a c t) (cfg2 a).N t i t.isLt
    (chunk2_flush a t) (chunk2_mem a t i hi)).trans ?_
  show chunk2_score V a c _ = chunk2_score V a c t
  exact congrArg (chunk2_score V a c) (Fin.ext hi)

end Array

/-! ## The output array at the exact-real instance -/

/-- The output array after region 2's pipeline, at edge `t`: the score of the two rows the tables name for `t` —
    at any buffers and any admissible contents of the tables; `h`, `W`, `b` name the feature, weight and bias arrays
    the region finds. -/
theorem chunk2_arr_at (V : (c : Dev nD) → (b : Ref sig .tc) → Buf (Elt Ideal) ((c : Thread nD τ).loc b))
    (a : (pcfg2 (F := Ideal)).Adm) (c : Dev nD) (t : Fin 62500) (rs rd : Fin 100000)
    (hrs : ((a.1 0 : S62500.Idx → BitVec 32) (ValueIdx.ix1 t)).toNat = rs.val)
    (hrd : ((a.1 1 : S62500.Idx → BitVec 32) (ValueIdx.ix1 t)).toNat = rd.val)
    (h : S100000x1x128.Idx → EReal) (W : S1x256.Idx → EReal) (b : S1x1.Idx → EReal)
    (hh : (V c main_v1 : S100000x1x128.Idx → EReal) = h) (hW : (V c main_arg3 : S1x256.Idx → EReal) = W)
    (hb : (V c main_v0 : S1x1.Idx → EReal) = b) :
    ((dat2 V a c).arrAt 4 (cfg2 a).N : S62500x1x1.Idx → EReal) (ValueIdx.ix3 t (0 : Fin 1) (0 : Fin 1))
      = (∑ j : Fin 128, h (ValueIdx.ix3 rs (0 : Fin 1) j) * W (ValueIdx.ix2 (0 : Fin 1) (Cert.Spec.lo j)))
        + (∑ j : Fin 128, h (ValueIdx.ix3 rd (0 : Fin 1) j) * W (ValueIdx.ix2 (0 : Fin 1) (Cert.Spec.hi j)))
        + b (ValueIdx.ix2 (0 : Fin 1) (0 : Fin 1)) := by
  have ht : t.val < (cfg2 a).N := (chunk2_N a).symm ▸ t.isLt
  refine (chunk2_arr V a c ⟨t.val, ht⟩ (ValueIdx.ix3 t (0 : Fin 1) (0 : Fin 1)) rfl).trans ?_
  unfold chunk2_score
  refine (out2_at (iblk2 V a c 0 ⟨t.val, ht⟩) (iblk2 V a c 1 ⟨t.val, ht⟩) (iblk2 V a c 2 ⟨t.val, ht⟩) (iblk2 V a c 3 ⟨t.val, ht⟩)).trans ?_
  refine congrArg₂ (· + ·) (congrArg₂ (· + ·) (Finset.sum_congr rfl fun j _ => ?_) (Finset.sum_congr rfl fun j _ => ?_)) ?_
  · exact congrArg₂ (· * ·)
      ((chunk2_blk0 V a c ⟨t.val, ht⟩ rs ((chunk2_idx0_0 a ⟨t.val, ht⟩ t rfl).trans hrs) j).trans (congrFun hh _))
      ((chunk2_blk2 V a c ⟨t.val, ht⟩ (Cert.Spec.lo j)).trans (congrFun hW _))
  · exact congrArg₂ (· * ·)
      ((chunk2_blk1 V a c ⟨t.val, ht⟩ rd ((chunk2_idx1_0 a ⟨t.val, ht⟩ t rfl).trans hrd) j).trans (congrFun hh _))
      ((chunk2_blk2 V a c ⟨t.val, ht⟩ (Cert.Spec.hi j)).trans (congrFun hW _))
  · exact (chunk2_blk3 V a c ⟨t.val, ht⟩).trans (congrFun hb _)

set_option maxHeartbeats 3200000 in
/-- Entry `t` of region 2's output chunk is edge `t`'s score, computed from the rows the two tables name: `rs` and `rd`
    are entry `t` of the two tables, and `h`, `W`, `b` the feature, weight and bias arrays as the region finds them. -/
theorem chunk2_at (m : (ℓ : Loc nD τ sig) → Buf (Elt Ideal) ℓ) (hO : Oks m) (c : Dev nD) (t : Fin 62500) (rs rd : Fin 100000)
    (hrs : ((tbl2 m 0 : S62500.Idx → BitVec 32) (ValueIdx.ix1 t)).toNat = rs.val)
    (hrd : ((tbl2 m 1 : S62500.Idx → BitVec 32) (ValueIdx.ix1 t)).toNat = rd.val)
    (h : S100000x1x128.Idx → EReal) (W : S1x256.Idx → EReal) (b : S1x1.Idx → EReal)
    (hh : (Ve2 m c main_v1 : S100000x1x128.Idx → EReal) = h) (hW : (Ve2 m c main_arg3 : S1x256.Idx → EReal) = W)
    (hb : (Ve2 m c main_v0 : S1x1.Idx → EReal) = b) :
    (chunk2 m hO c : S62500x1x1.Idx → EReal) (ValueIdx.ix3 t (0 : Fin 1) (0 : Fin 1))
      = (∑ j : Fin 128, h (ValueIdx.ix3 rs (0 : Fin 1) j) * W (ValueIdx.ix2 (0 : Fin 1) (Cert.Spec.lo j)))
        + (∑ j : Fin 128, h (ValueIdx.ix3 rd (0 : Fin 1) j) * W (ValueIdx.ix2 (0 : Fin 1) (Cert.Spec.hi j)))
        + b (ValueIdx.ix2 (0 : Fin 1) (0 : Fin 1)) := by
  have key := fun (hok : ok2 (F := Ideal) (tbl2 m)) =>
    chunk2_arr_at (Ve2 m) ⟨tbl2 m, hok⟩ c t rs rd hrs hrd h W b hh hW hb
  unfold chunk2
  exact key _

end Cert.KernelIdeal.Hand
end
-- ==== Proof.KIValue3.lean ====
/-
  Region 3's output chunk, entry by entry, at the exact-real instance.

  The region's pipeline has 62500 points, one per edge of its chunk. At point `t` the output window's block is the single
  cell `(t, 0, 0)` of the output array; the two gathered windows' blocks are rows `src t` and `dst t` of the feature
  array, `src t` and `dst t` being entry `t` of the two index tables read as natural numbers; the weight window's and the
  bias window's blocks are the whole arrays. The body leaves in the output block the score of the two rows,
    (∑ j < 128, h[src t, j] · W[0, j]) + (∑ j < 128, h[dst t, j] · W[0, 128 + j]) + b[0, 0].
  Every point writes its block back (the output's block index moves at every point) and point `t`'s block covers index
  `(t, 0, 0)`, so after the run the output array holds at `(t, 0, 0)` the score of point `t`. Every fact about the
  pipeline is proved with the tables' contents a variable; the region's own tables are put in last.
-/
import proofs.«405368_j31662498906597_2_alg».proof.Proof.KIFamily
import proofs.«405368_j31662498906597_2_alg».proof.Proof.PayloadAt
import proofs.«405368_j31662498906597_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

/-! ## The grid and the index maps, at any contents of the two tables -/

section Generic
variable {F : FTy → Type} [FloatOps F]
variable (V : (c : Dev nD) → (b : Ref sig .tc) → Buf (Elt F) ((c : Thread nD τ).loc b)) (a : (pcfg3 (F := F)).Adm)

/-- The grid has one axis of 62500 points, -/
theorem chunk3_N : (cfg3 a).N = 62500 := N_3

/-- consecutive points are consecutive along it, -/
theorem chunk3_stride : (cfg3 a).grid.stride 0 = 1 := (by decide : grid3.stride 0 = 1)

/-- so point `t`'s one coordinate is `t`. -/
theorem chunk3_coords (t : Fin (cfg3 a).N) : ((cfg3 a).grid.coords t 0).val = t.val := by
  have ht : t.val < 62500 := (chunk3_N a) ▸ t.isLt
  show t.val / (cfg3 a).grid.stride 0 % 62500 = t.val
  rw [chunk3_stride a, Nat.div_one, Nat.mod_eq_of_lt ht]

/-- The output window's block index at point `t` is `(t, 0, 0)`. -/
theorem chunk3_idx4_0 (t : Fin (cfg3 a).N) : ((cfg3 a).win 4).index t (0 : Fin 3) = t.val := by
  have ht : t.val < 62500 := (chunk3_N a) ▸ t.isLt
  show (BitVec.ofNat 32 ((cfg3 a).grid.coords t 0).val).toNat = t.val
  rw [chunk3_coords, BitVec.toNat_ofNat]
  omega
theorem chunk3_idx4_1 (t : Fin (cfg3 a).N) : ((cfg3 a).win 4).index t (1 : Fin 3) = 0 := rfl
theorem chunk3_idx4_2 (t : Fin (cfg3 a).N) : ((cfg3 a).win 4).index t (2 : Fin 3) = 0 := rfl

/-- The source window's block index at point `t` is `(src t, 0, 0)`, `src t` the first table's entry `t` read as a natural number, -/
theorem chunk3_idx0_0 (t : Fin (cfg3 a).N) (e : Fin 62500) (he : e.val = t.val) :
    ((cfg3 a).win 0).index t (0 : Fin 3) = ((a.1 0 : S62500.Idx → BitVec 32) (ValueIdx.ix1 e)).toNat := by
  have ht : t.val < 62500 := (chunk3_N a) ▸ t.isLt
  show ((a.1 0 : S62500.Idx → BitVec 32) _).toNat = _
  refine congrArg (fun i => ((a.1 0 : S62500.Idx → BitVec 32) i).toNat) ?_
  funext ax
  apply Fin.ext
  match ax with
  | ⟨0, _⟩ =>
    show (Scalar.indexCast (BitVec.ofNat 32 ((cfg3 a).grid.coords t 0).val)).toNat + 1 * 0 = e.val
    rw [chunk3_coords, he]
    show (BitVec.ofNat 32 t.val).toNat + 1 * 0 = t.val
    rw [BitVec.toNat_ofNat]
    omega
theorem chunk3_idx0_1 (t : Fin (cfg3 a).N) : ((cfg3 a).win 0).index t (1 : Fin 3) = 0 := rfl
theorem chunk3_idx0_2 (t : Fin (cfg3 a).N) : ((cfg3 a).win 0).index t (2 : Fin 3) = 0 := rfl

/-- and the destination window's is `(dst t, 0, 0)`, from the second table. -/
theorem chunk3_idx1_0 (t : Fin (cfg3 a).N) (e : Fin 62500) (he : e.val = t.val) :
    ((cfg3 a).win 1).index t (0 : Fin 3) = ((a.1 1 : S62500.Idx → BitVec 32) (ValueIdx.ix1 e)).toNat := by
  have ht : t.val < 62500 := (chunk3_N a) ▸ t.isLt
  show ((a.1 1 : S62500.Idx → BitVec 32) _).toNat = _
  refine congrArg (fun i => ((a.1 1 : S62500.Idx → BitVec 32) i).toNat) ?_
  funext ax
  apply Fin.ext
  match ax with
  | ⟨0, _⟩ =>
    show (Scalar.indexCast (BitVec.ofNat 32 ((cfg3 a).grid.coords t 0).val)).toNat + 1 * 0 = e.val
    rw [chunk3_coords, he]
    show (BitVec.ofNat 32 t.val).toNat + 1 * 0 = t.val
    rw [BitVec.toNat_ofNat]
    omega
theorem chunk3_idx1_1 (t : Fin (cfg3 a).N) : ((cfg3 a).win 1).index t (1 : Fin 3) = 0 := rfl
theorem chunk3_idx1_2 (t : Fin (cfg3 a).N) : ((cfg3 a).win 1).index t (2 : Fin 3) = 0 := rfl

end Generic

/-! ## The five blocks at a point, read where the arrays are -/

section Blocks
variable {F : FTy → Type} [FloatOps F]
variable (V : (c : Dev nD) → (b : Ref sig .tc) → Buf (Elt F) ((c : Thread nD τ).loc b)) (a : (pcfg3 (F := F)).Adm)

/-- The source window's block at point `t` is row `rs` of the feature array when its block index there is `rs`. -/
theorem chunk3_blk0 (c : Dev nD) (t : Fin (cfg3 a).N) (rs : Fin 100000)
    (hrs : ((cfg3 a).win 0).index t (0 : Fin 3) = rs.val) (j : Fin 128) :
    (iblk3 V a c 0 t : Vec F S1x1x128 .f32) (ValueIdx.ix3 (0 : Fin 1) (0 : Fin 1) j)
      = (V c main_v1 : S100000x1x128.Idx → Elt F .f32) (ValueIdx.ix3 rs (0 : Fin 1) j) := by
  show V c main_v1 ((((cfg3 a).win 0).blk t).view.emb (ValueIdx.ix3 (0 : Fin 1) (0 : Fin 1) j)) = V c main_v1 (ValueIdx.ix3 rs (0 : Fin 1) j)
  refine congrArg (V c main_v1) ?_
  funext ax
  apply Fin.ext
  match ax with
  | ⟨0, _⟩ => show ((cfg3 a).win 0).index t (0 : Fin 3) * 1 + 1 * 0 = rs.val; rw [hrs]; omega
  | ⟨1, _⟩ => show ((cfg3 a).win 0).index t (1 : Fin 3) * 1 + 1 * 0 = 0; rw [chunk3_idx0_1]
  | ⟨2, _⟩ => show ((cfg3 a).win 0).index t (2 : Fin 3) * 128 + 1 * j.val = j.val; rw [chunk3_idx0_2]; omega

/-- The destination window's block likewise, at its own block index. -/
theorem chunk3_blk1 (c : Dev nD) (t : Fin (cfg3 a).N) (rd : Fin 100000)
    (hrd : ((cfg3 a).win 1).index t (0 : Fin 3) = rd.val) (j : Fin 128) :
    (iblk3 V a c 1 t : Vec F S1x1x128 .f32) (ValueIdx.ix3 (0 : Fin 1) (0 : Fin 1) j)
      = (V c main_v1 : S100000x1x128.Idx → Elt F .f32) (ValueIdx.ix3 rd (0 : Fin 1) j) := by
  show V c main_v1 ((((cfg3 a).win 1).blk t).view.emb (ValueIdx.ix3 (0 : Fin 1) (0 : Fin 1) j)) = V c main_v1 (ValueIdx.ix3 rd (0 : Fin 1) j)
  refine congrArg (V c main_v1) ?_
  funext ax
  apply Fin.ext
  match ax with
  | ⟨0, _⟩ => show ((cfg3 a).win 1).index t (0 : Fin 3) * 1 + 1 * 0 = rd.val; rw [hrd]; omega
  | ⟨1, _⟩ => show ((cfg3 a).win 1).index t (1 : Fin 3) * 1 + 1 * 0 = 0; rw [chunk3_idx1_1]
  | ⟨2, _⟩ => show ((cfg3 a).win 1).index t (2 : Fin 3) * 128 + 1 * j.val = j.val; rw [chunk3_idx1_2]; omega

/-- The weights' block is the whole weight array, -/
theorem chunk3_blk2 (c : Dev nD) (t : Fin (cfg3 a).N) (k : Fin 256) :
    (iblk3 V a c 2 t : Vec F S1x256 .f32) (ValueIdx.ix2 (0 : Fin 1) k)
      = (V c main_arg3 : S1x256.Idx → Elt F .f32) (ValueIdx.ix2 (0 : Fin 1) k) := by
  show V c main_arg3 ((((cfg3 a).win 2).blk t).view.emb (ValueIdx.ix2 (0 : Fin 1) k)) = V c main_arg3 (ValueIdx.ix2 (0 : Fin 1) k)
  refine congrArg (V c main_arg3) ?_
  funext ax
  apply Fin.ext
  match ax with
  | ⟨0, _⟩ => show ((cfg3 a).win 2).index t (0 : Fin 2) * 1 + 1 * 0 = 0; rfl
  | ⟨1, _⟩ => show ((cfg3 a).win 2).index t (1 : Fin 2) * 256 + 1 * k.val = k.val; rw [show ((cfg3 a).win 2).index t (1 : Fin 2) = 0 from rfl]; omega

/-- and the bias's block the whole bias array. -/
theorem chunk3_blk3 (c : Dev nD) (t : Fin (cfg3 a).N) :
    (iblk3 V a c 3 t : Vec F S1x1 .f32) (ValueIdx.ix2 (0 : Fin 1) (0 : Fin 1))
      = (V c main_v0 : S1x1.Idx → Elt F .f32) (ValueIdx.ix2 (0 : Fin 1) (0 : Fin 1)) := by
  show V c main_v0 ((((cfg3 a).win 3).blk t).view.emb (ValueIdx.ix2 (0 : Fin 1) (0 : Fin 1))) = V c main_v0 (ValueIdx.ix2 (0 : Fin 1) (0 : Fin 1))
  refine congrArg (V c main_v0) ?_
  funext ax
  apply Fin.ext
  match ax with
  | ⟨0, _⟩ => show ((cfg3 a).win 3).index t (0 : Fin 2) * 1 + 1 * 0 = 0; rfl
  | ⟨1, _⟩ => show ((cfg3 a).win 3).index t (1 : Fin 2) * 1 + 1 * 0 = 0; rfl

end Blocks

/-! ## The score the body stores, from its four input buffers -/

theorem chunk3_hz3 : (![0, 0, 0] : Fin 3 → Nat) = fun _ => 0 := funext fun ax => by fin_cases ax <;> rfl
theorem chunk3_hz2 : (![0, 0] : Fin 2 → Nat) = fun _ => 0 := funext fun ax => by fin_cases ax <;> rfl

/-- A one-cell block has the one index. -/
theorem chunk3_cell (y : S1x1x1.Idx) : y = ValueIdx.ix3 (0 : Fin 1) (0 : Fin 1) (0 : Fin 1) := by
  funext ax
  apply Fin.ext
  match ax with
  | ⟨0, _⟩ => show (y 0).val = 0; have h : (y 0).val < 1 := (y 0).isLt; omega
  | ⟨1, _⟩ => show (y 1).val = 0; have h : (y 1).val < 1 := (y 1).isLt; omega
  | ⟨2, _⟩ => show (y 2).val = 0; have h : (y 2).val < 1 := (y 2).isLt; omega

/-- The stored value at its one index: the two 128-term sums of entrywise products plus the last operand's entry
    (a lane sum over a one-row block is the sum of the row's entries). -/
theorem chunk3_pay (v0 v1 : Vec Ideal S1x128 .f32) (v2 v7 : Vec Ideal S1x1x128 .f32) (v13 : Vec Ideal S1x1 .f32) :
    k3_pay1 (F := Ideal) v0 v1 v2 v7 v13 (ValueIdx.ix3 (0 : Fin 1) (0 : Fin 1) (0 : Fin 1))
      = (∑ j : Fin 128, v2 (ValueIdx.ix3 (0 : Fin 1) (0 : Fin 1) j) * v0 (ValueIdx.ix2 (0 : Fin 1) j))
        + (∑ j : Fin 128, v7 (ValueIdx.ix3 (0 : Fin 1) (0 : Fin 1) j) * v1 (ValueIdx.ix2 (0 : Fin 1) j))
        + v13 (ValueIdx.ix2 (0 : Fin 1) (0 : Fin 1)) := by
  unfold k3_pay1
  rw [shapeCast_ab_1ab_apply, addf_apply, addf_apply, shapeCast_self, shapeCast_a_1a_apply, shapeCast_a_1a_apply,
    Cert.PayloadAt.laneSum_at, Cert.PayloadAt.laneSum_at]
  simp only [mulf_apply, shapeCast_1ab_ab_apply]

/-- A load of the first half of the weights reads column `j`, of the second half column `128 + j`. -/
theorem chunk3_ldW0 (x : Vec Ideal S1x256 .f32) (j : Fin 128) :
    View.ld x rW0 (ValueIdx.ix2 (0 : Fin 1) j) = x (ValueIdx.ix2 (0 : Fin 1) (Cert.Spec.lo j)) := by
  show x _ = x _
  refine congrArg x ?_
  funext ax
  apply Fin.ext
  match ax with
  | ⟨0, _⟩ => show 0 + 1 * 0 = 0; rfl
  | ⟨1, _⟩ => show 0 + 1 * j.val = j.val; omega
theorem chunk3_ldW1 (x : Vec Ideal S1x256 .f32) (j : Fin 128) :
    View.ld x rW1 (ValueIdx.ix2 (0 : Fin 1) j) = x (ValueIdx.ix2 (0 : Fin 1) (Cert.Spec.hi j)) := by
  show x _ = x _
  refine congrArg x ?_
  funext ax
  apply Fin.ext
  match ax with
  | ⟨0, _⟩ => show 0 + 1 * 0 = 0; rfl
  | ⟨1, _⟩ => show 128 + 1 * j.val = 128 + j.val; omega

/-- The output buffer's one cell after the body: row `x0` against the first 128 weights, row `x1` against the last
    128, plus the bias. -/
theorem out3_at (x0 x1 : Vec Ideal S1x1x128 .f32) (x2 : Vec Ideal S1x256 .f32) (x3 : Vec Ideal S1x1 .f32) :
    out3 x0 x1 x2 x3 (ValueIdx.ix3 (0 : Fin 1) (0 : Fin 1) (0 : Fin 1))
      = (∑ j : Fin 128, x0 (ValueIdx.ix3 (0 : Fin 1) (0 : Fin 1) j) * x2 (ValueIdx.ix2 (0 : Fin 1) (Cert.Spec.lo j)))
        + (∑ j : Fin 128, x1 (ValueIdx.ix3 (0 : Fin 1) (0 : Fin 1) j) * x2 (ValueIdx.ix2 (0 : Fin 1) (Cert.Spec.hi j)))
        + x3 (ValueIdx.ix2 (0 : Fin 1) (0 : Fin 1)) := by
  unfold out3
  rw [View.canon_unit_zero chunk3_hz3, chunk3_pay,
    View.ld_unit_zero (S := S1x1x128) chunk3_hz3, View.ld_unit_zero (S := S1x1x128) chunk3_hz3, View.ld_unit_zero (S := S1x1) chunk3_hz2]
  refine congrArg₂ (· + ·) (congrArg₂ (· + ·) (Finset.sum_congr rfl fun j _ => ?_) (Finset.sum_congr rfl fun j _ => ?_)) rfl
  · exact congrArg (fun z => x0 (ValueIdx.ix3 (0 : Fin 1) (0 : Fin 1) j) * z) (chunk3_ldW0 x2 j)
  · exact congrArg (fun z => x1 (ValueIdx.ix3 (0 : Fin 1) (0 : Fin 1) j) * z) (chunk3_ldW1 x2 j)

/-! ## From the blocks to the output array -/

section Array
variable {F : FTy → Type} [FloatOps F]
variable (V : (c : Dev nD) → (b : Ref sig .tc) → Buf (Elt F) ((c : Thread nD τ).loc b)) (a : (pcfg3 (F := F)).Adm)

/-- The output's block index moves at every point, so every point writes its block back. -/
theorem chunk3_flush (t : Fin (cfg3 a).N) : ((cfg3 a).win 4).flush t = true := by
  have hN : (cfg3 a).grid.N = 62500 := N_3
  have ht : t.val < 62500 := (chunk3_N a) ▸ t.isLt
  rw [Window.flush_out _ rfl]
  by_cases h : t.val + 1 = 62500
  · exact Or.inl (h.trans hN.symm)
  · refine Or.inr ⟨Nat.lt_of_lt_of_eq (by omega : t.val + 1 < 62500) hN.symm, fun e => ?_⟩
    have e0 := congrFun e (0 : Fin 3)
    rw [chunk3_idx4_0, chunk3_idx4_0] at e0
    exact absurd e0 (Nat.succ_ne_self _)

/-- Point `t`'s block is the one cell `(t, 0, 0)` of the output array. -/
theorem chunk3_mem (t : Fin (cfg3 a).N) (i : S62500x1x1.Idx) (hi : (i 0).val = t.val) :
    i ∈ (((cfg3 a).win 4).blk t).view.set := by
  have e : (((cfg3 a).win 4).blk t).view.emb (ValueIdx.ix3 (0 : Fin 1) (0 : Fin 1) (0 : Fin 1)) = i := by
    funext ax
    apply Fin.ext
    match ax with
    | ⟨0, _⟩ =>
      show ((cfg3 a).win 4).index t (0 : Fin 3) * 1 + 1 * 0 = (i 0).val
      rw [chunk3_idx4_0]; omega
    | ⟨1, _⟩ =>
      show ((cfg3 a).win 4).index t (1 : Fin 3) * 1 + 1 * 0 = (i 1).val
      have h : (i 1).val < 1 := (i 1).isLt
      rw [chunk3_idx4_1]; omega
    | ⟨2, _⟩ =>
      show ((cfg3 a).win 4).index t (2 : Fin 3) * 1 + 1 * 0 = (i 2).val
      have h : (i 2).val < 1 := (i 2).isLt
      rw [chunk3_idx4_2]; omega
  exact Finset.mem_map.mpr ⟨ValueIdx.ix3 (0 : Fin 1) (0 : Fin 1) (0 : Fin 1), Finset.mem_univ _, e⟩

/-- The score the body leaves at point `t`, as a term of the four input blocks there. -/
def chunk3_score (c : Dev nD) (t : Fin (cfg3 a).N) : Elt F .f32 :=
  out3 (iblk3 V a c 0 t) (iblk3 V a c 1 t) (iblk3 V a c 2 t) (iblk3 V a c 3 t) (ValueIdx.ix3 (0 : Fin 1) (0 : Fin 1) (0 : Fin 1))

/-- The whole output array the points write: at `(r, 0, 0)` point `r`'s score. -/
def chunk3_G (c : Dev nD) : S62500x1x1.Idx → Elt F .f32 :=
  fun i => chunk3_score V a c ⟨(i 0).val, (chunk3_N a).symm ▸ (i 0).isLt⟩

/-- What point `t` writes back is its block of that array. -/
theorem chunk3_flushed (c : Dev nD) (t : Fin (cfg3 a).N) :
    (dat3 V a c).flushed 4 t = (((cfg3 a).win 4).blk t).view.read (Elt F) (chunk3_G V a c) := by
  show ((cfg3 a).win 4).cut ((cfg3 a).grid.coords t) ((dat3 V a c).after 4 t) = _
  rw [after3_4]
  funext y
  show out3 (iblk3 V a c 0 t) (iblk3 V a c 1 t) (iblk3 V a c 2 t) (iblk3 V a c 3 t) (((cfg3 a).win 4).xinj ((cfg3 a).grid.coords t) y)
    = chunk3_G V a c ((((cfg3 a).win 4).blk t).view.emb y)
  refine (congrArg (out3 (iblk3 V a c 0 t) (iblk3 V a c 1 t) (iblk3 V a c 2 t) (iblk3 V a c 3 t)) (chunk3_cell _)).trans ?_
  show chunk3_score V a c t = chunk3_score V a c _
  refine congrArg (chunk3_score V a c) (Fin.ext ?_)
  show t.val = ((cfg3 a).win 4).index t (0 : Fin 3) * 1 + 1 * (y (0 : Fin 3)).val
  have h : (y (0 : Fin 3)).val < 1 := (y (0 : Fin 3)).isLt
  rw [chunk3_idx4_0]; omega

/-- The output array after the run, at `(t, 0, 0)`: point `t`'s score. -/
theorem chunk3_arr (c : Dev nD) (t : Fin (cfg3 a).N) (i : S62500x1x1.Idx) (hi : (i 0).val = t.val) :
    ((dat3 V a c).arrAt 4 (cfg3 a).N : S62500x1x1.Idx → Elt F .f32) i = chunk3_score V a c t := by
  refine ((dat3 V a c).arrAt_apply_of_mem 4 (chunk3_G V a c) (fun t _ => chunk3_flushed V a c t) (cfg3 a).N t i t.isLt
    (chunk3_flush a t) (chunk3_mem a t i hi)).trans ?_
  show chunk3_score V a c _ = chunk3_score V a c t
  exact congrArg (chunk3_score V a c) (Fin.ext hi)

end Array

/-! ## The output array at the exact-real instance -/

/-- The output array after region 3's pipeline, at edge `t`: the score of the two rows the tables name for `t` —
    at any buffers and any admissible contents of the tables; `h`, `W`, `b` name the feature, weight and bias arrays
    the region finds. -/
theorem chunk3_arr_at (V : (c : Dev nD) → (b : Ref sig .tc) → Buf (Elt Ideal) ((c : Thread nD τ).loc b))
    (a : (pcfg3 (F := Ideal)).Adm) (c : Dev nD) (t : Fin 62500) (rs rd : Fin 100000)
    (hrs : ((a.1 0 : S62500.Idx → BitVec 32) (ValueIdx.ix1 t)).toNat = rs.val)
    (hrd : ((a.1 1 : S62500.Idx → BitVec 32) (ValueIdx.ix1 t)).toNat = rd.val)
    (h : S100000x1x128.Idx → EReal) (W : S1x256.Idx → EReal) (b : S1x1.Idx → EReal)
    (hh : (V c main_v1 : S100000x1x128.Idx → EReal) = h) (hW : (V c main_arg3 : S1x256.Idx → EReal) = W)
    (hb : (V c main_v0 : S1x1.Idx → EReal) = b) :
    ((dat3 V a c).arrAt 4 (cfg3 a).N : S62500x1x1.Idx → EReal) (ValueIdx.ix3 t (0 : Fin 1) (0 : Fin 1))
      = (∑ j : Fin 128, h (ValueIdx.ix3 rs (0 : Fin 1) j) * W (ValueIdx.ix2 (0 : Fin 1) (Cert.Spec.lo j)))
        + (∑ j : Fin 128, h (ValueIdx.ix3 rd (0 : Fin 1) j) * W (ValueIdx.ix2 (0 : Fin 1) (Cert.Spec.hi j)))
        + b (ValueIdx.ix2 (0 : Fin 1) (0 : Fin 1)) := by
  have ht : t.val < (cfg3 a).N := (chunk3_N a).symm ▸ t.isLt
  refine (chunk3_arr V a c ⟨t.val, ht⟩ (ValueIdx.ix3 t (0 : Fin 1) (0 : Fin 1)) rfl).trans ?_
  unfold chunk3_score
  refine (out3_at (iblk3 V a c 0 ⟨t.val, ht⟩) (iblk3 V a c 1 ⟨t.val, ht⟩) (iblk3 V a c 2 ⟨t.val, ht⟩) (iblk3 V a c 3 ⟨t.val, ht⟩)).trans ?_
  refine congrArg₂ (· + ·) (congrArg₂ (· + ·) (Finset.sum_congr rfl fun j _ => ?_) (Finset.sum_congr rfl fun j _ => ?_)) ?_
  · exact congrArg₂ (· * ·)
      ((chunk3_blk0 V a c ⟨t.val, ht⟩ rs ((chunk3_idx0_0 a ⟨t.val, ht⟩ t rfl).trans hrs) j).trans (congrFun hh _))
      ((chunk3_blk2 V a c ⟨t.val, ht⟩ (Cert.Spec.lo j)).trans (congrFun hW _))
  · exact congrArg₂ (· * ·)
      ((chunk3_blk1 V a c ⟨t.val, ht⟩ rd ((chunk3_idx1_0 a ⟨t.val, ht⟩ t rfl).trans hrd) j).trans (congrFun hh _))
      ((chunk3_blk2 V a c ⟨t.val, ht⟩ (Cert.Spec.hi j)).trans (congrFun hW _))
  · exact (chunk3_blk3 V a c ⟨t.val, ht⟩).trans (congrFun hb _)

set_option maxHeartbeats 3200000 in
/-- Entry `t` of region 3's output chunk is edge `t`'s score, computed from the rows the two tables name: `rs` and `rd`
    are entry `t` of the two tables, and `h`, `W`, `b` the feature, weight and bias arrays as the region finds them. -/
theorem chunk3_at (m : (ℓ : Loc nD τ sig) → Buf (Elt Ideal) ℓ) (hO : Oks m) (c : Dev nD) (t : Fin 62500) (rs rd : Fin 100000)
    (hrs : ((tbl3 m 0 : S62500.Idx → BitVec 32) (ValueIdx.ix1 t)).toNat = rs.val)
    (hrd : ((tbl3 m 1 : S62500.Idx → BitVec 32) (ValueIdx.ix1 t)).toNat = rd.val)
    (h : S100000x1x128.Idx → EReal) (W : S1x256.Idx → EReal) (b : S1x1.Idx → EReal)
    (hh : (Ve3 m c main_v1 : S100000x1x128.Idx → EReal) = h) (hW : (Ve3 m c main_arg3 : S1x256.Idx → EReal) = W)
    (hb : (Ve3 m c main_v0 : S1x1.Idx → EReal) = b) :
    (chunk3 m hO c : S62500x1x1.Idx → EReal) (ValueIdx.ix3 t (0 : Fin 1) (0 : Fin 1))
      = (∑ j : Fin 128, h (ValueIdx.ix3 rs (0 : Fin 1) j) * W (ValueIdx.ix2 (0 : Fin 1) (Cert.Spec.lo j)))
        + (∑ j : Fin 128, h (ValueIdx.ix3 rd (0 : Fin 1) j) * W (ValueIdx.ix2 (0 : Fin 1) (Cert.Spec.hi j)))
        + b (ValueIdx.ix2 (0 : Fin 1) (0 : Fin 1)) := by
  have key := fun (hok : ok3 (F := Ideal) (tbl3 m)) =>
    chunk3_arr_at (Ve3 m) ⟨tbl3 m, hok⟩ c t rs rd hrs hrd h W b hh hW hb
  unfold chunk3
  exact key _

end Cert.KernelIdeal.Hand
end
-- ==== Proof.KIValue4.lean ====
/-
  Region 4's output chunk, entry by entry, at the exact-real instance.

  The region's pipeline has 62500 points, one per edge of its chunk. At point `t` the output window's block is the single
  cell `(t, 0, 0)` of the output array; the two gathered windows' blocks are rows `src t` and `dst t` of the feature
  array, `src t` and `dst t` being entry `t` of the two index tables read as natural numbers; the weight window's and the
  bias window's blocks are the whole arrays. The body leaves in the output block the score of the two rows,
    (∑ j < 128, h[src t, j] · W[0, j]) + (∑ j < 128, h[dst t, j] · W[0, 128 + j]) + b[0, 0].
  Every point writes its block back (the output's block index moves at every point) and point `t`'s block covers index
  `(t, 0, 0)`, so after the run the output array holds at `(t, 0, 0)` the score of point `t`. Every fact about the
  pipeline is proved with the tables' contents a variable; the region's own tables are put in last.
-/
import proofs.«405368_j31662498906597_2_alg».proof.Proof.KIFamily
import proofs.«405368_j31662498906597_2_alg».proof.Proof.PayloadAt
import proofs.«405368_j31662498906597_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

/-! ## The grid and the index maps, at any contents of the two tables -/

section Generic
variable {F : FTy → Type} [FloatOps F]
variable (V : (c : Dev nD) → (b : Ref sig .tc) → Buf (Elt F) ((c : Thread nD τ).loc b)) (a : (pcfg4 (F := F)).Adm)

/-- The grid has one axis of 62500 points, -/
theorem chunk4_N : (cfg4 a).N = 62500 := N_4

/-- consecutive points are consecutive along it, -/
theorem chunk4_stride : (cfg4 a).grid.stride 0 = 1 := (by decide : grid4.stride 0 = 1)

/-- so point `t`'s one coordinate is `t`. -/
theorem chunk4_coords (t : Fin (cfg4 a).N) : ((cfg4 a).grid.coords t 0).val = t.val := by
  have ht : t.val < 62500 := (chunk4_N a) ▸ t.isLt
  show t.val / (cfg4 a).grid.stride 0 % 62500 = t.val
  rw [chunk4_stride a, Nat.div_one, Nat.mod_eq_of_lt ht]

/-- The output window's block index at point `t` is `(t, 0, 0)`. -/
theorem chunk4_idx4_0 (t : Fin (cfg4 a).N) : ((cfg4 a).win 4).index t (0 : Fin 3) = t.val := by
  have ht : t.val < 62500 := (chunk4_N a) ▸ t.isLt
  show (BitVec.ofNat 32 ((cfg4 a).grid.coords t 0).val).toNat = t.val
  rw [chunk4_coords, BitVec.toNat_ofNat]
  omega
theorem chunk4_idx4_1 (t : Fin (cfg4 a).N) : ((cfg4 a).win 4).index t (1 : Fin 3) = 0 := rfl
theorem chunk4_idx4_2 (t : Fin (cfg4 a).N) : ((cfg4 a).win 4).index t (2 : Fin 3) = 0 := rfl

/-- The source window's block index at point `t` is `(src t, 0, 0)`, `src t` the first table's entry `t` read as a natural number, -/
theorem chunk4_idx0_0 (t : Fin (cfg4 a).N) (e : Fin 62500) (he : e.val = t.val) :
    ((cfg4 a).win 0).index t (0 : Fin 3) = ((a.1 0 : S62500.Idx → BitVec 32) (ValueIdx.ix1 e)).toNat := by
  have ht : t.val < 62500 := (chunk4_N a) ▸ t.isLt
  show ((a.1 0 : S62500.Idx → BitVec 32) _).toNat = _
  refine congrArg (fun i => ((a.1 0 : S62500.Idx → BitVec 32) i).toNat) ?_
  funext ax
  apply Fin.ext
  match ax with
  | ⟨0, _⟩ =>
    show (Scalar.indexCast (BitVec.ofNat 32 ((cfg4 a).grid.coords t 0).val)).toNat + 1 * 0 = e.val
    rw [chunk4_coords, he]
    show (BitVec.ofNat 32 t.val).toNat + 1 * 0 = t.val
    rw [BitVec.toNat_ofNat]
    omega
theorem chunk4_idx0_1 (t : Fin (cfg4 a).N) : ((cfg4 a).win 0).index t (1 : Fin 3) = 0 := rfl
theorem chunk4_idx0_2 (t : Fin (cfg4 a).N) : ((cfg4 a).win 0).index t (2 : Fin 3) = 0 := rfl

/-- and the destination window's is `(dst t, 0, 0)`, from the second table. -/
theorem chunk4_idx1_0 (t : Fin (cfg4 a).N) (e : Fin 62500) (he : e.val = t.val) :
    ((cfg4 a).win 1).index t (0 : Fin 3) = ((a.1 1 : S62500.Idx → BitVec 32) (ValueIdx.ix1 e)).toNat := by
  have ht : t.val < 62500 := (chunk4_N a) ▸ t.isLt
  show ((a.1 1 : S62500.Idx → BitVec 32) _).toNat = _
  refine congrArg (fun i => ((a.1 1 : S62500.Idx → BitVec 32) i).toNat) ?_
  funext ax
  apply Fin.ext
  match ax with
  | ⟨0, _⟩ =>
    show (Scalar.indexCast (BitVec.ofNat 32 ((cfg4 a).grid.coords t 0).val)).toNat + 1 * 0 = e.val
    rw [chunk4_coords, he]
    show (BitVec.ofNat 32 t.val).toNat + 1 * 0 = t.val
    rw [BitVec.toNat_ofNat]
    omega
theorem chunk4_idx1_1 (t : Fin (cfg4 a).N) : ((cfg4 a).win 1).index t (1 : Fin 3) = 0 := rfl
theorem chunk4_idx1_2 (t : Fin (cfg4 a).N) : ((cfg4 a).win 1).index t (2 : Fin 3) = 0 := rfl

end Generic

/-! ## The five blocks at a point, read where the arrays are -/

section Blocks
variable {F : FTy → Type} [FloatOps F]
variable (V : (c : Dev nD) → (b : Ref sig .tc) → Buf (Elt F) ((c : Thread nD τ).loc b)) (a : (pcfg4 (F := F)).Adm)

/-- The source window's block at point `t` is row `rs` of the feature array when its block index there is `rs`. -/
theorem chunk4_blk0 (c : Dev nD) (t : Fin (cfg4 a).N) (rs : Fin 100000)
    (hrs : ((cfg4 a).win 0).index t (0 : Fin 3) = rs.val) (j : Fin 128) :
    (iblk4 V a c 0 t : Vec F S1x1x128 .f32) (ValueIdx.ix3 (0 : Fin 1) (0 : Fin 1) j)
      = (V c main_v1 : S100000x1x128.Idx → Elt F .f32) (ValueIdx.ix3 rs (0 : Fin 1) j) := by
  show V c main_v1 ((((cfg4 a).win 0).blk t).view.emb (ValueIdx.ix3 (0 : Fin 1) (0 : Fin 1) j)) = V c main_v1 (ValueIdx.ix3 rs (0 : Fin 1) j)
  refine congrArg (V c main_v1) ?_
  funext ax
  apply Fin.ext
  match ax with
  | ⟨0, _⟩ => show ((cfg4 a).win 0).index t (0 : Fin 3) * 1 + 1 * 0 = rs.val; rw [hrs]; omega
  | ⟨1, _⟩ => show ((cfg4 a).win 0).index t (1 : Fin 3) * 1 + 1 * 0 = 0; rw [chunk4_idx0_1]
  | ⟨2, _⟩ => show ((cfg4 a).win 0).index t (2 : Fin 3) * 128 + 1 * j.val = j.val; rw [chunk4_idx0_2]; omega

/-- The destination window's block likewise, at its own block index. -/
theorem chunk4_blk1 (c : Dev nD) (t : Fin (cfg4 a).N) (rd : Fin 100000)
    (hrd : ((cfg4 a).win 1).index t (0 : Fin 3) = rd.val) (j : Fin 128) :
    (iblk4 V a c 1 t : Vec F S1x1x128 .f32) (ValueIdx.ix3 (0 : Fin 1) (0 : Fin 1) j)
      = (V c main_v1 : S100000x1x128.Idx → Elt F .f32) (ValueIdx.ix3 rd (0 : Fin 1) j) := by
  show V c main_v1 ((((cfg4 a).win 1).blk t).view.emb (ValueIdx.ix3 (0 : Fin 1) (0 : Fin 1) j)) = V c main_v1 (ValueIdx.ix3 rd (0 : Fin 1) j)
  refine congrArg (V c main_v1) ?_
  funext ax
  apply Fin.ext
  match ax with
  | ⟨0, _⟩ => show ((cfg4 a).win 1).index t (0 : Fin 3) * 1 + 1 * 0 = rd.val; rw [hrd]; omega
  | ⟨1, _⟩ => show ((cfg4 a).win 1).index t (1 : Fin 3) * 1 + 1 * 0 = 0; rw [chunk4_idx1_1]
  | ⟨2, _⟩ => show ((cfg4 a).win 1).index t (2 : Fin 3) * 128 + 1 * j.val = j.val; rw [chunk4_idx1_2]; omega

/-- The weights' block is the whole weight array, -/
theorem chunk4_blk2 (c : Dev nD) (t : Fin (cfg4 a).N) (k : Fin 256) :
    (iblk4 V a c 2 t : Vec F S1x256 .f32) (ValueIdx.ix2 (0 : Fin 1) k)
      = (V c main_arg3 : S1x256.Idx → Elt F .f32) (ValueIdx.ix2 (0 : Fin 1) k) := by
  show V c main_arg3 ((((cfg4 a).win 2).blk t).view.emb (ValueIdx.ix2 (0 : Fin 1) k)) = V c main_arg3 (ValueIdx.ix2 (0 : Fin 1) k)
  refine congrArg (V c main_arg3) ?_
  funext ax
  apply Fin.ext
  match ax with
  | ⟨0, _⟩ => show ((cfg4 a).win 2).index t (0 : Fin 2) * 1 + 1 * 0 = 0; rfl
  | ⟨1, _⟩ => show ((cfg4 a).win 2).index t (1 : Fin 2) * 256 + 1 * k.val = k.val; rw [show ((cfg4 a).win 2).index t (1 : Fin 2) = 0 from rfl]; omega

/-- and the bias's block the whole bias array. -/
theorem chunk4_blk3 (c : Dev nD) (t : Fin (cfg4 a).N) :
    (iblk4 V a c 3 t : Vec F S1x1 .f32) (ValueIdx.ix2 (0 : Fin 1) (0 : Fin 1))
      = (V c main_v0 : S1x1.Idx → Elt F .f32) (ValueIdx.ix2 (0 : Fin 1) (0 : Fin 1)) := by
  show V c main_v0 ((((cfg4 a).win 3).blk t).view.emb (ValueIdx.ix2 (0 : Fin 1) (0 : Fin 1))) = V c main_v0 (ValueIdx.ix2 (0 : Fin 1) (0 : Fin 1))
  refine congrArg (V c main_v0) ?_
  funext ax
  apply Fin.ext
  match ax with
  | ⟨0, _⟩ => show ((cfg4 a).win 3).index t (0 : Fin 2) * 1 + 1 * 0 = 0; rfl
  | ⟨1, _⟩ => show ((cfg4 a).win 3).index t (1 : Fin 2) * 1 + 1 * 0 = 0; rfl

end Blocks

/-! ## The score the body stores, from its four input buffers -/

theorem chunk4_hz3 : (![0, 0, 0] : Fin 3 → Nat) = fun _ => 0 := funext fun ax => by fin_cases ax <;> rfl
theorem chunk4_hz2 : (![0, 0] : Fin 2 → Nat) = fun _ => 0 := funext fun ax => by fin_cases ax <;> rfl

/-- A one-cell block has the one index. -/
theorem chunk4_cell (y : S1x1x1.Idx) : y = ValueIdx.ix3 (0 : Fin 1) (0 : Fin 1) (0 : Fin 1) := by
  funext ax
  apply Fin.ext
  match ax with
  | ⟨0, _⟩ => show (y 0).val = 0; have h : (y 0).val < 1 := (y 0).isLt; omega
  | ⟨1, _⟩ => show (y 1).val = 0; have h : (y 1).val < 1 := (y 1).isLt; omega
  | ⟨2, _⟩ => show (y 2).val = 0; have h : (y 2).val < 1 := (y 2).isLt; omega

/-- The stored value at its one index: the two 128-term sums of entrywise products plus the last operand's entry
    (a lane sum over a one-row block is the sum of the row's entries). -/
theorem chunk4_pay (v0 v1 : Vec Ideal S1x128 .f32) (v2 v7 : Vec Ideal S1x1x128 .f32) (v13 : Vec Ideal S1x1 .f32) :
    k4_pay1 (F := Ideal) v0 v1 v2 v7 v13 (ValueIdx.ix3 (0 : Fin 1) (0 : Fin 1) (0 : Fin 1))
      = (∑ j : Fin 128, v2 (ValueIdx.ix3 (0 : Fin 1) (0 : Fin 1) j) * v0 (ValueIdx.ix2 (0 : Fin 1) j))
        + (∑ j : Fin 128, v7 (ValueIdx.ix3 (0 : Fin 1) (0 : Fin 1) j) * v1 (ValueIdx.ix2 (0 : Fin 1) j))
        + v13 (ValueIdx.ix2 (0 : Fin 1) (0 : Fin 1)) := by
  unfold k4_pay1
  rw [shapeCast_ab_1ab_apply, addf_apply, addf_apply, shapeCast_self, shapeCast_a_1a_apply, shapeCast_a_1a_apply,
    Cert.PayloadAt.laneSum_at, Cert.PayloadAt.laneSum_at]
  simp only [mulf_apply, shapeCast_1ab_ab_apply]

/-- A load of the first half of the weights reads column `j`, of the second half column `128 + j`. -/
theorem chunk4_ldW0 (x : Vec Ideal S1x256 .f32) (j : Fin 128) :
    View.ld x rW0 (ValueIdx.ix2 (0 : Fin 1) j) = x (ValueIdx.ix2 (0 : Fin 1) (Cert.Spec.lo j)) := by
  show x _ = x _
  refine congrArg x ?_
  funext ax
  apply Fin.ext
  match ax with
  | ⟨0, _⟩ => show 0 + 1 * 0 = 0; rfl
  | ⟨1, _⟩ => show 0 + 1 * j.val = j.val; omega
theorem chunk4_ldW1 (x : Vec Ideal S1x256 .f32) (j : Fin 128) :
    View.ld x rW1 (ValueIdx.ix2 (0 : Fin 1) j) = x (ValueIdx.ix2 (0 : Fin 1) (Cert.Spec.hi j)) := by
  show x _ = x _
  refine congrArg x ?_
  funext ax
  apply Fin.ext
  match ax with
  | ⟨0, _⟩ => show 0 + 1 * 0 = 0; rfl
  | ⟨1, _⟩ => show 128 + 1 * j.val = 128 + j.val; omega

/-- The output buffer's one cell after the body: row `x0` against the first 128 weights, row `x1` against the last
    128, plus the bias. -/
theorem out4_at (x0 x1 : Vec Ideal S1x1x128 .f32) (x2 : Vec Ideal S1x256 .f32) (x3 : Vec Ideal S1x1 .f32) :
    out4 x0 x1 x2 x3 (ValueIdx.ix3 (0 : Fin 1) (0 : Fin 1) (0 : Fin 1))
      = (∑ j : Fin 128, x0 (ValueIdx.ix3 (0 : Fin 1) (0 : Fin 1) j) * x2 (ValueIdx.ix2 (0 : Fin 1) (Cert.Spec.lo j)))
        + (∑ j : Fin 128, x1 (ValueIdx.ix3 (0 : Fin 1) (0 : Fin 1) j) * x2 (ValueIdx.ix2 (0 : Fin 1) (Cert.Spec.hi j)))
        + x3 (ValueIdx.ix2 (0 : Fin 1) (0 : Fin 1)) := by
  unfold out4
  rw [View.canon_unit_zero chunk4_hz3, chunk4_pay,
    View.ld_unit_zero (S := S1x1x128) chunk4_hz3, View.ld_unit_zero (S := S1x1x128) chunk4_hz3, View.ld_unit_zero (S := S1x1) chunk4_hz2]
  refine congrArg₂ (· + ·) (congrArg₂ (· + ·) (Finset.sum_congr rfl fun j _ => ?_) (Finset.sum_congr rfl fun j _ => ?_)) rfl
  · exact congrArg (fun z => x0 (ValueIdx.ix3 (0 : Fin 1) (0 : Fin 1) j) * z) (chunk4_ldW0 x2 j)
  · exact congrArg (fun z => x1 (ValueIdx.ix3 (0 : Fin 1) (0 : Fin 1) j) * z) (chunk4_ldW1 x2 j)

/-! ## From the blocks to the output array -/

section Array
variable {F : FTy → Type} [FloatOps F]
variable (V : (c : Dev nD) → (b : Ref sig .tc) → Buf (Elt F) ((c : Thread nD τ).loc b)) (a : (pcfg4 (F := F)).Adm)

/-- The output's block index moves at every point, so every point writes its block back. -/
theorem chunk4_flush (t : Fin (cfg4 a).N) : ((cfg4 a).win 4).flush t = true := by
  have hN : (cfg4 a).grid.N = 62500 := N_4
  have ht : t.val < 62500 := (chunk4_N a) ▸ t.isLt
  rw [Window.flush_out _ rfl]
  by_cases h : t.val + 1 = 62500
  · exact Or.inl (h.trans hN.symm)
  · refine Or.inr ⟨Nat.lt_of_lt_of_eq (by omega : t.val + 1 < 62500) hN.symm, fun e => ?_⟩
    have e0 := congrFun e (0 : Fin 3)
    rw [chunk4_idx4_0, chunk4_idx4_0] at e0
    exact absurd e0 (Nat.succ_ne_self _)

/-- Point `t`'s block is the one cell `(t, 0, 0)` of the output array. -/
theorem chunk4_mem (t : Fin (cfg4 a).N) (i : S62500x1x1.Idx) (hi : (i 0).val = t.val) :
    i ∈ (((cfg4 a).win 4).blk t).view.set := by
  have e : (((cfg4 a).win 4).blk t).view.emb (ValueIdx.ix3 (0 : Fin 1) (0 : Fin 1) (0 : Fin 1)) = i := by
    funext ax
    apply Fin.ext
    match ax with
    | ⟨0, _⟩ =>
      show ((cfg4 a).win 4).index t (0 : Fin 3) * 1 + 1 * 0 = (i 0).val
      rw [chunk4_idx4_0]; omega
    | ⟨1, _⟩ =>
      show ((cfg4 a).win 4).index t (1 : Fin 3) * 1 + 1 * 0 = (i 1).val
      have h : (i 1).val < 1 := (i 1).isLt
      rw [chunk4_idx4_1]; omega
    | ⟨2, _⟩ =>
      show ((cfg4 a).win 4).index t (2 : Fin 3) * 1 + 1 * 0 = (i 2).val
      have h : (i 2).val < 1 := (i 2).isLt
      rw [chunk4_idx4_2]; omega
  exact Finset.mem_map.mpr ⟨ValueIdx.ix3 (0 : Fin 1) (0 : Fin 1) (0 : Fin 1), Finset.mem_univ _, e⟩

/-- The score the body leaves at point `t`, as a term of the four input blocks there. -/
def chunk4_score (c : Dev nD) (t : Fin (cfg4 a).N) : Elt F .f32 :=
  out4 (iblk4 V a c 0 t) (iblk4 V a c 1 t) (iblk4 V a c 2 t) (iblk4 V a c 3 t) (ValueIdx.ix3 (0 : Fin 1) (0 : Fin 1) (0 : Fin 1))

/-- The whole output array the points write: at `(r, 0, 0)` point `r`'s score. -/
def chunk4_G (c : Dev nD) : S62500x1x1.Idx → Elt F .f32 :=
  fun i => chunk4_score V a c ⟨(i 0).val, (chunk4_N a).symm ▸ (i 0).isLt⟩

/-- What point `t` writes back is its block of that array. -/
theorem chunk4_flushed (c : Dev nD) (t : Fin (cfg4 a).N) :
    (dat4 V a c).flushed 4 t = (((cfg4 a).win 4).blk t).view.read (Elt F) (chunk4_G V a c) := by
  show ((cfg4 a).win 4).cut ((cfg4 a).grid.coords t) ((dat4 V a c).after 4 t) = _
  rw [after4_4]
  funext y
  show out4 (iblk4 V a c 0 t) (iblk4 V a c 1 t) (iblk4 V a c 2 t) (iblk4 V a c 3 t) (((cfg4 a).win 4).xinj ((cfg4 a).grid.coords t) y)
    = chunk4_G V a c ((((cfg4 a).win 4).blk t).view.emb y)
  refine (congrArg (out4 (iblk4 V a c 0 t) (iblk4 V a c 1 t) (iblk4 V a c 2 t) (iblk4 V a c 3 t)) (chunk4_cell _)).trans ?_
  show chunk4_score V a c t = chunk4_score V a c _
  refine congrArg (chunk4_score V a c) (Fin.ext ?_)
  show t.val = ((cfg4 a).win 4).index t (0 : Fin 3) * 1 + 1 * (y (0 : Fin 3)).val
  have h : (y (0 : Fin 3)).val < 1 := (y (0 : Fin 3)).isLt
  rw [chunk4_idx4_0]; omega

/-- The output array after the run, at `(t, 0, 0)`: point `t`'s score. -/
theorem chunk4_arr (c : Dev nD) (t : Fin (cfg4 a).N) (i : S62500x1x1.Idx) (hi : (i 0).val = t.val) :
    ((dat4 V a c).arrAt 4 (cfg4 a).N : S62500x1x1.Idx → Elt F .f32) i = chunk4_score V a c t := by
  refine ((dat4 V a c).arrAt_apply_of_mem 4 (chunk4_G V a c) (fun t _ => chunk4_flushed V a c t) (cfg4 a).N t i t.isLt
    (chunk4_flush a t) (chunk4_mem a t i hi)).trans ?_
  show chunk4_score V a c _ = chunk4_score V a c t
  exact congrArg (chunk4_score V a c) (Fin.ext hi)

end Array

/-! ## The output array at the exact-real instance -/

/-- The output array after region 4's pipeline, at edge `t`: the score of the two rows the tables name for `t` —
    at any buffers and any admissible contents of the tables; `h`, `W`, `b` name the feature, weight and bias arrays
    the region finds. -/
theorem chunk4_arr_at (V : (c : Dev nD) → (b : Ref sig .tc) → Buf (Elt Ideal) ((c : Thread nD τ).loc b))
    (a : (pcfg4 (F := Ideal)).Adm) (c : Dev nD) (t : Fin 62500) (rs rd : Fin 100000)
    (hrs : ((a.1 0 : S62500.Idx → BitVec 32) (ValueIdx.ix1 t)).toNat = rs.val)
    (hrd : ((a.1 1 : S62500.Idx → BitVec 32) (ValueIdx.ix1 t)).toNat = rd.val)
    (h : S100000x1x128.Idx → EReal) (W : S1x256.Idx → EReal) (b : S1x1.Idx → EReal)
    (hh : (V c main_v1 : S100000x1x128.Idx → EReal) = h) (hW : (V c main_arg3 : S1x256.Idx → EReal) = W)
    (hb : (V c main_v0 : S1x1.Idx → EReal) = b) :
    ((dat4 V a c).arrAt 4 (cfg4 a).N : S62500x1x1.Idx → EReal) (ValueIdx.ix3 t (0 : Fin 1) (0 : Fin 1))
      = (∑ j : Fin 128, h (ValueIdx.ix3 rs (0 : Fin 1) j) * W (ValueIdx.ix2 (0 : Fin 1) (Cert.Spec.lo j)))
        + (∑ j : Fin 128, h (ValueIdx.ix3 rd (0 : Fin 1) j) * W (ValueIdx.ix2 (0 : Fin 1) (Cert.Spec.hi j)))
        + b (ValueIdx.ix2 (0 : Fin 1) (0 : Fin 1)) := by
  have ht : t.val < (cfg4 a).N := (chunk4_N a).symm ▸ t.isLt
  refine (chunk4_arr V a c ⟨t.val, ht⟩ (ValueIdx.ix3 t (0 : Fin 1) (0 : Fin 1)) rfl).trans ?_
  unfold chunk4_score
  refine (out4_at (iblk4 V a c 0 ⟨t.val, ht⟩) (iblk4 V a c 1 ⟨t.val, ht⟩) (iblk4 V a c 2 ⟨t.val, ht⟩) (iblk4 V a c 3 ⟨t.val, ht⟩)).trans ?_
  refine congrArg₂ (· + ·) (congrArg₂ (· + ·) (Finset.sum_congr rfl fun j _ => ?_) (Finset.sum_congr rfl fun j _ => ?_)) ?_
  · exact congrArg₂ (· * ·)
      ((chunk4_blk0 V a c ⟨t.val, ht⟩ rs ((chunk4_idx0_0 a ⟨t.val, ht⟩ t rfl).trans hrs) j).trans (congrFun hh _))
      ((chunk4_blk2 V a c ⟨t.val, ht⟩ (Cert.Spec.lo j)).trans (congrFun hW _))
  · exact congrArg₂ (· * ·)
      ((chunk4_blk1 V a c ⟨t.val, ht⟩ rd ((chunk4_idx1_0 a ⟨t.val, ht⟩ t rfl).trans hrd) j).trans (congrFun hh _))
      ((chunk4_blk2 V a c ⟨t.val, ht⟩ (Cert.Spec.hi j)).trans (congrFun hW _))
  · exact (chunk4_blk3 V a c ⟨t.val, ht⟩).trans (congrFun hb _)

set_option maxHeartbeats 3200000 in
/-- Entry `t` of region 4's output chunk is edge `t`'s score, computed from the rows the two tables name: `rs` and `rd`
    are entry `t` of the two tables, and `h`, `W`, `b` the feature, weight and bias arrays as the region finds them. -/
theorem chunk4_at (m : (ℓ : Loc nD τ sig) → Buf (Elt Ideal) ℓ) (hO : Oks m) (c : Dev nD) (t : Fin 62500) (rs rd : Fin 100000)
    (hrs : ((tbl4 m 0 : S62500.Idx → BitVec 32) (ValueIdx.ix1 t)).toNat = rs.val)
    (hrd : ((tbl4 m 1 : S62500.Idx → BitVec 32) (ValueIdx.ix1 t)).toNat = rd.val)
    (h : S100000x1x128.Idx → EReal) (W : S1x256.Idx → EReal) (b : S1x1.Idx → EReal)
    (hh : (Ve4 m c main_v1 : S100000x1x128.Idx → EReal) = h) (hW : (Ve4 m c main_arg3 : S1x256.Idx → EReal) = W)
    (hb : (Ve4 m c main_v0 : S1x1.Idx → EReal) = b) :
    (chunk4 m hO c : S62500x1x1.Idx → EReal) (ValueIdx.ix3 t (0 : Fin 1) (0 : Fin 1))
      = (∑ j : Fin 128, h (ValueIdx.ix3 rs (0 : Fin 1) j) * W (ValueIdx.ix2 (0 : Fin 1) (Cert.Spec.lo j)))
        + (∑ j : Fin 128, h (ValueIdx.ix3 rd (0 : Fin 1) j) * W (ValueIdx.ix2 (0 : Fin 1) (Cert.Spec.hi j)))
        + b (ValueIdx.ix2 (0 : Fin 1) (0 : Fin 1)) := by
  have key := fun (hok : ok4 (F := Ideal) (tbl4 m)) =>
    chunk4_arr_at (Ve4 m) ⟨tbl4 m, hok⟩ c t rs rd hrs hrd h W b hh hW hb
  unfold chunk4
  exact key _

end Cert.KernelIdeal.Hand
end
-- ==== Proof.KIValue5.lean ====
/-
  Region 5's output chunk, entry by entry, at the exact-real instance.

  The region's pipeline has 62500 points, one per edge of its chunk. At point `t` the output window's block is the single
  cell `(t, 0, 0)` of the output array; the two gathered windows' blocks are rows `src t` and `dst t` of the feature
  array, `src t` and `dst t` being entry `t` of the two index tables read as natural numbers; the weight window's and the
  bias window's blocks are the whole arrays. The body leaves in the output block the score of the two rows,
    (∑ j < 128, h[src t, j] · W[0, j]) + (∑ j < 128, h[dst t, j] · W[0, 128 + j]) + b[0, 0].
  Every point writes its block back (the output's block index moves at every point) and point `t`'s block covers index
  `(t, 0, 0)`, so after the run the output array holds at `(t, 0, 0)` the score of point `t`. Every fact about the
  pipeline is proved with the tables' contents a variable; the region's own tables are put in last.
-/
import proofs.«405368_j31662498906597_2_alg».proof.Proof.KIFamily
import proofs.«405368_j31662498906597_2_alg».proof.Proof.PayloadAt
import proofs.«405368_j31662498906597_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

/-! ## The grid and the index maps, at any contents of the two tables -/

section Generic
variable {F : FTy → Type} [FloatOps F]
variable (V : (c : Dev nD) → (b : Ref sig .tc) → Buf (Elt F) ((c : Thread nD τ).loc b)) (a : (pcfg5 (F := F)).Adm)

/-- The grid has one axis of 62500 points, -/
theorem chunk5_N : (cfg5 a).N = 62500 := N_5

/-- consecutive points are consecutive along it, -/
theorem chunk5_stride : (cfg5 a).grid.stride 0 = 1 := (by decide : grid5.stride 0 = 1)

/-- so point `t`'s one coordinate is `t`. -/
theorem chunk5_coords (t : Fin (cfg5 a).N) : ((cfg5 a).grid.coords t 0).val = t.val := by
  have ht : t.val < 62500 := (chunk5_N a) ▸ t.isLt
  show t.val / (cfg5 a).grid.stride 0 % 62500 = t.val
  rw [chunk5_stride a, Nat.div_one, Nat.mod_eq_of_lt ht]

/-- The output window's block index at point `t` is `(t, 0, 0)`. -/
theorem chunk5_idx4_0 (t : Fin (cfg5 a).N) : ((cfg5 a).win 4).index t (0 : Fin 3) = t.val := by
  have ht : t.val < 62500 := (chunk5_N a) ▸ t.isLt
  show (BitVec.ofNat 32 ((cfg5 a).grid.coords t 0).val).toNat = t.val
  rw [chunk5_coords, BitVec.toNat_ofNat]
  omega
theorem chunk5_idx4_1 (t : Fin (cfg5 a).N) : ((cfg5 a).win 4).index t (1 : Fin 3) = 0 := rfl
theorem chunk5_idx4_2 (t : Fin (cfg5 a).N) : ((cfg5 a).win 4).index t (2 : Fin 3) = 0 := rfl

/-- The source window's block index at point `t` is `(src t, 0, 0)`, `src t` the first table's entry `t` read as a natural number, -/
theorem chunk5_idx0_0 (t : Fin (cfg5 a).N) (e : Fin 62500) (he : e.val = t.val) :
    ((cfg5 a).win 0).index t (0 : Fin 3) = ((a.1 0 : S62500.Idx → BitVec 32) (ValueIdx.ix1 e)).toNat := by
  have ht : t.val < 62500 := (chunk5_N a) ▸ t.isLt
  show ((a.1 0 : S62500.Idx → BitVec 32) _).toNat = _
  refine congrArg (fun i => ((a.1 0 : S62500.Idx → BitVec 32) i).toNat) ?_
  funext ax
  apply Fin.ext
  match ax with
  | ⟨0, _⟩ =>
    show (Scalar.indexCast (BitVec.ofNat 32 ((cfg5 a).grid.coords t 0).val)).toNat + 1 * 0 = e.val
    rw [chunk5_coords, he]
    show (BitVec.ofNat 32 t.val).toNat + 1 * 0 = t.val
    rw [BitVec.toNat_ofNat]
    omega
theorem chunk5_idx0_1 (t : Fin (cfg5 a).N) : ((cfg5 a).win 0).index t (1 : Fin 3) = 0 := rfl
theorem chunk5_idx0_2 (t : Fin (cfg5 a).N) : ((cfg5 a).win 0).index t (2 : Fin 3) = 0 := rfl

/-- and the destination window's is `(dst t, 0, 0)`, from the second table. -/
theorem chunk5_idx1_0 (t : Fin (cfg5 a).N) (e : Fin 62500) (he : e.val = t.val) :
    ((cfg5 a).win 1).index t (0 : Fin 3) = ((a.1 1 : S62500.Idx → BitVec 32) (ValueIdx.ix1 e)).toNat := by
  have ht : t.val < 62500 := (chunk5_N a) ▸ t.isLt
  show ((a.1 1 : S62500.Idx → BitVec 32) _).toNat = _
  refine congrArg (fun i => ((a.1 1 : S62500.Idx → BitVec 32) i).toNat) ?_
  funext ax
  apply Fin.ext
  match ax with
  | ⟨0, _⟩ =>
    show (Scalar.indexCast (BitVec.ofNat 32 ((cfg5 a).grid.coords t 0).val)).toNat + 1 * 0 = e.val
    rw [chunk5_coords, he]
    show (BitVec.ofNat 32 t.val).toNat + 1 * 0 = t.val
    rw [BitVec.toNat_ofNat]
    omega
theorem chunk5_idx1_1 (t : Fin (cfg5 a).N) : ((cfg5 a).win 1).index t (1 : Fin 3) = 0 := rfl
theorem chunk5_idx1_2 (t : Fin (cfg5 a).N) : ((cfg5 a).win 1).index t (2 : Fin 3) = 0 := rfl

end Generic

/-! ## The five blocks at a point, read where the arrays are -/

section Blocks
variable {F : FTy → Type} [FloatOps F]
variable (V : (c : Dev nD) → (b : Ref sig .tc) → Buf (Elt F) ((c : Thread nD τ).loc b)) (a : (pcfg5 (F := F)).Adm)

/-- The source window's block at point `t` is row `rs` of the feature array when its block index there is `rs`. -/
theorem chunk5_blk0 (c : Dev nD) (t : Fin (cfg5 a).N) (rs : Fin 100000)
    (hrs : ((cfg5 a).win 0).index t (0 : Fin 3) = rs.val) (j : Fin 128) :
    (iblk5 V a c 0 t : Vec F S1x1x128 .f32) (ValueIdx.ix3 (0 : Fin 1) (0 : Fin 1) j)
      = (V c main_v1 : S100000x1x128.Idx → Elt F .f32) (ValueIdx.ix3 rs (0 : Fin 1) j) := by
  show V c main_v1 ((((cfg5 a).win 0).blk t).view.emb (ValueIdx.ix3 (0 : Fin 1) (0 : Fin 1) j)) = V c main_v1 (ValueIdx.ix3 rs (0 : Fin 1) j)
  refine congrArg (V c main_v1) ?_
  funext ax
  apply Fin.ext
  match ax with
  | ⟨0, _⟩ => show ((cfg5 a).win 0).index t (0 : Fin 3) * 1 + 1 * 0 = rs.val; rw [hrs]; omega
  | ⟨1, _⟩ => show ((cfg5 a).win 0).index t (1 : Fin 3) * 1 + 1 * 0 = 0; rw [chunk5_idx0_1]
  | ⟨2, _⟩ => show ((cfg5 a).win 0).index t (2 : Fin 3) * 128 + 1 * j.val = j.val; rw [chunk5_idx0_2]; omega

/-- The destination window's block likewise, at its own block index. -/
theorem chunk5_blk1 (c : Dev nD) (t : Fin (cfg5 a).N) (rd : Fin 100000)
    (hrd : ((cfg5 a).win 1).index t (0 : Fin 3) = rd.val) (j : Fin 128) :
    (iblk5 V a c 1 t : Vec F S1x1x128 .f32) (ValueIdx.ix3 (0 : Fin 1) (0 : Fin 1) j)
      = (V c main_v1 : S100000x1x128.Idx → Elt F .f32) (ValueIdx.ix3 rd (0 : Fin 1) j) := by
  show V c main_v1 ((((cfg5 a).win 1).blk t).view.emb (ValueIdx.ix3 (0 : Fin 1) (0 : Fin 1) j)) = V c main_v1 (ValueIdx.ix3 rd (0 : Fin 1) j)
  refine congrArg (V c main_v1) ?_
  funext ax
  apply Fin.ext
  match ax with
  | ⟨0, _⟩ => show ((cfg5 a).win 1).index t (0 : Fin 3) * 1 + 1 * 0 = rd.val; rw [hrd]; omega
  | ⟨1, _⟩ => show ((cfg5 a).win 1).index t (1 : Fin 3) * 1 + 1 * 0 = 0; rw [chunk5_idx1_1]
  | ⟨2, _⟩ => show ((cfg5 a).win 1).index t (2 : Fin 3) * 128 + 1 * j.val = j.val; rw [chunk5_idx1_2]; omega

/-- The weights' block is the whole weight array, -/
theorem chunk5_blk2 (c : Dev nD) (t : Fin (cfg5 a).N) (k : Fin 256) :
    (iblk5 V a c 2 t : Vec F S1x256 .f32) (ValueIdx.ix2 (0 : Fin 1) k)
      = (V c main_arg3 : S1x256.Idx → Elt F .f32) (ValueIdx.ix2 (0 : Fin 1) k) := by
  show V c main_arg3 ((((cfg5 a).win 2).blk t).view.emb (ValueIdx.ix2 (0 : Fin 1) k)) = V c main_arg3 (ValueIdx.ix2 (0 : Fin 1) k)
  refine congrArg (V c main_arg3) ?_
  funext ax
  apply Fin.ext
  match ax with
  | ⟨0, _⟩ => show ((cfg5 a).win 2).index t (0 : Fin 2) * 1 + 1 * 0 = 0; rfl
  | ⟨1, _⟩ => show ((cfg5 a).win 2).index t (1 : Fin 2) * 256 + 1 * k.val = k.val; rw [show ((cfg5 a).win 2).index t (1 : Fin 2) = 0 from rfl]; omega

/-- and the bias's block the whole bias array. -/
theorem chunk5_blk3 (c : Dev nD) (t : Fin (cfg5 a).N) :
    (iblk5 V a c 3 t : Vec F S1x1 .f32) (ValueIdx.ix2 (0 : Fin 1) (0 : Fin 1))
      = (V c main_v0 : S1x1.Idx → Elt F .f32) (ValueIdx.ix2 (0 : Fin 1) (0 : Fin 1)) := by
  show V c main_v0 ((((cfg5 a).win 3).blk t).view.emb (ValueIdx.ix2 (0 : Fin 1) (0 : Fin 1))) = V c main_v0 (ValueIdx.ix2 (0 : Fin 1) (0 : Fin 1))
  refine congrArg (V c main_v0) ?_
  funext ax
  apply Fin.ext
  match ax with
  | ⟨0, _⟩ => show ((cfg5 a).win 3).index t (0 : Fin 2) * 1 + 1 * 0 = 0; rfl
  | ⟨1, _⟩ => show ((cfg5 a).win 3).index t (1 : Fin 2) * 1 + 1 * 0 = 0; rfl

end Blocks

/-! ## The score the body stores, from its four input buffers -/

theorem chunk5_hz3 : (![0, 0, 0] : Fin 3 → Nat) = fun _ => 0 := funext fun ax => by fin_cases ax <;> rfl
theorem chunk5_hz2 : (![0, 0] : Fin 2 → Nat) = fun _ => 0 := funext fun ax => by fin_cases ax <;> rfl

/-- A one-cell block has the one index. -/
theorem chunk5_cell (y : S1x1x1.Idx) : y = ValueIdx.ix3 (0 : Fin 1) (0 : Fin 1) (0 : Fin 1) := by
  funext ax
  apply Fin.ext
  match ax with
  | ⟨0, _⟩ => show (y 0).val = 0; have h : (y 0).val < 1 := (y 0).isLt; omega
  | ⟨1, _⟩ => show (y 1).val = 0; have h : (y 1).val < 1 := (y 1).isLt; omega
  | ⟨2, _⟩ => show (y 2).val = 0; have h : (y 2).val < 1 := (y 2).isLt; omega

/-- The stored value at its one index: the two 128-term sums of entrywise products plus the last operand's entry
    (a lane sum over a one-row block is the sum of the row's entries). -/
theorem chunk5_pay (v0 v1 : Vec Ideal S1x128 .f32) (v2 v7 : Vec Ideal S1x1x128 .f32) (v13 : Vec Ideal S1x1 .f32) :
    k5_pay1 (F := Ideal) v0 v1 v2 v7 v13 (ValueIdx.ix3 (0 : Fin 1) (0 : Fin 1) (0 : Fin 1))
      = (∑ j : Fin 128, v2 (ValueIdx.ix3 (0 : Fin 1) (0 : Fin 1) j) * v0 (ValueIdx.ix2 (0 : Fin 1) j))
        + (∑ j : Fin 128, v7 (ValueIdx.ix3 (0 : Fin 1) (0 : Fin 1) j) * v1 (ValueIdx.ix2 (0 : Fin 1) j))
        + v13 (ValueIdx.ix2 (0 : Fin 1) (0 : Fin 1)) := by
  unfold k5_pay1
  rw [shapeCast_ab_1ab_apply, addf_apply, addf_apply, shapeCast_self, shapeCast_a_1a_apply, shapeCast_a_1a_apply,
    Cert.PayloadAt.laneSum_at, Cert.PayloadAt.laneSum_at]
  simp only [mulf_apply, shapeCast_1ab_ab_apply]

/-- A load of the first half of the weights reads column `j`, of the second half column `128 + j`. -/
theorem chunk5_ldW0 (x : Vec Ideal S1x256 .f32) (j : Fin 128) :
    View.ld x rW0 (ValueIdx.ix2 (0 : Fin 1) j) = x (ValueIdx.ix2 (0 : Fin 1) (Cert.Spec.lo j)) := by
  show x _ = x _
  refine congrArg x ?_
  funext ax
  apply Fin.ext
  match ax with
  | ⟨0, _⟩ => show 0 + 1 * 0 = 0; rfl
  | ⟨1, _⟩ => show 0 + 1 * j.val = j.val; omega
theorem chunk5_ldW1 (x : Vec Ideal S1x256 .f32) (j : Fin 128) :
    View.ld x rW1 (ValueIdx.ix2 (0 : Fin 1) j) = x (ValueIdx.ix2 (0 : Fin 1) (Cert.Spec.hi j)) := by
  show x _ = x _
  refine congrArg x ?_
  funext ax
  apply Fin.ext
  match ax with
  | ⟨0, _⟩ => show 0 + 1 * 0 = 0; rfl
  | ⟨1, _⟩ => show 128 + 1 * j.val = 128 + j.val; omega

/-- The output buffer's one cell after the body: row `x0` against the first 128 weights, row `x1` against the last
    128, plus the bias. -/
theorem out5_at (x0 x1 : Vec Ideal S1x1x128 .f32) (x2 : Vec Ideal S1x256 .f32) (x3 : Vec Ideal S1x1 .f32) :
    out5 x0 x1 x2 x3 (ValueIdx.ix3 (0 : Fin 1) (0 : Fin 1) (0 : Fin 1))
      = (∑ j : Fin 128, x0 (ValueIdx.ix3 (0 : Fin 1) (0 : Fin 1) j) * x2 (ValueIdx.ix2 (0 : Fin 1) (Cert.Spec.lo j)))
        + (∑ j : Fin 128, x1 (ValueIdx.ix3 (0 : Fin 1) (0 : Fin 1) j) * x2 (ValueIdx.ix2 (0 : Fin 1) (Cert.Spec.hi j)))
        + x3 (ValueIdx.ix2 (0 : Fin 1) (0 : Fin 1)) := by
  unfold out5
  rw [View.canon_unit_zero chunk5_hz3, chunk5_pay,
    View.ld_unit_zero (S := S1x1x128) chunk5_hz3, View.ld_unit_zero (S := S1x1x128) chunk5_hz3, View.ld_unit_zero (S := S1x1) chunk5_hz2]
  refine congrArg₂ (· + ·) (congrArg₂ (· + ·) (Finset.sum_congr rfl fun j _ => ?_) (Finset.sum_congr rfl fun j _ => ?_)) rfl
  · exact congrArg (fun z => x0 (ValueIdx.ix3 (0 : Fin 1) (0 : Fin 1) j) * z) (chunk5_ldW0 x2 j)
  · exact congrArg (fun z => x1 (ValueIdx.ix3 (0 : Fin 1) (0 : Fin 1) j) * z) (chunk5_ldW1 x2 j)

/-! ## From the blocks to the output array -/

section Array
variable {F : FTy → Type} [FloatOps F]
variable (V : (c : Dev nD) → (b : Ref sig .tc) → Buf (Elt F) ((c : Thread nD τ).loc b)) (a : (pcfg5 (F := F)).Adm)

/-- The output's block index moves at every point, so every point writes its block back. -/
theorem chunk5_flush (t : Fin (cfg5 a).N) : ((cfg5 a).win 4).flush t = true := by
  have hN : (cfg5 a).grid.N = 62500 := N_5
  have ht : t.val < 62500 := (chunk5_N a) ▸ t.isLt
  rw [Window.flush_out _ rfl]
  by_cases h : t.val + 1 = 62500
  · exact Or.inl (h.trans hN.symm)
  · refine Or.inr ⟨Nat.lt_of_lt_of_eq (by omega : t.val + 1 < 62500) hN.symm, fun e => ?_⟩
    have e0 := congrFun e (0 : Fin 3)
    rw [chunk5_idx4_0, chunk5_idx4_0] at e0
    exact absurd e0 (Nat.succ_ne_self _)

/-- Point `t`'s block is the one cell `(t, 0, 0)` of the output array. -/
theorem chunk5_mem (t : Fin (cfg5 a).N) (i : S62500x1x1.Idx) (hi : (i 0).val = t.val) :
    i ∈ (((cfg5 a).win 4).blk t).view.set := by
  have e : (((cfg5 a).win 4).blk t).view.emb (ValueIdx.ix3 (0 : Fin 1) (0 : Fin 1) (0 : Fin 1)) = i := by
    funext ax
    apply Fin.ext
    match ax with
    | ⟨0, _⟩ =>
      show ((cfg5 a).win 4).index t (0 : Fin 3) * 1 + 1 * 0 = (i 0).val
      rw [chunk5_idx4_0]; omega
    | ⟨1, _⟩ =>
      show ((cfg5 a).win 4).index t (1 : Fin 3) * 1 + 1 * 0 = (i 1).val
      have h : (i 1).val < 1 := (i 1).isLt
      rw [chunk5_idx4_1]; omega
    | ⟨2, _⟩ =>
      show ((cfg5 a).win 4).index t (2 : Fin 3) * 1 + 1 * 0 = (i 2).val
      have h : (i 2).val < 1 := (i 2).isLt
      rw [chunk5_idx4_2]; omega
  exact Finset.mem_map.mpr ⟨ValueIdx.ix3 (0 : Fin 1) (0 : Fin 1) (0 : Fin 1), Finset.mem_univ _, e⟩

/-- The score the body leaves at point `t`, as a term of the four input blocks there. -/
def chunk5_score (c : Dev nD) (t : Fin (cfg5 a).N) : Elt F .f32 :=
  out5 (iblk5 V a c 0 t) (iblk5 V a c 1 t) (iblk5 V a c 2 t) (iblk5 V a c 3 t) (ValueIdx.ix3 (0 : Fin 1) (0 : Fin 1) (0 : Fin 1))

/-- The whole output array the points write: at `(r, 0, 0)` point `r`'s score. -/
def chunk5_G (c : Dev nD) : S62500x1x1.Idx → Elt F .f32 :=
  fun i => chunk5_score V a c ⟨(i 0).val, (chunk5_N a).symm ▸ (i 0).isLt⟩

/-- What point `t` writes back is its block of that array. -/
theorem chunk5_flushed (c : Dev nD) (t : Fin (cfg5 a).N) :
    (dat5 V a c).flushed 4 t = (((cfg5 a).win 4).blk t).view.read (Elt F) (chunk5_G V a c) := by
  show ((cfg5 a).win 4).cut ((cfg5 a).grid.coords t) ((dat5 V a c).after 4 t) = _
  rw [after5_4]
  funext y
  show out5 (iblk5 V a c 0 t) (iblk5 V a c 1 t) (iblk5 V a c 2 t) (iblk5 V a c 3 t) (((cfg5 a).win 4).xinj ((cfg5 a).grid.coords t) y)
    = chunk5_G V a c ((((cfg5 a).win 4).blk t).view.emb y)
  refine (congrArg (out5 (iblk5 V a c 0 t) (iblk5 V a c 1 t) (iblk5 V a c 2 t) (iblk5 V a c 3 t)) (chunk5_cell _)).trans ?_
  show chunk5_score V a c t = chunk5_score V a c _
  refine congrArg (chunk5_score V a c) (Fin.ext ?_)
  show t.val = ((cfg5 a).win 4).index t (0 : Fin 3) * 1 + 1 * (y (0 : Fin 3)).val
  have h : (y (0 : Fin 3)).val < 1 := (y (0 : Fin 3)).isLt
  rw [chunk5_idx4_0]; omega

/-- The output array after the run, at `(t, 0, 0)`: point `t`'s score. -/
theorem chunk5_arr (c : Dev nD) (t : Fin (cfg5 a).N) (i : S62500x1x1.Idx) (hi : (i 0).val = t.val) :
    ((dat5 V a c).arrAt 4 (cfg5 a).N : S62500x1x1.Idx → Elt F .f32) i = chunk5_score V a c t := by
  refine ((dat5 V a c).arrAt_apply_of_mem 4 (chunk5_G V a c) (fun t _ => chunk5_flushed V a c t) (cfg5 a).N t i t.isLt
    (chunk5_flush a t) (chunk5_mem a t i hi)).trans ?_
  show chunk5_score V a c _ = chunk5_score V a c t
  exact congrArg (chunk5_score V a c) (Fin.ext hi)

end Array

/-! ## The output array at the exact-real instance -/

/-- The output array after region 5's pipeline, at edge `t`: the score of the two rows the tables name for `t` —
    at any buffers and any admissible contents of the tables; `h`, `W`, `b` name the feature, weight and bias arrays
    the region finds. -/
theorem chunk5_arr_at (V : (c : Dev nD) → (b : Ref sig .tc) → Buf (Elt Ideal) ((c : Thread nD τ).loc b))
    (a : (pcfg5 (F := Ideal)).Adm) (c : Dev nD) (t : Fin 62500) (rs rd : Fin 100000)
    (hrs : ((a.1 0 : S62500.Idx → BitVec 32) (ValueIdx.ix1 t)).toNat = rs.val)
    (hrd : ((a.1 1 : S62500.Idx → BitVec 32) (ValueIdx.ix1 t)).toNat = rd.val)
    (h : S100000x1x128.Idx → EReal) (W : S1x256.Idx → EReal) (b : S1x1.Idx → EReal)
    (hh : (V c main_v1 : S100000x1x128.Idx → EReal) = h) (hW : (V c main_arg3 : S1x256.Idx → EReal) = W)
    (hb : (V c main_v0 : S1x1.Idx → EReal) = b) :
    ((dat5 V a c).arrAt 4 (cfg5 a).N : S62500x1x1.Idx → EReal) (ValueIdx.ix3 t (0 : Fin 1) (0 : Fin 1))
      = (∑ j : Fin 128, h (ValueIdx.ix3 rs (0 : Fin 1) j) * W (ValueIdx.ix2 (0 : Fin 1) (Cert.Spec.lo j)))
        + (∑ j : Fin 128, h (ValueIdx.ix3 rd (0 : Fin 1) j) * W (ValueIdx.ix2 (0 : Fin 1) (Cert.Spec.hi j)))
        + b (ValueIdx.ix2 (0 : Fin 1) (0 : Fin 1)) := by
  have ht : t.val < (cfg5 a).N := (chunk5_N a).symm ▸ t.isLt
  refine (chunk5_arr V a c ⟨t.val, ht⟩ (ValueIdx.ix3 t (0 : Fin 1) (0 : Fin 1)) rfl).trans ?_
  unfold chunk5_score
  refine (out5_at (iblk5 V a c 0 ⟨t.val, ht⟩) (iblk5 V a c 1 ⟨t.val, ht⟩) (iblk5 V a c 2 ⟨t.val, ht⟩) (iblk5 V a c 3 ⟨t.val, ht⟩)).trans ?_
  refine congrArg₂ (· + ·) (congrArg₂ (· + ·) (Finset.sum_congr rfl fun j _ => ?_) (Finset.sum_congr rfl fun j _ => ?_)) ?_
  · exact congrArg₂ (· * ·)
      ((chunk5_blk0 V a c ⟨t.val, ht⟩ rs ((chunk5_idx0_0 a ⟨t.val, ht⟩ t rfl).trans hrs) j).trans (congrFun hh _))
      ((chunk5_blk2 V a c ⟨t.val, ht⟩ (Cert.Spec.lo j)).trans (congrFun hW _))
  · exact congrArg₂ (· * ·)
      ((chunk5_blk1 V a c ⟨t.val, ht⟩ rd ((chunk5_idx1_0 a ⟨t.val, ht⟩ t rfl).trans hrd) j).trans (congrFun hh _))
      ((chunk5_blk2 V a c ⟨t.val, ht⟩ (Cert.Spec.hi j)).trans (congrFun hW _))
  · exact (chunk5_blk3 V a c ⟨t.val, ht⟩).trans (congrFun hb _)

set_option maxHeartbeats 3200000 in
/-- Entry `t` of region 5's output chunk is edge `t`'s score, computed from the rows the two tables name: `rs` and `rd`
    are entry `t` of the two tables, and `h`, `W`, `b` the feature, weight and bias arrays as the region finds them. -/
theorem chunk5_at (m : (ℓ : Loc nD τ sig) → Buf (Elt Ideal) ℓ) (hO : Oks m) (c : Dev nD) (t : Fin 62500) (rs rd : Fin 100000)
    (hrs : ((tbl5 m 0 : S62500.Idx → BitVec 32) (ValueIdx.ix1 t)).toNat = rs.val)
    (hrd : ((tbl5 m 1 : S62500.Idx → BitVec 32) (ValueIdx.ix1 t)).toNat = rd.val)
    (h : S100000x1x128.Idx → EReal) (W : S1x256.Idx → EReal) (b : S1x1.Idx → EReal)
    (hh : (Ve5 m c main_v1 : S100000x1x128.Idx → EReal) = h) (hW : (Ve5 m c main_arg3 : S1x256.Idx → EReal) = W)
    (hb : (Ve5 m c main_v0 : S1x1.Idx → EReal) = b) :
    (chunk5 m hO c : S62500x1x1.Idx → EReal) (ValueIdx.ix3 t (0 : Fin 1) (0 : Fin 1))
      = (∑ j : Fin 128, h (ValueIdx.ix3 rs (0 : Fin 1) j) * W (ValueIdx.ix2 (0 : Fin 1) (Cert.Spec.lo j)))
        + (∑ j : Fin 128, h (ValueIdx.ix3 rd (0 : Fin 1) j) * W (ValueIdx.ix2 (0 : Fin 1) (Cert.Spec.hi j)))
        + b (ValueIdx.ix2 (0 : Fin 1) (0 : Fin 1)) := by
  have key := fun (hok : ok5 (F := Ideal) (tbl5 m)) =>
    chunk5_arr_at (Ve5 m) ⟨tbl5 m, hok⟩ c t rs rd hrs hrd h W b hh hW hb
  unfold chunk5
  exact key _

end Cert.KernelIdeal.Hand
end
-- ==== Proof.KIValue6.lean ====
/-
  Region 6's output chunk, entry by entry, at the exact-real instance.

  The region's pipeline has 62500 points, one per edge of its chunk. At point `t` the output window's block is the single
  cell `(t, 0, 0)` of the output array; the two gathered windows' blocks are rows `src t` and `dst t` of the feature
  array, `src t` and `dst t` being entry `t` of the two index tables read as natural numbers; the weight window's and the
  bias window's blocks are the whole arrays. The body leaves in the output block the score of the two rows,
    (∑ j < 128, h[src t, j] · W[0, j]) + (∑ j < 128, h[dst t, j] · W[0, 128 + j]) + b[0, 0].
  Every point writes its block back (the output's block index moves at every point) and point `t`'s block covers index
  `(t, 0, 0)`, so after the run the output array holds at `(t, 0, 0)` the score of point `t`. Every fact about the
  pipeline is proved with the tables' contents a variable; the region's own tables are put in last.
-/
import proofs.«405368_j31662498906597_2_alg».proof.Proof.KIFamily
import proofs.«405368_j31662498906597_2_alg».proof.Proof.PayloadAt
import proofs.«405368_j31662498906597_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

/-! ## The grid and the index maps, at any contents of the two tables -/

section Generic
variable {F : FTy → Type} [FloatOps F]
variable (V : (c : Dev nD) → (b : Ref sig .tc) → Buf (Elt F) ((c : Thread nD τ).loc b)) (a : (pcfg6 (F := F)).Adm)

/-- The grid has one axis of 62500 points, -/
theorem chunk6_N : (cfg6 a).N = 62500 := N_6

/-- consecutive points are consecutive along it, -/
theorem chunk6_stride : (cfg6 a).grid.stride 0 = 1 := (by decide : grid6.stride 0 = 1)

/-- so point `t`'s one coordinate is `t`. -/
theorem chunk6_coords (t : Fin (cfg6 a).N) : ((cfg6 a).grid.coords t 0).val = t.val := by
  have ht : t.val < 62500 := (chunk6_N a) ▸ t.isLt
  show t.val / (cfg6 a).grid.stride 0 % 62500 = t.val
  rw [chunk6_stride a, Nat.div_one, Nat.mod_eq_of_lt ht]

/-- The output window's block index at point `t` is `(t, 0, 0)`. -/
theorem chunk6_idx4_0 (t : Fin (cfg6 a).N) : ((cfg6 a).win 4).index t (0 : Fin 3) = t.val := by
  have ht : t.val < 62500 := (chunk6_N a) ▸ t.isLt
  show (BitVec.ofNat 32 ((cfg6 a).grid.coords t 0).val).toNat = t.val
  rw [chunk6_coords, BitVec.toNat_ofNat]
  omega
theorem chunk6_idx4_1 (t : Fin (cfg6 a).N) : ((cfg6 a).win 4).index t (1 : Fin 3) = 0 := rfl
theorem chunk6_idx4_2 (t : Fin (cfg6 a).N) : ((cfg6 a).win 4).index t (2 : Fin 3) = 0 := rfl

/-- The source window's block index at point `t` is `(src t, 0, 0)`, `src t` the first table's entry `t` read as a natural number, -/
theorem chunk6_idx0_0 (t : Fin (cfg6 a).N) (e : Fin 62500) (he : e.val = t.val) :
    ((cfg6 a).win 0).index t (0 : Fin 3) = ((a.1 0 : S62500.Idx → BitVec 32) (ValueIdx.ix1 e)).toNat := by
  have ht : t.val < 62500 := (chunk6_N a) ▸ t.isLt
  show ((a.1 0 : S62500.Idx → BitVec 32) _).toNat = _
  refine congrArg (fun i => ((a.1 0 : S62500.Idx → BitVec 32) i).toNat) ?_
  funext ax
  apply Fin.ext
  match ax with
  | ⟨0, _⟩ =>
    show (Scalar.indexCast (BitVec.ofNat 32 ((cfg6 a).grid.coords t 0).val)).toNat + 1 * 0 = e.val
    rw [chunk6_coords, he]
    show (BitVec.ofNat 32 t.val).toNat + 1 * 0 = t.val
    rw [BitVec.toNat_ofNat]
    omega
theorem chunk6_idx0_1 (t : Fin (cfg6 a).N) : ((cfg6 a).win 0).index t (1 : Fin 3) = 0 := rfl
theorem chunk6_idx0_2 (t : Fin (cfg6 a).N) : ((cfg6 a).win 0).index t (2 : Fin 3) = 0 := rfl

/-- and the destination window's is `(dst t, 0, 0)`, from the second table. -/
theorem chunk6_idx1_0 (t : Fin (cfg6 a).N) (e : Fin 62500) (he : e.val = t.val) :
    ((cfg6 a).win 1).index t (0 : Fin 3) = ((a.1 1 : S62500.Idx → BitVec 32) (ValueIdx.ix1 e)).toNat := by
  have ht : t.val < 62500 := (chunk6_N a) ▸ t.isLt
  show ((a.1 1 : S62500.Idx → BitVec 32) _).toNat = _
  refine congrArg (fun i => ((a.1 1 : S62500.Idx → BitVec 32) i).toNat) ?_
  funext ax
  apply Fin.ext
  match ax with
  | ⟨0, _⟩ =>
    show (Scalar.indexCast (BitVec.ofNat 32 ((cfg6 a).grid.coords t 0).val)).toNat + 1 * 0 = e.val
    rw [chunk6_coords, he]
    show (BitVec.ofNat 32 t.val).toNat + 1 * 0 = t.val
    rw [BitVec.toNat_ofNat]
    omega
theorem chunk6_idx1_1 (t : Fin (cfg6 a).N) : ((cfg6 a).win 1).index t (1 : Fin 3) = 0 := rfl
theorem chunk6_idx1_2 (t : Fin (cfg6 a).N) : ((cfg6 a).win 1).index t (2 : Fin 3) = 0 := rfl

end Generic

/-! ## The five blocks at a point, read where the arrays are -/

section Blocks
variable {F : FTy → Type} [FloatOps F]
variable (V : (c : Dev nD) → (b : Ref sig .tc) → Buf (Elt F) ((c : Thread nD τ).loc b)) (a : (pcfg6 (F := F)).Adm)

/-- The source window's block at point `t` is row `rs` of the feature array when its block index there is `rs`. -/
theorem chunk6_blk0 (c : Dev nD) (t : Fin (cfg6 a).N) (rs : Fin 100000)
    (hrs : ((cfg6 a).win 0).index t (0 : Fin 3) = rs.val) (j : Fin 128) :
    (iblk6 V a c 0 t : Vec F S1x1x128 .f32) (ValueIdx.ix3 (0 : Fin 1) (0 : Fin 1) j)
      = (V c main_v1 : S100000x1x128.Idx → Elt F .f32) (ValueIdx.ix3 rs (0 : Fin 1) j) := by
  show V c main_v1 ((((cfg6 a).win 0).blk t).view.emb (ValueIdx.ix3 (0 : Fin 1) (0 : Fin 1) j)) = V c main_v1 (ValueIdx.ix3 rs (0 : Fin 1) j)
  refine congrArg (V c main_v1) ?_
  funext ax
  apply Fin.ext
  match ax with
  | ⟨0, _⟩ => show ((cfg6 a).win 0).index t (0 : Fin 3) * 1 + 1 * 0 = rs.val; rw [hrs]; omega
  | ⟨1, _⟩ => show ((cfg6 a).win 0).index t (1 : Fin 3) * 1 + 1 * 0 = 0; rw [chunk6_idx0_1]
  | ⟨2, _⟩ => show ((cfg6 a).win 0).index t (2 : Fin 3) * 128 + 1 * j.val = j.val; rw [chunk6_idx0_2]; omega

/-- The destination window's block likewise, at its own block index. -/
theorem chunk6_blk1 (c : Dev nD) (t : Fin (cfg6 a).N) (rd : Fin 100000)
    (hrd : ((cfg6 a).win 1).index t (0 : Fin 3) = rd.val) (j : Fin 128) :
    (iblk6 V a c 1 t : Vec F S1x1x128 .f32) (ValueIdx.ix3 (0 : Fin 1) (0 : Fin 1) j)
      = (V c main_v1 : S100000x1x128.Idx → Elt F .f32) (ValueIdx.ix3 rd (0 : Fin 1) j) := by
  show V c main_v1 ((((cfg6 a).win 1).blk t).view.emb (ValueIdx.ix3 (0 : Fin 1) (0 : Fin 1) j)) = V c main_v1 (ValueIdx.ix3 rd (0 : Fin 1) j)
  refine congrArg (V c main_v1) ?_
  funext ax
  apply Fin.ext
  match ax with
  | ⟨0, _⟩ => show ((cfg6 a).win 1).index t (0 : Fin 3) * 1 + 1 * 0 = rd.val; rw [hrd]; omega
  | ⟨1, _⟩ => show ((cfg6 a).win 1).index t (1 : Fin 3) * 1 + 1 * 0 = 0; rw [chunk6_idx1_1]
  | ⟨2, _⟩ => show ((cfg6 a).win 1).index t (2 : Fin 3) * 128 + 1 * j.val = j.val; rw [chunk6_idx1_2]; omega

/-- The weights' block is the whole weight array, -/
theorem chunk6_blk2 (c : Dev nD) (t : Fin (cfg6 a).N) (k : Fin 256) :
    (iblk6 V a c 2 t : Vec F S1x256 .f32) (ValueIdx.ix2 (0 : Fin 1) k)
      = (V c main_arg3 : S1x256.Idx → Elt F .f32) (ValueIdx.ix2 (0 : Fin 1) k) := by
  show V c main_arg3 ((((cfg6 a).win 2).blk t).view.emb (ValueIdx.ix2 (0 : Fin 1) k)) = V c main_arg3 (ValueIdx.ix2 (0 : Fin 1) k)
  refine congrArg (V c main_arg3) ?_
  funext ax
  apply Fin.ext
  match ax with
  | ⟨0, _⟩ => show ((cfg6 a).win 2).index t (0 : Fin 2) * 1 + 1 * 0 = 0; rfl
  | ⟨1, _⟩ => show ((cfg6 a).win 2).index t (1 : Fin 2) * 256 + 1 * k.val = k.val; rw [show ((cfg6 a).win 2).index t (1 : Fin 2) = 0 from rfl]; omega

/-- and the bias's block the whole bias array. -/
theorem chunk6_blk3 (c : Dev nD) (t : Fin (cfg6 a).N) :
    (iblk6 V a c 3 t : Vec F S1x1 .f32) (ValueIdx.ix2 (0 : Fin 1) (0 : Fin 1))
      = (V c main_v0 : S1x1.Idx → Elt F .f32) (ValueIdx.ix2 (0 : Fin 1) (0 : Fin 1)) := by
  show V c main_v0 ((((cfg6 a).win 3).blk t).view.emb (ValueIdx.ix2 (0 : Fin 1) (0 : Fin 1))) = V c main_v0 (ValueIdx.ix2 (0 : Fin 1) (0 : Fin 1))
  refine congrArg (V c main_v0) ?_
  funext ax
  apply Fin.ext
  match ax with
  | ⟨0, _⟩ => show ((cfg6 a).win 3).index t (0 : Fin 2) * 1 + 1 * 0 = 0; rfl
  | ⟨1, _⟩ => show ((cfg6 a).win 3).index t (1 : Fin 2) * 1 + 1 * 0 = 0; rfl

end Blocks

/-! ## The score the body stores, from its four input buffers -/

theorem chunk6_hz3 : (![0, 0, 0] : Fin 3 → Nat) = fun _ => 0 := funext fun ax => by fin_cases ax <;> rfl
theorem chunk6_hz2 : (![0, 0] : Fin 2 → Nat) = fun _ => 0 := funext fun ax => by fin_cases ax <;> rfl

/-- A one-cell block has the one index. -/
theorem chunk6_cell (y : S1x1x1.Idx) : y = ValueIdx.ix3 (0 : Fin 1) (0 : Fin 1) (0 : Fin 1) := by
  funext ax
  apply Fin.ext
  match ax with
  | ⟨0, _⟩ => show (y 0).val = 0; have h : (y 0).val < 1 := (y 0).isLt; omega
  | ⟨1, _⟩ => show (y 1).val = 0; have h : (y 1).val < 1 := (y 1).isLt; omega
  | ⟨2, _⟩ => show (y 2).val = 0; have h : (y 2).val < 1 := (y 2).isLt; omega

/-- The stored value at its one index: the two 128-term sums of entrywise products plus the last operand's entry
    (a lane sum over a one-row block is the sum of the row's entries). -/
theorem chunk6_pay (v0 v1 : Vec Ideal S1x128 .f32) (v2 v7 : Vec Ideal S1x1x128 .f32) (v13 : Vec Ideal S1x1 .f32) :
    k6_pay1 (F := Ideal) v0 v1 v2 v7 v13 (ValueIdx.ix3 (0 : Fin 1) (0 : Fin 1) (0 : Fin 1))
      = (∑ j : Fin 128, v2 (ValueIdx.ix3 (0 : Fin 1) (0 : Fin 1) j) * v0 (ValueIdx.ix2 (0 : Fin 1) j))
        + (∑ j : Fin 128, v7 (ValueIdx.ix3 (0 : Fin 1) (0 : Fin 1) j) * v1 (ValueIdx.ix2 (0 : Fin 1) j))
        + v13 (ValueIdx.ix2 (0 : Fin 1) (0 : Fin 1)) := by
  unfold k6_pay1
  rw [shapeCast_ab_1ab_apply, addf_apply, addf_apply, shapeCast_self, shapeCast_a_1a_apply, shapeCast_a_1a_apply,
    Cert.PayloadAt.laneSum_at, Cert.PayloadAt.laneSum_at]
  simp only [mulf_apply, shapeCast_1ab_ab_apply]

/-- A load of the first half of the weights reads column `j`, of the second half column `128 + j`. -/
theorem chunk6_ldW0 (x : Vec Ideal S1x256 .f32) (j : Fin 128) :
    View.ld x rW0 (ValueIdx.ix2 (0 : Fin 1) j) = x (ValueIdx.ix2 (0 : Fin 1) (Cert.Spec.lo j)) := by
  show x _ = x _
  refine congrArg x ?_
  funext ax
  apply Fin.ext
  match ax with
  | ⟨0, _⟩ => show 0 + 1 * 0 = 0; rfl
  | ⟨1, _⟩ => show 0 + 1 * j.val = j.val; omega
theorem chunk6_ldW1 (x : Vec Ideal S1x256 .f32) (j : Fin 128) :
    View.ld x rW1 (ValueIdx.ix2 (0 : Fin 1) j) = x (ValueIdx.ix2 (0 : Fin 1) (Cert.Spec.hi j)) := by
  show x _ = x _
  refine congrArg x ?_
  funext ax
  apply Fin.ext
  match ax with
  | ⟨0, _⟩ => show 0 + 1 * 0 = 0; rfl
  | ⟨1, _⟩ => show 128 + 1 * j.val = 128 + j.val; omega

/-- The output buffer's one cell after the body: row `x0` against the first 128 weights, row `x1` against the last
    128, plus the bias. -/
theorem out6_at (x0 x1 : Vec Ideal S1x1x128 .f32) (x2 : Vec Ideal S1x256 .f32) (x3 : Vec Ideal S1x1 .f32) :
    out6 x0 x1 x2 x3 (ValueIdx.ix3 (0 : Fin 1) (0 : Fin 1) (0 : Fin 1))
      = (∑ j : Fin 128, x0 (ValueIdx.ix3 (0 : Fin 1) (0 : Fin 1) j) * x2 (ValueIdx.ix2 (0 : Fin 1) (Cert.Spec.lo j)))
        + (∑ j : Fin 128, x1 (ValueIdx.ix3 (0 : Fin 1) (0 : Fin 1) j) * x2 (ValueIdx.ix2 (0 : Fin 1) (Cert.Spec.hi j)))
        + x3 (ValueIdx.ix2 (0 : Fin 1) (0 : Fin 1)) := by
  unfold out6
  rw [View.canon_unit_zero chunk6_hz3, chunk6_pay,
    View.ld_unit_zero (S := S1x1x128) chunk6_hz3, View.ld_unit_zero (S := S1x1x128) chunk6_hz3, View.ld_unit_zero (S := S1x1) chunk6_hz2]
  refine congrArg₂ (· + ·) (congrArg₂ (· + ·) (Finset.sum_congr rfl fun j _ => ?_) (Finset.sum_congr rfl fun j _ => ?_)) rfl
  · exact congrArg (fun z => x0 (ValueIdx.ix3 (0 : Fin 1) (0 : Fin 1) j) * z) (chunk6_ldW0 x2 j)
  · exact congrArg (fun z => x1 (ValueIdx.ix3 (0 : Fin 1) (0 : Fin 1) j) * z) (chunk6_ldW1 x2 j)

/-! ## From the blocks to the output array -/

section Array
variable {F : FTy → Type} [FloatOps F]
variable (V : (c : Dev nD) → (b : Ref sig .tc) → Buf (Elt F) ((c : Thread nD τ).loc b)) (a : (pcfg6 (F := F)).Adm)

/-- The output's block index moves at every point, so every point writes its block back. -/
theorem chunk6_flush (t : Fin (cfg6 a).N) : ((cfg6 a).win 4).flush t = true := by
  have hN : (cfg6 a).grid.N = 62500 := N_6
  have ht : t.val < 62500 := (chunk6_N a) ▸ t.isLt
  rw [Window.flush_out _ rfl]
  by_cases h : t.val + 1 = 62500
  · exact Or.inl (h.trans hN.symm)
  · refine Or.inr ⟨Nat.lt_of_lt_of_eq (by omega : t.val + 1 < 62500) hN.symm, fun e => ?_⟩
    have e0 := congrFun e (0 : Fin 3)
    rw [chunk6_idx4_0, chunk6_idx4_0] at e0
    exact absurd e0 (Nat.succ_ne_self _)

/-- Point `t`'s block is the one cell `(t, 0, 0)` of the output array. -/
theorem chunk6_mem (t : Fin (cfg6 a).N) (i : S62500x1x1.Idx) (hi : (i 0).val = t.val) :
    i ∈ (((cfg6 a).win 4).blk t).view.set := by
  have e : (((cfg6 a).win 4).blk t).view.emb (ValueIdx.ix3 (0 : Fin 1) (0 : Fin 1) (0 : Fin 1)) = i := by
    funext ax
    apply Fin.ext
    match ax with
    | ⟨0, _⟩ =>
      show ((cfg6 a).win 4).index t (0 : Fin 3) * 1 + 1 * 0 = (i 0).val
      rw [chunk6_idx4_0]; omega
    | ⟨1, _⟩ =>
      show ((cfg6 a).win 4).index t (1 : Fin 3) * 1 + 1 * 0 = (i 1).val
      have h : (i 1).val < 1 := (i 1).isLt
      rw [chunk6_idx4_1]; omega
    | ⟨2, _⟩ =>
      show ((cfg6 a).win 4).index t (2 : Fin 3) * 1 + 1 * 0 = (i 2).val
      have h : (i 2).val < 1 := (i 2).isLt
      rw [chunk6_idx4_2]; omega
  exact Finset.mem_map.mpr ⟨ValueIdx.ix3 (0 : Fin 1) (0 : Fin 1) (0 : Fin 1), Finset.mem_univ _, e⟩

/-- The score the body leaves at point `t`, as a term of the four input blocks there. -/
def chunk6_score (c : Dev nD) (t : Fin (cfg6 a).N) : Elt F .f32 :=
  out6 (iblk6 V a c 0 t) (iblk6 V a c 1 t) (iblk6 V a c 2 t) (iblk6 V a c 3 t) (ValueIdx.ix3 (0 : Fin 1) (0 : Fin 1) (0 : Fin 1))

/-- The whole output array the points write: at `(r, 0, 0)` point `r`'s score. -/
def chunk6_G (c : Dev nD) : S62500x1x1.Idx → Elt F .f32 :=
  fun i => chunk6_score V a c ⟨(i 0).val, (chunk6_N a).symm ▸ (i 0).isLt⟩

/-- What point `t` writes back is its block of that array. -/
theorem chunk6_flushed (c : Dev nD) (t : Fin (cfg6 a).N) :
    (dat6 V a c).flushed 4 t = (((cfg6 a).win 4).blk t).view.read (Elt F) (chunk6_G V a c) := by
  show ((cfg6 a).win 4).cut ((cfg6 a).grid.coords t) ((dat6 V a c).after 4 t) = _
  rw [after6_4]
  funext y
  show out6 (iblk6 V a c 0 t) (iblk6 V a c 1 t) (iblk6 V a c 2 t) (iblk6 V a c 3 t) (((cfg6 a).win 4).xinj ((cfg6 a).grid.coords t) y)
    = chunk6_G V a c ((((cfg6 a).win 4).blk t).view.emb y)
  refine (congrArg (out6 (iblk6 V a c 0 t) (iblk6 V a c 1 t) (iblk6 V a c 2 t) (iblk6 V a c 3 t)) (chunk6_cell _)).trans ?_
  show chunk6_score V a c t = chunk6_score V a c _
  refine congrArg (chunk6_score V a c) (Fin.ext ?_)
  show t.val = ((cfg6 a).win 4).index t (0 : Fin 3) * 1 + 1 * (y (0 : Fin 3)).val
  have h : (y (0 : Fin 3)).val < 1 := (y (0 : Fin 3)).isLt
  rw [chunk6_idx4_0]; omega

/-- The output array after the run, at `(t, 0, 0)`: point `t`'s score. -/
theorem chunk6_arr (c : Dev nD) (t : Fin (cfg6 a).N) (i : S62500x1x1.Idx) (hi : (i 0).val = t.val) :
    ((dat6 V a c).arrAt 4 (cfg6 a).N : S62500x1x1.Idx → Elt F .f32) i = chunk6_score V a c t := by
  refine ((dat6 V a c).arrAt_apply_of_mem 4 (chunk6_G V a c) (fun t _ => chunk6_flushed V a c t) (cfg6 a).N t i t.isLt
    (chunk6_flush a t) (chunk6_mem a t i hi)).trans ?_
  show chunk6_score V a c _ = chunk6_score V a c t
  exact congrArg (chunk6_score V a c) (Fin.ext hi)

end Array

/-! ## The output array at the exact-real instance -/

/-- The output array after region 6's pipeline, at edge `t`: the score of the two rows the tables name for `t` —
    at any buffers and any admissible contents of the tables; `h`, `W`, `b` name the feature, weight and bias arrays
    the region finds. -/
theorem chunk6_arr_at (V : (c : Dev nD) → (b : Ref sig .tc) → Buf (Elt Ideal) ((c : Thread nD τ).loc b))
    (a : (pcfg6 (F := Ideal)).Adm) (c : Dev nD) (t : Fin 62500) (rs rd : Fin 100000)
    (hrs : ((a.1 0 : S62500.Idx → BitVec 32) (ValueIdx.ix1 t)).toNat = rs.val)
    (hrd : ((a.1 1 : S62500.Idx → BitVec 32) (ValueIdx.ix1 t)).toNat = rd.val)
    (h : S100000x1x128.Idx → EReal) (W : S1x256.Idx → EReal) (b : S1x1.Idx → EReal)
    (hh : (V c main_v1 : S100000x1x128.Idx → EReal) = h) (hW : (V c main_arg3 : S1x256.Idx → EReal) = W)
    (hb : (V c main_v0 : S1x1.Idx → EReal) = b) :
    ((dat6 V a c).arrAt 4 (cfg6 a).N : S62500x1x1.Idx → EReal) (ValueIdx.ix3 t (0 : Fin 1) (0 : Fin 1))
      = (∑ j : Fin 128, h (ValueIdx.ix3 rs (0 : Fin 1) j) * W (ValueIdx.ix2 (0 : Fin 1) (Cert.Spec.lo j)))
        + (∑ j : Fin 128, h (ValueIdx.ix3 rd (0 : Fin 1) j) * W (ValueIdx.ix2 (0 : Fin 1) (Cert.Spec.hi j)))
        + b (ValueIdx.ix2 (0 : Fin 1) (0 : Fin 1)) := by
  have ht : t.val < (cfg6 a).N := (chunk6_N a).symm ▸ t.isLt
  refine (chunk6_arr V a c ⟨t.val, ht⟩ (ValueIdx.ix3 t (0 : Fin 1) (0 : Fin 1)) rfl).trans ?_
  unfold chunk6_score
  refine (out6_at (iblk6 V a c 0 ⟨t.val, ht⟩) (iblk6 V a c 1 ⟨t.val, ht⟩) (iblk6 V a c 2 ⟨t.val, ht⟩) (iblk6 V a c 3 ⟨t.val, ht⟩)).trans ?_
  refine congrArg₂ (· + ·) (congrArg₂ (· + ·) (Finset.sum_congr rfl fun j _ => ?_) (Finset.sum_congr rfl fun j _ => ?_)) ?_
  · exact congrArg₂ (· * ·)
      ((chunk6_blk0 V a c ⟨t.val, ht⟩ rs ((chunk6_idx0_0 a ⟨t.val, ht⟩ t rfl).trans hrs) j).trans (congrFun hh _))
      ((chunk6_blk2 V a c ⟨t.val, ht⟩ (Cert.Spec.lo j)).trans (congrFun hW _))
  · exact congrArg₂ (· * ·)
      ((chunk6_blk1 V a c ⟨t.val, ht⟩ rd ((chunk6_idx1_0 a ⟨t.val, ht⟩ t rfl).trans hrd) j).trans (congrFun hh _))
      ((chunk6_blk2 V a c ⟨t.val, ht⟩ (Cert.Spec.hi j)).trans (congrFun hW _))
  · exact (chunk6_blk3 V a c ⟨t.val, ht⟩).trans (congrFun hb _)

set_option maxHeartbeats 3200000 in
/-- Entry `t` of region 6's output chunk is edge `t`'s score, computed from the rows the two tables name: `rs` and `rd`
    are entry `t` of the two tables, and `h`, `W`, `b` the feature, weight and bias arrays as the region finds them. -/
theorem chunk6_at (m : (ℓ : Loc nD τ sig) → Buf (Elt Ideal) ℓ) (hO : Oks m) (c : Dev nD) (t : Fin 62500) (rs rd : Fin 100000)
    (hrs : ((tbl6 m 0 : S62500.Idx → BitVec 32) (ValueIdx.ix1 t)).toNat = rs.val)
    (hrd : ((tbl6 m 1 : S62500.Idx → BitVec 32) (ValueIdx.ix1 t)).toNat = rd.val)
    (h : S100000x1x128.Idx → EReal) (W : S1x256.Idx → EReal) (b : S1x1.Idx → EReal)
    (hh : (Ve6 m c main_v1 : S100000x1x128.Idx → EReal) = h) (hW : (Ve6 m c main_arg3 : S1x256.Idx → EReal) = W)
    (hb : (Ve6 m c main_v0 : S1x1.Idx → EReal) = b) :
    (chunk6 m hO c : S62500x1x1.Idx → EReal) (ValueIdx.ix3 t (0 : Fin 1) (0 : Fin 1))
      = (∑ j : Fin 128, h (ValueIdx.ix3 rs (0 : Fin 1) j) * W (ValueIdx.ix2 (0 : Fin 1) (Cert.Spec.lo j)))
        + (∑ j : Fin 128, h (ValueIdx.ix3 rd (0 : Fin 1) j) * W (ValueIdx.ix2 (0 : Fin 1) (Cert.Spec.hi j)))
        + b (ValueIdx.ix2 (0 : Fin 1) (0 : Fin 1)) := by
  have key := fun (hok : ok6 (F := Ideal) (tbl6 m)) =>
    chunk6_arr_at (Ve6 m) ⟨tbl6 m, hok⟩ c t rs rd hrs hrd h W b hh hW hb
  unfold chunk6
  exact key _

end Cert.KernelIdeal.Hand
end
-- ==== Proof.KIValue7.lean ====
/-
  Region 7's output chunk, entry by entry, at the exact-real instance.

  The region's pipeline has 62500 points, one per edge of its chunk. At point `t` the output window's block is the single
  cell `(t, 0, 0)` of the output array; the two gathered windows' blocks are rows `src t` and `dst t` of the feature
  array, `src t` and `dst t` being entry `t` of the two index tables read as natural numbers; the weight window's and the
  bias window's blocks are the whole arrays. The body leaves in the output block the score of the two rows,
    (∑ j < 128, h[src t, j] · W[0, j]) + (∑ j < 128, h[dst t, j] · W[0, 128 + j]) + b[0, 0].
  Every point writes its block back (the output's block index moves at every point) and point `t`'s block covers index
  `(t, 0, 0)`, so after the run the output array holds at `(t, 0, 0)` the score of point `t`. Every fact about the
  pipeline is proved with the tables' contents a variable; the region's own tables are put in last.
-/
import proofs.«405368_j31662498906597_2_alg».proof.Proof.KIFamily
import proofs.«405368_j31662498906597_2_alg».proof.Proof.PayloadAt
import proofs.«405368_j31662498906597_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

/-! ## The grid and the index maps, at any contents of the two tables -/

section Generic
variable {F : FTy → Type} [FloatOps F]
variable (V : (c : Dev nD) → (b : Ref sig .tc) → Buf (Elt F) ((c : Thread nD τ).loc b)) (a : (pcfg7 (F := F)).Adm)

/-- The grid has one axis of 62500 points, -/
theorem chunk7_N : (cfg7 a).N = 62500 := N_7

/-- consecutive points are consecutive along it, -/
theorem chunk7_stride : (cfg7 a).grid.stride 0 = 1 := (by decide : grid7.stride 0 = 1)

/-- so point `t`'s one coordinate is `t`. -/
theorem chunk7_coords (t : Fin (cfg7 a).N) : ((cfg7 a).grid.coords t 0).val = t.val := by
  have ht : t.val < 62500 := (chunk7_N a) ▸ t.isLt
  show t.val / (cfg7 a).grid.stride 0 % 62500 = t.val
  rw [chunk7_stride a, Nat.div_one, Nat.mod_eq_of_lt ht]

/-- The output window's block index at point `t` is `(t, 0, 0)`. -/
theorem chunk7_idx4_0 (t : Fin (cfg7 a).N) : ((cfg7 a).win 4).index t (0 : Fin 3) = t.val := by
  have ht : t.val < 62500 := (chunk7_N a) ▸ t.isLt
  show (BitVec.ofNat 32 ((cfg7 a).grid.coords t 0).val).toNat = t.val
  rw [chunk7_coords, BitVec.toNat_ofNat]
  omega
theorem chunk7_idx4_1 (t : Fin (cfg7 a).N) : ((cfg7 a).win 4).index t (1 : Fin 3) = 0 := rfl
theorem chunk7_idx4_2 (t : Fin (cfg7 a).N) : ((cfg7 a).win 4).index t (2 : Fin 3) = 0 := rfl

/-- The source window's block index at point `t` is `(src t, 0, 0)`, `src t` the first table's entry `t` read as a natural number, -/
theorem chunk7_idx0_0 (t : Fin (cfg7 a).N) (e : Fin 62500) (he : e.val = t.val) :
    ((cfg7 a).win 0).index t (0 : Fin 3) = ((a.1 0 : S62500.Idx → BitVec 32) (ValueIdx.ix1 e)).toNat := by
  have ht : t.val < 62500 := (chunk7_N a) ▸ t.isLt
  show ((a.1 0 : S62500.Idx → BitVec 32) _).toNat = _
  refine congrArg (fun i => ((a.1 0 : S62500.Idx → BitVec 32) i).toNat) ?_
  funext ax
  apply Fin.ext
  match ax with
  | ⟨0, _⟩ =>
    show (Scalar.indexCast (BitVec.ofNat 32 ((cfg7 a).grid.coords t 0).val)).toNat + 1 * 0 = e.val
    rw [chunk7_coords, he]
    show (BitVec.ofNat 32 t.val).toNat + 1 * 0 = t.val
    rw [BitVec.toNat_ofNat]
    omega
theorem chunk7_idx0_1 (t : Fin (cfg7 a).N) : ((cfg7 a).win 0).index t (1 : Fin 3) = 0 := rfl
theorem chunk7_idx0_2 (t : Fin (cfg7 a).N) : ((cfg7 a).win 0).index t (2 : Fin 3) = 0 := rfl

/-- and the destination window's is `(dst t, 0, 0)`, from the second table. -/
theorem chunk7_idx1_0 (t : Fin (cfg7 a).N) (e : Fin 62500) (he : e.val = t.val) :
    ((cfg7 a).win 1).index t (0 : Fin 3) = ((a.1 1 : S62500.Idx → BitVec 32) (ValueIdx.ix1 e)).toNat := by
  have ht : t.val < 62500 := (chunk7_N a) ▸ t.isLt
  show ((a.1 1 : S62500.Idx → BitVec 32) _).toNat = _
  refine congrArg (fun i => ((a.1 1 : S62500.Idx → BitVec 32) i).toNat) ?_
  funext ax
  apply Fin.ext
  match ax with
  | ⟨0, _⟩ =>
    show (Scalar.indexCast (BitVec.ofNat 32 ((cfg7 a).grid.coords t 0).val)).toNat + 1 * 0 = e.val
    rw [chunk7_coords, he]
    show (BitVec.ofNat 32 t.val).toNat + 1 * 0 = t.val
    rw [BitVec.toNat_ofNat]
    omega
theorem chunk7_idx1_1 (t : Fin (cfg7 a).N) : ((cfg7 a).win 1).index t (1 : Fin 3) = 0 := rfl
theorem chunk7_idx1_2 (t : Fin (cfg7 a).N) : ((cfg7 a).win 1).index t (2 : Fin 3) = 0 := rfl

end Generic

/-! ## The five blocks at a point, read where the arrays are -/

section Blocks
variable {F : FTy → Type} [FloatOps F]
variable (V : (c : Dev nD) → (b : Ref sig .tc) → Buf (Elt F) ((c : Thread nD τ).loc b)) (a : (pcfg7 (F := F)).Adm)

/-- The source window's block at point `t` is row `rs` of the feature array when its block index there is `rs`. -/
theorem chunk7_blk0 (c : Dev nD) (t : Fin (cfg7 a).N) (rs : Fin 100000)
    (hrs : ((cfg7 a).win 0).index t (0 : Fin 3) = rs.val) (j : Fin 128) :
    (iblk7 V a c 0 t : Vec F S1x1x128 .f32) (ValueIdx.ix3 (0 : Fin 1) (0 : Fin 1) j)
      = (V c main_v1 : S100000x1x128.Idx → Elt F .f32) (ValueIdx.ix3 rs (0 : Fin 1) j) := by
  show V c main_v1 ((((cfg7 a).win 0).blk t).view.emb (ValueIdx.ix3 (0 : Fin 1) (0 : Fin 1) j)) = V c main_v1 (ValueIdx.ix3 rs (0 : Fin 1) j)
  refine congrArg (V c main_v1) ?_
  funext ax
  apply Fin.ext
  match ax with
  | ⟨0, _⟩ => show ((cfg7 a).win 0).index t (0 : Fin 3) * 1 + 1 * 0 = rs.val; rw [hrs]; omega
  | ⟨1, _⟩ => show ((cfg7 a).win 0).index t (1 : Fin 3) * 1 + 1 * 0 = 0; rw [chunk7_idx0_1]
  | ⟨2, _⟩ => show ((cfg7 a).win 0).index t (2 : Fin 3) * 128 + 1 * j.val = j.val; rw [chunk7_idx0_2]; omega

/-- The destination window's block likewise, at its own block index. -/
theorem chunk7_blk1 (c : Dev nD) (t : Fin (cfg7 a).N) (rd : Fin 100000)
    (hrd : ((cfg7 a).win 1).index t (0 : Fin 3) = rd.val) (j : Fin 128) :
    (iblk7 V a c 1 t : Vec F S1x1x128 .f32) (ValueIdx.ix3 (0 : Fin 1) (0 : Fin 1) j)
      = (V c main_v1 : S100000x1x128.Idx → Elt F .f32) (ValueIdx.ix3 rd (0 : Fin 1) j) := by
  show V c main_v1 ((((cfg7 a).win 1).blk t).view.emb (ValueIdx.ix3 (0 : Fin 1) (0 : Fin 1) j)) = V c main_v1 (ValueIdx.ix3 rd (0 : Fin 1) j)
  refine congrArg (V c main_v1) ?_
  funext ax
  apply Fin.ext
  match ax with
  | ⟨0, _⟩ => show ((cfg7 a).win 1).index t (0 : Fin 3) * 1 + 1 * 0 = rd.val; rw [hrd]; omega
  | ⟨1, _⟩ => show ((cfg7 a).win 1).index t (1 : Fin 3) * 1 + 1 * 0 = 0; rw [chunk7_idx1_1]
  | ⟨2, _⟩ => show ((cfg7 a).win 1).index t (2 : Fin 3) * 128 + 1 * j.val = j.val; rw [chunk7_idx1_2]; omega

/-- The weights' block is the whole weight array, -/
theorem chunk7_blk2 (c : Dev nD) (t : Fin (cfg7 a).N) (k : Fin 256) :
    (iblk7 V a c 2 t : Vec F S1x256 .f32) (ValueIdx.ix2 (0 : Fin 1) k)
      = (V c main_arg3 : S1x256.Idx → Elt F .f32) (ValueIdx.ix2 (0 : Fin 1) k) := by
  show V c main_arg3 ((((cfg7 a).win 2).blk t).view.emb (ValueIdx.ix2 (0 : Fin 1) k)) = V c main_arg3 (ValueIdx.ix2 (0 : Fin 1) k)
  refine congrArg (V c main_arg3) ?_
  funext ax
  apply Fin.ext
  match ax with
  | ⟨0, _⟩ => show ((cfg7 a).win 2).index t (0 : Fin 2) * 1 + 1 * 0 = 0; rfl
  | ⟨1, _⟩ => show ((cfg7 a).win 2).index t (1 : Fin 2) * 256 + 1 * k.val = k.val; rw [show ((cfg7 a).win 2).index t (1 : Fin 2) = 0 from rfl]; omega

/-- and the bias's block the whole bias array. -/
theorem chunk7_blk3 (c : Dev nD) (t : Fin (cfg7 a).N) :
    (iblk7 V a c 3 t : Vec F S1x1 .f32) (ValueIdx.ix2 (0 : Fin 1) (0 : Fin 1))
      = (V c main_v0 : S1x1.Idx → Elt F .f32) (ValueIdx.ix2 (0 : Fin 1) (0 : Fin 1)) := by
  show V c main_v0 ((((cfg7 a).win 3).blk t).view.emb (ValueIdx.ix2 (0 : Fin 1) (0 : Fin 1))) = V c main_v0 (ValueIdx.ix2 (0 : Fin 1) (0 : Fin 1))
  refine congrArg (V c main_v0) ?_
  funext ax
  apply Fin.ext
  match ax with
  | ⟨0, _⟩ => show ((cfg7 a).win 3).index t (0 : Fin 2) * 1 + 1 * 0 = 0; rfl
  | ⟨1, _⟩ => show ((cfg7 a).win 3).index t (1 : Fin 2) * 1 + 1 * 0 = 0; rfl

end Blocks

/-! ## The score the body stores, from its four input buffers -/

theorem chunk7_hz3 : (![0, 0, 0] : Fin 3 → Nat) = fun _ => 0 := funext fun ax => by fin_cases ax <;> rfl
theorem chunk7_hz2 : (![0, 0] : Fin 2 → Nat) = fun _ => 0 := funext fun ax => by fin_cases ax <;> rfl

/-- A one-cell block has the one index. -/
theorem chunk7_cell (y : S1x1x1.Idx) : y = ValueIdx.ix3 (0 : Fin 1) (0 : Fin 1) (0 : Fin 1) := by
  funext ax
  apply Fin.ext
  match ax with
  | ⟨0, _⟩ => show (y 0).val = 0; have h : (y 0).val < 1 := (y 0).isLt; omega
  | ⟨1, _⟩ => show (y 1).val = 0; have h : (y 1).val < 1 := (y 1).isLt; omega
  | ⟨2, _⟩ => show (y 2).val = 0; have h : (y 2).val < 1 := (y 2).isLt; omega

/-- The stored value at its one index: the two 128-term sums of entrywise products plus the last operand's entry
    (a lane sum over a one-row block is the sum of the row's entries). -/
theorem chunk7_pay (v0 v1 : Vec Ideal S1x128 .f32) (v2 v7 : Vec Ideal S1x1x128 .f32) (v13 : Vec Ideal S1x1 .f32) :
    k7_pay1 (F := Ideal) v0 v1 v2 v7 v13 (ValueIdx.ix3 (0 : Fin 1) (0 : Fin 1) (0 : Fin 1))
      = (∑ j : Fin 128, v2 (ValueIdx.ix3 (0 : Fin 1) (0 : Fin 1) j) * v0 (ValueIdx.ix2 (0 : Fin 1) j))
        + (∑ j : Fin 128, v7 (ValueIdx.ix3 (0 : Fin 1) (0 : Fin 1) j) * v1 (ValueIdx.ix2 (0 : Fin 1) j))
        + v13 (ValueIdx.ix2 (0 : Fin 1) (0 : Fin 1)) := by
  unfold k7_pay1
  rw [shapeCast_ab_1ab_apply, addf_apply, addf_apply, shapeCast_self, shapeCast_a_1a_apply, shapeCast_a_1a_apply,
    Cert.PayloadAt.laneSum_at, Cert.PayloadAt.laneSum_at]
  simp only [mulf_apply, shapeCast_1ab_ab_apply]

/-- A load of the first half of the weights reads column `j`, of the second half column `128 + j`. -/
theorem chunk7_ldW0 (x : Vec Ideal S1x256 .f32) (j : Fin 128) :
    View.ld x rW0 (ValueIdx.ix2 (0 : Fin 1) j) = x (ValueIdx.ix2 (0 : Fin 1) (Cert.Spec.lo j)) := by
  show x _ = x _
  refine congrArg x ?_
  funext ax
  apply Fin.ext
  match ax with
  | ⟨0, _⟩ => show 0 + 1 * 0 = 0; rfl
  | ⟨1, _⟩ => show 0 + 1 * j.val = j.val; omega
theorem chunk7_ldW1 (x : Vec Ideal S1x256 .f32) (j : Fin 128) :
    View.ld x rW1 (ValueIdx.ix2 (0 : Fin 1) j) = x (ValueIdx.ix2 (0 : Fin 1) (Cert.Spec.hi j)) := by
  show x _ = x _
  refine congrArg x ?_
  funext ax
  apply Fin.ext
  match ax with
  | ⟨0, _⟩ => show 0 + 1 * 0 = 0; rfl
  | ⟨1, _⟩ => show 128 + 1 * j.val = 128 + j.val; omega

/-- The output buffer's one cell after the body: row `x0` against the first 128 weights, row `x1` against the last
    128, plus the bias. -/
theorem out7_at (x0 x1 : Vec Ideal S1x1x128 .f32) (x2 : Vec Ideal S1x256 .f32) (x3 : Vec Ideal S1x1 .f32) :
    out7 x0 x1 x2 x3 (ValueIdx.ix3 (0 : Fin 1) (0 : Fin 1) (0 : Fin 1))
      = (∑ j : Fin 128, x0 (ValueIdx.ix3 (0 : Fin 1) (0 : Fin 1) j) * x2 (ValueIdx.ix2 (0 : Fin 1) (Cert.Spec.lo j)))
        + (∑ j : Fin 128, x1 (ValueIdx.ix3 (0 : Fin 1) (0 : Fin 1) j) * x2 (ValueIdx.ix2 (0 : Fin 1) (Cert.Spec.hi j)))
        + x3 (ValueIdx.ix2 (0 : Fin 1) (0 : Fin 1)) := by
  unfold out7
  rw [View.canon_unit_zero chunk7_hz3, chunk7_pay,
    View.ld_unit_zero (S := S1x1x128) chunk7_hz3, View.ld_unit_zero (S := S1x1x128) chunk7_hz3, View.ld_unit_zero (S := S1x1) chunk7_hz2]
  refine congrArg₂ (· + ·) (congrArg₂ (· + ·) (Finset.sum_congr rfl fun j _ => ?_) (Finset.sum_congr rfl fun j _ => ?_)) rfl
  · exact congrArg (fun z => x0 (ValueIdx.ix3 (0 : Fin 1) (0 : Fin 1) j) * z) (chunk7_ldW0 x2 j)
  · exact congrArg (fun z => x1 (ValueIdx.ix3 (0 : Fin 1) (0 : Fin 1) j) * z) (chunk7_ldW1 x2 j)

/-! ## From the blocks to the output array -/

section Array
variable {F : FTy → Type} [FloatOps F]
variable (V : (c : Dev nD) → (b : Ref sig .tc) → Buf (Elt F) ((c : Thread nD τ).loc b)) (a : (pcfg7 (F := F)).Adm)

/-- The output's block index moves at every point, so every point writes its block back. -/
theorem chunk7_flush (t : Fin (cfg7 a).N) : ((cfg7 a).win 4).flush t = true := by
  have hN : (cfg7 a).grid.N = 62500 := N_7
  have ht : t.val < 62500 := (chunk7_N a) ▸ t.isLt
  rw [Window.flush_out _ rfl]
  by_cases h : t.val + 1 = 62500
  · exact Or.inl (h.trans hN.symm)
  · refine Or.inr ⟨Nat.lt_of_lt_of_eq (by omega : t.val + 1 < 62500) hN.symm, fun e => ?_⟩
    have e0 := congrFun e (0 : Fin 3)
    rw [chunk7_idx4_0, chunk7_idx4_0] at e0
    exact absurd e0 (Nat.succ_ne_self _)

/-- Point `t`'s block is the one cell `(t, 0, 0)` of the output array. -/
theorem chunk7_mem (t : Fin (cfg7 a).N) (i : S62500x1x1.Idx) (hi : (i 0).val = t.val) :
    i ∈ (((cfg7 a).win 4).blk t).view.set := by
  have e : (((cfg7 a).win 4).blk t).view.emb (ValueIdx.ix3 (0 : Fin 1) (0 : Fin 1) (0 : Fin 1)) = i := by
    funext ax
    apply Fin.ext
    match ax with
    | ⟨0, _⟩ =>
      show ((cfg7 a).win 4).index t (0 : Fin 3) * 1 + 1 * 0 = (i 0).val
      rw [chunk7_idx4_0]; omega
    | ⟨1, _⟩ =>
      show ((cfg7 a).win 4).index t (1 : Fin 3) * 1 + 1 * 0 = (i 1).val
      have h : (i 1).val < 1 := (i 1).isLt
      rw [chunk7_idx4_1]; omega
    | ⟨2, _⟩ =>
      show ((cfg7 a).win 4).index t (2 : Fin 3) * 1 + 1 * 0 = (i 2).val
      have h : (i 2).val < 1 := (i 2).isLt
      rw [chunk7_idx4_2]; omega
  exact Finset.mem_map.mpr ⟨ValueIdx.ix3 (0 : Fin 1) (0 : Fin 1) (0 : Fin 1), Finset.mem_univ _, e⟩

/-- The score the body leaves at point `t`, as a term of the four input blocks there. -/
def chunk7_score (c : Dev nD) (t : Fin (cfg7 a).N) : Elt F .f32 :=
  out7 (iblk7 V a c 0 t) (iblk7 V a c 1 t) (iblk7 V a c 2 t) (iblk7 V a c 3 t) (ValueIdx.ix3 (0 : Fin 1) (0 : Fin 1) (0 : Fin 1))

/-- The whole output array the points write: at `(r, 0, 0)` point `r`'s score. -/
def chunk7_G (c : Dev nD) : S62500x1x1.Idx → Elt F .f32 :=
  fun i => chunk7_score V a c ⟨(i 0).val, (chunk7_N a).symm ▸ (i 0).isLt⟩

/-- What point `t` writes back is its block of that array. -/
theorem chunk7_flushed (c : Dev nD) (t : Fin (cfg7 a).N) :
    (dat7 V a c).flushed 4 t = (((cfg7 a).win 4).blk t).view.read (Elt F) (chunk7_G V a c) := by
  show ((cfg7 a).win 4).cut ((cfg7 a).grid.coords t) ((dat7 V a c).after 4 t) = _
  rw [after7_4]
  funext y
  show out7 (iblk7 V a c 0 t) (iblk7 V a c 1 t) (iblk7 V a c 2 t) (iblk7 V a c 3 t) (((cfg7 a).win 4).xinj ((cfg7 a).grid.coords t) y)
    = chunk7_G V a c ((((cfg7 a).win 4).blk t).view.emb y)
  refine (congrArg (out7 (iblk7 V a c 0 t) (iblk7 V a c 1 t) (iblk7 V a c 2 t) (iblk7 V a c 3 t)) (chunk7_cell _)).trans ?_
  show chunk7_score V a c t = chunk7_score V a c _
  refine congrArg (chunk7_score V a c) (Fin.ext ?_)
  show t.val = ((cfg7 a).win 4).index t (0 : Fin 3) * 1 + 1 * (y (0 : Fin 3)).val
  have h : (y (0 : Fin 3)).val < 1 := (y (0 : Fin 3)).isLt
  rw [chunk7_idx4_0]; omega

/-- The output array after the run, at `(t, 0, 0)`: point `t`'s score. -/
theorem chunk7_arr (c : Dev nD) (t : Fin (cfg7 a).N) (i : S62500x1x1.Idx) (hi : (i 0).val = t.val) :
    ((dat7 V a c).arrAt 4 (cfg7 a).N : S62500x1x1.Idx → Elt F .f32) i = chunk7_score V a c t := by
  refine ((dat7 V a c).arrAt_apply_of_mem 4 (chunk7_G V a c) (fun t _ => chunk7_flushed V a c t) (cfg7 a).N t i t.isLt
    (chunk7_flush a t) (chunk7_mem a t i hi)).trans ?_
  show chunk7_score V a c _ = chunk7_score V a c t
  exact congrArg (chunk7_score V a c) (Fin.ext hi)

end Array

/-! ## The output array at the exact-real instance -/

/-- The output array after region 7's pipeline, at edge `t`: the score of the two rows the tables name for `t` —
    at any buffers and any admissible contents of the tables; `h`, `W`, `b` name the feature, weight and bias arrays
    the region finds. -/
theorem chunk7_arr_at (V : (c : Dev nD) → (b : Ref sig .tc) → Buf (Elt Ideal) ((c : Thread nD τ).loc b))
    (a : (pcfg7 (F := Ideal)).Adm) (c : Dev nD) (t : Fin 62500) (rs rd : Fin 100000)
    (hrs : ((a.1 0 : S62500.Idx → BitVec 32) (ValueIdx.ix1 t)).toNat = rs.val)
    (hrd : ((a.1 1 : S62500.Idx → BitVec 32) (ValueIdx.ix1 t)).toNat = rd.val)
    (h : S100000x1x128.Idx → EReal) (W : S1x256.Idx → EReal) (b : S1x1.Idx → EReal)
    (hh : (V c main_v1 : S100000x1x128.Idx → EReal) = h) (hW : (V c main_arg3 : S1x256.Idx → EReal) = W)
    (hb : (V c main_v0 : S1x1.Idx → EReal) = b) :
    ((dat7 V a c).arrAt 4 (cfg7 a).N : S62500x1x1.Idx → EReal) (ValueIdx.ix3 t (0 : Fin 1) (0 : Fin 1))
      = (∑ j : Fin 128, h (ValueIdx.ix3 rs (0 : Fin 1) j) * W (ValueIdx.ix2 (0 : Fin 1) (Cert.Spec.lo j)))
        + (∑ j : Fin 128, h (ValueIdx.ix3 rd (0 : Fin 1) j) * W (ValueIdx.ix2 (0 : Fin 1) (Cert.Spec.hi j)))
        + b (ValueIdx.ix2 (0 : Fin 1) (0 : Fin 1)) := by
  have ht : t.val < (cfg7 a).N := (chunk7_N a).symm ▸ t.isLt
  refine (chunk7_arr V a c ⟨t.val, ht⟩ (ValueIdx.ix3 t (0 : Fin 1) (0 : Fin 1)) rfl).trans ?_
  unfold chunk7_score
  refine (out7_at (iblk7 V a c 0 ⟨t.val, ht⟩) (iblk7 V a c 1 ⟨t.val, ht⟩) (iblk7 V a c 2 ⟨t.val, ht⟩) (iblk7 V a c 3 ⟨t.val, ht⟩)).trans ?_
  refine congrArg₂ (· + ·) (congrArg₂ (· + ·) (Finset.sum_congr rfl fun j _ => ?_) (Finset.sum_congr rfl fun j _ => ?_)) ?_
  · exact congrArg₂ (· * ·)
      ((chunk7_blk0 V a c ⟨t.val, ht⟩ rs ((chunk7_idx0_0 a ⟨t.val, ht⟩ t rfl).trans hrs) j).trans (congrFun hh _))
      ((chunk7_blk2 V a c ⟨t.val, ht⟩ (Cert.Spec.lo j)).trans (congrFun hW _))
  · exact congrArg₂ (· * ·)
      ((chunk7_blk1 V a c ⟨t.val, ht⟩ rd ((chunk7_idx1_0 a ⟨t.val, ht⟩ t rfl).trans hrd) j).trans (congrFun hh _))
      ((chunk7_blk2 V a c ⟨t.val, ht⟩ (Cert.Spec.hi j)).trans (congrFun hW _))
  · exact (chunk7_blk3 V a c ⟨t.val, ht⟩).trans (congrFun hb _)

set_option maxHeartbeats 3200000 in
/-- Entry `t` of region 7's output chunk is edge `t`'s score, computed from the rows the two tables name: `rs` and `rd`
    are entry `t` of the two tables, and `h`, `W`, `b` the feature, weight and bias arrays as the region finds them. -/
theorem chunk7_at (m : (ℓ : Loc nD τ sig) → Buf (Elt Ideal) ℓ) (hO : Oks m) (c : Dev nD) (t : Fin 62500) (rs rd : Fin 100000)
    (hrs : ((tbl7 m 0 : S62500.Idx → BitVec 32) (ValueIdx.ix1 t)).toNat = rs.val)
    (hrd : ((tbl7 m 1 : S62500.Idx → BitVec 32) (ValueIdx.ix1 t)).toNat = rd.val)
    (h : S100000x1x128.Idx → EReal) (W : S1x256.Idx → EReal) (b : S1x1.Idx → EReal)
    (hh : (Ve7 m c main_v1 : S100000x1x128.Idx → EReal) = h) (hW : (Ve7 m c main_arg3 : S1x256.Idx → EReal) = W)
    (hb : (Ve7 m c main_v0 : S1x1.Idx → EReal) = b) :
    (chunk7 m hO c : S62500x1x1.Idx → EReal) (ValueIdx.ix3 t (0 : Fin 1) (0 : Fin 1))
      = (∑ j : Fin 128, h (ValueIdx.ix3 rs (0 : Fin 1) j) * W (ValueIdx.ix2 (0 : Fin 1) (Cert.Spec.lo j)))
        + (∑ j : Fin 128, h (ValueIdx.ix3 rd (0 : Fin 1) j) * W (ValueIdx.ix2 (0 : Fin 1) (Cert.Spec.hi j)))
        + b (ValueIdx.ix2 (0 : Fin 1) (0 : Fin 1)) := by
  have key := fun (hok : ok7 (F := Ideal) (tbl7 m)) =>
    chunk7_arr_at (Ve7 m) ⟨tbl7 m, hok⟩ c t rs rd hrs hrd h W b hh hW hb
  unfold chunk7
  exact key _

end Cert.KernelIdeal.Hand
end
-- ==== Proof.KIValue8.lean ====
/-
  Region 8's output chunk, entry by entry, at the exact-real instance.

  The region's pipeline has 62500 points, one per edge of its chunk. At point `t` the output window's block is the single
  cell `(t, 0, 0)` of the output array; the two gathered windows' blocks are rows `src t` and `dst t` of the feature
  array, `src t` and `dst t` being entry `t` of the two index tables read as natural numbers; the weight window's and the
  bias window's blocks are the whole arrays. The body leaves in the output block the score of the two rows,
    (∑ j < 128, h[src t, j] · W[0, j]) + (∑ j < 128, h[dst t, j] · W[0, 128 + j]) + b[0, 0].
  Every point writes its block back (the output's block index moves at every point) and point `t`'s block covers index
  `(t, 0, 0)`, so after the run the output array holds at `(t, 0, 0)` the score of point `t`. Every fact about the
  pipeline is proved with the tables' contents a variable; the region's own tables are put in last.
-/
import proofs.«405368_j31662498906597_2_alg».proof.Proof.KIFamily
import proofs.«405368_j31662498906597_2_alg».proof.Proof.PayloadAt
import proofs.«405368_j31662498906597_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

/-! ## The grid and the index maps, at any contents of the two tables -/

section Generic
variable {F : FTy → Type} [FloatOps F]
variable (V : (c : Dev nD) → (b : Ref sig .tc) → Buf (Elt F) ((c : Thread nD τ).loc b)) (a : (pcfg8 (F := F)).Adm)

/-- The grid has one axis of 62500 points, -/
theorem chunk8_N : (cfg8 a).N = 62500 := N_8

/-- consecutive points are consecutive along it, -/
theorem chunk8_stride : (cfg8 a).grid.stride 0 = 1 := (by decide : grid8.stride 0 = 1)

/-- so point `t`'s one coordinate is `t`. -/
theorem chunk8_coords (t : Fin (cfg8 a).N) : ((cfg8 a).grid.coords t 0).val = t.val := by
  have ht : t.val < 62500 := (chunk8_N a) ▸ t.isLt
  show t.val / (cfg8 a).grid.stride 0 % 62500 = t.val
  rw [chunk8_stride a, Nat.div_one, Nat.mod_eq_of_lt ht]

/-- The output window's block index at point `t` is `(t, 0, 0)`. -/
theorem chunk8_idx4_0 (t : Fin (cfg8 a).N) : ((cfg8 a).win 4).index t (0 : Fin 3) = t.val := by
  have ht : t.val < 62500 := (chunk8_N a) ▸ t.isLt
  show (BitVec.ofNat 32 ((cfg8 a).grid.coords t 0).val).toNat = t.val
  rw [chunk8_coords, BitVec.toNat_ofNat]
  omega
theorem chunk8_idx4_1 (t : Fin (cfg8 a).N) : ((cfg8 a).win 4).index t (1 : Fin 3) = 0 := rfl
theorem chunk8_idx4_2 (t : Fin (cfg8 a).N) : ((cfg8 a).win 4).index t (2 : Fin 3) = 0 := rfl

/-- The source window's block index at point `t` is `(src t, 0, 0)`, `src t` the first table's entry `t` read as a natural number, -/
theorem chunk8_idx0_0 (t : Fin (cfg8 a).N) (e : Fin 62500) (he : e.val = t.val) :
    ((cfg8 a).win 0).index t (0 : Fin 3) = ((a.1 0 : S62500.Idx → BitVec 32) (ValueIdx.ix1 e)).toNat := by
  have ht : t.val < 62500 := (chunk8_N a) ▸ t.isLt
  show ((a.1 0 : S62500.Idx → BitVec 32) _).toNat = _
  refine congrArg (fun i => ((a.1 0 : S62500.Idx → BitVec 32) i).toNat) ?_
  funext ax
  apply Fin.ext
  match ax with
  | ⟨0, _⟩ =>
    show (Scalar.indexCast (BitVec.ofNat 32 ((cfg8 a).grid.coords t 0).val)).toNat + 1 * 0 = e.val
    rw [chunk8_coords, he]
    show (BitVec.ofNat 32 t.val).toNat + 1 * 0 = t.val
    rw [BitVec.toNat_ofNat]
    omega
theorem chunk8_idx0_1 (t : Fin (cfg8 a).N) : ((cfg8 a).win 0).index t (1 : Fin 3) = 0 := rfl
theorem chunk8_idx0_2 (t : Fin (cfg8 a).N) : ((cfg8 a).win 0).index t (2 : Fin 3) = 0 := rfl

/-- and the destination window's is `(dst t, 0, 0)`, from the second table. -/
theorem chunk8_idx1_0 (t : Fin (cfg8 a).N) (e : Fin 62500) (he : e.val = t.val) :
    ((cfg8 a).win 1).index t (0 : Fin 3) = ((a.1 1 : S62500.Idx → BitVec 32) (ValueIdx.ix1 e)).toNat := by
  have ht : t.val < 62500 := (chunk8_N a) ▸ t.isLt
  show ((a.1 1 : S62500.Idx → BitVec 32) _).toNat = _
  refine congrArg (fun i => ((a.1 1 : S62500.Idx → BitVec 32) i).toNat) ?_
  funext ax
  apply Fin.ext
  match ax with
  | ⟨0, _⟩ =>
    show (Scalar.indexCast (BitVec.ofNat 32 ((cfg8 a).grid.coords t 0).val)).toNat + 1 * 0 = e.val
    rw [chunk8_coords, he]
    show (BitVec.ofNat 32 t.val).toNat + 1 * 0 = t.val
    rw [BitVec.toNat_ofNat]
    omega
theorem chunk8_idx1_1 (t : Fin (cfg8 a).N) : ((cfg8 a).win 1).index t (1 : Fin 3) = 0 := rfl
theorem chunk8_idx1_2 (t : Fin (cfg8 a).N) : ((cfg8 a).win 1).index t (2 : Fin 3) = 0 := rfl

end Generic

/-! ## The five blocks at a point, read where the arrays are -/

section Blocks
variable {F : FTy → Type} [FloatOps F]
variable (V : (c : Dev nD) → (b : Ref sig .tc) → Buf (Elt F) ((c : Thread nD τ).loc b)) (a : (pcfg8 (F := F)).Adm)

/-- The source window's block at point `t` is row `rs` of the feature array when its block index there is `rs`. -/
theorem chunk8_blk0 (c : Dev nD) (t : Fin (cfg8 a).N) (rs : Fin 100000)
    (hrs : ((cfg8 a).win 0).index t (0 : Fin 3) = rs.val) (j : Fin 128) :
    (iblk8 V a c 0 t : Vec F S1x1x128 .f32) (ValueIdx.ix3 (0 : Fin 1) (0 : Fin 1) j)
      = (V c main_v1 : S100000x1x128.Idx → Elt F .f32) (ValueIdx.ix3 rs (0 : Fin 1) j) := by
  show V c main_v1 ((((cfg8 a).win 0).blk t).view.emb (ValueIdx.ix3 (0 : Fin 1) (0 : Fin 1) j)) = V c main_v1 (ValueIdx.ix3 rs (0 : Fin 1) j)
  refine congrArg (V c main_v1) ?_
  funext ax
  apply Fin.ext
  match ax with
  | ⟨0, _⟩ => show ((cfg8 a).win 0).index t (0 : Fin 3) * 1 + 1 * 0 = rs.val; rw [hrs]; omega
  | ⟨1, _⟩ => show ((cfg8 a).win 0).index t (1 : Fin 3) * 1 + 1 * 0 = 0; rw [chunk8_idx0_1]
  | ⟨2, _⟩ => show ((cfg8 a).win 0).index t (2 : Fin 3) * 128 + 1 * j.val = j.val; rw [chunk8_idx0_2]; omega

/-- The destination window's block likewise, at its own block index. -/
theorem chunk8_blk1 (c : Dev nD) (t : Fin (cfg8 a).N) (rd : Fin 100000)
    (hrd : ((cfg8 a).win 1).index t (0 : Fin 3) = rd.val) (j : Fin 128) :
    (iblk8 V a c 1 t : Vec F S1x1x128 .f32) (ValueIdx.ix3 (0 : Fin 1) (0 : Fin 1) j)
      = (V c main_v1 : S100000x1x128.Idx → Elt F .f32) (ValueIdx.ix3 rd (0 : Fin 1) j) := by
  show V c main_v1 ((((cfg8 a).win 1).blk t).view.emb (ValueIdx.ix3 (0 : Fin 1) (0 : Fin 1) j)) = V c main_v1 (ValueIdx.ix3 rd (0 : Fin 1) j)
  refine congrArg (V c main_v1) ?_
  funext ax
  apply Fin.ext
  match ax with
  | ⟨0, _⟩ => show ((cfg8 a).win 1).index t (0 : Fin 3) * 1 + 1 * 0 = rd.val; rw [hrd]; omega
  | ⟨1, _⟩ => show ((cfg8 a).win 1).index t (1 : Fin 3) * 1 + 1 * 0 = 0; rw [chunk8_idx1_1]
  | ⟨2, _⟩ => show ((cfg8 a).win 1).index t (2 : Fin 3) * 128 + 1 * j.val = j.val; rw [chunk8_idx1_2]; omega

/-- The weights' block is the whole weight array, -/
theorem chunk8_blk2 (c : Dev nD) (t : Fin (cfg8 a).N) (k : Fin 256) :
    (iblk8 V a c 2 t : Vec F S1x256 .f32) (ValueIdx.ix2 (0 : Fin 1) k)
      = (V c main_arg3 : S1x256.Idx → Elt F .f32) (ValueIdx.ix2 (0 : Fin 1) k) := by
  show V c main_arg3 ((((cfg8 a).win 2).blk t).view.emb (ValueIdx.ix2 (0 : Fin 1) k)) = V c main_arg3 (ValueIdx.ix2 (0 : Fin 1) k)
  refine congrArg (V c main_arg3) ?_
  funext ax
  apply Fin.ext
  match ax with
  | ⟨0, _⟩ => show ((cfg8 a).win 2).index t (0 : Fin 2) * 1 + 1 * 0 = 0; rfl
  | ⟨1, _⟩ => show ((cfg8 a).win 2).index t (1 : Fin 2) * 256 + 1 * k.val = k.val; rw [show ((cfg8 a).win 2).index t (1 : Fin 2) = 0 from rfl]; omega

/-- and the bias's block the whole bias array. -/
theorem chunk8_blk3 (c : Dev nD) (t : Fin (cfg8 a).N) :
    (iblk8 V a c 3 t : Vec F S1x1 .f32) (ValueIdx.ix2 (0 : Fin 1) (0 : Fin 1))
      = (V c main_v0 : S1x1.Idx → Elt F .f32) (ValueIdx.ix2 (0 : Fin 1) (0 : Fin 1)) := by
  show V c main_v0 ((((cfg8 a).win 3).blk t).view.emb (ValueIdx.ix2 (0 : Fin 1) (0 : Fin 1))) = V c main_v0 (ValueIdx.ix2 (0 : Fin 1) (0 : Fin 1))
  refine congrArg (V c main_v0) ?_
  funext ax
  apply Fin.ext
  match ax with
  | ⟨0, _⟩ => show ((cfg8 a).win 3).index t (0 : Fin 2) * 1 + 1 * 0 = 0; rfl
  | ⟨1, _⟩ => show ((cfg8 a).win 3).index t (1 : Fin 2) * 1 + 1 * 0 = 0; rfl

end Blocks

/-! ## The score the body stores, from its four input buffers -/

theorem chunk8_hz3 : (![0, 0, 0] : Fin 3 → Nat) = fun _ => 0 := funext fun ax => by fin_cases ax <;> rfl
theorem chunk8_hz2 : (![0, 0] : Fin 2 → Nat) = fun _ => 0 := funext fun ax => by fin_cases ax <;> rfl

/-- A one-cell block has the one index. -/
theorem chunk8_cell (y : S1x1x1.Idx) : y = ValueIdx.ix3 (0 : Fin 1) (0 : Fin 1) (0 : Fin 1) := by
  funext ax
  apply Fin.ext
  match ax with
  | ⟨0, _⟩ => show (y 0).val = 0; have h : (y 0).val < 1 := (y 0).isLt; omega
  | ⟨1, _⟩ => show (y 1).val = 0; have h : (y 1).val < 1 := (y 1).isLt; omega
  | ⟨2, _⟩ => show (y 2).val = 0; have h : (y 2).val < 1 := (y 2).isLt; omega

/-- The stored value at its one index: the two 128-term sums of entrywise products plus the last operand's entry
    (a lane sum over a one-row block is the sum of the row's entries). -/
theorem chunk8_pay (v0 v1 : Vec Ideal S1x128 .f32) (v2 v7 : Vec Ideal S1x1x128 .f32) (v13 : Vec Ideal S1x1 .f32) :
    k8_pay1 (F := Ideal) v0 v1 v2 v7 v13 (ValueIdx.ix3 (0 : Fin 1) (0 : Fin 1) (0 : Fin 1))
      = (∑ j : Fin 128, v2 (ValueIdx.ix3 (0 : Fin 1) (0 : Fin 1) j) * v0 (ValueIdx.ix2 (0 : Fin 1) j))
        + (∑ j : Fin 128, v7 (ValueIdx.ix3 (0 : Fin 1) (0 : Fin 1) j) * v1 (ValueIdx.ix2 (0 : Fin 1) j))
        + v13 (ValueIdx.ix2 (0 : Fin 1) (0 : Fin 1)) := by
  unfold k8_pay1
  rw [shapeCast_ab_1ab_apply, addf_apply, addf_apply, shapeCast_self, shapeCast_a_1a_apply, shapeCast_a_1a_apply,
    Cert.PayloadAt.laneSum_at, Cert.PayloadAt.laneSum_at]
  simp only [mulf_apply, shapeCast_1ab_ab_apply]

/-- A load of the first half of the weights reads column `j`, of the second half column `128 + j`. -/
theorem chunk8_ldW0 (x : Vec Ideal S1x256 .f32) (j : Fin 128) :
    View.ld x rW0 (ValueIdx.ix2 (0 : Fin 1) j) = x (ValueIdx.ix2 (0 : Fin 1) (Cert.Spec.lo j)) := by
  show x _ = x _
  refine congrArg x ?_
  funext ax
  apply Fin.ext
  match ax with
  | ⟨0, _⟩ => show 0 + 1 * 0 = 0; rfl
  | ⟨1, _⟩ => show 0 + 1 * j.val = j.val; omega
theorem chunk8_ldW1 (x : Vec Ideal S1x256 .f32) (j : Fin 128) :
    View.ld x rW1 (ValueIdx.ix2 (0 : Fin 1) j) = x (ValueIdx.ix2 (0 : Fin 1) (Cert.Spec.hi j)) := by
  show x _ = x _
  refine congrArg x ?_
  funext ax
  apply Fin.ext
  match ax with
  | ⟨0, _⟩ => show 0 + 1 * 0 = 0; rfl
  | ⟨1, _⟩ => show 128 + 1 * j.val = 128 + j.val; omega

/-- The output buffer's one cell after the body: row `x0` against the first 128 weights, row `x1` against the last
    128, plus the bias. -/
theorem out8_at (x0 x1 : Vec Ideal S1x1x128 .f32) (x2 : Vec Ideal S1x256 .f32) (x3 : Vec Ideal S1x1 .f32) :
    out8 x0 x1 x2 x3 (ValueIdx.ix3 (0 : Fin 1) (0 : Fin 1) (0 : Fin 1))
      = (∑ j : Fin 128, x0 (ValueIdx.ix3 (0 : Fin 1) (0 : Fin 1) j) * x2 (ValueIdx.ix2 (0 : Fin 1) (Cert.Spec.lo j)))
        + (∑ j : Fin 128, x1 (ValueIdx.ix3 (0 : Fin 1) (0 : Fin 1) j) * x2 (ValueIdx.ix2 (0 : Fin 1) (Cert.Spec.hi j)))
        + x3 (ValueIdx.ix2 (0 : Fin 1) (0 : Fin 1)) := by
  unfold out8
  rw [View.canon_unit_zero chunk8_hz3, chunk8_pay,
    View.ld_unit_zero (S := S1x1x128) chunk8_hz3, View.ld_unit_zero (S := S1x1x128) chunk8_hz3, View.ld_unit_zero (S := S1x1) chunk8_hz2]
  refine congrArg₂ (· + ·) (congrArg₂ (· + ·) (Finset.sum_congr rfl fun j _ => ?_) (Finset.sum_congr rfl fun j _ => ?_)) rfl
  · exact congrArg (fun z => x0 (ValueIdx.ix3 (0 : Fin 1) (0 : Fin 1) j) * z) (chunk8_ldW0 x2 j)
  · exact congrArg (fun z => x1 (ValueIdx.ix3 (0 : Fin 1) (0 : Fin 1) j) * z) (chunk8_ldW1 x2 j)

/-! ## From the blocks to the output array -/

section Array
variable {F : FTy → Type} [FloatOps F]
variable (V : (c : Dev nD) → (b : Ref sig .tc) → Buf (Elt F) ((c : Thread nD τ).loc b)) (a : (pcfg8 (F := F)).Adm)

/-- The output's block index moves at every point, so every point writes its block back. -/
theorem chunk8_flush (t : Fin (cfg8 a).N) : ((cfg8 a).win 4).flush t = true := by
  have hN : (cfg8 a).grid.N = 62500 := N_8
  have ht : t.val < 62500 := (chunk8_N a) ▸ t.isLt
  rw [Window.flush_out _ rfl]
  by_cases h : t.val + 1 = 62500
  · exact Or.inl (h.trans hN.symm)
  · refine Or.inr ⟨Nat.lt_of_lt_of_eq (by omega : t.val + 1 < 62500) hN.symm, fun e => ?_⟩
    have e0 := congrFun e (0 : Fin 3)
    rw [chunk8_idx4_0, chunk8_idx4_0] at e0
    exact absurd e0 (Nat.succ_ne_self _)

/-- Point `t`'s block is the one cell `(t, 0, 0)` of the output array. -/
theorem chunk8_mem (t : Fin (cfg8 a).N) (i : S62500x1x1.Idx) (hi : (i 0).val = t.val) :
    i ∈ (((cfg8 a).win 4).blk t).view.set := by
  have e : (((cfg8 a).win 4).blk t).view.emb (ValueIdx.ix3 (0 : Fin 1) (0 : Fin 1) (0 : Fin 1)) = i := by
    funext ax
    apply Fin.ext
    match ax with
    | ⟨0, _⟩ =>
      show ((cfg8 a).win 4).index t (0 : Fin 3) * 1 + 1 * 0 = (i 0).val
      rw [chunk8_idx4_0]; omega
    | ⟨1, _⟩ =>
      show ((cfg8 a).win 4).index t (1 : Fin 3) * 1 + 1 * 0 = (i 1).val
      have h : (i 1).val < 1 := (i 1).isLt
      rw [chunk8_idx4_1]; omega
    | ⟨2, _⟩ =>
      show ((cfg8 a).win 4).index t (2 : Fin 3) * 1 + 1 * 0 = (i 2).val
      have h : (i 2).val < 1 := (i 2).isLt
      rw [chunk8_idx4_2]; omega
  exact Finset.mem_map.mpr ⟨ValueIdx.ix3 (0 : Fin 1) (0 : Fin 1) (0 : Fin 1), Finset.mem_univ _, e⟩

/-- The score the body leaves at point `t`, as a term of the four input blocks there. -/
def chunk8_score (c : Dev nD) (t : Fin (cfg8 a).N) : Elt F .f32 :=
  out8 (iblk8 V a c 0 t) (iblk8 V a c 1 t) (iblk8 V a c 2 t) (iblk8 V a c 3 t) (ValueIdx.ix3 (0 : Fin 1) (0 : Fin 1) (0 : Fin 1))

/-- The whole output array the points write: at `(r, 0, 0)` point `r`'s score. -/
def chunk8_G (c : Dev nD) : S62500x1x1.Idx → Elt F .f32 :=
  fun i => chunk8_score V a c ⟨(i 0).val, (chunk8_N a).symm ▸ (i 0).isLt⟩

/-- What point `t` writes back is its block of that array. -/
theorem chunk8_flushed (c : Dev nD) (t : Fin (cfg8 a).N) :
    (dat8 V a c).flushed 4 t = (((cfg8 a).win 4).blk t).view.read (Elt F) (chunk8_G V a c) := by
  show ((cfg8 a).win 4).cut ((cfg8 a).grid.coords t) ((dat8 V a c).after 4 t) = _
  rw [after8_4]
  funext y
  show out8 (iblk8 V a c 0 t) (iblk8 V a c 1 t) (iblk8 V a c 2 t) (iblk8 V a c 3 t) (((cfg8 a).win 4).xinj ((cfg8 a).grid.coords t) y)
    = chunk8_G V a c ((((cfg8 a).win 4).blk t).view.emb y)
  refine (congrArg (out8 (iblk8 V a c 0 t) (iblk8 V a c 1 t) (iblk8 V a c 2 t) (iblk8 V a c 3 t)) (chunk8_cell _)).trans ?_
  show chunk8_score V a c t = chunk8_score V a c _
  refine congrArg (chunk8_score V a c) (Fin.ext ?_)
  show t.val = ((cfg8 a).win 4).index t (0 : Fin 3) * 1 + 1 * (y (0 : Fin 3)).val
  have h : (y (0 : Fin 3)).val < 1 := (y (0 : Fin 3)).isLt
  rw [chunk8_idx4_0]; omega

/-- The output array after the run, at `(t, 0, 0)`: point `t`'s score. -/
theorem chunk8_arr (c : Dev nD) (t : Fin (cfg8 a).N) (i : S62500x1x1.Idx) (hi : (i 0).val = t.val) :
    ((dat8 V a c).arrAt 4 (cfg8 a).N : S62500x1x1.Idx → Elt F .f32) i = chunk8_score V a c t := by
  refine ((dat8 V a c).arrAt_apply_of_mem 4 (chunk8_G V a c) (fun t _ => chunk8_flushed V a c t) (cfg8 a).N t i t.isLt
    (chunk8_flush a t) (chunk8_mem a t i hi)).trans ?_
  show chunk8_score V a c _ = chunk8_score V a c t
  exact congrArg (chunk8_score V a c) (Fin.ext hi)

end Array

/-! ## The output array at the exact-real instance -/

/-- The output array after region 8's pipeline, at edge `t`: the score of the two rows the tables name for `t` —
    at any buffers and any admissible contents of the tables; `h`, `W`, `b` name the feature, weight and bias arrays
    the region finds. -/
theorem chunk8_arr_at (V : (c : Dev nD) → (b : Ref sig .tc) → Buf (Elt Ideal) ((c : Thread nD τ).loc b))
    (a : (pcfg8 (F := Ideal)).Adm) (c : Dev nD) (t : Fin 62500) (rs rd : Fin 100000)
    (hrs : ((a.1 0 : S62500.Idx → BitVec 32) (ValueIdx.ix1 t)).toNat = rs.val)
    (hrd : ((a.1 1 : S62500.Idx → BitVec 32) (ValueIdx.ix1 t)).toNat = rd.val)
    (h : S100000x1x128.Idx → EReal) (W : S1x256.Idx → EReal) (b : S1x1.Idx → EReal)
    (hh : (V c main_v1 : S100000x1x128.Idx → EReal) = h) (hW : (V c main_arg3 : S1x256.Idx → EReal) = W)
    (hb : (V c main_v0 : S1x1.Idx → EReal) = b) :
    ((dat8 V a c).arrAt 4 (cfg8 a).N : S62500x1x1.Idx → EReal) (ValueIdx.ix3 t (0 : Fin 1) (0 : Fin 1))
      = (∑ j : Fin 128, h (ValueIdx.ix3 rs (0 : Fin 1) j) * W (ValueIdx.ix2 (0 : Fin 1) (Cert.Spec.lo j)))
        + (∑ j : Fin 128, h (ValueIdx.ix3 rd (0 : Fin 1) j) * W (ValueIdx.ix2 (0 : Fin 1) (Cert.Spec.hi j)))
        + b (ValueIdx.ix2 (0 : Fin 1) (0 : Fin 1)) := by
  have ht : t.val < (cfg8 a).N := (chunk8_N a).symm ▸ t.isLt
  refine (chunk8_arr V a c ⟨t.val, ht⟩ (ValueIdx.ix3 t (0 : Fin 1) (0 : Fin 1)) rfl).trans ?_
  unfold chunk8_score
  refine (out8_at (iblk8 V a c 0 ⟨t.val, ht⟩) (iblk8 V a c 1 ⟨t.val, ht⟩) (iblk8 V a c 2 ⟨t.val, ht⟩) (iblk8 V a c 3 ⟨t.val, ht⟩)).trans ?_
  refine congrArg₂ (· + ·) (congrArg₂ (· + ·) (Finset.sum_congr rfl fun j _ => ?_) (Finset.sum_congr rfl fun j _ => ?_)) ?_
  · exact congrArg₂ (· * ·)
      ((chunk8_blk0 V a c ⟨t.val, ht⟩ rs ((chunk8_idx0_0 a ⟨t.val, ht⟩ t rfl).trans hrs) j).trans (congrFun hh _))
      ((chunk8_blk2 V a c ⟨t.val, ht⟩ (Cert.Spec.lo j)).trans (congrFun hW _))
  · exact congrArg₂ (· * ·)
      ((chunk8_blk1 V a c ⟨t.val, ht⟩ rd ((chunk8_idx1_0 a ⟨t.val, ht⟩ t rfl).trans hrd) j).trans (congrFun hh _))
      ((chunk8_blk2 V a c ⟨t.val, ht⟩ (Cert.Spec.hi j)).trans (congrFun hW _))
  · exact (chunk8_blk3 V a c ⟨t.val, ht⟩).trans (congrFun hb _)

set_option maxHeartbeats 3200000 in
/-- Entry `t` of region 8's output chunk is edge `t`'s score, computed from the rows the two tables name: `rs` and `rd`
    are entry `t` of the two tables, and `h`, `W`, `b` the feature, weight and bias arrays as the region finds them. -/
theorem chunk8_at (m : (ℓ : Loc nD τ sig) → Buf (Elt Ideal) ℓ) (hO : Oks m) (c : Dev nD) (t : Fin 62500) (rs rd : Fin 100000)
    (hrs : ((tbl8 m 0 : S62500.Idx → BitVec 32) (ValueIdx.ix1 t)).toNat = rs.val)
    (hrd : ((tbl8 m 1 : S62500.Idx → BitVec 32) (ValueIdx.ix1 t)).toNat = rd.val)
    (h : S100000x1x128.Idx → EReal) (W : S1x256.Idx → EReal) (b : S1x1.Idx → EReal)
    (hh : (Ve8 m c main_v1 : S100000x1x128.Idx → EReal) = h) (hW : (Ve8 m c main_arg3 : S1x256.Idx → EReal) = W)
    (hb : (Ve8 m c main_v0 : S1x1.Idx → EReal) = b) :
    (chunk8 m hO c : S62500x1x1.Idx → EReal) (ValueIdx.ix3 t (0 : Fin 1) (0 : Fin 1))
      = (∑ j : Fin 128, h (ValueIdx.ix3 rs (0 : Fin 1) j) * W (ValueIdx.ix2 (0 : Fin 1) (Cert.Spec.lo j)))
        + (∑ j : Fin 128, h (ValueIdx.ix3 rd (0 : Fin 1) j) * W (ValueIdx.ix2 (0 : Fin 1) (Cert.Spec.hi j)))
        + b (ValueIdx.ix2 (0 : Fin 1) (0 : Fin 1)) := by
  have key := fun (hok : ok8 (F := Ideal) (tbl8 m)) =>
    chunk8_arr_at (Ve8 m) ⟨tbl8 m, hok⟩ c t rs rd hrs hrd h W b hh hW hb
  unfold chunk8
  exact key _

end Cert.KernelIdeal.Hand
end
-- ==== Proof.KIValue9.lean ====
/-
  Region 9's output chunk, entry by entry, at the exact-real instance.

  The region's pipeline has 62500 points, one per edge of its chunk. At point `t` the output window's block is the single
  cell `(t, 0, 0)` of the output array; the two gathered windows' blocks are rows `src t` and `dst t` of the feature
  array, `src t` and `dst t` being entry `t` of the two index tables read as natural numbers; the weight window's and the
  bias window's blocks are the whole arrays. The body leaves in the output block the score of the two rows,
    (∑ j < 128, h[src t, j] · W[0, j]) + (∑ j < 128, h[dst t, j] · W[0, 128 + j]) + b[0, 0].
  Every point writes its block back (the output's block index moves at every point) and point `t`'s block covers index
  `(t, 0, 0)`, so after the run the output array holds at `(t, 0, 0)` the score of point `t`. Every fact about the
  pipeline is proved with the tables' contents a variable; the region's own tables are put in last.
-/
import proofs.«405368_j31662498906597_2_alg».proof.Proof.KIFamily
import proofs.«405368_j31662498906597_2_alg».proof.Proof.PayloadAt
import proofs.«405368_j31662498906597_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

/-! ## The grid and the index maps, at any contents of the two tables -/

section Generic
variable {F : FTy → Type} [FloatOps F]
variable (V : (c : Dev nD) → (b : Ref sig .tc) → Buf (Elt F) ((c : Thread nD τ).loc b)) (a : (pcfg9 (F := F)).Adm)

/-- The grid has one axis of 62500 points, -/
theorem chunk9_N : (cfg9 a).N = 62500 := N_9

/-- consecutive points are consecutive along it, -/
theorem chunk9_stride : (cfg9 a).grid.stride 0 = 1 := (by decide : grid9.stride 0 = 1)

/-- so point `t`'s one coordinate is `t`. -/
theorem chunk9_coords (t : Fin (cfg9 a).N) : ((cfg9 a).grid.coords t 0).val = t.val := by
  have ht : t.val < 62500 := (chunk9_N a) ▸ t.isLt
  show t.val / (cfg9 a).grid.stride 0 % 62500 = t.val
  rw [chunk9_stride a, Nat.div_one, Nat.mod_eq_of_lt ht]

/-- The output window's block index at point `t` is `(t, 0, 0)`. -/
theorem chunk9_idx4_0 (t : Fin (cfg9 a).N) : ((cfg9 a).win 4).index t (0 : Fin 3) = t.val := by
  have ht : t.val < 62500 := (chunk9_N a) ▸ t.isLt
  show (BitVec.ofNat 32 ((cfg9 a).grid.coords t 0).val).toNat = t.val
  rw [chunk9_coords, BitVec.toNat_ofNat]
  omega
theorem chunk9_idx4_1 (t : Fin (cfg9 a).N) : ((cfg9 a).win 4).index t (1 : Fin 3) = 0 := rfl
theorem chunk9_idx4_2 (t : Fin (cfg9 a).N) : ((cfg9 a).win 4).index t (2 : Fin 3) = 0 := rfl

/-- The source window's block index at point `t` is `(src t, 0, 0)`, `src t` the first table's entry `t` read as a natural number, -/
theorem chunk9_idx0_0 (t : Fin (cfg9 a).N) (e : Fin 62500) (he : e.val = t.val) :
    ((cfg9 a).win 0).index t (0 : Fin 3) = ((a.1 0 : S62500.Idx → BitVec 32) (ValueIdx.ix1 e)).toNat := by
  have ht : t.val < 62500 := (chunk9_N a) ▸ t.isLt
  show ((a.1 0 : S62500.Idx → BitVec 32) _).toNat = _
  refine congrArg (fun i => ((a.1 0 : S62500.Idx → BitVec 32) i).toNat) ?_
  funext ax
  apply Fin.ext
  match ax with
  | ⟨0, _⟩ =>
    show (Scalar.indexCast (BitVec.ofNat 32 ((cfg9 a).grid.coords t 0).val)).toNat + 1 * 0 = e.val
    rw [chunk9_coords, he]
    show (BitVec.ofNat 32 t.val).toNat + 1 * 0 = t.val
    rw [BitVec.toNat_ofNat]
    omega
theorem chunk9_idx0_1 (t : Fin (cfg9 a).N) : ((cfg9 a).win 0).index t (1 : Fin 3) = 0 := rfl
theorem chunk9_idx0_2 (t : Fin (cfg9 a).N) : ((cfg9 a).win 0).index t (2 : Fin 3) = 0 := rfl

/-- and the destination window's is `(dst t, 0, 0)`, from the second table. -/
theorem chunk9_idx1_0 (t : Fin (cfg9 a).N) (e : Fin 62500) (he : e.val = t.val) :
    ((cfg9 a).win 1).index t (0 : Fin 3) = ((a.1 1 : S62500.Idx → BitVec 32) (ValueIdx.ix1 e)).toNat := by
  have ht : t.val < 62500 := (chunk9_N a) ▸ t.isLt
  show ((a.1 1 : S62500.Idx → BitVec 32) _).toNat = _
  refine congrArg (fun i => ((a.1 1 : S62500.Idx → BitVec 32) i).toNat) ?_
  funext ax
  apply Fin.ext
  match ax with
  | ⟨0, _⟩ =>
    show (Scalar.indexCast (BitVec.ofNat 32 ((cfg9 a).grid.coords t 0).val)).toNat + 1 * 0 = e.val
    rw [chunk9_coords, he]
    show (BitVec.ofNat 32 t.val).toNat + 1 * 0 = t.val
    rw [BitVec.toNat_ofNat]
    omega
theorem chunk9_idx1_1 (t : Fin (cfg9 a).N) : ((cfg9 a).win 1).index t (1 : Fin 3) = 0 := rfl
theorem chunk9_idx1_2 (t : Fin (cfg9 a).N) : ((cfg9 a).win 1).index t (2 : Fin 3) = 0 := rfl

end Generic

/-! ## The five blocks at a point, read where the arrays are -/

section Blocks
variable {F : FTy → Type} [FloatOps F]
variable (V : (c : Dev nD) → (b : Ref sig .tc) → Buf (Elt F) ((c : Thread nD τ).loc b)) (a : (pcfg9 (F := F)).Adm)

/-- The source window's block at point `t` is row `rs` of the feature array when its block index there is `rs`. -/
theorem chunk9_blk0 (c : Dev nD) (t : Fin (cfg9 a).N) (rs : Fin 100000)
    (hrs : ((cfg9 a).win 0).index t (0 : Fin 3) = rs.val) (j : Fin 128) :
    (iblk9 V a c 0 t : Vec F S1x1x128 .f32) (ValueIdx.ix3 (0 : Fin 1) (0 : Fin 1) j)
      = (V c main_v1 : S100000x1x128.Idx → Elt F .f32) (ValueIdx.ix3 rs (0 : Fin 1) j) := by
  show V c main_v1 ((((cfg9 a).win 0).blk t).view.emb (ValueIdx.ix3 (0 : Fin 1) (0 : Fin 1) j)) = V c main_v1 (ValueIdx.ix3 rs (0 : Fin 1) j)
  refine congrArg (V c main_v1) ?_
  funext ax
  apply Fin.ext
  match ax with
  | ⟨0, _⟩ => show ((cfg9 a).win 0).index t (0 : Fin 3) * 1 + 1 * 0 = rs.val; rw [hrs]; omega
  | ⟨1, _⟩ => show ((cfg9 a).win 0).index t (1 : Fin 3) * 1 + 1 * 0 = 0; rw [chunk9_idx0_1]
  | ⟨2, _⟩ => show ((cfg9 a).win 0).index t (2 : Fin 3) * 128 + 1 * j.val = j.val; rw [chunk9_idx0_2]; omega

/-- The destination window's block likewise, at its own block index. -/
theorem chunk9_blk1 (c : Dev nD) (t : Fin (cfg9 a).N) (rd : Fin 100000)
    (hrd : ((cfg9 a).win 1).index t (0 : Fin 3) = rd.val) (j : Fin 128) :
    (iblk9 V a c 1 t : Vec F S1x1x128 .f32) (ValueIdx.ix3 (0 : Fin 1) (0 : Fin 1) j)
      = (V c main_v1 : S100000x1x128.Idx → Elt F .f32) (ValueIdx.ix3 rd (0 : Fin 1) j) := by
  show V c main_v1 ((((cfg9 a).win 1).blk t).view.emb (ValueIdx.ix3 (0 : Fin 1) (0 : Fin 1) j)) = V c main_v1 (ValueIdx.ix3 rd (0 : Fin 1) j)
  refine congrArg (V c main_v1) ?_
  funext ax
  apply Fin.ext
  match ax with
  | ⟨0, _⟩ => show ((cfg9 a).win 1).index t (0 : Fin 3) * 1 + 1 * 0 = rd.val; rw [hrd]; omega
  | ⟨1, _⟩ => show ((cfg9 a).win 1).index t (1 : Fin 3) * 1 + 1 * 0 = 0; rw [chunk9_idx1_1]
  | ⟨2, _⟩ => show ((cfg9 a).win 1).index t (2 : Fin 3) * 128 + 1 * j.val = j.val; rw [chunk9_idx1_2]; omega

/-- The weights' block is the whole weight array, -/
theorem chunk9_blk2 (c : Dev nD) (t : Fin (cfg9 a).N) (k : Fin 256) :
    (iblk9 V a c 2 t : Vec F S1x256 .f32) (ValueIdx.ix2 (0 : Fin 1) k)
      = (V c main_arg3 : S1x256.Idx → Elt F .f32) (ValueIdx.ix2 (0 : Fin 1) k) := by
  show V c main_arg3 ((((cfg9 a).win 2).blk t).view.emb (ValueIdx.ix2 (0 : Fin 1) k)) = V c main_arg3 (ValueIdx.ix2 (0 : Fin 1) k)
  refine congrArg (V c main_arg3) ?_
  funext ax
  apply Fin.ext
  match ax with
  | ⟨0, _⟩ => show ((cfg9 a).win 2).index t (0 : Fin 2) * 1 + 1 * 0 = 0; rfl
  | ⟨1, _⟩ => show ((cfg9 a).win 2).index t (1 : Fin 2) * 256 + 1 * k.val = k.val; rw [show ((cfg9 a).win 2).index t (1 : Fin 2) = 0 from rfl]; omega

/-- and the bias's block the whole bias array. -/
theorem chunk9_blk3 (c : Dev nD) (t : Fin (cfg9 a).N) :
    (iblk9 V a c 3 t : Vec F S1x1 .f32) (ValueIdx.ix2 (0 : Fin 1) (0 : Fin 1))
      = (V c main_v0 : S1x1.Idx → Elt F .f32) (ValueIdx.ix2 (0 : Fin 1) (0 : Fin 1)) := by
  show V c main_v0 ((((cfg9 a).win 3).blk t).view.emb (ValueIdx.ix2 (0 : Fin 1) (0 : Fin 1))) = V c main_v0 (ValueIdx.ix2 (0 : Fin 1) (0 : Fin 1))
  refine congrArg (V c main_v0) ?_
  funext ax
  apply Fin.ext
  match ax with
  | ⟨0, _⟩ => show ((cfg9 a).win 3).index t (0 : Fin 2) * 1 + 1 * 0 = 0; rfl
  | ⟨1, _⟩ => show ((cfg9 a).win 3).index t (1 : Fin 2) * 1 + 1 * 0 = 0; rfl

end Blocks

/-! ## The score the body stores, from its four input buffers -/

theorem chunk9_hz3 : (![0, 0, 0] : Fin 3 → Nat) = fun _ => 0 := funext fun ax => by fin_cases ax <;> rfl
theorem chunk9_hz2 : (![0, 0] : Fin 2 → Nat) = fun _ => 0 := funext fun ax => by fin_cases ax <;> rfl

/-- A one-cell block has the one index. -/
theorem chunk9_cell (y : S1x1x1.Idx) : y = ValueIdx.ix3 (0 : Fin 1) (0 : Fin 1) (0 : Fin 1) := by
  funext ax
  apply Fin.ext
  match ax with
  | ⟨0, _⟩ => show (y 0).val = 0; have h : (y 0).val < 1 := (y 0).isLt; omega
  | ⟨1, _⟩ => show (y 1).val = 0; have h : (y 1).val < 1 := (y 1).isLt; omega
  | ⟨2, _⟩ => show (y 2).val = 0; have h : (y 2).val < 1 := (y 2).isLt; omega

/-- The stored value at its one index: the two 128-term sums of entrywise products plus the last operand's entry
    (a lane sum over a one-row block is the sum of the row's entries). -/
theorem chunk9_pay (v0 v1 : Vec Ideal S1x128 .f32) (v2 v7 : Vec Ideal S1x1x128 .f32) (v13 : Vec Ideal S1x1 .f32) :
    k9_pay1 (F := Ideal) v0 v1 v2 v7 v13 (ValueIdx.ix3 (0 : Fin 1) (0 : Fin 1) (0 : Fin 1))
      = (∑ j : Fin 128, v2 (ValueIdx.ix3 (0 : Fin 1) (0 : Fin 1) j) * v0 (ValueIdx.ix2 (0 : Fin 1) j))
        + (∑ j : Fin 128, v7 (ValueIdx.ix3 (0 : Fin 1) (0 : Fin 1) j) * v1 (ValueIdx.ix2 (0 : Fin 1) j))
        + v13 (ValueIdx.ix2 (0 : Fin 1) (0 : Fin 1)) := by
  unfold k9_pay1
  rw [shapeCast_ab_1ab_apply, addf_apply, addf_apply, shapeCast_self, shapeCast_a_1a_apply, shapeCast_a_1a_apply,
    Cert.PayloadAt.laneSum_at, Cert.PayloadAt.laneSum_at]
  simp only [mulf_apply, shapeCast_1ab_ab_apply]

/-- A load of the first half of the weights reads column `j`, of the second half column `128 + j`. -/
theorem chunk9_ldW0 (x : Vec Ideal S1x256 .f32) (j : Fin 128) :
    View.ld x rW0 (ValueIdx.ix2 (0 : Fin 1) j) = x (ValueIdx.ix2 (0 : Fin 1) (Cert.Spec.lo j)) := by
  show x _ = x _
  refine congrArg x ?_
  funext ax
  apply Fin.ext
  match ax with
  | ⟨0, _⟩ => show 0 + 1 * 0 = 0; rfl
  | ⟨1, _⟩ => show 0 + 1 * j.val = j.val; omega
theorem chunk9_ldW1 (x : Vec Ideal S1x256 .f32) (j : Fin 128) :
    View.ld x rW1 (ValueIdx.ix2 (0 : Fin 1) j) = x (ValueIdx.ix2 (0 : Fin 1) (Cert.Spec.hi j)) := by
  show x _ = x _
  refine congrArg x ?_
  funext ax
  apply Fin.ext
  match ax with
  | ⟨0, _⟩ => show 0 + 1 * 0 = 0; rfl
  | ⟨1, _⟩ => show 128 + 1 * j.val = 128 + j.val; omega

/-- The output buffer's one cell after the body: row `x0` against the first 128 weights, row `x1` against the last
    128, plus the bias. -/
theorem out9_at (x0 x1 : Vec Ideal S1x1x128 .f32) (x2 : Vec Ideal S1x256 .f32) (x3 : Vec Ideal S1x1 .f32) :
    out9 x0 x1 x2 x3 (ValueIdx.ix3 (0 : Fin 1) (0 : Fin 1) (0 : Fin 1))
      = (∑ j : Fin 128, x0 (ValueIdx.ix3 (0 : Fin 1) (0 : Fin 1) j) * x2 (ValueIdx.ix2 (0 : Fin 1) (Cert.Spec.lo j)))
        + (∑ j : Fin 128, x1 (ValueIdx.ix3 (0 : Fin 1) (0 : Fin 1) j) * x2 (ValueIdx.ix2 (0 : Fin 1) (Cert.Spec.hi j)))
        + x3 (ValueIdx.ix2 (0 : Fin 1) (0 : Fin 1)) := by
  unfold out9
  rw [View.canon_unit_zero chunk9_hz3, chunk9_pay,
    View.ld_unit_zero (S := S1x1x128) chunk9_hz3, View.ld_unit_zero (S := S1x1x128) chunk9_hz3, View.ld_unit_zero (S := S1x1) chunk9_hz2]
  refine congrArg₂ (· + ·) (congrArg₂ (· + ·) (Finset.sum_congr rfl fun j _ => ?_) (Finset.sum_congr rfl fun j _ => ?_)) rfl
  · exact congrArg (fun z => x0 (ValueIdx.ix3 (0 : Fin 1) (0 : Fin 1) j) * z) (chunk9_ldW0 x2 j)
  · exact congrArg (fun z => x1 (ValueIdx.ix3 (0 : Fin 1) (0 : Fin 1) j) * z) (chunk9_ldW1 x2 j)

/-! ## From the blocks to the output array -/

section Array
variable {F : FTy → Type} [FloatOps F]
variable (V : (c : Dev nD) → (b : Ref sig .tc) → Buf (Elt F) ((c : Thread nD τ).loc b)) (a : (pcfg9 (F := F)).Adm)

/-- The output's block index moves at every point, so every point writes its block back. -/
theorem chunk9_flush (t : Fin (cfg9 a).N) : ((cfg9 a).win 4).flush t = true := by
  have hN : (cfg9 a).grid.N = 62500 := N_9
  have ht : t.val < 62500 := (chunk9_N a) ▸ t.isLt
  rw [Window.flush_out _ rfl]
  by_cases h : t.val + 1 = 62500
  · exact Or.inl (h.trans hN.symm)
  · refine Or.inr ⟨Nat.lt_of_lt_of_eq (by omega : t.val + 1 < 62500) hN.symm, fun e => ?_⟩
    have e0 := congrFun e (0 : Fin 3)
    rw [chunk9_idx4_0, chunk9_idx4_0] at e0
    exact absurd e0 (Nat.succ_ne_self _)

/-- Point `t`'s block is the one cell `(t, 0, 0)` of the output array. -/
theorem chunk9_mem (t : Fin (cfg9 a).N) (i : S62500x1x1.Idx) (hi : (i 0).val = t.val) :
    i ∈ (((cfg9 a).win 4).blk t).view.set := by
  have e : (((cfg9 a).win 4).blk t).view.emb (ValueIdx.ix3 (0 : Fin 1) (0 : Fin 1) (0 : Fin 1)) = i := by
    funext ax
    apply Fin.ext
    match ax with
    | ⟨0, _⟩ =>
      show ((cfg9 a).win 4).index t (0 : Fin 3) * 1 + 1 * 0 = (i 0).val
      rw [chunk9_idx4_0]; omega
    | ⟨1, _⟩ =>
      show ((cfg9 a).win 4).index t (1 : Fin 3) * 1 + 1 * 0 = (i 1).val
      have h : (i 1).val < 1 := (i 1).isLt
      rw [chunk9_idx4_1]; omega
    | ⟨2, _⟩ =>
      show ((cfg9 a).win 4).index t (2 : Fin 3) * 1 + 1 * 0 = (i 2).val
      have h : (i 2).val < 1 := (i 2).isLt
      rw [chunk9_idx4_2]; omega
  exact Finset.mem_map.mpr ⟨ValueIdx.ix3 (0 : Fin 1) (0 : Fin 1) (0 : Fin 1), Finset.mem_univ _, e⟩

/-- The score the body leaves at point `t`, as a term of the four input blocks there. -/
def chunk9_score (c : Dev nD) (t : Fin (cfg9 a).N) : Elt F .f32 :=
  out9 (iblk9 V a c 0 t) (iblk9 V a c 1 t) (iblk9 V a c 2 t) (iblk9 V a c 3 t) (ValueIdx.ix3 (0 : Fin 1) (0 : Fin 1) (0 : Fin 1))

/-- The whole output array the points write: at `(r, 0, 0)` point `r`'s score. -/
def chunk9_G (c : Dev nD) : S62500x1x1.Idx → Elt F .f32 :=
  fun i => chunk9_score V a c ⟨(i 0).val, (chunk9_N a).symm ▸ (i 0).isLt⟩

/-- What point `t` writes back is its block of that array. -/
theorem chunk9_flushed (c : Dev nD) (t : Fin (cfg9 a).N) :
    (dat9 V a c).flushed 4 t = (((cfg9 a).win 4).blk t).view.read (Elt F) (chunk9_G V a c) := by
  show ((cfg9 a).win 4).cut ((cfg9 a).grid.coords t) ((dat9 V a c).after 4 t) = _
  rw [after9_4]
  funext y
  show out9 (iblk9 V a c 0 t) (iblk9 V a c 1 t) (iblk9 V a c 2 t) (iblk9 V a c 3 t) (((cfg9 a).win 4).xinj ((cfg9 a).grid.coords t) y)
    = chunk9_G V a c ((((cfg9 a).win 4).blk t).view.emb y)
  refine (congrArg (out9 (iblk9 V a c 0 t) (iblk9 V a c 1 t) (iblk9 V a c 2 t) (iblk9 V a c 3 t)) (chunk9_cell _)).trans ?_
  show chunk9_score V a c t = chunk9_score V a c _
  refine congrArg (chunk9_score V a c) (Fin.ext ?_)
  show t.val = ((cfg9 a).win 4).index t (0 : Fin 3) * 1 + 1 * (y (0 : Fin 3)).val
  have h : (y (0 : Fin 3)).val < 1 := (y (0 : Fin 3)).isLt
  rw [chunk9_idx4_0]; omega

/-- The output array after the run, at `(t, 0, 0)`: point `t`'s score. -/
theorem chunk9_arr (c : Dev nD) (t : Fin (cfg9 a).N) (i : S62500x1x1.Idx) (hi : (i 0).val = t.val) :
    ((dat9 V a c).arrAt 4 (cfg9 a).N : S62500x1x1.Idx → Elt F .f32) i = chunk9_score V a c t := by
  refine ((dat9 V a c).arrAt_apply_of_mem 4 (chunk9_G V a c) (fun t _ => chunk9_flushed V a c t) (cfg9 a).N t i t.isLt
    (chunk9_flush a t) (chunk9_mem a t i hi)).trans ?_
  show chunk9_score V a c _ = chunk9_score V a c t
  exact congrArg (chunk9_score V a c) (Fin.ext hi)

end Array

/-! ## The output array at the exact-real instance -/

/-- The output array after region 9's pipeline, at edge `t`: the score of the two rows the tables name for `t` —
    at any buffers and any admissible contents of the tables; `h`, `W`, `b` name the feature, weight and bias arrays
    the region finds. -/
theorem chunk9_arr_at (V : (c : Dev nD) → (b : Ref sig .tc) → Buf (Elt Ideal) ((c : Thread nD τ).loc b))
    (a : (pcfg9 (F := Ideal)).Adm) (c : Dev nD) (t : Fin 62500) (rs rd : Fin 100000)
    (hrs : ((a.1 0 : S62500.Idx → BitVec 32) (ValueIdx.ix1 t)).toNat = rs.val)
    (hrd : ((a.1 1 : S62500.Idx → BitVec 32) (ValueIdx.ix1 t)).toNat = rd.val)
    (h : S100000x1x128.Idx → EReal) (W : S1x256.Idx → EReal) (b : S1x1.Idx → EReal)
    (hh : (V c main_v1 : S100000x1x128.Idx → EReal) = h) (hW : (V c main_arg3 : S1x256.Idx → EReal) = W)
    (hb : (V c main_v0 : S1x1.Idx → EReal) = b) :
    ((dat9 V a c).arrAt 4 (cfg9 a).N : S62500x1x1.Idx → EReal) (ValueIdx.ix3 t (0 : Fin 1) (0 : Fin 1))
      = (∑ j : Fin 128, h (ValueIdx.ix3 rs (0 : Fin 1) j) * W (ValueIdx.ix2 (0 : Fin 1) (Cert.Spec.lo j)))
        + (∑ j : Fin 128, h (ValueIdx.ix3 rd (0 : Fin 1) j) * W (ValueIdx.ix2 (0 : Fin 1) (Cert.Spec.hi j)))
        + b (ValueIdx.ix2 (0 : Fin 1) (0 : Fin 1)) := by
  have ht : t.val < (cfg9 a).N := (chunk9_N a).symm ▸ t.isLt
  refine (chunk9_arr V a c ⟨t.val, ht⟩ (ValueIdx.ix3 t (0 : Fin 1) (0 : Fin 1)) rfl).trans ?_
  unfold chunk9_score
  refine (out9_at (iblk9 V a c 0 ⟨t.val, ht⟩) (iblk9 V a c 1 ⟨t.val, ht⟩) (iblk9 V a c 2 ⟨t.val, ht⟩) (iblk9 V a c 3 ⟨t.val, ht⟩)).trans ?_
  refine congrArg₂ (· + ·) (congrArg₂ (· + ·) (Finset.sum_congr rfl fun j _ => ?_) (Finset.sum_congr rfl fun j _ => ?_)) ?_
  · exact congrArg₂ (· * ·)
      ((chunk9_blk0 V a c ⟨t.val, ht⟩ rs ((chunk9_idx0_0 a ⟨t.val, ht⟩ t rfl).trans hrs) j).trans (congrFun hh _))
      ((chunk9_blk2 V a c ⟨t.val, ht⟩ (Cert.Spec.lo j)).trans (congrFun hW _))
  · exact congrArg₂ (· * ·)
      ((chunk9_blk1 V a c ⟨t.val, ht⟩ rd ((chunk9_idx1_0 a ⟨t.val, ht⟩ t rfl).trans hrd) j).trans (congrFun hh _))
      ((chunk9_blk2 V a c ⟨t.val, ht⟩ (Cert.Spec.hi j)).trans (congrFun hW _))
  · exact (chunk9_blk3 V a c ⟨t.val, ht⟩).trans (congrFun hb _)

set_option maxHeartbeats 3200000 in
/-- Entry `t` of region 9's output chunk is edge `t`'s score, computed from the rows the two tables name: `rs` and `rd`
    are entry `t` of the two tables, and `h`, `W`, `b` the feature, weight and bias arrays as the region finds them. -/
theorem chunk9_at (m : (ℓ : Loc nD τ sig) → Buf (Elt Ideal) ℓ) (hO : Oks m) (c : Dev nD) (t : Fin 62500) (rs rd : Fin 100000)
    (hrs : ((tbl9 m 0 : S62500.Idx → BitVec 32) (ValueIdx.ix1 t)).toNat = rs.val)
    (hrd : ((tbl9 m 1 : S62500.Idx → BitVec 32) (ValueIdx.ix1 t)).toNat = rd.val)
    (h : S100000x1x128.Idx → EReal) (W : S1x256.Idx → EReal) (b : S1x1.Idx → EReal)
    (hh : (Ve9 m c main_v1 : S100000x1x128.Idx → EReal) = h) (hW : (Ve9 m c main_arg3 : S1x256.Idx → EReal) = W)
    (hb : (Ve9 m c main_v0 : S1x1.Idx → EReal) = b) :
    (chunk9 m hO c : S62500x1x1.Idx → EReal) (ValueIdx.ix3 t (0 : Fin 1) (0 : Fin 1))
      = (∑ j : Fin 128, h (ValueIdx.ix3 rs (0 : Fin 1) j) * W (ValueIdx.ix2 (0 : Fin 1) (Cert.Spec.lo j)))
        + (∑ j : Fin 128, h (ValueIdx.ix3 rd (0 : Fin 1) j) * W (ValueIdx.ix2 (0 : Fin 1) (Cert.Spec.hi j)))
        + b (ValueIdx.ix2 (0 : Fin 1) (0 : Fin 1)) := by
  have key := fun (hok : ok9 (F := Ideal) (tbl9 m)) =>
    chunk9_arr_at (Ve9 m) ⟨tbl9 m, hok⟩ c t rs rd hrs hrd h W b hh hW hb
  unfold chunk9
  exact key _

end Cert.KernelIdeal.Hand
end
-- ==== Proof.KIValue10.lean ====
/-
  Region 10's output chunk, entry by entry, at the exact-real instance.

  The region's pipeline has 62500 points, one per edge of its chunk. At point `t` the output window's block is the single
  cell `(t, 0, 0)` of the output array; the two gathered windows' blocks are rows `src t` and `dst t` of the feature
  array, `src t` and `dst t` being entry `t` of the two index tables read as natural numbers; the weight window's and the
  bias window's blocks are the whole arrays. The body leaves in the output block the score of the two rows,
    (∑ j < 128, h[src t, j] · W[0, j]) + (∑ j < 128, h[dst t, j] · W[0, 128 + j]) + b[0, 0].
  Every point writes its block back (the output's block index moves at every point) and point `t`'s block covers index
  `(t, 0, 0)`, so after the run the output array holds at `(t, 0, 0)` the score of point `t`. Every fact about the
  pipeline is proved with the tables' contents a variable; the region's own tables are put in last.
-/
import proofs.«405368_j31662498906597_2_alg».proof.Proof.KIFamily
import proofs.«405368_j31662498906597_2_alg».proof.Proof.PayloadAt
import proofs.«405368_j31662498906597_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

/-! ## The grid and the index maps, at any contents of the two tables -/

section Generic
variable {F : FTy → Type} [FloatOps F]
variable (V : (c : Dev nD) → (b : Ref sig .tc) → Buf (Elt F) ((c : Thread nD τ).loc b)) (a : (pcfg10 (F := F)).Adm)

/-- The grid has one axis of 62500 points, -/
theorem chunk10_N : (cfg10 a).N = 62500 := N_10

/-- consecutive points are consecutive along it, -/
theorem chunk10_stride : (cfg10 a).grid.stride 0 = 1 := (by decide : grid10.stride 0 = 1)

/-- so point `t`'s one coordinate is `t`. -/
theorem chunk10_coords (t : Fin (cfg10 a).N) : ((cfg10 a).grid.coords t 0).val = t.val := by
  have ht : t.val < 62500 := (chunk10_N a) ▸ t.isLt
  show t.val / (cfg10 a).grid.stride 0 % 62500 = t.val
  rw [chunk10_stride a, Nat.div_one, Nat.mod_eq_of_lt ht]

/-- The output window's block index at point `t` is `(t, 0, 0)`. -/
theorem chunk10_idx4_0 (t : Fin (cfg10 a).N) : ((cfg10 a).win 4).index t (0 : Fin 3) = t.val := by
  have ht : t.val < 62500 := (chunk10_N a) ▸ t.isLt
  show (BitVec.ofNat 32 ((cfg10 a).grid.coords t 0).val).toNat = t.val
  rw [chunk10_coords, BitVec.toNat_ofNat]
  omega
theorem chunk10_idx4_1 (t : Fin (cfg10 a).N) : ((cfg10 a).win 4).index t (1 : Fin 3) = 0 := rfl
theorem chunk10_idx4_2 (t : Fin (cfg10 a).N) : ((cfg10 a).win 4).index t (2 : Fin 3) = 0 := rfl

/-- The source window's block index at point `t` is `(src t, 0, 0)`, `src t` the first table's entry `t` read as a natural number, -/
theorem chunk10_idx0_0 (t : Fin (cfg10 a).N) (e : Fin 62500) (he : e.val = t.val) :
    ((cfg10 a).win 0).index t (0 : Fin 3) = ((a.1 0 : S62500.Idx → BitVec 32) (ValueIdx.ix1 e)).toNat := by
  have ht : t.val < 62500 := (chunk10_N a) ▸ t.isLt
  show ((a.1 0 : S62500.Idx → BitVec 32) _).toNat = _
  refine congrArg (fun i => ((a.1 0 : S62500.Idx → BitVec 32) i).toNat) ?_
  funext ax
  apply Fin.ext
  match ax with
  | ⟨0, _⟩ =>
    show (Scalar.indexCast (BitVec.ofNat 32 ((cfg10 a).grid.coords t 0).val)).toNat + 1 * 0 = e.val
    rw [chunk10_coords, he]
    show (BitVec.ofNat 32 t.val).toNat + 1 * 0 = t.val
    rw [BitVec.toNat_ofNat]
    omega
theorem chunk10_idx0_1 (t : Fin (cfg10 a).N) : ((cfg10 a).win 0).index t (1 : Fin 3) = 0 := rfl
theorem chunk10_idx0_2 (t : Fin (cfg10 a).N) : ((cfg10 a).win 0).index t (2 : Fin 3) = 0 := rfl

/-- and the destination window's is `(dst t, 0, 0)`, from the second table. -/
theorem chunk10_idx1_0 (t : Fin (cfg10 a).N) (e : Fin 62500) (he : e.val = t.val) :
    ((cfg10 a).win 1).index t (0 : Fin 3) = ((a.1 1 : S62500.Idx → BitVec 32) (ValueIdx.ix1 e)).toNat := by
  have ht : t.val < 62500 := (chunk10_N a) ▸ t.isLt
  show ((a.1 1 : S62500.Idx → BitVec 32) _).toNat = _
  refine congrArg (fun i => ((a.1 1 : S62500.Idx → BitVec 32) i).toNat) ?_
  funext ax
  apply Fin.ext
  match ax with
  | ⟨0, _⟩ =>
    show (Scalar.indexCast (BitVec.ofNat 32 ((cfg10 a).grid.coords t 0).val)).toNat + 1 * 0 = e.val
    rw [chunk10_coords, he]
    show (BitVec.ofNat 32 t.val).toNat + 1 * 0 = t.val
    rw [BitVec.toNat_ofNat]
    omega
theorem chunk10_idx1_1 (t : Fin (cfg10 a).N) : ((cfg10 a).win 1).index t (1 : Fin 3) = 0 := rfl
theorem chunk10_idx1_2 (t : Fin (cfg10 a).N) : ((cfg10 a).win 1).index t (2 : Fin 3) = 0 := rfl

end Generic

/-! ## The five blocks at a point, read where the arrays are -/

section Blocks
variable {F : FTy → Type} [FloatOps F]
variable (V : (c : Dev nD) → (b : Ref sig .tc) → Buf (Elt F) ((c : Thread nD τ).loc b)) (a : (pcfg10 (F := F)).Adm)

/-- The source window's block at point `t` is row `rs` of the feature array when its block index there is `rs`. -/
theorem chunk10_blk0 (c : Dev nD) (t : Fin (cfg10 a).N) (rs : Fin 100000)
    (hrs : ((cfg10 a).win 0).index t (0 : Fin 3) = rs.val) (j : Fin 128) :
    (iblk10 V a c 0 t : Vec F S1x1x128 .f32) (ValueIdx.ix3 (0 : Fin 1) (0 : Fin 1) j)
      = (V c main_v1 : S100000x1x128.Idx → Elt F .f32) (ValueIdx.ix3 rs (0 : Fin 1) j) := by
  show V c main_v1 ((((cfg10 a).win 0).blk t).view.emb (ValueIdx.ix3 (0 : Fin 1) (0 : Fin 1) j)) = V c main_v1 (ValueIdx.ix3 rs (0 : Fin 1) j)
  refine congrArg (V c main_v1) ?_
  funext ax
  apply Fin.ext
  match ax with
  | ⟨0, _⟩ => show ((cfg10 a).win 0).index t (0 : Fin 3) * 1 + 1 * 0 = rs.val; rw [hrs]; omega
  | ⟨1, _⟩ => show ((cfg10 a).win 0).index t (1 : Fin 3) * 1 + 1 * 0 = 0; rw [chunk10_idx0_1]
  | ⟨2, _⟩ => show ((cfg10 a).win 0).index t (2 : Fin 3) * 128 + 1 * j.val = j.val; rw [chunk10_idx0_2]; omega

/-- The destination window's block likewise, at its own block index. -/
theorem chunk10_blk1 (c : Dev nD) (t : Fin (cfg10 a).N) (rd : Fin 100000)
    (hrd : ((cfg10 a).win 1).index t (0 : Fin 3) = rd.val) (j : Fin 128) :
    (iblk10 V a c 1 t : Vec F S1x1x128 .f32) (ValueIdx.ix3 (0 : Fin 1) (0 : Fin 1) j)
      = (V c main_v1 : S100000x1x128.Idx → Elt F .f32) (ValueIdx.ix3 rd (0 : Fin 1) j) := by
  show V c main_v1 ((((cfg10 a).win 1).blk t).view.emb (ValueIdx.ix3 (0 : Fin 1) (0 : Fin 1) j)) = V c main_v1 (ValueIdx.ix3 rd (0 : Fin 1) j)
  refine congrArg (V c main_v1) ?_
  funext ax
  apply Fin.ext
  match ax with
  | ⟨0, _⟩ => show ((cfg10 a).win 1).index t (0 : Fin 3) * 1 + 1 * 0 = rd.val; rw [hrd]; omega
  | ⟨1, _⟩ => show ((cfg10 a).win 1).index t (1 : Fin 3) * 1 + 1 * 0 = 0; rw [chunk10_idx1_1]
  | ⟨2, _⟩ => show ((cfg10 a).win 1).index t (2 : Fin 3) * 128 + 1 * j.val = j.val; rw [chunk10_idx1_2]; omega

/-- The weights' block is the whole weight array, -/
theorem chunk10_blk2 (c : Dev nD) (t : Fin (cfg10 a).N) (k : Fin 256) :
    (iblk10 V a c 2 t : Vec F S1x256 .f32) (ValueIdx.ix2 (0 : Fin 1) k)
      = (V c main_arg3 : S1x256.Idx → Elt F .f32) (ValueIdx.ix2 (0 : Fin 1) k) := by
  show V c main_arg3 ((((cfg10 a).win 2).blk t).view.emb (ValueIdx.ix2 (0 : Fin 1) k)) = V c main_arg3 (ValueIdx.ix2 (0 : Fin 1) k)
  refine congrArg (V c main_arg3) ?_
  funext ax
  apply Fin.ext
  match ax with
  | ⟨0, _⟩ => show ((cfg10 a).win 2).index t (0 : Fin 2) * 1 + 1 * 0 = 0; rfl
  | ⟨1, _⟩ => show ((cfg10 a).win 2).index t (1 : Fin 2) * 256 + 1 * k.val = k.val; rw [show ((cfg10 a).win 2).index t (1 : Fin 2) = 0 from rfl]; omega

/-- and the bias's block the whole bias array. -/
theorem chunk10_blk3 (c : Dev nD) (t : Fin (cfg10 a).N) :
    (iblk10 V a c 3 t : Vec F S1x1 .f32) (ValueIdx.ix2 (0 : Fin 1) (0 : Fin 1))
      = (V c main_v0 : S1x1.Idx → Elt F .f32) (ValueIdx.ix2 (0 : Fin 1) (0 : Fin 1)) := by
  show V c main_v0 ((((cfg10 a).win 3).blk t).view.emb (ValueIdx.ix2 (0 : Fin 1) (0 : Fin 1))) = V c main_v0 (ValueIdx.ix2 (0 : Fin 1) (0 : Fin 1))
  refine congrArg (V c main_v0) ?_
  funext ax
  apply Fin.ext
  match ax with
  | ⟨0, _⟩ => show ((cfg10 a).win 3).index t (0 : Fin 2) * 1 + 1 * 0 = 0; rfl
  | ⟨1, _⟩ => show ((cfg10 a).win 3).index t (1 : Fin 2) * 1 + 1 * 0 = 0; rfl

end Blocks

/-! ## The score the body stores, from its four input buffers -/

theorem chunk10_hz3 : (![0, 0, 0] : Fin 3 → Nat) = fun _ => 0 := funext fun ax => by fin_cases ax <;> rfl
theorem chunk10_hz2 : (![0, 0] : Fin 2 → Nat) = fun _ => 0 := funext fun ax => by fin_cases ax <;> rfl

/-- A one-cell block has the one index. -/
theorem chunk10_cell (y : S1x1x1.Idx) : y = ValueIdx.ix3 (0 : Fin 1) (0 : Fin 1) (0 : Fin 1) := by
  funext ax
  apply Fin.ext
  match ax with
  | ⟨0, _⟩ => show (y 0).val = 0; have h : (y 0).val < 1 := (y 0).isLt; omega
  | ⟨1, _⟩ => show (y 1).val = 0; have h : (y 1).val < 1 := (y 1).isLt; omega
  | ⟨2, _⟩ => show (y 2).val = 0; have h : (y 2).val < 1 := (y 2).isLt; omega

/-- The stored value at its one index: the two 128-term sums of entrywise products plus the last operand's entry
    (a lane sum over a one-row block is the sum of the row's entries). -/
theorem chunk10_pay (v0 v1 : Vec Ideal S1x128 .f32) (v2 v7 : Vec Ideal S1x1x128 .f32) (v13 : Vec Ideal S1x1 .f32) :
    k10_pay1 (F := Ideal) v0 v1 v2 v7 v13 (ValueIdx.ix3 (0 : Fin 1) (0 : Fin 1) (0 : Fin 1))
      = (∑ j : Fin 128, v2 (ValueIdx.ix3 (0 : Fin 1) (0 : Fin 1) j) * v0 (ValueIdx.ix2 (0 : Fin 1) j))
        + (∑ j : Fin 128, v7 (ValueIdx.ix3 (0 : Fin 1) (0 : Fin 1) j) * v1 (ValueIdx.ix2 (0 : Fin 1) j))
        + v13 (ValueIdx.ix2 (0 : Fin 1) (0 : Fin 1)) := by
  unfold k10_pay1
  rw [shapeCast_ab_1ab_apply, addf_apply, addf_apply, shapeCast_self, shapeCast_a_1a_apply, shapeCast_a_1a_apply,
    Cert.PayloadAt.laneSum_at, Cert.PayloadAt.laneSum_at]
  simp only [mulf_apply, shapeCast_1ab_ab_apply]

/-- A load of the first half of the weights reads column `j`, of the second half column `128 + j`. -/
theorem chunk10_ldW0 (x : Vec Ideal S1x256 .f32) (j : Fin 128) :
    View.ld x rW0 (ValueIdx.ix2 (0 : Fin 1) j) = x (ValueIdx.ix2 (0 : Fin 1) (Cert.Spec.lo j)) := by
  show x _ = x _
  refine congrArg x ?_
  funext ax
  apply Fin.ext
  match ax with
  | ⟨0, _⟩ => show 0 + 1 * 0 = 0; rfl
  | ⟨1, _⟩ => show 0 + 1 * j.val = j.val; omega
theorem chunk10_ldW1 (x : Vec Ideal S1x256 .f32) (j : Fin 128) :
    View.ld x rW1 (ValueIdx.ix2 (0 : Fin 1) j) = x (ValueIdx.ix2 (0 : Fin 1) (Cert.Spec.hi j)) := by
  show x _ = x _
  refine congrArg x ?_
  funext ax
  apply Fin.ext
  match ax with
  | ⟨0, _⟩ => show 0 + 1 * 0 = 0; rfl
  | ⟨1, _⟩ => show 128 + 1 * j.val = 128 + j.val; omega

/-- The output buffer's one cell after the body: row `x0` against the first 128 weights, row `x1` against the last
    128, plus the bias. -/
theorem out10_at (x0 x1 : Vec Ideal S1x1x128 .f32) (x2 : Vec Ideal S1x256 .f32) (x3 : Vec Ideal S1x1 .f32) :
    out10 x0 x1 x2 x3 (ValueIdx.ix3 (0 : Fin 1) (0 : Fin 1) (0 : Fin 1))
      = (∑ j : Fin 128, x0 (ValueIdx.ix3 (0 : Fin 1) (0 : Fin 1) j) * x2 (ValueIdx.ix2 (0 : Fin 1) (Cert.Spec.lo j)))
        + (∑ j : Fin 128, x1 (ValueIdx.ix3 (0 : Fin 1) (0 : Fin 1) j) * x2 (ValueIdx.ix2 (0 : Fin 1) (Cert.Spec.hi j)))
        + x3 (ValueIdx.ix2 (0 : Fin 1) (0 : Fin 1)) := by
  unfold out10
  rw [View.canon_unit_zero chunk10_hz3, chunk10_pay,
    View.ld_unit_zero (S := S1x1x128) chunk10_hz3, View.ld_unit_zero (S := S1x1x128) chunk10_hz3, View.ld_unit_zero (S := S1x1) chunk10_hz2]
  refine congrArg₂ (· + ·) (congrArg₂ (· + ·) (Finset.sum_congr rfl fun j _ => ?_) (Finset.sum_congr rfl fun j _ => ?_)) rfl
  · exact congrArg (fun z => x0 (ValueIdx.ix3 (0 : Fin 1) (0 : Fin 1) j) * z) (chunk10_ldW0 x2 j)
  · exact congrArg (fun z => x1 (ValueIdx.ix3 (0 : Fin 1) (0 : Fin 1) j) * z) (chunk10_ldW1 x2 j)

/-! ## From the blocks to the output array -/

section Array
variable {F : FTy → Type} [FloatOps F]
variable (V : (c : Dev nD) → (b : Ref sig .tc) → Buf (Elt F) ((c : Thread nD τ).loc b)) (a : (pcfg10 (F := F)).Adm)

/-- The output's block index moves at every point, so every point writes its block back. -/
theorem chunk10_flush (t : Fin (cfg10 a).N) : ((cfg10 a).win 4).flush t = true := by
  have hN : (cfg10 a).grid.N = 62500 := N_10
  have ht : t.val < 62500 := (chunk10_N a) ▸ t.isLt
  rw [Window.flush_out _ rfl]
  by_cases h : t.val + 1 = 62500
  · exact Or.inl (h.trans hN.symm)
  · refine Or.inr ⟨Nat.lt_of_lt_of_eq (by omega : t.val + 1 < 62500) hN.symm, fun e => ?_⟩
    have e0 := congrFun e (0 : Fin 3)
    rw [chunk10_idx4_0, chunk10_idx4_0] at e0
    exact absurd e0 (Nat.succ_ne_self _)

/-- Point `t`'s block is the one cell `(t, 0, 0)` of the output array. -/
theorem chunk10_mem (t : Fin (cfg10 a).N) (i : S62500x1x1.Idx) (hi : (i 0).val = t.val) :
    i ∈ (((cfg10 a).win 4).blk t).view.set := by
  have e : (((cfg10 a).win 4).blk t).view.emb (ValueIdx.ix3 (0 : Fin 1) (0 : Fin 1) (0 : Fin 1)) = i := by
    funext ax
    apply Fin.ext
    match ax with
    | ⟨0, _⟩ =>
      show ((cfg10 a).win 4).index t (0 : Fin 3) * 1 + 1 * 0 = (i 0).val
      rw [chunk10_idx4_0]; omega
    | ⟨1, _⟩ =>
      show ((cfg10 a).win 4).index t (1 : Fin 3) * 1 + 1 * 0 = (i 1).val
      have h : (i 1).val < 1 := (i 1).isLt
      rw [chunk10_idx4_1]; omega
    | ⟨2, _⟩ =>
      show ((cfg10 a).win 4).index t (2 : Fin 3) * 1 + 1 * 0 = (i 2).val
      have h : (i 2).val < 1 := (i 2).isLt
      rw [chunk10_idx4_2]; omega
  exact Finset.mem_map.mpr ⟨ValueIdx.ix3 (0 : Fin 1) (0 : Fin 1) (0 : Fin 1), Finset.mem_univ _, e⟩

/-- The score the body leaves at point `t`, as a term of the four input blocks there. -/
def chunk10_score (c : Dev nD) (t : Fin (cfg10 a).N) : Elt F .f32 :=
  out10 (iblk10 V a c 0 t) (iblk10 V a c 1 t) (iblk10 V a c 2 t) (iblk10 V a c 3 t) (ValueIdx.ix3 (0 : Fin 1) (0 : Fin 1) (0 : Fin 1))

/-- The whole output array the points write: at `(r, 0, 0)` point `r`'s score. -/
def chunk10_G (c : Dev nD) : S62500x1x1.Idx → Elt F .f32 :=
  fun i => chunk10_score V a c ⟨(i 0).val, (chunk10_N a).symm ▸ (i 0).isLt⟩

/-- What point `t` writes back is its block of that array. -/
theorem chunk10_flushed (c : Dev nD) (t : Fin (cfg10 a).N) :
    (dat10 V a c).flushed 4 t = (((cfg10 a).win 4).blk t).view.read (Elt F) (chunk10_G V a c) := by
  show ((cfg10 a).win 4).cut ((cfg10 a).grid.coords t) ((dat10 V a c).after 4 t) = _
  rw [after10_4]
  funext y
  show out10 (iblk10 V a c 0 t) (iblk10 V a c 1 t) (iblk10 V a c 2 t) (iblk10 V a c 3 t) (((cfg10 a).win 4).xinj ((cfg10 a).grid.coords t) y)
    = chunk10_G V a c ((((cfg10 a).win 4).blk t).view.emb y)
  refine (congrArg (out10 (iblk10 V a c 0 t) (iblk10 V a c 1 t) (iblk10 V a c 2 t) (iblk10 V a c 3 t)) (chunk10_cell _)).trans ?_
  show chunk10_score V a c t = chunk10_score V a c _
  refine congrArg (chunk10_score V a c) (Fin.ext ?_)
  show t.val = ((cfg10 a).win 4).index t (0 : Fin 3) * 1 + 1 * (y (0 : Fin 3)).val
  have h : (y (0 : Fin 3)).val < 1 := (y (0 : Fin 3)).isLt
  rw [chunk10_idx4_0]; omega

/-- The output array after the run, at `(t, 0, 0)`: point `t`'s score. -/
theorem chunk10_arr (c : Dev nD) (t : Fin (cfg10 a).N) (i : S62500x1x1.Idx) (hi : (i 0).val = t.val) :
    ((dat10 V a c).arrAt 4 (cfg10 a).N : S62500x1x1.Idx → Elt F .f32) i = chunk10_score V a c t := by
  refine ((dat10 V a c).arrAt_apply_of_mem 4 (chunk10_G V a c) (fun t _ => chunk10_flushed V a c t) (cfg10 a).N t i t.isLt
    (chunk10_flush a t) (chunk10_mem a t i hi)).trans ?_
  show chunk10_score V a c _ = chunk10_score V a c t
  exact congrArg (chunk10_score V a c) (Fin.ext hi)

end Array

/-! ## The output array at the exact-real instance -/

/-- The output array after region 10's pipeline, at edge `t`: the score of the two rows the tables name for `t` —
    at any buffers and any admissible contents of the tables; `h`, `W`, `b` name the feature, weight and bias arrays
    the region finds. -/
theorem chunk10_arr_at (V : (c : Dev nD) → (b : Ref sig .tc) → Buf (Elt Ideal) ((c : Thread nD τ).loc b))
    (a : (pcfg10 (F := Ideal)).Adm) (c : Dev nD) (t : Fin 62500) (rs rd : Fin 100000)
    (hrs : ((a.1 0 : S62500.Idx → BitVec 32) (ValueIdx.ix1 t)).toNat = rs.val)
    (hrd : ((a.1 1 : S62500.Idx → BitVec 32) (ValueIdx.ix1 t)).toNat = rd.val)
    (h : S100000x1x128.Idx → EReal) (W : S1x256.Idx → EReal) (b : S1x1.Idx → EReal)
    (hh : (V c main_v1 : S100000x1x128.Idx → EReal) = h) (hW : (V c main_arg3 : S1x256.Idx → EReal) = W)
    (hb : (V c main_v0 : S1x1.Idx → EReal) = b) :
    ((dat10 V a c).arrAt 4 (cfg10 a).N : S62500x1x1.Idx → EReal) (ValueIdx.ix3 t (0 : Fin 1) (0 : Fin 1))
      = (∑ j : Fin 128, h (ValueIdx.ix3 rs (0 : Fin 1) j) * W (ValueIdx.ix2 (0 : Fin 1) (Cert.Spec.lo j)))
        + (∑ j : Fin 128, h (ValueIdx.ix3 rd (0 : Fin 1) j) * W (ValueIdx.ix2 (0 : Fin 1) (Cert.Spec.hi j)))
        + b (ValueIdx.ix2 (0 : Fin 1) (0 : Fin 1)) := by
  have ht : t.val < (cfg10 a).N := (chunk10_N a).symm ▸ t.isLt
  refine (chunk10_arr V a c ⟨t.val, ht⟩ (ValueIdx.ix3 t (0 : Fin 1) (0 : Fin 1)) rfl).trans ?_
  unfold chunk10_score
  refine (out10_at (iblk10 V a c 0 ⟨t.val, ht⟩) (iblk10 V a c 1 ⟨t.val, ht⟩) (iblk10 V a c 2 ⟨t.val, ht⟩) (iblk10 V a c 3 ⟨t.val, ht⟩)).trans ?_
  refine congrArg₂ (· + ·) (congrArg₂ (· + ·) (Finset.sum_congr rfl fun j _ => ?_) (Finset.sum_congr rfl fun j _ => ?_)) ?_
  · exact congrArg₂ (· * ·)
      ((chunk10_blk0 V a c ⟨t.val, ht⟩ rs ((chunk10_idx0_0 a ⟨t.val, ht⟩ t rfl).trans hrs) j).trans (congrFun hh _))
      ((chunk10_blk2 V a c ⟨t.val, ht⟩ (Cert.Spec.lo j)).trans (congrFun hW _))
  · exact congrArg₂ (· * ·)
      ((chunk10_blk1 V a c ⟨t.val, ht⟩ rd ((chunk10_idx1_0 a ⟨t.val, ht⟩ t rfl).trans hrd) j).trans (congrFun hh _))
      ((chunk10_blk2 V a c ⟨t.val, ht⟩ (Cert.Spec.hi j)).trans (congrFun hW _))
  · exact (chunk10_blk3 V a c ⟨t.val, ht⟩).trans (congrFun hb _)

set_option maxHeartbeats 3200000 in
/-- Entry `t` of region 10's output chunk is edge `t`'s score, computed from the rows the two tables name: `rs` and `rd`
    are entry `t` of the two tables, and `h`, `W`, `b` the feature, weight and bias arrays as the region finds them. -/
theorem chunk10_at (m : (ℓ : Loc nD τ sig) → Buf (Elt Ideal) ℓ) (hO : Oks m) (c : Dev nD) (t : Fin 62500) (rs rd : Fin 100000)
    (hrs : ((tbl10 m 0 : S62500.Idx → BitVec 32) (ValueIdx.ix1 t)).toNat = rs.val)
    (hrd : ((tbl10 m 1 : S62500.Idx → BitVec 32) (ValueIdx.ix1 t)).toNat = rd.val)
    (h : S100000x1x128.Idx → EReal) (W : S1x256.Idx → EReal) (b : S1x1.Idx → EReal)
    (hh : (Ve10 m c main_v1 : S100000x1x128.Idx → EReal) = h) (hW : (Ve10 m c main_arg3 : S1x256.Idx → EReal) = W)
    (hb : (Ve10 m c main_v0 : S1x1.Idx → EReal) = b) :
    (chunk10 m hO c : S62500x1x1.Idx → EReal) (ValueIdx.ix3 t (0 : Fin 1) (0 : Fin 1))
      = (∑ j : Fin 128, h (ValueIdx.ix3 rs (0 : Fin 1) j) * W (ValueIdx.ix2 (0 : Fin 1) (Cert.Spec.lo j)))
        + (∑ j : Fin 128, h (ValueIdx.ix3 rd (0 : Fin 1) j) * W (ValueIdx.ix2 (0 : Fin 1) (Cert.Spec.hi j)))
        + b (ValueIdx.ix2 (0 : Fin 1) (0 : Fin 1)) := by
  have key := fun (hok : ok10 (F := Ideal) (tbl10 m)) =>
    chunk10_arr_at (Ve10 m) ⟨tbl10 m, hok⟩ c t rs rd hrs hrd h W b hh hW hb
  unfold chunk10
  exact key _

end Cert.KernelIdeal.Hand
end
-- ==== Proof.KIValue11.lean ====
/-
  Region 11's output chunk, entry by entry, at the exact-real instance.

  The region's pipeline has 62500 points, one per edge of its chunk. At point `t` the output window's block is the single
  cell `(t, 0, 0)` of the output array; the two gathered windows' blocks are rows `src t` and `dst t` of the feature
  array, `src t` and `dst t` being entry `t` of the two index tables read as natural numbers; the weight window's and the
  bias window's blocks are the whole arrays. The body leaves in the output block the score of the two rows,
    (∑ j < 128, h[src t, j] · W[0, j]) + (∑ j < 128, h[dst t, j] · W[0, 128 + j]) + b[0, 0].
  Every point writes its block back (the output's block index moves at every point) and point `t`'s block covers index
  `(t, 0, 0)`, so after the run the output array holds at `(t, 0, 0)` the score of point `t`. Every fact about the
  pipeline is proved with the tables' contents a variable; the region's own tables are put in last.
-/
import proofs.«405368_j31662498906597_2_alg».proof.Proof.KIFamily
import proofs.«405368_j31662498906597_2_alg».proof.Proof.PayloadAt
import proofs.«405368_j31662498906597_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

/-! ## The grid and the index maps, at any contents of the two tables -/

section Generic
variable {F : FTy → Type} [FloatOps F]
variable (V : (c : Dev nD) → (b : Ref sig .tc) → Buf (Elt F) ((c : Thread nD τ).loc b)) (a : (pcfg11 (F := F)).Adm)

/-- The grid has one axis of 62500 points, -/
theorem chunk11_N : (cfg11 a).N = 62500 := N_11

/-- consecutive points are consecutive along it, -/
theorem chunk11_stride : (cfg11 a).grid.stride 0 = 1 := (by decide : grid11.stride 0 = 1)

/-- so point `t`'s one coordinate is `t`. -/
theorem chunk11_coords (t : Fin (cfg11 a).N) : ((cfg11 a).grid.coords t 0).val = t.val := by
  have ht : t.val < 62500 := (chunk11_N a) ▸ t.isLt
  show t.val / (cfg11 a).grid.stride 0 % 62500 = t.val
  rw [chunk11_stride a, Nat.div_one, Nat.mod_eq_of_lt ht]

/-- The output window's block index at point `t` is `(t, 0, 0)`. -/
theorem chunk11_idx4_0 (t : Fin (cfg11 a).N) : ((cfg11 a).win 4).index t (0 : Fin 3) = t.val := by
  have ht : t.val < 62500 := (chunk11_N a) ▸ t.isLt
  show (BitVec.ofNat 32 ((cfg11 a).grid.coords t 0).val).toNat = t.val
  rw [chunk11_coords, BitVec.toNat_ofNat]
  omega
theorem chunk11_idx4_1 (t : Fin (cfg11 a).N) : ((cfg11 a).win 4).index t (1 : Fin 3) = 0 := rfl
theorem chunk11_idx4_2 (t : Fin (cfg11 a).N) : ((cfg11 a).win 4).index t (2 : Fin 3) = 0 := rfl

/-- The source window's block index at point `t` is `(src t, 0, 0)`, `src t` the first table's entry `t` read as a natural number, -/
theorem chunk11_idx0_0 (t : Fin (cfg11 a).N) (e : Fin 62500) (he : e.val = t.val) :
    ((cfg11 a).win 0).index t (0 : Fin 3) = ((a.1 0 : S62500.Idx → BitVec 32) (ValueIdx.ix1 e)).toNat := by
  have ht : t.val < 62500 := (chunk11_N a) ▸ t.isLt
  show ((a.1 0 : S62500.Idx → BitVec 32) _).toNat = _
  refine congrArg (fun i => ((a.1 0 : S62500.Idx → BitVec 32) i).toNat) ?_
  funext ax
  apply Fin.ext
  match ax with
  | ⟨0, _⟩ =>
    show (Scalar.indexCast (BitVec.ofNat 32 ((cfg11 a).grid.coords t 0).val)).toNat + 1 * 0 = e.val
    rw [chunk11_coords, he]
    show (BitVec.ofNat 32 t.val).toNat + 1 * 0 = t.val
    rw [BitVec.toNat_ofNat]
    omega
theorem chunk11_idx0_1 (t : Fin (cfg11 a).N) : ((cfg11 a).win 0).index t (1 : Fin 3) = 0 := rfl
theorem chunk11_idx0_2 (t : Fin (cfg11 a).N) : ((cfg11 a).win 0).index t (2 : Fin 3) = 0 := rfl

/-- and the destination window's is `(dst t, 0, 0)`, from the second table. -/
theorem chunk11_idx1_0 (t : Fin (cfg11 a).N) (e : Fin 62500) (he : e.val = t.val) :
    ((cfg11 a).win 1).index t (0 : Fin 3) = ((a.1 1 : S62500.Idx → BitVec 32) (ValueIdx.ix1 e)).toNat := by
  have ht : t.val < 62500 := (chunk11_N a) ▸ t.isLt
  show ((a.1 1 : S62500.Idx → BitVec 32) _).toNat = _
  refine congrArg (fun i => ((a.1 1 : S62500.Idx → BitVec 32) i).toNat) ?_
  funext ax
  apply Fin.ext
  match ax with
  | ⟨0, _⟩ =>
    show (Scalar.indexCast (BitVec.ofNat 32 ((cfg11 a).grid.coords t 0).val)).toNat + 1 * 0 = e.val
    rw [chunk11_coords, he]
    show (BitVec.ofNat 32 t.val).toNat + 1 * 0 = t.val
    rw [BitVec.toNat_ofNat]
    omega
theorem chunk11_idx1_1 (t : Fin (cfg11 a).N) : ((cfg11 a).win 1).index t (1 : Fin 3) = 0 := rfl
theorem chunk11_idx1_2 (t : Fin (cfg11 a).N) : ((cfg11 a).win 1).index t (2 : Fin 3) = 0 := rfl

end Generic

/-! ## The five blocks at a point, read where the arrays are -/

section Blocks
variable {F : FTy → Type} [FloatOps F]
variable (V : (c : Dev nD) → (b : Ref sig .tc) → Buf (Elt F) ((c : Thread nD τ).loc b)) (a : (pcfg11 (F := F)).Adm)

/-- The source window's block at point `t` is row `rs` of the feature array when its block index there is `rs`. -/
theorem chunk11_blk0 (c : Dev nD) (t : Fin (cfg11 a).N) (rs : Fin 100000)
    (hrs : ((cfg11 a).win 0).index t (0 : Fin 3) = rs.val) (j : Fin 128) :
    (iblk11 V a c 0 t : Vec F S1x1x128 .f32) (ValueIdx.ix3 (0 : Fin 1) (0 : Fin 1) j)
      = (V c main_v1 : S100000x1x128.Idx → Elt F .f32) (ValueIdx.ix3 rs (0 : Fin 1) j) := by
  show V c main_v1 ((((cfg11 a).win 0).blk t).view.emb (ValueIdx.ix3 (0 : Fin 1) (0 : Fin 1) j)) = V c main_v1 (ValueIdx.ix3 rs (0 : Fin 1) j)
  refine congrArg (V c main_v1) ?_
  funext ax
  apply Fin.ext
  match ax with
  | ⟨0, _⟩ => show ((cfg11 a).win 0).index t (0 : Fin 3) * 1 + 1 * 0 = rs.val; rw [hrs]; omega
  | ⟨1, _⟩ => show ((cfg11 a).win 0).index t (1 : Fin 3) * 1 + 1 * 0 = 0; rw [chunk11_idx0_1]
  | ⟨2, _⟩ => show ((cfg11 a).win 0).index t (2 : Fin 3) * 128 + 1 * j.val = j.val; rw [chunk11_idx0_2]; omega

/-- The destination window's block likewise, at its own block index. -/
theorem chunk11_blk1 (c : Dev nD) (t : Fin (cfg11 a).N) (rd : Fin 100000)
    (hrd : ((cfg11 a).win 1).index t (0 : Fin 3) = rd.val) (j : Fin 128) :
    (iblk11 V a c 1 t : Vec F S1x1x128 .f32) (ValueIdx.ix3 (0 : Fin 1) (0 : Fin 1) j)
      = (V c main_v1 : S100000x1x128.Idx → Elt F .f32) (ValueIdx.ix3 rd (0 : Fin 1) j) := by
  show V c main_v1 ((((cfg11 a).win 1).blk t).view.emb (ValueIdx.ix3 (0 : Fin 1) (0 : Fin 1) j)) = V c main_v1 (ValueIdx.ix3 rd (0 : Fin 1) j)
  refine congrArg (V c main_v1) ?_
  funext ax
  apply Fin.ext
  match ax with
  | ⟨0, _⟩ => show ((cfg11 a).win 1).index t (0 : Fin 3) * 1 + 1 * 0 = rd.val; rw [hrd]; omega
  | ⟨1, _⟩ => show ((cfg11 a).win 1).index t (1 : Fin 3) * 1 + 1 * 0 = 0; rw [chunk11_idx1_1]
  | ⟨2, _⟩ => show ((cfg11 a).win 1).index t (2 : Fin 3) * 128 + 1 * j.val = j.val; rw [chunk11_idx1_2]; omega

/-- The weights' block is the whole weight array, -/
theorem chunk11_blk2 (c : Dev nD) (t : Fin (cfg11 a).N) (k : Fin 256) :
    (iblk11 V a c 2 t : Vec F S1x256 .f32) (ValueIdx.ix2 (0 : Fin 1) k)
      = (V c main_arg3 : S1x256.Idx → Elt F .f32) (ValueIdx.ix2 (0 : Fin 1) k) := by
  show V c main_arg3 ((((cfg11 a).win 2).blk t).view.emb (ValueIdx.ix2 (0 : Fin 1) k)) = V c main_arg3 (ValueIdx.ix2 (0 : Fin 1) k)
  refine congrArg (V c main_arg3) ?_
  funext ax
  apply Fin.ext
  match ax with
  | ⟨0, _⟩ => show ((cfg11 a).win 2).index t (0 : Fin 2) * 1 + 1 * 0 = 0; rfl
  | ⟨1, _⟩ => show ((cfg11 a).win 2).index t (1 : Fin 2) * 256 + 1 * k.val = k.val; rw [show ((cfg11 a).win 2).index t (1 : Fin 2) = 0 from rfl]; omega

/-- and the bias's block the whole bias array. -/
theorem chunk11_blk3 (c : Dev nD) (t : Fin (cfg11 a).N) :
    (iblk11 V a c 3 t : Vec F S1x1 .f32) (ValueIdx.ix2 (0 : Fin 1) (0 : Fin 1))
      = (V c main_v0 : S1x1.Idx → Elt F .f32) (ValueIdx.ix2 (0 : Fin 1) (0 : Fin 1)) := by
  show V c main_v0 ((((cfg11 a).win 3).blk t).view.emb (ValueIdx.ix2 (0 : Fin 1) (0 : Fin 1))) = V c main_v0 (ValueIdx.ix2 (0 : Fin 1) (0 : Fin 1))
  refine congrArg (V c main_v0) ?_
  funext ax
  apply Fin.ext
  match ax with
  | ⟨0, _⟩ => show ((cfg11 a).win 3).index t (0 : Fin 2) * 1 + 1 * 0 = 0; rfl
  | ⟨1, _⟩ => show ((cfg11 a).win 3).index t (1 : Fin 2) * 1 + 1 * 0 = 0; rfl

end Blocks

/-! ## The score the body stores, from its four input buffers -/

theorem chunk11_hz3 : (![0, 0, 0] : Fin 3 → Nat) = fun _ => 0 := funext fun ax => by fin_cases ax <;> rfl
theorem chunk11_hz2 : (![0, 0] : Fin 2 → Nat) = fun _ => 0 := funext fun ax => by fin_cases ax <;> rfl

/-- A one-cell block has the one index. -/
theorem chunk11_cell (y : S1x1x1.Idx) : y = ValueIdx.ix3 (0 : Fin 1) (0 : Fin 1) (0 : Fin 1) := by
  funext ax
  apply Fin.ext
  match ax with
  | ⟨0, _⟩ => show (y 0).val = 0; have h : (y 0).val < 1 := (y 0).isLt; omega
  | ⟨1, _⟩ => show (y 1).val = 0; have h : (y 1).val < 1 := (y 1).isLt; omega
  | ⟨2, _⟩ => show (y 2).val = 0; have h : (y 2).val < 1 := (y 2).isLt; omega

/-- The stored value at its one index: the two 128-term sums of entrywise products plus the last operand's entry
    (a lane sum over a one-row block is the sum of the row's entries). -/
theorem chunk11_pay (v0 v1 : Vec Ideal S1x128 .f32) (v2 v7 : Vec Ideal S1x1x128 .f32) (v13 : Vec Ideal S1x1 .f32) :
    k11_pay1 (F := Ideal) v0 v1 v2 v7 v13 (ValueIdx.ix3 (0 : Fin 1) (0 : Fin 1) (0 : Fin 1))
      = (∑ j : Fin 128, v2 (ValueIdx.ix3 (0 : Fin 1) (0 : Fin 1) j) * v0 (ValueIdx.ix2 (0 : Fin 1) j))
        + (∑ j : Fin 128, v7 (ValueIdx.ix3 (0 : Fin 1) (0 : Fin 1) j) * v1 (ValueIdx.ix2 (0 : Fin 1) j))
        + v13 (ValueIdx.ix2 (0 : Fin 1) (0 : Fin 1)) := by
  unfold k11_pay1
  rw [shapeCast_ab_1ab_apply, addf_apply, addf_apply, shapeCast_self, shapeCast_a_1a_apply, shapeCast_a_1a_apply,
    Cert.PayloadAt.laneSum_at, Cert.PayloadAt.laneSum_at]
  simp only [mulf_apply, shapeCast_1ab_ab_apply]

/-- A load of the first half of the weights reads column `j`, of the second half column `128 + j`. -/
theorem chunk11_ldW0 (x : Vec Ideal S1x256 .f32) (j : Fin 128) :
    View.ld x rW0 (ValueIdx.ix2 (0 : Fin 1) j) = x (ValueIdx.ix2 (0 : Fin 1) (Cert.Spec.lo j)) := by
  show x _ = x _
  refine congrArg x ?_
  funext ax
  apply Fin.ext
  match ax with
  | ⟨0, _⟩ => show 0 + 1 * 0 = 0; rfl
  | ⟨1, _⟩ => show 0 + 1 * j.val = j.val; omega
theorem chunk11_ldW1 (x : Vec Ideal S1x256 .f32) (j : Fin 128) :
    View.ld x rW1 (ValueIdx.ix2 (0 : Fin 1) j) = x (ValueIdx.ix2 (0 : Fin 1) (Cert.Spec.hi j)) := by
  show x _ = x _
  refine congrArg x ?_
  funext ax
  apply Fin.ext
  match ax with
  | ⟨0, _⟩ => show 0 + 1 * 0 = 0; rfl
  | ⟨1, _⟩ => show 128 + 1 * j.val = 128 + j.val; omega

/-- The output buffer's one cell after the body: row `x0` against the first 128 weights, row `x1` against the last
    128, plus the bias. -/
theorem out11_at (x0 x1 : Vec Ideal S1x1x128 .f32) (x2 : Vec Ideal S1x256 .f32) (x3 : Vec Ideal S1x1 .f32) :
    out11 x0 x1 x2 x3 (ValueIdx.ix3 (0 : Fin 1) (0 : Fin 1) (0 : Fin 1))
      = (∑ j : Fin 128, x0 (ValueIdx.ix3 (0 : Fin 1) (0 : Fin 1) j) * x2 (ValueIdx.ix2 (0 : Fin 1) (Cert.Spec.lo j)))
        + (∑ j : Fin 128, x1 (ValueIdx.ix3 (0 : Fin 1) (0 : Fin 1) j) * x2 (ValueIdx.ix2 (0 : Fin 1) (Cert.Spec.hi j)))
        + x3 (ValueIdx.ix2 (0 : Fin 1) (0 : Fin 1)) := by
  unfold out11
  rw [View.canon_unit_zero chunk11_hz3, chunk11_pay,
    View.ld_unit_zero (S := S1x1x128) chunk11_hz3, View.ld_unit_zero (S := S1x1x128) chunk11_hz3, View.ld_unit_zero (S := S1x1) chunk11_hz2]
  refine congrArg₂ (· + ·) (congrArg₂ (· + ·) (Finset.sum_congr rfl fun j _ => ?_) (Finset.sum_congr rfl fun j _ => ?_)) rfl
  · exact congrArg (fun z => x0 (ValueIdx.ix3 (0 : Fin 1) (0 : Fin 1) j) * z) (chunk11_ldW0 x2 j)
  · exact congrArg (fun z => x1 (ValueIdx.ix3 (0 : Fin 1) (0 : Fin 1) j) * z) (chunk11_ldW1 x2 j)

/-! ## From the blocks to the output array -/

section Array
variable {F : FTy → Type} [FloatOps F]
variable (V : (c : Dev nD) → (b : Ref sig .tc) → Buf (Elt F) ((c : Thread nD τ).loc b)) (a : (pcfg11 (F := F)).Adm)

/-- The output's block index moves at every point, so every point writes its block back. -/
theorem chunk11_flush (t : Fin (cfg11 a).N) : ((cfg11 a).win 4).flush t = true := by
  have hN : (cfg11 a).grid.N = 62500 := N_11
  have ht : t.val < 62500 := (chunk11_N a) ▸ t.isLt
  rw [Window.flush_out _ rfl]
  by_cases h : t.val + 1 = 62500
  · exact Or.inl (h.trans hN.symm)
  · refine Or.inr ⟨Nat.lt_of_lt_of_eq (by omega : t.val + 1 < 62500) hN.symm, fun e => ?_⟩
    have e0 := congrFun e (0 : Fin 3)
    rw [chunk11_idx4_0, chunk11_idx4_0] at e0
    exact absurd e0 (Nat.succ_ne_self _)

/-- Point `t`'s block is the one cell `(t, 0, 0)` of the output array. -/
theorem chunk11_mem (t : Fin (cfg11 a).N) (i : S62500x1x1.Idx) (hi : (i 0).val = t.val) :
    i ∈ (((cfg11 a).win 4).blk t).view.set := by
  have e : (((cfg11 a).win 4).blk t).view.emb (ValueIdx.ix3 (0 : Fin 1) (0 : Fin 1) (0 : Fin 1)) = i := by
    funext ax
    apply Fin.ext
    match ax with
    | ⟨0, _⟩ =>
      show ((cfg11 a).win 4).index t (0 : Fin 3) * 1 + 1 * 0 = (i 0).val
      rw [chunk11_idx4_0]; omega
    | ⟨1, _⟩ =>
      show ((cfg11 a).win 4).index t (1 : Fin 3) * 1 + 1 * 0 = (i 1).val
      have h : (i 1).val < 1 := (i 1).isLt
      rw [chunk11_idx4_1]; omega
    | ⟨2, _⟩ =>
      show ((cfg11 a).win 4).index t (2 : Fin 3) * 1 + 1 * 0 = (i 2).val
      have h : (i 2).val < 1 := (i 2).isLt
      rw [chunk11_idx4_2]; omega
  exact Finset.mem_map.mpr ⟨ValueIdx.ix3 (0 : Fin 1) (0 : Fin 1) (0 : Fin 1), Finset.mem_univ _, e⟩

/-- The score the body leaves at point `t`, as a term of the four input blocks there. -/
def chunk11_score (c : Dev nD) (t : Fin (cfg11 a).N) : Elt F .f32 :=
  out11 (iblk11 V a c 0 t) (iblk11 V a c 1 t) (iblk11 V a c 2 t) (iblk11 V a c 3 t) (ValueIdx.ix3 (0 : Fin 1) (0 : Fin 1) (0 : Fin 1))

/-- The whole output array the points write: at `(r, 0, 0)` point `r`'s score. -/
def chunk11_G (c : Dev nD) : S62500x1x1.Idx → Elt F .f32 :=
  fun i => chunk11_score V a c ⟨(i 0).val, (chunk11_N a).symm ▸ (i 0).isLt⟩

/-- What point `t` writes back is its block of that array. -/
theorem chunk11_flushed (c : Dev nD) (t : Fin (cfg11 a).N) :
    (dat11 V a c).flushed 4 t = (((cfg11 a).win 4).blk t).view.read (Elt F) (chunk11_G V a c) := by
  show ((cfg11 a).win 4).cut ((cfg11 a).grid.coords t) ((dat11 V a c).after 4 t) = _
  rw [after11_4]
  funext y
  show out11 (iblk11 V a c 0 t) (iblk11 V a c 1 t) (iblk11 V a c 2 t) (iblk11 V a c 3 t) (((cfg11 a).win 4).xinj ((cfg11 a).grid.coords t) y)
    = chunk11_G V a c ((((cfg11 a).win 4).blk t).view.emb y)
  refine (congrArg (out11 (iblk11 V a c 0 t) (iblk11 V a c 1 t) (iblk11 V a c 2 t) (iblk11 V a c 3 t)) (chunk11_cell _)).trans ?_
  show chunk11_score V a c t = chunk11_score V a c _
  refine congrArg (chunk11_score V a c) (Fin.ext ?_)
  show t.val = ((cfg11 a).win 4).index t (0 : Fin 3) * 1 + 1 * (y (0 : Fin 3)).val
  have h : (y (0 : Fin 3)).val < 1 := (y (0 : Fin 3)).isLt
  rw [chunk11_idx4_0]; omega

/-- The output array after the run, at `(t, 0, 0)`: point `t`'s score. -/
theorem chunk11_arr (c : Dev nD) (t : Fin (cfg11 a).N) (i : S62500x1x1.Idx) (hi : (i 0).val = t.val) :
    ((dat11 V a c).arrAt 4 (cfg11 a).N : S62500x1x1.Idx → Elt F .f32) i = chunk11_score V a c t := by
  refine ((dat11 V a c).arrAt_apply_of_mem 4 (chunk11_G V a c) (fun t _ => chunk11_flushed V a c t) (cfg11 a).N t i t.isLt
    (chunk11_flush a t) (chunk11_mem a t i hi)).trans ?_
  show chunk11_score V a c _ = chunk11_score V a c t
  exact congrArg (chunk11_score V a c) (Fin.ext hi)

end Array

/-! ## The output array at the exact-real instance -/

/-- The output array after region 11's pipeline, at edge `t`: the score of the two rows the tables name for `t` —
    at any buffers and any admissible contents of the tables; `h`, `W`, `b` name the feature, weight and bias arrays
    the region finds. -/
theorem chunk11_arr_at (V : (c : Dev nD) → (b : Ref sig .tc) → Buf (Elt Ideal) ((c : Thread nD τ).loc b))
    (a : (pcfg11 (F := Ideal)).Adm) (c : Dev nD) (t : Fin 62500) (rs rd : Fin 100000)
    (hrs : ((a.1 0 : S62500.Idx → BitVec 32) (ValueIdx.ix1 t)).toNat = rs.val)
    (hrd : ((a.1 1 : S62500.Idx → BitVec 32) (ValueIdx.ix1 t)).toNat = rd.val)
    (h : S100000x1x128.Idx → EReal) (W : S1x256.Idx → EReal) (b : S1x1.Idx → EReal)
    (hh : (V c main_v1 : S100000x1x128.Idx → EReal) = h) (hW : (V c main_arg3 : S1x256.Idx → EReal) = W)
    (hb : (V c main_v0 : S1x1.Idx → EReal) = b) :
    ((dat11 V a c).arrAt 4 (cfg11 a).N : S62500x1x1.Idx → EReal) (ValueIdx.ix3 t (0 : Fin 1) (0 : Fin 1))
      = (∑ j : Fin 128, h (ValueIdx.ix3 rs (0 : Fin 1) j) * W (ValueIdx.ix2 (0 : Fin 1) (Cert.Spec.lo j)))
        + (∑ j : Fin 128, h (ValueIdx.ix3 rd (0 : Fin 1) j) * W (ValueIdx.ix2 (0 : Fin 1) (Cert.Spec.hi j)))
        + b (ValueIdx.ix2 (0 : Fin 1) (0 : Fin 1)) := by
  have ht : t.val < (cfg11 a).N := (chunk11_N a).symm ▸ t.isLt
  refine (chunk11_arr V a c ⟨t.val, ht⟩ (ValueIdx.ix3 t (0 : Fin 1) (0 : Fin 1)) rfl).trans ?_
  unfold chunk11_score
  refine (out11_at (iblk11 V a c 0 ⟨t.val, ht⟩) (iblk11 V a c 1 ⟨t.val, ht⟩) (iblk11 V a c 2 ⟨t.val, ht⟩) (iblk11 V a c 3 ⟨t.val, ht⟩)).trans ?_
  refine congrArg₂ (· + ·) (congrArg₂ (· + ·) (Finset.sum_congr rfl fun j _ => ?_) (Finset.sum_congr rfl fun j _ => ?_)) ?_
  · exact congrArg₂ (· * ·)
      ((chunk11_blk0 V a c ⟨t.val, ht⟩ rs ((chunk11_idx0_0 a ⟨t.val, ht⟩ t rfl).trans hrs) j).trans (congrFun hh _))
      ((chunk11_blk2 V a c ⟨t.val, ht⟩ (Cert.Spec.lo j)).trans (congrFun hW _))
  · exact congrArg₂ (· * ·)
      ((chunk11_blk1 V a c ⟨t.val, ht⟩ rd ((chunk11_idx1_0 a ⟨t.val, ht⟩ t rfl).trans hrd) j).trans (congrFun hh _))
      ((chunk11_blk2 V a c ⟨t.val, ht⟩ (Cert.Spec.hi j)).trans (congrFun hW _))
  · exact (chunk11_blk3 V a c ⟨t.val, ht⟩).trans (congrFun hb _)

set_option maxHeartbeats 3200000 in
/-- Entry `t` of region 11's output chunk is edge `t`'s score, computed from the rows the two tables name: `rs` and `rd`
    are entry `t` of the two tables, and `h`, `W`, `b` the feature, weight and bias arrays as the region finds them. -/
theorem chunk11_at (m : (ℓ : Loc nD τ sig) → Buf (Elt Ideal) ℓ) (hO : Oks m) (c : Dev nD) (t : Fin 62500) (rs rd : Fin 100000)
    (hrs : ((tbl11 m 0 : S62500.Idx → BitVec 32) (ValueIdx.ix1 t)).toNat = rs.val)
    (hrd : ((tbl11 m 1 : S62500.Idx → BitVec 32) (ValueIdx.ix1 t)).toNat = rd.val)
    (h : S100000x1x128.Idx → EReal) (W : S1x256.Idx → EReal) (b : S1x1.Idx → EReal)
    (hh : (Ve11 m c main_v1 : S100000x1x128.Idx → EReal) = h) (hW : (Ve11 m c main_arg3 : S1x256.Idx → EReal) = W)
    (hb : (Ve11 m c main_v0 : S1x1.Idx → EReal) = b) :
    (chunk11 m hO c : S62500x1x1.Idx → EReal) (ValueIdx.ix3 t (0 : Fin 1) (0 : Fin 1))
      = (∑ j : Fin 128, h (ValueIdx.ix3 rs (0 : Fin 1) j) * W (ValueIdx.ix2 (0 : Fin 1) (Cert.Spec.lo j)))
        + (∑ j : Fin 128, h (ValueIdx.ix3 rd (0 : Fin 1) j) * W (ValueIdx.ix2 (0 : Fin 1) (Cert.Spec.hi j)))
        + b (ValueIdx.ix2 (0 : Fin 1) (0 : Fin 1)) := by
  have key := fun (hok : ok11 (F := Ideal) (tbl11 m)) =>
    chunk11_arr_at (Ve11 m) ⟨tbl11 m, hok⟩ c t rs rd hrs hrd h W b hh hW hb
  unfold chunk11
  exact key _

end Cert.KernelIdeal.Hand
end
-- ==== Proof.KIValue12.lean ====
/-
  Region 12's output chunk, entry by entry, at the exact-real instance.

  The region's pipeline has 62500 points, one per edge of its chunk. At point `t` the output window's block is the single
  cell `(t, 0, 0)` of the output array; the two gathered windows' blocks are rows `src t` and `dst t` of the feature
  array, `src t` and `dst t` being entry `t` of the two index tables read as natural numbers; the weight window's and the
  bias window's blocks are the whole arrays. The body leaves in the output block the score of the two rows,
    (∑ j < 128, h[src t, j] · W[0, j]) + (∑ j < 128, h[dst t, j] · W[0, 128 + j]) + b[0, 0].
  Every point writes its block back (the output's block index moves at every point) and point `t`'s block covers index
  `(t, 0, 0)`, so after the run the output array holds at `(t, 0, 0)` the score of point `t`. Every fact about the
  pipeline is proved with the tables' contents a variable; the region's own tables are put in last.
-/
import proofs.«405368_j31662498906597_2_alg».proof.Proof.KIFamily
import proofs.«405368_j31662498906597_2_alg».proof.Proof.PayloadAt
import proofs.«405368_j31662498906597_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

/-! ## The grid and the index maps, at any contents of the two tables -/

section Generic
variable {F : FTy → Type} [FloatOps F]
variable (V : (c : Dev nD) → (b : Ref sig .tc) → Buf (Elt F) ((c : Thread nD τ).loc b)) (a : (pcfg12 (F := F)).Adm)

/-- The grid has one axis of 62500 points, -/
theorem chunk12_N : (cfg12 a).N = 62500 := N_12

/-- consecutive points are consecutive along it, -/
theorem chunk12_stride : (cfg12 a).grid.stride 0 = 1 := (by decide : grid12.stride 0 = 1)

/-- so point `t`'s one coordinate is `t`. -/
theorem chunk12_coords (t : Fin (cfg12 a).N) : ((cfg12 a).grid.coords t 0).val = t.val := by
  have ht : t.val < 62500 := (chunk12_N a) ▸ t.isLt
  show t.val / (cfg12 a).grid.stride 0 % 62500 = t.val
  rw [chunk12_stride a, Nat.div_one, Nat.mod_eq_of_lt ht]

/-- The output window's block index at point `t` is `(t, 0, 0)`. -/
theorem chunk12_idx4_0 (t : Fin (cfg12 a).N) : ((cfg12 a).win 4).index t (0 : Fin 3) = t.val := by
  have ht : t.val < 62500 := (chunk12_N a) ▸ t.isLt
  show (BitVec.ofNat 32 ((cfg12 a).grid.coords t 0).val).toNat = t.val
  rw [chunk12_coords, BitVec.toNat_ofNat]
  omega
theorem chunk12_idx4_1 (t : Fin (cfg12 a).N) : ((cfg12 a).win 4).index t (1 : Fin 3) = 0 := rfl
theorem chunk12_idx4_2 (t : Fin (cfg12 a).N) : ((cfg12 a).win 4).index t (2 : Fin 3) = 0 := rfl

/-- The source window's block index at point `t` is `(src t, 0, 0)`, `src t` the first table's entry `t` read as a natural number, -/
theorem chunk12_idx0_0 (t : Fin (cfg12 a).N) (e : Fin 62500) (he : e.val = t.val) :
    ((cfg12 a).win 0).index t (0 : Fin 3) = ((a.1 0 : S62500.Idx → BitVec 32) (ValueIdx.ix1 e)).toNat := by
  have ht : t.val < 62500 := (chunk12_N a) ▸ t.isLt
  show ((a.1 0 : S62500.Idx → BitVec 32) _).toNat = _
  refine congrArg (fun i => ((a.1 0 : S62500.Idx → BitVec 32) i).toNat) ?_
  funext ax
  apply Fin.ext
  match ax with
  | ⟨0, _⟩ =>
    show (Scalar.indexCast (BitVec.ofNat 32 ((cfg12 a).grid.coords t 0).val)).toNat + 1 * 0 = e.val
    rw [chunk12_coords, he]
    show (BitVec.ofNat 32 t.val).toNat + 1 * 0 = t.val
    rw [BitVec.toNat_ofNat]
    omega
theorem chunk12_idx0_1 (t : Fin (cfg12 a).N) : ((cfg12 a).win 0).index t (1 : Fin 3) = 0 := rfl
theorem chunk12_idx0_2 (t : Fin (cfg12 a).N) : ((cfg12 a).win 0).index t (2 : Fin 3) = 0 := rfl

/-- and the destination window's is `(dst t, 0, 0)`, from the second table. -/
theorem chunk12_idx1_0 (t : Fin (cfg12 a).N) (e : Fin 62500) (he : e.val = t.val) :
    ((cfg12 a).win 1).index t (0 : Fin 3) = ((a.1 1 : S62500.Idx → BitVec 32) (ValueIdx.ix1 e)).toNat := by
  have ht : t.val < 62500 := (chunk12_N a) ▸ t.isLt
  show ((a.1 1 : S62500.Idx → BitVec 32) _).toNat = _
  refine congrArg (fun i => ((a.1 1 : S62500.Idx → BitVec 32) i).toNat) ?_
  funext ax
  apply Fin.ext
  match ax with
  | ⟨0, _⟩ =>
    show (Scalar.indexCast (BitVec.ofNat 32 ((cfg12 a).grid.coords t 0).val)).toNat + 1 * 0 = e.val
    rw [chunk12_coords, he]
    show (BitVec.ofNat 32 t.val).toNat + 1 * 0 = t.val
    rw [BitVec.toNat_ofNat]
    omega
theorem chunk12_idx1_1 (t : Fin (cfg12 a).N) : ((cfg12 a).win 1).index t (1 : Fin 3) = 0 := rfl
theorem chunk12_idx1_2 (t : Fin (cfg12 a).N) : ((cfg12 a).win 1).index t (2 : Fin 3) = 0 := rfl

end Generic

/-! ## The five blocks at a point, read where the arrays are -/

section Blocks
variable {F : FTy → Type} [FloatOps F]
variable (V : (c : Dev nD) → (b : Ref sig .tc) → Buf (Elt F) ((c : Thread nD τ).loc b)) (a : (pcfg12 (F := F)).Adm)

/-- The source window's block at point `t` is row `rs` of the feature array when its block index there is `rs`. -/
theorem chunk12_blk0 (c : Dev nD) (t : Fin (cfg12 a).N) (rs : Fin 100000)
    (hrs : ((cfg12 a).win 0).index t (0 : Fin 3) = rs.val) (j : Fin 128) :
    (iblk12 V a c 0 t : Vec F S1x1x128 .f32) (ValueIdx.ix3 (0 : Fin 1) (0 : Fin 1) j)
      = (V c main_v1 : S100000x1x128.Idx → Elt F .f32) (ValueIdx.ix3 rs (0 : Fin 1) j) := by
  show V c main_v1 ((((cfg12 a).win 0).blk t).view.emb (ValueIdx.ix3 (0 : Fin 1) (0 : Fin 1) j)) = V c main_v1 (ValueIdx.ix3 rs (0 : Fin 1) j)
  refine congrArg (V c main_v1) ?_
  funext ax
  apply Fin.ext
  match ax with
  | ⟨0, _⟩ => show ((cfg12 a).win 0).index t (0 : Fin 3) * 1 + 1 * 0 = rs.val; rw [hrs]; omega
  | ⟨1, _⟩ => show ((cfg12 a).win 0).index t (1 : Fin 3) * 1 + 1 * 0 = 0; rw [chunk12_idx0_1]
  | ⟨2, _⟩ => show ((cfg12 a).win 0).index t (2 : Fin 3) * 128 + 1 * j.val = j.val; rw [chunk12_idx0_2]; omega

/-- The destination window's block likewise, at its own block index. -/
theorem chunk12_blk1 (c : Dev nD) (t : Fin (cfg12 a).N) (rd : Fin 100000)
    (hrd : ((cfg12 a).win 1).index t (0 : Fin 3) = rd.val) (j : Fin 128) :
    (iblk12 V a c 1 t : Vec F S1x1x128 .f32) (ValueIdx.ix3 (0 : Fin 1) (0 : Fin 1) j)
      = (V c main_v1 : S100000x1x128.Idx → Elt F .f32) (ValueIdx.ix3 rd (0 : Fin 1) j) := by
  show V c main_v1 ((((cfg12 a).win 1).blk t).view.emb (ValueIdx.ix3 (0 : Fin 1) (0 : Fin 1) j)) = V c main_v1 (ValueIdx.ix3 rd (0 : Fin 1) j)
  refine congrArg (V c main_v1) ?_
  funext ax
  apply Fin.ext
  match ax with
  | ⟨0, _⟩ => show ((cfg12 a).win 1).index t (0 : Fin 3) * 1 + 1 * 0 = rd.val; rw [hrd]; omega
  | ⟨1, _⟩ => show ((cfg12 a).win 1).index t (1 : Fin 3) * 1 + 1 * 0 = 0; rw [chunk12_idx1_1]
  | ⟨2, _⟩ => show ((cfg12 a).win 1).index t (2 : Fin 3) * 128 + 1 * j.val = j.val; rw [chunk12_idx1_2]; omega

/-- The weights' block is the whole weight array, -/
theorem chunk12_blk2 (c : Dev nD) (t : Fin (cfg12 a).N) (k : Fin 256) :
    (iblk12 V a c 2 t : Vec F S1x256 .f32) (ValueIdx.ix2 (0 : Fin 1) k)
      = (V c main_arg3 : S1x256.Idx → Elt F .f32) (ValueIdx.ix2 (0 : Fin 1) k) := by
  show V c main_arg3 ((((cfg12 a).win 2).blk t).view.emb (ValueIdx.ix2 (0 : Fin 1) k)) = V c main_arg3 (ValueIdx.ix2 (0 : Fin 1) k)
  refine congrArg (V c main_arg3) ?_
  funext ax
  apply Fin.ext
  match ax with
  | ⟨0, _⟩ => show ((cfg12 a).win 2).index t (0 : Fin 2) * 1 + 1 * 0 = 0; rfl
  | ⟨1, _⟩ => show ((cfg12 a).win 2).index t (1 : Fin 2) * 256 + 1 * k.val = k.val; rw [show ((cfg12 a).win 2).index t (1 : Fin 2) = 0 from rfl]; omega

/-- and the bias's block the whole bias array. -/
theorem chunk12_blk3 (c : Dev nD) (t : Fin (cfg12 a).N) :
    (iblk12 V a c 3 t : Vec F S1x1 .f32) (ValueIdx.ix2 (0 : Fin 1) (0 : Fin 1))
      = (V c main_v0 : S1x1.Idx → Elt F .f32) (ValueIdx.ix2 (0 : Fin 1) (0 : Fin 1)) := by
  show V c main_v0 ((((cfg12 a).win 3).blk t).view.emb (ValueIdx.ix2 (0 : Fin 1) (0 : Fin 1))) = V c main_v0 (ValueIdx.ix2 (0 : Fin 1) (0 : Fin 1))
  refine congrArg (V c main_v0) ?_
  funext ax
  apply Fin.ext
  match ax with
  | ⟨0, _⟩ => show ((cfg12 a).win 3).index t (0 : Fin 2) * 1 + 1 * 0 = 0; rfl
  | ⟨1, _⟩ => show ((cfg12 a).win 3).index t (1 : Fin 2) * 1 + 1 * 0 = 0; rfl

end Blocks

/-! ## The score the body stores, from its four input buffers -/

theorem chunk12_hz3 : (![0, 0, 0] : Fin 3 → Nat) = fun _ => 0 := funext fun ax => by fin_cases ax <;> rfl
theorem chunk12_hz2 : (![0, 0] : Fin 2 → Nat) = fun _ => 0 := funext fun ax => by fin_cases ax <;> rfl

/-- A one-cell block has the one index. -/
theorem chunk12_cell (y : S1x1x1.Idx) : y = ValueIdx.ix3 (0 : Fin 1) (0 : Fin 1) (0 : Fin 1) := by
  funext ax
  apply Fin.ext
  match ax with
  | ⟨0, _⟩ => show (y 0).val = 0; have h : (y 0).val < 1 := (y 0).isLt; omega
  | ⟨1, _⟩ => show (y 1).val = 0; have h : (y 1).val < 1 := (y 1).isLt; omega
  | ⟨2, _⟩ => show (y 2).val = 0; have h : (y 2).val < 1 := (y 2).isLt; omega

/-- The stored value at its one index: the two 128-term sums of entrywise products plus the last operand's entry
    (a lane sum over a one-row block is the sum of the row's entries). -/
theorem chunk12_pay (v0 v1 : Vec Ideal S1x128 .f32) (v2 v7 : Vec Ideal S1x1x128 .f32) (v13 : Vec Ideal S1x1 .f32) :
    k12_pay1 (F := Ideal) v0 v1 v2 v7 v13 (ValueIdx.ix3 (0 : Fin 1) (0 : Fin 1) (0 : Fin 1))
      = (∑ j : Fin 128, v2 (ValueIdx.ix3 (0 : Fin 1) (0 : Fin 1) j) * v0 (ValueIdx.ix2 (0 : Fin 1) j))
        + (∑ j : Fin 128, v7 (ValueIdx.ix3 (0 : Fin 1) (0 : Fin 1) j) * v1 (ValueIdx.ix2 (0 : Fin 1) j))
        + v13 (ValueIdx.ix2 (0 : Fin 1) (0 : Fin 1)) := by
  unfold k12_pay1
  rw [shapeCast_ab_1ab_apply, addf_apply, addf_apply, shapeCast_self, shapeCast_a_1a_apply, shapeCast_a_1a_apply,
    Cert.PayloadAt.laneSum_at, Cert.PayloadAt.laneSum_at]
  simp only [mulf_apply, shapeCast_1ab_ab_apply]

/-- A load of the first half of the weights reads column `j`, of the second half column `128 + j`. -/
theorem chunk12_ldW0 (x : Vec Ideal S1x256 .f32) (j : Fin 128) :
    View.ld x rW0 (ValueIdx.ix2 (0 : Fin 1) j) = x (ValueIdx.ix2 (0 : Fin 1) (Cert.Spec.lo j)) := by
  show x _ = x _
  refine congrArg x ?_
  funext ax
  apply Fin.ext
  match ax with
  | ⟨0, _⟩ => show 0 + 1 * 0 = 0; rfl
  | ⟨1, _⟩ => show 0 + 1 * j.val = j.val; omega
theorem chunk12_ldW1 (x : Vec Ideal S1x256 .f32) (j : Fin 128) :
    View.ld x rW1 (ValueIdx.ix2 (0 : Fin 1) j) = x (ValueIdx.ix2 (0 : Fin 1) (Cert.Spec.hi j)) := by
  show x _ = x _
  refine congrArg x ?_
  funext ax
  apply Fin.ext
  match ax with
  | ⟨0, _⟩ => show 0 + 1 * 0 = 0; rfl
  | ⟨1, _⟩ => show 128 + 1 * j.val = 128 + j.val; omega

/-- The output buffer's one cell after the body: row `x0` against the first 128 weights, row `x1` against the last
    128, plus the bias. -/
theorem out12_at (x0 x1 : Vec Ideal S1x1x128 .f32) (x2 : Vec Ideal S1x256 .f32) (x3 : Vec Ideal S1x1 .f32) :
    out12 x0 x1 x2 x3 (ValueIdx.ix3 (0 : Fin 1) (0 : Fin 1) (0 : Fin 1))
      = (∑ j : Fin 128, x0 (ValueIdx.ix3 (0 : Fin 1) (0 : Fin 1) j) * x2 (ValueIdx.ix2 (0 : Fin 1) (Cert.Spec.lo j)))
        + (∑ j : Fin 128, x1 (ValueIdx.ix3 (0 : Fin 1) (0 : Fin 1) j) * x2 (ValueIdx.ix2 (0 : Fin 1) (Cert.Spec.hi j)))
        + x3 (ValueIdx.ix2 (0 : Fin 1) (0 : Fin 1)) := by
  unfold out12
  rw [View.canon_unit_zero chunk12_hz3, chunk12_pay,
    View.ld_unit_zero (S := S1x1x128) chunk12_hz3, View.ld_unit_zero (S := S1x1x128) chunk12_hz3, View.ld_unit_zero (S := S1x1) chunk12_hz2]
  refine congrArg₂ (· + ·) (congrArg₂ (· + ·) (Finset.sum_congr rfl fun j _ => ?_) (Finset.sum_congr rfl fun j _ => ?_)) rfl
  · exact congrArg (fun z => x0 (ValueIdx.ix3 (0 : Fin 1) (0 : Fin 1) j) * z) (chunk12_ldW0 x2 j)
  · exact congrArg (fun z => x1 (ValueIdx.ix3 (0 : Fin 1) (0 : Fin 1) j) * z) (chunk12_ldW1 x2 j)

/-! ## From the blocks to the output array -/

section Array
variable {F : FTy → Type} [FloatOps F]
variable (V : (c : Dev nD) → (b : Ref sig .tc) → Buf (Elt F) ((c : Thread nD τ).loc b)) (a : (pcfg12 (F := F)).Adm)

/-- The output's block index moves at every point, so every point writes its block back. -/
theorem chunk12_flush (t : Fin (cfg12 a).N) : ((cfg12 a).win 4).flush t = true := by
  have hN : (cfg12 a).grid.N = 62500 := N_12
  have ht : t.val < 62500 := (chunk12_N a) ▸ t.isLt
  rw [Window.flush_out _ rfl]
  by_cases h : t.val + 1 = 62500
  · exact Or.inl (h.trans hN.symm)
  · refine Or.inr ⟨Nat.lt_of_lt_of_eq (by omega : t.val + 1 < 62500) hN.symm, fun e => ?_⟩
    have e0 := congrFun e (0 : Fin 3)
    rw [chunk12_idx4_0, chunk12_idx4_0] at e0
    exact absurd e0 (Nat.succ_ne_self _)

/-- Point `t`'s block is the one cell `(t, 0, 0)` of the output array. -/
theorem chunk12_mem (t : Fin (cfg12 a).N) (i : S62500x1x1.Idx) (hi : (i 0).val = t.val) :
    i ∈ (((cfg12 a).win 4).blk t).view.set := by
  have e : (((cfg12 a).win 4).blk t).view.emb (ValueIdx.ix3 (0 : Fin 1) (0 : Fin 1) (0 : Fin 1)) = i := by
    funext ax
    apply Fin.ext
    match ax with
    | ⟨0, _⟩ =>
      show ((cfg12 a).win 4).index t (0 : Fin 3) * 1 + 1 * 0 = (i 0).val
      rw [chunk12_idx4_0]; omega
    | ⟨1, _⟩ =>
      show ((cfg12 a).win 4).index t (1 : Fin 3) * 1 + 1 * 0 = (i 1).val
      have h : (i 1).val < 1 := (i 1).isLt
      rw [chunk12_idx4_1]; omega
    | ⟨2, _⟩ =>
      show ((cfg12 a).win 4).index t (2 : Fin 3) * 1 + 1 * 0 = (i 2).val
      have h : (i 2).val < 1 := (i 2).isLt
      rw [chunk12_idx4_2]; omega
  exact Finset.mem_map.mpr ⟨ValueIdx.ix3 (0 : Fin 1) (0 : Fin 1) (0 : Fin 1), Finset.mem_univ _, e⟩

/-- The score the body leaves at point `t`, as a term of the four input blocks there. -/
def chunk12_score (c : Dev nD) (t : Fin (cfg12 a).N) : Elt F .f32 :=
  out12 (iblk12 V a c 0 t) (iblk12 V a c 1 t) (iblk12 V a c 2 t) (iblk12 V a c 3 t) (ValueIdx.ix3 (0 : Fin 1) (0 : Fin 1) (0 : Fin 1))

/-- The whole output array the points write: at `(r, 0, 0)` point `r`'s score. -/
def chunk12_G (c : Dev nD) : S62500x1x1.Idx → Elt F .f32 :=
  fun i => chunk12_score V a c ⟨(i 0).val, (chunk12_N a).symm ▸ (i 0).isLt⟩

/-- What point `t` writes back is its block of that array. -/
theorem chunk12_flushed (c : Dev nD) (t : Fin (cfg12 a).N) :
    (dat12 V a c).flushed 4 t = (((cfg12 a).win 4).blk t).view.read (Elt F) (chunk12_G V a c) := by
  show ((cfg12 a).win 4).cut ((cfg12 a).grid.coords t) ((dat12 V a c).after 4 t) = _
  rw [after12_4]
  funext y
  show out12 (iblk12 V a c 0 t) (iblk12 V a c 1 t) (iblk12 V a c 2 t) (iblk12 V a c 3 t) (((cfg12 a).win 4).xinj ((cfg12 a).grid.coords t) y)
    = chunk12_G V a c ((((cfg12 a).win 4).blk t).view.emb y)
  refine (congrArg (out12 (iblk12 V a c 0 t) (iblk12 V a c 1 t) (iblk12 V a c 2 t) (iblk12 V a c 3 t)) (chunk12_cell _)).trans ?_
  show chunk12_score V a c t = chunk12_score V a c _
  refine congrArg (chunk12_score V a c) (Fin.ext ?_)
  show t.val = ((cfg12 a).win 4).index t (0 : Fin 3) * 1 + 1 * (y (0 : Fin 3)).val
  have h : (y (0 : Fin 3)).val < 1 := (y (0 : Fin 3)).isLt
  rw [chunk12_idx4_0]; omega

/-- The output array after the run, at `(t, 0, 0)`: point `t`'s score. -/
theorem chunk12_arr (c : Dev nD) (t : Fin (cfg12 a).N) (i : S62500x1x1.Idx) (hi : (i 0).val = t.val) :
    ((dat12 V a c).arrAt 4 (cfg12 a).N : S62500x1x1.Idx → Elt F .f32) i = chunk12_score V a c t := by
  refine ((dat12 V a c).arrAt_apply_of_mem 4 (chunk12_G V a c) (fun t _ => chunk12_flushed V a c t) (cfg12 a).N t i t.isLt
    (chunk12_flush a t) (chunk12_mem a t i hi)).trans ?_
  show chunk12_score V a c _ = chunk12_score V a c t
  exact congrArg (chunk12_score V a c) (Fin.ext hi)

end Array

/-! ## The output array at the exact-real instance -/

/-- The output array after region 12's pipeline, at edge `t`: the score of the two rows the tables name for `t` —
    at any buffers and any admissible contents of the tables; `h`, `W`, `b` name the feature, weight and bias arrays
    the region finds. -/
theorem chunk12_arr_at (V : (c : Dev nD) → (b : Ref sig .tc) → Buf (Elt Ideal) ((c : Thread nD τ).loc b))
    (a : (pcfg12 (F := Ideal)).Adm) (c : Dev nD) (t : Fin 62500) (rs rd : Fin 100000)
    (hrs : ((a.1 0 : S62500.Idx → BitVec 32) (ValueIdx.ix1 t)).toNat = rs.val)
    (hrd : ((a.1 1 : S62500.Idx → BitVec 32) (ValueIdx.ix1 t)).toNat = rd.val)
    (h : S100000x1x128.Idx → EReal) (W : S1x256.Idx → EReal) (b : S1x1.Idx → EReal)
    (hh : (V c main_v1 : S100000x1x128.Idx → EReal) = h) (hW : (V c main_arg3 : S1x256.Idx → EReal) = W)
    (hb : (V c main_v0 : S1x1.Idx → EReal) = b) :
    ((dat12 V a c).arrAt 4 (cfg12 a).N : S62500x1x1.Idx → EReal) (ValueIdx.ix3 t (0 : Fin 1) (0 : Fin 1))
      = (∑ j : Fin 128, h (ValueIdx.ix3 rs (0 : Fin 1) j) * W (ValueIdx.ix2 (0 : Fin 1) (Cert.Spec.lo j)))
        + (∑ j : Fin 128, h (ValueIdx.ix3 rd (0 : Fin 1) j) * W (ValueIdx.ix2 (0 : Fin 1) (Cert.Spec.hi j)))
        + b (ValueIdx.ix2 (0 : Fin 1) (0 : Fin 1)) := by
  have ht : t.val < (cfg12 a).N := (chunk12_N a).symm ▸ t.isLt
  refine (chunk12_arr V a c ⟨t.val, ht⟩ (ValueIdx.ix3 t (0 : Fin 1) (0 : Fin 1)) rfl).trans ?_
  unfold chunk12_score
  refine (out12_at (iblk12 V a c 0 ⟨t.val, ht⟩) (iblk12 V a c 1 ⟨t.val, ht⟩) (iblk12 V a c 2 ⟨t.val, ht⟩) (iblk12 V a c 3 ⟨t.val, ht⟩)).trans ?_
  refine congrArg₂ (· + ·) (congrArg₂ (· + ·) (Finset.sum_congr rfl fun j _ => ?_) (Finset.sum_congr rfl fun j _ => ?_)) ?_
  · exact congrArg₂ (· * ·)
      ((chunk12_blk0 V a c ⟨t.val, ht⟩ rs ((chunk12_idx0_0 a ⟨t.val, ht⟩ t rfl).trans hrs) j).trans (congrFun hh _))
      ((chunk12_blk2 V a c ⟨t.val, ht⟩ (Cert.Spec.lo j)).trans (congrFun hW _))
  · exact congrArg₂ (· * ·)
      ((chunk12_blk1 V a c ⟨t.val, ht⟩ rd ((chunk12_idx1_0 a ⟨t.val, ht⟩ t rfl).trans hrd) j).trans (congrFun hh _))
      ((chunk12_blk2 V a c ⟨t.val, ht⟩ (Cert.Spec.hi j)).trans (congrFun hW _))
  · exact (chunk12_blk3 V a c ⟨t.val, ht⟩).trans (congrFun hb _)

set_option maxHeartbeats 3200000 in
/-- Entry `t` of region 12's output chunk is edge `t`'s score, computed from the rows the two tables name: `rs` and `rd`
    are entry `t` of the two tables, and `h`, `W`, `b` the feature, weight and bias arrays as the region finds them. -/
theorem chunk12_at (m : (ℓ : Loc nD τ sig) → Buf (Elt Ideal) ℓ) (hO : Oks m) (c : Dev nD) (t : Fin 62500) (rs rd : Fin 100000)
    (hrs : ((tbl12 m 0 : S62500.Idx → BitVec 32) (ValueIdx.ix1 t)).toNat = rs.val)
    (hrd : ((tbl12 m 1 : S62500.Idx → BitVec 32) (ValueIdx.ix1 t)).toNat = rd.val)
    (h : S100000x1x128.Idx → EReal) (W : S1x256.Idx → EReal) (b : S1x1.Idx → EReal)
    (hh : (Ve12 m c main_v1 : S100000x1x128.Idx → EReal) = h) (hW : (Ve12 m c main_arg3 : S1x256.Idx → EReal) = W)
    (hb : (Ve12 m c main_v0 : S1x1.Idx → EReal) = b) :
    (chunk12 m hO c : S62500x1x1.Idx → EReal) (ValueIdx.ix3 t (0 : Fin 1) (0 : Fin 1))
      = (∑ j : Fin 128, h (ValueIdx.ix3 rs (0 : Fin 1) j) * W (ValueIdx.ix2 (0 : Fin 1) (Cert.Spec.lo j)))
        + (∑ j : Fin 128, h (ValueIdx.ix3 rd (0 : Fin 1) j) * W (ValueIdx.ix2 (0 : Fin 1) (Cert.Spec.hi j)))
        + b (ValueIdx.ix2 (0 : Fin 1) (0 : Fin 1)) := by
  have key := fun (hok : ok12 (F := Ideal) (tbl12 m)) =>
    chunk12_arr_at (Ve12 m) ⟨tbl12 m, hok⟩ c t rs rd hrs hrd h W b hh hW hb
  unfold chunk12
  exact key _

end Cert.KernelIdeal.Hand
end
-- ==== Proof.KIValue13.lean ====
/-
  Region 13's output chunk, entry by entry, at the exact-real instance.

  The region's pipeline has 62500 points, one per edge of its chunk. At point `t` the output window's block is the single
  cell `(t, 0, 0)` of the output array; the two gathered windows' blocks are rows `src t` and `dst t` of the feature
  array, `src t` and `dst t` being entry `t` of the two index tables read as natural numbers; the weight window's and the
  bias window's blocks are the whole arrays. The body leaves in the output block the score of the two rows,
    (∑ j < 128, h[src t, j] · W[0, j]) + (∑ j < 128, h[dst t, j] · W[0, 128 + j]) + b[0, 0].
  Every point writes its block back (the output's block index moves at every point) and point `t`'s block covers index
  `(t, 0, 0)`, so after the run the output array holds at `(t, 0, 0)` the score of point `t`. Every fact about the
  pipeline is proved with the tables' contents a variable; the region's own tables are put in last.
-/
import proofs.«405368_j31662498906597_2_alg».proof.Proof.KIFamily
import proofs.«405368_j31662498906597_2_alg».proof.Proof.PayloadAt
import proofs.«405368_j31662498906597_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

/-! ## The grid and the index maps, at any contents of the two tables -/

section Generic
variable {F : FTy → Type} [FloatOps F]
variable (V : (c : Dev nD) → (b : Ref sig .tc) → Buf (Elt F) ((c : Thread nD τ).loc b)) (a : (pcfg13 (F := F)).Adm)

/-- The grid has one axis of 62500 points, -/
theorem chunk13_N : (cfg13 a).N = 62500 := N_13

/-- consecutive points are consecutive along it, -/
theorem chunk13_stride : (cfg13 a).grid.stride 0 = 1 := (by decide : grid13.stride 0 = 1)

/-- so point `t`'s one coordinate is `t`. -/
theorem chunk13_coords (t : Fin (cfg13 a).N) : ((cfg13 a).grid.coords t 0).val = t.val := by
  have ht : t.val < 62500 := (chunk13_N a) ▸ t.isLt
  show t.val / (cfg13 a).grid.stride 0 % 62500 = t.val
  rw [chunk13_stride a, Nat.div_one, Nat.mod_eq_of_lt ht]

/-- The output window's block index at point `t` is `(t, 0, 0)`. -/
theorem chunk13_idx4_0 (t : Fin (cfg13 a).N) : ((cfg13 a).win 4).index t (0 : Fin 3) = t.val := by
  have ht : t.val < 62500 := (chunk13_N a) ▸ t.isLt
  show (BitVec.ofNat 32 ((cfg13 a).grid.coords t 0).val).toNat = t.val
  rw [chunk13_coords, BitVec.toNat_ofNat]
  omega
theorem chunk13_idx4_1 (t : Fin (cfg13 a).N) : ((cfg13 a).win 4).index t (1 : Fin 3) = 0 := rfl
theorem chunk13_idx4_2 (t : Fin (cfg13 a).N) : ((cfg13 a).win 4).index t (2 : Fin 3) = 0 := rfl

/-- The source window's block index at point `t` is `(src t, 0, 0)`, `src t` the first table's entry `t` read as a natural number, -/
theorem chunk13_idx0_0 (t : Fin (cfg13 a).N) (e : Fin 62500) (he : e.val = t.val) :
    ((cfg13 a).win 0).index t (0 : Fin 3) = ((a.1 0 : S62500.Idx → BitVec 32) (ValueIdx.ix1 e)).toNat := by
  have ht : t.val < 62500 := (chunk13_N a) ▸ t.isLt
  show ((a.1 0 : S62500.Idx → BitVec 32) _).toNat = _
  refine congrArg (fun i => ((a.1 0 : S62500.Idx → BitVec 32) i).toNat) ?_
  funext ax
  apply Fin.ext
  match ax with
  | ⟨0, _⟩ =>
    show (Scalar.indexCast (BitVec.ofNat 32 ((cfg13 a).grid.coords t 0).val)).toNat + 1 * 0 = e.val
    rw [chunk13_coords, he]
    show (BitVec.ofNat 32 t.val).toNat + 1 * 0 = t.val
    rw [BitVec.toNat_ofNat]
    omega
theorem chunk13_idx0_1 (t : Fin (cfg13 a).N) : ((cfg13 a).win 0).index t (1 : Fin 3) = 0 := rfl
theorem chunk13_idx0_2 (t : Fin (cfg13 a).N) : ((cfg13 a).win 0).index t (2 : Fin 3) = 0 := rfl

/-- and the destination window's is `(dst t, 0, 0)`, from the second table. -/
theorem chunk13_idx1_0 (t : Fin (cfg13 a).N) (e : Fin 62500) (he : e.val = t.val) :
    ((cfg13 a).win 1).index t (0 : Fin 3) = ((a.1 1 : S62500.Idx → BitVec 32) (ValueIdx.ix1 e)).toNat := by
  have ht : t.val < 62500 := (chunk13_N a) ▸ t.isLt
  show ((a.1 1 : S62500.Idx → BitVec 32) _).toNat = _
  refine congrArg (fun i => ((a.1 1 : S62500.Idx → BitVec 32) i).toNat) ?_
  funext ax
  apply Fin.ext
  match ax with
  | ⟨0, _⟩ =>
    show (Scalar.indexCast (BitVec.ofNat 32 ((cfg13 a).grid.coords t 0).val)).toNat + 1 * 0 = e.val
    rw [chunk13_coords, he]
    show (BitVec.ofNat 32 t.val).toNat + 1 * 0 = t.val
    rw [BitVec.toNat_ofNat]
    omega
theorem chunk13_idx1_1 (t : Fin (cfg13 a).N) : ((cfg13 a).win 1).index t (1 : Fin 3) = 0 := rfl
theorem chunk13_idx1_2 (t : Fin (cfg13 a).N) : ((cfg13 a).win 1).index t (2 : Fin 3) = 0 := rfl

end Generic

/-! ## The five blocks at a point, read where the arrays are -/

section Blocks
variable {F : FTy → Type} [FloatOps F]
variable (V : (c : Dev nD) → (b : Ref sig .tc) → Buf (Elt F) ((c : Thread nD τ).loc b)) (a : (pcfg13 (F := F)).Adm)

/-- The source window's block at point `t` is row `rs` of the feature array when its block index there is `rs`. -/
theorem chunk13_blk0 (c : Dev nD) (t : Fin (cfg13 a).N) (rs : Fin 100000)
    (hrs : ((cfg13 a).win 0).index t (0 : Fin 3) = rs.val) (j : Fin 128) :
    (iblk13 V a c 0 t : Vec F S1x1x128 .f32) (ValueIdx.ix3 (0 : Fin 1) (0 : Fin 1) j)
      = (V c main_v1 : S100000x1x128.Idx → Elt F .f32) (ValueIdx.ix3 rs (0 : Fin 1) j) := by
  show V c main_v1 ((((cfg13 a).win 0).blk t).view.emb (ValueIdx.ix3 (0 : Fin 1) (0 : Fin 1) j)) = V c main_v1 (ValueIdx.ix3 rs (0 : Fin 1) j)
  refine congrArg (V c main_v1) ?_
  funext ax
  apply Fin.ext
  match ax with
  | ⟨0, _⟩ => show ((cfg13 a).win 0).index t (0 : Fin 3) * 1 + 1 * 0 = rs.val; rw [hrs]; omega
  | ⟨1, _⟩ => show ((cfg13 a).win 0).index t (1 : Fin 3) * 1 + 1 * 0 = 0; rw [chunk13_idx0_1]
  | ⟨2, _⟩ => show ((cfg13 a).win 0).index t (2 : Fin 3) * 128 + 1 * j.val = j.val; rw [chunk13_idx0_2]; omega

/-- The destination window's block likewise, at its own block index. -/
theorem chunk13_blk1 (c : Dev nD) (t : Fin (cfg13 a).N) (rd : Fin 100000)
    (hrd : ((cfg13 a).win 1).index t (0 : Fin 3) = rd.val) (j : Fin 128) :
    (iblk13 V a c 1 t : Vec F S1x1x128 .f32) (ValueIdx.ix3 (0 : Fin 1) (0 : Fin 1) j)
      = (V c main_v1 : S100000x1x128.Idx → Elt F .f32) (ValueIdx.ix3 rd (0 : Fin 1) j) := by
  show V c main_v1 ((((cfg13 a).win 1).blk t).view.emb (ValueIdx.ix3 (0 : Fin 1) (0 : Fin 1) j)) = V c main_v1 (ValueIdx.ix3 rd (0 : Fin 1) j)
  refine congrArg (V c main_v1) ?_
  funext ax
  apply Fin.ext
  match ax with
  | ⟨0, _⟩ => show ((cfg13 a).win 1).index t (0 : Fin 3) * 1 + 1 * 0 = rd.val; rw [hrd]; omega
  | ⟨1, _⟩ => show ((cfg13 a).win 1).index t (1 : Fin 3) * 1 + 1 * 0 = 0; rw [chunk13_idx1_1]
  | ⟨2, _⟩ => show ((cfg13 a).win 1).index t (2 : Fin 3) * 128 + 1 * j.val = j.val; rw [chunk13_idx1_2]; omega

/-- The weights' block is the whole weight array, -/
theorem chunk13_blk2 (c : Dev nD) (t : Fin (cfg13 a).N) (k : Fin 256) :
    (iblk13 V a c 2 t : Vec F S1x256 .f32) (ValueIdx.ix2 (0 : Fin 1) k)
      = (V c main_arg3 : S1x256.Idx → Elt F .f32) (ValueIdx.ix2 (0 : Fin 1) k) := by
  show V c main_arg3 ((((cfg13 a).win 2).blk t).view.emb (ValueIdx.ix2 (0 : Fin 1) k)) = V c main_arg3 (ValueIdx.ix2 (0 : Fin 1) k)
  refine congrArg (V c main_arg3) ?_
  funext ax
  apply Fin.ext
  match ax with
  | ⟨0, _⟩ => show ((cfg13 a).win 2).index t (0 : Fin 2) * 1 + 1 * 0 = 0; rfl
  | ⟨1, _⟩ => show ((cfg13 a).win 2).index t (1 : Fin 2) * 256 + 1 * k.val = k.val; rw [show ((cfg13 a).win 2).index t (1 : Fin 2) = 0 from rfl]; omega

/-- and the bias's block the whole bias array. -/
theorem chunk13_blk3 (c : Dev nD) (t : Fin (cfg13 a).N) :
    (iblk13 V a c 3 t : Vec F S1x1 .f32) (ValueIdx.ix2 (0 : Fin 1) (0 : Fin 1))
      = (V c main_v0 : S1x1.Idx → Elt F .f32) (ValueIdx.ix2 (0 : Fin 1) (0 : Fin 1)) := by
  show V c main_v0 ((((cfg13 a).win 3).blk t).view.emb (ValueIdx.ix2 (0 : Fin 1) (0 : Fin 1))) = V c main_v0 (ValueIdx.ix2 (0 : Fin 1) (0 : Fin 1))
  refine congrArg (V c main_v0) ?_
  funext ax
  apply Fin.ext
  match ax with
  | ⟨0, _⟩ => show ((cfg13 a).win 3).index t (0 : Fin 2) * 1 + 1 * 0 = 0; rfl
  | ⟨1, _⟩ => show ((cfg13 a).win 3).index t (1 : Fin 2) * 1 + 1 * 0 = 0; rfl

end Blocks

/-! ## The score the body stores, from its four input buffers -/

theorem chunk13_hz3 : (![0, 0, 0] : Fin 3 → Nat) = fun _ => 0 := funext fun ax => by fin_cases ax <;> rfl
theorem chunk13_hz2 : (![0, 0] : Fin 2 → Nat) = fun _ => 0 := funext fun ax => by fin_cases ax <;> rfl

/-- A one-cell block has the one index. -/
theorem chunk13_cell (y : S1x1x1.Idx) : y = ValueIdx.ix3 (0 : Fin 1) (0 : Fin 1) (0 : Fin 1) := by
  funext ax
  apply Fin.ext
  match ax with
  | ⟨0, _⟩ => show (y 0).val = 0; have h : (y 0).val < 1 := (y 0).isLt; omega
  | ⟨1, _⟩ => show (y 1).val = 0; have h : (y 1).val < 1 := (y 1).isLt; omega
  | ⟨2, _⟩ => show (y 2).val = 0; have h : (y 2).val < 1 := (y 2).isLt; omega

/-- The stored value at its one index: the two 128-term sums of entrywise products plus the last operand's entry
    (a lane sum over a one-row block is the sum of the row's entries). -/
theorem chunk13_pay (v0 v1 : Vec Ideal S1x128 .f32) (v2 v7 : Vec Ideal S1x1x128 .f32) (v13 : Vec Ideal S1x1 .f32) :
    k13_pay1 (F := Ideal) v0 v1 v2 v7 v13 (ValueIdx.ix3 (0 : Fin 1) (0 : Fin 1) (0 : Fin 1))
      = (∑ j : Fin 128, v2 (ValueIdx.ix3 (0 : Fin 1) (0 : Fin 1) j) * v0 (ValueIdx.ix2 (0 : Fin 1) j))
        + (∑ j : Fin 128, v7 (ValueIdx.ix3 (0 : Fin 1) (0 : Fin 1) j) * v1 (ValueIdx.ix2 (0 : Fin 1) j))
        + v13 (ValueIdx.ix2 (0 : Fin 1) (0 : Fin 1)) := by
  unfold k13_pay1
  rw [shapeCast_ab_1ab_apply, addf_apply, addf_apply, shapeCast_self, shapeCast_a_1a_apply, shapeCast_a_1a_apply,
    Cert.PayloadAt.laneSum_at, Cert.PayloadAt.laneSum_at]
  simp only [mulf_apply, shapeCast_1ab_ab_apply]

/-- A load of the first half of the weights reads column `j`, of the second half column `128 + j`. -/
theorem chunk13_ldW0 (x : Vec Ideal S1x256 .f32) (j : Fin 128) :
    View.ld x rW0 (ValueIdx.ix2 (0 : Fin 1) j) = x (ValueIdx.ix2 (0 : Fin 1) (Cert.Spec.lo j)) := by
  show x _ = x _
  refine congrArg x ?_
  funext ax
  apply Fin.ext
  match ax with
  | ⟨0, _⟩ => show 0 + 1 * 0 = 0; rfl
  | ⟨1, _⟩ => show 0 + 1 * j.val = j.val; omega
theorem chunk13_ldW1 (x : Vec Ideal S1x256 .f32) (j : Fin 128) :
    View.ld x rW1 (ValueIdx.ix2 (0 : Fin 1) j) = x (ValueIdx.ix2 (0 : Fin 1) (Cert.Spec.hi j)) := by
  show x _ = x _
  refine congrArg x ?_
  funext ax
  apply Fin.ext
  match ax with
  | ⟨0, _⟩ => show 0 + 1 * 0 = 0; rfl
  | ⟨1, _⟩ => show 128 + 1 * j.val = 128 + j.val; omega

/-- The output buffer's one cell after the body: row `x0` against the first 128 weights, row `x1` against the last
    128, plus the bias. -/
theorem out13_at (x0 x1 : Vec Ideal S1x1x128 .f32) (x2 : Vec Ideal S1x256 .f32) (x3 : Vec Ideal S1x1 .f32) :
    out13 x0 x1 x2 x3 (ValueIdx.ix3 (0 : Fin 1) (0 : Fin 1) (0 : Fin 1))
      = (∑ j : Fin 128, x0 (ValueIdx.ix3 (0 : Fin 1) (0 : Fin 1) j) * x2 (ValueIdx.ix2 (0 : Fin 1) (Cert.Spec.lo j)))
        + (∑ j : Fin 128, x1 (ValueIdx.ix3 (0 : Fin 1) (0 : Fin 1) j) * x2 (ValueIdx.ix2 (0 : Fin 1) (Cert.Spec.hi j)))
        + x3 (ValueIdx.ix2 (0 : Fin 1) (0 : Fin 1)) := by
  unfold out13
  rw [View.canon_unit_zero chunk13_hz3, chunk13_pay,
    View.ld_unit_zero (S := S1x1x128) chunk13_hz3, View.ld_unit_zero (S := S1x1x128) chunk13_hz3, View.ld_unit_zero (S := S1x1) chunk13_hz2]
  refine congrArg₂ (· + ·) (congrArg₂ (· + ·) (Finset.sum_congr rfl fun j _ => ?_) (Finset.sum_congr rfl fun j _ => ?_)) rfl
  · exact congrArg (fun z => x0 (ValueIdx.ix3 (0 : Fin 1) (0 : Fin 1) j) * z) (chunk13_ldW0 x2 j)
  · exact congrArg (fun z => x1 (ValueIdx.ix3 (0 : Fin 1) (0 : Fin 1) j) * z) (chunk13_ldW1 x2 j)

/-! ## From the blocks to the output array -/

section Array
variable {F : FTy → Type} [FloatOps F]
variable (V : (c : Dev nD) → (b : Ref sig .tc) → Buf (Elt F) ((c : Thread nD τ).loc b)) (a : (pcfg13 (F := F)).Adm)

/-- The output's block index moves at every point, so every point writes its block back. -/
theorem chunk13_flush (t : Fin (cfg13 a).N) : ((cfg13 a).win 4).flush t = true := by
  have hN : (cfg13 a).grid.N = 62500 := N_13
  have ht : t.val < 62500 := (chunk13_N a) ▸ t.isLt
  rw [Window.flush_out _ rfl]
  by_cases h : t.val + 1 = 62500
  · exact Or.inl (h.trans hN.symm)
  · refine Or.inr ⟨Nat.lt_of_lt_of_eq (by omega : t.val + 1 < 62500) hN.symm, fun e => ?_⟩
    have e0 := congrFun e (0 : Fin 3)
    rw [chunk13_idx4_0, chunk13_idx4_0] at e0
    exact absurd e0 (Nat.succ_ne_self _)

/-- Point `t`'s block is the one cell `(t, 0, 0)` of the output array. -/
theorem chunk13_mem (t : Fin (cfg13 a).N) (i : S62500x1x1.Idx) (hi : (i 0).val = t.val) :
    i ∈ (((cfg13 a).win 4).blk t).view.set := by
  have e : (((cfg13 a).win 4).blk t).view.emb (ValueIdx.ix3 (0 : Fin 1) (0 : Fin 1) (0 : Fin 1)) = i := by
    funext ax
    apply Fin.ext
    match ax with
    | ⟨0, _⟩ =>
      show ((cfg13 a).win 4).index t (0 : Fin 3) * 1 + 1 * 0 = (i 0).val
      rw [chunk13_idx4_0]; omega
    | ⟨1, _⟩ =>
      show ((cfg13 a).win 4).index t (1 : Fin 3) * 1 + 1 * 0 = (i 1).val
      have h : (i 1).val < 1 := (i 1).isLt
      rw [chunk13_idx4_1]; omega
    | ⟨2, _⟩ =>
      show ((cfg13 a).win 4).index t (2 : Fin 3) * 1 + 1 * 0 = (i 2).val
      have h : (i 2).val < 1 := (i 2).isLt
      rw [chunk13_idx4_2]; omega
  exact Finset.mem_map.mpr ⟨ValueIdx.ix3 (0 : Fin 1) (0 : Fin 1) (0 : Fin 1), Finset.mem_univ _, e⟩

/-- The score the body leaves at point `t`, as a term of the four input blocks there. -/
def chunk13_score (c : Dev nD) (t : Fin (cfg13 a).N) : Elt F .f32 :=
  out13 (iblk13 V a c 0 t) (iblk13 V a c 1 t) (iblk13 V a c 2 t) (iblk13 V a c 3 t) (ValueIdx.ix3 (0 : Fin 1) (0 : Fin 1) (0 : Fin 1))

/-- The whole output array the points write: at `(r, 0, 0)` point `r`'s score. -/
def chunk13_G (c : Dev nD) : S62500x1x1.Idx → Elt F .f32 :=
  fun i => chunk13_score V a c ⟨(i 0).val, (chunk13_N a).symm ▸ (i 0).isLt⟩

/-- What point `t` writes back is its block of that array. -/
theorem chunk13_flushed (c : Dev nD) (t : Fin (cfg13 a).N) :
    (dat13 V a c).flushed 4 t = (((cfg13 a).win 4).blk t).view.read (Elt F) (chunk13_G V a c) := by
  show ((cfg13 a).win 4).cut ((cfg13 a).grid.coords t) ((dat13 V a c).after 4 t) = _
  rw [after13_4]
  funext y
  show out13 (iblk13 V a c 0 t) (iblk13 V a c 1 t) (iblk13 V a c 2 t) (iblk13 V a c 3 t) (((cfg13 a).win 4).xinj ((cfg13 a).grid.coords t) y)
    = chunk13_G V a c ((((cfg13 a).win 4).blk t).view.emb y)
  refine (congrArg (out13 (iblk13 V a c 0 t) (iblk13 V a c 1 t) (iblk13 V a c 2 t) (iblk13 V a c 3 t)) (chunk13_cell _)).trans ?_
  show chunk13_score V a c t = chunk13_score V a c _
  refine congrArg (chunk13_score V a c) (Fin.ext ?_)
  show t.val = ((cfg13 a).win 4).index t (0 : Fin 3) * 1 + 1 * (y (0 : Fin 3)).val
  have h : (y (0 : Fin 3)).val < 1 := (y (0 : Fin 3)).isLt
  rw [chunk13_idx4_0]; omega

/-- The output array after the run, at `(t, 0, 0)`: point `t`'s score. -/
theorem chunk13_arr (c : Dev nD) (t : Fin (cfg13 a).N) (i : S62500x1x1.Idx) (hi : (i 0).val = t.val) :
    ((dat13 V a c).arrAt 4 (cfg13 a).N : S62500x1x1.Idx → Elt F .f32) i = chunk13_score V a c t := by
  refine ((dat13 V a c).arrAt_apply_of_mem 4 (chunk13_G V a c) (fun t _ => chunk13_flushed V a c t) (cfg13 a).N t i t.isLt
    (chunk13_flush a t) (chunk13_mem a t i hi)).trans ?_
  show chunk13_score V a c _ = chunk13_score V a c t
  exact congrArg (chunk13_score V a c) (Fin.ext hi)

end Array

/-! ## The output array at the exact-real instance -/

/-- The output array after region 13's pipeline, at edge `t`: the score of the two rows the tables name for `t` —
    at any buffers and any admissible contents of the tables; `h`, `W`, `b` name the feature, weight and bias arrays
    the region finds. -/
theorem chunk13_arr_at (V : (c : Dev nD) → (b : Ref sig .tc) → Buf (Elt Ideal) ((c : Thread nD τ).loc b))
    (a : (pcfg13 (F := Ideal)).Adm) (c : Dev nD) (t : Fin 62500) (rs rd : Fin 100000)
    (hrs : ((a.1 0 : S62500.Idx → BitVec 32) (ValueIdx.ix1 t)).toNat = rs.val)
    (hrd : ((a.1 1 : S62500.Idx → BitVec 32) (ValueIdx.ix1 t)).toNat = rd.val)
    (h : S100000x1x128.Idx → EReal) (W : S1x256.Idx → EReal) (b : S1x1.Idx → EReal)
    (hh : (V c main_v1 : S100000x1x128.Idx → EReal) = h) (hW : (V c main_arg3 : S1x256.Idx → EReal) = W)
    (hb : (V c main_v0 : S1x1.Idx → EReal) = b) :
    ((dat13 V a c).arrAt 4 (cfg13 a).N : S62500x1x1.Idx → EReal) (ValueIdx.ix3 t (0 : Fin 1) (0 : Fin 1))
      = (∑ j : Fin 128, h (ValueIdx.ix3 rs (0 : Fin 1) j) * W (ValueIdx.ix2 (0 : Fin 1) (Cert.Spec.lo j)))
        + (∑ j : Fin 128, h (ValueIdx.ix3 rd (0 : Fin 1) j) * W (ValueIdx.ix2 (0 : Fin 1) (Cert.Spec.hi j)))
        + b (ValueIdx.ix2 (0 : Fin 1) (0 : Fin 1)) := by
  have ht : t.val < (cfg13 a).N := (chunk13_N a).symm ▸ t.isLt
  refine (chunk13_arr V a c ⟨t.val, ht⟩ (ValueIdx.ix3 t (0 : Fin 1) (0 : Fin 1)) rfl).trans ?_
  unfold chunk13_score
  refine (out13_at (iblk13 V a c 0 ⟨t.val, ht⟩) (iblk13 V a c 1 ⟨t.val, ht⟩) (iblk13 V a c 2 ⟨t.val, ht⟩) (iblk13 V a c 3 ⟨t.val, ht⟩)).trans ?_
  refine congrArg₂ (· + ·) (congrArg₂ (· + ·) (Finset.sum_congr rfl fun j _ => ?_) (Finset.sum_congr rfl fun j _ => ?_)) ?_
  · exact congrArg₂ (· * ·)
      ((chunk13_blk0 V a c ⟨t.val, ht⟩ rs ((chunk13_idx0_0 a ⟨t.val, ht⟩ t rfl).trans hrs) j).trans (congrFun hh _))
      ((chunk13_blk2 V a c ⟨t.val, ht⟩ (Cert.Spec.lo j)).trans (congrFun hW _))
  · exact congrArg₂ (· * ·)
      ((chunk13_blk1 V a c ⟨t.val, ht⟩ rd ((chunk13_idx1_0 a ⟨t.val, ht⟩ t rfl).trans hrd) j).trans (congrFun hh _))
      ((chunk13_blk2 V a c ⟨t.val, ht⟩ (Cert.Spec.hi j)).trans (congrFun hW _))
  · exact (chunk13_blk3 V a c ⟨t.val, ht⟩).trans (congrFun hb _)

set_option maxHeartbeats 3200000 in
/-- Entry `t` of region 13's output chunk is edge `t`'s score, computed from the rows the two tables name: `rs` and `rd`
    are entry `t` of the two tables, and `h`, `W`, `b` the feature, weight and bias arrays as the region finds them. -/
theorem chunk13_at (m : (ℓ : Loc nD τ sig) → Buf (Elt Ideal) ℓ) (hO : Oks m) (c : Dev nD) (t : Fin 62500) (rs rd : Fin 100000)
    (hrs : ((tbl13 m 0 : S62500.Idx → BitVec 32) (ValueIdx.ix1 t)).toNat = rs.val)
    (hrd : ((tbl13 m 1 : S62500.Idx → BitVec 32) (ValueIdx.ix1 t)).toNat = rd.val)
    (h : S100000x1x128.Idx → EReal) (W : S1x256.Idx → EReal) (b : S1x1.Idx → EReal)
    (hh : (Ve13 m c main_v1 : S100000x1x128.Idx → EReal) = h) (hW : (Ve13 m c main_arg3 : S1x256.Idx → EReal) = W)
    (hb : (Ve13 m c main_v0 : S1x1.Idx → EReal) = b) :
    (chunk13 m hO c : S62500x1x1.Idx → EReal) (ValueIdx.ix3 t (0 : Fin 1) (0 : Fin 1))
      = (∑ j : Fin 128, h (ValueIdx.ix3 rs (0 : Fin 1) j) * W (ValueIdx.ix2 (0 : Fin 1) (Cert.Spec.lo j)))
        + (∑ j : Fin 128, h (ValueIdx.ix3 rd (0 : Fin 1) j) * W (ValueIdx.ix2 (0 : Fin 1) (Cert.Spec.hi j)))
        + b (ValueIdx.ix2 (0 : Fin 1) (0 : Fin 1)) := by
  have key := fun (hok : ok13 (F := Ideal) (tbl13 m)) =>
    chunk13_arr_at (Ve13 m) ⟨tbl13 m, hok⟩ c t rs rd hrs hrd h W b hh hW hb
  unfold chunk13
  exact key _

end Cert.KernelIdeal.Hand
end
-- ==== Proof.KIValue14.lean ====
/-
  Region 14's output chunk, entry by entry, at the exact-real instance.

  The region's pipeline has 62500 points, one per edge of its chunk. At point `t` the output window's block is the single
  cell `(t, 0, 0)` of the output array; the two gathered windows' blocks are rows `src t` and `dst t` of the feature
  array, `src t` and `dst t` being entry `t` of the two index tables read as natural numbers; the weight window's and the
  bias window's blocks are the whole arrays. The body leaves in the output block the score of the two rows,
    (∑ j < 128, h[src t, j] · W[0, j]) + (∑ j < 128, h[dst t, j] · W[0, 128 + j]) + b[0, 0].
  Every point writes its block back (the output's block index moves at every point) and point `t`'s block covers index
  `(t, 0, 0)`, so after the run the output array holds at `(t, 0, 0)` the score of point `t`. Every fact about the
  pipeline is proved with the tables' contents a variable; the region's own tables are put in last.
-/
import proofs.«405368_j31662498906597_2_alg».proof.Proof.KIFamily
import proofs.«405368_j31662498906597_2_alg».proof.Proof.PayloadAt
import proofs.«405368_j31662498906597_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

/-! ## The grid and the index maps, at any contents of the two tables -/

section Generic
variable {F : FTy → Type} [FloatOps F]
variable (V : (c : Dev nD) → (b : Ref sig .tc) → Buf (Elt F) ((c : Thread nD τ).loc b)) (a : (pcfg14 (F := F)).Adm)

/-- The grid has one axis of 62500 points, -/
theorem chunk14_N : (cfg14 a).N = 62500 := N_14

/-- consecutive points are consecutive along it, -/
theorem chunk14_stride : (cfg14 a).grid.stride 0 = 1 := (by decide : grid14.stride 0 = 1)

/-- so point `t`'s one coordinate is `t`. -/
theorem chunk14_coords (t : Fin (cfg14 a).N) : ((cfg14 a).grid.coords t 0).val = t.val := by
  have ht : t.val < 62500 := (chunk14_N a) ▸ t.isLt
  show t.val / (cfg14 a).grid.stride 0 % 62500 = t.val
  rw [chunk14_stride a, Nat.div_one, Nat.mod_eq_of_lt ht]

/-- The output window's block index at point `t` is `(t, 0, 0)`. -/
theorem chunk14_idx4_0 (t : Fin (cfg14 a).N) : ((cfg14 a).win 4).index t (0 : Fin 3) = t.val := by
  have ht : t.val < 62500 := (chunk14_N a) ▸ t.isLt
  show (BitVec.ofNat 32 ((cfg14 a).grid.coords t 0).val).toNat = t.val
  rw [chunk14_coords, BitVec.toNat_ofNat]
  omega
theorem chunk14_idx4_1 (t : Fin (cfg14 a).N) : ((cfg14 a).win 4).index t (1 : Fin 3) = 0 := rfl
theorem chunk14_idx4_2 (t : Fin (cfg14 a).N) : ((cfg14 a).win 4).index t (2 : Fin 3) = 0 := rfl

/-- The source window's block index at point `t` is `(src t, 0, 0)`, `src t` the first table's entry `t` read as a natural number, -/
theorem chunk14_idx0_0 (t : Fin (cfg14 a).N) (e : Fin 62500) (he : e.val = t.val) :
    ((cfg14 a).win 0).index t (0 : Fin 3) = ((a.1 0 : S62500.Idx → BitVec 32) (ValueIdx.ix1 e)).toNat := by
  have ht : t.val < 62500 := (chunk14_N a) ▸ t.isLt
  show ((a.1 0 : S62500.Idx → BitVec 32) _).toNat = _
  refine congrArg (fun i => ((a.1 0 : S62500.Idx → BitVec 32) i).toNat) ?_
  funext ax
  apply Fin.ext
  match ax with
  | ⟨0, _⟩ =>
    show (Scalar.indexCast (BitVec.ofNat 32 ((cfg14 a).grid.coords t 0).val)).toNat + 1 * 0 = e.val
    rw [chunk14_coords, he]
    show (BitVec.ofNat 32 t.val).toNat + 1 * 0 = t.val
    rw [BitVec.toNat_ofNat]
    omega
theorem chunk14_idx0_1 (t : Fin (cfg14 a).N) : ((cfg14 a).win 0).index t (1 : Fin 3) = 0 := rfl
theorem chunk14_idx0_2 (t : Fin (cfg14 a).N) : ((cfg14 a).win 0).index t (2 : Fin 3) = 0 := rfl

/-- and the destination window's is `(dst t, 0, 0)`, from the second table. -/
theorem chunk14_idx1_0 (t : Fin (cfg14 a).N) (e : Fin 62500) (he : e.val = t.val) :
    ((cfg14 a).win 1).index t (0 : Fin 3) = ((a.1 1 : S62500.Idx → BitVec 32) (ValueIdx.ix1 e)).toNat := by
  have ht : t.val < 62500 := (chunk14_N a) ▸ t.isLt
  show ((a.1 1 : S62500.Idx → BitVec 32) _).toNat = _
  refine congrArg (fun i => ((a.1 1 : S62500.Idx → BitVec 32) i).toNat) ?_
  funext ax
  apply Fin.ext
  match ax with
  | ⟨0, _⟩ =>
    show (Scalar.indexCast (BitVec.ofNat 32 ((cfg14 a).grid.coords t 0).val)).toNat + 1 * 0 = e.val
    rw [chunk14_coords, he]
    show (BitVec.ofNat 32 t.val).toNat + 1 * 0 = t.val
    rw [BitVec.toNat_ofNat]
    omega
theorem chunk14_idx1_1 (t : Fin (cfg14 a).N) : ((cfg14 a).win 1).index t (1 : Fin 3) = 0 := rfl
theorem chunk14_idx1_2 (t : Fin (cfg14 a).N) : ((cfg14 a).win 1).index t (2 : Fin 3) = 0 := rfl

end Generic

/-! ## The five blocks at a point, read where the arrays are -/

section Blocks
variable {F : FTy → Type} [FloatOps F]
variable (V : (c : Dev nD) → (b : Ref sig .tc) → Buf (Elt F) ((c : Thread nD τ).loc b)) (a : (pcfg14 (F := F)).Adm)

/-- The source window's block at point `t` is row `rs` of the feature array when its block index there is `rs`. -/
theorem chunk14_blk0 (c : Dev nD) (t : Fin (cfg14 a).N) (rs : Fin 100000)
    (hrs : ((cfg14 a).win 0).index t (0 : Fin 3) = rs.val) (j : Fin 128) :
    (iblk14 V a c 0 t : Vec F S1x1x128 .f32) (ValueIdx.ix3 (0 : Fin 1) (0 : Fin 1) j)
      = (V c main_v1 : S100000x1x128.Idx → Elt F .f32) (ValueIdx.ix3 rs (0 : Fin 1) j) := by
  show V c main_v1 ((((cfg14 a).win 0).blk t).view.emb (ValueIdx.ix3 (0 : Fin 1) (0 : Fin 1) j)) = V c main_v1 (ValueIdx.ix3 rs (0 : Fin 1) j)
  refine congrArg (V c main_v1) ?_
  funext ax
  apply Fin.ext
  match ax with
  | ⟨0, _⟩ => show ((cfg14 a).win 0).index t (0 : Fin 3) * 1 + 1 * 0 = rs.val; rw [hrs]; omega
  | ⟨1, _⟩ => show ((cfg14 a).win 0).index t (1 : Fin 3) * 1 + 1 * 0 = 0; rw [chunk14_idx0_1]
  | ⟨2, _⟩ => show ((cfg14 a).win 0).index t (2 : Fin 3) * 128 + 1 * j.val = j.val; rw [chunk14_idx0_2]; omega

/-- The destination window's block likewise, at its own block index. -/
theorem chunk14_blk1 (c : Dev nD) (t : Fin (cfg14 a).N) (rd : Fin 100000)
    (hrd : ((cfg14 a).win 1).index t (0 : Fin 3) = rd.val) (j : Fin 128) :
    (iblk14 V a c 1 t : Vec F S1x1x128 .f32) (ValueIdx.ix3 (0 : Fin 1) (0 : Fin 1) j)
      = (V c main_v1 : S100000x1x128.Idx → Elt F .f32) (ValueIdx.ix3 rd (0 : Fin 1) j) := by
  show V c main_v1 ((((cfg14 a).win 1).blk t).view.emb (ValueIdx.ix3 (0 : Fin 1) (0 : Fin 1) j)) = V c main_v1 (ValueIdx.ix3 rd (0 : Fin 1) j)
  refine congrArg (V c main_v1) ?_
  funext ax
  apply Fin.ext
  match ax with
  | ⟨0, _⟩ => show ((cfg14 a).win 1).index t (0 : Fin 3) * 1 + 1 * 0 = rd.val; rw [hrd]; omega
  | ⟨1, _⟩ => show ((cfg14 a).win 1).index t (1 : Fin 3) * 1 + 1 * 0 = 0; rw [chunk14_idx1_1]
  | ⟨2, _⟩ => show ((cfg14 a).win 1).index t (2 : Fin 3) * 128 + 1 * j.val = j.val; rw [chunk14_idx1_2]; omega

/-- The weights' block is the whole weight array, -/
theorem chunk14_blk2 (c : Dev nD) (t : Fin (cfg14 a).N) (k : Fin 256) :
    (iblk14 V a c 2 t : Vec F S1x256 .f32) (ValueIdx.ix2 (0 : Fin 1) k)
      = (V c main_arg3 : S1x256.Idx → Elt F .f32) (ValueIdx.ix2 (0 : Fin 1) k) := by
  show V c main_arg3 ((((cfg14 a).win 2).blk t).view.emb (ValueIdx.ix2 (0 : Fin 1) k)) = V c main_arg3 (ValueIdx.ix2 (0 : Fin 1) k)
  refine congrArg (V c main_arg3) ?_
  funext ax
  apply Fin.ext
  match ax with
  | ⟨0, _⟩ => show ((cfg14 a).win 2).index t (0 : Fin 2) * 1 + 1 * 0 = 0; rfl
  | ⟨1, _⟩ => show ((cfg14 a).win 2).index t (1 : Fin 2) * 256 + 1 * k.val = k.val; rw [show ((cfg14 a).win 2).index t (1 : Fin 2) = 0 from rfl]; omega

/-- and the bias's block the whole bias array. -/
theorem chunk14_blk3 (c : Dev nD) (t : Fin (cfg14 a).N) :
    (iblk14 V a c 3 t : Vec F S1x1 .f32) (ValueIdx.ix2 (0 : Fin 1) (0 : Fin 1))
      = (V c main_v0 : S1x1.Idx → Elt F .f32) (ValueIdx.ix2 (0 : Fin 1) (0 : Fin 1)) := by
  show V c main_v0 ((((cfg14 a).win 3).blk t).view.emb (ValueIdx.ix2 (0 : Fin 1) (0 : Fin 1))) = V c main_v0 (ValueIdx.ix2 (0 : Fin 1) (0 : Fin 1))
  refine congrArg (V c main_v0) ?_
  funext ax
  apply Fin.ext
  match ax with
  | ⟨0, _⟩ => show ((cfg14 a).win 3).index t (0 : Fin 2) * 1 + 1 * 0 = 0; rfl
  | ⟨1, _⟩ => show ((cfg14 a).win 3).index t (1 : Fin 2) * 1 + 1 * 0 = 0; rfl

end Blocks

/-! ## The score the body stores, from its four input buffers -/

theorem chunk14_hz3 : (![0, 0, 0] : Fin 3 → Nat) = fun _ => 0 := funext fun ax => by fin_cases ax <;> rfl
theorem chunk14_hz2 : (![0, 0] : Fin 2 → Nat) = fun _ => 0 := funext fun ax => by fin_cases ax <;> rfl

/-- A one-cell block has the one index. -/
theorem chunk14_cell (y : S1x1x1.Idx) : y = ValueIdx.ix3 (0 : Fin 1) (0 : Fin 1) (0 : Fin 1) := by
  funext ax
  apply Fin.ext
  match ax with
  | ⟨0, _⟩ => show (y 0).val = 0; have h : (y 0).val < 1 := (y 0).isLt; omega
  | ⟨1, _⟩ => show (y 1).val = 0; have h : (y 1).val < 1 := (y 1).isLt; omega
  | ⟨2, _⟩ => show (y 2).val = 0; have h : (y 2).val < 1 := (y 2).isLt; omega

/-- The stored value at its one index: the two 128-term sums of entrywise products plus the last operand's entry
    (a lane sum over a one-row block is the sum of the row's entries). -/
theorem chunk14_pay (v0 v1 : Vec Ideal S1x128 .f32) (v2 v7 : Vec Ideal S1x1x128 .f32) (v13 : Vec Ideal S1x1 .f32) :
    k14_pay1 (F := Ideal) v0 v1 v2 v7 v13 (ValueIdx.ix3 (0 : Fin 1) (0 : Fin 1) (0 : Fin 1))
      = (∑ j : Fin 128, v2 (ValueIdx.ix3 (0 : Fin 1) (0 : Fin 1) j) * v0 (ValueIdx.ix2 (0 : Fin 1) j))
        + (∑ j : Fin 128, v7 (ValueIdx.ix3 (0 : Fin 1) (0 : Fin 1) j) * v1 (ValueIdx.ix2 (0 : Fin 1) j))
        + v13 (ValueIdx.ix2 (0 : Fin 1) (0 : Fin 1)) := by
  unfold k14_pay1
  rw [shapeCast_ab_1ab_apply, addf_apply, addf_apply, shapeCast_self, shapeCast_a_1a_apply, shapeCast_a_1a_apply,
    Cert.PayloadAt.laneSum_at, Cert.PayloadAt.laneSum_at]
  simp only [mulf_apply, shapeCast_1ab_ab_apply]

/-- A load of the first half of the weights reads column `j`, of the second half column `128 + j`. -/
theorem chunk14_ldW0 (x : Vec Ideal S1x256 .f32) (j : Fin 128) :
    View.ld x rW0 (ValueIdx.ix2 (0 : Fin 1) j) = x (ValueIdx.ix2 (0 : Fin 1) (Cert.Spec.lo j)) := by
  show x _ = x _
  refine congrArg x ?_
  funext ax
  apply Fin.ext
  match ax with
  | ⟨0, _⟩ => show 0 + 1 * 0 = 0; rfl
  | ⟨1, _⟩ => show 0 + 1 * j.val = j.val; omega
theorem chunk14_ldW1 (x : Vec Ideal S1x256 .f32) (j : Fin 128) :
    View.ld x rW1 (ValueIdx.ix2 (0 : Fin 1) j) = x (ValueIdx.ix2 (0 : Fin 1) (Cert.Spec.hi j)) := by
  show x _ = x _
  refine congrArg x ?_
  funext ax
  apply Fin.ext
  match ax with
  | ⟨0, _⟩ => show 0 + 1 * 0 = 0; rfl
  | ⟨1, _⟩ => show 128 + 1 * j.val = 128 + j.val; omega

/-- The output buffer's one cell after the body: row `x0` against the first 128 weights, row `x1` against the last
    128, plus the bias. -/
theorem out14_at (x0 x1 : Vec Ideal S1x1x128 .f32) (x2 : Vec Ideal S1x256 .f32) (x3 : Vec Ideal S1x1 .f32) :
    out14 x0 x1 x2 x3 (ValueIdx.ix3 (0 : Fin 1) (0 : Fin 1) (0 : Fin 1))
      = (∑ j : Fin 128, x0 (ValueIdx.ix3 (0 : Fin 1) (0 : Fin 1) j) * x2 (ValueIdx.ix2 (0 : Fin 1) (Cert.Spec.lo j)))
        + (∑ j : Fin 128, x1 (ValueIdx.ix3 (0 : Fin 1) (0 : Fin 1) j) * x2 (ValueIdx.ix2 (0 : Fin 1) (Cert.Spec.hi j)))
        + x3 (ValueIdx.ix2 (0 : Fin 1) (0 : Fin 1)) := by
  unfold out14
  rw [View.canon_unit_zero chunk14_hz3, chunk14_pay,
    View.ld_unit_zero (S := S1x1x128) chunk14_hz3, View.ld_unit_zero (S := S1x1x128) chunk14_hz3, View.ld_unit_zero (S := S1x1) chunk14_hz2]
  refine congrArg₂ (· + ·) (congrArg₂ (· + ·) (Finset.sum_congr rfl fun j _ => ?_) (Finset.sum_congr rfl fun j _ => ?_)) rfl
  · exact congrArg (fun z => x0 (ValueIdx.ix3 (0 : Fin 1) (0 : Fin 1) j) * z) (chunk14_ldW0 x2 j)
  · exact congrArg (fun z => x1 (ValueIdx.ix3 (0 : Fin 1) (0 : Fin 1) j) * z) (chunk14_ldW1 x2 j)

/-! ## From the blocks to the output array -/

section Array
variable {F : FTy → Type} [FloatOps F]
variable (V : (c : Dev nD) → (b : Ref sig .tc) → Buf (Elt F) ((c : Thread nD τ).loc b)) (a : (pcfg14 (F := F)).Adm)

/-- The output's block index moves at every point, so every point writes its block back. -/
theorem chunk14_flush (t : Fin (cfg14 a).N) : ((cfg14 a).win 4).flush t = true := by
  have hN : (cfg14 a).grid.N = 62500 := N_14
  have ht : t.val < 62500 := (chunk14_N a) ▸ t.isLt
  rw [Window.flush_out _ rfl]
  by_cases h : t.val + 1 = 62500
  · exact Or.inl (h.trans hN.symm)
  · refine Or.inr ⟨Nat.lt_of_lt_of_eq (by omega : t.val + 1 < 62500) hN.symm, fun e => ?_⟩
    have e0 := congrFun e (0 : Fin 3)
    rw [chunk14_idx4_0, chunk14_idx4_0] at e0
    exact absurd e0 (Nat.succ_ne_self _)

/-- Point `t`'s block is the one cell `(t, 0, 0)` of the output array. -/
theorem chunk14_mem (t : Fin (cfg14 a).N) (i : S62500x1x1.Idx) (hi : (i 0).val = t.val) :
    i ∈ (((cfg14 a).win 4).blk t).view.set := by
  have e : (((cfg14 a).win 4).blk t).view.emb (ValueIdx.ix3 (0 : Fin 1) (0 : Fin 1) (0 : Fin 1)) = i := by
    funext ax
    apply Fin.ext
    match ax with
    | ⟨0, _⟩ =>
      show ((cfg14 a).win 4).index t (0 : Fin 3) * 1 + 1 * 0 = (i 0).val
      rw [chunk14_idx4_0]; omega
    | ⟨1, _⟩ =>
      show ((cfg14 a).win 4).index t (1 : Fin 3) * 1 + 1 * 0 = (i 1).val
      have h : (i 1).val < 1 := (i 1).isLt
      rw [chunk14_idx4_1]; omega
    | ⟨2, _⟩ =>
      show ((cfg14 a).win 4).index t (2 : Fin 3) * 1 + 1 * 0 = (i 2).val
      have h : (i 2).val < 1 := (i 2).isLt
      rw [chunk14_idx4_2]; omega
  exact Finset.mem_map.mpr ⟨ValueIdx.ix3 (0 : Fin 1) (0 : Fin 1) (0 : Fin 1), Finset.mem_univ _, e⟩

/-- The score the body leaves at point `t`, as a term of the four input blocks there. -/
def chunk14_score (c : Dev nD) (t : Fin (cfg14 a).N) : Elt F .f32 :=
  out14 (iblk14 V a c 0 t) (iblk14 V a c 1 t) (iblk14 V a c 2 t) (iblk14 V a c 3 t) (ValueIdx.ix3 (0 : Fin 1) (0 : Fin 1) (0 : Fin 1))

/-- The whole output array the points write: at `(r, 0, 0)` point `r`'s score. -/
def chunk14_G (c : Dev nD) : S62500x1x1.Idx → Elt F .f32 :=
  fun i => chunk14_score V a c ⟨(i 0).val, (chunk14_N a).symm ▸ (i 0).isLt⟩

/-- What point `t` writes back is its block of that array. -/
theorem chunk14_flushed (c : Dev nD) (t : Fin (cfg14 a).N) :
    (dat14 V a c).flushed 4 t = (((cfg14 a).win 4).blk t).view.read (Elt F) (chunk14_G V a c) := by
  show ((cfg14 a).win 4).cut ((cfg14 a).grid.coords t) ((dat14 V a c).after 4 t) = _
  rw [after14_4]
  funext y
  show out14 (iblk14 V a c 0 t) (iblk14 V a c 1 t) (iblk14 V a c 2 t) (iblk14 V a c 3 t) (((cfg14 a).win 4).xinj ((cfg14 a).grid.coords t) y)
    = chunk14_G V a c ((((cfg14 a).win 4).blk t).view.emb y)
  refine (congrArg (out14 (iblk14 V a c 0 t) (iblk14 V a c 1 t) (iblk14 V a c 2 t) (iblk14 V a c 3 t)) (chunk14_cell _)).trans ?_
  show chunk14_score V a c t = chunk14_score V a c _
  refine congrArg (chunk14_score V a c) (Fin.ext ?_)
  show t.val = ((cfg14 a).win 4).index t (0 : Fin 3) * 1 + 1 * (y (0 : Fin 3)).val
  have h : (y (0 : Fin 3)).val < 1 := (y (0 : Fin 3)).isLt
  rw [chunk14_idx4_0]; omega

/-- The output array after the run, at `(t, 0, 0)`: point `t`'s score. -/
theorem chunk14_arr (c : Dev nD) (t : Fin (cfg14 a).N) (i : S62500x1x1.Idx) (hi : (i 0).val = t.val) :
    ((dat14 V a c).arrAt 4 (cfg14 a).N : S62500x1x1.Idx → Elt F .f32) i = chunk14_score V a c t := by
  refine ((dat14 V a c).arrAt_apply_of_mem 4 (chunk14_G V a c) (fun t _ => chunk14_flushed V a c t) (cfg14 a).N t i t.isLt
    (chunk14_flush a t) (chunk14_mem a t i hi)).trans ?_
  show chunk14_score V a c _ = chunk14_score V a c t
  exact congrArg (chunk14_score V a c) (Fin.ext hi)

end Array

/-! ## The output array at the exact-real instance -/

/-- The output array after region 14's pipeline, at edge `t`: the score of the two rows the tables name for `t` —
    at any buffers and any admissible contents of the tables; `h`, `W`, `b` name the feature, weight and bias arrays
    the region finds. -/
theorem chunk14_arr_at (V : (c : Dev nD) → (b : Ref sig .tc) → Buf (Elt Ideal) ((c : Thread nD τ).loc b))
    (a : (pcfg14 (F := Ideal)).Adm) (c : Dev nD) (t : Fin 62500) (rs rd : Fin 100000)
    (hrs : ((a.1 0 : S62500.Idx → BitVec 32) (ValueIdx.ix1 t)).toNat = rs.val)
    (hrd : ((a.1 1 : S62500.Idx → BitVec 32) (ValueIdx.ix1 t)).toNat = rd.val)
    (h : S100000x1x128.Idx → EReal) (W : S1x256.Idx → EReal) (b : S1x1.Idx → EReal)
    (hh : (V c main_v1 : S100000x1x128.Idx → EReal) = h) (hW : (V c main_arg3 : S1x256.Idx → EReal) = W)
    (hb : (V c main_v0 : S1x1.Idx → EReal) = b) :
    ((dat14 V a c).arrAt 4 (cfg14 a).N : S62500x1x1.Idx → EReal) (ValueIdx.ix3 t (0 : Fin 1) (0 : Fin 1))
      = (∑ j : Fin 128, h (ValueIdx.ix3 rs (0 : Fin 1) j) * W (ValueIdx.ix2 (0 : Fin 1) (Cert.Spec.lo j)))
        + (∑ j : Fin 128, h (ValueIdx.ix3 rd (0 : Fin 1) j) * W (ValueIdx.ix2 (0 : Fin 1) (Cert.Spec.hi j)))
        + b (ValueIdx.ix2 (0 : Fin 1) (0 : Fin 1)) := by
  have ht : t.val < (cfg14 a).N := (chunk14_N a).symm ▸ t.isLt
  refine (chunk14_arr V a c ⟨t.val, ht⟩ (ValueIdx.ix3 t (0 : Fin 1) (0 : Fin 1)) rfl).trans ?_
  unfold chunk14_score
  refine (out14_at (iblk14 V a c 0 ⟨t.val, ht⟩) (iblk14 V a c 1 ⟨t.val, ht⟩) (iblk14 V a c 2 ⟨t.val, ht⟩) (iblk14 V a c 3 ⟨t.val, ht⟩)).trans ?_
  refine congrArg₂ (· + ·) (congrArg₂ (· + ·) (Finset.sum_congr rfl fun j _ => ?_) (Finset.sum_congr rfl fun j _ => ?_)) ?_
  · exact congrArg₂ (· * ·)
      ((chunk14_blk0 V a c ⟨t.val, ht⟩ rs ((chunk14_idx0_0 a ⟨t.val, ht⟩ t rfl).trans hrs) j).trans (congrFun hh _))
      ((chunk14_blk2 V a c ⟨t.val, ht⟩ (Cert.Spec.lo j)).trans (congrFun hW _))
  · exact congrArg₂ (· * ·)
      ((chunk14_blk1 V a c ⟨t.val, ht⟩ rd ((chunk14_idx1_0 a ⟨t.val, ht⟩ t rfl).trans hrd) j).trans (congrFun hh _))
      ((chunk14_blk2 V a c ⟨t.val, ht⟩ (Cert.Spec.hi j)).trans (congrFun hW _))
  · exact (chunk14_blk3 V a c ⟨t.val, ht⟩).trans (congrFun hb _)

set_option maxHeartbeats 3200000 in
/-- Entry `t` of region 14's output chunk is edge `t`'s score, computed from the rows the two tables name: `rs` and `rd`
    are entry `t` of the two tables, and `h`, `W`, `b` the feature, weight and bias arrays as the region finds them. -/
theorem chunk14_at (m : (ℓ : Loc nD τ sig) → Buf (Elt Ideal) ℓ) (hO : Oks m) (c : Dev nD) (t : Fin 62500) (rs rd : Fin 100000)
    (hrs : ((tbl14 m 0 : S62500.Idx → BitVec 32) (ValueIdx.ix1 t)).toNat = rs.val)
    (hrd : ((tbl14 m 1 : S62500.Idx → BitVec 32) (ValueIdx.ix1 t)).toNat = rd.val)
    (h : S100000x1x128.Idx → EReal) (W : S1x256.Idx → EReal) (b : S1x1.Idx → EReal)
    (hh : (Ve14 m c main_v1 : S100000x1x128.Idx → EReal) = h) (hW : (Ve14 m c main_arg3 : S1x256.Idx → EReal) = W)
    (hb : (Ve14 m c main_v0 : S1x1.Idx → EReal) = b) :
    (chunk14 m hO c : S62500x1x1.Idx → EReal) (ValueIdx.ix3 t (0 : Fin 1) (0 : Fin 1))
      = (∑ j : Fin 128, h (ValueIdx.ix3 rs (0 : Fin 1) j) * W (ValueIdx.ix2 (0 : Fin 1) (Cert.Spec.lo j)))
        + (∑ j : Fin 128, h (ValueIdx.ix3 rd (0 : Fin 1) j) * W (ValueIdx.ix2 (0 : Fin 1) (Cert.Spec.hi j)))
        + b (ValueIdx.ix2 (0 : Fin 1) (0 : Fin 1)) := by
  have key := fun (hok : ok14 (F := Ideal) (tbl14 m)) =>
    chunk14_arr_at (Ve14 m) ⟨tbl14 m, hok⟩ c t rs rd hrs hrd h W b hh hW hb
  unfold chunk14
  exact key _

end Cert.KernelIdeal.Hand
end
-- ==== Proof.KIValue15.lean ====
/-
  Region 15's output chunk, entry by entry, at the exact-real instance.

  The region's pipeline has 62500 points, one per edge of its chunk. At point `t` the output window's block is the single
  cell `(t, 0, 0)` of the output array; the two gathered windows' blocks are rows `src t` and `dst t` of the feature
  array, `src t` and `dst t` being entry `t` of the two index tables read as natural numbers; the weight window's and the
  bias window's blocks are the whole arrays. The body leaves in the output block the score of the two rows,
    (∑ j < 128, h[src t, j] · W[0, j]) + (∑ j < 128, h[dst t, j] · W[0, 128 + j]) + b[0, 0].
  Every point writes its block back (the output's block index moves at every point) and point `t`'s block covers index
  `(t, 0, 0)`, so after the run the output array holds at `(t, 0, 0)` the score of point `t`. Every fact about the
  pipeline is proved with the tables' contents a variable; the region's own tables are put in last.
-/
import proofs.«405368_j31662498906597_2_alg».proof.Proof.KIFamily
import proofs.«405368_j31662498906597_2_alg».proof.Proof.PayloadAt
import proofs.«405368_j31662498906597_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

/-! ## The grid and the index maps, at any contents of the two tables -/

section Generic
variable {F : FTy → Type} [FloatOps F]
variable (V : (c : Dev nD) → (b : Ref sig .tc) → Buf (Elt F) ((c : Thread nD τ).loc b)) (a : (pcfg15 (F := F)).Adm)

/-- The grid has one axis of 62500 points, -/
theorem chunk15_N : (cfg15 a).N = 62500 := N_15

/-- consecutive points are consecutive along it, -/
theorem chunk15_stride : (cfg15 a).grid.stride 0 = 1 := (by decide : grid15.stride 0 = 1)

/-- so point `t`'s one coordinate is `t`. -/
theorem chunk15_coords (t : Fin (cfg15 a).N) : ((cfg15 a).grid.coords t 0).val = t.val := by
  have ht : t.val < 62500 := (chunk15_N a) ▸ t.isLt
  show t.val / (cfg15 a).grid.stride 0 % 62500 = t.val
  rw [chunk15_stride a, Nat.div_one, Nat.mod_eq_of_lt ht]

/-- The output window's block index at point `t` is `(t, 0, 0)`. -/
theorem chunk15_idx4_0 (t : Fin (cfg15 a).N) : ((cfg15 a).win 4).index t (0 : Fin 3) = t.val := by
  have ht : t.val < 62500 := (chunk15_N a) ▸ t.isLt
  show (BitVec.ofNat 32 ((cfg15 a).grid.coords t 0).val).toNat = t.val
  rw [chunk15_coords, BitVec.toNat_ofNat]
  omega
theorem chunk15_idx4_1 (t : Fin (cfg15 a).N) : ((cfg15 a).win 4).index t (1 : Fin 3) = 0 := rfl
theorem chunk15_idx4_2 (t : Fin (cfg15 a).N) : ((cfg15 a).win 4).index t (2 : Fin 3) = 0 := rfl

/-- The source window's block index at point `t` is `(src t, 0, 0)`, `src t` the first table's entry `t` read as a natural number, -/
theorem chunk15_idx0_0 (t : Fin (cfg15 a).N) (e : Fin 62500) (he : e.val = t.val) :
    ((cfg15 a).win 0).index t (0 : Fin 3) = ((a.1 0 : S62500.Idx → BitVec 32) (ValueIdx.ix1 e)).toNat := by
  have ht : t.val < 62500 := (chunk15_N a) ▸ t.isLt
  show ((a.1 0 : S62500.Idx → BitVec 32) _).toNat = _
  refine congrArg (fun i => ((a.1 0 : S62500.Idx → BitVec 32) i).toNat) ?_
  funext ax
  apply Fin.ext
  match ax with
  | ⟨0, _⟩ =>
    show (Scalar.indexCast (BitVec.ofNat 32 ((cfg15 a).grid.coords t 0).val)).toNat + 1 * 0 = e.val
    rw [chunk15_coords, he]
    show (BitVec.ofNat 32 t.val).toNat + 1 * 0 = t.val
    rw [BitVec.toNat_ofNat]
    omega
theorem chunk15_idx0_1 (t : Fin (cfg15 a).N) : ((cfg15 a).win 0).index t (1 : Fin 3) = 0 := rfl
theorem chunk15_idx0_2 (t : Fin (cfg15 a).N) : ((cfg15 a).win 0).index t (2 : Fin 3) = 0 := rfl

/-- and the destination window's is `(dst t, 0, 0)`, from the second table. -/
theorem chunk15_idx1_0 (t : Fin (cfg15 a).N) (e : Fin 62500) (he : e.val = t.val) :
    ((cfg15 a).win 1).index t (0 : Fin 3) = ((a.1 1 : S62500.Idx → BitVec 32) (ValueIdx.ix1 e)).toNat := by
  have ht : t.val < 62500 := (chunk15_N a) ▸ t.isLt
  show ((a.1 1 : S62500.Idx → BitVec 32) _).toNat = _
  refine congrArg (fun i => ((a.1 1 : S62500.Idx → BitVec 32) i).toNat) ?_
  funext ax
  apply Fin.ext
  match ax with
  | ⟨0, _⟩ =>
    show (Scalar.indexCast (BitVec.ofNat 32 ((cfg15 a).grid.coords t 0).val)).toNat + 1 * 0 = e.val
    rw [chunk15_coords, he]
    show (BitVec.ofNat 32 t.val).toNat + 1 * 0 = t.val
    rw [BitVec.toNat_ofNat]
    omega
theorem chunk15_idx1_1 (t : Fin (cfg15 a).N) : ((cfg15 a).win 1).index t (1 : Fin 3) = 0 := rfl
theorem chunk15_idx1_2 (t : Fin (cfg15 a).N) : ((cfg15 a).win 1).index t (2 : Fin 3) = 0 := rfl

end Generic

/-! ## The five blocks at a point, read where the arrays are -/

section Blocks
variable {F : FTy → Type} [FloatOps F]
variable (V : (c : Dev nD) → (b : Ref sig .tc) → Buf (Elt F) ((c : Thread nD τ).loc b)) (a : (pcfg15 (F := F)).Adm)

/-- The source window's block at point `t` is row `rs` of the feature array when its block index there is `rs`. -/
theorem chunk15_blk0 (c : Dev nD) (t : Fin (cfg15 a).N) (rs : Fin 100000)
    (hrs : ((cfg15 a).win 0).index t (0 : Fin 3) = rs.val) (j : Fin 128) :
    (iblk15 V a c 0 t : Vec F S1x1x128 .f32) (ValueIdx.ix3 (0 : Fin 1) (0 : Fin 1) j)
      = (V c main_v1 : S100000x1x128.Idx → Elt F .f32) (ValueIdx.ix3 rs (0 : Fin 1) j) := by
  show V c main_v1 ((((cfg15 a).win 0).blk t).view.emb (ValueIdx.ix3 (0 : Fin 1) (0 : Fin 1) j)) = V c main_v1 (ValueIdx.ix3 rs (0 : Fin 1) j)
  refine congrArg (V c main_v1) ?_
  funext ax
  apply Fin.ext
  match ax with
  | ⟨0, _⟩ => show ((cfg15 a).win 0).index t (0 : Fin 3) * 1 + 1 * 0 = rs.val; rw [hrs]; omega
  | ⟨1, _⟩ => show ((cfg15 a).win 0).index t (1 : Fin 3) * 1 + 1 * 0 = 0; rw [chunk15_idx0_1]
  | ⟨2, _⟩ => show ((cfg15 a).win 0).index t (2 : Fin 3) * 128 + 1 * j.val = j.val; rw [chunk15_idx0_2]; omega

/-- The destination window's block likewise, at its own block index. -/
theorem chunk15_blk1 (c : Dev nD) (t : Fin (cfg15 a).N) (rd : Fin 100000)
    (hrd : ((cfg15 a).win 1).index t (0 : Fin 3) = rd.val) (j : Fin 128) :
    (iblk15 V a c 1 t : Vec F S1x1x128 .f32) (ValueIdx.ix3 (0 : Fin 1) (0 : Fin 1) j)
      = (V c main_v1 : S100000x1x128.Idx → Elt F .f32) (ValueIdx.ix3 rd (0 : Fin 1) j) := by
  show V c main_v1 ((((cfg15 a).win 1).blk t).view.emb (ValueIdx.ix3 (0 : Fin 1) (0 : Fin 1) j)) = V c main_v1 (ValueIdx.ix3 rd (0 : Fin 1) j)
  refine congrArg (V c main_v1) ?_
  funext ax
  apply Fin.ext
  match ax with
  | ⟨0, _⟩ => show ((cfg15 a).win 1).index t (0 : Fin 3) * 1 + 1 * 0 = rd.val; rw [hrd]; omega
  | ⟨1, _⟩ => show ((cfg15 a).win 1).index t (1 : Fin 3) * 1 + 1 * 0 = 0; rw [chunk15_idx1_1]
  | ⟨2, _⟩ => show ((cfg15 a).win 1).index t (2 : Fin 3) * 128 + 1 * j.val = j.val; rw [chunk15_idx1_2]; omega

/-- The weights' block is the whole weight array, -/
theorem chunk15_blk2 (c : Dev nD) (t : Fin (cfg15 a).N) (k : Fin 256) :
    (iblk15 V a c 2 t : Vec F S1x256 .f32) (ValueIdx.ix2 (0 : Fin 1) k)
      = (V c main_arg3 : S1x256.Idx → Elt F .f32) (ValueIdx.ix2 (0 : Fin 1) k) := by
  show V c main_arg3 ((((cfg15 a).win 2).blk t).view.emb (ValueIdx.ix2 (0 : Fin 1) k)) = V c main_arg3 (ValueIdx.ix2 (0 : Fin 1) k)
  refine congrArg (V c main_arg3) ?_
  funext ax
  apply Fin.ext
  match ax with
  | ⟨0, _⟩ => show ((cfg15 a).win 2).index t (0 : Fin 2) * 1 + 1 * 0 = 0; rfl
  | ⟨1, _⟩ => show ((cfg15 a).win 2).index t (1 : Fin 2) * 256 + 1 * k.val = k.val; rw [show ((cfg15 a).win 2).index t (1 : Fin 2) = 0 from rfl]; omega

/-- and the bias's block the whole bias array. -/
theorem chunk15_blk3 (c : Dev nD) (t : Fin (cfg15 a).N) :
    (iblk15 V a c 3 t : Vec F S1x1 .f32) (ValueIdx.ix2 (0 : Fin 1) (0 : Fin 1))
      = (V c main_v0 : S1x1.Idx → Elt F .f32) (ValueIdx.ix2 (0 : Fin 1) (0 : Fin 1)) := by
  show V c main_v0 ((((cfg15 a).win 3).blk t).view.emb (ValueIdx.ix2 (0 : Fin 1) (0 : Fin 1))) = V c main_v0 (ValueIdx.ix2 (0 : Fin 1) (0 : Fin 1))
  refine congrArg (V c main_v0) ?_
  funext ax
  apply Fin.ext
  match ax with
  | ⟨0, _⟩ => show ((cfg15 a).win 3).index t (0 : Fin 2) * 1 + 1 * 0 = 0; rfl
  | ⟨1, _⟩ => show ((cfg15 a).win 3).index t (1 : Fin 2) * 1 + 1 * 0 = 0; rfl

end Blocks

/-! ## The score the body stores, from its four input buffers -/

theorem chunk15_hz3 : (![0, 0, 0] : Fin 3 → Nat) = fun _ => 0 := funext fun ax => by fin_cases ax <;> rfl
theorem chunk15_hz2 : (![0, 0] : Fin 2 → Nat) = fun _ => 0 := funext fun ax => by fin_cases ax <;> rfl

/-- A one-cell block has the one index. -/
theorem chunk15_cell (y : S1x1x1.Idx) : y = ValueIdx.ix3 (0 : Fin 1) (0 : Fin 1) (0 : Fin 1) := by
  funext ax
  apply Fin.ext
  match ax with
  | ⟨0, _⟩ => show (y 0).val = 0; have h : (y 0).val < 1 := (y 0).isLt; omega
  | ⟨1, _⟩ => show (y 1).val = 0; have h : (y 1).val < 1 := (y 1).isLt; omega
  | ⟨2, _⟩ => show (y 2).val = 0; have h : (y 2).val < 1 := (y 2).isLt; omega

/-- The stored value at its one index: the two 128-term sums of entrywise products plus the last operand's entry
    (a lane sum over a one-row block is the sum of the row's entries). -/
theorem chunk15_pay (v0 v1 : Vec Ideal S1x128 .f32) (v2 v7 : Vec Ideal S1x1x128 .f32) (v13 : Vec Ideal S1x1 .f32) :
    k15_pay1 (F := Ideal) v0 v1 v2 v7 v13 (ValueIdx.ix3 (0 : Fin 1) (0 : Fin 1) (0 : Fin 1))
      = (∑ j : Fin 128, v2 (ValueIdx.ix3 (0 : Fin 1) (0 : Fin 1) j) * v0 (ValueIdx.ix2 (0 : Fin 1) j))
        + (∑ j : Fin 128, v7 (ValueIdx.ix3 (0 : Fin 1) (0 : Fin 1) j) * v1 (ValueIdx.ix2 (0 : Fin 1) j))
        + v13 (ValueIdx.ix2 (0 : Fin 1) (0 : Fin 1)) := by
  unfold k15_pay1
  rw [shapeCast_ab_1ab_apply, addf_apply, addf_apply, shapeCast_self, shapeCast_a_1a_apply, shapeCast_a_1a_apply,
    Cert.PayloadAt.laneSum_at, Cert.PayloadAt.laneSum_at]
  simp only [mulf_apply, shapeCast_1ab_ab_apply]

/-- A load of the first half of the weights reads column `j`, of the second half column `128 + j`. -/
theorem chunk15_ldW0 (x : Vec Ideal S1x256 .f32) (j : Fin 128) :
    View.ld x rW0 (ValueIdx.ix2 (0 : Fin 1) j) = x (ValueIdx.ix2 (0 : Fin 1) (Cert.Spec.lo j)) := by
  show x _ = x _
  refine congrArg x ?_
  funext ax
  apply Fin.ext
  match ax with
  | ⟨0, _⟩ => show 0 + 1 * 0 = 0; rfl
  | ⟨1, _⟩ => show 0 + 1 * j.val = j.val; omega
theorem chunk15_ldW1 (x : Vec Ideal S1x256 .f32) (j : Fin 128) :
    View.ld x rW1 (ValueIdx.ix2 (0 : Fin 1) j) = x (ValueIdx.ix2 (0 : Fin 1) (Cert.Spec.hi j)) := by
  show x _ = x _
  refine congrArg x ?_
  funext ax
  apply Fin.ext
  match ax with
  | ⟨0, _⟩ => show 0 + 1 * 0 = 0; rfl
  | ⟨1, _⟩ => show 128 + 1 * j.val = 128 + j.val; omega

/-- The output buffer's one cell after the body: row `x0` against the first 128 weights, row `x1` against the last
    128, plus the bias. -/
theorem out15_at (x0 x1 : Vec Ideal S1x1x128 .f32) (x2 : Vec Ideal S1x256 .f32) (x3 : Vec Ideal S1x1 .f32) :
    out15 x0 x1 x2 x3 (ValueIdx.ix3 (0 : Fin 1) (0 : Fin 1) (0 : Fin 1))
      = (∑ j : Fin 128, x0 (ValueIdx.ix3 (0 : Fin 1) (0 : Fin 1) j) * x2 (ValueIdx.ix2 (0 : Fin 1) (Cert.Spec.lo j)))
        + (∑ j : Fin 128, x1 (ValueIdx.ix3 (0 : Fin 1) (0 : Fin 1) j) * x2 (ValueIdx.ix2 (0 : Fin 1) (Cert.Spec.hi j)))
        + x3 (ValueIdx.ix2 (0 : Fin 1) (0 : Fin 1)) := by
  unfold out15
  rw [View.canon_unit_zero chunk15_hz3, chunk15_pay,
    View.ld_unit_zero (S := S1x1x128) chunk15_hz3, View.ld_unit_zero (S := S1x1x128) chunk15_hz3, View.ld_unit_zero (S := S1x1) chunk15_hz2]
  refine congrArg₂ (· + ·) (congrArg₂ (· + ·) (Finset.sum_congr rfl fun j _ => ?_) (Finset.sum_congr rfl fun j _ => ?_)) rfl
  · exact congrArg (fun z => x0 (ValueIdx.ix3 (0 : Fin 1) (0 : Fin 1) j) * z) (chunk15_ldW0 x2 j)
  · exact congrArg (fun z => x1 (ValueIdx.ix3 (0 : Fin 1) (0 : Fin 1) j) * z) (chunk15_ldW1 x2 j)

/-! ## From the blocks to the output array -/

section Array
variable {F : FTy → Type} [FloatOps F]
variable (V : (c : Dev nD) → (b : Ref sig .tc) → Buf (Elt F) ((c : Thread nD τ).loc b)) (a : (pcfg15 (F := F)).Adm)

/-- The output's block index moves at every point, so every point writes its block back. -/
theorem chunk15_flush (t : Fin (cfg15 a).N) : ((cfg15 a).win 4).flush t = true := by
  have hN : (cfg15 a).grid.N = 62500 := N_15
  have ht : t.val < 62500 := (chunk15_N a) ▸ t.isLt
  rw [Window.flush_out _ rfl]
  by_cases h : t.val + 1 = 62500
  · exact Or.inl (h.trans hN.symm)
  · refine Or.inr ⟨Nat.lt_of_lt_of_eq (by omega : t.val + 1 < 62500) hN.symm, fun e => ?_⟩
    have e0 := congrFun e (0 : Fin 3)
    rw [chunk15_idx4_0, chunk15_idx4_0] at e0
    exact absurd e0 (Nat.succ_ne_self _)

/-- Point `t`'s block is the one cell `(t, 0, 0)` of the output array. -/
theorem chunk15_mem (t : Fin (cfg15 a).N) (i : S62500x1x1.Idx) (hi : (i 0).val = t.val) :
    i ∈ (((cfg15 a).win 4).blk t).view.set := by
  have e : (((cfg15 a).win 4).blk t).view.emb (ValueIdx.ix3 (0 : Fin 1) (0 : Fin 1) (0 : Fin 1)) = i := by
    funext ax
    apply Fin.ext
    match ax with
    | ⟨0, _⟩ =>
      show ((cfg15 a).win 4).index t (0 : Fin 3) * 1 + 1 * 0 = (i 0).val
      rw [chunk15_idx4_0]; omega
    | ⟨1, _⟩ =>
      show ((cfg15 a).win 4).index t (1 : Fin 3) * 1 + 1 * 0 = (i 1).val
      have h : (i 1).val < 1 := (i 1).isLt
      rw [chunk15_idx4_1]; omega
    | ⟨2, _⟩ =>
      show ((cfg15 a).win 4).index t (2 : Fin 3) * 1 + 1 * 0 = (i 2).val
      have h : (i 2).val < 1 := (i 2).isLt
      rw [chunk15_idx4_2]; omega
  exact Finset.mem_map.mpr ⟨ValueIdx.ix3 (0 : Fin 1) (0 : Fin 1) (0 : Fin 1), Finset.mem_univ _, e⟩

/-- The score the body leaves at point `t`, as a term of the four input blocks there. -/
def chunk15_score (c : Dev nD) (t : Fin (cfg15 a).N) : Elt F .f32 :=
  out15 (iblk15 V a c 0 t) (iblk15 V a c 1 t) (iblk15 V a c 2 t) (iblk15 V a c 3 t) (ValueIdx.ix3 (0 : Fin 1) (0 : Fin 1) (0 : Fin 1))

/-- The whole output array the points write: at `(r, 0, 0)` point `r`'s score. -/
def chunk15_G (c : Dev nD) : S62500x1x1.Idx → Elt F .f32 :=
  fun i => chunk15_score V a c ⟨(i 0).val, (chunk15_N a).symm ▸ (i 0).isLt⟩

/-- What point `t` writes back is its block of that array. -/
theorem chunk15_flushed (c : Dev nD) (t : Fin (cfg15 a).N) :
    (dat15 V a c).flushed 4 t = (((cfg15 a).win 4).blk t).view.read (Elt F) (chunk15_G V a c) := by
  show ((cfg15 a).win 4).cut ((cfg15 a).grid.coords t) ((dat15 V a c).after 4 t) = _
  rw [after15_4]
  funext y
  show out15 (iblk15 V a c 0 t) (iblk15 V a c 1 t) (iblk15 V a c 2 t) (iblk15 V a c 3 t) (((cfg15 a).win 4).xinj ((cfg15 a).grid.coords t) y)
    = chunk15_G V a c ((((cfg15 a).win 4).blk t).view.emb y)
  refine (congrArg (out15 (iblk15 V a c 0 t) (iblk15 V a c 1 t) (iblk15 V a c 2 t) (iblk15 V a c 3 t)) (chunk15_cell _)).trans ?_
  show chunk15_score V a c t = chunk15_score V a c _
  refine congrArg (chunk15_score V a c) (Fin.ext ?_)
  show t.val = ((cfg15 a).win 4).index t (0 : Fin 3) * 1 + 1 * (y (0 : Fin 3)).val
  have h : (y (0 : Fin 3)).val < 1 := (y (0 : Fin 3)).isLt
  rw [chunk15_idx4_0]; omega

/-- The output array after the run, at `(t, 0, 0)`: point `t`'s score. -/
theorem chunk15_arr (c : Dev nD) (t : Fin (cfg15 a).N) (i : S62500x1x1.Idx) (hi : (i 0).val = t.val) :
    ((dat15 V a c).arrAt 4 (cfg15 a).N : S62500x1x1.Idx → Elt F .f32) i = chunk15_score V a c t := by
  refine ((dat15 V a c).arrAt_apply_of_mem 4 (chunk15_G V a c) (fun t _ => chunk15_flushed V a c t) (cfg15 a).N t i t.isLt
    (chunk15_flush a t) (chunk15_mem a t i hi)).trans ?_
  show chunk15_score V a c _ = chunk15_score V a c t
  exact congrArg (chunk15_score V a c) (Fin.ext hi)

end Array

/-! ## The output array at the exact-real instance -/

/-- The output array after region 15's pipeline, at edge `t`: the score of the two rows the tables name for `t` —
    at any buffers and any admissible contents of the tables; `h`, `W`, `b` name the feature, weight and bias arrays
    the region finds. -/
theorem chunk15_arr_at (V : (c : Dev nD) → (b : Ref sig .tc) → Buf (Elt Ideal) ((c : Thread nD τ).loc b))
    (a : (pcfg15 (F := Ideal)).Adm) (c : Dev nD) (t : Fin 62500) (rs rd : Fin 100000)
    (hrs : ((a.1 0 : S62500.Idx → BitVec 32) (ValueIdx.ix1 t)).toNat = rs.val)
    (hrd : ((a.1 1 : S62500.Idx → BitVec 32) (ValueIdx.ix1 t)).toNat = rd.val)
    (h : S100000x1x128.Idx → EReal) (W : S1x256.Idx → EReal) (b : S1x1.Idx → EReal)
    (hh : (V c main_v1 : S100000x1x128.Idx → EReal) = h) (hW : (V c main_arg3 : S1x256.Idx → EReal) = W)
    (hb : (V c main_v0 : S1x1.Idx → EReal) = b) :
    ((dat15 V a c).arrAt 4 (cfg15 a).N : S62500x1x1.Idx → EReal) (ValueIdx.ix3 t (0 : Fin 1) (0 : Fin 1))
      = (∑ j : Fin 128, h (ValueIdx.ix3 rs (0 : Fin 1) j) * W (ValueIdx.ix2 (0 : Fin 1) (Cert.Spec.lo j)))
        + (∑ j : Fin 128, h (ValueIdx.ix3 rd (0 : Fin 1) j) * W (ValueIdx.ix2 (0 : Fin 1) (Cert.Spec.hi j)))
        + b (ValueIdx.ix2 (0 : Fin 1) (0 : Fin 1)) := by
  have ht : t.val < (cfg15 a).N := (chunk15_N a).symm ▸ t.isLt
  refine (chunk15_arr V a c ⟨t.val, ht⟩ (ValueIdx.ix3 t (0 : Fin 1) (0 : Fin 1)) rfl).trans ?_
  unfold chunk15_score
  refine (out15_at (iblk15 V a c 0 ⟨t.val, ht⟩) (iblk15 V a c 1 ⟨t.val, ht⟩) (iblk15 V a c 2 ⟨t.val, ht⟩) (iblk15 V a c 3 ⟨t.val, ht⟩)).trans ?_
  refine congrArg₂ (· + ·) (congrArg₂ (· + ·) (Finset.sum_congr rfl fun j _ => ?_) (Finset.sum_congr rfl fun j _ => ?_)) ?_
  · exact congrArg₂ (· * ·)
      ((chunk15_blk0 V a c ⟨t.val, ht⟩ rs ((chunk15_idx0_0 a ⟨t.val, ht⟩ t rfl).trans hrs) j).trans (congrFun hh _))
      ((chunk15_blk2 V a c ⟨t.val, ht⟩ (Cert.Spec.lo j)).trans (congrFun hW _))
  · exact congrArg₂ (· * ·)
      ((chunk15_blk1 V a c ⟨t.val, ht⟩ rd ((chunk15_idx1_0 a ⟨t.val, ht⟩ t rfl).trans hrd) j).trans (congrFun hh _))
      ((chunk15_blk2 V a c ⟨t.val, ht⟩ (Cert.Spec.hi j)).trans (congrFun hW _))
  · exact (chunk15_blk3 V a c ⟨t.val, ht⟩).trans (congrFun hb _)

set_option maxHeartbeats 3200000 in
/-- Entry `t` of region 15's output chunk is edge `t`'s score, computed from the rows the two tables name: `rs` and `rd`
    are entry `t` of the two tables, and `h`, `W`, `b` the feature, weight and bias arrays as the region finds them. -/
theorem chunk15_at (m : (ℓ : Loc nD τ sig) → Buf (Elt Ideal) ℓ) (hO : Oks m) (c : Dev nD) (t : Fin 62500) (rs rd : Fin 100000)
    (hrs : ((tbl15 m 0 : S62500.Idx → BitVec 32) (ValueIdx.ix1 t)).toNat = rs.val)
    (hrd : ((tbl15 m 1 : S62500.Idx → BitVec 32) (ValueIdx.ix1 t)).toNat = rd.val)
    (h : S100000x1x128.Idx → EReal) (W : S1x256.Idx → EReal) (b : S1x1.Idx → EReal)
    (hh : (Ve15 m c main_v1 : S100000x1x128.Idx → EReal) = h) (hW : (Ve15 m c main_arg3 : S1x256.Idx → EReal) = W)
    (hb : (Ve15 m c main_v0 : S1x1.Idx → EReal) = b) :
    (chunk15 m hO c : S62500x1x1.Idx → EReal) (ValueIdx.ix3 t (0 : Fin 1) (0 : Fin 1))
      = (∑ j : Fin 128, h (ValueIdx.ix3 rs (0 : Fin 1) j) * W (ValueIdx.ix2 (0 : Fin 1) (Cert.Spec.lo j)))
        + (∑ j : Fin 128, h (ValueIdx.ix3 rd (0 : Fin 1) j) * W (ValueIdx.ix2 (0 : Fin 1) (Cert.Spec.hi j)))
        + b (ValueIdx.ix2 (0 : Fin 1) (0 : Fin 1)) := by
  have key := fun (hok : ok15 (F := Ideal) (tbl15 m)) =>
    chunk15_arr_at (Ve15 m) ⟨tbl15 m, hok⟩ c t rs rd hrs hrd h W b hh hW hb
  unfold chunk15
  exact key _

end Cert.KernelIdeal.Hand
end
-- ==== Proof.KIBridgeArms.lean ====
/-
  Rows `62500 * k + t` of the program's result are the specification's scores, region by region: the general statement
  `arm` at region `k`'s facts — where the result's row comes from, what the region leaves there, its two tables' words,
  and the arrays it reads.
-/
import proofs.«405368_j31662498906597_2_alg».proof.Proof.KIBridgeBase
import proofs.«405368_j31662498906597_2_alg».proof.Proof.KIHostValue
import proofs.«405368_j31662498906597_2_alg».proof.Proof.KIHostValueGen
import proofs.«405368_j31662498906597_2_alg».proof.Proof.KIValue0
import proofs.«405368_j31662498906597_2_alg».proof.Proof.KIValue1
import proofs.«405368_j31662498906597_2_alg».proof.Proof.KIValue2
import proofs.«405368_j31662498906597_2_alg».proof.Proof.KIValue3
import proofs.«405368_j31662498906597_2_alg».proof.Proof.KIValue4
import proofs.«405368_j31662498906597_2_alg».proof.Proof.KIValue5
import proofs.«405368_j31662498906597_2_alg».proof.Proof.KIValue6
import proofs.«405368_j31662498906597_2_alg».proof.Proof.KIValue7
import proofs.«405368_j31662498906597_2_alg».proof.Proof.KIValue8
import proofs.«405368_j31662498906597_2_alg».proof.Proof.KIValue9
import proofs.«405368_j31662498906597_2_alg».proof.Proof.KIValue10
import proofs.«405368_j31662498906597_2_alg».proof.Proof.KIValue11
import proofs.«405368_j31662498906597_2_alg».proof.Proof.KIValue12
import proofs.«405368_j31662498906597_2_alg».proof.Proof.KIValue13
import proofs.«405368_j31662498906597_2_alg».proof.Proof.KIValue14
import proofs.«405368_j31662498906597_2_alg».proof.Proof.KIValue15

set_option maxRecDepth 16384

noncomputable section

namespace Cert.KernelIdeal.Hand

open Idealize.ShloMosaic Idealize.ShloMosaic.TcCoe
open Cert.KernelIdeal Cert.KernelIdeal.Gen
open scoped BigOperators

variable [Cert.Pre_finite_inputs.Facts] (m : (ℓ : Loc nD τ sig) → Buf (Elt Ideal) ℓ)

/-- Rows `62500 * 0 + t` of the result: region 0's scores. -/
theorem result_at0 (hpre : PreArgs m) (hO : Oks m) (c : Dev nD) (t : Fin 62500) :
    (V33 m (outsR m hO) c main_v67 : S1000000x1.Idx → EReal) (ValueIdx.ix2 ⟨62500 * 0 + t.val, by omega⟩ (0 : Fin 1))
      = Cert.Spec.score (m ((c.tc : Thread nD τ).loc main_arg0)) (m ((c.tc : Thread nD τ).loc main_arg3))
          (m ((c.tc : Thread nD τ).loc main_arg4)) (rowS m hpre c ⟨62500 * 0 + t.val, by omega⟩)
          (rowD m hpre c ⟨62500 * 0 + t.val, by omega⟩) :=
  arm m hpre c ⟨62500 * 0 + t.val, by omega⟩ _ _ _ (tbl0_src_at m t) (tbl0_dst_at m t)
    (Ve0 m c main_v1) (Ve0 m c main_arg3) (Ve0 m c main_v0) _ _ _
    (fun r j => ent0_h m c r j) (ent0_W m c) (ent0_b m c)
    (fun rs rd hrs hrd => by
      rw [tail0_at, outsR_0]
      exact chunk0_at m hO c t rs rd hrs hrd _ _ _ rfl rfl rfl)

/-- Rows `62500 * 1 + t` of the result: region 1's scores. -/
theorem result_at1 (hpre : PreArgs m) (hO : Oks m) (c : Dev nD) (t : Fin 62500) :
    (V33 m (outsR m hO) c main_v67 : S1000000x1.Idx → EReal) (ValueIdx.ix2 ⟨62500 * 1 + t.val, by omega⟩ (0 : Fin 1))
      = Cert.Spec.score (m ((c.tc : Thread nD τ).loc main_arg0)) (m ((c.tc : Thread nD τ).loc main_arg3))
          (m ((c.tc : Thread nD τ).loc main_arg4)) (rowS m hpre c ⟨62500 * 1 + t.val, by omega⟩)
          (rowD m hpre c ⟨62500 * 1 + t.val, by omega⟩) :=
  arm m hpre c ⟨62500 * 1 + t.val, by omega⟩ _ _ _ (tbl1_src_at m t) (tbl1_dst_at m t)
    (Ve1 m c main_v1) (Ve1 m c main_arg3) (Ve1 m c main_v0) _ _ _
    (fun r j => ent1_h m (outsL m) c r j) (ent1_W m (outsL m) c) (ent1_b m (outsL m) c)
    (fun rs rd hrs hrd => by
      rw [tail1_at, outsR_1]
      exact chunk1_at m hO c t rs rd hrs hrd _ _ _ rfl rfl rfl)

/-- Rows `62500 * 2 + t` of the result: region 2's scores. -/
theorem result_at2 (hpre : PreArgs m) (hO : Oks m) (c : Dev nD) (t : Fin 62500) :
    (V33 m (outsR m hO) c main_v67 : S1000000x1.Idx → EReal) (ValueIdx.ix2 ⟨62500 * 2 + t.val, by omega⟩ (0 : Fin 1))
      = Cert.Spec.score (m ((c.tc : Thread nD τ).loc main_arg0)) (m ((c.tc : Thread nD τ).loc main_arg3))
          (m ((c.tc : Thread nD τ).loc main_arg4)) (rowS m hpre c ⟨62500 * 2 + t.val, by omega⟩)
          (rowD m hpre c ⟨62500 * 2 + t.val, by omega⟩) :=
  arm m hpre c ⟨62500 * 2 + t.val, by omega⟩ _ _ _ (tbl2_src_at m t) (tbl2_dst_at m t)
    (Ve2 m c main_v1) (Ve2 m c main_arg3) (Ve2 m c main_v0) _ _ _
    (fun r j => ent2_h m (outsL m) c r j) (ent2_W m (outsL m) c) (ent2_b m (outsL m) c)
    (fun rs rd hrs hrd => by
      rw [tail2_at, outsR_2]
      exact chunk2_at m hO c t rs rd hrs hrd _ _ _ rfl rfl rfl)

/-- Rows `62500 * 3 + t` of the result: region 3's scores. -/
theorem result_at3 (hpre : PreArgs m) (hO : Oks m) (c : Dev nD) (t : Fin 62500) :
    (V33 m (outsR m hO) c main_v67 : S1000000x1.Idx → EReal) (ValueIdx.ix2 ⟨62500 * 3 + t.val, by omega⟩ (0 : Fin 1))
      = Cert.Spec.score (m ((c.tc : Thread nD τ).loc main_arg0)) (m ((c.tc : Thread nD τ).loc main_arg3))
          (m ((c.tc : Thread nD τ).loc main_arg4)) (rowS m hpre c ⟨62500 * 3 + t.val, by omega⟩)
          (rowD m hpre c ⟨62500 * 3 + t.val, by omega⟩) :=
  arm m hpre c ⟨62500 * 3 + t.val, by omega⟩ _ _ _ (tbl3_src_at m t) (tbl3_dst_at m t)
    (Ve3 m c main_v1) (Ve3 m c main_arg3) (Ve3 m c main_v0) _ _ _
    (fun r j => ent3_h m (outsL m) c r j) (ent3_W m (outsL m) c) (ent3_b m (outsL m) c)
    (fun rs rd hrs hrd => by
      rw [tail3_at, outsR_3]
      exact chunk3_at m hO c t rs rd hrs hrd _ _ _ rfl rfl rfl)

/-- Rows `62500 * 4 + t` of the result: region 4's scores. -/
theorem result_at4 (hpre : PreArgs m) (hO : Oks m) (c : Dev nD) (t : Fin 62500) :
    (V33 m (outsR m hO) c main_v67 : S1000000x1.Idx → EReal) (ValueIdx.ix2 ⟨62500 * 4 + t.val, by omega⟩ (0 : Fin 1))
      = Cert.Spec.score (m ((c.tc : Thread nD τ).loc main_arg0)) (m ((c.tc : Thread nD τ).loc main_arg3))
          (m ((c.tc : Thread nD τ).loc main_arg4)) (rowS m hpre c ⟨62500 * 4 + t.val, by omega⟩)
          (rowD m hpre c ⟨62500 * 4 + t.val, by omega⟩) :=
  arm m hpre c ⟨62500 * 4 + t.val, by omega⟩ _ _ _ (tbl4_src_at m t) (tbl4_dst_at m t)
    (Ve4 m c main_v1) (Ve4 m c main_arg3) (Ve4 m c main_v0) _ _ _
    (fun r j => ent4_h m (outsL m) c r j) (ent4_W m (outsL m) c) (ent4_b m (outsL m) c)
    (fun rs rd hrs hrd => by
      rw [tail4_at, outsR_4]
      exact chunk4_at m hO c t rs rd hrs hrd _ _ _ rfl rfl rfl)

/-- Rows `62500 * 5 + t` of the result: region 5's scores. -/
theorem result_at5 (hpre : PreArgs m) (hO : Oks m) (c : Dev nD) (t : Fin 62500) :
    (V33 m (outsR m hO) c main_v67 : S1000000x1.Idx → EReal) (ValueIdx.ix2 ⟨62500 * 5 + t.val, by omega⟩ (0 : Fin 1))
      = Cert.Spec.score (m ((c.tc : Thread nD τ).loc main_arg0)) (m ((c.tc : Thread nD τ).loc main_arg3))
          (m ((c.tc : Thread nD τ).loc main_arg4)) (rowS m hpre c ⟨62500 * 5 + t.val, by omega⟩)
          (rowD m hpre c ⟨62500 * 5 + t.val, by omega⟩) :=
  arm m hpre c ⟨62500 * 5 + t.val, by omega⟩ _ _ _ (tbl5_src_at m t) (tbl5_dst_at m t)
    (Ve5 m c main_v1) (Ve5 m c main_arg3) (Ve5 m c main_v0) _ _ _
    (fun r j => ent5_h m (outsL m) c r j) (ent5_W m (outsL m) c) (ent5_b m (outsL m) c)
    (fun rs rd hrs hrd => by
      rw [tail5_at, outsR_5]
      exact chunk5_at m hO c t rs rd hrs hrd _ _ _ rfl rfl rfl)

/-- Rows `62500 * 6 + t` of the result: region 6's scores. -/
theorem result_at6 (hpre : PreArgs m) (hO : Oks m) (c : Dev nD) (t : Fin 62500) :
    (V33 m (outsR m hO) c main_v67 : S1000000x1.Idx → EReal) (ValueIdx.ix2 ⟨62500 * 6 + t.val, by omega⟩ (0 : Fin 1))
      = Cert.Spec.score (m ((c.tc : Thread nD τ).loc main_arg0)) (m ((c.tc : Thread nD τ).loc main_arg3))
          (m ((c.tc : Thread nD τ).loc main_arg4)) (rowS m hpre c ⟨62500 * 6 + t.val, by omega⟩)
          (rowD m hpre c ⟨62500 * 6 + t.val, by omega⟩) :=
  arm m hpre c ⟨62500 * 6 + t.val, by omega⟩ _ _ _ (tbl6_src_at m t) (tbl6_dst_at m t)
    (Ve6 m c main_v1) (Ve6 m c main_arg3) (Ve6 m c main_v0) _ _ _
    (fun r j => ent6_h m (outsL m) c r j) (ent6_W m (outsL m) c) (ent6_b m (outsL m) c)
    (fun rs rd hrs hrd => by
      rw [tail6_at, outsR_6]
      exact chunk6_at m hO c t rs rd hrs hrd _ _ _ rfl rfl rfl)

/-- Rows `62500 * 7 + t` of the result: region 7's scores. -/
theorem result_at7 (hpre : PreArgs m) (hO : Oks m) (c : Dev nD) (t : Fin 62500) :
    (V33 m (outsR m hO) c main_v67 : S1000000x1.Idx → EReal) (ValueIdx.ix2 ⟨62500 * 7 + t.val, by omega⟩ (0 : Fin 1))
      = Cert.Spec.score (m ((c.tc : Thread nD τ).loc main_arg0)) (m ((c.tc : Thread nD τ).loc main_arg3))
          (m ((c.tc : Thread nD τ).loc main_arg4)) (rowS m hpre c ⟨62500 * 7 + t.val, by omega⟩)
          (rowD m hpre c ⟨62500 * 7 + t.val, by omega⟩) :=
  arm m hpre c ⟨62500 * 7 + t.val, by omega⟩ _ _ _ (tbl7_src_at m t) (tbl7_dst_at m t)
    (Ve7 m c main_v1) (Ve7 m c main_arg3) (Ve7 m c main_v0) _ _ _
    (fun r j => ent7_h m (outsL m) c r j) (ent7_W m (outsL m) c) (ent7_b m (outsL m) c)
    (fun rs rd hrs hrd => by
      rw [tail7_at, outsR_7]
      exact chunk7_at m hO c t rs rd hrs hrd _ _ _ rfl rfl rfl)

/-- Rows `62500 * 8 + t` of the result: region 8's scores. -/
theorem result_at8 (hpre : PreArgs m) (hO : Oks m) (c : Dev nD) (t : Fin 62500) :
    (V33 m (outsR m hO) c main_v67 : S1000000x1.Idx → EReal) (ValueIdx.ix2 ⟨62500 * 8 + t.val, by omega⟩ (0 : Fin 1))
      = Cert.Spec.score (m ((c.tc : Thread nD τ).loc main_arg0)) (m ((c.tc : Thread nD τ).loc main_arg3))
          (m ((c.tc : Thread nD τ).loc main_arg4)) (rowS m hpre c ⟨62500 * 8 + t.val, by omega⟩)
          (rowD m hpre c ⟨62500 * 8 + t.val, by omega⟩) :=
  arm m hpre c ⟨62500 * 8 + t.val, by omega⟩ _ _ _ (tbl8_src_at m t) (tbl8_dst_at m t)
    (Ve8 m c main_v1) (Ve8 m c main_arg3) (Ve8 m c main_v0) _ _ _
    (fun r j => ent8_h m (outsL m) c r j) (ent8_W m (outsL m) c) (ent8_b m (outsL m) c)
    (fun rs rd hrs hrd => by
      rw [tail8_at, outsR_8]
      exact chunk8_at m hO c t rs rd hrs hrd _ _ _ rfl rfl rfl)

/-- Rows `62500 * 9 + t` of the result: region 9's scores. -/
theorem result_at9 (hpre : PreArgs m) (hO : Oks m) (c : Dev nD) (t : Fin 62500) :
    (V33 m (outsR m hO) c main_v67 : S1000000x1.Idx → EReal) (ValueIdx.ix2 ⟨62500 * 9 + t.val, by omega⟩ (0 : Fin 1))
      = Cert.Spec.score (m ((c.tc : Thread nD τ).loc main_arg0)) (m ((c.tc : Thread nD τ).loc main_arg3))
          (m ((c.tc : Thread nD τ).loc main_arg4)) (rowS m hpre c ⟨62500 * 9 + t.val, by omega⟩)
          (rowD m hpre c ⟨62500 * 9 + t.val, by omega⟩) :=
  arm m hpre c ⟨62500 * 9 + t.val, by omega⟩ _ _ _ (tbl9_src_at m t) (tbl9_dst_at m t)
    (Ve9 m c main_v1) (Ve9 m c main_arg3) (Ve9 m c main_v0) _ _ _
    (fun r j => ent9_h m (outsL m) c r j) (ent9_W m (outsL m) c) (ent9_b m (outsL m) c)
    (fun rs rd hrs hrd => by
      rw [tail9_at, outsR_9]
      exact chunk9_at m hO c t rs rd hrs hrd _ _ _ rfl rfl rfl)

/-- Rows `62500 * 10 + t` of the result: region 10's scores. -/
theorem result_at10 (hpre : PreArgs m) (hO : Oks m) (c : Dev nD) (t : Fin 62500) :
    (V33 m (outsR m hO) c main_v67 : S1000000x1.Idx → EReal) (ValueIdx.ix2 ⟨62500 * 10 + t.val, by omega⟩ (0 : Fin 1))
      = Cert.Spec.score (m ((c.tc : Thread nD τ).loc main_arg0)) (m ((c.tc : Thread nD τ).loc main_arg3))
          (m ((c.tc : Thread nD τ).loc main_arg4)) (rowS m hpre c ⟨62500 * 10 + t.val, by omega⟩)
          (rowD m hpre c ⟨62500 * 10 + t.val, by omega⟩) :=
  arm m hpre c ⟨62500 * 10 + t.val, by omega⟩ _ _ _ (tbl10_src_at m t) (tbl10_dst_at m t)
    (Ve10 m c main_v1) (Ve10 m c main_arg3) (Ve10 m c main_v0) _ _ _
    (fun r j => ent10_h m (outsL m) c r j) (ent10_W m (outsL m) c) (ent10_b m (outsL m) c)
    (fun rs rd hrs hrd => by
      rw [tail10_at, outsR_10]
      exact chunk10_at m hO c t rs rd hrs hrd _ _ _ rfl rfl rfl)

/-- Rows `62500 * 11 + t` of the result: region 11's scores. -/
theorem result_at11 (hpre : PreArgs m) (hO : Oks m) (c : Dev nD) (t : Fin 62500) :
    (V33 m (outsR m hO) c main_v67 : S1000000x1.Idx → EReal) (ValueIdx.ix2 ⟨62500 * 11 + t.val, by omega⟩ (0 : Fin 1))
      = Cert.Spec.score (m ((c.tc : Thread nD τ).loc main_arg0)) (m ((c.tc : Thread nD τ).loc main_arg3))
          (m ((c.tc : Thread nD τ).loc main_arg4)) (rowS m hpre c ⟨62500 * 11 + t.val, by omega⟩)
          (rowD m hpre c ⟨62500 * 11 + t.val, by omega⟩) :=
  arm m hpre c ⟨62500 * 11 + t.val, by omega⟩ _ _ _ (tbl11_src_at m t) (tbl11_dst_at m t)
    (Ve11 m c main_v1) (Ve11 m c main_arg3) (Ve11 m c main_v0) _ _ _
    (fun r j => ent11_h m (outsL m) c r j) (ent11_W m (outsL m) c) (ent11_b m (outsL m) c)
    (fun rs rd hrs hrd => by
      rw [tail11_at, outsR_11]
      exact chunk11_at m hO c t rs rd hrs hrd _ _ _ rfl rfl rfl)

/-- Rows `62500 * 12 + t` of the result: region 12's scores. -/
theorem result_at12 (hpre : PreArgs m) (hO : Oks m) (c : Dev nD) (t : Fin 62500) :
    (V33 m (outsR m hO) c main_v67 : S1000000x1.Idx → EReal) (ValueIdx.ix2 ⟨62500 * 12 + t.val, by omega⟩ (0 : Fin 1))
      = Cert.Spec.score (m ((c.tc : Thread nD τ).loc main_arg0)) (m ((c.tc : Thread nD τ).loc main_arg3))
          (m ((c.tc : Thread nD τ).loc main_arg4)) (rowS m hpre c ⟨62500 * 12 + t.val, by omega⟩)
          (rowD m hpre c ⟨62500 * 12 + t.val, by omega⟩) :=
  arm m hpre c ⟨62500 * 12 + t.val, by omega⟩ _ _ _ (tbl12_src_at m t) (tbl12_dst_at m t)
    (Ve12 m c main_v1) (Ve12 m c main_arg3) (Ve12 m c main_v0) _ _ _
    (fun r j => ent12_h m (outsL m) c r j) (ent12_W m (outsL m) c) (ent12_b m (outsL m) c)
    (fun rs rd hrs hrd => by
      rw [tail12_at, outsR_12]
      exact chunk12_at m hO c t rs rd hrs hrd _ _ _ rfl rfl rfl)

/-- Rows `62500 * 13 + t` of the result: region 13's scores. -/
theorem result_at13 (hpre : PreArgs m) (hO : Oks m) (c : Dev nD) (t : Fin 62500) :
    (V33 m (outsR m hO) c main_v67 : S1000000x1.Idx → EReal) (ValueIdx.ix2 ⟨62500 * 13 + t.val, by omega⟩ (0 : Fin 1))
      = Cert.Spec.score (m ((c.tc : Thread nD τ).loc main_arg0)) (m ((c.tc : Thread nD τ).loc main_arg3))
          (m ((c.tc : Thread nD τ).loc main_arg4)) (rowS m hpre c ⟨62500 * 13 + t.val, by omega⟩)
          (rowD m hpre c ⟨62500 * 13 + t.val, by omega⟩) :=
  arm m hpre c ⟨62500 * 13 + t.val, by omega⟩ _ _ _ (tbl13_src_at m t) (tbl13_dst_at m t)
    (Ve13 m c main_v1) (Ve13 m c main_arg3) (Ve13 m c main_v0) _ _ _
    (fun r j => ent13_h m (outsL m) c r j) (ent13_W m (outsL m) c) (ent13_b m (outsL m) c)
    (fun rs rd hrs hrd => by
      rw [tail13_at, outsR_13]
      exact chunk13_at m hO c t rs rd hrs hrd _ _ _ rfl rfl rfl)

/-- Rows `62500 * 14 + t` of the result: region 14's scores. -/
theorem result_at14 (hpre : PreArgs m) (hO : Oks m) (c : Dev nD) (t : Fin 62500) :
    (V33 m (outsR m hO) c main_v67 : S1000000x1.Idx → EReal) (ValueIdx.ix2 ⟨62500 * 14 + t.val, by omega⟩ (0 : Fin 1))
      = Cert.Spec.score (m ((c.tc : Thread nD τ).loc main_arg0)) (m ((c.tc : Thread nD τ).loc main_arg3))
          (m ((c.tc : Thread nD τ).loc main_arg4)) (rowS m hpre c ⟨62500 * 14 + t.val, by omega⟩)
          (rowD m hpre c ⟨62500 * 14 + t.val, by omega⟩) :=
  arm m hpre c ⟨62500 * 14 + t.val, by omega⟩ _ _ _ (tbl14_src_at m t) (tbl14_dst_at m t)
    (Ve14 m c main_v1) (Ve14 m c main_arg3) (Ve14 m c main_v0) _ _ _
    (fun r j => ent14_h m (outsL m) c r j) (ent14_W m (outsL m) c) (ent14_b m (outsL m) c)
    (fun rs rd hrs hrd => by
      rw [tail14_at, outsR_14]
      exact chunk14_at m hO c t rs rd hrs hrd _ _ _ rfl rfl rfl)

/-- Rows `62500 * 15 + t` of the result: region 15's scores. -/
theorem result_at15 (hpre : PreArgs m) (hO : Oks m) (c : Dev nD) (t : Fin 62500) :
    (V33 m (outsR m hO) c main_v67 : S1000000x1.Idx → EReal) (ValueIdx.ix2 ⟨62500 * 15 + t.val, by omega⟩ (0 : Fin 1))
      = Cert.Spec.score (m ((c.tc : Thread nD τ).loc main_arg0)) (m ((c.tc : Thread nD τ).loc main_arg3))
          (m ((c.tc : Thread nD τ).loc main_arg4)) (rowS m hpre c ⟨62500 * 15 + t.val, by omega⟩)
          (rowD m hpre c ⟨62500 * 15 + t.val, by omega⟩) :=
  arm m hpre c ⟨62500 * 15 + t.val, by omega⟩ _ _ _ (tbl15_src_at m t) (tbl15_dst_at m t)
    (Ve15 m c main_v1) (Ve15 m c main_arg3) (Ve15 m c main_v0) _ _ _
    (fun r j => ent15_h m (outsL m) c r j) (ent15_W m (outsL m) c) (ent15_b m (outsL m) c)
    (fun rs rd hrs hrd => by
      rw [tail15_at, outsR_15]
      exact chunk15_at m hO c t rs rd hrs hrd _ _ _ rfl rfl rfl)

end Cert.KernelIdeal.Hand
-- ==== Proof.KIBridge.lean ====
/-
  The kernel program's result array is the specification.

  Row `e` of the result, `e = 62500 * k + t` with `k` below 16 and `t` below 62500, was written by region `k` at its
  entry `t`; the sixteen regions' entries are the specification's scores of their edges, so the whole array is the
  specification's `scores`, the edges' rows read off the two index inputs.
-/
import proofs.«405368_j31662498906597_2_alg».proof.Proof.KIBridgeArms

set_option maxRecDepth 16384

noncomputable section

namespace Cert.KernelIdeal.Hand

open Idealize.ShloMosaic Idealize.ShloMosaic.TcCoe
open Cert.KernelIdeal Cert.KernelIdeal.Gen
open scoped BigOperators

variable [Cert.Pre_finite_inputs.Facts] (m : (ℓ : Loc nD τ sig) → Buf (Elt Ideal) ℓ)

/-- **The program's result array is the specification's scores**, the edges' rows read off the two index inputs: row
    `e = 62500 * k + t` was written by region `k` at its entry `t`. -/
theorem result_eq (hpre : PreArgs m) (hO : Oks m) (c : Dev nD) :
    (V33 m (outsR m hO) c main_v67 : S1000000x1.Idx → EReal)
      = Cert.Spec.scores (m ((c.tc : Thread nD τ).loc main_arg0)) (m ((c.tc : Thread nD τ).loc main_arg3))
          (m ((c.tc : Thread nD τ).loc main_arg4)) (rowS m hpre c) (rowD m hpre c) := by
  funext i
  have h0 : (i 0).val < 1000000 := (i 0).isLt
  have h1 : (i 1).val < 1 := (i 1).isLt
  obtain ⟨k, hk, t, he⟩ : ∃ k, k < 16 ∧ ∃ t : Fin 62500, (i 0).val = 62500 * k + t.val :=
    ⟨(i 0).val / 62500, by omega, ⟨(i 0).val % 62500, by omega⟩, by
      show (i 0).val = 62500 * ((i 0).val / 62500) + (i 0).val % 62500
      omega⟩
  have hi : i = ValueIdx.ix2 (⟨62500 * k + t.val, idx_lt k hk t⟩ : Fin 1000000) (0 : Fin 1) := by
    funext a
    match a with
    | ⟨0, _⟩ => exact Fin.ext he
    | ⟨1, _⟩ => exact Fin.ext (by show (i 1).val = 0; omega)
  rw [hi]
  show _ = Cert.Spec.score _ _ _ (rowS m hpre c ⟨62500 * k + t.val, idx_lt k hk t⟩)
    (rowD m hpre c ⟨62500 * k + t.val, idx_lt k hk t⟩)
  interval_cases k
  · exact result_at0 m hpre hO c t
  · exact result_at1 m hpre hO c t
  · exact result_at2 m hpre hO c t
  · exact result_at3 m hpre hO c t
  · exact result_at4 m hpre hO c t
  · exact result_at5 m hpre hO c t
  · exact result_at6 m hpre hO c t
  · exact result_at7 m hpre hO c t
  · exact result_at8 m hpre hO c t
  · exact result_at9 m hpre hO c t
  · exact result_at10 m hpre hO c t
  · exact result_at11 m hpre hO c t
  · exact result_at12 m hpre hO c t
  · exact result_at13 m hpre hO c t
  · exact result_at14 m hpre hO c t
  · exact result_at15 m hpre hO c t

end Cert.KernelIdeal.Hand
-- ==== Proof.LibGatherRows.lean ====
/-
  The host's gather of whole rows, read at an index, at generic extents.
  `gather_rows_apply` — an [R, D] matrix indexed by an [N, 1] column of 32-bit words (`x[idx]` of a matrix: axis 1
  of the result an offset axis running over the whole row, the operand's axis 0 collapsed and named by the start
  index, the index vector on axis 1 of the start indices, slices of one row): entry `(n, j)` of the result is the
  operand at row `idx (n, 0)`, read signed and clamped into `[0, R - 1]`, and column `j`.
-/
import Idealize.ShloMosaic.PureOps.ShapeOps
import Idealize.ShloMosaic.Lib.ValueIdx

noncomputable section

namespace Cert.LibGatherRows

open Idealize.ShloMosaic Idealize.ShloMosaic.ValueIdx

/-- The dimension numbers of the row layout (operand `[R, D]`, start indices `[N, 1]`, result `[N, D]`). -/
private abbrev rowDims (R D N : ℕ)
    (wf : GatherDims.WF (⟨2, ![R, D]⟩ : Shape) (⟨2, ![N, 1]⟩ : Shape) (⟨2, ![N, D]⟩ : Shape) [1] [0] [] [0] [] 1 ![1, D]) :
    GatherDims (⟨2, ![R, D]⟩ : Shape) (⟨2, ![N, 1]⟩ : Shape) (⟨2, ![N, D]⟩ : Shape) :=
  ⟨[1], [0], [], [], [0], 1, ![1, D], wf⟩

/-- Rows of a matrix indexed by a column of words. Axis 0 of the operand is collapsed and named by the start index
    map (its start is the word `idx (n, 0)` read as a signed integer and clamped into `[0, R - 1]`, the slice being
    one row); axis 1 is the one kept axis, read by the result's offset axis 1 from start 0 (the slice is the whole
    row): entry `(n, j)` of the gather is the operand at that row and column `j`. -/
theorem gather_rows_apply {α : Type} {R D N : ℕ} (hR : 0 < R)
    (d : GatherDims (⟨2, ![R, D]⟩ : Shape) (⟨2, ![N, 1]⟩ : Shape) (⟨2, ![N, D]⟩ : Shape))
    (hod : d.offsetDims = [1]) (hcs : d.collapsedSliceDims = [0]) (hob : d.operandBatchingDims = [])
    (hsb : d.startIndicesBatchingDims = []) (hsim : d.startIndexMap = [0]) (hiv : d.indexVectorDim = 1)
    (hss : d.sliceSizes = ![1, D])
    (x : (⟨2, ![R, D]⟩ : Shape).Idx → α) (idx : IVec (⟨2, ![N, 1]⟩ : Shape) 32) (n : Fin N) (j : Fin D) :
    Host.gather d x idx (ix2 n j)
      = x (ix2 ⟨min (idx (ix2 n (0 : Fin 1))).toInt.toNat (R - 1), by omega⟩ j) := by
  obtain ⟨od, cs, ob, sb, sim, iv, ss, wf⟩ := d
  dsimp only at hod hcs hob hsb hsim hiv hss
  subst hod hcs hob hsb hsim hiv hss
  unfold Host.gather
  congr 1
  funext a
  refine Fin.ext ?_
  match a with
  | ⟨0, _⟩ =>
    show (rowDims R D N wf).start (ix2 n j) idx 0 + (rowDims R D N wf).batchCoord (ix2 n j) 0
      + (rowDims R D N wf).offCoord (ix2 n j) 0 = min (idx (ix2 n (0 : Fin 1))).toInt.toNat (R - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims R D N wf).startIndexMap from List.mem_singleton.mpr rfl)]
    have hsi : ∀ c, (rowDims R D N wf).siIdx (ix2 n j) c = ix2 n (0 : Fin 1) := by
      intro c
      funext b; refine Fin.ext ?_
      match b with
      | ⟨0, _⟩ => rfl
      | ⟨1, _⟩ => exact Nat.lt_one_iff.mp c.isLt
    rw [hsi]
    rfl
  | ⟨1, _⟩ =>
    show (rowDims R D N wf).start (ix2 n j) idx 1 + (rowDims R D N wf).batchCoord (ix2 n j) 1
      + (rowDims R D N wf).offCoord (ix2 n j) 1 = j.val
    have hns : (1 : Fin 2) ∉ (rowDims R D N wf).startIndexMap :=
      fun h => Nat.one_ne_zero (congrArg Fin.val (List.mem_singleton.mp h))
    rw [GatherDims.batchCoord_eq_zero _ _ _ List.not_mem_nil]
    unfold GatherDims.start
    rw [dif_neg hns]
    simp only [Nat.add_zero, Nat.zero_add]
    have hk : (1 : Fin 2) ∈ (rowDims R D N wf).sKept :=
      (GatherDims.mem_sKept _ _).mpr ⟨fun h => Nat.one_ne_zero (congrArg Fin.val (List.mem_singleton.mp h)), List.not_mem_nil⟩
    unfold GatherDims.offCoord
    rw [dif_pos hk]
    rfl

end Cert.LibGatherRows

end
-- ==== Proof.RefScore.lean ====
/-
  The reference's result, index by index, is the specification's scores.

  The reference normalises each index word (a negative word has 100000 added), gathers the named rows of the
  node-feature matrix twice, lays the two gathered rows side by side into one row of 256, contracts it with the
  256 weights and adds the bias. When the index words are in-range row numbers the normalisation is the identity and
  the gather's clamp is the identity, so entry (e, 0) is the 256-term inner product of the two rows of edge e with
  the weights, plus the bias; splitting the 256-term sum into its first and last 128 terms gives the specification.
-/
import proofs.«405368_j31662498906597_2_alg».proof.Proof.Gen.ReferenceIdeal.Read
import proofs.«405368_j31662498906597_2_alg».proof.Proof.Spec
import proofs.«405368_j31662498906597_2_alg».proof.Proof.LibGatherRows

noncomputable section

open scoped BigOperators

namespace Cert.RefScore

open Cert.ReferenceIdeal Cert.ReferenceIdeal.Gen Cert.ReferenceIdeal.Read Idealize.ShloMosaic Idealize.ShloMosaic.ValueIdx

/-- A word that reads as a nonnegative integer is not below zero, so the select on "below zero" keeps it. -/
theorem select_of_nonneg (w a : BitVec 32) (h : 0 ≤ w.toInt) :
    Scalar.select (IntOp.cmpi .slt w 0#32) a w = w := by
  have hlt : w.slt 0#32 = false := by
    simp only [BitVec.slt, BitVec.toInt_zero, decide_eq_false_iff_not, Int.not_lt]
    exact h
  show (if BitVec.ofBool (w.slt 0#32) = 1 then a else w) = w
  rw [hlt]
  exact if_neg (by decide)

/-- The first normalised index column at (e, 0) is the word itself when the word is a row number. -/
theorem word_v5 (x : IVec S1000000 32) (r : Fin 1000000 → Fin 100000)
    (h : ∀ e : Fin 1000000, (x (ix1 e)).toInt = ((r e).val : ℤ)) (e : Fin 1000000) :
    val_main_v5 (F := Ideal) x (ix2 e (0 : Fin 1)) = x (ix1 e) := by
  have he : idx_main_v5 (ix2 e (0 : Fin 1)) = ix1 e := by
    funext a
    match a with
    | ⟨0, _⟩ => rfl
  rw [val_main_v5_apply, val_main_v4_apply, val_main_v1_apply, val_main_v0_apply, val_main_c_apply, he]
  exact select_of_nonneg _ _ (by rw [h e]; exact Int.natCast_nonneg _)

/-- The second normalised index column at (e, 0) is the word itself when the word is a row number. -/
theorem word_v12 (x : IVec S1000000 32) (r : Fin 1000000 → Fin 100000)
    (h : ∀ e : Fin 1000000, (x (ix1 e)).toInt = ((r e).val : ℤ)) (e : Fin 1000000) :
    val_main_v12 (F := Ideal) x (ix2 e (0 : Fin 1)) = x (ix1 e) := by
  have he : idx_main_v12 (ix2 e (0 : Fin 1)) = ix1 e := by
    funext a
    match a with
    | ⟨0, _⟩ => rfl
  rw [val_main_v12_apply, val_main_v11_apply, val_main_v8_apply, val_main_v7_apply, val_main_c_1_apply, he]
  exact select_of_nonneg _ _ (by rw [h e]; exact Int.natCast_nonneg _)

/-- A row number below 100000, read back from its word and clamped into the rows, is itself. -/
theorem clamp_row (w : BitVec 32) (r : Fin 100000) (h : w.toInt = (r.val : ℤ)) :
    min w.toInt.toNat (100000 - 1) = r.val := by
  have := r.isLt
  rw [h, Int.toNat_natCast]
  omega

/-- The first gather at (e, j) is row (rs e) of the matrix at column j. -/
theorem gather_v6 (x0 : FVec Ideal S100000x128 .f32) (x1 : IVec S1000000 32) (rs : Fin 1000000 → Fin 100000)
    (hs : ∀ e : Fin 1000000, (x1 (ix1 e)).toInt = ((rs e).val : ℤ)) (e : Fin 1000000) (j : Fin 128) :
    val_main_v6 (F := Ideal) x0 x1 (ix2 e j) = x0 (ix2 (rs e) j) := by
  unfold val_main_v6
  rw [Cert.LibGatherRows.gather_rows_apply (R := 100000) (D := 128) (N := 1000000) (by decide)
    gather_S100000x128_S1000000x1_S1000000x128_1_0_n_n_0_1_1128 rfl rfl rfl rfl rfl rfl rfl]
  congr 2
  refine Fin.ext ?_
  show min (val_main_v5 (F := Ideal) x1 (ix2 e (0 : Fin 1))).toInt.toNat (100000 - 1) = (rs e).val
  rw [word_v5 x1 rs hs e]
  exact clamp_row _ _ (hs e)

/-- The second gather at (e, j) is row (rd e) of the matrix at column j. -/
theorem gather_v13 (x0 : FVec Ideal S100000x128 .f32) (x2 : IVec S1000000 32) (rd : Fin 1000000 → Fin 100000)
    (hd : ∀ e : Fin 1000000, (x2 (ix1 e)).toInt = ((rd e).val : ℤ)) (e : Fin 1000000) (j : Fin 128) :
    val_main_v13 (F := Ideal) x0 x2 (ix2 e j) = x0 (ix2 (rd e) j) := by
  unfold val_main_v13
  rw [Cert.LibGatherRows.gather_rows_apply (R := 100000) (D := 128) (N := 1000000) (by decide)
    gather_S100000x128_S1000000x1_S1000000x128_1_0_n_n_0_1_1128 rfl rfl rfl rfl rfl rfl rfl]
  congr 2
  refine Fin.ext ?_
  show min (val_main_v12 (F := Ideal) x2 (ix2 e (0 : Fin 1))).toInt.toNat (100000 - 1) = (rd e).val
  rw [word_v12 x2 rd hd e]
  exact clamp_row _ _ (hd e)

/-- The joined row at a column of the first half reads the first piece at that column. -/
theorem concat_lo (x0 : FVec Ideal S100000x128 .f32) (x1 x2 : IVec S1000000 32) (e : Fin 1000000) (j : Fin 128) :
    val_main_v14 (F := Ideal) x0 x1 x2 (ix2 e (Cert.Spec.lo j)) = val_main_v6 (F := Ideal) x0 x1 (ix2 e j) := by
  unfold val_main_v14
  generalize val_main_v6 (F := Ideal) x0 x1 = y0
  generalize val_main_v13 (F := Ideal) x0 x2 = y1
  exact concatenate_pair_apply_left (1 : Fin S1000000x256.rank) y0 y1
    concatenates_S1000000x128_S1000000x128_S1000000x256_d1 _ rfl _ (fun b => by
      match b with
      | ⟨0, _⟩ => rfl
      | ⟨1, _⟩ => rfl)

/-- The joined row at a column of the second half reads the second piece at that column less 128. -/
theorem concat_hi (x0 : FVec Ideal S100000x128 .f32) (x1 x2 : IVec S1000000 32) (e : Fin 1000000) (j : Fin 128) :
    val_main_v14 (F := Ideal) x0 x1 x2 (ix2 e (Cert.Spec.hi j)) = val_main_v13 (F := Ideal) x0 x2 (ix2 e j) := by
  unfold val_main_v14
  generalize val_main_v6 (F := Ideal) x0 x1 = y0
  generalize val_main_v13 (F := Ideal) x0 x2 = y1
  exact concatenate_pair_apply_right (1 : Fin S1000000x256.rank) y0 y1
    concatenates_S1000000x128_S1000000x128_S1000000x256_d1 _ rfl rfl _
    (fun b hb => by
      match b with
      | ⟨0, _⟩ => rfl
      | ⟨1, _⟩ => exact absurd rfl hb)
    (by show j.val + 128 = 128 + j.val; omega)

/-- The contraction's left index at result (e, 0) and term k is (e, k). -/
theorem lidx_eq (e : Fin 1000000) (k : Fin 256) : lidx_main_v16 (ix2 e (0 : Fin 1)) k = ix2 e k := by
  funext a
  match a with
  | ⟨0, _⟩ => rfl
  | ⟨1, _⟩ => rfl

/-- The contraction's right index at result (e, 0) and term k, read through the transpose, is (0, k). -/
theorem ridx_eq (e : Fin 1000000) (k : Fin 256) :
    idx_main_v15 (ridx_main_v16 (ix2 e (0 : Fin 1)) k) = ix2 (0 : Fin 1) k := by
  funext a
  match a with
  | ⟨0, _⟩ => rfl
  | ⟨1, _⟩ => rfl

/-- The bias broadcast reads the one bias everywhere. -/
theorem bias_eq (i : S1000000x1.Idx) : idx_main_v17 (idx_main_v18 i) = ix1 (0 : Fin 1) := by
  funext a
  match a with
  | ⟨0, _⟩ => rfl

/-- The reference's result is the specification's scores, when the index words are the in-range row numbers. -/
theorem ref_scores (x0 : FVec Ideal S100000x128 .f32) (x1 x2 : IVec S1000000 32) (x3 : FVec Ideal S1x256 .f32)
    (x4 : FVec Ideal S1 .f32) (rs rd : Fin 1000000 → Fin 100000)
    (hs : ∀ e : Fin 1000000, (x1 (ix1 e)).toInt = ((rs e).val : ℤ))
    (hd : ∀ e : Fin 1000000, (x2 (ix1 e)).toInt = ((rd e).val : ℤ)) :
    addf (F := Ideal) (Host.dotGeneral dot_S1000000x256_S256x1_S1000000x1_1_0_0_1_n_n none (concatenate S1000000x256 1 [⟨S1000000x128, (Host.gather gather_S100000x128_S1000000x1_S1000000x128_1_0_n_n_0_1_1128 (x0) (broadcastInDim S1000000x1 ![0] bcast_S1000000_S1000000x1_0 (select (cmpi .slt (x1) (broadcastInDim S1000000 ![] bcast_S_S1000000 (constantI S_ 32 0#32))) (addi (x1) (broadcastInDim S1000000 ![] bcast_S_S1000000 (constantI S_ 32 100000#32))) (x1))))⟩, ⟨S1000000x128, (Host.gather gather_S100000x128_S1000000x1_S1000000x128_1_0_n_n_0_1_1128 (x0) (broadcastInDim S1000000x1 ![0] bcast_S1000000_S1000000x1_0 (select (cmpi .slt (x2) (broadcastInDim S1000000 ![] bcast_S_S1000000 (constantI S_ 32 0#32))) (addi (x2) (broadcastInDim S1000000 ![] bcast_S_S1000000 (constantI S_ 32 100000#32))) (x2))))⟩] concatenates_S1000000x128_S1000000x128_S1000000x256_d1) (transpose S256x1 [1, 0] (x3) transposes_S1x256_S256x1_1_0)) (broadcastInDim S1000000x1 ![0, 1] bcast_S1x1_S1000000x1_0_1 (broadcastInDim S1x1 ![1] bcast_S1_S1x1_1 (x4)))
      = Cert.Spec.scores x0 x3 x4 rs rd := by
  refine (val_main_v19_eq (F := Ideal) x0 x1 x2 x3 x4).trans ?_
  funext i
  obtain ⟨e, z, rfl⟩ : ∃ (e : Fin 1000000) (z : Fin 1), i = ix2 e z := ⟨i 0, i 1, eq_ix2 i⟩
  obtain rfl : z = 0 := Subsingleton.elim _ _
  rw [val_main_v19_apply, val_main_v16_apply, val_main_v18_apply, val_main_v17_apply, bias_eq,
    Cert.Spec.sum_256_split]
  simp only [lidx_eq, ridx_eq, val_main_v15_apply, concat_lo, concat_hi, gather_v6 x0 x1 rs hs,
    gather_v13 x0 x2 rd hd, Ideal.addf_def]
  rfl

end Cert.RefScore

end
-- ==== Proof.lean ====
/-
  The edge scorer's kernel is equivalent to its jnp reference over the extended reals.

  The kernel scores one million edges in sixteen chunks of 62500: for edge `e` it gathers row `src e` and row `dst e` of
  the node-feature matrix (one row per grid point, through two prefetched index tables), multiplies them with the two
  halves of the 256 weights, sums, and adds the bias. The reference concatenates the two gathered rows and multiplies
  with the transposed weights. Both are `(∑ j<128, h[src e, j]·W[0, j]) + (∑ j<128, h[dst e, j]·W[0, 128+j]) + b[0]`: the
  reference's 256-term sum regrouped into its two halves, which only needs that addition of extended reals is
  commutative and associative. The precondition says every float input is finite (not used) and every index lies in
  `[0, 100000)`: outside that range the reference indexes out of range and the kernel's row block lies outside the array.

  Frames: each kernel program runs as seventeen host stretches around sixteen pipelined regions; each region's record
  is proved once (region 0) and laid out for the other fifteen; the reference's frame is its generated run.
-/
import proofs.«405368_j31662498906597_2_alg».proof.Defs
import proofs.«405368_j31662498906597_2_alg».proof.Proof.Gen.Kernel
import proofs.«405368_j31662498906597_2_alg».proof.Proof.Gen.KernelIdeal
import proofs.«405368_j31662498906597_2_alg».proof.Proof.Gen.ReferenceIdeal
import proofs.«405368_j31662498906597_2_alg».proof.Proof.Gen.Pre_finite_inputs
import proofs.«405368_j31662498906597_2_alg».proof.Proof.Gen.ReferenceIdeal.Run
import proofs.«405368_j31662498906597_2_alg».proof.Proof.KFrame
import proofs.«405368_j31662498906597_2_alg».proof.Proof.KOksAll
import proofs.«405368_j31662498906597_2_alg».proof.Proof.KIFrame
import proofs.«405368_j31662498906597_2_alg».proof.Proof.KIOksAll
import proofs.«405368_j31662498906597_2_alg».proof.Proof.KIBridge
import proofs.«405368_j31662498906597_2_alg».proof.Proof.RefScore
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and leaves its arguments unchanged. -/
theorem frame_k : Cert.frame_Kernel := fun m g hpre =>
  Cert.Kernel.Hand.frame_all m (Cert.Kernel.Hand.oks_of_pre m hpre) g

/-- So does the idealized kernel. -/
theorem frame_ki : Cert.frame_KernelIdeal := fun m g hpre =>
  Cert.KernelIdeal.Hand.frame_all m (Cert.KernelIdeal.Hand.oks_of_pre m hpre) g

/-- The reference's frame is its run with the result dropped. -/
theorem frame_ri : Cert.frame_ReferenceIdeal := fun m g _ =>
  (θ_run Cert.ReferenceIdeal.defs _ _).mono (fun _ h c => (h c).2) (Cert.ReferenceIdeal.Value.run (F := Ideal) m g)

/-- Both idealized programs end with the specification's scores of the same arguments. -/
theorem algebraic : Cert.algebraic_KernelIdeal_ReferenceIdeal := by
  intro m g m' g' hpre hagree
  have hO := Cert.KernelIdeal.Hand.oks_of_pre m hpre
  refine ⟨fun c => Cert.KernelIdeal.Gen.V33 m (Cert.KernelIdeal.Hand.outsR m hO) c Cert.KernelIdeal.main_v67, ?_, ?_⟩
  · refine (θ_run (Cert.KernelIdeal.defs (F := Ideal)) _ _).mono (fun _ h c => ?_) (Cert.KernelIdeal.Hand.run_all m hO g)
    exact ⟨h c _ (Cert.KernelIdeal.Hand.mem_uc Cert.KernelIdeal.main_v67 (by decide)),
      (h c _ (Cert.KernelIdeal.Hand.mem_uc Cert.KernelIdeal.main_arg0 (by decide))).trans (Cert.KernelIdeal.Gen.V33_main_arg0 m _ c),
      (h c _ (Cert.KernelIdeal.Hand.mem_uc Cert.KernelIdeal.main_arg1 (by decide))).trans (Cert.KernelIdeal.Gen.V33_main_arg1 m _ c),
      (h c _ (Cert.KernelIdeal.Hand.mem_uc Cert.KernelIdeal.main_arg2 (by decide))).trans (Cert.KernelIdeal.Gen.V33_main_arg2 m _ c),
      (h c _ (Cert.KernelIdeal.Hand.mem_uc Cert.KernelIdeal.main_arg3 (by decide))).trans (Cert.KernelIdeal.Gen.V33_main_arg3 m _ c),
      (h c _ (Cert.KernelIdeal.Hand.mem_uc Cert.KernelIdeal.main_arg4 (by decide))).trans (Cert.KernelIdeal.Gen.V33_main_arg4 m _ c)⟩
  · refine (θ_run (Cert.ReferenceIdeal.defs (F := Ideal)) _ _).mono (fun _ h c => ⟨(h c).1.trans ?_, (h c).2⟩)
      (Cert.ReferenceIdeal.Value.run (F := Ideal) m' g')
    rw [(hagree c).1, (hagree c).2.1, (hagree c).2.2.1, (hagree c).2.2.2.1, (hagree c).2.2.2.2]
    refine (Cert.RefScore.ref_scores _ _ _ _ _ (Cert.KernelIdeal.Hand.rowS m hpre c) (Cert.KernelIdeal.Hand.rowD m hpre c)
      (fun e => Cert.IdxRange.src_toInt_eq _ _ _ _ _ (hpre c) e) (fun e => Cert.IdxRange.dst_toInt_eq _ _ _ _ _ (hpre c) e)).trans ?_
    exact (Cert.KernelIdeal.Hand.result_eq m hpre hO c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
